-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S16384x1024 : Shape := ⟨2, ![16384, 1024]⟩
abbrev S2x7x512x1024 : Shape := ⟨4, ![2, 7, 512, 1024]⟩
abbrev S2x512x1024 : Shape := ⟨3, ![2, 512, 1024]⟩
abbrev S2x14 : Shape := ⟨2, ![2, 14]⟩
abbrev S2x8 : Shape := ⟨2, ![2, 8]⟩
abbrev S2 : Shape := ⟨1, ![2]⟩
abbrev S_ : Shape := ⟨0, ![]⟩
abbrev S1x1 : Shape := ⟨2, ![1, 1]⟩
abbrev S1x1x512x1024 : Shape := ⟨4, ![1, 1, 512, 1024]⟩
abbrev S512x1024 : Shape := ⟨2, ![512, 1024]⟩
abbrev S1 : Shape := ⟨1, ![1]⟩
abbrev S1x512x1024 : Shape := ⟨3, ![1, 512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S2x7x512x1024, .f32⟩
  | .local _ .vmem, ⟨1, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  (ofTc nBuf bufTy 1 90 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_10 : BitVec 32 := 1#32
  let v27 : BitVec 32 := Scalar.addi v11 c1_i32_10
  let c16_i32_11 : BitVec 32 := 16#32
  let v28 : BitVec 32 := Scalar.addi v27 c16_i32_11
  let c8_i32 : BitVec 32 := 8#32
  let c0_i32_12 : BitVec 32 := 0#32
  let v29 : BitVec 1 := Scalar.cmpi .eq c8_i32 c0_i32_12
  let c1_i32_13 : BitVec 32 := 1#32
  let v30 : BitVec 32 := Scalar.select v29 c1_i32_13 c8_i32
  let v31 : BitVec 32 := Scalar.remsi v28 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c4_i32_17 : BitVec 32 := 4#32
  let c0_i32_20 : BitVec 32 := 0#32
  let v45 : BitVec 1 := Scalar.cmpi .sgt c4_i32_17 c0_i32_20
  let v46 : BitVec 32 := Scalar.extui v45
  let c0_i32_21 : BitVec 32 := 0#32
  let v47 : BitVec 1 := Scalar.cmpi .slt c4_i32_17 c0_i32_21
  let v48 : BitVec 32 := Scalar.extui v47
  let v49 : BitVec 32 := Scalar.subi v46 v48
  let v50 : BitVec 1 := Scalar.cmpi .ne v44 v49
  let v51 : BitVec 32 := Scalar.remsi v38 c4_i32_17
  let c0_i32_22 : BitVec 32 := 0#32
  let v52 : BitVec 1 := Scalar.cmpi .ne v51 c0_i32_22
  let v53 : BitVec 1 := Scalar.andi v50 v52
  let v39 : BitVec 32 := Scalar.divsi v38 c4_i32_17
  let c1_i32_23 : BitVec 32 := 1#32
  let v54 : BitVec 32 := Scalar.subi v39 c1_i32_23
  let v55 : BitVec 32 := Scalar.select v53 v54 v39
  let c16_i32_27 : BitVec 32 := 16#32
  let v59 : BitVec 32 := Scalar.muli v55 c16_i32_27
  let v60 : BitVec 32 := Scalar.addi c0_i32_28 v59
  let c0_i32_24 : BitVec 32 := 0#32
  let v56 : BitVec 1 := Scalar.cmpi .eq v55 c0_i32_24
  let c7_i32_25 : BitVec 32 := 7#32
  let v57 : BitVec 32 := Scalar.subi c7_i32_25 v38
  let v58 : BitVec 32 := Scalar.select v56 v38 v57
  let c4_i32_29 : BitVec 32 := 4#32
  let v61 : BitVec 32 := Scalar.muli v58 c4_i32_29
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v63 : BitVec 32 := Scalar.muli v8 c1_i32_30
  let v64 : BitVec 32 := Scalar.addi v62 v63
  v64.toNat
def k0_dev2 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32 : BitVec 32 := 4294967295#32
  let v65 : BitVec 32 := Scalar.addi v11 c_m1_i32
  let c16_i32_31 : BitVec 32 := 16#32
  let v66 : BitVec 32 := Scalar.addi v65 c16_i32_31
  let c8_i32_32 : BitVec 32 := 8#32
  let c0_i32_33 : BitVec 32 := 0#32
  let v67 : BitVec 1 := Scalar.cmpi .eq c8_i32_32 c0_i32_33
  let c1_i32_34 : BitVec 32 := 1#32
  let v68 : BitVec 32 := Scalar.select v67 c1_i32_34 c8_i32_32
  let v69 : BitVec 32 := Scalar.remsi v66 v68
  let c0_i32_36 : BitVec 32 := 0#32
  let v71 : BitVec 1 := Scalar.cmpi .slt v69 c0_i32_36
  let c0_i32_37 : BitVec 32 := 0#32
  let v72 : BitVec 1 := Scalar.cmpi .slt v68 c0_i32_37
  let v73 : BitVec 1 := Scalar.xori v71 v72
  let c0_i32_35 : BitVec 32 := 0#32
  let v70 : BitVec 1 := Scalar.cmpi .ne v69 c0_i32_35
  let v74 : BitVec 1 := Scalar.andi v73 v70
  let v75 : BitVec 32 := Scalar.addi v69 v68
  let v76 : BitVec 32 := Scalar.select v74 v75 v69
  let c0_i32_39 : BitVec 32 := 0#32
  let v78 : BitVec 1 := Scalar.cmpi .sgt v76 c0_i32_39
  let v79 : BitVec 32 := Scalar.extui v78
  let c0_i32_40 : BitVec 32 := 0#32
  let v80 : BitVec 1 := Scalar.cmpi .slt v76 c0_i32_40
  let v81 : BitVec 32 := Scalar.extui v80
  let v82 : BitVec 32 := Scalar.subi v79 v81
  let c4_i32_38 : BitVec 32 := 4#32
  let c0_i32_41 : BitVec 32 := 0#32
  let v83 : BitVec 1 := Scalar.cmpi .sgt c4_i32_38 c0_i32_41
  let v84 : BitVec 32 := Scalar.extui v83
  let c0_i32_42 : BitVec 32 := 0#32
  let v85 : BitVec 1 := Scalar.cmpi .slt c4_i32_38 c0_i32_42
  let v86 : BitVec 32 := Scalar.extui v85
  let v87 : BitVec 32 := Scalar.subi v84 v86
  let v88 : BitVec 1 := Scalar.cmpi .ne v82 v87
  let v89 : BitVec 32 := Scalar.remsi v76 c4_i32_38
  let c0_i32_43 : BitVec 32 := 0#32
  let v90 : BitVec 1 := Scalar.cmpi .ne v89 c0_i32_43
  let v91 : BitVec 1 := Scalar.andi v88 v90
  let v77 : BitVec 32 := Scalar.divsi v76 c4_i32_38
  let c1_i32_44 : BitVec 32 := 1#32
  let v92 : BitVec 32 := Scalar.subi v77 c1_i32_44
  let v93 : BitVec 32 := Scalar.select v91 v92 v77
  let c16_i32_48 : BitVec 32 := 16#32
  let v97 : BitVec 32 := Scalar.muli v93 c16_i32_48
  let v98 : BitVec 32 := Scalar.addi c0_i32_49 v97
  let c0_i32_45 : BitVec 32 := 0#32
  let v94 : BitVec 1 := Scalar.cmpi .eq v93 c0_i32_45
  let c7_i32_46 : BitVec 32 := 7#32
  let v95 : BitVec 32 := Scalar.subi c7_i32_46 v76
  let v96 : BitVec 32 := Scalar.select v94 v76 v95
  let c4_i32_50 : BitVec 32 := 4#32
  let v99 : BitVec 32 := Scalar.muli v96 c4_i32_50
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v101 : BitVec 32 := Scalar.muli v8 c1_i32_51
  let v102 : BitVec 32 := Scalar.addi v100 v101
  v102.toNat
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v103 : BitVec 32 := Scalar.muli v2 c16_i32_53
  let v104 : BitVec 32 := Scalar.addi c0_i32_54 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v105 : BitVec 32 := Scalar.muli v5 c4_i32_55
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_56 : BitVec 32 := 1#32
  let v107 : BitVec 32 := Scalar.muli v25 c1_i32_56
  let v108 : BitVec 32 := Scalar.addi v106 v107
  v108.toNat
def k0_off1 (d0 : Dev nD) (c0_i32_64 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c8192_i32 : BitVec 32 := 8192#32
  let v22 : BitVec 32 := Scalar.muli v21 c8192_i32
  let v120 : BitVec 32 := Scalar.addi v22 c0_i32_64
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c16_i32_57 : BitVec 32 := 16#32
  let v109 : BitVec 32 := Scalar.addi v11 c16_i32_57
  let c8_i32_58 : BitVec 32 := 8#32
  let c0_i32_59 : BitVec 32 := 0#32
  let v110 : BitVec 1 := Scalar.cmpi .eq c8_i32_58 c0_i32_59
  let c1_i32_60 : BitVec 32 := 1#32
  let v111 : BitVec 32 := Scalar.select v110 c1_i32_60 c8_i32_58
  let v112 : BitVec 32 := Scalar.remsi v109 v111
  let c0_i32_62 : BitVec 32 := 0#32
  let v114 : BitVec 1 := Scalar.cmpi .slt v112 c0_i32_62
  let c0_i32_63 : BitVec 32 := 0#32
  let v115 : BitVec 1 := Scalar.cmpi .slt v111 c0_i32_63
  let v116 : BitVec 1 := Scalar.xori v114 v115
  let c0_i32_61 : BitVec 32 := 0#32
  let v113 : BitVec 1 := Scalar.cmpi .ne v112 c0_i32_61
  let v117 : BitVec 1 := Scalar.andi v116 v113
  let v118 : BitVec 32 := Scalar.addi v112 v111
  let v119 : BitVec 32 := Scalar.select v117 v118 v112
  let c512_i32 : BitVec 32 := 512#32
  let v121 : BitVec 32 := Scalar.muli v119 c512_i32
  let v122 : BitVec 32 := Scalar.addi v120 v121
  let c0_i32_94 : BitVec 32 := 0#32
  ![v122.toNat, 0]
def k0_dev4 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_65 : BitVec 32 := 1#32
  let v123 : BitVec 32 := Scalar.addi v11 c1_i32_65
  let c16_i32_66 : BitVec 32 := 16#32
  let v124 : BitVec 32 := Scalar.addi v123 c16_i32_66
  let c8_i32_67 : BitVec 32 := 8#32
  let c0_i32_68 : BitVec 32 := 0#32
  let v125 : BitVec 1 := Scalar.cmpi .eq c8_i32_67 c0_i32_68
  let c1_i32_69 : BitVec 32 := 1#32
  let v126 : BitVec 32 := Scalar.select v125 c1_i32_69 c8_i32_67
  let v127 : BitVec 32 := Scalar.remsi v124 v126
  let c0_i32_71 : BitVec 32 := 0#32
  let v129 : BitVec 1 := Scalar.cmpi .slt v127 c0_i32_71
  let c0_i32_72 : BitVec 32 := 0#32
  let v130 : BitVec 1 := Scalar.cmpi .slt v126 c0_i32_72
  let v131 : BitVec 1 := Scalar.xori v129 v130
  let c0_i32_70 : BitVec 32 := 0#32
  let v128 : BitVec 1 := Scalar.cmpi .ne v127 c0_i32_70
  let v132 : BitVec 1 := Scalar.andi v131 v128
  let v133 : BitVec 32 := Scalar.addi v127 v126
  let v134 : BitVec 32 := Scalar.select v132 v133 v127
  let c0_i32_74 : BitVec 32 := 0#32
  let v136 : BitVec 1 := Scalar.cmpi .sgt v134 c0_i32_74
  let v137 : BitVec 32 := Scalar.extui v136
  let c0_i32_75 : BitVec 32 := 0#32
  let v138 : BitVec 1 := Scalar.cmpi .slt v134 c0_i32_75
  let v139 : BitVec 32 := Scalar.extui v138
  let v140 : BitVec 32 := Scalar.subi v137 v139
  let c4_i32_73 : BitVec 32 := 4#32
  let c0_i32_76 : BitVec 32 := 0#32
  let v141 : BitVec 1 := Scalar.cmpi .sgt c4_i32_73 c0_i32_76
  let v142 : BitVec 32 := Scalar.extui v141
  let c0_i32_77 : BitVec 32 := 0#32
  let v143 : BitVec 1 := Scalar.cmpi .slt c4_i32_73 c0_i32_77
  let v144 : BitVec 32 := Scalar.extui v143
  let v145 : BitVec 32 := Scalar.subi v142 v144
  let v146 : BitVec 1 := Scalar.cmpi .ne v140 v145
  let v147 : BitVec 32 := Scalar.remsi v134 c4_i32_73
  let c0_i32_78 : BitVec 32 := 0#32
  let v148 : BitVec 1 := Scalar.cmpi .ne v147 c0_i32_78
  let v149 : BitVec 1 := Scalar.andi v146 v148
  let v135 : BitVec 32 := Scalar.divsi v134 c4_i32_73
  let c1_i32_79 : BitVec 32 := 1#32
  let v150 : BitVec 32 := Scalar.subi v135 c1_i32_79
  let v151 : BitVec 32 := Scalar.select v149 v150 v135
  let c16_i32_88 : BitVec 32 := 16#32
  let v155 : BitVec 32 := Scalar.muli v151 c16_i32_88
  let v156 : BitVec 32 := Scalar.addi c0_i32_89 v155
  let c0_i32_80 : BitVec 32 := 0#32
  let v152 : BitVec 1 := Scalar.cmpi .eq v151 c0_i32_80
  let c7_i32_81 : BitVec 32 := 7#32
  let v153 : BitVec 32 := Scalar.subi c7_i32_81 v134
  let v154 : BitVec 32 := Scalar.select v152 v134 v153
  let c4_i32_90 : BitVec 32 := 4#32
  let v157 : BitVec 32 := Scalar.muli v154 c4_i32_90
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v159 : BitVec 32 := Scalar.muli v8 c1_i32_91
  let v160 : BitVec 32 := Scalar.addi v158 v159
  v160.toNat
def k0_off2 (d0 : Dev nD) (c0_i32_103 : BitVec 32) (c1_i32_95 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c8192_i32 : BitVec 32 := 8192#32
  let v22 : BitVec 32 := Scalar.muli v21 c8192_i32
  let v180 : BitVec 32 := Scalar.addi v22 c0_i32_103
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v168 : BitVec 32 := Scalar.subi v11 c1_i32_95
  let c16_i32_96 : BitVec 32 := 16#32
  let v169 : BitVec 32 := Scalar.addi v168 c16_i32_96
  let c8_i32_97 : BitVec 32 := 8#32
  let c0_i32_98 : BitVec 32 := 0#32
  let v170 : BitVec 1 := Scalar.cmpi .eq c8_i32_97 c0_i32_98
  let c1_i32_99 : BitVec 32 := 1#32
  let v171 : BitVec 32 := Scalar.select v170 c1_i32_99 c8_i32_97
  let v172 : BitVec 32 := Scalar.remsi v169 v171
  let c0_i32_101 : BitVec 32 := 0#32
  let v174 : BitVec 1 := Scalar.cmpi .slt v172 c0_i32_101
  let c0_i32_102 : BitVec 32 := 0#32
  let v175 : BitVec 1 := Scalar.cmpi .slt v171 c0_i32_102
  let v176 : BitVec 1 := Scalar.xori v174 v175
  let c0_i32_100 : BitVec 32 := 0#32
  let v173 : BitVec 1 := Scalar.cmpi .ne v172 c0_i32_100
  let v177 : BitVec 1 := Scalar.andi v176 v173
  let v178 : BitVec 32 := Scalar.addi v172 v171
  let v179 : BitVec 32 := Scalar.select v177 v178 v172
  let c512_i32_104 : BitVec 32 := 512#32
  let v181 : BitVec 32 := Scalar.muli v179 c512_i32_104
  let v182 : BitVec 32 := Scalar.addi v180 v181
  let c0_i32_109 : BitVec 32 := 0#32
  ![v182.toNat, 0]
def k0_off2_at (r : Fin 16) : BitVec 32 × BitVec 32 :=
  if r.val < 8 then
    if r.val < 4 then
      if r.val < 2 then
        if r.val < 1 then
          (0#32, 1#32)
        else
          (4096#32, 4294967295#32)
      else
        if r.val < 3 then
          (0#32, 2#32)
        else
          (4096#32, 4294967294#32)
    else
      if r.val < 6 then
        if r.val < 5 then
          (0#32, 3#32)
        else
          (4096#32, 4294967293#32)
      else
        if r.val < 7 then
          (0#32, 4#32)
        else
          (4096#32, 4294967292#32)
  else
    if r.val < 12 then
      if r.val < 10 then
        if r.val < 9 then
          (0#32, 5#32)
        else
          (4096#32, 4294967291#32)
      else
        if r.val < 11 then
          (0#32, 6#32)
        else
          (4096#32, 4294967290#32)
    else
      if r.val < 14 then
        if r.val < 13 then
          (0#32, 7#32)
        else
          (4096#32, 4294967289#32)
      else
        if r.val < 15 then
          (0#32, 0#32)
        else
          (4096#32, 0#32)
def k0_dev5 (d0 : Dev nD) : Nat :=
  let c0_i32_142 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_118 : BitVec 32 := 4294967295#32
  let v202 : BitVec 32 := Scalar.addi v11 c_m1_i32_118
  let c16_i32_119 : BitVec 32 := 16#32
  let v203 : BitVec 32 := Scalar.addi v202 c16_i32_119
  let c8_i32_120 : BitVec 32 := 8#32
  let c0_i32_121 : BitVec 32 := 0#32
  let v204 : BitVec 1 := Scalar.cmpi .eq c8_i32_120 c0_i32_121
  let c1_i32_122 : BitVec 32 := 1#32
  let v205 : BitVec 32 := Scalar.select v204 c1_i32_122 c8_i32_120
  let v206 : BitVec 32 := Scalar.remsi v203 v205
  let c0_i32_124 : BitVec 32 := 0#32
  let v208 : BitVec 1 := Scalar.cmpi .slt v206 c0_i32_124
  let c0_i32_125 : BitVec 32 := 0#32
  let v209 : BitVec 1 := Scalar.cmpi .slt v205 c0_i32_125
  let v210 : BitVec 1 := Scalar.xori v208 v209
  let c0_i32_123 : BitVec 32 := 0#32
  let v207 : BitVec 1 := Scalar.cmpi .ne v206 c0_i32_123
  let v211 : BitVec 1 := Scalar.andi v210 v207
  let v212 : BitVec 32 := Scalar.addi v206 v205
  let v213 : BitVec 32 := Scalar.select v211 v212 v206
  let c0_i32_127 : BitVec 32 := 0#32
  let v215 : BitVec 1 := Scalar.cmpi .sgt v213 c0_i32_127
  let v216 : BitVec 32 := Scalar.extui v215
  let c0_i32_128 : BitVec 32 := 0#32
  let v217 : BitVec 1 := Scalar.cmpi .slt v213 c0_i32_128
  let v218 : BitVec 32 := Scalar.extui v217
  let v219 : BitVec 32 := Scalar.subi v216 v218
  let c4_i32_126 : BitVec 32 := 4#32
  let c0_i32_129 : BitVec 32 := 0#32
  let v220 : BitVec 1 := Scalar.cmpi .sgt c4_i32_126 c0_i32_129
  let v221 : BitVec 32 := Scalar.extui v220
  let c0_i32_130 : BitVec 32 := 0#32
  let v222 : BitVec 1 := Scalar.cmpi .slt c4_i32_126 c0_i32_130
  let v223 : BitVec 32 := Scalar.extui v222
  let v224 : BitVec 32 := Scalar.subi v221 v223
  let v225 : BitVec 1 := Scalar.cmpi .ne v219 v224
  let v226 : BitVec 32 := Scalar.remsi v213 c4_i32_126
  let c0_i32_131 : BitVec 32 := 0#32
  let v227 : BitVec 1 := Scalar.cmpi .ne v226 c0_i32_131
  let v228 : BitVec 1 := Scalar.andi v225 v227
  let v214 : BitVec 32 := Scalar.divsi v213 c4_i32_126
  let c1_i32_132 : BitVec 32 := 1#32
  let v229 : BitVec 32 := Scalar.subi v214 c1_i32_132
  let v230 : BitVec 32 := Scalar.select v228 v229 v214
  let c16_i32_141 : BitVec 32 := 16#32
  let v234 : BitVec 32 := Scalar.muli v230 c16_i32_141
  let v235 : BitVec 32 := Scalar.addi c0_i32_142 v234
  let c0_i32_133 : BitVec 32 := 0#32
  let v231 : BitVec 1 := Scalar.cmpi .eq v230 c0_i32_133
  let c7_i32_134 : BitVec 32 := 7#32
  let v232 : BitVec 32 := Scalar.subi c7_i32_134 v213
  let v233 : BitVec 32 := Scalar.select v231 v213 v232
  let c4_i32_143 : BitVec 32 := 4#32
  let v236 : BitVec 32 := Scalar.muli v233 c4_i32_143
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v238 : BitVec 32 := Scalar.muli v8 c1_i32_144
  let v239 : BitVec 32 := Scalar.addi v237 v238
  v239.toNat
def k0_dev6 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_220 : BitVec 32 := 1#32
  let v319 : BitVec 32 := Scalar.addi v11 c1_i32_220
  let c16_i32_221 : BitVec 32 := 16#32
  let v320 : BitVec 32 := Scalar.addi v319 c16_i32_221
  let c8_i32_222 : BitVec 32 := 8#32
  let c0_i32_223 : BitVec 32 := 0#32
  let v321 : BitVec 1 := Scalar.cmpi .eq c8_i32_222 c0_i32_223
  let c1_i32_224 : BitVec 32 := 1#32
  let v322 : BitVec 32 := Scalar.select v321 c1_i32_224 c8_i32_222
  let v323 : BitVec 32 := Scalar.remsi v320 v322
  let c0_i32_226 : BitVec 32 := 0#32
  let v325 : BitVec 1 := Scalar.cmpi .slt v323 c0_i32_226
  let c0_i32_227 : BitVec 32 := 0#32
  let v326 : BitVec 1 := Scalar.cmpi .slt v322 c0_i32_227
  let v327 : BitVec 1 := Scalar.xori v325 v326
  let c0_i32_225 : BitVec 32 := 0#32
  let v324 : BitVec 1 := Scalar.cmpi .ne v323 c0_i32_225
  let v328 : BitVec 1 := Scalar.andi v327 v324
  let v329 : BitVec 32 := Scalar.addi v323 v322
  let v330 : BitVec 32 := Scalar.select v328 v329 v323
  let c0_i32_229 : BitVec 32 := 0#32
  let v332 : BitVec 1 := Scalar.cmpi .sgt v330 c0_i32_229
  let v333 : BitVec 32 := Scalar.extui v332
  let c0_i32_230 : BitVec 32 := 0#32
  let v334 : BitVec 1 := Scalar.cmpi .slt v330 c0_i32_230
  let v335 : BitVec 32 := Scalar.extui v334
  let v336 : BitVec 32 := Scalar.subi v333 v335
  let c4_i32_228 : BitVec 32 := 4#32
  let c0_i32_231 : BitVec 32 := 0#32
  let v337 : BitVec 1 := Scalar.cmpi .sgt c4_i32_228 c0_i32_231
  let v338 : BitVec 32 := Scalar.extui v337
  let c0_i32_232 : BitVec 32 := 0#32
  let v339 : BitVec 1 := Scalar.cmpi .slt c4_i32_228 c0_i32_232
  let v340 : BitVec 32 := Scalar.extui v339
  let v341 : BitVec 32 := Scalar.subi v338 v340
  let v342 : BitVec 1 := Scalar.cmpi .ne v336 v341
  let v343 : BitVec 32 := Scalar.remsi v330 c4_i32_228
  let c0_i32_233 : BitVec 32 := 0#32
  let v344 : BitVec 1 := Scalar.cmpi .ne v343 c0_i32_233
  let v345 : BitVec 1 := Scalar.andi v342 v344
  let v331 : BitVec 32 := Scalar.divsi v330 c4_i32_228
  let c1_i32_234 : BitVec 32 := 1#32
  let v346 : BitVec 32 := Scalar.subi v331 c1_i32_234
  let v347 : BitVec 32 := Scalar.select v345 v346 v331
  let c16_i32_245 : BitVec 32 := 16#32
  let v351 : BitVec 32 := Scalar.muli v347 c16_i32_245
  let v352 : BitVec 32 := Scalar.addi c0_i32_246 v351
  let c0_i32_235 : BitVec 32 := 0#32
  let v348 : BitVec 1 := Scalar.cmpi .eq v347 c0_i32_235
  let c7_i32_236 : BitVec 32 := 7#32
  let v349 : BitVec 32 := Scalar.subi c7_i32_236 v330
  let v350 : BitVec 32 := Scalar.select v348 v330 v349
  let c4_i32_247 : BitVec 32 := 4#32
  let v353 : BitVec 32 := Scalar.muli v350 c4_i32_247
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v355 : BitVec 32 := Scalar.muli v8 c1_i32_248
  let v356 : BitVec 32 := Scalar.addi v354 v355
  v356.toNat
def k0_dev7 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_268 : BitVec 32 := 4294967295#32
  let v385 : BitVec 32 := Scalar.addi v11 c_m1_i32_268
  let c16_i32_269 : BitVec 32 := 16#32
  let v386 : BitVec 32 := Scalar.addi v385 c16_i32_269
  let c8_i32_270 : BitVec 32 := 8#32
  let c0_i32_271 : BitVec 32 := 0#32
  let v387 : BitVec 1 := Scalar.cmpi .eq c8_i32_270 c0_i32_271
  let c1_i32_272 : BitVec 32 := 1#32
  let v388 : BitVec 32 := Scalar.select v387 c1_i32_272 c8_i32_270
  let v389 : BitVec 32 := Scalar.remsi v386 v388
  let c0_i32_274 : BitVec 32 := 0#32
  let v391 : BitVec 1 := Scalar.cmpi .slt v389 c0_i32_274
  let c0_i32_275 : BitVec 32 := 0#32
  let v392 : BitVec 1 := Scalar.cmpi .slt v388 c0_i32_275
  let v393 : BitVec 1 := Scalar.xori v391 v392
  let c0_i32_273 : BitVec 32 := 0#32
  let v390 : BitVec 1 := Scalar.cmpi .ne v389 c0_i32_273
  let v394 : BitVec 1 := Scalar.andi v393 v390
  let v395 : BitVec 32 := Scalar.addi v389 v388
  let v396 : BitVec 32 := Scalar.select v394 v395 v389
  let c0_i32_277 : BitVec 32 := 0#32
  let v398 : BitVec 1 := Scalar.cmpi .sgt v396 c0_i32_277
  let v399 : BitVec 32 := Scalar.extui v398
  let c0_i32_278 : BitVec 32 := 0#32
  let v400 : BitVec 1 := Scalar.cmpi .slt v396 c0_i32_278
  let v401 : BitVec 32 := Scalar.extui v400
  let v402 : BitVec 32 := Scalar.subi v399 v401
  let c4_i32_276 : BitVec 32 := 4#32
  let c0_i32_279 : BitVec 32 := 0#32
  let v403 : BitVec 1 := Scalar.cmpi .sgt c4_i32_276 c0_i32_279
  let v404 : BitVec 32 := Scalar.extui v403
  let c0_i32_280 : BitVec 32 := 0#32
  let v405 : BitVec 1 := Scalar.cmpi .slt c4_i32_276 c0_i32_280
  let v406 : BitVec 32 := Scalar.extui v405
  let v407 : BitVec 32 := Scalar.subi v404 v406
  let v408 : BitVec 1 := Scalar.cmpi .ne v402 v407
  let v409 : BitVec 32 := Scalar.remsi v396 c4_i32_276
  let c0_i32_281 : BitVec 32 := 0#32
  let v410 : BitVec 1 := Scalar.cmpi .ne v409 c0_i32_281
  let v411 : BitVec 1 := Scalar.andi v408 v410
  let v397 : BitVec 32 := Scalar.divsi v396 c4_i32_276
  let c1_i32_282 : BitVec 32 := 1#32
  let v412 : BitVec 32 := Scalar.subi v397 c1_i32_282
  let v413 : BitVec 32 := Scalar.select v411 v412 v397
  let c16_i32_293 : BitVec 32 := 16#32
  let v417 : BitVec 32 := Scalar.muli v413 c16_i32_293
  let v418 : BitVec 32 := Scalar.addi c0_i32_294 v417
  let c0_i32_283 : BitVec 32 := 0#32
  let v414 : BitVec 1 := Scalar.cmpi .eq v413 c0_i32_283
  let c7_i32_284 : BitVec 32 := 7#32
  let v415 : BitVec 32 := Scalar.subi c7_i32_284 v396
  let v416 : BitVec 32 := Scalar.select v414 v396 v415
  let c4_i32_295 : BitVec 32 := 4#32
  let v419 : BitVec 32 := Scalar.muli v416 c4_i32_295
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v421 : BitVec 32 := Scalar.muli v8 c1_i32_296
  let v422 : BitVec 32 := Scalar.addi v420 v421
  v422.toNat
def k0_dev8 (d0 : Dev nD) : Nat :=
  let c0_i32_407 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_381 : BitVec 32 := 1#32
  let v505 : BitVec 32 := Scalar.addi v11 c1_i32_381
  let c16_i32_382 : BitVec 32 := 16#32
  let v506 : BitVec 32 := Scalar.addi v505 c16_i32_382
  let c8_i32_383 : BitVec 32 := 8#32
  let c0_i32_384 : BitVec 32 := 0#32
  let v507 : BitVec 1 := Scalar.cmpi .eq c8_i32_383 c0_i32_384
  let c1_i32_385 : BitVec 32 := 1#32
  let v508 : BitVec 32 := Scalar.select v507 c1_i32_385 c8_i32_383
  let v509 : BitVec 32 := Scalar.remsi v506 v508
  let c0_i32_387 : BitVec 32 := 0#32
  let v511 : BitVec 1 := Scalar.cmpi .slt v509 c0_i32_387
  let c0_i32_388 : BitVec 32 := 0#32
  let v512 : BitVec 1 := Scalar.cmpi .slt v508 c0_i32_388
  let v513 : BitVec 1 := Scalar.xori v511 v512
  let c0_i32_386 : BitVec 32 := 0#32
  let v510 : BitVec 1 := Scalar.cmpi .ne v509 c0_i32_386
  let v514 : BitVec 1 := Scalar.andi v513 v510
  let v515 : BitVec 32 := Scalar.addi v509 v508
  let v516 : BitVec 32 := Scalar.select v514 v515 v509
  let c0_i32_390 : BitVec 32 := 0#32
  let v518 : BitVec 1 := Scalar.cmpi .sgt v516 c0_i32_390
  let v519 : BitVec 32 := Scalar.extui v518
  let c0_i32_391 : BitVec 32 := 0#32
  let v520 : BitVec 1 := Scalar.cmpi .slt v516 c0_i32_391
  let v521 : BitVec 32 := Scalar.extui v520
  let v522 : BitVec 32 := Scalar.subi v519 v521
  let c4_i32_389 : BitVec 32 := 4#32
  let c0_i32_392 : BitVec 32 := 0#32
  let v523 : BitVec 1 := Scalar.cmpi .sgt c4_i32_389 c0_i32_392
  let v524 : BitVec 32 := Scalar.extui v523
  let c0_i32_393 : BitVec 32 := 0#32
  let v525 : BitVec 1 := Scalar.cmpi .slt c4_i32_389 c0_i32_393
  let v526 : BitVec 32 := Scalar.extui v525
  let v527 : BitVec 32 := Scalar.subi v524 v526
  let v528 : BitVec 1 := Scalar.cmpi .ne v522 v527
  let v529 : BitVec 32 := Scalar.remsi v516 c4_i32_389
  let c0_i32_394 : BitVec 32 := 0#32
  let v530 : BitVec 1 := Scalar.cmpi .ne v529 c0_i32_394
  let v531 : BitVec 1 := Scalar.andi v528 v530
  let v517 : BitVec 32 := Scalar.divsi v516 c4_i32_389
  let c1_i32_395 : BitVec 32 := 1#32
  let v532 : BitVec 32 := Scalar.subi v517 c1_i32_395
  let v533 : BitVec 32 := Scalar.select v531 v532 v517
  let c16_i32_406 : BitVec 32 := 16#32
  let v537 : BitVec 32 := Scalar.muli v533 c16_i32_406
  let v538 : BitVec 32 := Scalar.addi c0_i32_407 v537
  let c0_i32_396 : BitVec 32 := 0#32
  let v534 : BitVec 1 := Scalar.cmpi .eq v533 c0_i32_396
  let c7_i32_397 : BitVec 32 := 7#32
  let v535 : BitVec 32 := Scalar.subi c7_i32_397 v516
  let v536 : BitVec 32 := Scalar.select v534 v516 v535
  let c4_i32_408 : BitVec 32 := 4#32
  let v539 : BitVec 32 := Scalar.muli v536 c4_i32_408
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v541 : BitVec 32 := Scalar.muli v8 c1_i32_409
  let v542 : BitVec 32 := Scalar.addi v540 v541
  v542.toNat
def k0_dev9 (d0 : Dev nD) : Nat :=
  let c0_i32_455 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_429 : BitVec 32 := 4294967295#32
  let v571 : BitVec 32 := Scalar.addi v11 c_m1_i32_429
  let c16_i32_430 : BitVec 32 := 16#32
  let v572 : BitVec 32 := Scalar.addi v571 c16_i32_430
  let c8_i32_431 : BitVec 32 := 8#32
  let c0_i32_432 : BitVec 32 := 0#32
  let v573 : BitVec 1 := Scalar.cmpi .eq c8_i32_431 c0_i32_432
  let c1_i32_433 : BitVec 32 := 1#32
  let v574 : BitVec 32 := Scalar.select v573 c1_i32_433 c8_i32_431
  let v575 : BitVec 32 := Scalar.remsi v572 v574
  let c0_i32_435 : BitVec 32 := 0#32
  let v577 : BitVec 1 := Scalar.cmpi .slt v575 c0_i32_435
  let c0_i32_436 : BitVec 32 := 0#32
  let v578 : BitVec 1 := Scalar.cmpi .slt v574 c0_i32_436
  let v579 : BitVec 1 := Scalar.xori v577 v578
  let c0_i32_434 : BitVec 32 := 0#32
  let v576 : BitVec 1 := Scalar.cmpi .ne v575 c0_i32_434
  let v580 : BitVec 1 := Scalar.andi v579 v576
  let v581 : BitVec 32 := Scalar.addi v575 v574
  let v582 : BitVec 32 := Scalar.select v580 v581 v575
  let c0_i32_438 : BitVec 32 := 0#32
  let v584 : BitVec 1 := Scalar.cmpi .sgt v582 c0_i32_438
  let v585 : BitVec 32 := Scalar.extui v584
  let c0_i32_439 : BitVec 32 := 0#32
  let v586 : BitVec 1 := Scalar.cmpi .slt v582 c0_i32_439
  let v587 : BitVec 32 := Scalar.extui v586
  let v588 : BitVec 32 := Scalar.subi v585 v587
  let c4_i32_437 : BitVec 32 := 4#32
  let c0_i32_440 : BitVec 32 := 0#32
  let v589 : BitVec 1 := Scalar.cmpi .sgt c4_i32_437 c0_i32_440
  let v590 : BitVec 32 := Scalar.extui v589
  let c0_i32_441 : BitVec 32 := 0#32
  let v591 : BitVec 1 := Scalar.cmpi .slt c4_i32_437 c0_i32_441
  let v592 : BitVec 32 := Scalar.extui v591
  let v593 : BitVec 32 := Scalar.subi v590 v592
  let v594 : BitVec 1 := Scalar.cmpi .ne v588 v593
  let v595 : BitVec 32 := Scalar.remsi v582 c4_i32_437
  let c0_i32_442 : BitVec 32 := 0#32
  let v596 : BitVec 1 := Scalar.cmpi .ne v595 c0_i32_442
  let v597 : BitVec 1 := Scalar.andi v594 v596
  let v583 : BitVec 32 := Scalar.divsi v582 c4_i32_437
  let c1_i32_443 : BitVec 32 := 1#32
  let v598 : BitVec 32 := Scalar.subi v583 c1_i32_443
  let v599 : BitVec 32 := Scalar.select v597 v598 v583
  let c16_i32_454 : BitVec 32 := 16#32
  let v603 : BitVec 32 := Scalar.muli v599 c16_i32_454
  let v604 : BitVec 32 := Scalar.addi c0_i32_455 v603
  let c0_i32_444 : BitVec 32 := 0#32
  let v600 : BitVec 1 := Scalar.cmpi .eq v599 c0_i32_444
  let c7_i32_445 : BitVec 32 := 7#32
  let v601 : BitVec 32 := Scalar.subi c7_i32_445 v582
  let v602 : BitVec 32 := Scalar.select v600 v582 v601
  let c4_i32_456 : BitVec 32 := 4#32
  let v605 : BitVec 32 := Scalar.muli v602 c4_i32_456
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_457 : BitVec 32 := 1#32
  let v607 : BitVec 32 := Scalar.muli v8 c1_i32_457
  let v608 : BitVec 32 := Scalar.addi v606 v607
  v608.toNat
def k0_dev10 (d0 : Dev nD) : Nat :=
  let c0_i32_567 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_541 : BitVec 32 := 1#32
  let v691 : BitVec 32 := Scalar.addi v11 c1_i32_541
  let c16_i32_542 : BitVec 32 := 16#32
  let v692 : BitVec 32 := Scalar.addi v691 c16_i32_542
  let c8_i32_543 : BitVec 32 := 8#32
  let c0_i32_544 : BitVec 32 := 0#32
  let v693 : BitVec 1 := Scalar.cmpi .eq c8_i32_543 c0_i32_544
  let c1_i32_545 : BitVec 32 := 1#32
  let v694 : BitVec 32 := Scalar.select v693 c1_i32_545 c8_i32_543
  let v695 : BitVec 32 := Scalar.remsi v692 v694
  let c0_i32_547 : BitVec 32 := 0#32
  let v697 : BitVec 1 := Scalar.cmpi .slt v695 c0_i32_547
  let c0_i32_548 : BitVec 32 := 0#32
  let v698 : BitVec 1 := Scalar.cmpi .slt v694 c0_i32_548
  let v699 : BitVec 1 := Scalar.xori v697 v698
  let c0_i32_546 : BitVec 32 := 0#32
  let v696 : BitVec 1 := Scalar.cmpi .ne v695 c0_i32_546
  let v700 : BitVec 1 := Scalar.andi v699 v696
  let v701 : BitVec 32 := Scalar.addi v695 v694
  let v702 : BitVec 32 := Scalar.select v700 v701 v695
  let c0_i32_550 : BitVec 32 := 0#32
  let v704 : BitVec 1 := Scalar.cmpi .sgt v702 c0_i32_550
  let v705 : BitVec 32 := Scalar.extui v704
  let c0_i32_551 : BitVec 32 := 0#32
  let v706 : BitVec 1 := Scalar.cmpi .slt v702 c0_i32_551
  let v707 : BitVec 32 := Scalar.extui v706
  let v708 : BitVec 32 := Scalar.subi v705 v707
  let c4_i32_549 : BitVec 32 := 4#32
  let c0_i32_552 : BitVec 32 := 0#32
  let v709 : BitVec 1 := Scalar.cmpi .sgt c4_i32_549 c0_i32_552
  let v710 : BitVec 32 := Scalar.extui v709
  let c0_i32_553 : BitVec 32 := 0#32
  let v711 : BitVec 1 := Scalar.cmpi .slt c4_i32_549 c0_i32_553
  let v712 : BitVec 32 := Scalar.extui v711
  let v713 : BitVec 32 := Scalar.subi v710 v712
  let v714 : BitVec 1 := Scalar.cmpi .ne v708 v713
  let v715 : BitVec 32 := Scalar.remsi v702 c4_i32_549
  let c0_i32_554 : BitVec 32 := 0#32
  let v716 : BitVec 1 := Scalar.cmpi .ne v715 c0_i32_554
  let v717 : BitVec 1 := Scalar.andi v714 v716
  let v703 : BitVec 32 := Scalar.divsi v702 c4_i32_549
  let c1_i32_555 : BitVec 32 := 1#32
  let v718 : BitVec 32 := Scalar.subi v703 c1_i32_555
  let v719 : BitVec 32 := Scalar.select v717 v718 v703
  let c16_i32_566 : BitVec 32 := 16#32
  let v723 : BitVec 32 := Scalar.muli v719 c16_i32_566
  let v724 : BitVec 32 := Scalar.addi c0_i32_567 v723
  let c0_i32_556 : BitVec 32 := 0#32
  let v720 : BitVec 1 := Scalar.cmpi .eq v719 c0_i32_556
  let c7_i32_557 : BitVec 32 := 7#32
  let v721 : BitVec 32 := Scalar.subi c7_i32_557 v702
  let v722 : BitVec 32 := Scalar.select v720 v702 v721
  let c4_i32_568 : BitVec 32 := 4#32
  let v725 : BitVec 32 := Scalar.muli v722 c4_i32_568
  let v726 : BitVec 32 := Scalar.addi v724 v725
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v727 : BitVec 32 := Scalar.muli v8 c1_i32_569
  let v728 : BitVec 32 := Scalar.addi v726 v727
  v728.toNat
def k0_dev11 (d0 : Dev nD) : Nat :=
  let c0_i32_615 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_589 : BitVec 32 := 4294967295#32
  let v757 : BitVec 32 := Scalar.addi v11 c_m1_i32_589
  let c16_i32_590 : BitVec 32 := 16#32
  let v758 : BitVec 32 := Scalar.addi v757 c16_i32_590
  let c8_i32_591 : BitVec 32 := 8#32
  let c0_i32_592 : BitVec 32 := 0#32
  let v759 : BitVec 1 := Scalar.cmpi .eq c8_i32_591 c0_i32_592
  let c1_i32_593 : BitVec 32 := 1#32
  let v760 : BitVec 32 := Scalar.select v759 c1_i32_593 c8_i32_591
  let v761 : BitVec 32 := Scalar.remsi v758 v760
  let c0_i32_595 : BitVec 32 := 0#32
  let v763 : BitVec 1 := Scalar.cmpi .slt v761 c0_i32_595
  let c0_i32_596 : BitVec 32 := 0#32
  let v764 : BitVec 1 := Scalar.cmpi .slt v760 c0_i32_596
  let v765 : BitVec 1 := Scalar.xori v763 v764
  let c0_i32_594 : BitVec 32 := 0#32
  let v762 : BitVec 1 := Scalar.cmpi .ne v761 c0_i32_594
  let v766 : BitVec 1 := Scalar.andi v765 v762
  let v767 : BitVec 32 := Scalar.addi v761 v760
  let v768 : BitVec 32 := Scalar.select v766 v767 v761
  let c0_i32_598 : BitVec 32 := 0#32
  let v770 : BitVec 1 := Scalar.cmpi .sgt v768 c0_i32_598
  let v771 : BitVec 32 := Scalar.extui v770
  let c0_i32_599 : BitVec 32 := 0#32
  let v772 : BitVec 1 := Scalar.cmpi .slt v768 c0_i32_599
  let v773 : BitVec 32 := Scalar.extui v772
  let v774 : BitVec 32 := Scalar.subi v771 v773
  let c4_i32_597 : BitVec 32 := 4#32
  let c0_i32_600 : BitVec 32 := 0#32
  let v775 : BitVec 1 := Scalar.cmpi .sgt c4_i32_597 c0_i32_600
  let v776 : BitVec 32 := Scalar.extui v775
  let c0_i32_601 : BitVec 32 := 0#32
  let v777 : BitVec 1 := Scalar.cmpi .slt c4_i32_597 c0_i32_601
  let v778 : BitVec 32 := Scalar.extui v777
  let v779 : BitVec 32 := Scalar.subi v776 v778
  let v780 : BitVec 1 := Scalar.cmpi .ne v774 v779
  let v781 : BitVec 32 := Scalar.remsi v768 c4_i32_597
  let c0_i32_602 : BitVec 32 := 0#32
  let v782 : BitVec 1 := Scalar.cmpi .ne v781 c0_i32_602
  let v783 : BitVec 1 := Scalar.andi v780 v782
  let v769 : BitVec 32 := Scalar.divsi v768 c4_i32_597
  let c1_i32_603 : BitVec 32 := 1#32
  let v784 : BitVec 32 := Scalar.subi v769 c1_i32_603
  let v785 : BitVec 32 := Scalar.select v783 v784 v769
  let c16_i32_614 : BitVec 32 := 16#32
  let v789 : BitVec 32 := Scalar.muli v785 c16_i32_614
  let v790 : BitVec 32 := Scalar.addi c0_i32_615 v789
  let c0_i32_604 : BitVec 32 := 0#32
  let v786 : BitVec 1 := Scalar.cmpi .eq v785 c0_i32_604
  let c7_i32_605 : BitVec 32 := 7#32
  let v787 : BitVec 32 := Scalar.subi c7_i32_605 v768
  let v788 : BitVec 32 := Scalar.select v786 v768 v787
  let c4_i32_616 : BitVec 32 := 4#32
  let v791 : BitVec 32 := Scalar.muli v788 c4_i32_616
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_617 : BitVec 32 := 1#32
  let v793 : BitVec 32 := Scalar.muli v8 c1_i32_617
  let v794 : BitVec 32 := Scalar.addi v792 v793
  v794.toNat
def k0_dev12 (d0 : Dev nD) : Nat :=
  let c0_i32_727 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_701 : BitVec 32 := 1#32
  let v877 : BitVec 32 := Scalar.addi v11 c1_i32_701
  let c16_i32_702 : BitVec 32 := 16#32
  let v878 : BitVec 32 := Scalar.addi v877 c16_i32_702
  let c8_i32_703 : BitVec 32 := 8#32
  let c0_i32_704 : BitVec 32 := 0#32
  let v879 : BitVec 1 := Scalar.cmpi .eq c8_i32_703 c0_i32_704
  let c1_i32_705 : BitVec 32 := 1#32
  let v880 : BitVec 32 := Scalar.select v879 c1_i32_705 c8_i32_703
  let v881 : BitVec 32 := Scalar.remsi v878 v880
  let c0_i32_707 : BitVec 32 := 0#32
  let v883 : BitVec 1 := Scalar.cmpi .slt v881 c0_i32_707
  let c0_i32_708 : BitVec 32 := 0#32
  let v884 : BitVec 1 := Scalar.cmpi .slt v880 c0_i32_708
  let v885 : BitVec 1 := Scalar.xori v883 v884
  let c0_i32_706 : BitVec 32 := 0#32
  let v882 : BitVec 1 := Scalar.cmpi .ne v881 c0_i32_706
  let v886 : BitVec 1 := Scalar.andi v885 v882
  let v887 : BitVec 32 := Scalar.addi v881 v880
  let v888 : BitVec 32 := Scalar.select v886 v887 v881
  let c0_i32_710 : BitVec 32 := 0#32
  let v890 : BitVec 1 := Scalar.cmpi .sgt v888 c0_i32_710
  let v891 : BitVec 32 := Scalar.extui v890
  let c0_i32_711 : BitVec 32 := 0#32
  let v892 : BitVec 1 := Scalar.cmpi .slt v888 c0_i32_711
  let v893 : BitVec 32 := Scalar.extui v892
  let v894 : BitVec 32 := Scalar.subi v891 v893
  let c4_i32_709 : BitVec 32 := 4#32
  let c0_i32_712 : BitVec 32 := 0#32
  let v895 : BitVec 1 := Scalar.cmpi .sgt c4_i32_709 c0_i32_712
  let v896 : BitVec 32 := Scalar.extui v895
  let c0_i32_713 : BitVec 32 := 0#32
  let v897 : BitVec 1 := Scalar.cmpi .slt c4_i32_709 c0_i32_713
  let v898 : BitVec 32 := Scalar.extui v897
  let v899 : BitVec 32 := Scalar.subi v896 v898
  let v900 : BitVec 1 := Scalar.cmpi .ne v894 v899
  let v901 : BitVec 32 := Scalar.remsi v888 c4_i32_709
  let c0_i32_714 : BitVec 32 := 0#32
  let v902 : BitVec 1 := Scalar.cmpi .ne v901 c0_i32_714
  let v903 : BitVec 1 := Scalar.andi v900 v902
  let v889 : BitVec 32 := Scalar.divsi v888 c4_i32_709
  let c1_i32_715 : BitVec 32 := 1#32
  let v904 : BitVec 32 := Scalar.subi v889 c1_i32_715
  let v905 : BitVec 32 := Scalar.select v903 v904 v889
  let c16_i32_726 : BitVec 32 := 16#32
  let v909 : BitVec 32 := Scalar.muli v905 c16_i32_726
  let v910 : BitVec 32 := Scalar.addi c0_i32_727 v909
  let c0_i32_716 : BitVec 32 := 0#32
  let v906 : BitVec 1 := Scalar.cmpi .eq v905 c0_i32_716
  let c7_i32_717 : BitVec 32 := 7#32
  let v907 : BitVec 32 := Scalar.subi c7_i32_717 v888
  let v908 : BitVec 32 := Scalar.select v906 v888 v907
  let c4_i32_728 : BitVec 32 := 4#32
  let v911 : BitVec 32 := Scalar.muli v908 c4_i32_728
  let v912 : BitVec 32 := Scalar.addi v910 v911
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v913 : BitVec 32 := Scalar.muli v8 c1_i32_729
  let v914 : BitVec 32 := Scalar.addi v912 v913
  v914.toNat
def k0_dev13 (d0 : Dev nD) : Nat :=
  let c0_i32_774 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_748 : BitVec 32 := 4294967295#32
  let v943 : BitVec 32 := Scalar.addi v11 c_m1_i32_748
  let c16_i32_749 : BitVec 32 := 16#32
  let v944 : BitVec 32 := Scalar.addi v943 c16_i32_749
  let c8_i32_750 : BitVec 32 := 8#32
  let c0_i32_751 : BitVec 32 := 0#32
  let v945 : BitVec 1 := Scalar.cmpi .eq c8_i32_750 c0_i32_751
  let c1_i32_752 : BitVec 32 := 1#32
  let v946 : BitVec 32 := Scalar.select v945 c1_i32_752 c8_i32_750
  let v947 : BitVec 32 := Scalar.remsi v944 v946
  let c0_i32_754 : BitVec 32 := 0#32
  let v949 : BitVec 1 := Scalar.cmpi .slt v947 c0_i32_754
  let c0_i32_755 : BitVec 32 := 0#32
  let v950 : BitVec 1 := Scalar.cmpi .slt v946 c0_i32_755
  let v951 : BitVec 1 := Scalar.xori v949 v950
  let c0_i32_753 : BitVec 32 := 0#32
  let v948 : BitVec 1 := Scalar.cmpi .ne v947 c0_i32_753
  let v952 : BitVec 1 := Scalar.andi v951 v948
  let v953 : BitVec 32 := Scalar.addi v947 v946
  let v954 : BitVec 32 := Scalar.select v952 v953 v947
  let c0_i32_757 : BitVec 32 := 0#32
  let v956 : BitVec 1 := Scalar.cmpi .sgt v954 c0_i32_757
  let v957 : BitVec 32 := Scalar.extui v956
  let c0_i32_758 : BitVec 32 := 0#32
  let v958 : BitVec 1 := Scalar.cmpi .slt v954 c0_i32_758
  let v959 : BitVec 32 := Scalar.extui v958
  let v960 : BitVec 32 := Scalar.subi v957 v959
  let c4_i32_756 : BitVec 32 := 4#32
  let c0_i32_759 : BitVec 32 := 0#32
  let v961 : BitVec 1 := Scalar.cmpi .sgt c4_i32_756 c0_i32_759
  let v962 : BitVec 32 := Scalar.extui v961
  let c0_i32_760 : BitVec 32 := 0#32
  let v963 : BitVec 1 := Scalar.cmpi .slt c4_i32_756 c0_i32_760
  let v964 : BitVec 32 := Scalar.extui v963
  let v965 : BitVec 32 := Scalar.subi v962 v964
  let v966 : BitVec 1 := Scalar.cmpi .ne v960 v965
  let v967 : BitVec 32 := Scalar.remsi v954 c4_i32_756
  let c0_i32_761 : BitVec 32 := 0#32
  let v968 : BitVec 1 := Scalar.cmpi .ne v967 c0_i32_761
  let v969 : BitVec 1 := Scalar.andi v966 v968
  let v955 : BitVec 32 := Scalar.divsi v954 c4_i32_756
  let c1_i32_762 : BitVec 32 := 1#32
  let v970 : BitVec 32 := Scalar.subi v955 c1_i32_762
  let v971 : BitVec 32 := Scalar.select v969 v970 v955
  let c16_i32_773 : BitVec 32 := 16#32
  let v975 : BitVec 32 := Scalar.muli v971 c16_i32_773
  let v976 : BitVec 32 := Scalar.addi c0_i32_774 v975
  let c0_i32_763 : BitVec 32 := 0#32
  let v972 : BitVec 1 := Scalar.cmpi .eq v971 c0_i32_763
  let c7_i32_764 : BitVec 32 := 7#32
  let v973 : BitVec 32 := Scalar.subi c7_i32_764 v954
  let v974 : BitVec 32 := Scalar.select v972 v954 v973
  let c4_i32_775 : BitVec 32 := 4#32
  let v977 : BitVec 32 := Scalar.muli v974 c4_i32_775
  let v978 : BitVec 32 := Scalar.addi v976 v977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_776 : BitVec 32 := 1#32
  let v979 : BitVec 32 := Scalar.muli v8 c1_i32_776
  let v980 : BitVec 32 := Scalar.addi v978 v979
  v980.toNat
def k0_dev14 (d0 : Dev nD) : Nat :=
  let c0_i32_886 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_860 : BitVec 32 := 1#32
  let v1063 : BitVec 32 := Scalar.addi v11 c1_i32_860
  let c16_i32_861 : BitVec 32 := 16#32
  let v1064 : BitVec 32 := Scalar.addi v1063 c16_i32_861
  let c8_i32_862 : BitVec 32 := 8#32
  let c0_i32_863 : BitVec 32 := 0#32
  let v1065 : BitVec 1 := Scalar.cmpi .eq c8_i32_862 c0_i32_863
  let c1_i32_864 : BitVec 32 := 1#32
  let v1066 : BitVec 32 := Scalar.select v1065 c1_i32_864 c8_i32_862
  let v1067 : BitVec 32 := Scalar.remsi v1064 v1066
  let c0_i32_866 : BitVec 32 := 0#32
  let v1069 : BitVec 1 := Scalar.cmpi .slt v1067 c0_i32_866
  let c0_i32_867 : BitVec 32 := 0#32
  let v1070 : BitVec 1 := Scalar.cmpi .slt v1066 c0_i32_867
  let v1071 : BitVec 1 := Scalar.xori v1069 v1070
  let c0_i32_865 : BitVec 32 := 0#32
  let v1068 : BitVec 1 := Scalar.cmpi .ne v1067 c0_i32_865
  let v1072 : BitVec 1 := Scalar.andi v1071 v1068
  let v1073 : BitVec 32 := Scalar.addi v1067 v1066
  let v1074 : BitVec 32 := Scalar.select v1072 v1073 v1067
  let c0_i32_869 : BitVec 32 := 0#32
  let v1076 : BitVec 1 := Scalar.cmpi .sgt v1074 c0_i32_869
  let v1077 : BitVec 32 := Scalar.extui v1076
  let c0_i32_870 : BitVec 32 := 0#32
  let v1078 : BitVec 1 := Scalar.cmpi .slt v1074 c0_i32_870
  let v1079 : BitVec 32 := Scalar.extui v1078
  let v1080 : BitVec 32 := Scalar.subi v1077 v1079
  let c4_i32_868 : BitVec 32 := 4#32
  let c0_i32_871 : BitVec 32 := 0#32
  let v1081 : BitVec 1 := Scalar.cmpi .sgt c4_i32_868 c0_i32_871
  let v1082 : BitVec 32 := Scalar.extui v1081
  let c0_i32_872 : BitVec 32 := 0#32
  let v1083 : BitVec 1 := Scalar.cmpi .slt c4_i32_868 c0_i32_872
  let v1084 : BitVec 32 := Scalar.extui v1083
  let v1085 : BitVec 32 := Scalar.subi v1082 v1084
  let v1086 : BitVec 1 := Scalar.cmpi .ne v1080 v1085
  let v1087 : BitVec 32 := Scalar.remsi v1074 c4_i32_868
  let c0_i32_873 : BitVec 32 := 0#32
  let v1088 : BitVec 1 := Scalar.cmpi .ne v1087 c0_i32_873
  let v1089 : BitVec 1 := Scalar.andi v1086 v1088
  let v1075 : BitVec 32 := Scalar.divsi v1074 c4_i32_868
  let c1_i32_874 : BitVec 32 := 1#32
  let v1090 : BitVec 32 := Scalar.subi v1075 c1_i32_874
  let v1091 : BitVec 32 := Scalar.select v1089 v1090 v1075
  let c16_i32_885 : BitVec 32 := 16#32
  let v1095 : BitVec 32 := Scalar.muli v1091 c16_i32_885
  let v1096 : BitVec 32 := Scalar.addi c0_i32_886 v1095
  let c0_i32_875 : BitVec 32 := 0#32
  let v1092 : BitVec 1 := Scalar.cmpi .eq v1091 c0_i32_875
  let c7_i32_876 : BitVec 32 := 7#32
  let v1093 : BitVec 32 := Scalar.subi c7_i32_876 v1074
  let v1094 : BitVec 32 := Scalar.select v1092 v1074 v1093
  let c4_i32_887 : BitVec 32 := 4#32
  let v1097 : BitVec 32 := Scalar.muli v1094 c4_i32_887
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1099 : BitVec 32 := Scalar.muli v8 c1_i32_888
  let v1100 : BitVec 32 := Scalar.addi v1098 v1099
  v1100.toNat
def k0_dev15 (d0 : Dev nD) : Nat :=
  let c0_i32_933 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_907 : BitVec 32 := 4294967295#32
  let v1129 : BitVec 32 := Scalar.addi v11 c_m1_i32_907
  let c16_i32_908 : BitVec 32 := 16#32
  let v1130 : BitVec 32 := Scalar.addi v1129 c16_i32_908
  let c8_i32_909 : BitVec 32 := 8#32
  let c0_i32_910 : BitVec 32 := 0#32
  let v1131 : BitVec 1 := Scalar.cmpi .eq c8_i32_909 c0_i32_910
  let c1_i32_911 : BitVec 32 := 1#32
  let v1132 : BitVec 32 := Scalar.select v1131 c1_i32_911 c8_i32_909
  let v1133 : BitVec 32 := Scalar.remsi v1130 v1132
  let c0_i32_913 : BitVec 32 := 0#32
  let v1135 : BitVec 1 := Scalar.cmpi .slt v1133 c0_i32_913
  let c0_i32_914 : BitVec 32 := 0#32
  let v1136 : BitVec 1 := Scalar.cmpi .slt v1132 c0_i32_914
  let v1137 : BitVec 1 := Scalar.xori v1135 v1136
  let c0_i32_912 : BitVec 32 := 0#32
  let v1134 : BitVec 1 := Scalar.cmpi .ne v1133 c0_i32_912
  let v1138 : BitVec 1 := Scalar.andi v1137 v1134
  let v1139 : BitVec 32 := Scalar.addi v1133 v1132
  let v1140 : BitVec 32 := Scalar.select v1138 v1139 v1133
  let c0_i32_916 : BitVec 32 := 0#32
  let v1142 : BitVec 1 := Scalar.cmpi .sgt v1140 c0_i32_916
  let v1143 : BitVec 32 := Scalar.extui v1142
  let c0_i32_917 : BitVec 32 := 0#32
  let v1144 : BitVec 1 := Scalar.cmpi .slt v1140 c0_i32_917
  let v1145 : BitVec 32 := Scalar.extui v1144
  let v1146 : BitVec 32 := Scalar.subi v1143 v1145
  let c4_i32_915 : BitVec 32 := 4#32
  let c0_i32_918 : BitVec 32 := 0#32
  let v1147 : BitVec 1 := Scalar.cmpi .sgt c4_i32_915 c0_i32_918
  let v1148 : BitVec 32 := Scalar.extui v1147
  let c0_i32_919 : BitVec 32 := 0#32
  let v1149 : BitVec 1 := Scalar.cmpi .slt c4_i32_915 c0_i32_919
  let v1150 : BitVec 32 := Scalar.extui v1149
  let v1151 : BitVec 32 := Scalar.subi v1148 v1150
  let v1152 : BitVec 1 := Scalar.cmpi .ne v1146 v1151
  let v1153 : BitVec 32 := Scalar.remsi v1140 c4_i32_915
  let c0_i32_920 : BitVec 32 := 0#32
  let v1154 : BitVec 1 := Scalar.cmpi .ne v1153 c0_i32_920
  let v1155 : BitVec 1 := Scalar.andi v1152 v1154
  let v1141 : BitVec 32 := Scalar.divsi v1140 c4_i32_915
  let c1_i32_921 : BitVec 32 := 1#32
  let v1156 : BitVec 32 := Scalar.subi v1141 c1_i32_921
  let v1157 : BitVec 32 := Scalar.select v1155 v1156 v1141
  let c16_i32_932 : BitVec 32 := 16#32
  let v1161 : BitVec 32 := Scalar.muli v1157 c16_i32_932
  let v1162 : BitVec 32 := Scalar.addi c0_i32_933 v1161
  let c0_i32_922 : BitVec 32 := 0#32
  let v1158 : BitVec 1 := Scalar.cmpi .eq v1157 c0_i32_922
  let c7_i32_923 : BitVec 32 := 7#32
  let v1159 : BitVec 32 := Scalar.subi c7_i32_923 v1140
  let v1160 : BitVec 32 := Scalar.select v1158 v1140 v1159
  let c4_i32_934 : BitVec 32 := 4#32
  let v1163 : BitVec 32 := Scalar.muli v1160 c4_i32_934
  let v1164 : BitVec 32 := Scalar.addi v1162 v1163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_935 : BitVec 32 := 1#32
  let v1165 : BitVec 32 := Scalar.muli v8 c1_i32_935
  let v1166 : BitVec 32 := Scalar.addi v1164 v1165
  v1166.toNat
def k0_dev16 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_1019 : BitVec 32 := 1#32
  let v1249 : BitVec 32 := Scalar.addi v11 c1_i32_1019
  let c16_i32_1020 : BitVec 32 := 16#32
  let v1250 : BitVec 32 := Scalar.addi v1249 c16_i32_1020
  let c8_i32_1021 : BitVec 32 := 8#32
  let c0_i32_1022 : BitVec 32 := 0#32
  let v1251 : BitVec 1 := Scalar.cmpi .eq c8_i32_1021 c0_i32_1022
  let c1_i32_1023 : BitVec 32 := 1#32
  let v1252 : BitVec 32 := Scalar.select v1251 c1_i32_1023 c8_i32_1021
  let v1253 : BitVec 32 := Scalar.remsi v1250 v1252
  let c0_i32_1025 : BitVec 32 := 0#32
  let v1255 : BitVec 1 := Scalar.cmpi .slt v1253 c0_i32_1025
  let c0_i32_1026 : BitVec 32 := 0#32
  let v1256 : BitVec 1 := Scalar.cmpi .slt v1252 c0_i32_1026
  let v1257 : BitVec 1 := Scalar.xori v1255 v1256
  let c0_i32_1024 : BitVec 32 := 0#32
  let v1254 : BitVec 1 := Scalar.cmpi .ne v1253 c0_i32_1024
  let v1258 : BitVec 1 := Scalar.andi v1257 v1254
  let v1259 : BitVec 32 := Scalar.addi v1253 v1252
  let v1260 : BitVec 32 := Scalar.select v1258 v1259 v1253
  let c0_i32_1028 : BitVec 32 := 0#32
  let v1262 : BitVec 1 := Scalar.cmpi .sgt v1260 c0_i32_1028
  let v1263 : BitVec 32 := Scalar.extui v1262
  let c0_i32_1029 : BitVec 32 := 0#32
  let v1264 : BitVec 1 := Scalar.cmpi .slt v1260 c0_i32_1029
  let v1265 : BitVec 32 := Scalar.extui v1264
  let v1266 : BitVec 32 := Scalar.subi v1263 v1265
  let c4_i32_1027 : BitVec 32 := 4#32
  let c0_i32_1030 : BitVec 32 := 0#32
  let v1267 : BitVec 1 := Scalar.cmpi .sgt c4_i32_1027 c0_i32_1030
  let v1268 : BitVec 32 := Scalar.extui v1267
  let c0_i32_1031 : BitVec 32 := 0#32
  let v1269 : BitVec 1 := Scalar.cmpi .slt c4_i32_1027 c0_i32_1031
  let v1270 : BitVec 32 := Scalar.extui v1269
  let v1271 : BitVec 32 := Scalar.subi v1268 v1270
  let v1272 : BitVec 1 := Scalar.cmpi .ne v1266 v1271
  let v1273 : BitVec 32 := Scalar.remsi v1260 c4_i32_1027
  let c0_i32_1032 : BitVec 32 := 0#32
  let v1274 : BitVec 1 := Scalar.cmpi .ne v1273 c0_i32_1032
  let v1275 : BitVec 1 := Scalar.andi v1272 v1274
  let v1261 : BitVec 32 := Scalar.divsi v1260 c4_i32_1027
  let c1_i32_1033 : BitVec 32 := 1#32
  let v1276 : BitVec 32 := Scalar.subi v1261 c1_i32_1033
  let v1277 : BitVec 32 := Scalar.select v1275 v1276 v1261
  let c16_i32_1044 : BitVec 32 := 16#32
  let v1281 : BitVec 32 := Scalar.muli v1277 c16_i32_1044
  let v1282 : BitVec 32 := Scalar.addi c0_i32_1045 v1281
  let c0_i32_1034 : BitVec 32 := 0#32
  let v1278 : BitVec 1 := Scalar.cmpi .eq v1277 c0_i32_1034
  let c7_i32_1035 : BitVec 32 := 7#32
  let v1279 : BitVec 32 := Scalar.subi c7_i32_1035 v1260
  let v1280 : BitVec 32 := Scalar.select v1278 v1260 v1279
  let c4_i32_1046 : BitVec 32 := 4#32
  let v1283 : BitVec 32 := Scalar.muli v1280 c4_i32_1046
  let v1284 : BitVec 32 := Scalar.addi v1282 v1283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1285 : BitVec 32 := Scalar.muli v8 c1_i32_1047
  let v1286 : BitVec 32 := Scalar.addi v1284 v1285
  v1286.toNat
def k0_dev17 (d0 : Dev nD) : Nat :=
  let c0_i32_1093 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_1067 : BitVec 32 := 4294967295#32
  let v1315 : BitVec 32 := Scalar.addi v11 c_m1_i32_1067
  let c16_i32_1068 : BitVec 32 := 16#32
  let v1316 : BitVec 32 := Scalar.addi v1315 c16_i32_1068
  let c8_i32_1069 : BitVec 32 := 8#32
  let c0_i32_1070 : BitVec 32 := 0#32
  let v1317 : BitVec 1 := Scalar.cmpi .eq c8_i32_1069 c0_i32_1070
  let c1_i32_1071 : BitVec 32 := 1#32
  let v1318 : BitVec 32 := Scalar.select v1317 c1_i32_1071 c8_i32_1069
  let v1319 : BitVec 32 := Scalar.remsi v1316 v1318
  let c0_i32_1073 : BitVec 32 := 0#32
  let v1321 : BitVec 1 := Scalar.cmpi .slt v1319 c0_i32_1073
  let c0_i32_1074 : BitVec 32 := 0#32
  let v1322 : BitVec 1 := Scalar.cmpi .slt v1318 c0_i32_1074
  let v1323 : BitVec 1 := Scalar.xori v1321 v1322
  let c0_i32_1072 : BitVec 32 := 0#32
  let v1320 : BitVec 1 := Scalar.cmpi .ne v1319 c0_i32_1072
  let v1324 : BitVec 1 := Scalar.andi v1323 v1320
  let v1325 : BitVec 32 := Scalar.addi v1319 v1318
  let v1326 : BitVec 32 := Scalar.select v1324 v1325 v1319
  let c0_i32_1076 : BitVec 32 := 0#32
  let v1328 : BitVec 1 := Scalar.cmpi .sgt v1326 c0_i32_1076
  let v1329 : BitVec 32 := Scalar.extui v1328
  let c0_i32_1077 : BitVec 32 := 0#32
  let v1330 : BitVec 1 := Scalar.cmpi .slt v1326 c0_i32_1077
  let v1331 : BitVec 32 := Scalar.extui v1330
  let v1332 : BitVec 32 := Scalar.subi v1329 v1331
  let c4_i32_1075 : BitVec 32 := 4#32
  let c0_i32_1078 : BitVec 32 := 0#32
  let v1333 : BitVec 1 := Scalar.cmpi .sgt c4_i32_1075 c0_i32_1078
  let v1334 : BitVec 32 := Scalar.extui v1333
  let c0_i32_1079 : BitVec 32 := 0#32
  let v1335 : BitVec 1 := Scalar.cmpi .slt c4_i32_1075 c0_i32_1079
  let v1336 : BitVec 32 := Scalar.extui v1335
  let v1337 : BitVec 32 := Scalar.subi v1334 v1336
  let v1338 : BitVec 1 := Scalar.cmpi .ne v1332 v1337
  let v1339 : BitVec 32 := Scalar.remsi v1326 c4_i32_1075
  let c0_i32_1080 : BitVec 32 := 0#32
  let v1340 : BitVec 1 := Scalar.cmpi .ne v1339 c0_i32_1080
  let v1341 : BitVec 1 := Scalar.andi v1338 v1340
  let v1327 : BitVec 32 := Scalar.divsi v1326 c4_i32_1075
  let c1_i32_1081 : BitVec 32 := 1#32
  let v1342 : BitVec 32 := Scalar.subi v1327 c1_i32_1081
  let v1343 : BitVec 32 := Scalar.select v1341 v1342 v1327
  let c16_i32_1092 : BitVec 32 := 16#32
  let v1347 : BitVec 32 := Scalar.muli v1343 c16_i32_1092
  let v1348 : BitVec 32 := Scalar.addi c0_i32_1093 v1347
  let c0_i32_1082 : BitVec 32 := 0#32
  let v1344 : BitVec 1 := Scalar.cmpi .eq v1343 c0_i32_1082
  let c7_i32_1083 : BitVec 32 := 7#32
  let v1345 : BitVec 32 := Scalar.subi c7_i32_1083 v1326
  let v1346 : BitVec 32 := Scalar.select v1344 v1326 v1345
  let c4_i32_1094 : BitVec 32 := 4#32
  let v1349 : BitVec 32 := Scalar.muli v1346 c4_i32_1094
  let v1350 : BitVec 32 := Scalar.addi v1348 v1349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1351 : BitVec 32 := Scalar.muli v8 c1_i32_1095
  let v1352 : BitVec 32 := Scalar.addi v1350 v1351
  v1352.toNat
def k0_off3 (d0 : Dev nD) (c0_i32_1187 : BitVec 32) (c1_i32_1179 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c8192_i32 : BitVec 32 := 8192#32
  let v22 : BitVec 32 := Scalar.muli v21 c8192_i32
  let v1447 : BitVec 32 := Scalar.addi v22 c0_i32_1187
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v1435 : BitVec 32 := Scalar.addi v11 c1_i32_1179
  let c16_i32_1180 : BitVec 32 := 16#32
  let v1436 : BitVec 32 := Scalar.addi v1435 c16_i32_1180
  let c8_i32_1181 : BitVec 32 := 8#32
  let c0_i32_1182 : BitVec 32 := 0#32
  let v1437 : BitVec 1 := Scalar.cmpi .eq c8_i32_1181 c0_i32_1182
  let c1_i32_1183 : BitVec 32 := 1#32
  let v1438 : BitVec 32 := Scalar.select v1437 c1_i32_1183 c8_i32_1181
  let v1439 : BitVec 32 := Scalar.remsi v1436 v1438
  let c0_i32_1185 : BitVec 32 := 0#32
  let v1441 : BitVec 1 := Scalar.cmpi .slt v1439 c0_i32_1185
  let c0_i32_1186 : BitVec 32 := 0#32
  let v1442 : BitVec 1 := Scalar.cmpi .slt v1438 c0_i32_1186
  let v1443 : BitVec 1 := Scalar.xori v1441 v1442
  let c0_i32_1184 : BitVec 32 := 0#32
  let v1440 : BitVec 1 := Scalar.cmpi .ne v1439 c0_i32_1184
  let v1444 : BitVec 1 := Scalar.andi v1443 v1440
  let v1445 : BitVec 32 := Scalar.addi v1439 v1438
  let v1446 : BitVec 32 := Scalar.select v1444 v1445 v1439
  let c512_i32_1188 : BitVec 32 := 512#32
  let v1448 : BitVec 32 := Scalar.muli v1446 c512_i32_1188
  let v1449 : BitVec 32 := Scalar.addi v1447 v1448
  let c0_i32_1192 : BitVec 32 := 0#32
  ![v1449.toNat, 0]
def k0_off3_at (r : Fin 2) : BitVec 32 × BitVec 32 :=
  if r.val < 1 then
    (0#32, 1#32)
  else
    (4096#32, 4294967295#32)
def k0_dev18 (d0 : Dev nD) : Nat :=
  let c0_i32_1218 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1217 : BitVec 32 := 16#32
  let v1475 : BitVec 32 := Scalar.muli v2 c16_i32_1217
  let v1476 : BitVec 32 := Scalar.addi c0_i32_1218 v1475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1219 : BitVec 32 := 4#32
  let v1477 : BitVec 32 := Scalar.muli v5 c4_i32_1219
  let v1478 : BitVec 32 := Scalar.addi v1476 v1477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1220 : BitVec 32 := 1#32
  let v1479 : BitVec 32 := Scalar.muli v25 c1_i32_1220
  let v1480 : BitVec 32 := Scalar.addi v1478 v1479
  v1480.toNat
def k0_dev19 (d0 : Dev nD) : Nat :=
  let c0_i32_1263 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1262 : BitVec 32 := 16#32
  let v1528 : BitVec 32 := Scalar.muli v2 c16_i32_1262
  let v1529 : BitVec 32 := Scalar.addi c0_i32_1263 v1528
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1264 : BitVec 32 := 4#32
  let v1530 : BitVec 32 := Scalar.muli v5 c4_i32_1264
  let v1531 : BitVec 32 := Scalar.addi v1529 v1530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1265 : BitVec 32 := 1#32
  let v1532 : BitVec 32 := Scalar.muli v25 c1_i32_1265
  let v1533 : BitVec 32 := Scalar.addi v1531 v1532
  v1533.toNat
def k0_off4 (d0 : Dev nD) (c0_i32_1278 : BitVec 32) (c1_i32_1269 : BitVec 32) (c0_i32_1270 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c8192_i32 : BitVec 32 := 8192#32
  let v22 : BitVec 32 := Scalar.muli v21 c8192_i32
  let v1554 : BitVec 32 := Scalar.addi v22 c0_i32_1278
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v1541 : BitVec 32 := Scalar.addi v11 c1_i32_1269
  let v1542 : BitVec 32 := Scalar.subi v1541 c0_i32_1270
  let c16_i32_1271 : BitVec 32 := 16#32
  let v1543 : BitVec 32 := Scalar.addi v1542 c16_i32_1271
  let c8_i32_1272 : BitVec 32 := 8#32
  let c0_i32_1273 : BitVec 32 := 0#32
  let v1544 : BitVec 1 := Scalar.cmpi .eq c8_i32_1272 c0_i32_1273
  let c1_i32_1274 : BitVec 32 := 1#32
  let v1545 : BitVec 32 := Scalar.select v1544 c1_i32_1274 c8_i32_1272
  let v1546 : BitVec 32 := Scalar.remsi v1543 v1545
  let c0_i32_1276 : BitVec 32 := 0#32
  let v1548 : BitVec 1 := Scalar.cmpi .slt v1546 c0_i32_1276
  let c0_i32_1277 : BitVec 32 := 0#32
  let v1549 : BitVec 1 := Scalar.cmpi .slt v1545 c0_i32_1277
  let v1550 : BitVec 1 := Scalar.xori v1548 v1549
  let c0_i32_1275 : BitVec 32 := 0#32
  let v1547 : BitVec 1 := Scalar.cmpi .ne v1546 c0_i32_1275
  let v1551 : BitVec 1 := Scalar.andi v1550 v1547
  let v1552 : BitVec 32 := Scalar.addi v1546 v1545
  let v1553 : BitVec 32 := Scalar.select v1551 v1552 v1546
  let c512_i32_1279 : BitVec 32 := 512#32
  let v1555 : BitVec 32 := Scalar.muli v1553 c512_i32_1279
  let v1556 : BitVec 32 := Scalar.addi v1554 v1555
  let c0_i32_1307 : BitVec 32 := 0#32
  ![v1556.toNat, 0]
def k0_off4_at (r : Fin 14) : BitVec 32 × BitVec 32 × BitVec 32 :=
  if r.val < 7 then
    if r.val < 3 then
      if r.val < 1 then
        (0#32, 1#32, 0#32)
      else
        if r.val < 2 then
          (4096#32, 4294967295#32, 0#32)
        else
          (0#32, 1#32, 1#32)
    else
      if r.val < 5 then
        if r.val < 4 then
          (4096#32, 4294967295#32, 4294967295#32)
        else
          (0#32, 1#32, 2#32)
      else
        if r.val < 6 then
          (4096#32, 4294967295#32, 4294967294#32)
        else
          (0#32, 1#32, 3#32)
  else
    if r.val < 10 then
      if r.val < 8 then
        (4096#32, 4294967295#32, 4294967293#32)
      else
        if r.val < 9 then
          (0#32, 1#32, 4#32)
        else
          (4096#32, 4294967295#32, 4294967292#32)
    else
      if r.val < 12 then
        if r.val < 11 then
          (0#32, 1#32, 5#32)
        else
          (4096#32, 4294967295#32, 4294967291#32)
      else
        if r.val < 13 then
          (0#32, 1#32, 6#32)
        else
          (4096#32, 4294967295#32, 4294967290#32)
def k0_dev20 (d0 : Dev nD) : Nat :=
  let c0_i32_1304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_1280 : BitVec 32 := 1#32
  let v1557 : BitVec 32 := Scalar.addi v11 c1_i32_1280
  let c16_i32_1281 : BitVec 32 := 16#32
  let v1558 : BitVec 32 := Scalar.addi v1557 c16_i32_1281
  let c8_i32_1282 : BitVec 32 := 8#32
  let c0_i32_1283 : BitVec 32 := 0#32
  let v1559 : BitVec 1 := Scalar.cmpi .eq c8_i32_1282 c0_i32_1283
  let c1_i32_1284 : BitVec 32 := 1#32
  let v1560 : BitVec 32 := Scalar.select v1559 c1_i32_1284 c8_i32_1282
  let v1561 : BitVec 32 := Scalar.remsi v1558 v1560
  let c0_i32_1286 : BitVec 32 := 0#32
  let v1563 : BitVec 1 := Scalar.cmpi .slt v1561 c0_i32_1286
  let c0_i32_1287 : BitVec 32 := 0#32
  let v1564 : BitVec 1 := Scalar.cmpi .slt v1560 c0_i32_1287
  let v1565 : BitVec 1 := Scalar.xori v1563 v1564
  let c0_i32_1285 : BitVec 32 := 0#32
  let v1562 : BitVec 1 := Scalar.cmpi .ne v1561 c0_i32_1285
  let v1566 : BitVec 1 := Scalar.andi v1565 v1562
  let v1567 : BitVec 32 := Scalar.addi v1561 v1560
  let v1568 : BitVec 32 := Scalar.select v1566 v1567 v1561
  let c0_i32_1289 : BitVec 32 := 0#32
  let v1570 : BitVec 1 := Scalar.cmpi .sgt v1568 c0_i32_1289
  let v1571 : BitVec 32 := Scalar.extui v1570
  let c0_i32_1290 : BitVec 32 := 0#32
  let v1572 : BitVec 1 := Scalar.cmpi .slt v1568 c0_i32_1290
  let v1573 : BitVec 32 := Scalar.extui v1572
  let v1574 : BitVec 32 := Scalar.subi v1571 v1573
  let c4_i32_1288 : BitVec 32 := 4#32
  let c0_i32_1291 : BitVec 32 := 0#32
  let v1575 : BitVec 1 := Scalar.cmpi .sgt c4_i32_1288 c0_i32_1291
  let v1576 : BitVec 32 := Scalar.extui v1575
  let c0_i32_1292 : BitVec 32 := 0#32
  let v1577 : BitVec 1 := Scalar.cmpi .slt c4_i32_1288 c0_i32_1292
  let v1578 : BitVec 32 := Scalar.extui v1577
  let v1579 : BitVec 32 := Scalar.subi v1576 v1578
  let v1580 : BitVec 1 := Scalar.cmpi .ne v1574 v1579
  let v1581 : BitVec 32 := Scalar.remsi v1568 c4_i32_1288
  let c0_i32_1293 : BitVec 32 := 0#32
  let v1582 : BitVec 1 := Scalar.cmpi .ne v1581 c0_i32_1293
  let v1583 : BitVec 1 := Scalar.andi v1580 v1582
  let v1569 : BitVec 32 := Scalar.divsi v1568 c4_i32_1288
  let c1_i32_1294 : BitVec 32 := 1#32
  let v1584 : BitVec 32 := Scalar.subi v1569 c1_i32_1294
  let v1585 : BitVec 32 := Scalar.select v1583 v1584 v1569
  let c16_i32_1303 : BitVec 32 := 16#32
  let v1589 : BitVec 32 := Scalar.muli v1585 c16_i32_1303
  let v1590 : BitVec 32 := Scalar.addi c0_i32_1304 v1589
  let c0_i32_1295 : BitVec 32 := 0#32
  let v1586 : BitVec 1 := Scalar.cmpi .eq v1585 c0_i32_1295
  let c7_i32_1296 : BitVec 32 := 7#32
  let v1587 : BitVec 32 := Scalar.subi c7_i32_1296 v1568
  let v1588 : BitVec 32 := Scalar.select v1586 v1568 v1587
  let c4_i32_1305 : BitVec 32 := 4#32
  let v1591 : BitVec 32 := Scalar.muli v1588 c4_i32_1305
  let v1592 : BitVec 32 := Scalar.addi v1590 v1591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1306 : BitVec 32 := 1#32
  let v1593 : BitVec 32 := Scalar.muli v8 c1_i32_1306
  let v1594 : BitVec 32 := Scalar.addi v1592 v1593
  v1594.toNat
def k0_dev21 (d0 : Dev nD) : Nat :=
  let c0_i32_1345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_1321 : BitVec 32 := 4294967295#32
  let v1618 : BitVec 32 := Scalar.addi v11 c_m1_i32_1321
  let c16_i32_1322 : BitVec 32 := 16#32
  let v1619 : BitVec 32 := Scalar.addi v1618 c16_i32_1322
  let c8_i32_1323 : BitVec 32 := 8#32
  let c0_i32_1324 : BitVec 32 := 0#32
  let v1620 : BitVec 1 := Scalar.cmpi .eq c8_i32_1323 c0_i32_1324
  let c1_i32_1325 : BitVec 32 := 1#32
  let v1621 : BitVec 32 := Scalar.select v1620 c1_i32_1325 c8_i32_1323
  let v1622 : BitVec 32 := Scalar.remsi v1619 v1621
  let c0_i32_1327 : BitVec 32 := 0#32
  let v1624 : BitVec 1 := Scalar.cmpi .slt v1622 c0_i32_1327
  let c0_i32_1328 : BitVec 32 := 0#32
  let v1625 : BitVec 1 := Scalar.cmpi .slt v1621 c0_i32_1328
  let v1626 : BitVec 1 := Scalar.xori v1624 v1625
  let c0_i32_1326 : BitVec 32 := 0#32
  let v1623 : BitVec 1 := Scalar.cmpi .ne v1622 c0_i32_1326
  let v1627 : BitVec 1 := Scalar.andi v1626 v1623
  let v1628 : BitVec 32 := Scalar.addi v1622 v1621
  let v1629 : BitVec 32 := Scalar.select v1627 v1628 v1622
  let c0_i32_1330 : BitVec 32 := 0#32
  let v1631 : BitVec 1 := Scalar.cmpi .sgt v1629 c0_i32_1330
  let v1632 : BitVec 32 := Scalar.extui v1631
  let c0_i32_1331 : BitVec 32 := 0#32
  let v1633 : BitVec 1 := Scalar.cmpi .slt v1629 c0_i32_1331
  let v1634 : BitVec 32 := Scalar.extui v1633
  let v1635 : BitVec 32 := Scalar.subi v1632 v1634
  let c4_i32_1329 : BitVec 32 := 4#32
  let c0_i32_1332 : BitVec 32 := 0#32
  let v1636 : BitVec 1 := Scalar.cmpi .sgt c4_i32_1329 c0_i32_1332
  let v1637 : BitVec 32 := Scalar.extui v1636
  let c0_i32_1333 : BitVec 32 := 0#32
  let v1638 : BitVec 1 := Scalar.cmpi .slt c4_i32_1329 c0_i32_1333
  let v1639 : BitVec 32 := Scalar.extui v1638
  let v1640 : BitVec 32 := Scalar.subi v1637 v1639
  let v1641 : BitVec 1 := Scalar.cmpi .ne v1635 v1640
  let v1642 : BitVec 32 := Scalar.remsi v1629 c4_i32_1329
  let c0_i32_1334 : BitVec 32 := 0#32
  let v1643 : BitVec 1 := Scalar.cmpi .ne v1642 c0_i32_1334
  let v1644 : BitVec 1 := Scalar.andi v1641 v1643
  let v1630 : BitVec 32 := Scalar.divsi v1629 c4_i32_1329
  let c1_i32_1335 : BitVec 32 := 1#32
  let v1645 : BitVec 32 := Scalar.subi v1630 c1_i32_1335
  let v1646 : BitVec 32 := Scalar.select v1644 v1645 v1630
  let c16_i32_1344 : BitVec 32 := 16#32
  let v1650 : BitVec 32 := Scalar.muli v1646 c16_i32_1344
  let v1651 : BitVec 32 := Scalar.addi c0_i32_1345 v1650
  let c0_i32_1336 : BitVec 32 := 0#32
  let v1647 : BitVec 1 := Scalar.cmpi .eq v1646 c0_i32_1336
  let c7_i32_1337 : BitVec 32 := 7#32
  let v1648 : BitVec 32 := Scalar.subi c7_i32_1337 v1629
  let v1649 : BitVec 32 := Scalar.select v1647 v1629 v1648
  let c4_i32_1346 : BitVec 32 := 4#32
  let v1652 : BitVec 32 := Scalar.muli v1649 c4_i32_1346
  let v1653 : BitVec 32 := Scalar.addi v1651 v1652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1347 : BitVec 32 := 1#32
  let v1654 : BitVec 32 := Scalar.muli v8 c1_i32_1347
  let v1655 : BitVec 32 := Scalar.addi v1653 v1654
  v1655.toNat
def k0_dev22 (d0 : Dev nD) : Nat :=
  let c0_i32_1388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1387 : BitVec 32 := 16#32
  let v1703 : BitVec 32 := Scalar.muli v2 c16_i32_1387
  let v1704 : BitVec 32 := Scalar.addi c0_i32_1388 v1703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1389 : BitVec 32 := 4#32
  let v1705 : BitVec 32 := Scalar.muli v5 c4_i32_1389
  let v1706 : BitVec 32 := Scalar.addi v1704 v1705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1390 : BitVec 32 := 1#32
  let v1707 : BitVec 32 := Scalar.muli v25 c1_i32_1390
  let v1708 : BitVec 32 := Scalar.addi v1706 v1707
  v1708.toNat
def k0_dev23 (d0 : Dev nD) : Nat :=
  let c0_i32_1430 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1429 : BitVec 32 := 16#32
  let v1755 : BitVec 32 := Scalar.muli v2 c16_i32_1429
  let v1756 : BitVec 32 := Scalar.addi c0_i32_1430 v1755
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1431 : BitVec 32 := 4#32
  let v1757 : BitVec 32 := Scalar.muli v5 c4_i32_1431
  let v1758 : BitVec 32 := Scalar.addi v1756 v1757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1432 : BitVec 32 := 1#32
  let v1759 : BitVec 32 := Scalar.muli v25 c1_i32_1432
  let v1760 : BitVec 32 := Scalar.addi v1758 v1759
  v1760.toNat
def k0_dev24 (d0 : Dev nD) : Nat :=
  let c0_i32_1477 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_1455 : BitVec 32 := 1#32
  let v1797 : BitVec 32 := Scalar.addi v11 c1_i32_1455
  let c16_i32_1456 : BitVec 32 := 16#32
  let v1798 : BitVec 32 := Scalar.addi v1797 c16_i32_1456
  let c8_i32_1457 : BitVec 32 := 8#32
  let c0_i32_1458 : BitVec 32 := 0#32
  let v1799 : BitVec 1 := Scalar.cmpi .eq c8_i32_1457 c0_i32_1458
  let c1_i32_1459 : BitVec 32 := 1#32
  let v1800 : BitVec 32 := Scalar.select v1799 c1_i32_1459 c8_i32_1457
  let v1801 : BitVec 32 := Scalar.remsi v1798 v1800
  let c0_i32_1461 : BitVec 32 := 0#32
  let v1803 : BitVec 1 := Scalar.cmpi .slt v1801 c0_i32_1461
  let c0_i32_1462 : BitVec 32 := 0#32
  let v1804 : BitVec 1 := Scalar.cmpi .slt v1800 c0_i32_1462
  let v1805 : BitVec 1 := Scalar.xori v1803 v1804
  let c0_i32_1460 : BitVec 32 := 0#32
  let v1802 : BitVec 1 := Scalar.cmpi .ne v1801 c0_i32_1460
  let v1806 : BitVec 1 := Scalar.andi v1805 v1802
  let v1807 : BitVec 32 := Scalar.addi v1801 v1800
  let v1808 : BitVec 32 := Scalar.select v1806 v1807 v1801
  let c0_i32_1464 : BitVec 32 := 0#32
  let v1810 : BitVec 1 := Scalar.cmpi .sgt v1808 c0_i32_1464
  let v1811 : BitVec 32 := Scalar.extui v1810
  let c0_i32_1465 : BitVec 32 := 0#32
  let v1812 : BitVec 1 := Scalar.cmpi .slt v1808 c0_i32_1465
  let v1813 : BitVec 32 := Scalar.extui v1812
  let v1814 : BitVec 32 := Scalar.subi v1811 v1813
  let c4_i32_1463 : BitVec 32 := 4#32
  let c0_i32_1466 : BitVec 32 := 0#32
  let v1815 : BitVec 1 := Scalar.cmpi .sgt c4_i32_1463 c0_i32_1466
  let v1816 : BitVec 32 := Scalar.extui v1815
  let c0_i32_1467 : BitVec 32 := 0#32
  let v1817 : BitVec 1 := Scalar.cmpi .slt c4_i32_1463 c0_i32_1467
  let v1818 : BitVec 32 := Scalar.extui v1817
  let v1819 : BitVec 32 := Scalar.subi v1816 v1818
  let v1820 : BitVec 1 := Scalar.cmpi .ne v1814 v1819
  let v1821 : BitVec 32 := Scalar.remsi v1808 c4_i32_1463
  let c0_i32_1468 : BitVec 32 := 0#32
  let v1822 : BitVec 1 := Scalar.cmpi .ne v1821 c0_i32_1468
  let v1823 : BitVec 1 := Scalar.andi v1820 v1822
  let v1809 : BitVec 32 := Scalar.divsi v1808 c4_i32_1463
  let c1_i32_1469 : BitVec 32 := 1#32
  let v1824 : BitVec 32 := Scalar.subi v1809 c1_i32_1469
  let v1825 : BitVec 32 := Scalar.select v1823 v1824 v1809
  let c16_i32_1476 : BitVec 32 := 16#32
  let v1829 : BitVec 32 := Scalar.muli v1825 c16_i32_1476
  let v1830 : BitVec 32 := Scalar.addi c0_i32_1477 v1829
  let c0_i32_1470 : BitVec 32 := 0#32
  let v1826 : BitVec 1 := Scalar.cmpi .eq v1825 c0_i32_1470
  let c7_i32_1471 : BitVec 32 := 7#32
  let v1827 : BitVec 32 := Scalar.subi c7_i32_1471 v1808
  let v1828 : BitVec 32 := Scalar.select v1826 v1808 v1827
  let c4_i32_1478 : BitVec 32 := 4#32
  let v1831 : BitVec 32 := Scalar.muli v1828 c4_i32_1478
  let v1832 : BitVec 32 := Scalar.addi v1830 v1831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1479 : BitVec 32 := 1#32
  let v1833 : BitVec 32 := Scalar.muli v8 c1_i32_1479
  let v1834 : BitVec 32 := Scalar.addi v1832 v1833
  v1834.toNat
def k0_dev25 (d0 : Dev nD) : Nat :=
  let c0_i32_1524 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_1502 : BitVec 32 := 4294967295#32
  let v1871 : BitVec 32 := Scalar.addi v11 c_m1_i32_1502
  let c16_i32_1503 : BitVec 32 := 16#32
  let v1872 : BitVec 32 := Scalar.addi v1871 c16_i32_1503
  let c8_i32_1504 : BitVec 32 := 8#32
  let c0_i32_1505 : BitVec 32 := 0#32
  let v1873 : BitVec 1 := Scalar.cmpi .eq c8_i32_1504 c0_i32_1505
  let c1_i32_1506 : BitVec 32 := 1#32
  let v1874 : BitVec 32 := Scalar.select v1873 c1_i32_1506 c8_i32_1504
  let v1875 : BitVec 32 := Scalar.remsi v1872 v1874
  let c0_i32_1508 : BitVec 32 := 0#32
  let v1877 : BitVec 1 := Scalar.cmpi .slt v1875 c0_i32_1508
  let c0_i32_1509 : BitVec 32 := 0#32
  let v1878 : BitVec 1 := Scalar.cmpi .slt v1874 c0_i32_1509
  let v1879 : BitVec 1 := Scalar.xori v1877 v1878
  let c0_i32_1507 : BitVec 32 := 0#32
  let v1876 : BitVec 1 := Scalar.cmpi .ne v1875 c0_i32_1507
  let v1880 : BitVec 1 := Scalar.andi v1879 v1876
  let v1881 : BitVec 32 := Scalar.addi v1875 v1874
  let v1882 : BitVec 32 := Scalar.select v1880 v1881 v1875
  let c0_i32_1511 : BitVec 32 := 0#32
  let v1884 : BitVec 1 := Scalar.cmpi .sgt v1882 c0_i32_1511
  let v1885 : BitVec 32 := Scalar.extui v1884
  let c0_i32_1512 : BitVec 32 := 0#32
  let v1886 : BitVec 1 := Scalar.cmpi .slt v1882 c0_i32_1512
  let v1887 : BitVec 32 := Scalar.extui v1886
  let v1888 : BitVec 32 := Scalar.subi v1885 v1887
  let c4_i32_1510 : BitVec 32 := 4#32
  let c0_i32_1513 : BitVec 32 := 0#32
  let v1889 : BitVec 1 := Scalar.cmpi .sgt c4_i32_1510 c0_i32_1513
  let v1890 : BitVec 32 := Scalar.extui v1889
  let c0_i32_1514 : BitVec 32 := 0#32
  let v1891 : BitVec 1 := Scalar.cmpi .slt c4_i32_1510 c0_i32_1514
  let v1892 : BitVec 32 := Scalar.extui v1891
  let v1893 : BitVec 32 := Scalar.subi v1890 v1892
  let v1894 : BitVec 1 := Scalar.cmpi .ne v1888 v1893
  let v1895 : BitVec 32 := Scalar.remsi v1882 c4_i32_1510
  let c0_i32_1515 : BitVec 32 := 0#32
  let v1896 : BitVec 1 := Scalar.cmpi .ne v1895 c0_i32_1515
  let v1897 : BitVec 1 := Scalar.andi v1894 v1896
  let v1883 : BitVec 32 := Scalar.divsi v1882 c4_i32_1510
  let c1_i32_1516 : BitVec 32 := 1#32
  let v1898 : BitVec 32 := Scalar.subi v1883 c1_i32_1516
  let v1899 : BitVec 32 := Scalar.select v1897 v1898 v1883
  let c16_i32_1523 : BitVec 32 := 16#32
  let v1903 : BitVec 32 := Scalar.muli v1899 c16_i32_1523
  let v1904 : BitVec 32 := Scalar.addi c0_i32_1524 v1903
  let c0_i32_1517 : BitVec 32 := 0#32
  let v1900 : BitVec 1 := Scalar.cmpi .eq v1899 c0_i32_1517
  let c7_i32_1518 : BitVec 32 := 7#32
  let v1901 : BitVec 32 := Scalar.subi c7_i32_1518 v1882
  let v1902 : BitVec 32 := Scalar.select v1900 v1882 v1901
  let c4_i32_1525 : BitVec 32 := 4#32
  let v1905 : BitVec 32 := Scalar.muli v1902 c4_i32_1525
  let v1906 : BitVec 32 := Scalar.addi v1904 v1905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1526 : BitVec 32 := 1#32
  let v1907 : BitVec 32 := Scalar.muli v8 c1_i32_1526
  let v1908 : BitVec 32 := Scalar.addi v1906 v1907
  v1908.toNat
def k0_dev26 (d0 : Dev nD) : Nat :=
  let c0_i32_1563 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1562 : BitVec 32 := 16#32
  let v1954 : BitVec 32 := Scalar.muli v2 c16_i32_1562
  let v1955 : BitVec 32 := Scalar.addi c0_i32_1563 v1954
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1564 : BitVec 32 := 4#32
  let v1956 : BitVec 32 := Scalar.muli v5 c4_i32_1564
  let v1957 : BitVec 32 := Scalar.addi v1955 v1956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1565 : BitVec 32 := 1#32
  let v1958 : BitVec 32 := Scalar.muli v25 c1_i32_1565
  let v1959 : BitVec 32 := Scalar.addi v1957 v1958
  v1959.toNat
def k0_dev27 (d0 : Dev nD) : Nat :=
  let c0_i32_1602 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1601 : BitVec 32 := 16#32
  let v2005 : BitVec 32 := Scalar.muli v2 c16_i32_1601
  let v2006 : BitVec 32 := Scalar.addi c0_i32_1602 v2005
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1603 : BitVec 32 := 4#32
  let v2007 : BitVec 32 := Scalar.muli v5 c4_i32_1603
  let v2008 : BitVec 32 := Scalar.addi v2006 v2007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1604 : BitVec 32 := 1#32
  let v2009 : BitVec 32 := Scalar.muli v25 c1_i32_1604
  let v2010 : BitVec 32 := Scalar.addi v2008 v2009
  v2010.toNat
def k0_dev28 (d0 : Dev nD) : Nat :=
  let c0_i32_1648 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_1627 : BitVec 32 := 1#32
  let v2047 : BitVec 32 := Scalar.addi v11 c1_i32_1627
  let c16_i32_1628 : BitVec 32 := 16#32
  let v2048 : BitVec 32 := Scalar.addi v2047 c16_i32_1628
  let c8_i32_1629 : BitVec 32 := 8#32
  let c0_i32_1630 : BitVec 32 := 0#32
  let v2049 : BitVec 1 := Scalar.cmpi .eq c8_i32_1629 c0_i32_1630
  let c1_i32_1631 : BitVec 32 := 1#32
  let v2050 : BitVec 32 := Scalar.select v2049 c1_i32_1631 c8_i32_1629
  let v2051 : BitVec 32 := Scalar.remsi v2048 v2050
  let c0_i32_1633 : BitVec 32 := 0#32
  let v2053 : BitVec 1 := Scalar.cmpi .slt v2051 c0_i32_1633
  let c0_i32_1634 : BitVec 32 := 0#32
  let v2054 : BitVec 1 := Scalar.cmpi .slt v2050 c0_i32_1634
  let v2055 : BitVec 1 := Scalar.xori v2053 v2054
  let c0_i32_1632 : BitVec 32 := 0#32
  let v2052 : BitVec 1 := Scalar.cmpi .ne v2051 c0_i32_1632
  let v2056 : BitVec 1 := Scalar.andi v2055 v2052
  let v2057 : BitVec 32 := Scalar.addi v2051 v2050
  let v2058 : BitVec 32 := Scalar.select v2056 v2057 v2051
  let c0_i32_1636 : BitVec 32 := 0#32
  let v2060 : BitVec 1 := Scalar.cmpi .sgt v2058 c0_i32_1636
  let v2061 : BitVec 32 := Scalar.extui v2060
  let c0_i32_1637 : BitVec 32 := 0#32
  let v2062 : BitVec 1 := Scalar.cmpi .slt v2058 c0_i32_1637
  let v2063 : BitVec 32 := Scalar.extui v2062
  let v2064 : BitVec 32 := Scalar.subi v2061 v2063
  let c4_i32_1635 : BitVec 32 := 4#32
  let c0_i32_1638 : BitVec 32 := 0#32
  let v2065 : BitVec 1 := Scalar.cmpi .sgt c4_i32_1635 c0_i32_1638
  let v2066 : BitVec 32 := Scalar.extui v2065
  let c0_i32_1639 : BitVec 32 := 0#32
  let v2067 : BitVec 1 := Scalar.cmpi .slt c4_i32_1635 c0_i32_1639
  let v2068 : BitVec 32 := Scalar.extui v2067
  let v2069 : BitVec 32 := Scalar.subi v2066 v2068
  let v2070 : BitVec 1 := Scalar.cmpi .ne v2064 v2069
  let v2071 : BitVec 32 := Scalar.remsi v2058 c4_i32_1635
  let c0_i32_1640 : BitVec 32 := 0#32
  let v2072 : BitVec 1 := Scalar.cmpi .ne v2071 c0_i32_1640
  let v2073 : BitVec 1 := Scalar.andi v2070 v2072
  let v2059 : BitVec 32 := Scalar.divsi v2058 c4_i32_1635
  let c1_i32_1641 : BitVec 32 := 1#32
  let v2074 : BitVec 32 := Scalar.subi v2059 c1_i32_1641
  let v2075 : BitVec 32 := Scalar.select v2073 v2074 v2059
  let c16_i32_1647 : BitVec 32 := 16#32
  let v2079 : BitVec 32 := Scalar.muli v2075 c16_i32_1647
  let v2080 : BitVec 32 := Scalar.addi c0_i32_1648 v2079
  let c0_i32_1642 : BitVec 32 := 0#32
  let v2076 : BitVec 1 := Scalar.cmpi .eq v2075 c0_i32_1642
  let c7_i32_1643 : BitVec 32 := 7#32
  let v2077 : BitVec 32 := Scalar.subi c7_i32_1643 v2058
  let v2078 : BitVec 32 := Scalar.select v2076 v2058 v2077
  let c4_i32_1649 : BitVec 32 := 4#32
  let v2081 : BitVec 32 := Scalar.muli v2078 c4_i32_1649
  let v2082 : BitVec 32 := Scalar.addi v2080 v2081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1650 : BitVec 32 := 1#32
  let v2083 : BitVec 32 := Scalar.muli v8 c1_i32_1650
  let v2084 : BitVec 32 := Scalar.addi v2082 v2083
  v2084.toNat
def k0_dev29 (d0 : Dev nD) : Nat :=
  let c0_i32_1695 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_1673 : BitVec 32 := 4294967295#32
  let v2121 : BitVec 32 := Scalar.addi v11 c_m1_i32_1673
  let c16_i32_1674 : BitVec 32 := 16#32
  let v2122 : BitVec 32 := Scalar.addi v2121 c16_i32_1674
  let c8_i32_1675 : BitVec 32 := 8#32
  let c0_i32_1676 : BitVec 32 := 0#32
  let v2123 : BitVec 1 := Scalar.cmpi .eq c8_i32_1675 c0_i32_1676
  let c1_i32_1677 : BitVec 32 := 1#32
  let v2124 : BitVec 32 := Scalar.select v2123 c1_i32_1677 c8_i32_1675
  let v2125 : BitVec 32 := Scalar.remsi v2122 v2124
  let c0_i32_1679 : BitVec 32 := 0#32
  let v2127 : BitVec 1 := Scalar.cmpi .slt v2125 c0_i32_1679
  let c0_i32_1680 : BitVec 32 := 0#32
  let v2128 : BitVec 1 := Scalar.cmpi .slt v2124 c0_i32_1680
  let v2129 : BitVec 1 := Scalar.xori v2127 v2128
  let c0_i32_1678 : BitVec 32 := 0#32
  let v2126 : BitVec 1 := Scalar.cmpi .ne v2125 c0_i32_1678
  let v2130 : BitVec 1 := Scalar.andi v2129 v2126
  let v2131 : BitVec 32 := Scalar.addi v2125 v2124
  let v2132 : BitVec 32 := Scalar.select v2130 v2131 v2125
  let c0_i32_1682 : BitVec 32 := 0#32
  let v2134 : BitVec 1 := Scalar.cmpi .sgt v2132 c0_i32_1682
  let v2135 : BitVec 32 := Scalar.extui v2134
  let c0_i32_1683 : BitVec 32 := 0#32
  let v2136 : BitVec 1 := Scalar.cmpi .slt v2132 c0_i32_1683
  let v2137 : BitVec 32 := Scalar.extui v2136
  let v2138 : BitVec 32 := Scalar.subi v2135 v2137
  let c4_i32_1681 : BitVec 32 := 4#32
  let c0_i32_1684 : BitVec 32 := 0#32
  let v2139 : BitVec 1 := Scalar.cmpi .sgt c4_i32_1681 c0_i32_1684
  let v2140 : BitVec 32 := Scalar.extui v2139
  let c0_i32_1685 : BitVec 32 := 0#32
  let v2141 : BitVec 1 := Scalar.cmpi .slt c4_i32_1681 c0_i32_1685
  let v2142 : BitVec 32 := Scalar.extui v2141
  let v2143 : BitVec 32 := Scalar.subi v2140 v2142
  let v2144 : BitVec 1 := Scalar.cmpi .ne v2138 v2143
  let v2145 : BitVec 32 := Scalar.remsi v2132 c4_i32_1681
  let c0_i32_1686 : BitVec 32 := 0#32
  let v2146 : BitVec 1 := Scalar.cmpi .ne v2145 c0_i32_1686
  let v2147 : BitVec 1 := Scalar.andi v2144 v2146
  let v2133 : BitVec 32 := Scalar.divsi v2132 c4_i32_1681
  let c1_i32_1687 : BitVec 32 := 1#32
  let v2148 : BitVec 32 := Scalar.subi v2133 c1_i32_1687
  let v2149 : BitVec 32 := Scalar.select v2147 v2148 v2133
  let c16_i32_1694 : BitVec 32 := 16#32
  let v2153 : BitVec 32 := Scalar.muli v2149 c16_i32_1694
  let v2154 : BitVec 32 := Scalar.addi c0_i32_1695 v2153
  let c0_i32_1688 : BitVec 32 := 0#32
  let v2150 : BitVec 1 := Scalar.cmpi .eq v2149 c0_i32_1688
  let c7_i32_1689 : BitVec 32 := 7#32
  let v2151 : BitVec 32 := Scalar.subi c7_i32_1689 v2132
  let v2152 : BitVec 32 := Scalar.select v2150 v2132 v2151
  let c4_i32_1696 : BitVec 32 := 4#32
  let v2155 : BitVec 32 := Scalar.muli v2152 c4_i32_1696
  let v2156 : BitVec 32 := Scalar.addi v2154 v2155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1697 : BitVec 32 := 1#32
  let v2157 : BitVec 32 := Scalar.muli v8 c1_i32_1697
  let v2158 : BitVec 32 := Scalar.addi v2156 v2157
  v2158.toNat
def k0_dev30 (d0 : Dev nD) : Nat :=
  let c0_i32_1734 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1733 : BitVec 32 := 16#32
  let v2204 : BitVec 32 := Scalar.muli v2 c16_i32_1733
  let v2205 : BitVec 32 := Scalar.addi c0_i32_1734 v2204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1735 : BitVec 32 := 4#32
  let v2206 : BitVec 32 := Scalar.muli v5 c4_i32_1735
  let v2207 : BitVec 32 := Scalar.addi v2205 v2206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1736 : BitVec 32 := 1#32
  let v2208 : BitVec 32 := Scalar.muli v25 c1_i32_1736
  let v2209 : BitVec 32 := Scalar.addi v2207 v2208
  v2209.toNat
def k0_dev31 (d0 : Dev nD) : Nat :=
  let c0_i32_1773 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1772 : BitVec 32 := 16#32
  let v2255 : BitVec 32 := Scalar.muli v2 c16_i32_1772
  let v2256 : BitVec 32 := Scalar.addi c0_i32_1773 v2255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1774 : BitVec 32 := 4#32
  let v2257 : BitVec 32 := Scalar.muli v5 c4_i32_1774
  let v2258 : BitVec 32 := Scalar.addi v2256 v2257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1775 : BitVec 32 := 1#32
  let v2259 : BitVec 32 := Scalar.muli v25 c1_i32_1775
  let v2260 : BitVec 32 := Scalar.addi v2258 v2259
  v2260.toNat
def k0_dev32 (d0 : Dev nD) : Nat :=
  let c0_i32_1819 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_1798 : BitVec 32 := 1#32
  let v2297 : BitVec 32 := Scalar.addi v11 c1_i32_1798
  let c16_i32_1799 : BitVec 32 := 16#32
  let v2298 : BitVec 32 := Scalar.addi v2297 c16_i32_1799
  let c8_i32_1800 : BitVec 32 := 8#32
  let c0_i32_1801 : BitVec 32 := 0#32
  let v2299 : BitVec 1 := Scalar.cmpi .eq c8_i32_1800 c0_i32_1801
  let c1_i32_1802 : BitVec 32 := 1#32
  let v2300 : BitVec 32 := Scalar.select v2299 c1_i32_1802 c8_i32_1800
  let v2301 : BitVec 32 := Scalar.remsi v2298 v2300
  let c0_i32_1804 : BitVec 32 := 0#32
  let v2303 : BitVec 1 := Scalar.cmpi .slt v2301 c0_i32_1804
  let c0_i32_1805 : BitVec 32 := 0#32
  let v2304 : BitVec 1 := Scalar.cmpi .slt v2300 c0_i32_1805
  let v2305 : BitVec 1 := Scalar.xori v2303 v2304
  let c0_i32_1803 : BitVec 32 := 0#32
  let v2302 : BitVec 1 := Scalar.cmpi .ne v2301 c0_i32_1803
  let v2306 : BitVec 1 := Scalar.andi v2305 v2302
  let v2307 : BitVec 32 := Scalar.addi v2301 v2300
  let v2308 : BitVec 32 := Scalar.select v2306 v2307 v2301
  let c0_i32_1807 : BitVec 32 := 0#32
  let v2310 : BitVec 1 := Scalar.cmpi .sgt v2308 c0_i32_1807
  let v2311 : BitVec 32 := Scalar.extui v2310
  let c0_i32_1808 : BitVec 32 := 0#32
  let v2312 : BitVec 1 := Scalar.cmpi .slt v2308 c0_i32_1808
  let v2313 : BitVec 32 := Scalar.extui v2312
  let v2314 : BitVec 32 := Scalar.subi v2311 v2313
  let c4_i32_1806 : BitVec 32 := 4#32
  let c0_i32_1809 : BitVec 32 := 0#32
  let v2315 : BitVec 1 := Scalar.cmpi .sgt c4_i32_1806 c0_i32_1809
  let v2316 : BitVec 32 := Scalar.extui v2315
  let c0_i32_1810 : BitVec 32 := 0#32
  let v2317 : BitVec 1 := Scalar.cmpi .slt c4_i32_1806 c0_i32_1810
  let v2318 : BitVec 32 := Scalar.extui v2317
  let v2319 : BitVec 32 := Scalar.subi v2316 v2318
  let v2320 : BitVec 1 := Scalar.cmpi .ne v2314 v2319
  let v2321 : BitVec 32 := Scalar.remsi v2308 c4_i32_1806
  let c0_i32_1811 : BitVec 32 := 0#32
  let v2322 : BitVec 1 := Scalar.cmpi .ne v2321 c0_i32_1811
  let v2323 : BitVec 1 := Scalar.andi v2320 v2322
  let v2309 : BitVec 32 := Scalar.divsi v2308 c4_i32_1806
  let c1_i32_1812 : BitVec 32 := 1#32
  let v2324 : BitVec 32 := Scalar.subi v2309 c1_i32_1812
  let v2325 : BitVec 32 := Scalar.select v2323 v2324 v2309
  let c16_i32_1818 : BitVec 32 := 16#32
  let v2329 : BitVec 32 := Scalar.muli v2325 c16_i32_1818
  let v2330 : BitVec 32 := Scalar.addi c0_i32_1819 v2329
  let c0_i32_1813 : BitVec 32 := 0#32
  let v2326 : BitVec 1 := Scalar.cmpi .eq v2325 c0_i32_1813
  let c7_i32_1814 : BitVec 32 := 7#32
  let v2327 : BitVec 32 := Scalar.subi c7_i32_1814 v2308
  let v2328 : BitVec 32 := Scalar.select v2326 v2308 v2327
  let c4_i32_1820 : BitVec 32 := 4#32
  let v2331 : BitVec 32 := Scalar.muli v2328 c4_i32_1820
  let v2332 : BitVec 32 := Scalar.addi v2330 v2331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1821 : BitVec 32 := 1#32
  let v2333 : BitVec 32 := Scalar.muli v8 c1_i32_1821
  let v2334 : BitVec 32 := Scalar.addi v2332 v2333
  v2334.toNat
def k0_dev33 (d0 : Dev nD) : Nat :=
  let c0_i32_1866 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_1844 : BitVec 32 := 4294967295#32
  let v2371 : BitVec 32 := Scalar.addi v11 c_m1_i32_1844
  let c16_i32_1845 : BitVec 32 := 16#32
  let v2372 : BitVec 32 := Scalar.addi v2371 c16_i32_1845
  let c8_i32_1846 : BitVec 32 := 8#32
  let c0_i32_1847 : BitVec 32 := 0#32
  let v2373 : BitVec 1 := Scalar.cmpi .eq c8_i32_1846 c0_i32_1847
  let c1_i32_1848 : BitVec 32 := 1#32
  let v2374 : BitVec 32 := Scalar.select v2373 c1_i32_1848 c8_i32_1846
  let v2375 : BitVec 32 := Scalar.remsi v2372 v2374
  let c0_i32_1850 : BitVec 32 := 0#32
  let v2377 : BitVec 1 := Scalar.cmpi .slt v2375 c0_i32_1850
  let c0_i32_1851 : BitVec 32 := 0#32
  let v2378 : BitVec 1 := Scalar.cmpi .slt v2374 c0_i32_1851
  let v2379 : BitVec 1 := Scalar.xori v2377 v2378
  let c0_i32_1849 : BitVec 32 := 0#32
  let v2376 : BitVec 1 := Scalar.cmpi .ne v2375 c0_i32_1849
  let v2380 : BitVec 1 := Scalar.andi v2379 v2376
  let v2381 : BitVec 32 := Scalar.addi v2375 v2374
  let v2382 : BitVec 32 := Scalar.select v2380 v2381 v2375
  let c0_i32_1853 : BitVec 32 := 0#32
  let v2384 : BitVec 1 := Scalar.cmpi .sgt v2382 c0_i32_1853
  let v2385 : BitVec 32 := Scalar.extui v2384
  let c0_i32_1854 : BitVec 32 := 0#32
  let v2386 : BitVec 1 := Scalar.cmpi .slt v2382 c0_i32_1854
  let v2387 : BitVec 32 := Scalar.extui v2386
  let v2388 : BitVec 32 := Scalar.subi v2385 v2387
  let c4_i32_1852 : BitVec 32 := 4#32
  let c0_i32_1855 : BitVec 32 := 0#32
  let v2389 : BitVec 1 := Scalar.cmpi .sgt c4_i32_1852 c0_i32_1855
  let v2390 : BitVec 32 := Scalar.extui v2389
  let c0_i32_1856 : BitVec 32 := 0#32
  let v2391 : BitVec 1 := Scalar.cmpi .slt c4_i32_1852 c0_i32_1856
  let v2392 : BitVec 32 := Scalar.extui v2391
  let v2393 : BitVec 32 := Scalar.subi v2390 v2392
  let v2394 : BitVec 1 := Scalar.cmpi .ne v2388 v2393
  let v2395 : BitVec 32 := Scalar.remsi v2382 c4_i32_1852
  let c0_i32_1857 : BitVec 32 := 0#32
  let v2396 : BitVec 1 := Scalar.cmpi .ne v2395 c0_i32_1857
  let v2397 : BitVec 1 := Scalar.andi v2394 v2396
  let v2383 : BitVec 32 := Scalar.divsi v2382 c4_i32_1852
  let c1_i32_1858 : BitVec 32 := 1#32
  let v2398 : BitVec 32 := Scalar.subi v2383 c1_i32_1858
  let v2399 : BitVec 32 := Scalar.select v2397 v2398 v2383
  let c16_i32_1865 : BitVec 32 := 16#32
  let v2403 : BitVec 32 := Scalar.muli v2399 c16_i32_1865
  let v2404 : BitVec 32 := Scalar.addi c0_i32_1866 v2403
  let c0_i32_1859 : BitVec 32 := 0#32
  let v2400 : BitVec 1 := Scalar.cmpi .eq v2399 c0_i32_1859
  let c7_i32_1860 : BitVec 32 := 7#32
  let v2401 : BitVec 32 := Scalar.subi c7_i32_1860 v2382
  let v2402 : BitVec 32 := Scalar.select v2400 v2382 v2401
  let c4_i32_1867 : BitVec 32 := 4#32
  let v2405 : BitVec 32 := Scalar.muli v2402 c4_i32_1867
  let v2406 : BitVec 32 := Scalar.addi v2404 v2405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1868 : BitVec 32 := 1#32
  let v2407 : BitVec 32 := Scalar.muli v8 c1_i32_1868
  let v2408 : BitVec 32 := Scalar.addi v2406 v2407
  v2408.toNat
def k0_dev34 (d0 : Dev nD) : Nat :=
  let c0_i32_1905 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1904 : BitVec 32 := 16#32
  let v2454 : BitVec 32 := Scalar.muli v2 c16_i32_1904
  let v2455 : BitVec 32 := Scalar.addi c0_i32_1905 v2454
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1906 : BitVec 32 := 4#32
  let v2456 : BitVec 32 := Scalar.muli v5 c4_i32_1906
  let v2457 : BitVec 32 := Scalar.addi v2455 v2456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1907 : BitVec 32 := 1#32
  let v2458 : BitVec 32 := Scalar.muli v25 c1_i32_1907
  let v2459 : BitVec 32 := Scalar.addi v2457 v2458
  v2459.toNat
def k0_dev35 (d0 : Dev nD) : Nat :=
  let c0_i32_1944 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1943 : BitVec 32 := 16#32
  let v2505 : BitVec 32 := Scalar.muli v2 c16_i32_1943
  let v2506 : BitVec 32 := Scalar.addi c0_i32_1944 v2505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1945 : BitVec 32 := 4#32
  let v2507 : BitVec 32 := Scalar.muli v5 c4_i32_1945
  let v2508 : BitVec 32 := Scalar.addi v2506 v2507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_1946 : BitVec 32 := 1#32
  let v2509 : BitVec 32 := Scalar.muli v25 c1_i32_1946
  let v2510 : BitVec 32 := Scalar.addi v2508 v2509
  v2510.toNat
def k0_dev36 (d0 : Dev nD) : Nat :=
  let c0_i32_1990 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_1969 : BitVec 32 := 1#32
  let v2547 : BitVec 32 := Scalar.addi v11 c1_i32_1969
  let c16_i32_1970 : BitVec 32 := 16#32
  let v2548 : BitVec 32 := Scalar.addi v2547 c16_i32_1970
  let c8_i32_1971 : BitVec 32 := 8#32
  let c0_i32_1972 : BitVec 32 := 0#32
  let v2549 : BitVec 1 := Scalar.cmpi .eq c8_i32_1971 c0_i32_1972
  let c1_i32_1973 : BitVec 32 := 1#32
  let v2550 : BitVec 32 := Scalar.select v2549 c1_i32_1973 c8_i32_1971
  let v2551 : BitVec 32 := Scalar.remsi v2548 v2550
  let c0_i32_1975 : BitVec 32 := 0#32
  let v2553 : BitVec 1 := Scalar.cmpi .slt v2551 c0_i32_1975
  let c0_i32_1976 : BitVec 32 := 0#32
  let v2554 : BitVec 1 := Scalar.cmpi .slt v2550 c0_i32_1976
  let v2555 : BitVec 1 := Scalar.xori v2553 v2554
  let c0_i32_1974 : BitVec 32 := 0#32
  let v2552 : BitVec 1 := Scalar.cmpi .ne v2551 c0_i32_1974
  let v2556 : BitVec 1 := Scalar.andi v2555 v2552
  let v2557 : BitVec 32 := Scalar.addi v2551 v2550
  let v2558 : BitVec 32 := Scalar.select v2556 v2557 v2551
  let c0_i32_1978 : BitVec 32 := 0#32
  let v2560 : BitVec 1 := Scalar.cmpi .sgt v2558 c0_i32_1978
  let v2561 : BitVec 32 := Scalar.extui v2560
  let c0_i32_1979 : BitVec 32 := 0#32
  let v2562 : BitVec 1 := Scalar.cmpi .slt v2558 c0_i32_1979
  let v2563 : BitVec 32 := Scalar.extui v2562
  let v2564 : BitVec 32 := Scalar.subi v2561 v2563
  let c4_i32_1977 : BitVec 32 := 4#32
  let c0_i32_1980 : BitVec 32 := 0#32
  let v2565 : BitVec 1 := Scalar.cmpi .sgt c4_i32_1977 c0_i32_1980
  let v2566 : BitVec 32 := Scalar.extui v2565
  let c0_i32_1981 : BitVec 32 := 0#32
  let v2567 : BitVec 1 := Scalar.cmpi .slt c4_i32_1977 c0_i32_1981
  let v2568 : BitVec 32 := Scalar.extui v2567
  let v2569 : BitVec 32 := Scalar.subi v2566 v2568
  let v2570 : BitVec 1 := Scalar.cmpi .ne v2564 v2569
  let v2571 : BitVec 32 := Scalar.remsi v2558 c4_i32_1977
  let c0_i32_1982 : BitVec 32 := 0#32
  let v2572 : BitVec 1 := Scalar.cmpi .ne v2571 c0_i32_1982
  let v2573 : BitVec 1 := Scalar.andi v2570 v2572
  let v2559 : BitVec 32 := Scalar.divsi v2558 c4_i32_1977
  let c1_i32_1983 : BitVec 32 := 1#32
  let v2574 : BitVec 32 := Scalar.subi v2559 c1_i32_1983
  let v2575 : BitVec 32 := Scalar.select v2573 v2574 v2559
  let c16_i32_1989 : BitVec 32 := 16#32
  let v2579 : BitVec 32 := Scalar.muli v2575 c16_i32_1989
  let v2580 : BitVec 32 := Scalar.addi c0_i32_1990 v2579
  let c0_i32_1984 : BitVec 32 := 0#32
  let v2576 : BitVec 1 := Scalar.cmpi .eq v2575 c0_i32_1984
  let c7_i32_1985 : BitVec 32 := 7#32
  let v2577 : BitVec 32 := Scalar.subi c7_i32_1985 v2558
  let v2578 : BitVec 32 := Scalar.select v2576 v2558 v2577
  let c4_i32_1991 : BitVec 32 := 4#32
  let v2581 : BitVec 32 := Scalar.muli v2578 c4_i32_1991
  let v2582 : BitVec 32 := Scalar.addi v2580 v2581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1992 : BitVec 32 := 1#32
  let v2583 : BitVec 32 := Scalar.muli v8 c1_i32_1992
  let v2584 : BitVec 32 := Scalar.addi v2582 v2583
  v2584.toNat
def k0_dev37 (d0 : Dev nD) : Nat :=
  let c0_i32_2037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_2015 : BitVec 32 := 4294967295#32
  let v2621 : BitVec 32 := Scalar.addi v11 c_m1_i32_2015
  let c16_i32_2016 : BitVec 32 := 16#32
  let v2622 : BitVec 32 := Scalar.addi v2621 c16_i32_2016
  let c8_i32_2017 : BitVec 32 := 8#32
  let c0_i32_2018 : BitVec 32 := 0#32
  let v2623 : BitVec 1 := Scalar.cmpi .eq c8_i32_2017 c0_i32_2018
  let c1_i32_2019 : BitVec 32 := 1#32
  let v2624 : BitVec 32 := Scalar.select v2623 c1_i32_2019 c8_i32_2017
  let v2625 : BitVec 32 := Scalar.remsi v2622 v2624
  let c0_i32_2021 : BitVec 32 := 0#32
  let v2627 : BitVec 1 := Scalar.cmpi .slt v2625 c0_i32_2021
  let c0_i32_2022 : BitVec 32 := 0#32
  let v2628 : BitVec 1 := Scalar.cmpi .slt v2624 c0_i32_2022
  let v2629 : BitVec 1 := Scalar.xori v2627 v2628
  let c0_i32_2020 : BitVec 32 := 0#32
  let v2626 : BitVec 1 := Scalar.cmpi .ne v2625 c0_i32_2020
  let v2630 : BitVec 1 := Scalar.andi v2629 v2626
  let v2631 : BitVec 32 := Scalar.addi v2625 v2624
  let v2632 : BitVec 32 := Scalar.select v2630 v2631 v2625
  let c0_i32_2024 : BitVec 32 := 0#32
  let v2634 : BitVec 1 := Scalar.cmpi .sgt v2632 c0_i32_2024
  let v2635 : BitVec 32 := Scalar.extui v2634
  let c0_i32_2025 : BitVec 32 := 0#32
  let v2636 : BitVec 1 := Scalar.cmpi .slt v2632 c0_i32_2025
  let v2637 : BitVec 32 := Scalar.extui v2636
  let v2638 : BitVec 32 := Scalar.subi v2635 v2637
  let c4_i32_2023 : BitVec 32 := 4#32
  let c0_i32_2026 : BitVec 32 := 0#32
  let v2639 : BitVec 1 := Scalar.cmpi .sgt c4_i32_2023 c0_i32_2026
  let v2640 : BitVec 32 := Scalar.extui v2639
  let c0_i32_2027 : BitVec 32 := 0#32
  let v2641 : BitVec 1 := Scalar.cmpi .slt c4_i32_2023 c0_i32_2027
  let v2642 : BitVec 32 := Scalar.extui v2641
  let v2643 : BitVec 32 := Scalar.subi v2640 v2642
  let v2644 : BitVec 1 := Scalar.cmpi .ne v2638 v2643
  let v2645 : BitVec 32 := Scalar.remsi v2632 c4_i32_2023
  let c0_i32_2028 : BitVec 32 := 0#32
  let v2646 : BitVec 1 := Scalar.cmpi .ne v2645 c0_i32_2028
  let v2647 : BitVec 1 := Scalar.andi v2644 v2646
  let v2633 : BitVec 32 := Scalar.divsi v2632 c4_i32_2023
  let c1_i32_2029 : BitVec 32 := 1#32
  let v2648 : BitVec 32 := Scalar.subi v2633 c1_i32_2029
  let v2649 : BitVec 32 := Scalar.select v2647 v2648 v2633
  let c16_i32_2036 : BitVec 32 := 16#32
  let v2653 : BitVec 32 := Scalar.muli v2649 c16_i32_2036
  let v2654 : BitVec 32 := Scalar.addi c0_i32_2037 v2653
  let c0_i32_2030 : BitVec 32 := 0#32
  let v2650 : BitVec 1 := Scalar.cmpi .eq v2649 c0_i32_2030
  let c7_i32_2031 : BitVec 32 := 7#32
  let v2651 : BitVec 32 := Scalar.subi c7_i32_2031 v2632
  let v2652 : BitVec 32 := Scalar.select v2650 v2632 v2651
  let c4_i32_2038 : BitVec 32 := 4#32
  let v2655 : BitVec 32 := Scalar.muli v2652 c4_i32_2038
  let v2656 : BitVec 32 := Scalar.addi v2654 v2655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2039 : BitVec 32 := 1#32
  let v2657 : BitVec 32 := Scalar.muli v8 c1_i32_2039
  let v2658 : BitVec 32 := Scalar.addi v2656 v2657
  v2658.toNat
def k0_dev38 (d0 : Dev nD) : Nat :=
  let c0_i32_2076 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2075 : BitVec 32 := 16#32
  let v2704 : BitVec 32 := Scalar.muli v2 c16_i32_2075
  let v2705 : BitVec 32 := Scalar.addi c0_i32_2076 v2704
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2077 : BitVec 32 := 4#32
  let v2706 : BitVec 32 := Scalar.muli v5 c4_i32_2077
  let v2707 : BitVec 32 := Scalar.addi v2705 v2706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_2078 : BitVec 32 := 1#32
  let v2708 : BitVec 32 := Scalar.muli v25 c1_i32_2078
  let v2709 : BitVec 32 := Scalar.addi v2707 v2708
  v2709.toNat
def k0_dev39 (d0 : Dev nD) : Nat :=
  let c0_i32_2115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2114 : BitVec 32 := 16#32
  let v2755 : BitVec 32 := Scalar.muli v2 c16_i32_2114
  let v2756 : BitVec 32 := Scalar.addi c0_i32_2115 v2755
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2116 : BitVec 32 := 4#32
  let v2757 : BitVec 32 := Scalar.muli v5 c4_i32_2116
  let v2758 : BitVec 32 := Scalar.addi v2756 v2757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_2117 : BitVec 32 := 1#32
  let v2759 : BitVec 32 := Scalar.muli v25 c1_i32_2117
  let v2760 : BitVec 32 := Scalar.addi v2758 v2759
  v2760.toNat
def k0_dev40 (d0 : Dev nD) : Nat :=
  let c0_i32_2161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2140 : BitVec 32 := 1#32
  let v2797 : BitVec 32 := Scalar.addi v11 c1_i32_2140
  let c16_i32_2141 : BitVec 32 := 16#32
  let v2798 : BitVec 32 := Scalar.addi v2797 c16_i32_2141
  let c8_i32_2142 : BitVec 32 := 8#32
  let c0_i32_2143 : BitVec 32 := 0#32
  let v2799 : BitVec 1 := Scalar.cmpi .eq c8_i32_2142 c0_i32_2143
  let c1_i32_2144 : BitVec 32 := 1#32
  let v2800 : BitVec 32 := Scalar.select v2799 c1_i32_2144 c8_i32_2142
  let v2801 : BitVec 32 := Scalar.remsi v2798 v2800
  let c0_i32_2146 : BitVec 32 := 0#32
  let v2803 : BitVec 1 := Scalar.cmpi .slt v2801 c0_i32_2146
  let c0_i32_2147 : BitVec 32 := 0#32
  let v2804 : BitVec 1 := Scalar.cmpi .slt v2800 c0_i32_2147
  let v2805 : BitVec 1 := Scalar.xori v2803 v2804
  let c0_i32_2145 : BitVec 32 := 0#32
  let v2802 : BitVec 1 := Scalar.cmpi .ne v2801 c0_i32_2145
  let v2806 : BitVec 1 := Scalar.andi v2805 v2802
  let v2807 : BitVec 32 := Scalar.addi v2801 v2800
  let v2808 : BitVec 32 := Scalar.select v2806 v2807 v2801
  let c0_i32_2149 : BitVec 32 := 0#32
  let v2810 : BitVec 1 := Scalar.cmpi .sgt v2808 c0_i32_2149
  let v2811 : BitVec 32 := Scalar.extui v2810
  let c0_i32_2150 : BitVec 32 := 0#32
  let v2812 : BitVec 1 := Scalar.cmpi .slt v2808 c0_i32_2150
  let v2813 : BitVec 32 := Scalar.extui v2812
  let v2814 : BitVec 32 := Scalar.subi v2811 v2813
  let c4_i32_2148 : BitVec 32 := 4#32
  let c0_i32_2151 : BitVec 32 := 0#32
  let v2815 : BitVec 1 := Scalar.cmpi .sgt c4_i32_2148 c0_i32_2151
  let v2816 : BitVec 32 := Scalar.extui v2815
  let c0_i32_2152 : BitVec 32 := 0#32
  let v2817 : BitVec 1 := Scalar.cmpi .slt c4_i32_2148 c0_i32_2152
  let v2818 : BitVec 32 := Scalar.extui v2817
  let v2819 : BitVec 32 := Scalar.subi v2816 v2818
  let v2820 : BitVec 1 := Scalar.cmpi .ne v2814 v2819
  let v2821 : BitVec 32 := Scalar.remsi v2808 c4_i32_2148
  let c0_i32_2153 : BitVec 32 := 0#32
  let v2822 : BitVec 1 := Scalar.cmpi .ne v2821 c0_i32_2153
  let v2823 : BitVec 1 := Scalar.andi v2820 v2822
  let v2809 : BitVec 32 := Scalar.divsi v2808 c4_i32_2148
  let c1_i32_2154 : BitVec 32 := 1#32
  let v2824 : BitVec 32 := Scalar.subi v2809 c1_i32_2154
  let v2825 : BitVec 32 := Scalar.select v2823 v2824 v2809
  let c16_i32_2160 : BitVec 32 := 16#32
  let v2829 : BitVec 32 := Scalar.muli v2825 c16_i32_2160
  let v2830 : BitVec 32 := Scalar.addi c0_i32_2161 v2829
  let c0_i32_2155 : BitVec 32 := 0#32
  let v2826 : BitVec 1 := Scalar.cmpi .eq v2825 c0_i32_2155
  let c7_i32_2156 : BitVec 32 := 7#32
  let v2827 : BitVec 32 := Scalar.subi c7_i32_2156 v2808
  let v2828 : BitVec 32 := Scalar.select v2826 v2808 v2827
  let c4_i32_2162 : BitVec 32 := 4#32
  let v2831 : BitVec 32 := Scalar.muli v2828 c4_i32_2162
  let v2832 : BitVec 32 := Scalar.addi v2830 v2831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2163 : BitVec 32 := 1#32
  let v2833 : BitVec 32 := Scalar.muli v8 c1_i32_2163
  let v2834 : BitVec 32 := Scalar.addi v2832 v2833
  v2834.toNat
def k0_dev41 (d0 : Dev nD) : Nat :=
  let c0_i32_2208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_2186 : BitVec 32 := 4294967295#32
  let v2871 : BitVec 32 := Scalar.addi v11 c_m1_i32_2186
  let c16_i32_2187 : BitVec 32 := 16#32
  let v2872 : BitVec 32 := Scalar.addi v2871 c16_i32_2187
  let c8_i32_2188 : BitVec 32 := 8#32
  let c0_i32_2189 : BitVec 32 := 0#32
  let v2873 : BitVec 1 := Scalar.cmpi .eq c8_i32_2188 c0_i32_2189
  let c1_i32_2190 : BitVec 32 := 1#32
  let v2874 : BitVec 32 := Scalar.select v2873 c1_i32_2190 c8_i32_2188
  let v2875 : BitVec 32 := Scalar.remsi v2872 v2874
  let c0_i32_2192 : BitVec 32 := 0#32
  let v2877 : BitVec 1 := Scalar.cmpi .slt v2875 c0_i32_2192
  let c0_i32_2193 : BitVec 32 := 0#32
  let v2878 : BitVec 1 := Scalar.cmpi .slt v2874 c0_i32_2193
  let v2879 : BitVec 1 := Scalar.xori v2877 v2878
  let c0_i32_2191 : BitVec 32 := 0#32
  let v2876 : BitVec 1 := Scalar.cmpi .ne v2875 c0_i32_2191
  let v2880 : BitVec 1 := Scalar.andi v2879 v2876
  let v2881 : BitVec 32 := Scalar.addi v2875 v2874
  let v2882 : BitVec 32 := Scalar.select v2880 v2881 v2875
  let c0_i32_2195 : BitVec 32 := 0#32
  let v2884 : BitVec 1 := Scalar.cmpi .sgt v2882 c0_i32_2195
  let v2885 : BitVec 32 := Scalar.extui v2884
  let c0_i32_2196 : BitVec 32 := 0#32
  let v2886 : BitVec 1 := Scalar.cmpi .slt v2882 c0_i32_2196
  let v2887 : BitVec 32 := Scalar.extui v2886
  let v2888 : BitVec 32 := Scalar.subi v2885 v2887
  let c4_i32_2194 : BitVec 32 := 4#32
  let c0_i32_2197 : BitVec 32 := 0#32
  let v2889 : BitVec 1 := Scalar.cmpi .sgt c4_i32_2194 c0_i32_2197
  let v2890 : BitVec 32 := Scalar.extui v2889
  let c0_i32_2198 : BitVec 32 := 0#32
  let v2891 : BitVec 1 := Scalar.cmpi .slt c4_i32_2194 c0_i32_2198
  let v2892 : BitVec 32 := Scalar.extui v2891
  let v2893 : BitVec 32 := Scalar.subi v2890 v2892
  let v2894 : BitVec 1 := Scalar.cmpi .ne v2888 v2893
  let v2895 : BitVec 32 := Scalar.remsi v2882 c4_i32_2194
  let c0_i32_2199 : BitVec 32 := 0#32
  let v2896 : BitVec 1 := Scalar.cmpi .ne v2895 c0_i32_2199
  let v2897 : BitVec 1 := Scalar.andi v2894 v2896
  let v2883 : BitVec 32 := Scalar.divsi v2882 c4_i32_2194
  let c1_i32_2200 : BitVec 32 := 1#32
  let v2898 : BitVec 32 := Scalar.subi v2883 c1_i32_2200
  let v2899 : BitVec 32 := Scalar.select v2897 v2898 v2883
  let c16_i32_2207 : BitVec 32 := 16#32
  let v2903 : BitVec 32 := Scalar.muli v2899 c16_i32_2207
  let v2904 : BitVec 32 := Scalar.addi c0_i32_2208 v2903
  let c0_i32_2201 : BitVec 32 := 0#32
  let v2900 : BitVec 1 := Scalar.cmpi .eq v2899 c0_i32_2201
  let c7_i32_2202 : BitVec 32 := 7#32
  let v2901 : BitVec 32 := Scalar.subi c7_i32_2202 v2882
  let v2902 : BitVec 32 := Scalar.select v2900 v2882 v2901
  let c4_i32_2209 : BitVec 32 := 4#32
  let v2905 : BitVec 32 := Scalar.muli v2902 c4_i32_2209
  let v2906 : BitVec 32 := Scalar.addi v2904 v2905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2210 : BitVec 32 := 1#32
  let v2907 : BitVec 32 := Scalar.muli v8 c1_i32_2210
  let v2908 : BitVec 32 := Scalar.addi v2906 v2907
  v2908.toNat
def k0_dev42 (d0 : Dev nD) : Nat :=
  let c0_i32_2247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2246 : BitVec 32 := 16#32
  let v2954 : BitVec 32 := Scalar.muli v2 c16_i32_2246
  let v2955 : BitVec 32 := Scalar.addi c0_i32_2247 v2954
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2248 : BitVec 32 := 4#32
  let v2956 : BitVec 32 := Scalar.muli v5 c4_i32_2248
  let v2957 : BitVec 32 := Scalar.addi v2955 v2956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_2249 : BitVec 32 := 1#32
  let v2958 : BitVec 32 := Scalar.muli v25 c1_i32_2249
  let v2959 : BitVec 32 := Scalar.addi v2957 v2958
  v2959.toNat
def k0_dev43 (d0 : Dev nD) : Nat :=
  let c0_i32_2286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2285 : BitVec 32 := 16#32
  let v3005 : BitVec 32 := Scalar.muli v2 c16_i32_2285
  let v3006 : BitVec 32 := Scalar.addi c0_i32_2286 v3005
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2287 : BitVec 32 := 4#32
  let v3007 : BitVec 32 := Scalar.muli v5 c4_i32_2287
  let v3008 : BitVec 32 := Scalar.addi v3006 v3007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_2288 : BitVec 32 := 1#32
  let v3009 : BitVec 32 := Scalar.muli v25 c1_i32_2288
  let v3010 : BitVec 32 := Scalar.addi v3008 v3009
  v3010.toNat
def k0_dev44 (d0 : Dev nD) : Nat :=
  let c0_i32_2332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2311 : BitVec 32 := 1#32
  let v3047 : BitVec 32 := Scalar.addi v11 c1_i32_2311
  let c16_i32_2312 : BitVec 32 := 16#32
  let v3048 : BitVec 32 := Scalar.addi v3047 c16_i32_2312
  let c8_i32_2313 : BitVec 32 := 8#32
  let c0_i32_2314 : BitVec 32 := 0#32
  let v3049 : BitVec 1 := Scalar.cmpi .eq c8_i32_2313 c0_i32_2314
  let c1_i32_2315 : BitVec 32 := 1#32
  let v3050 : BitVec 32 := Scalar.select v3049 c1_i32_2315 c8_i32_2313
  let v3051 : BitVec 32 := Scalar.remsi v3048 v3050
  let c0_i32_2317 : BitVec 32 := 0#32
  let v3053 : BitVec 1 := Scalar.cmpi .slt v3051 c0_i32_2317
  let c0_i32_2318 : BitVec 32 := 0#32
  let v3054 : BitVec 1 := Scalar.cmpi .slt v3050 c0_i32_2318
  let v3055 : BitVec 1 := Scalar.xori v3053 v3054
  let c0_i32_2316 : BitVec 32 := 0#32
  let v3052 : BitVec 1 := Scalar.cmpi .ne v3051 c0_i32_2316
  let v3056 : BitVec 1 := Scalar.andi v3055 v3052
  let v3057 : BitVec 32 := Scalar.addi v3051 v3050
  let v3058 : BitVec 32 := Scalar.select v3056 v3057 v3051
  let c0_i32_2320 : BitVec 32 := 0#32
  let v3060 : BitVec 1 := Scalar.cmpi .sgt v3058 c0_i32_2320
  let v3061 : BitVec 32 := Scalar.extui v3060
  let c0_i32_2321 : BitVec 32 := 0#32
  let v3062 : BitVec 1 := Scalar.cmpi .slt v3058 c0_i32_2321
  let v3063 : BitVec 32 := Scalar.extui v3062
  let v3064 : BitVec 32 := Scalar.subi v3061 v3063
  let c4_i32_2319 : BitVec 32 := 4#32
  let c0_i32_2322 : BitVec 32 := 0#32
  let v3065 : BitVec 1 := Scalar.cmpi .sgt c4_i32_2319 c0_i32_2322
  let v3066 : BitVec 32 := Scalar.extui v3065
  let c0_i32_2323 : BitVec 32 := 0#32
  let v3067 : BitVec 1 := Scalar.cmpi .slt c4_i32_2319 c0_i32_2323
  let v3068 : BitVec 32 := Scalar.extui v3067
  let v3069 : BitVec 32 := Scalar.subi v3066 v3068
  let v3070 : BitVec 1 := Scalar.cmpi .ne v3064 v3069
  let v3071 : BitVec 32 := Scalar.remsi v3058 c4_i32_2319
  let c0_i32_2324 : BitVec 32 := 0#32
  let v3072 : BitVec 1 := Scalar.cmpi .ne v3071 c0_i32_2324
  let v3073 : BitVec 1 := Scalar.andi v3070 v3072
  let v3059 : BitVec 32 := Scalar.divsi v3058 c4_i32_2319
  let c1_i32_2325 : BitVec 32 := 1#32
  let v3074 : BitVec 32 := Scalar.subi v3059 c1_i32_2325
  let v3075 : BitVec 32 := Scalar.select v3073 v3074 v3059
  let c16_i32_2331 : BitVec 32 := 16#32
  let v3079 : BitVec 32 := Scalar.muli v3075 c16_i32_2331
  let v3080 : BitVec 32 := Scalar.addi c0_i32_2332 v3079
  let c0_i32_2326 : BitVec 32 := 0#32
  let v3076 : BitVec 1 := Scalar.cmpi .eq v3075 c0_i32_2326
  let c7_i32_2327 : BitVec 32 := 7#32
  let v3077 : BitVec 32 := Scalar.subi c7_i32_2327 v3058
  let v3078 : BitVec 32 := Scalar.select v3076 v3058 v3077
  let c4_i32_2333 : BitVec 32 := 4#32
  let v3081 : BitVec 32 := Scalar.muli v3078 c4_i32_2333
  let v3082 : BitVec 32 := Scalar.addi v3080 v3081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2334 : BitVec 32 := 1#32
  let v3083 : BitVec 32 := Scalar.muli v8 c1_i32_2334
  let v3084 : BitVec 32 := Scalar.addi v3082 v3083
  v3084.toNat
def k0_dev45 (d0 : Dev nD) : Nat :=
  let c0_i32_2379 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c_m1_i32_2357 : BitVec 32 := 4294967295#32
  let v3121 : BitVec 32 := Scalar.addi v11 c_m1_i32_2357
  let c16_i32_2358 : BitVec 32 := 16#32
  let v3122 : BitVec 32 := Scalar.addi v3121 c16_i32_2358
  let c8_i32_2359 : BitVec 32 := 8#32
  let c0_i32_2360 : BitVec 32 := 0#32
  let v3123 : BitVec 1 := Scalar.cmpi .eq c8_i32_2359 c0_i32_2360
  let c1_i32_2361 : BitVec 32 := 1#32
  let v3124 : BitVec 32 := Scalar.select v3123 c1_i32_2361 c8_i32_2359
  let v3125 : BitVec 32 := Scalar.remsi v3122 v3124
  let c0_i32_2363 : BitVec 32 := 0#32
  let v3127 : BitVec 1 := Scalar.cmpi .slt v3125 c0_i32_2363
  let c0_i32_2364 : BitVec 32 := 0#32
  let v3128 : BitVec 1 := Scalar.cmpi .slt v3124 c0_i32_2364
  let v3129 : BitVec 1 := Scalar.xori v3127 v3128
  let c0_i32_2362 : BitVec 32 := 0#32
  let v3126 : BitVec 1 := Scalar.cmpi .ne v3125 c0_i32_2362
  let v3130 : BitVec 1 := Scalar.andi v3129 v3126
  let v3131 : BitVec 32 := Scalar.addi v3125 v3124
  let v3132 : BitVec 32 := Scalar.select v3130 v3131 v3125
  let c0_i32_2366 : BitVec 32 := 0#32
  let v3134 : BitVec 1 := Scalar.cmpi .sgt v3132 c0_i32_2366
  let v3135 : BitVec 32 := Scalar.extui v3134
  let c0_i32_2367 : BitVec 32 := 0#32
  let v3136 : BitVec 1 := Scalar.cmpi .slt v3132 c0_i32_2367
  let v3137 : BitVec 32 := Scalar.extui v3136
  let v3138 : BitVec 32 := Scalar.subi v3135 v3137
  let c4_i32_2365 : BitVec 32 := 4#32
  let c0_i32_2368 : BitVec 32 := 0#32
  let v3139 : BitVec 1 := Scalar.cmpi .sgt c4_i32_2365 c0_i32_2368
  let v3140 : BitVec 32 := Scalar.extui v3139
  let c0_i32_2369 : BitVec 32 := 0#32
  let v3141 : BitVec 1 := Scalar.cmpi .slt c4_i32_2365 c0_i32_2369
  let v3142 : BitVec 32 := Scalar.extui v3141
  let v3143 : BitVec 32 := Scalar.subi v3140 v3142
  let v3144 : BitVec 1 := Scalar.cmpi .ne v3138 v3143
  let v3145 : BitVec 32 := Scalar.remsi v3132 c4_i32_2365
  let c0_i32_2370 : BitVec 32 := 0#32
  let v3146 : BitVec 1 := Scalar.cmpi .ne v3145 c0_i32_2370
  let v3147 : BitVec 1 := Scalar.andi v3144 v3146
  let v3133 : BitVec 32 := Scalar.divsi v3132 c4_i32_2365
  let c1_i32_2371 : BitVec 32 := 1#32
  let v3148 : BitVec 32 := Scalar.subi v3133 c1_i32_2371
  let v3149 : BitVec 32 := Scalar.select v3147 v3148 v3133
  let c16_i32_2378 : BitVec 32 := 16#32
  let v3153 : BitVec 32 := Scalar.muli v3149 c16_i32_2378
  let v3154 : BitVec 32 := Scalar.addi c0_i32_2379 v3153
  let c0_i32_2372 : BitVec 32 := 0#32
  let v3150 : BitVec 1 := Scalar.cmpi .eq v3149 c0_i32_2372
  let c7_i32_2373 : BitVec 32 := 7#32
  let v3151 : BitVec 32 := Scalar.subi c7_i32_2373 v3132
  let v3152 : BitVec 32 := Scalar.select v3150 v3132 v3151
  let c4_i32_2380 : BitVec 32 := 4#32
  let v3155 : BitVec 32 := Scalar.muli v3152 c4_i32_2380
  let v3156 : BitVec 32 := Scalar.addi v3154 v3155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2381 : BitVec 32 := 1#32
  let v3157 : BitVec 32 := Scalar.muli v8 c1_i32_2381
  let v3158 : BitVec 32 := Scalar.addi v3156 v3157
  v3158.toNat
def k0_dev46 (d0 : Dev nD) : Nat :=
  let c0_i32_2418 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2417 : BitVec 32 := 16#32
  let v3204 : BitVec 32 := Scalar.muli v2 c16_i32_2417
  let v3205 : BitVec 32 := Scalar.addi c0_i32_2418 v3204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2419 : BitVec 32 := 4#32
  let v3206 : BitVec 32 := Scalar.muli v5 c4_i32_2419
  let v3207 : BitVec 32 := Scalar.addi v3205 v3206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_2420 : BitVec 32 := 1#32
  let v3208 : BitVec 32 := Scalar.muli v25 c1_i32_2420
  let v3209 : BitVec 32 := Scalar.addi v3207 v3208
  v3209.toNat
def k0_dev47 (d0 : Dev nD) : Nat :=
  let c0_i32_2457 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2456 : BitVec 32 := 16#32
  let v3255 : BitVec 32 := Scalar.muli v2 c16_i32_2456
  let v3256 : BitVec 32 := Scalar.addi c0_i32_2457 v3255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2458 : BitVec 32 := 4#32
  let v3257 : BitVec 32 := Scalar.muli v5 c4_i32_2458
  let v3258 : BitVec 32 := Scalar.addi v3256 v3257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.addi v8 c1_i32_8
  let c2_i32_9 : BitVec 32 := 2#32
  let c2_i32_2 : BitVec 32 := 2#32
  let c0_i32_3 : BitVec 32 := 0#32
  let v12 : BitVec 1 := Scalar.cmpi .eq c2_i32_2 c0_i32_3
  let c1_i32_4 : BitVec 32 := 1#32
  let v13 : BitVec 32 := Scalar.select v12 c1_i32_4 c2_i32_2
  let v14 : BitVec 32 := Scalar.remsi v8 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let v24 : BitVec 32 := Scalar.muli c2_i32_9 v21
  let v25 : BitVec 32 := Scalar.subi v23 v24
  let c1_i32_2459 : BitVec 32 := 1#32
  let v3259 : BitVec 32 := Scalar.muli v25 c1_i32_2459
  let v3260 : BitVec 32 := Scalar.addi v3258 v3259
  v3260.toNat

class Facts₀ : Prop where
  hamt_1 : (1#32 : BitVec 32).msb = false
  hamt_3 : (3#32 : BitVec 32).msb = false
  inb_S2x14_S1x1_0_0 : ∀ a, (![0, 0] : Fin 2 → Nat) a + S1x1.size a ≤ S2x14.size a
  squeezes_S1x1_S_ : S1x1.Squeezes S_
  inb_S2x7x512x1024_S1x1x512x1024_0_0_0_0 : ∀ a, (![0, 0, 0, 0] : Fin 4 → Nat) a + S1x1x512x1024.size a ≤ S2x7x512x1024.size a
  squeezes_S1x1x512x1024_S512x1024 : S1x1x512x1024.Squeezes S512x1024
  inb_S2_S1_0 : ∀ a, (![0] : Fin 1 → Nat) a + S1.size a ≤ S2.size a
  squeezes_S1_S_ : S1.Squeezes S_
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S2x14_S1x1_1_0 : ∀ a, (![1, 0] : Fin 2 → Nat) a + S1x1.size a ≤ S2x14.size a
  inb_S2x7x512x1024_S1x1x512x1024_1_0_0_0 : ∀ a, (![1, 0, 0, 0] : Fin 4 → Nat) a + S1x1x512x1024.size a ≤ S2x7x512x1024.size a
  inb_S2_S1_1 : ∀ a, (![1] : Fin 1 → Nat) a + S1.size a ≤ S2.size a
  inb_S2x512x1024_S1x512x1024_1_0_0 : ∀ a, (![1, 0, 0] : Fin 3 → Nat) a + S1x512x1024.size a ≤ S2x512x1024.size a
  h_S1x1x512x1024 : 0 < S1x1x512x1024.numel
  shapeCasts_S1x1x512x1024_S512x1024 : S1x1x512x1024.ShapeCasts S512x1024
  h_S1x512x1024 : 0 < S1x512x1024.numel
  shapeCasts_S1x512x1024_S512x1024 : S1x512x1024.ShapeCasts S512x1024
  shapeCasts_S512x1024_S1x1x512x1024 : S512x1024.ShapeCasts S1x1x512x1024
  inb_S2x14_S1x1_0_1 : ∀ a, (![0, 1] : Fin 2 → Nat) a + S1x1.size a ≤ S2x14.size a
  inb_S2x7x512x1024_S1x1x512x1024_0_1_0_0 : ∀ a, (![0, 1, 0, 0] : Fin 4 → Nat) a + S1x1x512x1024.size a ≤ S2x7x512x1024.size a
  inb_S2x14_S1x1_1_1 : ∀ a, (![1, 1] : Fin 2 → Nat) a + S1x1.size a ≤ S2x14.size a
  inb_S2x7x512x1024_S1x1x512x1024_1_1_0_0 : ∀ a, (![1, 1, 0, 0] : Fin 4 → Nat) a + S1x1x512x1024.size a ≤ S2x7x512x1024.size a
  inb_S2x14_S1x1_0_2 : ∀ a, (![0, 2] : Fin 2 → Nat) a + S1x1.size a ≤ S2x14.size a
  inb_S2x7x512x1024_S1x1x512x1024_0_2_0_0 : ∀ a, (![0, 2, 0, 0] : Fin 4 → Nat) a + S1x1x512x1024.size a ≤ S2x7x512x1024.size a
  inb_S2x14_S1x1_1_2 : ∀ a, (![1, 2] : Fin 2 → Nat) a + S1x1.size a ≤ S2x14.size a
  inb_S2x7x512x1024_S1x1x512x1024_1_2_0_0 : ∀ a, (![1, 2, 0, 0] : Fin 4 → Nat) a + S1x1x512x1024.size a ≤ S2x7x512x1024.size a
  inb_S2x14_S1x1_0_3 : ∀ a, (![0, 3] : Fin 2 → Nat) a + S1x1.size a ≤ S2x14.size a
  inb_S2x7x512x1024_S1x1x512x1024_0_3_0_0 : ∀ a, (![0, 3, 0, 0] : Fin 4 → Nat) a + S1x1x512x1024.size a ≤ S2x7x512x1024.size a
  inb_S2x14_S1x1_1_3 : ∀ a, (![1, 3] : Fin 2 → Nat) a + S1x1.size a ≤ S2x14.size a
  inb_S2x7x512x1024_S1x1x512x1024_1_3_0_0 : ∀ a, (![1, 3, 0, 0] : Fin 4 → Nat) a + S1x1x512x1024.size a ≤ S2x7x512x1024.size a
  inb_S2x14_S1x1_0_4 : ∀ a, (![0, 4] : Fin 2 → Nat) a + S1x1.size a ≤ S2x14.size a
  inb_S2x7x512x1024_S1x1x512x1024_0_4_0_0 : ∀ a, (![0, 4, 0, 0] : Fin 4 → Nat) a + S1x1x512x1024.size a ≤ S2x7x512x1024.size a
  inb_S2x14_S1x1_1_4 : ∀ a, (![1, 4] : Fin 2 → Nat) a + S1x1.size a ≤ S2x14.size a
  inb_S2x7x512x1024_S1x1x512x1024_1_4_0_0 : ∀ a, (![1, 4, 0, 0] : Fin 4 → Nat) a + S1x1x512x1024.size a ≤ S2x7x512x1024.size a
  inb_S2x14_S1x1_0_5 : ∀ a, (![0, 5] : Fin 2 → Nat) a + S1x1.size a ≤ S2x14.size a
  inb_S2x7x512x1024_S1x1x512x1024_0_5_0_0 : ∀ a, (![0, 5, 0, 0] : Fin 4 → Nat) a + S1x1x512x1024.size a ≤ S2x7x512x1024.size a
  inb_S2x14_S1x1_1_5 : ∀ a, (![1, 5] : Fin 2 → Nat) a + S1x1.size a ≤ S2x14.size a
  inb_S2x7x512x1024_S1x1x512x1024_1_5_0_0 : ∀ a, (![1, 5, 0, 0] : Fin 4 → Nat) a + S1x1x512x1024.size a ≤ S2x7x512x1024.size a
  inb_S2x14_S1x1_0_6 : ∀ a, (![0, 6] : Fin 2 → Nat) a + S1x1.size a ≤ S2x14.size a
  inb_S2x7x512x1024_S1x1x512x1024_0_6_0_0 : ∀ a, (![0, 6, 0, 0] : Fin 4 → Nat) a + S1x1x512x1024.size a ≤ S2x7x512x1024.size a
  inb_S2x14_S1x1_1_6 : ∀ a, (![1, 6] : Fin 2 → Nat) a + S1x1.size a ≤ S2x14.size a
  inb_S2x7x512x1024_S1x1x512x1024_1_6_0_0 : ∀ a, (![1, 6, 0, 0] : Fin 4 → Nat) a + S1x1x512x1024.size a ≤ S2x7x512x1024.size a
  inb_S2x8_S1x1_0_0 : ∀ a, (![0, 0] : Fin 2 → Nat) a + S1x1.size a ≤ S2x8.size a
  inb_S2x8_S1x1_1_0 : ∀ a, (![1, 0] : Fin 2 → Nat) a + S1x1.size a ≤ S2x8.size a
  inb_S2x14_S1x1_0_7 : ∀ a, (![0, 7] : Fin 2 → Nat) a + S1x1.size a ≤ S2x14.size a
  inb_S2x14_S1x1_1_7 : ∀ a, (![1, 7] : Fin 2 → Nat) a + S1x1.size a ≤ S2x14.size a
  inb_S2x8_S1x1_0_1 : ∀ a, (![0, 1] : Fin 2 → Nat) a + S1x1.size a ≤ S2x8.size a
  inb_S2x8_S1x1_1_1 : ∀ a, (![1, 1] : Fin 2 → Nat) a + S1x1.size a ≤ S2x8.size a
  inb_S2x14_S1x1_0_8 : ∀ a, (![0, 8] : Fin 2 → Nat) a + S1x1.size a ≤ S2x14.size a
  inb_S2x14_S1x1_1_8 : ∀ a, (![1, 8] : Fin 2 → Nat) a + S1x1.size a ≤ S2x14.size a
  inb_S2x8_S1x1_0_2 : ∀ a, (![0, 2] : Fin 2 → Nat) a + S1x1.size a ≤ S2x8.size a
  inb_S2x8_S1x1_1_2 : ∀ a, (![1, 2] : Fin 2 → Nat) a + S1x1.size a ≤ S2x8.size a
  inb_S2x14_S1x1_0_9 : ∀ a, (![0, 9] : Fin 2 → Nat) a + S1x1.size a ≤ S2x14.size a
  inb_S2x14_S1x1_1_9 : ∀ a, (![1, 9] : Fin 2 → Nat) a + S1x1.size a ≤ S2x14.size a
  inb_S2x8_S1x1_0_3 : ∀ a, (![0, 3] : Fin 2 → Nat) a + S1x1.size a ≤ S2x8.size a
  inb_S2x8_S1x1_1_3 : ∀ a, (![1, 3] : Fin 2 → Nat) a + S1x1.size a ≤ S2x8.size a
  inb_S2x14_S1x1_0_10 : ∀ a, (![0, 10] : Fin 2 → Nat) a + S1x1.size a ≤ S2x14.size a
  inb_S2x14_S1x1_1_10 : ∀ a, (![1, 10] : Fin 2 → Nat) a + S1x1.size a ≤ S2x14.size a
  inb_S2x8_S1x1_0_4 : ∀ a, (![0, 4] : Fin 2 → Nat) a + S1x1.size a ≤ S2x8.size a
  inb_S2x8_S1x1_1_4 : ∀ a, (![1, 4] : Fin 2 → Nat) a + S1x1.size a ≤ S2x8.size a
  inb_S2x14_S1x1_0_11 : ∀ a, (![0, 11] : Fin 2 → Nat) a + S1x1.size a ≤ S2x14.size a
  inb_S2x14_S1x1_1_11 : ∀ a, (![1, 11] : Fin 2 → Nat) a + S1x1.size a ≤ S2x14.size a
  inb_S2x8_S1x1_0_5 : ∀ a, (![0, 5] : Fin 2 → Nat) a + S1x1.size a ≤ S2x8.size a
  inb_S2x8_S1x1_1_5 : ∀ a, (![1, 5] : Fin 2 → Nat) a + S1x1.size a ≤ S2x8.size a
  inb_S2x14_S1x1_0_12 : ∀ a, (![0, 12] : Fin 2 → Nat) a + S1x1.size a ≤ S2x14.size a
  inb_S2x14_S1x1_1_12 : ∀ a, (![1, 12] : Fin 2 → Nat) a + S1x1.size a ≤ S2x14.size a
  inb_S2x8_S1x1_0_6 : ∀ a, (![0, 6] : Fin 2 → Nat) a + S1x1.size a ≤ S2x8.size a
  inb_S2x8_S1x1_1_6 : ∀ a, (![1, 6] : Fin 2 → Nat) a + S1x1.size a ≤ S2x8.size a
  inb_S2x14_S1x1_0_13 : ∀ a, (![0, 13] : Fin 2 → Nat) a + S1x1.size a ≤ S2x14.size a
  inb_S2x14_S1x1_1_13 : ∀ a, (![1, 13] : Fin 2 → Nat) a + S1x1.size a ≤ S2x14.size a
  inb_S2x8_S1x1_0_7 : ∀ a, (![0, 7] : Fin 2 → Nat) a + S1x1.size a ≤ S2x8.size a
  inb_S2x8_S1x1_1_7 : ∀ a, (![1, 7] : Fin 2 → Nat) a + S1x1.size a ≤ S2x8.size a
  hcc0_scratch2 : 0 + S2x14.numel ≤ 90
  hcc0_scratch3 : 28 + S2x14.numel ≤ 90
  hcc0_scratch4 : 56 + S2x8.numel ≤ 90
  hcc0_scratch5 : 72 + S2x8.numel ≤ 90
  hcc0_scratch6 : 88 + S2.numel ≤ 90
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 2), ∀ a, (k0_off1 d0 (BitVec.ofNat 32 (4096 * r.val))) a + S512x1024.size a ≤ S16384x1024.size a
  k0_dev4_lt : ∀ d0 : Dev nD, (k0_dev4 d0) < nD
  k0_off2_inb : ∀ d0 : Dev nD, ∀ (r : Fin 16), ∀ a, (k0_off2 d0 (k0_off2_at r).1 (k0_off2_at r).2) a + S512x1024.size a ≤ S16384x1024.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off3_inb : ∀ d0 : Dev nD, ∀ (r : Fin 2), ∀ a, (k0_off3 d0 (k0_off3_at r).1 (k0_off3_at r).2) a + S512x1024.size a ≤ S16384x1024.size a
  k0_dev18_lt : ∀ d0 : Dev nD, (k0_dev18 d0) < nD
  k0_dev19_lt : ∀ d0 : Dev nD, (k0_dev19 d0) < nD
  k0_off4_inb : ∀ d0 : Dev nD, ∀ (r : Fin 14), ∀ a, (k0_off4 d0 (k0_off4_at r).1 (k0_off4_at r).2.1 (k0_off4_at r).2.2) a + S512x1024.size a ≤ S16384x1024.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD

variable [Facts₀]

abbrev cc0_scratch2 : DmaSems sig S2x14 := SemArray.consecutive 0 S2x14 hcc0_scratch2
abbrev cc0_scratch3 : DmaSems sig S2x14 := SemArray.consecutive 28 S2x14 hcc0_scratch3
abbrev cc0_scratch4 : DmaSems sig S2x8 := SemArray.consecutive 56 S2x8 hcc0_scratch4
abbrev cc0_scratch5 : DmaSems sig S2x8 := SemArray.consecutive 72 S2x8 hcc0_scratch5
abbrev cc0_scratch6 : DmaSems sig S2 := SemArray.consecutive 88 S2 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩
abbrev S4x16384x1024 : Shape := ⟨3, ![4, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x16384x1024, .f32⟩
  | .hbm, ⟨2, _⟩ => ⟨S_, .f32⟩
  | .hbm, ⟨3, _⟩ => ⟨S16384x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S65536x1024_S4x16384x1024 : S65536x1024.ShapeCasts S4x16384x1024
  reducesTo_S4x16384x1024_S16384x1024_d0 : S4x16384x1024.ReducesTo [0] S16384x1024
  h_S_ : 0 < S_.numel

variable [Facts₀]

class Facts : Prop extends Facts₀ where

variable [Facts]
-- ==== Proof.RefSide.lean ====
/-
  The reference side. The reference reshapes the whole array of 65536 rows into four blocks of 16384 rows and adds
  the four blocks, starting from zero: entry (r, col) of its result is 0 + Σ over k < 4 of the whole array's entry
  (k · 16384 + r, col).
-/
import proofs.«900727_g7700000000000728_dist_ar_v7x_xyz2x4x4_y_m16384_n1024_f32_1_alg».proof.Defs
import proofs.«900727_g7700000000000728_dist_ar_v7x_xyz2x4x4_y_m16384_n1024_f32_1_alg».proof.Proof.Gen.ReferenceIdeal
import proofs.«900727_g7700000000000728_dist_ar_v7x_xyz2x4x4_y_m16384_n1024_f32_1_alg».proof.Proof.Gen.ReferenceIdeal.Run
import proofs.«900727_g7700000000000728_dist_ar_v7x_xyz2x4x4_y_m16384_n1024_f32_1_alg».proof.Proof.Gen.ReferenceIdeal.Read
import proofs.«900727_g7700000000000728_dist_ar_v7x_xyz2x4x4_y_m16384_n1024_f32_1_alg».proof.Proof.Gen.Pre_finite_inputs_ReferenceIdeal
import Idealize.ShloMosaic.Lib.ValueIdx
import Idealize.ShloMosaic.Lib.Pipeline.Value
import Idealize.ShloMosaic.PureOps.Ideal.Laws
import Idealize.ShloMosaic.Lib.StableHlo.Run

noncomputable section

namespace Cert.RefSide

open Idealize.ShloMosaic Idealize.ShloMosaic.TcCoe Idealize.SL.Sem
open Idealize.ShloMosaic.ValueIdx
open scoped BigOperators

/-! ## The reference's value, index by index -/

/-- Row `k · 16384 + r` of the whole array: row `r` of its `k`-th block of 16384 rows. -/
abbrev blockRow (k : Fin 4) (r : Fin 16384) : Fin 65536 :=
  ⟨k.val * 16384 + r.val, by have hk := k.isLt; have hr := r.isLt; omega⟩

theorem blockRow_val (k : Fin 4) (r : Fin 16384) : (blockRow k r).val = k.val * 16384 + r.val := rfl

/-- What the reference computes from the whole array `W`: at (r, q), zero plus the sum over the four blocks of rows
    of `W` at (k · 16384 + r, q). -/
def refVal (W : (⟨Cert.ReferenceIdeal.S65536x1024, .f32⟩ : BufTy).Contents (Elt Ideal)) :
    (⟨Cert.ReferenceIdeal.S16384x1024, .f32⟩ : BufTy).Contents (Elt Ideal) :=
  fun i => (0 : EReal) + ∑ k : Fin 4, W (ix2 (blockRow k (i 0)) (i 1))

/-- `refVal` read at coordinates. -/
theorem refVal_apply (W : (⟨Cert.ReferenceIdeal.S65536x1024, .f32⟩ : BufTy).Contents (Elt Ideal))
    (r : Fin 16384) (q : Fin 1024) :
    refVal W (ix2 r q) = (0 : EReal) + ∑ k : Fin 4, W (ix2 (blockRow k r) q) := rfl

/-- The reshape's read index composed with the reduction's: block `k`, row `i 0`, column `i 1` of the rank-3 view
    is row `k · 16384 + i 0`, column `i 1` of the whole array. -/
theorem idx_comp (i : Cert.ReferenceIdeal.S16384x1024.Idx) (k : Fin 4) :
    Cert.ReferenceIdeal.Read.idx_main_v0 (Cert.ReferenceIdeal.Read.idx_main_v1 i k) = ix2 (blockRow k (i 0)) (i 1) := by
  have h0 : (i 0).val < 16384 := (i 0).isLt
  have h1 : (i 1).val < 1024 := (i 1).isLt
  have hk : k.val < 4 := k.isLt
  funext a
  refine Fin.ext ?_
  match a with
  | ⟨0, _⟩ =>
    show ((k.val * 16384 + (i 0).val) * 1024 + (i 1).val) / 1024 = k.val * 16384 + (i 0).val
    omega
  | ⟨1, _⟩ =>
    show ((k.val * 16384 + (i 0).val) * 1024 + (i 1).val) % 1024 = (i 1).val
    omega

/-- The term the reference's run states for its result is `refVal` of the argument. -/
theorem reduce_eq_refVal (W : (⟨Cert.ReferenceIdeal.S65536x1024, .f32⟩ : BufTy).Contents (Elt Ideal)) :
    Host.reduceAdd (F := Ideal) (shapeCast _ W Cert.ReferenceIdeal.Gen.shapeCasts_S65536x1024_S4x16384x1024)
        (constant Cert.ReferenceIdeal.S_ .f32 0x00000000#32)
        Cert.ReferenceIdeal.Gen.reducesTo_S4x16384x1024_S16384x1024_d0 Cert.ReferenceIdeal.Gen.h_S_
      = refVal W := by
  rw [Cert.ReferenceIdeal.Read.val_main_v1_eq]
  funext i
  rw [Cert.ReferenceIdeal.Read.val_main_v1_apply, Cert.ReferenceIdeal.Read.val_main_cst_apply]
  simp only [Cert.ReferenceIdeal.Read.val_main_v0_apply, idx_comp, Ideal.ofBits_def, Ideal.ofBits_zero_f32]
  rfl

/-! ## The reference's run -/

/-- The reference runs, its result ends at `refVal` of its argument, and the argument ends unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r =>
        r.2.mem (((0 : Dev Cert.ReferenceIdeal.nD).tc : Thread Cert.ReferenceIdeal.nD Cert.ReferenceIdeal.τ).loc Cert.ReferenceIdeal.main_v1)
          = refVal (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (reduce_eq_refVal _), (h 0).2⟩)
    (Cert.ReferenceIdeal.Value.run (F := Ideal) m' g')

/-- The reference's frame: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- info: 'Cert.RefSide.ref_run' depends on axioms: [propext, Classical.choice, Quot.sound] -/
#guard_msgs in #print axioms ref_run

/-- info: 'Cert.RefSide.frame_ri' depends on axioms: [propext, Classical.choice, Quot.sound] -/
#guard_msgs in #print axioms frame_ri

end Cert.RefSide

end
-- ==== Proof.RingDefs.lean ====
/-
  The mesh as the kernel sees it. The 32 devices are numbered x·16 + y·4 + z over the mesh (x, y, z) = (2, 4, 4).
  The kernel works on rings of eight: the devices of one z, ordered by ring position y on the half x = 0 and
  7 − y on the half x = 1, so that neighbouring positions are neighbouring devices of the torus; and on pairs
  {z, z xor 1}. Within a pair the member with even z reduces the lower half of the rows, the other the upper half.
  This module names the three device maps (ring successor, ring predecessor, pair partner), the ring position and
  the half, and the row at which a chunk starts.
-/
import proofs.«900727_g7700000000000728_dist_ar_v7x_xyz2x4x4_y_m16384_n1024_f32_1_alg».proof.KernelIdeal
import Idealize.ShloMosaic.Lib.Decide

namespace Cert.KernelIdeal.Ring

open Idealize.ShloMosaic Cert.KernelIdeal

/-- Ring position of a device: y on the half x = 0, 7 − y on the half x = 1. -/
def posD (c : Dev nD) : ℕ := if c.val / 16 = 0 then (c.val / 4) % 4 else 7 - (c.val / 4) % 4
/-- The z coordinate. -/
def zD (c : Dev nD) : ℕ := c.val % 4
/-- Which half of the rows a device reduces: z mod 2. -/
def zpD (c : Dev nD) : ℕ := c.val % 2

/-- The device at ring position p (mod 8) and coordinate z (mod 4). -/
def ofPos (p z : ℕ) : Dev nD :=
  ⟨(if p % 8 < 4 then (p % 8) * 4 else 16 + (7 - p % 8) * 4) + z % 4, by
    have h1 : p % 8 < 8 := Nat.mod_lt _ (by decide)
    have h2 : z % 4 < 4 := Nat.mod_lt _ (by decide)
    show _ < 32
    split <;> omega⟩

/-- Ring successor, ring predecessor, pair partner. -/
def succD (c : Dev nD) : Dev nD := ofPos (posD c + 1) (zD c)
def predD (c : Dev nD) : Dev nD := ofPos (posD c + 7) (zD c)
def partD (c : Dev nD) : Dev nD :=
  ⟨c.val / 2 * 2 + (1 - c.val % 2), by have h : c.val < 32 := c.isLt; show _ < 32; omega⟩

/-- The neighbour a device SENDS to in direction d (0: successor, 1: predecessor), and the one it RECEIVES from. -/
def toD (d : Fin 2) (c : Dev nD) : Dev nD := if d = 0 then succD c else predD c
def fromD (d : Fin 2) (c : Dev nD) : Dev nD := if d = 0 then predD c else succD c

/-- First row of the chunk of direction d at ring position (posD c + j) mod 8, in the half device c reduces. -/
def rowAt (c : Dev nD) (d j : ℕ) : ℕ := zpD c * 8192 + d * 4096 + ((posD c + j) % 8) * 512

end Cert.KernelIdeal.Ring
-- ==== Proof.Cells.lean ====
/-
  The resource algebra and the names of the semaphore cells and buffers of one device.
  A device's regular semaphore here is the barrier of the collective; its ninety DMA semaphores are, in the order
  the program lays them out: 28 departure semaphores of the ring copies (direction d, step k: index 14·d + k),
  28 arrival semaphores of the ring copies (28 + 14·d + k), 16 departure and 16 arrival semaphores of the copies
  to the pair partner (56 + 8·d + k and 72 + 8·d + k), and the two semaphores of the local copies (88 + d).
-/
import proofs.«900727_g7700000000000728_dist_ar_v7x_xyz2x4x4_y_m16384_n1024_f32_1_alg».proof.Proof.Gen.KernelIdeal
import proofs.«900727_g7700000000000728_dist_ar_v7x_xyz2x4x4_y_m16384_n1024_f32_1_alg».proof.Proof.Gen.KernelIdeal.Skeleton
import proofs.«900727_g7700000000000728_dist_ar_v7x_xyz2x4x4_y_m16384_n1024_f32_1_alg».proof.Proof.Gen.KernelIdeal.Launch
import proofs.«900727_g7700000000000728_dist_ar_v7x_xyz2x4x4_y_m16384_n1024_f32_1_alg».proof.Proof.Gen.KernelIdeal.Points
import proofs.«900727_g7700000000000728_dist_ar_v7x_xyz2x4x4_y_m16384_n1024_f32_1_alg».proof.Proof.RingDefs
import Idealize.ShloMosaic.Lib.Pipeline.Launch
import Idealize.ShloMosaic.Lib.Pipeline.Kit
import Idealize.ShloMosaic.Lib.Tactic

noncomputable section

namespace Cert.KernelIdeal.Cells

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy (duties unnamed) beside the protocol's (duties 0, 1, 2) -/

/-- Duty names. A barrier cell has three duties: 0 paid by the ring predecessor, 1 by the ring successor,
    2 by the pair partner. Every DMA cell has the one duty 0 in each of its rounds. -/
abbrev UB : Type := URounds (GSem nD τ sig) (Fin 3)
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## Cells -/

/-- The barrier semaphore of the collective. -/
abbrev barS : Sem sig := (SemArray.scalar (sig.barrier 0 rfl) : Sems sig S_).sem

/-- The DMA semaphore of index i. -/
abbrev dsem (i : ℕ) (h : i < 90 := by decide) : DmaSem sig := ⟨i, h⟩

abbrev barCell (c : Dev nD) : GSem nD τ sig := ((c : Thread nD τ), .reg barS)
abbrev dcell (c : Dev nD) (i : ℕ) (h : i < 90 := by decide) : GSem nD τ sig := ((c : Thread nD τ), .dma (dsem i h))

/-- Departure and arrival cells of the ring copy of direction d at step k (k < 14: seven steps of the
    reduction, seven of the redistribution); of the copy to the partner (k < 8); of the local copies. -/
abbrev sendI (d k : ℕ) : ℕ := 14 * d + k
abbrev recvI (d k : ℕ) : ℕ := 28 + 14 * d + k
abbrev zsendI (d k : ℕ) : ℕ := 56 + 8 * d + k
abbrev zrecvI (d k : ℕ) : ℕ := 72 + 8 * d + k
abbrev localI (d : ℕ) : ℕ := 88 + d

/-! ## Buffers -/

abbrev xM : Memref sig .tc .hbm S16384x1024 .f32 := Memref.whole main_arg0
abbrev oM : Memref sig .tc .hbm S16384x1024 .f32 := Memref.whole main_v1
abbrev cM : Memref sig .tc .vmem S2x7x512x1024 .f32 := Memref.whole cc0_scratch0
abbrev sM : Memref sig .tc .vmem S2x512x1024 .f32 := Memref.whole cc0_scratch1

/-- The credit of one chunk of 512 rows: what every copy of the program moves. -/
abbrev chunkRect0 : Rect S16384x1024 := Rect.unit (s := S16384x1024) ![0, 0] S512x1024.size (by decide)
abbrev N : ℕ := ((xM.slice chunkRect0 (fun _ => rfl)) : Memref sig .tc .hbm S512x1024 .f32).view.dmaCredit
theorem N_pos : 0 < N := View.dmaCredit_pos _ (by decide)

end Cert.KernelIdeal.Cells

end
-- ==== Proof.Vals.lean ====
/-
  What the buffers hold, as functions of the devices' argument arrays.
  Write x_c for device c's block of 16384 rows, cut into two halves of 8192 rows (one per member of a pair), each
  half into two directions of 4096 rows, each direction into eight chunks of 512 rows, one per ring position.
  In direction d a chunk travels once around the ring: the device that receives it at step s adds its own copy
  of that chunk, the first addition followed by a halving of the sum, every later summand halved before it is
  added. After seven steps the device one position before the chunk's own (in the direction of travel) holds
  half the sum of the chunk over the eight devices of the ring. Each block sits on two ring positions, so this
  is the sum of the chunk over the four blocks.
-/
import proofs.«900727_g7700000000000728_dist_ar_v7x_xyz2x4x4_y_m16384_n1024_f32_1_alg».proof.Proof.Cells
import Idealize.ShloMosaic.Lib.ValueIdx

noncomputable section

namespace Cert.KernelIdeal.Vals

open Cert.KernelIdeal Cert.KernelIdeal.Gen Cert.KernelIdeal.Ring Cert.KernelIdeal.Cells

open Idealize.ShloMosaic
open Idealize.ShloMosaic.TcCoe
open Idealize.SL.Sem

variable {F : FTy → Type} [FloatOps F]

/-! ## Views: a chunk of the argument or result array, a slot of the exchange buffer, a slot of the staging buffer -/

abbrev xCh (off : Fin 2 → ℕ) (h : ∀ a, off a + S512x1024.size a ≤ S16384x1024.size a) : Memref sig .tc .hbm S512x1024 .f32 :=
  xM.slice (Rect.unit (s := S16384x1024) off S512x1024.size h) (fun _ => rfl)
abbrev oCh (off : Fin 2 → ℕ) (h : ∀ a, off a + S512x1024.size a ≤ S16384x1024.size a) : Memref sig .tc .hbm S512x1024 .f32 :=
  oM.slice (Rect.unit (s := S16384x1024) off S512x1024.size h) (fun _ => rfl)
abbrev cSl (d s : ℕ) (h : ∀ a, (![d, s, 0, 0] : Fin 4 → Nat) a + S1x1x512x1024.size a ≤ S2x7x512x1024.size a) : Memref sig .tc .vmem S512x1024 .f32 :=
  (cM.slice (Rect.unit (s := S2x7x512x1024) ![d, s, 0, 0] S1x1x512x1024.size h) (fun _ => rfl)).squeeze S512x1024 squeezes_S1x1x512x1024_S512x1024
abbrev sSl (d : ℕ) (h : ∀ a, (![d, 0, 0] : Fin 3 → Nat) a + S1x512x1024.size a ≤ S2x512x1024.size a) : Memref sig .tc .vmem S512x1024 .f32 :=
  (sM.slice (Rect.unit (s := S2x512x1024) ![d, 0, 0] S1x512x1024.size h) (fun _ => rfl)).squeeze S512x1024 squeezes_S1x512x1024_S512x1024

/-! ## The arithmetic of one step -/

/-- The constant one half, as the program spells it. -/
abbrev halfV : FVec F S512x1024 .f32 := broadcast S512x1024 (Scalar.ofBits .f32 0x3F000000#32)
/-- First step: the sum of what arrived and the device's own chunk, halved. -/
def stepA (a b : FVec F S512x1024 .f32) : FVec F S512x1024 .f32 := mulf (addf a b) halfV
/-- Later steps: what arrived plus half the device's own chunk. -/
def stepB (a b : FVec F S512x1024 .f32) : FVec F S512x1024 .f32 := addf a (mulf b halfV)

variable (m : (ℓ : Loc nD τ sig) → Buf (Elt F) ℓ)

/-- Device c's argument array. -/
abbrev X (c : Dev nD) : Buf (Elt F) ((c : Thread nD τ).loc main_arg0) := m ((c : Thread nD τ).loc main_arg0)

/-- The chunk of 512 rows of an array of 16384 rows that starts at row r0. -/
def chunkAt (B : S16384x1024.Idx → F .f32) (r0 : ℕ) : FVec F S512x1024 .f32 :=
  fun i => B (ValueIdx.ix2 (⟨(r0 + (i 0).val) % 16384, Nat.mod_lt _ (by decide)⟩ : Fin 16384) (i 1))

/-- Device c's own chunk of direction d at ring position posD c + j. -/
def xc (c : Dev nD) (d j : ℕ) : FVec F S512x1024 .f32 := chunkAt (X m c) (rowAt c d j)

/-- The shift, in ring positions, of the chunk a device adds at step s of direction d: s + 1 positions back along
    the direction of travel. -/
def back (d k : ℕ) : ℕ := if d = 0 then (8 - k % 8) % 8 else k % 8

/-- What device c's slot (d, s) of the exchange buffer holds after its update at step s. -/
def acc (d : ℕ) : ℕ → Dev nD → FVec F S512x1024 .f32
  | 0, c => stepA (xc m (fromD ⟨d % 2, Nat.mod_lt _ (by decide)⟩ c) d 0) (xc m c d (back d 1))
  | s + 1, c => stepB (acc d s (fromD ⟨d % 2, Nat.mod_lt _ (by decide)⟩ c)) (xc m c d (back d (s + 2)))

/-- What arrives in device c's slot (d, s): the sender's own chunk at step 0, its previous slot afterwards. -/
def arr (d : ℕ) : ℕ → Dev nD → FVec F S512x1024 .f32
  | 0, c => xc m (fromD ⟨d % 2, Nat.mod_lt _ (by decide)⟩ c) d 0
  | s + 1, c => acc m d s (fromD ⟨d % 2, Nat.mod_lt _ (by decide)⟩ c)

/-- The exchange buffer of device c with every slot at what ARRIVES in it, and with every slot UPDATED. -/
def CommIn (c : Dev nD) : Buf (Elt F) ((c : Thread nD τ).loc cc0_scratch0) :=
  fun i => arr m (i 0).val (i 1).val c (ValueIdx.ix2 (i 2) (i 3))
def CommAcc (c : Dev nD) : Buf (Elt F) ((c : Thread nD τ).loc cc0_scratch0) :=
  fun i => acc m (i 0).val (i 1).val c (ValueIdx.ix2 (i 2) (i 3))

/-- The device that ends the reduction holding chunk q of direction d of half p, in the pair of ring planes zz. -/
def owner (zz p d q : ℕ) : Dev nD := ofPos (q + (if d = 0 then 7 else 1)) (2 * zz + p)

/-- The result array of every device of the pair of planes zz: row r lies in half r / 8192, direction
    (r % 8192) / 4096, chunk (r % 4096) / 512, and holds the reduced chunk of its owner. -/
def ResZ (zz : ℕ) : S16384x1024.Idx → F .f32 :=
  fun i => acc m (((i 0).val % 8192) / 4096) 6 (owner zz ((i 0).val / 8192) (((i 0).val % 8192) / 4096) (((i 0).val % 4096) / 512))
    (ValueIdx.ix2 (⟨(i 0).val % 512, Nat.mod_lt _ (by decide)⟩ : Fin 512) (i 1))

/-- Device c's result array. -/
def Res (c : Dev nD) : Buf (Elt F) ((c : Thread nD τ).loc main_v1) := ResZ m (zD c / 2)

end Cert.KernelIdeal.Vals

end
-- ==== Proof.Sched.lean ====
/-
  The schedule of the collective. Every cell has one round, except the two cells of the local copies, which have
  eight. A barrier cell has three duties of one unit: from the ring predecessor, the ring successor and the pair
  partner; each hands the cell's owner the buffers of the payer that the owner will write into, and the fact that
  the payer's arrival cells stand at their first round. An arrival cell's one duty is the copy into it and hands
  the owner the written region at its named contents; a departure cell's one duty is the device's own copy and
  hands back the share of the source it lent.
-/
import proofs.«900727_g7700000000000728_dist_ar_v7x_xyz2x4x4_y_m16384_n1024_f32_1_alg».proof.Proof.Vals

set_option maxRecDepth 16384

noncomputable section

namespace Cert.KernelIdeal.Sched

open Cert.KernelIdeal Cert.KernelIdeal.Gen Cert.KernelIdeal.Ring Cert.KernelIdeal.Cells Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The region of device c's buffer under the view v, at share q and contents f. -/
abbrev rpts (c : Dev nD) {sp : Space} {s : Shape} (v : Memref sig .tc sp s .f32) (q : PosShare TreeShare)
    (f : Buf (Elt F) (v.view.loc (c : Thread nD τ))) : sProp 𝕄 :=
  (v.view.loc (c : Thread nD τ)) ↦[v.view.set]{q} f
/-- The same region outright, at some contents. -/
abbrev rsome (c : Dev nD) {sp : Space} {s : Shape} (v : Memref sig .tc sp s .f32) : sProp 𝕄 :=
  iprop(∃ f : Buf (Elt F) (v.view.loc (c : Thread nD τ)), rpts c v fullShare f)

variable (m : (ℓ : Loc nD τ sig) → Buf (Elt F) ℓ)

/-- The staging buffer of device c during step r: slot d holds the device's own chunk r + 1 positions back. -/
def StageAt (c : Dev nD) (r : ℕ) : Buf (Elt F) ((c : Thread nD τ).loc cc0_scratch1) :=
  fun i => xc m c (i 0).val (back (i 0).val (r + 1)) (ValueIdx.ix2 (i 1) (i 2))

def sendPay_0_0 (c : Dev nD) : sProp 𝕄 := rpts c (xCh (k0_off1 c 0#32) (k0_off1_inb c 0)) fullShare (X m c)
def sendPay_0_1 (c : Dev nD) : sProp 𝕄 := rpts c (cSl 0 0 inb_S2x7x512x1024_S1x1x512x1024_0_0_0_0) fullShare (CommAcc m c)
def sendPay_0_2 (c : Dev nD) : sProp 𝕄 := rpts c (cSl 0 1 inb_S2x7x512x1024_S1x1x512x1024_0_1_0_0) fullShare (CommAcc m c)
def sendPay_0_3 (c : Dev nD) : sProp 𝕄 := rpts c (cSl 0 2 inb_S2x7x512x1024_S1x1x512x1024_0_2_0_0) fullShare (CommAcc m c)
def sendPay_0_4 (c : Dev nD) : sProp 𝕄 := rpts c (cSl 0 3 inb_S2x7x512x1024_S1x1x512x1024_0_3_0_0) fullShare (CommAcc m c)
def sendPay_0_5 (c : Dev nD) : sProp 𝕄 := rpts c (cSl 0 4 inb_S2x7x512x1024_S1x1x512x1024_0_4_0_0) fullShare (CommAcc m c)
def sendPay_0_6 (c : Dev nD) : sProp 𝕄 := rpts c (cSl 0 5 inb_S2x7x512x1024_S1x1x512x1024_0_5_0_0) fullShare (CommAcc m c)
def sendPay_0_7 (c : Dev nD) : sProp 𝕄 := rpts c (cSl 0 6 inb_S2x7x512x1024_S1x1x512x1024_0_6_0_0) fullShare.right (CommAcc m c)
def sendPay_0_8 (c : Dev nD) : sProp 𝕄 := rpts c (oCh (k0_off4 c 0#32 1#32 1#32) (k0_off4_inb c 2)) fullShare.right (Res m c)
def sendPay_0_9 (c : Dev nD) : sProp 𝕄 := rpts c (oCh (k0_off4 c 0#32 1#32 2#32) (k0_off4_inb c 4)) fullShare.right (Res m c)
def sendPay_0_10 (c : Dev nD) : sProp 𝕄 := rpts c (oCh (k0_off4 c 0#32 1#32 3#32) (k0_off4_inb c 6)) fullShare.right (Res m c)
def sendPay_0_11 (c : Dev nD) : sProp 𝕄 := rpts c (oCh (k0_off4 c 0#32 1#32 4#32) (k0_off4_inb c 8)) fullShare.right (Res m c)
def sendPay_0_12 (c : Dev nD) : sProp 𝕄 := rpts c (oCh (k0_off4 c 0#32 1#32 5#32) (k0_off4_inb c 10)) fullShare.right (Res m c)
def sendPay_0_13 (c : Dev nD) : sProp 𝕄 := rpts c (oCh (k0_off4 c 0#32 1#32 6#32) (k0_off4_inb c 12)) fullShare.right (Res m c)
def sendPay_1_0 (c : Dev nD) : sProp 𝕄 := rpts c (xCh (k0_off1 c 4096#32) (k0_off1_inb c 1)) fullShare (X m c)
def sendPay_1_1 (c : Dev nD) : sProp 𝕄 := rpts c (cSl 1 0 inb_S2x7x512x1024_S1x1x512x1024_1_0_0_0) fullShare (CommAcc m c)
def sendPay_1_2 (c : Dev nD) : sProp 𝕄 := rpts c (cSl 1 1 inb_S2x7x512x1024_S1x1x512x1024_1_1_0_0) fullShare (CommAcc m c)
def sendPay_1_3 (c : Dev nD) : sProp 𝕄 := rpts c (cSl 1 2 inb_S2x7x512x1024_S1x1x512x1024_1_2_0_0) fullShare (CommAcc m c)
def sendPay_1_4 (c : Dev nD) : sProp 𝕄 := rpts c (cSl 1 3 inb_S2x7x512x1024_S1x1x512x1024_1_3_0_0) fullShare (CommAcc m c)
def sendPay_1_5 (c : Dev nD) : sProp 𝕄 := rpts c (cSl 1 4 inb_S2x7x512x1024_S1x1x512x1024_1_4_0_0) fullShare (CommAcc m c)
def sendPay_1_6 (c : Dev nD) : sProp 𝕄 := rpts c (cSl 1 5 inb_S2x7x512x1024_S1x1x512x1024_1_5_0_0) fullShare (CommAcc m c)
def sendPay_1_7 (c : Dev nD) : sProp 𝕄 := rpts c (cSl 1 6 inb_S2x7x512x1024_S1x1x512x1024_1_6_0_0) fullShare.right (CommAcc m c)
def sendPay_1_8 (c : Dev nD) : sProp 𝕄 := rpts c (oCh (k0_off4 c 4096#32 4294967295#32 4294967295#32) (k0_off4_inb c 3)) fullShare.right (Res m c)
def sendPay_1_9 (c : Dev nD) : sProp 𝕄 := rpts c (oCh (k0_off4 c 4096#32 4294967295#32 4294967294#32) (k0_off4_inb c 5)) fullShare.right (Res m c)
def sendPay_1_10 (c : Dev nD) : sProp 𝕄 := rpts c (oCh (k0_off4 c 4096#32 4294967295#32 4294967293#32) (k0_off4_inb c 7)) fullShare.right (Res m c)
def sendPay_1_11 (c : Dev nD) : sProp 𝕄 := rpts c (oCh (k0_off4 c 4096#32 4294967295#32 4294967292#32) (k0_off4_inb c 9)) fullShare.right (Res m c)
def sendPay_1_12 (c : Dev nD) : sProp 𝕄 := rpts c (oCh (k0_off4 c 4096#32 4294967295#32 4294967291#32) (k0_off4_inb c 11)) fullShare.right (Res m c)
def sendPay_1_13 (c : Dev nD) : sProp 𝕄 := rpts c (oCh (k0_off4 c 4096#32 4294967295#32 4294967290#32) (k0_off4_inb c 13)) fullShare.right (Res m c)
def recvPay_0_0 (c : Dev nD) : sProp 𝕄 := rpts c (cSl 0 0 inb_S2x7x512x1024_S1x1x512x1024_0_0_0_0) fullShare (CommIn m c)
def recvPay_0_1 (c : Dev nD) : sProp 𝕄 := rpts c (cSl 0 1 inb_S2x7x512x1024_S1x1x512x1024_0_1_0_0) fullShare (CommIn m c)
def recvPay_0_2 (c : Dev nD) : sProp 𝕄 := rpts c (cSl 0 2 inb_S2x7x512x1024_S1x1x512x1024_0_2_0_0) fullShare (CommIn m c)
def recvPay_0_3 (c : Dev nD) : sProp 𝕄 := rpts c (cSl 0 3 inb_S2x7x512x1024_S1x1x512x1024_0_3_0_0) fullShare (CommIn m c)
def recvPay_0_4 (c : Dev nD) : sProp 𝕄 := rpts c (cSl 0 4 inb_S2x7x512x1024_S1x1x512x1024_0_4_0_0) fullShare (CommIn m c)
def recvPay_0_5 (c : Dev nD) : sProp 𝕄 := rpts c (cSl 0 5 inb_S2x7x512x1024_S1x1x512x1024_0_5_0_0) fullShare (CommIn m c)
def recvPay_0_6 (c : Dev nD) : sProp 𝕄 := rpts c (cSl 0 6 inb_S2x7x512x1024_S1x1x512x1024_0_6_0_0) fullShare (CommIn m c)
def recvPay_0_7 (c : Dev nD) : sProp 𝕄 := rpts c (oCh (k0_off2 c 0#32 0#32) (k0_off2_inb c 14)) fullShare (Res m c)
def recvPay_0_8 (c : Dev nD) : sProp 𝕄 := rpts c (oCh (k0_off2 c 0#32 1#32) (k0_off2_inb c 0)) fullShare (Res m c)
def recvPay_0_9 (c : Dev nD) : sProp 𝕄 := rpts c (oCh (k0_off2 c 0#32 2#32) (k0_off2_inb c 2)) fullShare (Res m c)
def recvPay_0_10 (c : Dev nD) : sProp 𝕄 := rpts c (oCh (k0_off2 c 0#32 3#32) (k0_off2_inb c 4)) fullShare (Res m c)
def recvPay_0_11 (c : Dev nD) : sProp 𝕄 := rpts c (oCh (k0_off2 c 0#32 4#32) (k0_off2_inb c 6)) fullShare (Res m c)
def recvPay_0_12 (c : Dev nD) : sProp 𝕄 := rpts c (oCh (k0_off2 c 0#32 5#32) (k0_off2_inb c 8)) fullShare (Res m c)
def recvPay_0_13 (c : Dev nD) : sProp 𝕄 := rpts c (oCh (k0_off2 c 0#32 6#32) (k0_off2_inb c 10)) fullShare (Res m c)
def recvPay_1_0 (c : Dev nD) : sProp 𝕄 := rpts c (cSl 1 0 inb_S2x7x512x1024_S1x1x512x1024_1_0_0_0) fullShare (CommIn m c)
def recvPay_1_1 (c : Dev nD) : sProp 𝕄 := rpts c (cSl 1 1 inb_S2x7x512x1024_S1x1x512x1024_1_1_0_0) fullShare (CommIn m c)
def recvPay_1_2 (c : Dev nD) : sProp 𝕄 := rpts c (cSl 1 2 inb_S2x7x512x1024_S1x1x512x1024_1_2_0_0) fullShare (CommIn m c)
def recvPay_1_3 (c : Dev nD) : sProp 𝕄 := rpts c (cSl 1 3 inb_S2x7x512x1024_S1x1x512x1024_1_3_0_0) fullShare (CommIn m c)
def recvPay_1_4 (c : Dev nD) : sProp 𝕄 := rpts c (cSl 1 4 inb_S2x7x512x1024_S1x1x512x1024_1_4_0_0) fullShare (CommIn m c)
def recvPay_1_5 (c : Dev nD) : sProp 𝕄 := rpts c (cSl 1 5 inb_S2x7x512x1024_S1x1x512x1024_1_5_0_0) fullShare (CommIn m c)
def recvPay_1_6 (c : Dev nD) : sProp 𝕄 := rpts c (cSl 1 6 inb_S2x7x512x1024_S1x1x512x1024_1_6_0_0) fullShare (CommIn m c)
def recvPay_1_7 (c : Dev nD) : sProp 𝕄 := rpts c (oCh (k0_off2 c 4096#32 0#32) (k0_off2_inb c 15)) fullShare (Res m c)
def recvPay_1_8 (c : Dev nD) : sProp 𝕄 := rpts c (oCh (k0_off2 c 4096#32 4294967295#32) (k0_off2_inb c 1)) fullShare (Res m c)
def recvPay_1_9 (c : Dev nD) : sProp 𝕄 := rpts c (oCh (k0_off2 c 4096#32 4294967294#32) (k0_off2_inb c 3)) fullShare (Res m c)
def recvPay_1_10 (c : Dev nD) : sProp 𝕄 := rpts c (oCh (k0_off2 c 4096#32 4294967293#32) (k0_off2_inb c 5)) fullShare (Res m c)
def recvPay_1_11 (c : Dev nD) : sProp 𝕄 := rpts c (oCh (k0_off2 c 4096#32 4294967292#32) (k0_off2_inb c 7)) fullShare (Res m c)
def recvPay_1_12 (c : Dev nD) : sProp 𝕄 := rpts c (oCh (k0_off2 c 4096#32 4294967291#32) (k0_off2_inb c 9)) fullShare (Res m c)
def recvPay_1_13 (c : Dev nD) : sProp 𝕄 := rpts c (oCh (k0_off2 c 4096#32 4294967290#32) (k0_off2_inb c 11)) fullShare (Res m c)
def zsendPay_0_0 (c : Dev nD) : sProp 𝕄 := rpts c (cSl 0 6 inb_S2x7x512x1024_S1x1x512x1024_0_6_0_0) fullShare.left (CommAcc m c)
def zsendPay_0_1 (c : Dev nD) : sProp 𝕄 := rpts c (oCh (k0_off2 c 0#32 0#32) (k0_off2_inb c 14)) fullShare.left (Res m c)
def zsendPay_0_2 (c : Dev nD) : sProp 𝕄 := rpts c (oCh (k0_off2 c 0#32 1#32) (k0_off2_inb c 0)) fullShare.left (Res m c)
def zsendPay_0_3 (c : Dev nD) : sProp 𝕄 := rpts c (oCh (k0_off2 c 0#32 2#32) (k0_off2_inb c 2)) fullShare.left (Res m c)
def zsendPay_0_4 (c : Dev nD) : sProp 𝕄 := rpts c (oCh (k0_off2 c 0#32 3#32) (k0_off2_inb c 4)) fullShare.left (Res m c)
def zsendPay_0_5 (c : Dev nD) : sProp 𝕄 := rpts c (oCh (k0_off2 c 0#32 4#32) (k0_off2_inb c 6)) fullShare.left (Res m c)
def zsendPay_0_6 (c : Dev nD) : sProp 𝕄 := rpts c (oCh (k0_off2 c 0#32 5#32) (k0_off2_inb c 8)) fullShare.left (Res m c)
def zsendPay_0_7 (c : Dev nD) : sProp 𝕄 := rpts c (oCh (k0_off2 c 0#32 6#32) (k0_off2_inb c 10)) fullShare.left (Res m c)
def zsendPay_1_0 (c : Dev nD) : sProp 𝕄 := rpts c (cSl 1 6 inb_S2x7x512x1024_S1x1x512x1024_1_6_0_0) fullShare.left (CommAcc m c)
def zsendPay_1_1 (c : Dev nD) : sProp 𝕄 := rpts c (oCh (k0_off2 c 4096#32 0#32) (k0_off2_inb c 15)) fullShare.left (Res m c)
def zsendPay_1_2 (c : Dev nD) : sProp 𝕄 := rpts c (oCh (k0_off2 c 4096#32 4294967295#32) (k0_off2_inb c 1)) fullShare.left (Res m c)
def zsendPay_1_3 (c : Dev nD) : sProp 𝕄 := rpts c (oCh (k0_off2 c 4096#32 4294967294#32) (k0_off2_inb c 3)) fullShare.left (Res m c)
def zsendPay_1_4 (c : Dev nD) : sProp 𝕄 := rpts c (oCh (k0_off2 c 4096#32 4294967293#32) (k0_off2_inb c 5)) fullShare.left (Res m c)
def zsendPay_1_5 (c : Dev nD) : sProp 𝕄 := rpts c (oCh (k0_off2 c 4096#32 4294967292#32) (k0_off2_inb c 7)) fullShare.left (Res m c)
def zsendPay_1_6 (c : Dev nD) : sProp 𝕄 := rpts c (oCh (k0_off2 c 4096#32 4294967291#32) (k0_off2_inb c 9)) fullShare.left (Res m c)
def zsendPay_1_7 (c : Dev nD) : sProp 𝕄 := rpts c (oCh (k0_off2 c 4096#32 4294967290#32) (k0_off2_inb c 11)) fullShare.left (Res m c)
def zrecvPay_0_0 (c : Dev nD) : sProp 𝕄 := rpts c (oCh (k0_off3 (partD c) 0#32 1#32) (k0_off3_inb (partD c) 0)) fullShare (Res m c)
def zrecvPay_0_1 (c : Dev nD) : sProp 𝕄 := rpts c (oCh (k0_off2 (partD c) 0#32 0#32) (k0_off2_inb (partD c) 14)) fullShare (Res m c)
def zrecvPay_0_2 (c : Dev nD) : sProp 𝕄 := rpts c (oCh (k0_off2 (partD c) 0#32 1#32) (k0_off2_inb (partD c) 0)) fullShare (Res m c)
def zrecvPay_0_3 (c : Dev nD) : sProp 𝕄 := rpts c (oCh (k0_off2 (partD c) 0#32 2#32) (k0_off2_inb (partD c) 2)) fullShare (Res m c)
def zrecvPay_0_4 (c : Dev nD) : sProp 𝕄 := rpts c (oCh (k0_off2 (partD c) 0#32 3#32) (k0_off2_inb (partD c) 4)) fullShare (Res m c)
def zrecvPay_0_5 (c : Dev nD) : sProp 𝕄 := rpts c (oCh (k0_off2 (partD c) 0#32 4#32) (k0_off2_inb (partD c) 6)) fullShare (Res m c)
def zrecvPay_0_6 (c : Dev nD) : sProp 𝕄 := rpts c (oCh (k0_off2 (partD c) 0#32 5#32) (k0_off2_inb (partD c) 8)) fullShare (Res m c)
def zrecvPay_0_7 (c : Dev nD) : sProp 𝕄 := rpts c (oCh (k0_off2 (partD c) 0#32 6#32) (k0_off2_inb (partD c) 10)) fullShare (Res m c)
def zrecvPay_1_0 (c : Dev nD) : sProp 𝕄 := rpts c (oCh (k0_off3 (partD c) 4096#32 4294967295#32) (k0_off3_inb (partD c) 1)) fullShare (Res m c)
def zrecvPay_1_1 (c : Dev nD) : sProp 𝕄 := rpts c (oCh (k0_off2 (partD c) 4096#32 0#32) (k0_off2_inb (partD c) 15)) fullShare (Res m c)
def zrecvPay_1_2 (c : Dev nD) : sProp 𝕄 := rpts c (oCh (k0_off2 (partD c) 4096#32 4294967295#32) (k0_off2_inb (partD c) 1)) fullShare (Res m c)
def zrecvPay_1_3 (c : Dev nD) : sProp 𝕄 := rpts c (oCh (k0_off2 (partD c) 4096#32 4294967294#32) (k0_off2_inb (partD c) 3)) fullShare (Res m c)
def zrecvPay_1_4 (c : Dev nD) : sProp 𝕄 := rpts c (oCh (k0_off2 (partD c) 4096#32 4294967293#32) (k0_off2_inb (partD c) 5)) fullShare (Res m c)
def zrecvPay_1_5 (c : Dev nD) : sProp 𝕄 := rpts c (oCh (k0_off2 (partD c) 4096#32 4294967292#32) (k0_off2_inb (partD c) 7)) fullShare (Res m c)
def zrecvPay_1_6 (c : Dev nD) : sProp 𝕄 := rpts c (oCh (k0_off2 (partD c) 4096#32 4294967291#32) (k0_off2_inb (partD c) 9)) fullShare (Res m c)
def zrecvPay_1_7 (c : Dev nD) : sProp 𝕄 := rpts c (oCh (k0_off2 (partD c) 4096#32 4294967290#32) (k0_off2_inb (partD c) 11)) fullShare (Res m c)
def localPay_0 (c : Dev nD) : ℕ → sProp 𝕄
  | 0 => iprop((rpts c (sSl 0 inb_S2x512x1024_S1x512x1024_0_0_0) fullShare (StageAt m c 0)) ∗ (rpts c (xCh (k0_off2 c 0#32 1#32) (k0_off2_inb c 0)) fullShare (X m c)))
  | 1 => iprop((rpts c (sSl 0 inb_S2x512x1024_S1x512x1024_0_0_0) fullShare (StageAt m c 1)) ∗ (rpts c (xCh (k0_off2 c 0#32 2#32) (k0_off2_inb c 2)) fullShare (X m c)))
  | 2 => iprop((rpts c (sSl 0 inb_S2x512x1024_S1x512x1024_0_0_0) fullShare (StageAt m c 2)) ∗ (rpts c (xCh (k0_off2 c 0#32 3#32) (k0_off2_inb c 4)) fullShare (X m c)))
  | 3 => iprop((rpts c (sSl 0 inb_S2x512x1024_S1x512x1024_0_0_0) fullShare (StageAt m c 3)) ∗ (rpts c (xCh (k0_off2 c 0#32 4#32) (k0_off2_inb c 6)) fullShare (X m c)))
  | 4 => iprop((rpts c (sSl 0 inb_S2x512x1024_S1x512x1024_0_0_0) fullShare (StageAt m c 4)) ∗ (rpts c (xCh (k0_off2 c 0#32 5#32) (k0_off2_inb c 8)) fullShare (X m c)))
  | 5 => iprop((rpts c (sSl 0 inb_S2x512x1024_S1x512x1024_0_0_0) fullShare (StageAt m c 5)) ∗ (rpts c (xCh (k0_off2 c 0#32 6#32) (k0_off2_inb c 10)) fullShare (X m c)))
  | 6 => iprop((rpts c (sSl 0 inb_S2x512x1024_S1x512x1024_0_0_0) fullShare (StageAt m c 6)) ∗ (rpts c (xCh (k0_off2 c 0#32 7#32) (k0_off2_inb c 12)) fullShare (X m c)))
  | 7 => iprop((rpts c (oCh (k0_off3 c 0#32 1#32) (k0_off3_inb c 0)) fullShare (Res m c)) ∗ (rpts c (cSl 0 6 inb_S2x7x512x1024_S1x1x512x1024_0_6_0_0) fullShare (CommAcc m c)))
  | _ => iprop(emp)
def localPay_1 (c : Dev nD) : ℕ → sProp 𝕄
  | 0 => iprop((rpts c (sSl 1 inb_S2x512x1024_S1x512x1024_1_0_0) fullShare (StageAt m c 0)) ∗ (rpts c (xCh (k0_off2 c 4096#32 4294967295#32) (k0_off2_inb c 1)) fullShare (X m c)))
  | 1 => iprop((rpts c (sSl 1 inb_S2x512x1024_S1x512x1024_1_0_0) fullShare (StageAt m c 1)) ∗ (rpts c (xCh (k0_off2 c 4096#32 4294967294#32) (k0_off2_inb c 3)) fullShare (X m c)))
  | 2 => iprop((rpts c (sSl 1 inb_S2x512x1024_S1x512x1024_1_0_0) fullShare (StageAt m c 2)) ∗ (rpts c (xCh (k0_off2 c 4096#32 4294967293#32) (k0_off2_inb c 5)) fullShare (X m c)))
  | 3 => iprop((rpts c (sSl 1 inb_S2x512x1024_S1x512x1024_1_0_0) fullShare (StageAt m c 3)) ∗ (rpts c (xCh (k0_off2 c 4096#32 4294967292#32) (k0_off2_inb c 7)) fullShare (X m c)))
  | 4 => iprop((rpts c (sSl 1 inb_S2x512x1024_S1x512x1024_1_0_0) fullShare (StageAt m c 4)) ∗ (rpts c (xCh (k0_off2 c 4096#32 4294967291#32) (k0_off2_inb c 9)) fullShare (X m c)))
  | 5 => iprop((rpts c (sSl 1 inb_S2x512x1024_S1x512x1024_1_0_0) fullShare (StageAt m c 5)) ∗ (rpts c (xCh (k0_off2 c 4096#32 4294967290#32) (k0_off2_inb c 11)) fullShare (X m c)))
  | 6 => iprop((rpts c (sSl 1 inb_S2x512x1024_S1x512x1024_1_0_0) fullShare (StageAt m c 6)) ∗ (rpts c (xCh (k0_off2 c 4096#32 4294967289#32) (k0_off2_inb c 13)) fullShare (X m c)))
  | 7 => iprop((rpts c (oCh (k0_off3 c 4096#32 4294967295#32) (k0_off3_inb c 1)) fullShare (Res m c)) ∗ (rpts c (cSl 1 6 inb_S2x7x512x1024_S1x1x512x1024_1_6_0_0) fullShare (CommAcc m c)))
  | _ => iprop(emp)
/-- What device g gives its ring successor (which sends to it in direction 1): its slots and result chunks of direction 1, and that its arrival cells of direction 1 stand at their first round. -/
def give1 (g : Dev nD) : sProp 𝕄 :=
    iprop(rsome (F := F) g (cSl 1 0 inb_S2x7x512x1024_S1x1x512x1024_1_0_0_0)
      ∗ rsome (F := F) g (cSl 1 1 inb_S2x7x512x1024_S1x1x512x1024_1_1_0_0)
      ∗ rsome (F := F) g (cSl 1 2 inb_S2x7x512x1024_S1x1x512x1024_1_2_0_0)
      ∗ rsome (F := F) g (cSl 1 3 inb_S2x7x512x1024_S1x1x512x1024_1_3_0_0)
      ∗ rsome (F := F) g (cSl 1 4 inb_S2x7x512x1024_S1x1x512x1024_1_4_0_0)
      ∗ rsome (F := F) g (cSl 1 5 inb_S2x7x512x1024_S1x1x512x1024_1_5_0_0)
      ∗ rsome (F := F) g (cSl 1 6 inb_S2x7x512x1024_S1x1x512x1024_1_6_0_0)
      ∗ rsome (F := F) g (oCh (k0_off2 g 4096#32 0#32) (k0_off2_inb g 15))
      ∗ rsome (F := F) g (oCh (k0_off2 g 4096#32 4294967295#32) (k0_off2_inb g 1))
      ∗ rsome (F := F) g (oCh (k0_off2 g 4096#32 4294967294#32) (k0_off2_inb g 3))
      ∗ rsome (F := F) g (oCh (k0_off2 g 4096#32 4294967293#32) (k0_off2_inb g 5))
      ∗ rsome (F := F) g (oCh (k0_off2 g 4096#32 4294967292#32) (k0_off2_inb g 7))
      ∗ rsome (F := F) g (oCh (k0_off2 g 4096#32 4294967291#32) (k0_off2_inb g 9))
      ∗ rsome (F := F) g (oCh (k0_off2 g 4096#32 4294967290#32) (k0_off2_inb g 11))
      ∗ reached (ER (F := F)) (dcell g 42) 0
      ∗ reached (ER (F := F)) (dcell g 43) 0
      ∗ reached (ER (F := F)) (dcell g 44) 0
      ∗ reached (ER (F := F)) (dcell g 45) 0
      ∗ reached (ER (F := F)) (dcell g 46) 0
      ∗ reached (ER (F := F)) (dcell g 47) 0
      ∗ reached (ER (F := F)) (dcell g 48) 0
      ∗ reached (ER (F := F)) (dcell g 49) 0
      ∗ reached (ER (F := F)) (dcell g 50) 0
      ∗ reached (ER (F := F)) (dcell g 51) 0
      ∗ reached (ER (F := F)) (dcell g 52) 0
      ∗ reached (ER (F := F)) (dcell g 53) 0
      ∗ reached (ER (F := F)) (dcell g 54) 0
      ∗ reached (ER (F := F)) (dcell g 55) 0)
/-- What device g gives its ring predecessor (which sends to it in direction 0). -/
def give0 (g : Dev nD) : sProp 𝕄 :=
    iprop(rsome (F := F) g (cSl 0 0 inb_S2x7x512x1024_S1x1x512x1024_0_0_0_0)
      ∗ rsome (F := F) g (cSl 0 1 inb_S2x7x512x1024_S1x1x512x1024_0_1_0_0)
      ∗ rsome (F := F) g (cSl 0 2 inb_S2x7x512x1024_S1x1x512x1024_0_2_0_0)
      ∗ rsome (F := F) g (cSl 0 3 inb_S2x7x512x1024_S1x1x512x1024_0_3_0_0)
      ∗ rsome (F := F) g (cSl 0 4 inb_S2x7x512x1024_S1x1x512x1024_0_4_0_0)
      ∗ rsome (F := F) g (cSl 0 5 inb_S2x7x512x1024_S1x1x512x1024_0_5_0_0)
      ∗ rsome (F := F) g (cSl 0 6 inb_S2x7x512x1024_S1x1x512x1024_0_6_0_0)
      ∗ rsome (F := F) g (oCh (k0_off2 g 0#32 0#32) (k0_off2_inb g 14))
      ∗ rsome (F := F) g (oCh (k0_off2 g 0#32 1#32) (k0_off2_inb g 0))
      ∗ rsome (F := F) g (oCh (k0_off2 g 0#32 2#32) (k0_off2_inb g 2))
      ∗ rsome (F := F) g (oCh (k0_off2 g 0#32 3#32) (k0_off2_inb g 4))
      ∗ rsome (F := F) g (oCh (k0_off2 g 0#32 4#32) (k0_off2_inb g 6))
      ∗ rsome (F := F) g (oCh (k0_off2 g 0#32 5#32) (k0_off2_inb g 8))
      ∗ rsome (F := F) g (oCh (k0_off2 g 0#32 6#32) (k0_off2_inb g 10))
      ∗ reached (ER (F := F)) (dcell g 28) 0
      ∗ reached (ER (F := F)) (dcell g 29) 0
      ∗ reached (ER (F := F)) (dcell g 30) 0
      ∗ reached (ER (F := F)) (dcell g 31) 0
      ∗ reached (ER (F := F)) (dcell g 32) 0
      ∗ reached (ER (F := F)) (dcell g 33) 0
      ∗ reached (ER (F := F)) (dcell g 34) 0
      ∗ reached (ER (F := F)) (dcell g 35) 0
      ∗ reached (ER (F := F)) (dcell g 36) 0
      ∗ reached (ER (F := F)) (dcell g 37) 0
      ∗ reached (ER (F := F)) (dcell g 38) 0
      ∗ reached (ER (F := F)) (dcell g 39) 0
      ∗ reached (ER (F := F)) (dcell g 40) 0
      ∗ reached (ER (F := F)) (dcell g 41) 0)
/-- What device g gives its pair partner o: the half of its result array that o reduces, chunk by chunk as o addresses them, and that its arrival cells of the pair stand at their first round. -/
def giveZ (g o : Dev nD) : sProp 𝕄 :=
    iprop(rsome (F := F) g (oCh (k0_off3 o 0#32 1#32) (k0_off3_inb o 0))
      ∗ rsome (F := F) g (oCh (k0_off2 o 0#32 0#32) (k0_off2_inb o 14))
      ∗ rsome (F := F) g (oCh (k0_off2 o 0#32 1#32) (k0_off2_inb o 0))
      ∗ rsome (F := F) g (oCh (k0_off2 o 0#32 2#32) (k0_off2_inb o 2))
      ∗ rsome (F := F) g (oCh (k0_off2 o 0#32 3#32) (k0_off2_inb o 4))
      ∗ rsome (F := F) g (oCh (k0_off2 o 0#32 4#32) (k0_off2_inb o 6))
      ∗ rsome (F := F) g (oCh (k0_off2 o 0#32 5#32) (k0_off2_inb o 8))
      ∗ rsome (F := F) g (oCh (k0_off2 o 0#32 6#32) (k0_off2_inb o 10))
      ∗ rsome (F := F) g (oCh (k0_off3 o 4096#32 4294967295#32) (k0_off3_inb o 1))
      ∗ rsome (F := F) g (oCh (k0_off2 o 4096#32 0#32) (k0_off2_inb o 15))
      ∗ rsome (F := F) g (oCh (k0_off2 o 4096#32 4294967295#32) (k0_off2_inb o 1))
      ∗ rsome (F := F) g (oCh (k0_off2 o 4096#32 4294967294#32) (k0_off2_inb o 3))
      ∗ rsome (F := F) g (oCh (k0_off2 o 4096#32 4294967293#32) (k0_off2_inb o 5))
      ∗ rsome (F := F) g (oCh (k0_off2 o 4096#32 4294967292#32) (k0_off2_inb o 7))
      ∗ rsome (F := F) g (oCh (k0_off2 o 4096#32 4294967291#32) (k0_off2_inb o 9))
      ∗ rsome (F := F) g (oCh (k0_off2 o 4096#32 4294967290#32) (k0_off2_inb o 11))
      ∗ reached (ER (F := F)) (dcell g 72) 0
      ∗ reached (ER (F := F)) (dcell g 73) 0
      ∗ reached (ER (F := F)) (dcell g 74) 0
      ∗ reached (ER (F := F)) (dcell g 75) 0
      ∗ reached (ER (F := F)) (dcell g 76) 0
      ∗ reached (ER (F := F)) (dcell g 77) 0
      ∗ reached (ER (F := F)) (dcell g 78) 0
      ∗ reached (ER (F := F)) (dcell g 79) 0
      ∗ reached (ER (F := F)) (dcell g 80) 0
      ∗ reached (ER (F := F)) (dcell g 81) 0
      ∗ reached (ER (F := F)) (dcell g 82) 0
      ∗ reached (ER (F := F)) (dcell g 83) 0
      ∗ reached (ER (F := F)) (dcell g 84) 0
      ∗ reached (ER (F := F)) (dcell g 85) 0
      ∗ reached (ER (F := F)) (dcell g 86) 0
      ∗ reached (ER (F := F)) (dcell g 87) 0)
def barPay0 (c : Dev nD) : sProp 𝕄 := give1 (F := F) (predD c)
def barPay1 (c : Dev nD) : sProp 𝕄 := give0 (F := F) (succD c)
def barPay2 (c : Dev nD) : sProp 𝕄 := giveZ (F := F) (partD c) c
/-- The payload of a barrier duty. -/
def barPay (c : Dev nD) (d : Fin 3) : sProp 𝕄 := match d with | 0 => barPay0 c | 1 => barPay1 c | 2 => barPay2 c
/-- The payload of the duty of round r of DMA cell i of device c. -/
def dmaPay (c : Dev nD) (i r : ℕ) : sProp 𝕄 := match i with
  | 0 => sendPay_0_0 m c
  | 1 => sendPay_0_1 m c
  | 2 => sendPay_0_2 m c
  | 3 => sendPay_0_3 m c
  | 4 => sendPay_0_4 m c
  | 5 => sendPay_0_5 m c
  | 6 => sendPay_0_6 m c
  | 7 => sendPay_0_7 m c
  | 8 => sendPay_0_8 m c
  | 9 => sendPay_0_9 m c
  | 10 => sendPay_0_10 m c
  | 11 => sendPay_0_11 m c
  | 12 => sendPay_0_12 m c
  | 13 => sendPay_0_13 m c
  | 14 => sendPay_1_0 m c
  | 15 => sendPay_1_1 m c
  | 16 => sendPay_1_2 m c
  | 17 => sendPay_1_3 m c
  | 18 => sendPay_1_4 m c
  | 19 => sendPay_1_5 m c
  | 20 => sendPay_1_6 m c
  | 21 => sendPay_1_7 m c
  | 22 => sendPay_1_8 m c
  | 23 => sendPay_1_9 m c
  | 24 => sendPay_1_10 m c
  | 25 => sendPay_1_11 m c
  | 26 => sendPay_1_12 m c
  | 27 => sendPay_1_13 m c
  | 28 => recvPay_0_0 m c
  | 29 => recvPay_0_1 m c
  | 30 => recvPay_0_2 m c
  | 31 => recvPay_0_3 m c
  | 32 => recvPay_0_4 m c
  | 33 => recvPay_0_5 m c
  | 34 => recvPay_0_6 m c
  | 35 => recvPay_0_7 m c
  | 36 => recvPay_0_8 m c
  | 37 => recvPay_0_9 m c
  | 38 => recvPay_0_10 m c
  | 39 => recvPay_0_11 m c
  | 40 => recvPay_0_12 m c
  | 41 => recvPay_0_13 m c
  | 42 => recvPay_1_0 m c
  | 43 => recvPay_1_1 m c
  | 44 => recvPay_1_2 m c
  | 45 => recvPay_1_3 m c
  | 46 => recvPay_1_4 m c
  | 47 => recvPay_1_5 m c
  | 48 => recvPay_1_6 m c
  | 49 => recvPay_1_7 m c
  | 50 => recvPay_1_8 m c
  | 51 => recvPay_1_9 m c
  | 52 => recvPay_1_10 m c
  | 53 => recvPay_1_11 m c
  | 54 => recvPay_1_12 m c
  | 55 => recvPay_1_13 m c
  | 56 => zsendPay_0_0 m c
  | 57 => zsendPay_0_1 m c
  | 58 => zsendPay_0_2 m c
  | 59 => zsendPay_0_3 m c
  | 60 => zsendPay_0_4 m c
  | 61 => zsendPay_0_5 m c
  | 62 => zsendPay_0_6 m c
  | 63 => zsendPay_0_7 m c
  | 64 => zsendPay_1_0 m c
  | 65 => zsendPay_1_1 m c
  | 66 => zsendPay_1_2 m c
  | 67 => zsendPay_1_3 m c
  | 68 => zsendPay_1_4 m c
  | 69 => zsendPay_1_5 m c
  | 70 => zsendPay_1_6 m c
  | 71 => zsendPay_1_7 m c
  | 72 => zrecvPay_0_0 m c
  | 73 => zrecvPay_0_1 m c
  | 74 => zrecvPay_0_2 m c
  | 75 => zrecvPay_0_3 m c
  | 76 => zrecvPay_0_4 m c
  | 77 => zrecvPay_0_5 m c
  | 78 => zrecvPay_0_6 m c
  | 79 => zrecvPay_0_7 m c
  | 80 => zrecvPay_1_0 m c
  | 81 => zrecvPay_1_1 m c
  | 82 => zrecvPay_1_2 m c
  | 83 => zrecvPay_1_3 m c
  | 84 => zrecvPay_1_4 m c
  | 85 => zrecvPay_1_5 m c
  | 86 => zrecvPay_1_6 m c
  | 87 => zrecvPay_1_7 m c
  | 88 => localPay_0 m c r
  | 89 => localPay_1 m c r
  | _ => iprop(emp)

/-- The schedule: a barrier cell has its three unit duties in round 0; a DMA cell below 88 its one duty in round 0;
    the two cells of the local copies one duty in each of rounds 0 to 7. Every DMA duty is one chunk's credit. -/
def sched : Rounds.Schedule (GSem nD τ sig) (Fin 3) 𝕄 where
  duties g r := if g.1.2 = .tc then
      (match g.2 with
        | .reg _ => if r = 0 then Finset.univ else ∅
        | .dma i => if i.val < 88 then (if r = 0 then {0} else ∅) else (if r < 8 then {0} else ∅))
    else ∅
  amount g _ _ := match g.2 with | .reg _ => 1 | .dma _ => N
  payload g r d := match g.2 with | .reg _ => barPay g.1.1 d | .dma i => dmaPay m g.1.1 i.val r
  amount_pos g _ _ _ := by
    cases h : g.2 with
    | reg s => simp only [h]; exact Nat.one_pos
    | dma i => simp only [h]; exact N_pos

end Cert.KernelIdeal.Sched

end
-- ==== Proof.CanonSems.lean ====
/-
  The ninety DMA semaphores of a device by their index. The program names a semaphore by cutting a one-element
  window at position (d, k) out of one of its five semaphore arrays and dropping the unit axes. The arrays lie one
  after the other, row-major: the departure semaphores of the ring copies at 14·d + k, their arrival semaphores at
  28 + 14·d + k, the departure and arrival semaphores of the copies to the pair partner at 56 + 8·d + k and
  72 + 8·d + k, the two semaphores of the local copies at 88 + d. Each equation below is one entry of that table and
  holds by evaluating the window's index.
-/
import proofs.«900727_g7700000000000728_dist_ar_v7x_xyz2x4x4_y_m16384_n1024_f32_1_alg».proof.Proof.Cells

namespace Cert.KernelIdeal.Cells

open Cert.KernelIdeal Idealize.ShloMosaic

@[sl_canon] theorem sem_send_0_0 : ((cc0_scratch2.slice (Rect.unit (s := S2x14) ![0, 0] S1x1.size Facts₀.inb_S2x14_S1x1_0_0)).squeeze S_ Facts₀.squeezes_S1x1_S_).sem = dsem 0 := rfl
@[sl_canon] theorem sem_send_0_1 : ((cc0_scratch2.slice (Rect.unit (s := S2x14) ![0, 1] S1x1.size Facts₀.inb_S2x14_S1x1_0_1)).squeeze S_ Facts₀.squeezes_S1x1_S_).sem = dsem 1 := rfl
@[sl_canon] theorem sem_send_0_2 : ((cc0_scratch2.slice (Rect.unit (s := S2x14) ![0, 2] S1x1.size Facts₀.inb_S2x14_S1x1_0_2)).squeeze S_ Facts₀.squeezes_S1x1_S_).sem = dsem 2 := rfl
@[sl_canon] theorem sem_send_0_3 : ((cc0_scratch2.slice (Rect.unit (s := S2x14) ![0, 3] S1x1.size Facts₀.inb_S2x14_S1x1_0_3)).squeeze S_ Facts₀.squeezes_S1x1_S_).sem = dsem 3 := rfl
@[sl_canon] theorem sem_send_0_4 : ((cc0_scratch2.slice (Rect.unit (s := S2x14) ![0, 4] S1x1.size Facts₀.inb_S2x14_S1x1_0_4)).squeeze S_ Facts₀.squeezes_S1x1_S_).sem = dsem 4 := rfl
@[sl_canon] theorem sem_send_0_5 : ((cc0_scratch2.slice (Rect.unit (s := S2x14) ![0, 5] S1x1.size Facts₀.inb_S2x14_S1x1_0_5)).squeeze S_ Facts₀.squeezes_S1x1_S_).sem = dsem 5 := rfl
@[sl_canon] theorem sem_send_0_6 : ((cc0_scratch2.slice (Rect.unit (s := S2x14) ![0, 6] S1x1.size Facts₀.inb_S2x14_S1x1_0_6)).squeeze S_ Facts₀.squeezes_S1x1_S_).sem = dsem 6 := rfl
@[sl_canon] theorem sem_send_0_7 : ((cc0_scratch2.slice (Rect.unit (s := S2x14) ![0, 7] S1x1.size Facts₀.inb_S2x14_S1x1_0_7)).squeeze S_ Facts₀.squeezes_S1x1_S_).sem = dsem 7 := rfl
@[sl_canon] theorem sem_send_0_8 : ((cc0_scratch2.slice (Rect.unit (s := S2x14) ![0, 8] S1x1.size Facts₀.inb_S2x14_S1x1_0_8)).squeeze S_ Facts₀.squeezes_S1x1_S_).sem = dsem 8 := rfl
@[sl_canon] theorem sem_send_0_9 : ((cc0_scratch2.slice (Rect.unit (s := S2x14) ![0, 9] S1x1.size Facts₀.inb_S2x14_S1x1_0_9)).squeeze S_ Facts₀.squeezes_S1x1_S_).sem = dsem 9 := rfl
@[sl_canon] theorem sem_send_0_10 : ((cc0_scratch2.slice (Rect.unit (s := S2x14) ![0, 10] S1x1.size Facts₀.inb_S2x14_S1x1_0_10)).squeeze S_ Facts₀.squeezes_S1x1_S_).sem = dsem 10 := rfl
@[sl_canon] theorem sem_send_0_11 : ((cc0_scratch2.slice (Rect.unit (s := S2x14) ![0, 11] S1x1.size Facts₀.inb_S2x14_S1x1_0_11)).squeeze S_ Facts₀.squeezes_S1x1_S_).sem = dsem 11 := rfl
@[sl_canon] theorem sem_send_0_12 : ((cc0_scratch2.slice (Rect.unit (s := S2x14) ![0, 12] S1x1.size Facts₀.inb_S2x14_S1x1_0_12)).squeeze S_ Facts₀.squeezes_S1x1_S_).sem = dsem 12 := rfl
@[sl_canon] theorem sem_send_0_13 : ((cc0_scratch2.slice (Rect.unit (s := S2x14) ![0, 13] S1x1.size Facts₀.inb_S2x14_S1x1_0_13)).squeeze S_ Facts₀.squeezes_S1x1_S_).sem = dsem 13 := rfl
@[sl_canon] theorem sem_send_1_0 : ((cc0_scratch2.slice (Rect.unit (s := S2x14) ![1, 0] S1x1.size Facts₀.inb_S2x14_S1x1_1_0)).squeeze S_ Facts₀.squeezes_S1x1_S_).sem = dsem 14 := rfl
@[sl_canon] theorem sem_send_1_1 : ((cc0_scratch2.slice (Rect.unit (s := S2x14) ![1, 1] S1x1.size Facts₀.inb_S2x14_S1x1_1_1)).squeeze S_ Facts₀.squeezes_S1x1_S_).sem = dsem 15 := rfl
@[sl_canon] theorem sem_send_1_2 : ((cc0_scratch2.slice (Rect.unit (s := S2x14) ![1, 2] S1x1.size Facts₀.inb_S2x14_S1x1_1_2)).squeeze S_ Facts₀.squeezes_S1x1_S_).sem = dsem 16 := rfl
@[sl_canon] theorem sem_send_1_3 : ((cc0_scratch2.slice (Rect.unit (s := S2x14) ![1, 3] S1x1.size Facts₀.inb_S2x14_S1x1_1_3)).squeeze S_ Facts₀.squeezes_S1x1_S_).sem = dsem 17 := rfl
@[sl_canon] theorem sem_send_1_4 : ((cc0_scratch2.slice (Rect.unit (s := S2x14) ![1, 4] S1x1.size Facts₀.inb_S2x14_S1x1_1_4)).squeeze S_ Facts₀.squeezes_S1x1_S_).sem = dsem 18 := rfl
@[sl_canon] theorem sem_send_1_5 : ((cc0_scratch2.slice (Rect.unit (s := S2x14) ![1, 5] S1x1.size Facts₀.inb_S2x14_S1x1_1_5)).squeeze S_ Facts₀.squeezes_S1x1_S_).sem = dsem 19 := rfl
@[sl_canon] theorem sem_send_1_6 : ((cc0_scratch2.slice (Rect.unit (s := S2x14) ![1, 6] S1x1.size Facts₀.inb_S2x14_S1x1_1_6)).squeeze S_ Facts₀.squeezes_S1x1_S_).sem = dsem 20 := rfl
@[sl_canon] theorem sem_send_1_7 : ((cc0_scratch2.slice (Rect.unit (s := S2x14) ![1, 7] S1x1.size Facts₀.inb_S2x14_S1x1_1_7)).squeeze S_ Facts₀.squeezes_S1x1_S_).sem = dsem 21 := rfl
@[sl_canon] theorem sem_send_1_8 : ((cc0_scratch2.slice (Rect.unit (s := S2x14) ![1, 8] S1x1.size Facts₀.inb_S2x14_S1x1_1_8)).squeeze S_ Facts₀.squeezes_S1x1_S_).sem = dsem 22 := rfl
@[sl_canon] theorem sem_send_1_9 : ((cc0_scratch2.slice (Rect.unit (s := S2x14) ![1, 9] S1x1.size Facts₀.inb_S2x14_S1x1_1_9)).squeeze S_ Facts₀.squeezes_S1x1_S_).sem = dsem 23 := rfl
@[sl_canon] theorem sem_send_1_10 : ((cc0_scratch2.slice (Rect.unit (s := S2x14) ![1, 10] S1x1.size Facts₀.inb_S2x14_S1x1_1_10)).squeeze S_ Facts₀.squeezes_S1x1_S_).sem = dsem 24 := rfl
@[sl_canon] theorem sem_send_1_11 : ((cc0_scratch2.slice (Rect.unit (s := S2x14) ![1, 11] S1x1.size Facts₀.inb_S2x14_S1x1_1_11)).squeeze S_ Facts₀.squeezes_S1x1_S_).sem = dsem 25 := rfl
@[sl_canon] theorem sem_send_1_12 : ((cc0_scratch2.slice (Rect.unit (s := S2x14) ![1, 12] S1x1.size Facts₀.inb_S2x14_S1x1_1_12)).squeeze S_ Facts₀.squeezes_S1x1_S_).sem = dsem 26 := rfl
@[sl_canon] theorem sem_send_1_13 : ((cc0_scratch2.slice (Rect.unit (s := S2x14) ![1, 13] S1x1.size Facts₀.inb_S2x14_S1x1_1_13)).squeeze S_ Facts₀.squeezes_S1x1_S_).sem = dsem 27 := rfl

@[sl_canon] theorem sem_recv_0_0 : ((cc0_scratch3.slice (Rect.unit (s := S2x14) ![0, 0] S1x1.size Facts₀.inb_S2x14_S1x1_0_0)).squeeze S_ Facts₀.squeezes_S1x1_S_).sem = dsem 28 := rfl
@[sl_canon] theorem sem_recv_0_1 : ((cc0_scratch3.slice (Rect.unit (s := S2x14) ![0, 1] S1x1.size Facts₀.inb_S2x14_S1x1_0_1)).squeeze S_ Facts₀.squeezes_S1x1_S_).sem = dsem 29 := rfl
@[sl_canon] theorem sem_recv_0_2 : ((cc0_scratch3.slice (Rect.unit (s := S2x14) ![0, 2] S1x1.size Facts₀.inb_S2x14_S1x1_0_2)).squeeze S_ Facts₀.squeezes_S1x1_S_).sem = dsem 30 := rfl
@[sl_canon] theorem sem_recv_0_3 : ((cc0_scratch3.slice (Rect.unit (s := S2x14) ![0, 3] S1x1.size Facts₀.inb_S2x14_S1x1_0_3)).squeeze S_ Facts₀.squeezes_S1x1_S_).sem = dsem 31 := rfl
@[sl_canon] theorem sem_recv_0_4 : ((cc0_scratch3.slice (Rect.unit (s := S2x14) ![0, 4] S1x1.size Facts₀.inb_S2x14_S1x1_0_4)).squeeze S_ Facts₀.squeezes_S1x1_S_).sem = dsem 32 := rfl
@[sl_canon] theorem sem_recv_0_5 : ((cc0_scratch3.slice (Rect.unit (s := S2x14) ![0, 5] S1x1.size Facts₀.inb_S2x14_S1x1_0_5)).squeeze S_ Facts₀.squeezes_S1x1_S_).sem = dsem 33 := rfl
@[sl_canon] theorem sem_recv_0_6 : ((cc0_scratch3.slice (Rect.unit (s := S2x14) ![0, 6] S1x1.size Facts₀.inb_S2x14_S1x1_0_6)).squeeze S_ Facts₀.squeezes_S1x1_S_).sem = dsem 34 := rfl
@[sl_canon] theorem sem_recv_0_7 : ((cc0_scratch3.slice (Rect.unit (s := S2x14) ![0, 7] S1x1.size Facts₀.inb_S2x14_S1x1_0_7)).squeeze S_ Facts₀.squeezes_S1x1_S_).sem = dsem 35 := rfl
@[sl_canon] theorem sem_recv_0_8 : ((cc0_scratch3.slice (Rect.unit (s := S2x14) ![0, 8] S1x1.size Facts₀.inb_S2x14_S1x1_0_8)).squeeze S_ Facts₀.squeezes_S1x1_S_).sem = dsem 36 := rfl
@[sl_canon] theorem sem_recv_0_9 : ((cc0_scratch3.slice (Rect.unit (s := S2x14) ![0, 9] S1x1.size Facts₀.inb_S2x14_S1x1_0_9)).squeeze S_ Facts₀.squeezes_S1x1_S_).sem = dsem 37 := rfl
@[sl_canon] theorem sem_recv_0_10 : ((cc0_scratch3.slice (Rect.unit (s := S2x14) ![0, 10] S1x1.size Facts₀.inb_S2x14_S1x1_0_10)).squeeze S_ Facts₀.squeezes_S1x1_S_).sem = dsem 38 := rfl
@[sl_canon] theorem sem_recv_0_11 : ((cc0_scratch3.slice (Rect.unit (s := S2x14) ![0, 11] S1x1.size Facts₀.inb_S2x14_S1x1_0_11)).squeeze S_ Facts₀.squeezes_S1x1_S_).sem = dsem 39 := rfl
@[sl_canon] theorem sem_recv_0_12 : ((cc0_scratch3.slice (Rect.unit (s := S2x14) ![0, 12] S1x1.size Facts₀.inb_S2x14_S1x1_0_12)).squeeze S_ Facts₀.squeezes_S1x1_S_).sem = dsem 40 := rfl
@[sl_canon] theorem sem_recv_0_13 : ((cc0_scratch3.slice (Rect.unit (s := S2x14) ![0, 13] S1x1.size Facts₀.inb_S2x14_S1x1_0_13)).squeeze S_ Facts₀.squeezes_S1x1_S_).sem = dsem 41 := rfl
@[sl_canon] theorem sem_recv_1_0 : ((cc0_scratch3.slice (Rect.unit (s := S2x14) ![1, 0] S1x1.size Facts₀.inb_S2x14_S1x1_1_0)).squeeze S_ Facts₀.squeezes_S1x1_S_).sem = dsem 42 := rfl
@[sl_canon] theorem sem_recv_1_1 : ((cc0_scratch3.slice (Rect.unit (s := S2x14) ![1, 1] S1x1.size Facts₀.inb_S2x14_S1x1_1_1)).squeeze S_ Facts₀.squeezes_S1x1_S_).sem = dsem 43 := rfl
@[sl_canon] theorem sem_recv_1_2 : ((cc0_scratch3.slice (Rect.unit (s := S2x14) ![1, 2] S1x1.size Facts₀.inb_S2x14_S1x1_1_2)).squeeze S_ Facts₀.squeezes_S1x1_S_).sem = dsem 44 := rfl
@[sl_canon] theorem sem_recv_1_3 : ((cc0_scratch3.slice (Rect.unit (s := S2x14) ![1, 3] S1x1.size Facts₀.inb_S2x14_S1x1_1_3)).squeeze S_ Facts₀.squeezes_S1x1_S_).sem = dsem 45 := rfl
@[sl_canon] theorem sem_recv_1_4 : ((cc0_scratch3.slice (Rect.unit (s := S2x14) ![1, 4] S1x1.size Facts₀.inb_S2x14_S1x1_1_4)).squeeze S_ Facts₀.squeezes_S1x1_S_).sem = dsem 46 := rfl
@[sl_canon] theorem sem_recv_1_5 : ((cc0_scratch3.slice (Rect.unit (s := S2x14) ![1, 5] S1x1.size Facts₀.inb_S2x14_S1x1_1_5)).squeeze S_ Facts₀.squeezes_S1x1_S_).sem = dsem 47 := rfl
@[sl_canon] theorem sem_recv_1_6 : ((cc0_scratch3.slice (Rect.unit (s := S2x14) ![1, 6] S1x1.size Facts₀.inb_S2x14_S1x1_1_6)).squeeze S_ Facts₀.squeezes_S1x1_S_).sem = dsem 48 := rfl
@[sl_canon] theorem sem_recv_1_7 : ((cc0_scratch3.slice (Rect.unit (s := S2x14) ![1, 7] S1x1.size Facts₀.inb_S2x14_S1x1_1_7)).squeeze S_ Facts₀.squeezes_S1x1_S_).sem = dsem 49 := rfl
@[sl_canon] theorem sem_recv_1_8 : ((cc0_scratch3.slice (Rect.unit (s := S2x14) ![1, 8] S1x1.size Facts₀.inb_S2x14_S1x1_1_8)).squeeze S_ Facts₀.squeezes_S1x1_S_).sem = dsem 50 := rfl
@[sl_canon] theorem sem_recv_1_9 : ((cc0_scratch3.slice (Rect.unit (s := S2x14) ![1, 9] S1x1.size Facts₀.inb_S2x14_S1x1_1_9)).squeeze S_ Facts₀.squeezes_S1x1_S_).sem = dsem 51 := rfl
@[sl_canon] theorem sem_recv_1_10 : ((cc0_scratch3.slice (Rect.unit (s := S2x14) ![1, 10] S1x1.size Facts₀.inb_S2x14_S1x1_1_10)).squeeze S_ Facts₀.squeezes_S1x1_S_).sem = dsem 52 := rfl
@[sl_canon] theorem sem_recv_1_11 : ((cc0_scratch3.slice (Rect.unit (s := S2x14) ![1, 11] S1x1.size Facts₀.inb_S2x14_S1x1_1_11)).squeeze S_ Facts₀.squeezes_S1x1_S_).sem = dsem 53 := rfl
@[sl_canon] theorem sem_recv_1_12 : ((cc0_scratch3.slice (Rect.unit (s := S2x14) ![1, 12] S1x1.size Facts₀.inb_S2x14_S1x1_1_12)).squeeze S_ Facts₀.squeezes_S1x1_S_).sem = dsem 54 := rfl
@[sl_canon] theorem sem_recv_1_13 : ((cc0_scratch3.slice (Rect.unit (s := S2x14) ![1, 13] S1x1.size Facts₀.inb_S2x14_S1x1_1_13)).squeeze S_ Facts₀.squeezes_S1x1_S_).sem = dsem 55 := rfl

@[sl_canon] theorem sem_zsend_0_0 : ((cc0_scratch4.slice (Rect.unit (s := S2x8) ![0, 0] S1x1.size Facts₀.inb_S2x8_S1x1_0_0)).squeeze S_ Facts₀.squeezes_S1x1_S_).sem = dsem 56 := rfl
@[sl_canon] theorem sem_zsend_0_1 : ((cc0_scratch4.slice (Rect.unit (s := S2x8) ![0, 1] S1x1.size Facts₀.inb_S2x8_S1x1_0_1)).squeeze S_ Facts₀.squeezes_S1x1_S_).sem = dsem 57 := rfl
@[sl_canon] theorem sem_zsend_0_2 : ((cc0_scratch4.slice (Rect.unit (s := S2x8) ![0, 2] S1x1.size Facts₀.inb_S2x8_S1x1_0_2)).squeeze S_ Facts₀.squeezes_S1x1_S_).sem = dsem 58 := rfl
@[sl_canon] theorem sem_zsend_0_3 : ((cc0_scratch4.slice (Rect.unit (s := S2x8) ![0, 3] S1x1.size Facts₀.inb_S2x8_S1x1_0_3)).squeeze S_ Facts₀.squeezes_S1x1_S_).sem = dsem 59 := rfl
@[sl_canon] theorem sem_zsend_0_4 : ((cc0_scratch4.slice (Rect.unit (s := S2x8) ![0, 4] S1x1.size Facts₀.inb_S2x8_S1x1_0_4)).squeeze S_ Facts₀.squeezes_S1x1_S_).sem = dsem 60 := rfl
@[sl_canon] theorem sem_zsend_0_5 : ((cc0_scratch4.slice (Rect.unit (s := S2x8) ![0, 5] S1x1.size Facts₀.inb_S2x8_S1x1_0_5)).squeeze S_ Facts₀.squeezes_S1x1_S_).sem = dsem 61 := rfl
@[sl_canon] theorem sem_zsend_0_6 : ((cc0_scratch4.slice (Rect.unit (s := S2x8) ![0, 6] S1x1.size Facts₀.inb_S2x8_S1x1_0_6)).squeeze S_ Facts₀.squeezes_S1x1_S_).sem = dsem 62 := rfl
@[sl_canon] theorem sem_zsend_0_7 : ((cc0_scratch4.slice (Rect.unit (s := S2x8) ![0, 7] S1x1.size Facts₀.inb_S2x8_S1x1_0_7)).squeeze S_ Facts₀.squeezes_S1x1_S_).sem = dsem 63 := rfl
@[sl_canon] theorem sem_zsend_1_0 : ((cc0_scratch4.slice (Rect.unit (s := S2x8) ![1, 0] S1x1.size Facts₀.inb_S2x8_S1x1_1_0)).squeeze S_ Facts₀.squeezes_S1x1_S_).sem = dsem 64 := rfl
@[sl_canon] theorem sem_zsend_1_1 : ((cc0_scratch4.slice (Rect.unit (s := S2x8) ![1, 1] S1x1.size Facts₀.inb_S2x8_S1x1_1_1)).squeeze S_ Facts₀.squeezes_S1x1_S_).sem = dsem 65 := rfl
@[sl_canon] theorem sem_zsend_1_2 : ((cc0_scratch4.slice (Rect.unit (s := S2x8) ![1, 2] S1x1.size Facts₀.inb_S2x8_S1x1_1_2)).squeeze S_ Facts₀.squeezes_S1x1_S_).sem = dsem 66 := rfl
@[sl_canon] theorem sem_zsend_1_3 : ((cc0_scratch4.slice (Rect.unit (s := S2x8) ![1, 3] S1x1.size Facts₀.inb_S2x8_S1x1_1_3)).squeeze S_ Facts₀.squeezes_S1x1_S_).sem = dsem 67 := rfl
@[sl_canon] theorem sem_zsend_1_4 : ((cc0_scratch4.slice (Rect.unit (s := S2x8) ![1, 4] S1x1.size Facts₀.inb_S2x8_S1x1_1_4)).squeeze S_ Facts₀.squeezes_S1x1_S_).sem = dsem 68 := rfl
@[sl_canon] theorem sem_zsend_1_5 : ((cc0_scratch4.slice (Rect.unit (s := S2x8) ![1, 5] S1x1.size Facts₀.inb_S2x8_S1x1_1_5)).squeeze S_ Facts₀.squeezes_S1x1_S_).sem = dsem 69 := rfl
@[sl_canon] theorem sem_zsend_1_6 : ((cc0_scratch4.slice (Rect.unit (s := S2x8) ![1, 6] S1x1.size Facts₀.inb_S2x8_S1x1_1_6)).squeeze S_ Facts₀.squeezes_S1x1_S_).sem = dsem 70 := rfl
@[sl_canon] theorem sem_zsend_1_7 : ((cc0_scratch4.slice (Rect.unit (s := S2x8) ![1, 7] S1x1.size Facts₀.inb_S2x8_S1x1_1_7)).squeeze S_ Facts₀.squeezes_S1x1_S_).sem = dsem 71 := rfl

@[sl_canon] theorem sem_zrecv_0_0 : ((cc0_scratch5.slice (Rect.unit (s := S2x8) ![0, 0] S1x1.size Facts₀.inb_S2x8_S1x1_0_0)).squeeze S_ Facts₀.squeezes_S1x1_S_).sem = dsem 72 := rfl
@[sl_canon] theorem sem_zrecv_0_1 : ((cc0_scratch5.slice (Rect.unit (s := S2x8) ![0, 1] S1x1.size Facts₀.inb_S2x8_S1x1_0_1)).squeeze S_ Facts₀.squeezes_S1x1_S_).sem = dsem 73 := rfl
@[sl_canon] theorem sem_zrecv_0_2 : ((cc0_scratch5.slice (Rect.unit (s := S2x8) ![0, 2] S1x1.size Facts₀.inb_S2x8_S1x1_0_2)).squeeze S_ Facts₀.squeezes_S1x1_S_).sem = dsem 74 := rfl
@[sl_canon] theorem sem_zrecv_0_3 : ((cc0_scratch5.slice (Rect.unit (s := S2x8) ![0, 3] S1x1.size Facts₀.inb_S2x8_S1x1_0_3)).squeeze S_ Facts₀.squeezes_S1x1_S_).sem = dsem 75 := rfl
@[sl_canon] theorem sem_zrecv_0_4 : ((cc0_scratch5.slice (Rect.unit (s := S2x8) ![0, 4] S1x1.size Facts₀.inb_S2x8_S1x1_0_4)).squeeze S_ Facts₀.squeezes_S1x1_S_).sem = dsem 76 := rfl
@[sl_canon] theorem sem_zrecv_0_5 : ((cc0_scratch5.slice (Rect.unit (s := S2x8) ![0, 5] S1x1.size Facts₀.inb_S2x8_S1x1_0_5)).squeeze S_ Facts₀.squeezes_S1x1_S_).sem = dsem 77 := rfl
@[sl_canon] theorem sem_zrecv_0_6 : ((cc0_scratch5.slice (Rect.unit (s := S2x8) ![0, 6] S1x1.size Facts₀.inb_S2x8_S1x1_0_6)).squeeze S_ Facts₀.squeezes_S1x1_S_).sem = dsem 78 := rfl
@[sl_canon] theorem sem_zrecv_0_7 : ((cc0_scratch5.slice (Rect.unit (s := S2x8) ![0, 7] S1x1.size Facts₀.inb_S2x8_S1x1_0_7)).squeeze S_ Facts₀.squeezes_S1x1_S_).sem = dsem 79 := rfl
@[sl_canon] theorem sem_zrecv_1_0 : ((cc0_scratch5.slice (Rect.unit (s := S2x8) ![1, 0] S1x1.size Facts₀.inb_S2x8_S1x1_1_0)).squeeze S_ Facts₀.squeezes_S1x1_S_).sem = dsem 80 := rfl
@[sl_canon] theorem sem_zrecv_1_1 : ((cc0_scratch5.slice (Rect.unit (s := S2x8) ![1, 1] S1x1.size Facts₀.inb_S2x8_S1x1_1_1)).squeeze S_ Facts₀.squeezes_S1x1_S_).sem = dsem 81 := rfl
@[sl_canon] theorem sem_zrecv_1_2 : ((cc0_scratch5.slice (Rect.unit (s := S2x8) ![1, 2] S1x1.size Facts₀.inb_S2x8_S1x1_1_2)).squeeze S_ Facts₀.squeezes_S1x1_S_).sem = dsem 82 := rfl
@[sl_canon] theorem sem_zrecv_1_3 : ((cc0_scratch5.slice (Rect.unit (s := S2x8) ![1, 3] S1x1.size Facts₀.inb_S2x8_S1x1_1_3)).squeeze S_ Facts₀.squeezes_S1x1_S_).sem = dsem 83 := rfl
@[sl_canon] theorem sem_zrecv_1_4 : ((cc0_scratch5.slice (Rect.unit (s := S2x8) ![1, 4] S1x1.size Facts₀.inb_S2x8_S1x1_1_4)).squeeze S_ Facts₀.squeezes_S1x1_S_).sem = dsem 84 := rfl
@[sl_canon] theorem sem_zrecv_1_5 : ((cc0_scratch5.slice (Rect.unit (s := S2x8) ![1, 5] S1x1.size Facts₀.inb_S2x8_S1x1_1_5)).squeeze S_ Facts₀.squeezes_S1x1_S_).sem = dsem 85 := rfl
@[sl_canon] theorem sem_zrecv_1_6 : ((cc0_scratch5.slice (Rect.unit (s := S2x8) ![1, 6] S1x1.size Facts₀.inb_S2x8_S1x1_1_6)).squeeze S_ Facts₀.squeezes_S1x1_S_).sem = dsem 86 := rfl
@[sl_canon] theorem sem_zrecv_1_7 : ((cc0_scratch5.slice (Rect.unit (s := S2x8) ![1, 7] S1x1.size Facts₀.inb_S2x8_S1x1_1_7)).squeeze S_ Facts₀.squeezes_S1x1_S_).sem = dsem 87 := rfl

@[sl_canon] theorem sem_local_0 : ((cc0_scratch6.slice (Rect.unit (s := S2) ![0] S1.size Facts₀.inb_S2_S1_0)).squeeze S_ Facts₀.squeezes_S1_S_).sem = dsem 88 := rfl
@[sl_canon] theorem sem_local_1 : ((cc0_scratch6.slice (Rect.unit (s := S2) ![1] S1.size Facts₀.inb_S2_S1_1)).squeeze S_ Facts₀.squeezes_S1_S_).sem = dsem 89 := rfl

/-- info: 'Cert.KernelIdeal.Cells.sem_local_1' depends on axioms: [propext, Classical.choice, Quot.sound] -/
#guard_msgs in #print axioms sem_local_1

end Cert.KernelIdeal.Cells
-- ==== Proof.RingFacts.lean ====
/-
  The kernel's device numbers and row offsets in closed form. The printed program computes, by chains of 32-bit
  word operations on a device's own number, the device each signal and each remote copy addresses and the first
  row of each chunk it moves. On the mesh of 32 devices each of these chains is one of three maps, the ring
  successor, the ring predecessor or the pair partner, and each offset is the first row of a chunk at a ring
  position counted from the device's own. Every equation here is a statement about the 32 devices and is decided
  by evaluating both sides at each of them. The maps are permutations of the mesh with no fixed point, pairwise
  different at every device; how they move the ring position, the half and the z coordinate is recorded with them.
-/
import proofs.«900727_g7700000000000728_dist_ar_v7x_xyz2x4x4_y_m16384_n1024_f32_1_alg».proof.Proof.RingDefs
import proofs.«900727_g7700000000000728_dist_ar_v7x_xyz2x4x4_y_m16384_n1024_f32_1_alg».proof.Proof.Gen.KernelIdeal
import Idealize.ShloMosaic.Lib.Decide

-- one decision at a time: each evaluates a chain of some eighty word operations at 32 devices
set_option Elab.async false

namespace Cert.KernelIdeal.Ring

open Idealize.ShloMosaic Cert.KernelIdeal
open Facts₀

/-! ## The device each signal and each remote copy addresses -/

@[sl_canon] theorem dev1_eq (c : Dev nD) : (⟨k0_dev1 c, k0_dev1_lt c⟩ : Dev nD) = succD c := by
  revert c; decide +kernel
@[sl_canon] theorem dev2_eq (c : Dev nD) : (⟨k0_dev2 c, k0_dev2_lt c⟩ : Dev nD) = predD c := by
  revert c; decide +kernel
@[sl_canon] theorem dev3_eq (c : Dev nD) : (⟨k0_dev3 c, k0_dev3_lt c⟩ : Dev nD) = partD c := by
  revert c; decide +kernel
@[sl_canon] theorem dev4_eq (c : Dev nD) : (⟨k0_dev4 c, k0_dev4_lt c⟩ : Dev nD) = succD c := by
  revert c; decide +kernel
@[sl_canon] theorem dev5_eq (c : Dev nD) : (⟨k0_dev5 c, k0_dev5_lt c⟩ : Dev nD) = predD c := by
  revert c; decide +kernel
@[sl_canon] theorem dev6_eq (c : Dev nD) : (⟨k0_dev6 c, k0_dev6_lt c⟩ : Dev nD) = succD c := by
  revert c; decide +kernel
@[sl_canon] theorem dev7_eq (c : Dev nD) : (⟨k0_dev7 c, k0_dev7_lt c⟩ : Dev nD) = predD c := by
  revert c; decide +kernel
@[sl_canon] theorem dev8_eq (c : Dev nD) : (⟨k0_dev8 c, k0_dev8_lt c⟩ : Dev nD) = succD c := by
  revert c; decide +kernel
@[sl_canon] theorem dev9_eq (c : Dev nD) : (⟨k0_dev9 c, k0_dev9_lt c⟩ : Dev nD) = predD c := by
  revert c; decide +kernel
@[sl_canon] theorem dev10_eq (c : Dev nD) : (⟨k0_dev10 c, k0_dev10_lt c⟩ : Dev nD) = succD c := by
  revert c; decide +kernel
@[sl_canon] theorem dev11_eq (c : Dev nD) : (⟨k0_dev11 c, k0_dev11_lt c⟩ : Dev nD) = predD c := by
  revert c; decide +kernel
@[sl_canon] theorem dev12_eq (c : Dev nD) : (⟨k0_dev12 c, k0_dev12_lt c⟩ : Dev nD) = succD c := by
  revert c; decide +kernel
@[sl_canon] theorem dev13_eq (c : Dev nD) : (⟨k0_dev13 c, k0_dev13_lt c⟩ : Dev nD) = predD c := by
  revert c; decide +kernel
@[sl_canon] theorem dev14_eq (c : Dev nD) : (⟨k0_dev14 c, k0_dev14_lt c⟩ : Dev nD) = succD c := by
  revert c; decide +kernel
@[sl_canon] theorem dev15_eq (c : Dev nD) : (⟨k0_dev15 c, k0_dev15_lt c⟩ : Dev nD) = predD c := by
  revert c; decide +kernel
@[sl_canon] theorem dev16_eq (c : Dev nD) : (⟨k0_dev16 c, k0_dev16_lt c⟩ : Dev nD) = succD c := by
  revert c; decide +kernel
@[sl_canon] theorem dev17_eq (c : Dev nD) : (⟨k0_dev17 c, k0_dev17_lt c⟩ : Dev nD) = predD c := by
  revert c; decide +kernel
@[sl_canon] theorem dev18_eq (c : Dev nD) : (⟨k0_dev18 c, k0_dev18_lt c⟩ : Dev nD) = partD c := by
  revert c; decide +kernel
@[sl_canon] theorem dev19_eq (c : Dev nD) : (⟨k0_dev19 c, k0_dev19_lt c⟩ : Dev nD) = partD c := by
  revert c; decide +kernel
@[sl_canon] theorem dev20_eq (c : Dev nD) : (⟨k0_dev20 c, k0_dev20_lt c⟩ : Dev nD) = succD c := by
  revert c; decide +kernel
@[sl_canon] theorem dev21_eq (c : Dev nD) : (⟨k0_dev21 c, k0_dev21_lt c⟩ : Dev nD) = predD c := by
  revert c; decide +kernel
@[sl_canon] theorem dev22_eq (c : Dev nD) : (⟨k0_dev22 c, k0_dev22_lt c⟩ : Dev nD) = partD c := by
  revert c; decide +kernel
@[sl_canon] theorem dev23_eq (c : Dev nD) : (⟨k0_dev23 c, k0_dev23_lt c⟩ : Dev nD) = partD c := by
  revert c; decide +kernel
@[sl_canon] theorem dev24_eq (c : Dev nD) : (⟨k0_dev24 c, k0_dev24_lt c⟩ : Dev nD) = succD c := by
  revert c; decide +kernel
@[sl_canon] theorem dev25_eq (c : Dev nD) : (⟨k0_dev25 c, k0_dev25_lt c⟩ : Dev nD) = predD c := by
  revert c; decide +kernel
@[sl_canon] theorem dev26_eq (c : Dev nD) : (⟨k0_dev26 c, k0_dev26_lt c⟩ : Dev nD) = partD c := by
  revert c; decide +kernel
@[sl_canon] theorem dev27_eq (c : Dev nD) : (⟨k0_dev27 c, k0_dev27_lt c⟩ : Dev nD) = partD c := by
  revert c; decide +kernel
@[sl_canon] theorem dev28_eq (c : Dev nD) : (⟨k0_dev28 c, k0_dev28_lt c⟩ : Dev nD) = succD c := by
  revert c; decide +kernel
@[sl_canon] theorem dev29_eq (c : Dev nD) : (⟨k0_dev29 c, k0_dev29_lt c⟩ : Dev nD) = predD c := by
  revert c; decide +kernel
@[sl_canon] theorem dev30_eq (c : Dev nD) : (⟨k0_dev30 c, k0_dev30_lt c⟩ : Dev nD) = partD c := by
  revert c; decide +kernel
@[sl_canon] theorem dev31_eq (c : Dev nD) : (⟨k0_dev31 c, k0_dev31_lt c⟩ : Dev nD) = partD c := by
  revert c; decide +kernel
@[sl_canon] theorem dev32_eq (c : Dev nD) : (⟨k0_dev32 c, k0_dev32_lt c⟩ : Dev nD) = succD c := by
  revert c; decide +kernel
@[sl_canon] theorem dev33_eq (c : Dev nD) : (⟨k0_dev33 c, k0_dev33_lt c⟩ : Dev nD) = predD c := by
  revert c; decide +kernel
@[sl_canon] theorem dev34_eq (c : Dev nD) : (⟨k0_dev34 c, k0_dev34_lt c⟩ : Dev nD) = partD c := by
  revert c; decide +kernel
@[sl_canon] theorem dev35_eq (c : Dev nD) : (⟨k0_dev35 c, k0_dev35_lt c⟩ : Dev nD) = partD c := by
  revert c; decide +kernel
@[sl_canon] theorem dev36_eq (c : Dev nD) : (⟨k0_dev36 c, k0_dev36_lt c⟩ : Dev nD) = succD c := by
  revert c; decide +kernel
@[sl_canon] theorem dev37_eq (c : Dev nD) : (⟨k0_dev37 c, k0_dev37_lt c⟩ : Dev nD) = predD c := by
  revert c; decide +kernel
@[sl_canon] theorem dev38_eq (c : Dev nD) : (⟨k0_dev38 c, k0_dev38_lt c⟩ : Dev nD) = partD c := by
  revert c; decide +kernel
@[sl_canon] theorem dev39_eq (c : Dev nD) : (⟨k0_dev39 c, k0_dev39_lt c⟩ : Dev nD) = partD c := by
  revert c; decide +kernel
@[sl_canon] theorem dev40_eq (c : Dev nD) : (⟨k0_dev40 c, k0_dev40_lt c⟩ : Dev nD) = succD c := by
  revert c; decide +kernel
@[sl_canon] theorem dev41_eq (c : Dev nD) : (⟨k0_dev41 c, k0_dev41_lt c⟩ : Dev nD) = predD c := by
  revert c; decide +kernel
@[sl_canon] theorem dev42_eq (c : Dev nD) : (⟨k0_dev42 c, k0_dev42_lt c⟩ : Dev nD) = partD c := by
  revert c; decide +kernel
@[sl_canon] theorem dev43_eq (c : Dev nD) : (⟨k0_dev43 c, k0_dev43_lt c⟩ : Dev nD) = partD c := by
  revert c; decide +kernel
@[sl_canon] theorem dev44_eq (c : Dev nD) : (⟨k0_dev44 c, k0_dev44_lt c⟩ : Dev nD) = succD c := by
  revert c; decide +kernel
@[sl_canon] theorem dev45_eq (c : Dev nD) : (⟨k0_dev45 c, k0_dev45_lt c⟩ : Dev nD) = predD c := by
  revert c; decide +kernel
@[sl_canon] theorem dev46_eq (c : Dev nD) : (⟨k0_dev46 c, k0_dev46_lt c⟩ : Dev nD) = partD c := by
  revert c; decide +kernel
@[sl_canon] theorem dev47_eq (c : Dev nD) : (⟨k0_dev47 c, k0_dev47_lt c⟩ : Dev nD) = partD c := by
  revert c; decide +kernel

/-! ## The three maps as permutations of the mesh -/

theorem pred_succ (c : Dev nD) : predD (succD c) = c := by revert c; decide
theorem succ_pred (c : Dev nD) : succD (predD c) = c := by revert c; decide
theorem part_part (c : Dev nD) : partD (partD c) = c := by revert c; decide
theorem succ_ne (c : Dev nD) : succD c ≠ c := by revert c; decide
theorem pred_ne (c : Dev nD) : predD c ≠ c := by revert c; decide
theorem part_ne (c : Dev nD) : partD c ≠ c := by revert c; decide
theorem succ_ne_pred (c : Dev nD) : succD c ≠ predD c := by revert c; decide
theorem succ_ne_part (c : Dev nD) : succD c ≠ partD c := by revert c; decide
theorem pred_ne_part (c : Dev nD) : predD c ≠ partD c := by revert c; decide

/-! ## Ring position, half and z coordinate along the maps -/

theorem pos_succ (c : Dev nD) : posD (succD c) = (posD c + 1) % 8 := by revert c; decide
theorem pos_pred (c : Dev nD) : posD (predD c) = (posD c + 7) % 8 := by revert c; decide
theorem pos_part (c : Dev nD) : posD (partD c) = posD c := by revert c; decide
theorem zp_succ (c : Dev nD) : zpD (succD c) = zpD c := by revert c; decide
theorem zp_pred (c : Dev nD) : zpD (predD c) = zpD c := by revert c; decide
theorem zp_part (c : Dev nD) : zpD (partD c) = 1 - zpD c := by revert c; decide
theorem z_succ (c : Dev nD) : zD (succD c) = zD c := by revert c; decide
theorem z_pred (c : Dev nD) : zD (predD c) = zD c := by revert c; decide
theorem pos_lt (c : Dev nD) : posD c < 8 := by revert c; decide
theorem zp_lt (c : Dev nD) : zpD c < 2 := by revert c; decide

/-! ## Sending and receiving neighbours are inverse to each other -/

theorem from_to (d : Fin 2) (c : Dev nD) : fromD d (toD d c) = c := by revert d c; decide
theorem to_from (d : Fin 2) (c : Dev nD) : toD d (fromD d c) = c := by revert d c; decide

/-! ## The first row of each chunk

  Direction 0 works on the rows from `zpD c * 8192`, direction 1 on those 4096 further on; a chunk is 512 rows. The
  second word argument of an offset chain is the step by which the ring position is shifted: the words
  `4294967296 - k` are `-k` in 32 bits. -/

theorem off1_0 (c : Dev nD) : k0_off1 c 0#32 = ![rowAt c 0 0, 0] := by revert c; decide +kernel
theorem off1_1 (c : Dev nD) : k0_off1 c 4096#32 = ![rowAt c 1 0, 0] := by revert c; decide +kernel

theorem off2_0_0 (c : Dev nD) : k0_off2 c 0#32 0#32 = ![rowAt c 0 0, 0] := by revert c; decide +kernel
theorem off2_1_0 (c : Dev nD) : k0_off2 c 4096#32 0#32 = ![rowAt c 1 0, 0] := by revert c; decide +kernel
theorem off2_0_1 (c : Dev nD) : k0_off2 c 0#32 1#32 = ![rowAt c 0 7, 0] := by revert c; decide +kernel
theorem off2_1_1 (c : Dev nD) : k0_off2 c 4096#32 4294967295#32 = ![rowAt c 1 1, 0] := by revert c; decide +kernel
theorem off2_0_2 (c : Dev nD) : k0_off2 c 0#32 2#32 = ![rowAt c 0 6, 0] := by revert c; decide +kernel
theorem off2_1_2 (c : Dev nD) : k0_off2 c 4096#32 4294967294#32 = ![rowAt c 1 2, 0] := by revert c; decide +kernel
theorem off2_0_3 (c : Dev nD) : k0_off2 c 0#32 3#32 = ![rowAt c 0 5, 0] := by revert c; decide +kernel
theorem off2_1_3 (c : Dev nD) : k0_off2 c 4096#32 4294967293#32 = ![rowAt c 1 3, 0] := by revert c; decide +kernel
theorem off2_0_4 (c : Dev nD) : k0_off2 c 0#32 4#32 = ![rowAt c 0 4, 0] := by revert c; decide +kernel
theorem off2_1_4 (c : Dev nD) : k0_off2 c 4096#32 4294967292#32 = ![rowAt c 1 4, 0] := by revert c; decide +kernel
theorem off2_0_5 (c : Dev nD) : k0_off2 c 0#32 5#32 = ![rowAt c 0 3, 0] := by revert c; decide +kernel
theorem off2_1_5 (c : Dev nD) : k0_off2 c 4096#32 4294967291#32 = ![rowAt c 1 5, 0] := by revert c; decide +kernel
theorem off2_0_6 (c : Dev nD) : k0_off2 c 0#32 6#32 = ![rowAt c 0 2, 0] := by revert c; decide +kernel
theorem off2_1_6 (c : Dev nD) : k0_off2 c 4096#32 4294967290#32 = ![rowAt c 1 6, 0] := by revert c; decide +kernel
theorem off2_0_7 (c : Dev nD) : k0_off2 c 0#32 7#32 = ![rowAt c 0 1, 0] := by revert c; decide +kernel
theorem off2_1_7 (c : Dev nD) : k0_off2 c 4096#32 4294967289#32 = ![rowAt c 1 7, 0] := by revert c; decide +kernel

theorem off3_0 (c : Dev nD) : k0_off3 c 0#32 1#32 = ![rowAt c 0 1, 0] := by revert c; decide +kernel
theorem off3_1 (c : Dev nD) : k0_off3 c 4096#32 4294967295#32 = ![rowAt c 1 7, 0] := by revert c; decide +kernel

theorem off4_0_0 (c : Dev nD) : k0_off4 c 0#32 1#32 0#32 = ![rowAt c 0 1, 0] := by revert c; decide +kernel
theorem off4_1_0 (c : Dev nD) : k0_off4 c 4096#32 4294967295#32 0#32 = ![rowAt c 1 7, 0] := by revert c; decide +kernel
theorem off4_0_1 (c : Dev nD) : k0_off4 c 0#32 1#32 1#32 = ![rowAt c 0 0, 0] := by revert c; decide +kernel
theorem off4_1_1 (c : Dev nD) : k0_off4 c 4096#32 4294967295#32 4294967295#32 = ![rowAt c 1 0, 0] := by revert c; decide +kernel
theorem off4_0_2 (c : Dev nD) : k0_off4 c 0#32 1#32 2#32 = ![rowAt c 0 7, 0] := by revert c; decide +kernel
theorem off4_1_2 (c : Dev nD) : k0_off4 c 4096#32 4294967295#32 4294967294#32 = ![rowAt c 1 1, 0] := by revert c; decide +kernel
theorem off4_0_3 (c : Dev nD) : k0_off4 c 0#32 1#32 3#32 = ![rowAt c 0 6, 0] := by revert c; decide +kernel
theorem off4_1_3 (c : Dev nD) : k0_off4 c 4096#32 4294967295#32 4294967293#32 = ![rowAt c 1 2, 0] := by revert c; decide +kernel
theorem off4_0_4 (c : Dev nD) : k0_off4 c 0#32 1#32 4#32 = ![rowAt c 0 5, 0] := by revert c; decide +kernel
theorem off4_1_4 (c : Dev nD) : k0_off4 c 4096#32 4294967295#32 4294967292#32 = ![rowAt c 1 3, 0] := by revert c; decide +kernel
theorem off4_0_5 (c : Dev nD) : k0_off4 c 0#32 1#32 5#32 = ![rowAt c 0 4, 0] := by revert c; decide +kernel
theorem off4_1_5 (c : Dev nD) : k0_off4 c 4096#32 4294967295#32 4294967291#32 = ![rowAt c 1 4, 0] := by revert c; decide +kernel
theorem off4_0_6 (c : Dev nD) : k0_off4 c 0#32 1#32 6#32 = ![rowAt c 0 3, 0] := by revert c; decide +kernel
theorem off4_1_6 (c : Dev nD) : k0_off4 c 4096#32 4294967295#32 4294967290#32 = ![rowAt c 1 5, 0] := by revert c; decide +kernel

/-! ## The destination's offset, computed by the sender

  A device that sends to its successor writes where the successor, counting from its own position, expects the
  chunk; the row is the one the sender reads from, counted from the sender's position. -/

theorem off4_pred_0 (c : Dev nD) : k0_off4 (predD c) 0#32 1#32 0#32 = k0_off2 c 0#32 0#32 := by revert c; decide +kernel
theorem off4_succ_0 (c : Dev nD) : k0_off4 (succD c) 4096#32 4294967295#32 0#32 = k0_off2 c 4096#32 0#32 := by revert c; decide +kernel
theorem off4_pred_1 (c : Dev nD) : k0_off4 (predD c) 0#32 1#32 1#32 = k0_off2 c 0#32 1#32 := by revert c; decide +kernel
theorem off4_succ_1 (c : Dev nD) : k0_off4 (succD c) 4096#32 4294967295#32 4294967295#32 = k0_off2 c 4096#32 4294967295#32 := by revert c; decide +kernel
theorem off4_pred_2 (c : Dev nD) : k0_off4 (predD c) 0#32 1#32 2#32 = k0_off2 c 0#32 2#32 := by revert c; decide +kernel
theorem off4_succ_2 (c : Dev nD) : k0_off4 (succD c) 4096#32 4294967295#32 4294967294#32 = k0_off2 c 4096#32 4294967294#32 := by revert c; decide +kernel
theorem off4_pred_3 (c : Dev nD) : k0_off4 (predD c) 0#32 1#32 3#32 = k0_off2 c 0#32 3#32 := by revert c; decide +kernel
theorem off4_succ_3 (c : Dev nD) : k0_off4 (succD c) 4096#32 4294967295#32 4294967293#32 = k0_off2 c 4096#32 4294967293#32 := by revert c; decide +kernel
theorem off4_pred_4 (c : Dev nD) : k0_off4 (predD c) 0#32 1#32 4#32 = k0_off2 c 0#32 4#32 := by revert c; decide +kernel
theorem off4_succ_4 (c : Dev nD) : k0_off4 (succD c) 4096#32 4294967295#32 4294967292#32 = k0_off2 c 4096#32 4294967292#32 := by revert c; decide +kernel
theorem off4_pred_5 (c : Dev nD) : k0_off4 (predD c) 0#32 1#32 5#32 = k0_off2 c 0#32 5#32 := by revert c; decide +kernel
theorem off4_succ_5 (c : Dev nD) : k0_off4 (succD c) 4096#32 4294967295#32 4294967291#32 = k0_off2 c 4096#32 4294967291#32 := by revert c; decide +kernel
theorem off4_pred_6 (c : Dev nD) : k0_off4 (predD c) 0#32 1#32 6#32 = k0_off2 c 0#32 6#32 := by revert c; decide +kernel
theorem off4_succ_6 (c : Dev nD) : k0_off4 (succD c) 4096#32 4294967295#32 4294967290#32 = k0_off2 c 4096#32 4294967290#32 := by revert c; decide +kernel

theorem off3_eq_off4_0 (c : Dev nD) : k0_off3 c 0#32 1#32 = k0_off4 c 0#32 1#32 0#32 := by revert c; decide +kernel
theorem off3_eq_off4_1 (c : Dev nD) : k0_off3 c 4096#32 4294967295#32 = k0_off4 c 4096#32 4294967295#32 0#32 := by
  revert c; decide +kernel

/-- info: 'Cert.KernelIdeal.Ring.dev47_eq' depends on axioms: [propext, Classical.choice, Quot.sound] -/
#guard_msgs in #print axioms dev47_eq

/-- info: 'Cert.KernelIdeal.Ring.from_to' depends on axioms: [propext, Quot.sound] -/
#guard_msgs in #print axioms from_to

/-- info: 'Cert.KernelIdeal.Ring.off4_1_6' depends on axioms: [propext, Classical.choice, Quot.sound] -/
#guard_msgs in #print axioms off4_1_6

/-- info: 'Cert.KernelIdeal.Ring.off4_succ_6' depends on axioms: [propext, Classical.choice, Quot.sound] -/
#guard_msgs in #print axioms off4_succ_6

/-- info: 'Cert.KernelIdeal.Ring.off3_eq_off4_1' depends on axioms: [propext, Classical.choice, Quot.sound] -/
#guard_msgs in #print axioms off3_eq_off4_1

end Cert.KernelIdeal.Ring
-- ==== Proof.Canon.lean ====
/-
  Two books of names for the proof of the ring program. First, a DMA semaphore is told from the barrier semaphore,
  and two DMA semaphores are the same exactly when their indices are (the table that turns each semaphore the
  program spells into its index is the imported module's). Second, the arithmetic of the first row of a chunk:
  where it lies, how it moves along the ring and to the pair partner, and how the half, the direction and the ring
  position are read back from it.
-/
import proofs.«900727_g7700000000000728_dist_ar_v7x_xyz2x4x4_y_m16384_n1024_f32_1_alg».proof.Proof.CanonSems
import proofs.«900727_g7700000000000728_dist_ar_v7x_xyz2x4x4_y_m16384_n1024_f32_1_alg».proof.Proof.RingFacts
import Mathlib.Tactic.FinCases

namespace Cert.KernelIdeal.Cells

open Cert.KernelIdeal Cert.KernelIdeal.Ring Idealize.ShloMosaic

/-! ## Semaphores -/

/-- A DMA semaphore is not the barrier semaphore: the two are of different kinds. -/
theorem dsem_ne_bar (i : ℕ) (hi : i < 90) : (SemLoc.dma (dsem i hi) : SemLoc sig) ≠ .reg barS := by
  intro h; cases h

/-- DMA semaphores are told apart by their indices. -/
theorem dsem_inj (i j : ℕ) (hi : i < 90) (hj : j < 90) : dsem i hi = dsem j hj ↔ i = j := by
  constructor
  · intro h; exact congrArg Fin.val h
  · intro h; subst h; rfl

/-! ## Rows

  The first row of a chunk, `rowAt c d j = zpD c * 8192 + d * 4096 + ((posD c + j) % 8) * 512`, read as a number in
  the mixed radix (2, 2, 8, 512): the half, the direction, the ring position, and no remainder. A chunk of 512
  rows starting there lies inside the 16384 rows. Moving to the ring successor or predecessor shifts the position
  by one; moving to the pair partner exchanges the halves and keeps the position. -/

theorem rowAt_inb (c : Dev nD) (d j : ℕ) (hd : d < 2) :
    ∀ a, (![rowAt c d j, 0] : Fin 2 → Nat) a + S512x1024.size a ≤ S16384x1024.size a := by
  have hz := zp_lt c
  have hp : (posD c + j) % 8 < 8 := Nat.mod_lt _ (by decide)
  intro a
  fin_cases a
  · show rowAt c d j + 512 ≤ 16384
    unfold rowAt; omega
  · show 0 + 1024 ≤ 1024
    omega

theorem rowAt_succ (c : Dev nD) (d j : ℕ) : rowAt (succD c) d j = rowAt c d (j + 1) := by
  unfold rowAt; rw [zp_succ, pos_succ]; omega

theorem rowAt_pred (c : Dev nD) (d j : ℕ) : rowAt (predD c) d j = rowAt c d (j + 7) := by
  unfold rowAt; rw [zp_pred, pos_pred]; omega

theorem rowAt_mod (c : Dev nD) (d j : ℕ) : rowAt c d (j + 8) = rowAt c d j := by
  unfold rowAt; omega

theorem rowAt_mod' (c : Dev nD) (d j : ℕ) : rowAt c d (j % 8) = rowAt c d j := by
  unfold rowAt; omega

theorem rowAt_part (c : Dev nD) (d j : ℕ) :
    rowAt (partD c) d j + 8192 * zpD c = rowAt c d j + 8192 * (1 - zpD c) := by
  have hz := zp_lt c
  unfold rowAt; rw [zp_part, pos_part]; omega

theorem rowAt_part_of_zp0 (c : Dev nD) (d j : ℕ) (h : zpD c = 0) : rowAt (partD c) d j = rowAt c d j + 8192 := by
  have := rowAt_part c d j; rw [h] at this; omega

theorem rowAt_part_of_zp1 (c : Dev nD) (d j : ℕ) (h : zpD c = 1) : rowAt (partD c) d j + 8192 = rowAt c d j := by
  have := rowAt_part c d j; rw [h] at this; omega

theorem rowAt_div_8192 (c : Dev nD) (d j : ℕ) (hd : d < 2) : rowAt c d j / 8192 = zpD c := by
  have hp : (posD c + j) % 8 < 8 := Nat.mod_lt _ (by decide)
  unfold rowAt; omega

theorem rowAt_mod_8192_div_4096 (c : Dev nD) (d j : ℕ) (hd : d < 2) : (rowAt c d j % 8192) / 4096 = d := by
  have hp : (posD c + j) % 8 < 8 := Nat.mod_lt _ (by decide)
  unfold rowAt; omega

theorem rowAt_mod_4096_div_512 (c : Dev nD) (d j : ℕ) : (rowAt c d j % 4096) / 512 = (posD c + j) % 8 := by
  have hp : (posD c + j) % 8 < 8 := Nat.mod_lt _ (by decide)
  unfold rowAt; omega

theorem rowAt_mod_512 (c : Dev nD) (d j : ℕ) : rowAt c d j % 512 = 0 := by
  unfold rowAt; omega

theorem rowAt_lt (c : Dev nD) (d j : ℕ) (hd : d < 2) : rowAt c d j + 512 ≤ 16384 := by
  have hz := zp_lt c
  have hp : (posD c + j) % 8 < 8 := Nat.mod_lt _ (by decide)
  unfold rowAt; omega

/-- info: 'Cert.KernelIdeal.Cells.rowAt_part' depends on axioms: [propext, Quot.sound] -/
#guard_msgs in #print axioms rowAt_part

end Cert.KernelIdeal.Cells
-- ==== Proof.ValLemmas.lean ====
/-
  Where the copies land. A copy writes what its source view reads into the destination view; on the destination's
  region the result is the named contents of the destination: a slot of the exchange buffer receives what ARRIVES
  in it, a chunk of the result array receives the reduced chunk, a slot of the staging buffer receives the device's
  own chunk. Each statement is an equation between buffer contents at every index of the destination's region,
  with the entailment between the two points-to assertions beside it.
-/
import proofs.«900727_g7700000000000728_dist_ar_v7x_xyz2x4x4_y_m16384_n1024_f32_1_alg».proof.Proof.Sched
import proofs.«900727_g7700000000000728_dist_ar_v7x_xyz2x4x4_y_m16384_n1024_f32_1_alg».proof.Proof.Canon
import proofs.«900727_g7700000000000728_dist_ar_v7x_xyz2x4x4_y_m16384_n1024_f32_1_alg».proof.Proof.RingFacts
import Idealize.ShloMosaic.Lib.Pipeline.Value
import Idealize.ShloMosaic.Lib.ValueLayout

noncomputable section

namespace Cert.KernelIdeal.Vals

open Cert.KernelIdeal Cert.KernelIdeal.Gen Cert.KernelIdeal.Ring Cert.KernelIdeal.Cells Cert.KernelIdeal.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Where a view puts its indices -/

/-- A chunk's view of the result array puts (r, q) at row `off 0 + r`, column `q`. -/
theorem oCh_emb (off : Fin 2 → ℕ) (h : ∀ a, off a + S512x1024.size a ≤ S16384x1024.size a) (r : Fin 512) (q : Fin 1024)
    (R : Fin 16384) (hR : R.val = off 0 + r.val) (h1 : off 1 = 0) :
    (oCh off h).view.emb (ix2 r q) = ix2 R q := by
  funext a
  refine Fin.ext ?_
  match a with
  | ⟨0, _⟩ => show off 0 + 1 * r.val = R.val; omega
  | ⟨1, _⟩ => show off 1 + 1 * q.val = q.val; omega

/-- The same for the argument array. -/
theorem xCh_emb (off : Fin 2 → ℕ) (h : ∀ a, off a + S512x1024.size a ≤ S16384x1024.size a) (r : Fin 512) (q : Fin 1024)
    (R : Fin 16384) (hR : R.val = off 0 + r.val) (h1 : off 1 = 0) :
    (xCh off h).view.emb (ix2 r q) = ix2 R q := by
  funext a
  refine Fin.ext ?_
  match a with
  | ⟨0, _⟩ => show off 0 + 1 * r.val = R.val; omega
  | ⟨1, _⟩ => show off 1 + 1 * q.val = q.val; omega

/-- Slot (d, s) of the exchange buffer puts (r, q) at (d, s, r, q). -/
theorem cSl_emb (d s : ℕ) (h : ∀ a, (![d, s, 0, 0] : Fin 4 → ℕ) a + S1x1x512x1024.size a ≤ S2x7x512x1024.size a)
    (r : Fin 512) (q : Fin 1024) (D : Fin 2) (Sx : Fin 7) (hD : D.val = d) (hS : Sx.val = s) :
    (cSl d s h).view.emb (ix2 r q) = ix4 D Sx r q := by
  show (Rect.unit (s := S2x7x512x1024) ![d, s, 0, 0] S1x1x512x1024.size h).emb
      (Shape.reshapeEquiv _ (ix2 r q)) = _
  rw [reshapeEquiv_ix2_11ab]
  funext a
  refine Fin.ext ?_
  match a with
  | ⟨0, _⟩ => show d + 1 * 0 = D.val; omega
  | ⟨1, _⟩ => show s + 1 * 0 = Sx.val; omega
  | ⟨2, _⟩ => show 0 + 1 * r.val = r.val; omega
  | ⟨3, _⟩ => show 0 + 1 * q.val = q.val; omega

/-- Slot d of the staging buffer puts (r, q) at (d, r, q). -/
theorem sSl_emb (d : ℕ) (h : ∀ a, (![d, 0, 0] : Fin 3 → ℕ) a + S1x512x1024.size a ≤ S2x512x1024.size a)
    (r : Fin 512) (q : Fin 1024) (D : Fin 2) (hD : D.val = d) :
    (sSl d h).view.emb (ix2 r q) = ix3 D r q := by
  show (Rect.unit (s := S2x512x1024) ![d, 0, 0] S1x512x1024.size h).emb
      (Shape.reshapeEquiv _ (ix2 r q)) = _
  rw [reshapeEquiv_ix2_1ab]
  funext a
  refine Fin.ext ?_
  match a with
  | ⟨0, _⟩ => show d + 1 * 0 = D.val; omega
  | ⟨1, _⟩ => show 0 + 1 * r.val = r.val; omega
  | ⟨2, _⟩ => show 0 + 1 * q.val = q.val; omega

variable (m : (ℓ : Loc nD τ sig) → Buf (Elt F) ℓ)

/-! ## Redistribution, later steps: a finished chunk is copied to a device of the same pair of planes -/

theorem land_res (c c' : Dev nD) (off : Fin 2 → ℕ)
    (h h' : ∀ a, off a + S512x1024.size a ≤ S16384x1024.size a) (hz : zD c' / 2 = zD c / 2)
    (fd : Buf (Elt F) ((oCh off h').view.loc (c' : Thread nD τ))) :
    ∀ i ∈ (oCh off h').view.set,
      (oCh off h').view.write (Elt F) fd ((oCh off h).view.read (Elt F) (Res m c)) Finset.univ i = Res m c' i := by
  intro i hi
  obtain ⟨y, rfl⟩ := View.exists_emb_of_mem_set _ hi
  rw [View.write_emb_of_mem _ _ (Finset.mem_univ y)]
  show Res m c ((oCh off h).view.emb y) = Res m c' ((oCh off h').view.emb y)
  unfold Res
  rw [hz]

theorem land_res_ent (c c' : Dev nD) (off : Fin 2 → ℕ)
    (h h' : ∀ a, off a + S512x1024.size a ≤ S16384x1024.size a) (hz : zD c' / 2 = zD c / 2)
    (fd : Buf (Elt F) ((oCh off h').view.loc (c' : Thread nD τ))) :
    (rpts c' (oCh off h') fullShare
        ((oCh off h').view.write (Elt F) fd ((oCh off h).view.read (Elt F) (Res m c)) Finset.univ) : sProp 𝕄)
      ⊢ rpts c' (oCh off h') fullShare (Res m c') :=
  Entails.of_eq (BI.Region.is_congr (land_res m c c' off h h' hz fd))

/-! ## The ring, later steps: an updated slot is copied to the next device's next slot -/

theorem land_ring (c : Dev nD) (d s : ℕ) (hd : d < 2) (hs : s + 1 < 7)
    (h : ∀ a, (![d, s, 0, 0] : Fin 4 → ℕ) a + S1x1x512x1024.size a ≤ S2x7x512x1024.size a)
    (h' : ∀ a, (![d, s + 1, 0, 0] : Fin 4 → ℕ) a + S1x1x512x1024.size a ≤ S2x7x512x1024.size a)
    (fd : Buf (Elt F) ((cSl d (s + 1) h').view.loc ((toD ⟨d, hd⟩ c : Dev nD) : Thread nD τ))) :
    ∀ i ∈ (cSl d (s + 1) h').view.set,
      (cSl d (s + 1) h').view.write (Elt F) fd ((cSl d s h).view.read (Elt F) (CommAcc m c)) Finset.univ i
        = CommIn m (toD ⟨d, hd⟩ c) i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show CommAcc m c ((cSl d s h).view.emb (ix2 r q)) = CommIn m (toD ⟨d, hd⟩ c) ((cSl d (s + 1) h').view.emb (ix2 r q))
  rw [cSl_emb d s h r q ⟨d, hd⟩ ⟨s, by omega⟩ rfl rfl, cSl_emb d (s + 1) h' r q ⟨d, hd⟩ ⟨s + 1, hs⟩ rfl rfl]
  show acc m d s c (ix2 r q) = arr m d (s + 1) (toD ⟨d, hd⟩ c) (ix2 r q)
  have e : (⟨d % 2, Nat.mod_lt _ (by decide)⟩ : Fin 2) = ⟨d, hd⟩ := Fin.ext (Nat.mod_eq_of_lt hd)
  show _ = acc m d s (fromD ⟨d % 2, Nat.mod_lt _ (by decide)⟩ (toD ⟨d, hd⟩ c)) (ix2 r q)
  rw [e, from_to]

theorem land_ring_ent (c : Dev nD) (d s : ℕ) (hd : d < 2) (hs : s + 1 < 7)
    (h : ∀ a, (![d, s, 0, 0] : Fin 4 → ℕ) a + S1x1x512x1024.size a ≤ S2x7x512x1024.size a)
    (h' : ∀ a, (![d, s + 1, 0, 0] : Fin 4 → ℕ) a + S1x1x512x1024.size a ≤ S2x7x512x1024.size a)
    (fd : Buf (Elt F) ((cSl d (s + 1) h').view.loc ((toD ⟨d, hd⟩ c : Dev nD) : Thread nD τ))) :
    (rpts (toD ⟨d, hd⟩ c) (cSl d (s + 1) h') fullShare
        ((cSl d (s + 1) h').view.write (Elt F) fd ((cSl d s h).view.read (Elt F) (CommAcc m c)) Finset.univ) : sProp 𝕄)
      ⊢ rpts (toD ⟨d, hd⟩ c) (cSl d (s + 1) h') fullShare (CommIn m (toD ⟨d, hd⟩ c)) :=
  Entails.of_eq (BI.Region.is_congr (land_ring m c d s hd hs h h' fd))

/-! ## The ring, first step: the device's own chunk is copied to the next device's first slot -/

/-- A chunk of the argument array read where a chunk's view puts (r, q). -/
theorem X_at_chunk (c : Dev nD) (off : Fin 2 → ℕ) (h : ∀ a, off a + S512x1024.size a ≤ S16384x1024.size a)
    (d j : ℕ) (hd : d < 2) (hoff : off = ![rowAt c d j, 0]) (r : Fin 512) (q : Fin 1024) :
    X m c ((xCh off h).view.emb (ix2 r q)) = xc m c d j (ix2 r q) := by
  subst hoff
  have hlt := rowAt_lt c d j hd
  have hr := r.isLt
  rw [xCh_emb _ h r q ⟨(rowAt c d j + r.val) % 16384, Nat.mod_lt _ (by decide)⟩
    (by show (rowAt c d j + r.val) % 16384 = rowAt c d j + r.val; exact Nat.mod_eq_of_lt (by omega)) rfl]
  rfl

theorem land_first (c : Dev nD) (d : ℕ) (hd : d < 2) (off : Fin 2 → ℕ)
    (h : ∀ a, off a + S512x1024.size a ≤ S16384x1024.size a) (hoff : off = ![rowAt c d 0, 0])
    (h' : ∀ a, (![d, 0, 0, 0] : Fin 4 → ℕ) a + S1x1x512x1024.size a ≤ S2x7x512x1024.size a)
    (fd : Buf (Elt F) ((cSl d 0 h').view.loc ((toD ⟨d, hd⟩ c : Dev nD) : Thread nD τ))) :
    ∀ i ∈ (cSl d 0 h').view.set,
      (cSl d 0 h').view.write (Elt F) fd ((xCh off h).view.read (Elt F) (X m c)) Finset.univ i
        = CommIn m (toD ⟨d, hd⟩ c) i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show X m c ((xCh off h).view.emb (ix2 r q)) = CommIn m (toD ⟨d, hd⟩ c) ((cSl d 0 h').view.emb (ix2 r q))
  rw [X_at_chunk m c off h d 0 hd hoff r q, cSl_emb d 0 h' r q ⟨d, hd⟩ ⟨0, by decide⟩ rfl rfl]
  have e : (⟨d % 2, Nat.mod_lt _ (by decide)⟩ : Fin 2) = ⟨d, hd⟩ := Fin.ext (Nat.mod_eq_of_lt hd)
  show _ = xc m (fromD ⟨d % 2, Nat.mod_lt _ (by decide)⟩ (toD ⟨d, hd⟩ c)) d 0 (ix2 r q)
  rw [e, from_to]

theorem land_first_ent (c : Dev nD) (d : ℕ) (hd : d < 2) (off : Fin 2 → ℕ)
    (h : ∀ a, off a + S512x1024.size a ≤ S16384x1024.size a) (hoff : off = ![rowAt c d 0, 0])
    (h' : ∀ a, (![d, 0, 0, 0] : Fin 4 → ℕ) a + S1x1x512x1024.size a ≤ S2x7x512x1024.size a)
    (fd : Buf (Elt F) ((cSl d 0 h').view.loc ((toD ⟨d, hd⟩ c : Dev nD) : Thread nD τ))) :
    (rpts (toD ⟨d, hd⟩ c) (cSl d 0 h') fullShare
        ((cSl d 0 h').view.write (Elt F) fd ((xCh off h).view.read (Elt F) (X m c)) Finset.univ) : sProp 𝕄)
      ⊢ rpts (toD ⟨d, hd⟩ c) (cSl d 0 h') fullShare (CommIn m (toD ⟨d, hd⟩ c)) :=
  Entails.of_eq (BI.Region.is_congr (land_first m c d hd off h hoff h' fd))

/-! ## Redistribution, first step: the finished chunk leaves the exchange buffer for the result array -/

/-- The pair partner lies in the same pair of planes. -/
theorem z_part (c : Dev nD) : zD (partD c) / 2 = zD c / 2 := by revert c; decide

/-- The device that finishes a chunk is its owner: in direction 0 the chunk one ring position ahead of the device,
    in direction 1 the chunk one position behind. -/
theorem owner_eq (c : Dev nD) (d : ℕ) (hd : d < 2) :
    owner (zD c / 2) (zpD c) d ((posD c + (if d = 0 then 1 else 7)) % 8) = c := by
  interval_cases d
  · revert c; decide
  · revert c; decide

/-- The result array read at a row given by its half, direction, ring position and row inside the chunk. -/
theorem ResZ_at (zz : ℕ) (R : Fin 16384) (q : Fin 1024) (zp d p : ℕ) (r : Fin 512)
    (hA : R.val / 8192 = zp) (hB : R.val % 8192 / 4096 = d) (hC : R.val % 4096 / 512 = p) (hD : R.val % 512 = r.val) :
    ResZ m zz (ix2 R q) = acc m d 6 (owner zz zp d p) (ix2 r q) := by
  subst hA hB hC
  have e : (⟨R.val % 512, Nat.mod_lt _ (by decide)⟩ : Fin 512) = r := Fin.ext hD
  unfold ResZ
  show acc m _ 6 _ (ix2 (⟨R.val % 512, Nat.mod_lt _ (by decide)⟩ : Fin 512) q) = _
  rw [e]

/-- The result array of a device of the same pair of planes, read where the view of the chunk that device `c` has
    just finished puts (r, q): the last slot of `c`'s exchange buffer, updated. -/
theorem Res_at_done (c c' : Dev nD) (d : ℕ) (hd : d < 2) (hz : zD c' / 2 = zD c / 2) (off : Fin 2 → ℕ)
    (h : ∀ a, off a + S512x1024.size a ≤ S16384x1024.size a)
    (hoff : off = ![rowAt c d (if d = 0 then 1 else 7), 0]) (r : Fin 512) (q : Fin 1024) :
    Res m c' ((oCh off h).view.emb (ix2 r q)) = acc m d 6 c (ix2 r q) := by
  subst hoff
  have hlt := rowAt_lt c d (if d = 0 then 1 else 7) hd
  have hr := r.isLt
  have hzp := zp_lt c
  have hp : (posD c + (if d = 0 then 1 else 7)) % 8 < 8 := Nat.mod_lt _ (by decide)
  rw [oCh_emb _ h r q ⟨rowAt c d (if d = 0 then 1 else 7) + r.val, by omega⟩ rfl rfl]
  unfold Res
  rw [hz, ResZ_at m (zD c / 2) _ q (zpD c) d ((posD c + (if d = 0 then 1 else 7)) % 8) r
    (by show (rowAt c d (if d = 0 then 1 else 7) + r.val) / 8192 = zpD c; unfold rowAt; omega)
    (by show (rowAt c d (if d = 0 then 1 else 7) + r.val) % 8192 / 4096 = d; unfold rowAt; omega)
    (by show (rowAt c d (if d = 0 then 1 else 7) + r.val) % 4096 / 512 = _; unfold rowAt; omega)
    (by show (rowAt c d (if d = 0 then 1 else 7) + r.val) % 512 = r.val; unfold rowAt; omega),
    owner_eq c d hd]

theorem land_done (c c' : Dev nD) (d : ℕ) (hd : d < 2) (hz : zD c' / 2 = zD c / 2) (off : Fin 2 → ℕ)
    (h : ∀ a, (![d, 6, 0, 0] : Fin 4 → ℕ) a + S1x1x512x1024.size a ≤ S2x7x512x1024.size a)
    (h' : ∀ a, off a + S512x1024.size a ≤ S16384x1024.size a)
    (hoff : off = ![rowAt c d (if d = 0 then 1 else 7), 0])
    (fd : Buf (Elt F) ((oCh off h').view.loc (c' : Thread nD τ))) :
    ∀ i ∈ (oCh off h').view.set,
      (oCh off h').view.write (Elt F) fd ((cSl d 6 h).view.read (Elt F) (CommAcc m c)) Finset.univ i = Res m c' i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show CommAcc m c ((cSl d 6 h).view.emb (ix2 r q)) = Res m c' ((oCh off h').view.emb (ix2 r q))
  rw [Res_at_done m c c' d hd hz off h' hoff r q, cSl_emb d 6 h r q ⟨d, hd⟩ ⟨6, by decide⟩ rfl rfl]
  rfl

theorem land_done_ent (c c' : Dev nD) (d : ℕ) (hd : d < 2) (hz : zD c' / 2 = zD c / 2) (off : Fin 2 → ℕ)
    (h : ∀ a, (![d, 6, 0, 0] : Fin 4 → ℕ) a + S1x1x512x1024.size a ≤ S2x7x512x1024.size a)
    (h' : ∀ a, off a + S512x1024.size a ≤ S16384x1024.size a)
    (hoff : off = ![rowAt c d (if d = 0 then 1 else 7), 0])
    (fd : Buf (Elt F) ((oCh off h').view.loc (c' : Thread nD τ))) :
    (rpts c' (oCh off h') fullShare
        ((oCh off h').view.write (Elt F) fd ((cSl d 6 h).view.read (Elt F) (CommAcc m c)) Finset.univ) : sProp 𝕄)
      ⊢ rpts c' (oCh off h') fullShare (Res m c') :=
  Entails.of_eq (BI.Region.is_congr (land_done m c c' d hd hz off h h' hoff fd))

/-! ## The local copies: the device's own chunk into the staging buffer -/

theorem land_stage (c : Dev nD) (d t : ℕ) (hd : d < 2) (off : Fin 2 → ℕ)
    (h : ∀ a, off a + S512x1024.size a ≤ S16384x1024.size a) (hoff : off = ![rowAt c d (back d (t + 1)), 0])
    (h' : ∀ a, (![d, 0, 0] : Fin 3 → ℕ) a + S1x512x1024.size a ≤ S2x512x1024.size a)
    (fd : Buf (Elt F) ((sSl d h').view.loc (c : Thread nD τ))) :
    ∀ i ∈ (sSl d h').view.set,
      (sSl d h').view.write (Elt F) fd ((xCh off h).view.read (Elt F) (X m c)) Finset.univ i = StageAt m c t i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show X m c ((xCh off h).view.emb (ix2 r q)) = StageAt m c t ((sSl d h').view.emb (ix2 r q))
  rw [X_at_chunk m c off h d (back d (t + 1)) hd hoff r q, sSl_emb d h' r q ⟨d, hd⟩ rfl]
  rfl

theorem land_stage_ent (c : Dev nD) (d t : ℕ) (hd : d < 2) (off : Fin 2 → ℕ)
    (h : ∀ a, off a + S512x1024.size a ≤ S16384x1024.size a) (hoff : off = ![rowAt c d (back d (t + 1)), 0])
    (h' : ∀ a, (![d, 0, 0] : Fin 3 → ℕ) a + S1x512x1024.size a ≤ S2x512x1024.size a)
    (fd : Buf (Elt F) ((sSl d h').view.loc (c : Thread nD τ))) :
    (rpts c (sSl d h') fullShare
        ((sSl d h').view.write (Elt F) fd ((xCh off h).view.read (Elt F) (X m c)) Finset.univ) : sProp 𝕄)
      ⊢ rpts c (sSl d h') fullShare (StageAt m c t) :=
  Entails.of_eq (BI.Region.is_congr (land_stage m c d t hd off h hoff h' fd))

/-! ## The update of a slot

  The program loads the slot and the staging slot as arrays of shape 1×1×512×1024 and 1×512×1024, drops the unit
  axes, adds (halving as the step says), puts the unit axes back and stores. Under the re-indexing that drops the
  unit axes every payload of the program is one of the two step functions. -/

omit m in
/-- A chunk re-indexed as a 1×1×512×1024 array. -/
def up4 (a : FVec F S512x1024 .f32) : Vec F S1x1x512x1024 .f32 := fun i => a (ix2 (i 2) (i 3))
omit m in
/-- A chunk re-indexed as a 1×512×1024 array. -/
def up3 (b : FVec F S512x1024 .f32) : Vec F S1x512x1024 .f32 := fun i => b (ix2 (i 1) (i 2))

omit m in
theorem cast_up4 (a : FVec F S512x1024 .f32) (h : S1x1x512x1024.ShapeCasts S512x1024) :
    shapeCast S512x1024 (up4 a) h = a := by
  funext j
  obtain ⟨x, y, rfl⟩ : ∃ (x : Fin 512) (y : Fin 1024), j = ix2 x y := ⟨j 0, j 1, eq_ix2 j⟩
  exact shapeCast_apply (up4 a) h _ (ix4 (⟨0, Nat.one_pos⟩ : Fin 1) (⟨0, Nat.one_pos⟩ : Fin 1) x y) (by
    rw [Shape.rowMajor_val_four, Shape.rowMajor_val_two]
    show ((0 * 1 + 0) * 512 + x.val) * 1024 + y.val = x.val * 1024 + y.val
    omega)

omit m in
theorem cast_up3 (b : FVec F S512x1024 .f32) (h : S1x512x1024.ShapeCasts S512x1024) :
    shapeCast S512x1024 (up3 b) h = b := by
  funext j
  obtain ⟨x, y, rfl⟩ : ∃ (x : Fin 512) (y : Fin 1024), j = ix2 x y := ⟨j 0, j 1, eq_ix2 j⟩
  exact shapeCast_apply (up3 b) h _ (ix3 (⟨0, Nat.one_pos⟩ : Fin 1) x y) (by
    rw [Shape.rowMajor_val_three, Shape.rowMajor_val_two]
    show (0 * 512 + x.val) * 1024 + y.val = x.val * 1024 + y.val
    omega)

omit m in
theorem cast_to4 (v : FVec F S512x1024 .f32) (h : S512x1024.ShapeCasts S1x1x512x1024) :
    shapeCast S1x1x512x1024 v h = up4 v := by
  funext i
  have h0 : (i 0).val < 1 := (i 0).isLt
  have h1 : (i 1).val < 1 := (i 1).isLt
  exact shapeCast_apply v h i (ix2 (i 2) (i 3)) (by
    rw [Shape.rowMajor_val_four, Shape.rowMajor_val_two]
    show (i 2).val * 1024 + (i 3).val = (((i 0).val * 1 + (i 1).val) * 512 + (i 2).val) * 1024 + (i 3).val
    omega)

section Payloads
omit m

theorem pay1_eq (a b : FVec F S512x1024 .f32) : k0_pay1 (up4 a) (up3 b) = up4 (stepA a b) := by
  show shapeCast S1x1x512x1024 (mulf (addf (shapeCast S512x1024 (up4 a) _) (shapeCast S512x1024 (up3 b) _))
    (broadcast S512x1024 (Scalar.ofBits .f32 0x3F000000#32))) _ = _
  rw [cast_up4, cast_up3, cast_to4]
  rfl

theorem pay2_eq (a b : FVec F S512x1024 .f32) : k0_pay2 (up4 a) (up3 b) = up4 (stepA a b) := by
  show shapeCast S1x1x512x1024 (mulf (addf (shapeCast S512x1024 (up4 a) _) (shapeCast S512x1024 (up3 b) _))
    (broadcast S512x1024 (Scalar.ofBits .f32 0x3F000000#32))) _ = _
  rw [cast_up4, cast_up3, cast_to4]
  rfl
theorem pay3_eq (a b : FVec F S512x1024 .f32) : k0_pay3 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay4_eq (a b : FVec F S512x1024 .f32) : k0_pay4 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay5_eq (a b : FVec F S512x1024 .f32) : k0_pay5 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay6_eq (a b : FVec F S512x1024 .f32) : k0_pay6 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay7_eq (a b : FVec F S512x1024 .f32) : k0_pay7 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay8_eq (a b : FVec F S512x1024 .f32) : k0_pay8 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay9_eq (a b : FVec F S512x1024 .f32) : k0_pay9 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay10_eq (a b : FVec F S512x1024 .f32) : k0_pay10 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay13_eq (a b : FVec F S512x1024 .f32) : k0_pay13 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay16_eq (a b : FVec F S512x1024 .f32) : k0_pay16 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl
theorem pay11_eq (a : FVec F S512x1024 .f32) : k0_pay11 (up4 a) = a := cast_up4 a _

theorem pay12_eq (a b : FVec F S512x1024 .f32) : k0_pay12 a (up3 b) = up4 (stepB a b) := by
  show shapeCast S1x1x512x1024 (addf a (mulf (shapeCast S512x1024 (up3 b) _)
    (broadcast S512x1024 (Scalar.ofBits .f32 0x3F000000#32)))) _ = _
  rw [cast_up3, cast_to4]
  rfl

theorem pay14_eq (a : FVec F S512x1024 .f32) : k0_pay14 (up4 a) = a := cast_up4 a _

theorem pay15_eq (a b : FVec F S512x1024 .f32) : k0_pay15 a (up3 b) = up4 (stepB a b) := by
  show shapeCast S1x1x512x1024 (addf a (mulf (shapeCast S512x1024 (up3 b) _)
    (broadcast S512x1024 (Scalar.ofBits .f32 0x3F000000#32)))) _ = _
  rw [cast_up3, cast_to4]
  rfl

end Payloads

/-! ### The loads -/

omit m in
/-- The load rectangle of slot (d, s) puts (u, v, r, q) at (d, s, r, q). -/
theorem cAcc_emb (d s : ℕ) (h : ∀ a, (![d, s, 0, 0] : Fin 4 → ℕ) a + S1x1x512x1024.size a ≤ S2x7x512x1024.size a)
    (u v : Fin 1) (r : Fin 512) (q : Fin 1024) (D : Fin 2) (Sx : Fin 7) (hD : D.val = d) (hS : Sx.val = s) :
    (cM.access (Rect.unit (s := S2x7x512x1024) ![d, s, 0, 0] S1x1x512x1024.size h)).emb (ix4 u v r q) = ix4 D Sx r q := by
  have hu := u.isLt
  have hv := v.isLt
  funext a
  refine Fin.ext ?_
  match a with
  | ⟨0, _⟩ => show d + 1 * u.val = D.val; omega
  | ⟨1, _⟩ => show s + 1 * v.val = Sx.val; omega
  | ⟨2, _⟩ => show 0 + 1 * r.val = r.val; omega
  | ⟨3, _⟩ => show 0 + 1 * q.val = q.val; omega

omit m in
/-- The load rectangle of staging slot d puts (u, r, q) at (d, r, q). -/
theorem sAcc_emb (d : ℕ) (h : ∀ a, (![d, 0, 0] : Fin 3 → ℕ) a + S1x512x1024.size a ≤ S2x512x1024.size a)
    (u : Fin 1) (r : Fin 512) (q : Fin 1024) (D : Fin 2) (hD : D.val = d) :
    (sM.access (Rect.unit (s := S2x512x1024) ![d, 0, 0] S1x512x1024.size h)).emb (ix3 u r q) = ix3 D r q := by
  have hu := u.isLt
  funext a
  refine Fin.ext ?_
  match a with
  | ⟨0, _⟩ => show d + 1 * u.val = D.val; omega
  | ⟨1, _⟩ => show 0 + 1 * r.val = r.val; omega
  | ⟨2, _⟩ => show 0 + 1 * q.val = q.val; omega

/-- The load of slot (d, s) from contents that hold what arrived there. -/
theorem load_slot (c : Dev nD) (d s : ℕ) (hd : d < 2) (hs : s < 7)
    (h : ∀ a, (![d, s, 0, 0] : Fin 4 → ℕ) a + S1x1x512x1024.size a ≤ S2x7x512x1024.size a)
    (fC : Buf (Elt F) ((c : Thread nD τ).loc cc0_scratch0))
    (hC : ∀ i ∈ (cM.access (Rect.unit (s := S2x7x512x1024) ![d, s, 0, 0] S1x1x512x1024.size h)).set, fC i = CommIn m c i) :
    (cM.access (Rect.unit (s := S2x7x512x1024) ![d, s, 0, 0] S1x1x512x1024.size h)).read (Elt F) fC = up4 (arr m d s c) := by
  funext i
  obtain ⟨u, v, r, q, rfl⟩ : ∃ (u v : Fin 1) (r : Fin 512) (q : Fin 1024), i = ix4 u v r q := ⟨i 0, i 1, i 2, i 3, eq_ix4 i⟩
  show fC ((cM.access (Rect.unit (s := S2x7x512x1024) ![d, s, 0, 0] S1x1x512x1024.size h)).emb (ix4 u v r q)) = _
  rw [hC _ (View.emb_mem_set _ _), cAcc_emb d s h u v r q ⟨d, hd⟩ ⟨s, hs⟩ rfl rfl]
  rfl

/-- The load of staging slot d from contents that hold the device's own chunk of step t. -/
theorem load_stage (c : Dev nD) (d t : ℕ) (hd : d < 2)
    (h : ∀ a, (![d, 0, 0] : Fin 3 → ℕ) a + S1x512x1024.size a ≤ S2x512x1024.size a)
    (fS : Buf (Elt F) ((c : Thread nD τ).loc cc0_scratch1))
    (hS : ∀ i ∈ (sM.access (Rect.unit (s := S2x512x1024) ![d, 0, 0] S1x512x1024.size h)).set, fS i = StageAt m c t i) :
    (sM.access (Rect.unit (s := S2x512x1024) ![d, 0, 0] S1x512x1024.size h)).read (Elt F) fS
      = up3 (xc m c d (back d (t + 1))) := by
  funext i
  obtain ⟨u, r, q, rfl⟩ : ∃ (u : Fin 1) (r : Fin 512) (q : Fin 1024), i = ix3 u r q := ⟨i 0, i 1, i 2, eq_ix3 i⟩
  show fS ((sM.access (Rect.unit (s := S2x512x1024) ![d, 0, 0] S1x512x1024.size h)).emb (ix3 u r q)) = _
  rw [hS _ (View.emb_mem_set _ _), sAcc_emb d h u r q ⟨d, hd⟩ rfl]
  rfl

/-! ### The store -/

/-- First step: the slot (d, 0), holding what arrived, updated by a payload that is the first step function. -/
theorem upd_first (c : Dev nD) (d : ℕ) (hd : d < 2)
    (h : ∀ a, (![d, 0, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepA a b))
    (fC : Buf (Elt F) ((c : Thread nD τ).loc cc0_scratch0)) (fS : Buf (Elt F) ((c : Thread nD τ).loc cc0_scratch1))
    (hC : ∀ i ∈ (cM.access (Rect.unit (s := S2x7x512x1024) ![d, 0, 0, 0] S1x1x512x1024.size h)).set, fC i = CommIn m c i)
    (hS : ∀ i ∈ (sM.access (Rect.unit (s := S2x512x1024) ![d, 0, 0] S1x512x1024.size h3)).set, fS i = StageAt m c 0 i) :
    ∀ i ∈ (cM.access (Rect.unit (s := S2x7x512x1024) ![d, 0, 0, 0] S1x1x512x1024.size h)).set,
      (cM.access (Rect.unit (s := S2x7x512x1024) ![d, 0, 0, 0] S1x1x512x1024.size h)).write (Elt F) fC
        (P ((cM.access (Rect.unit (s := S2x7x512x1024) ![d, 0, 0, 0] S1x1x512x1024.size h)).read (Elt F) fC)
           ((sM.access (Rect.unit (s := S2x512x1024) ![d, 0, 0] S1x512x1024.size h3)).read (Elt F) fS)) Finset.univ i
        = CommAcc m c i := by
  intro i hi
  obtain ⟨y, rfl⟩ := View.exists_emb_of_mem_set _ hi
  rw [View.write_emb_of_mem _ _ (Finset.mem_univ y), load_slot m c d 0 hd (by decide) h fC hC,
    load_stage m c d 0 hd h3 fS hS, hP]
  obtain ⟨u, v, r, q, rfl⟩ : ∃ (u v : Fin 1) (r : Fin 512) (q : Fin 1024), y = ix4 u v r q := ⟨y 0, y 1, y 2, y 3, eq_ix4 y⟩
  rw [cAcc_emb d 0 h u v r q ⟨d, hd⟩ ⟨0, by decide⟩ rfl rfl]
  rfl

/-- Later steps: the slot (d, s + 1), holding what arrived, updated by a payload that is the later step function. -/
theorem upd_later (c : Dev nD) (d s : ℕ) (hd : d < 2) (hs : s + 1 < 7)
    (h : ∀ a, (![d, s + 1, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepB a b))
    (fC : Buf (Elt F) ((c : Thread nD τ).loc cc0_scratch0)) (fS : Buf (Elt F) ((c : Thread nD τ).loc cc0_scratch1))
    (hC : ∀ i ∈ (cM.access (Rect.unit (s := S2x7x512x1024) ![d, s + 1, 0, 0] S1x1x512x1024.size h)).set, fC i = CommIn m c i)
    (hS : ∀ i ∈ (sM.access (Rect.unit (s := S2x512x1024) ![d, 0, 0] S1x512x1024.size h3)).set, fS i = StageAt m c (s + 1) i) :
    ∀ i ∈ (cM.access (Rect.unit (s := S2x7x512x1024) ![d, s + 1, 0, 0] S1x1x512x1024.size h)).set,
      (cM.access (Rect.unit (s := S2x7x512x1024) ![d, s + 1, 0, 0] S1x1x512x1024.size h)).write (Elt F) fC
        (P ((cM.access (Rect.unit (s := S2x7x512x1024) ![d, s + 1, 0, 0] S1x1x512x1024.size h)).read (Elt F) fC)
           ((sM.access (Rect.unit (s := S2x512x1024) ![d, 0, 0] S1x512x1024.size h3)).read (Elt F) fS)) Finset.univ i
        = CommAcc m c i := by
  intro i hi
  obtain ⟨y, rfl⟩ := View.exists_emb_of_mem_set _ hi
  rw [View.write_emb_of_mem _ _ (Finset.mem_univ y), load_slot m c d (s + 1) hd hs h fC hC,
    load_stage m c d (s + 1) hd h3 fS hS, hP]
  obtain ⟨u, v, r, q, rfl⟩ : ∃ (u v : Fin 1) (r : Fin 512) (q : Fin 1024), y = ix4 u v r q := ⟨y 0, y 1, y 2, y 3, eq_ix4 y⟩
  rw [cAcc_emb d (s + 1) h u v r q ⟨d, hd⟩ ⟨s + 1, hs⟩ rfl rfl]
  rfl

/-- `upd_first` at the named contents, as an entailment between the two points-to assertions of the slot's region. -/
theorem upd_first_ent (c : Dev nD) (d : ℕ) (hd : d < 2)
    (h : ∀ a, (![d, 0, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepA a b)) :
    (((cM.access (Rect.unit (s := S2x7x512x1024) ![d, 0, 0, 0] S1x1x512x1024.size h)).loc (c : Thread nD τ)) ↦[(cM.access (Rect.unit (s := S2x7x512x1024) ![d, 0, 0, 0] S1x1x512x1024.size h)).set]{fullShare}
        ((cM.access (Rect.unit (s := S2x7x512x1024) ![d, 0, 0, 0] S1x1x512x1024.size h)).write (Elt F) (CommIn m c)
          (P ((cM.access (Rect.unit (s := S2x7x512x1024) ![d, 0, 0, 0] S1x1x512x1024.size h)).read (Elt F) (CommIn m c)) ((sM.access (Rect.unit (s := S2x512x1024) ![d, 0, 0] S1x512x1024.size h3)).read (Elt F) (StageAt m c 0))) Finset.univ) : sProp 𝕄)
      ⊢ ((cM.access (Rect.unit (s := S2x7x512x1024) ![d, 0, 0, 0] S1x1x512x1024.size h)).loc (c : Thread nD τ)) ↦[(cM.access (Rect.unit (s := S2x7x512x1024) ![d, 0, 0, 0] S1x1x512x1024.size h)).set]{fullShare} (CommAcc m c) :=
  Entails.of_eq (BI.Region.is_congr (upd_first m c d hd h h3 P hP (CommIn m c) (StageAt m c 0)
    (fun _ _ => rfl) (fun _ _ => rfl)))

/-- `upd_later` at the named contents, as an entailment between the two points-to assertions of the slot's region. -/
theorem upd_later_ent (c : Dev nD) (d s : ℕ) (hd : d < 2) (hs : s + 1 < 7)
    (h : ∀ a, (![d, s + 1, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepB a b)) :
    (((cM.access (Rect.unit (s := S2x7x512x1024) ![d, s + 1, 0, 0] S1x1x512x1024.size h)).loc (c : Thread nD τ)) ↦[(cM.access (Rect.unit (s := S2x7x512x1024) ![d, s + 1, 0, 0] S1x1x512x1024.size h)).set]{fullShare}
        ((cM.access (Rect.unit (s := S2x7x512x1024) ![d, s + 1, 0, 0] S1x1x512x1024.size h)).write (Elt F) (CommIn m c)
          (P ((cM.access (Rect.unit (s := S2x7x512x1024) ![d, s + 1, 0, 0] S1x1x512x1024.size h)).read (Elt F) (CommIn m c)) ((sM.access (Rect.unit (s := S2x512x1024) ![d, 0, 0] S1x512x1024.size h3)).read (Elt F) (StageAt m c (s + 1)))) Finset.univ) : sProp 𝕄)
      ⊢ ((cM.access (Rect.unit (s := S2x7x512x1024) ![d, s + 1, 0, 0] S1x1x512x1024.size h)).loc (c : Thread nD τ)) ↦[(cM.access (Rect.unit (s := S2x7x512x1024) ![d, s + 1, 0, 0] S1x1x512x1024.size h)).set]{fullShare} (CommAcc m c) :=
  Entails.of_eq (BI.Region.is_congr (upd_later m c d s hd hs h h3 P hP (CommIn m c) (StageAt m c (s + 1))
    (fun _ _ => rfl) (fun _ _ => rfl)))

/-- info: 'Cert.KernelIdeal.Vals.land_done' depends on axioms: [propext, Classical.choice, Quot.sound] -/
#guard_msgs in #print axioms land_done

/-- info: 'Cert.KernelIdeal.Vals.upd_later' depends on axioms: [propext, Classical.choice, Quot.sound] -/
#guard_msgs in #print axioms upd_later

end Cert.KernelIdeal.Vals

end
-- ==== Proof.HalfSum.lean ====
/-
  Arithmetic on the extended reals for the later algebra. The word of 0.5 denotes the real 1/2 and the zero word
  denotes 0; and a left-nested sum of eight finite terms each multiplied by 1/2 (the first two added before the
  multiplication) is half the real sum, a finite number.
-/
import Idealize.ShloMosaic.PureOps.Ideal.Laws
import Mathlib.Data.EReal.Basic
import Mathlib.Tactic.Ring
import Mathlib.Algebra.BigOperators.Fin
import Mathlib.Tactic.NormNum

noncomputable section

namespace Cert.HalfSum

open Idealize.ShloMosaic

/-- The word of 0.5 denotes the real 1/2. -/
theorem half_eq : Ideal.ofBits .f32 0x3F000000#32 = ((1 / 2 : ℝ) : EReal) := by
  simp [Ideal.ofBits, Ideal.ieee, -EReal.coe_mul]; norm_num

/-- The zero word denotes 0. -/
theorem zero_eq : Ideal.ofBits .f32 0x00000000#32 = (0 : EReal) := Ideal.ofBits_zero_f32

/-- Eight finite terms, the first two added, everything halved term by term and summed from the left: half the real
    sum. -/
theorem half_sum8 (a0 a1 a2 a3 a4 a5 a6 a7 : ℝ) :
    (((a0 : EReal) + (a1 : EReal)) * ((1 / 2 : ℝ) : EReal) + (a2 : EReal) * ((1 / 2 : ℝ) : EReal)
        + (a3 : EReal) * ((1 / 2 : ℝ) : EReal) + (a4 : EReal) * ((1 / 2 : ℝ) : EReal)
        + (a5 : EReal) * ((1 / 2 : ℝ) : EReal) + (a6 : EReal) * ((1 / 2 : ℝ) : EReal)
        + (a7 : EReal) * ((1 / 2 : ℝ) : EReal))
      = (((a0 + a1 + a2 + a3 + a4 + a5 + a6 + a7) / 2 : ℝ) : EReal) := by
  simp only [← EReal.coe_add, ← EReal.coe_mul]
  exact congrArg _ (by ring)

/-- Zero plus the sum over four finite terms is the real sum. -/
theorem zero_add_sum4 (x : Fin 4 → ℝ) :
    (0 : EReal) + ∑ k : Fin 4, ((x k : ℝ) : EReal) = ((x 0 + x 1 + x 2 + x 3 : ℝ) : EReal) := by
  rw [Fin.sum_univ_four, zero_add]
  simp only [← EReal.coe_add]

/-- Eight finite terms in which every one of four values occurs twice, halved term by term as in `half_sum8`: zero
    plus the sum of the four values, whatever the order of the eight (`hperm`: the real sums agree). -/
theorem half_sum8_eq_sum4 (a0 a1 a2 a3 a4 a5 a6 a7 : ℝ) (x : Fin 4 → ℝ)
    (hsum : a0 + a1 + a2 + a3 + a4 + a5 + a6 + a7 = 2 * (x 0 + x 1 + x 2 + x 3)) :
    (((a0 : EReal) + (a1 : EReal)) * ((1 / 2 : ℝ) : EReal) + (a2 : EReal) * ((1 / 2 : ℝ) : EReal)
        + (a3 : EReal) * ((1 / 2 : ℝ) : EReal) + (a4 : EReal) * ((1 / 2 : ℝ) : EReal)
        + (a5 : EReal) * ((1 / 2 : ℝ) : EReal) + (a6 : EReal) * ((1 / 2 : ℝ) : EReal)
        + (a7 : EReal) * ((1 / 2 : ℝ) : EReal))
      = (0 : EReal) + ∑ k : Fin 4, ((x k : ℝ) : EReal) := by
  rw [half_sum8, zero_add_sum4, hsum]
  exact congrArg _ (by ring)

/-! ## Around the ring of eight -/

/-- The block a ring position holds: positions 0, 1, 2, 3 hold blocks 0, 1, 2, 3 and positions 4, 5, 6, 7 hold
    blocks 3, 2, 1, 0. -/
def ringY (p : Fin 8) : Fin 4 :=
  ⟨if p.val < 4 then p.val else 7 - p.val, by have hp := p.isLt; split <;> omega⟩

theorem ringY_val (p : Fin 8) : (ringY p).val = if p.val < 4 then p.val else 7 - p.val := rfl

/-- Once around the ring, in any order, every block is met twice. -/
theorem sum_ring (y : Fin 4 → ℝ) (σ : Equiv.Perm (Fin 8)) :
    ∑ p : Fin 8, y (ringY (σ p)) = 2 * (y 0 + y 1 + y 2 + y 3) := by
  rw [Equiv.sum_comp σ (fun p => y (ringY p)), Fin.sum_univ_eight]
  have e0 : ringY 0 = 0 := by decide
  have e1 : ringY 1 = 1 := by decide
  have e2 : ringY 2 = 2 := by decide
  have e3 : ringY 3 = 3 := by decide
  have e4 : ringY 4 = 3 := by decide
  have e5 : ringY 5 = 2 := by decide
  have e6 : ringY 6 = 1 := by decide
  have e7 : ringY 7 = 0 := by decide
  rw [e0, e1, e2, e3, e4, e5, e6, e7]
  ring

/-- Half the sum once around the ring, in any order, is zero plus the sum of the four blocks. -/
theorem sum_pairs (y : Fin 4 → ℝ) (f : Fin 8 → ℝ) (hf : ∀ p, f p = y (ringY p)) (σ : Equiv.Perm (Fin 8)) :
    (((∑ p : Fin 8, f (σ p)) / 2 : ℝ) : EReal) = (0 : EReal) + ∑ k : Fin 4, ((y k : ℝ) : EReal) := by
  rw [zero_add_sum4]
  simp only [hf]
  rw [sum_ring]
  exact congrArg _ (by ring)

/-- The eight-term halved sum of `half_sum8` whose terms are the blocks met once around the ring, in any order: zero
    plus the sum of the four blocks. -/
theorem half_sum8_ring (y : Fin 4 → ℝ) (σ : Equiv.Perm (Fin 8)) (a : Fin 8 → ℝ) (ha : ∀ p, a p = y (ringY (σ p))) :
    (((a 0 : EReal) + (a 1 : EReal)) * ((1 / 2 : ℝ) : EReal) + (a 2 : EReal) * ((1 / 2 : ℝ) : EReal)
        + (a 3 : EReal) * ((1 / 2 : ℝ) : EReal) + (a 4 : EReal) * ((1 / 2 : ℝ) : EReal)
        + (a 5 : EReal) * ((1 / 2 : ℝ) : EReal) + (a 6 : EReal) * ((1 / 2 : ℝ) : EReal)
        + (a 7 : EReal) * ((1 / 2 : ℝ) : EReal))
      = (0 : EReal) + ∑ k : Fin 4, ((y k : ℝ) : EReal) := by
  rw [half_sum8, ← Fin.sum_univ_eight a, ← sum_pairs y (fun p => y (ringY p)) (fun _ => rfl) σ]
  simp only [ha]

/-- info: 'Cert.HalfSum.half_sum8_ring' depends on axioms: [propext, Classical.choice, Quot.sound] -/
#guard_msgs in #print axioms half_sum8_ring

/-- info: 'Cert.HalfSum.half_sum8' depends on axioms: [propext, Classical.choice, Quot.sound] -/
#guard_msgs in #print axioms half_sum8

/-- info: 'Cert.HalfSum.half_eq' depends on axioms: [propext, Classical.choice, Quot.sound] -/
#guard_msgs in #print axioms half_eq

end Cert.HalfSum

end
-- ==== Proof.Finite.lean ====
/-
  Finiteness. The precondition says of a device's block that every entry's absolute value is below +∞; on the
  extended reals that means every entry is a real number.
-/
import proofs.«900727_g7700000000000728_dist_ar_v7x_xyz2x4x4_y_m16384_n1024_f32_1_alg».proof.Proof.Gen.Pre_finite_inputs_Kernel
import Idealize.ShloMosaic.Lib.ReduceAll
import Idealize.ShloMosaic.PureOps.Ideal.Laws

noncomputable section

namespace Cert.Finite

open Idealize.ShloMosaic

/-- The scalar shape has one index. -/
instance : Subsingleton Cert.Pre_finite_inputs_Kernel.S_.Idx := ⟨fun _ _ => funext fun d => d.elim0⟩

/-- The word of +∞ denotes ⊤. -/
theorem inf_eq : Ideal.ofBits .f32 0x7F800000#32 = (⊤ : EReal) := by
  simp [Ideal.ofBits, Ideal.ieee]

/-- An extended real whose absolute value `max x (-x)` is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A block of which the precondition holds has only real entries. -/
theorem finite_of_pre (B : FVec Ideal Cert.Pre_finite_inputs_Kernel.S16384x1024 .f32)
    (h : Cert.Pre_finite_inputs_Kernel.fn (F := Ideal) B = fun _ => 1#1) :
    ∀ i, ∃ r : ℝ, B i = (r : EReal) := by
  intro i
  have h0 := congrFun h (fun a => a.elim0)
  dsimp only [Cert.Pre_finite_inputs_Kernel.fn] at h0
  have h1 := Host.reduce_andi_all _ _ _ _ _ h0 i
  have h2 : Ideal.cmp .olt (max (B i) (-(B i))) (Ideal.ofBits .f32 0x7F800000#32) = 1#1 := h1
  rw [inf_eq] at h2
  refine real_of_abs_lt_top (B i) ?_
  by_contra hn
  simp [Ideal.cmp, hn] at h2

/-- info: 'Cert.Finite.finite_of_pre' depends on axioms: [propext, Classical.choice, Quot.sound] -/
#guard_msgs in #print axioms finite_of_pre

end Cert.Finite

end
-- ==== Proof.Final.lean ====
/-
  The result is the reference's value. Device c's block is block y of the whole array, y its coordinate on the
  mesh axis the array is cut along. Every entry of the result array is the eight-term halved sum, taken around
  the ring of the entry's owner, of the eight devices' entries at the same row and column; the ring meets every
  block twice, all entries are real numbers, and so the halved sum is zero plus the sum of the four blocks'
  entries, which is what the reference computes.
-/
import proofs.«900727_g7700000000000728_dist_ar_v7x_xyz2x4x4_y_m16384_n1024_f32_1_alg».proof.Proof.ValLemmas
import proofs.«900727_g7700000000000728_dist_ar_v7x_xyz2x4x4_y_m16384_n1024_f32_1_alg».proof.Proof.RefSide
import proofs.«900727_g7700000000000728_dist_ar_v7x_xyz2x4x4_y_m16384_n1024_f32_1_alg».proof.Proof.HalfSum
import proofs.«900727_g7700000000000728_dist_ar_v7x_xyz2x4x4_y_m16384_n1024_f32_1_alg».proof.Proof.Finite
import Idealize.ShloMosaic.Lib.Layout
import Mathlib.Algebra.Group.Fin.Basic

noncomputable section

namespace Cert.KernelIdeal.Final

open Cert.KernelIdeal Cert.KernelIdeal.Gen Cert.KernelIdeal.Ring Cert.KernelIdeal.Cells Cert.KernelIdeal.Vals

open Idealize.ShloMosaic
open Idealize.ShloMosaic.TcCoe
open Idealize.ShloMosaic.ValueIdx
open Idealize.SL.Sem
open Cert.RefSide (blockRow refVal)
open Cert.HalfSum (ringY)
open scoped BigOperators

/-! ## A device's block of the whole array -/

/-- A device's coordinate on the mesh axis the array is cut along. -/
def yOf (c : Dev nD) : ℕ := (c.val / 4) % 4

theorem yOf_lt (c : Dev nD) : yOf c < 4 := Nat.mod_lt _ (by decide)

/-- Device c's block of the whole array W, read at an index: block `yOf c` of rows. -/
theorem block_apply (W : (⟨Cert.ReferenceIdeal.S65536x1024, .f32⟩ : BufTy).Contents (Elt Ideal)) (c : Dev nD)
    (R : Fin 16384) (q : Fin 1024) (Y : Fin 4) (hY : yOf c = Y.val) :
    (Layout.blockN ⟨2, ![16384, 1024]⟩ ⟨2, ![65536, 1024]⟩ (Layout.meshBlock [2, 4, 4] ![[1], []] c) W) (ix2 R q)
      = W (ix2 (blockRow Y R) q) := by
  show W _ = W _
  refine congrArg W (funext fun b => Fin.ext ?_)
  match b with
  | ⟨0, _⟩ =>
    show ((c.val / (4 * 1)) % 4 * 1 + 0) * 16384 + R.val = Y.val * 16384 + R.val
    rw [← hY]; unfold yOf; omega
  | ⟨1, _⟩ =>
    show 0 * 1024 + q.val = q.val
    omega

/-! ## The owner's ring -/

/-- The order in which the ring positions are met, starting from the chunk's own position: ascending in direction
    0, descending in direction 1. -/
def visit (d : Fin 2) (qq : Fin 8) : Equiv.Perm (Fin 8) := if d = 0 then Equiv.addLeft qq else Equiv.subLeft qq

/-- Around the owner's ring: the device that contributes the k-th summand holds, at the step's shift, the chunk of
    the owner's half, direction and ring position, and its block is the one at ring position `visit d qq k`. -/
theorem ring_facts : ∀ (zz p d : Fin 2) (qq : Fin 8),
    (rowAt (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val)))))))) d.val 0 = p.val * 8192 + d.val * 4096 + qq.val * 512
      ∧ yOf (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val)))))))) = (ringY (visit d qq 0)).val)
    ∧ (rowAt (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val))))))) d.val (back d.val 1) = p.val * 8192 + d.val * 4096 + qq.val * 512
      ∧ yOf (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val))))))) = (ringY (visit d qq 1)).val)
    ∧ (rowAt (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val)))))) d.val (back d.val 2) = p.val * 8192 + d.val * 4096 + qq.val * 512
      ∧ yOf (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val)))))) = (ringY (visit d qq 2)).val)
    ∧ (rowAt (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val))))) d.val (back d.val 3) = p.val * 8192 + d.val * 4096 + qq.val * 512
      ∧ yOf (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val))))) = (ringY (visit d qq 3)).val)
    ∧ (rowAt (fromD ⟨d.val % 2, Nat.mod_lt _ (by decide)⟩ (fromD ⟨d.val % 2, Nat.mod_lt _ (by decide)⟩ (fromD ⟨d.val % 2, Nat.mod_lt _ (by decide)⟩ (owner zz.val p.val d.val qq.val)))) d.val (back d.val 4) = p.val * 8192 + d.val * 4096 + qq.val * 512
      ∧ yOf (fromD ⟨d.val % 2, Nat.mod_lt _ (by decide)⟩ (fromD ⟨d.val % 2, Nat.mod_lt _ (by decide)⟩ (fromD ⟨d.val % 2, Nat.mod_lt _ (by decide)⟩ (owner zz.val p.val d.val qq.val)))) = (ringY (visit d qq 4)).val)
    ∧ (rowAt (fromD ⟨d.val % 2, Nat.mod_lt _ (by decide)⟩ (fromD ⟨d.val % 2, Nat.mod_lt _ (by decide)⟩ (owner zz.val p.val d.val qq.val))) d.val (back d.val 5) = p.val * 8192 + d.val * 4096 + qq.val * 512
      ∧ yOf (fromD ⟨d.val % 2, Nat.mod_lt _ (by decide)⟩ (fromD ⟨d.val % 2, Nat.mod_lt _ (by decide)⟩ (owner zz.val p.val d.val qq.val))) = (ringY (visit d qq 5)).val)
    ∧ (rowAt (fromD ⟨d.val % 2, Nat.mod_lt _ (by decide)⟩ (owner zz.val p.val d.val qq.val)) d.val (back d.val 6) = p.val * 8192 + d.val * 4096 + qq.val * 512
      ∧ yOf (fromD ⟨d.val % 2, Nat.mod_lt _ (by decide)⟩ (owner zz.val p.val d.val qq.val)) = (ringY (visit d qq 6)).val)
    ∧ (rowAt (owner zz.val p.val d.val qq.val) d.val (back d.val 7) = p.val * 8192 + d.val * 4096 + qq.val * 512
      ∧ yOf (owner zz.val p.val d.val qq.val) = (ringY (visit d qq 7)).val) := by
  decide +kernel

/-- The last slot, updated, at an index: the eight-term halved sum around the ring. -/
theorem acc6_apply (m : (ℓ : Loc nD τ sig) → Buf (Elt Ideal) ℓ) (d : ℕ) (o : Dev nD) (f : Dev nD → Dev nD)
    (hf : f = fromD ⟨d % 2, Nat.mod_lt _ (by decide)⟩) (j : S512x1024.Idx) :
    acc (F := Ideal) m d 6 o j
      = (xc m (f (f (f (f (f (f (f o))))))) d 0 j + xc m (f (f (f (f (f (f o)))))) d (back d 1) j) * Ideal.ofBits .f32 0x3F000000#32 + xc m (f (f (f (f (f o))))) d (back d 2) j * Ideal.ofBits .f32 0x3F000000#32 + xc m (f (f (f (f o)))) d (back d 3) j * Ideal.ofBits .f32 0x3F000000#32 + xc m (f (f (f o))) d (back d 4) j * Ideal.ofBits .f32 0x3F000000#32 + xc m (f (f o)) d (back d 5) j * Ideal.ofBits .f32 0x3F000000#32 + xc m (f o) d (back d 6) j * Ideal.ofBits .f32 0x3F000000#32 + xc m o d (back d 7) j * Ideal.ofBits .f32 0x3F000000#32 := by
  subst hf
  rfl

/-! ## The result at an index -/

/-- A device's own chunk at an index is an entry of its block of the whole array. -/
theorem xc_at (m : (ℓ : Loc Cert.KernelIdeal.nD Cert.KernelIdeal.τ Cert.KernelIdeal.sig) → Buf (Elt Ideal) ℓ) (W : (⟨Cert.ReferenceIdeal.S65536x1024, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.blockN ⟨2, ![16384, 1024]⟩ ⟨2, ![65536, 1024]⟩ (Layout.meshBlock [2, 4, 4] ![[1], []] c) W)
    (c' : Dev nD) (d j' : ℕ) (r : Fin 512) (q : Fin 1024) (R : Fin 16384) (hrow : rowAt c' d j' + r.val = R.val)
    (Y : Fin 4) (hY : yOf c' = Y.val) :
    xc (F := Ideal) m c' d j' (ix2 r q) = W (ix2 (blockRow Y R) q) := by
  have hR : (⟨(rowAt c' d j' + r.val) % 16384, Nat.mod_lt _ (by decide)⟩ : Fin 16384) = R :=
    Fin.ext (by show (rowAt c' d j' + r.val) % 16384 = R.val; rw [hrow]; exact Nat.mod_eq_of_lt R.isLt)
  show m ((c' : Thread nD τ).loc main_arg0) (ix2 (⟨(rowAt c' d j' + r.val) % 16384, Nat.mod_lt _ (by decide)⟩ : Fin 16384) q) = _
  rw [hR]
  exact (congrFun (hagree c') (ix2 R q)).trans (block_apply W c' R q Y hY)

/-- The result array at an index, when the four blocks' entries there are the reals `yk`: zero plus their sum. -/
theorem res_apply (m : (ℓ : Loc Cert.KernelIdeal.nD Cert.KernelIdeal.τ Cert.KernelIdeal.sig) → Buf (Elt Ideal) ℓ) (W : (⟨Cert.ReferenceIdeal.S65536x1024, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.blockN ⟨2, ![16384, 1024]⟩ ⟨2, ![65536, 1024]⟩ (Layout.meshBlock [2, 4, 4] ![[1], []] c) W)
    (c : Dev nD) (R : Fin 16384) (q : Fin 1024) (yk : Fin 4 → ℝ)
    (hy : ∀ k : Fin 4, W (ix2 (blockRow k R) q) = ((yk k : ℝ) : EReal)) :
    Res (F := Ideal) m c (ix2 R q) = (0 : EReal) + ∑ k : Fin 4, ((yk k : ℝ) : EReal) := by
  have hR := R.isLt
  have hz : zD c / 2 < 2 := by unfold zD; omega
  obtain ⟨zz, hzz⟩ : ∃ zz : Fin 2, zz.val = zD c / 2 := ⟨⟨zD c / 2, hz⟩, rfl⟩
  obtain ⟨p, hp⟩ : ∃ p : Fin 2, p.val = R.val / 8192 := ⟨⟨R.val / 8192, by omega⟩, rfl⟩
  obtain ⟨d, hd⟩ : ∃ d : Fin 2, d.val = R.val % 8192 / 4096 := ⟨⟨R.val % 8192 / 4096, by omega⟩, rfl⟩
  obtain ⟨qq, hqq⟩ : ∃ qq : Fin 8, qq.val = R.val % 4096 / 512 := ⟨⟨R.val % 4096 / 512, by omega⟩, rfl⟩
  obtain ⟨r, hr⟩ : ∃ r : Fin 512, r.val = R.val % 512 := ⟨⟨R.val % 512, Nat.mod_lt _ (by decide)⟩, rfl⟩
  have hrow : p.val * 8192 + d.val * 4096 + qq.val * 512 + r.val = R.val := by omega
  have hres : Res (F := Ideal) m c (ix2 R q) = acc (F := Ideal) m d.val 6 (owner zz.val p.val d.val qq.val) (ix2 r q) := by
    unfold Res
    rw [ResZ_at m (zD c / 2) R q p.val d.val qq.val r hp.symm hd.symm hqq.symm hr.symm, hzz]
  obtain ⟨⟨h0r, h0y⟩, ⟨h1r, h1y⟩, ⟨h2r, h2y⟩, ⟨h3r, h3y⟩, ⟨h4r, h4y⟩, ⟨h5r, h5y⟩, ⟨h6r, h6y⟩, ⟨h7r, h7y⟩⟩ := ring_facts zz p d qq
  have e0 : xc (F := Ideal) m (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val)))))))) d.val 0 (ix2 r q)
      = ((yk (ringY (visit d qq 0)) : ℝ) : EReal) :=
    (xc_at m W hagree _ d.val 0 r q R (by rw [h0r]; exact hrow) (ringY (visit d qq 0)) h0y).trans (hy _)
  have e1 : xc (F := Ideal) m (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val))))))) d.val (back d.val 1) (ix2 r q)
      = ((yk (ringY (visit d qq 1)) : ℝ) : EReal) :=
    (xc_at m W hagree _ d.val (back d.val 1) r q R (by rw [h1r]; exact hrow) (ringY (visit d qq 1)) h1y).trans (hy _)
  have e2 : xc (F := Ideal) m (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val)))))) d.val (back d.val 2) (ix2 r q)
      = ((yk (ringY (visit d qq 2)) : ℝ) : EReal) :=
    (xc_at m W hagree _ d.val (back d.val 2) r q R (by rw [h2r]; exact hrow) (ringY (visit d qq 2)) h2y).trans (hy _)
  have e3 : xc (F := Ideal) m (fromD ⟨d.val % 2, Nat.mod_lt _ (by decide)⟩ (fromD ⟨d.val % 2, Nat.mod_lt _ (by decide)⟩ (fromD ⟨d.val % 2, Nat.mod_lt _ (by decide)⟩ (fromD ⟨d.val % 2, Nat.mod_lt _ (by decide)⟩ (owner zz.val p.val d.val qq.val))))) d.val (back d.val 3) (ix2 r q)
      = ((yk (ringY (visit d qq 3)) : ℝ) : EReal) :=
    (xc_at m W hagree _ d.val (back d.val 3) r q R (by rw [h3r]; exact hrow) (ringY (visit d qq 3)) h3y).trans (hy _)
  have e4 : xc (F := Ideal) m (fromD ⟨d.val % 2, Nat.mod_lt _ (by decide)⟩ (fromD ⟨d.val % 2, Nat.mod_lt _ (by decide)⟩ (fromD ⟨d.val % 2, Nat.mod_lt _ (by decide)⟩ (owner zz.val p.val d.val qq.val)))) d.val (back d.val 4) (ix2 r q)
      = ((yk (ringY (visit d qq 4)) : ℝ) : EReal) :=
    (xc_at m W hagree _ d.val (back d.val 4) r q R (by rw [h4r]; exact hrow) (ringY (visit d qq 4)) h4y).trans (hy _)
  have e5 : xc (F := Ideal) m (fromD ⟨d.val % 2, Nat.mod_lt _ (by decide)⟩ (fromD ⟨d.val % 2, Nat.mod_lt _ (by decide)⟩ (owner zz.val p.val d.val qq.val))) d.val (back d.val 5) (ix2 r q)
      = ((yk (ringY (visit d qq 5)) : ℝ) : EReal) :=
    (xc_at m W hagree _ d.val (back d.val 5) r q R (by rw [h5r]; exact hrow) (ringY (visit d qq 5)) h5y).trans (hy _)
  have e6 : xc (F := Ideal) m (fromD ⟨d.val % 2, Nat.mod_lt _ (by decide)⟩ (owner zz.val p.val d.val qq.val)) d.val (back d.val 6) (ix2 r q)
      = ((yk (ringY (visit d qq 6)) : ℝ) : EReal) :=
    (xc_at m W hagree _ d.val (back d.val 6) r q R (by rw [h6r]; exact hrow) (ringY (visit d qq 6)) h6y).trans (hy _)
  have e7 : xc (F := Ideal) m (owner zz.val p.val d.val qq.val) d.val (back d.val 7) (ix2 r q)
      = ((yk (ringY (visit d qq 7)) : ℝ) : EReal) :=
    (xc_at m W hagree _ d.val (back d.val 7) r q R (by rw [h7r]; exact hrow) (ringY (visit d qq 7)) h7y).trans (hy _)
  rw [hres, acc6_apply m d.val _ _ rfl, e0, e1, e2, e3, e4, e5, e6, e7, Cert.HalfSum.half_eq]
  exact Cert.HalfSum.half_sum8_ring yk (visit d qq) (fun k => yk (ringY (visit d qq k))) (fun _ => rfl)

/-! ## The result is the reference's value -/

theorem res_eq_ref (m : (ℓ : Loc Cert.KernelIdeal.nD Cert.KernelIdeal.τ Cert.KernelIdeal.sig) → Buf (Elt Ideal) ℓ) (W : (⟨Cert.ReferenceIdeal.S65536x1024, .f32⟩ : BufTy).Contents (Elt Ideal))
    (hpre : Cert.Pre_KernelIdeal m)
    (hagree : ∀ c : Dev Cert.KernelIdeal.nD,
      m ((c.tc : Thread Cert.KernelIdeal.nD Cert.KernelIdeal.τ).loc Cert.KernelIdeal.main_arg0)
        = Layout.blockN ⟨2, ![16384, 1024]⟩ ⟨2, ![65536, 1024]⟩ (Layout.meshBlock [2, 4, 4] ![[1], []] c) W) :
    ∀ c : Dev Cert.KernelIdeal.nD, Res (F := Ideal) m c = refVal W := by
  intro c
  funext i
  obtain ⟨R, q, rfl⟩ : ∃ (R : Fin 16384) (q : Fin 1024), i = ix2 R q := ⟨i 0, i 1, eq_ix2 i⟩
  have hfin : ∀ k : Fin 4, ∃ y : ℝ, W (ix2 (blockRow k R) q) = ((y : ℝ) : EReal) := by
    intro k
    have hk := k.isLt
    obtain ⟨c', hc'⟩ : ∃ c' : Dev nD, c'.val = 4 * k.val := ⟨⟨4 * k.val, by show 4 * k.val < 32; omega⟩, rfl⟩
    obtain ⟨y, hy⟩ := Cert.Finite.finite_of_pre (m ((c' : Thread nD τ).loc main_arg0)) (hpre c') (ix2 R q)
    refine ⟨y, ?_⟩
    rw [← hy]
    exact ((congrFun (hagree c') (ix2 R q)).trans
      (block_apply W c' R q k (by unfold yOf; rw [hc']; omega))).symm
  choose yk hy using hfin
  rw [res_apply m W hagree c R q yk hy, Cert.RefSide.refVal_apply]
  simp only [hy]

/-- info: 'Cert.KernelIdeal.Final.res_eq_ref' depends on axioms: [propext, Classical.choice, Quot.sound] -/
#guard_msgs in #print axioms res_eq_ref

end Cert.KernelIdeal.Final

end
-- ==== Proof.State.lean ====
/-
  What a device holds when its body begins, beside its buffers: the invariants of its own 91 cells and of the 47
  cells of its three peers that it pays into; its position at the start of each of its own cells; that the first
  round of its own cells and of its peers' barrier cells is reached; one token for each duty it pays (3 barrier
  signals, 28 ring copies, 16 copies to its partner on the receivers' cells; its own 44 departure cells and the
  16 rounds of its two local cells); and the credit of what its peers will pay into its own cells.
  What it owes at launch is the sum of the amounts of the 47 duties it pays into OTHER devices' cells, written so
  that the duty paid first is the last summand.
-/
import proofs.«900727_g7700000000000728_dist_ar_v7x_xyz2x4x4_y_m16384_n1024_f32_1_alg».proof.Proof.Sched

set_option maxRecDepth 16384

noncomputable section

namespace Cert.KernelIdeal.State

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The cells of one device, numbered: 0 the barrier, i + 1 the DMA semaphore i. -/
abbrev csem (j : Fin 91) : SemLoc sig := if h : j.val = 0 then .reg barS else .dma ⟨j.val - 1, by have := j.isLt; show j.val - 1 < 90; omega⟩
abbrev kcell (cj : Dev nD × Fin 91) : GSem nD τ sig := ((cj.1 : Thread nD τ), csem cj.2)

/-- The invariants device c's body opens. -/
def invs (K : Dev nD × Fin 91 → ℕ) (c : Dev nD) : sProp 𝕄 :=
    iprop(cellInv (ER (F := F)) (sched m) (K (c, 0)) (barCell c)
      ∗ cellInv (ER (F := F)) (sched m) (K (c, 1)) (dcell c 0)
      ∗ cellInv (ER (F := F)) (sched m) (K (c, 2)) (dcell c 1)
      ∗ cellInv (ER (F := F)) (sched m) (K (c, 3)) (dcell c 2)
      ∗ cellInv (ER (F := F)) (sched m) (K (c, 4)) (dcell c 3)
      ∗ cellInv (ER (F := F)) (sched m) (K (c, 5)) (dcell c 4)
      ∗ cellInv (ER (F := F)) (sched m) (K (c, 6)) (dcell c 5)
      ∗ cellInv (ER (F := F)) (sched m) (K (c, 7)) (dcell c 6)
      ∗ cellInv (ER (F := F)) (sched m) (K (c, 8)) (dcell c 7)
      ∗ cellInv (ER (F := F)) (sched m) (K (c, 9)) (dcell c 8)
      ∗ cellInv (ER (F := F)) (sched m) (K (c, 10)) (dcell c 9)
      ∗ cellInv (ER (F := F)) (sched m) (K (c, 11)) (dcell c 10)
      ∗ cellInv (ER (F := F)) (sched m) (K (c, 12)) (dcell c 11)
      ∗ cellInv (ER (F := F)) (sched m) (K (c, 13)) (dcell c 12)
      ∗ cellInv (ER (F := F)) (sched m) (K (c, 14)) (dcell c 13)
      ∗ cellInv (ER (F := F)) (sched m) (K (c, 15)) (dcell c 14)
      ∗ cellInv (ER (F := F)) (sched m) (K (c, 16)) (dcell c 15)
      ∗ cellInv (ER (F := F)) (sched m) (K (c, 17)) (dcell c 16)
      ∗ cellInv (ER (F := F)) (sched m) (K (c, 18)) (dcell c 17)
      ∗ cellInv (ER (F := F)) (sched m) (K (c, 19)) (dcell c 18)
      ∗ cellInv (ER (F := F)) (sched m) (K (c, 20)) (dcell c 19)
      ∗ cellInv (ER (F := F)) (sched m) (K (c, 21)) (dcell c 20)
      ∗ cellInv (ER (F := F)) (sched m) (K (c, 22)) (dcell c 21)
      ∗ cellInv (ER (F := F)) (sched m) (K (c, 23)) (dcell c 22)
      ∗ cellInv (ER (F := F)) (sched m) (K (c, 24)) (dcell c 23)
      ∗ cellInv (ER (F := F)) (sched m) (K (c, 25)) (dcell c 24)
      ∗ cellInv (ER (F := F)) (sched m) (K (c, 26)) (dcell c 25)
      ∗ cellInv (ER (F := F)) (sched m) (K (c, 27)) (dcell c 26)
      ∗ cellInv (ER (F := F)) (sched m) (K (c, 28)) (dcell c 27)
      ∗ cellInv (ER (F := F)) (sched m) (K (c, 29)) (dcell c 28)
      ∗ cellInv (ER (F := F)) (sched m) (K (c, 30)) (dcell c 29)
      ∗ cellInv (ER (F := F)) (sched m) (K (c, 31)) (dcell c 30)
      ∗ cellInv (ER (F := F)) (sched m) (K (c, 32)) (dcell c 31)
      ∗ cellInv (ER (F := F)) (sched m) (K (c, 33)) (dcell c 32)
      ∗ cellInv (ER (F := F)) (sched m) (K (c, 34)) (dcell c 33)
      ∗ cellInv (ER (F := F)) (sched m) (K (c, 35)) (dcell c 34)
      ∗ cellInv (ER (F := F)) (sched m) (K (c, 36)) (dcell c 35)
      ∗ cellInv (ER (F := F)) (sched m) (K (c, 37)) (dcell c 36)
      ∗ cellInv (ER (F := F)) (sched m) (K (c, 38)) (dcell c 37)
      ∗ cellInv (ER (F := F)) (sched m) (K (c, 39)) (dcell c 38)
      ∗ cellInv (ER (F := F)) (sched m) (K (c, 40)) (dcell c 39)
      ∗ cellInv (ER (F := F)) (sched m) (K (c, 41)) (dcell c 40)
      ∗ cellInv (ER (F := F)) (sched m) (K (c, 42)) (dcell c 41)
      ∗ cellInv (ER (F := F)) (sched m) (K (c, 43)) (dcell c 42)
      ∗ cellInv (ER (F := F)) (sched m) (K (c, 44)) (dcell c 43)
      ∗ cellInv (ER (F := F)) (sched m) (K (c, 45)) (dcell c 44)
      ∗ cellInv (ER (F := F)) (sched m) (K (c, 46)) (dcell c 45)
      ∗ cellInv (ER (F := F)) (sched m) (K (c, 47)) (dcell c 46)
      ∗ cellInv (ER (F := F)) (sched m) (K (c, 48)) (dcell c 47)
      ∗ cellInv (ER (F := F)) (sched m) (K (c, 49)) (dcell c 48)
      ∗ cellInv (ER (F := F)) (sched m) (K (c, 50)) (dcell c 49)
      ∗ cellInv (ER (F := F)) (sched m) (K (c, 51)) (dcell c 50)
      ∗ cellInv (ER (F := F)) (sched m) (K (c, 52)) (dcell c 51)
      ∗ cellInv (ER (F := F)) (sched m) (K (c, 53)) (dcell c 52)
      ∗ cellInv (ER (F := F)) (sched m) (K (c, 54)) (dcell c 53)
      ∗ cellInv (ER (F := F)) (sched m) (K (c, 55)) (dcell c 54)
      ∗ cellInv (ER (F := F)) (sched m) (K (c, 56)) (dcell c 55)
      ∗ cellInv (ER (F := F)) (sched m) (K (c, 57)) (dcell c 56)
      ∗ cellInv (ER (F := F)) (sched m) (K (c, 58)) (dcell c 57)
      ∗ cellInv (ER (F := F)) (sched m) (K (c, 59)) (dcell c 58)
      ∗ cellInv (ER (F := F)) (sched m) (K (c, 60)) (dcell c 59)
      ∗ cellInv (ER (F := F)) (sched m) (K (c, 61)) (dcell c 60)
      ∗ cellInv (ER (F := F)) (sched m) (K (c, 62)) (dcell c 61)
      ∗ cellInv (ER (F := F)) (sched m) (K (c, 63)) (dcell c 62)
      ∗ cellInv (ER (F := F)) (sched m) (K (c, 64)) (dcell c 63)
      ∗ cellInv (ER (F := F)) (sched m) (K (c, 65)) (dcell c 64)
      ∗ cellInv (ER (F := F)) (sched m) (K (c, 66)) (dcell c 65)
      ∗ cellInv (ER (F := F)) (sched m) (K (c, 67)) (dcell c 66)
      ∗ cellInv (ER (F := F)) (sched m) (K (c, 68)) (dcell c 67)
      ∗ cellInv (ER (F := F)) (sched m) (K (c, 69)) (dcell c 68)
      ∗ cellInv (ER (F := F)) (sched m) (K (c, 70)) (dcell c 69)
      ∗ cellInv (ER (F := F)) (sched m) (K (c, 71)) (dcell c 70)
      ∗ cellInv (ER (F := F)) (sched m) (K (c, 72)) (dcell c 71)
      ∗ cellInv (ER (F := F)) (sched m) (K (c, 73)) (dcell c 72)
      ∗ cellInv (ER (F := F)) (sched m) (K (c, 74)) (dcell c 73)
      ∗ cellInv (ER (F := F)) (sched m) (K (c, 75)) (dcell c 74)
      ∗ cellInv (ER (F := F)) (sched m) (K (c, 76)) (dcell c 75)
      ∗ cellInv (ER (F := F)) (sched m) (K (c, 77)) (dcell c 76)
      ∗ cellInv (ER (F := F)) (sched m) (K (c, 78)) (dcell c 77)
      ∗ cellInv (ER (F := F)) (sched m) (K (c, 79)) (dcell c 78)
      ∗ cellInv (ER (F := F)) (sched m) (K (c, 80)) (dcell c 79)
      ∗ cellInv (ER (F := F)) (sched m) (K (c, 81)) (dcell c 80)
      ∗ cellInv (ER (F := F)) (sched m) (K (c, 82)) (dcell c 81)
      ∗ cellInv (ER (F := F)) (sched m) (K (c, 83)) (dcell c 82)
      ∗ cellInv (ER (F := F)) (sched m) (K (c, 84)) (dcell c 83)
      ∗ cellInv (ER (F := F)) (sched m) (K (c, 85)) (dcell c 84)
      ∗ cellInv (ER (F := F)) (sched m) (K (c, 86)) (dcell c 85)
      ∗ cellInv (ER (F := F)) (sched m) (K (c, 87)) (dcell c 86)
      ∗ cellInv (ER (F := F)) (sched m) (K (c, 88)) (dcell c 87)
      ∗ cellInv (ER (F := F)) (sched m) (K (c, 89)) (dcell c 88)
      ∗ cellInv (ER (F := F)) (sched m) (K (c, 90)) (dcell c 89)
      ∗ cellInv (ER (F := F)) (sched m) (K ((succD c), 0)) (barCell (succD c))
      ∗ cellInv (ER (F := F)) (sched m) (K ((predD c), 0)) (barCell (predD c))
      ∗ cellInv (ER (F := F)) (sched m) (K ((partD c), 0)) (barCell (partD c))
      ∗ cellInv (ER (F := F)) (sched m) (K ((succD c), 29)) (dcell (succD c) 28)
      ∗ cellInv (ER (F := F)) (sched m) (K ((succD c), 30)) (dcell (succD c) 29)
      ∗ cellInv (ER (F := F)) (sched m) (K ((succD c), 31)) (dcell (succD c) 30)
      ∗ cellInv (ER (F := F)) (sched m) (K ((succD c), 32)) (dcell (succD c) 31)
      ∗ cellInv (ER (F := F)) (sched m) (K ((succD c), 33)) (dcell (succD c) 32)
      ∗ cellInv (ER (F := F)) (sched m) (K ((succD c), 34)) (dcell (succD c) 33)
      ∗ cellInv (ER (F := F)) (sched m) (K ((succD c), 35)) (dcell (succD c) 34)
      ∗ cellInv (ER (F := F)) (sched m) (K ((succD c), 36)) (dcell (succD c) 35)
      ∗ cellInv (ER (F := F)) (sched m) (K ((succD c), 37)) (dcell (succD c) 36)
      ∗ cellInv (ER (F := F)) (sched m) (K ((succD c), 38)) (dcell (succD c) 37)
      ∗ cellInv (ER (F := F)) (sched m) (K ((succD c), 39)) (dcell (succD c) 38)
      ∗ cellInv (ER (F := F)) (sched m) (K ((succD c), 40)) (dcell (succD c) 39)
      ∗ cellInv (ER (F := F)) (sched m) (K ((succD c), 41)) (dcell (succD c) 40)
      ∗ cellInv (ER (F := F)) (sched m) (K ((succD c), 42)) (dcell (succD c) 41)
      ∗ cellInv (ER (F := F)) (sched m) (K ((predD c), 43)) (dcell (predD c) 42)
      ∗ cellInv (ER (F := F)) (sched m) (K ((predD c), 44)) (dcell (predD c) 43)
      ∗ cellInv (ER (F := F)) (sched m) (K ((predD c), 45)) (dcell (predD c) 44)
      ∗ cellInv (ER (F := F)) (sched m) (K ((predD c), 46)) (dcell (predD c) 45)
      ∗ cellInv (ER (F := F)) (sched m) (K ((predD c), 47)) (dcell (predD c) 46)
      ∗ cellInv (ER (F := F)) (sched m) (K ((predD c), 48)) (dcell (predD c) 47)
      ∗ cellInv (ER (F := F)) (sched m) (K ((predD c), 49)) (dcell (predD c) 48)
      ∗ cellInv (ER (F := F)) (sched m) (K ((predD c), 50)) (dcell (predD c) 49)
      ∗ cellInv (ER (F := F)) (sched m) (K ((predD c), 51)) (dcell (predD c) 50)
      ∗ cellInv (ER (F := F)) (sched m) (K ((predD c), 52)) (dcell (predD c) 51)
      ∗ cellInv (ER (F := F)) (sched m) (K ((predD c), 53)) (dcell (predD c) 52)
      ∗ cellInv (ER (F := F)) (sched m) (K ((predD c), 54)) (dcell (predD c) 53)
      ∗ cellInv (ER (F := F)) (sched m) (K ((predD c), 55)) (dcell (predD c) 54)
      ∗ cellInv (ER (F := F)) (sched m) (K ((predD c), 56)) (dcell (predD c) 55)
      ∗ cellInv (ER (F := F)) (sched m) (K ((partD c), 73)) (dcell (partD c) 72)
      ∗ cellInv (ER (F := F)) (sched m) (K ((partD c), 74)) (dcell (partD c) 73)
      ∗ cellInv (ER (F := F)) (sched m) (K ((partD c), 75)) (dcell (partD c) 74)
      ∗ cellInv (ER (F := F)) (sched m) (K ((partD c), 76)) (dcell (partD c) 75)
      ∗ cellInv (ER (F := F)) (sched m) (K ((partD c), 77)) (dcell (partD c) 76)
      ∗ cellInv (ER (F := F)) (sched m) (K ((partD c), 78)) (dcell (partD c) 77)
      ∗ cellInv (ER (F := F)) (sched m) (K ((partD c), 79)) (dcell (partD c) 78)
      ∗ cellInv (ER (F := F)) (sched m) (K ((partD c), 80)) (dcell (partD c) 79)
      ∗ cellInv (ER (F := F)) (sched m) (K ((partD c), 81)) (dcell (partD c) 80)
      ∗ cellInv (ER (F := F)) (sched m) (K ((partD c), 82)) (dcell (partD c) 81)
      ∗ cellInv (ER (F := F)) (sched m) (K ((partD c), 83)) (dcell (partD c) 82)
      ∗ cellInv (ER (F := F)) (sched m) (K ((partD c), 84)) (dcell (partD c) 83)
      ∗ cellInv (ER (F := F)) (sched m) (K ((partD c), 85)) (dcell (partD c) 84)
      ∗ cellInv (ER (F := F)) (sched m) (K ((partD c), 86)) (dcell (partD c) 85)
      ∗ cellInv (ER (F := F)) (sched m) (K ((partD c), 87)) (dcell (partD c) 86)
      ∗ cellInv (ER (F := F)) (sched m) (K ((partD c), 88)) (dcell (partD c) 87))
/-- Its positions: at the start of every cell of its own. -/
def poss (c : Dev nD) : sProp 𝕄 :=
    iprop(atPos (ER (F := F)) (barCell c) 0 ∅ 0
      ∗ atPos (ER (F := F)) (dcell c 0) 0 ∅ 0
      ∗ atPos (ER (F := F)) (dcell c 1) 0 ∅ 0
      ∗ atPos (ER (F := F)) (dcell c 2) 0 ∅ 0
      ∗ atPos (ER (F := F)) (dcell c 3) 0 ∅ 0
      ∗ atPos (ER (F := F)) (dcell c 4) 0 ∅ 0
      ∗ atPos (ER (F := F)) (dcell c 5) 0 ∅ 0
      ∗ atPos (ER (F := F)) (dcell c 6) 0 ∅ 0
      ∗ atPos (ER (F := F)) (dcell c 7) 0 ∅ 0
      ∗ atPos (ER (F := F)) (dcell c 8) 0 ∅ 0
      ∗ atPos (ER (F := F)) (dcell c 9) 0 ∅ 0
      ∗ atPos (ER (F := F)) (dcell c 10) 0 ∅ 0
      ∗ atPos (ER (F := F)) (dcell c 11) 0 ∅ 0
      ∗ atPos (ER (F := F)) (dcell c 12) 0 ∅ 0
      ∗ atPos (ER (F := F)) (dcell c 13) 0 ∅ 0
      ∗ atPos (ER (F := F)) (dcell c 14) 0 ∅ 0
      ∗ atPos (ER (F := F)) (dcell c 15) 0 ∅ 0
      ∗ atPos (ER (F := F)) (dcell c 16) 0 ∅ 0
      ∗ atPos (ER (F := F)) (dcell c 17) 0 ∅ 0
      ∗ atPos (ER (F := F)) (dcell c 18) 0 ∅ 0
      ∗ atPos (ER (F := F)) (dcell c 19) 0 ∅ 0
      ∗ atPos (ER (F := F)) (dcell c 20) 0 ∅ 0
      ∗ atPos (ER (F := F)) (dcell c 21) 0 ∅ 0
      ∗ atPos (ER (F := F)) (dcell c 22) 0 ∅ 0
      ∗ atPos (ER (F := F)) (dcell c 23) 0 ∅ 0
      ∗ atPos (ER (F := F)) (dcell c 24) 0 ∅ 0
      ∗ atPos (ER (F := F)) (dcell c 25) 0 ∅ 0
      ∗ atPos (ER (F := F)) (dcell c 26) 0 ∅ 0
      ∗ atPos (ER (F := F)) (dcell c 27) 0 ∅ 0
      ∗ atPos (ER (F := F)) (dcell c 28) 0 ∅ 0
      ∗ atPos (ER (F := F)) (dcell c 29) 0 ∅ 0
      ∗ atPos (ER (F := F)) (dcell c 30) 0 ∅ 0
      ∗ atPos (ER (F := F)) (dcell c 31) 0 ∅ 0
      ∗ atPos (ER (F := F)) (dcell c 32) 0 ∅ 0
      ∗ atPos (ER (F := F)) (dcell c 33) 0 ∅ 0
      ∗ atPos (ER (F := F)) (dcell c 34) 0 ∅ 0
      ∗ atPos (ER (F := F)) (dcell c 35) 0 ∅ 0
      ∗ atPos (ER (F := F)) (dcell c 36) 0 ∅ 0
      ∗ atPos (ER (F := F)) (dcell c 37) 0 ∅ 0
      ∗ atPos (ER (F := F)) (dcell c 38) 0 ∅ 0
      ∗ atPos (ER (F := F)) (dcell c 39) 0 ∅ 0
      ∗ atPos (ER (F := F)) (dcell c 40) 0 ∅ 0
      ∗ atPos (ER (F := F)) (dcell c 41) 0 ∅ 0
      ∗ atPos (ER (F := F)) (dcell c 42) 0 ∅ 0
      ∗ atPos (ER (F := F)) (dcell c 43) 0 ∅ 0
      ∗ atPos (ER (F := F)) (dcell c 44) 0 ∅ 0
      ∗ atPos (ER (F := F)) (dcell c 45) 0 ∅ 0
      ∗ atPos (ER (F := F)) (dcell c 46) 0 ∅ 0
      ∗ atPos (ER (F := F)) (dcell c 47) 0 ∅ 0
      ∗ atPos (ER (F := F)) (dcell c 48) 0 ∅ 0
      ∗ atPos (ER (F := F)) (dcell c 49) 0 ∅ 0
      ∗ atPos (ER (F := F)) (dcell c 50) 0 ∅ 0
      ∗ atPos (ER (F := F)) (dcell c 51) 0 ∅ 0
      ∗ atPos (ER (F := F)) (dcell c 52) 0 ∅ 0
      ∗ atPos (ER (F := F)) (dcell c 53) 0 ∅ 0
      ∗ atPos (ER (F := F)) (dcell c 54) 0 ∅ 0
      ∗ atPos (ER (F := F)) (dcell c 55) 0 ∅ 0
      ∗ atPos (ER (F := F)) (dcell c 56) 0 ∅ 0
      ∗ atPos (ER (F := F)) (dcell c 57) 0 ∅ 0
      ∗ atPos (ER (F := F)) (dcell c 58) 0 ∅ 0
      ∗ atPos (ER (F := F)) (dcell c 59) 0 ∅ 0
      ∗ atPos (ER (F := F)) (dcell c 60) 0 ∅ 0
      ∗ atPos (ER (F := F)) (dcell c 61) 0 ∅ 0
      ∗ atPos (ER (F := F)) (dcell c 62) 0 ∅ 0
      ∗ atPos (ER (F := F)) (dcell c 63) 0 ∅ 0
      ∗ atPos (ER (F := F)) (dcell c 64) 0 ∅ 0
      ∗ atPos (ER (F := F)) (dcell c 65) 0 ∅ 0
      ∗ atPos (ER (F := F)) (dcell c 66) 0 ∅ 0
      ∗ atPos (ER (F := F)) (dcell c 67) 0 ∅ 0
      ∗ atPos (ER (F := F)) (dcell c 68) 0 ∅ 0
      ∗ atPos (ER (F := F)) (dcell c 69) 0 ∅ 0
      ∗ atPos (ER (F := F)) (dcell c 70) 0 ∅ 0
      ∗ atPos (ER (F := F)) (dcell c 71) 0 ∅ 0
      ∗ atPos (ER (F := F)) (dcell c 72) 0 ∅ 0
      ∗ atPos (ER (F := F)) (dcell c 73) 0 ∅ 0
      ∗ atPos (ER (F := F)) (dcell c 74) 0 ∅ 0
      ∗ atPos (ER (F := F)) (dcell c 75) 0 ∅ 0
      ∗ atPos (ER (F := F)) (dcell c 76) 0 ∅ 0
      ∗ atPos (ER (F := F)) (dcell c 77) 0 ∅ 0
      ∗ atPos (ER (F := F)) (dcell c 78) 0 ∅ 0
      ∗ atPos (ER (F := F)) (dcell c 79) 0 ∅ 0
      ∗ atPos (ER (F := F)) (dcell c 80) 0 ∅ 0
      ∗ atPos (ER (F := F)) (dcell c 81) 0 ∅ 0
      ∗ atPos (ER (F := F)) (dcell c 82) 0 ∅ 0
      ∗ atPos (ER (F := F)) (dcell c 83) 0 ∅ 0
      ∗ atPos (ER (F := F)) (dcell c 84) 0 ∅ 0
      ∗ atPos (ER (F := F)) (dcell c 85) 0 ∅ 0
      ∗ atPos (ER (F := F)) (dcell c 86) 0 ∅ 0
      ∗ atPos (ER (F := F)) (dcell c 87) 0 ∅ 0
      ∗ atPos (ER (F := F)) (dcell c 88) 0 ∅ 0
      ∗ atPos (ER (F := F)) (dcell c 89) 0 ∅ 0)
/-- The first round of its peers' barrier cells and of its own DMA cells is reached. -/
def reach (c : Dev nD) : sProp 𝕄 :=
    iprop(reached (ER (F := F)) (barCell (succD c)) 0
      ∗ reached (ER (F := F)) (barCell (predD c)) 0
      ∗ reached (ER (F := F)) (barCell (partD c)) 0
      ∗ reached (ER (F := F)) (dcell c 0) 0
      ∗ reached (ER (F := F)) (dcell c 1) 0
      ∗ reached (ER (F := F)) (dcell c 2) 0
      ∗ reached (ER (F := F)) (dcell c 3) 0
      ∗ reached (ER (F := F)) (dcell c 4) 0
      ∗ reached (ER (F := F)) (dcell c 5) 0
      ∗ reached (ER (F := F)) (dcell c 6) 0
      ∗ reached (ER (F := F)) (dcell c 7) 0
      ∗ reached (ER (F := F)) (dcell c 8) 0
      ∗ reached (ER (F := F)) (dcell c 9) 0
      ∗ reached (ER (F := F)) (dcell c 10) 0
      ∗ reached (ER (F := F)) (dcell c 11) 0
      ∗ reached (ER (F := F)) (dcell c 12) 0
      ∗ reached (ER (F := F)) (dcell c 13) 0
      ∗ reached (ER (F := F)) (dcell c 14) 0
      ∗ reached (ER (F := F)) (dcell c 15) 0
      ∗ reached (ER (F := F)) (dcell c 16) 0
      ∗ reached (ER (F := F)) (dcell c 17) 0
      ∗ reached (ER (F := F)) (dcell c 18) 0
      ∗ reached (ER (F := F)) (dcell c 19) 0
      ∗ reached (ER (F := F)) (dcell c 20) 0
      ∗ reached (ER (F := F)) (dcell c 21) 0
      ∗ reached (ER (F := F)) (dcell c 22) 0
      ∗ reached (ER (F := F)) (dcell c 23) 0
      ∗ reached (ER (F := F)) (dcell c 24) 0
      ∗ reached (ER (F := F)) (dcell c 25) 0
      ∗ reached (ER (F := F)) (dcell c 26) 0
      ∗ reached (ER (F := F)) (dcell c 27) 0
      ∗ reached (ER (F := F)) (dcell c 28) 0
      ∗ reached (ER (F := F)) (dcell c 29) 0
      ∗ reached (ER (F := F)) (dcell c 30) 0
      ∗ reached (ER (F := F)) (dcell c 31) 0
      ∗ reached (ER (F := F)) (dcell c 32) 0
      ∗ reached (ER (F := F)) (dcell c 33) 0
      ∗ reached (ER (F := F)) (dcell c 34) 0
      ∗ reached (ER (F := F)) (dcell c 35) 0
      ∗ reached (ER (F := F)) (dcell c 36) 0
      ∗ reached (ER (F := F)) (dcell c 37) 0
      ∗ reached (ER (F := F)) (dcell c 38) 0
      ∗ reached (ER (F := F)) (dcell c 39) 0
      ∗ reached (ER (F := F)) (dcell c 40) 0
      ∗ reached (ER (F := F)) (dcell c 41) 0
      ∗ reached (ER (F := F)) (dcell c 42) 0
      ∗ reached (ER (F := F)) (dcell c 43) 0
      ∗ reached (ER (F := F)) (dcell c 44) 0
      ∗ reached (ER (F := F)) (dcell c 45) 0
      ∗ reached (ER (F := F)) (dcell c 46) 0
      ∗ reached (ER (F := F)) (dcell c 47) 0
      ∗ reached (ER (F := F)) (dcell c 48) 0
      ∗ reached (ER (F := F)) (dcell c 49) 0
      ∗ reached (ER (F := F)) (dcell c 50) 0
      ∗ reached (ER (F := F)) (dcell c 51) 0
      ∗ reached (ER (F := F)) (dcell c 52) 0
      ∗ reached (ER (F := F)) (dcell c 53) 0
      ∗ reached (ER (F := F)) (dcell c 54) 0
      ∗ reached (ER (F := F)) (dcell c 55) 0
      ∗ reached (ER (F := F)) (dcell c 56) 0
      ∗ reached (ER (F := F)) (dcell c 57) 0
      ∗ reached (ER (F := F)) (dcell c 58) 0
      ∗ reached (ER (F := F)) (dcell c 59) 0
      ∗ reached (ER (F := F)) (dcell c 60) 0
      ∗ reached (ER (F := F)) (dcell c 61) 0
      ∗ reached (ER (F := F)) (dcell c 62) 0
      ∗ reached (ER (F := F)) (dcell c 63) 0
      ∗ reached (ER (F := F)) (dcell c 64) 0
      ∗ reached (ER (F := F)) (dcell c 65) 0
      ∗ reached (ER (F := F)) (dcell c 66) 0
      ∗ reached (ER (F := F)) (dcell c 67) 0
      ∗ reached (ER (F := F)) (dcell c 68) 0
      ∗ reached (ER (F := F)) (dcell c 69) 0
      ∗ reached (ER (F := F)) (dcell c 70) 0
      ∗ reached (ER (F := F)) (dcell c 71) 0
      ∗ reached (ER (F := F)) (dcell c 72) 0
      ∗ reached (ER (F := F)) (dcell c 73) 0
      ∗ reached (ER (F := F)) (dcell c 74) 0
      ∗ reached (ER (F := F)) (dcell c 75) 0
      ∗ reached (ER (F := F)) (dcell c 76) 0
      ∗ reached (ER (F := F)) (dcell c 77) 0
      ∗ reached (ER (F := F)) (dcell c 78) 0
      ∗ reached (ER (F := F)) (dcell c 79) 0
      ∗ reached (ER (F := F)) (dcell c 80) 0
      ∗ reached (ER (F := F)) (dcell c 81) 0
      ∗ reached (ER (F := F)) (dcell c 82) 0
      ∗ reached (ER (F := F)) (dcell c 83) 0
      ∗ reached (ER (F := F)) (dcell c 84) 0
      ∗ reached (ER (F := F)) (dcell c 85) 0
      ∗ reached (ER (F := F)) (dcell c 86) 0
      ∗ reached (ER (F := F)) (dcell c 87) 0
      ∗ reached (ER (F := F)) (dcell c 88) 0
      ∗ reached (ER (F := F)) (dcell c 89) 0)
/-- The tokens of the duties it pays. -/
def toks (c : Dev nD) : sProp 𝕄 :=
    iprop(dutyTok (ER (F := F)) (barCell (succD c)) 0 0
      ∗ dutyTok (ER (F := F)) (barCell (predD c)) 0 1
      ∗ dutyTok (ER (F := F)) (barCell (partD c)) 0 2
      ∗ dutyTok (ER (F := F)) (dcell (succD c) 28) 0 0
      ∗ dutyTok (ER (F := F)) (dcell (succD c) 29) 0 0
      ∗ dutyTok (ER (F := F)) (dcell (succD c) 30) 0 0
      ∗ dutyTok (ER (F := F)) (dcell (succD c) 31) 0 0
      ∗ dutyTok (ER (F := F)) (dcell (succD c) 32) 0 0
      ∗ dutyTok (ER (F := F)) (dcell (succD c) 33) 0 0
      ∗ dutyTok (ER (F := F)) (dcell (succD c) 34) 0 0
      ∗ dutyTok (ER (F := F)) (dcell (succD c) 35) 0 0
      ∗ dutyTok (ER (F := F)) (dcell (succD c) 36) 0 0
      ∗ dutyTok (ER (F := F)) (dcell (succD c) 37) 0 0
      ∗ dutyTok (ER (F := F)) (dcell (succD c) 38) 0 0
      ∗ dutyTok (ER (F := F)) (dcell (succD c) 39) 0 0
      ∗ dutyTok (ER (F := F)) (dcell (succD c) 40) 0 0
      ∗ dutyTok (ER (F := F)) (dcell (succD c) 41) 0 0
      ∗ dutyTok (ER (F := F)) (dcell (predD c) 42) 0 0
      ∗ dutyTok (ER (F := F)) (dcell (predD c) 43) 0 0
      ∗ dutyTok (ER (F := F)) (dcell (predD c) 44) 0 0
      ∗ dutyTok (ER (F := F)) (dcell (predD c) 45) 0 0
      ∗ dutyTok (ER (F := F)) (dcell (predD c) 46) 0 0
      ∗ dutyTok (ER (F := F)) (dcell (predD c) 47) 0 0
      ∗ dutyTok (ER (F := F)) (dcell (predD c) 48) 0 0
      ∗ dutyTok (ER (F := F)) (dcell (predD c) 49) 0 0
      ∗ dutyTok (ER (F := F)) (dcell (predD c) 50) 0 0
      ∗ dutyTok (ER (F := F)) (dcell (predD c) 51) 0 0
      ∗ dutyTok (ER (F := F)) (dcell (predD c) 52) 0 0
      ∗ dutyTok (ER (F := F)) (dcell (predD c) 53) 0 0
      ∗ dutyTok (ER (F := F)) (dcell (predD c) 54) 0 0
      ∗ dutyTok (ER (F := F)) (dcell (predD c) 55) 0 0
      ∗ dutyTok (ER (F := F)) (dcell (partD c) 72) 0 0
      ∗ dutyTok (ER (F := F)) (dcell (partD c) 73) 0 0
      ∗ dutyTok (ER (F := F)) (dcell (partD c) 74) 0 0
      ∗ dutyTok (ER (F := F)) (dcell (partD c) 75) 0 0
      ∗ dutyTok (ER (F := F)) (dcell (partD c) 76) 0 0
      ∗ dutyTok (ER (F := F)) (dcell (partD c) 77) 0 0
      ∗ dutyTok (ER (F := F)) (dcell (partD c) 78) 0 0
      ∗ dutyTok (ER (F := F)) (dcell (partD c) 79) 0 0
      ∗ dutyTok (ER (F := F)) (dcell (partD c) 80) 0 0
      ∗ dutyTok (ER (F := F)) (dcell (partD c) 81) 0 0
      ∗ dutyTok (ER (F := F)) (dcell (partD c) 82) 0 0
      ∗ dutyTok (ER (F := F)) (dcell (partD c) 83) 0 0
      ∗ dutyTok (ER (F := F)) (dcell (partD c) 84) 0 0
      ∗ dutyTok (ER (F := F)) (dcell (partD c) 85) 0 0
      ∗ dutyTok (ER (F := F)) (dcell (partD c) 86) 0 0
      ∗ dutyTok (ER (F := F)) (dcell (partD c) 87) 0 0
      ∗ dutyTok (ER (F := F)) (dcell c 0) 0 0
      ∗ dutyTok (ER (F := F)) (dcell c 1) 0 0
      ∗ dutyTok (ER (F := F)) (dcell c 2) 0 0
      ∗ dutyTok (ER (F := F)) (dcell c 3) 0 0
      ∗ dutyTok (ER (F := F)) (dcell c 4) 0 0
      ∗ dutyTok (ER (F := F)) (dcell c 5) 0 0
      ∗ dutyTok (ER (F := F)) (dcell c 6) 0 0
      ∗ dutyTok (ER (F := F)) (dcell c 7) 0 0
      ∗ dutyTok (ER (F := F)) (dcell c 8) 0 0
      ∗ dutyTok (ER (F := F)) (dcell c 9) 0 0
      ∗ dutyTok (ER (F := F)) (dcell c 10) 0 0
      ∗ dutyTok (ER (F := F)) (dcell c 11) 0 0
      ∗ dutyTok (ER (F := F)) (dcell c 12) 0 0
      ∗ dutyTok (ER (F := F)) (dcell c 13) 0 0
      ∗ dutyTok (ER (F := F)) (dcell c 14) 0 0
      ∗ dutyTok (ER (F := F)) (dcell c 15) 0 0
      ∗ dutyTok (ER (F := F)) (dcell c 16) 0 0
      ∗ dutyTok (ER (F := F)) (dcell c 17) 0 0
      ∗ dutyTok (ER (F := F)) (dcell c 18) 0 0
      ∗ dutyTok (ER (F := F)) (dcell c 19) 0 0
      ∗ dutyTok (ER (F := F)) (dcell c 20) 0 0
      ∗ dutyTok (ER (F := F)) (dcell c 21) 0 0
      ∗ dutyTok (ER (F := F)) (dcell c 22) 0 0
      ∗ dutyTok (ER (F := F)) (dcell c 23) 0 0
      ∗ dutyTok (ER (F := F)) (dcell c 24) 0 0
      ∗ dutyTok (ER (F := F)) (dcell c 25) 0 0
      ∗ dutyTok (ER (F := F)) (dcell c 26) 0 0
      ∗ dutyTok (ER (F := F)) (dcell c 27) 0 0
      ∗ dutyTok (ER (F := F)) (dcell c 56) 0 0
      ∗ dutyTok (ER (F := F)) (dcell c 57) 0 0
      ∗ dutyTok (ER (F := F)) (dcell c 58) 0 0
      ∗ dutyTok (ER (F := F)) (dcell c 59) 0 0
      ∗ dutyTok (ER (F := F)) (dcell c 60) 0 0
      ∗ dutyTok (ER (F := F)) (dcell c 61) 0 0
      ∗ dutyTok (ER (F := F)) (dcell c 62) 0 0
      ∗ dutyTok (ER (F := F)) (dcell c 63) 0 0
      ∗ dutyTok (ER (F := F)) (dcell c 64) 0 0
      ∗ dutyTok (ER (F := F)) (dcell c 65) 0 0
      ∗ dutyTok (ER (F := F)) (dcell c 66) 0 0
      ∗ dutyTok (ER (F := F)) (dcell c 67) 0 0
      ∗ dutyTok (ER (F := F)) (dcell c 68) 0 0
      ∗ dutyTok (ER (F := F)) (dcell c 69) 0 0
      ∗ dutyTok (ER (F := F)) (dcell c 70) 0 0
      ∗ dutyTok (ER (F := F)) (dcell c 71) 0 0
      ∗ dutyTok (ER (F := F)) (dcell c 88) 0 0
      ∗ dutyTok (ER (F := F)) (dcell c 88) 1 0
      ∗ dutyTok (ER (F := F)) (dcell c 88) 2 0
      ∗ dutyTok (ER (F := F)) (dcell c 88) 3 0
      ∗ dutyTok (ER (F := F)) (dcell c 88) 4 0
      ∗ dutyTok (ER (F := F)) (dcell c 88) 5 0
      ∗ dutyTok (ER (F := F)) (dcell c 88) 6 0
      ∗ dutyTok (ER (F := F)) (dcell c 88) 7 0
      ∗ dutyTok (ER (F := F)) (dcell c 89) 0 0
      ∗ dutyTok (ER (F := F)) (dcell c 89) 1 0
      ∗ dutyTok (ER (F := F)) (dcell c 89) 2 0
      ∗ dutyTok (ER (F := F)) (dcell c 89) 3 0
      ∗ dutyTok (ER (F := F)) (dcell c 89) 4 0
      ∗ dutyTok (ER (F := F)) (dcell c 89) 5 0
      ∗ dutyTok (ER (F := F)) (dcell c 89) 6 0
      ∗ dutyTok (ER (F := F)) (dcell c 89) 7 0)
/-- The credit of what its peers pay into its own cells. -/
def creds (c : Dev nD) : sProp 𝕄 :=
    iprop(cred (tallyAt (barCell c) () 3)
      ∗ cred (tallyAt (dcell c 28) () N)
      ∗ cred (tallyAt (dcell c 29) () N)
      ∗ cred (tallyAt (dcell c 30) () N)
      ∗ cred (tallyAt (dcell c 31) () N)
      ∗ cred (tallyAt (dcell c 32) () N)
      ∗ cred (tallyAt (dcell c 33) () N)
      ∗ cred (tallyAt (dcell c 34) () N)
      ∗ cred (tallyAt (dcell c 35) () N)
      ∗ cred (tallyAt (dcell c 36) () N)
      ∗ cred (tallyAt (dcell c 37) () N)
      ∗ cred (tallyAt (dcell c 38) () N)
      ∗ cred (tallyAt (dcell c 39) () N)
      ∗ cred (tallyAt (dcell c 40) () N)
      ∗ cred (tallyAt (dcell c 41) () N)
      ∗ cred (tallyAt (dcell c 42) () N)
      ∗ cred (tallyAt (dcell c 43) () N)
      ∗ cred (tallyAt (dcell c 44) () N)
      ∗ cred (tallyAt (dcell c 45) () N)
      ∗ cred (tallyAt (dcell c 46) () N)
      ∗ cred (tallyAt (dcell c 47) () N)
      ∗ cred (tallyAt (dcell c 48) () N)
      ∗ cred (tallyAt (dcell c 49) () N)
      ∗ cred (tallyAt (dcell c 50) () N)
      ∗ cred (tallyAt (dcell c 51) () N)
      ∗ cred (tallyAt (dcell c 52) () N)
      ∗ cred (tallyAt (dcell c 53) () N)
      ∗ cred (tallyAt (dcell c 54) () N)
      ∗ cred (tallyAt (dcell c 55) () N)
      ∗ cred (tallyAt (dcell c 72) () N)
      ∗ cred (tallyAt (dcell c 73) () N)
      ∗ cred (tallyAt (dcell c 74) () N)
      ∗ cred (tallyAt (dcell c 75) () N)
      ∗ cred (tallyAt (dcell c 76) () N)
      ∗ cred (tallyAt (dcell c 77) () N)
      ∗ cred (tallyAt (dcell c 78) () N)
      ∗ cred (tallyAt (dcell c 79) () N)
      ∗ cred (tallyAt (dcell c 80) () N)
      ∗ cred (tallyAt (dcell c 81) () N)
      ∗ cred (tallyAt (dcell c 82) () N)
      ∗ cred (tallyAt (dcell c 83) () N)
      ∗ cred (tallyAt (dcell c 84) () N)
      ∗ cred (tallyAt (dcell c 85) () N)
      ∗ cred (tallyAt (dcell c 86) () N)
      ∗ cred (tallyAt (dcell c 87) () N))
/-- What device c still owes before the j-th of its 47 payments into other devices' cells (in program order: the three barrier signals; per reduction step the two ring copies; the two first copies to the partner; per redistribution step the two ring copies then the two copies to the partner): owed_j = owed_(j+1) + the j-th amount. -/
@[reducible] def owed_47 (c : Dev nD) : CellTallies nD τ sig Unit := 0
@[reducible] def owed_46 (c : Dev nD) : CellTallies nD τ sig Unit := owed_47 c + tallyAt (dcell (partD c) 87) () N
@[reducible] def owed_45 (c : Dev nD) : CellTallies nD τ sig Unit := owed_46 c + tallyAt (dcell (partD c) 79) () N
@[reducible] def owed_44 (c : Dev nD) : CellTallies nD τ sig Unit := owed_45 c + tallyAt (dcell (predD c) 55) () N
@[reducible] def owed_43 (c : Dev nD) : CellTallies nD τ sig Unit := owed_44 c + tallyAt (dcell (succD c) 41) () N
@[reducible] def owed_42 (c : Dev nD) : CellTallies nD τ sig Unit := owed_43 c + tallyAt (dcell (partD c) 86) () N
@[reducible] def owed_41 (c : Dev nD) : CellTallies nD τ sig Unit := owed_42 c + tallyAt (dcell (partD c) 78) () N
@[reducible] def owed_40 (c : Dev nD) : CellTallies nD τ sig Unit := owed_41 c + tallyAt (dcell (predD c) 54) () N
@[reducible] def owed_39 (c : Dev nD) : CellTallies nD τ sig Unit := owed_40 c + tallyAt (dcell (succD c) 40) () N
@[reducible] def owed_38 (c : Dev nD) : CellTallies nD τ sig Unit := owed_39 c + tallyAt (dcell (partD c) 85) () N
@[reducible] def owed_37 (c : Dev nD) : CellTallies nD τ sig Unit := owed_38 c + tallyAt (dcell (partD c) 77) () N
@[reducible] def owed_36 (c : Dev nD) : CellTallies nD τ sig Unit := owed_37 c + tallyAt (dcell (predD c) 53) () N
@[reducible] def owed_35 (c : Dev nD) : CellTallies nD τ sig Unit := owed_36 c + tallyAt (dcell (succD c) 39) () N
@[reducible] def owed_34 (c : Dev nD) : CellTallies nD τ sig Unit := owed_35 c + tallyAt (dcell (partD c) 84) () N
@[reducible] def owed_33 (c : Dev nD) : CellTallies nD τ sig Unit := owed_34 c + tallyAt (dcell (partD c) 76) () N
@[reducible] def owed_32 (c : Dev nD) : CellTallies nD τ sig Unit := owed_33 c + tallyAt (dcell (predD c) 52) () N
@[reducible] def owed_31 (c : Dev nD) : CellTallies nD τ sig Unit := owed_32 c + tallyAt (dcell (succD c) 38) () N
@[reducible] def owed_30 (c : Dev nD) : CellTallies nD τ sig Unit := owed_31 c + tallyAt (dcell (partD c) 83) () N
@[reducible] def owed_29 (c : Dev nD) : CellTallies nD τ sig Unit := owed_30 c + tallyAt (dcell (partD c) 75) () N
@[reducible] def owed_28 (c : Dev nD) : CellTallies nD τ sig Unit := owed_29 c + tallyAt (dcell (predD c) 51) () N
@[reducible] def owed_27 (c : Dev nD) : CellTallies nD τ sig Unit := owed_28 c + tallyAt (dcell (succD c) 37) () N
@[reducible] def owed_26 (c : Dev nD) : CellTallies nD τ sig Unit := owed_27 c + tallyAt (dcell (partD c) 82) () N
@[reducible] def owed_25 (c : Dev nD) : CellTallies nD τ sig Unit := owed_26 c + tallyAt (dcell (partD c) 74) () N
@[reducible] def owed_24 (c : Dev nD) : CellTallies nD τ sig Unit := owed_25 c + tallyAt (dcell (predD c) 50) () N
@[reducible] def owed_23 (c : Dev nD) : CellTallies nD τ sig Unit := owed_24 c + tallyAt (dcell (succD c) 36) () N
@[reducible] def owed_22 (c : Dev nD) : CellTallies nD τ sig Unit := owed_23 c + tallyAt (dcell (partD c) 81) () N
@[reducible] def owed_21 (c : Dev nD) : CellTallies nD τ sig Unit := owed_22 c + tallyAt (dcell (partD c) 73) () N
@[reducible] def owed_20 (c : Dev nD) : CellTallies nD τ sig Unit := owed_21 c + tallyAt (dcell (predD c) 49) () N
@[reducible] def owed_19 (c : Dev nD) : CellTallies nD τ sig Unit := owed_20 c + tallyAt (dcell (succD c) 35) () N
@[reducible] def owed_18 (c : Dev nD) : CellTallies nD τ sig Unit := owed_19 c + tallyAt (dcell (partD c) 80) () N
@[reducible] def owed_17 (c : Dev nD) : CellTallies nD τ sig Unit := owed_18 c + tallyAt (dcell (partD c) 72) () N
@[reducible] def owed_16 (c : Dev nD) : CellTallies nD τ sig Unit := owed_17 c + tallyAt (dcell (predD c) 48) () N
@[reducible] def owed_15 (c : Dev nD) : CellTallies nD τ sig Unit := owed_16 c + tallyAt (dcell (succD c) 34) () N
@[reducible] def owed_14 (c : Dev nD) : CellTallies nD τ sig Unit := owed_15 c + tallyAt (dcell (predD c) 47) () N
@[reducible] def owed_13 (c : Dev nD) : CellTallies nD τ sig Unit := owed_14 c + tallyAt (dcell (succD c) 33) () N
@[reducible] def owed_12 (c : Dev nD) : CellTallies nD τ sig Unit := owed_13 c + tallyAt (dcell (predD c) 46) () N
@[reducible] def owed_11 (c : Dev nD) : CellTallies nD τ sig Unit := owed_12 c + tallyAt (dcell (succD c) 32) () N
@[reducible] def owed_10 (c : Dev nD) : CellTallies nD τ sig Unit := owed_11 c + tallyAt (dcell (predD c) 45) () N
@[reducible] def owed_9 (c : Dev nD) : CellTallies nD τ sig Unit := owed_10 c + tallyAt (dcell (succD c) 31) () N
@[reducible] def owed_8 (c : Dev nD) : CellTallies nD τ sig Unit := owed_9 c + tallyAt (dcell (predD c) 44) () N
@[reducible] def owed_7 (c : Dev nD) : CellTallies nD τ sig Unit := owed_8 c + tallyAt (dcell (succD c) 30) () N
@[reducible] def owed_6 (c : Dev nD) : CellTallies nD τ sig Unit := owed_7 c + tallyAt (dcell (predD c) 43) () N
@[reducible] def owed_5 (c : Dev nD) : CellTallies nD τ sig Unit := owed_6 c + tallyAt (dcell (succD c) 29) () N
@[reducible] def owed_4 (c : Dev nD) : CellTallies nD τ sig Unit := owed_5 c + tallyAt (dcell (predD c) 42) () N
@[reducible] def owed_3 (c : Dev nD) : CellTallies nD τ sig Unit := owed_4 c + tallyAt (dcell (succD c) 28) () N
@[reducible] def owed_2 (c : Dev nD) : CellTallies nD τ sig Unit := owed_3 c + tallyAt (barCell (partD c)) () 1
@[reducible] def owed_1 (c : Dev nD) : CellTallies nD τ sig Unit := owed_2 c + tallyAt (barCell (predD c)) () 1
@[reducible] def owed_0 (c : Dev nD) : CellTallies nD τ sig Unit := owed_1 c + tallyAt (barCell (succD c)) () 1
/-- What it owes at launch. -/
abbrev O₀ (c : Dev nD) : CellTallies nD τ sig Unit := owed_0 c

/-- The levels: a barrier cell at 1, the arrival cell of ring step k at 2 + k, the arrival cells of the pair at 50,
    every other cell at 0. A device waits on a cell only while everything it still owes lies strictly above it. -/
def L (g : GSem nD τ sig) : Finset Unit := if g.1.2 = .tc then {()} else ∅
def lv (g : GSem nD τ sig) (_ : Unit) : ℕ := match g.2 with
  | .reg _ => 1
  | .dma i => if 28 ≤ i.val ∧ i.val < 56 then 2 + (i.val - 28) % 14 else if 72 ≤ i.val ∧ i.val < 88 then 50 else 0

/-- The ghost state device c's body starts from. -/
def ghost (K : Dev nD × Fin 91 → ℕ) (c : Dev nD) : sProp 𝕄 :=
  iprop(invs m K c ∗ poss (F := F) c ∗ reach (F := F) c ∗ toks (F := F) c)

end Cert.KernelIdeal.State

end
-- ==== Proof.TablesPay.lean ====
/-
  The payload of every DMA cell's duty, cell by cell. The schedule's payload table sends the cell of index i to the
  payload named for it: the departure and arrival cells of the ring copies (14·d + k and 28 + 14·d + k), those of the
  copies to the pair partner (56 + 8·d + k and 72 + 8·d + k), and, round by round, the two cells of the local copies
  (88 + d). Each equation is one entry of that table.
-/
import proofs.«900727_g7700000000000728_dist_ar_v7x_xyz2x4x4_y_m16384_n1024_f32_1_alg».proof.Proof.Sched

set_option maxRecDepth 16384

noncomputable section

namespace Cert.KernelIdeal.Sched

open Cert.KernelIdeal Cert.KernelIdeal.Gen Cert.KernelIdeal.Ring Cert.KernelIdeal.Cells Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem payload_send_0_0 (c : Dev nD) : (sched m).payload (dcell c 0) 0 0 = sendPay_0_0 m c := rfl
theorem payload_send_0_1 (c : Dev nD) : (sched m).payload (dcell c 1) 0 0 = sendPay_0_1 m c := rfl
theorem payload_send_0_2 (c : Dev nD) : (sched m).payload (dcell c 2) 0 0 = sendPay_0_2 m c := rfl
theorem payload_send_0_3 (c : Dev nD) : (sched m).payload (dcell c 3) 0 0 = sendPay_0_3 m c := rfl
theorem payload_send_0_4 (c : Dev nD) : (sched m).payload (dcell c 4) 0 0 = sendPay_0_4 m c := rfl
theorem payload_send_0_5 (c : Dev nD) : (sched m).payload (dcell c 5) 0 0 = sendPay_0_5 m c := rfl
theorem payload_send_0_6 (c : Dev nD) : (sched m).payload (dcell c 6) 0 0 = sendPay_0_6 m c := rfl
theorem payload_send_0_7 (c : Dev nD) : (sched m).payload (dcell c 7) 0 0 = sendPay_0_7 m c := rfl
theorem payload_send_0_8 (c : Dev nD) : (sched m).payload (dcell c 8) 0 0 = sendPay_0_8 m c := rfl
theorem payload_send_0_9 (c : Dev nD) : (sched m).payload (dcell c 9) 0 0 = sendPay_0_9 m c := rfl
theorem payload_send_0_10 (c : Dev nD) : (sched m).payload (dcell c 10) 0 0 = sendPay_0_10 m c := rfl
theorem payload_send_0_11 (c : Dev nD) : (sched m).payload (dcell c 11) 0 0 = sendPay_0_11 m c := rfl
theorem payload_send_0_12 (c : Dev nD) : (sched m).payload (dcell c 12) 0 0 = sendPay_0_12 m c := rfl
theorem payload_send_0_13 (c : Dev nD) : (sched m).payload (dcell c 13) 0 0 = sendPay_0_13 m c := rfl
theorem payload_send_1_0 (c : Dev nD) : (sched m).payload (dcell c 14) 0 0 = sendPay_1_0 m c := rfl
theorem payload_send_1_1 (c : Dev nD) : (sched m).payload (dcell c 15) 0 0 = sendPay_1_1 m c := rfl
theorem payload_send_1_2 (c : Dev nD) : (sched m).payload (dcell c 16) 0 0 = sendPay_1_2 m c := rfl
theorem payload_send_1_3 (c : Dev nD) : (sched m).payload (dcell c 17) 0 0 = sendPay_1_3 m c := rfl
theorem payload_send_1_4 (c : Dev nD) : (sched m).payload (dcell c 18) 0 0 = sendPay_1_4 m c := rfl
theorem payload_send_1_5 (c : Dev nD) : (sched m).payload (dcell c 19) 0 0 = sendPay_1_5 m c := rfl
theorem payload_send_1_6 (c : Dev nD) : (sched m).payload (dcell c 20) 0 0 = sendPay_1_6 m c := rfl
theorem payload_send_1_7 (c : Dev nD) : (sched m).payload (dcell c 21) 0 0 = sendPay_1_7 m c := rfl
theorem payload_send_1_8 (c : Dev nD) : (sched m).payload (dcell c 22) 0 0 = sendPay_1_8 m c := rfl
theorem payload_send_1_9 (c : Dev nD) : (sched m).payload (dcell c 23) 0 0 = sendPay_1_9 m c := rfl
theorem payload_send_1_10 (c : Dev nD) : (sched m).payload (dcell c 24) 0 0 = sendPay_1_10 m c := rfl
theorem payload_send_1_11 (c : Dev nD) : (sched m).payload (dcell c 25) 0 0 = sendPay_1_11 m c := rfl
theorem payload_send_1_12 (c : Dev nD) : (sched m).payload (dcell c 26) 0 0 = sendPay_1_12 m c := rfl
theorem payload_send_1_13 (c : Dev nD) : (sched m).payload (dcell c 27) 0 0 = sendPay_1_13 m c := rfl

theorem payload_recv_0_0 (c : Dev nD) : (sched m).payload (dcell c 28) 0 0 = recvPay_0_0 m c := rfl
theorem payload_recv_0_1 (c : Dev nD) : (sched m).payload (dcell c 29) 0 0 = recvPay_0_1 m c := rfl
theorem payload_recv_0_2 (c : Dev nD) : (sched m).payload (dcell c 30) 0 0 = recvPay_0_2 m c := rfl
theorem payload_recv_0_3 (c : Dev nD) : (sched m).payload (dcell c 31) 0 0 = recvPay_0_3 m c := rfl
theorem payload_recv_0_4 (c : Dev nD) : (sched m).payload (dcell c 32) 0 0 = recvPay_0_4 m c := rfl
theorem payload_recv_0_5 (c : Dev nD) : (sched m).payload (dcell c 33) 0 0 = recvPay_0_5 m c := rfl
theorem payload_recv_0_6 (c : Dev nD) : (sched m).payload (dcell c 34) 0 0 = recvPay_0_6 m c := rfl
theorem payload_recv_0_7 (c : Dev nD) : (sched m).payload (dcell c 35) 0 0 = recvPay_0_7 m c := rfl
theorem payload_recv_0_8 (c : Dev nD) : (sched m).payload (dcell c 36) 0 0 = recvPay_0_8 m c := rfl
theorem payload_recv_0_9 (c : Dev nD) : (sched m).payload (dcell c 37) 0 0 = recvPay_0_9 m c := rfl
theorem payload_recv_0_10 (c : Dev nD) : (sched m).payload (dcell c 38) 0 0 = recvPay_0_10 m c := rfl
theorem payload_recv_0_11 (c : Dev nD) : (sched m).payload (dcell c 39) 0 0 = recvPay_0_11 m c := rfl
theorem payload_recv_0_12 (c : Dev nD) : (sched m).payload (dcell c 40) 0 0 = recvPay_0_12 m c := rfl
theorem payload_recv_0_13 (c : Dev nD) : (sched m).payload (dcell c 41) 0 0 = recvPay_0_13 m c := rfl
theorem payload_recv_1_0 (c : Dev nD) : (sched m).payload (dcell c 42) 0 0 = recvPay_1_0 m c := rfl
theorem payload_recv_1_1 (c : Dev nD) : (sched m).payload (dcell c 43) 0 0 = recvPay_1_1 m c := rfl
theorem payload_recv_1_2 (c : Dev nD) : (sched m).payload (dcell c 44) 0 0 = recvPay_1_2 m c := rfl
theorem payload_recv_1_3 (c : Dev nD) : (sched m).payload (dcell c 45) 0 0 = recvPay_1_3 m c := rfl
theorem payload_recv_1_4 (c : Dev nD) : (sched m).payload (dcell c 46) 0 0 = recvPay_1_4 m c := rfl
theorem payload_recv_1_5 (c : Dev nD) : (sched m).payload (dcell c 47) 0 0 = recvPay_1_5 m c := rfl
theorem payload_recv_1_6 (c : Dev nD) : (sched m).payload (dcell c 48) 0 0 = recvPay_1_6 m c := rfl
theorem payload_recv_1_7 (c : Dev nD) : (sched m).payload (dcell c 49) 0 0 = recvPay_1_7 m c := rfl
theorem payload_recv_1_8 (c : Dev nD) : (sched m).payload (dcell c 50) 0 0 = recvPay_1_8 m c := rfl
theorem payload_recv_1_9 (c : Dev nD) : (sched m).payload (dcell c 51) 0 0 = recvPay_1_9 m c := rfl
theorem payload_recv_1_10 (c : Dev nD) : (sched m).payload (dcell c 52) 0 0 = recvPay_1_10 m c := rfl
theorem payload_recv_1_11 (c : Dev nD) : (sched m).payload (dcell c 53) 0 0 = recvPay_1_11 m c := rfl
theorem payload_recv_1_12 (c : Dev nD) : (sched m).payload (dcell c 54) 0 0 = recvPay_1_12 m c := rfl
theorem payload_recv_1_13 (c : Dev nD) : (sched m).payload (dcell c 55) 0 0 = recvPay_1_13 m c := rfl

theorem payload_zsend_0_0 (c : Dev nD) : (sched m).payload (dcell c 56) 0 0 = zsendPay_0_0 m c := rfl
theorem payload_zsend_0_1 (c : Dev nD) : (sched m).payload (dcell c 57) 0 0 = zsendPay_0_1 m c := rfl
theorem payload_zsend_0_2 (c : Dev nD) : (sched m).payload (dcell c 58) 0 0 = zsendPay_0_2 m c := rfl
theorem payload_zsend_0_3 (c : Dev nD) : (sched m).payload (dcell c 59) 0 0 = zsendPay_0_3 m c := rfl
theorem payload_zsend_0_4 (c : Dev nD) : (sched m).payload (dcell c 60) 0 0 = zsendPay_0_4 m c := rfl
theorem payload_zsend_0_5 (c : Dev nD) : (sched m).payload (dcell c 61) 0 0 = zsendPay_0_5 m c := rfl
theorem payload_zsend_0_6 (c : Dev nD) : (sched m).payload (dcell c 62) 0 0 = zsendPay_0_6 m c := rfl
theorem payload_zsend_0_7 (c : Dev nD) : (sched m).payload (dcell c 63) 0 0 = zsendPay_0_7 m c := rfl
theorem payload_zsend_1_0 (c : Dev nD) : (sched m).payload (dcell c 64) 0 0 = zsendPay_1_0 m c := rfl
theorem payload_zsend_1_1 (c : Dev nD) : (sched m).payload (dcell c 65) 0 0 = zsendPay_1_1 m c := rfl
theorem payload_zsend_1_2 (c : Dev nD) : (sched m).payload (dcell c 66) 0 0 = zsendPay_1_2 m c := rfl
theorem payload_zsend_1_3 (c : Dev nD) : (sched m).payload (dcell c 67) 0 0 = zsendPay_1_3 m c := rfl
theorem payload_zsend_1_4 (c : Dev nD) : (sched m).payload (dcell c 68) 0 0 = zsendPay_1_4 m c := rfl
theorem payload_zsend_1_5 (c : Dev nD) : (sched m).payload (dcell c 69) 0 0 = zsendPay_1_5 m c := rfl
theorem payload_zsend_1_6 (c : Dev nD) : (sched m).payload (dcell c 70) 0 0 = zsendPay_1_6 m c := rfl
theorem payload_zsend_1_7 (c : Dev nD) : (sched m).payload (dcell c 71) 0 0 = zsendPay_1_7 m c := rfl

theorem payload_zrecv_0_0 (c : Dev nD) : (sched m).payload (dcell c 72) 0 0 = zrecvPay_0_0 m c := rfl
theorem payload_zrecv_0_1 (c : Dev nD) : (sched m).payload (dcell c 73) 0 0 = zrecvPay_0_1 m c := rfl
theorem payload_zrecv_0_2 (c : Dev nD) : (sched m).payload (dcell c 74) 0 0 = zrecvPay_0_2 m c := rfl
theorem payload_zrecv_0_3 (c : Dev nD) : (sched m).payload (dcell c 75) 0 0 = zrecvPay_0_3 m c := rfl
theorem payload_zrecv_0_4 (c : Dev nD) : (sched m).payload (dcell c 76) 0 0 = zrecvPay_0_4 m c := rfl
theorem payload_zrecv_0_5 (c : Dev nD) : (sched m).payload (dcell c 77) 0 0 = zrecvPay_0_5 m c := rfl
theorem payload_zrecv_0_6 (c : Dev nD) : (sched m).payload (dcell c 78) 0 0 = zrecvPay_0_6 m c := rfl
theorem payload_zrecv_0_7 (c : Dev nD) : (sched m).payload (dcell c 79) 0 0 = zrecvPay_0_7 m c := rfl
theorem payload_zrecv_1_0 (c : Dev nD) : (sched m).payload (dcell c 80) 0 0 = zrecvPay_1_0 m c := rfl
theorem payload_zrecv_1_1 (c : Dev nD) : (sched m).payload (dcell c 81) 0 0 = zrecvPay_1_1 m c := rfl
theorem payload_zrecv_1_2 (c : Dev nD) : (sched m).payload (dcell c 82) 0 0 = zrecvPay_1_2 m c := rfl
theorem payload_zrecv_1_3 (c : Dev nD) : (sched m).payload (dcell c 83) 0 0 = zrecvPay_1_3 m c := rfl
theorem payload_zrecv_1_4 (c : Dev nD) : (sched m).payload (dcell c 84) 0 0 = zrecvPay_1_4 m c := rfl
theorem payload_zrecv_1_5 (c : Dev nD) : (sched m).payload (dcell c 85) 0 0 = zrecvPay_1_5 m c := rfl
theorem payload_zrecv_1_6 (c : Dev nD) : (sched m).payload (dcell c 86) 0 0 = zrecvPay_1_6 m c := rfl
theorem payload_zrecv_1_7 (c : Dev nD) : (sched m).payload (dcell c 87) 0 0 = zrecvPay_1_7 m c := rfl

theorem payload_local_0_0 (c : Dev nD) : (sched m).payload (dcell c 88) 0 0 = localPay_0 m c 0 := rfl
theorem payload_local_0_1 (c : Dev nD) : (sched m).payload (dcell c 88) 1 0 = localPay_0 m c 1 := rfl
theorem payload_local_0_2 (c : Dev nD) : (sched m).payload (dcell c 88) 2 0 = localPay_0 m c 2 := rfl
theorem payload_local_0_3 (c : Dev nD) : (sched m).payload (dcell c 88) 3 0 = localPay_0 m c 3 := rfl
theorem payload_local_0_4 (c : Dev nD) : (sched m).payload (dcell c 88) 4 0 = localPay_0 m c 4 := rfl
theorem payload_local_0_5 (c : Dev nD) : (sched m).payload (dcell c 88) 5 0 = localPay_0 m c 5 := rfl
theorem payload_local_0_6 (c : Dev nD) : (sched m).payload (dcell c 88) 6 0 = localPay_0 m c 6 := rfl
theorem payload_local_0_7 (c : Dev nD) : (sched m).payload (dcell c 88) 7 0 = localPay_0 m c 7 := rfl
theorem payload_local_1_0 (c : Dev nD) : (sched m).payload (dcell c 89) 0 0 = localPay_1 m c 0 := rfl
theorem payload_local_1_1 (c : Dev nD) : (sched m).payload (dcell c 89) 1 0 = localPay_1 m c 1 := rfl
theorem payload_local_1_2 (c : Dev nD) : (sched m).payload (dcell c 89) 2 0 = localPay_1 m c 2 := rfl
theorem payload_local_1_3 (c : Dev nD) : (sched m).payload (dcell c 89) 3 0 = localPay_1 m c 3 := rfl
theorem payload_local_1_4 (c : Dev nD) : (sched m).payload (dcell c 89) 4 0 = localPay_1 m c 4 := rfl
theorem payload_local_1_5 (c : Dev nD) : (sched m).payload (dcell c 89) 5 0 = localPay_1 m c 5 := rfl
theorem payload_local_1_6 (c : Dev nD) : (sched m).payload (dcell c 89) 6 0 = localPay_1 m c 6 := rfl
theorem payload_local_1_7 (c : Dev nD) : (sched m).payload (dcell c 89) 7 0 = localPay_1 m c 7 := rfl

/-! Each payload is a region at named contents, or two of them: it can be stored in a cell. -/

instance storable_send_0_0 (c : Dev nD) : BI.Storable (upEmb : UEmb _ 𝕄) (sendPay_0_0 m c) := by unfold sendPay_0_0; infer_instance
instance storable_send_0_1 (c : Dev nD) : BI.Storable (upEmb : UEmb _ 𝕄) (sendPay_0_1 m c) := by unfold sendPay_0_1; infer_instance
instance storable_send_0_2 (c : Dev nD) : BI.Storable (upEmb : UEmb _ 𝕄) (sendPay_0_2 m c) := by unfold sendPay_0_2; infer_instance
instance storable_send_0_3 (c : Dev nD) : BI.Storable (upEmb : UEmb _ 𝕄) (sendPay_0_3 m c) := by unfold sendPay_0_3; infer_instance
instance storable_send_0_4 (c : Dev nD) : BI.Storable (upEmb : UEmb _ 𝕄) (sendPay_0_4 m c) := by unfold sendPay_0_4; infer_instance
instance storable_send_0_5 (c : Dev nD) : BI.Storable (upEmb : UEmb _ 𝕄) (sendPay_0_5 m c) := by unfold sendPay_0_5; infer_instance
instance storable_send_0_6 (c : Dev nD) : BI.Storable (upEmb : UEmb _ 𝕄) (sendPay_0_6 m c) := by unfold sendPay_0_6; infer_instance
instance storable_send_0_7 (c : Dev nD) : BI.Storable (upEmb : UEmb _ 𝕄) (sendPay_0_7 m c) := by unfold sendPay_0_7; infer_instance
instance storable_send_0_8 (c : Dev nD) : BI.Storable (upEmb : UEmb _ 𝕄) (sendPay_0_8 m c) := by unfold sendPay_0_8; infer_instance
instance storable_send_0_9 (c : Dev nD) : BI.Storable (upEmb : UEmb _ 𝕄) (sendPay_0_9 m c) := by unfold sendPay_0_9; infer_instance
instance storable_send_0_10 (c : Dev nD) : BI.Storable (upEmb : UEmb _ 𝕄) (sendPay_0_10 m c) := by unfold sendPay_0_10; infer_instance
instance storable_send_0_11 (c : Dev nD) : BI.Storable (upEmb : UEmb _ 𝕄) (sendPay_0_11 m c) := by unfold sendPay_0_11; infer_instance
instance storable_send_0_12 (c : Dev nD) : BI.Storable (upEmb : UEmb _ 𝕄) (sendPay_0_12 m c) := by unfold sendPay_0_12; infer_instance
instance storable_send_0_13 (c : Dev nD) : BI.Storable (upEmb : UEmb _ 𝕄) (sendPay_0_13 m c) := by unfold sendPay_0_13; infer_instance
instance storable_send_1_0 (c : Dev nD) : BI.Storable (upEmb : UEmb _ 𝕄) (sendPay_1_0 m c) := by unfold sendPay_1_0; infer_instance
instance storable_send_1_1 (c : Dev nD) : BI.Storable (upEmb : UEmb _ 𝕄) (sendPay_1_1 m c) := by unfold sendPay_1_1; infer_instance
instance storable_send_1_2 (c : Dev nD) : BI.Storable (upEmb : UEmb _ 𝕄) (sendPay_1_2 m c) := by unfold sendPay_1_2; infer_instance
instance storable_send_1_3 (c : Dev nD) : BI.Storable (upEmb : UEmb _ 𝕄) (sendPay_1_3 m c) := by unfold sendPay_1_3; infer_instance
instance storable_send_1_4 (c : Dev nD) : BI.Storable (upEmb : UEmb _ 𝕄) (sendPay_1_4 m c) := by unfold sendPay_1_4; infer_instance
instance storable_send_1_5 (c : Dev nD) : BI.Storable (upEmb : UEmb _ 𝕄) (sendPay_1_5 m c) := by unfold sendPay_1_5; infer_instance
instance storable_send_1_6 (c : Dev nD) : BI.Storable (upEmb : UEmb _ 𝕄) (sendPay_1_6 m c) := by unfold sendPay_1_6; infer_instance
instance storable_send_1_7 (c : Dev nD) : BI.Storable (upEmb : UEmb _ 𝕄) (sendPay_1_7 m c) := by unfold sendPay_1_7; infer_instance
instance storable_send_1_8 (c : Dev nD) : BI.Storable (upEmb : UEmb _ 𝕄) (sendPay_1_8 m c) := by unfold sendPay_1_8; infer_instance
instance storable_send_1_9 (c : Dev nD) : BI.Storable (upEmb : UEmb _ 𝕄) (sendPay_1_9 m c) := by unfold sendPay_1_9; infer_instance
instance storable_send_1_10 (c : Dev nD) : BI.Storable (upEmb : UEmb _ 𝕄) (sendPay_1_10 m c) := by unfold sendPay_1_10; infer_instance
instance storable_send_1_11 (c : Dev nD) : BI.Storable (upEmb : UEmb _ 𝕄) (sendPay_1_11 m c) := by unfold sendPay_1_11; infer_instance
instance storable_send_1_12 (c : Dev nD) : BI.Storable (upEmb : UEmb _ 𝕄) (sendPay_1_12 m c) := by unfold sendPay_1_12; infer_instance
instance storable_send_1_13 (c : Dev nD) : BI.Storable (upEmb : UEmb _ 𝕄) (sendPay_1_13 m c) := by unfold sendPay_1_13; infer_instance

instance storable_recv_0_0 (c : Dev nD) : BI.Storable (upEmb : UEmb _ 𝕄) (recvPay_0_0 m c) := by unfold recvPay_0_0; infer_instance
instance storable_recv_0_1 (c : Dev nD) : BI.Storable (upEmb : UEmb _ 𝕄) (recvPay_0_1 m c) := by unfold recvPay_0_1; infer_instance
instance storable_recv_0_2 (c : Dev nD) : BI.Storable (upEmb : UEmb _ 𝕄) (recvPay_0_2 m c) := by unfold recvPay_0_2; infer_instance
instance storable_recv_0_3 (c : Dev nD) : BI.Storable (upEmb : UEmb _ 𝕄) (recvPay_0_3 m c) := by unfold recvPay_0_3; infer_instance
instance storable_recv_0_4 (c : Dev nD) : BI.Storable (upEmb : UEmb _ 𝕄) (recvPay_0_4 m c) := by unfold recvPay_0_4; infer_instance
instance storable_recv_0_5 (c : Dev nD) : BI.Storable (upEmb : UEmb _ 𝕄) (recvPay_0_5 m c) := by unfold recvPay_0_5; infer_instance
instance storable_recv_0_6 (c : Dev nD) : BI.Storable (upEmb : UEmb _ 𝕄) (recvPay_0_6 m c) := by unfold recvPay_0_6; infer_instance
instance storable_recv_0_7 (c : Dev nD) : BI.Storable (upEmb : UEmb _ 𝕄) (recvPay_0_7 m c) := by unfold recvPay_0_7; infer_instance
instance storable_recv_0_8 (c : Dev nD) : BI.Storable (upEmb : UEmb _ 𝕄) (recvPay_0_8 m c) := by unfold recvPay_0_8; infer_instance
instance storable_recv_0_9 (c : Dev nD) : BI.Storable (upEmb : UEmb _ 𝕄) (recvPay_0_9 m c) := by unfold recvPay_0_9; infer_instance
instance storable_recv_0_10 (c : Dev nD) : BI.Storable (upEmb : UEmb _ 𝕄) (recvPay_0_10 m c) := by unfold recvPay_0_10; infer_instance
instance storable_recv_0_11 (c : Dev nD) : BI.Storable (upEmb : UEmb _ 𝕄) (recvPay_0_11 m c) := by unfold recvPay_0_11; infer_instance
instance storable_recv_0_12 (c : Dev nD) : BI.Storable (upEmb : UEmb _ 𝕄) (recvPay_0_12 m c) := by unfold recvPay_0_12; infer_instance
instance storable_recv_0_13 (c : Dev nD) : BI.Storable (upEmb : UEmb _ 𝕄) (recvPay_0_13 m c) := by unfold recvPay_0_13; infer_instance
instance storable_recv_1_0 (c : Dev nD) : BI.Storable (upEmb : UEmb _ 𝕄) (recvPay_1_0 m c) := by unfold recvPay_1_0; infer_instance
instance storable_recv_1_1 (c : Dev nD) : BI.Storable (upEmb : UEmb _ 𝕄) (recvPay_1_1 m c) := by unfold recvPay_1_1; infer_instance
instance storable_recv_1_2 (c : Dev nD) : BI.Storable (upEmb : UEmb _ 𝕄) (recvPay_1_2 m c) := by unfold recvPay_1_2; infer_instance
instance storable_recv_1_3 (c : Dev nD) : BI.Storable (upEmb : UEmb _ 𝕄) (recvPay_1_3 m c) := by unfold recvPay_1_3; infer_instance
instance storable_recv_1_4 (c : Dev nD) : BI.Storable (upEmb : UEmb _ 𝕄) (recvPay_1_4 m c) := by unfold recvPay_1_4; infer_instance
instance storable_recv_1_5 (c : Dev nD) : BI.Storable (upEmb : UEmb _ 𝕄) (recvPay_1_5 m c) := by unfold recvPay_1_5; infer_instance
instance storable_recv_1_6 (c : Dev nD) : BI.Storable (upEmb : UEmb _ 𝕄) (recvPay_1_6 m c) := by unfold recvPay_1_6; infer_instance
instance storable_recv_1_7 (c : Dev nD) : BI.Storable (upEmb : UEmb _ 𝕄) (recvPay_1_7 m c) := by unfold recvPay_1_7; infer_instance
instance storable_recv_1_8 (c : Dev nD) : BI.Storable (upEmb : UEmb _ 𝕄) (recvPay_1_8 m c) := by unfold recvPay_1_8; infer_instance
instance storable_recv_1_9 (c : Dev nD) : BI.Storable (upEmb : UEmb _ 𝕄) (recvPay_1_9 m c) := by unfold recvPay_1_9; infer_instance
instance storable_recv_1_10 (c : Dev nD) : BI.Storable (upEmb : UEmb _ 𝕄) (recvPay_1_10 m c) := by unfold recvPay_1_10; infer_instance
instance storable_recv_1_11 (c : Dev nD) : BI.Storable (upEmb : UEmb _ 𝕄) (recvPay_1_11 m c) := by unfold recvPay_1_11; infer_instance
instance storable_recv_1_12 (c : Dev nD) : BI.Storable (upEmb : UEmb _ 𝕄) (recvPay_1_12 m c) := by unfold recvPay_1_12; infer_instance
instance storable_recv_1_13 (c : Dev nD) : BI.Storable (upEmb : UEmb _ 𝕄) (recvPay_1_13 m c) := by unfold recvPay_1_13; infer_instance

instance storable_zsend_0_0 (c : Dev nD) : BI.Storable (upEmb : UEmb _ 𝕄) (zsendPay_0_0 m c) := by unfold zsendPay_0_0; infer_instance
instance storable_zsend_0_1 (c : Dev nD) : BI.Storable (upEmb : UEmb _ 𝕄) (zsendPay_0_1 m c) := by unfold zsendPay_0_1; infer_instance
instance storable_zsend_0_2 (c : Dev nD) : BI.Storable (upEmb : UEmb _ 𝕄) (zsendPay_0_2 m c) := by unfold zsendPay_0_2; infer_instance
instance storable_zsend_0_3 (c : Dev nD) : BI.Storable (upEmb : UEmb _ 𝕄) (zsendPay_0_3 m c) := by unfold zsendPay_0_3; infer_instance
instance storable_zsend_0_4 (c : Dev nD) : BI.Storable (upEmb : UEmb _ 𝕄) (zsendPay_0_4 m c) := by unfold zsendPay_0_4; infer_instance
instance storable_zsend_0_5 (c : Dev nD) : BI.Storable (upEmb : UEmb _ 𝕄) (zsendPay_0_5 m c) := by unfold zsendPay_0_5; infer_instance
instance storable_zsend_0_6 (c : Dev nD) : BI.Storable (upEmb : UEmb _ 𝕄) (zsendPay_0_6 m c) := by unfold zsendPay_0_6; infer_instance
instance storable_zsend_0_7 (c : Dev nD) : BI.Storable (upEmb : UEmb _ 𝕄) (zsendPay_0_7 m c) := by unfold zsendPay_0_7; infer_instance
instance storable_zsend_1_0 (c : Dev nD) : BI.Storable (upEmb : UEmb _ 𝕄) (zsendPay_1_0 m c) := by unfold zsendPay_1_0; infer_instance
instance storable_zsend_1_1 (c : Dev nD) : BI.Storable (upEmb : UEmb _ 𝕄) (zsendPay_1_1 m c) := by unfold zsendPay_1_1; infer_instance
instance storable_zsend_1_2 (c : Dev nD) : BI.Storable (upEmb : UEmb _ 𝕄) (zsendPay_1_2 m c) := by unfold zsendPay_1_2; infer_instance
instance storable_zsend_1_3 (c : Dev nD) : BI.Storable (upEmb : UEmb _ 𝕄) (zsendPay_1_3 m c) := by unfold zsendPay_1_3; infer_instance
instance storable_zsend_1_4 (c : Dev nD) : BI.Storable (upEmb : UEmb _ 𝕄) (zsendPay_1_4 m c) := by unfold zsendPay_1_4; infer_instance
instance storable_zsend_1_5 (c : Dev nD) : BI.Storable (upEmb : UEmb _ 𝕄) (zsendPay_1_5 m c) := by unfold zsendPay_1_5; infer_instance
instance storable_zsend_1_6 (c : Dev nD) : BI.Storable (upEmb : UEmb _ 𝕄) (zsendPay_1_6 m c) := by unfold zsendPay_1_6; infer_instance
instance storable_zsend_1_7 (c : Dev nD) : BI.Storable (upEmb : UEmb _ 𝕄) (zsendPay_1_7 m c) := by unfold zsendPay_1_7; infer_instance

instance storable_zrecv_0_0 (c : Dev nD) : BI.Storable (upEmb : UEmb _ 𝕄) (zrecvPay_0_0 m c) := by unfold zrecvPay_0_0; infer_instance
instance storable_zrecv_0_1 (c : Dev nD) : BI.Storable (upEmb : UEmb _ 𝕄) (zrecvPay_0_1 m c) := by unfold zrecvPay_0_1; infer_instance
instance storable_zrecv_0_2 (c : Dev nD) : BI.Storable (upEmb : UEmb _ 𝕄) (zrecvPay_0_2 m c) := by unfold zrecvPay_0_2; infer_instance
instance storable_zrecv_0_3 (c : Dev nD) : BI.Storable (upEmb : UEmb _ 𝕄) (zrecvPay_0_3 m c) := by unfold zrecvPay_0_3; infer_instance
instance storable_zrecv_0_4 (c : Dev nD) : BI.Storable (upEmb : UEmb _ 𝕄) (zrecvPay_0_4 m c) := by unfold zrecvPay_0_4; infer_instance
instance storable_zrecv_0_5 (c : Dev nD) : BI.Storable (upEmb : UEmb _ 𝕄) (zrecvPay_0_5 m c) := by unfold zrecvPay_0_5; infer_instance
instance storable_zrecv_0_6 (c : Dev nD) : BI.Storable (upEmb : UEmb _ 𝕄) (zrecvPay_0_6 m c) := by unfold zrecvPay_0_6; infer_instance
instance storable_zrecv_0_7 (c : Dev nD) : BI.Storable (upEmb : UEmb _ 𝕄) (zrecvPay_0_7 m c) := by unfold zrecvPay_0_7; infer_instance
instance storable_zrecv_1_0 (c : Dev nD) : BI.Storable (upEmb : UEmb _ 𝕄) (zrecvPay_1_0 m c) := by unfold zrecvPay_1_0; infer_instance
instance storable_zrecv_1_1 (c : Dev nD) : BI.Storable (upEmb : UEmb _ 𝕄) (zrecvPay_1_1 m c) := by unfold zrecvPay_1_1; infer_instance
instance storable_zrecv_1_2 (c : Dev nD) : BI.Storable (upEmb : UEmb _ 𝕄) (zrecvPay_1_2 m c) := by unfold zrecvPay_1_2; infer_instance
instance storable_zrecv_1_3 (c : Dev nD) : BI.Storable (upEmb : UEmb _ 𝕄) (zrecvPay_1_3 m c) := by unfold zrecvPay_1_3; infer_instance
instance storable_zrecv_1_4 (c : Dev nD) : BI.Storable (upEmb : UEmb _ 𝕄) (zrecvPay_1_4 m c) := by unfold zrecvPay_1_4; infer_instance
instance storable_zrecv_1_5 (c : Dev nD) : BI.Storable (upEmb : UEmb _ 𝕄) (zrecvPay_1_5 m c) := by unfold zrecvPay_1_5; infer_instance
instance storable_zrecv_1_6 (c : Dev nD) : BI.Storable (upEmb : UEmb _ 𝕄) (zrecvPay_1_6 m c) := by unfold zrecvPay_1_6; infer_instance
instance storable_zrecv_1_7 (c : Dev nD) : BI.Storable (upEmb : UEmb _ 𝕄) (zrecvPay_1_7 m c) := by unfold zrecvPay_1_7; infer_instance

instance storable_local_0 (c : Dev nD) (r : ℕ) : BI.Storable (upEmb : UEmb _ 𝕄) (localPay_0 m c r) := by unfold localPay_0; split <;> infer_instance
instance storable_local_1 (c : Dev nD) (r : ℕ) : BI.Storable (upEmb : UEmb _ 𝕄) (localPay_1 m c r) := by unfold localPay_1; split <;> infer_instance

/-- info: 'Cert.KernelIdeal.Sched.payload_local_1_7' depends on axioms: [propext, Classical.choice, Quot.sound] -/
#guard_msgs in #print axioms payload_local_1_7

/-- info: 'Cert.KernelIdeal.Sched.storable_local_1' depends on axioms: [propext, Classical.choice, Quot.sound] -/
#guard_msgs in #print axioms storable_local_1

end Cert.KernelIdeal.Sched

end
-- ==== Proof.Tables.lean ====
/-
  The schedule's tables, entry by entry: which duties a cell has in which round, how many units each duty is, how
  many units a round expects, and what each duty hands the cell's owner. A barrier cell has its three duties of one
  unit in round 0 and none later; a DMA cell other than the two of the local copies its one duty of a chunk's credit
  in round 0 and none later; the two cells of the local copies one such duty in each of rounds 0 to 7. The payloads
  of a barrier cell are stated twice: as its owner reads them (from the predecessor, the successor, the partner) and
  as the payer reads them (to its successor, its predecessor, its partner); the two agree because the three maps are
  permutations. What a wait for a whole round returns is the separating conjunction of the round's payloads.
-/
import proofs.«900727_g7700000000000728_dist_ar_v7x_xyz2x4x4_y_m16384_n1024_f32_1_alg».proof.Proof.TablesPay
import proofs.«900727_g7700000000000728_dist_ar_v7x_xyz2x4x4_y_m16384_n1024_f32_1_alg».proof.Proof.Canon
import Mathlib.Algebra.BigOperators.Group.Finset.Basic
import Mathlib.Data.Fintype.Card

set_option maxRecDepth 16384

noncomputable section

namespace Cert.KernelIdeal.Sched

open Cert.KernelIdeal Cert.KernelIdeal.Gen Cert.KernelIdeal.Ring Cert.KernelIdeal.Cells Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Duties -/

theorem duties_bar (c : Dev nD) : (sched m).duties (barCell c) 0 = Finset.univ := by
  dsimp only [sched]; rw [if_pos rfl, if_pos rfl]

theorem duties_dma (c : Dev nD) (i : ℕ) (hi : i < 88) : (sched m).duties (dcell c i (by omega)) 0 = {0} := by
  dsimp only [sched]; rw [if_pos rfl, if_pos hi, if_pos rfl]

theorem duties_local (c : Dev nD) (d : ℕ) (hd : d < 2) (r : ℕ) (hr : r < 8) :
    (sched m).duties (dcell c (88 + d) (by omega)) r = {0} := by
  dsimp only [sched]; rw [if_pos rfl, if_neg (by omega), if_pos hr]

theorem duties_later_bar (c : Dev nD) : ∀ r, 1 ≤ r → (sched m).duties (barCell c) r = ∅ := fun r hr => by
  dsimp only [sched]; rw [if_pos rfl, if_neg (by omega)]

theorem duties_later_dma (c : Dev nD) (i : ℕ) (hi : i < 88) :
    ∀ r, 1 ≤ r → (sched m).duties (dcell c i (by omega)) r = ∅ := fun r hr => by
  dsimp only [sched]; rw [if_pos rfl, if_pos hi, if_neg (by omega)]

theorem duties_later_local (c : Dev nD) (d : ℕ) (hd : d < 2) :
    ∀ r, 8 ≤ r → (sched m).duties (dcell c (88 + d) (by omega)) r = ∅ := fun r hr => by
  dsimp only [sched]; rw [if_pos rfl, if_neg (by omega), if_neg (by omega)]

/-! ## Amounts and what a round expects -/

theorem amount_bar (c : Dev nD) (r : ℕ) (d : Fin 3) : (sched m).amount (barCell c) r d = 1 := rfl

theorem amount_dma (c : Dev nD) (i : ℕ) (hi : i < 90) (r : ℕ) (d : Fin 3) : (sched m).amount (dcell c i hi) r d = N := rfl

theorem expect_bar (c : Dev nD) : (sched m).expect (barCell c) 0 = 3 := by
  unfold Schedule.expect Schedule.amountOf
  rw [duties_bar, Finset.sum_congr rfl fun d _ => amount_bar m c 0 d, Finset.sum_const, Finset.card_univ, Fintype.card_fin,
    smul_eq_mul]

theorem expect_dma (c : Dev nD) (i : ℕ) (hi : i < 88) : (sched m).expect (dcell c i (by omega)) 0 = N := by
  unfold Schedule.expect Schedule.amountOf
  rw [duties_dma m c i hi, Finset.sum_singleton, amount_dma]

theorem expect_local (c : Dev nD) (d : ℕ) (hd : d < 2) (r : ℕ) (hr : r < 8) :
    (sched m).expect (dcell c (88 + d) (by omega)) r = N := by
  unfold Schedule.expect Schedule.amountOf
  rw [duties_local m c d hd r hr, Finset.sum_singleton, amount_dma]

/-! ## The payloads of a barrier cell -/

theorem payload_bar0 (c : Dev nD) : (sched m).payload (barCell c) 0 0 = give1 (F := F) (predD c) := rfl
theorem payload_bar1 (c : Dev nD) : (sched m).payload (barCell c) 0 1 = give0 (F := F) (succD c) := rfl
theorem payload_bar2 (c : Dev nD) : (sched m).payload (barCell c) 0 2 = giveZ (F := F) (partD c) c := rfl

/-- As the payer reads them: what c gives the barrier cell of its successor, of its predecessor, of its partner. -/
theorem payload_bar0_succ (c : Dev nD) : (sched m).payload (barCell (succD c)) 0 0 = give1 (F := F) c := by
  rw [payload_bar0, pred_succ]
theorem payload_bar1_pred (c : Dev nD) : (sched m).payload (barCell (predD c)) 0 1 = give0 (F := F) c := by
  rw [payload_bar1, succ_pred]
theorem payload_bar2_part (c : Dev nD) : (sched m).payload (barCell (partD c)) 0 2 = giveZ (F := F) c (partD c) := by
  rw [payload_bar2, part_part]

/-! ## What a wait for a whole round returns -/

theorem rest_bar (c : Dev nD) :
    bigSep ((sched m).duties (barCell c) 0 \ ∅) (fun d => (sched m).payload (barCell c) 0 d)
      = iprop(give1 (F := F) (predD c) ∗ give0 (F := F) (succD c) ∗ giveZ (F := F) (partD c) c) := by
  rw [Finset.sdiff_empty, duties_bar, bigSep_univ_eq_bigSepL [0, 1, 2] (by decide) (by decide), bigSepL_cons_cons,
    bigSepL_cons_cons, bigSepL_singleton, payload_bar0, payload_bar1, payload_bar2]
  rfl

/-- The same over all three duties, as a wait for the whole round returns it. -/
theorem rest_bar' (c : Dev nD) :
    bigSep Finset.univ (fun d : Fin 3 => (sched m).payload (barCell c) 0 d)
      = iprop(give1 (F := F) (predD c) ∗ give0 (F := F) (succD c) ∗ giveZ (F := F) (partD c) c) := by
  rw [bigSep_univ_eq_bigSepL [0, 1, 2] (by decide) (by decide), bigSepL_cons_cons, bigSepL_cons_cons, bigSepL_singleton,
    payload_bar0, payload_bar1, payload_bar2]
  rfl

theorem rest_dma (c : Dev nD) (i : ℕ) (hi : i < 88) :
    bigSep ((sched m).duties (dcell c i (by omega)) 0 \ ∅) (fun d => (sched m).payload (dcell c i (by omega)) 0 d)
      = dmaPay m c i 0 := by
  rw [Finset.sdiff_empty, duties_dma m c i hi, bigSep_singleton]; rfl

theorem rest_local (c : Dev nD) (d : ℕ) (hd : d < 2) (r : ℕ) (hr : r < 8) :
    bigSep ((sched m).duties (dcell c (88 + d) (by omega)) r \ ∅)
        (fun e => (sched m).payload (dcell c (88 + d) (by omega)) r e)
      = dmaPay m c (88 + d) r := by
  rw [Finset.sdiff_empty, duties_local m c d hd r hr, bigSep_singleton]; rfl

/-! ## The destination's offset as the sender computes it

  A device that sends in direction 0 writes into its successor's array at the row the successor, counting from its
  own position, reads from; in direction 1 the same with the predecessor. -/

theorem off4_to_succ_0 (c : Dev nD) : k0_off4 c 0#32 1#32 0#32 = k0_off2 (succD c) 0#32 0#32 := by
  have h := off4_pred_0 (succD c); rwa [pred_succ] at h
theorem off4_to_succ_1 (c : Dev nD) : k0_off4 c 0#32 1#32 1#32 = k0_off2 (succD c) 0#32 1#32 := by
  have h := off4_pred_1 (succD c); rwa [pred_succ] at h
theorem off4_to_succ_2 (c : Dev nD) : k0_off4 c 0#32 1#32 2#32 = k0_off2 (succD c) 0#32 2#32 := by
  have h := off4_pred_2 (succD c); rwa [pred_succ] at h
theorem off4_to_succ_3 (c : Dev nD) : k0_off4 c 0#32 1#32 3#32 = k0_off2 (succD c) 0#32 3#32 := by
  have h := off4_pred_3 (succD c); rwa [pred_succ] at h
theorem off4_to_succ_4 (c : Dev nD) : k0_off4 c 0#32 1#32 4#32 = k0_off2 (succD c) 0#32 4#32 := by
  have h := off4_pred_4 (succD c); rwa [pred_succ] at h
theorem off4_to_succ_5 (c : Dev nD) : k0_off4 c 0#32 1#32 5#32 = k0_off2 (succD c) 0#32 5#32 := by
  have h := off4_pred_5 (succD c); rwa [pred_succ] at h
theorem off4_to_succ_6 (c : Dev nD) : k0_off4 c 0#32 1#32 6#32 = k0_off2 (succD c) 0#32 6#32 := by
  have h := off4_pred_6 (succD c); rwa [pred_succ] at h
theorem off4_to_pred_0 (c : Dev nD) : k0_off4 c 4096#32 4294967295#32 0#32 = k0_off2 (predD c) 4096#32 0#32 := by
  have h := off4_succ_0 (predD c); rwa [succ_pred] at h
theorem off4_to_pred_1 (c : Dev nD) : k0_off4 c 4096#32 4294967295#32 4294967295#32 = k0_off2 (predD c) 4096#32 4294967295#32 := by
  have h := off4_succ_1 (predD c); rwa [succ_pred] at h
theorem off4_to_pred_2 (c : Dev nD) : k0_off4 c 4096#32 4294967295#32 4294967294#32 = k0_off2 (predD c) 4096#32 4294967294#32 := by
  have h := off4_succ_2 (predD c); rwa [succ_pred] at h
theorem off4_to_pred_3 (c : Dev nD) : k0_off4 c 4096#32 4294967295#32 4294967293#32 = k0_off2 (predD c) 4096#32 4294967293#32 := by
  have h := off4_succ_3 (predD c); rwa [succ_pred] at h
theorem off4_to_pred_4 (c : Dev nD) : k0_off4 c 4096#32 4294967295#32 4294967292#32 = k0_off2 (predD c) 4096#32 4294967292#32 := by
  have h := off4_succ_4 (predD c); rwa [succ_pred] at h
theorem off4_to_pred_5 (c : Dev nD) : k0_off4 c 4096#32 4294967295#32 4294967291#32 = k0_off2 (predD c) 4096#32 4294967291#32 := by
  have h := off4_succ_5 (predD c); rwa [succ_pred] at h
theorem off4_to_pred_6 (c : Dev nD) : k0_off4 c 4096#32 4294967295#32 4294967290#32 = k0_off2 (predD c) 4096#32 4294967290#32 := by
  have h := off4_succ_6 (predD c); rwa [succ_pred] at h

/-! ## Every payload can be stored in a cell

  What a device gives a neighbour is a separating conjunction of some thirty regions and facts; finding that each
  can be stored takes a search through all of them, for which the default budgets of size and time are too small. -/

set_option synthInstance.maxSize 4096 in
set_option synthInstance.maxHeartbeats 400000 in
instance give1_storable (g : Dev nD) : BI.Storable (upEmb : UEmb _ 𝕄) (give1 (F := F) g) := by
  unfold give1; infer_instance
set_option synthInstance.maxSize 4096 in
set_option synthInstance.maxHeartbeats 400000 in
instance give0_storable (g : Dev nD) : BI.Storable (upEmb : UEmb _ 𝕄) (give0 (F := F) g) := by
  unfold give0; infer_instance
set_option synthInstance.maxSize 4096 in
set_option synthInstance.maxHeartbeats 400000 in
instance giveZ_storable (g o : Dev nD) : BI.Storable (upEmb : UEmb _ 𝕄) (giveZ (F := F) g o) := by
  unfold giveZ; infer_instance

instance barPay_storable (c : Dev nD) (d : Fin 3) : BI.Storable (upEmb : UEmb _ 𝕄) (barPay (F := F) c d) := by
  unfold barPay
  split
  · unfold barPay0; infer_instance
  · unfold barPay1; infer_instance
  · unfold barPay2; infer_instance

instance dmaPay_storable (c : Dev nD) (i r : ℕ) : BI.Storable (upEmb : UEmb _ 𝕄) (dmaPay m c i r) := by
  unfold dmaPay; split <;> infer_instance

instance payload_storable (g : GSem nD τ sig) (r : ℕ) (d : Fin 3) :
    BI.Storable (upEmb : UEmb _ 𝕄) ((sched m).payload g r d) := by
  show BI.Storable upEmb (match g.2 with | .reg _ => barPay g.1.1 d | .dma i => dmaPay m g.1.1 i.val r)
  split <;> infer_instance

/-- info: 'Cert.KernelIdeal.Sched.payload_storable' depends on axioms: [propext, Classical.choice, Quot.sound] -/
#guard_msgs in #print axioms payload_storable

end Cert.KernelIdeal.Sched

end
-- ==== Proof.Launch.lean ====
/-
  The launch of the collective. From the memory in which every semaphore counter is zero, the 32 devices' ghost
  state is minted at once: each cell of each device (its barrier semaphore and its ninety DMA semaphores) gets its
  invariant at the first round, each device its position at the start of each of its own cells, and the duty tokens
  of a device's cells are dealt to the devices that pay them: its ring predecessor, its ring successor and its pair
  partner for the barrier and the arrival cells, itself for the departure cells and the cells of the local copies.
  What the three peers owe into a device's cells at launch comes to it as credit. With each device's body shown
  separately to take this start state to the result, every weakly fair run of the program ends with each device's
  result array at the reduced contents and its argument array unchanged.
-/
import proofs.«900727_g7700000000000728_dist_ar_v7x_xyz2x4x4_y_m16384_n1024_f32_1_alg».proof.Proof.State
import proofs.«900727_g7700000000000728_dist_ar_v7x_xyz2x4x4_y_m16384_n1024_f32_1_alg».proof.Proof.RingFacts
import proofs.«900727_g7700000000000728_dist_ar_v7x_xyz2x4x4_y_m16384_n1024_f32_1_alg».proof.Proof.Tables
import proofs.«900727_g7700000000000728_dist_ar_v7x_xyz2x4x4_y_m16384_n1024_f32_1_alg».proof.Proof.Gen.KernelIdeal.Frame
import Idealize.ShloMosaic.Lib.Pipeline.Launch
import Idealize.ShloMosaic.Lib.Pipeline.Kit
import Idealize.ShloMosaic.Lib.Tactic

set_option maxRecDepth 16384

noncomputable section

namespace Cert.KernelIdeal.Launch

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from and ends with -/

/-- Device c's four buffers, each whole: the argument array at what it held at launch, the result array, the
    exchange buffer and the staging buffer at the given contents. -/
def bufs0 (c : Dev nD) (fo : Buf (Elt F) ((c : Thread nD τ).loc main_v1)) (fc : Buf (Elt F) ((c : Thread nD τ).loc cc0_scratch0))
    (fs : Buf (Elt F) ((c : Thread nD τ).loc cc0_scratch1)) : sProp 𝕄 :=
  iprop((((c : Thread nD τ).loc main_arg0) ↦{fullShare} X m c) ∗ (((c : Thread nD τ).loc main_v1) ↦{fullShare} fo)
    ∗ (((c : Thread nD τ).loc cc0_scratch0) ↦{fullShare} fc) ∗ (((c : Thread nD τ).loc cc0_scratch1) ↦{fullShare} fs))

/-- What the launch hands device c: the ghost state at some names, the credit of what its peers pay into its cells,
    the level facts, its argument array at what it held and its result array at some contents. -/
def start (c : Dev nD) : sProp 𝕄 :=
  iprop((∃ K, State.ghost m K c) ∗ State.creds (F := F) c ∗ levAts State.L State.lv
    ∗ (((c : Thread nD τ).loc main_arg0) ↦{fullShare} X m c) ∗ (∃ fo, ((c : Thread nD τ).loc main_v1) ↦{fullShare} fo))

/-- Before the body: that, and the two scratch buffers at some contents. -/
def Φ₀ (c : Dev nD) : sProp 𝕄 :=
  iprop(start m c ∗ (∃ fc, ((c : Thread nD τ).loc cc0_scratch0) ↦{fullShare} fc) ∗ (∃ fs, ((c : Thread nD τ).loc cc0_scratch1) ↦{fullShare} fs))

/-- After the body: the argument array unchanged, the result array at the reduced contents, the scratch buffers at
    some contents, and the ninety DMA semaphores back at zero. -/
def Φ₁ (c : Dev nD) : sProp 𝕄 :=
  iprop((((c : Thread nD τ).loc main_arg0) ↦{fullShare} X m c) ∗ (((c : Thread nD τ).loc main_v1) ↦{fullShare} Res m c)
    ∗ (∃ fc, ((c : Thread nD τ).loc cc0_scratch0) ↦{fullShare} fc) ∗ (∃ fs, ((c : Thread nD τ).loc cc0_scratch1) ↦{fullShare} fs)
    ∗ bigSep Finset.univ (fun i : Fin 90 => semVal (dcell c i.val i.isLt) 0))

/-- The proof data of the one region: no staged window, one point, Φ₀ before it and Φ₁ after it; the device owes
    O₀ before the point and nothing after it. -/
def dats (m : (ℓ : Loc nD τ sig) → Buf (Elt F) ℓ) (ρ : Dev nD → PrngReg) (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => State.O₀ c
    | ⟨_ + 1, _⟩ => 0

/-! ## The cells and the tokens minted at launch -/

/-- The kernel's own scoped semaphores: the ninety DMA semaphores. -/
abbrev osem : Fin 90 → SemLoc sig := fun i => .dma i

theorem ownSemFacts : Pipeline.OwnSemFacts cfg0.spec osem := by decide

theorem L_of_ne (g : GSem nD τ sig) (h : g.1.2 ≠ .tc) : State.L g = ∅ := if_neg h

/-- The cell numbered k + 1 of a device is its DMA semaphore k. -/
theorem csem_succ (i : ℕ) (hi : i < 90) : State.csem ⟨i + 1, by omega⟩ = .dma (dsem i hi) := by
  show (if h : i + 1 = 0 then _ else _) = _
  rw [dif_neg (Nat.succ_ne_zero i)]
  rfl

theorem csem_inj {k k' : Fin 91} (h : State.csem k = State.csem k') : k = k' := by
  obtain ⟨k, hk⟩ := k
  obtain ⟨k', hk'⟩ := k'
  rcases k with _ | k <;> rcases k' with _ | k'
  · rfl
  · rw [csem_succ k' (by omega)] at h; cases h
  · rw [csem_succ k (by omega)] at h; cases h
  · rw [csem_succ k (by omega), csem_succ k' (by omega)] at h
    have := congrArg Fin.val (SemLoc.dma.inj h)
    exact Fin.ext (congrArg (· + 1) this)

theorem kcell_injective : Function.Injective (State.kcell : Dev nD × Fin 91 → GSem nD τ sig) := by
  rintro ⟨c, k⟩ ⟨c', k'⟩ h
  have h1 : c = c' := congrArg (fun g : GSem nD τ sig => g.1.1) h
  subst h1
  have h2 : State.csem k = State.csem k' := congrArg Prod.snd h
  rw [csem_inj h2]
def allCells : Finset (GSem nD τ sig) := Finset.univ.map ⟨State.kcell, kcell_injective⟩

/-- The duties of one device's cells at launch: the three of its barrier cell; the one of the first round of each of
    the 88 cells of the remote copies; the one of each of the eight rounds of the two cells of the local copies. -/
abbrev TokIx : Type := Fin 3 ⊕ Fin 14 ⊕ Fin 14 ⊕ Fin 16 ⊕ Fin 28 ⊕ Fin 16 ⊕ (Fin 2 × Fin 8)

/-- The token of a duty: the three barrier duties; the arrival cells 28 + k and 42 + k of the two ring directions
    and 72 + j of the pair; the departure cells i and 56 + i; round r of the local cell 88 + j. -/
abbrev tokOf (cj : Dev nD × TokIx) : GSem nD τ sig × ℕ × Fin 3 := match cj.2 with
  | .inl d => (barCell cj.1, 0, d)
  | .inr (.inl k) => (dcell cj.1 (28 + k.val) (by have := k.isLt; omega), 0, 0)
  | .inr (.inr (.inl k)) => (dcell cj.1 (42 + k.val) (by have := k.isLt; omega), 0, 0)
  | .inr (.inr (.inr (.inl j))) => (dcell cj.1 (72 + j.val) (by have := j.isLt; omega), 0, 0)
  | .inr (.inr (.inr (.inr (.inl i)))) => (dcell cj.1 i.val (by have := i.isLt; omega), 0, 0)
  | .inr (.inr (.inr (.inr (.inr (.inl i))))) => (dcell cj.1 (56 + i.val) (by have := i.isLt; omega), 0, 0)
  | .inr (.inr (.inr (.inr (.inr (.inr jr))))) => (dcell cj.1 (88 + jr.1.val) (by have := jr.1.isLt; omega), jr.2.val, 0)

theorem dma_idx {i j : ℕ} {hi : i < 90} {hj : j < 90} (h : (SemLoc.dma (dsem i hi) : SemLoc sig) = .dma (dsem j hj)) : i = j :=
  congrArg Fin.val (SemLoc.dma.inj h)

theorem tokOf_injective : Function.Injective (tokOf : Dev nD × TokIx → GSem nD τ sig × ℕ × Fin 3) := by
  rintro ⟨c, a⟩ ⟨c', b⟩ h
  have hc : c = c' := by
    have := congrArg (fun x : GSem nD τ sig × ℕ × Fin 3 => x.1.1.1) h
    rcases a with a | a | a | a | a | a | a <;> rcases b with b | b | b | b | b | b | b <;> exact this
  subst hc
  have h1 := congrArg (fun x : GSem nD τ sig × ℕ × Fin 3 => x.1.2) h
  have h2 := congrArg (fun x : GSem nD τ sig × ℕ × Fin 3 => x.2.1) h
  have h3 := congrArg (fun x : GSem nD τ sig × ℕ × Fin 3 => x.2.2) h
  rcases a with a | a | a | a | a | a | a <;> rcases b with b | b | b | b | b | b | b <;>
    first
    | (have e : a = b := h3; rw [e])
    | (exact absurd h1 (fun h' => by cases h'))
    | (have e := dma_idx h1; have ha := a.isLt; have hb := b.isLt
       first
       | (exfalso; omega)
       | (have e' : a = b := Fin.ext (by omega); rw [e']))
    | (have e := dma_idx h1; have ha := a.1.isLt; have hb := b.isLt; exfalso; omega)
    | (have e := dma_idx h1; have ha := a.isLt; have hb := b.1.isLt; exfalso; omega)
    | (have e := dma_idx h1; have e2 : a.2.val = b.2.val := h2
       have e' : a = b := Prod.ext (Fin.ext (by omega)) (Fin.ext e2); rw [e'])
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device c's own cells, as minted. -/
def mint (c : Dev nD) : sProp 𝕄 :=
  bigSep Finset.univ fun j : TokIx => dutyTok (ER (F := F)) (tokOf (c, j)).1 (tokOf (c, j)).2.1 (tokOf (c, j)).2.2

/-- What the launch element deals device c. -/
def G (c : Dev nD) : sProp 𝕄 :=
  iprop((bigSep Finset.univ fun k : Fin 91 => roundState (ER (F := F)) (sched m) (State.kcell (c, k)) 0)
    ∗ (bigSep Finset.univ fun k : Fin 91 => atPos (ER (F := F)) (State.kcell (c, k)) 0 ∅ 0)
    ∗ (bigSep Finset.univ fun k : Fin 91 => reached (ER (F := F)) (State.kcell (c, k)) 0) ∗ mint (F := F) c)

/-- What the global step makes of it. -/
def G' (c : Dev nD) : sProp 𝕄 := iprop(∃ K, State.ghost m K c)

/-! ## Funding -/

theorem fund_all : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 91 => Φ (State.kcell (c, k)) := by
    unfold allCells; rw [bigSep_map, bigSep_univ_prod]; rfl
  have hT : bigSep allToks (fun x => (dutyTok (ER (F := F)) x.1 x.2.1 x.2.2 : sProp 𝕄)) = bigSep Finset.univ fun c : Dev nD => mint (F := F) c := by
    unfold allToks; rw [bigSep_map, bigSep_univ_prod]; rfl
  iintro HX
  imod (Rounds.fund (ER (F := F)) (sched m) allCells allToks) $$ HX with ⟨Hst, Hr, Hat, Htok⟩
  imodintro
  ihave Hst' := (Entails.of_eq (hX fun g => roundState (ER (F := F)) (sched m) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The cells' invariants allocated -/

theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]
  rfl

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 91 => semVal (State.kcell (c, k)) 0 : sProp 𝕄) := by
  have e : (bigSep Finset.univ fun i : Fin 90 => (semVal (State.kcell (c, i.succ)) 0 : sProp 𝕄))
      = bigSep Finset.univ fun i : Fin 90 => semVal ((c : Thread nD τ), osem i) 0 :=
    bigSep_congr fun i _ => by
      show semVal ((c : Thread nD τ), State.csem ⟨i.val + 1, _⟩) 0 = _
      rw [csem_succ i.val i.isLt]
  rw [unscopedSems0_eq, bigSep_fin_succ, e]
  unfold Pipeline.ownSems0
  iintro ⟨HS, HB⟩
  isplitl [HB]; · iexact HB
  iexact HS

/-- Device c's share after its cells' invariants are allocated. -/
def Ga (c : Dev nD) : sProp 𝕄 :=
  iprop((bigSep Finset.univ fun k : Fin 91 => iprop(∃ κ : ℕ, cellInv (ER (F := F)) (sched m) κ (State.kcell (c, k))))
    ∗ (bigSep Finset.univ fun k : Fin 91 => atPos (ER (F := F)) (State.kcell (c, k)) 0 ∅ 0)
    ∗ (bigSep Finset.univ fun k : Fin 91 => reached (ER (F := F)) (State.kcell (c, k)) 0) ∗ mint (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Ga m c := by
  unfold G Ga
  iintro ⟨Hos, Hus, Hst, Hat, Hr, Htok⟩
  ihave Hv := (sems0_eq (F := F) c) $$ [Hos Hus]
  · isplitl [Hos] <;> iassumption
  imod (show iprop((bigSep Finset.univ fun k : Fin 91 => semVal (State.kcell (c, k)) 0) ∗ bigSep Finset.univ fun k : Fin 91 => roundState (ER (F := F)) (sched m) (State.kcell (c, k)) 0)
      ⊢ (|={Set.univ}=> bigSep Finset.univ fun k : Fin 91 => iprop(∃ κ : ℕ, cellInv (ER (F := F)) (sched m) κ (State.kcell (c, k))) : sProp 𝕄) from by
        rw [← bigSep_sep']
        exact (bigSep_mono fun k _ => (Rounds.body_intro (ER (F := F)) (sched m) (State.kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The regrouping -/

/-- The invariants of all cells at the names K, and that the first round of every cell is reached. -/
def records (K : Dev nD × Fin 91 → ℕ) : sProp 𝕄 :=
  iprop((bigSep Finset.univ fun ck : Dev nD × Fin 91 => cellInv (ER (F := F)) (sched m) (K ck) (State.kcell ck))
    ∗ bigSep Finset.univ fun ck : Dev nD × Fin 91 => reached (ER (F := F)) (State.kcell ck) 0)

instance records_persistent (K : Dev nD × Fin 91 → ℕ) : BI.Persistent (records m K) := by unfold records; infer_instance

theorem inv_at0 (K : Dev nD × Fin 91 → ℕ) (ck : Dev nD × Fin 91) :
    (bigSep Finset.univ fun ck : Dev nD × Fin 91 => (cellInv (ER (F := F)) (sched m) (K ck) (State.kcell ck) : sProp 𝕄)) ⊢ cellInv (ER (F := F)) (sched m) (K ck) (State.kcell ck) :=
  bigSep_elim (Finset.mem_univ ck)
omit [FloatOps F] in
theorem reached_at0 (ck : Dev nD × Fin 91) :
    (bigSep Finset.univ fun ck : Dev nD × Fin 91 => (reached (ER (F := F)) (State.kcell ck) 0 : sProp 𝕄)) ⊢ reached (ER (F := F)) (State.kcell ck) 0 :=
  bigSep_elim (Finset.mem_univ ck)

theorem inv_at (K : Dev nD × Fin 91 → ℕ) (d : Dev nD) (j : Fin 91) :
    records m K ⊢ cellInv (ER (F := F)) (sched m) (K (d, j)) (State.kcell (d, j)) := by
  unfold records
  iintro ⟨HI, -⟩
  iapply (inv_at0 m K (d, j))
  iexact HI

theorem reached_at (K : Dev nD × Fin 91 → ℕ) (d : Dev nD) (j : Fin 91) :
    records m K ⊢ reached (ER (F := F)) (State.kcell (d, j)) 0 := by
  unfold records
  iintro ⟨-, HR⟩
  iapply (reached_at0 (F := F) (d, j))
  iexact HR

theorem reached_d (K : Dev nD × Fin 91 → ℕ) (d : Dev nD) (i : ℕ) (hi : i < 90) :
    records m K ⊢ reached (ER (F := F)) (dcell d i hi) 0 := by
  have h := reached_at m K d ⟨i + 1, by omega⟩
  rw [show State.kcell (d, (⟨i + 1, by omega⟩ : Fin 91)) = dcell d i hi from by
    show ((d : Thread nD τ), State.csem ⟨i + 1, _⟩) = _
    rw [csem_succ i hi]] at h
  exact h

theorem pers_sep {R A B : sProp 𝕄} [BI.Persistent R] (h1 : R ⊢ A) (h2 : R ⊢ B) : R ⊢ iprop(A ∗ B) := by
  iintro #H
  isplitr
  · iapply h1; iexact H
  · iapply h2; iexact H

theorem invs_of (K : Dev nD × Fin 91 → ℕ) (c : Dev nD) : records m K ⊢ State.invs m K c := by
  unfold State.invs
  iterate 137 (refine pers_sep (inv_at m K _ _) ?_)
  exact inv_at m K _ _

theorem reach_of (K : Dev nD × Fin 91 → ℕ) (c : Dev nD) : records m K ⊢ State.reach (F := F) c := by
  unfold State.reach
  refine pers_sep (reached_at m K (succD c) 0) ?_
  refine pers_sep (reached_at m K (predD c) 0) ?_
  refine pers_sep (reached_at m K (partD c) 0) ?_
  iterate 89 (refine pers_sep (reached_d m K c _ _) ?_)
  exact reached_d m K c _ _

/-! ## The tokens dealt to the devices that pay them -/

omit [FloatOps F] in
theorem bigSep_finRange {n : ℕ} (Φ : Fin n → sProp 𝕄) : bigSep Finset.univ Φ = bigSepL (List.finRange n) Φ :=
  bigSep_univ_eq_bigSepL (List.finRange n) (List.toFinset_finRange n).symm (List.nodup_finRange n) Φ

omit [FloatOps F] in
theorem chain2 (Φ : Fin 2 → sProp 𝕄) : bigSep Finset.univ Φ = iprop(Φ 0 ∗ Φ 1) := (bigSep_finRange Φ).trans rfl
omit [FloatOps F] in
theorem chain3 (Φ : Fin 3 → sProp 𝕄) : bigSep Finset.univ Φ = iprop(Φ 0 ∗ Φ 1 ∗ Φ 2) := (bigSep_finRange Φ).trans rfl
omit [FloatOps F] in
theorem chain8 (Φ : Fin 8 → sProp 𝕄) : bigSep Finset.univ Φ = iprop(Φ 0 ∗ Φ 1 ∗ Φ 2 ∗ Φ 3 ∗ Φ 4 ∗ Φ 5 ∗ Φ 6 ∗ Φ 7) := (bigSep_finRange Φ).trans rfl
omit [FloatOps F] in
theorem chain14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := (bigSep_finRange Φ).trans rfl
omit [FloatOps F] in
theorem chain16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := (bigSep_finRange Φ).trans rfl
omit [FloatOps F] in
theorem chain28 (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := (bigSep_finRange Φ).trans rfl

omit [FloatOps F] in
theorem sepA (P Q R : sProp 𝕄) : iprop((P ∗ Q) ∗ R) = iprop(P ∗ Q ∗ R) :=
  BI.Entails.antisymm Idealize.SL.BI.sep_assoc Idealize.SL.BI.sep_assoc'

/-- The tokens of device c's cells by group: the arrival cells of the two ring directions and of the pair, the
    departure cells of the ring and of the pair, the rounds of the two local cells. -/
abbrev tA (c : Dev nD) (k : Fin 14) : sProp 𝕄 := dutyTok (ER (F := F)) (dcell c (28 + k.val) (by have := k.isLt; omega)) 0 0
abbrev tB (c : Dev nD) (k : Fin 14) : sProp 𝕄 := dutyTok (ER (F := F)) (dcell c (42 + k.val) (by have := k.isLt; omega)) 0 0
abbrev tZ (c : Dev nD) (j : Fin 16) : sProp 𝕄 := dutyTok (ER (F := F)) (dcell c (72 + j.val) (by have := j.isLt; omega)) 0 0
abbrev tO (c : Dev nD) (i : Fin 28) : sProp 𝕄 := dutyTok (ER (F := F)) (dcell c i.val (by have := i.isLt; omega)) 0 0
abbrev tP (c : Dev nD) (i : Fin 16) : sProp 𝕄 := dutyTok (ER (F := F)) (dcell c (56 + i.val) (by have := i.isLt; omega)) 0 0
abbrev tL (c : Dev nD) (jr : Fin 2 × Fin 8) : sProp 𝕄 := dutyTok (ER (F := F)) (dcell c (88 + jr.1.val) (by have := jr.1.isLt; omega)) jr.2.val 0

omit [FloatOps F] in
theorem mint_eq (c : Dev nD) : mint (F := F) c = iprop(
    (dutyTok (ER (F := F)) (barCell c) 0 0 ∗ dutyTok (ER (F := F)) (barCell c) 0 1 ∗ dutyTok (ER (F := F)) (barCell c) 0 2)
    ∗ bigSep Finset.univ (tA (F := F) c) ∗ bigSep Finset.univ (tB (F := F) c) ∗ bigSep Finset.univ (tZ (F := F) c)
    ∗ bigSep Finset.univ (tO (F := F) c) ∗ bigSep Finset.univ (tP (F := F) c) ∗ bigSep Finset.univ (tL (F := F) c)) := by
  unfold mint
  rw [bigSep_univ_sum, bigSep_univ_sum, bigSep_univ_sum, bigSep_univ_sum, bigSep_univ_sum, bigSep_univ_sum, chain3]
  rfl

/-- What device c holds after the dealing: the barrier tokens of its three peers that it pays, the tokens of the
    arrival cells of its peers that it copies into, and the tokens of its own departure and local cells. -/
def dealt (c : Dev nD) : sProp 𝕄 :=
  iprop(dutyTok (ER (F := F)) (barCell (succD c)) 0 0 ∗ dutyTok (ER (F := F)) (barCell (predD c)) 0 1 ∗ dutyTok (ER (F := F)) (barCell (partD c)) 0 2
    ∗ bigSep Finset.univ (tA (F := F) (succD c)) ∗ bigSep Finset.univ (tB (F := F) (predD c)) ∗ bigSep Finset.univ (tZ (F := F) (partD c))
    ∗ bigSep Finset.univ (tO (F := F) c) ∗ bigSep Finset.univ (tP (F := F) c) ∗ bigSep Finset.univ (tL (F := F) c))

/-- The ring successor, the ring predecessor and the pair partner as permutations of the devices. -/
def eSucc : Dev nD ≃ Dev nD := ⟨succD, predD, pred_succ, succ_pred⟩
def ePred : Dev nD ≃ Dev nD := ⟨predD, succD, succ_pred, pred_succ⟩
def ePart : Dev nD ≃ Dev nD := ⟨partD, partD, part_part, part_part⟩

omit [FloatOps F] in
theorem mint_around : (bigSep Finset.univ fun c : Dev nD => (mint (F := F) c : sProp 𝕄)) ⊢ bigSep Finset.univ fun c : Dev nD => dealt (F := F) c := by
  have e0 : (bigSep Finset.univ fun c : Dev nD => (dutyTok (ER (F := F)) (barCell c) 0 0 : sProp 𝕄))
      = bigSep Finset.univ fun c : Dev nD => dutyTok (ER (F := F)) (barCell (succD c)) 0 0 := bigSep_univ_equiv eSucc _
  have e1 : (bigSep Finset.univ fun c : Dev nD => (dutyTok (ER (F := F)) (barCell c) 0 1 : sProp 𝕄))
      = bigSep Finset.univ fun c : Dev nD => dutyTok (ER (F := F)) (barCell (predD c)) 0 1 := bigSep_univ_equiv ePred _
  have e2 : (bigSep Finset.univ fun c : Dev nD => (dutyTok (ER (F := F)) (barCell c) 0 2 : sProp 𝕄))
      = bigSep Finset.univ fun c : Dev nD => dutyTok (ER (F := F)) (barCell (partD c)) 0 2 := bigSep_univ_equiv ePart _
  have eA : (bigSep Finset.univ fun c : Dev nD => (bigSep Finset.univ (tA (F := F) c) : sProp 𝕄))
      = bigSep Finset.univ fun c : Dev nD => bigSep Finset.univ (tA (F := F) (succD c)) := bigSep_univ_equiv eSucc _
  have eB : (bigSep Finset.univ fun c : Dev nD => (bigSep Finset.univ (tB (F := F) c) : sProp 𝕄))
      = bigSep Finset.univ fun c : Dev nD => bigSep Finset.univ (tB (F := F) (predD c)) := bigSep_univ_equiv ePred _
  have eZ : (bigSep Finset.univ fun c : Dev nD => (bigSep Finset.univ (tZ (F := F) c) : sProp 𝕄))
      = bigSep Finset.univ fun c : Dev nD => bigSep Finset.univ (tZ (F := F) (partD c)) := bigSep_univ_equiv ePart _
  rw [bigSep_congr (s := Finset.univ) (fun (c : Dev nD) _ => mint_eq (F := F) c)]
  unfold dealt
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep']
  iintro ⟨⟨H0, H1, H2⟩, HA, HB, HZ, HO, HP, HL⟩
  isplitl [H0]; · iapply (Entails.of_eq e0); iexact H0
  isplitl [H1]; · iapply (Entails.of_eq e1); iexact H1
  isplitl [H2]; · iapply (Entails.of_eq e2); iexact H2
  isplitl [HA]; · iapply (Entails.of_eq eA); iexact HA
  isplitl [HB]; · iapply (Entails.of_eq eB); iexact HB
  isplitl [HZ]; · iapply (Entails.of_eq eZ); iexact HZ
  isplitl [HO]; · iexact HO
  isplitl [HP]; · iexact HP
  iexact HL

omit [FloatOps F] in
set_option maxHeartbeats 1000000 in
theorem dealt_eq (c : Dev nD) : dealt (F := F) c = State.toks (F := F) c := by
  unfold dealt State.toks
  simp only [chain14, chain16, chain28, bigSep_univ_prod, chain2, chain8, sepA]
  rfl

omit [FloatOps F] in
set_option maxHeartbeats 4000000 in
theorem chain91 (Φ : Fin 91 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90) := (bigSep_finRange Φ).trans rfl

omit [FloatOps F] in
set_option maxHeartbeats 4000000 in
theorem poss_of (c : Dev nD) : (bigSep Finset.univ fun k : Fin 91 => (atPos (ER (F := F)) (State.kcell (c, k)) 0 ∅ 0 : sProp 𝕄)) = State.poss (F := F) c :=
  (chain91 _).trans rfl

/-- What stays with device c: its positions and the tokens dealt to it. -/
def linear (c : Dev nD) : sProp 𝕄 :=
  iprop((bigSep Finset.univ fun k : Fin 91 => atPos (ER (F := F)) (State.kcell (c, k)) 0 ∅ 0) ∗ dealt (F := F) c)

theorem ghost_intro (K : Dev nD × Fin 91 → ℕ) (c : Dev nD) : iprop(records m K ∗ linear (F := F) c) ⊢ G' m c := by
  unfold linear G' State.ghost
  iintro ⟨#HR, Hat, Htok⟩
  iexists K
  isplitr; · iapply (invs_of m K c); iexact HR
  isplitl [Hat]; · iapply (Entails.of_eq (poss_of (F := F) c)); iexact Hat
  isplitr; · iapply (reach_of m K c); iexact HR
  iapply (Entails.of_eq (dealt_eq (F := F) c)); iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => Ga m c) ⊢ bigSep Finset.univ (G' m) := by
  unfold Ga
  rw [bigSep_sep', bigSep_sep', bigSep_sep',
    ← bigSep_univ_prod (fun ck : Dev nD × Fin 91 => iprop(∃ κ : ℕ, cellInv (ER (F := F)) (sched m) κ (State.kcell ck))),
    ← bigSep_univ_prod (fun ck : Dev nD × Fin 91 => (reached (ER (F := F)) (State.kcell ck) 0 : sProp 𝕄))]
  iintro ⟨HI, Hat, #HR, Htok⟩
  ihave HK := (BI.bigSep_exists_pi Finset.univ (fun (ck : Dev nD × Fin 91) (κ : ℕ) => (cellInv (ER (F := F)) (sched m) κ (State.kcell ck) : sProp 𝕄))) $$ HI
  icases HK with ⟨%K, #HI⟩
  ihave Htk := (mint_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 91 => (atPos (ER (F := F)) (State.kcell (c, k)) 0 ∅ 0 : sProp 𝕄)) (dealt (F := F))).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- One summand of what the devices owe peeled off: every device d owing n units on semaphore sm of device f d,
    f a permutation of the devices, device c is dealt n units of credit on its own sm. -/
theorem cred_step (O : Dev nD → CellTallies nD τ sig Unit) (sm : SemLoc sig) (f finv : Dev nD → Dev nD)
    (h1 : ∀ c, f (finv c) = c) (h2 : ∀ d, finv (f d) = d) (n : ℕ) (c : Dev nD) :
    (Pipeline.launchCred (fun d => O d + tallyAt (((f d : Dev nD) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f finv h1 h2 () n c)

theorem lt90 {i : ℕ} (h : Nat.ble (i + 1) 90 = true) : i < 90 := Nat.le_of_ble_eq_true h

omit [FloatOps F] in
/-- The same for the DMA semaphore i and one chunk's credit. -/
theorem cred_dma (O : Dev nD → CellTallies nD τ sig Unit) (i : ℕ) (hi : i < 90) (f finv : Dev nD → Dev nD)
    (h1 : ∀ c, f (finv c) = c) (h2 : ∀ d, finv (f d) = d) (c : Dev nD) :
    (Pipeline.launchCred (fun d => O d + tallyAt (dcell (f d) i hi) () N) c : sProp 𝕄)
      ⊢ iprop(Pipeline.launchCred O c ∗ cred (tallyAt (dcell c i hi) () N)) :=
  cred_step O (.dma (dsem i hi)) f finv h1 h2 N c

omit [FloatOps F] in
theorem creds_intro (c : Dev nD) : (Pipeline.launchCred State.O₀ c : sProp 𝕄) ⊢ State.creds (F := F) c := by
  have hb : iprop(cred (tallyAt (barCell c) () 1) ∗ cred (tallyAt (barCell c) () 1) ∗ cred (tallyAt (barCell c) () 1))
      ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  iintro H
  ihave H := (cred_step (State.owed_1) (.reg barS) succD predD succ_pred pred_succ 1 c) $$ H
  icases H with ⟨H, B0⟩
  ihave H := (cred_step (State.owed_2) (.reg barS) predD succD pred_succ succ_pred 1 c) $$ H
  icases H with ⟨H, B1⟩
  ihave H := (cred_step (State.owed_3) (.reg barS) partD partD part_part part_part 1 c) $$ H
  icases H with ⟨H, B2⟩
  ihave H := (cred_dma (State.owed_4) 28 (lt90 rfl) succD predD succ_pred pred_succ c) $$ H
  icases H with ⟨H, C28⟩
  ihave H := (cred_dma (State.owed_5) 42 (lt90 rfl) predD succD pred_succ succ_pred c) $$ H
  icases H with ⟨H, C42⟩
  ihave H := (cred_dma (State.owed_6) 29 (lt90 rfl) succD predD succ_pred pred_succ c) $$ H
  icases H with ⟨H, C29⟩
  ihave H := (cred_dma (State.owed_7) 43 (lt90 rfl) predD succD pred_succ succ_pred c) $$ H
  icases H with ⟨H, C43⟩
  ihave H := (cred_dma (State.owed_8) 30 (lt90 rfl) succD predD succ_pred pred_succ c) $$ H
  icases H with ⟨H, C30⟩
  ihave H := (cred_dma (State.owed_9) 44 (lt90 rfl) predD succD pred_succ succ_pred c) $$ H
  icases H with ⟨H, C44⟩
  ihave H := (cred_dma (State.owed_10) 31 (lt90 rfl) succD predD succ_pred pred_succ c) $$ H
  icases H with ⟨H, C31⟩
  ihave H := (cred_dma (State.owed_11) 45 (lt90 rfl) predD succD pred_succ succ_pred c) $$ H
  icases H with ⟨H, C45⟩
  ihave H := (cred_dma (State.owed_12) 32 (lt90 rfl) succD predD succ_pred pred_succ c) $$ H
  icases H with ⟨H, C32⟩
  ihave H := (cred_dma (State.owed_13) 46 (lt90 rfl) predD succD pred_succ succ_pred c) $$ H
  icases H with ⟨H, C46⟩
  ihave H := (cred_dma (State.owed_14) 33 (lt90 rfl) succD predD succ_pred pred_succ c) $$ H
  icases H with ⟨H, C33⟩
  ihave H := (cred_dma (State.owed_15) 47 (lt90 rfl) predD succD pred_succ succ_pred c) $$ H
  icases H with ⟨H, C47⟩
  ihave H := (cred_dma (State.owed_16) 34 (lt90 rfl) succD predD succ_pred pred_succ c) $$ H
  icases H with ⟨H, C34⟩
  ihave H := (cred_dma (State.owed_17) 48 (lt90 rfl) predD succD pred_succ succ_pred c) $$ H
  icases H with ⟨H, C48⟩
  ihave H := (cred_dma (State.owed_18) 72 (lt90 rfl) partD partD part_part part_part c) $$ H
  icases H with ⟨H, C72⟩
  ihave H := (cred_dma (State.owed_19) 80 (lt90 rfl) partD partD part_part part_part c) $$ H
  icases H with ⟨H, C80⟩
  ihave H := (cred_dma (State.owed_20) 35 (lt90 rfl) succD predD succ_pred pred_succ c) $$ H
  icases H with ⟨H, C35⟩
  ihave H := (cred_dma (State.owed_21) 49 (lt90 rfl) predD succD pred_succ succ_pred c) $$ H
  icases H with ⟨H, C49⟩
  ihave H := (cred_dma (State.owed_22) 73 (lt90 rfl) partD partD part_part part_part c) $$ H
  icases H with ⟨H, C73⟩
  ihave H := (cred_dma (State.owed_23) 81 (lt90 rfl) partD partD part_part part_part c) $$ H
  icases H with ⟨H, C81⟩
  ihave H := (cred_dma (State.owed_24) 36 (lt90 rfl) succD predD succ_pred pred_succ c) $$ H
  icases H with ⟨H, C36⟩
  ihave H := (cred_dma (State.owed_25) 50 (lt90 rfl) predD succD pred_succ succ_pred c) $$ H
  icases H with ⟨H, C50⟩
  ihave H := (cred_dma (State.owed_26) 74 (lt90 rfl) partD partD part_part part_part c) $$ H
  icases H with ⟨H, C74⟩
  ihave H := (cred_dma (State.owed_27) 82 (lt90 rfl) partD partD part_part part_part c) $$ H
  icases H with ⟨H, C82⟩
  ihave H := (cred_dma (State.owed_28) 37 (lt90 rfl) succD predD succ_pred pred_succ c) $$ H
  icases H with ⟨H, C37⟩
  ihave H := (cred_dma (State.owed_29) 51 (lt90 rfl) predD succD pred_succ succ_pred c) $$ H
  icases H with ⟨H, C51⟩
  ihave H := (cred_dma (State.owed_30) 75 (lt90 rfl) partD partD part_part part_part c) $$ H
  icases H with ⟨H, C75⟩
  ihave H := (cred_dma (State.owed_31) 83 (lt90 rfl) partD partD part_part part_part c) $$ H
  icases H with ⟨H, C83⟩
  ihave H := (cred_dma (State.owed_32) 38 (lt90 rfl) succD predD succ_pred pred_succ c) $$ H
  icases H with ⟨H, C38⟩
  ihave H := (cred_dma (State.owed_33) 52 (lt90 rfl) predD succD pred_succ succ_pred c) $$ H
  icases H with ⟨H, C52⟩
  ihave H := (cred_dma (State.owed_34) 76 (lt90 rfl) partD partD part_part part_part c) $$ H
  icases H with ⟨H, C76⟩
  ihave H := (cred_dma (State.owed_35) 84 (lt90 rfl) partD partD part_part part_part c) $$ H
  icases H with ⟨H, C84⟩
  ihave H := (cred_dma (State.owed_36) 39 (lt90 rfl) succD predD succ_pred pred_succ c) $$ H
  icases H with ⟨H, C39⟩
  ihave H := (cred_dma (State.owed_37) 53 (lt90 rfl) predD succD pred_succ succ_pred c) $$ H
  icases H with ⟨H, C53⟩
  ihave H := (cred_dma (State.owed_38) 77 (lt90 rfl) partD partD part_part part_part c) $$ H
  icases H with ⟨H, C77⟩
  ihave H := (cred_dma (State.owed_39) 85 (lt90 rfl) partD partD part_part part_part c) $$ H
  icases H with ⟨H, C85⟩
  ihave H := (cred_dma (State.owed_40) 40 (lt90 rfl) succD predD succ_pred pred_succ c) $$ H
  icases H with ⟨H, C40⟩
  ihave H := (cred_dma (State.owed_41) 54 (lt90 rfl) predD succD pred_succ succ_pred c) $$ H
  icases H with ⟨H, C54⟩
  ihave H := (cred_dma (State.owed_42) 78 (lt90 rfl) partD partD part_part part_part c) $$ H
  icases H with ⟨H, C78⟩
  ihave H := (cred_dma (State.owed_43) 86 (lt90 rfl) partD partD part_part part_part c) $$ H
  icases H with ⟨H, C86⟩
  ihave H := (cred_dma (State.owed_44) 41 (lt90 rfl) succD predD succ_pred pred_succ c) $$ H
  icases H with ⟨H, C41⟩
  ihave H := (cred_dma (State.owed_45) 55 (lt90 rfl) predD succD pred_succ succ_pred c) $$ H
  icases H with ⟨H, C55⟩
  ihave H := (cred_dma (State.owed_46) 79 (lt90 rfl) partD partD part_part part_part c) $$ H
  icases H with ⟨H, C79⟩
  ihave H := (cred_dma (State.owed_47) 87 (lt90 rfl) partD partD part_part part_part c) $$ H
  icases H with ⟨H, C87⟩
  unfold State.creds
  isplitl [B0 B1 B2]
  · iapply hb
    isplitl [B0]; · iexact B0
    isplitl [B1]; · iexact B1
    iexact B2
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  iexact C87

/-! ## The theorem's side conditions -/

theorem start_intro (c : Dev nD) :
    iprop(Pipeline.unscopedRestP Pipeline.Prefetch.none cfg0.spec c (fun b => m ((c : Thread nD τ).loc b)) ∗ levAts State.L State.lv
        ∗ Pipeline.launchCred State.O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%fc, Hc⟩, ⟨%fs, Hg⟩⟩
  isplitl [Hs]; · iexact Hs
  isplitl [Hc]; · iexists fc; iexact Hc
  iexists fs; iexact Hg

theorem phi1_exit (c : Dev nD) :
    (dats m ρ 0 c).Φ (Fin.last cfg0.N) ⊢ iprop(iprop((((c : Thread nD τ).loc main_arg0) ↦{fullShare} X m c) ∗ (((c : Thread nD τ).loc main_v1) ↦{fullShare} Res m c))
      ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hx, Ho, Hc, Hg, Hz⟩
  isplitl [Hx Ho]
  · isplitl [Hx]; · iexact Hx
    iexact Ho
  isplitl [Hz]; · iexact Hz
  isplitl [Hc]; · iexact Hc
  iexact Hg

theorem waits (c : Dev nD) : (levAts State.L State.lv : sProp 𝕄) ⊢ Pipeline.cellsWaits cfgs (dats m ρ) () 0 c :=
  Pipeline.cellsWaits_intro cfgs (dats m ρ) () 0 c fun w s t => w.elim0

theorem read_out (c : Dev nD) (s' : Phys nD τ sig (Elt F)) :
    iprop(iprop((((c : Thread nD τ).loc main_arg0) ↦{fullShare} X m c) ∗ (((c : Thread nD τ).loc main_v1) ↦{fullShare} Res m c)) ∗ emp ∗ SI s')
      ⊢ (|={Set.univ}=> iprop(⌜s'.mem.mem ((c : Thread nD τ).loc main_v1) = Res m c ∧ s'.mem.mem ((c : Thread nD τ).loc main_arg0) = m ((c : Thread nD τ).loc main_arg0)⌝ ∗ SI s') : sProp 𝕄) := by
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 16384 in
/-- At the compiled mesh of 32 devices, for any float values, from any memory with zero counters: if each device's
    body takes its start state to its end state, every weakly fair execution of @main terminates, and every final
    state has each device's result array at the reduced contents and its argument array unchanged. -/
theorem run_main (hbody : ∀ c, BodyObligation (dats (F := F) m ρ 0 c) (defs₀ (F := F)) Variants.none () Set.univ) :
    θ_run defs (onTc (τ := τ) (main (F := F))) (s₀ m ρ) (fun r => ∀ c : Dev nD,
      r.2.mem ((c.tc : Thread nD τ).loc main_v1) = Res m c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := hbody) (hne := fun w => w.elim0) (harr := arr_whole0) (hstage := stage_whole0) (hshare := fun _ w => w.elim0)
    (hdistinct := winFacts0.arr_inj)
    (O₀ := State.O₀) (howed₀ := fun _ => rfl) (howedN := fun _ => rfl)
    (L := State.L) (lv := State.lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop((((c : Thread nD τ).loc main_arg0) ↦{fullShare} X m c) ∗ (((c : Thread nD τ).loc main_v1) ↦{fullShare} Res m c)))
    (Z := fun _ => iprop(emp))
    (hX := start_intro m ρ) (hin := phi0_intro m ρ) (hout := phi1_exit m ρ)
    (QY := fun c s => s.mem ((c : Thread nD τ).loc main_v1) = Res m c ∧ s.mem ((c : Thread nD τ).loc main_arg0) = m ((c : Thread nD τ).loc main_arg0))
    (hY := read_out m)
    (hQ := fun s h c => (h c).2.2)

/-- info: 'Cert.KernelIdeal.Launch.run_main' depends on axioms: [propext, Classical.choice, Quot.sound] -/
#guard_msgs in #print axioms run_main

end Cert.KernelIdeal.Launch

end
-- ==== Proof.Levels.lean ====
/-
  Why a device may wait where it waits. Every cell has a level: a barrier cell 1, the arrival cell of ring step k
  the level 2 + k, an arrival cell of the pair 50, every other cell 0. A device may wait on one of its own cells
  while everything it still owes is owed to cells of strictly higher level. What a device owes before its j-th
  payment is a sum of amounts at single cells; such a sum is positive only at one of its summands' cells, so the
  least level among the summands' cells bounds from below the level of every cell something is owed to. The
  bounds are computed downward from the empty sum; each wait then compares the level of the cell waited on with
  the bound of what is owed at that point of the program.
-/
import proofs.«900727_g7700000000000728_dist_ar_v7x_xyz2x4x4_y_m16384_n1024_f32_1_alg».proof.Proof.State
import proofs.«900727_g7700000000000728_dist_ar_v7x_xyz2x4x4_y_m16384_n1024_f32_1_alg».proof.Proof.Canon

set_option maxRecDepth 16384

noncomputable section

namespace Cert.KernelIdeal.State

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums of amounts at single cells -/

/-- Level facts are kept for every cell of a TensorCore thread. -/
theorem L_tc (c : Dev nD) (sm : SemLoc sig) : L ((c : Thread nD τ), sm) = {()} := if_pos rfl

/-- Nothing owed: no cell to bound. -/
theorem pos_zero (b : ℕ) (g : GSem nD τ sig) (u : Unit) (h : 0 < (0 : CellTallies nD τ sig Unit) g u) :
    g.1.2 = .tc ∧ b ≤ lv g u :=
  absurd h (Nat.lt_irrefl 0)

/-- One more amount, at a TensorCore cell of level l: if the sum so far is positive only at TensorCore cells of
    level at least b', the longer sum is positive only at TensorCore cells of level at least b, for b ≤ l, b'. -/
theorem pos_step {O : CellTallies nD τ sig Unit} {cell : GSem nD τ sig} {k : ℕ} (b b' l : ℕ)
    (hO : ∀ (g : GSem nD τ sig) (u : Unit), 0 < O g u → g.1.2 = .tc ∧ b' ≤ lv g u)
    (hc : cell.1.2 = .tc) (hl : lv cell () = l) (hbl : b ≤ l) (hb : b ≤ b')
    (g : GSem nD τ sig) (u : Unit) (h : 0 < (O + tallyAt cell () k) g u) : g.1.2 = .tc ∧ b ≤ lv g u := by
  rw [Pi.add_apply, Finsupp.add_apply, tallyAt_apply] at h
  by_cases hg : g = cell ∧ u = ()
  · obtain ⟨hg1, hg2⟩ := hg
    subst hg1
    exact ⟨hc, by rw [hl]; exact hbl⟩
  · rw [if_neg hg, Nat.add_zero] at h
    exact ⟨(hO g u h).1, le_trans hb (hO g u h).2⟩

omit [FloatOps F] in
/-- A device may wait on its cell of level l while what it owes is positive only at TensorCore cells of level at
    least b, for l < b. -/
theorem mayWait_of (c : Dev nD) (sm : SemLoc sig) (O : CellTallies nD τ sig Unit) (l b : ℕ)
    (hl : lv ((c : Thread nD τ), sm) () = l) (hlb : l < b)
    (hO : ∀ (g : GSem nD τ sig) (u : Unit), 0 < O g u → g.1.2 = .tc ∧ b ≤ lv g u) :
    (levAts L lv : sProp 𝕄) ⊢ MayWait (c : Thread nD τ) sm () O :=
  MayOwe.of_cut (L := L) (lev := lv) l
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact le_of_eq hl)
    (fun g u hg => lt_of_lt_of_le hlb (hO g u hg).2)

/-! ## The bound of each partial sum -/

theorem owed_pos_47 (c : Dev nD) (g : GSem nD τ sig) (u : Unit) (h : 0 < owed_47 c g u) : g.1.2 = .tc ∧ 50 ≤ lv g u :=
  pos_zero 50 g u h
theorem owed_pos_46 (c : Dev nD) (g : GSem nD τ sig) (u : Unit) (h : 0 < owed_46 c g u) : g.1.2 = .tc ∧ 50 ≤ lv g u :=
  pos_step (O := owed_47 c) (cell := dcell (partD c) 87) (k := N) 50 50 50 (owed_pos_47 c) rfl rfl (by decide) (by decide) g u h
theorem owed_pos_45 (c : Dev nD) (g : GSem nD τ sig) (u : Unit) (h : 0 < owed_45 c g u) : g.1.2 = .tc ∧ 50 ≤ lv g u :=
  pos_step (O := owed_46 c) (cell := dcell (partD c) 79) (k := N) 50 50 50 (owed_pos_46 c) rfl rfl (by decide) (by decide) g u h
theorem owed_pos_44 (c : Dev nD) (g : GSem nD τ sig) (u : Unit) (h : 0 < owed_44 c g u) : g.1.2 = .tc ∧ 15 ≤ lv g u :=
  pos_step (O := owed_45 c) (cell := dcell (predD c) 55) (k := N) 15 50 15 (owed_pos_45 c) rfl rfl (by decide) (by decide) g u h
theorem owed_pos_43 (c : Dev nD) (g : GSem nD τ sig) (u : Unit) (h : 0 < owed_43 c g u) : g.1.2 = .tc ∧ 15 ≤ lv g u :=
  pos_step (O := owed_44 c) (cell := dcell (succD c) 41) (k := N) 15 15 15 (owed_pos_44 c) rfl rfl (by decide) (by decide) g u h
theorem owed_pos_42 (c : Dev nD) (g : GSem nD τ sig) (u : Unit) (h : 0 < owed_42 c g u) : g.1.2 = .tc ∧ 15 ≤ lv g u :=
  pos_step (O := owed_43 c) (cell := dcell (partD c) 86) (k := N) 15 15 50 (owed_pos_43 c) rfl rfl (by decide) (by decide) g u h
theorem owed_pos_41 (c : Dev nD) (g : GSem nD τ sig) (u : Unit) (h : 0 < owed_41 c g u) : g.1.2 = .tc ∧ 15 ≤ lv g u :=
  pos_step (O := owed_42 c) (cell := dcell (partD c) 78) (k := N) 15 15 50 (owed_pos_42 c) rfl rfl (by decide) (by decide) g u h
theorem owed_pos_40 (c : Dev nD) (g : GSem nD τ sig) (u : Unit) (h : 0 < owed_40 c g u) : g.1.2 = .tc ∧ 14 ≤ lv g u :=
  pos_step (O := owed_41 c) (cell := dcell (predD c) 54) (k := N) 14 15 14 (owed_pos_41 c) rfl rfl (by decide) (by decide) g u h
theorem owed_pos_39 (c : Dev nD) (g : GSem nD τ sig) (u : Unit) (h : 0 < owed_39 c g u) : g.1.2 = .tc ∧ 14 ≤ lv g u :=
  pos_step (O := owed_40 c) (cell := dcell (succD c) 40) (k := N) 14 14 14 (owed_pos_40 c) rfl rfl (by decide) (by decide) g u h
theorem owed_pos_38 (c : Dev nD) (g : GSem nD τ sig) (u : Unit) (h : 0 < owed_38 c g u) : g.1.2 = .tc ∧ 14 ≤ lv g u :=
  pos_step (O := owed_39 c) (cell := dcell (partD c) 85) (k := N) 14 14 50 (owed_pos_39 c) rfl rfl (by decide) (by decide) g u h
theorem owed_pos_37 (c : Dev nD) (g : GSem nD τ sig) (u : Unit) (h : 0 < owed_37 c g u) : g.1.2 = .tc ∧ 14 ≤ lv g u :=
  pos_step (O := owed_38 c) (cell := dcell (partD c) 77) (k := N) 14 14 50 (owed_pos_38 c) rfl rfl (by decide) (by decide) g u h
theorem owed_pos_36 (c : Dev nD) (g : GSem nD τ sig) (u : Unit) (h : 0 < owed_36 c g u) : g.1.2 = .tc ∧ 13 ≤ lv g u :=
  pos_step (O := owed_37 c) (cell := dcell (predD c) 53) (k := N) 13 14 13 (owed_pos_37 c) rfl rfl (by decide) (by decide) g u h
theorem owed_pos_35 (c : Dev nD) (g : GSem nD τ sig) (u : Unit) (h : 0 < owed_35 c g u) : g.1.2 = .tc ∧ 13 ≤ lv g u :=
  pos_step (O := owed_36 c) (cell := dcell (succD c) 39) (k := N) 13 13 13 (owed_pos_36 c) rfl rfl (by decide) (by decide) g u h
theorem owed_pos_34 (c : Dev nD) (g : GSem nD τ sig) (u : Unit) (h : 0 < owed_34 c g u) : g.1.2 = .tc ∧ 13 ≤ lv g u :=
  pos_step (O := owed_35 c) (cell := dcell (partD c) 84) (k := N) 13 13 50 (owed_pos_35 c) rfl rfl (by decide) (by decide) g u h
theorem owed_pos_33 (c : Dev nD) (g : GSem nD τ sig) (u : Unit) (h : 0 < owed_33 c g u) : g.1.2 = .tc ∧ 13 ≤ lv g u :=
  pos_step (O := owed_34 c) (cell := dcell (partD c) 76) (k := N) 13 13 50 (owed_pos_34 c) rfl rfl (by decide) (by decide) g u h
theorem owed_pos_32 (c : Dev nD) (g : GSem nD τ sig) (u : Unit) (h : 0 < owed_32 c g u) : g.1.2 = .tc ∧ 12 ≤ lv g u :=
  pos_step (O := owed_33 c) (cell := dcell (predD c) 52) (k := N) 12 13 12 (owed_pos_33 c) rfl rfl (by decide) (by decide) g u h
theorem owed_pos_31 (c : Dev nD) (g : GSem nD τ sig) (u : Unit) (h : 0 < owed_31 c g u) : g.1.2 = .tc ∧ 12 ≤ lv g u :=
  pos_step (O := owed_32 c) (cell := dcell (succD c) 38) (k := N) 12 12 12 (owed_pos_32 c) rfl rfl (by decide) (by decide) g u h
theorem owed_pos_30 (c : Dev nD) (g : GSem nD τ sig) (u : Unit) (h : 0 < owed_30 c g u) : g.1.2 = .tc ∧ 12 ≤ lv g u :=
  pos_step (O := owed_31 c) (cell := dcell (partD c) 83) (k := N) 12 12 50 (owed_pos_31 c) rfl rfl (by decide) (by decide) g u h
theorem owed_pos_29 (c : Dev nD) (g : GSem nD τ sig) (u : Unit) (h : 0 < owed_29 c g u) : g.1.2 = .tc ∧ 12 ≤ lv g u :=
  pos_step (O := owed_30 c) (cell := dcell (partD c) 75) (k := N) 12 12 50 (owed_pos_30 c) rfl rfl (by decide) (by decide) g u h
theorem owed_pos_28 (c : Dev nD) (g : GSem nD τ sig) (u : Unit) (h : 0 < owed_28 c g u) : g.1.2 = .tc ∧ 11 ≤ lv g u :=
  pos_step (O := owed_29 c) (cell := dcell (predD c) 51) (k := N) 11 12 11 (owed_pos_29 c) rfl rfl (by decide) (by decide) g u h
theorem owed_pos_27 (c : Dev nD) (g : GSem nD τ sig) (u : Unit) (h : 0 < owed_27 c g u) : g.1.2 = .tc ∧ 11 ≤ lv g u :=
  pos_step (O := owed_28 c) (cell := dcell (succD c) 37) (k := N) 11 11 11 (owed_pos_28 c) rfl rfl (by decide) (by decide) g u h
theorem owed_pos_26 (c : Dev nD) (g : GSem nD τ sig) (u : Unit) (h : 0 < owed_26 c g u) : g.1.2 = .tc ∧ 11 ≤ lv g u :=
  pos_step (O := owed_27 c) (cell := dcell (partD c) 82) (k := N) 11 11 50 (owed_pos_27 c) rfl rfl (by decide) (by decide) g u h
theorem owed_pos_25 (c : Dev nD) (g : GSem nD τ sig) (u : Unit) (h : 0 < owed_25 c g u) : g.1.2 = .tc ∧ 11 ≤ lv g u :=
  pos_step (O := owed_26 c) (cell := dcell (partD c) 74) (k := N) 11 11 50 (owed_pos_26 c) rfl rfl (by decide) (by decide) g u h
theorem owed_pos_24 (c : Dev nD) (g : GSem nD τ sig) (u : Unit) (h : 0 < owed_24 c g u) : g.1.2 = .tc ∧ 10 ≤ lv g u :=
  pos_step (O := owed_25 c) (cell := dcell (predD c) 50) (k := N) 10 11 10 (owed_pos_25 c) rfl rfl (by decide) (by decide) g u h
theorem owed_pos_23 (c : Dev nD) (g : GSem nD τ sig) (u : Unit) (h : 0 < owed_23 c g u) : g.1.2 = .tc ∧ 10 ≤ lv g u :=
  pos_step (O := owed_24 c) (cell := dcell (succD c) 36) (k := N) 10 10 10 (owed_pos_24 c) rfl rfl (by decide) (by decide) g u h
theorem owed_pos_22 (c : Dev nD) (g : GSem nD τ sig) (u : Unit) (h : 0 < owed_22 c g u) : g.1.2 = .tc ∧ 10 ≤ lv g u :=
  pos_step (O := owed_23 c) (cell := dcell (partD c) 81) (k := N) 10 10 50 (owed_pos_23 c) rfl rfl (by decide) (by decide) g u h
theorem owed_pos_21 (c : Dev nD) (g : GSem nD τ sig) (u : Unit) (h : 0 < owed_21 c g u) : g.1.2 = .tc ∧ 10 ≤ lv g u :=
  pos_step (O := owed_22 c) (cell := dcell (partD c) 73) (k := N) 10 10 50 (owed_pos_22 c) rfl rfl (by decide) (by decide) g u h
theorem owed_pos_20 (c : Dev nD) (g : GSem nD τ sig) (u : Unit) (h : 0 < owed_20 c g u) : g.1.2 = .tc ∧ 9 ≤ lv g u :=
  pos_step (O := owed_21 c) (cell := dcell (predD c) 49) (k := N) 9 10 9 (owed_pos_21 c) rfl rfl (by decide) (by decide) g u h
theorem owed_pos_19 (c : Dev nD) (g : GSem nD τ sig) (u : Unit) (h : 0 < owed_19 c g u) : g.1.2 = .tc ∧ 9 ≤ lv g u :=
  pos_step (O := owed_20 c) (cell := dcell (succD c) 35) (k := N) 9 9 9 (owed_pos_20 c) rfl rfl (by decide) (by decide) g u h
theorem owed_pos_18 (c : Dev nD) (g : GSem nD τ sig) (u : Unit) (h : 0 < owed_18 c g u) : g.1.2 = .tc ∧ 9 ≤ lv g u :=
  pos_step (O := owed_19 c) (cell := dcell (partD c) 80) (k := N) 9 9 50 (owed_pos_19 c) rfl rfl (by decide) (by decide) g u h
theorem owed_pos_17 (c : Dev nD) (g : GSem nD τ sig) (u : Unit) (h : 0 < owed_17 c g u) : g.1.2 = .tc ∧ 9 ≤ lv g u :=
  pos_step (O := owed_18 c) (cell := dcell (partD c) 72) (k := N) 9 9 50 (owed_pos_18 c) rfl rfl (by decide) (by decide) g u h
theorem owed_pos_16 (c : Dev nD) (g : GSem nD τ sig) (u : Unit) (h : 0 < owed_16 c g u) : g.1.2 = .tc ∧ 8 ≤ lv g u :=
  pos_step (O := owed_17 c) (cell := dcell (predD c) 48) (k := N) 8 9 8 (owed_pos_17 c) rfl rfl (by decide) (by decide) g u h
theorem owed_pos_15 (c : Dev nD) (g : GSem nD τ sig) (u : Unit) (h : 0 < owed_15 c g u) : g.1.2 = .tc ∧ 8 ≤ lv g u :=
  pos_step (O := owed_16 c) (cell := dcell (succD c) 34) (k := N) 8 8 8 (owed_pos_16 c) rfl rfl (by decide) (by decide) g u h
theorem owed_pos_14 (c : Dev nD) (g : GSem nD τ sig) (u : Unit) (h : 0 < owed_14 c g u) : g.1.2 = .tc ∧ 7 ≤ lv g u :=
  pos_step (O := owed_15 c) (cell := dcell (predD c) 47) (k := N) 7 8 7 (owed_pos_15 c) rfl rfl (by decide) (by decide) g u h
theorem owed_pos_13 (c : Dev nD) (g : GSem nD τ sig) (u : Unit) (h : 0 < owed_13 c g u) : g.1.2 = .tc ∧ 7 ≤ lv g u :=
  pos_step (O := owed_14 c) (cell := dcell (succD c) 33) (k := N) 7 7 7 (owed_pos_14 c) rfl rfl (by decide) (by decide) g u h
theorem owed_pos_12 (c : Dev nD) (g : GSem nD τ sig) (u : Unit) (h : 0 < owed_12 c g u) : g.1.2 = .tc ∧ 6 ≤ lv g u :=
  pos_step (O := owed_13 c) (cell := dcell (predD c) 46) (k := N) 6 7 6 (owed_pos_13 c) rfl rfl (by decide) (by decide) g u h
theorem owed_pos_11 (c : Dev nD) (g : GSem nD τ sig) (u : Unit) (h : 0 < owed_11 c g u) : g.1.2 = .tc ∧ 6 ≤ lv g u :=
  pos_step (O := owed_12 c) (cell := dcell (succD c) 32) (k := N) 6 6 6 (owed_pos_12 c) rfl rfl (by decide) (by decide) g u h
theorem owed_pos_10 (c : Dev nD) (g : GSem nD τ sig) (u : Unit) (h : 0 < owed_10 c g u) : g.1.2 = .tc ∧ 5 ≤ lv g u :=
  pos_step (O := owed_11 c) (cell := dcell (predD c) 45) (k := N) 5 6 5 (owed_pos_11 c) rfl rfl (by decide) (by decide) g u h
theorem owed_pos_9 (c : Dev nD) (g : GSem nD τ sig) (u : Unit) (h : 0 < owed_9 c g u) : g.1.2 = .tc ∧ 5 ≤ lv g u :=
  pos_step (O := owed_10 c) (cell := dcell (succD c) 31) (k := N) 5 5 5 (owed_pos_10 c) rfl rfl (by decide) (by decide) g u h
theorem owed_pos_8 (c : Dev nD) (g : GSem nD τ sig) (u : Unit) (h : 0 < owed_8 c g u) : g.1.2 = .tc ∧ 4 ≤ lv g u :=
  pos_step (O := owed_9 c) (cell := dcell (predD c) 44) (k := N) 4 5 4 (owed_pos_9 c) rfl rfl (by decide) (by decide) g u h
theorem owed_pos_7 (c : Dev nD) (g : GSem nD τ sig) (u : Unit) (h : 0 < owed_7 c g u) : g.1.2 = .tc ∧ 4 ≤ lv g u :=
  pos_step (O := owed_8 c) (cell := dcell (succD c) 30) (k := N) 4 4 4 (owed_pos_8 c) rfl rfl (by decide) (by decide) g u h
theorem owed_pos_6 (c : Dev nD) (g : GSem nD τ sig) (u : Unit) (h : 0 < owed_6 c g u) : g.1.2 = .tc ∧ 3 ≤ lv g u :=
  pos_step (O := owed_7 c) (cell := dcell (predD c) 43) (k := N) 3 4 3 (owed_pos_7 c) rfl rfl (by decide) (by decide) g u h
theorem owed_pos_5 (c : Dev nD) (g : GSem nD τ sig) (u : Unit) (h : 0 < owed_5 c g u) : g.1.2 = .tc ∧ 3 ≤ lv g u :=
  pos_step (O := owed_6 c) (cell := dcell (succD c) 29) (k := N) 3 3 3 (owed_pos_6 c) rfl rfl (by decide) (by decide) g u h
theorem owed_pos_4 (c : Dev nD) (g : GSem nD τ sig) (u : Unit) (h : 0 < owed_4 c g u) : g.1.2 = .tc ∧ 2 ≤ lv g u :=
  pos_step (O := owed_5 c) (cell := dcell (predD c) 42) (k := N) 2 3 2 (owed_pos_5 c) rfl rfl (by decide) (by decide) g u h
theorem owed_pos_3 (c : Dev nD) (g : GSem nD τ sig) (u : Unit) (h : 0 < owed_3 c g u) : g.1.2 = .tc ∧ 2 ≤ lv g u :=
  pos_step (O := owed_4 c) (cell := dcell (succD c) 28) (k := N) 2 2 2 (owed_pos_4 c) rfl rfl (by decide) (by decide) g u h
theorem owed_pos_2 (c : Dev nD) (g : GSem nD τ sig) (u : Unit) (h : 0 < owed_2 c g u) : g.1.2 = .tc ∧ 1 ≤ lv g u :=
  pos_step (O := owed_3 c) (cell := barCell (partD c)) (k := 1) 1 2 1 (owed_pos_3 c) rfl rfl (by decide) (by decide) g u h
theorem owed_pos_1 (c : Dev nD) (g : GSem nD τ sig) (u : Unit) (h : 0 < owed_1 c g u) : g.1.2 = .tc ∧ 1 ≤ lv g u :=
  pos_step (O := owed_2 c) (cell := barCell (predD c)) (k := 1) 1 1 1 (owed_pos_2 c) rfl rfl (by decide) (by decide) g u h
theorem owed_pos_0 (c : Dev nD) (g : GSem nD τ sig) (u : Unit) (h : 0 < owed_0 c g u) : g.1.2 = .tc ∧ 1 ≤ lv g u :=
  pos_step (O := owed_1 c) (cell := barCell (succD c)) (k := 1) 1 1 1 (owed_pos_1 c) rfl rfl (by decide) (by decide) g u h

/-! ## The waits -/

omit [FloatOps F] in
theorem mayWait_bar (c : Dev nD) :
    (levAts L lv : sProp 𝕄) ⊢ MayWait (c : Thread nD τ) (.reg barS) () (owed_3 c) :=
  mayWait_of c (.reg barS) (owed_3 c) 1 2 rfl (by decide) (owed_pos_3 c)
omit [FloatOps F] in
theorem mayWait_rs0_0 (c : Dev nD) :
    (levAts L lv : sProp 𝕄) ⊢ MayWait (c : Thread nD τ) (.dma (dsem 28)) () (owed_5 c) :=
  mayWait_of c (.dma (dsem 28)) (owed_5 c) 2 3 rfl (by decide) (owed_pos_5 c)
omit [FloatOps F] in
theorem mayWait_rs1_0 (c : Dev nD) :
    (levAts L lv : sProp 𝕄) ⊢ MayWait (c : Thread nD τ) (.dma (dsem 42)) () (owed_5 c) :=
  mayWait_of c (.dma (dsem 42)) (owed_5 c) 2 3 rfl (by decide) (owed_pos_5 c)
omit [FloatOps F] in
theorem mayWait_loc0_0 (c : Dev nD) :
    (levAts L lv : sProp 𝕄) ⊢ MayWait (c : Thread nD τ) (.dma (dsem 88)) () (owed_5 c) :=
  mayWait_of c (.dma (dsem 88)) (owed_5 c) 0 3 rfl (by decide) (owed_pos_5 c)
omit [FloatOps F] in
theorem mayWait_loc1_0 (c : Dev nD) :
    (levAts L lv : sProp 𝕄) ⊢ MayWait (c : Thread nD τ) (.dma (dsem 89)) () (owed_5 c) :=
  mayWait_of c (.dma (dsem 89)) (owed_5 c) 0 3 rfl (by decide) (owed_pos_5 c)
omit [FloatOps F] in
theorem mayWait_rs0_1 (c : Dev nD) :
    (levAts L lv : sProp 𝕄) ⊢ MayWait (c : Thread nD τ) (.dma (dsem 29)) () (owed_7 c) :=
  mayWait_of c (.dma (dsem 29)) (owed_7 c) 3 4 rfl (by decide) (owed_pos_7 c)
omit [FloatOps F] in
theorem mayWait_rs1_1 (c : Dev nD) :
    (levAts L lv : sProp 𝕄) ⊢ MayWait (c : Thread nD τ) (.dma (dsem 43)) () (owed_7 c) :=
  mayWait_of c (.dma (dsem 43)) (owed_7 c) 3 4 rfl (by decide) (owed_pos_7 c)
omit [FloatOps F] in
theorem mayWait_loc0_1 (c : Dev nD) :
    (levAts L lv : sProp 𝕄) ⊢ MayWait (c : Thread nD τ) (.dma (dsem 88)) () (owed_7 c) :=
  mayWait_of c (.dma (dsem 88)) (owed_7 c) 0 4 rfl (by decide) (owed_pos_7 c)
omit [FloatOps F] in
theorem mayWait_loc1_1 (c : Dev nD) :
    (levAts L lv : sProp 𝕄) ⊢ MayWait (c : Thread nD τ) (.dma (dsem 89)) () (owed_7 c) :=
  mayWait_of c (.dma (dsem 89)) (owed_7 c) 0 4 rfl (by decide) (owed_pos_7 c)
omit [FloatOps F] in
theorem mayWait_rs0_2 (c : Dev nD) :
    (levAts L lv : sProp 𝕄) ⊢ MayWait (c : Thread nD τ) (.dma (dsem 30)) () (owed_9 c) :=
  mayWait_of c (.dma (dsem 30)) (owed_9 c) 4 5 rfl (by decide) (owed_pos_9 c)
omit [FloatOps F] in
theorem mayWait_rs1_2 (c : Dev nD) :
    (levAts L lv : sProp 𝕄) ⊢ MayWait (c : Thread nD τ) (.dma (dsem 44)) () (owed_9 c) :=
  mayWait_of c (.dma (dsem 44)) (owed_9 c) 4 5 rfl (by decide) (owed_pos_9 c)
omit [FloatOps F] in
theorem mayWait_loc0_2 (c : Dev nD) :
    (levAts L lv : sProp 𝕄) ⊢ MayWait (c : Thread nD τ) (.dma (dsem 88)) () (owed_9 c) :=
  mayWait_of c (.dma (dsem 88)) (owed_9 c) 0 5 rfl (by decide) (owed_pos_9 c)
omit [FloatOps F] in
theorem mayWait_loc1_2 (c : Dev nD) :
    (levAts L lv : sProp 𝕄) ⊢ MayWait (c : Thread nD τ) (.dma (dsem 89)) () (owed_9 c) :=
  mayWait_of c (.dma (dsem 89)) (owed_9 c) 0 5 rfl (by decide) (owed_pos_9 c)
omit [FloatOps F] in
theorem mayWait_rs0_3 (c : Dev nD) :
    (levAts L lv : sProp 𝕄) ⊢ MayWait (c : Thread nD τ) (.dma (dsem 31)) () (owed_11 c) :=
  mayWait_of c (.dma (dsem 31)) (owed_11 c) 5 6 rfl (by decide) (owed_pos_11 c)
omit [FloatOps F] in
theorem mayWait_rs1_3 (c : Dev nD) :
    (levAts L lv : sProp 𝕄) ⊢ MayWait (c : Thread nD τ) (.dma (dsem 45)) () (owed_11 c) :=
  mayWait_of c (.dma (dsem 45)) (owed_11 c) 5 6 rfl (by decide) (owed_pos_11 c)
omit [FloatOps F] in
theorem mayWait_loc0_3 (c : Dev nD) :
    (levAts L lv : sProp 𝕄) ⊢ MayWait (c : Thread nD τ) (.dma (dsem 88)) () (owed_11 c) :=
  mayWait_of c (.dma (dsem 88)) (owed_11 c) 0 6 rfl (by decide) (owed_pos_11 c)
omit [FloatOps F] in
theorem mayWait_loc1_3 (c : Dev nD) :
    (levAts L lv : sProp 𝕄) ⊢ MayWait (c : Thread nD τ) (.dma (dsem 89)) () (owed_11 c) :=
  mayWait_of c (.dma (dsem 89)) (owed_11 c) 0 6 rfl (by decide) (owed_pos_11 c)
omit [FloatOps F] in
theorem mayWait_rs0_4 (c : Dev nD) :
    (levAts L lv : sProp 𝕄) ⊢ MayWait (c : Thread nD τ) (.dma (dsem 32)) () (owed_13 c) :=
  mayWait_of c (.dma (dsem 32)) (owed_13 c) 6 7 rfl (by decide) (owed_pos_13 c)
omit [FloatOps F] in
theorem mayWait_rs1_4 (c : Dev nD) :
    (levAts L lv : sProp 𝕄) ⊢ MayWait (c : Thread nD τ) (.dma (dsem 46)) () (owed_13 c) :=
  mayWait_of c (.dma (dsem 46)) (owed_13 c) 6 7 rfl (by decide) (owed_pos_13 c)
omit [FloatOps F] in
theorem mayWait_loc0_4 (c : Dev nD) :
    (levAts L lv : sProp 𝕄) ⊢ MayWait (c : Thread nD τ) (.dma (dsem 88)) () (owed_13 c) :=
  mayWait_of c (.dma (dsem 88)) (owed_13 c) 0 7 rfl (by decide) (owed_pos_13 c)
omit [FloatOps F] in
theorem mayWait_loc1_4 (c : Dev nD) :
    (levAts L lv : sProp 𝕄) ⊢ MayWait (c : Thread nD τ) (.dma (dsem 89)) () (owed_13 c) :=
  mayWait_of c (.dma (dsem 89)) (owed_13 c) 0 7 rfl (by decide) (owed_pos_13 c)
omit [FloatOps F] in
theorem mayWait_rs0_5 (c : Dev nD) :
    (levAts L lv : sProp 𝕄) ⊢ MayWait (c : Thread nD τ) (.dma (dsem 33)) () (owed_15 c) :=
  mayWait_of c (.dma (dsem 33)) (owed_15 c) 7 8 rfl (by decide) (owed_pos_15 c)
omit [FloatOps F] in
theorem mayWait_rs1_5 (c : Dev nD) :
    (levAts L lv : sProp 𝕄) ⊢ MayWait (c : Thread nD τ) (.dma (dsem 47)) () (owed_15 c) :=
  mayWait_of c (.dma (dsem 47)) (owed_15 c) 7 8 rfl (by decide) (owed_pos_15 c)
omit [FloatOps F] in
theorem mayWait_loc0_5 (c : Dev nD) :
    (levAts L lv : sProp 𝕄) ⊢ MayWait (c : Thread nD τ) (.dma (dsem 88)) () (owed_15 c) :=
  mayWait_of c (.dma (dsem 88)) (owed_15 c) 0 8 rfl (by decide) (owed_pos_15 c)
omit [FloatOps F] in
theorem mayWait_loc1_5 (c : Dev nD) :
    (levAts L lv : sProp 𝕄) ⊢ MayWait (c : Thread nD τ) (.dma (dsem 89)) () (owed_15 c) :=
  mayWait_of c (.dma (dsem 89)) (owed_15 c) 0 8 rfl (by decide) (owed_pos_15 c)
omit [FloatOps F] in
theorem mayWait_rs0_6 (c : Dev nD) :
    (levAts L lv : sProp 𝕄) ⊢ MayWait (c : Thread nD τ) (.dma (dsem 34)) () (owed_17 c) :=
  mayWait_of c (.dma (dsem 34)) (owed_17 c) 8 9 rfl (by decide) (owed_pos_17 c)
omit [FloatOps F] in
theorem mayWait_rs1_6 (c : Dev nD) :
    (levAts L lv : sProp 𝕄) ⊢ MayWait (c : Thread nD τ) (.dma (dsem 48)) () (owed_17 c) :=
  mayWait_of c (.dma (dsem 48)) (owed_17 c) 8 9 rfl (by decide) (owed_pos_17 c)
omit [FloatOps F] in
theorem mayWait_loc0_6 (c : Dev nD) :
    (levAts L lv : sProp 𝕄) ⊢ MayWait (c : Thread nD τ) (.dma (dsem 88)) () (owed_17 c) :=
  mayWait_of c (.dma (dsem 88)) (owed_17 c) 0 9 rfl (by decide) (owed_pos_17 c)
omit [FloatOps F] in
theorem mayWait_loc1_6 (c : Dev nD) :
    (levAts L lv : sProp 𝕄) ⊢ MayWait (c : Thread nD τ) (.dma (dsem 89)) () (owed_17 c) :=
  mayWait_of c (.dma (dsem 89)) (owed_17 c) 0 9 rfl (by decide) (owed_pos_17 c)
omit [FloatOps F] in
theorem mayWait_loc0_7 (c : Dev nD) :
    (levAts L lv : sProp 𝕄) ⊢ MayWait (c : Thread nD τ) (.dma (dsem 88)) () (owed_17 c) :=
  mayWait_of c (.dma (dsem 88)) (owed_17 c) 0 9 rfl (by decide) (owed_pos_17 c)
omit [FloatOps F] in
theorem mayWait_loc1_7 (c : Dev nD) :
    (levAts L lv : sProp 𝕄) ⊢ MayWait (c : Thread nD τ) (.dma (dsem 89)) () (owed_18 c) :=
  mayWait_of c (.dma (dsem 89)) (owed_18 c) 0 9 rfl (by decide) (owed_pos_18 c)
omit [FloatOps F] in
theorem mayWait_ag0_0 (c : Dev nD) :
    (levAts L lv : sProp 𝕄) ⊢ MayWait (c : Thread nD τ) (.dma (dsem 35)) () (owed_21 c) :=
  mayWait_of c (.dma (dsem 35)) (owed_21 c) 9 10 rfl (by decide) (owed_pos_21 c)
omit [FloatOps F] in
theorem mayWait_ag1_0 (c : Dev nD) :
    (levAts L lv : sProp 𝕄) ⊢ MayWait (c : Thread nD τ) (.dma (dsem 49)) () (owed_22 c) :=
  mayWait_of c (.dma (dsem 49)) (owed_22 c) 9 10 rfl (by decide) (owed_pos_22 c)
omit [FloatOps F] in
theorem mayWait_ag0_1 (c : Dev nD) :
    (levAts L lv : sProp 𝕄) ⊢ MayWait (c : Thread nD τ) (.dma (dsem 36)) () (owed_25 c) :=
  mayWait_of c (.dma (dsem 36)) (owed_25 c) 10 11 rfl (by decide) (owed_pos_25 c)
omit [FloatOps F] in
theorem mayWait_ag1_1 (c : Dev nD) :
    (levAts L lv : sProp 𝕄) ⊢ MayWait (c : Thread nD τ) (.dma (dsem 50)) () (owed_26 c) :=
  mayWait_of c (.dma (dsem 50)) (owed_26 c) 10 11 rfl (by decide) (owed_pos_26 c)
omit [FloatOps F] in
theorem mayWait_ag0_2 (c : Dev nD) :
    (levAts L lv : sProp 𝕄) ⊢ MayWait (c : Thread nD τ) (.dma (dsem 37)) () (owed_29 c) :=
  mayWait_of c (.dma (dsem 37)) (owed_29 c) 11 12 rfl (by decide) (owed_pos_29 c)
omit [FloatOps F] in
theorem mayWait_ag1_2 (c : Dev nD) :
    (levAts L lv : sProp 𝕄) ⊢ MayWait (c : Thread nD τ) (.dma (dsem 51)) () (owed_30 c) :=
  mayWait_of c (.dma (dsem 51)) (owed_30 c) 11 12 rfl (by decide) (owed_pos_30 c)
omit [FloatOps F] in
theorem mayWait_ag0_3 (c : Dev nD) :
    (levAts L lv : sProp 𝕄) ⊢ MayWait (c : Thread nD τ) (.dma (dsem 38)) () (owed_33 c) :=
  mayWait_of c (.dma (dsem 38)) (owed_33 c) 12 13 rfl (by decide) (owed_pos_33 c)
omit [FloatOps F] in
theorem mayWait_ag1_3 (c : Dev nD) :
    (levAts L lv : sProp 𝕄) ⊢ MayWait (c : Thread nD τ) (.dma (dsem 52)) () (owed_34 c) :=
  mayWait_of c (.dma (dsem 52)) (owed_34 c) 12 13 rfl (by decide) (owed_pos_34 c)
omit [FloatOps F] in
theorem mayWait_ag0_4 (c : Dev nD) :
    (levAts L lv : sProp 𝕄) ⊢ MayWait (c : Thread nD τ) (.dma (dsem 39)) () (owed_37 c) :=
  mayWait_of c (.dma (dsem 39)) (owed_37 c) 13 14 rfl (by decide) (owed_pos_37 c)
omit [FloatOps F] in
theorem mayWait_ag1_4 (c : Dev nD) :
    (levAts L lv : sProp 𝕄) ⊢ MayWait (c : Thread nD τ) (.dma (dsem 53)) () (owed_38 c) :=
  mayWait_of c (.dma (dsem 53)) (owed_38 c) 13 14 rfl (by decide) (owed_pos_38 c)
omit [FloatOps F] in
theorem mayWait_ag0_5 (c : Dev nD) :
    (levAts L lv : sProp 𝕄) ⊢ MayWait (c : Thread nD τ) (.dma (dsem 40)) () (owed_41 c) :=
  mayWait_of c (.dma (dsem 40)) (owed_41 c) 14 15 rfl (by decide) (owed_pos_41 c)
omit [FloatOps F] in
theorem mayWait_ag1_5 (c : Dev nD) :
    (levAts L lv : sProp 𝕄) ⊢ MayWait (c : Thread nD τ) (.dma (dsem 54)) () (owed_42 c) :=
  mayWait_of c (.dma (dsem 54)) (owed_42 c) 14 15 rfl (by decide) (owed_pos_42 c)
omit [FloatOps F] in
theorem mayWait_ag0_6 (c : Dev nD) :
    (levAts L lv : sProp 𝕄) ⊢ MayWait (c : Thread nD τ) (.dma (dsem 41)) () (owed_45 c) :=
  mayWait_of c (.dma (dsem 41)) (owed_45 c) 15 50 rfl (by decide) (owed_pos_45 c)
omit [FloatOps F] in
theorem mayWait_ag1_6 (c : Dev nD) :
    (levAts L lv : sProp 𝕄) ⊢ MayWait (c : Thread nD τ) (.dma (dsem 55)) () (owed_46 c) :=
  mayWait_of c (.dma (dsem 55)) (owed_46 c) 15 50 rfl (by decide) (owed_pos_46 c)

/-- info: 'Cert.KernelIdeal.State.owed_pos_0' depends on axioms: [propext, Classical.choice, Quot.sound] -/
#guard_msgs in #print axioms owed_pos_0

/-- info: 'Cert.KernelIdeal.State.mayWait_bar' depends on axioms: [propext, Classical.choice, Quot.sound] -/
#guard_msgs in #print axioms mayWait_bar

/-- info: 'Cert.KernelIdeal.State.mayWait_ag1_6' depends on axioms: [propext, Classical.choice, Quot.sound] -/
#guard_msgs in #print axioms mayWait_ag1_6

end Cert.KernelIdeal.State

end
-- ==== Proof.Parts.lean ====
/-
  The buffers cut into the pieces the copies move. The argument and result arrays of 16384 rows are each the
  disjoint union of 32 chunks of 512 rows; the exchange buffer is the disjoint union of its 14 slots (direction,
  step) and the staging buffer of its 2 slots (direction). Ownership of a whole buffer is therefore the separating
  conjunction of the ownerships of its pieces, and a piece's view covers exactly its index set.
-/
import proofs.«900727_g7700000000000728_dist_ar_v7x_xyz2x4x4_y_m16384_n1024_f32_1_alg».proof.Proof.Vals
import Idealize.ShloMosaic.Lib.Pipeline.Value

noncomputable section

namespace Cert.KernelIdeal.Parts

open Cert.KernelIdeal Cert.KernelIdeal.Gen Cert.KernelIdeal.Ring Cert.KernelIdeal.Cells Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The 32 chunks of 512 rows of an array of 16384 rows -/

/-- Chunk `n` lies inside the array. -/
theorem chunk_inb (n : Fin 32) :
    ∀ a, (![512 * n.val, 0] : Fin 2 → ℕ) a + S512x1024.size a ≤ S16384x1024.size a := by
  have hn := n.isLt
  refine Fin.forall_fin_two.mpr ⟨?_, ?_⟩
  · show 512 * n.val + 512 ≤ 16384; omega
  · show 0 + 1024 ≤ 1024; omega

/-- The indices of rows `[512 n, 512 n + 512)`. -/
def chunkSet (n : Fin 32) : Finset S16384x1024.Idx :=
  (Rect.unit (s := S16384x1024) ![512 * n.val, 0] S512x1024.size (chunk_inb n)).set

theorem mem_chunkSet (n : Fin 32) (i : S16384x1024.Idx) : i ∈ chunkSet n ↔ (i 0).val / 512 = n.val := by
  unfold chunkSet
  rw [Rect.mem_set_unit, Fin.forall_fin_two]
  have h1 : (i 1).val < 1024 := (i 1).isLt
  show (512 * n.val ≤ (i 0).val ∧ (i 0).val < 512 * n.val + 512) ∧ (0 ≤ (i 1).val ∧ (i 1).val < 0 + 1024) ↔ _
  omega

theorem chunk_disjoint (a b : Fin 32) (h : a ≠ b) : Disjoint (chunkSet a) (chunkSet b) :=
  Finset.disjoint_left.mpr fun i ha hb =>
    h (Fin.ext (((mem_chunkSet a i).mp ha).symm.trans ((mem_chunkSet b i).mp hb)))

theorem chunk_cover : (Finset.univ : Finset S16384x1024.Idx) = Finset.univ.biUnion chunkSet := by
  ext i
  simp only [Finset.mem_univ, Finset.mem_biUnion, true_and, true_iff]
  have h0 : (i 0).val < 16384 := (i 0).isLt
  exact ⟨⟨(i 0).val / 512, by omega⟩, (mem_chunkSet _ i).mpr rfl⟩

/-! ## The result and argument arrays cut into their chunks -/

/-- The result array whole is its 32 chunks. -/
theorem out_eq (c : Dev nD) (q : PosShare TreeShare) (f : Buf (Elt F) ((c : Thread nD τ).loc main_v1)) :
    (((c : Thread nD τ).loc main_v1) ↦{q} f : sProp 𝕄)
      = bigSep Finset.univ fun n : Fin 32 => (((c : Thread nD τ).loc main_v1) ↦[chunkSet n]{q} f : sProp 𝕄) := by
  have h := pointsTo_biUnion (Ix := Unit) (Name := ℕ) (U := UU) (Lvl := ℕ) (ℓ := (c : Thread nD τ).loc main_v1) (q := q) (f := f)
    Finset.univ chunkSet (fun a _ b _ hab => chunk_disjoint a b hab)
  have hc : (Finset.univ : Finset (Idx ((c : Thread nD τ).loc main_v1))) = Finset.univ.biUnion chunkSet := chunk_cover
  rw [← h, ← hc]

theorem split_out (c : Dev nD) (q : PosShare TreeShare) (f : Buf (Elt F) ((c : Thread nD τ).loc main_v1)) :
    (((c : Thread nD τ).loc main_v1) ↦{q} f : sProp 𝕄)
      ⊢ bigSep Finset.univ fun n : Fin 32 => (((c : Thread nD τ).loc main_v1) ↦[chunkSet n]{q} f : sProp 𝕄) :=
  Entails.of_eq (out_eq c q f)

theorem join_out (c : Dev nD) (q : PosShare TreeShare) (f : Buf (Elt F) ((c : Thread nD τ).loc main_v1)) :
    (bigSep Finset.univ fun n : Fin 32 => (((c : Thread nD τ).loc main_v1) ↦[chunkSet n]{q} f : sProp 𝕄))
      ⊢ (((c : Thread nD τ).loc main_v1) ↦{q} f : sProp 𝕄) :=
  Entails.of_eq (out_eq c q f).symm

/-- The argument array whole is its 32 chunks. -/
theorem x_eq (c : Dev nD) (q : PosShare TreeShare) (f : Buf (Elt F) ((c : Thread nD τ).loc main_arg0)) :
    (((c : Thread nD τ).loc main_arg0) ↦{q} f : sProp 𝕄)
      = bigSep Finset.univ fun n : Fin 32 => (((c : Thread nD τ).loc main_arg0) ↦[chunkSet n]{q} f : sProp 𝕄) := by
  have h := pointsTo_biUnion (Ix := Unit) (Name := ℕ) (U := UU) (Lvl := ℕ) (ℓ := (c : Thread nD τ).loc main_arg0) (q := q) (f := f)
    Finset.univ chunkSet (fun a _ b _ hab => chunk_disjoint a b hab)
  have hc : (Finset.univ : Finset (Idx ((c : Thread nD τ).loc main_arg0))) = Finset.univ.biUnion chunkSet := chunk_cover
  rw [← h, ← hc]

theorem split_x (c : Dev nD) (q : PosShare TreeShare) (f : Buf (Elt F) ((c : Thread nD τ).loc main_arg0)) :
    (((c : Thread nD τ).loc main_arg0) ↦{q} f : sProp 𝕄)
      ⊢ bigSep Finset.univ fun n : Fin 32 => (((c : Thread nD τ).loc main_arg0) ↦[chunkSet n]{q} f : sProp 𝕄) :=
  Entails.of_eq (x_eq c q f)

theorem join_x (c : Dev nD) (q : PosShare TreeShare) (f : Buf (Elt F) ((c : Thread nD τ).loc main_arg0)) :
    (bigSep Finset.univ fun n : Fin 32 => (((c : Thread nD τ).loc main_arg0) ↦[chunkSet n]{q} f : sProp 𝕄))
      ⊢ (((c : Thread nD τ).loc main_arg0) ↦{q} f : sProp 𝕄) :=
  Entails.of_eq (x_eq c q f).symm

/-! ## A chunk's view covers the chunk -/

/-- The view of the result array's chunk at offset `(512 n, 0)` covers exactly chunk `n`. -/
theorem oCh_set (off : Fin 2 → ℕ) (h : ∀ a, off a + S512x1024.size a ≤ S16384x1024.size a) (n : Fin 32)
    (e : off = ![512 * n.val, 0]) : (oCh off h).view.set = chunkSet n := by
  subst e
  exact View.set_slice_whole main_v1 _

/-- The same for the argument array. -/
theorem xCh_set (off : Fin 2 → ℕ) (h : ∀ a, off a + S512x1024.size a ≤ S16384x1024.size a) (n : Fin 32)
    (e : off = ![512 * n.val, 0]) : (xCh off h).view.set = chunkSet n := by
  subst e
  exact View.set_slice_whole main_arg0 _

/-! ## The exchange buffer's 14 slots and the staging buffer's 2 -/

/-- Slot `(d, s)` lies inside the exchange buffer. -/
theorem slot_inb (d : Fin 2) (s : Fin 7) :
    ∀ a, (![d.val, s.val, 0, 0] : Fin 4 → ℕ) a + S1x1x512x1024.size a ≤ S2x7x512x1024.size a := by
  have hd := d.isLt
  have hs := s.isLt
  intro a
  match a with
  | ⟨0, _⟩ => show d.val + 1 ≤ 2; omega
  | ⟨1, _⟩ => show s.val + 1 ≤ 7; omega
  | ⟨2, _⟩ => show 0 + 512 ≤ 512; omega
  | ⟨3, _⟩ => show 0 + 1024 ≤ 1024; omega

/-- The indices of slot `(d, s)` of the exchange buffer. -/
def slotSet (d : Fin 2) (s : Fin 7) : Finset S2x7x512x1024.Idx :=
  (Rect.unit (s := S2x7x512x1024) ![d.val, s.val, 0, 0] S1x1x512x1024.size (slot_inb d s)).set

theorem mem_slotSet (d : Fin 2) (s : Fin 7) (i : S2x7x512x1024.Idx) :
    i ∈ slotSet d s ↔ (i 0).val = d.val ∧ (i 1).val = s.val := by
  unfold slotSet
  rw [Rect.mem_set_unit]
  constructor
  · intro h
    have h0 : d.val ≤ (i 0).val ∧ (i 0).val < d.val + 1 := h 0
    have h1 : s.val ≤ (i 1).val ∧ (i 1).val < s.val + 1 := h 1
    omega
  · rintro ⟨h0, h1⟩ a
    have h2 : (i 2).val < 512 := (i 2).isLt
    have h3 : (i 3).val < 1024 := (i 3).isLt
    match a with
    | ⟨0, _⟩ => show d.val ≤ (i 0).val ∧ (i 0).val < d.val + 1; omega
    | ⟨1, _⟩ => show s.val ≤ (i 1).val ∧ (i 1).val < s.val + 1; omega
    | ⟨2, _⟩ => show 0 ≤ (i 2).val ∧ (i 2).val < 0 + 512; omega
    | ⟨3, _⟩ => show 0 ≤ (i 3).val ∧ (i 3).val < 0 + 1024; omega

theorem slot_disjoint (a b : Fin 2 × Fin 7) (h : a ≠ b) : Disjoint (slotSet a.1 a.2) (slotSet b.1 b.2) :=
  Finset.disjoint_left.mpr fun i ha hb => by
    obtain ⟨a0, a1⟩ := (mem_slotSet _ _ i).mp ha
    obtain ⟨b0, b1⟩ := (mem_slotSet _ _ i).mp hb
    exact h (Prod.ext (Fin.ext (a0.symm.trans b0)) (Fin.ext (a1.symm.trans b1)))

theorem slot_cover :
    (Finset.univ : Finset S2x7x512x1024.Idx) = Finset.univ.biUnion fun p : Fin 2 × Fin 7 => slotSet p.1 p.2 := by
  ext i
  simp only [Finset.mem_univ, Finset.mem_biUnion, true_and, true_iff]
  have h0 : (i 0).val < 2 := (i 0).isLt
  have h1 : (i 1).val < 7 := (i 1).isLt
  exact ⟨(⟨(i 0).val, h0⟩, ⟨(i 1).val, h1⟩), (mem_slotSet _ _ i).mpr ⟨rfl, rfl⟩⟩

/-- The view of slot `(d, s)` covers exactly that slot. -/
theorem cSl_set (d s : ℕ) (h : ∀ a, (![d, s, 0, 0] : Fin 4 → ℕ) a + S1x1x512x1024.size a ≤ S2x7x512x1024.size a)
    (d' : Fin 2) (s' : Fin 7) (hd : d = d'.val) (hs : s = s'.val) : (cSl d s h).view.set = slotSet d' s' := by
  subst hd hs
  exact (View.set_reshape _ _).trans (View.set_slice_whole cc0_scratch0 _)

/-- The exchange buffer whole is its 14 slots. -/
theorem comm_eq (c : Dev nD) (q : PosShare TreeShare) (f : Buf (Elt F) ((c : Thread nD τ).loc cc0_scratch0)) :
    (((c : Thread nD τ).loc cc0_scratch0) ↦{q} f : sProp 𝕄)
      = bigSep Finset.univ fun p : Fin 2 × Fin 7 => (((c : Thread nD τ).loc cc0_scratch0) ↦[slotSet p.1 p.2]{q} f : sProp 𝕄) := by
  have h := pointsTo_biUnion (Ix := Unit) (Name := ℕ) (U := UU) (Lvl := ℕ) (ℓ := (c : Thread nD τ).loc cc0_scratch0) (q := q) (f := f)
    Finset.univ (fun p : Fin 2 × Fin 7 => slotSet p.1 p.2) (fun a _ b _ hab => slot_disjoint a b hab)
  have hc : (Finset.univ : Finset (Idx ((c : Thread nD τ).loc cc0_scratch0)))
      = Finset.univ.biUnion fun p : Fin 2 × Fin 7 => slotSet p.1 p.2 := slot_cover
  rw [← h, ← hc]

theorem split_comm (c : Dev nD) (q : PosShare TreeShare) (f : Buf (Elt F) ((c : Thread nD τ).loc cc0_scratch0)) :
    (((c : Thread nD τ).loc cc0_scratch0) ↦{q} f : sProp 𝕄)
      ⊢ bigSep Finset.univ fun p : Fin 2 × Fin 7 => (((c : Thread nD τ).loc cc0_scratch0) ↦[slotSet p.1 p.2]{q} f : sProp 𝕄) :=
  Entails.of_eq (comm_eq c q f)

theorem join_comm (c : Dev nD) (q : PosShare TreeShare) (f : Buf (Elt F) ((c : Thread nD τ).loc cc0_scratch0)) :
    (bigSep Finset.univ fun p : Fin 2 × Fin 7 => (((c : Thread nD τ).loc cc0_scratch0) ↦[slotSet p.1 p.2]{q} f : sProp 𝕄))
      ⊢ (((c : Thread nD τ).loc cc0_scratch0) ↦{q} f : sProp 𝕄) :=
  Entails.of_eq (comm_eq c q f).symm

/-- Slot `d` lies inside the staging buffer. -/
theorem stage_inb (d : Fin 2) :
    ∀ a, (![d.val, 0, 0] : Fin 3 → ℕ) a + S1x512x1024.size a ≤ S2x512x1024.size a := by
  have hd := d.isLt
  intro a
  match a with
  | ⟨0, _⟩ => show d.val + 1 ≤ 2; omega
  | ⟨1, _⟩ => show 0 + 512 ≤ 512; omega
  | ⟨2, _⟩ => show 0 + 1024 ≤ 1024; omega

/-- The indices of slot `d` of the staging buffer. -/
def stageSet (d : Fin 2) : Finset S2x512x1024.Idx :=
  (Rect.unit (s := S2x512x1024) ![d.val, 0, 0] S1x512x1024.size (stage_inb d)).set

theorem mem_stageSet (d : Fin 2) (i : S2x512x1024.Idx) : i ∈ stageSet d ↔ (i 0).val = d.val := by
  unfold stageSet
  rw [Rect.mem_set_unit]
  constructor
  · intro h
    have h0 : d.val ≤ (i 0).val ∧ (i 0).val < d.val + 1 := h 0
    omega
  · intro h0 a
    have h1 : (i 1).val < 512 := (i 1).isLt
    have h2 : (i 2).val < 1024 := (i 2).isLt
    match a with
    | ⟨0, _⟩ => show d.val ≤ (i 0).val ∧ (i 0).val < d.val + 1; omega
    | ⟨1, _⟩ => show 0 ≤ (i 1).val ∧ (i 1).val < 0 + 512; omega
    | ⟨2, _⟩ => show 0 ≤ (i 2).val ∧ (i 2).val < 0 + 1024; omega

theorem stage_disjoint (a b : Fin 2) (h : a ≠ b) : Disjoint (stageSet a) (stageSet b) :=
  Finset.disjoint_left.mpr fun i ha hb =>
    h (Fin.ext (((mem_stageSet a i).mp ha).symm.trans ((mem_stageSet b i).mp hb)))

theorem stage_cover : (Finset.univ : Finset S2x512x1024.Idx) = Finset.univ.biUnion stageSet := by
  ext i
  simp only [Finset.mem_univ, Finset.mem_biUnion, true_and, true_iff]
  have h0 : (i 0).val < 2 := (i 0).isLt
  exact ⟨⟨(i 0).val, h0⟩, (mem_stageSet _ i).mpr rfl⟩

/-- The view of slot `d` of the staging buffer covers exactly that slot. -/
theorem sSl_set (d : ℕ) (h : ∀ a, (![d, 0, 0] : Fin 3 → ℕ) a + S1x512x1024.size a ≤ S2x512x1024.size a)
    (d' : Fin 2) (hd : d = d'.val) : (sSl d h).view.set = stageSet d' := by
  subst hd
  exact (View.set_reshape _ _).trans (View.set_slice_whole cc0_scratch1 _)

/-- The staging buffer whole is its 2 slots. -/
theorem stage_eq (c : Dev nD) (q : PosShare TreeShare) (f : Buf (Elt F) ((c : Thread nD τ).loc cc0_scratch1)) :
    (((c : Thread nD τ).loc cc0_scratch1) ↦{q} f : sProp 𝕄)
      = bigSep Finset.univ fun d : Fin 2 => (((c : Thread nD τ).loc cc0_scratch1) ↦[stageSet d]{q} f : sProp 𝕄) := by
  have h := pointsTo_biUnion (Ix := Unit) (Name := ℕ) (U := UU) (Lvl := ℕ) (ℓ := (c : Thread nD τ).loc cc0_scratch1) (q := q) (f := f)
    Finset.univ stageSet (fun a _ b _ hab => stage_disjoint a b hab)
  have hc : (Finset.univ : Finset (Idx ((c : Thread nD τ).loc cc0_scratch1))) = Finset.univ.biUnion stageSet := stage_cover
  rw [← h, ← hc]

theorem split_stage (c : Dev nD) (q : PosShare TreeShare) (f : Buf (Elt F) ((c : Thread nD τ).loc cc0_scratch1)) :
    (((c : Thread nD τ).loc cc0_scratch1) ↦{q} f : sProp 𝕄)
      ⊢ bigSep Finset.univ fun d : Fin 2 => (((c : Thread nD τ).loc cc0_scratch1) ↦[stageSet d]{q} f : sProp 𝕄) :=
  Entails.of_eq (stage_eq c q f)

theorem join_stage (c : Dev nD) (q : PosShare TreeShare) (f : Buf (Elt F) ((c : Thread nD τ).loc cc0_scratch1)) :
    (bigSep Finset.univ fun d : Fin 2 => (((c : Thread nD τ).loc cc0_scratch1) ↦[stageSet d]{q} f : sProp 𝕄))
      ⊢ (((c : Thread nD τ).loc cc0_scratch1) ↦{q} f : sProp 𝕄) :=
  Entails.of_eq (stage_eq c q f).symm

/-! ## The same written out as chains, in index order -/

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

omit [FloatOps F] in
theorem bigSep_fin2x7 (Φ : Fin 2 × Fin 7 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)] (by decide) (by decide) Φ

omit [FloatOps F] in
theorem bigSep_fin2 (Φ : Fin 2 → sProp 𝕄) : bigSep Finset.univ Φ = iprop(Φ 0 ∗ Φ 1) :=
  bigSep_univ_eq_bigSepL [0, 1] (by decide) (by decide) Φ

/-- The result array whole as the chain of its 32 chunks. -/
theorem chain32_out (c : Dev nD) (q : PosShare TreeShare) (f : Buf (Elt F) ((c : Thread nD τ).loc main_v1)) :
    (((c : Thread nD τ).loc main_v1) ↦{q} f : sProp 𝕄)
      = bigSepL [0, 1, 2, 3, 4, 5, 6, 7, 8, 9, 10, 11, 12, 13, 14, 15, 16, 17, 18, 19, 20, 21, 22, 23, 24, 25, 26, 27, 28, 29, 30, 31] fun n : Fin 32 => (((c : Thread nD τ).loc main_v1) ↦[chunkSet n]{q} f : sProp 𝕄) :=
  (out_eq c q f).trans (bigSep_fin32 _)

/-- The argument array whole as the chain of its 32 chunks. -/
theorem chain32_x (c : Dev nD) (q : PosShare TreeShare) (f : Buf (Elt F) ((c : Thread nD τ).loc main_arg0)) :
    (((c : Thread nD τ).loc main_arg0) ↦{q} f : sProp 𝕄)
      = bigSepL [0, 1, 2, 3, 4, 5, 6, 7, 8, 9, 10, 11, 12, 13, 14, 15, 16, 17, 18, 19, 20, 21, 22, 23, 24, 25, 26, 27, 28, 29, 30, 31] fun n : Fin 32 => (((c : Thread nD τ).loc main_arg0) ↦[chunkSet n]{q} f : sProp 𝕄) :=
  (x_eq c q f).trans (bigSep_fin32 _)

/-- The exchange buffer whole as the chain of its 14 slots. -/
theorem chain14 (c : Dev nD) (q : PosShare TreeShare) (f : Buf (Elt F) ((c : Thread nD τ).loc cc0_scratch0)) :
    (((c : Thread nD τ).loc cc0_scratch0) ↦{q} f : sProp 𝕄)
      = bigSepL [(0, 0), (0, 1), (0, 2), (0, 3), (0, 4), (0, 5), (0, 6), (1, 0), (1, 1), (1, 2), (1, 3), (1, 4), (1, 5), (1, 6)] fun p : Fin 2 × Fin 7 => (((c : Thread nD τ).loc cc0_scratch0) ↦[slotSet p.1 p.2]{q} f : sProp 𝕄) :=
  (comm_eq c q f).trans (bigSep_fin2x7 _)

/-- The staging buffer whole as the chain of its 2 slots. -/
theorem chain2 (c : Dev nD) (q : PosShare TreeShare) (f : Buf (Elt F) ((c : Thread nD τ).loc cc0_scratch1)) :
    (((c : Thread nD τ).loc cc0_scratch1) ↦{q} f : sProp 𝕄)
      = iprop((((c : Thread nD τ).loc cc0_scratch1) ↦[stageSet 0]{q} f) ∗ (((c : Thread nD τ).loc cc0_scratch1) ↦[stageSet 1]{q} f)) :=
  (stage_eq c q f).trans (bigSep_fin2 _)

/-- info: 'Cert.KernelIdeal.Parts.chain32_out' depends on axioms: [propext, Classical.choice, Quot.sound] -/
#guard_msgs in #print axioms chain32_out

/-- info: 'Cert.KernelIdeal.Parts.chain14' depends on axioms: [propext, Classical.choice, Quot.sound] -/
#guard_msgs in #print axioms chain14

/-- info: 'Cert.KernelIdeal.Parts.chain2' depends on axioms: [propext, Classical.choice, Quot.sound] -/
#guard_msgs in #print axioms chain2

end Cert.KernelIdeal.Parts

end
-- ==== Proof.Spell.lean ====
/-
  The buffers' pieces under the names the program gives them. A device's result and argument arrays are cut into
  32 chunks of 512 rows; the program reaches the 16 chunks of the device's own half of the rows through its offset
  chains evaluated at the device's own number, and the 16 chunks of the other half through the same chains
  evaluated at the pair partner's number. Ownership of a whole array is therefore the separating conjunction of
  the ownerships of the 32 chunks so named, and likewise the exchange buffer is its 14 slots and the staging
  buffer its 2 slots. Each statement is an equation of propositions, to be read in either direction.
-/
import proofs.«900727_g7700000000000728_dist_ar_v7x_xyz2x4x4_y_m16384_n1024_f32_1_alg».proof.Proof.Sched
import proofs.«900727_g7700000000000728_dist_ar_v7x_xyz2x4x4_y_m16384_n1024_f32_1_alg».proof.Proof.Parts
import proofs.«900727_g7700000000000728_dist_ar_v7x_xyz2x4x4_y_m16384_n1024_f32_1_alg».proof.Proof.Canon
import proofs.«900727_g7700000000000728_dist_ar_v7x_xyz2x4x4_y_m16384_n1024_f32_1_alg».proof.Proof.RingFacts

set_option maxRecDepth 16384

noncomputable section

namespace Cert.KernelIdeal.Spell

open Cert.KernelIdeal Cert.KernelIdeal.Gen Cert.KernelIdeal.Ring Cert.KernelIdeal.Cells Cert.KernelIdeal.Vals
open Cert.KernelIdeal.Sched Cert.KernelIdeal.Parts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunk each position of the chain names

  The chain lists, for the device itself and then for its pair partner, direction 0 and then direction 1; within
  a direction first the chunk one step ahead in the direction of travel, then the device's own chunk and the
  chunks one, two, … six steps behind it. Position i of the chain is therefore the chunk whose first row is
  `rowAt` of the device or its partner, at direction `dirOf i` and step `stepOf i`. -/

/-- Direction of the chain's position i. -/
def dirOf (i : Fin 32) : ℕ := (i.val / 8) % 2
/-- Ring position, counted from the device's own, of the chain's position i. -/
def stepOf (i : Fin 32) : ℕ := if i.val % 16 < 8 then (9 - i.val % 16) % 8 else (i.val % 16 - 1) % 8
/-- The device at whose number the offset chains are evaluated at position i: the device itself for the first
    sixteen positions, its pair partner for the others. -/
def whoOf (c : Dev nD) (i : Fin 32) : Dev nD := if i.val < 16 then c else partD c

theorem no_lt (c : Dev nD) (i : Fin 32) : rowAt (whoOf c i) (dirOf i) (stepOf i) / 512 < 32 := by
  have h := rowAt_lt (whoOf c i) (dirOf i) (stepOf i) (Nat.mod_lt _ (by decide))
  omega

/-- The number of the chunk at position i of device c's chain. -/
def no (c : Dev nD) (i : Fin 32) : Fin 32 := ⟨rowAt (whoOf c i) (dirOf i) (stepOf i) / 512, no_lt c i⟩

/-- Every chunk is named exactly once. -/
theorem no_bij : ∀ c : Dev nD, Function.Bijective (no c) := by decide +kernel

/-- The chain's positions as a renumbering of the chunks. -/
def noE (c : Dev nD) : Fin 32 ≃ Fin 32 := Equiv.ofBijective (no c) (no_bij c)

/-- A view of 512 rows of the result array from the first row of the chunk of direction d and step j of device
    c' covers the chunk of that number. -/
theorem oCh_row (c' : Dev nD) (d j : ℕ) (off : Fin 2 → ℕ) (h : ∀ a, off a + S512x1024.size a ≤ S16384x1024.size a)
    (n : Fin 32) (e : off = ![rowAt c' d j, 0]) (hn : n.val = rowAt c' d j / 512) : (oCh off h).view.set = chunkSet n := by
  refine oCh_set off h n ?_
  have h5 : rowAt c' d j = 512 * (rowAt c' d j / 512) := by have := rowAt_mod_512 c' d j; omega
  rw [e, hn]
  exact congrArg (fun r : ℕ => (![r, 0] : Fin 2 → ℕ)) h5

/-- The same for the argument array. -/
theorem xCh_row (c' : Dev nD) (d j : ℕ) (off : Fin 2 → ℕ) (h : ∀ a, off a + S512x1024.size a ≤ S16384x1024.size a)
    (n : Fin 32) (e : off = ![rowAt c' d j, 0]) (hn : n.val = rowAt c' d j / 512) : (xCh off h).view.set = chunkSet n := by
  refine xCh_set off h n ?_
  have h5 : rowAt c' d j = 512 * (rowAt c' d j / 512) := by have := rowAt_mod_512 c' d j; omega
  rw [e, hn]
  exact congrArg (fun r : ℕ => (![r, 0] : Fin 2 → ℕ)) h5

omit [FloatOps F] in
/-- Equal conjuncts give equal conjunctions. -/
theorem sep_eq {P P' Q Q' : sProp 𝕄} (hP : P = P') (hQ : Q = Q') : iprop(P ∗ Q) = iprop(P' ∗ Q') := by
  rw [hP, hQ]

/-- Chunk n of device c's result array is the region the program names by an offset that is the chunk's first row. -/
theorem out_piece (c c' : Dev nD) (d j : ℕ) (off : Fin 2 → ℕ) (h : ∀ a, off a + S512x1024.size a ≤ S16384x1024.size a)
    (n : Fin 32) (e : off = ![rowAt c' d j, 0]) (hn : n.val = rowAt c' d j / 512) (q : PosShare TreeShare)
    (f : Buf (Elt F) ((c : Thread nD τ).loc main_v1)) :
    (((c : Thread nD τ).loc main_v1) ↦[chunkSet n]{q} f : sProp 𝕄) = rpts c (oCh off h) q f := by
  unfold rpts
  rw [oCh_row c' d j off h n e hn]

/-- The same for the argument array. -/
theorem x_piece (c c' : Dev nD) (d j : ℕ) (off : Fin 2 → ℕ) (h : ∀ a, off a + S512x1024.size a ≤ S16384x1024.size a)
    (n : Fin 32) (e : off = ![rowAt c' d j, 0]) (hn : n.val = rowAt c' d j / 512) (q : PosShare TreeShare)
    (f : Buf (Elt F) ((c : Thread nD τ).loc main_arg0)) :
    (((c : Thread nD τ).loc main_arg0) ↦[chunkSet n]{q} f : sProp 𝕄) = rpts c (xCh off h) q f := by
  unfold rpts
  rw [xCh_row c' d j off h n e hn]

/-! ## The result array -/

/-- The result array whole is its 32 chunks under the program's names: the device's own half, then the partner's. -/
theorem out_spelled (c : Dev nD) (q : PosShare TreeShare) (f : Buf (Elt F) ((c : Thread nD τ).loc main_v1)) :
    (((c : Thread nD τ).loc main_v1) ↦{q} f : sProp 𝕄)
      = iprop(rpts c (oCh (k0_off3 c 0#32 1#32) (k0_off3_inb c 0)) q f
          ∗ rpts c (oCh (k0_off2 c 0#32 0#32) (k0_off2_inb c 14)) q f
          ∗ rpts c (oCh (k0_off2 c 0#32 1#32) (k0_off2_inb c 0)) q f
          ∗ rpts c (oCh (k0_off2 c 0#32 2#32) (k0_off2_inb c 2)) q f
          ∗ rpts c (oCh (k0_off2 c 0#32 3#32) (k0_off2_inb c 4)) q f
          ∗ rpts c (oCh (k0_off2 c 0#32 4#32) (k0_off2_inb c 6)) q f
          ∗ rpts c (oCh (k0_off2 c 0#32 5#32) (k0_off2_inb c 8)) q f
          ∗ rpts c (oCh (k0_off2 c 0#32 6#32) (k0_off2_inb c 10)) q f
          ∗ rpts c (oCh (k0_off3 c 4096#32 4294967295#32) (k0_off3_inb c 1)) q f
          ∗ rpts c (oCh (k0_off2 c 4096#32 0#32) (k0_off2_inb c 15)) q f
          ∗ rpts c (oCh (k0_off2 c 4096#32 4294967295#32) (k0_off2_inb c 1)) q f
          ∗ rpts c (oCh (k0_off2 c 4096#32 4294967294#32) (k0_off2_inb c 3)) q f
          ∗ rpts c (oCh (k0_off2 c 4096#32 4294967293#32) (k0_off2_inb c 5)) q f
          ∗ rpts c (oCh (k0_off2 c 4096#32 4294967292#32) (k0_off2_inb c 7)) q f
          ∗ rpts c (oCh (k0_off2 c 4096#32 4294967291#32) (k0_off2_inb c 9)) q f
          ∗ rpts c (oCh (k0_off2 c 4096#32 4294967290#32) (k0_off2_inb c 11)) q f
          ∗ rpts c (oCh (k0_off3 (partD c) 0#32 1#32) (k0_off3_inb (partD c) 0)) q f
          ∗ rpts c (oCh (k0_off2 (partD c) 0#32 0#32) (k0_off2_inb (partD c) 14)) q f
          ∗ rpts c (oCh (k0_off2 (partD c) 0#32 1#32) (k0_off2_inb (partD c) 0)) q f
          ∗ rpts c (oCh (k0_off2 (partD c) 0#32 2#32) (k0_off2_inb (partD c) 2)) q f
          ∗ rpts c (oCh (k0_off2 (partD c) 0#32 3#32) (k0_off2_inb (partD c) 4)) q f
          ∗ rpts c (oCh (k0_off2 (partD c) 0#32 4#32) (k0_off2_inb (partD c) 6)) q f
          ∗ rpts c (oCh (k0_off2 (partD c) 0#32 5#32) (k0_off2_inb (partD c) 8)) q f
          ∗ rpts c (oCh (k0_off2 (partD c) 0#32 6#32) (k0_off2_inb (partD c) 10)) q f
          ∗ rpts c (oCh (k0_off3 (partD c) 4096#32 4294967295#32) (k0_off3_inb (partD c) 1)) q f
          ∗ rpts c (oCh (k0_off2 (partD c) 4096#32 0#32) (k0_off2_inb (partD c) 15)) q f
          ∗ rpts c (oCh (k0_off2 (partD c) 4096#32 4294967295#32) (k0_off2_inb (partD c) 1)) q f
          ∗ rpts c (oCh (k0_off2 (partD c) 4096#32 4294967294#32) (k0_off2_inb (partD c) 3)) q f
          ∗ rpts c (oCh (k0_off2 (partD c) 4096#32 4294967293#32) (k0_off2_inb (partD c) 5)) q f
          ∗ rpts c (oCh (k0_off2 (partD c) 4096#32 4294967292#32) (k0_off2_inb (partD c) 7)) q f
          ∗ rpts c (oCh (k0_off2 (partD c) 4096#32 4294967291#32) (k0_off2_inb (partD c) 9)) q f
          ∗ rpts c (oCh (k0_off2 (partD c) 4096#32 4294967290#32) (k0_off2_inb (partD c) 11)) q f) := by
  refine (out_eq c q f).trans ((bigSep_univ_equiv (noE c) _).trans ((bigSep_fin32 _).trans ?_))
  exact (sep_eq (out_piece c c 0 1 _ _ (no c 0) (off3_0 c) rfl q f)
    (sep_eq (out_piece c c 0 0 _ _ (no c 1) (off2_0_0 c) rfl q f)
    (sep_eq (out_piece c c 0 7 _ _ (no c 2) (off2_0_1 c) rfl q f)
    (sep_eq (out_piece c c 0 6 _ _ (no c 3) (off2_0_2 c) rfl q f)
    (sep_eq (out_piece c c 0 5 _ _ (no c 4) (off2_0_3 c) rfl q f)
    (sep_eq (out_piece c c 0 4 _ _ (no c 5) (off2_0_4 c) rfl q f)
    (sep_eq (out_piece c c 0 3 _ _ (no c 6) (off2_0_5 c) rfl q f)
    (sep_eq (out_piece c c 0 2 _ _ (no c 7) (off2_0_6 c) rfl q f)
    (sep_eq (out_piece c c 1 7 _ _ (no c 8) (off3_1 c) rfl q f)
    (sep_eq (out_piece c c 1 0 _ _ (no c 9) (off2_1_0 c) rfl q f)
    (sep_eq (out_piece c c 1 1 _ _ (no c 10) (off2_1_1 c) rfl q f)
    (sep_eq (out_piece c c 1 2 _ _ (no c 11) (off2_1_2 c) rfl q f)
    (sep_eq (out_piece c c 1 3 _ _ (no c 12) (off2_1_3 c) rfl q f)
    (sep_eq (out_piece c c 1 4 _ _ (no c 13) (off2_1_4 c) rfl q f)
    (sep_eq (out_piece c c 1 5 _ _ (no c 14) (off2_1_5 c) rfl q f)
    (sep_eq (out_piece c c 1 6 _ _ (no c 15) (off2_1_6 c) rfl q f)
    (sep_eq (out_piece c (partD c) 0 1 _ _ (no c 16) (off3_0 (partD c)) rfl q f)
    (sep_eq (out_piece c (partD c) 0 0 _ _ (no c 17) (off2_0_0 (partD c)) rfl q f)
    (sep_eq (out_piece c (partD c) 0 7 _ _ (no c 18) (off2_0_1 (partD c)) rfl q f)
    (sep_eq (out_piece c (partD c) 0 6 _ _ (no c 19) (off2_0_2 (partD c)) rfl q f)
    (sep_eq (out_piece c (partD c) 0 5 _ _ (no c 20) (off2_0_3 (partD c)) rfl q f)
    (sep_eq (out_piece c (partD c) 0 4 _ _ (no c 21) (off2_0_4 (partD c)) rfl q f)
    (sep_eq (out_piece c (partD c) 0 3 _ _ (no c 22) (off2_0_5 (partD c)) rfl q f)
    (sep_eq (out_piece c (partD c) 0 2 _ _ (no c 23) (off2_0_6 (partD c)) rfl q f)
    (sep_eq (out_piece c (partD c) 1 7 _ _ (no c 24) (off3_1 (partD c)) rfl q f)
    (sep_eq (out_piece c (partD c) 1 0 _ _ (no c 25) (off2_1_0 (partD c)) rfl q f)
    (sep_eq (out_piece c (partD c) 1 1 _ _ (no c 26) (off2_1_1 (partD c)) rfl q f)
    (sep_eq (out_piece c (partD c) 1 2 _ _ (no c 27) (off2_1_2 (partD c)) rfl q f)
    (sep_eq (out_piece c (partD c) 1 3 _ _ (no c 28) (off2_1_3 (partD c)) rfl q f)
    (sep_eq (out_piece c (partD c) 1 4 _ _ (no c 29) (off2_1_4 (partD c)) rfl q f)
    (sep_eq (out_piece c (partD c) 1 5 _ _ (no c 30) (off2_1_5 (partD c)) rfl q f)
    (out_piece c (partD c) 1 6 _ _ (no c 31) (off2_1_6 (partD c)) rfl q f))))))))))))))))))))))))))))))))

/-! ## The argument array -/

/-- The argument array whole is its 32 chunks under the program's names: the device's own half, then the partner's. -/
theorem x_spelled (c : Dev nD) (q : PosShare TreeShare) (f : Buf (Elt F) ((c : Thread nD τ).loc main_arg0)) :
    (((c : Thread nD τ).loc main_arg0) ↦{q} f : sProp 𝕄)
      = iprop(rpts c (xCh (k0_off3 c 0#32 1#32) (k0_off3_inb c 0)) q f
          ∗ rpts c (xCh (k0_off2 c 0#32 0#32) (k0_off2_inb c 14)) q f
          ∗ rpts c (xCh (k0_off2 c 0#32 1#32) (k0_off2_inb c 0)) q f
          ∗ rpts c (xCh (k0_off2 c 0#32 2#32) (k0_off2_inb c 2)) q f
          ∗ rpts c (xCh (k0_off2 c 0#32 3#32) (k0_off2_inb c 4)) q f
          ∗ rpts c (xCh (k0_off2 c 0#32 4#32) (k0_off2_inb c 6)) q f
          ∗ rpts c (xCh (k0_off2 c 0#32 5#32) (k0_off2_inb c 8)) q f
          ∗ rpts c (xCh (k0_off2 c 0#32 6#32) (k0_off2_inb c 10)) q f
          ∗ rpts c (xCh (k0_off3 c 4096#32 4294967295#32) (k0_off3_inb c 1)) q f
          ∗ rpts c (xCh (k0_off2 c 4096#32 0#32) (k0_off2_inb c 15)) q f
          ∗ rpts c (xCh (k0_off2 c 4096#32 4294967295#32) (k0_off2_inb c 1)) q f
          ∗ rpts c (xCh (k0_off2 c 4096#32 4294967294#32) (k0_off2_inb c 3)) q f
          ∗ rpts c (xCh (k0_off2 c 4096#32 4294967293#32) (k0_off2_inb c 5)) q f
          ∗ rpts c (xCh (k0_off2 c 4096#32 4294967292#32) (k0_off2_inb c 7)) q f
          ∗ rpts c (xCh (k0_off2 c 4096#32 4294967291#32) (k0_off2_inb c 9)) q f
          ∗ rpts c (xCh (k0_off2 c 4096#32 4294967290#32) (k0_off2_inb c 11)) q f
          ∗ rpts c (xCh (k0_off3 (partD c) 0#32 1#32) (k0_off3_inb (partD c) 0)) q f
          ∗ rpts c (xCh (k0_off2 (partD c) 0#32 0#32) (k0_off2_inb (partD c) 14)) q f
          ∗ rpts c (xCh (k0_off2 (partD c) 0#32 1#32) (k0_off2_inb (partD c) 0)) q f
          ∗ rpts c (xCh (k0_off2 (partD c) 0#32 2#32) (k0_off2_inb (partD c) 2)) q f
          ∗ rpts c (xCh (k0_off2 (partD c) 0#32 3#32) (k0_off2_inb (partD c) 4)) q f
          ∗ rpts c (xCh (k0_off2 (partD c) 0#32 4#32) (k0_off2_inb (partD c) 6)) q f
          ∗ rpts c (xCh (k0_off2 (partD c) 0#32 5#32) (k0_off2_inb (partD c) 8)) q f
          ∗ rpts c (xCh (k0_off2 (partD c) 0#32 6#32) (k0_off2_inb (partD c) 10)) q f
          ∗ rpts c (xCh (k0_off3 (partD c) 4096#32 4294967295#32) (k0_off3_inb (partD c) 1)) q f
          ∗ rpts c (xCh (k0_off2 (partD c) 4096#32 0#32) (k0_off2_inb (partD c) 15)) q f
          ∗ rpts c (xCh (k0_off2 (partD c) 4096#32 4294967295#32) (k0_off2_inb (partD c) 1)) q f
          ∗ rpts c (xCh (k0_off2 (partD c) 4096#32 4294967294#32) (k0_off2_inb (partD c) 3)) q f
          ∗ rpts c (xCh (k0_off2 (partD c) 4096#32 4294967293#32) (k0_off2_inb (partD c) 5)) q f
          ∗ rpts c (xCh (k0_off2 (partD c) 4096#32 4294967292#32) (k0_off2_inb (partD c) 7)) q f
          ∗ rpts c (xCh (k0_off2 (partD c) 4096#32 4294967291#32) (k0_off2_inb (partD c) 9)) q f
          ∗ rpts c (xCh (k0_off2 (partD c) 4096#32 4294967290#32) (k0_off2_inb (partD c) 11)) q f) := by
  refine (x_eq c q f).trans ((bigSep_univ_equiv (noE c) _).trans ((bigSep_fin32 _).trans ?_))
  exact (sep_eq (x_piece c c 0 1 _ _ (no c 0) (off3_0 c) rfl q f)
    (sep_eq (x_piece c c 0 0 _ _ (no c 1) (off2_0_0 c) rfl q f)
    (sep_eq (x_piece c c 0 7 _ _ (no c 2) (off2_0_1 c) rfl q f)
    (sep_eq (x_piece c c 0 6 _ _ (no c 3) (off2_0_2 c) rfl q f)
    (sep_eq (x_piece c c 0 5 _ _ (no c 4) (off2_0_3 c) rfl q f)
    (sep_eq (x_piece c c 0 4 _ _ (no c 5) (off2_0_4 c) rfl q f)
    (sep_eq (x_piece c c 0 3 _ _ (no c 6) (off2_0_5 c) rfl q f)
    (sep_eq (x_piece c c 0 2 _ _ (no c 7) (off2_0_6 c) rfl q f)
    (sep_eq (x_piece c c 1 7 _ _ (no c 8) (off3_1 c) rfl q f)
    (sep_eq (x_piece c c 1 0 _ _ (no c 9) (off2_1_0 c) rfl q f)
    (sep_eq (x_piece c c 1 1 _ _ (no c 10) (off2_1_1 c) rfl q f)
    (sep_eq (x_piece c c 1 2 _ _ (no c 11) (off2_1_2 c) rfl q f)
    (sep_eq (x_piece c c 1 3 _ _ (no c 12) (off2_1_3 c) rfl q f)
    (sep_eq (x_piece c c 1 4 _ _ (no c 13) (off2_1_4 c) rfl q f)
    (sep_eq (x_piece c c 1 5 _ _ (no c 14) (off2_1_5 c) rfl q f)
    (sep_eq (x_piece c c 1 6 _ _ (no c 15) (off2_1_6 c) rfl q f)
    (sep_eq (x_piece c (partD c) 0 1 _ _ (no c 16) (off3_0 (partD c)) rfl q f)
    (sep_eq (x_piece c (partD c) 0 0 _ _ (no c 17) (off2_0_0 (partD c)) rfl q f)
    (sep_eq (x_piece c (partD c) 0 7 _ _ (no c 18) (off2_0_1 (partD c)) rfl q f)
    (sep_eq (x_piece c (partD c) 0 6 _ _ (no c 19) (off2_0_2 (partD c)) rfl q f)
    (sep_eq (x_piece c (partD c) 0 5 _ _ (no c 20) (off2_0_3 (partD c)) rfl q f)
    (sep_eq (x_piece c (partD c) 0 4 _ _ (no c 21) (off2_0_4 (partD c)) rfl q f)
    (sep_eq (x_piece c (partD c) 0 3 _ _ (no c 22) (off2_0_5 (partD c)) rfl q f)
    (sep_eq (x_piece c (partD c) 0 2 _ _ (no c 23) (off2_0_6 (partD c)) rfl q f)
    (sep_eq (x_piece c (partD c) 1 7 _ _ (no c 24) (off3_1 (partD c)) rfl q f)
    (sep_eq (x_piece c (partD c) 1 0 _ _ (no c 25) (off2_1_0 (partD c)) rfl q f)
    (sep_eq (x_piece c (partD c) 1 1 _ _ (no c 26) (off2_1_1 (partD c)) rfl q f)
    (sep_eq (x_piece c (partD c) 1 2 _ _ (no c 27) (off2_1_2 (partD c)) rfl q f)
    (sep_eq (x_piece c (partD c) 1 3 _ _ (no c 28) (off2_1_3 (partD c)) rfl q f)
    (sep_eq (x_piece c (partD c) 1 4 _ _ (no c 29) (off2_1_4 (partD c)) rfl q f)
    (sep_eq (x_piece c (partD c) 1 5 _ _ (no c 30) (off2_1_5 (partD c)) rfl q f)
    (x_piece c (partD c) 1 6 _ _ (no c 31) (off2_1_6 (partD c)) rfl q f))))))))))))))))))))))))))))))))

/-- The device's own chunk of direction 0 is reached by two of the program's chains; they name the same rows. -/
theorem xCh_off1_eq_0 (c : Dev nD) :
    (xCh (k0_off1 c 0#32) (k0_off1_inb c 0)).view.set = (xCh (k0_off2 c 0#32 0#32) (k0_off2_inb c 14)).view.set :=
  (xCh_row c 0 0 _ _ (no c 1) (off1_0 c) rfl).trans (xCh_row c 0 0 _ _ (no c 1) (off2_0_0 c) rfl).symm

/-- The same for direction 1. -/
theorem xCh_off1_eq_1 (c : Dev nD) :
    (xCh (k0_off1 c 4096#32) (k0_off1_inb c 1)).view.set = (xCh (k0_off2 c 4096#32 0#32) (k0_off2_inb c 15)).view.set :=
  (xCh_row c 1 0 _ _ (no c 9) (off1_1 c) rfl).trans (xCh_row c 1 0 _ _ (no c 9) (off2_1_0 c) rfl).symm

/-! ## The exchange buffer and the staging buffer -/

/-- The exchange buffer whole is its 14 slots, direction by direction and step by step. -/
theorem comm_spelled (c : Dev nD) (q : PosShare TreeShare) (f : Buf (Elt F) ((c : Thread nD τ).loc cc0_scratch0)) :
    (((c : Thread nD τ).loc cc0_scratch0) ↦{q} f : sProp 𝕄)
      = iprop(rpts c (cSl 0 0 inb_S2x7x512x1024_S1x1x512x1024_0_0_0_0) q f
          ∗ rpts c (cSl 0 1 inb_S2x7x512x1024_S1x1x512x1024_0_1_0_0) q f
          ∗ rpts c (cSl 0 2 inb_S2x7x512x1024_S1x1x512x1024_0_2_0_0) q f
          ∗ rpts c (cSl 0 3 inb_S2x7x512x1024_S1x1x512x1024_0_3_0_0) q f
          ∗ rpts c (cSl 0 4 inb_S2x7x512x1024_S1x1x512x1024_0_4_0_0) q f
          ∗ rpts c (cSl 0 5 inb_S2x7x512x1024_S1x1x512x1024_0_5_0_0) q f
          ∗ rpts c (cSl 0 6 inb_S2x7x512x1024_S1x1x512x1024_0_6_0_0) q f
          ∗ rpts c (cSl 1 0 inb_S2x7x512x1024_S1x1x512x1024_1_0_0_0) q f
          ∗ rpts c (cSl 1 1 inb_S2x7x512x1024_S1x1x512x1024_1_1_0_0) q f
          ∗ rpts c (cSl 1 2 inb_S2x7x512x1024_S1x1x512x1024_1_2_0_0) q f
          ∗ rpts c (cSl 1 3 inb_S2x7x512x1024_S1x1x512x1024_1_3_0_0) q f
          ∗ rpts c (cSl 1 4 inb_S2x7x512x1024_S1x1x512x1024_1_4_0_0) q f
          ∗ rpts c (cSl 1 5 inb_S2x7x512x1024_S1x1x512x1024_1_5_0_0) q f
          ∗ rpts c (cSl 1 6 inb_S2x7x512x1024_S1x1x512x1024_1_6_0_0) q f) := by
  unfold rpts
  rw [cSl_set 0 0 inb_S2x7x512x1024_S1x1x512x1024_0_0_0_0 0 0 rfl rfl,
    cSl_set 0 1 inb_S2x7x512x1024_S1x1x512x1024_0_1_0_0 0 1 rfl rfl,
    cSl_set 0 2 inb_S2x7x512x1024_S1x1x512x1024_0_2_0_0 0 2 rfl rfl,
    cSl_set 0 3 inb_S2x7x512x1024_S1x1x512x1024_0_3_0_0 0 3 rfl rfl,
    cSl_set 0 4 inb_S2x7x512x1024_S1x1x512x1024_0_4_0_0 0 4 rfl rfl,
    cSl_set 0 5 inb_S2x7x512x1024_S1x1x512x1024_0_5_0_0 0 5 rfl rfl,
    cSl_set 0 6 inb_S2x7x512x1024_S1x1x512x1024_0_6_0_0 0 6 rfl rfl,
    cSl_set 1 0 inb_S2x7x512x1024_S1x1x512x1024_1_0_0_0 1 0 rfl rfl,
    cSl_set 1 1 inb_S2x7x512x1024_S1x1x512x1024_1_1_0_0 1 1 rfl rfl,
    cSl_set 1 2 inb_S2x7x512x1024_S1x1x512x1024_1_2_0_0 1 2 rfl rfl,
    cSl_set 1 3 inb_S2x7x512x1024_S1x1x512x1024_1_3_0_0 1 3 rfl rfl,
    cSl_set 1 4 inb_S2x7x512x1024_S1x1x512x1024_1_4_0_0 1 4 rfl rfl,
    cSl_set 1 5 inb_S2x7x512x1024_S1x1x512x1024_1_5_0_0 1 5 rfl rfl,
    cSl_set 1 6 inb_S2x7x512x1024_S1x1x512x1024_1_6_0_0 1 6 rfl rfl]
  exact chain14 c q f

/-- The staging buffer whole is its 2 slots. -/
theorem stage_spelled (c : Dev nD) (q : PosShare TreeShare) (f : Buf (Elt F) ((c : Thread nD τ).loc cc0_scratch1)) :
    (((c : Thread nD τ).loc cc0_scratch1) ↦{q} f : sProp 𝕄)
      = iprop(rpts c (sSl 0 inb_S2x512x1024_S1x512x1024_0_0_0) q f ∗ rpts c (sSl 1 inb_S2x512x1024_S1x512x1024_1_0_0) q f) := by
  unfold rpts
  rw [sSl_set 0 inb_S2x512x1024_S1x512x1024_0_0_0 0 rfl, sSl_set 1 inb_S2x512x1024_S1x512x1024_1_0_0 1 rfl]
  exact chain2 c q f

/-- info: 'Cert.KernelIdeal.Spell.comm_spelled' depends on axioms: [propext, Classical.choice, Quot.sound] -/
#guard_msgs in #print axioms comm_spelled

/-- info: 'Cert.KernelIdeal.Spell.stage_spelled' depends on axioms: [propext, Classical.choice, Quot.sound] -/
#guard_msgs in #print axioms stage_spelled

/-- info: 'Cert.KernelIdeal.Spell.out_spelled' depends on axioms: [propext, Classical.choice, Quot.sound] -/
#guard_msgs in #print axioms out_spelled

/-- info: 'Cert.KernelIdeal.Spell.x_spelled' depends on axioms: [propext, Classical.choice, Quot.sound] -/
#guard_msgs in #print axioms x_spelled

/-- info: 'Cert.KernelIdeal.Spell.xCh_off1_eq_0' depends on axioms: [propext, Classical.choice, Quot.sound] -/
#guard_msgs in #print axioms xCh_off1_eq_0

/-- info: 'Cert.KernelIdeal.Spell.xCh_off1_eq_1' depends on axioms: [propext, Classical.choice, Quot.sound] -/
#guard_msgs in #print axioms xCh_off1_eq_1

end Cert.KernelIdeal.Spell

end
-- ==== Proof.UpdLemmas.lean ====
/-
  The update of a slot, in the shape in which the run leaves it: the slot's region, held through the slot's view,
  after the store of the step function of the two loads holds the slot's updated contents.
-/
import proofs.«900727_g7700000000000728_dist_ar_v7x_xyz2x4x4_y_m16384_n1024_f32_1_alg».proof.Proof.ValLemmas

noncomputable section

namespace Cert.KernelIdeal.Vals

open Cert.KernelIdeal Cert.KernelIdeal.Gen Cert.KernelIdeal.Ring Cert.KernelIdeal.Cells Cert.KernelIdeal.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- `upd_first` in the shape in which the run leaves the slot: the region held through the slot's view, the store
    through the printed rectangle, the two loads as loads through the whole buffers at the printed rectangles. -/
theorem upd_first_run (c : Dev nD) (d : ℕ) (hd : d < 2)
    {h : ∀ a, (![d, 0, 0, 0] : Fin 4 → ℕ) a + S1x1x512x1024.size a ≤ S2x7x512x1024.size a}
    {h3 : ∀ a, (![d, 0, 0] : Fin 3 → ℕ) a + S1x512x1024.size a ≤ S2x512x1024.size a}
    (P : Vec F S1x1x512x1024 .f32 → Vec F S1x512x1024 .f32 → FVec F S1x1x512x1024 .f32)
    (hP : ∀ a b : FVec F S512x1024 .f32, P (up4 a) (up3 b) = up4 (stepA a b)) :
    (rpts c (cSl d 0 h) fullShare
        ((cM.access (Rect.unit (s := S2x7x512x1024) ![d, 0, 0, 0] S1x1x512x1024.size h)).write (Elt F) (CommIn m c)
          (P (cM.view.readAt (Elt F) (Rect.unit (s := S2x7x512x1024) ![d, 0, 0, 0] S1x1x512x1024.size h).toLoadRect (CommIn m c))
             (sM.view.readAt (Elt F) (Rect.unit (s := S2x512x1024) ![d, 0, 0] S1x512x1024.size h3).toLoadRect (StageAt m c 0))) Finset.univ) : sProp 𝕄)
      ⊢ rpts c (cSl d 0 h) fullShare (CommAcc m c) :=
  Entails.of_eq (BI.Region.is_congr fun i hi =>
    upd_first m c d hd h h3 P hP (CommIn m c) (StageAt m c 0) (fun _ _ => rfl) (fun _ _ => rfl) i (by
      have e : (cSl d 0 h).view.set = (cM.access (Rect.unit (s := S2x7x512x1024) ![d, 0, 0, 0] S1x1x512x1024.size h)).set := View.set_reshape _ _
      rw [← e]; exact hi))

/-- `upd_later` in the shape in which the run leaves the slot: the region held through the slot's view, the store
    through the printed rectangle, the two loads as loads through the whole buffers at the printed rectangles. -/
theorem upd_later_run (c : Dev nD) (d s : ℕ) (hd : d < 2) (hs : s + 1 < 7)
    {h : ∀ a, (![d, (s + 1), 0, 0] : Fin 4 → ℕ) a + S1x1x512x1024.size a ≤ S2x7x512x1024.size a}
    {h3 : ∀ a, (![d, 0, 0] : Fin 3 → ℕ) a + S1x512x1024.size a ≤ S2x512x1024.size a}
    (P : Vec F S1x1x512x1024 .f32 → Vec F S1x512x1024 .f32 → FVec F S1x1x512x1024 .f32)
    (hP : ∀ a b : FVec F S512x1024 .f32, P (up4 a) (up3 b) = up4 (stepB a b)) :
    (rpts c (cSl d (s + 1) h) fullShare
        ((cM.access (Rect.unit (s := S2x7x512x1024) ![d, (s + 1), 0, 0] S1x1x512x1024.size h)).write (Elt F) (CommIn m c)
          (P (cM.view.readAt (Elt F) (Rect.unit (s := S2x7x512x1024) ![d, (s + 1), 0, 0] S1x1x512x1024.size h).toLoadRect (CommIn m c))
             (sM.view.readAt (Elt F) (Rect.unit (s := S2x512x1024) ![d, 0, 0] S1x512x1024.size h3).toLoadRect (StageAt m c (s + 1)))) Finset.univ) : sProp 𝕄)
      ⊢ rpts c (cSl d (s + 1) h) fullShare (CommAcc m c) :=
  Entails.of_eq (BI.Region.is_congr fun i hi =>
    upd_later m c d s hd hs h h3 P hP (CommIn m c) (StageAt m c (s + 1)) (fun _ _ => rfl) (fun _ _ => rfl) i (by
      have e : (cSl d (s + 1) h).view.set = (cM.access (Rect.unit (s := S2x7x512x1024) ![d, (s + 1), 0, 0] S1x1x512x1024.size h)).set := View.set_reshape _ _
      rw [← e]; exact hi))

/-- info: 'Cert.KernelIdeal.Vals.upd_later_run' depends on axioms: [propext, Classical.choice, Quot.sound] -/
#guard_msgs in #print axioms upd_later_run

end Cert.KernelIdeal.Vals

end
-- ==== Proof.RulesRing.lean ====
/-
  The ring copies, as the program issues them. Each lemma is the library's rule for an addressed copy whose
  destination the issuer holds, at the certificate's schedule: the departure cell hands back the share of the source
  lent to the copy, the arrival cell hands its owner the destination's region at its named contents.
-/
import proofs.«900727_g7700000000000728_dist_ar_v7x_xyz2x4x4_y_m16384_n1024_f32_1_alg».proof.Proof.Tables
import proofs.«900727_g7700000000000728_dist_ar_v7x_xyz2x4x4_y_m16384_n1024_f32_1_alg».proof.Proof.ValLemmas

set_option maxRecDepth 16384

noncomputable section

namespace Cert.KernelIdeal.Rules

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The first ring copy of direction 0: the device's own chunk to the first slot of the successor. -/
theorem send_first_0 (K : Dev nD × Fin 91 → ℕ) (c n : Dev nD) (hn : n = succD c)
    {hsc : ((cSl 0 0 inb_S2x7x512x1024_S1x1x512x1024_0_0_0_0) : Memref sig (Dev.tc n : Thread nD τ).2.kind .vmem S512x1024 .f32).view.ref.isScScratch = false}
    {hsrc : (xCh (k0_off1 c 0#32) (k0_off1_inb c 0)).view.WordExact} {hdst : (cSl 0 0 inb_S2x7x512x1024_S1x1x512x1024_0_0_0_0).view.WordExact}
    {hsem : DmaTarget.Typed .hbm (.dma (dsem 28)) (.remote (Dev.tc n : Thread nD τ) (cSl 0 0 inb_S2x7x512x1024_S1x1x512x1024_0_0_0_0) (.dma (dsem 0)) hsc)}
    {α : Type} {Q : α → sProp 𝕄} {k : PUnit → Prog (TpuEff nD τ sig (Elt F) Λ₀ .tc) α}
    (fd : Buf (Elt F) ((cSl 0 0 inb_S2x7x512x1024_S1x1x512x1024_0_0_0_0).view.loc (succD c : Thread nD τ))) (O : CellTallies nD τ sig Unit) (W : Waits sig Unit) :
    iprop(cellInv ER (sched m) (K (c, 1)) (dcell c 0) ∗ cellInv ER (sched m) (K (succD c, 29)) (dcell (succD c) 28)
        ∗ rpts c (xCh (k0_off1 c 0#32) (k0_off1_inb c 0)) fullShare (X m c) ∗ rpts (succD c) (cSl 0 0 inb_S2x7x512x1024_S1x1x512x1024_0_0_0_0) fullShare fd
        ∗ owes (c : Thread nD τ) (O + tallyAt (dcell (succD c) 28) () N) W
        ∗ dutyTok ER (dcell c 0) 0 0 ∗ reached ER (dcell c 0) 0
        ∗ dutyTok ER (dcell (succD c) 28) 0 0 ∗ reached ER (dcell (succD c) 28) 0)
      ⊢ iprop(((cred (tallyAt (dcell c 0) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off1 c 0#32) (k0_off1_inb c 0)) (.remote (Dev.tc n : Thread nD τ) (cSl 0 0 inb_S2x7x512x1024_S1x1x512x1024_0_0_0_0) (.dma (dsem 0)) hsc) (.dma (dsem 28)) hsrc hdst hsem) k) Q) := by
  subst hn
  exact Rounds.wp_send_pointsTo Variants.none ER (sched m) (c : Thread nD τ) none
    (c' := (succD c : Thread nD τ)) (src := (xCh (k0_off1 c 0#32) (k0_off1_inb c 0))) (dst := (cSl 0 0 inb_S2x7x512x1024_S1x1x512x1024_0_0_0_0)) (q := fullShare) (fs := X m c) (fd := fd)
    (κ₁ := K (c, 1)) (κ₂ := K (succD c, 29)) (r₁ := 0) (r₂ := 0) (d₁ := 0) (d₂ := 0)
    (by rw [duties_dma m c 0 (by decide)]; exact Finset.mem_singleton_self _)
    (by rw [duties_dma m (succD c) 28 (by decide)]; exact Finset.mem_singleton_self _)
    () () N rfl (amount_dma m c 0 (by decide) 0 0) (amount_dma m (succD c) 28 (by decide) 0 0) O rfl (W := W)
    (by rw [payload_send_0_0]; exact BI.Entails.refl _)
    (by rw [payload_recv_0_0]; exact land_first_ent m c 0 (by decide) _ _ (off1_0 c) _ fd)

/-- The first ring copy of direction 1: the device's own chunk to the first slot of the predecessor. -/
theorem send_first_1 (K : Dev nD × Fin 91 → ℕ) (c n : Dev nD) (hn : n = predD c)
    {hsc : ((cSl 1 0 inb_S2x7x512x1024_S1x1x512x1024_1_0_0_0) : Memref sig (Dev.tc n : Thread nD τ).2.kind .vmem S512x1024 .f32).view.ref.isScScratch = false}
    {hsrc : (xCh (k0_off1 c 4096#32) (k0_off1_inb c 1)).view.WordExact} {hdst : (cSl 1 0 inb_S2x7x512x1024_S1x1x512x1024_1_0_0_0).view.WordExact}
    {hsem : DmaTarget.Typed .hbm (.dma (dsem 42)) (.remote (Dev.tc n : Thread nD τ) (cSl 1 0 inb_S2x7x512x1024_S1x1x512x1024_1_0_0_0) (.dma (dsem 14)) hsc)}
    {α : Type} {Q : α → sProp 𝕄} {k : PUnit → Prog (TpuEff nD τ sig (Elt F) Λ₀ .tc) α}
    (fd : Buf (Elt F) ((cSl 1 0 inb_S2x7x512x1024_S1x1x512x1024_1_0_0_0).view.loc (predD c : Thread nD τ))) (O : CellTallies nD τ sig Unit) (W : Waits sig Unit) :
    iprop(cellInv ER (sched m) (K (c, 15)) (dcell c 14) ∗ cellInv ER (sched m) (K (predD c, 43)) (dcell (predD c) 42)
        ∗ rpts c (xCh (k0_off1 c 4096#32) (k0_off1_inb c 1)) fullShare (X m c) ∗ rpts (predD c) (cSl 1 0 inb_S2x7x512x1024_S1x1x512x1024_1_0_0_0) fullShare fd
        ∗ owes (c : Thread nD τ) (O + tallyAt (dcell (predD c) 42) () N) W
        ∗ dutyTok ER (dcell c 14) 0 0 ∗ reached ER (dcell c 14) 0
        ∗ dutyTok ER (dcell (predD c) 42) 0 0 ∗ reached ER (dcell (predD c) 42) 0)
      ⊢ iprop(((cred (tallyAt (dcell c 14) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off1 c 4096#32) (k0_off1_inb c 1)) (.remote (Dev.tc n : Thread nD τ) (cSl 1 0 inb_S2x7x512x1024_S1x1x512x1024_1_0_0_0) (.dma (dsem 14)) hsc) (.dma (dsem 42)) hsrc hdst hsem) k) Q) := by
  subst hn
  exact Rounds.wp_send_pointsTo Variants.none ER (sched m) (c : Thread nD τ) none
    (c' := (predD c : Thread nD τ)) (src := (xCh (k0_off1 c 4096#32) (k0_off1_inb c 1))) (dst := (cSl 1 0 inb_S2x7x512x1024_S1x1x512x1024_1_0_0_0)) (q := fullShare) (fs := X m c) (fd := fd)
    (κ₁ := K (c, 15)) (κ₂ := K (predD c, 43)) (r₁ := 0) (r₂ := 0) (d₁ := 0) (d₂ := 0)
    (by rw [duties_dma m c 14 (by decide)]; exact Finset.mem_singleton_self _)
    (by rw [duties_dma m (predD c) 42 (by decide)]; exact Finset.mem_singleton_self _)
    () () N rfl (amount_dma m c 14 (by decide) 0 0) (amount_dma m (predD c) 42 (by decide) 0 0) O rfl (W := W)
    (by rw [payload_send_1_0]; exact BI.Entails.refl _)
    (by rw [payload_recv_1_0]; exact land_first_ent m c 1 (by decide) _ _ (off1_1 c) _ fd)

/-- A later ring copy of direction 0: the slot updated at step s to the next slot of the successor. -/
theorem send_ring_0 (K : Dev nD × Fin 91 → ℕ) (c n : Dev nD) (hn : n = succD c) (s : ℕ) (hs : s + 1 < 7)
    {h : ∀ a, (![0, s, 0, 0] : Fin 4 → ℕ) a + S1x1x512x1024.size a ≤ S2x7x512x1024.size a}
    {h' : ∀ a, (![0, s + 1, 0, 0] : Fin 4 → ℕ) a + S1x1x512x1024.size a ≤ S2x7x512x1024.size a}
    {hsc : ((cSl 0 (s + 1) h') : Memref sig (Dev.tc n : Thread nD τ).2.kind .vmem S512x1024 .f32).view.ref.isScScratch = false}
    {hsrc : (cSl 0 s h).view.WordExact} {hdst : (cSl 0 (s + 1) h').view.WordExact}
    {hsem : DmaTarget.Typed .vmem (.dma (dsem (28 + (s + 1)) (by omega))) (.remote (Dev.tc n : Thread nD τ) (cSl 0 (s + 1) h') (.dma (dsem (0 + (s + 1)) (by omega))) hsc)}
    {α : Type} {Q : α → sProp 𝕄} {k : PUnit → Prog (TpuEff nD τ sig (Elt F) Λ₀ .tc) α}
    (fd : Buf (Elt F) ((cSl 0 (s + 1) h').view.loc (succD c : Thread nD τ))) (O : CellTallies nD τ sig Unit) (W : Waits sig Unit) :
    iprop(cellInv ER (sched m) (K (c, ⟨0 + (s + 1) + 1, by omega⟩)) (dcell c (0 + (s + 1)) (by omega))
        ∗ cellInv ER (sched m) (K (succD c, ⟨28 + (s + 1) + 1, by omega⟩)) (dcell (succD c) (28 + (s + 1)) (by omega))
        ∗ rpts c (cSl 0 s h) fullShare (CommAcc m c) ∗ rpts (succD c) (cSl 0 (s + 1) h') fullShare fd
        ∗ owes (c : Thread nD τ) (O + tallyAt (dcell (succD c) (28 + (s + 1)) (by omega)) () N) W
        ∗ dutyTok ER (dcell c (0 + (s + 1)) (by omega)) 0 0 ∗ reached ER (dcell c (0 + (s + 1)) (by omega)) 0
        ∗ dutyTok ER (dcell (succD c) (28 + (s + 1)) (by omega)) 0 0 ∗ reached ER (dcell (succD c) (28 + (s + 1)) (by omega)) 0)
      ⊢ iprop(((cred (tallyAt (dcell c (0 + (s + 1)) (by omega)) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 s h) (.remote (Dev.tc n : Thread nD τ) (cSl 0 (s + 1) h') (.dma (dsem (0 + (s + 1)) (by omega))) hsc) (.dma (dsem (28 + (s + 1)) (by omega))) hsrc hdst hsem) k) Q) := by
  subst hn
  have hs' : s < 6 := by omega
  have hp₁ : (sched m).payload (dcell c (0 + (s + 1)) (by omega)) 0 0 = rpts c (cSl 0 s h) fullShare (CommAcc m c) := by
    interval_cases s <;> rfl
  have hp₂ : (sched m).payload (dcell (succD c) (28 + (s + 1)) (by omega)) 0 0
      = rpts (succD c) (cSl 0 (s + 1) h') fullShare (CommIn m (succD c)) := by
    interval_cases s <;> rfl
  exact Rounds.wp_send_pointsTo Variants.none ER (sched m) (c : Thread nD τ) none
    (c' := (succD c : Thread nD τ)) (src := (cSl 0 s h)) (dst := (cSl 0 (s + 1) h')) (q := fullShare) (fs := CommAcc m c) (fd := fd)
    (κ₁ := K (c, ⟨0 + (s + 1) + 1, by omega⟩)) (κ₂ := K (succD c, ⟨28 + (s + 1) + 1, by omega⟩)) (r₁ := 0) (r₂ := 0) (d₁ := 0) (d₂ := 0)
    (by rw [duties_dma m c (0 + (s + 1)) (by omega)]; exact Finset.mem_singleton_self _)
    (by rw [duties_dma m (succD c) (28 + (s + 1)) (by omega)]; exact Finset.mem_singleton_self _)
    () () N rfl (amount_dma m c (0 + (s + 1)) (by omega) 0 0) (amount_dma m (succD c) (28 + (s + 1)) (by omega) 0 0) O rfl (W := W)
    (Entails.of_eq hp₁.symm)
    (by rw [hp₂]; exact land_ring_ent m c 0 s (by decide) hs h h' fd)

/-- A later ring copy of direction 1: the slot updated at step s to the next slot of the predecessor. -/
theorem send_ring_1 (K : Dev nD × Fin 91 → ℕ) (c n : Dev nD) (hn : n = predD c) (s : ℕ) (hs : s + 1 < 7)
    {h : ∀ a, (![1, s, 0, 0] : Fin 4 → ℕ) a + S1x1x512x1024.size a ≤ S2x7x512x1024.size a}
    {h' : ∀ a, (![1, s + 1, 0, 0] : Fin 4 → ℕ) a + S1x1x512x1024.size a ≤ S2x7x512x1024.size a}
    {hsc : ((cSl 1 (s + 1) h') : Memref sig (Dev.tc n : Thread nD τ).2.kind .vmem S512x1024 .f32).view.ref.isScScratch = false}
    {hsrc : (cSl 1 s h).view.WordExact} {hdst : (cSl 1 (s + 1) h').view.WordExact}
    {hsem : DmaTarget.Typed .vmem (.dma (dsem (42 + (s + 1)) (by omega))) (.remote (Dev.tc n : Thread nD τ) (cSl 1 (s + 1) h') (.dma (dsem (14 + (s + 1)) (by omega))) hsc)}
    {α : Type} {Q : α → sProp 𝕄} {k : PUnit → Prog (TpuEff nD τ sig (Elt F) Λ₀ .tc) α}
    (fd : Buf (Elt F) ((cSl 1 (s + 1) h').view.loc (predD c : Thread nD τ))) (O : CellTallies nD τ sig Unit) (W : Waits sig Unit) :
    iprop(cellInv ER (sched m) (K (c, ⟨14 + (s + 1) + 1, by omega⟩)) (dcell c (14 + (s + 1)) (by omega))
        ∗ cellInv ER (sched m) (K (predD c, ⟨42 + (s + 1) + 1, by omega⟩)) (dcell (predD c) (42 + (s + 1)) (by omega))
        ∗ rpts c (cSl 1 s h) fullShare (CommAcc m c) ∗ rpts (predD c) (cSl 1 (s + 1) h') fullShare fd
        ∗ owes (c : Thread nD τ) (O + tallyAt (dcell (predD c) (42 + (s + 1)) (by omega)) () N) W
        ∗ dutyTok ER (dcell c (14 + (s + 1)) (by omega)) 0 0 ∗ reached ER (dcell c (14 + (s + 1)) (by omega)) 0
        ∗ dutyTok ER (dcell (predD c) (42 + (s + 1)) (by omega)) 0 0 ∗ reached ER (dcell (predD c) (42 + (s + 1)) (by omega)) 0)
      ⊢ iprop(((cred (tallyAt (dcell c (14 + (s + 1)) (by omega)) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 s h) (.remote (Dev.tc n : Thread nD τ) (cSl 1 (s + 1) h') (.dma (dsem (14 + (s + 1)) (by omega))) hsc) (.dma (dsem (42 + (s + 1)) (by omega))) hsrc hdst hsem) k) Q) := by
  subst hn
  have hs' : s < 6 := by omega
  have hp₁ : (sched m).payload (dcell c (14 + (s + 1)) (by omega)) 0 0 = rpts c (cSl 1 s h) fullShare (CommAcc m c) := by
    interval_cases s <;> rfl
  have hp₂ : (sched m).payload (dcell (predD c) (42 + (s + 1)) (by omega)) 0 0
      = rpts (predD c) (cSl 1 (s + 1) h') fullShare (CommIn m (predD c)) := by
    interval_cases s <;> rfl
  exact Rounds.wp_send_pointsTo Variants.none ER (sched m) (c : Thread nD τ) none
    (c' := (predD c : Thread nD τ)) (src := (cSl 1 s h)) (dst := (cSl 1 (s + 1) h')) (q := fullShare) (fs := CommAcc m c) (fd := fd)
    (κ₁ := K (c, ⟨14 + (s + 1) + 1, by omega⟩)) (κ₂ := K (predD c, ⟨42 + (s + 1) + 1, by omega⟩)) (r₁ := 0) (r₂ := 0) (d₁ := 0) (d₂ := 0)
    (by rw [duties_dma m c (14 + (s + 1)) (by omega)]; exact Finset.mem_singleton_self _)
    (by rw [duties_dma m (predD c) (42 + (s + 1)) (by omega)]; exact Finset.mem_singleton_self _)
    () () N rfl (amount_dma m c (14 + (s + 1)) (by omega) 0 0) (amount_dma m (predD c) (42 + (s + 1)) (by omega) 0 0) O rfl (W := W)
    (Entails.of_eq hp₁.symm)
    (by rw [hp₂]; exact land_ring_ent m c 1 s (by decide) hs h h' fd)

omit m in
/-- Two chunk views of the result array at equal offsets cover the same region. -/
theorem rpts_oCh_congr (c' : Dev nD) (off off' : Fin 2 → ℕ)
    (h : ∀ a, off a + S512x1024.size a ≤ S16384x1024.size a) (h' : ∀ a, off' a + S512x1024.size a ≤ S16384x1024.size a)
    (e : off = off') (q : PosShare TreeShare) (f : Buf (Elt F) ((c' : Thread nD τ).loc main_v1)) :
    (rpts c' (oCh off h) q f : sProp 𝕄) = rpts c' (oCh off' h') q f := by
  subst e; rfl

/-- The eighth ring copy of direction 0: the finished chunk from the last slot to the result array of the successor. -/
theorem send_done_0 (K : Dev nD × Fin 91 → ℕ) (c n : Dev nD) (hn : n = succD c)
    {hsc : ((oCh (k0_off4 c 0#32 1#32 0#32) (k0_off4_inb c 0)) : Memref sig (Dev.tc n : Thread nD τ).2.kind .hbm S512x1024 .f32).view.ref.isScScratch = false}
    {hsrc : (cSl 0 6 inb_S2x7x512x1024_S1x1x512x1024_0_6_0_0).view.WordExact} {hdst : (oCh (k0_off4 c 0#32 1#32 0#32) (k0_off4_inb c 0)).view.WordExact}
    {hsem : DmaTarget.Typed .vmem (.dma (dsem 35)) (.remote (Dev.tc n : Thread nD τ) (oCh (k0_off4 c 0#32 1#32 0#32) (k0_off4_inb c 0)) (.dma (dsem 7)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 8)) (dcell c 7) ∗ cellInv ER (sched m) (K (succD c, 36)) (dcell (succD c) 35)
        ∗ rpts c (cSl 0 6 inb_S2x7x512x1024_S1x1x512x1024_0_6_0_0) fullShare.right (CommAcc m c) ∗ rpts (succD c) (oCh (k0_off2 (succD c) 0#32 0#32) (k0_off2_inb (succD c) 14)) fullShare fd
        ∗ owes (c : Thread nD τ) (O + tallyAt (dcell (succD c) 35) () N) W
        ∗ dutyTok ER (dcell c 7) 0 0 ∗ reached ER (dcell c 7) 0
        ∗ dutyTok ER (dcell (succD c) 35) 0 0 ∗ reached ER (dcell (succD c) 35) 0)
      ⊢ iprop(((cred (tallyAt (dcell c 7) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 6 inb_S2x7x512x1024_S1x1x512x1024_0_6_0_0) (.remote (Dev.tc n : Thread nD τ) (oCh (k0_off4 c 0#32 1#32 0#32) (k0_off4_inb c 0)) (.dma (dsem 7)) hsc) (.dma (dsem 35)) hsrc hdst hsem) k) Q) := by
  subst hn
  rw [rpts_oCh_congr (succD c) (k0_off2 (succD c) 0#32 0#32) (k0_off4 c 0#32 1#32 0#32) (k0_off2_inb (succD c) 14) (k0_off4_inb c 0) (off4_to_succ_0 c).symm fullShare fd]
  exact Rounds.wp_send_pointsTo Variants.none ER (sched m) (c : Thread nD τ) none
    (c' := (succD c : Thread nD τ)) (src := (cSl 0 6 inb_S2x7x512x1024_S1x1x512x1024_0_6_0_0)) (dst := (oCh (k0_off4 c 0#32 1#32 0#32) (k0_off4_inb c 0))) (q := fullShare.right) (fs := CommAcc m c) (fd := fd)
    (κ₁ := K (c, 8)) (κ₂ := K (succD c, 36)) (r₁ := 0) (r₂ := 0) (d₁ := 0) (d₂ := 0)
    (by rw [duties_dma m c 7 (by decide)]; exact Finset.mem_singleton_self _)
    (by rw [duties_dma m (succD c) 35 (by decide)]; exact Finset.mem_singleton_self _)
    () () N rfl (amount_dma m c 7 (by decide) 0 0) (amount_dma m (succD c) 35 (by decide) 0 0) O rfl (W := W)
    (by rw [payload_send_0_7]; exact BI.Entails.refl _)
    (by rw [payload_recv_0_7]
        exact (land_done_ent m c (succD c) 0 (by decide) (congrArg (· / 2) (z_succ c)) (k0_off4 c 0#32 1#32 0#32) inb_S2x7x512x1024_S1x1x512x1024_0_6_0_0 (k0_off4_inb c 0) (off4_0_0 c) fd).trans
          (Entails.of_eq (rpts_oCh_congr (succD c) (k0_off4 c 0#32 1#32 0#32) (k0_off2 (succD c) 0#32 0#32) (k0_off4_inb c 0) (k0_off2_inb (succD c) 14) (off4_to_succ_0 c) fullShare (Res m (succD c)))))

/-- The eighth ring copy of direction 1: the finished chunk from the last slot to the result array of the predecessor. -/
theorem send_done_1 (K : Dev nD × Fin 91 → ℕ) (c n : Dev nD) (hn : n = predD c)
    {hsc : ((oCh (k0_off4 c 4096#32 4294967295#32 0#32) (k0_off4_inb c 1)) : Memref sig (Dev.tc n : Thread nD τ).2.kind .hbm S512x1024 .f32).view.ref.isScScratch = false}
    {hsrc : (cSl 1 6 inb_S2x7x512x1024_S1x1x512x1024_1_6_0_0).view.WordExact} {hdst : (oCh (k0_off4 c 4096#32 4294967295#32 0#32) (k0_off4_inb c 1)).view.WordExact}
    {hsem : DmaTarget.Typed .vmem (.dma (dsem 49)) (.remote (Dev.tc n : Thread nD τ) (oCh (k0_off4 c 4096#32 4294967295#32 0#32) (k0_off4_inb c 1)) (.dma (dsem 21)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 22)) (dcell c 21) ∗ cellInv ER (sched m) (K (predD c, 50)) (dcell (predD c) 49)
        ∗ rpts c (cSl 1 6 inb_S2x7x512x1024_S1x1x512x1024_1_6_0_0) fullShare.right (CommAcc m c) ∗ rpts (predD c) (oCh (k0_off2 (predD c) 4096#32 0#32) (k0_off2_inb (predD c) 15)) fullShare fd
        ∗ owes (c : Thread nD τ) (O + tallyAt (dcell (predD c) 49) () N) W
        ∗ dutyTok ER (dcell c 21) 0 0 ∗ reached ER (dcell c 21) 0
        ∗ dutyTok ER (dcell (predD c) 49) 0 0 ∗ reached ER (dcell (predD c) 49) 0)
      ⊢ iprop(((cred (tallyAt (dcell c 21) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 6 inb_S2x7x512x1024_S1x1x512x1024_1_6_0_0) (.remote (Dev.tc n : Thread nD τ) (oCh (k0_off4 c 4096#32 4294967295#32 0#32) (k0_off4_inb c 1)) (.dma (dsem 21)) hsc) (.dma (dsem 49)) hsrc hdst hsem) k) Q) := by
  subst hn
  rw [rpts_oCh_congr (predD c) (k0_off2 (predD c) 4096#32 0#32) (k0_off4 c 4096#32 4294967295#32 0#32) (k0_off2_inb (predD c) 15) (k0_off4_inb c 1) (off4_to_pred_0 c).symm fullShare fd]
  exact Rounds.wp_send_pointsTo Variants.none ER (sched m) (c : Thread nD τ) none
    (c' := (predD c : Thread nD τ)) (src := (cSl 1 6 inb_S2x7x512x1024_S1x1x512x1024_1_6_0_0)) (dst := (oCh (k0_off4 c 4096#32 4294967295#32 0#32) (k0_off4_inb c 1))) (q := fullShare.right) (fs := CommAcc m c) (fd := fd)
    (κ₁ := K (c, 22)) (κ₂ := K (predD c, 50)) (r₁ := 0) (r₂ := 0) (d₁ := 0) (d₂ := 0)
    (by rw [duties_dma m c 21 (by decide)]; exact Finset.mem_singleton_self _)
    (by rw [duties_dma m (predD c) 49 (by decide)]; exact Finset.mem_singleton_self _)
    () () N rfl (amount_dma m c 21 (by decide) 0 0) (amount_dma m (predD c) 49 (by decide) 0 0) O rfl (W := W)
    (by rw [payload_send_1_7]; exact BI.Entails.refl _)
    (by rw [payload_recv_1_7]
        exact (land_done_ent m c (predD c) 1 (by decide) (congrArg (· / 2) (z_pred c)) (k0_off4 c 4096#32 4294967295#32 0#32) inb_S2x7x512x1024_S1x1x512x1024_1_6_0_0 (k0_off4_inb c 1) (off4_1_0 c) fd).trans
          (Entails.of_eq (rpts_oCh_congr (predD c) (k0_off4 c 4096#32 4294967295#32 0#32) (k0_off2 (predD c) 4096#32 0#32) (k0_off4_inb c 1) (k0_off2_inb (predD c) 15) (off4_to_pred_0 c) fullShare (Res m (predD c)))))

/-- Redistribution step 1 of direction 0: a finished chunk from the result array to the result array of the successor. -/
theorem send_gather_0_1 (K : Dev nD × Fin 91 → ℕ) (c n : Dev nD) (hn : n = succD c)
    {hsc : ((oCh (k0_off4 c 0#32 1#32 1#32) (k0_off4_inb c 2)) : Memref sig (Dev.tc n : Thread nD τ).2.kind .hbm S512x1024 .f32).view.ref.isScScratch = false}
    {hsrc : (oCh (k0_off4 c 0#32 1#32 1#32) (k0_off4_inb c 2)).view.WordExact} {hdst : (oCh (k0_off4 c 0#32 1#32 1#32) (k0_off4_inb c 2)).view.WordExact}
    {hsem : DmaTarget.Typed .hbm (.dma (dsem 36)) (.remote (Dev.tc n : Thread nD τ) (oCh (k0_off4 c 0#32 1#32 1#32) (k0_off4_inb c 2)) (.dma (dsem 8)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 9)) (dcell c 8) ∗ cellInv ER (sched m) (K (succD c, 37)) (dcell (succD c) 36)
        ∗ rpts c (oCh (k0_off4 c 0#32 1#32 1#32) (k0_off4_inb c 2)) fullShare.right (Res m c) ∗ rpts (succD c) (oCh (k0_off2 (succD c) 0#32 1#32) (k0_off2_inb (succD c) 0)) fullShare fd
        ∗ owes (c : Thread nD τ) (O + tallyAt (dcell (succD c) 36) () N) W
        ∗ dutyTok ER (dcell c 8) 0 0 ∗ reached ER (dcell c 8) 0
        ∗ dutyTok ER (dcell (succD c) 36) 0 0 ∗ reached ER (dcell (succD c) 36) 0)
      ⊢ iprop(((cred (tallyAt (dcell c 8) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 1#32) (k0_off4_inb c 2)) (.remote (Dev.tc n : Thread nD τ) (oCh (k0_off4 c 0#32 1#32 1#32) (k0_off4_inb c 2)) (.dma (dsem 8)) hsc) (.dma (dsem 36)) hsrc hdst hsem) k) Q) := by
  subst hn
  rw [rpts_oCh_congr (succD c) (k0_off2 (succD c) 0#32 1#32) (k0_off4 c 0#32 1#32 1#32) (k0_off2_inb (succD c) 0) (k0_off4_inb c 2) (off4_to_succ_1 c).symm fullShare fd]
  exact Rounds.wp_send_pointsTo Variants.none ER (sched m) (c : Thread nD τ) none
    (c' := (succD c : Thread nD τ)) (src := (oCh (k0_off4 c 0#32 1#32 1#32) (k0_off4_inb c 2))) (dst := (oCh (k0_off4 c 0#32 1#32 1#32) (k0_off4_inb c 2))) (q := fullShare.right) (fs := Res m c) (fd := fd)
    (κ₁ := K (c, 9)) (κ₂ := K (succD c, 37)) (r₁ := 0) (r₂ := 0) (d₁ := 0) (d₂ := 0)
    (by rw [duties_dma m c 8 (by decide)]; exact Finset.mem_singleton_self _)
    (by rw [duties_dma m (succD c) 36 (by decide)]; exact Finset.mem_singleton_self _)
    () () N rfl (amount_dma m c 8 (by decide) 0 0) (amount_dma m (succD c) 36 (by decide) 0 0) O rfl (W := W)
    (by rw [payload_send_0_8]; exact BI.Entails.refl _)
    (by rw [payload_recv_0_8]
        exact (land_res_ent m c (succD c) (k0_off4 c 0#32 1#32 1#32) (k0_off4_inb c 2) (k0_off4_inb c 2) (congrArg (· / 2) (z_succ c)) fd).trans
          (Entails.of_eq (rpts_oCh_congr (succD c) (k0_off4 c 0#32 1#32 1#32) (k0_off2 (succD c) 0#32 1#32) (k0_off4_inb c 2) (k0_off2_inb (succD c) 0) (off4_to_succ_1 c) fullShare (Res m (succD c)))))

/-- Redistribution step 1 of direction 1: a finished chunk from the result array to the result array of the predecessor. -/
theorem send_gather_1_1 (K : Dev nD × Fin 91 → ℕ) (c n : Dev nD) (hn : n = predD c)
    {hsc : ((oCh (k0_off4 c 4096#32 4294967295#32 4294967295#32) (k0_off4_inb c 3)) : Memref sig (Dev.tc n : Thread nD τ).2.kind .hbm S512x1024 .f32).view.ref.isScScratch = false}
    {hsrc : (oCh (k0_off4 c 4096#32 4294967295#32 4294967295#32) (k0_off4_inb c 3)).view.WordExact} {hdst : (oCh (k0_off4 c 4096#32 4294967295#32 4294967295#32) (k0_off4_inb c 3)).view.WordExact}
    {hsem : DmaTarget.Typed .hbm (.dma (dsem 50)) (.remote (Dev.tc n : Thread nD τ) (oCh (k0_off4 c 4096#32 4294967295#32 4294967295#32) (k0_off4_inb c 3)) (.dma (dsem 22)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 23)) (dcell c 22) ∗ cellInv ER (sched m) (K (predD c, 51)) (dcell (predD c) 50)
        ∗ rpts c (oCh (k0_off4 c 4096#32 4294967295#32 4294967295#32) (k0_off4_inb c 3)) fullShare.right (Res m c) ∗ rpts (predD c) (oCh (k0_off2 (predD c) 4096#32 4294967295#32) (k0_off2_inb (predD c) 1)) fullShare fd
        ∗ owes (c : Thread nD τ) (O + tallyAt (dcell (predD c) 50) () N) W
        ∗ dutyTok ER (dcell c 22) 0 0 ∗ reached ER (dcell c 22) 0
        ∗ dutyTok ER (dcell (predD c) 50) 0 0 ∗ reached ER (dcell (predD c) 50) 0)
      ⊢ iprop(((cred (tallyAt (dcell c 22) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967295#32) (k0_off4_inb c 3)) (.remote (Dev.tc n : Thread nD τ) (oCh (k0_off4 c 4096#32 4294967295#32 4294967295#32) (k0_off4_inb c 3)) (.dma (dsem 22)) hsc) (.dma (dsem 50)) hsrc hdst hsem) k) Q) := by
  subst hn
  rw [rpts_oCh_congr (predD c) (k0_off2 (predD c) 4096#32 4294967295#32) (k0_off4 c 4096#32 4294967295#32 4294967295#32) (k0_off2_inb (predD c) 1) (k0_off4_inb c 3) (off4_to_pred_1 c).symm fullShare fd]
  exact Rounds.wp_send_pointsTo Variants.none ER (sched m) (c : Thread nD τ) none
    (c' := (predD c : Thread nD τ)) (src := (oCh (k0_off4 c 4096#32 4294967295#32 4294967295#32) (k0_off4_inb c 3))) (dst := (oCh (k0_off4 c 4096#32 4294967295#32 4294967295#32) (k0_off4_inb c 3))) (q := fullShare.right) (fs := Res m c) (fd := fd)
    (κ₁ := K (c, 23)) (κ₂ := K (predD c, 51)) (r₁ := 0) (r₂ := 0) (d₁ := 0) (d₂ := 0)
    (by rw [duties_dma m c 22 (by decide)]; exact Finset.mem_singleton_self _)
    (by rw [duties_dma m (predD c) 50 (by decide)]; exact Finset.mem_singleton_self _)
    () () N rfl (amount_dma m c 22 (by decide) 0 0) (amount_dma m (predD c) 50 (by decide) 0 0) O rfl (W := W)
    (by rw [payload_send_1_8]; exact BI.Entails.refl _)
    (by rw [payload_recv_1_8]
        exact (land_res_ent m c (predD c) (k0_off4 c 4096#32 4294967295#32 4294967295#32) (k0_off4_inb c 3) (k0_off4_inb c 3) (congrArg (· / 2) (z_pred c)) fd).trans
          (Entails.of_eq (rpts_oCh_congr (predD c) (k0_off4 c 4096#32 4294967295#32 4294967295#32) (k0_off2 (predD c) 4096#32 4294967295#32) (k0_off4_inb c 3) (k0_off2_inb (predD c) 1) (off4_to_pred_1 c) fullShare (Res m (predD c)))))

/-- Redistribution step 2 of direction 0: a finished chunk from the result array to the result array of the successor. -/
theorem send_gather_0_2 (K : Dev nD × Fin 91 → ℕ) (c n : Dev nD) (hn : n = succD c)
    {hsc : ((oCh (k0_off4 c 0#32 1#32 2#32) (k0_off4_inb c 4)) : Memref sig (Dev.tc n : Thread nD τ).2.kind .hbm S512x1024 .f32).view.ref.isScScratch = false}
    {hsrc : (oCh (k0_off4 c 0#32 1#32 2#32) (k0_off4_inb c 4)).view.WordExact} {hdst : (oCh (k0_off4 c 0#32 1#32 2#32) (k0_off4_inb c 4)).view.WordExact}
    {hsem : DmaTarget.Typed .hbm (.dma (dsem 37)) (.remote (Dev.tc n : Thread nD τ) (oCh (k0_off4 c 0#32 1#32 2#32) (k0_off4_inb c 4)) (.dma (dsem 9)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 10)) (dcell c 9) ∗ cellInv ER (sched m) (K (succD c, 38)) (dcell (succD c) 37)
        ∗ rpts c (oCh (k0_off4 c 0#32 1#32 2#32) (k0_off4_inb c 4)) fullShare.right (Res m c) ∗ rpts (succD c) (oCh (k0_off2 (succD c) 0#32 2#32) (k0_off2_inb (succD c) 2)) fullShare fd
        ∗ owes (c : Thread nD τ) (O + tallyAt (dcell (succD c) 37) () N) W
        ∗ dutyTok ER (dcell c 9) 0 0 ∗ reached ER (dcell c 9) 0
        ∗ dutyTok ER (dcell (succD c) 37) 0 0 ∗ reached ER (dcell (succD c) 37) 0)
      ⊢ iprop(((cred (tallyAt (dcell c 9) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 2#32) (k0_off4_inb c 4)) (.remote (Dev.tc n : Thread nD τ) (oCh (k0_off4 c 0#32 1#32 2#32) (k0_off4_inb c 4)) (.dma (dsem 9)) hsc) (.dma (dsem 37)) hsrc hdst hsem) k) Q) := by
  subst hn
  rw [rpts_oCh_congr (succD c) (k0_off2 (succD c) 0#32 2#32) (k0_off4 c 0#32 1#32 2#32) (k0_off2_inb (succD c) 2) (k0_off4_inb c 4) (off4_to_succ_2 c).symm fullShare fd]
  exact Rounds.wp_send_pointsTo Variants.none ER (sched m) (c : Thread nD τ) none
    (c' := (succD c : Thread nD τ)) (src := (oCh (k0_off4 c 0#32 1#32 2#32) (k0_off4_inb c 4))) (dst := (oCh (k0_off4 c 0#32 1#32 2#32) (k0_off4_inb c 4))) (q := fullShare.right) (fs := Res m c) (fd := fd)
    (κ₁ := K (c, 10)) (κ₂ := K (succD c, 38)) (r₁ := 0) (r₂ := 0) (d₁ := 0) (d₂ := 0)
    (by rw [duties_dma m c 9 (by decide)]; exact Finset.mem_singleton_self _)
    (by rw [duties_dma m (succD c) 37 (by decide)]; exact Finset.mem_singleton_self _)
    () () N rfl (amount_dma m c 9 (by decide) 0 0) (amount_dma m (succD c) 37 (by decide) 0 0) O rfl (W := W)
    (by rw [payload_send_0_9]; exact BI.Entails.refl _)
    (by rw [payload_recv_0_9]
        exact (land_res_ent m c (succD c) (k0_off4 c 0#32 1#32 2#32) (k0_off4_inb c 4) (k0_off4_inb c 4) (congrArg (· / 2) (z_succ c)) fd).trans
          (Entails.of_eq (rpts_oCh_congr (succD c) (k0_off4 c 0#32 1#32 2#32) (k0_off2 (succD c) 0#32 2#32) (k0_off4_inb c 4) (k0_off2_inb (succD c) 2) (off4_to_succ_2 c) fullShare (Res m (succD c)))))

/-- Redistribution step 2 of direction 1: a finished chunk from the result array to the result array of the predecessor. -/
theorem send_gather_1_2 (K : Dev nD × Fin 91 → ℕ) (c n : Dev nD) (hn : n = predD c)
    {hsc : ((oCh (k0_off4 c 4096#32 4294967295#32 4294967294#32) (k0_off4_inb c 5)) : Memref sig (Dev.tc n : Thread nD τ).2.kind .hbm S512x1024 .f32).view.ref.isScScratch = false}
    {hsrc : (oCh (k0_off4 c 4096#32 4294967295#32 4294967294#32) (k0_off4_inb c 5)).view.WordExact} {hdst : (oCh (k0_off4 c 4096#32 4294967295#32 4294967294#32) (k0_off4_inb c 5)).view.WordExact}
    {hsem : DmaTarget.Typed .hbm (.dma (dsem 51)) (.remote (Dev.tc n : Thread nD τ) (oCh (k0_off4 c 4096#32 4294967295#32 4294967294#32) (k0_off4_inb c 5)) (.dma (dsem 23)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 24)) (dcell c 23) ∗ cellInv ER (sched m) (K (predD c, 52)) (dcell (predD c) 51)
        ∗ rpts c (oCh (k0_off4 c 4096#32 4294967295#32 4294967294#32) (k0_off4_inb c 5)) fullShare.right (Res m c) ∗ rpts (predD c) (oCh (k0_off2 (predD c) 4096#32 4294967294#32) (k0_off2_inb (predD c) 3)) fullShare fd
        ∗ owes (c : Thread nD τ) (O + tallyAt (dcell (predD c) 51) () N) W
        ∗ dutyTok ER (dcell c 23) 0 0 ∗ reached ER (dcell c 23) 0
        ∗ dutyTok ER (dcell (predD c) 51) 0 0 ∗ reached ER (dcell (predD c) 51) 0)
      ⊢ iprop(((cred (tallyAt (dcell c 23) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967294#32) (k0_off4_inb c 5)) (.remote (Dev.tc n : Thread nD τ) (oCh (k0_off4 c 4096#32 4294967295#32 4294967294#32) (k0_off4_inb c 5)) (.dma (dsem 23)) hsc) (.dma (dsem 51)) hsrc hdst hsem) k) Q) := by
  subst hn
  rw [rpts_oCh_congr (predD c) (k0_off2 (predD c) 4096#32 4294967294#32) (k0_off4 c 4096#32 4294967295#32 4294967294#32) (k0_off2_inb (predD c) 3) (k0_off4_inb c 5) (off4_to_pred_2 c).symm fullShare fd]
  exact Rounds.wp_send_pointsTo Variants.none ER (sched m) (c : Thread nD τ) none
    (c' := (predD c : Thread nD τ)) (src := (oCh (k0_off4 c 4096#32 4294967295#32 4294967294#32) (k0_off4_inb c 5))) (dst := (oCh (k0_off4 c 4096#32 4294967295#32 4294967294#32) (k0_off4_inb c 5))) (q := fullShare.right) (fs := Res m c) (fd := fd)
    (κ₁ := K (c, 24)) (κ₂ := K (predD c, 52)) (r₁ := 0) (r₂ := 0) (d₁ := 0) (d₂ := 0)
    (by rw [duties_dma m c 23 (by decide)]; exact Finset.mem_singleton_self _)
    (by rw [duties_dma m (predD c) 51 (by decide)]; exact Finset.mem_singleton_self _)
    () () N rfl (amount_dma m c 23 (by decide) 0 0) (amount_dma m (predD c) 51 (by decide) 0 0) O rfl (W := W)
    (by rw [payload_send_1_9]; exact BI.Entails.refl _)
    (by rw [payload_recv_1_9]
        exact (land_res_ent m c (predD c) (k0_off4 c 4096#32 4294967295#32 4294967294#32) (k0_off4_inb c 5) (k0_off4_inb c 5) (congrArg (· / 2) (z_pred c)) fd).trans
          (Entails.of_eq (rpts_oCh_congr (predD c) (k0_off4 c 4096#32 4294967295#32 4294967294#32) (k0_off2 (predD c) 4096#32 4294967294#32) (k0_off4_inb c 5) (k0_off2_inb (predD c) 3) (off4_to_pred_2 c) fullShare (Res m (predD c)))))

/-- Redistribution step 3 of direction 0: a finished chunk from the result array to the result array of the successor. -/
theorem send_gather_0_3 (K : Dev nD × Fin 91 → ℕ) (c n : Dev nD) (hn : n = succD c)
    {hsc : ((oCh (k0_off4 c 0#32 1#32 3#32) (k0_off4_inb c 6)) : Memref sig (Dev.tc n : Thread nD τ).2.kind .hbm S512x1024 .f32).view.ref.isScScratch = false}
    {hsrc : (oCh (k0_off4 c 0#32 1#32 3#32) (k0_off4_inb c 6)).view.WordExact} {hdst : (oCh (k0_off4 c 0#32 1#32 3#32) (k0_off4_inb c 6)).view.WordExact}
    {hsem : DmaTarget.Typed .hbm (.dma (dsem 38)) (.remote (Dev.tc n : Thread nD τ) (oCh (k0_off4 c 0#32 1#32 3#32) (k0_off4_inb c 6)) (.dma (dsem 10)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 11)) (dcell c 10) ∗ cellInv ER (sched m) (K (succD c, 39)) (dcell (succD c) 38)
        ∗ rpts c (oCh (k0_off4 c 0#32 1#32 3#32) (k0_off4_inb c 6)) fullShare.right (Res m c) ∗ rpts (succD c) (oCh (k0_off2 (succD c) 0#32 3#32) (k0_off2_inb (succD c) 4)) fullShare fd
        ∗ owes (c : Thread nD τ) (O + tallyAt (dcell (succD c) 38) () N) W
        ∗ dutyTok ER (dcell c 10) 0 0 ∗ reached ER (dcell c 10) 0
        ∗ dutyTok ER (dcell (succD c) 38) 0 0 ∗ reached ER (dcell (succD c) 38) 0)
      ⊢ iprop(((cred (tallyAt (dcell c 10) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 3#32) (k0_off4_inb c 6)) (.remote (Dev.tc n : Thread nD τ) (oCh (k0_off4 c 0#32 1#32 3#32) (k0_off4_inb c 6)) (.dma (dsem 10)) hsc) (.dma (dsem 38)) hsrc hdst hsem) k) Q) := by
  subst hn
  rw [rpts_oCh_congr (succD c) (k0_off2 (succD c) 0#32 3#32) (k0_off4 c 0#32 1#32 3#32) (k0_off2_inb (succD c) 4) (k0_off4_inb c 6) (off4_to_succ_3 c).symm fullShare fd]
  exact Rounds.wp_send_pointsTo Variants.none ER (sched m) (c : Thread nD τ) none
    (c' := (succD c : Thread nD τ)) (src := (oCh (k0_off4 c 0#32 1#32 3#32) (k0_off4_inb c 6))) (dst := (oCh (k0_off4 c 0#32 1#32 3#32) (k0_off4_inb c 6))) (q := fullShare.right) (fs := Res m c) (fd := fd)
    (κ₁ := K (c, 11)) (κ₂ := K (succD c, 39)) (r₁ := 0) (r₂ := 0) (d₁ := 0) (d₂ := 0)
    (by rw [duties_dma m c 10 (by decide)]; exact Finset.mem_singleton_self _)
    (by rw [duties_dma m (succD c) 38 (by decide)]; exact Finset.mem_singleton_self _)
    () () N rfl (amount_dma m c 10 (by decide) 0 0) (amount_dma m (succD c) 38 (by decide) 0 0) O rfl (W := W)
    (by rw [payload_send_0_10]; exact BI.Entails.refl _)
    (by rw [payload_recv_0_10]
        exact (land_res_ent m c (succD c) (k0_off4 c 0#32 1#32 3#32) (k0_off4_inb c 6) (k0_off4_inb c 6) (congrArg (· / 2) (z_succ c)) fd).trans
          (Entails.of_eq (rpts_oCh_congr (succD c) (k0_off4 c 0#32 1#32 3#32) (k0_off2 (succD c) 0#32 3#32) (k0_off4_inb c 6) (k0_off2_inb (succD c) 4) (off4_to_succ_3 c) fullShare (Res m (succD c)))))

/-- Redistribution step 3 of direction 1: a finished chunk from the result array to the result array of the predecessor. -/
theorem send_gather_1_3 (K : Dev nD × Fin 91 → ℕ) (c n : Dev nD) (hn : n = predD c)
    {hsc : ((oCh (k0_off4 c 4096#32 4294967295#32 4294967293#32) (k0_off4_inb c 7)) : Memref sig (Dev.tc n : Thread nD τ).2.kind .hbm S512x1024 .f32).view.ref.isScScratch = false}
    {hsrc : (oCh (k0_off4 c 4096#32 4294967295#32 4294967293#32) (k0_off4_inb c 7)).view.WordExact} {hdst : (oCh (k0_off4 c 4096#32 4294967295#32 4294967293#32) (k0_off4_inb c 7)).view.WordExact}
    {hsem : DmaTarget.Typed .hbm (.dma (dsem 52)) (.remote (Dev.tc n : Thread nD τ) (oCh (k0_off4 c 4096#32 4294967295#32 4294967293#32) (k0_off4_inb c 7)) (.dma (dsem 24)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 25)) (dcell c 24) ∗ cellInv ER (sched m) (K (predD c, 53)) (dcell (predD c) 52)
        ∗ rpts c (oCh (k0_off4 c 4096#32 4294967295#32 4294967293#32) (k0_off4_inb c 7)) fullShare.right (Res m c) ∗ rpts (predD c) (oCh (k0_off2 (predD c) 4096#32 4294967293#32) (k0_off2_inb (predD c) 5)) fullShare fd
        ∗ owes (c : Thread nD τ) (O + tallyAt (dcell (predD c) 52) () N) W
        ∗ dutyTok ER (dcell c 24) 0 0 ∗ reached ER (dcell c 24) 0
        ∗ dutyTok ER (dcell (predD c) 52) 0 0 ∗ reached ER (dcell (predD c) 52) 0)
      ⊢ iprop(((cred (tallyAt (dcell c 24) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967293#32) (k0_off4_inb c 7)) (.remote (Dev.tc n : Thread nD τ) (oCh (k0_off4 c 4096#32 4294967295#32 4294967293#32) (k0_off4_inb c 7)) (.dma (dsem 24)) hsc) (.dma (dsem 52)) hsrc hdst hsem) k) Q) := by
  subst hn
  rw [rpts_oCh_congr (predD c) (k0_off2 (predD c) 4096#32 4294967293#32) (k0_off4 c 4096#32 4294967295#32 4294967293#32) (k0_off2_inb (predD c) 5) (k0_off4_inb c 7) (off4_to_pred_3 c).symm fullShare fd]
  exact Rounds.wp_send_pointsTo Variants.none ER (sched m) (c : Thread nD τ) none
    (c' := (predD c : Thread nD τ)) (src := (oCh (k0_off4 c 4096#32 4294967295#32 4294967293#32) (k0_off4_inb c 7))) (dst := (oCh (k0_off4 c 4096#32 4294967295#32 4294967293#32) (k0_off4_inb c 7))) (q := fullShare.right) (fs := Res m c) (fd := fd)
    (κ₁ := K (c, 25)) (κ₂ := K (predD c, 53)) (r₁ := 0) (r₂ := 0) (d₁ := 0) (d₂ := 0)
    (by rw [duties_dma m c 24 (by decide)]; exact Finset.mem_singleton_self _)
    (by rw [duties_dma m (predD c) 52 (by decide)]; exact Finset.mem_singleton_self _)
    () () N rfl (amount_dma m c 24 (by decide) 0 0) (amount_dma m (predD c) 52 (by decide) 0 0) O rfl (W := W)
    (by rw [payload_send_1_10]; exact BI.Entails.refl _)
    (by rw [payload_recv_1_10]
        exact (land_res_ent m c (predD c) (k0_off4 c 4096#32 4294967295#32 4294967293#32) (k0_off4_inb c 7) (k0_off4_inb c 7) (congrArg (· / 2) (z_pred c)) fd).trans
          (Entails.of_eq (rpts_oCh_congr (predD c) (k0_off4 c 4096#32 4294967295#32 4294967293#32) (k0_off2 (predD c) 4096#32 4294967293#32) (k0_off4_inb c 7) (k0_off2_inb (predD c) 5) (off4_to_pred_3 c) fullShare (Res m (predD c)))))

/-- Redistribution step 4 of direction 0: a finished chunk from the result array to the result array of the successor. -/
theorem send_gather_0_4 (K : Dev nD × Fin 91 → ℕ) (c n : Dev nD) (hn : n = succD c)
    {hsc : ((oCh (k0_off4 c 0#32 1#32 4#32) (k0_off4_inb c 8)) : Memref sig (Dev.tc n : Thread nD τ).2.kind .hbm S512x1024 .f32).view.ref.isScScratch = false}
    {hsrc : (oCh (k0_off4 c 0#32 1#32 4#32) (k0_off4_inb c 8)).view.WordExact} {hdst : (oCh (k0_off4 c 0#32 1#32 4#32) (k0_off4_inb c 8)).view.WordExact}
    {hsem : DmaTarget.Typed .hbm (.dma (dsem 39)) (.remote (Dev.tc n : Thread nD τ) (oCh (k0_off4 c 0#32 1#32 4#32) (k0_off4_inb c 8)) (.dma (dsem 11)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 12)) (dcell c 11) ∗ cellInv ER (sched m) (K (succD c, 40)) (dcell (succD c) 39)
        ∗ rpts c (oCh (k0_off4 c 0#32 1#32 4#32) (k0_off4_inb c 8)) fullShare.right (Res m c) ∗ rpts (succD c) (oCh (k0_off2 (succD c) 0#32 4#32) (k0_off2_inb (succD c) 6)) fullShare fd
        ∗ owes (c : Thread nD τ) (O + tallyAt (dcell (succD c) 39) () N) W
        ∗ dutyTok ER (dcell c 11) 0 0 ∗ reached ER (dcell c 11) 0
        ∗ dutyTok ER (dcell (succD c) 39) 0 0 ∗ reached ER (dcell (succD c) 39) 0)
      ⊢ iprop(((cred (tallyAt (dcell c 11) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 4#32) (k0_off4_inb c 8)) (.remote (Dev.tc n : Thread nD τ) (oCh (k0_off4 c 0#32 1#32 4#32) (k0_off4_inb c 8)) (.dma (dsem 11)) hsc) (.dma (dsem 39)) hsrc hdst hsem) k) Q) := by
  subst hn
  rw [rpts_oCh_congr (succD c) (k0_off2 (succD c) 0#32 4#32) (k0_off4 c 0#32 1#32 4#32) (k0_off2_inb (succD c) 6) (k0_off4_inb c 8) (off4_to_succ_4 c).symm fullShare fd]
  exact Rounds.wp_send_pointsTo Variants.none ER (sched m) (c : Thread nD τ) none
    (c' := (succD c : Thread nD τ)) (src := (oCh (k0_off4 c 0#32 1#32 4#32) (k0_off4_inb c 8))) (dst := (oCh (k0_off4 c 0#32 1#32 4#32) (k0_off4_inb c 8))) (q := fullShare.right) (fs := Res m c) (fd := fd)
    (κ₁ := K (c, 12)) (κ₂ := K (succD c, 40)) (r₁ := 0) (r₂ := 0) (d₁ := 0) (d₂ := 0)
    (by rw [duties_dma m c 11 (by decide)]; exact Finset.mem_singleton_self _)
    (by rw [duties_dma m (succD c) 39 (by decide)]; exact Finset.mem_singleton_self _)
    () () N rfl (amount_dma m c 11 (by decide) 0 0) (amount_dma m (succD c) 39 (by decide) 0 0) O rfl (W := W)
    (by rw [payload_send_0_11]; exact BI.Entails.refl _)
    (by rw [payload_recv_0_11]
        exact (land_res_ent m c (succD c) (k0_off4 c 0#32 1#32 4#32) (k0_off4_inb c 8) (k0_off4_inb c 8) (congrArg (· / 2) (z_succ c)) fd).trans
          (Entails.of_eq (rpts_oCh_congr (succD c) (k0_off4 c 0#32 1#32 4#32) (k0_off2 (succD c) 0#32 4#32) (k0_off4_inb c 8) (k0_off2_inb (succD c) 6) (off4_to_succ_4 c) fullShare (Res m (succD c)))))

/-- Redistribution step 4 of direction 1: a finished chunk from the result array to the result array of the predecessor. -/
theorem send_gather_1_4 (K : Dev nD × Fin 91 → ℕ) (c n : Dev nD) (hn : n = predD c)
    {hsc : ((oCh (k0_off4 c 4096#32 4294967295#32 4294967292#32) (k0_off4_inb c 9)) : Memref sig (Dev.tc n : Thread nD τ).2.kind .hbm S512x1024 .f32).view.ref.isScScratch = false}
    {hsrc : (oCh (k0_off4 c 4096#32 4294967295#32 4294967292#32) (k0_off4_inb c 9)).view.WordExact} {hdst : (oCh (k0_off4 c 4096#32 4294967295#32 4294967292#32) (k0_off4_inb c 9)).view.WordExact}
    {hsem : DmaTarget.Typed .hbm (.dma (dsem 53)) (.remote (Dev.tc n : Thread nD τ) (oCh (k0_off4 c 4096#32 4294967295#32 4294967292#32) (k0_off4_inb c 9)) (.dma (dsem 25)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 26)) (dcell c 25) ∗ cellInv ER (sched m) (K (predD c, 54)) (dcell (predD c) 53)
        ∗ rpts c (oCh (k0_off4 c 4096#32 4294967295#32 4294967292#32) (k0_off4_inb c 9)) fullShare.right (Res m c) ∗ rpts (predD c) (oCh (k0_off2 (predD c) 4096#32 4294967292#32) (k0_off2_inb (predD c) 7)) fullShare fd
        ∗ owes (c : Thread nD τ) (O + tallyAt (dcell (predD c) 53) () N) W
        ∗ dutyTok ER (dcell c 25) 0 0 ∗ reached ER (dcell c 25) 0
        ∗ dutyTok ER (dcell (predD c) 53) 0 0 ∗ reached ER (dcell (predD c) 53) 0)
      ⊢ iprop(((cred (tallyAt (dcell c 25) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967292#32) (k0_off4_inb c 9)) (.remote (Dev.tc n : Thread nD τ) (oCh (k0_off4 c 4096#32 4294967295#32 4294967292#32) (k0_off4_inb c 9)) (.dma (dsem 25)) hsc) (.dma (dsem 53)) hsrc hdst hsem) k) Q) := by
  subst hn
  rw [rpts_oCh_congr (predD c) (k0_off2 (predD c) 4096#32 4294967292#32) (k0_off4 c 4096#32 4294967295#32 4294967292#32) (k0_off2_inb (predD c) 7) (k0_off4_inb c 9) (off4_to_pred_4 c).symm fullShare fd]
  exact Rounds.wp_send_pointsTo Variants.none ER (sched m) (c : Thread nD τ) none
    (c' := (predD c : Thread nD τ)) (src := (oCh (k0_off4 c 4096#32 4294967295#32 4294967292#32) (k0_off4_inb c 9))) (dst := (oCh (k0_off4 c 4096#32 4294967295#32 4294967292#32) (k0_off4_inb c 9))) (q := fullShare.right) (fs := Res m c) (fd := fd)
    (κ₁ := K (c, 26)) (κ₂ := K (predD c, 54)) (r₁ := 0) (r₂ := 0) (d₁ := 0) (d₂ := 0)
    (by rw [duties_dma m c 25 (by decide)]; exact Finset.mem_singleton_self _)
    (by rw [duties_dma m (predD c) 53 (by decide)]; exact Finset.mem_singleton_self _)
    () () N rfl (amount_dma m c 25 (by decide) 0 0) (amount_dma m (predD c) 53 (by decide) 0 0) O rfl (W := W)
    (by rw [payload_send_1_11]; exact BI.Entails.refl _)
    (by rw [payload_recv_1_11]
        exact (land_res_ent m c (predD c) (k0_off4 c 4096#32 4294967295#32 4294967292#32) (k0_off4_inb c 9) (k0_off4_inb c 9) (congrArg (· / 2) (z_pred c)) fd).trans
          (Entails.of_eq (rpts_oCh_congr (predD c) (k0_off4 c 4096#32 4294967295#32 4294967292#32) (k0_off2 (predD c) 4096#32 4294967292#32) (k0_off4_inb c 9) (k0_off2_inb (predD c) 7) (off4_to_pred_4 c) fullShare (Res m (predD c)))))

/-- Redistribution step 5 of direction 0: a finished chunk from the result array to the result array of the successor. -/
theorem send_gather_0_5 (K : Dev nD × Fin 91 → ℕ) (c n : Dev nD) (hn : n = succD c)
    {hsc : ((oCh (k0_off4 c 0#32 1#32 5#32) (k0_off4_inb c 10)) : Memref sig (Dev.tc n : Thread nD τ).2.kind .hbm S512x1024 .f32).view.ref.isScScratch = false}
    {hsrc : (oCh (k0_off4 c 0#32 1#32 5#32) (k0_off4_inb c 10)).view.WordExact} {hdst : (oCh (k0_off4 c 0#32 1#32 5#32) (k0_off4_inb c 10)).view.WordExact}
    {hsem : DmaTarget.Typed .hbm (.dma (dsem 40)) (.remote (Dev.tc n : Thread nD τ) (oCh (k0_off4 c 0#32 1#32 5#32) (k0_off4_inb c 10)) (.dma (dsem 12)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 13)) (dcell c 12) ∗ cellInv ER (sched m) (K (succD c, 41)) (dcell (succD c) 40)
        ∗ rpts c (oCh (k0_off4 c 0#32 1#32 5#32) (k0_off4_inb c 10)) fullShare.right (Res m c) ∗ rpts (succD c) (oCh (k0_off2 (succD c) 0#32 5#32) (k0_off2_inb (succD c) 8)) fullShare fd
        ∗ owes (c : Thread nD τ) (O + tallyAt (dcell (succD c) 40) () N) W
        ∗ dutyTok ER (dcell c 12) 0 0 ∗ reached ER (dcell c 12) 0
        ∗ dutyTok ER (dcell (succD c) 40) 0 0 ∗ reached ER (dcell (succD c) 40) 0)
      ⊢ iprop(((cred (tallyAt (dcell c 12) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 5#32) (k0_off4_inb c 10)) (.remote (Dev.tc n : Thread nD τ) (oCh (k0_off4 c 0#32 1#32 5#32) (k0_off4_inb c 10)) (.dma (dsem 12)) hsc) (.dma (dsem 40)) hsrc hdst hsem) k) Q) := by
  subst hn
  rw [rpts_oCh_congr (succD c) (k0_off2 (succD c) 0#32 5#32) (k0_off4 c 0#32 1#32 5#32) (k0_off2_inb (succD c) 8) (k0_off4_inb c 10) (off4_to_succ_5 c).symm fullShare fd]
  exact Rounds.wp_send_pointsTo Variants.none ER (sched m) (c : Thread nD τ) none
    (c' := (succD c : Thread nD τ)) (src := (oCh (k0_off4 c 0#32 1#32 5#32) (k0_off4_inb c 10))) (dst := (oCh (k0_off4 c 0#32 1#32 5#32) (k0_off4_inb c 10))) (q := fullShare.right) (fs := Res m c) (fd := fd)
    (κ₁ := K (c, 13)) (κ₂ := K (succD c, 41)) (r₁ := 0) (r₂ := 0) (d₁ := 0) (d₂ := 0)
    (by rw [duties_dma m c 12 (by decide)]; exact Finset.mem_singleton_self _)
    (by rw [duties_dma m (succD c) 40 (by decide)]; exact Finset.mem_singleton_self _)
    () () N rfl (amount_dma m c 12 (by decide) 0 0) (amount_dma m (succD c) 40 (by decide) 0 0) O rfl (W := W)
    (by rw [payload_send_0_12]; exact BI.Entails.refl _)
    (by rw [payload_recv_0_12]
        exact (land_res_ent m c (succD c) (k0_off4 c 0#32 1#32 5#32) (k0_off4_inb c 10) (k0_off4_inb c 10) (congrArg (· / 2) (z_succ c)) fd).trans
          (Entails.of_eq (rpts_oCh_congr (succD c) (k0_off4 c 0#32 1#32 5#32) (k0_off2 (succD c) 0#32 5#32) (k0_off4_inb c 10) (k0_off2_inb (succD c) 8) (off4_to_succ_5 c) fullShare (Res m (succD c)))))

/-- Redistribution step 5 of direction 1: a finished chunk from the result array to the result array of the predecessor. -/
theorem send_gather_1_5 (K : Dev nD × Fin 91 → ℕ) (c n : Dev nD) (hn : n = predD c)
    {hsc : ((oCh (k0_off4 c 4096#32 4294967295#32 4294967291#32) (k0_off4_inb c 11)) : Memref sig (Dev.tc n : Thread nD τ).2.kind .hbm S512x1024 .f32).view.ref.isScScratch = false}
    {hsrc : (oCh (k0_off4 c 4096#32 4294967295#32 4294967291#32) (k0_off4_inb c 11)).view.WordExact} {hdst : (oCh (k0_off4 c 4096#32 4294967295#32 4294967291#32) (k0_off4_inb c 11)).view.WordExact}
    {hsem : DmaTarget.Typed .hbm (.dma (dsem 54)) (.remote (Dev.tc n : Thread nD τ) (oCh (k0_off4 c 4096#32 4294967295#32 4294967291#32) (k0_off4_inb c 11)) (.dma (dsem 26)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 27)) (dcell c 26) ∗ cellInv ER (sched m) (K (predD c, 55)) (dcell (predD c) 54)
        ∗ rpts c (oCh (k0_off4 c 4096#32 4294967295#32 4294967291#32) (k0_off4_inb c 11)) fullShare.right (Res m c) ∗ rpts (predD c) (oCh (k0_off2 (predD c) 4096#32 4294967291#32) (k0_off2_inb (predD c) 9)) fullShare fd
        ∗ owes (c : Thread nD τ) (O + tallyAt (dcell (predD c) 54) () N) W
        ∗ dutyTok ER (dcell c 26) 0 0 ∗ reached ER (dcell c 26) 0
        ∗ dutyTok ER (dcell (predD c) 54) 0 0 ∗ reached ER (dcell (predD c) 54) 0)
      ⊢ iprop(((cred (tallyAt (dcell c 26) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967291#32) (k0_off4_inb c 11)) (.remote (Dev.tc n : Thread nD τ) (oCh (k0_off4 c 4096#32 4294967295#32 4294967291#32) (k0_off4_inb c 11)) (.dma (dsem 26)) hsc) (.dma (dsem 54)) hsrc hdst hsem) k) Q) := by
  subst hn
  rw [rpts_oCh_congr (predD c) (k0_off2 (predD c) 4096#32 4294967291#32) (k0_off4 c 4096#32 4294967295#32 4294967291#32) (k0_off2_inb (predD c) 9) (k0_off4_inb c 11) (off4_to_pred_5 c).symm fullShare fd]
  exact Rounds.wp_send_pointsTo Variants.none ER (sched m) (c : Thread nD τ) none
    (c' := (predD c : Thread nD τ)) (src := (oCh (k0_off4 c 4096#32 4294967295#32 4294967291#32) (k0_off4_inb c 11))) (dst := (oCh (k0_off4 c 4096#32 4294967295#32 4294967291#32) (k0_off4_inb c 11))) (q := fullShare.right) (fs := Res m c) (fd := fd)
    (κ₁ := K (c, 27)) (κ₂ := K (predD c, 55)) (r₁ := 0) (r₂ := 0) (d₁ := 0) (d₂ := 0)
    (by rw [duties_dma m c 26 (by decide)]; exact Finset.mem_singleton_self _)
    (by rw [duties_dma m (predD c) 54 (by decide)]; exact Finset.mem_singleton_self _)
    () () N rfl (amount_dma m c 26 (by decide) 0 0) (amount_dma m (predD c) 54 (by decide) 0 0) O rfl (W := W)
    (by rw [payload_send_1_12]; exact BI.Entails.refl _)
    (by rw [payload_recv_1_12]
        exact (land_res_ent m c (predD c) (k0_off4 c 4096#32 4294967295#32 4294967291#32) (k0_off4_inb c 11) (k0_off4_inb c 11) (congrArg (· / 2) (z_pred c)) fd).trans
          (Entails.of_eq (rpts_oCh_congr (predD c) (k0_off4 c 4096#32 4294967295#32 4294967291#32) (k0_off2 (predD c) 4096#32 4294967291#32) (k0_off4_inb c 11) (k0_off2_inb (predD c) 9) (off4_to_pred_5 c) fullShare (Res m (predD c)))))

/-- Redistribution step 6 of direction 0: a finished chunk from the result array to the result array of the successor. -/
theorem send_gather_0_6 (K : Dev nD × Fin 91 → ℕ) (c n : Dev nD) (hn : n = succD c)
    {hsc : ((oCh (k0_off4 c 0#32 1#32 6#32) (k0_off4_inb c 12)) : Memref sig (Dev.tc n : Thread nD τ).2.kind .hbm S512x1024 .f32).view.ref.isScScratch = false}
    {hsrc : (oCh (k0_off4 c 0#32 1#32 6#32) (k0_off4_inb c 12)).view.WordExact} {hdst : (oCh (k0_off4 c 0#32 1#32 6#32) (k0_off4_inb c 12)).view.WordExact}
    {hsem : DmaTarget.Typed .hbm (.dma (dsem 41)) (.remote (Dev.tc n : Thread nD τ) (oCh (k0_off4 c 0#32 1#32 6#32) (k0_off4_inb c 12)) (.dma (dsem 13)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 14)) (dcell c 13) ∗ cellInv ER (sched m) (K (succD c, 42)) (dcell (succD c) 41)
        ∗ rpts c (oCh (k0_off4 c 0#32 1#32 6#32) (k0_off4_inb c 12)) fullShare.right (Res m c) ∗ rpts (succD c) (oCh (k0_off2 (succD c) 0#32 6#32) (k0_off2_inb (succD c) 10)) fullShare fd
        ∗ owes (c : Thread nD τ) (O + tallyAt (dcell (succD c) 41) () N) W
        ∗ dutyTok ER (dcell c 13) 0 0 ∗ reached ER (dcell c 13) 0
        ∗ dutyTok ER (dcell (succD c) 41) 0 0 ∗ reached ER (dcell (succD c) 41) 0)
      ⊢ iprop(((cred (tallyAt (dcell c 13) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 6#32) (k0_off4_inb c 12)) (.remote (Dev.tc n : Thread nD τ) (oCh (k0_off4 c 0#32 1#32 6#32) (k0_off4_inb c 12)) (.dma (dsem 13)) hsc) (.dma (dsem 41)) hsrc hdst hsem) k) Q) := by
  subst hn
  rw [rpts_oCh_congr (succD c) (k0_off2 (succD c) 0#32 6#32) (k0_off4 c 0#32 1#32 6#32) (k0_off2_inb (succD c) 10) (k0_off4_inb c 12) (off4_to_succ_6 c).symm fullShare fd]
  exact Rounds.wp_send_pointsTo Variants.none ER (sched m) (c : Thread nD τ) none
    (c' := (succD c : Thread nD τ)) (src := (oCh (k0_off4 c 0#32 1#32 6#32) (k0_off4_inb c 12))) (dst := (oCh (k0_off4 c 0#32 1#32 6#32) (k0_off4_inb c 12))) (q := fullShare.right) (fs := Res m c) (fd := fd)
    (κ₁ := K (c, 14)) (κ₂ := K (succD c, 42)) (r₁ := 0) (r₂ := 0) (d₁ := 0) (d₂ := 0)
    (by rw [duties_dma m c 13 (by decide)]; exact Finset.mem_singleton_self _)
    (by rw [duties_dma m (succD c) 41 (by decide)]; exact Finset.mem_singleton_self _)
    () () N rfl (amount_dma m c 13 (by decide) 0 0) (amount_dma m (succD c) 41 (by decide) 0 0) O rfl (W := W)
    (by rw [payload_send_0_13]; exact BI.Entails.refl _)
    (by rw [payload_recv_0_13]
        exact (land_res_ent m c (succD c) (k0_off4 c 0#32 1#32 6#32) (k0_off4_inb c 12) (k0_off4_inb c 12) (congrArg (· / 2) (z_succ c)) fd).trans
          (Entails.of_eq (rpts_oCh_congr (succD c) (k0_off4 c 0#32 1#32 6#32) (k0_off2 (succD c) 0#32 6#32) (k0_off4_inb c 12) (k0_off2_inb (succD c) 10) (off4_to_succ_6 c) fullShare (Res m (succD c)))))

/-- Redistribution step 6 of direction 1: a finished chunk from the result array to the result array of the predecessor. -/
theorem send_gather_1_6 (K : Dev nD × Fin 91 → ℕ) (c n : Dev nD) (hn : n = predD c)
    {hsc : ((oCh (k0_off4 c 4096#32 4294967295#32 4294967290#32) (k0_off4_inb c 13)) : Memref sig (Dev.tc n : Thread nD τ).2.kind .hbm S512x1024 .f32).view.ref.isScScratch = false}
    {hsrc : (oCh (k0_off4 c 4096#32 4294967295#32 4294967290#32) (k0_off4_inb c 13)).view.WordExact} {hdst : (oCh (k0_off4 c 4096#32 4294967295#32 4294967290#32) (k0_off4_inb c 13)).view.WordExact}
    {hsem : DmaTarget.Typed .hbm (.dma (dsem 55)) (.remote (Dev.tc n : Thread nD τ) (oCh (k0_off4 c 4096#32 4294967295#32 4294967290#32) (k0_off4_inb c 13)) (.dma (dsem 27)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 28)) (dcell c 27) ∗ cellInv ER (sched m) (K (predD c, 56)) (dcell (predD c) 55)
        ∗ rpts c (oCh (k0_off4 c 4096#32 4294967295#32 4294967290#32) (k0_off4_inb c 13)) fullShare.right (Res m c) ∗ rpts (predD c) (oCh (k0_off2 (predD c) 4096#32 4294967290#32) (k0_off2_inb (predD c) 11)) fullShare fd
        ∗ owes (c : Thread nD τ) (O + tallyAt (dcell (predD c) 55) () N) W
        ∗ dutyTok ER (dcell c 27) 0 0 ∗ reached ER (dcell c 27) 0
        ∗ dutyTok ER (dcell (predD c) 55) 0 0 ∗ reached ER (dcell (predD c) 55) 0)
      ⊢ iprop(((cred (tallyAt (dcell c 27) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967290#32) (k0_off4_inb c 13)) (.remote (Dev.tc n : Thread nD τ) (oCh (k0_off4 c 4096#32 4294967295#32 4294967290#32) (k0_off4_inb c 13)) (.dma (dsem 27)) hsc) (.dma (dsem 55)) hsrc hdst hsem) k) Q) := by
  subst hn
  rw [rpts_oCh_congr (predD c) (k0_off2 (predD c) 4096#32 4294967290#32) (k0_off4 c 4096#32 4294967295#32 4294967290#32) (k0_off2_inb (predD c) 11) (k0_off4_inb c 13) (off4_to_pred_6 c).symm fullShare fd]
  exact Rounds.wp_send_pointsTo Variants.none ER (sched m) (c : Thread nD τ) none
    (c' := (predD c : Thread nD τ)) (src := (oCh (k0_off4 c 4096#32 4294967295#32 4294967290#32) (k0_off4_inb c 13))) (dst := (oCh (k0_off4 c 4096#32 4294967295#32 4294967290#32) (k0_off4_inb c 13))) (q := fullShare.right) (fs := Res m c) (fd := fd)
    (κ₁ := K (c, 28)) (κ₂ := K (predD c, 56)) (r₁ := 0) (r₂ := 0) (d₁ := 0) (d₂ := 0)
    (by rw [duties_dma m c 27 (by decide)]; exact Finset.mem_singleton_self _)
    (by rw [duties_dma m (predD c) 55 (by decide)]; exact Finset.mem_singleton_self _)
    () () N rfl (amount_dma m c 27 (by decide) 0 0) (amount_dma m (predD c) 55 (by decide) 0 0) O rfl (W := W)
    (by rw [payload_send_1_13]; exact BI.Entails.refl _)
    (by rw [payload_recv_1_13]
        exact (land_res_ent m c (predD c) (k0_off4 c 4096#32 4294967295#32 4294967290#32) (k0_off4_inb c 13) (k0_off4_inb c 13) (congrArg (· / 2) (z_pred c)) fd).trans
          (Entails.of_eq (rpts_oCh_congr (predD c) (k0_off4 c 4096#32 4294967295#32 4294967290#32) (k0_off2 (predD c) 4096#32 4294967290#32) (k0_off4_inb c 13) (k0_off2_inb (predD c) 11) (off4_to_pred_6 c) fullShare (Res m (predD c)))))

/-- info: 'Cert.KernelIdeal.Rules.send_ring_0' depends on axioms: [propext, Classical.choice, Quot.sound] -/
#guard_msgs in #print axioms send_ring_0

/-- info: 'Cert.KernelIdeal.Rules.send_gather_1_6' depends on axioms: [propext, Classical.choice, Quot.sound] -/
#guard_msgs in #print axioms send_gather_1_6

end Cert.KernelIdeal.Rules

end
-- ==== Proof.RulesPair.lean ====
/-
  The copies a device sends to its pair partner, each as one application of the library's rule for an addressed
  transfer whose destination the sender owns. A device sends its finished chunk of each direction from the last
  slot of its exchange buffer, and then each of the seven finished chunks it receives along the ring from its
  result array, into the partner's result array at the same rows. The departure cell's duty hands back the share
  of the source the copy reads; the arrival cell's duty hands the partner the written rows at the result they
  are to hold. The partner's table names those rows by its own partner's offsets, which are the sender's.
-/
import proofs.«900727_g7700000000000728_dist_ar_v7x_xyz2x4x4_y_m16384_n1024_f32_1_alg».proof.Proof.Tables
import proofs.«900727_g7700000000000728_dist_ar_v7x_xyz2x4x4_y_m16384_n1024_f32_1_alg».proof.Proof.ValLemmas
import proofs.«900727_g7700000000000728_dist_ar_v7x_xyz2x4x4_y_m16384_n1024_f32_1_alg».proof.Proof.Canon

set_option maxRecDepth 16384

noncomputable section

namespace Cert.KernelIdeal.Rules

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The partner's names for the sender's rows -/

omit [FloatOps F] in
/-- A chunk named by the first offset chain at equal devices is the same region. -/
theorem off3_dev_eq (x y : Dev nD) (hxy : x = y) (dev : Dev nD) (r : Fin 2) (q : PosShare TreeShare)
    (f : Buf (Elt F) ((dev : Thread nD τ).loc main_v1)) :
    (rpts dev (oCh (k0_off3 x (k0_off3_at r).1 (k0_off3_at r).2) (k0_off3_inb x r)) q f : sProp 𝕄)
      = rpts dev (oCh (k0_off3 y (k0_off3_at r).1 (k0_off3_at r).2) (k0_off3_inb y r)) q f := by
  subst hxy; rfl

omit [FloatOps F] in
/-- The same for the second offset chain. -/
theorem off2_dev_eq (x y : Dev nD) (hxy : x = y) (dev : Dev nD) (r : Fin 16) (q : PosShare TreeShare)
    (f : Buf (Elt F) ((dev : Thread nD τ).loc main_v1)) :
    (rpts dev (oCh (k0_off2 x (k0_off2_at r).1 (k0_off2_at r).2) (k0_off2_inb x r)) q f : sProp 𝕄)
      = rpts dev (oCh (k0_off2 y (k0_off2_at r).1 (k0_off2_at r).2) (k0_off2_inb y r)) q f := by
  subst hxy; rfl

/-- The finished chunk of direction 0, from the last slot of the exchange buffer to the partner's result array. -/
theorem zsend_done_0 (K : Dev nD × Fin 91 → ℕ) (c n : Dev nD) (hn : n = partD c)
    {hsc : ((oCh (k0_off3 c 0#32 1#32) (k0_off3_inb c 0)) : Memref sig (Dev.tc n : Thread nD τ).2.kind .hbm S512x1024 .f32).view.ref.isScScratch = false}
    {hsrc : (cSl 0 6 inb_S2x7x512x1024_S1x1x512x1024_0_6_0_0).view.WordExact} {hdst : (oCh (k0_off3 c 0#32 1#32) (k0_off3_inb c 0)).view.WordExact}
    {hsem : DmaTarget.Typed .vmem (.dma (dsem 72)) (.remote (Dev.tc n : Thread nD τ) (oCh (k0_off3 c 0#32 1#32) (k0_off3_inb c 0)) (.dma (dsem 56)) hsc)}
    {α : Type} {Q : α → sProp 𝕄} {k : PUnit → Prog (TpuEff nD τ sig (Elt F) Λ₀ .tc) α}
    (fd : Buf (Elt F) ((oCh (k0_off3 c 0#32 1#32) (k0_off3_inb c 0)).view.loc (partD c : Thread nD τ)))
    (O : CellTallies nD τ sig Unit) (W : Waits sig Unit) :
    iprop(cellInv ER (sched m) (K (c, 57)) (dcell c 56) ∗ cellInv ER (sched m) (K (partD c, 73)) (dcell (partD c) 72)
        ∗ rpts c (cSl 0 6 inb_S2x7x512x1024_S1x1x512x1024_0_6_0_0) fullShare.left (CommAcc m c)
        ∗ rpts (partD c) (oCh (k0_off3 c 0#32 1#32) (k0_off3_inb c 0)) fullShare fd
        ∗ owes (c : Thread nD τ) (O + tallyAt (dcell (partD c) 72) () N) W
        ∗ dutyTok ER (dcell c 56) 0 0 ∗ reached ER (dcell c 56) 0
        ∗ dutyTok ER (dcell (partD c) 72) 0 0 ∗ reached ER (dcell (partD c) 72) 0)
      ⊢ iprop(((cred (tallyAt (dcell c 56) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 6 inb_S2x7x512x1024_S1x1x512x1024_0_6_0_0) (.remote (Dev.tc n : Thread nD τ) (oCh (k0_off3 c 0#32 1#32) (k0_off3_inb c 0)) (.dma (dsem 56)) hsc) (.dma (dsem 72)) hsrc hdst hsem) k) Q) := by
  subst hn
  unfold rpts
  exact Rounds.wp_send_pointsTo Variants.none ER (sched m) (c : Thread nD τ) none (c' := (partD c : Thread nD τ))
    (src := (cSl 0 6 inb_S2x7x512x1024_S1x1x512x1024_0_6_0_0)) (dst := (oCh (k0_off3 c 0#32 1#32) (k0_off3_inb c 0))) (q := fullShare.left) (fs := CommAcc m c) (fd := fd)
    (κ₁ := K (c, 57)) (κ₂ := K (partD c, 73)) (r₁ := 0) (r₂ := 0) (d₁ := 0) (d₂ := 0)
    (by rw [duties_dma m c 56 (by decide)]; exact Finset.mem_singleton_self _)
    (by rw [duties_dma m (partD c) 72 (by decide)]; exact Finset.mem_singleton_self _)
    () () N rfl (amount_dma m c 56 (by decide) 0 0) (amount_dma m (partD c) 72 (by decide) 0 0) O rfl (W := W)
    (by rw [payload_zsend_0_0]; exact BI.Entails.refl _)
    (by
      rw [payload_zrecv_0_0]
      exact (land_done_ent m c (partD c) 0 (by decide) (z_part c) _ _ _ (off3_0 c) fd).trans
        (Entails.of_eq (off3_dev_eq c (partD (partD c)) (part_part c).symm (partD c) 0 fullShare (Res m (partD c)))))

/-- The finished chunk of direction 1, from the last slot of the exchange buffer to the partner's result array. -/
theorem zsend_done_1 (K : Dev nD × Fin 91 → ℕ) (c n : Dev nD) (hn : n = partD c)
    {hsc : ((oCh (k0_off3 c 4096#32 4294967295#32) (k0_off3_inb c 1)) : Memref sig (Dev.tc n : Thread nD τ).2.kind .hbm S512x1024 .f32).view.ref.isScScratch = false}
    {hsrc : (cSl 1 6 inb_S2x7x512x1024_S1x1x512x1024_1_6_0_0).view.WordExact} {hdst : (oCh (k0_off3 c 4096#32 4294967295#32) (k0_off3_inb c 1)).view.WordExact}
    {hsem : DmaTarget.Typed .vmem (.dma (dsem 80)) (.remote (Dev.tc n : Thread nD τ) (oCh (k0_off3 c 4096#32 4294967295#32) (k0_off3_inb c 1)) (.dma (dsem 64)) hsc)}
    {α : Type} {Q : α → sProp 𝕄} {k : PUnit → Prog (TpuEff nD τ sig (Elt F) Λ₀ .tc) α}
    (fd : Buf (Elt F) ((oCh (k0_off3 c 4096#32 4294967295#32) (k0_off3_inb c 1)).view.loc (partD c : Thread nD τ)))
    (O : CellTallies nD τ sig Unit) (W : Waits sig Unit) :
    iprop(cellInv ER (sched m) (K (c, 65)) (dcell c 64) ∗ cellInv ER (sched m) (K (partD c, 81)) (dcell (partD c) 80)
        ∗ rpts c (cSl 1 6 inb_S2x7x512x1024_S1x1x512x1024_1_6_0_0) fullShare.left (CommAcc m c)
        ∗ rpts (partD c) (oCh (k0_off3 c 4096#32 4294967295#32) (k0_off3_inb c 1)) fullShare fd
        ∗ owes (c : Thread nD τ) (O + tallyAt (dcell (partD c) 80) () N) W
        ∗ dutyTok ER (dcell c 64) 0 0 ∗ reached ER (dcell c 64) 0
        ∗ dutyTok ER (dcell (partD c) 80) 0 0 ∗ reached ER (dcell (partD c) 80) 0)
      ⊢ iprop(((cred (tallyAt (dcell c 64) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 6 inb_S2x7x512x1024_S1x1x512x1024_1_6_0_0) (.remote (Dev.tc n : Thread nD τ) (oCh (k0_off3 c 4096#32 4294967295#32) (k0_off3_inb c 1)) (.dma (dsem 64)) hsc) (.dma (dsem 80)) hsrc hdst hsem) k) Q) := by
  subst hn
  unfold rpts
  exact Rounds.wp_send_pointsTo Variants.none ER (sched m) (c : Thread nD τ) none (c' := (partD c : Thread nD τ))
    (src := (cSl 1 6 inb_S2x7x512x1024_S1x1x512x1024_1_6_0_0)) (dst := (oCh (k0_off3 c 4096#32 4294967295#32) (k0_off3_inb c 1))) (q := fullShare.left) (fs := CommAcc m c) (fd := fd)
    (κ₁ := K (c, 65)) (κ₂ := K (partD c, 81)) (r₁ := 0) (r₂ := 0) (d₁ := 0) (d₂ := 0)
    (by rw [duties_dma m c 64 (by decide)]; exact Finset.mem_singleton_self _)
    (by rw [duties_dma m (partD c) 80 (by decide)]; exact Finset.mem_singleton_self _)
    () () N rfl (amount_dma m c 64 (by decide) 0 0) (amount_dma m (partD c) 80 (by decide) 0 0) O rfl (W := W)
    (by rw [payload_zsend_1_0]; exact BI.Entails.refl _)
    (by
      rw [payload_zrecv_1_0]
      exact (land_done_ent m c (partD c) 1 (by decide) (z_part c) _ _ _ (off3_1 c) fd).trans
        (Entails.of_eq (off3_dev_eq c (partD (partD c)) (part_part c).symm (partD c) 1 fullShare (Res m (partD c)))))

/-- The finished chunk of direction 0 received at step 0 of the redistribution, from the device's result array to the partner's. -/
theorem zsend_gather_0_0 (K : Dev nD × Fin 91 → ℕ) (c n : Dev nD) (hn : n = partD c)
    {hsc : ((oCh (k0_off2 c 0#32 0#32) (k0_off2_inb c 14)) : Memref sig (Dev.tc n : Thread nD τ).2.kind .hbm S512x1024 .f32).view.ref.isScScratch = false}
    {hsrc : (oCh (k0_off2 c 0#32 0#32) (k0_off2_inb c 14)).view.WordExact} {hdst : (oCh (k0_off2 c 0#32 0#32) (k0_off2_inb c 14)).view.WordExact}
    {hsem : DmaTarget.Typed .hbm (.dma (dsem 73)) (.remote (Dev.tc n : Thread nD τ) (oCh (k0_off2 c 0#32 0#32) (k0_off2_inb c 14)) (.dma (dsem 57)) hsc)}
    {α : Type} {Q : α → sProp 𝕄} {k : PUnit → Prog (TpuEff nD τ sig (Elt F) Λ₀ .tc) α}
    (fd : Buf (Elt F) ((oCh (k0_off2 c 0#32 0#32) (k0_off2_inb c 14)).view.loc (partD c : Thread nD τ)))
    (O : CellTallies nD τ sig Unit) (W : Waits sig Unit) :
    iprop(cellInv ER (sched m) (K (c, 58)) (dcell c 57) ∗ cellInv ER (sched m) (K (partD c, 74)) (dcell (partD c) 73)
        ∗ rpts c (oCh (k0_off2 c 0#32 0#32) (k0_off2_inb c 14)) fullShare.left (Res m c)
        ∗ rpts (partD c) (oCh (k0_off2 c 0#32 0#32) (k0_off2_inb c 14)) fullShare fd
        ∗ owes (c : Thread nD τ) (O + tallyAt (dcell (partD c) 73) () N) W
        ∗ dutyTok ER (dcell c 57) 0 0 ∗ reached ER (dcell c 57) 0
        ∗ dutyTok ER (dcell (partD c) 73) 0 0 ∗ reached ER (dcell (partD c) 73) 0)
      ⊢ iprop(((cred (tallyAt (dcell c 57) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 0#32) (k0_off2_inb c 14)) (.remote (Dev.tc n : Thread nD τ) (oCh (k0_off2 c 0#32 0#32) (k0_off2_inb c 14)) (.dma (dsem 57)) hsc) (.dma (dsem 73)) hsrc hdst hsem) k) Q) := by
  subst hn
  unfold rpts
  exact Rounds.wp_send_pointsTo Variants.none ER (sched m) (c : Thread nD τ) none (c' := (partD c : Thread nD τ))
    (src := (oCh (k0_off2 c 0#32 0#32) (k0_off2_inb c 14))) (dst := (oCh (k0_off2 c 0#32 0#32) (k0_off2_inb c 14))) (q := fullShare.left) (fs := Res m c) (fd := fd)
    (κ₁ := K (c, 58)) (κ₂ := K (partD c, 74)) (r₁ := 0) (r₂ := 0) (d₁ := 0) (d₂ := 0)
    (by rw [duties_dma m c 57 (by decide)]; exact Finset.mem_singleton_self _)
    (by rw [duties_dma m (partD c) 73 (by decide)]; exact Finset.mem_singleton_self _)
    () () N rfl (amount_dma m c 57 (by decide) 0 0) (amount_dma m (partD c) 73 (by decide) 0 0) O rfl (W := W)
    (by rw [payload_zsend_0_1]; exact BI.Entails.refl _)
    (by
      rw [payload_zrecv_0_1]
      exact (land_res_ent m c (partD c) _ _ _ (z_part c) fd).trans
        (Entails.of_eq (off2_dev_eq c (partD (partD c)) (part_part c).symm (partD c) 14 fullShare (Res m (partD c)))))

/-- The finished chunk of direction 0 received at step 1 of the redistribution, from the device's result array to the partner's. -/
theorem zsend_gather_0_1 (K : Dev nD × Fin 91 → ℕ) (c n : Dev nD) (hn : n = partD c)
    {hsc : ((oCh (k0_off2 c 0#32 1#32) (k0_off2_inb c 0)) : Memref sig (Dev.tc n : Thread nD τ).2.kind .hbm S512x1024 .f32).view.ref.isScScratch = false}
    {hsrc : (oCh (k0_off2 c 0#32 1#32) (k0_off2_inb c 0)).view.WordExact} {hdst : (oCh (k0_off2 c 0#32 1#32) (k0_off2_inb c 0)).view.WordExact}
    {hsem : DmaTarget.Typed .hbm (.dma (dsem 74)) (.remote (Dev.tc n : Thread nD τ) (oCh (k0_off2 c 0#32 1#32) (k0_off2_inb c 0)) (.dma (dsem 58)) hsc)}
    {α : Type} {Q : α → sProp 𝕄} {k : PUnit → Prog (TpuEff nD τ sig (Elt F) Λ₀ .tc) α}
    (fd : Buf (Elt F) ((oCh (k0_off2 c 0#32 1#32) (k0_off2_inb c 0)).view.loc (partD c : Thread nD τ)))
    (O : CellTallies nD τ sig Unit) (W : Waits sig Unit) :
    iprop(cellInv ER (sched m) (K (c, 59)) (dcell c 58) ∗ cellInv ER (sched m) (K (partD c, 75)) (dcell (partD c) 74)
        ∗ rpts c (oCh (k0_off2 c 0#32 1#32) (k0_off2_inb c 0)) fullShare.left (Res m c)
        ∗ rpts (partD c) (oCh (k0_off2 c 0#32 1#32) (k0_off2_inb c 0)) fullShare fd
        ∗ owes (c : Thread nD τ) (O + tallyAt (dcell (partD c) 74) () N) W
        ∗ dutyTok ER (dcell c 58) 0 0 ∗ reached ER (dcell c 58) 0
        ∗ dutyTok ER (dcell (partD c) 74) 0 0 ∗ reached ER (dcell (partD c) 74) 0)
      ⊢ iprop(((cred (tallyAt (dcell c 58) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 1#32) (k0_off2_inb c 0)) (.remote (Dev.tc n : Thread nD τ) (oCh (k0_off2 c 0#32 1#32) (k0_off2_inb c 0)) (.dma (dsem 58)) hsc) (.dma (dsem 74)) hsrc hdst hsem) k) Q) := by
  subst hn
  unfold rpts
  exact Rounds.wp_send_pointsTo Variants.none ER (sched m) (c : Thread nD τ) none (c' := (partD c : Thread nD τ))
    (src := (oCh (k0_off2 c 0#32 1#32) (k0_off2_inb c 0))) (dst := (oCh (k0_off2 c 0#32 1#32) (k0_off2_inb c 0))) (q := fullShare.left) (fs := Res m c) (fd := fd)
    (κ₁ := K (c, 59)) (κ₂ := K (partD c, 75)) (r₁ := 0) (r₂ := 0) (d₁ := 0) (d₂ := 0)
    (by rw [duties_dma m c 58 (by decide)]; exact Finset.mem_singleton_self _)
    (by rw [duties_dma m (partD c) 74 (by decide)]; exact Finset.mem_singleton_self _)
    () () N rfl (amount_dma m c 58 (by decide) 0 0) (amount_dma m (partD c) 74 (by decide) 0 0) O rfl (W := W)
    (by rw [payload_zsend_0_2]; exact BI.Entails.refl _)
    (by
      rw [payload_zrecv_0_2]
      exact (land_res_ent m c (partD c) _ _ _ (z_part c) fd).trans
        (Entails.of_eq (off2_dev_eq c (partD (partD c)) (part_part c).symm (partD c) 0 fullShare (Res m (partD c)))))

/-- The finished chunk of direction 0 received at step 2 of the redistribution, from the device's result array to the partner's. -/
theorem zsend_gather_0_2 (K : Dev nD × Fin 91 → ℕ) (c n : Dev nD) (hn : n = partD c)
    {hsc : ((oCh (k0_off2 c 0#32 2#32) (k0_off2_inb c 2)) : Memref sig (Dev.tc n : Thread nD τ).2.kind .hbm S512x1024 .f32).view.ref.isScScratch = false}
    {hsrc : (oCh (k0_off2 c 0#32 2#32) (k0_off2_inb c 2)).view.WordExact} {hdst : (oCh (k0_off2 c 0#32 2#32) (k0_off2_inb c 2)).view.WordExact}
    {hsem : DmaTarget.Typed .hbm (.dma (dsem 75)) (.remote (Dev.tc n : Thread nD τ) (oCh (k0_off2 c 0#32 2#32) (k0_off2_inb c 2)) (.dma (dsem 59)) hsc)}
    {α : Type} {Q : α → sProp 𝕄} {k : PUnit → Prog (TpuEff nD τ sig (Elt F) Λ₀ .tc) α}
    (fd : Buf (Elt F) ((oCh (k0_off2 c 0#32 2#32) (k0_off2_inb c 2)).view.loc (partD c : Thread nD τ)))
    (O : CellTallies nD τ sig Unit) (W : Waits sig Unit) :
    iprop(cellInv ER (sched m) (K (c, 60)) (dcell c 59) ∗ cellInv ER (sched m) (K (partD c, 76)) (dcell (partD c) 75)
        ∗ rpts c (oCh (k0_off2 c 0#32 2#32) (k0_off2_inb c 2)) fullShare.left (Res m c)
        ∗ rpts (partD c) (oCh (k0_off2 c 0#32 2#32) (k0_off2_inb c 2)) fullShare fd
        ∗ owes (c : Thread nD τ) (O + tallyAt (dcell (partD c) 75) () N) W
        ∗ dutyTok ER (dcell c 59) 0 0 ∗ reached ER (dcell c 59) 0
        ∗ dutyTok ER (dcell (partD c) 75) 0 0 ∗ reached ER (dcell (partD c) 75) 0)
      ⊢ iprop(((cred (tallyAt (dcell c 59) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 2#32) (k0_off2_inb c 2)) (.remote (Dev.tc n : Thread nD τ) (oCh (k0_off2 c 0#32 2#32) (k0_off2_inb c 2)) (.dma (dsem 59)) hsc) (.dma (dsem 75)) hsrc hdst hsem) k) Q) := by
  subst hn
  unfold rpts
  exact Rounds.wp_send_pointsTo Variants.none ER (sched m) (c : Thread nD τ) none (c' := (partD c : Thread nD τ))
    (src := (oCh (k0_off2 c 0#32 2#32) (k0_off2_inb c 2))) (dst := (oCh (k0_off2 c 0#32 2#32) (k0_off2_inb c 2))) (q := fullShare.left) (fs := Res m c) (fd := fd)
    (κ₁ := K (c, 60)) (κ₂ := K (partD c, 76)) (r₁ := 0) (r₂ := 0) (d₁ := 0) (d₂ := 0)
    (by rw [duties_dma m c 59 (by decide)]; exact Finset.mem_singleton_self _)
    (by rw [duties_dma m (partD c) 75 (by decide)]; exact Finset.mem_singleton_self _)
    () () N rfl (amount_dma m c 59 (by decide) 0 0) (amount_dma m (partD c) 75 (by decide) 0 0) O rfl (W := W)
    (by rw [payload_zsend_0_3]; exact BI.Entails.refl _)
    (by
      rw [payload_zrecv_0_3]
      exact (land_res_ent m c (partD c) _ _ _ (z_part c) fd).trans
        (Entails.of_eq (off2_dev_eq c (partD (partD c)) (part_part c).symm (partD c) 2 fullShare (Res m (partD c)))))

/-- The finished chunk of direction 0 received at step 3 of the redistribution, from the device's result array to the partner's. -/
theorem zsend_gather_0_3 (K : Dev nD × Fin 91 → ℕ) (c n : Dev nD) (hn : n = partD c)
    {hsc : ((oCh (k0_off2 c 0#32 3#32) (k0_off2_inb c 4)) : Memref sig (Dev.tc n : Thread nD τ).2.kind .hbm S512x1024 .f32).view.ref.isScScratch = false}
    {hsrc : (oCh (k0_off2 c 0#32 3#32) (k0_off2_inb c 4)).view.WordExact} {hdst : (oCh (k0_off2 c 0#32 3#32) (k0_off2_inb c 4)).view.WordExact}
    {hsem : DmaTarget.Typed .hbm (.dma (dsem 76)) (.remote (Dev.tc n : Thread nD τ) (oCh (k0_off2 c 0#32 3#32) (k0_off2_inb c 4)) (.dma (dsem 60)) hsc)}
    {α : Type} {Q : α → sProp 𝕄} {k : PUnit → Prog (TpuEff nD τ sig (Elt F) Λ₀ .tc) α}
    (fd : Buf (Elt F) ((oCh (k0_off2 c 0#32 3#32) (k0_off2_inb c 4)).view.loc (partD c : Thread nD τ)))
    (O : CellTallies nD τ sig Unit) (W : Waits sig Unit) :
    iprop(cellInv ER (sched m) (K (c, 61)) (dcell c 60) ∗ cellInv ER (sched m) (K (partD c, 77)) (dcell (partD c) 76)
        ∗ rpts c (oCh (k0_off2 c 0#32 3#32) (k0_off2_inb c 4)) fullShare.left (Res m c)
        ∗ rpts (partD c) (oCh (k0_off2 c 0#32 3#32) (k0_off2_inb c 4)) fullShare fd
        ∗ owes (c : Thread nD τ) (O + tallyAt (dcell (partD c) 76) () N) W
        ∗ dutyTok ER (dcell c 60) 0 0 ∗ reached ER (dcell c 60) 0
        ∗ dutyTok ER (dcell (partD c) 76) 0 0 ∗ reached ER (dcell (partD c) 76) 0)
      ⊢ iprop(((cred (tallyAt (dcell c 60) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 3#32) (k0_off2_inb c 4)) (.remote (Dev.tc n : Thread nD τ) (oCh (k0_off2 c 0#32 3#32) (k0_off2_inb c 4)) (.dma (dsem 60)) hsc) (.dma (dsem 76)) hsrc hdst hsem) k) Q) := by
  subst hn
  unfold rpts
  exact Rounds.wp_send_pointsTo Variants.none ER (sched m) (c : Thread nD τ) none (c' := (partD c : Thread nD τ))
    (src := (oCh (k0_off2 c 0#32 3#32) (k0_off2_inb c 4))) (dst := (oCh (k0_off2 c 0#32 3#32) (k0_off2_inb c 4))) (q := fullShare.left) (fs := Res m c) (fd := fd)
    (κ₁ := K (c, 61)) (κ₂ := K (partD c, 77)) (r₁ := 0) (r₂ := 0) (d₁ := 0) (d₂ := 0)
    (by rw [duties_dma m c 60 (by decide)]; exact Finset.mem_singleton_self _)
    (by rw [duties_dma m (partD c) 76 (by decide)]; exact Finset.mem_singleton_self _)
    () () N rfl (amount_dma m c 60 (by decide) 0 0) (amount_dma m (partD c) 76 (by decide) 0 0) O rfl (W := W)
    (by rw [payload_zsend_0_4]; exact BI.Entails.refl _)
    (by
      rw [payload_zrecv_0_4]
      exact (land_res_ent m c (partD c) _ _ _ (z_part c) fd).trans
        (Entails.of_eq (off2_dev_eq c (partD (partD c)) (part_part c).symm (partD c) 4 fullShare (Res m (partD c)))))

/-- The finished chunk of direction 0 received at step 4 of the redistribution, from the device's result array to the partner's. -/
theorem zsend_gather_0_4 (K : Dev nD × Fin 91 → ℕ) (c n : Dev nD) (hn : n = partD c)
    {hsc : ((oCh (k0_off2 c 0#32 4#32) (k0_off2_inb c 6)) : Memref sig (Dev.tc n : Thread nD τ).2.kind .hbm S512x1024 .f32).view.ref.isScScratch = false}
    {hsrc : (oCh (k0_off2 c 0#32 4#32) (k0_off2_inb c 6)).view.WordExact} {hdst : (oCh (k0_off2 c 0#32 4#32) (k0_off2_inb c 6)).view.WordExact}
    {hsem : DmaTarget.Typed .hbm (.dma (dsem 77)) (.remote (Dev.tc n : Thread nD τ) (oCh (k0_off2 c 0#32 4#32) (k0_off2_inb c 6)) (.dma (dsem 61)) hsc)}
    {α : Type} {Q : α → sProp 𝕄} {k : PUnit → Prog (TpuEff nD τ sig (Elt F) Λ₀ .tc) α}
    (fd : Buf (Elt F) ((oCh (k0_off2 c 0#32 4#32) (k0_off2_inb c 6)).view.loc (partD c : Thread nD τ)))
    (O : CellTallies nD τ sig Unit) (W : Waits sig Unit) :
    iprop(cellInv ER (sched m) (K (c, 62)) (dcell c 61) ∗ cellInv ER (sched m) (K (partD c, 78)) (dcell (partD c) 77)
        ∗ rpts c (oCh (k0_off2 c 0#32 4#32) (k0_off2_inb c 6)) fullShare.left (Res m c)
        ∗ rpts (partD c) (oCh (k0_off2 c 0#32 4#32) (k0_off2_inb c 6)) fullShare fd
        ∗ owes (c : Thread nD τ) (O + tallyAt (dcell (partD c) 77) () N) W
        ∗ dutyTok ER (dcell c 61) 0 0 ∗ reached ER (dcell c 61) 0
        ∗ dutyTok ER (dcell (partD c) 77) 0 0 ∗ reached ER (dcell (partD c) 77) 0)
      ⊢ iprop(((cred (tallyAt (dcell c 61) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 4#32) (k0_off2_inb c 6)) (.remote (Dev.tc n : Thread nD τ) (oCh (k0_off2 c 0#32 4#32) (k0_off2_inb c 6)) (.dma (dsem 61)) hsc) (.dma (dsem 77)) hsrc hdst hsem) k) Q) := by
  subst hn
  unfold rpts
  exact Rounds.wp_send_pointsTo Variants.none ER (sched m) (c : Thread nD τ) none (c' := (partD c : Thread nD τ))
    (src := (oCh (k0_off2 c 0#32 4#32) (k0_off2_inb c 6))) (dst := (oCh (k0_off2 c 0#32 4#32) (k0_off2_inb c 6))) (q := fullShare.left) (fs := Res m c) (fd := fd)
    (κ₁ := K (c, 62)) (κ₂ := K (partD c, 78)) (r₁ := 0) (r₂ := 0) (d₁ := 0) (d₂ := 0)
    (by rw [duties_dma m c 61 (by decide)]; exact Finset.mem_singleton_self _)
    (by rw [duties_dma m (partD c) 77 (by decide)]; exact Finset.mem_singleton_self _)
    () () N rfl (amount_dma m c 61 (by decide) 0 0) (amount_dma m (partD c) 77 (by decide) 0 0) O rfl (W := W)
    (by rw [payload_zsend_0_5]; exact BI.Entails.refl _)
    (by
      rw [payload_zrecv_0_5]
      exact (land_res_ent m c (partD c) _ _ _ (z_part c) fd).trans
        (Entails.of_eq (off2_dev_eq c (partD (partD c)) (part_part c).symm (partD c) 6 fullShare (Res m (partD c)))))

/-- The finished chunk of direction 0 received at step 5 of the redistribution, from the device's result array to the partner's. -/
theorem zsend_gather_0_5 (K : Dev nD × Fin 91 → ℕ) (c n : Dev nD) (hn : n = partD c)
    {hsc : ((oCh (k0_off2 c 0#32 5#32) (k0_off2_inb c 8)) : Memref sig (Dev.tc n : Thread nD τ).2.kind .hbm S512x1024 .f32).view.ref.isScScratch = false}
    {hsrc : (oCh (k0_off2 c 0#32 5#32) (k0_off2_inb c 8)).view.WordExact} {hdst : (oCh (k0_off2 c 0#32 5#32) (k0_off2_inb c 8)).view.WordExact}
    {hsem : DmaTarget.Typed .hbm (.dma (dsem 78)) (.remote (Dev.tc n : Thread nD τ) (oCh (k0_off2 c 0#32 5#32) (k0_off2_inb c 8)) (.dma (dsem 62)) hsc)}
    {α : Type} {Q : α → sProp 𝕄} {k : PUnit → Prog (TpuEff nD τ sig (Elt F) Λ₀ .tc) α}
    (fd : Buf (Elt F) ((oCh (k0_off2 c 0#32 5#32) (k0_off2_inb c 8)).view.loc (partD c : Thread nD τ)))
    (O : CellTallies nD τ sig Unit) (W : Waits sig Unit) :
    iprop(cellInv ER (sched m) (K (c, 63)) (dcell c 62) ∗ cellInv ER (sched m) (K (partD c, 79)) (dcell (partD c) 78)
        ∗ rpts c (oCh (k0_off2 c 0#32 5#32) (k0_off2_inb c 8)) fullShare.left (Res m c)
        ∗ rpts (partD c) (oCh (k0_off2 c 0#32 5#32) (k0_off2_inb c 8)) fullShare fd
        ∗ owes (c : Thread nD τ) (O + tallyAt (dcell (partD c) 78) () N) W
        ∗ dutyTok ER (dcell c 62) 0 0 ∗ reached ER (dcell c 62) 0
        ∗ dutyTok ER (dcell (partD c) 78) 0 0 ∗ reached ER (dcell (partD c) 78) 0)
      ⊢ iprop(((cred (tallyAt (dcell c 62) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 5#32) (k0_off2_inb c 8)) (.remote (Dev.tc n : Thread nD τ) (oCh (k0_off2 c 0#32 5#32) (k0_off2_inb c 8)) (.dma (dsem 62)) hsc) (.dma (dsem 78)) hsrc hdst hsem) k) Q) := by
  subst hn
  unfold rpts
  exact Rounds.wp_send_pointsTo Variants.none ER (sched m) (c : Thread nD τ) none (c' := (partD c : Thread nD τ))
    (src := (oCh (k0_off2 c 0#32 5#32) (k0_off2_inb c 8))) (dst := (oCh (k0_off2 c 0#32 5#32) (k0_off2_inb c 8))) (q := fullShare.left) (fs := Res m c) (fd := fd)
    (κ₁ := K (c, 63)) (κ₂ := K (partD c, 79)) (r₁ := 0) (r₂ := 0) (d₁ := 0) (d₂ := 0)
    (by rw [duties_dma m c 62 (by decide)]; exact Finset.mem_singleton_self _)
    (by rw [duties_dma m (partD c) 78 (by decide)]; exact Finset.mem_singleton_self _)
    () () N rfl (amount_dma m c 62 (by decide) 0 0) (amount_dma m (partD c) 78 (by decide) 0 0) O rfl (W := W)
    (by rw [payload_zsend_0_6]; exact BI.Entails.refl _)
    (by
      rw [payload_zrecv_0_6]
      exact (land_res_ent m c (partD c) _ _ _ (z_part c) fd).trans
        (Entails.of_eq (off2_dev_eq c (partD (partD c)) (part_part c).symm (partD c) 8 fullShare (Res m (partD c)))))

/-- The finished chunk of direction 0 received at step 6 of the redistribution, from the device's result array to the partner's. -/
theorem zsend_gather_0_6 (K : Dev nD × Fin 91 → ℕ) (c n : Dev nD) (hn : n = partD c)
    {hsc : ((oCh (k0_off2 c 0#32 6#32) (k0_off2_inb c 10)) : Memref sig (Dev.tc n : Thread nD τ).2.kind .hbm S512x1024 .f32).view.ref.isScScratch = false}
    {hsrc : (oCh (k0_off2 c 0#32 6#32) (k0_off2_inb c 10)).view.WordExact} {hdst : (oCh (k0_off2 c 0#32 6#32) (k0_off2_inb c 10)).view.WordExact}
    {hsem : DmaTarget.Typed .hbm (.dma (dsem 79)) (.remote (Dev.tc n : Thread nD τ) (oCh (k0_off2 c 0#32 6#32) (k0_off2_inb c 10)) (.dma (dsem 63)) hsc)}
    {α : Type} {Q : α → sProp 𝕄} {k : PUnit → Prog (TpuEff nD τ sig (Elt F) Λ₀ .tc) α}
    (fd : Buf (Elt F) ((oCh (k0_off2 c 0#32 6#32) (k0_off2_inb c 10)).view.loc (partD c : Thread nD τ)))
    (O : CellTallies nD τ sig Unit) (W : Waits sig Unit) :
    iprop(cellInv ER (sched m) (K (c, 64)) (dcell c 63) ∗ cellInv ER (sched m) (K (partD c, 80)) (dcell (partD c) 79)
        ∗ rpts c (oCh (k0_off2 c 0#32 6#32) (k0_off2_inb c 10)) fullShare.left (Res m c)
        ∗ rpts (partD c) (oCh (k0_off2 c 0#32 6#32) (k0_off2_inb c 10)) fullShare fd
        ∗ owes (c : Thread nD τ) (O + tallyAt (dcell (partD c) 79) () N) W
        ∗ dutyTok ER (dcell c 63) 0 0 ∗ reached ER (dcell c 63) 0
        ∗ dutyTok ER (dcell (partD c) 79) 0 0 ∗ reached ER (dcell (partD c) 79) 0)
      ⊢ iprop(((cred (tallyAt (dcell c 63) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 6#32) (k0_off2_inb c 10)) (.remote (Dev.tc n : Thread nD τ) (oCh (k0_off2 c 0#32 6#32) (k0_off2_inb c 10)) (.dma (dsem 63)) hsc) (.dma (dsem 79)) hsrc hdst hsem) k) Q) := by
  subst hn
  unfold rpts
  exact Rounds.wp_send_pointsTo Variants.none ER (sched m) (c : Thread nD τ) none (c' := (partD c : Thread nD τ))
    (src := (oCh (k0_off2 c 0#32 6#32) (k0_off2_inb c 10))) (dst := (oCh (k0_off2 c 0#32 6#32) (k0_off2_inb c 10))) (q := fullShare.left) (fs := Res m c) (fd := fd)
    (κ₁ := K (c, 64)) (κ₂ := K (partD c, 80)) (r₁ := 0) (r₂ := 0) (d₁ := 0) (d₂ := 0)
    (by rw [duties_dma m c 63 (by decide)]; exact Finset.mem_singleton_self _)
    (by rw [duties_dma m (partD c) 79 (by decide)]; exact Finset.mem_singleton_self _)
    () () N rfl (amount_dma m c 63 (by decide) 0 0) (amount_dma m (partD c) 79 (by decide) 0 0) O rfl (W := W)
    (by rw [payload_zsend_0_7]; exact BI.Entails.refl _)
    (by
      rw [payload_zrecv_0_7]
      exact (land_res_ent m c (partD c) _ _ _ (z_part c) fd).trans
        (Entails.of_eq (off2_dev_eq c (partD (partD c)) (part_part c).symm (partD c) 10 fullShare (Res m (partD c)))))

/-- The finished chunk of direction 1 received at step 0 of the redistribution, from the device's result array to the partner's. -/
theorem zsend_gather_1_0 (K : Dev nD × Fin 91 → ℕ) (c n : Dev nD) (hn : n = partD c)
    {hsc : ((oCh (k0_off2 c 4096#32 0#32) (k0_off2_inb c 15)) : Memref sig (Dev.tc n : Thread nD τ).2.kind .hbm S512x1024 .f32).view.ref.isScScratch = false}
    {hsrc : (oCh (k0_off2 c 4096#32 0#32) (k0_off2_inb c 15)).view.WordExact} {hdst : (oCh (k0_off2 c 4096#32 0#32) (k0_off2_inb c 15)).view.WordExact}
    {hsem : DmaTarget.Typed .hbm (.dma (dsem 81)) (.remote (Dev.tc n : Thread nD τ) (oCh (k0_off2 c 4096#32 0#32) (k0_off2_inb c 15)) (.dma (dsem 65)) hsc)}
    {α : Type} {Q : α → sProp 𝕄} {k : PUnit → Prog (TpuEff nD τ sig (Elt F) Λ₀ .tc) α}
    (fd : Buf (Elt F) ((oCh (k0_off2 c 4096#32 0#32) (k0_off2_inb c 15)).view.loc (partD c : Thread nD τ)))
    (O : CellTallies nD τ sig Unit) (W : Waits sig Unit) :
    iprop(cellInv ER (sched m) (K (c, 66)) (dcell c 65) ∗ cellInv ER (sched m) (K (partD c, 82)) (dcell (partD c) 81)
        ∗ rpts c (oCh (k0_off2 c 4096#32 0#32) (k0_off2_inb c 15)) fullShare.left (Res m c)
        ∗ rpts (partD c) (oCh (k0_off2 c 4096#32 0#32) (k0_off2_inb c 15)) fullShare fd
        ∗ owes (c : Thread nD τ) (O + tallyAt (dcell (partD c) 81) () N) W
        ∗ dutyTok ER (dcell c 65) 0 0 ∗ reached ER (dcell c 65) 0
        ∗ dutyTok ER (dcell (partD c) 81) 0 0 ∗ reached ER (dcell (partD c) 81) 0)
      ⊢ iprop(((cred (tallyAt (dcell c 65) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 0#32) (k0_off2_inb c 15)) (.remote (Dev.tc n : Thread nD τ) (oCh (k0_off2 c 4096#32 0#32) (k0_off2_inb c 15)) (.dma (dsem 65)) hsc) (.dma (dsem 81)) hsrc hdst hsem) k) Q) := by
  subst hn
  unfold rpts
  exact Rounds.wp_send_pointsTo Variants.none ER (sched m) (c : Thread nD τ) none (c' := (partD c : Thread nD τ))
    (src := (oCh (k0_off2 c 4096#32 0#32) (k0_off2_inb c 15))) (dst := (oCh (k0_off2 c 4096#32 0#32) (k0_off2_inb c 15))) (q := fullShare.left) (fs := Res m c) (fd := fd)
    (κ₁ := K (c, 66)) (κ₂ := K (partD c, 82)) (r₁ := 0) (r₂ := 0) (d₁ := 0) (d₂ := 0)
    (by rw [duties_dma m c 65 (by decide)]; exact Finset.mem_singleton_self _)
    (by rw [duties_dma m (partD c) 81 (by decide)]; exact Finset.mem_singleton_self _)
    () () N rfl (amount_dma m c 65 (by decide) 0 0) (amount_dma m (partD c) 81 (by decide) 0 0) O rfl (W := W)
    (by rw [payload_zsend_1_1]; exact BI.Entails.refl _)
    (by
      rw [payload_zrecv_1_1]
      exact (land_res_ent m c (partD c) _ _ _ (z_part c) fd).trans
        (Entails.of_eq (off2_dev_eq c (partD (partD c)) (part_part c).symm (partD c) 15 fullShare (Res m (partD c)))))

/-- The finished chunk of direction 1 received at step 1 of the redistribution, from the device's result array to the partner's. -/
theorem zsend_gather_1_1 (K : Dev nD × Fin 91 → ℕ) (c n : Dev nD) (hn : n = partD c)
    {hsc : ((oCh (k0_off2 c 4096#32 4294967295#32) (k0_off2_inb c 1)) : Memref sig (Dev.tc n : Thread nD τ).2.kind .hbm S512x1024 .f32).view.ref.isScScratch = false}
    {hsrc : (oCh (k0_off2 c 4096#32 4294967295#32) (k0_off2_inb c 1)).view.WordExact} {hdst : (oCh (k0_off2 c 4096#32 4294967295#32) (k0_off2_inb c 1)).view.WordExact}
    {hsem : DmaTarget.Typed .hbm (.dma (dsem 82)) (.remote (Dev.tc n : Thread nD τ) (oCh (k0_off2 c 4096#32 4294967295#32) (k0_off2_inb c 1)) (.dma (dsem 66)) hsc)}
    {α : Type} {Q : α → sProp 𝕄} {k : PUnit → Prog (TpuEff nD τ sig (Elt F) Λ₀ .tc) α}
    (fd : Buf (Elt F) ((oCh (k0_off2 c 4096#32 4294967295#32) (k0_off2_inb c 1)).view.loc (partD c : Thread nD τ)))
    (O : CellTallies nD τ sig Unit) (W : Waits sig Unit) :
    iprop(cellInv ER (sched m) (K (c, 67)) (dcell c 66) ∗ cellInv ER (sched m) (K (partD c, 83)) (dcell (partD c) 82)
        ∗ rpts c (oCh (k0_off2 c 4096#32 4294967295#32) (k0_off2_inb c 1)) fullShare.left (Res m c)
        ∗ rpts (partD c) (oCh (k0_off2 c 4096#32 4294967295#32) (k0_off2_inb c 1)) fullShare fd
        ∗ owes (c : Thread nD τ) (O + tallyAt (dcell (partD c) 82) () N) W
        ∗ dutyTok ER (dcell c 66) 0 0 ∗ reached ER (dcell c 66) 0
        ∗ dutyTok ER (dcell (partD c) 82) 0 0 ∗ reached ER (dcell (partD c) 82) 0)
      ⊢ iprop(((cred (tallyAt (dcell c 66) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967295#32) (k0_off2_inb c 1)) (.remote (Dev.tc n : Thread nD τ) (oCh (k0_off2 c 4096#32 4294967295#32) (k0_off2_inb c 1)) (.dma (dsem 66)) hsc) (.dma (dsem 82)) hsrc hdst hsem) k) Q) := by
  subst hn
  unfold rpts
  exact Rounds.wp_send_pointsTo Variants.none ER (sched m) (c : Thread nD τ) none (c' := (partD c : Thread nD τ))
    (src := (oCh (k0_off2 c 4096#32 4294967295#32) (k0_off2_inb c 1))) (dst := (oCh (k0_off2 c 4096#32 4294967295#32) (k0_off2_inb c 1))) (q := fullShare.left) (fs := Res m c) (fd := fd)
    (κ₁ := K (c, 67)) (κ₂ := K (partD c, 83)) (r₁ := 0) (r₂ := 0) (d₁ := 0) (d₂ := 0)
    (by rw [duties_dma m c 66 (by decide)]; exact Finset.mem_singleton_self _)
    (by rw [duties_dma m (partD c) 82 (by decide)]; exact Finset.mem_singleton_self _)
    () () N rfl (amount_dma m c 66 (by decide) 0 0) (amount_dma m (partD c) 82 (by decide) 0 0) O rfl (W := W)
    (by rw [payload_zsend_1_2]; exact BI.Entails.refl _)
    (by
      rw [payload_zrecv_1_2]
      exact (land_res_ent m c (partD c) _ _ _ (z_part c) fd).trans
        (Entails.of_eq (off2_dev_eq c (partD (partD c)) (part_part c).symm (partD c) 1 fullShare (Res m (partD c)))))

/-- The finished chunk of direction 1 received at step 2 of the redistribution, from the device's result array to the partner's. -/
theorem zsend_gather_1_2 (K : Dev nD × Fin 91 → ℕ) (c n : Dev nD) (hn : n = partD c)
    {hsc : ((oCh (k0_off2 c 4096#32 4294967294#32) (k0_off2_inb c 3)) : Memref sig (Dev.tc n : Thread nD τ).2.kind .hbm S512x1024 .f32).view.ref.isScScratch = false}
    {hsrc : (oCh (k0_off2 c 4096#32 4294967294#32) (k0_off2_inb c 3)).view.WordExact} {hdst : (oCh (k0_off2 c 4096#32 4294967294#32) (k0_off2_inb c 3)).view.WordExact}
    {hsem : DmaTarget.Typed .hbm (.dma (dsem 83)) (.remote (Dev.tc n : Thread nD τ) (oCh (k0_off2 c 4096#32 4294967294#32) (k0_off2_inb c 3)) (.dma (dsem 67)) hsc)}
    {α : Type} {Q : α → sProp 𝕄} {k : PUnit → Prog (TpuEff nD τ sig (Elt F) Λ₀ .tc) α}
    (fd : Buf (Elt F) ((oCh (k0_off2 c 4096#32 4294967294#32) (k0_off2_inb c 3)).view.loc (partD c : Thread nD τ)))
    (O : CellTallies nD τ sig Unit) (W : Waits sig Unit) :
    iprop(cellInv ER (sched m) (K (c, 68)) (dcell c 67) ∗ cellInv ER (sched m) (K (partD c, 84)) (dcell (partD c) 83)
        ∗ rpts c (oCh (k0_off2 c 4096#32 4294967294#32) (k0_off2_inb c 3)) fullShare.left (Res m c)
        ∗ rpts (partD c) (oCh (k0_off2 c 4096#32 4294967294#32) (k0_off2_inb c 3)) fullShare fd
        ∗ owes (c : Thread nD τ) (O + tallyAt (dcell (partD c) 83) () N) W
        ∗ dutyTok ER (dcell c 67) 0 0 ∗ reached ER (dcell c 67) 0
        ∗ dutyTok ER (dcell (partD c) 83) 0 0 ∗ reached ER (dcell (partD c) 83) 0)
      ⊢ iprop(((cred (tallyAt (dcell c 67) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967294#32) (k0_off2_inb c 3)) (.remote (Dev.tc n : Thread nD τ) (oCh (k0_off2 c 4096#32 4294967294#32) (k0_off2_inb c 3)) (.dma (dsem 67)) hsc) (.dma (dsem 83)) hsrc hdst hsem) k) Q) := by
  subst hn
  unfold rpts
  exact Rounds.wp_send_pointsTo Variants.none ER (sched m) (c : Thread nD τ) none (c' := (partD c : Thread nD τ))
    (src := (oCh (k0_off2 c 4096#32 4294967294#32) (k0_off2_inb c 3))) (dst := (oCh (k0_off2 c 4096#32 4294967294#32) (k0_off2_inb c 3))) (q := fullShare.left) (fs := Res m c) (fd := fd)
    (κ₁ := K (c, 68)) (κ₂ := K (partD c, 84)) (r₁ := 0) (r₂ := 0) (d₁ := 0) (d₂ := 0)
    (by rw [duties_dma m c 67 (by decide)]; exact Finset.mem_singleton_self _)
    (by rw [duties_dma m (partD c) 83 (by decide)]; exact Finset.mem_singleton_self _)
    () () N rfl (amount_dma m c 67 (by decide) 0 0) (amount_dma m (partD c) 83 (by decide) 0 0) O rfl (W := W)
    (by rw [payload_zsend_1_3]; exact BI.Entails.refl _)
    (by
      rw [payload_zrecv_1_3]
      exact (land_res_ent m c (partD c) _ _ _ (z_part c) fd).trans
        (Entails.of_eq (off2_dev_eq c (partD (partD c)) (part_part c).symm (partD c) 3 fullShare (Res m (partD c)))))

/-- The finished chunk of direction 1 received at step 3 of the redistribution, from the device's result array to the partner's. -/
theorem zsend_gather_1_3 (K : Dev nD × Fin 91 → ℕ) (c n : Dev nD) (hn : n = partD c)
    {hsc : ((oCh (k0_off2 c 4096#32 4294967293#32) (k0_off2_inb c 5)) : Memref sig (Dev.tc n : Thread nD τ).2.kind .hbm S512x1024 .f32).view.ref.isScScratch = false}
    {hsrc : (oCh (k0_off2 c 4096#32 4294967293#32) (k0_off2_inb c 5)).view.WordExact} {hdst : (oCh (k0_off2 c 4096#32 4294967293#32) (k0_off2_inb c 5)).view.WordExact}
    {hsem : DmaTarget.Typed .hbm (.dma (dsem 84)) (.remote (Dev.tc n : Thread nD τ) (oCh (k0_off2 c 4096#32 4294967293#32) (k0_off2_inb c 5)) (.dma (dsem 68)) hsc)}
    {α : Type} {Q : α → sProp 𝕄} {k : PUnit → Prog (TpuEff nD τ sig (Elt F) Λ₀ .tc) α}
    (fd : Buf (Elt F) ((oCh (k0_off2 c 4096#32 4294967293#32) (k0_off2_inb c 5)).view.loc (partD c : Thread nD τ)))
    (O : CellTallies nD τ sig Unit) (W : Waits sig Unit) :
    iprop(cellInv ER (sched m) (K (c, 69)) (dcell c 68) ∗ cellInv ER (sched m) (K (partD c, 85)) (dcell (partD c) 84)
        ∗ rpts c (oCh (k0_off2 c 4096#32 4294967293#32) (k0_off2_inb c 5)) fullShare.left (Res m c)
        ∗ rpts (partD c) (oCh (k0_off2 c 4096#32 4294967293#32) (k0_off2_inb c 5)) fullShare fd
        ∗ owes (c : Thread nD τ) (O + tallyAt (dcell (partD c) 84) () N) W
        ∗ dutyTok ER (dcell c 68) 0 0 ∗ reached ER (dcell c 68) 0
        ∗ dutyTok ER (dcell (partD c) 84) 0 0 ∗ reached ER (dcell (partD c) 84) 0)
      ⊢ iprop(((cred (tallyAt (dcell c 68) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967293#32) (k0_off2_inb c 5)) (.remote (Dev.tc n : Thread nD τ) (oCh (k0_off2 c 4096#32 4294967293#32) (k0_off2_inb c 5)) (.dma (dsem 68)) hsc) (.dma (dsem 84)) hsrc hdst hsem) k) Q) := by
  subst hn
  unfold rpts
  exact Rounds.wp_send_pointsTo Variants.none ER (sched m) (c : Thread nD τ) none (c' := (partD c : Thread nD τ))
    (src := (oCh (k0_off2 c 4096#32 4294967293#32) (k0_off2_inb c 5))) (dst := (oCh (k0_off2 c 4096#32 4294967293#32) (k0_off2_inb c 5))) (q := fullShare.left) (fs := Res m c) (fd := fd)
    (κ₁ := K (c, 69)) (κ₂ := K (partD c, 85)) (r₁ := 0) (r₂ := 0) (d₁ := 0) (d₂ := 0)
    (by rw [duties_dma m c 68 (by decide)]; exact Finset.mem_singleton_self _)
    (by rw [duties_dma m (partD c) 84 (by decide)]; exact Finset.mem_singleton_self _)
    () () N rfl (amount_dma m c 68 (by decide) 0 0) (amount_dma m (partD c) 84 (by decide) 0 0) O rfl (W := W)
    (by rw [payload_zsend_1_4]; exact BI.Entails.refl _)
    (by
      rw [payload_zrecv_1_4]
      exact (land_res_ent m c (partD c) _ _ _ (z_part c) fd).trans
        (Entails.of_eq (off2_dev_eq c (partD (partD c)) (part_part c).symm (partD c) 5 fullShare (Res m (partD c)))))

/-- The finished chunk of direction 1 received at step 4 of the redistribution, from the device's result array to the partner's. -/
theorem zsend_gather_1_4 (K : Dev nD × Fin 91 → ℕ) (c n : Dev nD) (hn : n = partD c)
    {hsc : ((oCh (k0_off2 c 4096#32 4294967292#32) (k0_off2_inb c 7)) : Memref sig (Dev.tc n : Thread nD τ).2.kind .hbm S512x1024 .f32).view.ref.isScScratch = false}
    {hsrc : (oCh (k0_off2 c 4096#32 4294967292#32) (k0_off2_inb c 7)).view.WordExact} {hdst : (oCh (k0_off2 c 4096#32 4294967292#32) (k0_off2_inb c 7)).view.WordExact}
    {hsem : DmaTarget.Typed .hbm (.dma (dsem 85)) (.remote (Dev.tc n : Thread nD τ) (oCh (k0_off2 c 4096#32 4294967292#32) (k0_off2_inb c 7)) (.dma (dsem 69)) hsc)}
    {α : Type} {Q : α → sProp 𝕄} {k : PUnit → Prog (TpuEff nD τ sig (Elt F) Λ₀ .tc) α}
    (fd : Buf (Elt F) ((oCh (k0_off2 c 4096#32 4294967292#32) (k0_off2_inb c 7)).view.loc (partD c : Thread nD τ)))
    (O : CellTallies nD τ sig Unit) (W : Waits sig Unit) :
    iprop(cellInv ER (sched m) (K (c, 70)) (dcell c 69) ∗ cellInv ER (sched m) (K (partD c, 86)) (dcell (partD c) 85)
        ∗ rpts c (oCh (k0_off2 c 4096#32 4294967292#32) (k0_off2_inb c 7)) fullShare.left (Res m c)
        ∗ rpts (partD c) (oCh (k0_off2 c 4096#32 4294967292#32) (k0_off2_inb c 7)) fullShare fd
        ∗ owes (c : Thread nD τ) (O + tallyAt (dcell (partD c) 85) () N) W
        ∗ dutyTok ER (dcell c 69) 0 0 ∗ reached ER (dcell c 69) 0
        ∗ dutyTok ER (dcell (partD c) 85) 0 0 ∗ reached ER (dcell (partD c) 85) 0)
      ⊢ iprop(((cred (tallyAt (dcell c 69) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967292#32) (k0_off2_inb c 7)) (.remote (Dev.tc n : Thread nD τ) (oCh (k0_off2 c 4096#32 4294967292#32) (k0_off2_inb c 7)) (.dma (dsem 69)) hsc) (.dma (dsem 85)) hsrc hdst hsem) k) Q) := by
  subst hn
  unfold rpts
  exact Rounds.wp_send_pointsTo Variants.none ER (sched m) (c : Thread nD τ) none (c' := (partD c : Thread nD τ))
    (src := (oCh (k0_off2 c 4096#32 4294967292#32) (k0_off2_inb c 7))) (dst := (oCh (k0_off2 c 4096#32 4294967292#32) (k0_off2_inb c 7))) (q := fullShare.left) (fs := Res m c) (fd := fd)
    (κ₁ := K (c, 70)) (κ₂ := K (partD c, 86)) (r₁ := 0) (r₂ := 0) (d₁ := 0) (d₂ := 0)
    (by rw [duties_dma m c 69 (by decide)]; exact Finset.mem_singleton_self _)
    (by rw [duties_dma m (partD c) 85 (by decide)]; exact Finset.mem_singleton_self _)
    () () N rfl (amount_dma m c 69 (by decide) 0 0) (amount_dma m (partD c) 85 (by decide) 0 0) O rfl (W := W)
    (by rw [payload_zsend_1_5]; exact BI.Entails.refl _)
    (by
      rw [payload_zrecv_1_5]
      exact (land_res_ent m c (partD c) _ _ _ (z_part c) fd).trans
        (Entails.of_eq (off2_dev_eq c (partD (partD c)) (part_part c).symm (partD c) 7 fullShare (Res m (partD c)))))

/-- The finished chunk of direction 1 received at step 5 of the redistribution, from the device's result array to the partner's. -/
theorem zsend_gather_1_5 (K : Dev nD × Fin 91 → ℕ) (c n : Dev nD) (hn : n = partD c)
    {hsc : ((oCh (k0_off2 c 4096#32 4294967291#32) (k0_off2_inb c 9)) : Memref sig (Dev.tc n : Thread nD τ).2.kind .hbm S512x1024 .f32).view.ref.isScScratch = false}
    {hsrc : (oCh (k0_off2 c 4096#32 4294967291#32) (k0_off2_inb c 9)).view.WordExact} {hdst : (oCh (k0_off2 c 4096#32 4294967291#32) (k0_off2_inb c 9)).view.WordExact}
    {hsem : DmaTarget.Typed .hbm (.dma (dsem 86)) (.remote (Dev.tc n : Thread nD τ) (oCh (k0_off2 c 4096#32 4294967291#32) (k0_off2_inb c 9)) (.dma (dsem 70)) hsc)}
    {α : Type} {Q : α → sProp 𝕄} {k : PUnit → Prog (TpuEff nD τ sig (Elt F) Λ₀ .tc) α}
    (fd : Buf (Elt F) ((oCh (k0_off2 c 4096#32 4294967291#32) (k0_off2_inb c 9)).view.loc (partD c : Thread nD τ)))
    (O : CellTallies nD τ sig Unit) (W : Waits sig Unit) :
    iprop(cellInv ER (sched m) (K (c, 71)) (dcell c 70) ∗ cellInv ER (sched m) (K (partD c, 87)) (dcell (partD c) 86)
        ∗ rpts c (oCh (k0_off2 c 4096#32 4294967291#32) (k0_off2_inb c 9)) fullShare.left (Res m c)
        ∗ rpts (partD c) (oCh (k0_off2 c 4096#32 4294967291#32) (k0_off2_inb c 9)) fullShare fd
        ∗ owes (c : Thread nD τ) (O + tallyAt (dcell (partD c) 86) () N) W
        ∗ dutyTok ER (dcell c 70) 0 0 ∗ reached ER (dcell c 70) 0
        ∗ dutyTok ER (dcell (partD c) 86) 0 0 ∗ reached ER (dcell (partD c) 86) 0)
      ⊢ iprop(((cred (tallyAt (dcell c 70) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967291#32) (k0_off2_inb c 9)) (.remote (Dev.tc n : Thread nD τ) (oCh (k0_off2 c 4096#32 4294967291#32) (k0_off2_inb c 9)) (.dma (dsem 70)) hsc) (.dma (dsem 86)) hsrc hdst hsem) k) Q) := by
  subst hn
  unfold rpts
  exact Rounds.wp_send_pointsTo Variants.none ER (sched m) (c : Thread nD τ) none (c' := (partD c : Thread nD τ))
    (src := (oCh (k0_off2 c 4096#32 4294967291#32) (k0_off2_inb c 9))) (dst := (oCh (k0_off2 c 4096#32 4294967291#32) (k0_off2_inb c 9))) (q := fullShare.left) (fs := Res m c) (fd := fd)
    (κ₁ := K (c, 71)) (κ₂ := K (partD c, 87)) (r₁ := 0) (r₂ := 0) (d₁ := 0) (d₂ := 0)
    (by rw [duties_dma m c 70 (by decide)]; exact Finset.mem_singleton_self _)
    (by rw [duties_dma m (partD c) 86 (by decide)]; exact Finset.mem_singleton_self _)
    () () N rfl (amount_dma m c 70 (by decide) 0 0) (amount_dma m (partD c) 86 (by decide) 0 0) O rfl (W := W)
    (by rw [payload_zsend_1_6]; exact BI.Entails.refl _)
    (by
      rw [payload_zrecv_1_6]
      exact (land_res_ent m c (partD c) _ _ _ (z_part c) fd).trans
        (Entails.of_eq (off2_dev_eq c (partD (partD c)) (part_part c).symm (partD c) 9 fullShare (Res m (partD c)))))

/-- The finished chunk of direction 1 received at step 6 of the redistribution, from the device's result array to the partner's. -/
theorem zsend_gather_1_6 (K : Dev nD × Fin 91 → ℕ) (c n : Dev nD) (hn : n = partD c)
    {hsc : ((oCh (k0_off2 c 4096#32 4294967290#32) (k0_off2_inb c 11)) : Memref sig (Dev.tc n : Thread nD τ).2.kind .hbm S512x1024 .f32).view.ref.isScScratch = false}
    {hsrc : (oCh (k0_off2 c 4096#32 4294967290#32) (k0_off2_inb c 11)).view.WordExact} {hdst : (oCh (k0_off2 c 4096#32 4294967290#32) (k0_off2_inb c 11)).view.WordExact}
    {hsem : DmaTarget.Typed .hbm (.dma (dsem 87)) (.remote (Dev.tc n : Thread nD τ) (oCh (k0_off2 c 4096#32 4294967290#32) (k0_off2_inb c 11)) (.dma (dsem 71)) hsc)}
    {α : Type} {Q : α → sProp 𝕄} {k : PUnit → Prog (TpuEff nD τ sig (Elt F) Λ₀ .tc) α}
    (fd : Buf (Elt F) ((oCh (k0_off2 c 4096#32 4294967290#32) (k0_off2_inb c 11)).view.loc (partD c : Thread nD τ)))
    (O : CellTallies nD τ sig Unit) (W : Waits sig Unit) :
    iprop(cellInv ER (sched m) (K (c, 72)) (dcell c 71) ∗ cellInv ER (sched m) (K (partD c, 88)) (dcell (partD c) 87)
        ∗ rpts c (oCh (k0_off2 c 4096#32 4294967290#32) (k0_off2_inb c 11)) fullShare.left (Res m c)
        ∗ rpts (partD c) (oCh (k0_off2 c 4096#32 4294967290#32) (k0_off2_inb c 11)) fullShare fd
        ∗ owes (c : Thread nD τ) (O + tallyAt (dcell (partD c) 87) () N) W
        ∗ dutyTok ER (dcell c 71) 0 0 ∗ reached ER (dcell c 71) 0
        ∗ dutyTok ER (dcell (partD c) 87) 0 0 ∗ reached ER (dcell (partD c) 87) 0)
      ⊢ iprop(((cred (tallyAt (dcell c 71) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967290#32) (k0_off2_inb c 11)) (.remote (Dev.tc n : Thread nD τ) (oCh (k0_off2 c 4096#32 4294967290#32) (k0_off2_inb c 11)) (.dma (dsem 71)) hsc) (.dma (dsem 87)) hsrc hdst hsem) k) Q) := by
  subst hn
  unfold rpts
  exact Rounds.wp_send_pointsTo Variants.none ER (sched m) (c : Thread nD τ) none (c' := (partD c : Thread nD τ))
    (src := (oCh (k0_off2 c 4096#32 4294967290#32) (k0_off2_inb c 11))) (dst := (oCh (k0_off2 c 4096#32 4294967290#32) (k0_off2_inb c 11))) (q := fullShare.left) (fs := Res m c) (fd := fd)
    (κ₁ := K (c, 72)) (κ₂ := K (partD c, 88)) (r₁ := 0) (r₂ := 0) (d₁ := 0) (d₂ := 0)
    (by rw [duties_dma m c 71 (by decide)]; exact Finset.mem_singleton_self _)
    (by rw [duties_dma m (partD c) 87 (by decide)]; exact Finset.mem_singleton_self _)
    () () N rfl (amount_dma m c 71 (by decide) 0 0) (amount_dma m (partD c) 87 (by decide) 0 0) O rfl (W := W)
    (by rw [payload_zsend_1_7]; exact BI.Entails.refl _)
    (by
      rw [payload_zrecv_1_7]
      exact (land_res_ent m c (partD c) _ _ _ (z_part c) fd).trans
        (Entails.of_eq (off2_dev_eq c (partD (partD c)) (part_part c).symm (partD c) 11 fullShare (Res m (partD c)))))

/-- info: 'Cert.KernelIdeal.Rules.zsend_done_0' depends on axioms: [propext, Classical.choice, Quot.sound] -/
#guard_msgs in #print axioms zsend_done_0

/-- info: 'Cert.KernelIdeal.Rules.zsend_done_1' depends on axioms: [propext, Classical.choice, Quot.sound] -/
#guard_msgs in #print axioms zsend_done_1

/-- info: 'Cert.KernelIdeal.Rules.zsend_gather_0_0' depends on axioms: [propext, Classical.choice, Quot.sound] -/
#guard_msgs in #print axioms zsend_gather_0_0

/-- info: 'Cert.KernelIdeal.Rules.zsend_gather_1_6' depends on axioms: [propext, Classical.choice, Quot.sound] -/
#guard_msgs in #print axioms zsend_gather_1_6

end Cert.KernelIdeal.Rules

end
-- ==== Proof.RulesLocal.lean ====
/-
  The local copies of a device, as steps of its program. A local copy pays the one duty of its round on the cell of
  the local copies of its direction: the copy of the device's own chunk into the staging buffer in each of the rounds
  0 to 6, and in round 7 the copy of the last exchange slot into the device's own chunk of the result. Each statement
  below is the library's rule for a local copy at that cell and round; what is left to show is that the destination,
  once written, together with the source handed back, is the payload the schedule names for the round. Loads and
  stores on a slot held as a region are the library's rules for a load and a store, the region's elements being the
  elements the access touches.
-/
import proofs.«900727_g7700000000000728_dist_ar_v7x_xyz2x4x4_y_m16384_n1024_f32_1_alg».proof.Proof.Tables
import proofs.«900727_g7700000000000728_dist_ar_v7x_xyz2x4x4_y_m16384_n1024_f32_1_alg».proof.Proof.ValLemmas
import Mathlib.Tactic.IntervalCases

set_option maxRecDepth 16384

noncomputable section

namespace Cert.KernelIdeal.Rules

open Cert.KernelIdeal Cert.KernelIdeal.Gen Cert.KernelIdeal.Ring Cert.KernelIdeal.Cells Cert.KernelIdeal.Vals
  Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The copies into the staging buffer -/

/-- The destination written with the device's own chunk is the staging slot of the step; the source comes back. -/
theorem stage_pay (c : Dev nD) (d t : ℕ) (hd : d < 2) (w0 w : BitVec 32)
    (h : ∀ a, (k0_off2 c w0 w) a + S512x1024.size a ≤ S16384x1024.size a)
    (h' : ∀ a, (![d, 0, 0] : Fin 3 → ℕ) a + S1x512x1024.size a ≤ S2x512x1024.size a)
    (fd : Buf (Elt F) ((sSl d h').view.loc (c : Thread nD τ)))
    (hoff : k0_off2 c w0 w = ![rowAt c d (back d (t + 1)), 0]) :
    (iprop(rpts c (sSl d h') fullShare
          ((sSl d h').view.write (Elt F) fd ((xCh (k0_off2 c w0 w) h).view.read (Elt F) (X m c)) Finset.univ)
        ∗ rpts c (xCh (k0_off2 c w0 w) h) fullShare (X m c)) : sProp 𝕄)
      ⊢ iprop(rpts c (sSl d h') fullShare (StageAt m c t) ∗ rpts c (xCh (k0_off2 c w0 w) h) fullShare (X m c)) :=
  sep_mono_left (land_stage_ent m c d t hd _ h hoff h' fd)

/-- The copy of the device's own chunk of direction 0 into the staging slot 0, in round r < 7. -/
theorem copy_stage_0 (K : Dev nD × Fin 91 → ℕ) (c : Dev nD) (r : ℕ) (hr : r < 7)
    {h : ∀ a, (k0_off2 c 0#32 (BitVec.ofNat 32 (r + 1))) a + S512x1024.size a ≤ S16384x1024.size a}
    {h' : ∀ a, (![0, 0, 0] : Fin 3 → ℕ) a + S1x512x1024.size a ≤ S2x512x1024.size a}
    {hsrc : (xCh (k0_off2 c 0#32 (BitVec.ofNat 32 (r + 1))) h).view.WordExact} {hdst : (sSl 0 h').view.WordExact}
    {hsem : DmaTarget.Typed (nD := nD) .hbm (.dma (dsem 88)) (DmaTarget.here (p := (c : Thread nD τ).2) (sSl 0 h'))}
    {α : Type} {Q : α → sProp 𝕄} {k : PUnit → Prog (TpuEff nD τ sig (Elt F) Λ₀ .tc) α}
    (fd : Buf (Elt F) ((sSl 0 h').view.loc (c : Thread nD τ))) :
    iprop(cellInv (ER (F := F)) (sched m) (K (c, 89)) (dcell c 88)
        ∗ rpts c (xCh (k0_off2 c 0#32 (BitVec.ofNat 32 (r + 1))) h) fullShare (X m c)
        ∗ rpts c (sSl 0 h') fullShare fd
        ∗ dutyTok (ER (F := F)) (dcell c 88) r 0 ∗ reached (ER (F := F)) (dcell c 88) r)
      ⊢ iprop((cred (tallyAt (dcell c 88) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off2 c 0#32 (BitVec.ofNat 32 (r + 1))) h) (.here (sSl 0 h')) (.dma (dsem 88)) hsrc hdst hsem) k) Q) := by
  refine Rounds.wp_copy_pointsTo Variants.none (ER (F := F)) (sched m) (c : Thread nD τ) none
    (src := xCh (k0_off2 c 0#32 (BitVec.ofNat 32 (r + 1))) h) (dst := sSl 0 h') (q := fullShare) (fs := X m c) (fd := fd)
    (κ := K (c, 89)) (r := r) (d := 0)
    (by rw [duties_local m c 0 (by decide) r (by omega)]; exact Finset.mem_singleton_self _)
    () N rfl (amount_dma m c 88 (by decide) r 0) ?_
  interval_cases r
  · rw [payload_local_0_0]; exact stage_pay m c 0 0 (by decide) _ _ _ _ fd (off2_0_1 c)
  · rw [payload_local_0_1]; exact stage_pay m c 0 1 (by decide) _ _ _ _ fd (off2_0_2 c)
  · rw [payload_local_0_2]; exact stage_pay m c 0 2 (by decide) _ _ _ _ fd (off2_0_3 c)
  · rw [payload_local_0_3]; exact stage_pay m c 0 3 (by decide) _ _ _ _ fd (off2_0_4 c)
  · rw [payload_local_0_4]; exact stage_pay m c 0 4 (by decide) _ _ _ _ fd (off2_0_5 c)
  · rw [payload_local_0_5]; exact stage_pay m c 0 5 (by decide) _ _ _ _ fd (off2_0_6 c)
  · rw [payload_local_0_6]; exact stage_pay m c 0 6 (by decide) _ _ _ _ fd (off2_0_7 c)

/-- The copy of the device's own chunk of direction 1 into the staging slot 1, in round r < 7. -/
theorem copy_stage_1 (K : Dev nD × Fin 91 → ℕ) (c : Dev nD) (r : ℕ) (hr : r < 7)
    {h : ∀ a, (k0_off2 c 4096#32 (BitVec.ofNat 32 (4294967296 - (r + 1)))) a + S512x1024.size a ≤ S16384x1024.size a}
    {h' : ∀ a, (![1, 0, 0] : Fin 3 → ℕ) a + S1x512x1024.size a ≤ S2x512x1024.size a}
    {hsrc : (xCh (k0_off2 c 4096#32 (BitVec.ofNat 32 (4294967296 - (r + 1)))) h).view.WordExact} {hdst : (sSl 1 h').view.WordExact}
    {hsem : DmaTarget.Typed (nD := nD) .hbm (.dma (dsem 89)) (DmaTarget.here (p := (c : Thread nD τ).2) (sSl 1 h'))}
    {α : Type} {Q : α → sProp 𝕄} {k : PUnit → Prog (TpuEff nD τ sig (Elt F) Λ₀ .tc) α}
    (fd : Buf (Elt F) ((sSl 1 h').view.loc (c : Thread nD τ))) :
    iprop(cellInv (ER (F := F)) (sched m) (K (c, 90)) (dcell c 89)
        ∗ rpts c (xCh (k0_off2 c 4096#32 (BitVec.ofNat 32 (4294967296 - (r + 1)))) h) fullShare (X m c)
        ∗ rpts c (sSl 1 h') fullShare fd
        ∗ dutyTok (ER (F := F)) (dcell c 89) r 0 ∗ reached (ER (F := F)) (dcell c 89) r)
      ⊢ iprop((cred (tallyAt (dcell c 89) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off2 c 4096#32 (BitVec.ofNat 32 (4294967296 - (r + 1)))) h) (.here (sSl 1 h')) (.dma (dsem 89)) hsrc hdst hsem) k) Q) := by
  refine Rounds.wp_copy_pointsTo Variants.none (ER (F := F)) (sched m) (c : Thread nD τ) none
    (src := xCh (k0_off2 c 4096#32 (BitVec.ofNat 32 (4294967296 - (r + 1)))) h) (dst := sSl 1 h') (q := fullShare) (fs := X m c) (fd := fd)
    (κ := K (c, 90)) (r := r) (d := 0)
    (by rw [duties_local m c 1 (by decide) r (by omega)]; exact Finset.mem_singleton_self _)
    () N rfl (amount_dma m c 89 (by decide) r 0) ?_
  interval_cases r
  · rw [payload_local_1_0]; exact stage_pay m c 1 0 (by decide) _ _ _ _ fd (off2_1_1 c)
  · rw [payload_local_1_1]; exact stage_pay m c 1 1 (by decide) _ _ _ _ fd (off2_1_2 c)
  · rw [payload_local_1_2]; exact stage_pay m c 1 2 (by decide) _ _ _ _ fd (off2_1_3 c)
  · rw [payload_local_1_3]; exact stage_pay m c 1 3 (by decide) _ _ _ _ fd (off2_1_4 c)
  · rw [payload_local_1_4]; exact stage_pay m c 1 4 (by decide) _ _ _ _ fd (off2_1_5 c)
  · rw [payload_local_1_5]; exact stage_pay m c 1 5 (by decide) _ _ _ _ fd (off2_1_6 c)
  · rw [payload_local_1_6]; exact stage_pay m c 1 6 (by decide) _ _ _ _ fd (off2_1_7 c)

/-! ## The copies of the finished chunk into the result -/

/-- The copy of the last exchange slot of direction 0 into the device's own chunk of the result, in round 7. -/
theorem copy_done_0 (K : Dev nD × Fin 91 → ℕ) (c : Dev nD)
    {h : ∀ a, (![0, 6, 0, 0] : Fin 4 → ℕ) a + S1x1x512x1024.size a ≤ S2x7x512x1024.size a}
    {h' : ∀ a, (k0_off3 c 0#32 1#32) a + S512x1024.size a ≤ S16384x1024.size a}
    {hsrc : (cSl 0 6 h).view.WordExact} {hdst : (oCh (k0_off3 c 0#32 1#32) h').view.WordExact}
    {hsem : DmaTarget.Typed (nD := nD) .vmem (.dma (dsem 88)) (DmaTarget.here (p := (c : Thread nD τ).2) (oCh (k0_off3 c 0#32 1#32) h'))}
    {α : Type} {Q : α → sProp 𝕄} {k : PUnit → Prog (TpuEff nD τ sig (Elt F) Λ₀ .tc) α}
    (fd : Buf (Elt F) ((oCh (k0_off3 c 0#32 1#32) h').view.loc (c : Thread nD τ))) :
    iprop(cellInv (ER (F := F)) (sched m) (K (c, 89)) (dcell c 88)
        ∗ rpts c (cSl 0 6 h) fullShare (CommAcc m c)
        ∗ rpts c (oCh (k0_off3 c 0#32 1#32) h') fullShare fd
        ∗ dutyTok (ER (F := F)) (dcell c 88) 7 0 ∗ reached (ER (F := F)) (dcell c 88) 7)
      ⊢ iprop((cred (tallyAt (dcell c 88) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 6 h) (.here (oCh (k0_off3 c 0#32 1#32) h')) (.dma (dsem 88)) hsrc hdst hsem) k) Q) := by
  refine Rounds.wp_copy_pointsTo Variants.none (ER (F := F)) (sched m) (c : Thread nD τ) none
    (src := cSl 0 6 h) (dst := oCh (k0_off3 c 0#32 1#32) h') (q := fullShare) (fs := CommAcc m c) (fd := fd)
    (κ := K (c, 89)) (r := 7) (d := 0)
    (by rw [duties_local m c 0 (by decide) 7 (by decide)]; exact Finset.mem_singleton_self _)
    () N rfl (amount_dma m c 88 (by decide) 7 0) ?_
  rw [payload_local_0_7]
  exact sep_mono_left (land_done_ent m c c 0 (by decide) rfl _ h h' (off3_0 c) fd)

/-- The copy of the last exchange slot of direction 1 into the device's own chunk of the result, in round 7. -/
theorem copy_done_1 (K : Dev nD × Fin 91 → ℕ) (c : Dev nD)
    {h : ∀ a, (![1, 6, 0, 0] : Fin 4 → ℕ) a + S1x1x512x1024.size a ≤ S2x7x512x1024.size a}
    {h' : ∀ a, (k0_off3 c 4096#32 4294967295#32) a + S512x1024.size a ≤ S16384x1024.size a}
    {hsrc : (cSl 1 6 h).view.WordExact} {hdst : (oCh (k0_off3 c 4096#32 4294967295#32) h').view.WordExact}
    {hsem : DmaTarget.Typed (nD := nD) .vmem (.dma (dsem 89)) (DmaTarget.here (p := (c : Thread nD τ).2) (oCh (k0_off3 c 4096#32 4294967295#32) h'))}
    {α : Type} {Q : α → sProp 𝕄} {k : PUnit → Prog (TpuEff nD τ sig (Elt F) Λ₀ .tc) α}
    (fd : Buf (Elt F) ((oCh (k0_off3 c 4096#32 4294967295#32) h').view.loc (c : Thread nD τ))) :
    iprop(cellInv (ER (F := F)) (sched m) (K (c, 90)) (dcell c 89)
        ∗ rpts c (cSl 1 6 h) fullShare (CommAcc m c)
        ∗ rpts c (oCh (k0_off3 c 4096#32 4294967295#32) h') fullShare fd
        ∗ dutyTok (ER (F := F)) (dcell c 89) 7 0 ∗ reached (ER (F := F)) (dcell c 89) 7)
      ⊢ iprop((cred (tallyAt (dcell c 89) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 6 h) (.here (oCh (k0_off3 c 4096#32 4294967295#32) h')) (.dma (dsem 89)) hsrc hdst hsem) k) Q) := by
  refine Rounds.wp_copy_pointsTo Variants.none (ER (F := F)) (sched m) (c : Thread nD τ) none
    (src := cSl 1 6 h) (dst := oCh (k0_off3 c 4096#32 4294967295#32) h') (q := fullShare) (fs := CommAcc m c) (fd := fd)
    (κ := K (c, 90)) (r := 7) (d := 0)
    (by rw [duties_local m c 1 (by decide) 7 (by decide)]; exact Finset.mem_singleton_self _)
    () N rfl (amount_dma m c 89 (by decide) 7 0) ?_
  rw [payload_local_1_7]
  exact sep_mono_left (land_done_ent m c c 1 (by decide) rfl _ h h' (off3_1 c) fd)

/-! ## Loads and stores on a slot held as a region

  A slot of the exchange buffer or of the staging buffer is held as the region under the slot's view; a load or a
  store addresses the same elements through the whole buffer's rectangle at the slot, before the unit axes are
  dropped. The two views have the same elements, so the region is what the access needs. -/

/-- The elements of slot (d, s) of the exchange buffer are those of the access rectangle at the slot. -/
theorem cSl_set (d s : ℕ) (h : ∀ a, (![d, s, 0, 0] : Fin 4 → ℕ) a + S1x1x512x1024.size a ≤ S2x7x512x1024.size a) :
    (cSl d s h).view.set = (cM.access (Rect.unit (s := S2x7x512x1024) ![d, s, 0, 0] S1x1x512x1024.size h)).set :=
  View.set_reshape _ _

/-- The elements of slot d of the staging buffer are those of the access rectangle at the slot. -/
theorem sSl_set (d : ℕ) (h : ∀ a, (![d, 0, 0] : Fin 3 → ℕ) a + S1x512x1024.size a ≤ S2x512x1024.size a) :
    (sSl d h).view.set = (sM.access (Rect.unit (s := S2x512x1024) ![d, 0, 0] S1x512x1024.size h)).set :=
  View.set_reshape _ _

/-- A load of slot (d, s) of the exchange buffer from the region of the slot: the region is kept. -/
theorem load_comm (c : Dev nD) (d s : ℕ)
    {h : ∀ a, (![d, s, 0, 0] : Fin 4 → ℕ) a + S1x1x512x1024.size a ≤ S2x7x512x1024.size a}
    {hl : (cM : Memref sig .tc .vmem S2x7x512x1024 .f32).view.LoadsAt
      (Rect.unit (s := S2x7x512x1024) ![d, s, 0, 0] S1x1x512x1024.size h).toLoadRect}
    {α : Type} {Q : α → sProp 𝕄}
    {k : ((Rect.unit (s := S2x7x512x1024) ![d, s, 0, 0] S1x1x512x1024.size h).shape.Idx → Elt F .f32)
      → Prog (TpuEff nD τ sig (Elt F) Λ₀ .tc) α}
    (f : Buf (Elt F) ((c : Thread nD τ).loc cc0_scratch0)) :
    (rpts c (cSl d s h) fullShare f : sProp 𝕄)
      ⊢ iprop((rpts c (cSl d s h) fullShare f
              -∗ wp frame (wpE (defs₀ (F := F)) Variants.none (c : Thread nD τ) none) Set.univ
                  (k ((cM.access (Rect.unit (s := S2x7x512x1024) ![d, s, 0, 0] S1x1x512x1024.size h)).read (Elt F) f)) Q)
          -∗ wp frame (wpE (defs₀ (F := F)) Variants.none (c : Thread nD τ) none) Set.univ
              (.op (.load cM (Rect.unit (s := S2x7x512x1024) ![d, s, 0, 0] S1x1x512x1024.size h).toLoadRect hl) k) Q) :=
  wp_load_rect Variants.none (c : Thread nD τ) none Set.univ (m := cM)
    (r := Rect.unit (s := S2x7x512x1024) ![d, s, 0, 0] S1x1x512x1024.size h) (cSl_set d s h).ge

/-- A load of slot d of the staging buffer from the region of the slot: the region is kept. -/
theorem load_stage (c : Dev nD) (d : ℕ)
    {h : ∀ a, (![d, 0, 0] : Fin 3 → ℕ) a + S1x512x1024.size a ≤ S2x512x1024.size a}
    {hl : (sM : Memref sig .tc .vmem S2x512x1024 .f32).view.LoadsAt
      (Rect.unit (s := S2x512x1024) ![d, 0, 0] S1x512x1024.size h).toLoadRect}
    {α : Type} {Q : α → sProp 𝕄}
    {k : ((Rect.unit (s := S2x512x1024) ![d, 0, 0] S1x512x1024.size h).shape.Idx → Elt F .f32)
      → Prog (TpuEff nD τ sig (Elt F) Λ₀ .tc) α}
    (g : Buf (Elt F) ((c : Thread nD τ).loc cc0_scratch1)) :
    (rpts c (sSl d h) fullShare g : sProp 𝕄)
      ⊢ iprop((rpts c (sSl d h) fullShare g
              -∗ wp frame (wpE (defs₀ (F := F)) Variants.none (c : Thread nD τ) none) Set.univ
                  (k ((sM.access (Rect.unit (s := S2x512x1024) ![d, 0, 0] S1x512x1024.size h)).read (Elt F) g)) Q)
          -∗ wp frame (wpE (defs₀ (F := F)) Variants.none (c : Thread nD τ) none) Set.univ
              (.op (.load sM (Rect.unit (s := S2x512x1024) ![d, 0, 0] S1x512x1024.size h).toLoadRect hl) k) Q) :=
  wp_load_rect Variants.none (c : Thread nD τ) none Set.univ (m := sM)
    (r := Rect.unit (s := S2x512x1024) ![d, 0, 0] S1x512x1024.size h) (sSl_set d h).ge

/-- A store of a whole slot (d, s) of the exchange buffer into the region of the slot: the region afterwards holds
    the slot rewritten. -/
theorem store_comm (c : Dev nD) (d s : ℕ)
    {h : ∀ a, (![d, s, 0, 0] : Fin 4 → ℕ) a + S1x1x512x1024.size a ≤ S2x7x512x1024.size a}
    {w : (Rect.unit (s := S2x7x512x1024) ![d, s, 0, 0] S1x1x512x1024.size h).shape.Idx → Elt F .f32}
    {hx : (cM.access (Rect.unit (s := S2x7x512x1024) ![d, s, 0, 0] S1x1x512x1024.size h)).Stores Finset.univ}
    {hm : (Finset.univ : Finset (Rect.unit (s := S2x7x512x1024) ![d, s, 0, 0] S1x1x512x1024.size h).shape.Idx) = Finset.univ
      ∨ ∀ a, (Rect.unit (s := S2x7x512x1024) ![d, s, 0, 0] S1x1x512x1024.size h).stride a = 1}
    {α : Type} {Q : α → sProp 𝕄} {k : PUnit → Prog (TpuEff nD τ sig (Elt F) Λ₀ .tc) α}
    (f : Buf (Elt F) ((c : Thread nD τ).loc cc0_scratch0)) :
    (rpts c (cSl d s h) fullShare f : sProp 𝕄)
      ⊢ iprop((rpts c (cSl d s h) fullShare
                ((cM.access (Rect.unit (s := S2x7x512x1024) ![d, s, 0, 0] S1x1x512x1024.size h)).write (Elt F) f w Finset.univ)
              -∗ wp frame (wpE (defs₀ (F := F)) Variants.none (c : Thread nD τ) none) Set.univ (k ⟨⟩) Q)
          -∗ wp frame (wpE (defs₀ (F := F)) Variants.none (c : Thread nD τ) none) Set.univ
              (.op (.store cM (Rect.unit (s := S2x7x512x1024) ![d, s, 0, 0] S1x1x512x1024.size h) w Finset.univ hx hm) k) Q) :=
  wp_store Variants.none (c : Thread nD τ) none Set.univ (m := cM)
    (r := Rect.unit (s := S2x7x512x1024) ![d, s, 0, 0] S1x1x512x1024.size h) (Mk := Finset.univ) (cSl_set d s h).ge

/-- info: 'Cert.KernelIdeal.Rules.copy_stage_1' depends on axioms: [propext, Classical.choice, Quot.sound] -/
#guard_msgs in #print axioms copy_stage_1

/-- info: 'Cert.KernelIdeal.Rules.copy_done_1' depends on axioms: [propext, Classical.choice, Quot.sound] -/
#guard_msgs in #print axioms copy_done_1

/-- info: 'Cert.KernelIdeal.Rules.store_comm' depends on axioms: [propext, Classical.choice, Quot.sound] -/
#guard_msgs in #print axioms store_comm

end Cert.KernelIdeal.Rules

end
-- ==== Proof.RulesSync.lean ====
/-
  The signals and the waits, as the program issues them. Each lemma is the library's rule at the certificate's
  schedule: a signal pays one duty of the peer's barrier cell and hands over that duty's payload; a wait for a whole
  round spends the round's credit and returns the round's payloads, the cell one round further.
-/
import proofs.«900727_g7700000000000728_dist_ar_v7x_xyz2x4x4_y_m16384_n1024_f32_1_alg».proof.Proof.Tables
import proofs.«900727_g7700000000000728_dist_ar_v7x_xyz2x4x4_y_m16384_n1024_f32_1_alg».proof.Proof.Levels

set_option maxRecDepth 16384

noncomputable section

namespace Cert.KernelIdeal.Rules

open Cert.KernelIdeal Cert.KernelIdeal.Gen Cert.KernelIdeal.Ring Cert.KernelIdeal.Cells Cert.KernelIdeal.Vals Cert.KernelIdeal.Sched
open Cert.KernelIdeal.State

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The signal to the barrier cell of the successor: duty 0 of that cell. -/
theorem signal_succ (K : Dev nD × Fin 91 → ℕ) (c n : Dev nD) (hn : n = succD c)
    {α : Type} {Q : α → sProp 𝕄} {k : PUnit → Prog (TpuEff nD τ sig (Elt F) Λ₀ .tc) α}
    (O : CellTallies nD τ sig Unit) (W : Waits sig Unit) :
    iprop(cellInv ER (sched m) (K (succD c, 0)) (barCell (succD c))
        ∗ owes (c : Thread nD τ) (O + tallyAt (barCell (succD c)) () 1) W
        ∗ dutyTok ER (barCell (succD c)) 0 0 ∗ give1 (F := F) c ∗ reached ER (barCell (succD c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← payload_bar0_succ m c]
  exact Rounds.wp_signal Variants.none ER (sched m) (c : Thread nD τ) none (dst := (succD c : Thread nD τ)) (sem := barS)
    (κ := K (succD c, 0)) (r := 0) (d := 0) (by rw [duties_bar]; exact Finset.mem_univ _)
    (amount_bar m (succD c) 0 0) () O rfl

/-- The signal to the barrier cell of the predecessor: duty 1 of that cell. -/
theorem signal_pred (K : Dev nD × Fin 91 → ℕ) (c n : Dev nD) (hn : n = predD c)
    {α : Type} {Q : α → sProp 𝕄} {k : PUnit → Prog (TpuEff nD τ sig (Elt F) Λ₀ .tc) α}
    (O : CellTallies nD τ sig Unit) (W : Waits sig Unit) :
    iprop(cellInv ER (sched m) (K (predD c, 0)) (barCell (predD c))
        ∗ owes (c : Thread nD τ) (O + tallyAt (barCell (predD c)) () 1) W
        ∗ dutyTok ER (barCell (predD c)) 0 1 ∗ give0 (F := F) c ∗ reached ER (barCell (predD c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← payload_bar1_pred m c]
  exact Rounds.wp_signal Variants.none ER (sched m) (c : Thread nD τ) none (dst := (predD c : Thread nD τ)) (sem := barS)
    (κ := K (predD c, 0)) (r := 0) (d := 1) (by rw [duties_bar]; exact Finset.mem_univ _)
    (amount_bar m (predD c) 0 1) () O rfl

/-- The signal to the barrier cell of the pair partner: duty 2 of that cell. -/
theorem signal_part (K : Dev nD × Fin 91 → ℕ) (c n : Dev nD) (hn : n = partD c)
    {α : Type} {Q : α → sProp 𝕄} {k : PUnit → Prog (TpuEff nD τ sig (Elt F) Λ₀ .tc) α}
    (O : CellTallies nD τ sig Unit) (W : Waits sig Unit) :
    iprop(cellInv ER (sched m) (K (partD c, 0)) (barCell (partD c))
        ∗ owes (c : Thread nD τ) (O + tallyAt (barCell (partD c)) () 1) W
        ∗ dutyTok ER (barCell (partD c)) 0 2 ∗ giveZ (F := F) c (partD c) ∗ reached ER (barCell (partD c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← payload_bar2_part m c]
  exact Rounds.wp_signal Variants.none ER (sched m) (c : Thread nD τ) none (dst := (partD c : Thread nD τ)) (sem := barS)
    (κ := K (partD c, 0)) (r := 0) (d := 2) (by rw [duties_bar]; exact Finset.mem_univ _)
    (amount_bar m (partD c) 0 2) () O rfl

/-- The wait for the three signals on the device's own barrier cell: the three payers' buffers come with it. -/
theorem wait_bar (K : Dev nD × Fin 91 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (sched m) (K (c, 0)) (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (.reg barS, ()) W) ∗ atPos ER (barCell c) 1 ∅ 0 ∗ reached ER (barCell c) 1
            ∗ (give1 (F := F) (predD c) ∗ give0 (F := F) (succD c) ∗ giveZ (F := F) (partD c) c))
          -∗ wp frame (wpE (defs₀ (F := F)) Variants.none (c : Thread nD τ) none) Set.univ (k ⟨⟩) Q)
          -∗ wp frame (wpE (defs₀ (F := F)) Variants.none (c : Thread nD τ) none) Set.univ (.op (.semWait barS 3) k) Q) := by
  rw [← rest_bar m c]
  exact Rounds.wp_wait_rest_token Variants.none ER (sched m) (c : Thread nD τ) none (κ := K (c, 0))
    (wpE_semWait_eq Variants.none (c : Thread nD τ) none Set.univ) (Set.mem_univ _) () (O := O) (W := W) (R := 0) (m := 0) (T := ∅)
    (by rw [expect_bar])

/-- A wait on a DMA cell with one round: the round's credit for the round's payload. -/
theorem wait_dma (K : Dev nD × Fin 91 → ℕ) (c : Dev nD) (i : ℕ) (hi : i < 88)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) :
    iprop(cellInv ER (sched m) (K (c, ⟨i + 1, by omega⟩)) (dcell c i (by omega)) ∗ cred (tallyAt (dcell c i (by omega)) () N)
        ∗ owes (c : Thread nD τ) O W ∗ MayWait (c : Thread nD τ) (.dma (dsem i (by omega))) () O
        ∗ atPos ER (dcell c i (by omega)) 0 ∅ 0)
      ⊢ iprop(((owes (c : Thread nD τ) O (insert (.dma (dsem i (by omega)), ()) W) ∗ atPos ER (dcell c i (by omega)) 1 ∅ 0
            ∗ reached ER (dcell c i (by omega)) 1 ∗ dmaPay m c i 0)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem i (by omega)) src dst hsrc hdst) k) Q) := by
  have hN : dst.view.dmaCredit = N := rfl
  rw [← rest_dma m c i hi, ← hN]
  exact Rounds.wp_wait_rest_token Variants.none ER (sched m) (c : Thread nD τ) none (κ := K (c, ⟨i + 1, by omega⟩))
    (sm := .dma (dsem i (by omega))) (k' := dst.view.dmaCredit)
    (wpE_waitDma2_eq Variants.none (c : Thread nD τ) none Set.univ) (Set.mem_univ _) () (O := O) (W := W) (R := 0) (m := 0) (T := ∅)
    (by rw [expect_dma m c i hi, Nat.zero_add]; exact hN)

/-- The same when nothing is owed. -/
theorem wait_dma0 (K : Dev nD × Fin 91 → ℕ) (c : Dev nD) (i : ℕ) (hi : i < 88)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α} (W : Waits sig Unit) :
    iprop(cellInv ER (sched m) (K (c, ⟨i + 1, by omega⟩)) (dcell c i (by omega)) ∗ cred (tallyAt (dcell c i (by omega)) () N)
        ∗ owes (c : Thread nD τ) 0 W ∗ atPos ER (dcell c i (by omega)) 0 ∅ 0)
      ⊢ iprop(((owes (c : Thread nD τ) 0 (insert (.dma (dsem i (by omega)), ()) W) ∗ atPos ER (dcell c i (by omega)) 1 ∅ 0
            ∗ reached ER (dcell c i (by omega)) 1 ∗ dmaPay m c i 0)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem i (by omega)) src dst hsrc hdst) k) Q) := by
  have h := wait_dma m K c i hi (src := src) (dst := dst) (hsrc := hsrc) (hdst := hdst) (Q := Q) (k := k) 0 W
  rw [MayWait_zero] at h
  iintro ⟨HI, Hc, HO, Hat⟩
  iapply h
  isplitl [HI]; · iexact HI
  isplitl [Hc]; · iexact Hc
  isplitl [HO]; · iexact HO
  isplitr; · iempintro
  iexact Hat

/-- A wait on the cell of the local copies of direction d, at round r. -/
theorem wait_local (K : Dev nD × Fin 91 → ℕ) (c : Dev nD) (d : ℕ) (hd : d < 2) (r : ℕ) (hr : r < 8)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) :
    iprop(cellInv ER (sched m) (K (c, ⟨88 + d + 1, by omega⟩)) (dcell c (88 + d) (by omega))
        ∗ cred (tallyAt (dcell c (88 + d) (by omega)) () N)
        ∗ owes (c : Thread nD τ) O W ∗ MayWait (c : Thread nD τ) (.dma (dsem (88 + d) (by omega))) () O
        ∗ atPos ER (dcell c (88 + d) (by omega)) r ∅ 0)
      ⊢ iprop(((owes (c : Thread nD τ) O (insert (.dma (dsem (88 + d) (by omega)), ()) W)
            ∗ atPos ER (dcell c (88 + d) (by omega)) (r + 1) ∅ 0
            ∗ reached ER (dcell c (88 + d) (by omega)) (r + 1) ∗ dmaPay m c (88 + d) r)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem (88 + d) (by omega)) src dst hsrc hdst) k) Q) := by
  have hN : dst.view.dmaCredit = N := rfl
  rw [← rest_local m c d hd r hr, ← hN]
  exact Rounds.wp_wait_rest_token Variants.none ER (sched m) (c : Thread nD τ) none (κ := K (c, ⟨88 + d + 1, by omega⟩))
    (sm := .dma (dsem (88 + d) (by omega))) (k' := dst.view.dmaCredit)
    (wpE_waitDma2_eq Variants.none (c : Thread nD τ) none Set.univ) (Set.mem_univ _) () (O := O) (W := W) (R := r) (m := 0) (T := ∅)
    (by rw [expect_local m c d hd r hr, Nat.zero_add]; exact hN)

/-- The same when nothing is owed. -/
theorem wait_local0 (K : Dev nD × Fin 91 → ℕ) (c : Dev nD) (d : ℕ) (hd : d < 2) (r : ℕ) (hr : r < 8)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α} (W : Waits sig Unit) :
    iprop(cellInv ER (sched m) (K (c, ⟨88 + d + 1, by omega⟩)) (dcell c (88 + d) (by omega))
        ∗ cred (tallyAt (dcell c (88 + d) (by omega)) () N)
        ∗ owes (c : Thread nD τ) 0 W ∗ atPos ER (dcell c (88 + d) (by omega)) r ∅ 0)
      ⊢ iprop(((owes (c : Thread nD τ) 0 (insert (.dma (dsem (88 + d) (by omega)), ()) W)
            ∗ atPos ER (dcell c (88 + d) (by omega)) (r + 1) ∅ 0
            ∗ reached ER (dcell c (88 + d) (by omega)) (r + 1) ∗ dmaPay m c (88 + d) r)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem (88 + d) (by omega)) src dst hsrc hdst) k) Q) := by
  have h := wait_local m K c d hd r hr (src := src) (dst := dst) (hsrc := hsrc) (hdst := hdst) (Q := Q) (k := k) 0 W
  rw [MayWait_zero] at h
  iintro ⟨HI, Hc, HO, Hat⟩
  iapply h
  isplitl [HI]; · iexact HI
  isplitl [Hc]; · iexact Hc
  isplitl [HO]; · iexact HO
  isplitr; · iempintro
  iexact Hat

/-- The wait on the barrier cell when nothing is owed. -/
theorem wait_bar0 (K : Dev nD × Fin 91 → ℕ) (c : Dev nD)
    {α : Type} {Q : α → sProp 𝕄} {k : PUnit → Prog (TpuEff nD τ sig (Elt F) Λ₀ .tc) α} (W : Waits sig Unit) :
    iprop(cellInv ER (sched m) (K (c, 0)) (barCell c) ∗ cred (tallyAt (barCell c) () 3) ∗ owes (c : Thread nD τ) 0 W
        ∗ atPos ER (barCell c) 0 ∅ 0)
      ⊢ iprop(((owes (c : Thread nD τ) 0 (insert (.reg barS, ()) W) ∗ atPos ER (barCell c) 1 ∅ 0 ∗ reached ER (barCell c) 1
            ∗ (give1 (F := F) (predD c) ∗ give0 (F := F) (succD c) ∗ giveZ (F := F) (partD c) c))
          -∗ wp frame (wpE (defs₀ (F := F)) Variants.none (c : Thread nD τ) none) Set.univ (k ⟨⟩) Q)
          -∗ wp frame (wpE (defs₀ (F := F)) Variants.none (c : Thread nD τ) none) Set.univ (.op (.semWait barS 3) k) Q) := by
  have h := wait_bar m K c (Q := Q) (k := k) 0 W
  rw [MayWait_zero] at h
  iintro ⟨HI, Hc, HO, Hat⟩
  iapply h
  isplitl [HI]; · iexact HI
  isplitl [Hc]; · iexact Hc
  isplitl [HO]; · iexact HO
  isplitr; · iempintro
  iexact Hat

/-- info: 'Cert.KernelIdeal.Rules.wait_local0' depends on axioms: [propext, Classical.choice, Quot.sound] -/
#guard_msgs in #print axioms wait_local0

/-- info: 'Cert.KernelIdeal.Rules.signal_part' depends on axioms: [propext, Classical.choice, Quot.sound] -/
#guard_msgs in #print axioms signal_part

end Cert.KernelIdeal.Rules

end
-- ==== Proof.Epilogue.lean ====
/-
  The end of a device's body. A region held whole is the same as its two half shares held together. A cell whose
  owner stands at a round from which no round has a duty, having consumed nothing of it, is closed by its owner,
  who keeps the counter at zero: a DMA cell other than the two of the local copies after its one round, those two
  after their eight. Closing the ninety DMA cells one after another, each under an update from the whole mask,
  leaves the ninety counters at zero, written as the separating conjunction over all indices.
-/
import proofs.«900727_g7700000000000728_dist_ar_v7x_xyz2x4x4_y_m16384_n1024_f32_1_alg».proof.Proof.Tables

set_option maxRecDepth 16384

noncomputable section

namespace Cert.KernelIdeal.Rules

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The two halves of a region -/

omit [FloatOps F] in
/-- A region held whole is held at its left and at its right half share. -/
theorem share_split (dev : Dev nD) {sp : Space} {s : Shape} (v : Memref sig .tc sp s .f32)
    (f : Buf (Elt F) (v.view.loc (dev : Thread nD τ))) :
    (rpts dev v fullShare f : sProp 𝕄) ⊢ iprop(rpts dev v fullShare.left f ∗ rpts dev v fullShare.right f) :=
  (pointsTo_share (PosShare.mem_left_op_right fullShare)).1

omit [FloatOps F] in
/-- The two half shares of a region make the region whole. -/
theorem share_join (dev : Dev nD) {sp : Space} {s : Shape} (v : Memref sig .tc sp s .f32)
    (f : Buf (Elt F) (v.view.loc (dev : Thread nD τ))) :
    iprop(rpts dev v fullShare.left f ∗ rpts dev v fullShare.right f) ⊢ (rpts dev v fullShare f : sProp 𝕄) :=
  (pointsTo_share (PosShare.mem_left_op_right fullShare)).2

/-! ## Closing a cell -/

/-- A DMA cell other than the two of the local copies, its owner past its one round. -/
theorem close_dma (κ : ℕ) (c : Dev nD) (i : ℕ) (hi : i < 88) :
    iprop(cellInv (ER (F := F)) (sched m) κ (dcell c i (by omega)) ∗ atPos (ER (F := F)) (dcell c i (by omega)) 1 ∅ 0)
      ⊢ iprop(|={Set.univ}=> semVal (dcell c i (by omega)) 0) :=
  Rounds.cell_close ER (sched m) (Set.mem_univ κ) (fun h => h) (duties_later_dma m c i hi)

/-- A cell of the local copies, its owner past its eight rounds. -/
theorem close_local (κ : ℕ) (c : Dev nD) (d : ℕ) (hd : d < 2) :
    iprop(cellInv (ER (F := F)) (sched m) κ (dcell c (88 + d) (by omega)) ∗ atPos (ER (F := F)) (dcell c (88 + d) (by omega)) 8 ∅ 0)
      ⊢ iprop(|={Set.univ}=> semVal (dcell c (88 + d) (by omega)) 0) :=
  Rounds.cell_close ER (sched m) (Set.mem_univ κ) (fun h => h) (duties_later_local m c d hd)

omit [FloatOps F] in
/-- Two closings side by side: the invariants on one side, the positions on the other. -/
theorem close_step {I P S Ir Pr Sr : sProp 𝕄} (h : iprop(I ∗ P) ⊢ iprop(|={Set.univ}=> S))
    (hr : iprop(Ir ∗ Pr) ⊢ iprop(|={Set.univ}=> Sr)) :
    iprop((I ∗ Ir) ∗ (P ∗ Pr)) ⊢ iprop(|={Set.univ}=> (S ∗ Sr)) :=
  (sep_sep_sep_comm.1.trans (sep_mono h hr)).trans fupd_sep

/-! ## The ninety counters -/

omit [FloatOps F] in
/-- The counters of a device's ninety DMA cells at zero, index by index. -/
theorem sems_chain (c : Dev nD) :
    bigSep Finset.univ (fun i : Fin 90 => (semVal (dcell c i.val i.isLt) 0 : sProp 𝕄))
      = iprop(semVal (dcell c 0) 0
          ∗ semVal (dcell c 1) 0
          ∗ semVal (dcell c 2) 0
          ∗ semVal (dcell c 3) 0
          ∗ semVal (dcell c 4) 0
          ∗ semVal (dcell c 5) 0
          ∗ semVal (dcell c 6) 0
          ∗ semVal (dcell c 7) 0
          ∗ semVal (dcell c 8) 0
          ∗ semVal (dcell c 9) 0
          ∗ semVal (dcell c 10) 0
          ∗ semVal (dcell c 11) 0
          ∗ semVal (dcell c 12) 0
          ∗ semVal (dcell c 13) 0
          ∗ semVal (dcell c 14) 0
          ∗ semVal (dcell c 15) 0
          ∗ semVal (dcell c 16) 0
          ∗ semVal (dcell c 17) 0
          ∗ semVal (dcell c 18) 0
          ∗ semVal (dcell c 19) 0
          ∗ semVal (dcell c 20) 0
          ∗ semVal (dcell c 21) 0
          ∗ semVal (dcell c 22) 0
          ∗ semVal (dcell c 23) 0
          ∗ semVal (dcell c 24) 0
          ∗ semVal (dcell c 25) 0
          ∗ semVal (dcell c 26) 0
          ∗ semVal (dcell c 27) 0
          ∗ semVal (dcell c 28) 0
          ∗ semVal (dcell c 29) 0
          ∗ semVal (dcell c 30) 0
          ∗ semVal (dcell c 31) 0
          ∗ semVal (dcell c 32) 0
          ∗ semVal (dcell c 33) 0
          ∗ semVal (dcell c 34) 0
          ∗ semVal (dcell c 35) 0
          ∗ semVal (dcell c 36) 0
          ∗ semVal (dcell c 37) 0
          ∗ semVal (dcell c 38) 0
          ∗ semVal (dcell c 39) 0
          ∗ semVal (dcell c 40) 0
          ∗ semVal (dcell c 41) 0
          ∗ semVal (dcell c 42) 0
          ∗ semVal (dcell c 43) 0
          ∗ semVal (dcell c 44) 0
          ∗ semVal (dcell c 45) 0
          ∗ semVal (dcell c 46) 0
          ∗ semVal (dcell c 47) 0
          ∗ semVal (dcell c 48) 0
          ∗ semVal (dcell c 49) 0
          ∗ semVal (dcell c 50) 0
          ∗ semVal (dcell c 51) 0
          ∗ semVal (dcell c 52) 0
          ∗ semVal (dcell c 53) 0
          ∗ semVal (dcell c 54) 0
          ∗ semVal (dcell c 55) 0
          ∗ semVal (dcell c 56) 0
          ∗ semVal (dcell c 57) 0
          ∗ semVal (dcell c 58) 0
          ∗ semVal (dcell c 59) 0
          ∗ semVal (dcell c 60) 0
          ∗ semVal (dcell c 61) 0
          ∗ semVal (dcell c 62) 0
          ∗ semVal (dcell c 63) 0
          ∗ semVal (dcell c 64) 0
          ∗ semVal (dcell c 65) 0
          ∗ semVal (dcell c 66) 0
          ∗ semVal (dcell c 67) 0
          ∗ semVal (dcell c 68) 0
          ∗ semVal (dcell c 69) 0
          ∗ semVal (dcell c 70) 0
          ∗ semVal (dcell c 71) 0
          ∗ semVal (dcell c 72) 0
          ∗ semVal (dcell c 73) 0
          ∗ semVal (dcell c 74) 0
          ∗ semVal (dcell c 75) 0
          ∗ semVal (dcell c 76) 0
          ∗ semVal (dcell c 77) 0
          ∗ semVal (dcell c 78) 0
          ∗ semVal (dcell c 79) 0
          ∗ semVal (dcell c 80) 0
          ∗ semVal (dcell c 81) 0
          ∗ semVal (dcell c 82) 0
          ∗ semVal (dcell c 83) 0
          ∗ semVal (dcell c 84) 0
          ∗ semVal (dcell c 85) 0
          ∗ semVal (dcell c 86) 0
          ∗ semVal (dcell c 87) 0
          ∗ semVal (dcell c 88) 0
          ∗ semVal (dcell c 89) 0) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89] (by decide) (by decide) _

/-- Every DMA cell of a device closed, its owner past the cell's last round: the ninety counters at zero. -/
theorem close_all (K : Dev nD × Fin 91 → ℕ) (c : Dev nD) :
    iprop((cellInv (ER (F := F)) (sched m) (K (c, 1)) (dcell c 0)
          ∗ cellInv (ER (F := F)) (sched m) (K (c, 2)) (dcell c 1)
          ∗ cellInv (ER (F := F)) (sched m) (K (c, 3)) (dcell c 2)
          ∗ cellInv (ER (F := F)) (sched m) (K (c, 4)) (dcell c 3)
          ∗ cellInv (ER (F := F)) (sched m) (K (c, 5)) (dcell c 4)
          ∗ cellInv (ER (F := F)) (sched m) (K (c, 6)) (dcell c 5)
          ∗ cellInv (ER (F := F)) (sched m) (K (c, 7)) (dcell c 6)
          ∗ cellInv (ER (F := F)) (sched m) (K (c, 8)) (dcell c 7)
          ∗ cellInv (ER (F := F)) (sched m) (K (c, 9)) (dcell c 8)
          ∗ cellInv (ER (F := F)) (sched m) (K (c, 10)) (dcell c 9)
          ∗ cellInv (ER (F := F)) (sched m) (K (c, 11)) (dcell c 10)
          ∗ cellInv (ER (F := F)) (sched m) (K (c, 12)) (dcell c 11)
          ∗ cellInv (ER (F := F)) (sched m) (K (c, 13)) (dcell c 12)
          ∗ cellInv (ER (F := F)) (sched m) (K (c, 14)) (dcell c 13)
          ∗ cellInv (ER (F := F)) (sched m) (K (c, 15)) (dcell c 14)
          ∗ cellInv (ER (F := F)) (sched m) (K (c, 16)) (dcell c 15)
          ∗ cellInv (ER (F := F)) (sched m) (K (c, 17)) (dcell c 16)
          ∗ cellInv (ER (F := F)) (sched m) (K (c, 18)) (dcell c 17)
          ∗ cellInv (ER (F := F)) (sched m) (K (c, 19)) (dcell c 18)
          ∗ cellInv (ER (F := F)) (sched m) (K (c, 20)) (dcell c 19)
          ∗ cellInv (ER (F := F)) (sched m) (K (c, 21)) (dcell c 20)
          ∗ cellInv (ER (F := F)) (sched m) (K (c, 22)) (dcell c 21)
          ∗ cellInv (ER (F := F)) (sched m) (K (c, 23)) (dcell c 22)
          ∗ cellInv (ER (F := F)) (sched m) (K (c, 24)) (dcell c 23)
          ∗ cellInv (ER (F := F)) (sched m) (K (c, 25)) (dcell c 24)
          ∗ cellInv (ER (F := F)) (sched m) (K (c, 26)) (dcell c 25)
          ∗ cellInv (ER (F := F)) (sched m) (K (c, 27)) (dcell c 26)
          ∗ cellInv (ER (F := F)) (sched m) (K (c, 28)) (dcell c 27)
          ∗ cellInv (ER (F := F)) (sched m) (K (c, 29)) (dcell c 28)
          ∗ cellInv (ER (F := F)) (sched m) (K (c, 30)) (dcell c 29)
          ∗ cellInv (ER (F := F)) (sched m) (K (c, 31)) (dcell c 30)
          ∗ cellInv (ER (F := F)) (sched m) (K (c, 32)) (dcell c 31)
          ∗ cellInv (ER (F := F)) (sched m) (K (c, 33)) (dcell c 32)
          ∗ cellInv (ER (F := F)) (sched m) (K (c, 34)) (dcell c 33)
          ∗ cellInv (ER (F := F)) (sched m) (K (c, 35)) (dcell c 34)
          ∗ cellInv (ER (F := F)) (sched m) (K (c, 36)) (dcell c 35)
          ∗ cellInv (ER (F := F)) (sched m) (K (c, 37)) (dcell c 36)
          ∗ cellInv (ER (F := F)) (sched m) (K (c, 38)) (dcell c 37)
          ∗ cellInv (ER (F := F)) (sched m) (K (c, 39)) (dcell c 38)
          ∗ cellInv (ER (F := F)) (sched m) (K (c, 40)) (dcell c 39)
          ∗ cellInv (ER (F := F)) (sched m) (K (c, 41)) (dcell c 40)
          ∗ cellInv (ER (F := F)) (sched m) (K (c, 42)) (dcell c 41)
          ∗ cellInv (ER (F := F)) (sched m) (K (c, 43)) (dcell c 42)
          ∗ cellInv (ER (F := F)) (sched m) (K (c, 44)) (dcell c 43)
          ∗ cellInv (ER (F := F)) (sched m) (K (c, 45)) (dcell c 44)
          ∗ cellInv (ER (F := F)) (sched m) (K (c, 46)) (dcell c 45)
          ∗ cellInv (ER (F := F)) (sched m) (K (c, 47)) (dcell c 46)
          ∗ cellInv (ER (F := F)) (sched m) (K (c, 48)) (dcell c 47)
          ∗ cellInv (ER (F := F)) (sched m) (K (c, 49)) (dcell c 48)
          ∗ cellInv (ER (F := F)) (sched m) (K (c, 50)) (dcell c 49)
          ∗ cellInv (ER (F := F)) (sched m) (K (c, 51)) (dcell c 50)
          ∗ cellInv (ER (F := F)) (sched m) (K (c, 52)) (dcell c 51)
          ∗ cellInv (ER (F := F)) (sched m) (K (c, 53)) (dcell c 52)
          ∗ cellInv (ER (F := F)) (sched m) (K (c, 54)) (dcell c 53)
          ∗ cellInv (ER (F := F)) (sched m) (K (c, 55)) (dcell c 54)
          ∗ cellInv (ER (F := F)) (sched m) (K (c, 56)) (dcell c 55)
          ∗ cellInv (ER (F := F)) (sched m) (K (c, 57)) (dcell c 56)
          ∗ cellInv (ER (F := F)) (sched m) (K (c, 58)) (dcell c 57)
          ∗ cellInv (ER (F := F)) (sched m) (K (c, 59)) (dcell c 58)
          ∗ cellInv (ER (F := F)) (sched m) (K (c, 60)) (dcell c 59)
          ∗ cellInv (ER (F := F)) (sched m) (K (c, 61)) (dcell c 60)
          ∗ cellInv (ER (F := F)) (sched m) (K (c, 62)) (dcell c 61)
          ∗ cellInv (ER (F := F)) (sched m) (K (c, 63)) (dcell c 62)
          ∗ cellInv (ER (F := F)) (sched m) (K (c, 64)) (dcell c 63)
          ∗ cellInv (ER (F := F)) (sched m) (K (c, 65)) (dcell c 64)
          ∗ cellInv (ER (F := F)) (sched m) (K (c, 66)) (dcell c 65)
          ∗ cellInv (ER (F := F)) (sched m) (K (c, 67)) (dcell c 66)
          ∗ cellInv (ER (F := F)) (sched m) (K (c, 68)) (dcell c 67)
          ∗ cellInv (ER (F := F)) (sched m) (K (c, 69)) (dcell c 68)
          ∗ cellInv (ER (F := F)) (sched m) (K (c, 70)) (dcell c 69)
          ∗ cellInv (ER (F := F)) (sched m) (K (c, 71)) (dcell c 70)
          ∗ cellInv (ER (F := F)) (sched m) (K (c, 72)) (dcell c 71)
          ∗ cellInv (ER (F := F)) (sched m) (K (c, 73)) (dcell c 72)
          ∗ cellInv (ER (F := F)) (sched m) (K (c, 74)) (dcell c 73)
          ∗ cellInv (ER (F := F)) (sched m) (K (c, 75)) (dcell c 74)
          ∗ cellInv (ER (F := F)) (sched m) (K (c, 76)) (dcell c 75)
          ∗ cellInv (ER (F := F)) (sched m) (K (c, 77)) (dcell c 76)
          ∗ cellInv (ER (F := F)) (sched m) (K (c, 78)) (dcell c 77)
          ∗ cellInv (ER (F := F)) (sched m) (K (c, 79)) (dcell c 78)
          ∗ cellInv (ER (F := F)) (sched m) (K (c, 80)) (dcell c 79)
          ∗ cellInv (ER (F := F)) (sched m) (K (c, 81)) (dcell c 80)
          ∗ cellInv (ER (F := F)) (sched m) (K (c, 82)) (dcell c 81)
          ∗ cellInv (ER (F := F)) (sched m) (K (c, 83)) (dcell c 82)
          ∗ cellInv (ER (F := F)) (sched m) (K (c, 84)) (dcell c 83)
          ∗ cellInv (ER (F := F)) (sched m) (K (c, 85)) (dcell c 84)
          ∗ cellInv (ER (F := F)) (sched m) (K (c, 86)) (dcell c 85)
          ∗ cellInv (ER (F := F)) (sched m) (K (c, 87)) (dcell c 86)
          ∗ cellInv (ER (F := F)) (sched m) (K (c, 88)) (dcell c 87)
          ∗ cellInv (ER (F := F)) (sched m) (K (c, 89)) (dcell c 88)
          ∗ cellInv (ER (F := F)) (sched m) (K (c, 90)) (dcell c 89))
        ∗ (atPos (ER (F := F)) (dcell c 0) 1 ∅ 0
          ∗ atPos (ER (F := F)) (dcell c 1) 1 ∅ 0
          ∗ atPos (ER (F := F)) (dcell c 2) 1 ∅ 0
          ∗ atPos (ER (F := F)) (dcell c 3) 1 ∅ 0
          ∗ atPos (ER (F := F)) (dcell c 4) 1 ∅ 0
          ∗ atPos (ER (F := F)) (dcell c 5) 1 ∅ 0
          ∗ atPos (ER (F := F)) (dcell c 6) 1 ∅ 0
          ∗ atPos (ER (F := F)) (dcell c 7) 1 ∅ 0
          ∗ atPos (ER (F := F)) (dcell c 8) 1 ∅ 0
          ∗ atPos (ER (F := F)) (dcell c 9) 1 ∅ 0
          ∗ atPos (ER (F := F)) (dcell c 10) 1 ∅ 0
          ∗ atPos (ER (F := F)) (dcell c 11) 1 ∅ 0
          ∗ atPos (ER (F := F)) (dcell c 12) 1 ∅ 0
          ∗ atPos (ER (F := F)) (dcell c 13) 1 ∅ 0
          ∗ atPos (ER (F := F)) (dcell c 14) 1 ∅ 0
          ∗ atPos (ER (F := F)) (dcell c 15) 1 ∅ 0
          ∗ atPos (ER (F := F)) (dcell c 16) 1 ∅ 0
          ∗ atPos (ER (F := F)) (dcell c 17) 1 ∅ 0
          ∗ atPos (ER (F := F)) (dcell c 18) 1 ∅ 0
          ∗ atPos (ER (F := F)) (dcell c 19) 1 ∅ 0
          ∗ atPos (ER (F := F)) (dcell c 20) 1 ∅ 0
          ∗ atPos (ER (F := F)) (dcell c 21) 1 ∅ 0
          ∗ atPos (ER (F := F)) (dcell c 22) 1 ∅ 0
          ∗ atPos (ER (F := F)) (dcell c 23) 1 ∅ 0
          ∗ atPos (ER (F := F)) (dcell c 24) 1 ∅ 0
          ∗ atPos (ER (F := F)) (dcell c 25) 1 ∅ 0
          ∗ atPos (ER (F := F)) (dcell c 26) 1 ∅ 0
          ∗ atPos (ER (F := F)) (dcell c 27) 1 ∅ 0
          ∗ atPos (ER (F := F)) (dcell c 28) 1 ∅ 0
          ∗ atPos (ER (F := F)) (dcell c 29) 1 ∅ 0
          ∗ atPos (ER (F := F)) (dcell c 30) 1 ∅ 0
          ∗ atPos (ER (F := F)) (dcell c 31) 1 ∅ 0
          ∗ atPos (ER (F := F)) (dcell c 32) 1 ∅ 0
          ∗ atPos (ER (F := F)) (dcell c 33) 1 ∅ 0
          ∗ atPos (ER (F := F)) (dcell c 34) 1 ∅ 0
          ∗ atPos (ER (F := F)) (dcell c 35) 1 ∅ 0
          ∗ atPos (ER (F := F)) (dcell c 36) 1 ∅ 0
          ∗ atPos (ER (F := F)) (dcell c 37) 1 ∅ 0
          ∗ atPos (ER (F := F)) (dcell c 38) 1 ∅ 0
          ∗ atPos (ER (F := F)) (dcell c 39) 1 ∅ 0
          ∗ atPos (ER (F := F)) (dcell c 40) 1 ∅ 0
          ∗ atPos (ER (F := F)) (dcell c 41) 1 ∅ 0
          ∗ atPos (ER (F := F)) (dcell c 42) 1 ∅ 0
          ∗ atPos (ER (F := F)) (dcell c 43) 1 ∅ 0
          ∗ atPos (ER (F := F)) (dcell c 44) 1 ∅ 0
          ∗ atPos (ER (F := F)) (dcell c 45) 1 ∅ 0
          ∗ atPos (ER (F := F)) (dcell c 46) 1 ∅ 0
          ∗ atPos (ER (F := F)) (dcell c 47) 1 ∅ 0
          ∗ atPos (ER (F := F)) (dcell c 48) 1 ∅ 0
          ∗ atPos (ER (F := F)) (dcell c 49) 1 ∅ 0
          ∗ atPos (ER (F := F)) (dcell c 50) 1 ∅ 0
          ∗ atPos (ER (F := F)) (dcell c 51) 1 ∅ 0
          ∗ atPos (ER (F := F)) (dcell c 52) 1 ∅ 0
          ∗ atPos (ER (F := F)) (dcell c 53) 1 ∅ 0
          ∗ atPos (ER (F := F)) (dcell c 54) 1 ∅ 0
          ∗ atPos (ER (F := F)) (dcell c 55) 1 ∅ 0
          ∗ atPos (ER (F := F)) (dcell c 56) 1 ∅ 0
          ∗ atPos (ER (F := F)) (dcell c 57) 1 ∅ 0
          ∗ atPos (ER (F := F)) (dcell c 58) 1 ∅ 0
          ∗ atPos (ER (F := F)) (dcell c 59) 1 ∅ 0
          ∗ atPos (ER (F := F)) (dcell c 60) 1 ∅ 0
          ∗ atPos (ER (F := F)) (dcell c 61) 1 ∅ 0
          ∗ atPos (ER (F := F)) (dcell c 62) 1 ∅ 0
          ∗ atPos (ER (F := F)) (dcell c 63) 1 ∅ 0
          ∗ atPos (ER (F := F)) (dcell c 64) 1 ∅ 0
          ∗ atPos (ER (F := F)) (dcell c 65) 1 ∅ 0
          ∗ atPos (ER (F := F)) (dcell c 66) 1 ∅ 0
          ∗ atPos (ER (F := F)) (dcell c 67) 1 ∅ 0
          ∗ atPos (ER (F := F)) (dcell c 68) 1 ∅ 0
          ∗ atPos (ER (F := F)) (dcell c 69) 1 ∅ 0
          ∗ atPos (ER (F := F)) (dcell c 70) 1 ∅ 0
          ∗ atPos (ER (F := F)) (dcell c 71) 1 ∅ 0
          ∗ atPos (ER (F := F)) (dcell c 72) 1 ∅ 0
          ∗ atPos (ER (F := F)) (dcell c 73) 1 ∅ 0
          ∗ atPos (ER (F := F)) (dcell c 74) 1 ∅ 0
          ∗ atPos (ER (F := F)) (dcell c 75) 1 ∅ 0
          ∗ atPos (ER (F := F)) (dcell c 76) 1 ∅ 0
          ∗ atPos (ER (F := F)) (dcell c 77) 1 ∅ 0
          ∗ atPos (ER (F := F)) (dcell c 78) 1 ∅ 0
          ∗ atPos (ER (F := F)) (dcell c 79) 1 ∅ 0
          ∗ atPos (ER (F := F)) (dcell c 80) 1 ∅ 0
          ∗ atPos (ER (F := F)) (dcell c 81) 1 ∅ 0
          ∗ atPos (ER (F := F)) (dcell c 82) 1 ∅ 0
          ∗ atPos (ER (F := F)) (dcell c 83) 1 ∅ 0
          ∗ atPos (ER (F := F)) (dcell c 84) 1 ∅ 0
          ∗ atPos (ER (F := F)) (dcell c 85) 1 ∅ 0
          ∗ atPos (ER (F := F)) (dcell c 86) 1 ∅ 0
          ∗ atPos (ER (F := F)) (dcell c 87) 1 ∅ 0
          ∗ atPos (ER (F := F)) (dcell c 88) 8 ∅ 0
          ∗ atPos (ER (F := F)) (dcell c 89) 8 ∅ 0))
      ⊢ iprop(|={Set.univ}=> bigSep Finset.univ (fun i : Fin 90 => (semVal (dcell c i.val i.isLt) 0 : sProp 𝕄))) := by
  rw [sems_chain c]
  exact (close_step (close_dma m (K (c, 1)) c 0 (by decide))
    (close_step (close_dma m (K (c, 2)) c 1 (by decide))
    (close_step (close_dma m (K (c, 3)) c 2 (by decide))
    (close_step (close_dma m (K (c, 4)) c 3 (by decide))
    (close_step (close_dma m (K (c, 5)) c 4 (by decide))
    (close_step (close_dma m (K (c, 6)) c 5 (by decide))
    (close_step (close_dma m (K (c, 7)) c 6 (by decide))
    (close_step (close_dma m (K (c, 8)) c 7 (by decide))
    (close_step (close_dma m (K (c, 9)) c 8 (by decide))
    (close_step (close_dma m (K (c, 10)) c 9 (by decide))
    (close_step (close_dma m (K (c, 11)) c 10 (by decide))
    (close_step (close_dma m (K (c, 12)) c 11 (by decide))
    (close_step (close_dma m (K (c, 13)) c 12 (by decide))
    (close_step (close_dma m (K (c, 14)) c 13 (by decide))
    (close_step (close_dma m (K (c, 15)) c 14 (by decide))
    (close_step (close_dma m (K (c, 16)) c 15 (by decide))
    (close_step (close_dma m (K (c, 17)) c 16 (by decide))
    (close_step (close_dma m (K (c, 18)) c 17 (by decide))
    (close_step (close_dma m (K (c, 19)) c 18 (by decide))
    (close_step (close_dma m (K (c, 20)) c 19 (by decide))
    (close_step (close_dma m (K (c, 21)) c 20 (by decide))
    (close_step (close_dma m (K (c, 22)) c 21 (by decide))
    (close_step (close_dma m (K (c, 23)) c 22 (by decide))
    (close_step (close_dma m (K (c, 24)) c 23 (by decide))
    (close_step (close_dma m (K (c, 25)) c 24 (by decide))
    (close_step (close_dma m (K (c, 26)) c 25 (by decide))
    (close_step (close_dma m (K (c, 27)) c 26 (by decide))
    (close_step (close_dma m (K (c, 28)) c 27 (by decide))
    (close_step (close_dma m (K (c, 29)) c 28 (by decide))
    (close_step (close_dma m (K (c, 30)) c 29 (by decide))
    (close_step (close_dma m (K (c, 31)) c 30 (by decide))
    (close_step (close_dma m (K (c, 32)) c 31 (by decide))
    (close_step (close_dma m (K (c, 33)) c 32 (by decide))
    (close_step (close_dma m (K (c, 34)) c 33 (by decide))
    (close_step (close_dma m (K (c, 35)) c 34 (by decide))
    (close_step (close_dma m (K (c, 36)) c 35 (by decide))
    (close_step (close_dma m (K (c, 37)) c 36 (by decide))
    (close_step (close_dma m (K (c, 38)) c 37 (by decide))
    (close_step (close_dma m (K (c, 39)) c 38 (by decide))
    (close_step (close_dma m (K (c, 40)) c 39 (by decide))
    (close_step (close_dma m (K (c, 41)) c 40 (by decide))
    (close_step (close_dma m (K (c, 42)) c 41 (by decide))
    (close_step (close_dma m (K (c, 43)) c 42 (by decide))
    (close_step (close_dma m (K (c, 44)) c 43 (by decide))
    (close_step (close_dma m (K (c, 45)) c 44 (by decide))
    (close_step (close_dma m (K (c, 46)) c 45 (by decide))
    (close_step (close_dma m (K (c, 47)) c 46 (by decide))
    (close_step (close_dma m (K (c, 48)) c 47 (by decide))
    (close_step (close_dma m (K (c, 49)) c 48 (by decide))
    (close_step (close_dma m (K (c, 50)) c 49 (by decide))
    (close_step (close_dma m (K (c, 51)) c 50 (by decide))
    (close_step (close_dma m (K (c, 52)) c 51 (by decide))
    (close_step (close_dma m (K (c, 53)) c 52 (by decide))
    (close_step (close_dma m (K (c, 54)) c 53 (by decide))
    (close_step (close_dma m (K (c, 55)) c 54 (by decide))
    (close_step (close_dma m (K (c, 56)) c 55 (by decide))
    (close_step (close_dma m (K (c, 57)) c 56 (by decide))
    (close_step (close_dma m (K (c, 58)) c 57 (by decide))
    (close_step (close_dma m (K (c, 59)) c 58 (by decide))
    (close_step (close_dma m (K (c, 60)) c 59 (by decide))
    (close_step (close_dma m (K (c, 61)) c 60 (by decide))
    (close_step (close_dma m (K (c, 62)) c 61 (by decide))
    (close_step (close_dma m (K (c, 63)) c 62 (by decide))
    (close_step (close_dma m (K (c, 64)) c 63 (by decide))
    (close_step (close_dma m (K (c, 65)) c 64 (by decide))
    (close_step (close_dma m (K (c, 66)) c 65 (by decide))
    (close_step (close_dma m (K (c, 67)) c 66 (by decide))
    (close_step (close_dma m (K (c, 68)) c 67 (by decide))
    (close_step (close_dma m (K (c, 69)) c 68 (by decide))
    (close_step (close_dma m (K (c, 70)) c 69 (by decide))
    (close_step (close_dma m (K (c, 71)) c 70 (by decide))
    (close_step (close_dma m (K (c, 72)) c 71 (by decide))
    (close_step (close_dma m (K (c, 73)) c 72 (by decide))
    (close_step (close_dma m (K (c, 74)) c 73 (by decide))
    (close_step (close_dma m (K (c, 75)) c 74 (by decide))
    (close_step (close_dma m (K (c, 76)) c 75 (by decide))
    (close_step (close_dma m (K (c, 77)) c 76 (by decide))
    (close_step (close_dma m (K (c, 78)) c 77 (by decide))
    (close_step (close_dma m (K (c, 79)) c 78 (by decide))
    (close_step (close_dma m (K (c, 80)) c 79 (by decide))
    (close_step (close_dma m (K (c, 81)) c 80 (by decide))
    (close_step (close_dma m (K (c, 82)) c 81 (by decide))
    (close_step (close_dma m (K (c, 83)) c 82 (by decide))
    (close_step (close_dma m (K (c, 84)) c 83 (by decide))
    (close_step (close_dma m (K (c, 85)) c 84 (by decide))
    (close_step (close_dma m (K (c, 86)) c 85 (by decide))
    (close_step (close_dma m (K (c, 87)) c 86 (by decide))
    (close_step (close_dma m (K (c, 88)) c 87 (by decide))
    (close_step (close_local m (K (c, 89)) c 0 (by decide))
    (close_local m (K (c, 90)) c 1 (by decide)))))))))))))))))))))))))))))))))))))))))))))))))))))))))))))))))))))))))))))))))))))))))))

/-- info: 'Cert.KernelIdeal.Rules.share_join' depends on axioms: [propext, Classical.choice, Quot.sound] -/
#guard_msgs in #print axioms share_join

/-- info: 'Cert.KernelIdeal.Rules.close_all' depends on axioms: [propext, Classical.choice, Quot.sound] -/
#guard_msgs in #print axioms close_all

end Cert.KernelIdeal.Rules

end
-- ==== Proof.Proj.lean ====
/-
  The invariants a device's body holds are one separating conjunction of 138 persistent assertions: the device's
  own barrier cell and 90 DMA cells, the barrier cells of its three peers, and the 14 + 14 + 16 arrival cells of
  its peers that it copies into. The conjunction is persistent, and each conjunct follows from it: the conjunct at
  position k is reached by dropping the k conjuncts before it and everything after it.
-/
import proofs.«900727_g7700000000000728_dist_ar_v7x_xyz2x4x4_y_m16384_n1024_f32_1_alg».proof.Proof.State

set_option maxRecDepth 16384

noncomputable section

namespace Cert.KernelIdeal.State

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option synthInstance.maxSize 8192 in
set_option synthInstance.maxHeartbeats 400000 in
instance invs_persistent (K : Dev nD × Fin 91 → ℕ) (c : Dev nD) : BI.Persistent (State.invs m K c) := by
  unfold State.invs; infer_instance

omit [FloatOps F] in
/-- The left and the right conjunct of a separating conjunction. -/
theorem sepL {P Q : sProp 𝕄} : iprop(P ∗ Q) ⊢ P := Idealize.SL.BI.sep_and.trans Idealize.SL.BI.and_elimL
omit [FloatOps F] in
theorem sepR {P Q : sProp 𝕄} : iprop(P ∗ Q) ⊢ Q := Idealize.SL.BI.sep_and.trans Idealize.SL.BI.and_elimR

theorem inv_bar (K : Dev nD × Fin 91 → ℕ) (c : Dev nD) :
    State.invs m K c ⊢ cellInv (ER (F := F)) (sched m) (K (c, 0)) (barCell c) := by
  unfold State.invs
  exact sepL
theorem inv_own_0 (K : Dev nD × Fin 91 → ℕ) (c : Dev nD) :
    State.invs m K c ⊢ cellInv (ER (F := F)) (sched m) (K (c, 1)) (dcell c 0) := by
  unfold State.invs
  iterate 1 (refine BI.Entails.trans sepR ?_)
  exact sepL
theorem inv_own_1 (K : Dev nD × Fin 91 → ℕ) (c : Dev nD) :
    State.invs m K c ⊢ cellInv (ER (F := F)) (sched m) (K (c, 2)) (dcell c 1) := by
  unfold State.invs
  iterate 2 (refine BI.Entails.trans sepR ?_)
  exact sepL
theorem inv_own_2 (K : Dev nD × Fin 91 → ℕ) (c : Dev nD) :
    State.invs m K c ⊢ cellInv (ER (F := F)) (sched m) (K (c, 3)) (dcell c 2) := by
  unfold State.invs
  iterate 3 (refine BI.Entails.trans sepR ?_)
  exact sepL
theorem inv_own_3 (K : Dev nD × Fin 91 → ℕ) (c : Dev nD) :
    State.invs m K c ⊢ cellInv (ER (F := F)) (sched m) (K (c, 4)) (dcell c 3) := by
  unfold State.invs
  iterate 4 (refine BI.Entails.trans sepR ?_)
  exact sepL
theorem inv_own_4 (K : Dev nD × Fin 91 → ℕ) (c : Dev nD) :
    State.invs m K c ⊢ cellInv (ER (F := F)) (sched m) (K (c, 5)) (dcell c 4) := by
  unfold State.invs
  iterate 5 (refine BI.Entails.trans sepR ?_)
  exact sepL
theorem inv_own_5 (K : Dev nD × Fin 91 → ℕ) (c : Dev nD) :
    State.invs m K c ⊢ cellInv (ER (F := F)) (sched m) (K (c, 6)) (dcell c 5) := by
  unfold State.invs
  iterate 6 (refine BI.Entails.trans sepR ?_)
  exact sepL
theorem inv_own_6 (K : Dev nD × Fin 91 → ℕ) (c : Dev nD) :
    State.invs m K c ⊢ cellInv (ER (F := F)) (sched m) (K (c, 7)) (dcell c 6) := by
  unfold State.invs
  iterate 7 (refine BI.Entails.trans sepR ?_)
  exact sepL
theorem inv_own_7 (K : Dev nD × Fin 91 → ℕ) (c : Dev nD) :
    State.invs m K c ⊢ cellInv (ER (F := F)) (sched m) (K (c, 8)) (dcell c 7) := by
  unfold State.invs
  iterate 8 (refine BI.Entails.trans sepR ?_)
  exact sepL
theorem inv_own_8 (K : Dev nD × Fin 91 → ℕ) (c : Dev nD) :
    State.invs m K c ⊢ cellInv (ER (F := F)) (sched m) (K (c, 9)) (dcell c 8) := by
  unfold State.invs
  iterate 9 (refine BI.Entails.trans sepR ?_)
  exact sepL
theorem inv_own_9 (K : Dev nD × Fin 91 → ℕ) (c : Dev nD) :
    State.invs m K c ⊢ cellInv (ER (F := F)) (sched m) (K (c, 10)) (dcell c 9) := by
  unfold State.invs
  iterate 10 (refine BI.Entails.trans sepR ?_)
  exact sepL
theorem inv_own_10 (K : Dev nD × Fin 91 → ℕ) (c : Dev nD) :
    State.invs m K c ⊢ cellInv (ER (F := F)) (sched m) (K (c, 11)) (dcell c 10) := by
  unfold State.invs
  iterate 11 (refine BI.Entails.trans sepR ?_)
  exact sepL
theorem inv_own_11 (K : Dev nD × Fin 91 → ℕ) (c : Dev nD) :
    State.invs m K c ⊢ cellInv (ER (F := F)) (sched m) (K (c, 12)) (dcell c 11) := by
  unfold State.invs
  iterate 12 (refine BI.Entails.trans sepR ?_)
  exact sepL
theorem inv_own_12 (K : Dev nD × Fin 91 → ℕ) (c : Dev nD) :
    State.invs m K c ⊢ cellInv (ER (F := F)) (sched m) (K (c, 13)) (dcell c 12) := by
  unfold State.invs
  iterate 13 (refine BI.Entails.trans sepR ?_)
  exact sepL
theorem inv_own_13 (K : Dev nD × Fin 91 → ℕ) (c : Dev nD) :
    State.invs m K c ⊢ cellInv (ER (F := F)) (sched m) (K (c, 14)) (dcell c 13) := by
  unfold State.invs
  iterate 14 (refine BI.Entails.trans sepR ?_)
  exact sepL
theorem inv_own_14 (K : Dev nD × Fin 91 → ℕ) (c : Dev nD) :
    State.invs m K c ⊢ cellInv (ER (F := F)) (sched m) (K (c, 15)) (dcell c 14) := by
  unfold State.invs
  iterate 15 (refine BI.Entails.trans sepR ?_)
  exact sepL
theorem inv_own_15 (K : Dev nD × Fin 91 → ℕ) (c : Dev nD) :
    State.invs m K c ⊢ cellInv (ER (F := F)) (sched m) (K (c, 16)) (dcell c 15) := by
  unfold State.invs
  iterate 16 (refine BI.Entails.trans sepR ?_)
  exact sepL
theorem inv_own_16 (K : Dev nD × Fin 91 → ℕ) (c : Dev nD) :
    State.invs m K c ⊢ cellInv (ER (F := F)) (sched m) (K (c, 17)) (dcell c 16) := by
  unfold State.invs
  iterate 17 (refine BI.Entails.trans sepR ?_)
  exact sepL
theorem inv_own_17 (K : Dev nD × Fin 91 → ℕ) (c : Dev nD) :
    State.invs m K c ⊢ cellInv (ER (F := F)) (sched m) (K (c, 18)) (dcell c 17) := by
  unfold State.invs
  iterate 18 (refine BI.Entails.trans sepR ?_)
  exact sepL
theorem inv_own_18 (K : Dev nD × Fin 91 → ℕ) (c : Dev nD) :
    State.invs m K c ⊢ cellInv (ER (F := F)) (sched m) (K (c, 19)) (dcell c 18) := by
  unfold State.invs
  iterate 19 (refine BI.Entails.trans sepR ?_)
  exact sepL
theorem inv_own_19 (K : Dev nD × Fin 91 → ℕ) (c : Dev nD) :
    State.invs m K c ⊢ cellInv (ER (F := F)) (sched m) (K (c, 20)) (dcell c 19) := by
  unfold State.invs
  iterate 20 (refine BI.Entails.trans sepR ?_)
  exact sepL
theorem inv_own_20 (K : Dev nD × Fin 91 → ℕ) (c : Dev nD) :
    State.invs m K c ⊢ cellInv (ER (F := F)) (sched m) (K (c, 21)) (dcell c 20) := by
  unfold State.invs
  iterate 21 (refine BI.Entails.trans sepR ?_)
  exact sepL
theorem inv_own_21 (K : Dev nD × Fin 91 → ℕ) (c : Dev nD) :
    State.invs m K c ⊢ cellInv (ER (F := F)) (sched m) (K (c, 22)) (dcell c 21) := by
  unfold State.invs
  iterate 22 (refine BI.Entails.trans sepR ?_)
  exact sepL
theorem inv_own_22 (K : Dev nD × Fin 91 → ℕ) (c : Dev nD) :
    State.invs m K c ⊢ cellInv (ER (F := F)) (sched m) (K (c, 23)) (dcell c 22) := by
  unfold State.invs
  iterate 23 (refine BI.Entails.trans sepR ?_)
  exact sepL
theorem inv_own_23 (K : Dev nD × Fin 91 → ℕ) (c : Dev nD) :
    State.invs m K c ⊢ cellInv (ER (F := F)) (sched m) (K (c, 24)) (dcell c 23) := by
  unfold State.invs
  iterate 24 (refine BI.Entails.trans sepR ?_)
  exact sepL
theorem inv_own_24 (K : Dev nD × Fin 91 → ℕ) (c : Dev nD) :
    State.invs m K c ⊢ cellInv (ER (F := F)) (sched m) (K (c, 25)) (dcell c 24) := by
  unfold State.invs
  iterate 25 (refine BI.Entails.trans sepR ?_)
  exact sepL
theorem inv_own_25 (K : Dev nD × Fin 91 → ℕ) (c : Dev nD) :
    State.invs m K c ⊢ cellInv (ER (F := F)) (sched m) (K (c, 26)) (dcell c 25) := by
  unfold State.invs
  iterate 26 (refine BI.Entails.trans sepR ?_)
  exact sepL
theorem inv_own_26 (K : Dev nD × Fin 91 → ℕ) (c : Dev nD) :
    State.invs m K c ⊢ cellInv (ER (F := F)) (sched m) (K (c, 27)) (dcell c 26) := by
  unfold State.invs
  iterate 27 (refine BI.Entails.trans sepR ?_)
  exact sepL
theorem inv_own_27 (K : Dev nD × Fin 91 → ℕ) (c : Dev nD) :
    State.invs m K c ⊢ cellInv (ER (F := F)) (sched m) (K (c, 28)) (dcell c 27) := by
  unfold State.invs
  iterate 28 (refine BI.Entails.trans sepR ?_)
  exact sepL
theorem inv_own_28 (K : Dev nD × Fin 91 → ℕ) (c : Dev nD) :
    State.invs m K c ⊢ cellInv (ER (F := F)) (sched m) (K (c, 29)) (dcell c 28) := by
  unfold State.invs
  iterate 29 (refine BI.Entails.trans sepR ?_)
  exact sepL
theorem inv_own_29 (K : Dev nD × Fin 91 → ℕ) (c : Dev nD) :
    State.invs m K c ⊢ cellInv (ER (F := F)) (sched m) (K (c, 30)) (dcell c 29) := by
  unfold State.invs
  iterate 30 (refine BI.Entails.trans sepR ?_)
  exact sepL
theorem inv_own_30 (K : Dev nD × Fin 91 → ℕ) (c : Dev nD) :
    State.invs m K c ⊢ cellInv (ER (F := F)) (sched m) (K (c, 31)) (dcell c 30) := by
  unfold State.invs
  iterate 31 (refine BI.Entails.trans sepR ?_)
  exact sepL
theorem inv_own_31 (K : Dev nD × Fin 91 → ℕ) (c : Dev nD) :
    State.invs m K c ⊢ cellInv (ER (F := F)) (sched m) (K (c, 32)) (dcell c 31) := by
  unfold State.invs
  iterate 32 (refine BI.Entails.trans sepR ?_)
  exact sepL
theorem inv_own_32 (K : Dev nD × Fin 91 → ℕ) (c : Dev nD) :
    State.invs m K c ⊢ cellInv (ER (F := F)) (sched m) (K (c, 33)) (dcell c 32) := by
  unfold State.invs
  iterate 33 (refine BI.Entails.trans sepR ?_)
  exact sepL
theorem inv_own_33 (K : Dev nD × Fin 91 → ℕ) (c : Dev nD) :
    State.invs m K c ⊢ cellInv (ER (F := F)) (sched m) (K (c, 34)) (dcell c 33) := by
  unfold State.invs
  iterate 34 (refine BI.Entails.trans sepR ?_)
  exact sepL
theorem inv_own_34 (K : Dev nD × Fin 91 → ℕ) (c : Dev nD) :
    State.invs m K c ⊢ cellInv (ER (F := F)) (sched m) (K (c, 35)) (dcell c 34) := by
  unfold State.invs
  iterate 35 (refine BI.Entails.trans sepR ?_)
  exact sepL
theorem inv_own_35 (K : Dev nD × Fin 91 → ℕ) (c : Dev nD) :
    State.invs m K c ⊢ cellInv (ER (F := F)) (sched m) (K (c, 36)) (dcell c 35) := by
  unfold State.invs
  iterate 36 (refine BI.Entails.trans sepR ?_)
  exact sepL
theorem inv_own_36 (K : Dev nD × Fin 91 → ℕ) (c : Dev nD) :
    State.invs m K c ⊢ cellInv (ER (F := F)) (sched m) (K (c, 37)) (dcell c 36) := by
  unfold State.invs
  iterate 37 (refine BI.Entails.trans sepR ?_)
  exact sepL
theorem inv_own_37 (K : Dev nD × Fin 91 → ℕ) (c : Dev nD) :
    State.invs m K c ⊢ cellInv (ER (F := F)) (sched m) (K (c, 38)) (dcell c 37) := by
  unfold State.invs
  iterate 38 (refine BI.Entails.trans sepR ?_)
  exact sepL
theorem inv_own_38 (K : Dev nD × Fin 91 → ℕ) (c : Dev nD) :
    State.invs m K c ⊢ cellInv (ER (F := F)) (sched m) (K (c, 39)) (dcell c 38) := by
  unfold State.invs
  iterate 39 (refine BI.Entails.trans sepR ?_)
  exact sepL
theorem inv_own_39 (K : Dev nD × Fin 91 → ℕ) (c : Dev nD) :
    State.invs m K c ⊢ cellInv (ER (F := F)) (sched m) (K (c, 40)) (dcell c 39) := by
  unfold State.invs
  iterate 40 (refine BI.Entails.trans sepR ?_)
  exact sepL
theorem inv_own_40 (K : Dev nD × Fin 91 → ℕ) (c : Dev nD) :
    State.invs m K c ⊢ cellInv (ER (F := F)) (sched m) (K (c, 41)) (dcell c 40) := by
  unfold State.invs
  iterate 41 (refine BI.Entails.trans sepR ?_)
  exact sepL
theorem inv_own_41 (K : Dev nD × Fin 91 → ℕ) (c : Dev nD) :
    State.invs m K c ⊢ cellInv (ER (F := F)) (sched m) (K (c, 42)) (dcell c 41) := by
  unfold State.invs
  iterate 42 (refine BI.Entails.trans sepR ?_)
  exact sepL
theorem inv_own_42 (K : Dev nD × Fin 91 → ℕ) (c : Dev nD) :
    State.invs m K c ⊢ cellInv (ER (F := F)) (sched m) (K (c, 43)) (dcell c 42) := by
  unfold State.invs
  iterate 43 (refine BI.Entails.trans sepR ?_)
  exact sepL
theorem inv_own_43 (K : Dev nD × Fin 91 → ℕ) (c : Dev nD) :
    State.invs m K c ⊢ cellInv (ER (F := F)) (sched m) (K (c, 44)) (dcell c 43) := by
  unfold State.invs
  iterate 44 (refine BI.Entails.trans sepR ?_)
  exact sepL
theorem inv_own_44 (K : Dev nD × Fin 91 → ℕ) (c : Dev nD) :
    State.invs m K c ⊢ cellInv (ER (F := F)) (sched m) (K (c, 45)) (dcell c 44) := by
  unfold State.invs
  iterate 45 (refine BI.Entails.trans sepR ?_)
  exact sepL
theorem inv_own_45 (K : Dev nD × Fin 91 → ℕ) (c : Dev nD) :
    State.invs m K c ⊢ cellInv (ER (F := F)) (sched m) (K (c, 46)) (dcell c 45) := by
  unfold State.invs
  iterate 46 (refine BI.Entails.trans sepR ?_)
  exact sepL
theorem inv_own_46 (K : Dev nD × Fin 91 → ℕ) (c : Dev nD) :
    State.invs m K c ⊢ cellInv (ER (F := F)) (sched m) (K (c, 47)) (dcell c 46) := by
  unfold State.invs
  iterate 47 (refine BI.Entails.trans sepR ?_)
  exact sepL
theorem inv_own_47 (K : Dev nD × Fin 91 → ℕ) (c : Dev nD) :
    State.invs m K c ⊢ cellInv (ER (F := F)) (sched m) (K (c, 48)) (dcell c 47) := by
  unfold State.invs
  iterate 48 (refine BI.Entails.trans sepR ?_)
  exact sepL
theorem inv_own_48 (K : Dev nD × Fin 91 → ℕ) (c : Dev nD) :
    State.invs m K c ⊢ cellInv (ER (F := F)) (sched m) (K (c, 49)) (dcell c 48) := by
  unfold State.invs
  iterate 49 (refine BI.Entails.trans sepR ?_)
  exact sepL
theorem inv_own_49 (K : Dev nD × Fin 91 → ℕ) (c : Dev nD) :
    State.invs m K c ⊢ cellInv (ER (F := F)) (sched m) (K (c, 50)) (dcell c 49) := by
  unfold State.invs
  iterate 50 (refine BI.Entails.trans sepR ?_)
  exact sepL
theorem inv_own_50 (K : Dev nD × Fin 91 → ℕ) (c : Dev nD) :
    State.invs m K c ⊢ cellInv (ER (F := F)) (sched m) (K (c, 51)) (dcell c 50) := by
  unfold State.invs
  iterate 51 (refine BI.Entails.trans sepR ?_)
  exact sepL
theorem inv_own_51 (K : Dev nD × Fin 91 → ℕ) (c : Dev nD) :
    State.invs m K c ⊢ cellInv (ER (F := F)) (sched m) (K (c, 52)) (dcell c 51) := by
  unfold State.invs
  iterate 52 (refine BI.Entails.trans sepR ?_)
  exact sepL
theorem inv_own_52 (K : Dev nD × Fin 91 → ℕ) (c : Dev nD) :
    State.invs m K c ⊢ cellInv (ER (F := F)) (sched m) (K (c, 53)) (dcell c 52) := by
  unfold State.invs
  iterate 53 (refine BI.Entails.trans sepR ?_)
  exact sepL
theorem inv_own_53 (K : Dev nD × Fin 91 → ℕ) (c : Dev nD) :
    State.invs m K c ⊢ cellInv (ER (F := F)) (sched m) (K (c, 54)) (dcell c 53) := by
  unfold State.invs
  iterate 54 (refine BI.Entails.trans sepR ?_)
  exact sepL
theorem inv_own_54 (K : Dev nD × Fin 91 → ℕ) (c : Dev nD) :
    State.invs m K c ⊢ cellInv (ER (F := F)) (sched m) (K (c, 55)) (dcell c 54) := by
  unfold State.invs
  iterate 55 (refine BI.Entails.trans sepR ?_)
  exact sepL
theorem inv_own_55 (K : Dev nD × Fin 91 → ℕ) (c : Dev nD) :
    State.invs m K c ⊢ cellInv (ER (F := F)) (sched m) (K (c, 56)) (dcell c 55) := by
  unfold State.invs
  iterate 56 (refine BI.Entails.trans sepR ?_)
  exact sepL
theorem inv_own_56 (K : Dev nD × Fin 91 → ℕ) (c : Dev nD) :
    State.invs m K c ⊢ cellInv (ER (F := F)) (sched m) (K (c, 57)) (dcell c 56) := by
  unfold State.invs
  iterate 57 (refine BI.Entails.trans sepR ?_)
  exact sepL
theorem inv_own_57 (K : Dev nD × Fin 91 → ℕ) (c : Dev nD) :
    State.invs m K c ⊢ cellInv (ER (F := F)) (sched m) (K (c, 58)) (dcell c 57) := by
  unfold State.invs
  iterate 58 (refine BI.Entails.trans sepR ?_)
  exact sepL
theorem inv_own_58 (K : Dev nD × Fin 91 → ℕ) (c : Dev nD) :
    State.invs m K c ⊢ cellInv (ER (F := F)) (sched m) (K (c, 59)) (dcell c 58) := by
  unfold State.invs
  iterate 59 (refine BI.Entails.trans sepR ?_)
  exact sepL
theorem inv_own_59 (K : Dev nD × Fin 91 → ℕ) (c : Dev nD) :
    State.invs m K c ⊢ cellInv (ER (F := F)) (sched m) (K (c, 60)) (dcell c 59) := by
  unfold State.invs
  iterate 60 (refine BI.Entails.trans sepR ?_)
  exact sepL
theorem inv_own_60 (K : Dev nD × Fin 91 → ℕ) (c : Dev nD) :
    State.invs m K c ⊢ cellInv (ER (F := F)) (sched m) (K (c, 61)) (dcell c 60) := by
  unfold State.invs
  iterate 61 (refine BI.Entails.trans sepR ?_)
  exact sepL
theorem inv_own_61 (K : Dev nD × Fin 91 → ℕ) (c : Dev nD) :
    State.invs m K c ⊢ cellInv (ER (F := F)) (sched m) (K (c, 62)) (dcell c 61) := by
  unfold State.invs
  iterate 62 (refine BI.Entails.trans sepR ?_)
  exact sepL
theorem inv_own_62 (K : Dev nD × Fin 91 → ℕ) (c : Dev nD) :
    State.invs m K c ⊢ cellInv (ER (F := F)) (sched m) (K (c, 63)) (dcell c 62) := by
  unfold State.invs
  iterate 63 (refine BI.Entails.trans sepR ?_)
  exact sepL
theorem inv_own_63 (K : Dev nD × Fin 91 → ℕ) (c : Dev nD) :
    State.invs m K c ⊢ cellInv (ER (F := F)) (sched m) (K (c, 64)) (dcell c 63) := by
  unfold State.invs
  iterate 64 (refine BI.Entails.trans sepR ?_)
  exact sepL
theorem inv_own_64 (K : Dev nD × Fin 91 → ℕ) (c : Dev nD) :
    State.invs m K c ⊢ cellInv (ER (F := F)) (sched m) (K (c, 65)) (dcell c 64) := by
  unfold State.invs
  iterate 65 (refine BI.Entails.trans sepR ?_)
  exact sepL
theorem inv_own_65 (K : Dev nD × Fin 91 → ℕ) (c : Dev nD) :
    State.invs m K c ⊢ cellInv (ER (F := F)) (sched m) (K (c, 66)) (dcell c 65) := by
  unfold State.invs
  iterate 66 (refine BI.Entails.trans sepR ?_)
  exact sepL
theorem inv_own_66 (K : Dev nD × Fin 91 → ℕ) (c : Dev nD) :
    State.invs m K c ⊢ cellInv (ER (F := F)) (sched m) (K (c, 67)) (dcell c 66) := by
  unfold State.invs
  iterate 67 (refine BI.Entails.trans sepR ?_)
  exact sepL
theorem inv_own_67 (K : Dev nD × Fin 91 → ℕ) (c : Dev nD) :
    State.invs m K c ⊢ cellInv (ER (F := F)) (sched m) (K (c, 68)) (dcell c 67) := by
  unfold State.invs
  iterate 68 (refine BI.Entails.trans sepR ?_)
  exact sepL
theorem inv_own_68 (K : Dev nD × Fin 91 → ℕ) (c : Dev nD) :
    State.invs m K c ⊢ cellInv (ER (F := F)) (sched m) (K (c, 69)) (dcell c 68) := by
  unfold State.invs
  iterate 69 (refine BI.Entails.trans sepR ?_)
  exact sepL
theorem inv_own_69 (K : Dev nD × Fin 91 → ℕ) (c : Dev nD) :
    State.invs m K c ⊢ cellInv (ER (F := F)) (sched m) (K (c, 70)) (dcell c 69) := by
  unfold State.invs
  iterate 70 (refine BI.Entails.trans sepR ?_)
  exact sepL
theorem inv_own_70 (K : Dev nD × Fin 91 → ℕ) (c : Dev nD) :
    State.invs m K c ⊢ cellInv (ER (F := F)) (sched m) (K (c, 71)) (dcell c 70) := by
  unfold State.invs
  iterate 71 (refine BI.Entails.trans sepR ?_)
  exact sepL
theorem inv_own_71 (K : Dev nD × Fin 91 → ℕ) (c : Dev nD) :
    State.invs m K c ⊢ cellInv (ER (F := F)) (sched m) (K (c, 72)) (dcell c 71) := by
  unfold State.invs
  iterate 72 (refine BI.Entails.trans sepR ?_)
  exact sepL
theorem inv_own_72 (K : Dev nD × Fin 91 → ℕ) (c : Dev nD) :
    State.invs m K c ⊢ cellInv (ER (F := F)) (sched m) (K (c, 73)) (dcell c 72) := by
  unfold State.invs
  iterate 73 (refine BI.Entails.trans sepR ?_)
  exact sepL
theorem inv_own_73 (K : Dev nD × Fin 91 → ℕ) (c : Dev nD) :
    State.invs m K c ⊢ cellInv (ER (F := F)) (sched m) (K (c, 74)) (dcell c 73) := by
  unfold State.invs
  iterate 74 (refine BI.Entails.trans sepR ?_)
  exact sepL
theorem inv_own_74 (K : Dev nD × Fin 91 → ℕ) (c : Dev nD) :
    State.invs m K c ⊢ cellInv (ER (F := F)) (sched m) (K (c, 75)) (dcell c 74) := by
  unfold State.invs
  iterate 75 (refine BI.Entails.trans sepR ?_)
  exact sepL
theorem inv_own_75 (K : Dev nD × Fin 91 → ℕ) (c : Dev nD) :
    State.invs m K c ⊢ cellInv (ER (F := F)) (sched m) (K (c, 76)) (dcell c 75) := by
  unfold State.invs
  iterate 76 (refine BI.Entails.trans sepR ?_)
  exact sepL
theorem inv_own_76 (K : Dev nD × Fin 91 → ℕ) (c : Dev nD) :
    State.invs m K c ⊢ cellInv (ER (F := F)) (sched m) (K (c, 77)) (dcell c 76) := by
  unfold State.invs
  iterate 77 (refine BI.Entails.trans sepR ?_)
  exact sepL
theorem inv_own_77 (K : Dev nD × Fin 91 → ℕ) (c : Dev nD) :
    State.invs m K c ⊢ cellInv (ER (F := F)) (sched m) (K (c, 78)) (dcell c 77) := by
  unfold State.invs
  iterate 78 (refine BI.Entails.trans sepR ?_)
  exact sepL
theorem inv_own_78 (K : Dev nD × Fin 91 → ℕ) (c : Dev nD) :
    State.invs m K c ⊢ cellInv (ER (F := F)) (sched m) (K (c, 79)) (dcell c 78) := by
  unfold State.invs
  iterate 79 (refine BI.Entails.trans sepR ?_)
  exact sepL
theorem inv_own_79 (K : Dev nD × Fin 91 → ℕ) (c : Dev nD) :
    State.invs m K c ⊢ cellInv (ER (F := F)) (sched m) (K (c, 80)) (dcell c 79) := by
  unfold State.invs
  iterate 80 (refine BI.Entails.trans sepR ?_)
  exact sepL
theorem inv_own_80 (K : Dev nD × Fin 91 → ℕ) (c : Dev nD) :
    State.invs m K c ⊢ cellInv (ER (F := F)) (sched m) (K (c, 81)) (dcell c 80) := by
  unfold State.invs
  iterate 81 (refine BI.Entails.trans sepR ?_)
  exact sepL
theorem inv_own_81 (K : Dev nD × Fin 91 → ℕ) (c : Dev nD) :
    State.invs m K c ⊢ cellInv (ER (F := F)) (sched m) (K (c, 82)) (dcell c 81) := by
  unfold State.invs
  iterate 82 (refine BI.Entails.trans sepR ?_)
  exact sepL
theorem inv_own_82 (K : Dev nD × Fin 91 → ℕ) (c : Dev nD) :
    State.invs m K c ⊢ cellInv (ER (F := F)) (sched m) (K (c, 83)) (dcell c 82) := by
  unfold State.invs
  iterate 83 (refine BI.Entails.trans sepR ?_)
  exact sepL
theorem inv_own_83 (K : Dev nD × Fin 91 → ℕ) (c : Dev nD) :
    State.invs m K c ⊢ cellInv (ER (F := F)) (sched m) (K (c, 84)) (dcell c 83) := by
  unfold State.invs
  iterate 84 (refine BI.Entails.trans sepR ?_)
  exact sepL
theorem inv_own_84 (K : Dev nD × Fin 91 → ℕ) (c : Dev nD) :
    State.invs m K c ⊢ cellInv (ER (F := F)) (sched m) (K (c, 85)) (dcell c 84) := by
  unfold State.invs
  iterate 85 (refine BI.Entails.trans sepR ?_)
  exact sepL
theorem inv_own_85 (K : Dev nD × Fin 91 → ℕ) (c : Dev nD) :
    State.invs m K c ⊢ cellInv (ER (F := F)) (sched m) (K (c, 86)) (dcell c 85) := by
  unfold State.invs
  iterate 86 (refine BI.Entails.trans sepR ?_)
  exact sepL
theorem inv_own_86 (K : Dev nD × Fin 91 → ℕ) (c : Dev nD) :
    State.invs m K c ⊢ cellInv (ER (F := F)) (sched m) (K (c, 87)) (dcell c 86) := by
  unfold State.invs
  iterate 87 (refine BI.Entails.trans sepR ?_)
  exact sepL
theorem inv_own_87 (K : Dev nD × Fin 91 → ℕ) (c : Dev nD) :
    State.invs m K c ⊢ cellInv (ER (F := F)) (sched m) (K (c, 88)) (dcell c 87) := by
  unfold State.invs
  iterate 88 (refine BI.Entails.trans sepR ?_)
  exact sepL
theorem inv_own_88 (K : Dev nD × Fin 91 → ℕ) (c : Dev nD) :
    State.invs m K c ⊢ cellInv (ER (F := F)) (sched m) (K (c, 89)) (dcell c 88) := by
  unfold State.invs
  iterate 89 (refine BI.Entails.trans sepR ?_)
  exact sepL
theorem inv_own_89 (K : Dev nD × Fin 91 → ℕ) (c : Dev nD) :
    State.invs m K c ⊢ cellInv (ER (F := F)) (sched m) (K (c, 90)) (dcell c 89) := by
  unfold State.invs
  iterate 90 (refine BI.Entails.trans sepR ?_)
  exact sepL
theorem inv_bar_succ (K : Dev nD × Fin 91 → ℕ) (c : Dev nD) :
    State.invs m K c ⊢ cellInv (ER (F := F)) (sched m) (K ((succD c), 0)) (barCell (succD c)) := by
  unfold State.invs
  iterate 91 (refine BI.Entails.trans sepR ?_)
  exact sepL
theorem inv_bar_pred (K : Dev nD × Fin 91 → ℕ) (c : Dev nD) :
    State.invs m K c ⊢ cellInv (ER (F := F)) (sched m) (K ((predD c), 0)) (barCell (predD c)) := by
  unfold State.invs
  iterate 92 (refine BI.Entails.trans sepR ?_)
  exact sepL
theorem inv_bar_part (K : Dev nD × Fin 91 → ℕ) (c : Dev nD) :
    State.invs m K c ⊢ cellInv (ER (F := F)) (sched m) (K ((partD c), 0)) (barCell (partD c)) := by
  unfold State.invs
  iterate 93 (refine BI.Entails.trans sepR ?_)
  exact sepL
theorem inv_succ_0 (K : Dev nD × Fin 91 → ℕ) (c : Dev nD) :
    State.invs m K c ⊢ cellInv (ER (F := F)) (sched m) (K ((succD c), 29)) (dcell (succD c) 28) := by
  unfold State.invs
  iterate 94 (refine BI.Entails.trans sepR ?_)
  exact sepL
theorem inv_succ_1 (K : Dev nD × Fin 91 → ℕ) (c : Dev nD) :
    State.invs m K c ⊢ cellInv (ER (F := F)) (sched m) (K ((succD c), 30)) (dcell (succD c) 29) := by
  unfold State.invs
  iterate 95 (refine BI.Entails.trans sepR ?_)
  exact sepL
theorem inv_succ_2 (K : Dev nD × Fin 91 → ℕ) (c : Dev nD) :
    State.invs m K c ⊢ cellInv (ER (F := F)) (sched m) (K ((succD c), 31)) (dcell (succD c) 30) := by
  unfold State.invs
  iterate 96 (refine BI.Entails.trans sepR ?_)
  exact sepL
theorem inv_succ_3 (K : Dev nD × Fin 91 → ℕ) (c : Dev nD) :
    State.invs m K c ⊢ cellInv (ER (F := F)) (sched m) (K ((succD c), 32)) (dcell (succD c) 31) := by
  unfold State.invs
  iterate 97 (refine BI.Entails.trans sepR ?_)
  exact sepL
theorem inv_succ_4 (K : Dev nD × Fin 91 → ℕ) (c : Dev nD) :
    State.invs m K c ⊢ cellInv (ER (F := F)) (sched m) (K ((succD c), 33)) (dcell (succD c) 32) := by
  unfold State.invs
  iterate 98 (refine BI.Entails.trans sepR ?_)
  exact sepL
theorem inv_succ_5 (K : Dev nD × Fin 91 → ℕ) (c : Dev nD) :
    State.invs m K c ⊢ cellInv (ER (F := F)) (sched m) (K ((succD c), 34)) (dcell (succD c) 33) := by
  unfold State.invs
  iterate 99 (refine BI.Entails.trans sepR ?_)
  exact sepL
theorem inv_succ_6 (K : Dev nD × Fin 91 → ℕ) (c : Dev nD) :
    State.invs m K c ⊢ cellInv (ER (F := F)) (sched m) (K ((succD c), 35)) (dcell (succD c) 34) := by
  unfold State.invs
  iterate 100 (refine BI.Entails.trans sepR ?_)
  exact sepL
theorem inv_succ_7 (K : Dev nD × Fin 91 → ℕ) (c : Dev nD) :
    State.invs m K c ⊢ cellInv (ER (F := F)) (sched m) (K ((succD c), 36)) (dcell (succD c) 35) := by
  unfold State.invs
  iterate 101 (refine BI.Entails.trans sepR ?_)
  exact sepL
theorem inv_succ_8 (K : Dev nD × Fin 91 → ℕ) (c : Dev nD) :
    State.invs m K c ⊢ cellInv (ER (F := F)) (sched m) (K ((succD c), 37)) (dcell (succD c) 36) := by
  unfold State.invs
  iterate 102 (refine BI.Entails.trans sepR ?_)
  exact sepL
theorem inv_succ_9 (K : Dev nD × Fin 91 → ℕ) (c : Dev nD) :
    State.invs m K c ⊢ cellInv (ER (F := F)) (sched m) (K ((succD c), 38)) (dcell (succD c) 37) := by
  unfold State.invs
  iterate 103 (refine BI.Entails.trans sepR ?_)
  exact sepL
theorem inv_succ_10 (K : Dev nD × Fin 91 → ℕ) (c : Dev nD) :
    State.invs m K c ⊢ cellInv (ER (F := F)) (sched m) (K ((succD c), 39)) (dcell (succD c) 38) := by
  unfold State.invs
  iterate 104 (refine BI.Entails.trans sepR ?_)
  exact sepL
theorem inv_succ_11 (K : Dev nD × Fin 91 → ℕ) (c : Dev nD) :
    State.invs m K c ⊢ cellInv (ER (F := F)) (sched m) (K ((succD c), 40)) (dcell (succD c) 39) := by
  unfold State.invs
  iterate 105 (refine BI.Entails.trans sepR ?_)
  exact sepL
theorem inv_succ_12 (K : Dev nD × Fin 91 → ℕ) (c : Dev nD) :
    State.invs m K c ⊢ cellInv (ER (F := F)) (sched m) (K ((succD c), 41)) (dcell (succD c) 40) := by
  unfold State.invs
  iterate 106 (refine BI.Entails.trans sepR ?_)
  exact sepL
theorem inv_succ_13 (K : Dev nD × Fin 91 → ℕ) (c : Dev nD) :
    State.invs m K c ⊢ cellInv (ER (F := F)) (sched m) (K ((succD c), 42)) (dcell (succD c) 41) := by
  unfold State.invs
  iterate 107 (refine BI.Entails.trans sepR ?_)
  exact sepL
theorem inv_pred_0 (K : Dev nD × Fin 91 → ℕ) (c : Dev nD) :
    State.invs m K c ⊢ cellInv (ER (F := F)) (sched m) (K ((predD c), 43)) (dcell (predD c) 42) := by
  unfold State.invs
  iterate 108 (refine BI.Entails.trans sepR ?_)
  exact sepL
theorem inv_pred_1 (K : Dev nD × Fin 91 → ℕ) (c : Dev nD) :
    State.invs m K c ⊢ cellInv (ER (F := F)) (sched m) (K ((predD c), 44)) (dcell (predD c) 43) := by
  unfold State.invs
  iterate 109 (refine BI.Entails.trans sepR ?_)
  exact sepL
theorem inv_pred_2 (K : Dev nD × Fin 91 → ℕ) (c : Dev nD) :
    State.invs m K c ⊢ cellInv (ER (F := F)) (sched m) (K ((predD c), 45)) (dcell (predD c) 44) := by
  unfold State.invs
  iterate 110 (refine BI.Entails.trans sepR ?_)
  exact sepL
theorem inv_pred_3 (K : Dev nD × Fin 91 → ℕ) (c : Dev nD) :
    State.invs m K c ⊢ cellInv (ER (F := F)) (sched m) (K ((predD c), 46)) (dcell (predD c) 45) := by
  unfold State.invs
  iterate 111 (refine BI.Entails.trans sepR ?_)
  exact sepL
theorem inv_pred_4 (K : Dev nD × Fin 91 → ℕ) (c : Dev nD) :
    State.invs m K c ⊢ cellInv (ER (F := F)) (sched m) (K ((predD c), 47)) (dcell (predD c) 46) := by
  unfold State.invs
  iterate 112 (refine BI.Entails.trans sepR ?_)
  exact sepL
theorem inv_pred_5 (K : Dev nD × Fin 91 → ℕ) (c : Dev nD) :
    State.invs m K c ⊢ cellInv (ER (F := F)) (sched m) (K ((predD c), 48)) (dcell (predD c) 47) := by
  unfold State.invs
  iterate 113 (refine BI.Entails.trans sepR ?_)
  exact sepL
theorem inv_pred_6 (K : Dev nD × Fin 91 → ℕ) (c : Dev nD) :
    State.invs m K c ⊢ cellInv (ER (F := F)) (sched m) (K ((predD c), 49)) (dcell (predD c) 48) := by
  unfold State.invs
  iterate 114 (refine BI.Entails.trans sepR ?_)
  exact sepL
theorem inv_pred_7 (K : Dev nD × Fin 91 → ℕ) (c : Dev nD) :
    State.invs m K c ⊢ cellInv (ER (F := F)) (sched m) (K ((predD c), 50)) (dcell (predD c) 49) := by
  unfold State.invs
  iterate 115 (refine BI.Entails.trans sepR ?_)
  exact sepL
theorem inv_pred_8 (K : Dev nD × Fin 91 → ℕ) (c : Dev nD) :
    State.invs m K c ⊢ cellInv (ER (F := F)) (sched m) (K ((predD c), 51)) (dcell (predD c) 50) := by
  unfold State.invs
  iterate 116 (refine BI.Entails.trans sepR ?_)
  exact sepL
theorem inv_pred_9 (K : Dev nD × Fin 91 → ℕ) (c : Dev nD) :
    State.invs m K c ⊢ cellInv (ER (F := F)) (sched m) (K ((predD c), 52)) (dcell (predD c) 51) := by
  unfold State.invs
  iterate 117 (refine BI.Entails.trans sepR ?_)
  exact sepL
theorem inv_pred_10 (K : Dev nD × Fin 91 → ℕ) (c : Dev nD) :
    State.invs m K c ⊢ cellInv (ER (F := F)) (sched m) (K ((predD c), 53)) (dcell (predD c) 52) := by
  unfold State.invs
  iterate 118 (refine BI.Entails.trans sepR ?_)
  exact sepL
theorem inv_pred_11 (K : Dev nD × Fin 91 → ℕ) (c : Dev nD) :
    State.invs m K c ⊢ cellInv (ER (F := F)) (sched m) (K ((predD c), 54)) (dcell (predD c) 53) := by
  unfold State.invs
  iterate 119 (refine BI.Entails.trans sepR ?_)
  exact sepL
theorem inv_pred_12 (K : Dev nD × Fin 91 → ℕ) (c : Dev nD) :
    State.invs m K c ⊢ cellInv (ER (F := F)) (sched m) (K ((predD c), 55)) (dcell (predD c) 54) := by
  unfold State.invs
  iterate 120 (refine BI.Entails.trans sepR ?_)
  exact sepL
theorem inv_pred_13 (K : Dev nD × Fin 91 → ℕ) (c : Dev nD) :
    State.invs m K c ⊢ cellInv (ER (F := F)) (sched m) (K ((predD c), 56)) (dcell (predD c) 55) := by
  unfold State.invs
  iterate 121 (refine BI.Entails.trans sepR ?_)
  exact sepL
theorem inv_part_0 (K : Dev nD × Fin 91 → ℕ) (c : Dev nD) :
    State.invs m K c ⊢ cellInv (ER (F := F)) (sched m) (K ((partD c), 73)) (dcell (partD c) 72) := by
  unfold State.invs
  iterate 122 (refine BI.Entails.trans sepR ?_)
  exact sepL
theorem inv_part_1 (K : Dev nD × Fin 91 → ℕ) (c : Dev nD) :
    State.invs m K c ⊢ cellInv (ER (F := F)) (sched m) (K ((partD c), 74)) (dcell (partD c) 73) := by
  unfold State.invs
  iterate 123 (refine BI.Entails.trans sepR ?_)
  exact sepL
theorem inv_part_2 (K : Dev nD × Fin 91 → ℕ) (c : Dev nD) :
    State.invs m K c ⊢ cellInv (ER (F := F)) (sched m) (K ((partD c), 75)) (dcell (partD c) 74) := by
  unfold State.invs
  iterate 124 (refine BI.Entails.trans sepR ?_)
  exact sepL
theorem inv_part_3 (K : Dev nD × Fin 91 → ℕ) (c : Dev nD) :
    State.invs m K c ⊢ cellInv (ER (F := F)) (sched m) (K ((partD c), 76)) (dcell (partD c) 75) := by
  unfold State.invs
  iterate 125 (refine BI.Entails.trans sepR ?_)
  exact sepL
theorem inv_part_4 (K : Dev nD × Fin 91 → ℕ) (c : Dev nD) :
    State.invs m K c ⊢ cellInv (ER (F := F)) (sched m) (K ((partD c), 77)) (dcell (partD c) 76) := by
  unfold State.invs
  iterate 126 (refine BI.Entails.trans sepR ?_)
  exact sepL
theorem inv_part_5 (K : Dev nD × Fin 91 → ℕ) (c : Dev nD) :
    State.invs m K c ⊢ cellInv (ER (F := F)) (sched m) (K ((partD c), 78)) (dcell (partD c) 77) := by
  unfold State.invs
  iterate 127 (refine BI.Entails.trans sepR ?_)
  exact sepL
theorem inv_part_6 (K : Dev nD × Fin 91 → ℕ) (c : Dev nD) :
    State.invs m K c ⊢ cellInv (ER (F := F)) (sched m) (K ((partD c), 79)) (dcell (partD c) 78) := by
  unfold State.invs
  iterate 128 (refine BI.Entails.trans sepR ?_)
  exact sepL
theorem inv_part_7 (K : Dev nD × Fin 91 → ℕ) (c : Dev nD) :
    State.invs m K c ⊢ cellInv (ER (F := F)) (sched m) (K ((partD c), 80)) (dcell (partD c) 79) := by
  unfold State.invs
  iterate 129 (refine BI.Entails.trans sepR ?_)
  exact sepL
theorem inv_part_8 (K : Dev nD × Fin 91 → ℕ) (c : Dev nD) :
    State.invs m K c ⊢ cellInv (ER (F := F)) (sched m) (K ((partD c), 81)) (dcell (partD c) 80) := by
  unfold State.invs
  iterate 130 (refine BI.Entails.trans sepR ?_)
  exact sepL
theorem inv_part_9 (K : Dev nD × Fin 91 → ℕ) (c : Dev nD) :
    State.invs m K c ⊢ cellInv (ER (F := F)) (sched m) (K ((partD c), 82)) (dcell (partD c) 81) := by
  unfold State.invs
  iterate 131 (refine BI.Entails.trans sepR ?_)
  exact sepL
theorem inv_part_10 (K : Dev nD × Fin 91 → ℕ) (c : Dev nD) :
    State.invs m K c ⊢ cellInv (ER (F := F)) (sched m) (K ((partD c), 83)) (dcell (partD c) 82) := by
  unfold State.invs
  iterate 132 (refine BI.Entails.trans sepR ?_)
  exact sepL
theorem inv_part_11 (K : Dev nD × Fin 91 → ℕ) (c : Dev nD) :
    State.invs m K c ⊢ cellInv (ER (F := F)) (sched m) (K ((partD c), 84)) (dcell (partD c) 83) := by
  unfold State.invs
  iterate 133 (refine BI.Entails.trans sepR ?_)
  exact sepL
theorem inv_part_12 (K : Dev nD × Fin 91 → ℕ) (c : Dev nD) :
    State.invs m K c ⊢ cellInv (ER (F := F)) (sched m) (K ((partD c), 85)) (dcell (partD c) 84) := by
  unfold State.invs
  iterate 134 (refine BI.Entails.trans sepR ?_)
  exact sepL
theorem inv_part_13 (K : Dev nD × Fin 91 → ℕ) (c : Dev nD) :
    State.invs m K c ⊢ cellInv (ER (F := F)) (sched m) (K ((partD c), 86)) (dcell (partD c) 85) := by
  unfold State.invs
  iterate 135 (refine BI.Entails.trans sepR ?_)
  exact sepL
theorem inv_part_14 (K : Dev nD × Fin 91 → ℕ) (c : Dev nD) :
    State.invs m K c ⊢ cellInv (ER (F := F)) (sched m) (K ((partD c), 87)) (dcell (partD c) 86) := by
  unfold State.invs
  iterate 136 (refine BI.Entails.trans sepR ?_)
  exact sepL
theorem inv_part_15 (K : Dev nD × Fin 91 → ℕ) (c : Dev nD) :
    State.invs m K c ⊢ cellInv (ER (F := F)) (sched m) (K ((partD c), 88)) (dcell (partD c) 87) := by
  unfold State.invs
  iterate 137 (refine BI.Entails.trans sepR ?_)
  exact BI.Entails.refl _

/-- info: 'Cert.KernelIdeal.State.inv_part_15' depends on axioms: [propext, Classical.choice, Quot.sound] -/
#guard_msgs in #print axioms inv_part_15

end Cert.KernelIdeal.State

end
-- ==== Proof.ProjOwn.lean ====
/-
  The invariants of a device's own ninety DMA cells, as one right-nested separating conjunction in index order, follow
  from the conjunction of all the invariants its body holds: that conjunction is the barrier cell's invariant, then
  exactly these ninety, then those of the peers' cells; drop the first conjunct, keep the next ninety, drop the rest.
-/
import proofs.«900727_g7700000000000728_dist_ar_v7x_xyz2x4x4_y_m16384_n1024_f32_1_alg».proof.Proof.Proj

set_option maxRecDepth 16384

noncomputable section

namespace Cert.KernelIdeal.State

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- A conjunct kept while the rest is weakened. -/
theorem sepKeep {P Q Q' : sProp 𝕄} (h : Q ⊢ Q') : iprop(P ∗ Q) ⊢ iprop(P ∗ Q') := Idealize.SL.BI.sep_mono (BI.Entails.refl _) h

/-- The invariants of the device's own ninety DMA cells out of all the invariants its body holds. -/
theorem invs_own_chain (K : Dev nD × Fin 91 → ℕ) (c : Dev nD) :
    State.invs m K c ⊢ iprop(cellInv (ER (F := F)) (sched m) (K (c, 1)) (dcell c 0)
          ∗ cellInv (ER (F := F)) (sched m) (K (c, 2)) (dcell c 1)
          ∗ cellInv (ER (F := F)) (sched m) (K (c, 3)) (dcell c 2)
          ∗ cellInv (ER (F := F)) (sched m) (K (c, 4)) (dcell c 3)
          ∗ cellInv (ER (F := F)) (sched m) (K (c, 5)) (dcell c 4)
          ∗ cellInv (ER (F := F)) (sched m) (K (c, 6)) (dcell c 5)
          ∗ cellInv (ER (F := F)) (sched m) (K (c, 7)) (dcell c 6)
          ∗ cellInv (ER (F := F)) (sched m) (K (c, 8)) (dcell c 7)
          ∗ cellInv (ER (F := F)) (sched m) (K (c, 9)) (dcell c 8)
          ∗ cellInv (ER (F := F)) (sched m) (K (c, 10)) (dcell c 9)
          ∗ cellInv (ER (F := F)) (sched m) (K (c, 11)) (dcell c 10)
          ∗ cellInv (ER (F := F)) (sched m) (K (c, 12)) (dcell c 11)
          ∗ cellInv (ER (F := F)) (sched m) (K (c, 13)) (dcell c 12)
          ∗ cellInv (ER (F := F)) (sched m) (K (c, 14)) (dcell c 13)
          ∗ cellInv (ER (F := F)) (sched m) (K (c, 15)) (dcell c 14)
          ∗ cellInv (ER (F := F)) (sched m) (K (c, 16)) (dcell c 15)
          ∗ cellInv (ER (F := F)) (sched m) (K (c, 17)) (dcell c 16)
          ∗ cellInv (ER (F := F)) (sched m) (K (c, 18)) (dcell c 17)
          ∗ cellInv (ER (F := F)) (sched m) (K (c, 19)) (dcell c 18)
          ∗ cellInv (ER (F := F)) (sched m) (K (c, 20)) (dcell c 19)
          ∗ cellInv (ER (F := F)) (sched m) (K (c, 21)) (dcell c 20)
          ∗ cellInv (ER (F := F)) (sched m) (K (c, 22)) (dcell c 21)
          ∗ cellInv (ER (F := F)) (sched m) (K (c, 23)) (dcell c 22)
          ∗ cellInv (ER (F := F)) (sched m) (K (c, 24)) (dcell c 23)
          ∗ cellInv (ER (F := F)) (sched m) (K (c, 25)) (dcell c 24)
          ∗ cellInv (ER (F := F)) (sched m) (K (c, 26)) (dcell c 25)
          ∗ cellInv (ER (F := F)) (sched m) (K (c, 27)) (dcell c 26)
          ∗ cellInv (ER (F := F)) (sched m) (K (c, 28)) (dcell c 27)
          ∗ cellInv (ER (F := F)) (sched m) (K (c, 29)) (dcell c 28)
          ∗ cellInv (ER (F := F)) (sched m) (K (c, 30)) (dcell c 29)
          ∗ cellInv (ER (F := F)) (sched m) (K (c, 31)) (dcell c 30)
          ∗ cellInv (ER (F := F)) (sched m) (K (c, 32)) (dcell c 31)
          ∗ cellInv (ER (F := F)) (sched m) (K (c, 33)) (dcell c 32)
          ∗ cellInv (ER (F := F)) (sched m) (K (c, 34)) (dcell c 33)
          ∗ cellInv (ER (F := F)) (sched m) (K (c, 35)) (dcell c 34)
          ∗ cellInv (ER (F := F)) (sched m) (K (c, 36)) (dcell c 35)
          ∗ cellInv (ER (F := F)) (sched m) (K (c, 37)) (dcell c 36)
          ∗ cellInv (ER (F := F)) (sched m) (K (c, 38)) (dcell c 37)
          ∗ cellInv (ER (F := F)) (sched m) (K (c, 39)) (dcell c 38)
          ∗ cellInv (ER (F := F)) (sched m) (K (c, 40)) (dcell c 39)
          ∗ cellInv (ER (F := F)) (sched m) (K (c, 41)) (dcell c 40)
          ∗ cellInv (ER (F := F)) (sched m) (K (c, 42)) (dcell c 41)
          ∗ cellInv (ER (F := F)) (sched m) (K (c, 43)) (dcell c 42)
          ∗ cellInv (ER (F := F)) (sched m) (K (c, 44)) (dcell c 43)
          ∗ cellInv (ER (F := F)) (sched m) (K (c, 45)) (dcell c 44)
          ∗ cellInv (ER (F := F)) (sched m) (K (c, 46)) (dcell c 45)
          ∗ cellInv (ER (F := F)) (sched m) (K (c, 47)) (dcell c 46)
          ∗ cellInv (ER (F := F)) (sched m) (K (c, 48)) (dcell c 47)
          ∗ cellInv (ER (F := F)) (sched m) (K (c, 49)) (dcell c 48)
          ∗ cellInv (ER (F := F)) (sched m) (K (c, 50)) (dcell c 49)
          ∗ cellInv (ER (F := F)) (sched m) (K (c, 51)) (dcell c 50)
          ∗ cellInv (ER (F := F)) (sched m) (K (c, 52)) (dcell c 51)
          ∗ cellInv (ER (F := F)) (sched m) (K (c, 53)) (dcell c 52)
          ∗ cellInv (ER (F := F)) (sched m) (K (c, 54)) (dcell c 53)
          ∗ cellInv (ER (F := F)) (sched m) (K (c, 55)) (dcell c 54)
          ∗ cellInv (ER (F := F)) (sched m) (K (c, 56)) (dcell c 55)
          ∗ cellInv (ER (F := F)) (sched m) (K (c, 57)) (dcell c 56)
          ∗ cellInv (ER (F := F)) (sched m) (K (c, 58)) (dcell c 57)
          ∗ cellInv (ER (F := F)) (sched m) (K (c, 59)) (dcell c 58)
          ∗ cellInv (ER (F := F)) (sched m) (K (c, 60)) (dcell c 59)
          ∗ cellInv (ER (F := F)) (sched m) (K (c, 61)) (dcell c 60)
          ∗ cellInv (ER (F := F)) (sched m) (K (c, 62)) (dcell c 61)
          ∗ cellInv (ER (F := F)) (sched m) (K (c, 63)) (dcell c 62)
          ∗ cellInv (ER (F := F)) (sched m) (K (c, 64)) (dcell c 63)
          ∗ cellInv (ER (F := F)) (sched m) (K (c, 65)) (dcell c 64)
          ∗ cellInv (ER (F := F)) (sched m) (K (c, 66)) (dcell c 65)
          ∗ cellInv (ER (F := F)) (sched m) (K (c, 67)) (dcell c 66)
          ∗ cellInv (ER (F := F)) (sched m) (K (c, 68)) (dcell c 67)
          ∗ cellInv (ER (F := F)) (sched m) (K (c, 69)) (dcell c 68)
          ∗ cellInv (ER (F := F)) (sched m) (K (c, 70)) (dcell c 69)
          ∗ cellInv (ER (F := F)) (sched m) (K (c, 71)) (dcell c 70)
          ∗ cellInv (ER (F := F)) (sched m) (K (c, 72)) (dcell c 71)
          ∗ cellInv (ER (F := F)) (sched m) (K (c, 73)) (dcell c 72)
          ∗ cellInv (ER (F := F)) (sched m) (K (c, 74)) (dcell c 73)
          ∗ cellInv (ER (F := F)) (sched m) (K (c, 75)) (dcell c 74)
          ∗ cellInv (ER (F := F)) (sched m) (K (c, 76)) (dcell c 75)
          ∗ cellInv (ER (F := F)) (sched m) (K (c, 77)) (dcell c 76)
          ∗ cellInv (ER (F := F)) (sched m) (K (c, 78)) (dcell c 77)
          ∗ cellInv (ER (F := F)) (sched m) (K (c, 79)) (dcell c 78)
          ∗ cellInv (ER (F := F)) (sched m) (K (c, 80)) (dcell c 79)
          ∗ cellInv (ER (F := F)) (sched m) (K (c, 81)) (dcell c 80)
          ∗ cellInv (ER (F := F)) (sched m) (K (c, 82)) (dcell c 81)
          ∗ cellInv (ER (F := F)) (sched m) (K (c, 83)) (dcell c 82)
          ∗ cellInv (ER (F := F)) (sched m) (K (c, 84)) (dcell c 83)
          ∗ cellInv (ER (F := F)) (sched m) (K (c, 85)) (dcell c 84)
          ∗ cellInv (ER (F := F)) (sched m) (K (c, 86)) (dcell c 85)
          ∗ cellInv (ER (F := F)) (sched m) (K (c, 87)) (dcell c 86)
          ∗ cellInv (ER (F := F)) (sched m) (K (c, 88)) (dcell c 87)
          ∗ cellInv (ER (F := F)) (sched m) (K (c, 89)) (dcell c 88)
          ∗ cellInv (ER (F := F)) (sched m) (K (c, 90)) (dcell c 89)) := by
  unfold State.invs
  refine BI.Entails.trans sepR ?_
  iterate 89 (refine sepKeep ?_)
  exact sepL

/-- info: 'Cert.KernelIdeal.State.invs_own_chain' depends on axioms: [propext, Classical.choice, Quot.sound] -/
#guard_msgs in #print axioms invs_own_chain

end Cert.KernelIdeal.State

end
-- ==== Proof.BodyWrap.lean ====
/-
  The body of the one region in the form the pipeline's loop asks for it. A device's body, shown to run from the
  ghost state, the credit, the level facts, what the device owes and its four buffers to the end state and no debt,
  is the loop's obligation at its single point: the start state is opened into these parts, and the end state is
  handed back with what the device still owes, which is nothing.
-/
import proofs.«900727_g7700000000000728_dist_ar_v7x_xyz2x4x4_y_m16384_n1024_f32_1_alg».proof.Proof.Launch

set_option maxRecDepth 16384

noncomputable section

namespace Cert.KernelIdeal.Launch

open Cert.KernelIdeal Cert.KernelIdeal.Gen Cert.KernelIdeal.Ring Cert.KernelIdeal.Cells Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The loop's obligation on every device from the body's triple: before the point the loop holds Φ₀ and what the
    device owes at launch; after it Φ₁ and no debt. There is no staged window, so nothing else changes hands. -/
theorem body_obligation_of (m : (ℓ : Loc nD τ sig) → Buf (Elt F) ℓ) (ρ : Dev nD → PrngReg)
    (hb : ∀ (K : Dev nD × Fin 91 → ℕ) (c : Dev nD) (W : Waits sig Unit) (fo : Buf (Elt F) ((c : Thread nD τ).loc main_v1))
        (fc : Buf (Elt F) ((c : Thread nD τ).loc cc0_scratch0)) (fs : Buf (Elt F) ((c : Thread nD τ).loc cc0_scratch1)) (Kt : PUnit → sProp 𝕄),
      iprop(State.ghost m K c ∗ State.creds (F := F) c ∗ levAts State.L State.lv ∗ owes (c : Thread nD τ) (State.O₀ c) W ∗ bufs0 m c fo fc fs
          ∗ ((Φ₁ m c ∗ (∃ W', owes (c : Thread nD τ) 0 W')) -∗ Kt ⟨⟩))
        ⊢ wp frame (wpE (defs₀ (F := F)) Variants.none c none) Set.univ (bodyAt0 (F := F) t0_0) Kt) :
    ∀ c : Dev nD, BodyObligation (dats (F := F) m ρ 0 c) (defs₀ (F := F)) Variants.none () Set.univ := fun c t => by
  rw [fin_N0 t]
  show iprop(Φ₀ m c ∗ (dats m ρ 0 c).owesAt () t0_0.castSucc ∗ bigSep (Finset.univ : Finset (Fin 0)) _)
    ⊢ wp frame (wpE (defs₀ (F := F)) Variants.none c none) Set.univ (bodyAt0 (F := F) t0_0)
        (fun _ => iprop(Φ₁ m c ∗ (dats m ρ 0 c).owesAt () t0_0.succ ∗ bigSep (Finset.univ : Finset (Fin 0)) _))
  unfold Φ₀ start
  iintro ⟨⟨⟨⟨%K, Hg⟩, Hcr, Hlev, Hx, ⟨%fo, Ho⟩⟩, ⟨%fc, Hc⟩, ⟨%fs, Hs⟩⟩, ⟨%W, %hW, HO⟩, -⟩
  iapply (hb K c W fo fc fs _)
  isplitl [Hg]; · iexact Hg
  isplitl [Hcr]; · iexact Hcr
  isplitl [Hlev]; · iexact Hlev
  isplitl [HO]; · iexact HO
  isplitl [Hx Ho Hc Hs]
  · unfold bufs0
    isplitl [Hx]; · iexact Hx
    isplitl [Ho]; · iexact Ho
    isplitl [Hc]; · iexact Hc
    iexact Hs
  iintro ⟨H1, ⟨%W', HO'⟩⟩
  isplitl [H1]; · iexact H1
  isplitl [HO']
  · iexists W'
    isplitr; · ipureintro; exact fun _ _ => Or.inl trivial
    iexact HO'
  rw [Finset.univ_eq_empty, bigSep_empty]
  iempintro

/-- info: 'Cert.KernelIdeal.Launch.body_obligation_of' depends on axioms: [propext, Classical.choice, Quot.sound] -/
#guard_msgs in #print axioms body_obligation_of

end Cert.KernelIdeal.Launch

end
-- ==== Proof.Body.lean ====
/-
  One device's body, run from the device's own invariant.
  The device first tells its three peers (ring successor, ring predecessor, pair partner) that it has entered, handing each the
  regions of its exchange buffer and of its result array that the peer will write into, and waits for the same from them.
  Then, in each of the two directions of the ring, seven times: it sends on what it holds of the travelling chunk (its own chunk
  the first time), copies its own share of the next chunk into the staging buffer, waits for both, and adds: the first time the
  sum is halved, afterwards the own share is halved before it is added. After seven steps it holds, in each direction, half the
  sum of one chunk over the eight devices of the ring, which is the sum of that chunk over the four blocks. It writes the two
  finished chunks into its result array, sends them to its partner, and then seven times passes round the ring the chunk it has
  just received, forwarding each to the partner as it arrives. Last it waits for every departure and every arrival of the pair.
  Every region of the result array is written exactly once, by a copy whose arrival the device waits for before it reads it, and
  every region ends at the reduced contents; the argument array is only read.
-/
import proofs.«900727_g7700000000000728_dist_ar_v7x_xyz2x4x4_y_m16384_n1024_f32_1_alg».proof.Proof.State
import proofs.«900727_g7700000000000728_dist_ar_v7x_xyz2x4x4_y_m16384_n1024_f32_1_alg».proof.Proof.Canon
import proofs.«900727_g7700000000000728_dist_ar_v7x_xyz2x4x4_y_m16384_n1024_f32_1_alg».proof.Proof.RingFacts
import proofs.«900727_g7700000000000728_dist_ar_v7x_xyz2x4x4_y_m16384_n1024_f32_1_alg».proof.Proof.Tables
import proofs.«900727_g7700000000000728_dist_ar_v7x_xyz2x4x4_y_m16384_n1024_f32_1_alg».proof.Proof.Levels
import proofs.«900727_g7700000000000728_dist_ar_v7x_xyz2x4x4_y_m16384_n1024_f32_1_alg».proof.Proof.Spell
import proofs.«900727_g7700000000000728_dist_ar_v7x_xyz2x4x4_y_m16384_n1024_f32_1_alg».proof.Proof.ValLemmas
import proofs.«900727_g7700000000000728_dist_ar_v7x_xyz2x4x4_y_m16384_n1024_f32_1_alg».proof.Proof.UpdLemmas
import proofs.«900727_g7700000000000728_dist_ar_v7x_xyz2x4x4_y_m16384_n1024_f32_1_alg».proof.Proof.RulesRing
import proofs.«900727_g7700000000000728_dist_ar_v7x_xyz2x4x4_y_m16384_n1024_f32_1_alg».proof.Proof.RulesPair
import proofs.«900727_g7700000000000728_dist_ar_v7x_xyz2x4x4_y_m16384_n1024_f32_1_alg».proof.Proof.RulesLocal
import proofs.«900727_g7700000000000728_dist_ar_v7x_xyz2x4x4_y_m16384_n1024_f32_1_alg».proof.Proof.RulesSync
import proofs.«900727_g7700000000000728_dist_ar_v7x_xyz2x4x4_y_m16384_n1024_f32_1_alg».proof.Proof.Epilogue
import proofs.«900727_g7700000000000728_dist_ar_v7x_xyz2x4x4_y_m16384_n1024_f32_1_alg».proof.Proof.Proj
import proofs.«900727_g7700000000000728_dist_ar_v7x_xyz2x4x4_y_m16384_n1024_f32_1_alg».proof.Proof.ProjOwn
import proofs.«900727_g7700000000000728_dist_ar_v7x_xyz2x4x4_y_m16384_n1024_f32_1_alg».proof.Proof.Launch
import proofs.«900727_g7700000000000728_dist_ar_v7x_xyz2x4x4_y_m16384_n1024_f32_1_alg».proof.Proof.BodyWrap

set_option maxRecDepth 16384

noncomputable section
namespace Cert.KernelIdeal.Body
open Cert.KernelIdeal Cert.KernelIdeal.Gen Cert.KernelIdeal.Ring Cert.KernelIdeal.Cells Cert.KernelIdeal.Vals Cert.KernelIdeal.Sched Cert.KernelIdeal.State Cert.KernelIdeal.Spell Cert.KernelIdeal.Rules Cert.KernelIdeal.Launch
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Two views of the argument array at equal offsets are one region. -/
theorem rpts_xCh_congr (c' : Dev nD) (off off' : Fin 2 → ℕ) (h : ∀ a, off a + S512x1024.size a ≤ S16384x1024.size a) (h' : ∀ a, off' a + S512x1024.size a ≤ S16384x1024.size a)
    (e : off = off') (q : PosShare TreeShare) (f : Buf (Elt F) ((c' : Thread nD τ).loc main_arg0)) :
    (rpts c' (xCh off h) q f : sProp 𝕄) = rpts c' (xCh off' h') q f := by subst e; rfl

set_option maxHeartbeats 0 in
/-- The body of device c from its ghost state, its credit, what it owes and its four buffers whole: it ends with the argument
    array as it was, the result array at the reduced contents, the two scratch buffers whole, its ninety DMA semaphores back at
    zero and nothing owed. -/
theorem sound_body (K : Dev nD × Fin 91 → ℕ) (c : Dev nD) (W : Waits sig Unit)
    (fo : Buf (Elt F) ((c : Thread nD τ).loc main_v1)) (fc : Buf (Elt F) ((c : Thread nD τ).loc cc0_scratch0)) (fs : Buf (Elt F) ((c : Thread nD τ).loc cc0_scratch1))
    (Kt : PUnit → sProp 𝕄) :
    iprop(State.ghost m K c ∗ State.creds (F := F) c ∗ levAts State.L State.lv ∗ owes (c : Thread nD τ) (State.O₀ c) W ∗ bufs0 m c fo fc fs
        ∗ ((Φ₁ m c ∗ (∃ W', owes (c : Thread nD τ) 0 W')) -∗ Kt ⟨⟩))
      ⊢ wp frame (wpE (defs₀ (F := F)) Variants.none c none) Set.univ (bodyAt0 (F := F) t0_0) Kt := by
  unfold State.ghost poss reach toks creds bufs0
  iintro ⟨⟨#HI, ⟨P0, P1, P2, P3, P4, P5, P6, P7, P8, P9, P10, P11, P12, P13, P14, P15, P16, P17, P18, P19, P20, P21, P22, P23, P24, P25, P26, P27, P28, P29, P30, P31, P32, P33, P34, P35, P36, P37, P38, P39, P40, P41, P42, P43, P44, P45, P46, P47, P48, P49, P50, P51, P52, P53, P54, P55, P56, P57, P58, P59, P60, P61, P62, P63, P64, P65, P66, P67, P68, P69, P70, P71, P72, P73, P74, P75, P76, P77, P78, P79, P80, P81, P82, P83, P84, P85, P86, P87, P88, P89, P90⟩, ⟨#R0, #R1, #R2, #R3, #R4, #R5, #R6, #R7, #R8, #R9, #R10, #R11, #R12, #R13, #R14, #R15, #R16, #R17, #R18, #R19, #R20, #R21, #R22, #R23, #R24, #R25, #R26, #R27, #R28, #R29, #R30, #R31, #R32, #R33, #R34, #R35, #R36, #R37, #R38, #R39, #R40, #R41, #R42, #R43, #R44, #R45, #R46, #R47, #R48, #R49, #R50, #R51, #R52, #R53, #R54, #R55, #R56, #R57, #R58, #R59, #R60, #R61, #R62, #R63, #R64, #R65, #R66, #R67, #R68, #R69, #R70, #R71, #R72, #R73, #R74, #R75, #R76, #R77, #R78, #R79, #R80, #R81, #R82, #R83, #R84, #R85, #R86, #R87, #R88, #R89, #R90, #R91, #R92⟩, ⟨T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59, T60, T61, T62, T63, T64, T65, T66, T67, T68, T69, T70, T71, T72, T73, T74, T75, T76, T77, T78, T79, T80, T81, T82, T83, T84, T85, T86, T87, T88, T89, T90, T91, T92, T93, T94, T95, T96, T97, T98, T99, T100, T101, T102, T103, T104, T105, T106⟩⟩, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44⟩, #Hlev, HO, ⟨Hx, Hout, Hcomm, Hstage⟩, HK⟩
  ihave Hx' := (Entails.of_eq (x_spelled (F := F) c fullShare (X m c))) $$ Hx
  icases Hx' with ⟨X0, X1, X2, X3, X4, X5, X6, X7, X8, X9, X10, X11, X12, X13, X14, X15, X16, X17, X18, X19, X20, X21, X22, X23, X24, X25, X26, X27, X28, X29, X30, X31⟩
  ihave Hout' := (Entails.of_eq (out_spelled (F := F) c fullShare fo)) $$ Hout
  icases Hout' with ⟨O0, O1, O2, O3, O4, O5, O6, O7, O8, O9, O10, O11, O12, O13, O14, O15, O16, O17, O18, O19, O20, O21, O22, O23, O24, O25, O26, O27, O28, O29, O30, O31⟩
  ihave Hcomm' := (Entails.of_eq (comm_spelled (F := F) c fullShare fc)) $$ Hcomm
  icases Hcomm' with ⟨M0, M1, M2, M3, M4, M5, M6, M7, M8, M9, M10, M11, M12, M13⟩
  ihave Hstage' := (Entails.of_eq (stage_spelled (F := F) c fullShare fs)) $$ Hstage
  icases Hstage' with ⟨S0, S1⟩
  have h_mayWait_bar := mayWait_bar (F := F) c
  have h_mayWait_rs0_0 := mayWait_rs0_0 (F := F) c
  have h_mayWait_rs1_0 := mayWait_rs1_0 (F := F) c
  have h_mayWait_loc0_0 := mayWait_loc0_0 (F := F) c
  have h_mayWait_loc1_0 := mayWait_loc1_0 (F := F) c
  have h_mayWait_rs0_1 := mayWait_rs0_1 (F := F) c
  have h_mayWait_rs1_1 := mayWait_rs1_1 (F := F) c
  have h_mayWait_loc0_1 := mayWait_loc0_1 (F := F) c
  have h_mayWait_loc1_1 := mayWait_loc1_1 (F := F) c
  have h_mayWait_rs0_2 := mayWait_rs0_2 (F := F) c
  have h_mayWait_rs1_2 := mayWait_rs1_2 (F := F) c
  have h_mayWait_loc0_2 := mayWait_loc0_2 (F := F) c
  have h_mayWait_loc1_2 := mayWait_loc1_2 (F := F) c
  have h_mayWait_rs0_3 := mayWait_rs0_3 (F := F) c
  have h_mayWait_rs1_3 := mayWait_rs1_3 (F := F) c
  have h_mayWait_loc0_3 := mayWait_loc0_3 (F := F) c
  have h_mayWait_loc1_3 := mayWait_loc1_3 (F := F) c
  have h_mayWait_rs0_4 := mayWait_rs0_4 (F := F) c
  have h_mayWait_rs1_4 := mayWait_rs1_4 (F := F) c
  have h_mayWait_loc0_4 := mayWait_loc0_4 (F := F) c
  have h_mayWait_loc1_4 := mayWait_loc1_4 (F := F) c
  have h_mayWait_rs0_5 := mayWait_rs0_5 (F := F) c
  have h_mayWait_rs1_5 := mayWait_rs1_5 (F := F) c
  have h_mayWait_loc0_5 := mayWait_loc0_5 (F := F) c
  have h_mayWait_loc1_5 := mayWait_loc1_5 (F := F) c
  have h_mayWait_rs0_6 := mayWait_rs0_6 (F := F) c
  have h_mayWait_rs1_6 := mayWait_rs1_6 (F := F) c
  have h_mayWait_loc0_6 := mayWait_loc0_6 (F := F) c
  have h_mayWait_loc1_6 := mayWait_loc1_6 (F := F) c
  have h_mayWait_loc0_7 := mayWait_loc0_7 (F := F) c
  have h_mayWait_loc1_7 := mayWait_loc1_7 (F := F) c
  have h_mayWait_ag0_0 := mayWait_ag0_0 (F := F) c
  have h_mayWait_ag1_0 := mayWait_ag1_0 (F := F) c
  have h_mayWait_ag0_1 := mayWait_ag0_1 (F := F) c
  have h_mayWait_ag1_1 := mayWait_ag1_1 (F := F) c
  have h_mayWait_ag0_2 := mayWait_ag0_2 (F := F) c
  have h_mayWait_ag1_2 := mayWait_ag1_2 (F := F) c
  have h_mayWait_ag0_3 := mayWait_ag0_3 (F := F) c
  have h_mayWait_ag1_3 := mayWait_ag1_3 (F := F) c
  have h_mayWait_ag0_4 := mayWait_ag0_4 (F := F) c
  have h_mayWait_ag1_4 := mayWait_ag1_4 (F := F) c
  have h_mayWait_ag0_5 := mayWait_ag0_5 (F := F) c
  have h_mayWait_ag1_5 := mayWait_ag1_5 (F := F) c
  have h_mayWait_ag0_6 := mayWait_ag0_6 (F := F) c
  have h_mayWait_ag1_6 := mayWait_ag1_6 (F := F) c
  unfold bodyAt0
  unfold rpts
  sl_exec_parts
  iapply (signal_succ m K c (succD c) rfl (owed_1 c) W) $$ [HO T0 M7 M8 M9 M10 M11 M12 M13 O9 O10 O11 O12 O13 O14 O15]
  · isplitr; · iapply (State.inv_bar_succ m K c); iexact HI
    isplitl [HO]; · iexact HO
    isplitl [T0]; · iexact T0
    isplitl [M7 M8 M9 M10 M11 M12 M13 O9 O10 O11 O12 O13 O14 O15]
    · unfold give1 rsome
      isplitl [M7]; · iexists _; iexact M7
      isplitl [M8]; · iexists _; iexact M8
      isplitl [M9]; · iexists _; iexact M9
      isplitl [M10]; · iexists _; iexact M10
      isplitl [M11]; · iexists _; iexact M11
      isplitl [M12]; · iexists _; iexact M12
      isplitl [M13]; · iexists _; iexact M13
      isplitl [O9]; · iexists _; iexact O9
      isplitl [O10]; · iexists _; iexact O10
      isplitl [O11]; · iexists _; iexact O11
      isplitl [O12]; · iexists _; iexact O12
      isplitl [O13]; · iexists _; iexact O13
      isplitl [O14]; · iexists _; iexact O14
      isplitl [O15]; · iexists _; iexact O15
      isplitr; · iexact R45
      isplitr; · iexact R46
      isplitr; · iexact R47
      isplitr; · iexact R48
      isplitr; · iexact R49
      isplitr; · iexact R50
      isplitr; · iexact R51
      isplitr; · iexact R52
      isplitr; · iexact R53
      isplitr; · iexact R54
      isplitr; · iexact R55
      isplitr; · iexact R56
      isplitr; · iexact R57
      iexact R58
    iexact R0
  iintro HO
  sl_exec_parts
  iapply (signal_pred m K c (predD c) rfl (owed_2 c) W) $$ [HO T1 M0 M1 M2 M3 M4 M5 M6 O1 O2 O3 O4 O5 O6 O7]
  · isplitr; · iapply (State.inv_bar_pred m K c); iexact HI
    isplitl [HO]; · iexact HO
    isplitl [T1]; · iexact T1
    isplitl [M0 M1 M2 M3 M4 M5 M6 O1 O2 O3 O4 O5 O6 O7]
    · unfold give0 rsome
      isplitl [M0]; · iexists _; iexact M0
      isplitl [M1]; · iexists _; iexact M1
      isplitl [M2]; · iexists _; iexact M2
      isplitl [M3]; · iexists _; iexact M3
      isplitl [M4]; · iexists _; iexact M4
      isplitl [M5]; · iexists _; iexact M5
      isplitl [M6]; · iexists _; iexact M6
      isplitl [O1]; · iexists _; iexact O1
      isplitl [O2]; · iexists _; iexact O2
      isplitl [O3]; · iexists _; iexact O3
      isplitl [O4]; · iexists _; iexact O4
      isplitl [O5]; · iexists _; iexact O5
      isplitl [O6]; · iexists _; iexact O6
      isplitl [O7]; · iexists _; iexact O7
      isplitr; · iexact R31
      isplitr; · iexact R32
      isplitr; · iexact R33
      isplitr; · iexact R34
      isplitr; · iexact R35
      isplitr; · iexact R36
      isplitr; · iexact R37
      isplitr; · iexact R38
      isplitr; · iexact R39
      isplitr; · iexact R40
      isplitr; · iexact R41
      isplitr; · iexact R42
      isplitr; · iexact R43
      iexact R44
    iexact R1
  iintro HO
  sl_exec_parts
  iapply (signal_part m K c (partD c) rfl (owed_3 c) W) $$ [HO T2 O16 O17 O18 O19 O20 O21 O22 O23 O24 O25 O26 O27 O28 O29 O30 O31]
  · isplitr; · iapply (State.inv_bar_part m K c); iexact HI
    isplitl [HO]; · iexact HO
    isplitl [T2]; · iexact T2
    isplitl [O16 O17 O18 O19 O20 O21 O22 O23 O24 O25 O26 O27 O28 O29 O30 O31]
    · unfold giveZ rsome
      isplitl [O16]; · iexists _; iexact O16
      isplitl [O17]; · iexists _; iexact O17
      isplitl [O18]; · iexists _; iexact O18
      isplitl [O19]; · iexists _; iexact O19
      isplitl [O20]; · iexists _; iexact O20
      isplitl [O21]; · iexists _; iexact O21
      isplitl [O22]; · iexists _; iexact O22
      isplitl [O23]; · iexists _; iexact O23
      isplitl [O24]; · iexists _; iexact O24
      isplitl [O25]; · iexists _; iexact O25
      isplitl [O26]; · iexists _; iexact O26
      isplitl [O27]; · iexists _; iexact O27
      isplitl [O28]; · iexists _; iexact O28
      isplitl [O29]; · iexists _; iexact O29
      isplitl [O30]; · iexists _; iexact O30
      isplitl [O31]; · iexists _; iexact O31
      isplitr; · iexact R75
      isplitr; · iexact R76
      isplitr; · iexact R77
      isplitr; · iexact R78
      isplitr; · iexact R79
      isplitr; · iexact R80
      isplitr; · iexact R81
      isplitr; · iexact R82
      isplitr; · iexact R83
      isplitr; · iexact R84
      isplitr; · iexact R85
      isplitr; · iexact R86
      isplitr; · iexact R87
      isplitr; · iexact R88
      isplitr; · iexact R89
      iexact R90
    iexact R2
  iintro HO
  sl_exec_parts
  iapply (wait_bar m K c (owed_3 c) W) $$ [C0 HO P0]
  · isplitr; · iapply (State.inv_bar m K c); iexact HI
    isplitl [C0]; · iexact C0
    isplitl [HO]; · iexact HO
    isplitr; · iapply h_mayWait_bar; iexact Hlev
    iexact P0
  iintro ⟨HO, P0, #Rb1, Hg1, Hg0, HgZ⟩
  unfold give1 give0 giveZ rsome
  icases Hg1 with ⟨⟨%fp0, AP0⟩, ⟨%fp1, AP1⟩, ⟨%fp2, AP2⟩, ⟨%fp3, AP3⟩, ⟨%fp4, AP4⟩, ⟨%fp5, AP5⟩, ⟨%fp6, AP6⟩, ⟨%fp7, AP7⟩, ⟨%fp8, AP8⟩, ⟨%fp9, AP9⟩, ⟨%fp10, AP10⟩, ⟨%fp11, AP11⟩, ⟨%fp12, AP12⟩, ⟨%fp13, AP13⟩, #rp0, #rp1, #rp2, #rp3, #rp4, #rp5, #rp6, #rp7, #rp8, #rp9, #rp10, #rp11, #rp12, #rp13⟩
  icases Hg0 with ⟨⟨%fs0, AS0⟩, ⟨%fs1, AS1⟩, ⟨%fs2, AS2⟩, ⟨%fs3, AS3⟩, ⟨%fs4, AS4⟩, ⟨%fs5, AS5⟩, ⟨%fs6, AS6⟩, ⟨%fs7, AS7⟩, ⟨%fs8, AS8⟩, ⟨%fs9, AS9⟩, ⟨%fs10, AS10⟩, ⟨%fs11, AS11⟩, ⟨%fs12, AS12⟩, ⟨%fs13, AS13⟩, #rs0, #rs1, #rs2, #rs3, #rs4, #rs5, #rs6, #rs7, #rs8, #rs9, #rs10, #rs11, #rs12, #rs13⟩
  icases HgZ with ⟨⟨%fz0, AZ0⟩, ⟨%fz1, AZ1⟩, ⟨%fz2, AZ2⟩, ⟨%fz3, AZ3⟩, ⟨%fz4, AZ4⟩, ⟨%fz5, AZ5⟩, ⟨%fz6, AZ6⟩, ⟨%fz7, AZ7⟩, ⟨%fz8, AZ8⟩, ⟨%fz9, AZ9⟩, ⟨%fz10, AZ10⟩, ⟨%fz11, AZ11⟩, ⟨%fz12, AZ12⟩, ⟨%fz13, AZ13⟩, ⟨%fz14, AZ14⟩, ⟨%fz15, AZ15⟩, #rz0, #rz1, #rz2, #rz3, #rz4, #rz5, #rz6, #rz7, #rz8, #rz9, #rz10, #rz11, #rz12, #rz13, #rz14, #rz15⟩
  ihave X1 := (Entails.of_eq (rpts_xCh_congr (F := F) c (k0_off2 c 0#32 0#32) (k0_off1 c 0#32) (k0_off2_inb c 14) (k0_off1_inb c 0) ((off2_0_0 c).trans (off1_0 c).symm) fullShare (X m c))) $$ X1
  ihave X9 := (Entails.of_eq (rpts_xCh_congr (F := F) c (k0_off2 c 4096#32 0#32) (k0_off1 c 4096#32) (k0_off2_inb c 15) (k0_off1_inb c 1) ((off2_1_0 c).trans (off1_1 c).symm) fullShare (X m c))) $$ X9
  ihave X0 := (Entails.of_eq (rpts_xCh_congr (F := F) c (k0_off3 c 0#32 1#32) (k0_off2 c 0#32 7#32) (k0_off3_inb c 0) (k0_off2_inb c 12) ((off3_0 c).trans (off2_0_7 c).symm) fullShare (X m c))) $$ X0
  ihave X8 := (Entails.of_eq (rpts_xCh_congr (F := F) c (k0_off3 c 4096#32 4294967295#32) (k0_off2 c 4096#32 4294967289#32) (k0_off3_inb c 1) (k0_off2_inb c 13) ((off3_1 c).trans (off2_1_7 c).symm) fullShare (X m c))) $$ X8
  sl_exec_parts
  iapply (send_first_0 m K c ⟨k0_dev4 c, k0_dev4_lt c⟩ (dev4_eq c) fs0 (owed_4 c) (insert (SemLoc.reg barS, ()) W)) $$ [X1 AS0 HO T47 T3]
  · isplitr; · iapply (State.inv_own_0 m K c); iexact HI
    isplitr; · iapply (State.inv_succ_0 m K c); iexact HI
    isplitl [X1]; · iexact X1
    isplitl [AS0]; · iexact AS0
    isplitl [HO]; · iexact HO
    isplitl [T47]; · iexact T47
    isplitr; · iexact R3
    isplitl [T3]; · iexact T3
    iexact rs0
  iintro ⟨Cs0, HO⟩
  sl_exec_parts
  iapply (copy_stage_0 m K c 0 (by decide) _) $$ [X2 S0 T91]
  · isplitr; · iapply (State.inv_own_88 m K c); iexact HI
    isplitl [X2]; · iexact X2
    isplitl [S0]; · iexact S0
    isplitl [T91]; · iexact T91
    iexact R91
  iintro CL0
  sl_exec_parts
  iapply (send_first_1 m K c ⟨k0_dev5 c, k0_dev5_lt c⟩ (dev5_eq c) fp0 (owed_5 c) (insert (SemLoc.reg barS, ()) W)) $$ [X9 AP0 HO T61 T17]
  · isplitr; · iapply (State.inv_own_14 m K c); iexact HI
    isplitr; · iapply (State.inv_pred_0 m K c); iexact HI
    isplitl [X9]; · iexact X9
    isplitl [AP0]; · iexact AP0
    isplitl [HO]; · iexact HO
    isplitl [T61]; · iexact T61
    isplitr; · iexact R17
    isplitl [T17]; · iexact T17
    iexact rp0
  iintro ⟨Cs14, HO⟩
  sl_exec_parts
  iapply (copy_stage_1 m K c 0 (by decide) _) $$ [X10 S1 T99]
  · isplitr; · iapply (State.inv_own_89 m K c); iexact HI
    isplitl [X10]; · iexact X10
    isplitl [S1]; · iexact S1
    isplitl [T99]; · iexact T99
    iexact R92
  iintro CL1
  sl_exec_parts
  iapply (wait_dma m K c 28 (by decide) (owed_5 c) (insert (SemLoc.reg barS, ()) W)) $$ [C1 HO P29]
  · isplitr; · iapply (State.inv_own_28 m K c); iexact HI
    isplitl [C1]; · iexact C1
    isplitl [HO]; · iexact HO
    isplitr; · iapply h_mayWait_rs0_0; iexact Hlev
    iexact P29
  iintro ⟨HO, P29, -, MI0_0⟩
  ihave MI0_0 := (Entails.of_eq (show (dmaPay m c 28 0 : sProp 𝕄) = rpts c (cSl 0 0 inb_S2x7x512x1024_S1x1x512x1024_0_0_0_0) fullShare (CommIn m c) from rfl)) $$ MI0_0
  sl_exec_parts
  iapply (wait_local m K c 0 (by decide) 0 (by decide) (owed_5 c) (insert (SemLoc.dma (dsem 28), ()) (insert (SemLoc.reg barS, ()) W))) $$ [CL0 HO P89]
  · isplitr; · iapply (State.inv_own_88 m K c); iexact HI
    isplitl [CL0]; · iexact CL0
    isplitl [HO]; · iexact HO
    isplitr; · iapply h_mayWait_loc0_0; iexact Hlev
    iexact P89
  iintro ⟨HO, P89, #RL0_1, Hp⟩
  ihave Hp := (Entails.of_eq (show (dmaPay m c (88 + 0) 0 : sProp 𝕄) = iprop(rpts c (sSl 0 inb_S2x512x1024_S1x512x1024_0_0_0) fullShare (StageAt m c 0) ∗ rpts c (xCh (k0_off2 c 0#32 1#32) (k0_off2_inb c 0)) fullShare (X m c)) from rfl)) $$ Hp
  icases Hp with ⟨S0, X2⟩
  sl_exec_parts
  unfold sound_body.sl.MI0_0_w1
  ihave MA0_0 := (upd_first_run m c 0 (by decide) k0_pay1 pay1_eq) $$ MI0_0
  iapply (wait_dma m K c 42 (by decide) (owed_5 c) (insert (SemLoc.dma (dsem 88), ()) (insert (SemLoc.dma (dsem 28), ()) (insert (SemLoc.reg barS, ()) W)))) $$ [C15 HO P43]
  · isplitr; · iapply (State.inv_own_42 m K c); iexact HI
    isplitl [C15]; · iexact C15
    isplitl [HO]; · iexact HO
    isplitr; · iapply h_mayWait_rs1_0; iexact Hlev
    iexact P43
  iintro ⟨HO, P43, -, MI1_0⟩
  ihave MI1_0 := (Entails.of_eq (show (dmaPay m c 42 0 : sProp 𝕄) = rpts c (cSl 1 0 inb_S2x7x512x1024_S1x1x512x1024_1_0_0_0) fullShare (CommIn m c) from rfl)) $$ MI1_0
  sl_exec_parts
  iapply (wait_local m K c 1 (by decide) 0 (by decide) (owed_5 c) (insert (SemLoc.dma (dsem 42), ()) (insert (SemLoc.dma (dsem 88), ()) (insert (SemLoc.dma (dsem 28), ()) (insert (SemLoc.reg barS, ()) W))))) $$ [CL1 HO P90]
  · isplitr; · iapply (State.inv_own_89 m K c); iexact HI
    isplitl [CL1]; · iexact CL1
    isplitl [HO]; · iexact HO
    isplitr; · iapply h_mayWait_loc1_0; iexact Hlev
    iexact P90
  iintro ⟨HO, P90, #RL1_1, Hp⟩
  ihave Hp := (Entails.of_eq (show (dmaPay m c (88 + 1) 0 : sProp 𝕄) = iprop(rpts c (sSl 1 inb_S2x512x1024_S1x512x1024_1_0_0) fullShare (StageAt m c 0) ∗ rpts c (xCh (k0_off2 c 4096#32 4294967295#32) (k0_off2_inb c 1)) fullShare (X m c)) from rfl)) $$ Hp
  icases Hp with ⟨S1, X10⟩
  sl_exec_parts
  unfold sound_body.sl.MI1_0_w1
  ihave MA1_0 := (upd_first_run m c 1 (by decide) k0_pay2 pay2_eq) $$ MI1_0
  iapply (send_ring_0 m K c ⟨k0_dev6 c, k0_dev6_lt c⟩ (dev6_eq c) 0 (by decide) fs1 (owed_6 c) (insert (SemLoc.dma (dsem 89), ()) (insert (SemLoc.dma (dsem 42), ()) (insert (SemLoc.dma (dsem 88), ()) (insert (SemLoc.dma (dsem 28), ()) (insert (SemLoc.reg barS, ()) W)))))) $$ [MA0_0 AS1 HO T48 T4]
  · isplitr; · iapply (State.inv_own_1 m K c); iexact HI
    isplitr; · iapply (State.inv_succ_1 m K c); iexact HI
    isplitl [MA0_0]; · iexact MA0_0
    isplitl [AS1]; · iexact AS1
    isplitl [HO]; · iexact HO
    isplitl [T48]; · iexact T48
    isplitr; · iexact R4
    isplitl [T4]; · iexact T4
    iexact rs1
  iintro ⟨Cs1, HO⟩
  sl_exec_parts
  iapply (copy_stage_0 m K c 1 (by decide) (StageAt m c 0)) $$ [X3 S0 T92]
  · isplitr; · iapply (State.inv_own_88 m K c); iexact HI
    isplitl [X3]; · iexact X3
    isplitl [S0]; · iexact S0
    isplitl [T92]; · iexact T92
    iexact RL0_1
  iintro CL0
  sl_exec_parts
  iapply (send_ring_1 m K c ⟨k0_dev7 c, k0_dev7_lt c⟩ (dev7_eq c) 0 (by decide) fp1 (owed_7 c) (insert (SemLoc.dma (dsem 89), ()) (insert (SemLoc.dma (dsem 42), ()) (insert (SemLoc.dma (dsem 88), ()) (insert (SemLoc.dma (dsem 28), ()) (insert (SemLoc.reg barS, ()) W)))))) $$ [MA1_0 AP1 HO T62 T18]
  · isplitr; · iapply (State.inv_own_15 m K c); iexact HI
    isplitr; · iapply (State.inv_pred_1 m K c); iexact HI
    isplitl [MA1_0]; · iexact MA1_0
    isplitl [AP1]; · iexact AP1
    isplitl [HO]; · iexact HO
    isplitl [T62]; · iexact T62
    isplitr; · iexact R18
    isplitl [T18]; · iexact T18
    iexact rp1
  iintro ⟨Cs15, HO⟩
  sl_exec_parts
  iapply (copy_stage_1 m K c 1 (by decide) (StageAt m c 0)) $$ [X11 S1 T100]
  · isplitr; · iapply (State.inv_own_89 m K c); iexact HI
    isplitl [X11]; · iexact X11
    isplitl [S1]; · iexact S1
    isplitl [T100]; · iexact T100
    iexact RL1_1
  iintro CL1
  sl_exec_parts
  iapply (wait_dma m K c 29 (by decide) (owed_7 c) (insert (SemLoc.dma (dsem 89), ()) (insert (SemLoc.dma (dsem 42), ()) (insert (SemLoc.dma (dsem 88), ()) (insert (SemLoc.dma (dsem 28), ()) (insert (SemLoc.reg barS, ()) W)))))) $$ [C2 HO P30]
  · isplitr; · iapply (State.inv_own_29 m K c); iexact HI
    isplitl [C2]; · iexact C2
    isplitl [HO]; · iexact HO
    isplitr; · iapply h_mayWait_rs0_1; iexact Hlev
    iexact P30
  iintro ⟨HO, P30, -, MI0_1⟩
  ihave MI0_1 := (Entails.of_eq (show (dmaPay m c 29 0 : sProp 𝕄) = rpts c (cSl 0 1 inb_S2x7x512x1024_S1x1x512x1024_0_1_0_0) fullShare (CommIn m c) from rfl)) $$ MI0_1
  sl_exec_parts
  iapply (wait_local m K c 0 (by decide) 1 (by decide) (owed_7 c) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))) $$ [CL0 HO P89]
  · isplitr; · iapply (State.inv_own_88 m K c); iexact HI
    isplitl [CL0]; · iexact CL0
    isplitl [HO]; · iexact HO
    isplitr; · iapply h_mayWait_loc0_1; iexact Hlev
    iexact P89
  iintro ⟨HO, P89, #RL0_2, Hp⟩
  ihave Hp := (Entails.of_eq (show (dmaPay m c (88 + 0) 1 : sProp 𝕄) = iprop(rpts c (sSl 0 inb_S2x512x1024_S1x512x1024_0_0_0) fullShare (StageAt m c 1) ∗ rpts c (xCh (k0_off2 c 0#32 2#32) (k0_off2_inb c 2)) fullShare (X m c)) from rfl)) $$ Hp
  icases Hp with ⟨S0, X3⟩
  sl_exec_parts
  unfold sound_body.sl.MI0_1_w1
  ihave MA0_1 := (upd_later_run m c 0 0 (by decide) (by decide) k0_pay3 pay3_eq) $$ MI0_1
  iapply (wait_dma m K c 43 (by decide) (owed_7 c) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))) $$ [C16 HO P44]
  · isplitr; · iapply (State.inv_own_43 m K c); iexact HI
    isplitl [C16]; · iexact C16
    isplitl [HO]; · iexact HO
    isplitr; · iapply h_mayWait_rs1_1; iexact Hlev
    iexact P44
  iintro ⟨HO, P44, -, MI1_1⟩
  ihave MI1_1 := (Entails.of_eq (show (dmaPay m c 43 0 : sProp 𝕄) = rpts c (cSl 1 1 inb_S2x7x512x1024_S1x1x512x1024_1_1_0_0) fullShare (CommIn m c) from rfl)) $$ MI1_1
  sl_exec_parts
  iapply (wait_local m K c 1 (by decide) 1 (by decide) (owed_7 c) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))) $$ [CL1 HO P90]
  · isplitr; · iapply (State.inv_own_89 m K c); iexact HI
    isplitl [CL1]; · iexact CL1
    isplitl [HO]; · iexact HO
    isplitr; · iapply h_mayWait_loc1_1; iexact Hlev
    iexact P90
  iintro ⟨HO, P90, #RL1_2, Hp⟩
  ihave Hp := (Entails.of_eq (show (dmaPay m c (88 + 1) 1 : sProp 𝕄) = iprop(rpts c (sSl 1 inb_S2x512x1024_S1x512x1024_1_0_0) fullShare (StageAt m c 1) ∗ rpts c (xCh (k0_off2 c 4096#32 4294967294#32) (k0_off2_inb c 3)) fullShare (X m c)) from rfl)) $$ Hp
  icases Hp with ⟨S1, X11⟩
  sl_exec_parts
  unfold sound_body.sl.MI1_1_w1
  ihave MA1_1 := (upd_later_run m c 1 0 (by decide) (by decide) k0_pay4 pay4_eq) $$ MI1_1
  iapply (send_ring_0 m K c ⟨k0_dev8 c, k0_dev8_lt c⟩ (dev8_eq c) 1 (by decide) fs2 (owed_8 c) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))) $$ [MA0_1 AS2 HO T49 T5]
  · isplitr; · iapply (State.inv_own_2 m K c); iexact HI
    isplitr; · iapply (State.inv_succ_2 m K c); iexact HI
    isplitl [MA0_1]; · iexact MA0_1
    isplitl [AS2]; · iexact AS2
    isplitl [HO]; · iexact HO
    isplitl [T49]; · iexact T49
    isplitr; · iexact R5
    isplitl [T5]; · iexact T5
    iexact rs2
  iintro ⟨Cs2, HO⟩
  sl_exec_parts
  iapply (copy_stage_0 m K c 2 (by decide) (StageAt m c 1)) $$ [X4 S0 T93]
  · isplitr; · iapply (State.inv_own_88 m K c); iexact HI
    isplitl [X4]; · iexact X4
    isplitl [S0]; · iexact S0
    isplitl [T93]; · iexact T93
    iexact RL0_2
  iintro CL0
  sl_exec_parts
  iapply (send_ring_1 m K c ⟨k0_dev9 c, k0_dev9_lt c⟩ (dev9_eq c) 1 (by decide) fp2 (owed_9 c) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))) $$ [MA1_1 AP2 HO T63 T19]
  · isplitr; · iapply (State.inv_own_16 m K c); iexact HI
    isplitr; · iapply (State.inv_pred_2 m K c); iexact HI
    isplitl [MA1_1]; · iexact MA1_1
    isplitl [AP2]; · iexact AP2
    isplitl [HO]; · iexact HO
    isplitl [T63]; · iexact T63
    isplitr; · iexact R19
    isplitl [T19]; · iexact T19
    iexact rp2
  iintro ⟨Cs16, HO⟩
  sl_exec_parts
  iapply (copy_stage_1 m K c 2 (by decide) (StageAt m c 1)) $$ [X12 S1 T101]
  · isplitr; · iapply (State.inv_own_89 m K c); iexact HI
    isplitl [X12]; · iexact X12
    isplitl [S1]; · iexact S1
    isplitl [T101]; · iexact T101
    iexact RL1_2
  iintro CL1
  sl_exec_parts
  iapply (wait_dma m K c 30 (by decide) (owed_9 c) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))) $$ [C3 HO P31]
  · isplitr; · iapply (State.inv_own_30 m K c); iexact HI
    isplitl [C3]; · iexact C3
    isplitl [HO]; · iexact HO
    isplitr; · iapply h_mayWait_rs0_2; iexact Hlev
    iexact P31
  iintro ⟨HO, P31, -, MI0_2⟩
  ihave MI0_2 := (Entails.of_eq (show (dmaPay m c 30 0 : sProp 𝕄) = rpts c (cSl 0 2 inb_S2x7x512x1024_S1x1x512x1024_0_2_0_0) fullShare (CommIn m c) from rfl)) $$ MI0_2
  sl_exec_parts
  iapply (wait_local m K c 0 (by decide) 2 (by decide) (owed_9 c) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))) $$ [CL0 HO P89]
  · isplitr; · iapply (State.inv_own_88 m K c); iexact HI
    isplitl [CL0]; · iexact CL0
    isplitl [HO]; · iexact HO
    isplitr; · iapply h_mayWait_loc0_2; iexact Hlev
    iexact P89
  iintro ⟨HO, P89, #RL0_3, Hp⟩
  ihave Hp := (Entails.of_eq (show (dmaPay m c (88 + 0) 2 : sProp 𝕄) = iprop(rpts c (sSl 0 inb_S2x512x1024_S1x512x1024_0_0_0) fullShare (StageAt m c 2) ∗ rpts c (xCh (k0_off2 c 0#32 3#32) (k0_off2_inb c 4)) fullShare (X m c)) from rfl)) $$ Hp
  icases Hp with ⟨S0, X4⟩
  sl_exec_parts
  unfold sound_body.sl.MI0_2_w1
  ihave MA0_2 := (upd_later_run m c 0 1 (by decide) (by decide) k0_pay5 pay5_eq) $$ MI0_2
  iapply (wait_dma m K c 44 (by decide) (owed_9 c) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))) $$ [C17 HO P45]
  · isplitr; · iapply (State.inv_own_44 m K c); iexact HI
    isplitl [C17]; · iexact C17
    isplitl [HO]; · iexact HO
    isplitr; · iapply h_mayWait_rs1_2; iexact Hlev
    iexact P45
  iintro ⟨HO, P45, -, MI1_2⟩
  ihave MI1_2 := (Entails.of_eq (show (dmaPay m c 44 0 : sProp 𝕄) = rpts c (cSl 1 2 inb_S2x7x512x1024_S1x1x512x1024_1_2_0_0) fullShare (CommIn m c) from rfl)) $$ MI1_2
  sl_exec_parts
  iapply (wait_local m K c 1 (by decide) 2 (by decide) (owed_9 c) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))) $$ [CL1 HO P90]
  · isplitr; · iapply (State.inv_own_89 m K c); iexact HI
    isplitl [CL1]; · iexact CL1
    isplitl [HO]; · iexact HO
    isplitr; · iapply h_mayWait_loc1_2; iexact Hlev
    iexact P90
  iintro ⟨HO, P90, #RL1_3, Hp⟩
  ihave Hp := (Entails.of_eq (show (dmaPay m c (88 + 1) 2 : sProp 𝕄) = iprop(rpts c (sSl 1 inb_S2x512x1024_S1x512x1024_1_0_0) fullShare (StageAt m c 2) ∗ rpts c (xCh (k0_off2 c 4096#32 4294967293#32) (k0_off2_inb c 5)) fullShare (X m c)) from rfl)) $$ Hp
  icases Hp with ⟨S1, X12⟩
  sl_exec_parts
  unfold sound_body.sl.MI1_2_w1
  ihave MA1_2 := (upd_later_run m c 1 1 (by decide) (by decide) k0_pay6 pay6_eq) $$ MI1_2
  iapply (send_ring_0 m K c ⟨k0_dev10 c, k0_dev10_lt c⟩ (dev10_eq c) 2 (by decide) fs3 (owed_10 c) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))) $$ [MA0_2 AS3 HO T50 T6]
  · isplitr; · iapply (State.inv_own_3 m K c); iexact HI
    isplitr; · iapply (State.inv_succ_3 m K c); iexact HI
    isplitl [MA0_2]; · iexact MA0_2
    isplitl [AS3]; · iexact AS3
    isplitl [HO]; · iexact HO
    isplitl [T50]; · iexact T50
    isplitr; · iexact R6
    isplitl [T6]; · iexact T6
    iexact rs3
  iintro ⟨Cs3, HO⟩
  sl_exec_parts
  iapply (copy_stage_0 m K c 3 (by decide) (StageAt m c 2)) $$ [X5 S0 T94]
  · isplitr; · iapply (State.inv_own_88 m K c); iexact HI
    isplitl [X5]; · iexact X5
    isplitl [S0]; · iexact S0
    isplitl [T94]; · iexact T94
    iexact RL0_3
  iintro CL0
  sl_exec_parts
  iapply (send_ring_1 m K c ⟨k0_dev11 c, k0_dev11_lt c⟩ (dev11_eq c) 2 (by decide) fp3 (owed_11 c) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))) $$ [MA1_2 AP3 HO T64 T20]
  · isplitr; · iapply (State.inv_own_17 m K c); iexact HI
    isplitr; · iapply (State.inv_pred_3 m K c); iexact HI
    isplitl [MA1_2]; · iexact MA1_2
    isplitl [AP3]; · iexact AP3
    isplitl [HO]; · iexact HO
    isplitl [T64]; · iexact T64
    isplitr; · iexact R20
    isplitl [T20]; · iexact T20
    iexact rp3
  iintro ⟨Cs17, HO⟩
  sl_exec_parts
  iapply (copy_stage_1 m K c 3 (by decide) (StageAt m c 2)) $$ [X13 S1 T102]
  · isplitr; · iapply (State.inv_own_89 m K c); iexact HI
    isplitl [X13]; · iexact X13
    isplitl [S1]; · iexact S1
    isplitl [T102]; · iexact T102
    iexact RL1_3
  iintro CL1
  sl_exec_parts
  iapply (wait_dma m K c 31 (by decide) (owed_11 c) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))) $$ [C4 HO P32]
  · isplitr; · iapply (State.inv_own_31 m K c); iexact HI
    isplitl [C4]; · iexact C4
    isplitl [HO]; · iexact HO
    isplitr; · iapply h_mayWait_rs0_3; iexact Hlev
    iexact P32
  iintro ⟨HO, P32, -, MI0_3⟩
  ihave MI0_3 := (Entails.of_eq (show (dmaPay m c 31 0 : sProp 𝕄) = rpts c (cSl 0 3 inb_S2x7x512x1024_S1x1x512x1024_0_3_0_0) fullShare (CommIn m c) from rfl)) $$ MI0_3
  sl_exec_parts
  iapply (wait_local m K c 0 (by decide) 3 (by decide) (owed_11 c) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))) $$ [CL0 HO P89]
  · isplitr; · iapply (State.inv_own_88 m K c); iexact HI
    isplitl [CL0]; · iexact CL0
    isplitl [HO]; · iexact HO
    isplitr; · iapply h_mayWait_loc0_3; iexact Hlev
    iexact P89
  iintro ⟨HO, P89, #RL0_4, Hp⟩
  ihave Hp := (Entails.of_eq (show (dmaPay m c (88 + 0) 3 : sProp 𝕄) = iprop(rpts c (sSl 0 inb_S2x512x1024_S1x512x1024_0_0_0) fullShare (StageAt m c 3) ∗ rpts c (xCh (k0_off2 c 0#32 4#32) (k0_off2_inb c 6)) fullShare (X m c)) from rfl)) $$ Hp
  icases Hp with ⟨S0, X5⟩
  sl_exec_parts
  unfold sound_body.sl.MI0_3_w1
  ihave MA0_3 := (upd_later_run m c 0 2 (by decide) (by decide) k0_pay7 pay7_eq) $$ MI0_3
  iapply (wait_dma m K c 45 (by decide) (owed_11 c) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))) $$ [C18 HO P46]
  · isplitr; · iapply (State.inv_own_45 m K c); iexact HI
    isplitl [C18]; · iexact C18
    isplitl [HO]; · iexact HO
    isplitr; · iapply h_mayWait_rs1_3; iexact Hlev
    iexact P46
  iintro ⟨HO, P46, -, MI1_3⟩
  ihave MI1_3 := (Entails.of_eq (show (dmaPay m c 45 0 : sProp 𝕄) = rpts c (cSl 1 3 inb_S2x7x512x1024_S1x1x512x1024_1_3_0_0) fullShare (CommIn m c) from rfl)) $$ MI1_3
  sl_exec_parts
  iapply (wait_local m K c 1 (by decide) 3 (by decide) (owed_11 c) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))) $$ [CL1 HO P90]
  · isplitr; · iapply (State.inv_own_89 m K c); iexact HI
    isplitl [CL1]; · iexact CL1
    isplitl [HO]; · iexact HO
    isplitr; · iapply h_mayWait_loc1_3; iexact Hlev
    iexact P90
  iintro ⟨HO, P90, #RL1_4, Hp⟩
  ihave Hp := (Entails.of_eq (show (dmaPay m c (88 + 1) 3 : sProp 𝕄) = iprop(rpts c (sSl 1 inb_S2x512x1024_S1x512x1024_1_0_0) fullShare (StageAt m c 3) ∗ rpts c (xCh (k0_off2 c 4096#32 4294967292#32) (k0_off2_inb c 7)) fullShare (X m c)) from rfl)) $$ Hp
  icases Hp with ⟨S1, X13⟩
  sl_exec_parts
  unfold sound_body.sl.MI1_3_w1
  ihave MA1_3 := (upd_later_run m c 1 2 (by decide) (by decide) k0_pay8 pay8_eq) $$ MI1_3
  iapply (send_ring_0 m K c ⟨k0_dev12 c, k0_dev12_lt c⟩ (dev12_eq c) 3 (by decide) fs4 (owed_12 c) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))) $$ [MA0_3 AS4 HO T51 T7]
  · isplitr; · iapply (State.inv_own_4 m K c); iexact HI
    isplitr; · iapply (State.inv_succ_4 m K c); iexact HI
    isplitl [MA0_3]; · iexact MA0_3
    isplitl [AS4]; · iexact AS4
    isplitl [HO]; · iexact HO
    isplitl [T51]; · iexact T51
    isplitr; · iexact R7
    isplitl [T7]; · iexact T7
    iexact rs4
  iintro ⟨Cs4, HO⟩
  sl_exec_parts
  iapply (copy_stage_0 m K c 4 (by decide) (StageAt m c 3)) $$ [X6 S0 T95]
  · isplitr; · iapply (State.inv_own_88 m K c); iexact HI
    isplitl [X6]; · iexact X6
    isplitl [S0]; · iexact S0
    isplitl [T95]; · iexact T95
    iexact RL0_4
  iintro CL0
  sl_exec_parts
  iapply (send_ring_1 m K c ⟨k0_dev13 c, k0_dev13_lt c⟩ (dev13_eq c) 3 (by decide) fp4 (owed_13 c) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))) $$ [MA1_3 AP4 HO T65 T21]
  · isplitr; · iapply (State.inv_own_18 m K c); iexact HI
    isplitr; · iapply (State.inv_pred_4 m K c); iexact HI
    isplitl [MA1_3]; · iexact MA1_3
    isplitl [AP4]; · iexact AP4
    isplitl [HO]; · iexact HO
    isplitl [T65]; · iexact T65
    isplitr; · iexact R21
    isplitl [T21]; · iexact T21
    iexact rp4
  iintro ⟨Cs18, HO⟩
  sl_exec_parts
  iapply (copy_stage_1 m K c 4 (by decide) (StageAt m c 3)) $$ [X14 S1 T103]
  · isplitr; · iapply (State.inv_own_89 m K c); iexact HI
    isplitl [X14]; · iexact X14
    isplitl [S1]; · iexact S1
    isplitl [T103]; · iexact T103
    iexact RL1_4
  iintro CL1
  sl_exec_parts
  iapply (wait_dma m K c 32 (by decide) (owed_13 c) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))) $$ [C5 HO P33]
  · isplitr; · iapply (State.inv_own_32 m K c); iexact HI
    isplitl [C5]; · iexact C5
    isplitl [HO]; · iexact HO
    isplitr; · iapply h_mayWait_rs0_4; iexact Hlev
    iexact P33
  iintro ⟨HO, P33, -, MI0_4⟩
  ihave MI0_4 := (Entails.of_eq (show (dmaPay m c 32 0 : sProp 𝕄) = rpts c (cSl 0 4 inb_S2x7x512x1024_S1x1x512x1024_0_4_0_0) fullShare (CommIn m c) from rfl)) $$ MI0_4
  sl_exec_parts
  iapply (wait_local m K c 0 (by decide) 4 (by decide) (owed_13 c) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))) $$ [CL0 HO P89]
  · isplitr; · iapply (State.inv_own_88 m K c); iexact HI
    isplitl [CL0]; · iexact CL0
    isplitl [HO]; · iexact HO
    isplitr; · iapply h_mayWait_loc0_4; iexact Hlev
    iexact P89
  iintro ⟨HO, P89, #RL0_5, Hp⟩
  ihave Hp := (Entails.of_eq (show (dmaPay m c (88 + 0) 4 : sProp 𝕄) = iprop(rpts c (sSl 0 inb_S2x512x1024_S1x512x1024_0_0_0) fullShare (StageAt m c 4) ∗ rpts c (xCh (k0_off2 c 0#32 5#32) (k0_off2_inb c 8)) fullShare (X m c)) from rfl)) $$ Hp
  icases Hp with ⟨S0, X6⟩
  sl_exec_parts
  unfold sound_body.sl.MI0_4_w1
  ihave MA0_4 := (upd_later_run m c 0 3 (by decide) (by decide) k0_pay9 pay9_eq) $$ MI0_4
  iapply (wait_dma m K c 46 (by decide) (owed_13 c) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))) $$ [C19 HO P47]
  · isplitr; · iapply (State.inv_own_46 m K c); iexact HI
    isplitl [C19]; · iexact C19
    isplitl [HO]; · iexact HO
    isplitr; · iapply h_mayWait_rs1_4; iexact Hlev
    iexact P47
  iintro ⟨HO, P47, -, MI1_4⟩
  ihave MI1_4 := (Entails.of_eq (show (dmaPay m c 46 0 : sProp 𝕄) = rpts c (cSl 1 4 inb_S2x7x512x1024_S1x1x512x1024_1_4_0_0) fullShare (CommIn m c) from rfl)) $$ MI1_4
  sl_exec_parts
  iapply (wait_local m K c 1 (by decide) 4 (by decide) (owed_13 c) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))) $$ [CL1 HO P90]
  · isplitr; · iapply (State.inv_own_89 m K c); iexact HI
    isplitl [CL1]; · iexact CL1
    isplitl [HO]; · iexact HO
    isplitr; · iapply h_mayWait_loc1_4; iexact Hlev
    iexact P90
  iintro ⟨HO, P90, #RL1_5, Hp⟩
  ihave Hp := (Entails.of_eq (show (dmaPay m c (88 + 1) 4 : sProp 𝕄) = iprop(rpts c (sSl 1 inb_S2x512x1024_S1x512x1024_1_0_0) fullShare (StageAt m c 4) ∗ rpts c (xCh (k0_off2 c 4096#32 4294967291#32) (k0_off2_inb c 9)) fullShare (X m c)) from rfl)) $$ Hp
  icases Hp with ⟨S1, X14⟩
  sl_exec_parts
  unfold sound_body.sl.MI1_4_w1
  ihave MA1_4 := (upd_later_run m c 1 3 (by decide) (by decide) k0_pay10 pay10_eq) $$ MI1_4
  iapply (send_ring_0 m K c ⟨k0_dev14 c, k0_dev14_lt c⟩ (dev14_eq c) 4 (by decide) fs5 (owed_14 c) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))) $$ [MA0_4 AS5 HO T52 T8]
  · isplitr; · iapply (State.inv_own_5 m K c); iexact HI
    isplitr; · iapply (State.inv_succ_5 m K c); iexact HI
    isplitl [MA0_4]; · iexact MA0_4
    isplitl [AS5]; · iexact AS5
    isplitl [HO]; · iexact HO
    isplitl [T52]; · iexact T52
    isplitr; · iexact R8
    isplitl [T8]; · iexact T8
    iexact rs5
  iintro ⟨Cs5, HO⟩
  sl_exec_parts
  iapply (copy_stage_0 m K c 5 (by decide) (StageAt m c 4)) $$ [X7 S0 T96]
  · isplitr; · iapply (State.inv_own_88 m K c); iexact HI
    isplitl [X7]; · iexact X7
    isplitl [S0]; · iexact S0
    isplitl [T96]; · iexact T96
    iexact RL0_5
  iintro CL0
  sl_exec_parts
  iapply (send_ring_1 m K c ⟨k0_dev15 c, k0_dev15_lt c⟩ (dev15_eq c) 4 (by decide) fp5 (owed_15 c) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))) $$ [MA1_4 AP5 HO T66 T22]
  · isplitr; · iapply (State.inv_own_19 m K c); iexact HI
    isplitr; · iapply (State.inv_pred_5 m K c); iexact HI
    isplitl [MA1_4]; · iexact MA1_4
    isplitl [AP5]; · iexact AP5
    isplitl [HO]; · iexact HO
    isplitl [T66]; · iexact T66
    isplitr; · iexact R22
    isplitl [T22]; · iexact T22
    iexact rp5
  iintro ⟨Cs19, HO⟩
  sl_exec_parts
  iapply (copy_stage_1 m K c 5 (by decide) (StageAt m c 4)) $$ [X15 S1 T104]
  · isplitr; · iapply (State.inv_own_89 m K c); iexact HI
    isplitl [X15]; · iexact X15
    isplitl [S1]; · iexact S1
    isplitl [T104]; · iexact T104
    iexact RL1_5
  iintro CL1
  sl_exec_parts
  iapply (wait_dma m K c 33 (by decide) (owed_15 c) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))) $$ [C6 HO P34]
  · isplitr; · iapply (State.inv_own_33 m K c); iexact HI
    isplitl [C6]; · iexact C6
    isplitl [HO]; · iexact HO
    isplitr; · iapply h_mayWait_rs0_5; iexact Hlev
    iexact P34
  iintro ⟨HO, P34, -, MI0_5⟩
  ihave MI0_5 := (Entails.of_eq (show (dmaPay m c 33 0 : sProp 𝕄) = rpts c (cSl 0 5 inb_S2x7x512x1024_S1x1x512x1024_0_5_0_0) fullShare (CommIn m c) from rfl)) $$ MI0_5
  sl_exec_parts
  iapply (wait_local m K c 0 (by decide) 5 (by decide) (owed_15 c) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))) $$ [CL0 HO P89]
  · isplitr; · iapply (State.inv_own_88 m K c); iexact HI
    isplitl [CL0]; · iexact CL0
    isplitl [HO]; · iexact HO
    isplitr; · iapply h_mayWait_loc0_5; iexact Hlev
    iexact P89
  iintro ⟨HO, P89, #RL0_6, Hp⟩
  ihave Hp := (Entails.of_eq (show (dmaPay m c (88 + 0) 5 : sProp 𝕄) = iprop(rpts c (sSl 0 inb_S2x512x1024_S1x512x1024_0_0_0) fullShare (StageAt m c 5) ∗ rpts c (xCh (k0_off2 c 0#32 6#32) (k0_off2_inb c 10)) fullShare (X m c)) from rfl)) $$ Hp
  icases Hp with ⟨S0, X7⟩
  sl_exec_parts
  unfold sound_body.sl.MI0_5_w1
  unfold sound_body.sl.v1213
  ihave MA0_5 := (upd_later_run m c 0 4 (by decide) (by decide) (fun x y => k0_pay12 (shapeCast S512x1024 x shapeCasts_S1x1x512x1024_S512x1024) y) (fun a b => by show k0_pay12 (k0_pay11 (up4 a)) (up3 b) = _; rw [pay11_eq, pay12_eq])) $$ MI0_5
  iapply (wait_dma m K c 47 (by decide) (owed_15 c) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))) $$ [C20 HO P48]
  · isplitr; · iapply (State.inv_own_47 m K c); iexact HI
    isplitl [C20]; · iexact C20
    isplitl [HO]; · iexact HO
    isplitr; · iapply h_mayWait_rs1_5; iexact Hlev
    iexact P48
  iintro ⟨HO, P48, -, MI1_5⟩
  ihave MI1_5 := (Entails.of_eq (show (dmaPay m c 47 0 : sProp 𝕄) = rpts c (cSl 1 5 inb_S2x7x512x1024_S1x1x512x1024_1_5_0_0) fullShare (CommIn m c) from rfl)) $$ MI1_5
  sl_exec_parts
  iapply (wait_local m K c 1 (by decide) 5 (by decide) (owed_15 c) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))) $$ [CL1 HO P90]
  · isplitr; · iapply (State.inv_own_89 m K c); iexact HI
    isplitl [CL1]; · iexact CL1
    isplitl [HO]; · iexact HO
    isplitr; · iapply h_mayWait_loc1_5; iexact Hlev
    iexact P90
  iintro ⟨HO, P90, #RL1_6, Hp⟩
  ihave Hp := (Entails.of_eq (show (dmaPay m c (88 + 1) 5 : sProp 𝕄) = iprop(rpts c (sSl 1 inb_S2x512x1024_S1x512x1024_1_0_0) fullShare (StageAt m c 5) ∗ rpts c (xCh (k0_off2 c 4096#32 4294967290#32) (k0_off2_inb c 11)) fullShare (X m c)) from rfl)) $$ Hp
  icases Hp with ⟨S1, X15⟩
  sl_exec_parts
  unfold sound_body.sl.MI1_5_w1
  ihave MA1_5 := (upd_later_run m c 1 4 (by decide) (by decide) k0_pay13 pay13_eq) $$ MI1_5
  iapply (send_ring_0 m K c ⟨k0_dev16 c, k0_dev16_lt c⟩ (dev16_eq c) 5 (by decide) fs6 (owed_16 c) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))) $$ [MA0_5 AS6 HO T53 T9]
  · isplitr; · iapply (State.inv_own_6 m K c); iexact HI
    isplitr; · iapply (State.inv_succ_6 m K c); iexact HI
    isplitl [MA0_5]; · iexact MA0_5
    isplitl [AS6]; · iexact AS6
    isplitl [HO]; · iexact HO
    isplitl [T53]; · iexact T53
    isplitr; · iexact R9
    isplitl [T9]; · iexact T9
    iexact rs6
  iintro ⟨Cs6, HO⟩
  sl_exec_parts
  iapply (copy_stage_0 m K c 6 (by decide) (StageAt m c 5)) $$ [X0 S0 T97]
  · isplitr; · iapply (State.inv_own_88 m K c); iexact HI
    isplitl [X0]; · iexact X0
    isplitl [S0]; · iexact S0
    isplitl [T97]; · iexact T97
    iexact RL0_6
  iintro CL0
  sl_exec_parts
  iapply (send_ring_1 m K c ⟨k0_dev17 c, k0_dev17_lt c⟩ (dev17_eq c) 5 (by decide) fp6 (owed_17 c) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))) $$ [MA1_5 AP6 HO T67 T23]
  · isplitr; · iapply (State.inv_own_20 m K c); iexact HI
    isplitr; · iapply (State.inv_pred_6 m K c); iexact HI
    isplitl [MA1_5]; · iexact MA1_5
    isplitl [AP6]; · iexact AP6
    isplitl [HO]; · iexact HO
    isplitl [T67]; · iexact T67
    isplitr; · iexact R23
    isplitl [T23]; · iexact T23
    iexact rp6
  iintro ⟨Cs20, HO⟩
  sl_exec_parts
  iapply (copy_stage_1 m K c 6 (by decide) (StageAt m c 5)) $$ [X8 S1 T105]
  · isplitr; · iapply (State.inv_own_89 m K c); iexact HI
    isplitl [X8]; · iexact X8
    isplitl [S1]; · iexact S1
    isplitl [T105]; · iexact T105
    iexact RL1_6
  iintro CL1
  sl_exec_parts
  iapply (wait_dma m K c 34 (by decide) (owed_17 c) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))) $$ [C7 HO P35]
  · isplitr; · iapply (State.inv_own_34 m K c); iexact HI
    isplitl [C7]; · iexact C7
    isplitl [HO]; · iexact HO
    isplitr; · iapply h_mayWait_rs0_6; iexact Hlev
    iexact P35
  iintro ⟨HO, P35, -, MI0_6⟩
  ihave MI0_6 := (Entails.of_eq (show (dmaPay m c 34 0 : sProp 𝕄) = rpts c (cSl 0 6 inb_S2x7x512x1024_S1x1x512x1024_0_6_0_0) fullShare (CommIn m c) from rfl)) $$ MI0_6
  sl_exec_parts
  iapply (wait_local m K c 0 (by decide) 6 (by decide) (owed_17 c) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))) $$ [CL0 HO P89]
  · isplitr; · iapply (State.inv_own_88 m K c); iexact HI
    isplitl [CL0]; · iexact CL0
    isplitl [HO]; · iexact HO
    isplitr; · iapply h_mayWait_loc0_6; iexact Hlev
    iexact P89
  iintro ⟨HO, P89, #RL0_7, Hp⟩
  ihave Hp := (Entails.of_eq (show (dmaPay m c (88 + 0) 6 : sProp 𝕄) = iprop(rpts c (sSl 0 inb_S2x512x1024_S1x512x1024_0_0_0) fullShare (StageAt m c 6) ∗ rpts c (xCh (k0_off2 c 0#32 7#32) (k0_off2_inb c 12)) fullShare (X m c)) from rfl)) $$ Hp
  icases Hp with ⟨S0, X0⟩
  sl_exec_parts
  unfold sound_body.sl.MI0_6_w1
  unfold sound_body.sl.v1399
  ihave MA0_6 := (upd_later_run m c 0 5 (by decide) (by decide) (fun x y => k0_pay15 (shapeCast S512x1024 x shapeCasts_S1x1x512x1024_S512x1024) y) (fun a b => by show k0_pay15 (k0_pay14 (up4 a)) (up3 b) = _; rw [pay14_eq, pay15_eq])) $$ MI0_6
  iapply (wait_dma m K c 48 (by decide) (owed_17 c) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))) $$ [C21 HO P49]
  · isplitr; · iapply (State.inv_own_48 m K c); iexact HI
    isplitl [C21]; · iexact C21
    isplitl [HO]; · iexact HO
    isplitr; · iapply h_mayWait_rs1_6; iexact Hlev
    iexact P49
  iintro ⟨HO, P49, -, MI1_6⟩
  ihave MI1_6 := (Entails.of_eq (show (dmaPay m c 48 0 : sProp 𝕄) = rpts c (cSl 1 6 inb_S2x7x512x1024_S1x1x512x1024_1_6_0_0) fullShare (CommIn m c) from rfl)) $$ MI1_6
  sl_exec_parts
  iapply (wait_local m K c 1 (by decide) 6 (by decide) (owed_17 c) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))) $$ [CL1 HO P90]
  · isplitr; · iapply (State.inv_own_89 m K c); iexact HI
    isplitl [CL1]; · iexact CL1
    isplitl [HO]; · iexact HO
    isplitr; · iapply h_mayWait_loc1_6; iexact Hlev
    iexact P90
  iintro ⟨HO, P90, #RL1_7, Hp⟩
  ihave Hp := (Entails.of_eq (show (dmaPay m c (88 + 1) 6 : sProp 𝕄) = iprop(rpts c (sSl 1 inb_S2x512x1024_S1x512x1024_1_0_0) fullShare (StageAt m c 6) ∗ rpts c (xCh (k0_off2 c 4096#32 4294967289#32) (k0_off2_inb c 13)) fullShare (X m c)) from rfl)) $$ Hp
  icases Hp with ⟨S1, X8⟩
  sl_exec_parts
  unfold sound_body.sl.MI1_6_w1
  unfold sound_body.sl.r
  ihave MA1_6 := (upd_later_run m c 1 5 (by decide) (by decide) k0_pay16 pay16_eq) $$ MI1_6
  iapply (copy_done_0 m K c _) $$ [MA0_6 O0 T98]
  · isplitr; · iapply (State.inv_own_88 m K c); iexact HI
    isplitl [MA0_6]; · iexact MA0_6
    isplitl [O0]; · iexact O0
    isplitl [T98]; · iexact T98
    iexact RL0_7
  iintro CL0
  sl_exec_parts
  iapply (wait_local m K c 0 (by decide) 7 (by decide) (owed_17 c) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))) $$ [CL0 HO P89]
  · isplitr; · iapply (State.inv_own_88 m K c); iexact HI
    isplitl [CL0]; · iexact CL0
    isplitl [HO]; · iexact HO
    isplitr; · iapply h_mayWait_loc0_7; iexact Hlev
    iexact P89
  iintro ⟨HO, P89, -, Hp⟩
  ihave Hp := (Entails.of_eq (show (dmaPay m c (88 + 0) 7 : sProp 𝕄) = iprop(rpts c (oCh (k0_off3 c 0#32 1#32) (k0_off3_inb c 0)) fullShare (Res m c) ∗ rpts c (cSl 0 6 inb_S2x7x512x1024_S1x1x512x1024_0_6_0_0) fullShare (CommAcc m c)) from rfl)) $$ Hp
  icases Hp with ⟨O0, MA0_6⟩
  ihave MAh0 := (share_split (F := F) c (cSl 0 6 inb_S2x7x512x1024_S1x1x512x1024_0_6_0_0) (CommAcc m c)) $$ MA0_6
  icases MAh0 with ⟨MAl0, MAr0⟩
  sl_exec_parts
  iapply (zsend_done_0 m K c ⟨k0_dev18 c, k0_dev18_lt c⟩ (dev18_eq c) fz0 (owed_18 c) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))) $$ [MAl0 AZ0 HO T75 T31]
  · isplitr; · iapply (State.inv_own_56 m K c); iexact HI
    isplitr; · iapply (State.inv_part_0 m K c); iexact HI
    isplitl [MAl0]; · iexact MAl0
    isplitl [AZ0]; · iexact AZ0
    isplitl [HO]; · iexact HO
    isplitl [T75]; · iexact T75
    isplitr; · iexact R59
    isplitl [T31]; · iexact T31
    iexact rz0
  iintro ⟨Cz0, HO⟩
  sl_exec_parts
  iapply (copy_done_1 m K c _) $$ [MA1_6 O8 T106]
  · isplitr; · iapply (State.inv_own_89 m K c); iexact HI
    isplitl [MA1_6]; · iexact MA1_6
    isplitl [O8]; · iexact O8
    isplitl [T106]; · iexact T106
    iexact RL1_7
  iintro CL1
  sl_exec_parts
  iapply (wait_local m K c 1 (by decide) 7 (by decide) (owed_18 c) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))) $$ [CL1 HO P90]
  · isplitr; · iapply (State.inv_own_89 m K c); iexact HI
    isplitl [CL1]; · iexact CL1
    isplitl [HO]; · iexact HO
    isplitr; · iapply h_mayWait_loc1_7; iexact Hlev
    iexact P90
  iintro ⟨HO, P90, -, Hp⟩
  ihave Hp := (Entails.of_eq (show (dmaPay m c (88 + 1) 7 : sProp 𝕄) = iprop(rpts c (oCh (k0_off3 c 4096#32 4294967295#32) (k0_off3_inb c 1)) fullShare (Res m c) ∗ rpts c (cSl 1 6 inb_S2x7x512x1024_S1x1x512x1024_1_6_0_0) fullShare (CommAcc m c)) from rfl)) $$ Hp
  icases Hp with ⟨O8, MA1_6⟩
  ihave MAh1 := (share_split (F := F) c (cSl 1 6 inb_S2x7x512x1024_S1x1x512x1024_1_6_0_0) (CommAcc m c)) $$ MA1_6
  icases MAh1 with ⟨MAl1, MAr1⟩
  sl_exec_parts
  iapply (zsend_done_1 m K c ⟨k0_dev19 c, k0_dev19_lt c⟩ (dev19_eq c) fz8 (owed_19 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [MAl1 AZ8 HO T83 T39]
  · isplitr; · iapply (State.inv_own_64 m K c); iexact HI
    isplitr; · iapply (State.inv_part_8 m K c); iexact HI
    isplitl [MAl1]; · iexact MAl1
    isplitl [AZ8]; · iexact AZ8
    isplitl [HO]; · iexact HO
    isplitl [T83]; · iexact T83
    isplitr; · iexact R67
    isplitl [T39]; · iexact T39
    iexact rz8
  iintro ⟨Cz8, HO⟩
  sl_exec_parts
  iapply (send_done_0 m K c ⟨k0_dev20 c, k0_dev20_lt c⟩ (dev20_eq c) fs7 (owed_20 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [MAr0 AS7 HO T54 T10]
  · isplitr; · iapply (State.inv_own_7 m K c); iexact HI
    isplitr; · iapply (State.inv_succ_7 m K c); iexact HI
    isplitl [MAr0]; · iexact MAr0
    isplitl [AS7]; · iexact AS7
    isplitl [HO]; · iexact HO
    isplitl [T54]; · iexact T54
    isplitr; · iexact R10
    isplitl [T10]; · iexact T10
    iexact rs7
  iintro ⟨Cs7, HO⟩
  sl_exec_parts
  iapply (send_done_1 m K c ⟨k0_dev21 c, k0_dev21_lt c⟩ (dev21_eq c) fp7 (owed_21 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [MAr1 AP7 HO T68 T24]
  · isplitr; · iapply (State.inv_own_21 m K c); iexact HI
    isplitr; · iapply (State.inv_pred_7 m K c); iexact HI
    isplitl [MAr1]; · iexact MAr1
    isplitl [AP7]; · iexact AP7
    isplitl [HO]; · iexact HO
    isplitl [T68]; · iexact T68
    isplitr; · iexact R24
    isplitl [T24]; · iexact T24
    iexact rp7
  iintro ⟨Cs21, HO⟩
  sl_exec_parts
  iapply (wait_dma m K c 35 (by decide) (owed_21 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [C8 HO P36]
  · isplitr; · iapply (State.inv_own_35 m K c); iexact HI
    isplitl [C8]; · iexact C8
    isplitl [HO]; · iexact HO
    isplitr; · iapply h_mayWait_ag0_0; iexact Hlev
    iexact P36
  iintro ⟨HO, P36, -, OR0_0⟩
  ihave OR0_0 := (Entails.of_eq (show (dmaPay m c 35 0 : sProp 𝕄) = rpts c (oCh (k0_off2 c 0#32 0#32) (k0_off2_inb c 14)) fullShare (Res m c) from rfl)) $$ OR0_0
  ihave ORh0_0 := (share_split (F := F) c (oCh (k0_off2 c 0#32 0#32) (k0_off2_inb c 14)) (Res m c)) $$ OR0_0
  icases ORh0_0 with ⟨ORl0_0, ORr0_0⟩
  sl_exec_parts
  iapply (zsend_gather_0_0 m K c ⟨k0_dev22 c, k0_dev22_lt c⟩ (dev22_eq c) fz1 (owed_22 c) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))) $$ [ORl0_0 AZ1 HO T76 T32]
  · isplitr; · iapply (State.inv_own_57 m K c); iexact HI
    isplitr; · iapply (State.inv_part_1 m K c); iexact HI
    isplitl [ORl0_0]; · iexact ORl0_0
    isplitl [AZ1]; · iexact AZ1
    isplitl [HO]; · iexact HO
    isplitl [T76]; · iexact T76
    isplitr; · iexact R60
    isplitl [T32]; · iexact T32
    iexact rz1
  iintro ⟨Cz1, HO⟩
  sl_exec_parts
  iapply (wait_dma m K c 49 (by decide) (owed_22 c) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))) $$ [C22 HO P50]
  · isplitr; · iapply (State.inv_own_49 m K c); iexact HI
    isplitl [C22]; · iexact C22
    isplitl [HO]; · iexact HO
    isplitr; · iapply h_mayWait_ag1_0; iexact Hlev
    iexact P50
  iintro ⟨HO, P50, -, OR1_0⟩
  ihave OR1_0 := (Entails.of_eq (show (dmaPay m c 49 0 : sProp 𝕄) = rpts c (oCh (k0_off2 c 4096#32 0#32) (k0_off2_inb c 15)) fullShare (Res m c) from rfl)) $$ OR1_0
  ihave ORh1_0 := (share_split (F := F) c (oCh (k0_off2 c 4096#32 0#32) (k0_off2_inb c 15)) (Res m c)) $$ OR1_0
  icases ORh1_0 with ⟨ORl1_0, ORr1_0⟩
  sl_exec_parts
  iapply (zsend_gather_1_0 m K c ⟨k0_dev23 c, k0_dev23_lt c⟩ (dev23_eq c) fz9 (owed_23 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [ORl1_0 AZ9 HO T84 T40]
  · isplitr; · iapply (State.inv_own_65 m K c); iexact HI
    isplitr; · iapply (State.inv_part_9 m K c); iexact HI
    isplitl [ORl1_0]; · iexact ORl1_0
    isplitl [AZ9]; · iexact AZ9
    isplitl [HO]; · iexact HO
    isplitl [T84]; · iexact T84
    isplitr; · iexact R68
    isplitl [T40]; · iexact T40
    iexact rz9
  iintro ⟨Cz9, HO⟩
  sl_exec_parts
  ihave ORr0_0 := (Entails.of_eq (rpts_oCh_congr (F := F) c (k0_off2 c 0#32 0#32) (k0_off4 c 0#32 1#32 1#32) (k0_off2_inb c 14) (k0_off4_inb c 2) ((off2_0_0 c).trans (off4_0_1 c).symm) fullShare.right (Res m c))) $$ ORr0_0
  iapply (send_gather_0_1 m K c ⟨k0_dev24 c, k0_dev24_lt c⟩ (dev24_eq c) fs8 (owed_24 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [ORr0_0 AS8 HO T55 T11]
  · isplitr; · iapply (State.inv_own_8 m K c); iexact HI
    isplitr; · iapply (State.inv_succ_8 m K c); iexact HI
    isplitl [ORr0_0]; · iexact ORr0_0
    isplitl [AS8]; · iexact AS8
    isplitl [HO]; · iexact HO
    isplitl [T55]; · iexact T55
    isplitr; · iexact R11
    isplitl [T11]; · iexact T11
    iexact rs8
  iintro ⟨Cs8, HO⟩
  sl_exec_parts
  ihave ORr1_0 := (Entails.of_eq (rpts_oCh_congr (F := F) c (k0_off2 c 4096#32 0#32) (k0_off4 c 4096#32 4294967295#32 4294967295#32) (k0_off2_inb c 15) (k0_off4_inb c 3) ((off2_1_0 c).trans (off4_1_1 c).symm) fullShare.right (Res m c))) $$ ORr1_0
  iapply (send_gather_1_1 m K c ⟨k0_dev25 c, k0_dev25_lt c⟩ (dev25_eq c) fp8 (owed_25 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [ORr1_0 AP8 HO T69 T25]
  · isplitr; · iapply (State.inv_own_22 m K c); iexact HI
    isplitr; · iapply (State.inv_pred_8 m K c); iexact HI
    isplitl [ORr1_0]; · iexact ORr1_0
    isplitl [AP8]; · iexact AP8
    isplitl [HO]; · iexact HO
    isplitl [T69]; · iexact T69
    isplitr; · iexact R25
    isplitl [T25]; · iexact T25
    iexact rp8
  iintro ⟨Cs22, HO⟩
  sl_exec_parts
  iapply (wait_dma m K c 36 (by decide) (owed_25 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [C9 HO P37]
  · isplitr; · iapply (State.inv_own_36 m K c); iexact HI
    isplitl [C9]; · iexact C9
    isplitl [HO]; · iexact HO
    isplitr; · iapply h_mayWait_ag0_1; iexact Hlev
    iexact P37
  iintro ⟨HO, P37, -, OR0_1⟩
  ihave OR0_1 := (Entails.of_eq (show (dmaPay m c 36 0 : sProp 𝕄) = rpts c (oCh (k0_off2 c 0#32 1#32) (k0_off2_inb c 0)) fullShare (Res m c) from rfl)) $$ OR0_1
  ihave ORh0_1 := (share_split (F := F) c (oCh (k0_off2 c 0#32 1#32) (k0_off2_inb c 0)) (Res m c)) $$ OR0_1
  icases ORh0_1 with ⟨ORl0_1, ORr0_1⟩
  sl_exec_parts
  iapply (zsend_gather_0_1 m K c ⟨k0_dev26 c, k0_dev26_lt c⟩ (dev26_eq c) fz2 (owed_26 c) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))) $$ [ORl0_1 AZ2 HO T77 T33]
  · isplitr; · iapply (State.inv_own_58 m K c); iexact HI
    isplitr; · iapply (State.inv_part_2 m K c); iexact HI
    isplitl [ORl0_1]; · iexact ORl0_1
    isplitl [AZ2]; · iexact AZ2
    isplitl [HO]; · iexact HO
    isplitl [T77]; · iexact T77
    isplitr; · iexact R61
    isplitl [T33]; · iexact T33
    iexact rz2
  iintro ⟨Cz2, HO⟩
  sl_exec_parts
  iapply (wait_dma m K c 50 (by decide) (owed_26 c) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))) $$ [C23 HO P51]
  · isplitr; · iapply (State.inv_own_50 m K c); iexact HI
    isplitl [C23]; · iexact C23
    isplitl [HO]; · iexact HO
    isplitr; · iapply h_mayWait_ag1_1; iexact Hlev
    iexact P51
  iintro ⟨HO, P51, -, OR1_1⟩
  ihave OR1_1 := (Entails.of_eq (show (dmaPay m c 50 0 : sProp 𝕄) = rpts c (oCh (k0_off2 c 4096#32 4294967295#32) (k0_off2_inb c 1)) fullShare (Res m c) from rfl)) $$ OR1_1
  ihave ORh1_1 := (share_split (F := F) c (oCh (k0_off2 c 4096#32 4294967295#32) (k0_off2_inb c 1)) (Res m c)) $$ OR1_1
  icases ORh1_1 with ⟨ORl1_1, ORr1_1⟩
  sl_exec_parts
  iapply (zsend_gather_1_1 m K c ⟨k0_dev27 c, k0_dev27_lt c⟩ (dev27_eq c) fz10 (owed_27 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [ORl1_1 AZ10 HO T85 T41]
  · isplitr; · iapply (State.inv_own_66 m K c); iexact HI
    isplitr; · iapply (State.inv_part_10 m K c); iexact HI
    isplitl [ORl1_1]; · iexact ORl1_1
    isplitl [AZ10]; · iexact AZ10
    isplitl [HO]; · iexact HO
    isplitl [T85]; · iexact T85
    isplitr; · iexact R69
    isplitl [T41]; · iexact T41
    iexact rz10
  iintro ⟨Cz10, HO⟩
  sl_exec_parts
  ihave ORr0_1 := (Entails.of_eq (rpts_oCh_congr (F := F) c (k0_off2 c 0#32 1#32) (k0_off4 c 0#32 1#32 2#32) (k0_off2_inb c 0) (k0_off4_inb c 4) ((off2_0_1 c).trans (off4_0_2 c).symm) fullShare.right (Res m c))) $$ ORr0_1
  iapply (send_gather_0_2 m K c ⟨k0_dev28 c, k0_dev28_lt c⟩ (dev28_eq c) fs9 (owed_28 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [ORr0_1 AS9 HO T56 T12]
  · isplitr; · iapply (State.inv_own_9 m K c); iexact HI
    isplitr; · iapply (State.inv_succ_9 m K c); iexact HI
    isplitl [ORr0_1]; · iexact ORr0_1
    isplitl [AS9]; · iexact AS9
    isplitl [HO]; · iexact HO
    isplitl [T56]; · iexact T56
    isplitr; · iexact R12
    isplitl [T12]; · iexact T12
    iexact rs9
  iintro ⟨Cs9, HO⟩
  sl_exec_parts
  ihave ORr1_1 := (Entails.of_eq (rpts_oCh_congr (F := F) c (k0_off2 c 4096#32 4294967295#32) (k0_off4 c 4096#32 4294967295#32 4294967294#32) (k0_off2_inb c 1) (k0_off4_inb c 5) ((off2_1_1 c).trans (off4_1_2 c).symm) fullShare.right (Res m c))) $$ ORr1_1
  iapply (send_gather_1_2 m K c ⟨k0_dev29 c, k0_dev29_lt c⟩ (dev29_eq c) fp9 (owed_29 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [ORr1_1 AP9 HO T70 T26]
  · isplitr; · iapply (State.inv_own_23 m K c); iexact HI
    isplitr; · iapply (State.inv_pred_9 m K c); iexact HI
    isplitl [ORr1_1]; · iexact ORr1_1
    isplitl [AP9]; · iexact AP9
    isplitl [HO]; · iexact HO
    isplitl [T70]; · iexact T70
    isplitr; · iexact R26
    isplitl [T26]; · iexact T26
    iexact rp9
  iintro ⟨Cs23, HO⟩
  sl_exec_parts
  iapply (wait_dma m K c 37 (by decide) (owed_29 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [C10 HO P38]
  · isplitr; · iapply (State.inv_own_37 m K c); iexact HI
    isplitl [C10]; · iexact C10
    isplitl [HO]; · iexact HO
    isplitr; · iapply h_mayWait_ag0_2; iexact Hlev
    iexact P38
  iintro ⟨HO, P38, -, OR0_2⟩
  ihave OR0_2 := (Entails.of_eq (show (dmaPay m c 37 0 : sProp 𝕄) = rpts c (oCh (k0_off2 c 0#32 2#32) (k0_off2_inb c 2)) fullShare (Res m c) from rfl)) $$ OR0_2
  ihave ORh0_2 := (share_split (F := F) c (oCh (k0_off2 c 0#32 2#32) (k0_off2_inb c 2)) (Res m c)) $$ OR0_2
  icases ORh0_2 with ⟨ORl0_2, ORr0_2⟩
  sl_exec_parts
  iapply (zsend_gather_0_2 m K c ⟨k0_dev30 c, k0_dev30_lt c⟩ (dev30_eq c) fz3 (owed_30 c) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))) $$ [ORl0_2 AZ3 HO T78 T34]
  · isplitr; · iapply (State.inv_own_59 m K c); iexact HI
    isplitr; · iapply (State.inv_part_3 m K c); iexact HI
    isplitl [ORl0_2]; · iexact ORl0_2
    isplitl [AZ3]; · iexact AZ3
    isplitl [HO]; · iexact HO
    isplitl [T78]; · iexact T78
    isplitr; · iexact R62
    isplitl [T34]; · iexact T34
    iexact rz3
  iintro ⟨Cz3, HO⟩
  sl_exec_parts
  iapply (wait_dma m K c 51 (by decide) (owed_30 c) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))) $$ [C24 HO P52]
  · isplitr; · iapply (State.inv_own_51 m K c); iexact HI
    isplitl [C24]; · iexact C24
    isplitl [HO]; · iexact HO
    isplitr; · iapply h_mayWait_ag1_2; iexact Hlev
    iexact P52
  iintro ⟨HO, P52, -, OR1_2⟩
  ihave OR1_2 := (Entails.of_eq (show (dmaPay m c 51 0 : sProp 𝕄) = rpts c (oCh (k0_off2 c 4096#32 4294967294#32) (k0_off2_inb c 3)) fullShare (Res m c) from rfl)) $$ OR1_2
  ihave ORh1_2 := (share_split (F := F) c (oCh (k0_off2 c 4096#32 4294967294#32) (k0_off2_inb c 3)) (Res m c)) $$ OR1_2
  icases ORh1_2 with ⟨ORl1_2, ORr1_2⟩
  sl_exec_parts
  iapply (zsend_gather_1_2 m K c ⟨k0_dev31 c, k0_dev31_lt c⟩ (dev31_eq c) fz11 (owed_31 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [ORl1_2 AZ11 HO T86 T42]
  · isplitr; · iapply (State.inv_own_67 m K c); iexact HI
    isplitr; · iapply (State.inv_part_11 m K c); iexact HI
    isplitl [ORl1_2]; · iexact ORl1_2
    isplitl [AZ11]; · iexact AZ11
    isplitl [HO]; · iexact HO
    isplitl [T86]; · iexact T86
    isplitr; · iexact R70
    isplitl [T42]; · iexact T42
    iexact rz11
  iintro ⟨Cz11, HO⟩
  sl_exec_parts
  ihave ORr0_2 := (Entails.of_eq (rpts_oCh_congr (F := F) c (k0_off2 c 0#32 2#32) (k0_off4 c 0#32 1#32 3#32) (k0_off2_inb c 2) (k0_off4_inb c 6) ((off2_0_2 c).trans (off4_0_3 c).symm) fullShare.right (Res m c))) $$ ORr0_2
  iapply (send_gather_0_3 m K c ⟨k0_dev32 c, k0_dev32_lt c⟩ (dev32_eq c) fs10 (owed_32 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [ORr0_2 AS10 HO T57 T13]
  · isplitr; · iapply (State.inv_own_10 m K c); iexact HI
    isplitr; · iapply (State.inv_succ_10 m K c); iexact HI
    isplitl [ORr0_2]; · iexact ORr0_2
    isplitl [AS10]; · iexact AS10
    isplitl [HO]; · iexact HO
    isplitl [T57]; · iexact T57
    isplitr; · iexact R13
    isplitl [T13]; · iexact T13
    iexact rs10
  iintro ⟨Cs10, HO⟩
  sl_exec_parts
  ihave ORr1_2 := (Entails.of_eq (rpts_oCh_congr (F := F) c (k0_off2 c 4096#32 4294967294#32) (k0_off4 c 4096#32 4294967295#32 4294967293#32) (k0_off2_inb c 3) (k0_off4_inb c 7) ((off2_1_2 c).trans (off4_1_3 c).symm) fullShare.right (Res m c))) $$ ORr1_2
  iapply (send_gather_1_3 m K c ⟨k0_dev33 c, k0_dev33_lt c⟩ (dev33_eq c) fp10 (owed_33 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [ORr1_2 AP10 HO T71 T27]
  · isplitr; · iapply (State.inv_own_24 m K c); iexact HI
    isplitr; · iapply (State.inv_pred_10 m K c); iexact HI
    isplitl [ORr1_2]; · iexact ORr1_2
    isplitl [AP10]; · iexact AP10
    isplitl [HO]; · iexact HO
    isplitl [T71]; · iexact T71
    isplitr; · iexact R27
    isplitl [T27]; · iexact T27
    iexact rp10
  iintro ⟨Cs24, HO⟩
  sl_exec_parts
  iapply (wait_dma m K c 38 (by decide) (owed_33 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [C11 HO P39]
  · isplitr; · iapply (State.inv_own_38 m K c); iexact HI
    isplitl [C11]; · iexact C11
    isplitl [HO]; · iexact HO
    isplitr; · iapply h_mayWait_ag0_3; iexact Hlev
    iexact P39
  iintro ⟨HO, P39, -, OR0_3⟩
  ihave OR0_3 := (Entails.of_eq (show (dmaPay m c 38 0 : sProp 𝕄) = rpts c (oCh (k0_off2 c 0#32 3#32) (k0_off2_inb c 4)) fullShare (Res m c) from rfl)) $$ OR0_3
  ihave ORh0_3 := (share_split (F := F) c (oCh (k0_off2 c 0#32 3#32) (k0_off2_inb c 4)) (Res m c)) $$ OR0_3
  icases ORh0_3 with ⟨ORl0_3, ORr0_3⟩
  sl_exec_parts
  iapply (zsend_gather_0_3 m K c ⟨k0_dev34 c, k0_dev34_lt c⟩ (dev34_eq c) fz4 (owed_34 c) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))) $$ [ORl0_3 AZ4 HO T79 T35]
  · isplitr; · iapply (State.inv_own_60 m K c); iexact HI
    isplitr; · iapply (State.inv_part_4 m K c); iexact HI
    isplitl [ORl0_3]; · iexact ORl0_3
    isplitl [AZ4]; · iexact AZ4
    isplitl [HO]; · iexact HO
    isplitl [T79]; · iexact T79
    isplitr; · iexact R63
    isplitl [T35]; · iexact T35
    iexact rz4
  iintro ⟨Cz4, HO⟩
  sl_exec_parts
  iapply (wait_dma m K c 52 (by decide) (owed_34 c) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))) $$ [C25 HO P53]
  · isplitr; · iapply (State.inv_own_52 m K c); iexact HI
    isplitl [C25]; · iexact C25
    isplitl [HO]; · iexact HO
    isplitr; · iapply h_mayWait_ag1_3; iexact Hlev
    iexact P53
  iintro ⟨HO, P53, -, OR1_3⟩
  ihave OR1_3 := (Entails.of_eq (show (dmaPay m c 52 0 : sProp 𝕄) = rpts c (oCh (k0_off2 c 4096#32 4294967293#32) (k0_off2_inb c 5)) fullShare (Res m c) from rfl)) $$ OR1_3
  ihave ORh1_3 := (share_split (F := F) c (oCh (k0_off2 c 4096#32 4294967293#32) (k0_off2_inb c 5)) (Res m c)) $$ OR1_3
  icases ORh1_3 with ⟨ORl1_3, ORr1_3⟩
  sl_exec_parts
  iapply (zsend_gather_1_3 m K c ⟨k0_dev35 c, k0_dev35_lt c⟩ (dev35_eq c) fz12 (owed_35 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [ORl1_3 AZ12 HO T87 T43]
  · isplitr; · iapply (State.inv_own_68 m K c); iexact HI
    isplitr; · iapply (State.inv_part_12 m K c); iexact HI
    isplitl [ORl1_3]; · iexact ORl1_3
    isplitl [AZ12]; · iexact AZ12
    isplitl [HO]; · iexact HO
    isplitl [T87]; · iexact T87
    isplitr; · iexact R71
    isplitl [T43]; · iexact T43
    iexact rz12
  iintro ⟨Cz12, HO⟩
  sl_exec_parts
  ihave ORr0_3 := (Entails.of_eq (rpts_oCh_congr (F := F) c (k0_off2 c 0#32 3#32) (k0_off4 c 0#32 1#32 4#32) (k0_off2_inb c 4) (k0_off4_inb c 8) ((off2_0_3 c).trans (off4_0_4 c).symm) fullShare.right (Res m c))) $$ ORr0_3
  iapply (send_gather_0_4 m K c ⟨k0_dev36 c, k0_dev36_lt c⟩ (dev36_eq c) fs11 (owed_36 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [ORr0_3 AS11 HO T58 T14]
  · isplitr; · iapply (State.inv_own_11 m K c); iexact HI
    isplitr; · iapply (State.inv_succ_11 m K c); iexact HI
    isplitl [ORr0_3]; · iexact ORr0_3
    isplitl [AS11]; · iexact AS11
    isplitl [HO]; · iexact HO
    isplitl [T58]; · iexact T58
    isplitr; · iexact R14
    isplitl [T14]; · iexact T14
    iexact rs11
  iintro ⟨Cs11, HO⟩
  sl_exec_parts
  ihave ORr1_3 := (Entails.of_eq (rpts_oCh_congr (F := F) c (k0_off2 c 4096#32 4294967293#32) (k0_off4 c 4096#32 4294967295#32 4294967292#32) (k0_off2_inb c 5) (k0_off4_inb c 9) ((off2_1_3 c).trans (off4_1_4 c).symm) fullShare.right (Res m c))) $$ ORr1_3
  iapply (send_gather_1_4 m K c ⟨k0_dev37 c, k0_dev37_lt c⟩ (dev37_eq c) fp11 (owed_37 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [ORr1_3 AP11 HO T72 T28]
  · isplitr; · iapply (State.inv_own_25 m K c); iexact HI
    isplitr; · iapply (State.inv_pred_11 m K c); iexact HI
    isplitl [ORr1_3]; · iexact ORr1_3
    isplitl [AP11]; · iexact AP11
    isplitl [HO]; · iexact HO
    isplitl [T72]; · iexact T72
    isplitr; · iexact R28
    isplitl [T28]; · iexact T28
    iexact rp11
  iintro ⟨Cs25, HO⟩
  sl_exec_parts
  iapply (wait_dma m K c 39 (by decide) (owed_37 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [C12 HO P40]
  · isplitr; · iapply (State.inv_own_39 m K c); iexact HI
    isplitl [C12]; · iexact C12
    isplitl [HO]; · iexact HO
    isplitr; · iapply h_mayWait_ag0_4; iexact Hlev
    iexact P40
  iintro ⟨HO, P40, -, OR0_4⟩
  ihave OR0_4 := (Entails.of_eq (show (dmaPay m c 39 0 : sProp 𝕄) = rpts c (oCh (k0_off2 c 0#32 4#32) (k0_off2_inb c 6)) fullShare (Res m c) from rfl)) $$ OR0_4
  ihave ORh0_4 := (share_split (F := F) c (oCh (k0_off2 c 0#32 4#32) (k0_off2_inb c 6)) (Res m c)) $$ OR0_4
  icases ORh0_4 with ⟨ORl0_4, ORr0_4⟩
  sl_exec_parts
  iapply (zsend_gather_0_4 m K c ⟨k0_dev38 c, k0_dev38_lt c⟩ (dev38_eq c) fz5 (owed_38 c) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))) $$ [ORl0_4 AZ5 HO T80 T36]
  · isplitr; · iapply (State.inv_own_61 m K c); iexact HI
    isplitr; · iapply (State.inv_part_5 m K c); iexact HI
    isplitl [ORl0_4]; · iexact ORl0_4
    isplitl [AZ5]; · iexact AZ5
    isplitl [HO]; · iexact HO
    isplitl [T80]; · iexact T80
    isplitr; · iexact R64
    isplitl [T36]; · iexact T36
    iexact rz5
  iintro ⟨Cz5, HO⟩
  sl_exec_parts
  iapply (wait_dma m K c 53 (by decide) (owed_38 c) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))) $$ [C26 HO P54]
  · isplitr; · iapply (State.inv_own_53 m K c); iexact HI
    isplitl [C26]; · iexact C26
    isplitl [HO]; · iexact HO
    isplitr; · iapply h_mayWait_ag1_4; iexact Hlev
    iexact P54
  iintro ⟨HO, P54, -, OR1_4⟩
  ihave OR1_4 := (Entails.of_eq (show (dmaPay m c 53 0 : sProp 𝕄) = rpts c (oCh (k0_off2 c 4096#32 4294967292#32) (k0_off2_inb c 7)) fullShare (Res m c) from rfl)) $$ OR1_4
  ihave ORh1_4 := (share_split (F := F) c (oCh (k0_off2 c 4096#32 4294967292#32) (k0_off2_inb c 7)) (Res m c)) $$ OR1_4
  icases ORh1_4 with ⟨ORl1_4, ORr1_4⟩
  sl_exec_parts
  iapply (zsend_gather_1_4 m K c ⟨k0_dev39 c, k0_dev39_lt c⟩ (dev39_eq c) fz13 (owed_39 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [ORl1_4 AZ13 HO T88 T44]
  · isplitr; · iapply (State.inv_own_69 m K c); iexact HI
    isplitr; · iapply (State.inv_part_13 m K c); iexact HI
    isplitl [ORl1_4]; · iexact ORl1_4
    isplitl [AZ13]; · iexact AZ13
    isplitl [HO]; · iexact HO
    isplitl [T88]; · iexact T88
    isplitr; · iexact R72
    isplitl [T44]; · iexact T44
    iexact rz13
  iintro ⟨Cz13, HO⟩
  sl_exec_parts
  ihave ORr0_4 := (Entails.of_eq (rpts_oCh_congr (F := F) c (k0_off2 c 0#32 4#32) (k0_off4 c 0#32 1#32 5#32) (k0_off2_inb c 6) (k0_off4_inb c 10) ((off2_0_4 c).trans (off4_0_5 c).symm) fullShare.right (Res m c))) $$ ORr0_4
  iapply (send_gather_0_5 m K c ⟨k0_dev40 c, k0_dev40_lt c⟩ (dev40_eq c) fs12 (owed_40 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [ORr0_4 AS12 HO T59 T15]
  · isplitr; · iapply (State.inv_own_12 m K c); iexact HI
    isplitr; · iapply (State.inv_succ_12 m K c); iexact HI
    isplitl [ORr0_4]; · iexact ORr0_4
    isplitl [AS12]; · iexact AS12
    isplitl [HO]; · iexact HO
    isplitl [T59]; · iexact T59
    isplitr; · iexact R15
    isplitl [T15]; · iexact T15
    iexact rs12
  iintro ⟨Cs12, HO⟩
  sl_exec_parts
  ihave ORr1_4 := (Entails.of_eq (rpts_oCh_congr (F := F) c (k0_off2 c 4096#32 4294967292#32) (k0_off4 c 4096#32 4294967295#32 4294967291#32) (k0_off2_inb c 7) (k0_off4_inb c 11) ((off2_1_4 c).trans (off4_1_5 c).symm) fullShare.right (Res m c))) $$ ORr1_4
  iapply (send_gather_1_5 m K c ⟨k0_dev41 c, k0_dev41_lt c⟩ (dev41_eq c) fp12 (owed_41 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [ORr1_4 AP12 HO T73 T29]
  · isplitr; · iapply (State.inv_own_26 m K c); iexact HI
    isplitr; · iapply (State.inv_pred_12 m K c); iexact HI
    isplitl [ORr1_4]; · iexact ORr1_4
    isplitl [AP12]; · iexact AP12
    isplitl [HO]; · iexact HO
    isplitl [T73]; · iexact T73
    isplitr; · iexact R29
    isplitl [T29]; · iexact T29
    iexact rp12
  iintro ⟨Cs26, HO⟩
  sl_exec_parts
  iapply (wait_dma m K c 40 (by decide) (owed_41 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [C13 HO P41]
  · isplitr; · iapply (State.inv_own_40 m K c); iexact HI
    isplitl [C13]; · iexact C13
    isplitl [HO]; · iexact HO
    isplitr; · iapply h_mayWait_ag0_5; iexact Hlev
    iexact P41
  iintro ⟨HO, P41, -, OR0_5⟩
  ihave OR0_5 := (Entails.of_eq (show (dmaPay m c 40 0 : sProp 𝕄) = rpts c (oCh (k0_off2 c 0#32 5#32) (k0_off2_inb c 8)) fullShare (Res m c) from rfl)) $$ OR0_5
  ihave ORh0_5 := (share_split (F := F) c (oCh (k0_off2 c 0#32 5#32) (k0_off2_inb c 8)) (Res m c)) $$ OR0_5
  icases ORh0_5 with ⟨ORl0_5, ORr0_5⟩
  sl_exec_parts
  iapply (zsend_gather_0_5 m K c ⟨k0_dev42 c, k0_dev42_lt c⟩ (dev42_eq c) fz6 (owed_42 c) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))) $$ [ORl0_5 AZ6 HO T81 T37]
  · isplitr; · iapply (State.inv_own_62 m K c); iexact HI
    isplitr; · iapply (State.inv_part_6 m K c); iexact HI
    isplitl [ORl0_5]; · iexact ORl0_5
    isplitl [AZ6]; · iexact AZ6
    isplitl [HO]; · iexact HO
    isplitl [T81]; · iexact T81
    isplitr; · iexact R65
    isplitl [T37]; · iexact T37
    iexact rz6
  iintro ⟨Cz6, HO⟩
  sl_exec_parts
  iapply (wait_dma m K c 54 (by decide) (owed_42 c) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))) $$ [C27 HO P55]
  · isplitr; · iapply (State.inv_own_54 m K c); iexact HI
    isplitl [C27]; · iexact C27
    isplitl [HO]; · iexact HO
    isplitr; · iapply h_mayWait_ag1_5; iexact Hlev
    iexact P55
  iintro ⟨HO, P55, -, OR1_5⟩
  ihave OR1_5 := (Entails.of_eq (show (dmaPay m c 54 0 : sProp 𝕄) = rpts c (oCh (k0_off2 c 4096#32 4294967291#32) (k0_off2_inb c 9)) fullShare (Res m c) from rfl)) $$ OR1_5
  ihave ORh1_5 := (share_split (F := F) c (oCh (k0_off2 c 4096#32 4294967291#32) (k0_off2_inb c 9)) (Res m c)) $$ OR1_5
  icases ORh1_5 with ⟨ORl1_5, ORr1_5⟩
  sl_exec_parts
  iapply (zsend_gather_1_5 m K c ⟨k0_dev43 c, k0_dev43_lt c⟩ (dev43_eq c) fz14 (owed_43 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [ORl1_5 AZ14 HO T89 T45]
  · isplitr; · iapply (State.inv_own_70 m K c); iexact HI
    isplitr; · iapply (State.inv_part_14 m K c); iexact HI
    isplitl [ORl1_5]; · iexact ORl1_5
    isplitl [AZ14]; · iexact AZ14
    isplitl [HO]; · iexact HO
    isplitl [T89]; · iexact T89
    isplitr; · iexact R73
    isplitl [T45]; · iexact T45
    iexact rz14
  iintro ⟨Cz14, HO⟩
  sl_exec_parts
  ihave ORr0_5 := (Entails.of_eq (rpts_oCh_congr (F := F) c (k0_off2 c 0#32 5#32) (k0_off4 c 0#32 1#32 6#32) (k0_off2_inb c 8) (k0_off4_inb c 12) ((off2_0_5 c).trans (off4_0_6 c).symm) fullShare.right (Res m c))) $$ ORr0_5
  iapply (send_gather_0_6 m K c ⟨k0_dev44 c, k0_dev44_lt c⟩ (dev44_eq c) fs13 (owed_44 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [ORr0_5 AS13 HO T60 T16]
  · isplitr; · iapply (State.inv_own_13 m K c); iexact HI
    isplitr; · iapply (State.inv_succ_13 m K c); iexact HI
    isplitl [ORr0_5]; · iexact ORr0_5
    isplitl [AS13]; · iexact AS13
    isplitl [HO]; · iexact HO
    isplitl [T60]; · iexact T60
    isplitr; · iexact R16
    isplitl [T16]; · iexact T16
    iexact rs13
  iintro ⟨Cs13, HO⟩
  sl_exec_parts
  ihave ORr1_5 := (Entails.of_eq (rpts_oCh_congr (F := F) c (k0_off2 c 4096#32 4294967291#32) (k0_off4 c 4096#32 4294967295#32 4294967290#32) (k0_off2_inb c 9) (k0_off4_inb c 13) ((off2_1_5 c).trans (off4_1_6 c).symm) fullShare.right (Res m c))) $$ ORr1_5
  iapply (send_gather_1_6 m K c ⟨k0_dev45 c, k0_dev45_lt c⟩ (dev45_eq c) fp13 (owed_45 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [ORr1_5 AP13 HO T74 T30]
  · isplitr; · iapply (State.inv_own_27 m K c); iexact HI
    isplitr; · iapply (State.inv_pred_13 m K c); iexact HI
    isplitl [ORr1_5]; · iexact ORr1_5
    isplitl [AP13]; · iexact AP13
    isplitl [HO]; · iexact HO
    isplitl [T74]; · iexact T74
    isplitr; · iexact R30
    isplitl [T30]; · iexact T30
    iexact rp13
  iintro ⟨Cs27, HO⟩
  sl_exec_parts
  iapply (wait_dma m K c 41 (by decide) (owed_45 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [C14 HO P42]
  · isplitr; · iapply (State.inv_own_41 m K c); iexact HI
    isplitl [C14]; · iexact C14
    isplitl [HO]; · iexact HO
    isplitr; · iapply h_mayWait_ag0_6; iexact Hlev
    iexact P42
  iintro ⟨HO, P42, -, OR0_6⟩
  ihave OR0_6 := (Entails.of_eq (show (dmaPay m c 41 0 : sProp 𝕄) = rpts c (oCh (k0_off2 c 0#32 6#32) (k0_off2_inb c 10)) fullShare (Res m c) from rfl)) $$ OR0_6
  ihave ORh0_6 := (share_split (F := F) c (oCh (k0_off2 c 0#32 6#32) (k0_off2_inb c 10)) (Res m c)) $$ OR0_6
  icases ORh0_6 with ⟨ORl0_6, ORr0_6⟩
  sl_exec_parts
  iapply (zsend_gather_0_6 m K c ⟨k0_dev46 c, k0_dev46_lt c⟩ (dev46_eq c) fz7 (owed_46 c) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))) $$ [ORl0_6 AZ7 HO T82 T38]
  · isplitr; · iapply (State.inv_own_63 m K c); iexact HI
    isplitr; · iapply (State.inv_part_7 m K c); iexact HI
    isplitl [ORl0_6]; · iexact ORl0_6
    isplitl [AZ7]; · iexact AZ7
    isplitl [HO]; · iexact HO
    isplitl [T82]; · iexact T82
    isplitr; · iexact R66
    isplitl [T38]; · iexact T38
    iexact rz7
  iintro ⟨Cz7, HO⟩
  sl_exec_parts
  iapply (wait_dma m K c 55 (by decide) (owed_46 c) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))) $$ [C28 HO P56]
  · isplitr; · iapply (State.inv_own_55 m K c); iexact HI
    isplitl [C28]; · iexact C28
    isplitl [HO]; · iexact HO
    isplitr; · iapply h_mayWait_ag1_6; iexact Hlev
    iexact P56
  iintro ⟨HO, P56, -, OR1_6⟩
  ihave OR1_6 := (Entails.of_eq (show (dmaPay m c 55 0 : sProp 𝕄) = rpts c (oCh (k0_off2 c 4096#32 4294967290#32) (k0_off2_inb c 11)) fullShare (Res m c) from rfl)) $$ OR1_6
  ihave ORh1_6 := (share_split (F := F) c (oCh (k0_off2 c 4096#32 4294967290#32) (k0_off2_inb c 11)) (Res m c)) $$ OR1_6
  icases ORh1_6 with ⟨ORl1_6, ORr1_6⟩
  sl_exec_parts
  iapply (zsend_gather_1_6 m K c ⟨k0_dev47 c, k0_dev47_lt c⟩ (dev47_eq c) fz15 (owed_47 c) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))) $$ [ORl1_6 AZ15 HO T90 T46]
  · isplitr; · iapply (State.inv_own_71 m K c); iexact HI
    isplitr; · iapply (State.inv_part_15 m K c); iexact HI
    isplitl [ORl1_6]; · iexact ORl1_6
    isplitl [AZ15]; · iexact AZ15
    isplitl [HO]; · iexact HO
    isplitl [T90]; · iexact T90
    isplitr; · iexact R74
    isplitl [T46]; · iexact T46
    iexact rz15
  iintro ⟨Cz15, HO⟩
  sl_exec_parts
  iapply (wait_dma0 m K c 0 (by decide) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))) $$ [Cs0 HO P1]
  · isplitr; · iapply (State.inv_own_0 m K c); iexact HI
    isplitl [Cs0]; · iexact Cs0
    isplitl [HO]; · iexact HO
    iexact P1
  iintro ⟨HO, P1, -, SP0_0⟩
  ihave SP0_0 := (Entails.of_eq (show (dmaPay m c 0 0 : sProp 𝕄) = rpts c (xCh (k0_off1 c 0#32) (k0_off1_inb c 0)) fullShare (X m c) from rfl)) $$ SP0_0
  sl_exec_parts
  iapply (wait_dma0 m K c 14 (by decide) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))) $$ [Cs14 HO P15]
  · isplitr; · iapply (State.inv_own_14 m K c); iexact HI
    isplitl [Cs14]; · iexact Cs14
    isplitl [HO]; · iexact HO
    iexact P15
  iintro ⟨HO, P15, -, SP1_0⟩
  ihave SP1_0 := (Entails.of_eq (show (dmaPay m c 14 0 : sProp 𝕄) = rpts c (xCh (k0_off1 c 4096#32) (k0_off1_inb c 1)) fullShare (X m c) from rfl)) $$ SP1_0
  sl_exec_parts
  iapply (wait_dma0 m K c 1 (by decide) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))) $$ [Cs1 HO P2]
  · isplitr; · iapply (State.inv_own_1 m K c); iexact HI
    isplitl [Cs1]; · iexact Cs1
    isplitl [HO]; · iexact HO
    iexact P2
  iintro ⟨HO, P2, -, SP0_1⟩
  ihave SP0_1 := (Entails.of_eq (show (dmaPay m c 1 0 : sProp 𝕄) = rpts c (cSl 0 0 inb_S2x7x512x1024_S1x1x512x1024_0_0_0_0) fullShare (CommAcc m c) from rfl)) $$ SP0_1
  sl_exec_parts
  iapply (wait_dma0 m K c 15 (by decide) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))) $$ [Cs15 HO P16]
  · isplitr; · iapply (State.inv_own_15 m K c); iexact HI
    isplitl [Cs15]; · iexact Cs15
    isplitl [HO]; · iexact HO
    iexact P16
  iintro ⟨HO, P16, -, SP1_1⟩
  ihave SP1_1 := (Entails.of_eq (show (dmaPay m c 15 0 : sProp 𝕄) = rpts c (cSl 1 0 inb_S2x7x512x1024_S1x1x512x1024_1_0_0_0) fullShare (CommAcc m c) from rfl)) $$ SP1_1
  sl_exec_parts
  iapply (wait_dma0 m K c 2 (by decide) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))) $$ [Cs2 HO P3]
  · isplitr; · iapply (State.inv_own_2 m K c); iexact HI
    isplitl [Cs2]; · iexact Cs2
    isplitl [HO]; · iexact HO
    iexact P3
  iintro ⟨HO, P3, -, SP0_2⟩
  ihave SP0_2 := (Entails.of_eq (show (dmaPay m c 2 0 : sProp 𝕄) = rpts c (cSl 0 1 inb_S2x7x512x1024_S1x1x512x1024_0_1_0_0) fullShare (CommAcc m c) from rfl)) $$ SP0_2
  sl_exec_parts
  iapply (wait_dma0 m K c 16 (by decide) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))) $$ [Cs16 HO P17]
  · isplitr; · iapply (State.inv_own_16 m K c); iexact HI
    isplitl [Cs16]; · iexact Cs16
    isplitl [HO]; · iexact HO
    iexact P17
  iintro ⟨HO, P17, -, SP1_2⟩
  ihave SP1_2 := (Entails.of_eq (show (dmaPay m c 16 0 : sProp 𝕄) = rpts c (cSl 1 1 inb_S2x7x512x1024_S1x1x512x1024_1_1_0_0) fullShare (CommAcc m c) from rfl)) $$ SP1_2
  sl_exec_parts
  iapply (wait_dma0 m K c 3 (by decide) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))) $$ [Cs3 HO P4]
  · isplitr; · iapply (State.inv_own_3 m K c); iexact HI
    isplitl [Cs3]; · iexact Cs3
    isplitl [HO]; · iexact HO
    iexact P4
  iintro ⟨HO, P4, -, SP0_3⟩
  ihave SP0_3 := (Entails.of_eq (show (dmaPay m c 3 0 : sProp 𝕄) = rpts c (cSl 0 2 inb_S2x7x512x1024_S1x1x512x1024_0_2_0_0) fullShare (CommAcc m c) from rfl)) $$ SP0_3
  sl_exec_parts
  iapply (wait_dma0 m K c 17 (by decide) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))) $$ [Cs17 HO P18]
  · isplitr; · iapply (State.inv_own_17 m K c); iexact HI
    isplitl [Cs17]; · iexact Cs17
    isplitl [HO]; · iexact HO
    iexact P18
  iintro ⟨HO, P18, -, SP1_3⟩
  ihave SP1_3 := (Entails.of_eq (show (dmaPay m c 17 0 : sProp 𝕄) = rpts c (cSl 1 2 inb_S2x7x512x1024_S1x1x512x1024_1_2_0_0) fullShare (CommAcc m c) from rfl)) $$ SP1_3
  sl_exec_parts
  iapply (wait_dma0 m K c 4 (by decide) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))) $$ [Cs4 HO P5]
  · isplitr; · iapply (State.inv_own_4 m K c); iexact HI
    isplitl [Cs4]; · iexact Cs4
    isplitl [HO]; · iexact HO
    iexact P5
  iintro ⟨HO, P5, -, SP0_4⟩
  ihave SP0_4 := (Entails.of_eq (show (dmaPay m c 4 0 : sProp 𝕄) = rpts c (cSl 0 3 inb_S2x7x512x1024_S1x1x512x1024_0_3_0_0) fullShare (CommAcc m c) from rfl)) $$ SP0_4
  sl_exec_parts
  iapply (wait_dma0 m K c 18 (by decide) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))) $$ [Cs18 HO P19]
  · isplitr; · iapply (State.inv_own_18 m K c); iexact HI
    isplitl [Cs18]; · iexact Cs18
    isplitl [HO]; · iexact HO
    iexact P19
  iintro ⟨HO, P19, -, SP1_4⟩
  ihave SP1_4 := (Entails.of_eq (show (dmaPay m c 18 0 : sProp 𝕄) = rpts c (cSl 1 3 inb_S2x7x512x1024_S1x1x512x1024_1_3_0_0) fullShare (CommAcc m c) from rfl)) $$ SP1_4
  sl_exec_parts
  iapply (wait_dma0 m K c 5 (by decide) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))) $$ [Cs5 HO P6]
  · isplitr; · iapply (State.inv_own_5 m K c); iexact HI
    isplitl [Cs5]; · iexact Cs5
    isplitl [HO]; · iexact HO
    iexact P6
  iintro ⟨HO, P6, -, SP0_5⟩
  ihave SP0_5 := (Entails.of_eq (show (dmaPay m c 5 0 : sProp 𝕄) = rpts c (cSl 0 4 inb_S2x7x512x1024_S1x1x512x1024_0_4_0_0) fullShare (CommAcc m c) from rfl)) $$ SP0_5
  sl_exec_parts
  iapply (wait_dma0 m K c 19 (by decide) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))) $$ [Cs19 HO P20]
  · isplitr; · iapply (State.inv_own_19 m K c); iexact HI
    isplitl [Cs19]; · iexact Cs19
    isplitl [HO]; · iexact HO
    iexact P20
  iintro ⟨HO, P20, -, SP1_5⟩
  ihave SP1_5 := (Entails.of_eq (show (dmaPay m c 19 0 : sProp 𝕄) = rpts c (cSl 1 4 inb_S2x7x512x1024_S1x1x512x1024_1_4_0_0) fullShare (CommAcc m c) from rfl)) $$ SP1_5
  sl_exec_parts
  iapply (wait_dma0 m K c 6 (by decide) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))) $$ [Cs6 HO P7]
  · isplitr; · iapply (State.inv_own_6 m K c); iexact HI
    isplitl [Cs6]; · iexact Cs6
    isplitl [HO]; · iexact HO
    iexact P7
  iintro ⟨HO, P7, -, SP0_6⟩
  ihave SP0_6 := (Entails.of_eq (show (dmaPay m c 6 0 : sProp 𝕄) = rpts c (cSl 0 5 inb_S2x7x512x1024_S1x1x512x1024_0_5_0_0) fullShare (CommAcc m c) from rfl)) $$ SP0_6
  sl_exec_parts
  iapply (wait_dma0 m K c 20 (by decide) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))) $$ [Cs20 HO P21]
  · isplitr; · iapply (State.inv_own_20 m K c); iexact HI
    isplitl [Cs20]; · iexact Cs20
    isplitl [HO]; · iexact HO
    iexact P21
  iintro ⟨HO, P21, -, SP1_6⟩
  ihave SP1_6 := (Entails.of_eq (show (dmaPay m c 20 0 : sProp 𝕄) = rpts c (cSl 1 5 inb_S2x7x512x1024_S1x1x512x1024_1_5_0_0) fullShare (CommAcc m c) from rfl)) $$ SP1_6
  sl_exec_parts
  iapply (wait_dma0 m K c 7 (by decide) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))) $$ [Cs7 HO P8]
  · isplitr; · iapply (State.inv_own_7 m K c); iexact HI
    isplitl [Cs7]; · iexact Cs7
    isplitl [HO]; · iexact HO
    iexact P8
  iintro ⟨HO, P8, -, SP0_7⟩
  ihave SP0_7 := (Entails.of_eq (show (dmaPay m c 7 0 : sProp 𝕄) = rpts c (cSl 0 6 inb_S2x7x512x1024_S1x1x512x1024_0_6_0_0) fullShare.right (CommAcc m c) from rfl)) $$ SP0_7
  sl_exec_parts
  iapply (wait_dma0 m K c 21 (by decide) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))) $$ [Cs21 HO P22]
  · isplitr; · iapply (State.inv_own_21 m K c); iexact HI
    isplitl [Cs21]; · iexact Cs21
    isplitl [HO]; · iexact HO
    iexact P22
  iintro ⟨HO, P22, -, SP1_7⟩
  ihave SP1_7 := (Entails.of_eq (show (dmaPay m c 21 0 : sProp 𝕄) = rpts c (cSl 1 6 inb_S2x7x512x1024_S1x1x512x1024_1_6_0_0) fullShare.right (CommAcc m c) from rfl)) $$ SP1_7
  sl_exec_parts
  iapply (wait_dma0 m K c 8 (by decide) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))) $$ [Cs8 HO P9]
  · isplitr; · iapply (State.inv_own_8 m K c); iexact HI
    isplitl [Cs8]; · iexact Cs8
    isplitl [HO]; · iexact HO
    iexact P9
  iintro ⟨HO, P9, -, SP0_8⟩
  ihave SP0_8 := (Entails.of_eq (show (dmaPay m c 8 0 : sProp 𝕄) = rpts c (oCh (k0_off4 c 0#32 1#32 1#32) (k0_off4_inb c 2)) fullShare.right (Res m c) from rfl)) $$ SP0_8
  sl_exec_parts
  iapply (wait_dma0 m K c 22 (by decide) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))) $$ [Cs22 HO P23]
  · isplitr; · iapply (State.inv_own_22 m K c); iexact HI
    isplitl [Cs22]; · iexact Cs22
    isplitl [HO]; · iexact HO
    iexact P23
  iintro ⟨HO, P23, -, SP1_8⟩
  ihave SP1_8 := (Entails.of_eq (show (dmaPay m c 22 0 : sProp 𝕄) = rpts c (oCh (k0_off4 c 4096#32 4294967295#32 4294967295#32) (k0_off4_inb c 3)) fullShare.right (Res m c) from rfl)) $$ SP1_8
  sl_exec_parts
  iapply (wait_dma0 m K c 9 (by decide) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))) $$ [Cs9 HO P10]
  · isplitr; · iapply (State.inv_own_9 m K c); iexact HI
    isplitl [Cs9]; · iexact Cs9
    isplitl [HO]; · iexact HO
    iexact P10
  iintro ⟨HO, P10, -, SP0_9⟩
  ihave SP0_9 := (Entails.of_eq (show (dmaPay m c 9 0 : sProp 𝕄) = rpts c (oCh (k0_off4 c 0#32 1#32 2#32) (k0_off4_inb c 4)) fullShare.right (Res m c) from rfl)) $$ SP0_9
  sl_exec_parts
  iapply (wait_dma0 m K c 23 (by decide) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))) $$ [Cs23 HO P24]
  · isplitr; · iapply (State.inv_own_23 m K c); iexact HI
    isplitl [Cs23]; · iexact Cs23
    isplitl [HO]; · iexact HO
    iexact P24
  iintro ⟨HO, P24, -, SP1_9⟩
  ihave SP1_9 := (Entails.of_eq (show (dmaPay m c 23 0 : sProp 𝕄) = rpts c (oCh (k0_off4 c 4096#32 4294967295#32 4294967294#32) (k0_off4_inb c 5)) fullShare.right (Res m c) from rfl)) $$ SP1_9
  sl_exec_parts
  iapply (wait_dma0 m K c 10 (by decide) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))) $$ [Cs10 HO P11]
  · isplitr; · iapply (State.inv_own_10 m K c); iexact HI
    isplitl [Cs10]; · iexact Cs10
    isplitl [HO]; · iexact HO
    iexact P11
  iintro ⟨HO, P11, -, SP0_10⟩
  ihave SP0_10 := (Entails.of_eq (show (dmaPay m c 10 0 : sProp 𝕄) = rpts c (oCh (k0_off4 c 0#32 1#32 3#32) (k0_off4_inb c 6)) fullShare.right (Res m c) from rfl)) $$ SP0_10
  sl_exec_parts
  iapply (wait_dma0 m K c 24 (by decide) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))) $$ [Cs24 HO P25]
  · isplitr; · iapply (State.inv_own_24 m K c); iexact HI
    isplitl [Cs24]; · iexact Cs24
    isplitl [HO]; · iexact HO
    iexact P25
  iintro ⟨HO, P25, -, SP1_10⟩
  ihave SP1_10 := (Entails.of_eq (show (dmaPay m c 24 0 : sProp 𝕄) = rpts c (oCh (k0_off4 c 4096#32 4294967295#32 4294967293#32) (k0_off4_inb c 7)) fullShare.right (Res m c) from rfl)) $$ SP1_10
  sl_exec_parts
  iapply (wait_dma0 m K c 11 (by decide) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))) $$ [Cs11 HO P12]
  · isplitr; · iapply (State.inv_own_11 m K c); iexact HI
    isplitl [Cs11]; · iexact Cs11
    isplitl [HO]; · iexact HO
    iexact P12
  iintro ⟨HO, P12, -, SP0_11⟩
  ihave SP0_11 := (Entails.of_eq (show (dmaPay m c 11 0 : sProp 𝕄) = rpts c (oCh (k0_off4 c 0#32 1#32 4#32) (k0_off4_inb c 8)) fullShare.right (Res m c) from rfl)) $$ SP0_11
  sl_exec_parts
  iapply (wait_dma0 m K c 25 (by decide) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))) $$ [Cs25 HO P26]
  · isplitr; · iapply (State.inv_own_25 m K c); iexact HI
    isplitl [Cs25]; · iexact Cs25
    isplitl [HO]; · iexact HO
    iexact P26
  iintro ⟨HO, P26, -, SP1_11⟩
  ihave SP1_11 := (Entails.of_eq (show (dmaPay m c 25 0 : sProp 𝕄) = rpts c (oCh (k0_off4 c 4096#32 4294967295#32 4294967292#32) (k0_off4_inb c 9)) fullShare.right (Res m c) from rfl)) $$ SP1_11
  sl_exec_parts
  iapply (wait_dma0 m K c 12 (by decide) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))) $$ [Cs12 HO P13]
  · isplitr; · iapply (State.inv_own_12 m K c); iexact HI
    isplitl [Cs12]; · iexact Cs12
    isplitl [HO]; · iexact HO
    iexact P13
  iintro ⟨HO, P13, -, SP0_12⟩
  ihave SP0_12 := (Entails.of_eq (show (dmaPay m c 12 0 : sProp 𝕄) = rpts c (oCh (k0_off4 c 0#32 1#32 5#32) (k0_off4_inb c 10)) fullShare.right (Res m c) from rfl)) $$ SP0_12
  sl_exec_parts
  iapply (wait_dma0 m K c 26 (by decide) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))) $$ [Cs26 HO P27]
  · isplitr; · iapply (State.inv_own_26 m K c); iexact HI
    isplitl [Cs26]; · iexact Cs26
    isplitl [HO]; · iexact HO
    iexact P27
  iintro ⟨HO, P27, -, SP1_12⟩
  ihave SP1_12 := (Entails.of_eq (show (dmaPay m c 26 0 : sProp 𝕄) = rpts c (oCh (k0_off4 c 4096#32 4294967295#32 4294967291#32) (k0_off4_inb c 11)) fullShare.right (Res m c) from rfl)) $$ SP1_12
  sl_exec_parts
  iapply (wait_dma0 m K c 13 (by decide) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))) $$ [Cs13 HO P14]
  · isplitr; · iapply (State.inv_own_13 m K c); iexact HI
    isplitl [Cs13]; · iexact Cs13
    isplitl [HO]; · iexact HO
    iexact P14
  iintro ⟨HO, P14, -, SP0_13⟩
  ihave SP0_13 := (Entails.of_eq (show (dmaPay m c 13 0 : sProp 𝕄) = rpts c (oCh (k0_off4 c 0#32 1#32 6#32) (k0_off4_inb c 12)) fullShare.right (Res m c) from rfl)) $$ SP0_13
  sl_exec_parts
  iapply (wait_dma0 m K c 27 (by decide) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))) $$ [Cs27 HO P28]
  · isplitr; · iapply (State.inv_own_27 m K c); iexact HI
    isplitl [Cs27]; · iexact Cs27
    isplitl [HO]; · iexact HO
    iexact P28
  iintro ⟨HO, P28, -, SP1_13⟩
  ihave SP1_13 := (Entails.of_eq (show (dmaPay m c 27 0 : sProp 𝕄) = rpts c (oCh (k0_off4 c 4096#32 4294967295#32 4294967290#32) (k0_off4_inb c 13)) fullShare.right (Res m c) from rfl)) $$ SP1_13
  sl_exec_parts
  iapply (wait_dma0 m K c 56 (by decide) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))) $$ [Cz0 HO P57]
  · isplitr; · iapply (State.inv_own_56 m K c); iexact HI
    isplitl [Cz0]; · iexact Cz0
    isplitl [HO]; · iexact HO
    iexact P57
  iintro ⟨HO, P57, -, ZP0_0⟩
  ihave ZP0_0 := (Entails.of_eq (show (dmaPay m c 56 0 : sProp 𝕄) = rpts c (cSl 0 6 inb_S2x7x512x1024_S1x1x512x1024_0_6_0_0) fullShare.left (CommAcc m c) from rfl)) $$ ZP0_0
  sl_exec_parts
  iapply (wait_dma0 m K c 72 (by decide) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))) $$ [C29 HO P73]
  · isplitr; · iapply (State.inv_own_72 m K c); iexact HI
    isplitl [C29]; · iexact C29
    isplitl [HO]; · iexact HO
    iexact P73
  iintro ⟨HO, P73, -, ZR0_0⟩
  ihave ZR0_0 := (Entails.of_eq (show (dmaPay m c 72 0 : sProp 𝕄) = rpts c (oCh (k0_off3 (partD c) 0#32 1#32) (k0_off3_inb (partD c) 0)) fullShare (Res m c) from rfl)) $$ ZR0_0
  sl_exec_parts
  iapply (wait_dma0 m K c 64 (by decide) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))) $$ [Cz8 HO P65]
  · isplitr; · iapply (State.inv_own_64 m K c); iexact HI
    isplitl [Cz8]; · iexact Cz8
    isplitl [HO]; · iexact HO
    iexact P65
  iintro ⟨HO, P65, -, ZP1_0⟩
  ihave ZP1_0 := (Entails.of_eq (show (dmaPay m c 64 0 : sProp 𝕄) = rpts c (cSl 1 6 inb_S2x7x512x1024_S1x1x512x1024_1_6_0_0) fullShare.left (CommAcc m c) from rfl)) $$ ZP1_0
  sl_exec_parts
  iapply (wait_dma0 m K c 80 (by decide) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))) $$ [C37 HO P81]
  · isplitr; · iapply (State.inv_own_80 m K c); iexact HI
    isplitl [C37]; · iexact C37
    isplitl [HO]; · iexact HO
    iexact P81
  iintro ⟨HO, P81, -, ZR1_0⟩
  ihave ZR1_0 := (Entails.of_eq (show (dmaPay m c 80 0 : sProp 𝕄) = rpts c (oCh (k0_off3 (partD c) 4096#32 4294967295#32) (k0_off3_inb (partD c) 1)) fullShare (Res m c) from rfl)) $$ ZR1_0
  sl_exec_parts
  iapply (wait_dma0 m K c 57 (by decide) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))) $$ [Cz1 HO P58]
  · isplitr; · iapply (State.inv_own_57 m K c); iexact HI
    isplitl [Cz1]; · iexact Cz1
    isplitl [HO]; · iexact HO
    iexact P58
  iintro ⟨HO, P58, -, ZP0_1⟩
  ihave ZP0_1 := (Entails.of_eq (show (dmaPay m c 57 0 : sProp 𝕄) = rpts c (oCh (k0_off2 c 0#32 0#32) (k0_off2_inb c 14)) fullShare.left (Res m c) from rfl)) $$ ZP0_1
  sl_exec_parts
  iapply (wait_dma0 m K c 73 (by decide) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))) $$ [C30 HO P74]
  · isplitr; · iapply (State.inv_own_73 m K c); iexact HI
    isplitl [C30]; · iexact C30
    isplitl [HO]; · iexact HO
    iexact P74
  iintro ⟨HO, P74, -, ZR0_1⟩
  ihave ZR0_1 := (Entails.of_eq (show (dmaPay m c 73 0 : sProp 𝕄) = rpts c (oCh (k0_off2 (partD c) 0#32 0#32) (k0_off2_inb (partD c) 14)) fullShare (Res m c) from rfl)) $$ ZR0_1
  sl_exec_parts
  iapply (wait_dma0 m K c 65 (by decide) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))) $$ [Cz9 HO P66]
  · isplitr; · iapply (State.inv_own_65 m K c); iexact HI
    isplitl [Cz9]; · iexact Cz9
    isplitl [HO]; · iexact HO
    iexact P66
  iintro ⟨HO, P66, -, ZP1_1⟩
  ihave ZP1_1 := (Entails.of_eq (show (dmaPay m c 65 0 : sProp 𝕄) = rpts c (oCh (k0_off2 c 4096#32 0#32) (k0_off2_inb c 15)) fullShare.left (Res m c) from rfl)) $$ ZP1_1
  sl_exec_parts
  iapply (wait_dma0 m K c 81 (by decide) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))) $$ [C38 HO P82]
  · isplitr; · iapply (State.inv_own_81 m K c); iexact HI
    isplitl [C38]; · iexact C38
    isplitl [HO]; · iexact HO
    iexact P82
  iintro ⟨HO, P82, -, ZR1_1⟩
  ihave ZR1_1 := (Entails.of_eq (show (dmaPay m c 81 0 : sProp 𝕄) = rpts c (oCh (k0_off2 (partD c) 4096#32 0#32) (k0_off2_inb (partD c) 15)) fullShare (Res m c) from rfl)) $$ ZR1_1
  sl_exec_parts
  iapply (wait_dma0 m K c 58 (by decide) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))) $$ [Cz2 HO P59]
  · isplitr; · iapply (State.inv_own_58 m K c); iexact HI
    isplitl [Cz2]; · iexact Cz2
    isplitl [HO]; · iexact HO
    iexact P59
  iintro ⟨HO, P59, -, ZP0_2⟩
  ihave ZP0_2 := (Entails.of_eq (show (dmaPay m c 58 0 : sProp 𝕄) = rpts c (oCh (k0_off2 c 0#32 1#32) (k0_off2_inb c 0)) fullShare.left (Res m c) from rfl)) $$ ZP0_2
  sl_exec_parts
  iapply (wait_dma0 m K c 74 (by decide) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))) $$ [C31 HO P75]
  · isplitr; · iapply (State.inv_own_74 m K c); iexact HI
    isplitl [C31]; · iexact C31
    isplitl [HO]; · iexact HO
    iexact P75
  iintro ⟨HO, P75, -, ZR0_2⟩
  ihave ZR0_2 := (Entails.of_eq (show (dmaPay m c 74 0 : sProp 𝕄) = rpts c (oCh (k0_off2 (partD c) 0#32 1#32) (k0_off2_inb (partD c) 0)) fullShare (Res m c) from rfl)) $$ ZR0_2
  sl_exec_parts
  iapply (wait_dma0 m K c 66 (by decide) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))) $$ [Cz10 HO P67]
  · isplitr; · iapply (State.inv_own_66 m K c); iexact HI
    isplitl [Cz10]; · iexact Cz10
    isplitl [HO]; · iexact HO
    iexact P67
  iintro ⟨HO, P67, -, ZP1_2⟩
  ihave ZP1_2 := (Entails.of_eq (show (dmaPay m c 66 0 : sProp 𝕄) = rpts c (oCh (k0_off2 c 4096#32 4294967295#32) (k0_off2_inb c 1)) fullShare.left (Res m c) from rfl)) $$ ZP1_2
  sl_exec_parts
  iapply (wait_dma0 m K c 82 (by decide) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))) $$ [C39 HO P83]
  · isplitr; · iapply (State.inv_own_82 m K c); iexact HI
    isplitl [C39]; · iexact C39
    isplitl [HO]; · iexact HO
    iexact P83
  iintro ⟨HO, P83, -, ZR1_2⟩
  ihave ZR1_2 := (Entails.of_eq (show (dmaPay m c 82 0 : sProp 𝕄) = rpts c (oCh (k0_off2 (partD c) 4096#32 4294967295#32) (k0_off2_inb (partD c) 1)) fullShare (Res m c) from rfl)) $$ ZR1_2
  sl_exec_parts
  iapply (wait_dma0 m K c 59 (by decide) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))) $$ [Cz3 HO P60]
  · isplitr; · iapply (State.inv_own_59 m K c); iexact HI
    isplitl [Cz3]; · iexact Cz3
    isplitl [HO]; · iexact HO
    iexact P60
  iintro ⟨HO, P60, -, ZP0_3⟩
  ihave ZP0_3 := (Entails.of_eq (show (dmaPay m c 59 0 : sProp 𝕄) = rpts c (oCh (k0_off2 c 0#32 2#32) (k0_off2_inb c 2)) fullShare.left (Res m c) from rfl)) $$ ZP0_3
  sl_exec_parts
  iapply (wait_dma0 m K c 75 (by decide) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))) $$ [C32 HO P76]
  · isplitr; · iapply (State.inv_own_75 m K c); iexact HI
    isplitl [C32]; · iexact C32
    isplitl [HO]; · iexact HO
    iexact P76
  iintro ⟨HO, P76, -, ZR0_3⟩
  ihave ZR0_3 := (Entails.of_eq (show (dmaPay m c 75 0 : sProp 𝕄) = rpts c (oCh (k0_off2 (partD c) 0#32 2#32) (k0_off2_inb (partD c) 2)) fullShare (Res m c) from rfl)) $$ ZR0_3
  sl_exec_parts
  iapply (wait_dma0 m K c 67 (by decide) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))) $$ [Cz11 HO P68]
  · isplitr; · iapply (State.inv_own_67 m K c); iexact HI
    isplitl [Cz11]; · iexact Cz11
    isplitl [HO]; · iexact HO
    iexact P68
  iintro ⟨HO, P68, -, ZP1_3⟩
  ihave ZP1_3 := (Entails.of_eq (show (dmaPay m c 67 0 : sProp 𝕄) = rpts c (oCh (k0_off2 c 4096#32 4294967294#32) (k0_off2_inb c 3)) fullShare.left (Res m c) from rfl)) $$ ZP1_3
  sl_exec_parts
  iapply (wait_dma0 m K c 83 (by decide) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))) $$ [C40 HO P84]
  · isplitr; · iapply (State.inv_own_83 m K c); iexact HI
    isplitl [C40]; · iexact C40
    isplitl [HO]; · iexact HO
    iexact P84
  iintro ⟨HO, P84, -, ZR1_3⟩
  ihave ZR1_3 := (Entails.of_eq (show (dmaPay m c 83 0 : sProp 𝕄) = rpts c (oCh (k0_off2 (partD c) 4096#32 4294967294#32) (k0_off2_inb (partD c) 3)) fullShare (Res m c) from rfl)) $$ ZR1_3
  sl_exec_parts
  iapply (wait_dma0 m K c 60 (by decide) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))) $$ [Cz4 HO P61]
  · isplitr; · iapply (State.inv_own_60 m K c); iexact HI
    isplitl [Cz4]; · iexact Cz4
    isplitl [HO]; · iexact HO
    iexact P61
  iintro ⟨HO, P61, -, ZP0_4⟩
  ihave ZP0_4 := (Entails.of_eq (show (dmaPay m c 60 0 : sProp 𝕄) = rpts c (oCh (k0_off2 c 0#32 3#32) (k0_off2_inb c 4)) fullShare.left (Res m c) from rfl)) $$ ZP0_4
  sl_exec_parts
  iapply (wait_dma0 m K c 76 (by decide) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))) $$ [C33 HO P77]
  · isplitr; · iapply (State.inv_own_76 m K c); iexact HI
    isplitl [C33]; · iexact C33
    isplitl [HO]; · iexact HO
    iexact P77
  iintro ⟨HO, P77, -, ZR0_4⟩
  ihave ZR0_4 := (Entails.of_eq (show (dmaPay m c 76 0 : sProp 𝕄) = rpts c (oCh (k0_off2 (partD c) 0#32 3#32) (k0_off2_inb (partD c) 4)) fullShare (Res m c) from rfl)) $$ ZR0_4
  sl_exec_parts
  iapply (wait_dma0 m K c 68 (by decide) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))) $$ [Cz12 HO P69]
  · isplitr; · iapply (State.inv_own_68 m K c); iexact HI
    isplitl [Cz12]; · iexact Cz12
    isplitl [HO]; · iexact HO
    iexact P69
  iintro ⟨HO, P69, -, ZP1_4⟩
  ihave ZP1_4 := (Entails.of_eq (show (dmaPay m c 68 0 : sProp 𝕄) = rpts c (oCh (k0_off2 c 4096#32 4294967293#32) (k0_off2_inb c 5)) fullShare.left (Res m c) from rfl)) $$ ZP1_4
  sl_exec_parts
  iapply (wait_dma0 m K c 84 (by decide) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))) $$ [C41 HO P85]
  · isplitr; · iapply (State.inv_own_84 m K c); iexact HI
    isplitl [C41]; · iexact C41
    isplitl [HO]; · iexact HO
    iexact P85
  iintro ⟨HO, P85, -, ZR1_4⟩
  ihave ZR1_4 := (Entails.of_eq (show (dmaPay m c 84 0 : sProp 𝕄) = rpts c (oCh (k0_off2 (partD c) 4096#32 4294967293#32) (k0_off2_inb (partD c) 5)) fullShare (Res m c) from rfl)) $$ ZR1_4
  sl_exec_parts
  iapply (wait_dma0 m K c 61 (by decide) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))) $$ [Cz5 HO P62]
  · isplitr; · iapply (State.inv_own_61 m K c); iexact HI
    isplitl [Cz5]; · iexact Cz5
    isplitl [HO]; · iexact HO
    iexact P62
  iintro ⟨HO, P62, -, ZP0_5⟩
  ihave ZP0_5 := (Entails.of_eq (show (dmaPay m c 61 0 : sProp 𝕄) = rpts c (oCh (k0_off2 c 0#32 4#32) (k0_off2_inb c 6)) fullShare.left (Res m c) from rfl)) $$ ZP0_5
  sl_exec_parts
  iapply (wait_dma0 m K c 77 (by decide) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))) $$ [C34 HO P78]
  · isplitr; · iapply (State.inv_own_77 m K c); iexact HI
    isplitl [C34]; · iexact C34
    isplitl [HO]; · iexact HO
    iexact P78
  iintro ⟨HO, P78, -, ZR0_5⟩
  ihave ZR0_5 := (Entails.of_eq (show (dmaPay m c 77 0 : sProp 𝕄) = rpts c (oCh (k0_off2 (partD c) 0#32 4#32) (k0_off2_inb (partD c) 6)) fullShare (Res m c) from rfl)) $$ ZR0_5
  sl_exec_parts
  iapply (wait_dma0 m K c 69 (by decide) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))) $$ [Cz13 HO P70]
  · isplitr; · iapply (State.inv_own_69 m K c); iexact HI
    isplitl [Cz13]; · iexact Cz13
    isplitl [HO]; · iexact HO
    iexact P70
  iintro ⟨HO, P70, -, ZP1_5⟩
  ihave ZP1_5 := (Entails.of_eq (show (dmaPay m c 69 0 : sProp 𝕄) = rpts c (oCh (k0_off2 c 4096#32 4294967292#32) (k0_off2_inb c 7)) fullShare.left (Res m c) from rfl)) $$ ZP1_5
  sl_exec_parts
  iapply (wait_dma0 m K c 85 (by decide) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))) $$ [C42 HO P86]
  · isplitr; · iapply (State.inv_own_85 m K c); iexact HI
    isplitl [C42]; · iexact C42
    isplitl [HO]; · iexact HO
    iexact P86
  iintro ⟨HO, P86, -, ZR1_5⟩
  ihave ZR1_5 := (Entails.of_eq (show (dmaPay m c 85 0 : sProp 𝕄) = rpts c (oCh (k0_off2 (partD c) 4096#32 4294967292#32) (k0_off2_inb (partD c) 7)) fullShare (Res m c) from rfl)) $$ ZR1_5
  sl_exec_parts
  iapply (wait_dma0 m K c 62 (by decide) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))) $$ [Cz6 HO P63]
  · isplitr; · iapply (State.inv_own_62 m K c); iexact HI
    isplitl [Cz6]; · iexact Cz6
    isplitl [HO]; · iexact HO
    iexact P63
  iintro ⟨HO, P63, -, ZP0_6⟩
  ihave ZP0_6 := (Entails.of_eq (show (dmaPay m c 62 0 : sProp 𝕄) = rpts c (oCh (k0_off2 c 0#32 5#32) (k0_off2_inb c 8)) fullShare.left (Res m c) from rfl)) $$ ZP0_6
  sl_exec_parts
  iapply (wait_dma0 m K c 78 (by decide) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))) $$ [C35 HO P79]
  · isplitr; · iapply (State.inv_own_78 m K c); iexact HI
    isplitl [C35]; · iexact C35
    isplitl [HO]; · iexact HO
    iexact P79
  iintro ⟨HO, P79, -, ZR0_6⟩
  ihave ZR0_6 := (Entails.of_eq (show (dmaPay m c 78 0 : sProp 𝕄) = rpts c (oCh (k0_off2 (partD c) 0#32 5#32) (k0_off2_inb (partD c) 8)) fullShare (Res m c) from rfl)) $$ ZR0_6
  sl_exec_parts
  iapply (wait_dma0 m K c 70 (by decide) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))))) $$ [Cz14 HO P71]
  · isplitr; · iapply (State.inv_own_70 m K c); iexact HI
    isplitl [Cz14]; · iexact Cz14
    isplitl [HO]; · iexact HO
    iexact P71
  iintro ⟨HO, P71, -, ZP1_6⟩
  ihave ZP1_6 := (Entails.of_eq (show (dmaPay m c 70 0 : sProp 𝕄) = rpts c (oCh (k0_off2 c 4096#32 4294967291#32) (k0_off2_inb c 9)) fullShare.left (Res m c) from rfl)) $$ ZP1_6
  sl_exec_parts
  iapply (wait_dma0 m K c 86 (by decide) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))))) $$ [C43 HO P87]
  · isplitr; · iapply (State.inv_own_86 m K c); iexact HI
    isplitl [C43]; · iexact C43
    isplitl [HO]; · iexact HO
    iexact P87
  iintro ⟨HO, P87, -, ZR1_6⟩
  ihave ZR1_6 := (Entails.of_eq (show (dmaPay m c 86 0 : sProp 𝕄) = rpts c (oCh (k0_off2 (partD c) 4096#32 4294967291#32) (k0_off2_inb (partD c) 9)) fullShare (Res m c) from rfl)) $$ ZR1_6
  sl_exec_parts
  iapply (wait_dma0 m K c 63 (by decide) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))))))) $$ [Cz7 HO P64]
  · isplitr; · iapply (State.inv_own_63 m K c); iexact HI
    isplitl [Cz7]; · iexact Cz7
    isplitl [HO]; · iexact HO
    iexact P64
  iintro ⟨HO, P64, -, ZP0_7⟩
  ihave ZP0_7 := (Entails.of_eq (show (dmaPay m c 63 0 : sProp 𝕄) = rpts c (oCh (k0_off2 c 0#32 6#32) (k0_off2_inb c 10)) fullShare.left (Res m c) from rfl)) $$ ZP0_7
  sl_exec_parts
  iapply (wait_dma0 m K c 79 (by decide) (insert (SemLoc.dma (dsem 63), ()) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))))))) $$ [C36 HO P80]
  · isplitr; · iapply (State.inv_own_79 m K c); iexact HI
    isplitl [C36]; · iexact C36
    isplitl [HO]; · iexact HO
    iexact P80
  iintro ⟨HO, P80, -, ZR0_7⟩
  ihave ZR0_7 := (Entails.of_eq (show (dmaPay m c 79 0 : sProp 𝕄) = rpts c (oCh (k0_off2 (partD c) 0#32 6#32) (k0_off2_inb (partD c) 10)) fullShare (Res m c) from rfl)) $$ ZR0_7
  sl_exec_parts
  iapply (wait_dma0 m K c 71 (by decide) (insert (SemLoc.dma (dsem 79), ()) (insert (SemLoc.dma (dsem 63), ()) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))))))))) $$ [Cz15 HO P72]
  · isplitr; · iapply (State.inv_own_71 m K c); iexact HI
    isplitl [Cz15]; · iexact Cz15
    isplitl [HO]; · iexact HO
    iexact P72
  iintro ⟨HO, P72, -, ZP1_7⟩
  ihave ZP1_7 := (Entails.of_eq (show (dmaPay m c 71 0 : sProp 𝕄) = rpts c (oCh (k0_off2 c 4096#32 4294967290#32) (k0_off2_inb c 11)) fullShare.left (Res m c) from rfl)) $$ ZP1_7
  sl_exec_parts
  iapply (wait_dma0 m K c 87 (by decide) (insert (SemLoc.dma (dsem 71), ()) (insert (SemLoc.dma (dsem 79), ()) (insert (SemLoc.dma (dsem 63), ()) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))))))))) $$ [C44 HO P88]
  · isplitr; · iapply (State.inv_own_87 m K c); iexact HI
    isplitl [C44]; · iexact C44
    isplitl [HO]; · iexact HO
    iexact P88
  iintro ⟨HO, P88, -, ZR1_7⟩
  ihave ZR1_7 := (Entails.of_eq (show (dmaPay m c 87 0 : sProp 𝕄) = rpts c (oCh (k0_off2 (partD c) 4096#32 4294967290#32) (k0_off2_inb (partD c) 11)) fullShare (Res m c) from rfl)) $$ ZR1_7
  ihave MA0_6 := (share_join (F := F) c (cSl 0 6 inb_S2x7x512x1024_S1x1x512x1024_0_6_0_0) (CommAcc m c)) $$ [ZP0_0 SP0_7]
  · isplitl [ZP0_0]; · iexact ZP0_0
    iexact SP0_7
  ihave SP0_8 := (Entails.of_eq (rpts_oCh_congr (F := F) c (k0_off4 c 0#32 1#32 1#32) (k0_off2 c 0#32 0#32) (k0_off4_inb c 2) (k0_off2_inb c 14) ((off4_0_1 c).trans (off2_0_0 c).symm) fullShare.right (Res m c))) $$ SP0_8
  ihave OJ0_0 := (share_join (F := F) c (oCh (k0_off2 c 0#32 0#32) (k0_off2_inb c 14)) (Res m c)) $$ [ZP0_1 SP0_8]
  · isplitl [ZP0_1]; · iexact ZP0_1
    iexact SP0_8
  ihave SP0_9 := (Entails.of_eq (rpts_oCh_congr (F := F) c (k0_off4 c 0#32 1#32 2#32) (k0_off2 c 0#32 1#32) (k0_off4_inb c 4) (k0_off2_inb c 0) ((off4_0_2 c).trans (off2_0_1 c).symm) fullShare.right (Res m c))) $$ SP0_9
  ihave OJ0_1 := (share_join (F := F) c (oCh (k0_off2 c 0#32 1#32) (k0_off2_inb c 0)) (Res m c)) $$ [ZP0_2 SP0_9]
  · isplitl [ZP0_2]; · iexact ZP0_2
    iexact SP0_9
  ihave SP0_10 := (Entails.of_eq (rpts_oCh_congr (F := F) c (k0_off4 c 0#32 1#32 3#32) (k0_off2 c 0#32 2#32) (k0_off4_inb c 6) (k0_off2_inb c 2) ((off4_0_3 c).trans (off2_0_2 c).symm) fullShare.right (Res m c))) $$ SP0_10
  ihave OJ0_2 := (share_join (F := F) c (oCh (k0_off2 c 0#32 2#32) (k0_off2_inb c 2)) (Res m c)) $$ [ZP0_3 SP0_10]
  · isplitl [ZP0_3]; · iexact ZP0_3
    iexact SP0_10
  ihave SP0_11 := (Entails.of_eq (rpts_oCh_congr (F := F) c (k0_off4 c 0#32 1#32 4#32) (k0_off2 c 0#32 3#32) (k0_off4_inb c 8) (k0_off2_inb c 4) ((off4_0_4 c).trans (off2_0_3 c).symm) fullShare.right (Res m c))) $$ SP0_11
  ihave OJ0_3 := (share_join (F := F) c (oCh (k0_off2 c 0#32 3#32) (k0_off2_inb c 4)) (Res m c)) $$ [ZP0_4 SP0_11]
  · isplitl [ZP0_4]; · iexact ZP0_4
    iexact SP0_11
  ihave SP0_12 := (Entails.of_eq (rpts_oCh_congr (F := F) c (k0_off4 c 0#32 1#32 5#32) (k0_off2 c 0#32 4#32) (k0_off4_inb c 10) (k0_off2_inb c 6) ((off4_0_5 c).trans (off2_0_4 c).symm) fullShare.right (Res m c))) $$ SP0_12
  ihave OJ0_4 := (share_join (F := F) c (oCh (k0_off2 c 0#32 4#32) (k0_off2_inb c 6)) (Res m c)) $$ [ZP0_5 SP0_12]
  · isplitl [ZP0_5]; · iexact ZP0_5
    iexact SP0_12
  ihave SP0_13 := (Entails.of_eq (rpts_oCh_congr (F := F) c (k0_off4 c 0#32 1#32 6#32) (k0_off2 c 0#32 5#32) (k0_off4_inb c 12) (k0_off2_inb c 8) ((off4_0_6 c).trans (off2_0_5 c).symm) fullShare.right (Res m c))) $$ SP0_13
  ihave OJ0_5 := (share_join (F := F) c (oCh (k0_off2 c 0#32 5#32) (k0_off2_inb c 8)) (Res m c)) $$ [ZP0_6 SP0_13]
  · isplitl [ZP0_6]; · iexact ZP0_6
    iexact SP0_13
  ihave OJ0_6 := (share_join (F := F) c (oCh (k0_off2 c 0#32 6#32) (k0_off2_inb c 10)) (Res m c)) $$ [ZP0_7 ORr0_6]
  · isplitl [ZP0_7]; · iexact ZP0_7
    iexact ORr0_6
  ihave MA1_6 := (share_join (F := F) c (cSl 1 6 inb_S2x7x512x1024_S1x1x512x1024_1_6_0_0) (CommAcc m c)) $$ [ZP1_0 SP1_7]
  · isplitl [ZP1_0]; · iexact ZP1_0
    iexact SP1_7
  ihave SP1_8 := (Entails.of_eq (rpts_oCh_congr (F := F) c (k0_off4 c 4096#32 4294967295#32 4294967295#32) (k0_off2 c 4096#32 0#32) (k0_off4_inb c 3) (k0_off2_inb c 15) ((off4_1_1 c).trans (off2_1_0 c).symm) fullShare.right (Res m c))) $$ SP1_8
  ihave OJ1_0 := (share_join (F := F) c (oCh (k0_off2 c 4096#32 0#32) (k0_off2_inb c 15)) (Res m c)) $$ [ZP1_1 SP1_8]
  · isplitl [ZP1_1]; · iexact ZP1_1
    iexact SP1_8
  ihave SP1_9 := (Entails.of_eq (rpts_oCh_congr (F := F) c (k0_off4 c 4096#32 4294967295#32 4294967294#32) (k0_off2 c 4096#32 4294967295#32) (k0_off4_inb c 5) (k0_off2_inb c 1) ((off4_1_2 c).trans (off2_1_1 c).symm) fullShare.right (Res m c))) $$ SP1_9
  ihave OJ1_1 := (share_join (F := F) c (oCh (k0_off2 c 4096#32 4294967295#32) (k0_off2_inb c 1)) (Res m c)) $$ [ZP1_2 SP1_9]
  · isplitl [ZP1_2]; · iexact ZP1_2
    iexact SP1_9
  ihave SP1_10 := (Entails.of_eq (rpts_oCh_congr (F := F) c (k0_off4 c 4096#32 4294967295#32 4294967293#32) (k0_off2 c 4096#32 4294967294#32) (k0_off4_inb c 7) (k0_off2_inb c 3) ((off4_1_3 c).trans (off2_1_2 c).symm) fullShare.right (Res m c))) $$ SP1_10
  ihave OJ1_2 := (share_join (F := F) c (oCh (k0_off2 c 4096#32 4294967294#32) (k0_off2_inb c 3)) (Res m c)) $$ [ZP1_3 SP1_10]
  · isplitl [ZP1_3]; · iexact ZP1_3
    iexact SP1_10
  ihave SP1_11 := (Entails.of_eq (rpts_oCh_congr (F := F) c (k0_off4 c 4096#32 4294967295#32 4294967292#32) (k0_off2 c 4096#32 4294967293#32) (k0_off4_inb c 9) (k0_off2_inb c 5) ((off4_1_4 c).trans (off2_1_3 c).symm) fullShare.right (Res m c))) $$ SP1_11
  ihave OJ1_3 := (share_join (F := F) c (oCh (k0_off2 c 4096#32 4294967293#32) (k0_off2_inb c 5)) (Res m c)) $$ [ZP1_4 SP1_11]
  · isplitl [ZP1_4]; · iexact ZP1_4
    iexact SP1_11
  ihave SP1_12 := (Entails.of_eq (rpts_oCh_congr (F := F) c (k0_off4 c 4096#32 4294967295#32 4294967291#32) (k0_off2 c 4096#32 4294967292#32) (k0_off4_inb c 11) (k0_off2_inb c 7) ((off4_1_5 c).trans (off2_1_4 c).symm) fullShare.right (Res m c))) $$ SP1_12
  ihave OJ1_4 := (share_join (F := F) c (oCh (k0_off2 c 4096#32 4294967292#32) (k0_off2_inb c 7)) (Res m c)) $$ [ZP1_5 SP1_12]
  · isplitl [ZP1_5]; · iexact ZP1_5
    iexact SP1_12
  ihave SP1_13 := (Entails.of_eq (rpts_oCh_congr (F := F) c (k0_off4 c 4096#32 4294967295#32 4294967290#32) (k0_off2 c 4096#32 4294967291#32) (k0_off4_inb c 13) (k0_off2_inb c 9) ((off4_1_6 c).trans (off2_1_5 c).symm) fullShare.right (Res m c))) $$ SP1_13
  ihave OJ1_5 := (share_join (F := F) c (oCh (k0_off2 c 4096#32 4294967291#32) (k0_off2_inb c 9)) (Res m c)) $$ [ZP1_6 SP1_13]
  · isplitl [ZP1_6]; · iexact ZP1_6
    iexact SP1_13
  ihave OJ1_6 := (share_join (F := F) c (oCh (k0_off2 c 4096#32 4294967290#32) (k0_off2_inb c 11)) (Res m c)) $$ [ZP1_7 ORr1_6]
  · isplitl [ZP1_7]; · iexact ZP1_7
    iexact ORr1_6
  ihave X1 := (Entails.of_eq (rpts_xCh_congr (F := F) c (k0_off1 c 0#32) (k0_off2 c 0#32 0#32) (k0_off1_inb c 0) (k0_off2_inb c 14) ((off1_0 c).trans (off2_0_0 c).symm) fullShare (X m c))) $$ SP0_0
  ihave X9 := (Entails.of_eq (rpts_xCh_congr (F := F) c (k0_off1 c 4096#32) (k0_off2 c 4096#32 0#32) (k0_off1_inb c 1) (k0_off2_inb c 15) ((off1_1 c).trans (off2_1_0 c).symm) fullShare (X m c))) $$ SP1_0
  ihave X0 := (Entails.of_eq (rpts_xCh_congr (F := F) c (k0_off2 c 0#32 7#32) (k0_off3 c 0#32 1#32) (k0_off2_inb c 12) (k0_off3_inb c 0) ((off2_0_7 c).trans (off3_0 c).symm) fullShare (X m c))) $$ X0
  ihave X8 := (Entails.of_eq (rpts_xCh_congr (F := F) c (k0_off2 c 4096#32 4294967289#32) (k0_off3 c 4096#32 4294967295#32) (k0_off2_inb c 13) (k0_off3_inb c 1) ((off2_1_7 c).trans (off3_1 c).symm) fullShare (X m c))) $$ X8
  ihave Hx := (Entails.of_eq (x_spelled (F := F) c fullShare (X m c)).symm) $$ [X0 X1 X2 X3 X4 X5 X6 X7 X8 X9 X10 X11 X12 X13 X14 X15 X16 X17 X18 X19 X20 X21 X22 X23 X24 X25 X26 X27 X28 X29 X30 X31]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [X15]; · iexact X15
    isplitl [X16]; · iexact X16
    isplitl [X17]; · iexact X17
    isplitl [X18]; · iexact X18
    isplitl [X19]; · iexact X19
    isplitl [X20]; · iexact X20
    isplitl [X21]; · iexact X21
    isplitl [X22]; · iexact X22
    isplitl [X23]; · iexact X23
    isplitl [X24]; · iexact X24
    isplitl [X25]; · iexact X25
    isplitl [X26]; · iexact X26
    isplitl [X27]; · iexact X27
    isplitl [X28]; · iexact X28
    isplitl [X29]; · iexact X29
    isplitl [X30]; · iexact X30
    iexact X31
  ihave Hout := (Entails.of_eq (out_spelled (F := F) c fullShare (Res m c)).symm) $$ [O0 OJ0_0 OJ0_1 OJ0_2 OJ0_3 OJ0_4 OJ0_5 OJ0_6 O8 OJ1_0 OJ1_1 OJ1_2 OJ1_3 OJ1_4 OJ1_5 OJ1_6 ZR0_0 ZR0_1 ZR0_2 ZR0_3 ZR0_4 ZR0_5 ZR0_6 ZR0_7 ZR1_0 ZR1_1 ZR1_2 ZR1_3 ZR1_4 ZR1_5 ZR1_6 ZR1_7]
  · isplitl [O0]; · iexact O0
    isplitl [OJ0_0]; · iexact OJ0_0
    isplitl [OJ0_1]; · iexact OJ0_1
    isplitl [OJ0_2]; · iexact OJ0_2
    isplitl [OJ0_3]; · iexact OJ0_3
    isplitl [OJ0_4]; · iexact OJ0_4
    isplitl [OJ0_5]; · iexact OJ0_5
    isplitl [OJ0_6]; · iexact OJ0_6
    isplitl [O8]; · iexact O8
    isplitl [OJ1_0]; · iexact OJ1_0
    isplitl [OJ1_1]; · iexact OJ1_1
    isplitl [OJ1_2]; · iexact OJ1_2
    isplitl [OJ1_3]; · iexact OJ1_3
    isplitl [OJ1_4]; · iexact OJ1_4
    isplitl [OJ1_5]; · iexact OJ1_5
    isplitl [OJ1_6]; · iexact OJ1_6
    isplitl [ZR0_0]; · iexact ZR0_0
    isplitl [ZR0_1]; · iexact ZR0_1
    isplitl [ZR0_2]; · iexact ZR0_2
    isplitl [ZR0_3]; · iexact ZR0_3
    isplitl [ZR0_4]; · iexact ZR0_4
    isplitl [ZR0_5]; · iexact ZR0_5
    isplitl [ZR0_6]; · iexact ZR0_6
    isplitl [ZR0_7]; · iexact ZR0_7
    isplitl [ZR1_0]; · iexact ZR1_0
    isplitl [ZR1_1]; · iexact ZR1_1
    isplitl [ZR1_2]; · iexact ZR1_2
    isplitl [ZR1_3]; · iexact ZR1_3
    isplitl [ZR1_4]; · iexact ZR1_4
    isplitl [ZR1_5]; · iexact ZR1_5
    isplitl [ZR1_6]; · iexact ZR1_6
    iexact ZR1_7
  ihave Hcomm := (Entails.of_eq (comm_spelled (F := F) c fullShare (CommAcc m c)).symm) $$ [SP0_1 SP0_2 SP0_3 SP0_4 SP0_5 SP0_6 MA0_6 SP1_1 SP1_2 SP1_3 SP1_4 SP1_5 SP1_6 MA1_6]
  · isplitl [SP0_1]; · iexact SP0_1
    isplitl [SP0_2]; · iexact SP0_2
    isplitl [SP0_3]; · iexact SP0_3
    isplitl [SP0_4]; · iexact SP0_4
    isplitl [SP0_5]; · iexact SP0_5
    isplitl [SP0_6]; · iexact SP0_6
    isplitl [MA0_6]; · iexact MA0_6
    isplitl [SP1_1]; · iexact SP1_1
    isplitl [SP1_2]; · iexact SP1_2
    isplitl [SP1_3]; · iexact SP1_3
    isplitl [SP1_4]; · iexact SP1_4
    isplitl [SP1_5]; · iexact SP1_5
    isplitl [SP1_6]; · iexact SP1_6
    iexact MA1_6
  ihave Hstage := (Entails.of_eq (stage_spelled (F := F) c fullShare (StageAt m c 6)).symm) $$ [S0 S1]
  · isplitl [S0]; · iexact S0
    iexact S1
  imod (close_all m K c) $$ [P1 P2 P3 P4 P5 P6 P7 P8 P9 P10 P11 P12 P13 P14 P15 P16 P17 P18 P19 P20 P21 P22 P23 P24 P25 P26 P27 P28 P29 P30 P31 P32 P33 P34 P35 P36 P37 P38 P39 P40 P41 P42 P43 P44 P45 P46 P47 P48 P49 P50 P51 P52 P53 P54 P55 P56 P57 P58 P59 P60 P61 P62 P63 P64 P65 P66 P67 P68 P69 P70 P71 P72 P73 P74 P75 P76 P77 P78 P79 P80 P81 P82 P83 P84 P85 P86 P87 P88 P89 P90] with Hsems
  · isplitr; · iapply (State.invs_own_chain m K c); iexact HI
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [P21]; · iexact P21
    isplitl [P22]; · iexact P22
    isplitl [P23]; · iexact P23
    isplitl [P24]; · iexact P24
    isplitl [P25]; · iexact P25
    isplitl [P26]; · iexact P26
    isplitl [P27]; · iexact P27
    isplitl [P28]; · iexact P28
    isplitl [P29]; · iexact P29
    isplitl [P30]; · iexact P30
    isplitl [P31]; · iexact P31
    isplitl [P32]; · iexact P32
    isplitl [P33]; · iexact P33
    isplitl [P34]; · iexact P34
    isplitl [P35]; · iexact P35
    isplitl [P36]; · iexact P36
    isplitl [P37]; · iexact P37
    isplitl [P38]; · iexact P38
    isplitl [P39]; · iexact P39
    isplitl [P40]; · iexact P40
    isplitl [P41]; · iexact P41
    isplitl [P42]; · iexact P42
    isplitl [P43]; · iexact P43
    isplitl [P44]; · iexact P44
    isplitl [P45]; · iexact P45
    isplitl [P46]; · iexact P46
    isplitl [P47]; · iexact P47
    isplitl [P48]; · iexact P48
    isplitl [P49]; · iexact P49
    isplitl [P50]; · iexact P50
    isplitl [P51]; · iexact P51
    isplitl [P52]; · iexact P52
    isplitl [P53]; · iexact P53
    isplitl [P54]; · iexact P54
    isplitl [P55]; · iexact P55
    isplitl [P56]; · iexact P56
    isplitl [P57]; · iexact P57
    isplitl [P58]; · iexact P58
    isplitl [P59]; · iexact P59
    isplitl [P60]; · iexact P60
    isplitl [P61]; · iexact P61
    isplitl [P62]; · iexact P62
    isplitl [P63]; · iexact P63
    isplitl [P64]; · iexact P64
    isplitl [P65]; · iexact P65
    isplitl [P66]; · iexact P66
    isplitl [P67]; · iexact P67
    isplitl [P68]; · iexact P68
    isplitl [P69]; · iexact P69
    isplitl [P70]; · iexact P70
    isplitl [P71]; · iexact P71
    isplitl [P72]; · iexact P72
    isplitl [P73]; · iexact P73
    isplitl [P74]; · iexact P74
    isplitl [P75]; · iexact P75
    isplitl [P76]; · iexact P76
    isplitl [P77]; · iexact P77
    isplitl [P78]; · iexact P78
    isplitl [P79]; · iexact P79
    isplitl [P80]; · iexact P80
    isplitl [P81]; · iexact P81
    isplitl [P82]; · iexact P82
    isplitl [P83]; · iexact P83
    isplitl [P84]; · iexact P84
    isplitl [P85]; · iexact P85
    isplitl [P86]; · iexact P86
    isplitl [P87]; · iexact P87
    isplitl [P88]; · iexact P88
    isplitl [P89]; · iexact P89
    iexact P90
  sl_exec_parts
  sl_step
  iapply HK
  unfold Φ₁
  isplitl [Hx Hout Hcomm Hstage Hsems]
  · isplitl [Hx]; · iexact Hx
    isplitl [Hout]; · iexact Hout
    isplitl [Hcomm]; · iexists _; iexact Hcomm
    isplitl [Hstage]; · iexists _; iexact Hstage
    iexact Hsems
  iexists _; iexact HO

/-- The library's body obligation on device c. -/
theorem body_obligation (ρ : Dev nD → PrngReg) (c : Dev nD) :
    BodyObligation (dats (F := F) m ρ 0 c) (defs₀ (F := F)) Variants.none () Set.univ :=
  body_obligation_of m ρ (fun K c W fo fc fs Kt => sound_body m K c W fo fc fs Kt) c

/-- info: 'Cert.KernelIdeal.Body.body_obligation' depends on axioms: [propext, Classical.choice, Quot.sound] -/
#guard_msgs in #print axioms body_obligation

end Cert.KernelIdeal.Body
end
-- ==== Proof.Bits.RingDefs.lean ====
/-
  The mesh as the kernel sees it. The 32 devices are numbered x·16 + y·4 + z over the mesh (x, y, z) = (2, 4, 4).
  The kernel works on rings of eight: the devices of one z, ordered by ring position y on the half x = 0 and
  7 − y on the half x = 1, so that neighbouring positions are neighbouring devices of the torus; and on pairs
  {z, z xor 1}. Within a pair the member with even z reduces the lower half of the rows, the other the upper half.
  This module names the three device maps (ring successor, ring predecessor, pair partner), the ring position and
  the half, and the row at which a chunk starts.
-/
import proofs.«900727_g7700000000000728_dist_ar_v7x_xyz2x4x4_y_m16384_n1024_f32_1_alg».proof.Kernel
import Idealize.ShloMosaic.Lib.Decide

namespace Cert.Kernel.Ring

open Idealize.ShloMosaic Cert.Kernel

/-- Ring position of a device: y on the half x = 0, 7 − y on the half x = 1. -/
def posD (c : Dev nD) : ℕ := if c.val / 16 = 0 then (c.val / 4) % 4 else 7 - (c.val / 4) % 4
/-- The z coordinate. -/
def zD (c : Dev nD) : ℕ := c.val % 4
/-- Which half of the rows a device reduces: z mod 2. -/
def zpD (c : Dev nD) : ℕ := c.val % 2

/-- The device at ring position p (mod 8) and coordinate z (mod 4). -/
def ofPos (p z : ℕ) : Dev nD :=
  ⟨(if p % 8 < 4 then (p % 8) * 4 else 16 + (7 - p % 8) * 4) + z % 4, by
    have h1 : p % 8 < 8 := Nat.mod_lt _ (by decide)
    have h2 : z % 4 < 4 := Nat.mod_lt _ (by decide)
    show _ < 32
    split <;> omega⟩

/-- Ring successor, ring predecessor, pair partner. -/
def succD (c : Dev nD) : Dev nD := ofPos (posD c + 1) (zD c)
def predD (c : Dev nD) : Dev nD := ofPos (posD c + 7) (zD c)
def partD (c : Dev nD) : Dev nD :=
  ⟨c.val / 2 * 2 + (1 - c.val % 2), by have h : c.val < 32 := c.isLt; show _ < 32; omega⟩

/-- The neighbour a device SENDS to in direction d (0: successor, 1: predecessor), and the one it RECEIVES from. -/
def toD (d : Fin 2) (c : Dev nD) : Dev nD := if d = 0 then succD c else predD c
def fromD (d : Fin 2) (c : Dev nD) : Dev nD := if d = 0 then predD c else succD c

/-- First row of the chunk of direction d at ring position (posD c + j) mod 8, in the half device c reduces. -/
def rowAt (c : Dev nD) (d j : ℕ) : ℕ := zpD c * 8192 + d * 4096 + ((posD c + j) % 8) * 512

end Cert.Kernel.Ring
-- ==== Proof.Bits.Cells.lean ====
/-
  The resource algebra and the names of the semaphore cells and buffers of one device.
  A device's regular semaphore here is the barrier of the collective; its ninety DMA semaphores are, in the order
  the program lays them out: 28 departure semaphores of the ring copies (direction d, step k: index 14·d + k),
  28 arrival semaphores of the ring copies (28 + 14·d + k), 16 departure and 16 arrival semaphores of the copies
  to the pair partner (56 + 8·d + k and 72 + 8·d + k), and the two semaphores of the local copies (88 + d).
-/
import proofs.«900727_g7700000000000728_dist_ar_v7x_xyz2x4x4_y_m16384_n1024_f32_1_alg».proof.Proof.Gen.Kernel
import proofs.«900727_g7700000000000728_dist_ar_v7x_xyz2x4x4_y_m16384_n1024_f32_1_alg».proof.Proof.Gen.Kernel.Skeleton
import proofs.«900727_g7700000000000728_dist_ar_v7x_xyz2x4x4_y_m16384_n1024_f32_1_alg».proof.Proof.Gen.Kernel.Launch
import proofs.«900727_g7700000000000728_dist_ar_v7x_xyz2x4x4_y_m16384_n1024_f32_1_alg».proof.Proof.Gen.Kernel.Points
import proofs.«900727_g7700000000000728_dist_ar_v7x_xyz2x4x4_y_m16384_n1024_f32_1_alg».proof.Proof.Bits.RingDefs
import Idealize.ShloMosaic.Lib.Pipeline.Launch
import Idealize.ShloMosaic.Lib.Pipeline.Kit
import Idealize.ShloMosaic.Lib.Tactic

noncomputable section

namespace Cert.Kernel.Cells

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy (duties unnamed) beside the protocol's (duties 0, 1, 2) -/

/-- Duty names. A barrier cell has three duties: 0 paid by the ring predecessor, 1 by the ring successor,
    2 by the pair partner. Every DMA cell has the one duty 0 in each of its rounds. -/
abbrev UB : Type := URounds (GSem nD τ sig) (Fin 3)
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## Cells -/

/-- The barrier semaphore of the collective. -/
abbrev barS : Sem sig := (SemArray.scalar (sig.barrier 0 rfl) : Sems sig S_).sem

/-- The DMA semaphore of index i. -/
abbrev dsem (i : ℕ) (h : i < 90 := by decide) : DmaSem sig := ⟨i, h⟩

abbrev barCell (c : Dev nD) : GSem nD τ sig := ((c : Thread nD τ), .reg barS)
abbrev dcell (c : Dev nD) (i : ℕ) (h : i < 90 := by decide) : GSem nD τ sig := ((c : Thread nD τ), .dma (dsem i h))

/-- Departure and arrival cells of the ring copy of direction d at step k (k < 14: seven steps of the
    reduction, seven of the redistribution); of the copy to the partner (k < 8); of the local copies. -/
abbrev sendI (d k : ℕ) : ℕ := 14 * d + k
abbrev recvI (d k : ℕ) : ℕ := 28 + 14 * d + k
abbrev zsendI (d k : ℕ) : ℕ := 56 + 8 * d + k
abbrev zrecvI (d k : ℕ) : ℕ := 72 + 8 * d + k
abbrev localI (d : ℕ) : ℕ := 88 + d

/-! ## Buffers -/

abbrev xM : Memref sig .tc .hbm S16384x1024 .f32 := Memref.whole main_arg0
abbrev oM : Memref sig .tc .hbm S16384x1024 .f32 := Memref.whole main_v1
abbrev cM : Memref sig .tc .vmem S2x7x512x1024 .f32 := Memref.whole cc0_scratch0
abbrev sM : Memref sig .tc .vmem S2x512x1024 .f32 := Memref.whole cc0_scratch1

/-- The credit of one chunk of 512 rows: what every copy of the program moves. -/
abbrev chunkRect0 : Rect S16384x1024 := Rect.unit (s := S16384x1024) ![0, 0] S512x1024.size (by decide)
abbrev N : ℕ := ((xM.slice chunkRect0 (fun _ => rfl)) : Memref sig .tc .hbm S512x1024 .f32).view.dmaCredit
theorem N_pos : 0 < N := View.dmaCredit_pos _ (by decide)

end Cert.Kernel.Cells

end
-- ==== Proof.Bits.Vals.lean ====
/-
  What the buffers hold, as functions of the devices' argument arrays.
  Write x_c for device c's block of 16384 rows, cut into two halves of 8192 rows (one per member of a pair), each
  half into two directions of 4096 rows, each direction into eight chunks of 512 rows, one per ring position.
  In direction d a chunk travels once around the ring: the device that receives it at step s adds its own copy
  of that chunk, the first addition followed by a halving of the sum, every later summand halved before it is
  added. After seven steps the device one position before the chunk's own (in the direction of travel) holds
  half the sum of the chunk over the eight devices of the ring. Each block sits on two ring positions, so this
  is the sum of the chunk over the four blocks.
-/
import proofs.«900727_g7700000000000728_dist_ar_v7x_xyz2x4x4_y_m16384_n1024_f32_1_alg».proof.Proof.Bits.Cells
import Idealize.ShloMosaic.Lib.ValueIdx

noncomputable section

namespace Cert.Kernel.Vals

open Cert.Kernel Cert.Kernel.Gen Cert.Kernel.Ring Cert.Kernel.Cells

open Idealize.ShloMosaic
open Idealize.ShloMosaic.TcCoe
open Idealize.SL.Sem

variable {F : FTy → Type} [FloatOps F]

/-! ## Views: a chunk of the argument or result array, a slot of the exchange buffer, a slot of the staging buffer -/

abbrev xCh (off : Fin 2 → ℕ) (h : ∀ a, off a + S512x1024.size a ≤ S16384x1024.size a) : Memref sig .tc .hbm S512x1024 .f32 :=
  xM.slice (Rect.unit (s := S16384x1024) off S512x1024.size h) (fun _ => rfl)
abbrev oCh (off : Fin 2 → ℕ) (h : ∀ a, off a + S512x1024.size a ≤ S16384x1024.size a) : Memref sig .tc .hbm S512x1024 .f32 :=
  oM.slice (Rect.unit (s := S16384x1024) off S512x1024.size h) (fun _ => rfl)
abbrev cSl (d s : ℕ) (h : ∀ a, (![d, s, 0, 0] : Fin 4 → Nat) a + S1x1x512x1024.size a ≤ S2x7x512x1024.size a) : Memref sig .tc .vmem S512x1024 .f32 :=
  (cM.slice (Rect.unit (s := S2x7x512x1024) ![d, s, 0, 0] S1x1x512x1024.size h) (fun _ => rfl)).squeeze S512x1024 squeezes_S1x1x512x1024_S512x1024
abbrev sSl (d : ℕ) (h : ∀ a, (![d, 0, 0] : Fin 3 → Nat) a + S1x512x1024.size a ≤ S2x512x1024.size a) : Memref sig .tc .vmem S512x1024 .f32 :=
  (sM.slice (Rect.unit (s := S2x512x1024) ![d, 0, 0] S1x512x1024.size h) (fun _ => rfl)).squeeze S512x1024 squeezes_S1x512x1024_S512x1024

/-! ## The arithmetic of one step -/

/-- The constant one half, as the program spells it. -/
abbrev halfV : FVec F S512x1024 .f32 := broadcast S512x1024 (Scalar.ofBits .f32 0x3F000000#32)
/-- First step: the sum of what arrived and the device's own chunk, halved. -/
def stepA (a b : FVec F S512x1024 .f32) : FVec F S512x1024 .f32 := mulf (addf a b) halfV
/-- Later steps: what arrived plus half the device's own chunk. -/
def stepB (a b : FVec F S512x1024 .f32) : FVec F S512x1024 .f32 := addf a (mulf b halfV)

variable (m : (ℓ : Loc nD τ sig) → Buf (Elt F) ℓ)

/-- Device c's argument array. -/
abbrev X (c : Dev nD) : Buf (Elt F) ((c : Thread nD τ).loc main_arg0) := m ((c : Thread nD τ).loc main_arg0)

/-- The chunk of 512 rows of an array of 16384 rows that starts at row r0. -/
def chunkAt (B : S16384x1024.Idx → F .f32) (r0 : ℕ) : FVec F S512x1024 .f32 :=
  fun i => B (ValueIdx.ix2 (⟨(r0 + (i 0).val) % 16384, Nat.mod_lt _ (by decide)⟩ : Fin 16384) (i 1))

/-- Device c's own chunk of direction d at ring position posD c + j. -/
def xc (c : Dev nD) (d j : ℕ) : FVec F S512x1024 .f32 := chunkAt (X m c) (rowAt c d j)

/-- The shift, in ring positions, of the chunk a device adds at step s of direction d: s + 1 positions back along
    the direction of travel. -/
def back (d k : ℕ) : ℕ := if d = 0 then (8 - k % 8) % 8 else k % 8

/-- What device c's slot (d, s) of the exchange buffer holds after its update at step s. -/
def acc (d : ℕ) : ℕ → Dev nD → FVec F S512x1024 .f32
  | 0, c => stepA (xc m (fromD ⟨d % 2, Nat.mod_lt _ (by decide)⟩ c) d 0) (xc m c d (back d 1))
  | s + 1, c => stepB (acc d s (fromD ⟨d % 2, Nat.mod_lt _ (by decide)⟩ c)) (xc m c d (back d (s + 2)))

/-- What arrives in device c's slot (d, s): the sender's own chunk at step 0, its previous slot afterwards. -/
def arr (d : ℕ) : ℕ → Dev nD → FVec F S512x1024 .f32
  | 0, c => xc m (fromD ⟨d % 2, Nat.mod_lt _ (by decide)⟩ c) d 0
  | s + 1, c => acc m d s (fromD ⟨d % 2, Nat.mod_lt _ (by decide)⟩ c)

/-- The exchange buffer of device c with every slot at what ARRIVES in it, and with every slot UPDATED. -/
def CommIn (c : Dev nD) : Buf (Elt F) ((c : Thread nD τ).loc cc0_scratch0) :=
  fun i => arr m (i 0).val (i 1).val c (ValueIdx.ix2 (i 2) (i 3))
def CommAcc (c : Dev nD) : Buf (Elt F) ((c : Thread nD τ).loc cc0_scratch0) :=
  fun i => acc m (i 0).val (i 1).val c (ValueIdx.ix2 (i 2) (i 3))

/-- The device that ends the reduction holding chunk q of direction d of half p, in the pair of ring planes zz. -/
def owner (zz p d q : ℕ) : Dev nD := ofPos (q + (if d = 0 then 7 else 1)) (2 * zz + p)

/-- The result array of every device of the pair of planes zz: row r lies in half r / 8192, direction
    (r % 8192) / 4096, chunk (r % 4096) / 512, and holds the reduced chunk of its owner. -/
def ResZ (zz : ℕ) : S16384x1024.Idx → F .f32 :=
  fun i => acc m (((i 0).val % 8192) / 4096) 6 (owner zz ((i 0).val / 8192) (((i 0).val % 8192) / 4096) (((i 0).val % 4096) / 512))
    (ValueIdx.ix2 (⟨(i 0).val % 512, Nat.mod_lt _ (by decide)⟩ : Fin 512) (i 1))

/-- Device c's result array. -/
def Res (c : Dev nD) : Buf (Elt F) ((c : Thread nD τ).loc main_v1) := ResZ m (zD c / 2)

end Cert.Kernel.Vals

end
-- ==== Proof.Bits.Sched.lean ====
/-
  The schedule of the collective. Every cell has one round, except the two cells of the local copies, which have
  eight. A barrier cell has three duties of one unit: from the ring predecessor, the ring successor and the pair
  partner; each hands the cell's owner the buffers of the payer that the owner will write into, and the fact that
  the payer's arrival cells stand at their first round. An arrival cell's one duty is the copy into it and hands
  the owner the written region at its named contents; a departure cell's one duty is the device's own copy and
  hands back the share of the source it lent.
-/
import proofs.«900727_g7700000000000728_dist_ar_v7x_xyz2x4x4_y_m16384_n1024_f32_1_alg».proof.Proof.Bits.Vals

set_option maxRecDepth 16384

noncomputable section

namespace Cert.Kernel.Sched

open Cert.Kernel Cert.Kernel.Gen Cert.Kernel.Ring Cert.Kernel.Cells Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The region of device c's buffer under the view v, at share q and contents f. -/
abbrev rpts (c : Dev nD) {sp : Space} {s : Shape} (v : Memref sig .tc sp s .f32) (q : PosShare TreeShare)
    (f : Buf (Elt F) (v.view.loc (c : Thread nD τ))) : sProp 𝕄 :=
  (v.view.loc (c : Thread nD τ)) ↦[v.view.set]{q} f
/-- The same region outright, at some contents. -/
abbrev rsome (c : Dev nD) {sp : Space} {s : Shape} (v : Memref sig .tc sp s .f32) : sProp 𝕄 :=
  iprop(∃ f : Buf (Elt F) (v.view.loc (c : Thread nD τ)), rpts c v fullShare f)

variable (m : (ℓ : Loc nD τ sig) → Buf (Elt F) ℓ)

/-- The staging buffer of device c during step r: slot d holds the device's own chunk r + 1 positions back. -/
def StageAt (c : Dev nD) (r : ℕ) : Buf (Elt F) ((c : Thread nD τ).loc cc0_scratch1) :=
  fun i => xc m c (i 0).val (back (i 0).val (r + 1)) (ValueIdx.ix2 (i 1) (i 2))

def sendPay_0_0 (c : Dev nD) : sProp 𝕄 := rpts c (xCh (k0_off1 c 0#32) (k0_off1_inb c 0)) fullShare (X m c)
def sendPay_0_1 (c : Dev nD) : sProp 𝕄 := rpts c (cSl 0 0 inb_S2x7x512x1024_S1x1x512x1024_0_0_0_0) fullShare (CommAcc m c)
def sendPay_0_2 (c : Dev nD) : sProp 𝕄 := rpts c (cSl 0 1 inb_S2x7x512x1024_S1x1x512x1024_0_1_0_0) fullShare (CommAcc m c)
def sendPay_0_3 (c : Dev nD) : sProp 𝕄 := rpts c (cSl 0 2 inb_S2x7x512x1024_S1x1x512x1024_0_2_0_0) fullShare (CommAcc m c)
def sendPay_0_4 (c : Dev nD) : sProp 𝕄 := rpts c (cSl 0 3 inb_S2x7x512x1024_S1x1x512x1024_0_3_0_0) fullShare (CommAcc m c)
def sendPay_0_5 (c : Dev nD) : sProp 𝕄 := rpts c (cSl 0 4 inb_S2x7x512x1024_S1x1x512x1024_0_4_0_0) fullShare (CommAcc m c)
def sendPay_0_6 (c : Dev nD) : sProp 𝕄 := rpts c (cSl 0 5 inb_S2x7x512x1024_S1x1x512x1024_0_5_0_0) fullShare (CommAcc m c)
def sendPay_0_7 (c : Dev nD) : sProp 𝕄 := rpts c (cSl 0 6 inb_S2x7x512x1024_S1x1x512x1024_0_6_0_0) fullShare.right (CommAcc m c)
def sendPay_0_8 (c : Dev nD) : sProp 𝕄 := rpts c (oCh (k0_off4 c 0#32 1#32 1#32) (k0_off4_inb c 2)) fullShare.right (Res m c)
def sendPay_0_9 (c : Dev nD) : sProp 𝕄 := rpts c (oCh (k0_off4 c 0#32 1#32 2#32) (k0_off4_inb c 4)) fullShare.right (Res m c)
def sendPay_0_10 (c : Dev nD) : sProp 𝕄 := rpts c (oCh (k0_off4 c 0#32 1#32 3#32) (k0_off4_inb c 6)) fullShare.right (Res m c)
def sendPay_0_11 (c : Dev nD) : sProp 𝕄 := rpts c (oCh (k0_off4 c 0#32 1#32 4#32) (k0_off4_inb c 8)) fullShare.right (Res m c)
def sendPay_0_12 (c : Dev nD) : sProp 𝕄 := rpts c (oCh (k0_off4 c 0#32 1#32 5#32) (k0_off4_inb c 10)) fullShare.right (Res m c)
def sendPay_0_13 (c : Dev nD) : sProp 𝕄 := rpts c (oCh (k0_off4 c 0#32 1#32 6#32) (k0_off4_inb c 12)) fullShare.right (Res m c)
def sendPay_1_0 (c : Dev nD) : sProp 𝕄 := rpts c (xCh (k0_off1 c 4096#32) (k0_off1_inb c 1)) fullShare (X m c)
def sendPay_1_1 (c : Dev nD) : sProp 𝕄 := rpts c (cSl 1 0 inb_S2x7x512x1024_S1x1x512x1024_1_0_0_0) fullShare (CommAcc m c)
def sendPay_1_2 (c : Dev nD) : sProp 𝕄 := rpts c (cSl 1 1 inb_S2x7x512x1024_S1x1x512x1024_1_1_0_0) fullShare (CommAcc m c)
def sendPay_1_3 (c : Dev nD) : sProp 𝕄 := rpts c (cSl 1 2 inb_S2x7x512x1024_S1x1x512x1024_1_2_0_0) fullShare (CommAcc m c)
def sendPay_1_4 (c : Dev nD) : sProp 𝕄 := rpts c (cSl 1 3 inb_S2x7x512x1024_S1x1x512x1024_1_3_0_0) fullShare (CommAcc m c)
def sendPay_1_5 (c : Dev nD) : sProp 𝕄 := rpts c (cSl 1 4 inb_S2x7x512x1024_S1x1x512x1024_1_4_0_0) fullShare (CommAcc m c)
def sendPay_1_6 (c : Dev nD) : sProp 𝕄 := rpts c (cSl 1 5 inb_S2x7x512x1024_S1x1x512x1024_1_5_0_0) fullShare (CommAcc m c)
def sendPay_1_7 (c : Dev nD) : sProp 𝕄 := rpts c (cSl 1 6 inb_S2x7x512x1024_S1x1x512x1024_1_6_0_0) fullShare.right (CommAcc m c)
def sendPay_1_8 (c : Dev nD) : sProp 𝕄 := rpts c (oCh (k0_off4 c 4096#32 4294967295#32 4294967295#32) (k0_off4_inb c 3)) fullShare.right (Res m c)
def sendPay_1_9 (c : Dev nD) : sProp 𝕄 := rpts c (oCh (k0_off4 c 4096#32 4294967295#32 4294967294#32) (k0_off4_inb c 5)) fullShare.right (Res m c)
def sendPay_1_10 (c : Dev nD) : sProp 𝕄 := rpts c (oCh (k0_off4 c 4096#32 4294967295#32 4294967293#32) (k0_off4_inb c 7)) fullShare.right (Res m c)
def sendPay_1_11 (c : Dev nD) : sProp 𝕄 := rpts c (oCh (k0_off4 c 4096#32 4294967295#32 4294967292#32) (k0_off4_inb c 9)) fullShare.right (Res m c)
def sendPay_1_12 (c : Dev nD) : sProp 𝕄 := rpts c (oCh (k0_off4 c 4096#32 4294967295#32 4294967291#32) (k0_off4_inb c 11)) fullShare.right (Res m c)
def sendPay_1_13 (c : Dev nD) : sProp 𝕄 := rpts c (oCh (k0_off4 c 4096#32 4294967295#32 4294967290#32) (k0_off4_inb c 13)) fullShare.right (Res m c)
def recvPay_0_0 (c : Dev nD) : sProp 𝕄 := rpts c (cSl 0 0 inb_S2x7x512x1024_S1x1x512x1024_0_0_0_0) fullShare (CommIn m c)
def recvPay_0_1 (c : Dev nD) : sProp 𝕄 := rpts c (cSl 0 1 inb_S2x7x512x1024_S1x1x512x1024_0_1_0_0) fullShare (CommIn m c)
def recvPay_0_2 (c : Dev nD) : sProp 𝕄 := rpts c (cSl 0 2 inb_S2x7x512x1024_S1x1x512x1024_0_2_0_0) fullShare (CommIn m c)
def recvPay_0_3 (c : Dev nD) : sProp 𝕄 := rpts c (cSl 0 3 inb_S2x7x512x1024_S1x1x512x1024_0_3_0_0) fullShare (CommIn m c)
def recvPay_0_4 (c : Dev nD) : sProp 𝕄 := rpts c (cSl 0 4 inb_S2x7x512x1024_S1x1x512x1024_0_4_0_0) fullShare (CommIn m c)
def recvPay_0_5 (c : Dev nD) : sProp 𝕄 := rpts c (cSl 0 5 inb_S2x7x512x1024_S1x1x512x1024_0_5_0_0) fullShare (CommIn m c)
def recvPay_0_6 (c : Dev nD) : sProp 𝕄 := rpts c (cSl 0 6 inb_S2x7x512x1024_S1x1x512x1024_0_6_0_0) fullShare (CommIn m c)
def recvPay_0_7 (c : Dev nD) : sProp 𝕄 := rpts c (oCh (k0_off2 c 0#32 0#32) (k0_off2_inb c 14)) fullShare (Res m c)
def recvPay_0_8 (c : Dev nD) : sProp 𝕄 := rpts c (oCh (k0_off2 c 0#32 1#32) (k0_off2_inb c 0)) fullShare (Res m c)
def recvPay_0_9 (c : Dev nD) : sProp 𝕄 := rpts c (oCh (k0_off2 c 0#32 2#32) (k0_off2_inb c 2)) fullShare (Res m c)
def recvPay_0_10 (c : Dev nD) : sProp 𝕄 := rpts c (oCh (k0_off2 c 0#32 3#32) (k0_off2_inb c 4)) fullShare (Res m c)
def recvPay_0_11 (c : Dev nD) : sProp 𝕄 := rpts c (oCh (k0_off2 c 0#32 4#32) (k0_off2_inb c 6)) fullShare (Res m c)
def recvPay_0_12 (c : Dev nD) : sProp 𝕄 := rpts c (oCh (k0_off2 c 0#32 5#32) (k0_off2_inb c 8)) fullShare (Res m c)
def recvPay_0_13 (c : Dev nD) : sProp 𝕄 := rpts c (oCh (k0_off2 c 0#32 6#32) (k0_off2_inb c 10)) fullShare (Res m c)
def recvPay_1_0 (c : Dev nD) : sProp 𝕄 := rpts c (cSl 1 0 inb_S2x7x512x1024_S1x1x512x1024_1_0_0_0) fullShare (CommIn m c)
def recvPay_1_1 (c : Dev nD) : sProp 𝕄 := rpts c (cSl 1 1 inb_S2x7x512x1024_S1x1x512x1024_1_1_0_0) fullShare (CommIn m c)
def recvPay_1_2 (c : Dev nD) : sProp 𝕄 := rpts c (cSl 1 2 inb_S2x7x512x1024_S1x1x512x1024_1_2_0_0) fullShare (CommIn m c)
def recvPay_1_3 (c : Dev nD) : sProp 𝕄 := rpts c (cSl 1 3 inb_S2x7x512x1024_S1x1x512x1024_1_3_0_0) fullShare (CommIn m c)
def recvPay_1_4 (c : Dev nD) : sProp 𝕄 := rpts c (cSl 1 4 inb_S2x7x512x1024_S1x1x512x1024_1_4_0_0) fullShare (CommIn m c)
def recvPay_1_5 (c : Dev nD) : sProp 𝕄 := rpts c (cSl 1 5 inb_S2x7x512x1024_S1x1x512x1024_1_5_0_0) fullShare (CommIn m c)
def recvPay_1_6 (c : Dev nD) : sProp 𝕄 := rpts c (cSl 1 6 inb_S2x7x512x1024_S1x1x512x1024_1_6_0_0) fullShare (CommIn m c)
def recvPay_1_7 (c : Dev nD) : sProp 𝕄 := rpts c (oCh (k0_off2 c 4096#32 0#32) (k0_off2_inb c 15)) fullShare (Res m c)
def recvPay_1_8 (c : Dev nD) : sProp 𝕄 := rpts c (oCh (k0_off2 c 4096#32 4294967295#32) (k0_off2_inb c 1)) fullShare (Res m c)
def recvPay_1_9 (c : Dev nD) : sProp 𝕄 := rpts c (oCh (k0_off2 c 4096#32 4294967294#32) (k0_off2_inb c 3)) fullShare (Res m c)
def recvPay_1_10 (c : Dev nD) : sProp 𝕄 := rpts c (oCh (k0_off2 c 4096#32 4294967293#32) (k0_off2_inb c 5)) fullShare (Res m c)
def recvPay_1_11 (c : Dev nD) : sProp 𝕄 := rpts c (oCh (k0_off2 c 4096#32 4294967292#32) (k0_off2_inb c 7)) fullShare (Res m c)
def recvPay_1_12 (c : Dev nD) : sProp 𝕄 := rpts c (oCh (k0_off2 c 4096#32 4294967291#32) (k0_off2_inb c 9)) fullShare (Res m c)
def recvPay_1_13 (c : Dev nD) : sProp 𝕄 := rpts c (oCh (k0_off2 c 4096#32 4294967290#32) (k0_off2_inb c 11)) fullShare (Res m c)
def zsendPay_0_0 (c : Dev nD) : sProp 𝕄 := rpts c (cSl 0 6 inb_S2x7x512x1024_S1x1x512x1024_0_6_0_0) fullShare.left (CommAcc m c)
def zsendPay_0_1 (c : Dev nD) : sProp 𝕄 := rpts c (oCh (k0_off2 c 0#32 0#32) (k0_off2_inb c 14)) fullShare.left (Res m c)
def zsendPay_0_2 (c : Dev nD) : sProp 𝕄 := rpts c (oCh (k0_off2 c 0#32 1#32) (k0_off2_inb c 0)) fullShare.left (Res m c)
def zsendPay_0_3 (c : Dev nD) : sProp 𝕄 := rpts c (oCh (k0_off2 c 0#32 2#32) (k0_off2_inb c 2)) fullShare.left (Res m c)
def zsendPay_0_4 (c : Dev nD) : sProp 𝕄 := rpts c (oCh (k0_off2 c 0#32 3#32) (k0_off2_inb c 4)) fullShare.left (Res m c)
def zsendPay_0_5 (c : Dev nD) : sProp 𝕄 := rpts c (oCh (k0_off2 c 0#32 4#32) (k0_off2_inb c 6)) fullShare.left (Res m c)
def zsendPay_0_6 (c : Dev nD) : sProp 𝕄 := rpts c (oCh (k0_off2 c 0#32 5#32) (k0_off2_inb c 8)) fullShare.left (Res m c)
def zsendPay_0_7 (c : Dev nD) : sProp 𝕄 := rpts c (oCh (k0_off2 c 0#32 6#32) (k0_off2_inb c 10)) fullShare.left (Res m c)
def zsendPay_1_0 (c : Dev nD) : sProp 𝕄 := rpts c (cSl 1 6 inb_S2x7x512x1024_S1x1x512x1024_1_6_0_0) fullShare.left (CommAcc m c)
def zsendPay_1_1 (c : Dev nD) : sProp 𝕄 := rpts c (oCh (k0_off2 c 4096#32 0#32) (k0_off2_inb c 15)) fullShare.left (Res m c)
def zsendPay_1_2 (c : Dev nD) : sProp 𝕄 := rpts c (oCh (k0_off2 c 4096#32 4294967295#32) (k0_off2_inb c 1)) fullShare.left (Res m c)
def zsendPay_1_3 (c : Dev nD) : sProp 𝕄 := rpts c (oCh (k0_off2 c 4096#32 4294967294#32) (k0_off2_inb c 3)) fullShare.left (Res m c)
def zsendPay_1_4 (c : Dev nD) : sProp 𝕄 := rpts c (oCh (k0_off2 c 4096#32 4294967293#32) (k0_off2_inb c 5)) fullShare.left (Res m c)
def zsendPay_1_5 (c : Dev nD) : sProp 𝕄 := rpts c (oCh (k0_off2 c 4096#32 4294967292#32) (k0_off2_inb c 7)) fullShare.left (Res m c)
def zsendPay_1_6 (c : Dev nD) : sProp 𝕄 := rpts c (oCh (k0_off2 c 4096#32 4294967291#32) (k0_off2_inb c 9)) fullShare.left (Res m c)
def zsendPay_1_7 (c : Dev nD) : sProp 𝕄 := rpts c (oCh (k0_off2 c 4096#32 4294967290#32) (k0_off2_inb c 11)) fullShare.left (Res m c)
def zrecvPay_0_0 (c : Dev nD) : sProp 𝕄 := rpts c (oCh (k0_off3 (partD c) 0#32 1#32) (k0_off3_inb (partD c) 0)) fullShare (Res m c)
def zrecvPay_0_1 (c : Dev nD) : sProp 𝕄 := rpts c (oCh (k0_off2 (partD c) 0#32 0#32) (k0_off2_inb (partD c) 14)) fullShare (Res m c)
def zrecvPay_0_2 (c : Dev nD) : sProp 𝕄 := rpts c (oCh (k0_off2 (partD c) 0#32 1#32) (k0_off2_inb (partD c) 0)) fullShare (Res m c)
def zrecvPay_0_3 (c : Dev nD) : sProp 𝕄 := rpts c (oCh (k0_off2 (partD c) 0#32 2#32) (k0_off2_inb (partD c) 2)) fullShare (Res m c)
def zrecvPay_0_4 (c : Dev nD) : sProp 𝕄 := rpts c (oCh (k0_off2 (partD c) 0#32 3#32) (k0_off2_inb (partD c) 4)) fullShare (Res m c)
def zrecvPay_0_5 (c : Dev nD) : sProp 𝕄 := rpts c (oCh (k0_off2 (partD c) 0#32 4#32) (k0_off2_inb (partD c) 6)) fullShare (Res m c)
def zrecvPay_0_6 (c : Dev nD) : sProp 𝕄 := rpts c (oCh (k0_off2 (partD c) 0#32 5#32) (k0_off2_inb (partD c) 8)) fullShare (Res m c)
def zrecvPay_0_7 (c : Dev nD) : sProp 𝕄 := rpts c (oCh (k0_off2 (partD c) 0#32 6#32) (k0_off2_inb (partD c) 10)) fullShare (Res m c)
def zrecvPay_1_0 (c : Dev nD) : sProp 𝕄 := rpts c (oCh (k0_off3 (partD c) 4096#32 4294967295#32) (k0_off3_inb (partD c) 1)) fullShare (Res m c)
def zrecvPay_1_1 (c : Dev nD) : sProp 𝕄 := rpts c (oCh (k0_off2 (partD c) 4096#32 0#32) (k0_off2_inb (partD c) 15)) fullShare (Res m c)
def zrecvPay_1_2 (c : Dev nD) : sProp 𝕄 := rpts c (oCh (k0_off2 (partD c) 4096#32 4294967295#32) (k0_off2_inb (partD c) 1)) fullShare (Res m c)
def zrecvPay_1_3 (c : Dev nD) : sProp 𝕄 := rpts c (oCh (k0_off2 (partD c) 4096#32 4294967294#32) (k0_off2_inb (partD c) 3)) fullShare (Res m c)
def zrecvPay_1_4 (c : Dev nD) : sProp 𝕄 := rpts c (oCh (k0_off2 (partD c) 4096#32 4294967293#32) (k0_off2_inb (partD c) 5)) fullShare (Res m c)
def zrecvPay_1_5 (c : Dev nD) : sProp 𝕄 := rpts c (oCh (k0_off2 (partD c) 4096#32 4294967292#32) (k0_off2_inb (partD c) 7)) fullShare (Res m c)
def zrecvPay_1_6 (c : Dev nD) : sProp 𝕄 := rpts c (oCh (k0_off2 (partD c) 4096#32 4294967291#32) (k0_off2_inb (partD c) 9)) fullShare (Res m c)
def zrecvPay_1_7 (c : Dev nD) : sProp 𝕄 := rpts c (oCh (k0_off2 (partD c) 4096#32 4294967290#32) (k0_off2_inb (partD c) 11)) fullShare (Res m c)
def localPay_0 (c : Dev nD) : ℕ → sProp 𝕄
  | 0 => iprop((rpts c (sSl 0 inb_S2x512x1024_S1x512x1024_0_0_0) fullShare (StageAt m c 0)) ∗ (rpts c (xCh (k0_off2 c 0#32 1#32) (k0_off2_inb c 0)) fullShare (X m c)))
  | 1 => iprop((rpts c (sSl 0 inb_S2x512x1024_S1x512x1024_0_0_0) fullShare (StageAt m c 1)) ∗ (rpts c (xCh (k0_off2 c 0#32 2#32) (k0_off2_inb c 2)) fullShare (X m c)))
  | 2 => iprop((rpts c (sSl 0 inb_S2x512x1024_S1x512x1024_0_0_0) fullShare (StageAt m c 2)) ∗ (rpts c (xCh (k0_off2 c 0#32 3#32) (k0_off2_inb c 4)) fullShare (X m c)))
  | 3 => iprop((rpts c (sSl 0 inb_S2x512x1024_S1x512x1024_0_0_0) fullShare (StageAt m c 3)) ∗ (rpts c (xCh (k0_off2 c 0#32 4#32) (k0_off2_inb c 6)) fullShare (X m c)))
  | 4 => iprop((rpts c (sSl 0 inb_S2x512x1024_S1x512x1024_0_0_0) fullShare (StageAt m c 4)) ∗ (rpts c (xCh (k0_off2 c 0#32 5#32) (k0_off2_inb c 8)) fullShare (X m c)))
  | 5 => iprop((rpts c (sSl 0 inb_S2x512x1024_S1x512x1024_0_0_0) fullShare (StageAt m c 5)) ∗ (rpts c (xCh (k0_off2 c 0#32 6#32) (k0_off2_inb c 10)) fullShare (X m c)))
  | 6 => iprop((rpts c (sSl 0 inb_S2x512x1024_S1x512x1024_0_0_0) fullShare (StageAt m c 6)) ∗ (rpts c (xCh (k0_off2 c 0#32 7#32) (k0_off2_inb c 12)) fullShare (X m c)))
  | 7 => iprop((rpts c (oCh (k0_off3 c 0#32 1#32) (k0_off3_inb c 0)) fullShare (Res m c)) ∗ (rpts c (cSl 0 6 inb_S2x7x512x1024_S1x1x512x1024_0_6_0_0) fullShare (CommAcc m c)))
  | _ => iprop(emp)
def localPay_1 (c : Dev nD) : ℕ → sProp 𝕄
  | 0 => iprop((rpts c (sSl 1 inb_S2x512x1024_S1x512x1024_1_0_0) fullShare (StageAt m c 0)) ∗ (rpts c (xCh (k0_off2 c 4096#32 4294967295#32) (k0_off2_inb c 1)) fullShare (X m c)))
  | 1 => iprop((rpts c (sSl 1 inb_S2x512x1024_S1x512x1024_1_0_0) fullShare (StageAt m c 1)) ∗ (rpts c (xCh (k0_off2 c 4096#32 4294967294#32) (k0_off2_inb c 3)) fullShare (X m c)))
  | 2 => iprop((rpts c (sSl 1 inb_S2x512x1024_S1x512x1024_1_0_0) fullShare (StageAt m c 2)) ∗ (rpts c (xCh (k0_off2 c 4096#32 4294967293#32) (k0_off2_inb c 5)) fullShare (X m c)))
  | 3 => iprop((rpts c (sSl 1 inb_S2x512x1024_S1x512x1024_1_0_0) fullShare (StageAt m c 3)) ∗ (rpts c (xCh (k0_off2 c 4096#32 4294967292#32) (k0_off2_inb c 7)) fullShare (X m c)))
  | 4 => iprop((rpts c (sSl 1 inb_S2x512x1024_S1x512x1024_1_0_0) fullShare (StageAt m c 4)) ∗ (rpts c (xCh (k0_off2 c 4096#32 4294967291#32) (k0_off2_inb c 9)) fullShare (X m c)))
  | 5 => iprop((rpts c (sSl 1 inb_S2x512x1024_S1x512x1024_1_0_0) fullShare (StageAt m c 5)) ∗ (rpts c (xCh (k0_off2 c 4096#32 4294967290#32) (k0_off2_inb c 11)) fullShare (X m c)))
  | 6 => iprop((rpts c (sSl 1 inb_S2x512x1024_S1x512x1024_1_0_0) fullShare (StageAt m c 6)) ∗ (rpts c (xCh (k0_off2 c 4096#32 4294967289#32) (k0_off2_inb c 13)) fullShare (X m c)))
  | 7 => iprop((rpts c (oCh (k0_off3 c 4096#32 4294967295#32) (k0_off3_inb c 1)) fullShare (Res m c)) ∗ (rpts c (cSl 1 6 inb_S2x7x512x1024_S1x1x512x1024_1_6_0_0) fullShare (CommAcc m c)))
  | _ => iprop(emp)
/-- What device g gives its ring successor (which sends to it in direction 1): its slots and result chunks of direction 1, and that its arrival cells of direction 1 stand at their first round. -/
def give1 (g : Dev nD) : sProp 𝕄 :=
    iprop(rsome (F := F) g (cSl 1 0 inb_S2x7x512x1024_S1x1x512x1024_1_0_0_0)
      ∗ rsome (F := F) g (cSl 1 1 inb_S2x7x512x1024_S1x1x512x1024_1_1_0_0)
      ∗ rsome (F := F) g (cSl 1 2 inb_S2x7x512x1024_S1x1x512x1024_1_2_0_0)
      ∗ rsome (F := F) g (cSl 1 3 inb_S2x7x512x1024_S1x1x512x1024_1_3_0_0)
      ∗ rsome (F := F) g (cSl 1 4 inb_S2x7x512x1024_S1x1x512x1024_1_4_0_0)
      ∗ rsome (F := F) g (cSl 1 5 inb_S2x7x512x1024_S1x1x512x1024_1_5_0_0)
      ∗ rsome (F := F) g (cSl 1 6 inb_S2x7x512x1024_S1x1x512x1024_1_6_0_0)
      ∗ rsome (F := F) g (oCh (k0_off2 g 4096#32 0#32) (k0_off2_inb g 15))
      ∗ rsome (F := F) g (oCh (k0_off2 g 4096#32 4294967295#32) (k0_off2_inb g 1))
      ∗ rsome (F := F) g (oCh (k0_off2 g 4096#32 4294967294#32) (k0_off2_inb g 3))
      ∗ rsome (F := F) g (oCh (k0_off2 g 4096#32 4294967293#32) (k0_off2_inb g 5))
      ∗ rsome (F := F) g (oCh (k0_off2 g 4096#32 4294967292#32) (k0_off2_inb g 7))
      ∗ rsome (F := F) g (oCh (k0_off2 g 4096#32 4294967291#32) (k0_off2_inb g 9))
      ∗ rsome (F := F) g (oCh (k0_off2 g 4096#32 4294967290#32) (k0_off2_inb g 11))
      ∗ reached (ER (F := F)) (dcell g 42) 0
      ∗ reached (ER (F := F)) (dcell g 43) 0
      ∗ reached (ER (F := F)) (dcell g 44) 0
      ∗ reached (ER (F := F)) (dcell g 45) 0
      ∗ reached (ER (F := F)) (dcell g 46) 0
      ∗ reached (ER (F := F)) (dcell g 47) 0
      ∗ reached (ER (F := F)) (dcell g 48) 0
      ∗ reached (ER (F := F)) (dcell g 49) 0
      ∗ reached (ER (F := F)) (dcell g 50) 0
      ∗ reached (ER (F := F)) (dcell g 51) 0
      ∗ reached (ER (F := F)) (dcell g 52) 0
      ∗ reached (ER (F := F)) (dcell g 53) 0
      ∗ reached (ER (F := F)) (dcell g 54) 0
      ∗ reached (ER (F := F)) (dcell g 55) 0)
/-- What device g gives its ring predecessor (which sends to it in direction 0). -/
def give0 (g : Dev nD) : sProp 𝕄 :=
    iprop(rsome (F := F) g (cSl 0 0 inb_S2x7x512x1024_S1x1x512x1024_0_0_0_0)
      ∗ rsome (F := F) g (cSl 0 1 inb_S2x7x512x1024_S1x1x512x1024_0_1_0_0)
      ∗ rsome (F := F) g (cSl 0 2 inb_S2x7x512x1024_S1x1x512x1024_0_2_0_0)
      ∗ rsome (F := F) g (cSl 0 3 inb_S2x7x512x1024_S1x1x512x1024_0_3_0_0)
      ∗ rsome (F := F) g (cSl 0 4 inb_S2x7x512x1024_S1x1x512x1024_0_4_0_0)
      ∗ rsome (F := F) g (cSl 0 5 inb_S2x7x512x1024_S1x1x512x1024_0_5_0_0)
      ∗ rsome (F := F) g (cSl 0 6 inb_S2x7x512x1024_S1x1x512x1024_0_6_0_0)
      ∗ rsome (F := F) g (oCh (k0_off2 g 0#32 0#32) (k0_off2_inb g 14))
      ∗ rsome (F := F) g (oCh (k0_off2 g 0#32 1#32) (k0_off2_inb g 0))
      ∗ rsome (F := F) g (oCh (k0_off2 g 0#32 2#32) (k0_off2_inb g 2))
      ∗ rsome (F := F) g (oCh (k0_off2 g 0#32 3#32) (k0_off2_inb g 4))
      ∗ rsome (F := F) g (oCh (k0_off2 g 0#32 4#32) (k0_off2_inb g 6))
      ∗ rsome (F := F) g (oCh (k0_off2 g 0#32 5#32) (k0_off2_inb g 8))
      ∗ rsome (F := F) g (oCh (k0_off2 g 0#32 6#32) (k0_off2_inb g 10))
      ∗ reached (ER (F := F)) (dcell g 28) 0
      ∗ reached (ER (F := F)) (dcell g 29) 0
      ∗ reached (ER (F := F)) (dcell g 30) 0
      ∗ reached (ER (F := F)) (dcell g 31) 0
      ∗ reached (ER (F := F)) (dcell g 32) 0
      ∗ reached (ER (F := F)) (dcell g 33) 0
      ∗ reached (ER (F := F)) (dcell g 34) 0
      ∗ reached (ER (F := F)) (dcell g 35) 0
      ∗ reached (ER (F := F)) (dcell g 36) 0
      ∗ reached (ER (F := F)) (dcell g 37) 0
      ∗ reached (ER (F := F)) (dcell g 38) 0
      ∗ reached (ER (F := F)) (dcell g 39) 0
      ∗ reached (ER (F := F)) (dcell g 40) 0
      ∗ reached (ER (F := F)) (dcell g 41) 0)
/-- What device g gives its pair partner o: the half of its result array that o reduces, chunk by chunk as o addresses them, and that its arrival cells of the pair stand at their first round. -/
def giveZ (g o : Dev nD) : sProp 𝕄 :=
    iprop(rsome (F := F) g (oCh (k0_off3 o 0#32 1#32) (k0_off3_inb o 0))
      ∗ rsome (F := F) g (oCh (k0_off2 o 0#32 0#32) (k0_off2_inb o 14))
      ∗ rsome (F := F) g (oCh (k0_off2 o 0#32 1#32) (k0_off2_inb o 0))
      ∗ rsome (F := F) g (oCh (k0_off2 o 0#32 2#32) (k0_off2_inb o 2))
      ∗ rsome (F := F) g (oCh (k0_off2 o 0#32 3#32) (k0_off2_inb o 4))
      ∗ rsome (F := F) g (oCh (k0_off2 o 0#32 4#32) (k0_off2_inb o 6))
      ∗ rsome (F := F) g (oCh (k0_off2 o 0#32 5#32) (k0_off2_inb o 8))
      ∗ rsome (F := F) g (oCh (k0_off2 o 0#32 6#32) (k0_off2_inb o 10))
      ∗ rsome (F := F) g (oCh (k0_off3 o 4096#32 4294967295#32) (k0_off3_inb o 1))
      ∗ rsome (F := F) g (oCh (k0_off2 o 4096#32 0#32) (k0_off2_inb o 15))
      ∗ rsome (F := F) g (oCh (k0_off2 o 4096#32 4294967295#32) (k0_off2_inb o 1))
      ∗ rsome (F := F) g (oCh (k0_off2 o 4096#32 4294967294#32) (k0_off2_inb o 3))
      ∗ rsome (F := F) g (oCh (k0_off2 o 4096#32 4294967293#32) (k0_off2_inb o 5))
      ∗ rsome (F := F) g (oCh (k0_off2 o 4096#32 4294967292#32) (k0_off2_inb o 7))
      ∗ rsome (F := F) g (oCh (k0_off2 o 4096#32 4294967291#32) (k0_off2_inb o 9))
      ∗ rsome (F := F) g (oCh (k0_off2 o 4096#32 4294967290#32) (k0_off2_inb o 11))
      ∗ reached (ER (F := F)) (dcell g 72) 0
      ∗ reached (ER (F := F)) (dcell g 73) 0
      ∗ reached (ER (F := F)) (dcell g 74) 0
      ∗ reached (ER (F := F)) (dcell g 75) 0
      ∗ reached (ER (F := F)) (dcell g 76) 0
      ∗ reached (ER (F := F)) (dcell g 77) 0
      ∗ reached (ER (F := F)) (dcell g 78) 0
      ∗ reached (ER (F := F)) (dcell g 79) 0
      ∗ reached (ER (F := F)) (dcell g 80) 0
      ∗ reached (ER (F := F)) (dcell g 81) 0
      ∗ reached (ER (F := F)) (dcell g 82) 0
      ∗ reached (ER (F := F)) (dcell g 83) 0
      ∗ reached (ER (F := F)) (dcell g 84) 0
      ∗ reached (ER (F := F)) (dcell g 85) 0
      ∗ reached (ER (F := F)) (dcell g 86) 0
      ∗ reached (ER (F := F)) (dcell g 87) 0)
def barPay0 (c : Dev nD) : sProp 𝕄 := give1 (F := F) (predD c)
def barPay1 (c : Dev nD) : sProp 𝕄 := give0 (F := F) (succD c)
def barPay2 (c : Dev nD) : sProp 𝕄 := giveZ (F := F) (partD c) c
/-- The payload of a barrier duty. -/
def barPay (c : Dev nD) (d : Fin 3) : sProp 𝕄 := match d with | 0 => barPay0 c | 1 => barPay1 c | 2 => barPay2 c
/-- The payload of the duty of round r of DMA cell i of device c. -/
def dmaPay (c : Dev nD) (i r : ℕ) : sProp 𝕄 := match i with
  | 0 => sendPay_0_0 m c
  | 1 => sendPay_0_1 m c
  | 2 => sendPay_0_2 m c
  | 3 => sendPay_0_3 m c
  | 4 => sendPay_0_4 m c
  | 5 => sendPay_0_5 m c
  | 6 => sendPay_0_6 m c
  | 7 => sendPay_0_7 m c
  | 8 => sendPay_0_8 m c
  | 9 => sendPay_0_9 m c
  | 10 => sendPay_0_10 m c
  | 11 => sendPay_0_11 m c
  | 12 => sendPay_0_12 m c
  | 13 => sendPay_0_13 m c
  | 14 => sendPay_1_0 m c
  | 15 => sendPay_1_1 m c
  | 16 => sendPay_1_2 m c
  | 17 => sendPay_1_3 m c
  | 18 => sendPay_1_4 m c
  | 19 => sendPay_1_5 m c
  | 20 => sendPay_1_6 m c
  | 21 => sendPay_1_7 m c
  | 22 => sendPay_1_8 m c
  | 23 => sendPay_1_9 m c
  | 24 => sendPay_1_10 m c
  | 25 => sendPay_1_11 m c
  | 26 => sendPay_1_12 m c
  | 27 => sendPay_1_13 m c
  | 28 => recvPay_0_0 m c
  | 29 => recvPay_0_1 m c
  | 30 => recvPay_0_2 m c
  | 31 => recvPay_0_3 m c
  | 32 => recvPay_0_4 m c
  | 33 => recvPay_0_5 m c
  | 34 => recvPay_0_6 m c
  | 35 => recvPay_0_7 m c
  | 36 => recvPay_0_8 m c
  | 37 => recvPay_0_9 m c
  | 38 => recvPay_0_10 m c
  | 39 => recvPay_0_11 m c
  | 40 => recvPay_0_12 m c
  | 41 => recvPay_0_13 m c
  | 42 => recvPay_1_0 m c
  | 43 => recvPay_1_1 m c
  | 44 => recvPay_1_2 m c
  | 45 => recvPay_1_3 m c
  | 46 => recvPay_1_4 m c
  | 47 => recvPay_1_5 m c
  | 48 => recvPay_1_6 m c
  | 49 => recvPay_1_7 m c
  | 50 => recvPay_1_8 m c
  | 51 => recvPay_1_9 m c
  | 52 => recvPay_1_10 m c
  | 53 => recvPay_1_11 m c
  | 54 => recvPay_1_12 m c
  | 55 => recvPay_1_13 m c
  | 56 => zsendPay_0_0 m c
  | 57 => zsendPay_0_1 m c
  | 58 => zsendPay_0_2 m c
  | 59 => zsendPay_0_3 m c
  | 60 => zsendPay_0_4 m c
  | 61 => zsendPay_0_5 m c
  | 62 => zsendPay_0_6 m c
  | 63 => zsendPay_0_7 m c
  | 64 => zsendPay_1_0 m c
  | 65 => zsendPay_1_1 m c
  | 66 => zsendPay_1_2 m c
  | 67 => zsendPay_1_3 m c
  | 68 => zsendPay_1_4 m c
  | 69 => zsendPay_1_5 m c
  | 70 => zsendPay_1_6 m c
  | 71 => zsendPay_1_7 m c
  | 72 => zrecvPay_0_0 m c
  | 73 => zrecvPay_0_1 m c
  | 74 => zrecvPay_0_2 m c
  | 75 => zrecvPay_0_3 m c
  | 76 => zrecvPay_0_4 m c
  | 77 => zrecvPay_0_5 m c
  | 78 => zrecvPay_0_6 m c
  | 79 => zrecvPay_0_7 m c
  | 80 => zrecvPay_1_0 m c
  | 81 => zrecvPay_1_1 m c
  | 82 => zrecvPay_1_2 m c
  | 83 => zrecvPay_1_3 m c
  | 84 => zrecvPay_1_4 m c
  | 85 => zrecvPay_1_5 m c
  | 86 => zrecvPay_1_6 m c
  | 87 => zrecvPay_1_7 m c
  | 88 => localPay_0 m c r
  | 89 => localPay_1 m c r
  | _ => iprop(emp)

/-- The schedule: a barrier cell has its three unit duties in round 0; a DMA cell below 88 its one duty in round 0;
    the two cells of the local copies one duty in each of rounds 0 to 7. Every DMA duty is one chunk's credit. -/
def sched : Rounds.Schedule (GSem nD τ sig) (Fin 3) 𝕄 where
  duties g r := if g.1.2 = .tc then
      (match g.2 with
        | .reg _ => if r = 0 then Finset.univ else ∅
        | .dma i => if i.val < 88 then (if r = 0 then {0} else ∅) else (if r < 8 then {0} else ∅))
    else ∅
  amount g _ _ := match g.2 with | .reg _ => 1 | .dma _ => N
  payload g r d := match g.2 with | .reg _ => barPay g.1.1 d | .dma i => dmaPay m g.1.1 i.val r
  amount_pos g _ _ _ := by
    cases h : g.2 with
    | reg s => simp only [h]; exact Nat.one_pos
    | dma i => simp only [h]; exact N_pos

end Cert.Kernel.Sched

end
-- ==== Proof.Bits.State.lean ====
/-
  What a device holds when its body begins, beside its buffers: the invariants of its own 91 cells and of the 47
  cells of its three peers that it pays into; its position at the start of each of its own cells; that the first
  round of its own cells and of its peers' barrier cells is reached; one token for each duty it pays (3 barrier
  signals, 28 ring copies, 16 copies to its partner on the receivers' cells; its own 44 departure cells and the
  16 rounds of its two local cells); and the credit of what its peers will pay into its own cells.
  What it owes at launch is the sum of the amounts of the 47 duties it pays into OTHER devices' cells, written so
  that the duty paid first is the last summand.
-/
import proofs.«900727_g7700000000000728_dist_ar_v7x_xyz2x4x4_y_m16384_n1024_f32_1_alg».proof.Proof.Bits.Sched

set_option maxRecDepth 16384

noncomputable section

namespace Cert.Kernel.State

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The cells of one device, numbered: 0 the barrier, i + 1 the DMA semaphore i. -/
abbrev csem (j : Fin 91) : SemLoc sig := if h : j.val = 0 then .reg barS else .dma ⟨j.val - 1, by have := j.isLt; show j.val - 1 < 90; omega⟩
abbrev kcell (cj : Dev nD × Fin 91) : GSem nD τ sig := ((cj.1 : Thread nD τ), csem cj.2)

/-- The invariants device c's body opens. -/
def invs (K : Dev nD × Fin 91 → ℕ) (c : Dev nD) : sProp 𝕄 :=
    iprop(cellInv (ER (F := F)) (sched m) (K (c, 0)) (barCell c)
      ∗ cellInv (ER (F := F)) (sched m) (K (c, 1)) (dcell c 0)
      ∗ cellInv (ER (F := F)) (sched m) (K (c, 2)) (dcell c 1)
      ∗ cellInv (ER (F := F)) (sched m) (K (c, 3)) (dcell c 2)
      ∗ cellInv (ER (F := F)) (sched m) (K (c, 4)) (dcell c 3)
      ∗ cellInv (ER (F := F)) (sched m) (K (c, 5)) (dcell c 4)
      ∗ cellInv (ER (F := F)) (sched m) (K (c, 6)) (dcell c 5)
      ∗ cellInv (ER (F := F)) (sched m) (K (c, 7)) (dcell c 6)
      ∗ cellInv (ER (F := F)) (sched m) (K (c, 8)) (dcell c 7)
      ∗ cellInv (ER (F := F)) (sched m) (K (c, 9)) (dcell c 8)
      ∗ cellInv (ER (F := F)) (sched m) (K (c, 10)) (dcell c 9)
      ∗ cellInv (ER (F := F)) (sched m) (K (c, 11)) (dcell c 10)
      ∗ cellInv (ER (F := F)) (sched m) (K (c, 12)) (dcell c 11)
      ∗ cellInv (ER (F := F)) (sched m) (K (c, 13)) (dcell c 12)
      ∗ cellInv (ER (F := F)) (sched m) (K (c, 14)) (dcell c 13)
      ∗ cellInv (ER (F := F)) (sched m) (K (c, 15)) (dcell c 14)
      ∗ cellInv (ER (F := F)) (sched m) (K (c, 16)) (dcell c 15)
      ∗ cellInv (ER (F := F)) (sched m) (K (c, 17)) (dcell c 16)
      ∗ cellInv (ER (F := F)) (sched m) (K (c, 18)) (dcell c 17)
      ∗ cellInv (ER (F := F)) (sched m) (K (c, 19)) (dcell c 18)
      ∗ cellInv (ER (F := F)) (sched m) (K (c, 20)) (dcell c 19)
      ∗ cellInv (ER (F := F)) (sched m) (K (c, 21)) (dcell c 20)
      ∗ cellInv (ER (F := F)) (sched m) (K (c, 22)) (dcell c 21)
      ∗ cellInv (ER (F := F)) (sched m) (K (c, 23)) (dcell c 22)
      ∗ cellInv (ER (F := F)) (sched m) (K (c, 24)) (dcell c 23)
      ∗ cellInv (ER (F := F)) (sched m) (K (c, 25)) (dcell c 24)
      ∗ cellInv (ER (F := F)) (sched m) (K (c, 26)) (dcell c 25)
      ∗ cellInv (ER (F := F)) (sched m) (K (c, 27)) (dcell c 26)
      ∗ cellInv (ER (F := F)) (sched m) (K (c, 28)) (dcell c 27)
      ∗ cellInv (ER (F := F)) (sched m) (K (c, 29)) (dcell c 28)
      ∗ cellInv (ER (F := F)) (sched m) (K (c, 30)) (dcell c 29)
      ∗ cellInv (ER (F := F)) (sched m) (K (c, 31)) (dcell c 30)
      ∗ cellInv (ER (F := F)) (sched m) (K (c, 32)) (dcell c 31)
      ∗ cellInv (ER (F := F)) (sched m) (K (c, 33)) (dcell c 32)
      ∗ cellInv (ER (F := F)) (sched m) (K (c, 34)) (dcell c 33)
      ∗ cellInv (ER (F := F)) (sched m) (K (c, 35)) (dcell c 34)
      ∗ cellInv (ER (F := F)) (sched m) (K (c, 36)) (dcell c 35)
      ∗ cellInv (ER (F := F)) (sched m) (K (c, 37)) (dcell c 36)
      ∗ cellInv (ER (F := F)) (sched m) (K (c, 38)) (dcell c 37)
      ∗ cellInv (ER (F := F)) (sched m) (K (c, 39)) (dcell c 38)
      ∗ cellInv (ER (F := F)) (sched m) (K (c, 40)) (dcell c 39)
      ∗ cellInv (ER (F := F)) (sched m) (K (c, 41)) (dcell c 40)
      ∗ cellInv (ER (F := F)) (sched m) (K (c, 42)) (dcell c 41)
      ∗ cellInv (ER (F := F)) (sched m) (K (c, 43)) (dcell c 42)
      ∗ cellInv (ER (F := F)) (sched m) (K (c, 44)) (dcell c 43)
      ∗ cellInv (ER (F := F)) (sched m) (K (c, 45)) (dcell c 44)
      ∗ cellInv (ER (F := F)) (sched m) (K (c, 46)) (dcell c 45)
      ∗ cellInv (ER (F := F)) (sched m) (K (c, 47)) (dcell c 46)
      ∗ cellInv (ER (F := F)) (sched m) (K (c, 48)) (dcell c 47)
      ∗ cellInv (ER (F := F)) (sched m) (K (c, 49)) (dcell c 48)
      ∗ cellInv (ER (F := F)) (sched m) (K (c, 50)) (dcell c 49)
      ∗ cellInv (ER (F := F)) (sched m) (K (c, 51)) (dcell c 50)
      ∗ cellInv (ER (F := F)) (sched m) (K (c, 52)) (dcell c 51)
      ∗ cellInv (ER (F := F)) (sched m) (K (c, 53)) (dcell c 52)
      ∗ cellInv (ER (F := F)) (sched m) (K (c, 54)) (dcell c 53)
      ∗ cellInv (ER (F := F)) (sched m) (K (c, 55)) (dcell c 54)
      ∗ cellInv (ER (F := F)) (sched m) (K (c, 56)) (dcell c 55)
      ∗ cellInv (ER (F := F)) (sched m) (K (c, 57)) (dcell c 56)
      ∗ cellInv (ER (F := F)) (sched m) (K (c, 58)) (dcell c 57)
      ∗ cellInv (ER (F := F)) (sched m) (K (c, 59)) (dcell c 58)
      ∗ cellInv (ER (F := F)) (sched m) (K (c, 60)) (dcell c 59)
      ∗ cellInv (ER (F := F)) (sched m) (K (c, 61)) (dcell c 60)
      ∗ cellInv (ER (F := F)) (sched m) (K (c, 62)) (dcell c 61)
      ∗ cellInv (ER (F := F)) (sched m) (K (c, 63)) (dcell c 62)
      ∗ cellInv (ER (F := F)) (sched m) (K (c, 64)) (dcell c 63)
      ∗ cellInv (ER (F := F)) (sched m) (K (c, 65)) (dcell c 64)
      ∗ cellInv (ER (F := F)) (sched m) (K (c, 66)) (dcell c 65)
      ∗ cellInv (ER (F := F)) (sched m) (K (c, 67)) (dcell c 66)
      ∗ cellInv (ER (F := F)) (sched m) (K (c, 68)) (dcell c 67)
      ∗ cellInv (ER (F := F)) (sched m) (K (c, 69)) (dcell c 68)
      ∗ cellInv (ER (F := F)) (sched m) (K (c, 70)) (dcell c 69)
      ∗ cellInv (ER (F := F)) (sched m) (K (c, 71)) (dcell c 70)
      ∗ cellInv (ER (F := F)) (sched m) (K (c, 72)) (dcell c 71)
      ∗ cellInv (ER (F := F)) (sched m) (K (c, 73)) (dcell c 72)
      ∗ cellInv (ER (F := F)) (sched m) (K (c, 74)) (dcell c 73)
      ∗ cellInv (ER (F := F)) (sched m) (K (c, 75)) (dcell c 74)
      ∗ cellInv (ER (F := F)) (sched m) (K (c, 76)) (dcell c 75)
      ∗ cellInv (ER (F := F)) (sched m) (K (c, 77)) (dcell c 76)
      ∗ cellInv (ER (F := F)) (sched m) (K (c, 78)) (dcell c 77)
      ∗ cellInv (ER (F := F)) (sched m) (K (c, 79)) (dcell c 78)
      ∗ cellInv (ER (F := F)) (sched m) (K (c, 80)) (dcell c 79)
      ∗ cellInv (ER (F := F)) (sched m) (K (c, 81)) (dcell c 80)
      ∗ cellInv (ER (F := F)) (sched m) (K (c, 82)) (dcell c 81)
      ∗ cellInv (ER (F := F)) (sched m) (K (c, 83)) (dcell c 82)
      ∗ cellInv (ER (F := F)) (sched m) (K (c, 84)) (dcell c 83)
      ∗ cellInv (ER (F := F)) (sched m) (K (c, 85)) (dcell c 84)
      ∗ cellInv (ER (F := F)) (sched m) (K (c, 86)) (dcell c 85)
      ∗ cellInv (ER (F := F)) (sched m) (K (c, 87)) (dcell c 86)
      ∗ cellInv (ER (F := F)) (sched m) (K (c, 88)) (dcell c 87)
      ∗ cellInv (ER (F := F)) (sched m) (K (c, 89)) (dcell c 88)
      ∗ cellInv (ER (F := F)) (sched m) (K (c, 90)) (dcell c 89)
      ∗ cellInv (ER (F := F)) (sched m) (K ((succD c), 0)) (barCell (succD c))
      ∗ cellInv (ER (F := F)) (sched m) (K ((predD c), 0)) (barCell (predD c))
      ∗ cellInv (ER (F := F)) (sched m) (K ((partD c), 0)) (barCell (partD c))
      ∗ cellInv (ER (F := F)) (sched m) (K ((succD c), 29)) (dcell (succD c) 28)
      ∗ cellInv (ER (F := F)) (sched m) (K ((succD c), 30)) (dcell (succD c) 29)
      ∗ cellInv (ER (F := F)) (sched m) (K ((succD c), 31)) (dcell (succD c) 30)
      ∗ cellInv (ER (F := F)) (sched m) (K ((succD c), 32)) (dcell (succD c) 31)
      ∗ cellInv (ER (F := F)) (sched m) (K ((succD c), 33)) (dcell (succD c) 32)
      ∗ cellInv (ER (F := F)) (sched m) (K ((succD c), 34)) (dcell (succD c) 33)
      ∗ cellInv (ER (F := F)) (sched m) (K ((succD c), 35)) (dcell (succD c) 34)
      ∗ cellInv (ER (F := F)) (sched m) (K ((succD c), 36)) (dcell (succD c) 35)
      ∗ cellInv (ER (F := F)) (sched m) (K ((succD c), 37)) (dcell (succD c) 36)
      ∗ cellInv (ER (F := F)) (sched m) (K ((succD c), 38)) (dcell (succD c) 37)
      ∗ cellInv (ER (F := F)) (sched m) (K ((succD c), 39)) (dcell (succD c) 38)
      ∗ cellInv (ER (F := F)) (sched m) (K ((succD c), 40)) (dcell (succD c) 39)
      ∗ cellInv (ER (F := F)) (sched m) (K ((succD c), 41)) (dcell (succD c) 40)
      ∗ cellInv (ER (F := F)) (sched m) (K ((succD c), 42)) (dcell (succD c) 41)
      ∗ cellInv (ER (F := F)) (sched m) (K ((predD c), 43)) (dcell (predD c) 42)
      ∗ cellInv (ER (F := F)) (sched m) (K ((predD c), 44)) (dcell (predD c) 43)
      ∗ cellInv (ER (F := F)) (sched m) (K ((predD c), 45)) (dcell (predD c) 44)
      ∗ cellInv (ER (F := F)) (sched m) (K ((predD c), 46)) (dcell (predD c) 45)
      ∗ cellInv (ER (F := F)) (sched m) (K ((predD c), 47)) (dcell (predD c) 46)
      ∗ cellInv (ER (F := F)) (sched m) (K ((predD c), 48)) (dcell (predD c) 47)
      ∗ cellInv (ER (F := F)) (sched m) (K ((predD c), 49)) (dcell (predD c) 48)
      ∗ cellInv (ER (F := F)) (sched m) (K ((predD c), 50)) (dcell (predD c) 49)
      ∗ cellInv (ER (F := F)) (sched m) (K ((predD c), 51)) (dcell (predD c) 50)
      ∗ cellInv (ER (F := F)) (sched m) (K ((predD c), 52)) (dcell (predD c) 51)
      ∗ cellInv (ER (F := F)) (sched m) (K ((predD c), 53)) (dcell (predD c) 52)
      ∗ cellInv (ER (F := F)) (sched m) (K ((predD c), 54)) (dcell (predD c) 53)
      ∗ cellInv (ER (F := F)) (sched m) (K ((predD c), 55)) (dcell (predD c) 54)
      ∗ cellInv (ER (F := F)) (sched m) (K ((predD c), 56)) (dcell (predD c) 55)
      ∗ cellInv (ER (F := F)) (sched m) (K ((partD c), 73)) (dcell (partD c) 72)
      ∗ cellInv (ER (F := F)) (sched m) (K ((partD c), 74)) (dcell (partD c) 73)
      ∗ cellInv (ER (F := F)) (sched m) (K ((partD c), 75)) (dcell (partD c) 74)
      ∗ cellInv (ER (F := F)) (sched m) (K ((partD c), 76)) (dcell (partD c) 75)
      ∗ cellInv (ER (F := F)) (sched m) (K ((partD c), 77)) (dcell (partD c) 76)
      ∗ cellInv (ER (F := F)) (sched m) (K ((partD c), 78)) (dcell (partD c) 77)
      ∗ cellInv (ER (F := F)) (sched m) (K ((partD c), 79)) (dcell (partD c) 78)
      ∗ cellInv (ER (F := F)) (sched m) (K ((partD c), 80)) (dcell (partD c) 79)
      ∗ cellInv (ER (F := F)) (sched m) (K ((partD c), 81)) (dcell (partD c) 80)
      ∗ cellInv (ER (F := F)) (sched m) (K ((partD c), 82)) (dcell (partD c) 81)
      ∗ cellInv (ER (F := F)) (sched m) (K ((partD c), 83)) (dcell (partD c) 82)
      ∗ cellInv (ER (F := F)) (sched m) (K ((partD c), 84)) (dcell (partD c) 83)
      ∗ cellInv (ER (F := F)) (sched m) (K ((partD c), 85)) (dcell (partD c) 84)
      ∗ cellInv (ER (F := F)) (sched m) (K ((partD c), 86)) (dcell (partD c) 85)
      ∗ cellInv (ER (F := F)) (sched m) (K ((partD c), 87)) (dcell (partD c) 86)
      ∗ cellInv (ER (F := F)) (sched m) (K ((partD c), 88)) (dcell (partD c) 87))
/-- Its positions: at the start of every cell of its own. -/
def poss (c : Dev nD) : sProp 𝕄 :=
    iprop(atPos (ER (F := F)) (barCell c) 0 ∅ 0
      ∗ atPos (ER (F := F)) (dcell c 0) 0 ∅ 0
      ∗ atPos (ER (F := F)) (dcell c 1) 0 ∅ 0
      ∗ atPos (ER (F := F)) (dcell c 2) 0 ∅ 0
      ∗ atPos (ER (F := F)) (dcell c 3) 0 ∅ 0
      ∗ atPos (ER (F := F)) (dcell c 4) 0 ∅ 0
      ∗ atPos (ER (F := F)) (dcell c 5) 0 ∅ 0
      ∗ atPos (ER (F := F)) (dcell c 6) 0 ∅ 0
      ∗ atPos (ER (F := F)) (dcell c 7) 0 ∅ 0
      ∗ atPos (ER (F := F)) (dcell c 8) 0 ∅ 0
      ∗ atPos (ER (F := F)) (dcell c 9) 0 ∅ 0
      ∗ atPos (ER (F := F)) (dcell c 10) 0 ∅ 0
      ∗ atPos (ER (F := F)) (dcell c 11) 0 ∅ 0
      ∗ atPos (ER (F := F)) (dcell c 12) 0 ∅ 0
      ∗ atPos (ER (F := F)) (dcell c 13) 0 ∅ 0
      ∗ atPos (ER (F := F)) (dcell c 14) 0 ∅ 0
      ∗ atPos (ER (F := F)) (dcell c 15) 0 ∅ 0
      ∗ atPos (ER (F := F)) (dcell c 16) 0 ∅ 0
      ∗ atPos (ER (F := F)) (dcell c 17) 0 ∅ 0
      ∗ atPos (ER (F := F)) (dcell c 18) 0 ∅ 0
      ∗ atPos (ER (F := F)) (dcell c 19) 0 ∅ 0
      ∗ atPos (ER (F := F)) (dcell c 20) 0 ∅ 0
      ∗ atPos (ER (F := F)) (dcell c 21) 0 ∅ 0
      ∗ atPos (ER (F := F)) (dcell c 22) 0 ∅ 0
      ∗ atPos (ER (F := F)) (dcell c 23) 0 ∅ 0
      ∗ atPos (ER (F := F)) (dcell c 24) 0 ∅ 0
      ∗ atPos (ER (F := F)) (dcell c 25) 0 ∅ 0
      ∗ atPos (ER (F := F)) (dcell c 26) 0 ∅ 0
      ∗ atPos (ER (F := F)) (dcell c 27) 0 ∅ 0
      ∗ atPos (ER (F := F)) (dcell c 28) 0 ∅ 0
      ∗ atPos (ER (F := F)) (dcell c 29) 0 ∅ 0
      ∗ atPos (ER (F := F)) (dcell c 30) 0 ∅ 0
      ∗ atPos (ER (F := F)) (dcell c 31) 0 ∅ 0
      ∗ atPos (ER (F := F)) (dcell c 32) 0 ∅ 0
      ∗ atPos (ER (F := F)) (dcell c 33) 0 ∅ 0
      ∗ atPos (ER (F := F)) (dcell c 34) 0 ∅ 0
      ∗ atPos (ER (F := F)) (dcell c 35) 0 ∅ 0
      ∗ atPos (ER (F := F)) (dcell c 36) 0 ∅ 0
      ∗ atPos (ER (F := F)) (dcell c 37) 0 ∅ 0
      ∗ atPos (ER (F := F)) (dcell c 38) 0 ∅ 0
      ∗ atPos (ER (F := F)) (dcell c 39) 0 ∅ 0
      ∗ atPos (ER (F := F)) (dcell c 40) 0 ∅ 0
      ∗ atPos (ER (F := F)) (dcell c 41) 0 ∅ 0
      ∗ atPos (ER (F := F)) (dcell c 42) 0 ∅ 0
      ∗ atPos (ER (F := F)) (dcell c 43) 0 ∅ 0
      ∗ atPos (ER (F := F)) (dcell c 44) 0 ∅ 0
      ∗ atPos (ER (F := F)) (dcell c 45) 0 ∅ 0
      ∗ atPos (ER (F := F)) (dcell c 46) 0 ∅ 0
      ∗ atPos (ER (F := F)) (dcell c 47) 0 ∅ 0
      ∗ atPos (ER (F := F)) (dcell c 48) 0 ∅ 0
      ∗ atPos (ER (F := F)) (dcell c 49) 0 ∅ 0
      ∗ atPos (ER (F := F)) (dcell c 50) 0 ∅ 0
      ∗ atPos (ER (F := F)) (dcell c 51) 0 ∅ 0
      ∗ atPos (ER (F := F)) (dcell c 52) 0 ∅ 0
      ∗ atPos (ER (F := F)) (dcell c 53) 0 ∅ 0
      ∗ atPos (ER (F := F)) (dcell c 54) 0 ∅ 0
      ∗ atPos (ER (F := F)) (dcell c 55) 0 ∅ 0
      ∗ atPos (ER (F := F)) (dcell c 56) 0 ∅ 0
      ∗ atPos (ER (F := F)) (dcell c 57) 0 ∅ 0
      ∗ atPos (ER (F := F)) (dcell c 58) 0 ∅ 0
      ∗ atPos (ER (F := F)) (dcell c 59) 0 ∅ 0
      ∗ atPos (ER (F := F)) (dcell c 60) 0 ∅ 0
      ∗ atPos (ER (F := F)) (dcell c 61) 0 ∅ 0
      ∗ atPos (ER (F := F)) (dcell c 62) 0 ∅ 0
      ∗ atPos (ER (F := F)) (dcell c 63) 0 ∅ 0
      ∗ atPos (ER (F := F)) (dcell c 64) 0 ∅ 0
      ∗ atPos (ER (F := F)) (dcell c 65) 0 ∅ 0
      ∗ atPos (ER (F := F)) (dcell c 66) 0 ∅ 0
      ∗ atPos (ER (F := F)) (dcell c 67) 0 ∅ 0
      ∗ atPos (ER (F := F)) (dcell c 68) 0 ∅ 0
      ∗ atPos (ER (F := F)) (dcell c 69) 0 ∅ 0
      ∗ atPos (ER (F := F)) (dcell c 70) 0 ∅ 0
      ∗ atPos (ER (F := F)) (dcell c 71) 0 ∅ 0
      ∗ atPos (ER (F := F)) (dcell c 72) 0 ∅ 0
      ∗ atPos (ER (F := F)) (dcell c 73) 0 ∅ 0
      ∗ atPos (ER (F := F)) (dcell c 74) 0 ∅ 0
      ∗ atPos (ER (F := F)) (dcell c 75) 0 ∅ 0
      ∗ atPos (ER (F := F)) (dcell c 76) 0 ∅ 0
      ∗ atPos (ER (F := F)) (dcell c 77) 0 ∅ 0
      ∗ atPos (ER (F := F)) (dcell c 78) 0 ∅ 0
      ∗ atPos (ER (F := F)) (dcell c 79) 0 ∅ 0
      ∗ atPos (ER (F := F)) (dcell c 80) 0 ∅ 0
      ∗ atPos (ER (F := F)) (dcell c 81) 0 ∅ 0
      ∗ atPos (ER (F := F)) (dcell c 82) 0 ∅ 0
      ∗ atPos (ER (F := F)) (dcell c 83) 0 ∅ 0
      ∗ atPos (ER (F := F)) (dcell c 84) 0 ∅ 0
      ∗ atPos (ER (F := F)) (dcell c 85) 0 ∅ 0
      ∗ atPos (ER (F := F)) (dcell c 86) 0 ∅ 0
      ∗ atPos (ER (F := F)) (dcell c 87) 0 ∅ 0
      ∗ atPos (ER (F := F)) (dcell c 88) 0 ∅ 0
      ∗ atPos (ER (F := F)) (dcell c 89) 0 ∅ 0)
/-- The first round of its peers' barrier cells and of its own DMA cells is reached. -/
def reach (c : Dev nD) : sProp 𝕄 :=
    iprop(reached (ER (F := F)) (barCell (succD c)) 0
      ∗ reached (ER (F := F)) (barCell (predD c)) 0
      ∗ reached (ER (F := F)) (barCell (partD c)) 0
      ∗ reached (ER (F := F)) (dcell c 0) 0
      ∗ reached (ER (F := F)) (dcell c 1) 0
      ∗ reached (ER (F := F)) (dcell c 2) 0
      ∗ reached (ER (F := F)) (dcell c 3) 0
      ∗ reached (ER (F := F)) (dcell c 4) 0
      ∗ reached (ER (F := F)) (dcell c 5) 0
      ∗ reached (ER (F := F)) (dcell c 6) 0
      ∗ reached (ER (F := F)) (dcell c 7) 0
      ∗ reached (ER (F := F)) (dcell c 8) 0
      ∗ reached (ER (F := F)) (dcell c 9) 0
      ∗ reached (ER (F := F)) (dcell c 10) 0
      ∗ reached (ER (F := F)) (dcell c 11) 0
      ∗ reached (ER (F := F)) (dcell c 12) 0
      ∗ reached (ER (F := F)) (dcell c 13) 0
      ∗ reached (ER (F := F)) (dcell c 14) 0
      ∗ reached (ER (F := F)) (dcell c 15) 0
      ∗ reached (ER (F := F)) (dcell c 16) 0
      ∗ reached (ER (F := F)) (dcell c 17) 0
      ∗ reached (ER (F := F)) (dcell c 18) 0
      ∗ reached (ER (F := F)) (dcell c 19) 0
      ∗ reached (ER (F := F)) (dcell c 20) 0
      ∗ reached (ER (F := F)) (dcell c 21) 0
      ∗ reached (ER (F := F)) (dcell c 22) 0
      ∗ reached (ER (F := F)) (dcell c 23) 0
      ∗ reached (ER (F := F)) (dcell c 24) 0
      ∗ reached (ER (F := F)) (dcell c 25) 0
      ∗ reached (ER (F := F)) (dcell c 26) 0
      ∗ reached (ER (F := F)) (dcell c 27) 0
      ∗ reached (ER (F := F)) (dcell c 28) 0
      ∗ reached (ER (F := F)) (dcell c 29) 0
      ∗ reached (ER (F := F)) (dcell c 30) 0
      ∗ reached (ER (F := F)) (dcell c 31) 0
      ∗ reached (ER (F := F)) (dcell c 32) 0
      ∗ reached (ER (F := F)) (dcell c 33) 0
      ∗ reached (ER (F := F)) (dcell c 34) 0
      ∗ reached (ER (F := F)) (dcell c 35) 0
      ∗ reached (ER (F := F)) (dcell c 36) 0
      ∗ reached (ER (F := F)) (dcell c 37) 0
      ∗ reached (ER (F := F)) (dcell c 38) 0
      ∗ reached (ER (F := F)) (dcell c 39) 0
      ∗ reached (ER (F := F)) (dcell c 40) 0
      ∗ reached (ER (F := F)) (dcell c 41) 0
      ∗ reached (ER (F := F)) (dcell c 42) 0
      ∗ reached (ER (F := F)) (dcell c 43) 0
      ∗ reached (ER (F := F)) (dcell c 44) 0
      ∗ reached (ER (F := F)) (dcell c 45) 0
      ∗ reached (ER (F := F)) (dcell c 46) 0
      ∗ reached (ER (F := F)) (dcell c 47) 0
      ∗ reached (ER (F := F)) (dcell c 48) 0
      ∗ reached (ER (F := F)) (dcell c 49) 0
      ∗ reached (ER (F := F)) (dcell c 50) 0
      ∗ reached (ER (F := F)) (dcell c 51) 0
      ∗ reached (ER (F := F)) (dcell c 52) 0
      ∗ reached (ER (F := F)) (dcell c 53) 0
      ∗ reached (ER (F := F)) (dcell c 54) 0
      ∗ reached (ER (F := F)) (dcell c 55) 0
      ∗ reached (ER (F := F)) (dcell c 56) 0
      ∗ reached (ER (F := F)) (dcell c 57) 0
      ∗ reached (ER (F := F)) (dcell c 58) 0
      ∗ reached (ER (F := F)) (dcell c 59) 0
      ∗ reached (ER (F := F)) (dcell c 60) 0
      ∗ reached (ER (F := F)) (dcell c 61) 0
      ∗ reached (ER (F := F)) (dcell c 62) 0
      ∗ reached (ER (F := F)) (dcell c 63) 0
      ∗ reached (ER (F := F)) (dcell c 64) 0
      ∗ reached (ER (F := F)) (dcell c 65) 0
      ∗ reached (ER (F := F)) (dcell c 66) 0
      ∗ reached (ER (F := F)) (dcell c 67) 0
      ∗ reached (ER (F := F)) (dcell c 68) 0
      ∗ reached (ER (F := F)) (dcell c 69) 0
      ∗ reached (ER (F := F)) (dcell c 70) 0
      ∗ reached (ER (F := F)) (dcell c 71) 0
      ∗ reached (ER (F := F)) (dcell c 72) 0
      ∗ reached (ER (F := F)) (dcell c 73) 0
      ∗ reached (ER (F := F)) (dcell c 74) 0
      ∗ reached (ER (F := F)) (dcell c 75) 0
      ∗ reached (ER (F := F)) (dcell c 76) 0
      ∗ reached (ER (F := F)) (dcell c 77) 0
      ∗ reached (ER (F := F)) (dcell c 78) 0
      ∗ reached (ER (F := F)) (dcell c 79) 0
      ∗ reached (ER (F := F)) (dcell c 80) 0
      ∗ reached (ER (F := F)) (dcell c 81) 0
      ∗ reached (ER (F := F)) (dcell c 82) 0
      ∗ reached (ER (F := F)) (dcell c 83) 0
      ∗ reached (ER (F := F)) (dcell c 84) 0
      ∗ reached (ER (F := F)) (dcell c 85) 0
      ∗ reached (ER (F := F)) (dcell c 86) 0
      ∗ reached (ER (F := F)) (dcell c 87) 0
      ∗ reached (ER (F := F)) (dcell c 88) 0
      ∗ reached (ER (F := F)) (dcell c 89) 0)
/-- The tokens of the duties it pays. -/
def toks (c : Dev nD) : sProp 𝕄 :=
    iprop(dutyTok (ER (F := F)) (barCell (succD c)) 0 0
      ∗ dutyTok (ER (F := F)) (barCell (predD c)) 0 1
      ∗ dutyTok (ER (F := F)) (barCell (partD c)) 0 2
      ∗ dutyTok (ER (F := F)) (dcell (succD c) 28) 0 0
      ∗ dutyTok (ER (F := F)) (dcell (succD c) 29) 0 0
      ∗ dutyTok (ER (F := F)) (dcell (succD c) 30) 0 0
      ∗ dutyTok (ER (F := F)) (dcell (succD c) 31) 0 0
      ∗ dutyTok (ER (F := F)) (dcell (succD c) 32) 0 0
      ∗ dutyTok (ER (F := F)) (dcell (succD c) 33) 0 0
      ∗ dutyTok (ER (F := F)) (dcell (succD c) 34) 0 0
      ∗ dutyTok (ER (F := F)) (dcell (succD c) 35) 0 0
      ∗ dutyTok (ER (F := F)) (dcell (succD c) 36) 0 0
      ∗ dutyTok (ER (F := F)) (dcell (succD c) 37) 0 0
      ∗ dutyTok (ER (F := F)) (dcell (succD c) 38) 0 0
      ∗ dutyTok (ER (F := F)) (dcell (succD c) 39) 0 0
      ∗ dutyTok (ER (F := F)) (dcell (succD c) 40) 0 0
      ∗ dutyTok (ER (F := F)) (dcell (succD c) 41) 0 0
      ∗ dutyTok (ER (F := F)) (dcell (predD c) 42) 0 0
      ∗ dutyTok (ER (F := F)) (dcell (predD c) 43) 0 0
      ∗ dutyTok (ER (F := F)) (dcell (predD c) 44) 0 0
      ∗ dutyTok (ER (F := F)) (dcell (predD c) 45) 0 0
      ∗ dutyTok (ER (F := F)) (dcell (predD c) 46) 0 0
      ∗ dutyTok (ER (F := F)) (dcell (predD c) 47) 0 0
      ∗ dutyTok (ER (F := F)) (dcell (predD c) 48) 0 0
      ∗ dutyTok (ER (F := F)) (dcell (predD c) 49) 0 0
      ∗ dutyTok (ER (F := F)) (dcell (predD c) 50) 0 0
      ∗ dutyTok (ER (F := F)) (dcell (predD c) 51) 0 0
      ∗ dutyTok (ER (F := F)) (dcell (predD c) 52) 0 0
      ∗ dutyTok (ER (F := F)) (dcell (predD c) 53) 0 0
      ∗ dutyTok (ER (F := F)) (dcell (predD c) 54) 0 0
      ∗ dutyTok (ER (F := F)) (dcell (predD c) 55) 0 0
      ∗ dutyTok (ER (F := F)) (dcell (partD c) 72) 0 0
      ∗ dutyTok (ER (F := F)) (dcell (partD c) 73) 0 0
      ∗ dutyTok (ER (F := F)) (dcell (partD c) 74) 0 0
      ∗ dutyTok (ER (F := F)) (dcell (partD c) 75) 0 0
      ∗ dutyTok (ER (F := F)) (dcell (partD c) 76) 0 0
      ∗ dutyTok (ER (F := F)) (dcell (partD c) 77) 0 0
      ∗ dutyTok (ER (F := F)) (dcell (partD c) 78) 0 0
      ∗ dutyTok (ER (F := F)) (dcell (partD c) 79) 0 0
      ∗ dutyTok (ER (F := F)) (dcell (partD c) 80) 0 0
      ∗ dutyTok (ER (F := F)) (dcell (partD c) 81) 0 0
      ∗ dutyTok (ER (F := F)) (dcell (partD c) 82) 0 0
      ∗ dutyTok (ER (F := F)) (dcell (partD c) 83) 0 0
      ∗ dutyTok (ER (F := F)) (dcell (partD c) 84) 0 0
      ∗ dutyTok (ER (F := F)) (dcell (partD c) 85) 0 0
      ∗ dutyTok (ER (F := F)) (dcell (partD c) 86) 0 0
      ∗ dutyTok (ER (F := F)) (dcell (partD c) 87) 0 0
      ∗ dutyTok (ER (F := F)) (dcell c 0) 0 0
      ∗ dutyTok (ER (F := F)) (dcell c 1) 0 0
      ∗ dutyTok (ER (F := F)) (dcell c 2) 0 0
      ∗ dutyTok (ER (F := F)) (dcell c 3) 0 0
      ∗ dutyTok (ER (F := F)) (dcell c 4) 0 0
      ∗ dutyTok (ER (F := F)) (dcell c 5) 0 0
      ∗ dutyTok (ER (F := F)) (dcell c 6) 0 0
      ∗ dutyTok (ER (F := F)) (dcell c 7) 0 0
      ∗ dutyTok (ER (F := F)) (dcell c 8) 0 0
      ∗ dutyTok (ER (F := F)) (dcell c 9) 0 0
      ∗ dutyTok (ER (F := F)) (dcell c 10) 0 0
      ∗ dutyTok (ER (F := F)) (dcell c 11) 0 0
      ∗ dutyTok (ER (F := F)) (dcell c 12) 0 0
      ∗ dutyTok (ER (F := F)) (dcell c 13) 0 0
      ∗ dutyTok (ER (F := F)) (dcell c 14) 0 0
      ∗ dutyTok (ER (F := F)) (dcell c 15) 0 0
      ∗ dutyTok (ER (F := F)) (dcell c 16) 0 0
      ∗ dutyTok (ER (F := F)) (dcell c 17) 0 0
      ∗ dutyTok (ER (F := F)) (dcell c 18) 0 0
      ∗ dutyTok (ER (F := F)) (dcell c 19) 0 0
      ∗ dutyTok (ER (F := F)) (dcell c 20) 0 0
      ∗ dutyTok (ER (F := F)) (dcell c 21) 0 0
      ∗ dutyTok (ER (F := F)) (dcell c 22) 0 0
      ∗ dutyTok (ER (F := F)) (dcell c 23) 0 0
      ∗ dutyTok (ER (F := F)) (dcell c 24) 0 0
      ∗ dutyTok (ER (F := F)) (dcell c 25) 0 0
      ∗ dutyTok (ER (F := F)) (dcell c 26) 0 0
      ∗ dutyTok (ER (F := F)) (dcell c 27) 0 0
      ∗ dutyTok (ER (F := F)) (dcell c 56) 0 0
      ∗ dutyTok (ER (F := F)) (dcell c 57) 0 0
      ∗ dutyTok (ER (F := F)) (dcell c 58) 0 0
      ∗ dutyTok (ER (F := F)) (dcell c 59) 0 0
      ∗ dutyTok (ER (F := F)) (dcell c 60) 0 0
      ∗ dutyTok (ER (F := F)) (dcell c 61) 0 0
      ∗ dutyTok (ER (F := F)) (dcell c 62) 0 0
      ∗ dutyTok (ER (F := F)) (dcell c 63) 0 0
      ∗ dutyTok (ER (F := F)) (dcell c 64) 0 0
      ∗ dutyTok (ER (F := F)) (dcell c 65) 0 0
      ∗ dutyTok (ER (F := F)) (dcell c 66) 0 0
      ∗ dutyTok (ER (F := F)) (dcell c 67) 0 0
      ∗ dutyTok (ER (F := F)) (dcell c 68) 0 0
      ∗ dutyTok (ER (F := F)) (dcell c 69) 0 0
      ∗ dutyTok (ER (F := F)) (dcell c 70) 0 0
      ∗ dutyTok (ER (F := F)) (dcell c 71) 0 0
      ∗ dutyTok (ER (F := F)) (dcell c 88) 0 0
      ∗ dutyTok (ER (F := F)) (dcell c 88) 1 0
      ∗ dutyTok (ER (F := F)) (dcell c 88) 2 0
      ∗ dutyTok (ER (F := F)) (dcell c 88) 3 0
      ∗ dutyTok (ER (F := F)) (dcell c 88) 4 0
      ∗ dutyTok (ER (F := F)) (dcell c 88) 5 0
      ∗ dutyTok (ER (F := F)) (dcell c 88) 6 0
      ∗ dutyTok (ER (F := F)) (dcell c 88) 7 0
      ∗ dutyTok (ER (F := F)) (dcell c 89) 0 0
      ∗ dutyTok (ER (F := F)) (dcell c 89) 1 0
      ∗ dutyTok (ER (F := F)) (dcell c 89) 2 0
      ∗ dutyTok (ER (F := F)) (dcell c 89) 3 0
      ∗ dutyTok (ER (F := F)) (dcell c 89) 4 0
      ∗ dutyTok (ER (F := F)) (dcell c 89) 5 0
      ∗ dutyTok (ER (F := F)) (dcell c 89) 6 0
      ∗ dutyTok (ER (F := F)) (dcell c 89) 7 0)
/-- The credit of what its peers pay into its own cells. -/
def creds (c : Dev nD) : sProp 𝕄 :=
    iprop(cred (tallyAt (barCell c) () 3)
      ∗ cred (tallyAt (dcell c 28) () N)
      ∗ cred (tallyAt (dcell c 29) () N)
      ∗ cred (tallyAt (dcell c 30) () N)
      ∗ cred (tallyAt (dcell c 31) () N)
      ∗ cred (tallyAt (dcell c 32) () N)
      ∗ cred (tallyAt (dcell c 33) () N)
      ∗ cred (tallyAt (dcell c 34) () N)
      ∗ cred (tallyAt (dcell c 35) () N)
      ∗ cred (tallyAt (dcell c 36) () N)
      ∗ cred (tallyAt (dcell c 37) () N)
      ∗ cred (tallyAt (dcell c 38) () N)
      ∗ cred (tallyAt (dcell c 39) () N)
      ∗ cred (tallyAt (dcell c 40) () N)
      ∗ cred (tallyAt (dcell c 41) () N)
      ∗ cred (tallyAt (dcell c 42) () N)
      ∗ cred (tallyAt (dcell c 43) () N)
      ∗ cred (tallyAt (dcell c 44) () N)
      ∗ cred (tallyAt (dcell c 45) () N)
      ∗ cred (tallyAt (dcell c 46) () N)
      ∗ cred (tallyAt (dcell c 47) () N)
      ∗ cred (tallyAt (dcell c 48) () N)
      ∗ cred (tallyAt (dcell c 49) () N)
      ∗ cred (tallyAt (dcell c 50) () N)
      ∗ cred (tallyAt (dcell c 51) () N)
      ∗ cred (tallyAt (dcell c 52) () N)
      ∗ cred (tallyAt (dcell c 53) () N)
      ∗ cred (tallyAt (dcell c 54) () N)
      ∗ cred (tallyAt (dcell c 55) () N)
      ∗ cred (tallyAt (dcell c 72) () N)
      ∗ cred (tallyAt (dcell c 73) () N)
      ∗ cred (tallyAt (dcell c 74) () N)
      ∗ cred (tallyAt (dcell c 75) () N)
      ∗ cred (tallyAt (dcell c 76) () N)
      ∗ cred (tallyAt (dcell c 77) () N)
      ∗ cred (tallyAt (dcell c 78) () N)
      ∗ cred (tallyAt (dcell c 79) () N)
      ∗ cred (tallyAt (dcell c 80) () N)
      ∗ cred (tallyAt (dcell c 81) () N)
      ∗ cred (tallyAt (dcell c 82) () N)
      ∗ cred (tallyAt (dcell c 83) () N)
      ∗ cred (tallyAt (dcell c 84) () N)
      ∗ cred (tallyAt (dcell c 85) () N)
      ∗ cred (tallyAt (dcell c 86) () N)
      ∗ cred (tallyAt (dcell c 87) () N))
/-- What device c still owes before the j-th of its 47 payments into other devices' cells (in program order: the three barrier signals; per reduction step the two ring copies; the two first copies to the partner; per redistribution step the two ring copies then the two copies to the partner): owed_j = owed_(j+1) + the j-th amount. -/
@[reducible] def owed_47 (c : Dev nD) : CellTallies nD τ sig Unit := 0
@[reducible] def owed_46 (c : Dev nD) : CellTallies nD τ sig Unit := owed_47 c + tallyAt (dcell (partD c) 87) () N
@[reducible] def owed_45 (c : Dev nD) : CellTallies nD τ sig Unit := owed_46 c + tallyAt (dcell (partD c) 79) () N
@[reducible] def owed_44 (c : Dev nD) : CellTallies nD τ sig Unit := owed_45 c + tallyAt (dcell (predD c) 55) () N
@[reducible] def owed_43 (c : Dev nD) : CellTallies nD τ sig Unit := owed_44 c + tallyAt (dcell (succD c) 41) () N
@[reducible] def owed_42 (c : Dev nD) : CellTallies nD τ sig Unit := owed_43 c + tallyAt (dcell (partD c) 86) () N
@[reducible] def owed_41 (c : Dev nD) : CellTallies nD τ sig Unit := owed_42 c + tallyAt (dcell (partD c) 78) () N
@[reducible] def owed_40 (c : Dev nD) : CellTallies nD τ sig Unit := owed_41 c + tallyAt (dcell (predD c) 54) () N
@[reducible] def owed_39 (c : Dev nD) : CellTallies nD τ sig Unit := owed_40 c + tallyAt (dcell (succD c) 40) () N
@[reducible] def owed_38 (c : Dev nD) : CellTallies nD τ sig Unit := owed_39 c + tallyAt (dcell (partD c) 85) () N
@[reducible] def owed_37 (c : Dev nD) : CellTallies nD τ sig Unit := owed_38 c + tallyAt (dcell (partD c) 77) () N
@[reducible] def owed_36 (c : Dev nD) : CellTallies nD τ sig Unit := owed_37 c + tallyAt (dcell (predD c) 53) () N
@[reducible] def owed_35 (c : Dev nD) : CellTallies nD τ sig Unit := owed_36 c + tallyAt (dcell (succD c) 39) () N
@[reducible] def owed_34 (c : Dev nD) : CellTallies nD τ sig Unit := owed_35 c + tallyAt (dcell (partD c) 84) () N
@[reducible] def owed_33 (c : Dev nD) : CellTallies nD τ sig Unit := owed_34 c + tallyAt (dcell (partD c) 76) () N
@[reducible] def owed_32 (c : Dev nD) : CellTallies nD τ sig Unit := owed_33 c + tallyAt (dcell (predD c) 52) () N
@[reducible] def owed_31 (c : Dev nD) : CellTallies nD τ sig Unit := owed_32 c + tallyAt (dcell (succD c) 38) () N
@[reducible] def owed_30 (c : Dev nD) : CellTallies nD τ sig Unit := owed_31 c + tallyAt (dcell (partD c) 83) () N
@[reducible] def owed_29 (c : Dev nD) : CellTallies nD τ sig Unit := owed_30 c + tallyAt (dcell (partD c) 75) () N
@[reducible] def owed_28 (c : Dev nD) : CellTallies nD τ sig Unit := owed_29 c + tallyAt (dcell (predD c) 51) () N
@[reducible] def owed_27 (c : Dev nD) : CellTallies nD τ sig Unit := owed_28 c + tallyAt (dcell (succD c) 37) () N
@[reducible] def owed_26 (c : Dev nD) : CellTallies nD τ sig Unit := owed_27 c + tallyAt (dcell (partD c) 82) () N
@[reducible] def owed_25 (c : Dev nD) : CellTallies nD τ sig Unit := owed_26 c + tallyAt (dcell (partD c) 74) () N
@[reducible] def owed_24 (c : Dev nD) : CellTallies nD τ sig Unit := owed_25 c + tallyAt (dcell (predD c) 50) () N
@[reducible] def owed_23 (c : Dev nD) : CellTallies nD τ sig Unit := owed_24 c + tallyAt (dcell (succD c) 36) () N
@[reducible] def owed_22 (c : Dev nD) : CellTallies nD τ sig Unit := owed_23 c + tallyAt (dcell (partD c) 81) () N
@[reducible] def owed_21 (c : Dev nD) : CellTallies nD τ sig Unit := owed_22 c + tallyAt (dcell (partD c) 73) () N
@[reducible] def owed_20 (c : Dev nD) : CellTallies nD τ sig Unit := owed_21 c + tallyAt (dcell (predD c) 49) () N
@[reducible] def owed_19 (c : Dev nD) : CellTallies nD τ sig Unit := owed_20 c + tallyAt (dcell (succD c) 35) () N
@[reducible] def owed_18 (c : Dev nD) : CellTallies nD τ sig Unit := owed_19 c + tallyAt (dcell (partD c) 80) () N
@[reducible] def owed_17 (c : Dev nD) : CellTallies nD τ sig Unit := owed_18 c + tallyAt (dcell (partD c) 72) () N
@[reducible] def owed_16 (c : Dev nD) : CellTallies nD τ sig Unit := owed_17 c + tallyAt (dcell (predD c) 48) () N
@[reducible] def owed_15 (c : Dev nD) : CellTallies nD τ sig Unit := owed_16 c + tallyAt (dcell (succD c) 34) () N
@[reducible] def owed_14 (c : Dev nD) : CellTallies nD τ sig Unit := owed_15 c + tallyAt (dcell (predD c) 47) () N
@[reducible] def owed_13 (c : Dev nD) : CellTallies nD τ sig Unit := owed_14 c + tallyAt (dcell (succD c) 33) () N
@[reducible] def owed_12 (c : Dev nD) : CellTallies nD τ sig Unit := owed_13 c + tallyAt (dcell (predD c) 46) () N
@[reducible] def owed_11 (c : Dev nD) : CellTallies nD τ sig Unit := owed_12 c + tallyAt (dcell (succD c) 32) () N
@[reducible] def owed_10 (c : Dev nD) : CellTallies nD τ sig Unit := owed_11 c + tallyAt (dcell (predD c) 45) () N
@[reducible] def owed_9 (c : Dev nD) : CellTallies nD τ sig Unit := owed_10 c + tallyAt (dcell (succD c) 31) () N
@[reducible] def owed_8 (c : Dev nD) : CellTallies nD τ sig Unit := owed_9 c + tallyAt (dcell (predD c) 44) () N
@[reducible] def owed_7 (c : Dev nD) : CellTallies nD τ sig Unit := owed_8 c + tallyAt (dcell (succD c) 30) () N
@[reducible] def owed_6 (c : Dev nD) : CellTallies nD τ sig Unit := owed_7 c + tallyAt (dcell (predD c) 43) () N
@[reducible] def owed_5 (c : Dev nD) : CellTallies nD τ sig Unit := owed_6 c + tallyAt (dcell (succD c) 29) () N
@[reducible] def owed_4 (c : Dev nD) : CellTallies nD τ sig Unit := owed_5 c + tallyAt (dcell (predD c) 42) () N
@[reducible] def owed_3 (c : Dev nD) : CellTallies nD τ sig Unit := owed_4 c + tallyAt (dcell (succD c) 28) () N
@[reducible] def owed_2 (c : Dev nD) : CellTallies nD τ sig Unit := owed_3 c + tallyAt (barCell (partD c)) () 1
@[reducible] def owed_1 (c : Dev nD) : CellTallies nD τ sig Unit := owed_2 c + tallyAt (barCell (predD c)) () 1
@[reducible] def owed_0 (c : Dev nD) : CellTallies nD τ sig Unit := owed_1 c + tallyAt (barCell (succD c)) () 1
/-- What it owes at launch. -/
abbrev O₀ (c : Dev nD) : CellTallies nD τ sig Unit := owed_0 c

/-- The levels: a barrier cell at 1, the arrival cell of ring step k at 2 + k, the arrival cells of the pair at 50,
    every other cell at 0. A device waits on a cell only while everything it still owes lies strictly above it. -/
def L (g : GSem nD τ sig) : Finset Unit := if g.1.2 = .tc then {()} else ∅
def lv (g : GSem nD τ sig) (_ : Unit) : ℕ := match g.2 with
  | .reg _ => 1
  | .dma i => if 28 ≤ i.val ∧ i.val < 56 then 2 + (i.val - 28) % 14 else if 72 ≤ i.val ∧ i.val < 88 then 50 else 0

/-- The ghost state device c's body starts from. -/
def ghost (K : Dev nD × Fin 91 → ℕ) (c : Dev nD) : sProp 𝕄 :=
  iprop(invs m K c ∗ poss (F := F) c ∗ reach (F := F) c ∗ toks (F := F) c)

end Cert.Kernel.State

end
-- ==== Proof.Bits.RingFacts.lean ====
/-
  The kernel's device numbers and row offsets in closed form. The printed program computes, by chains of 32-bit
  word operations on a device's own number, the device each signal and each remote copy addresses and the first
  row of each chunk it moves. On the mesh of 32 devices each of these chains is one of three maps, the ring
  successor, the ring predecessor or the pair partner, and each offset is the first row of a chunk at a ring
  position counted from the device's own. Every equation here is a statement about the 32 devices and is decided
  by evaluating both sides at each of them. The maps are permutations of the mesh with no fixed point, pairwise
  different at every device; how they move the ring position, the half and the z coordinate is recorded with them.
-/
import proofs.«900727_g7700000000000728_dist_ar_v7x_xyz2x4x4_y_m16384_n1024_f32_1_alg».proof.Proof.Bits.RingDefs
import proofs.«900727_g7700000000000728_dist_ar_v7x_xyz2x4x4_y_m16384_n1024_f32_1_alg».proof.Proof.Gen.Kernel
import Idealize.ShloMosaic.Lib.Decide

-- one decision at a time: each evaluates a chain of some eighty word operations at 32 devices
set_option Elab.async false

namespace Cert.Kernel.Ring

open Idealize.ShloMosaic Cert.Kernel
open Facts₀

/-! ## The device each signal and each remote copy addresses -/

@[sl_canon] theorem dev1_eq (c : Dev nD) : (⟨k0_dev1 c, k0_dev1_lt c⟩ : Dev nD) = succD c := by
  revert c; decide +kernel
@[sl_canon] theorem dev2_eq (c : Dev nD) : (⟨k0_dev2 c, k0_dev2_lt c⟩ : Dev nD) = predD c := by
  revert c; decide +kernel
@[sl_canon] theorem dev3_eq (c : Dev nD) : (⟨k0_dev3 c, k0_dev3_lt c⟩ : Dev nD) = partD c := by
  revert c; decide +kernel
@[sl_canon] theorem dev4_eq (c : Dev nD) : (⟨k0_dev4 c, k0_dev4_lt c⟩ : Dev nD) = succD c := by
  revert c; decide +kernel
@[sl_canon] theorem dev5_eq (c : Dev nD) : (⟨k0_dev5 c, k0_dev5_lt c⟩ : Dev nD) = predD c := by
  revert c; decide +kernel
@[sl_canon] theorem dev6_eq (c : Dev nD) : (⟨k0_dev6 c, k0_dev6_lt c⟩ : Dev nD) = succD c := by
  revert c; decide +kernel
@[sl_canon] theorem dev7_eq (c : Dev nD) : (⟨k0_dev7 c, k0_dev7_lt c⟩ : Dev nD) = predD c := by
  revert c; decide +kernel
@[sl_canon] theorem dev8_eq (c : Dev nD) : (⟨k0_dev8 c, k0_dev8_lt c⟩ : Dev nD) = succD c := by
  revert c; decide +kernel
@[sl_canon] theorem dev9_eq (c : Dev nD) : (⟨k0_dev9 c, k0_dev9_lt c⟩ : Dev nD) = predD c := by
  revert c; decide +kernel
@[sl_canon] theorem dev10_eq (c : Dev nD) : (⟨k0_dev10 c, k0_dev10_lt c⟩ : Dev nD) = succD c := by
  revert c; decide +kernel
@[sl_canon] theorem dev11_eq (c : Dev nD) : (⟨k0_dev11 c, k0_dev11_lt c⟩ : Dev nD) = predD c := by
  revert c; decide +kernel
@[sl_canon] theorem dev12_eq (c : Dev nD) : (⟨k0_dev12 c, k0_dev12_lt c⟩ : Dev nD) = succD c := by
  revert c; decide +kernel
@[sl_canon] theorem dev13_eq (c : Dev nD) : (⟨k0_dev13 c, k0_dev13_lt c⟩ : Dev nD) = predD c := by
  revert c; decide +kernel
@[sl_canon] theorem dev14_eq (c : Dev nD) : (⟨k0_dev14 c, k0_dev14_lt c⟩ : Dev nD) = succD c := by
  revert c; decide +kernel
@[sl_canon] theorem dev15_eq (c : Dev nD) : (⟨k0_dev15 c, k0_dev15_lt c⟩ : Dev nD) = predD c := by
  revert c; decide +kernel
@[sl_canon] theorem dev16_eq (c : Dev nD) : (⟨k0_dev16 c, k0_dev16_lt c⟩ : Dev nD) = succD c := by
  revert c; decide +kernel
@[sl_canon] theorem dev17_eq (c : Dev nD) : (⟨k0_dev17 c, k0_dev17_lt c⟩ : Dev nD) = predD c := by
  revert c; decide +kernel
@[sl_canon] theorem dev18_eq (c : Dev nD) : (⟨k0_dev18 c, k0_dev18_lt c⟩ : Dev nD) = partD c := by
  revert c; decide +kernel
@[sl_canon] theorem dev19_eq (c : Dev nD) : (⟨k0_dev19 c, k0_dev19_lt c⟩ : Dev nD) = partD c := by
  revert c; decide +kernel
@[sl_canon] theorem dev20_eq (c : Dev nD) : (⟨k0_dev20 c, k0_dev20_lt c⟩ : Dev nD) = succD c := by
  revert c; decide +kernel
@[sl_canon] theorem dev21_eq (c : Dev nD) : (⟨k0_dev21 c, k0_dev21_lt c⟩ : Dev nD) = predD c := by
  revert c; decide +kernel
@[sl_canon] theorem dev22_eq (c : Dev nD) : (⟨k0_dev22 c, k0_dev22_lt c⟩ : Dev nD) = partD c := by
  revert c; decide +kernel
@[sl_canon] theorem dev23_eq (c : Dev nD) : (⟨k0_dev23 c, k0_dev23_lt c⟩ : Dev nD) = partD c := by
  revert c; decide +kernel
@[sl_canon] theorem dev24_eq (c : Dev nD) : (⟨k0_dev24 c, k0_dev24_lt c⟩ : Dev nD) = succD c := by
  revert c; decide +kernel
@[sl_canon] theorem dev25_eq (c : Dev nD) : (⟨k0_dev25 c, k0_dev25_lt c⟩ : Dev nD) = predD c := by
  revert c; decide +kernel
@[sl_canon] theorem dev26_eq (c : Dev nD) : (⟨k0_dev26 c, k0_dev26_lt c⟩ : Dev nD) = partD c := by
  revert c; decide +kernel
@[sl_canon] theorem dev27_eq (c : Dev nD) : (⟨k0_dev27 c, k0_dev27_lt c⟩ : Dev nD) = partD c := by
  revert c; decide +kernel
@[sl_canon] theorem dev28_eq (c : Dev nD) : (⟨k0_dev28 c, k0_dev28_lt c⟩ : Dev nD) = succD c := by
  revert c; decide +kernel
@[sl_canon] theorem dev29_eq (c : Dev nD) : (⟨k0_dev29 c, k0_dev29_lt c⟩ : Dev nD) = predD c := by
  revert c; decide +kernel
@[sl_canon] theorem dev30_eq (c : Dev nD) : (⟨k0_dev30 c, k0_dev30_lt c⟩ : Dev nD) = partD c := by
  revert c; decide +kernel
@[sl_canon] theorem dev31_eq (c : Dev nD) : (⟨k0_dev31 c, k0_dev31_lt c⟩ : Dev nD) = partD c := by
  revert c; decide +kernel
@[sl_canon] theorem dev32_eq (c : Dev nD) : (⟨k0_dev32 c, k0_dev32_lt c⟩ : Dev nD) = succD c := by
  revert c; decide +kernel
@[sl_canon] theorem dev33_eq (c : Dev nD) : (⟨k0_dev33 c, k0_dev33_lt c⟩ : Dev nD) = predD c := by
  revert c; decide +kernel
@[sl_canon] theorem dev34_eq (c : Dev nD) : (⟨k0_dev34 c, k0_dev34_lt c⟩ : Dev nD) = partD c := by
  revert c; decide +kernel
@[sl_canon] theorem dev35_eq (c : Dev nD) : (⟨k0_dev35 c, k0_dev35_lt c⟩ : Dev nD) = partD c := by
  revert c; decide +kernel
@[sl_canon] theorem dev36_eq (c : Dev nD) : (⟨k0_dev36 c, k0_dev36_lt c⟩ : Dev nD) = succD c := by
  revert c; decide +kernel
@[sl_canon] theorem dev37_eq (c : Dev nD) : (⟨k0_dev37 c, k0_dev37_lt c⟩ : Dev nD) = predD c := by
  revert c; decide +kernel
@[sl_canon] theorem dev38_eq (c : Dev nD) : (⟨k0_dev38 c, k0_dev38_lt c⟩ : Dev nD) = partD c := by
  revert c; decide +kernel
@[sl_canon] theorem dev39_eq (c : Dev nD) : (⟨k0_dev39 c, k0_dev39_lt c⟩ : Dev nD) = partD c := by
  revert c; decide +kernel
@[sl_canon] theorem dev40_eq (c : Dev nD) : (⟨k0_dev40 c, k0_dev40_lt c⟩ : Dev nD) = succD c := by
  revert c; decide +kernel
@[sl_canon] theorem dev41_eq (c : Dev nD) : (⟨k0_dev41 c, k0_dev41_lt c⟩ : Dev nD) = predD c := by
  revert c; decide +kernel
@[sl_canon] theorem dev42_eq (c : Dev nD) : (⟨k0_dev42 c, k0_dev42_lt c⟩ : Dev nD) = partD c := by
  revert c; decide +kernel
@[sl_canon] theorem dev43_eq (c : Dev nD) : (⟨k0_dev43 c, k0_dev43_lt c⟩ : Dev nD) = partD c := by
  revert c; decide +kernel
@[sl_canon] theorem dev44_eq (c : Dev nD) : (⟨k0_dev44 c, k0_dev44_lt c⟩ : Dev nD) = succD c := by
  revert c; decide +kernel
@[sl_canon] theorem dev45_eq (c : Dev nD) : (⟨k0_dev45 c, k0_dev45_lt c⟩ : Dev nD) = predD c := by
  revert c; decide +kernel
@[sl_canon] theorem dev46_eq (c : Dev nD) : (⟨k0_dev46 c, k0_dev46_lt c⟩ : Dev nD) = partD c := by
  revert c; decide +kernel
@[sl_canon] theorem dev47_eq (c : Dev nD) : (⟨k0_dev47 c, k0_dev47_lt c⟩ : Dev nD) = partD c := by
  revert c; decide +kernel

/-! ## The three maps as permutations of the mesh -/

theorem pred_succ (c : Dev nD) : predD (succD c) = c := by revert c; decide
theorem succ_pred (c : Dev nD) : succD (predD c) = c := by revert c; decide
theorem part_part (c : Dev nD) : partD (partD c) = c := by revert c; decide
theorem succ_ne (c : Dev nD) : succD c ≠ c := by revert c; decide
theorem pred_ne (c : Dev nD) : predD c ≠ c := by revert c; decide
theorem part_ne (c : Dev nD) : partD c ≠ c := by revert c; decide
theorem succ_ne_pred (c : Dev nD) : succD c ≠ predD c := by revert c; decide
theorem succ_ne_part (c : Dev nD) : succD c ≠ partD c := by revert c; decide
theorem pred_ne_part (c : Dev nD) : predD c ≠ partD c := by revert c; decide

/-! ## Ring position, half and z coordinate along the maps -/

theorem pos_succ (c : Dev nD) : posD (succD c) = (posD c + 1) % 8 := by revert c; decide
theorem pos_pred (c : Dev nD) : posD (predD c) = (posD c + 7) % 8 := by revert c; decide
theorem pos_part (c : Dev nD) : posD (partD c) = posD c := by revert c; decide
theorem zp_succ (c : Dev nD) : zpD (succD c) = zpD c := by revert c; decide
theorem zp_pred (c : Dev nD) : zpD (predD c) = zpD c := by revert c; decide
theorem zp_part (c : Dev nD) : zpD (partD c) = 1 - zpD c := by revert c; decide
theorem z_succ (c : Dev nD) : zD (succD c) = zD c := by revert c; decide
theorem z_pred (c : Dev nD) : zD (predD c) = zD c := by revert c; decide
theorem pos_lt (c : Dev nD) : posD c < 8 := by revert c; decide
theorem zp_lt (c : Dev nD) : zpD c < 2 := by revert c; decide

/-! ## Sending and receiving neighbours are inverse to each other -/

theorem from_to (d : Fin 2) (c : Dev nD) : fromD d (toD d c) = c := by revert d c; decide
theorem to_from (d : Fin 2) (c : Dev nD) : toD d (fromD d c) = c := by revert d c; decide

/-! ## The first row of each chunk

  Direction 0 works on the rows from `zpD c * 8192`, direction 1 on those 4096 further on; a chunk is 512 rows. The
  second word argument of an offset chain is the step by which the ring position is shifted: the words
  `4294967296 - k` are `-k` in 32 bits. -/

theorem off1_0 (c : Dev nD) : k0_off1 c 0#32 = ![rowAt c 0 0, 0] := by revert c; decide +kernel
theorem off1_1 (c : Dev nD) : k0_off1 c 4096#32 = ![rowAt c 1 0, 0] := by revert c; decide +kernel

theorem off2_0_0 (c : Dev nD) : k0_off2 c 0#32 0#32 = ![rowAt c 0 0, 0] := by revert c; decide +kernel
theorem off2_1_0 (c : Dev nD) : k0_off2 c 4096#32 0#32 = ![rowAt c 1 0, 0] := by revert c; decide +kernel
theorem off2_0_1 (c : Dev nD) : k0_off2 c 0#32 1#32 = ![rowAt c 0 7, 0] := by revert c; decide +kernel
theorem off2_1_1 (c : Dev nD) : k0_off2 c 4096#32 4294967295#32 = ![rowAt c 1 1, 0] := by revert c; decide +kernel
theorem off2_0_2 (c : Dev nD) : k0_off2 c 0#32 2#32 = ![rowAt c 0 6, 0] := by revert c; decide +kernel
theorem off2_1_2 (c : Dev nD) : k0_off2 c 4096#32 4294967294#32 = ![rowAt c 1 2, 0] := by revert c; decide +kernel
theorem off2_0_3 (c : Dev nD) : k0_off2 c 0#32 3#32 = ![rowAt c 0 5, 0] := by revert c; decide +kernel
theorem off2_1_3 (c : Dev nD) : k0_off2 c 4096#32 4294967293#32 = ![rowAt c 1 3, 0] := by revert c; decide +kernel
theorem off2_0_4 (c : Dev nD) : k0_off2 c 0#32 4#32 = ![rowAt c 0 4, 0] := by revert c; decide +kernel
theorem off2_1_4 (c : Dev nD) : k0_off2 c 4096#32 4294967292#32 = ![rowAt c 1 4, 0] := by revert c; decide +kernel
theorem off2_0_5 (c : Dev nD) : k0_off2 c 0#32 5#32 = ![rowAt c 0 3, 0] := by revert c; decide +kernel
theorem off2_1_5 (c : Dev nD) : k0_off2 c 4096#32 4294967291#32 = ![rowAt c 1 5, 0] := by revert c; decide +kernel
theorem off2_0_6 (c : Dev nD) : k0_off2 c 0#32 6#32 = ![rowAt c 0 2, 0] := by revert c; decide +kernel
theorem off2_1_6 (c : Dev nD) : k0_off2 c 4096#32 4294967290#32 = ![rowAt c 1 6, 0] := by revert c; decide +kernel
theorem off2_0_7 (c : Dev nD) : k0_off2 c 0#32 7#32 = ![rowAt c 0 1, 0] := by revert c; decide +kernel
theorem off2_1_7 (c : Dev nD) : k0_off2 c 4096#32 4294967289#32 = ![rowAt c 1 7, 0] := by revert c; decide +kernel

theorem off3_0 (c : Dev nD) : k0_off3 c 0#32 1#32 = ![rowAt c 0 1, 0] := by revert c; decide +kernel
theorem off3_1 (c : Dev nD) : k0_off3 c 4096#32 4294967295#32 = ![rowAt c 1 7, 0] := by revert c; decide +kernel

theorem off4_0_0 (c : Dev nD) : k0_off4 c 0#32 1#32 0#32 = ![rowAt c 0 1, 0] := by revert c; decide +kernel
theorem off4_1_0 (c : Dev nD) : k0_off4 c 4096#32 4294967295#32 0#32 = ![rowAt c 1 7, 0] := by revert c; decide +kernel
theorem off4_0_1 (c : Dev nD) : k0_off4 c 0#32 1#32 1#32 = ![rowAt c 0 0, 0] := by revert c; decide +kernel
theorem off4_1_1 (c : Dev nD) : k0_off4 c 4096#32 4294967295#32 4294967295#32 = ![rowAt c 1 0, 0] := by revert c; decide +kernel
theorem off4_0_2 (c : Dev nD) : k0_off4 c 0#32 1#32 2#32 = ![rowAt c 0 7, 0] := by revert c; decide +kernel
theorem off4_1_2 (c : Dev nD) : k0_off4 c 4096#32 4294967295#32 4294967294#32 = ![rowAt c 1 1, 0] := by revert c; decide +kernel
theorem off4_0_3 (c : Dev nD) : k0_off4 c 0#32 1#32 3#32 = ![rowAt c 0 6, 0] := by revert c; decide +kernel
theorem off4_1_3 (c : Dev nD) : k0_off4 c 4096#32 4294967295#32 4294967293#32 = ![rowAt c 1 2, 0] := by revert c; decide +kernel
theorem off4_0_4 (c : Dev nD) : k0_off4 c 0#32 1#32 4#32 = ![rowAt c 0 5, 0] := by revert c; decide +kernel
theorem off4_1_4 (c : Dev nD) : k0_off4 c 4096#32 4294967295#32 4294967292#32 = ![rowAt c 1 3, 0] := by revert c; decide +kernel
theorem off4_0_5 (c : Dev nD) : k0_off4 c 0#32 1#32 5#32 = ![rowAt c 0 4, 0] := by revert c; decide +kernel
theorem off4_1_5 (c : Dev nD) : k0_off4 c 4096#32 4294967295#32 4294967291#32 = ![rowAt c 1 4, 0] := by revert c; decide +kernel
theorem off4_0_6 (c : Dev nD) : k0_off4 c 0#32 1#32 6#32 = ![rowAt c 0 3, 0] := by revert c; decide +kernel
theorem off4_1_6 (c : Dev nD) : k0_off4 c 4096#32 4294967295#32 4294967290#32 = ![rowAt c 1 5, 0] := by revert c; decide +kernel

/-! ## The destination's offset, computed by the sender

  A device that sends to its successor writes where the successor, counting from its own position, expects the
  chunk; the row is the one the sender reads from, counted from the sender's position. -/

theorem off4_pred_0 (c : Dev nD) : k0_off4 (predD c) 0#32 1#32 0#32 = k0_off2 c 0#32 0#32 := by revert c; decide +kernel
theorem off4_succ_0 (c : Dev nD) : k0_off4 (succD c) 4096#32 4294967295#32 0#32 = k0_off2 c 4096#32 0#32 := by revert c; decide +kernel
theorem off4_pred_1 (c : Dev nD) : k0_off4 (predD c) 0#32 1#32 1#32 = k0_off2 c 0#32 1#32 := by revert c; decide +kernel
theorem off4_succ_1 (c : Dev nD) : k0_off4 (succD c) 4096#32 4294967295#32 4294967295#32 = k0_off2 c 4096#32 4294967295#32 := by revert c; decide +kernel
theorem off4_pred_2 (c : Dev nD) : k0_off4 (predD c) 0#32 1#32 2#32 = k0_off2 c 0#32 2#32 := by revert c; decide +kernel
theorem off4_succ_2 (c : Dev nD) : k0_off4 (succD c) 4096#32 4294967295#32 4294967294#32 = k0_off2 c 4096#32 4294967294#32 := by revert c; decide +kernel
theorem off4_pred_3 (c : Dev nD) : k0_off4 (predD c) 0#32 1#32 3#32 = k0_off2 c 0#32 3#32 := by revert c; decide +kernel
theorem off4_succ_3 (c : Dev nD) : k0_off4 (succD c) 4096#32 4294967295#32 4294967293#32 = k0_off2 c 4096#32 4294967293#32 := by revert c; decide +kernel
theorem off4_pred_4 (c : Dev nD) : k0_off4 (predD c) 0#32 1#32 4#32 = k0_off2 c 0#32 4#32 := by revert c; decide +kernel
theorem off4_succ_4 (c : Dev nD) : k0_off4 (succD c) 4096#32 4294967295#32 4294967292#32 = k0_off2 c 4096#32 4294967292#32 := by revert c; decide +kernel
theorem off4_pred_5 (c : Dev nD) : k0_off4 (predD c) 0#32 1#32 5#32 = k0_off2 c 0#32 5#32 := by revert c; decide +kernel
theorem off4_succ_5 (c : Dev nD) : k0_off4 (succD c) 4096#32 4294967295#32 4294967291#32 = k0_off2 c 4096#32 4294967291#32 := by revert c; decide +kernel
theorem off4_pred_6 (c : Dev nD) : k0_off4 (predD c) 0#32 1#32 6#32 = k0_off2 c 0#32 6#32 := by revert c; decide +kernel
theorem off4_succ_6 (c : Dev nD) : k0_off4 (succD c) 4096#32 4294967295#32 4294967290#32 = k0_off2 c 4096#32 4294967290#32 := by revert c; decide +kernel

theorem off3_eq_off4_0 (c : Dev nD) : k0_off3 c 0#32 1#32 = k0_off4 c 0#32 1#32 0#32 := by revert c; decide +kernel
theorem off3_eq_off4_1 (c : Dev nD) : k0_off3 c 4096#32 4294967295#32 = k0_off4 c 4096#32 4294967295#32 0#32 := by
  revert c; decide +kernel

/-- info: 'Cert.Kernel.Ring.dev47_eq' depends on axioms: [propext, Classical.choice, Quot.sound] -/
#guard_msgs in #print axioms dev47_eq

/-- info: 'Cert.Kernel.Ring.from_to' depends on axioms: [propext, Quot.sound] -/
#guard_msgs in #print axioms from_to

/-- info: 'Cert.Kernel.Ring.off4_1_6' depends on axioms: [propext, Classical.choice, Quot.sound] -/
#guard_msgs in #print axioms off4_1_6

/-- info: 'Cert.Kernel.Ring.off4_succ_6' depends on axioms: [propext, Classical.choice, Quot.sound] -/
#guard_msgs in #print axioms off4_succ_6

/-- info: 'Cert.Kernel.Ring.off3_eq_off4_1' depends on axioms: [propext, Classical.choice, Quot.sound] -/
#guard_msgs in #print axioms off3_eq_off4_1

end Cert.Kernel.Ring
-- ==== Proof.Bits.TablesPay.lean ====
/-
  The payload of every DMA cell's duty, cell by cell. The schedule's payload table sends the cell of index i to the
  payload named for it: the departure and arrival cells of the ring copies (14·d + k and 28 + 14·d + k), those of the
  copies to the pair partner (56 + 8·d + k and 72 + 8·d + k), and, round by round, the two cells of the local copies
  (88 + d). Each equation is one entry of that table.
-/
import proofs.«900727_g7700000000000728_dist_ar_v7x_xyz2x4x4_y_m16384_n1024_f32_1_alg».proof.Proof.Bits.Sched

set_option maxRecDepth 16384

noncomputable section

namespace Cert.Kernel.Sched

open Cert.Kernel Cert.Kernel.Gen Cert.Kernel.Ring Cert.Kernel.Cells Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem payload_send_0_0 (c : Dev nD) : (sched m).payload (dcell c 0) 0 0 = sendPay_0_0 m c := rfl
theorem payload_send_0_1 (c : Dev nD) : (sched m).payload (dcell c 1) 0 0 = sendPay_0_1 m c := rfl
theorem payload_send_0_2 (c : Dev nD) : (sched m).payload (dcell c 2) 0 0 = sendPay_0_2 m c := rfl
theorem payload_send_0_3 (c : Dev nD) : (sched m).payload (dcell c 3) 0 0 = sendPay_0_3 m c := rfl
theorem payload_send_0_4 (c : Dev nD) : (sched m).payload (dcell c 4) 0 0 = sendPay_0_4 m c := rfl
theorem payload_send_0_5 (c : Dev nD) : (sched m).payload (dcell c 5) 0 0 = sendPay_0_5 m c := rfl
theorem payload_send_0_6 (c : Dev nD) : (sched m).payload (dcell c 6) 0 0 = sendPay_0_6 m c := rfl
theorem payload_send_0_7 (c : Dev nD) : (sched m).payload (dcell c 7) 0 0 = sendPay_0_7 m c := rfl
theorem payload_send_0_8 (c : Dev nD) : (sched m).payload (dcell c 8) 0 0 = sendPay_0_8 m c := rfl
theorem payload_send_0_9 (c : Dev nD) : (sched m).payload (dcell c 9) 0 0 = sendPay_0_9 m c := rfl
theorem payload_send_0_10 (c : Dev nD) : (sched m).payload (dcell c 10) 0 0 = sendPay_0_10 m c := rfl
theorem payload_send_0_11 (c : Dev nD) : (sched m).payload (dcell c 11) 0 0 = sendPay_0_11 m c := rfl
theorem payload_send_0_12 (c : Dev nD) : (sched m).payload (dcell c 12) 0 0 = sendPay_0_12 m c := rfl
theorem payload_send_0_13 (c : Dev nD) : (sched m).payload (dcell c 13) 0 0 = sendPay_0_13 m c := rfl
theorem payload_send_1_0 (c : Dev nD) : (sched m).payload (dcell c 14) 0 0 = sendPay_1_0 m c := rfl
theorem payload_send_1_1 (c : Dev nD) : (sched m).payload (dcell c 15) 0 0 = sendPay_1_1 m c := rfl
theorem payload_send_1_2 (c : Dev nD) : (sched m).payload (dcell c 16) 0 0 = sendPay_1_2 m c := rfl
theorem payload_send_1_3 (c : Dev nD) : (sched m).payload (dcell c 17) 0 0 = sendPay_1_3 m c := rfl
theorem payload_send_1_4 (c : Dev nD) : (sched m).payload (dcell c 18) 0 0 = sendPay_1_4 m c := rfl
theorem payload_send_1_5 (c : Dev nD) : (sched m).payload (dcell c 19) 0 0 = sendPay_1_5 m c := rfl
theorem payload_send_1_6 (c : Dev nD) : (sched m).payload (dcell c 20) 0 0 = sendPay_1_6 m c := rfl
theorem payload_send_1_7 (c : Dev nD) : (sched m).payload (dcell c 21) 0 0 = sendPay_1_7 m c := rfl
theorem payload_send_1_8 (c : Dev nD) : (sched m).payload (dcell c 22) 0 0 = sendPay_1_8 m c := rfl
theorem payload_send_1_9 (c : Dev nD) : (sched m).payload (dcell c 23) 0 0 = sendPay_1_9 m c := rfl
theorem payload_send_1_10 (c : Dev nD) : (sched m).payload (dcell c 24) 0 0 = sendPay_1_10 m c := rfl
theorem payload_send_1_11 (c : Dev nD) : (sched m).payload (dcell c 25) 0 0 = sendPay_1_11 m c := rfl
theorem payload_send_1_12 (c : Dev nD) : (sched m).payload (dcell c 26) 0 0 = sendPay_1_12 m c := rfl
theorem payload_send_1_13 (c : Dev nD) : (sched m).payload (dcell c 27) 0 0 = sendPay_1_13 m c := rfl

theorem payload_recv_0_0 (c : Dev nD) : (sched m).payload (dcell c 28) 0 0 = recvPay_0_0 m c := rfl
theorem payload_recv_0_1 (c : Dev nD) : (sched m).payload (dcell c 29) 0 0 = recvPay_0_1 m c := rfl
theorem payload_recv_0_2 (c : Dev nD) : (sched m).payload (dcell c 30) 0 0 = recvPay_0_2 m c := rfl
theorem payload_recv_0_3 (c : Dev nD) : (sched m).payload (dcell c 31) 0 0 = recvPay_0_3 m c := rfl
theorem payload_recv_0_4 (c : Dev nD) : (sched m).payload (dcell c 32) 0 0 = recvPay_0_4 m c := rfl
theorem payload_recv_0_5 (c : Dev nD) : (sched m).payload (dcell c 33) 0 0 = recvPay_0_5 m c := rfl
theorem payload_recv_0_6 (c : Dev nD) : (sched m).payload (dcell c 34) 0 0 = recvPay_0_6 m c := rfl
theorem payload_recv_0_7 (c : Dev nD) : (sched m).payload (dcell c 35) 0 0 = recvPay_0_7 m c := rfl
theorem payload_recv_0_8 (c : Dev nD) : (sched m).payload (dcell c 36) 0 0 = recvPay_0_8 m c := rfl
theorem payload_recv_0_9 (c : Dev nD) : (sched m).payload (dcell c 37) 0 0 = recvPay_0_9 m c := rfl
theorem payload_recv_0_10 (c : Dev nD) : (sched m).payload (dcell c 38) 0 0 = recvPay_0_10 m c := rfl
theorem payload_recv_0_11 (c : Dev nD) : (sched m).payload (dcell c 39) 0 0 = recvPay_0_11 m c := rfl
theorem payload_recv_0_12 (c : Dev nD) : (sched m).payload (dcell c 40) 0 0 = recvPay_0_12 m c := rfl
theorem payload_recv_0_13 (c : Dev nD) : (sched m).payload (dcell c 41) 0 0 = recvPay_0_13 m c := rfl
theorem payload_recv_1_0 (c : Dev nD) : (sched m).payload (dcell c 42) 0 0 = recvPay_1_0 m c := rfl
theorem payload_recv_1_1 (c : Dev nD) : (sched m).payload (dcell c 43) 0 0 = recvPay_1_1 m c := rfl
theorem payload_recv_1_2 (c : Dev nD) : (sched m).payload (dcell c 44) 0 0 = recvPay_1_2 m c := rfl
theorem payload_recv_1_3 (c : Dev nD) : (sched m).payload (dcell c 45) 0 0 = recvPay_1_3 m c := rfl
theorem payload_recv_1_4 (c : Dev nD) : (sched m).payload (dcell c 46) 0 0 = recvPay_1_4 m c := rfl
theorem payload_recv_1_5 (c : Dev nD) : (sched m).payload (dcell c 47) 0 0 = recvPay_1_5 m c := rfl
theorem payload_recv_1_6 (c : Dev nD) : (sched m).payload (dcell c 48) 0 0 = recvPay_1_6 m c := rfl
theorem payload_recv_1_7 (c : Dev nD) : (sched m).payload (dcell c 49) 0 0 = recvPay_1_7 m c := rfl
theorem payload_recv_1_8 (c : Dev nD) : (sched m).payload (dcell c 50) 0 0 = recvPay_1_8 m c := rfl
theorem payload_recv_1_9 (c : Dev nD) : (sched m).payload (dcell c 51) 0 0 = recvPay_1_9 m c := rfl
theorem payload_recv_1_10 (c : Dev nD) : (sched m).payload (dcell c 52) 0 0 = recvPay_1_10 m c := rfl
theorem payload_recv_1_11 (c : Dev nD) : (sched m).payload (dcell c 53) 0 0 = recvPay_1_11 m c := rfl
theorem payload_recv_1_12 (c : Dev nD) : (sched m).payload (dcell c 54) 0 0 = recvPay_1_12 m c := rfl
theorem payload_recv_1_13 (c : Dev nD) : (sched m).payload (dcell c 55) 0 0 = recvPay_1_13 m c := rfl

theorem payload_zsend_0_0 (c : Dev nD) : (sched m).payload (dcell c 56) 0 0 = zsendPay_0_0 m c := rfl
theorem payload_zsend_0_1 (c : Dev nD) : (sched m).payload (dcell c 57) 0 0 = zsendPay_0_1 m c := rfl
theorem payload_zsend_0_2 (c : Dev nD) : (sched m).payload (dcell c 58) 0 0 = zsendPay_0_2 m c := rfl
theorem payload_zsend_0_3 (c : Dev nD) : (sched m).payload (dcell c 59) 0 0 = zsendPay_0_3 m c := rfl
theorem payload_zsend_0_4 (c : Dev nD) : (sched m).payload (dcell c 60) 0 0 = zsendPay_0_4 m c := rfl
theorem payload_zsend_0_5 (c : Dev nD) : (sched m).payload (dcell c 61) 0 0 = zsendPay_0_5 m c := rfl
theorem payload_zsend_0_6 (c : Dev nD) : (sched m).payload (dcell c 62) 0 0 = zsendPay_0_6 m c := rfl
theorem payload_zsend_0_7 (c : Dev nD) : (sched m).payload (dcell c 63) 0 0 = zsendPay_0_7 m c := rfl
theorem payload_zsend_1_0 (c : Dev nD) : (sched m).payload (dcell c 64) 0 0 = zsendPay_1_0 m c := rfl
theorem payload_zsend_1_1 (c : Dev nD) : (sched m).payload (dcell c 65) 0 0 = zsendPay_1_1 m c := rfl
theorem payload_zsend_1_2 (c : Dev nD) : (sched m).payload (dcell c 66) 0 0 = zsendPay_1_2 m c := rfl
theorem payload_zsend_1_3 (c : Dev nD) : (sched m).payload (dcell c 67) 0 0 = zsendPay_1_3 m c := rfl
theorem payload_zsend_1_4 (c : Dev nD) : (sched m).payload (dcell c 68) 0 0 = zsendPay_1_4 m c := rfl
theorem payload_zsend_1_5 (c : Dev nD) : (sched m).payload (dcell c 69) 0 0 = zsendPay_1_5 m c := rfl
theorem payload_zsend_1_6 (c : Dev nD) : (sched m).payload (dcell c 70) 0 0 = zsendPay_1_6 m c := rfl
theorem payload_zsend_1_7 (c : Dev nD) : (sched m).payload (dcell c 71) 0 0 = zsendPay_1_7 m c := rfl

theorem payload_zrecv_0_0 (c : Dev nD) : (sched m).payload (dcell c 72) 0 0 = zrecvPay_0_0 m c := rfl
theorem payload_zrecv_0_1 (c : Dev nD) : (sched m).payload (dcell c 73) 0 0 = zrecvPay_0_1 m c := rfl
theorem payload_zrecv_0_2 (c : Dev nD) : (sched m).payload (dcell c 74) 0 0 = zrecvPay_0_2 m c := rfl
theorem payload_zrecv_0_3 (c : Dev nD) : (sched m).payload (dcell c 75) 0 0 = zrecvPay_0_3 m c := rfl
theorem payload_zrecv_0_4 (c : Dev nD) : (sched m).payload (dcell c 76) 0 0 = zrecvPay_0_4 m c := rfl
theorem payload_zrecv_0_5 (c : Dev nD) : (sched m).payload (dcell c 77) 0 0 = zrecvPay_0_5 m c := rfl
theorem payload_zrecv_0_6 (c : Dev nD) : (sched m).payload (dcell c 78) 0 0 = zrecvPay_0_6 m c := rfl
theorem payload_zrecv_0_7 (c : Dev nD) : (sched m).payload (dcell c 79) 0 0 = zrecvPay_0_7 m c := rfl
theorem payload_zrecv_1_0 (c : Dev nD) : (sched m).payload (dcell c 80) 0 0 = zrecvPay_1_0 m c := rfl
theorem payload_zrecv_1_1 (c : Dev nD) : (sched m).payload (dcell c 81) 0 0 = zrecvPay_1_1 m c := rfl
theorem payload_zrecv_1_2 (c : Dev nD) : (sched m).payload (dcell c 82) 0 0 = zrecvPay_1_2 m c := rfl
theorem payload_zrecv_1_3 (c : Dev nD) : (sched m).payload (dcell c 83) 0 0 = zrecvPay_1_3 m c := rfl
theorem payload_zrecv_1_4 (c : Dev nD) : (sched m).payload (dcell c 84) 0 0 = zrecvPay_1_4 m c := rfl
theorem payload_zrecv_1_5 (c : Dev nD) : (sched m).payload (dcell c 85) 0 0 = zrecvPay_1_5 m c := rfl
theorem payload_zrecv_1_6 (c : Dev nD) : (sched m).payload (dcell c 86) 0 0 = zrecvPay_1_6 m c := rfl
theorem payload_zrecv_1_7 (c : Dev nD) : (sched m).payload (dcell c 87) 0 0 = zrecvPay_1_7 m c := rfl

theorem payload_local_0_0 (c : Dev nD) : (sched m).payload (dcell c 88) 0 0 = localPay_0 m c 0 := rfl
theorem payload_local_0_1 (c : Dev nD) : (sched m).payload (dcell c 88) 1 0 = localPay_0 m c 1 := rfl
theorem payload_local_0_2 (c : Dev nD) : (sched m).payload (dcell c 88) 2 0 = localPay_0 m c 2 := rfl
theorem payload_local_0_3 (c : Dev nD) : (sched m).payload (dcell c 88) 3 0 = localPay_0 m c 3 := rfl
theorem payload_local_0_4 (c : Dev nD) : (sched m).payload (dcell c 88) 4 0 = localPay_0 m c 4 := rfl
theorem payload_local_0_5 (c : Dev nD) : (sched m).payload (dcell c 88) 5 0 = localPay_0 m c 5 := rfl
theorem payload_local_0_6 (c : Dev nD) : (sched m).payload (dcell c 88) 6 0 = localPay_0 m c 6 := rfl
theorem payload_local_0_7 (c : Dev nD) : (sched m).payload (dcell c 88) 7 0 = localPay_0 m c 7 := rfl
theorem payload_local_1_0 (c : Dev nD) : (sched m).payload (dcell c 89) 0 0 = localPay_1 m c 0 := rfl
theorem payload_local_1_1 (c : Dev nD) : (sched m).payload (dcell c 89) 1 0 = localPay_1 m c 1 := rfl
theorem payload_local_1_2 (c : Dev nD) : (sched m).payload (dcell c 89) 2 0 = localPay_1 m c 2 := rfl
theorem payload_local_1_3 (c : Dev nD) : (sched m).payload (dcell c 89) 3 0 = localPay_1 m c 3 := rfl
theorem payload_local_1_4 (c : Dev nD) : (sched m).payload (dcell c 89) 4 0 = localPay_1 m c 4 := rfl
theorem payload_local_1_5 (c : Dev nD) : (sched m).payload (dcell c 89) 5 0 = localPay_1 m c 5 := rfl
theorem payload_local_1_6 (c : Dev nD) : (sched m).payload (dcell c 89) 6 0 = localPay_1 m c 6 := rfl
theorem payload_local_1_7 (c : Dev nD) : (sched m).payload (dcell c 89) 7 0 = localPay_1 m c 7 := rfl

/-! Each payload is a region at named contents, or two of them: it can be stored in a cell. -/

instance storable_send_0_0 (c : Dev nD) : BI.Storable (upEmb : UEmb _ 𝕄) (sendPay_0_0 m c) := by unfold sendPay_0_0; infer_instance
instance storable_send_0_1 (c : Dev nD) : BI.Storable (upEmb : UEmb _ 𝕄) (sendPay_0_1 m c) := by unfold sendPay_0_1; infer_instance
instance storable_send_0_2 (c : Dev nD) : BI.Storable (upEmb : UEmb _ 𝕄) (sendPay_0_2 m c) := by unfold sendPay_0_2; infer_instance
instance storable_send_0_3 (c : Dev nD) : BI.Storable (upEmb : UEmb _ 𝕄) (sendPay_0_3 m c) := by unfold sendPay_0_3; infer_instance
instance storable_send_0_4 (c : Dev nD) : BI.Storable (upEmb : UEmb _ 𝕄) (sendPay_0_4 m c) := by unfold sendPay_0_4; infer_instance
instance storable_send_0_5 (c : Dev nD) : BI.Storable (upEmb : UEmb _ 𝕄) (sendPay_0_5 m c) := by unfold sendPay_0_5; infer_instance
instance storable_send_0_6 (c : Dev nD) : BI.Storable (upEmb : UEmb _ 𝕄) (sendPay_0_6 m c) := by unfold sendPay_0_6; infer_instance
instance storable_send_0_7 (c : Dev nD) : BI.Storable (upEmb : UEmb _ 𝕄) (sendPay_0_7 m c) := by unfold sendPay_0_7; infer_instance
instance storable_send_0_8 (c : Dev nD) : BI.Storable (upEmb : UEmb _ 𝕄) (sendPay_0_8 m c) := by unfold sendPay_0_8; infer_instance
instance storable_send_0_9 (c : Dev nD) : BI.Storable (upEmb : UEmb _ 𝕄) (sendPay_0_9 m c) := by unfold sendPay_0_9; infer_instance
instance storable_send_0_10 (c : Dev nD) : BI.Storable (upEmb : UEmb _ 𝕄) (sendPay_0_10 m c) := by unfold sendPay_0_10; infer_instance
instance storable_send_0_11 (c : Dev nD) : BI.Storable (upEmb : UEmb _ 𝕄) (sendPay_0_11 m c) := by unfold sendPay_0_11; infer_instance
instance storable_send_0_12 (c : Dev nD) : BI.Storable (upEmb : UEmb _ 𝕄) (sendPay_0_12 m c) := by unfold sendPay_0_12; infer_instance
instance storable_send_0_13 (c : Dev nD) : BI.Storable (upEmb : UEmb _ 𝕄) (sendPay_0_13 m c) := by unfold sendPay_0_13; infer_instance
instance storable_send_1_0 (c : Dev nD) : BI.Storable (upEmb : UEmb _ 𝕄) (sendPay_1_0 m c) := by unfold sendPay_1_0; infer_instance
instance storable_send_1_1 (c : Dev nD) : BI.Storable (upEmb : UEmb _ 𝕄) (sendPay_1_1 m c) := by unfold sendPay_1_1; infer_instance
instance storable_send_1_2 (c : Dev nD) : BI.Storable (upEmb : UEmb _ 𝕄) (sendPay_1_2 m c) := by unfold sendPay_1_2; infer_instance
instance storable_send_1_3 (c : Dev nD) : BI.Storable (upEmb : UEmb _ 𝕄) (sendPay_1_3 m c) := by unfold sendPay_1_3; infer_instance
instance storable_send_1_4 (c : Dev nD) : BI.Storable (upEmb : UEmb _ 𝕄) (sendPay_1_4 m c) := by unfold sendPay_1_4; infer_instance
instance storable_send_1_5 (c : Dev nD) : BI.Storable (upEmb : UEmb _ 𝕄) (sendPay_1_5 m c) := by unfold sendPay_1_5; infer_instance
instance storable_send_1_6 (c : Dev nD) : BI.Storable (upEmb : UEmb _ 𝕄) (sendPay_1_6 m c) := by unfold sendPay_1_6; infer_instance
instance storable_send_1_7 (c : Dev nD) : BI.Storable (upEmb : UEmb _ 𝕄) (sendPay_1_7 m c) := by unfold sendPay_1_7; infer_instance
instance storable_send_1_8 (c : Dev nD) : BI.Storable (upEmb : UEmb _ 𝕄) (sendPay_1_8 m c) := by unfold sendPay_1_8; infer_instance
instance storable_send_1_9 (c : Dev nD) : BI.Storable (upEmb : UEmb _ 𝕄) (sendPay_1_9 m c) := by unfold sendPay_1_9; infer_instance
instance storable_send_1_10 (c : Dev nD) : BI.Storable (upEmb : UEmb _ 𝕄) (sendPay_1_10 m c) := by unfold sendPay_1_10; infer_instance
instance storable_send_1_11 (c : Dev nD) : BI.Storable (upEmb : UEmb _ 𝕄) (sendPay_1_11 m c) := by unfold sendPay_1_11; infer_instance
instance storable_send_1_12 (c : Dev nD) : BI.Storable (upEmb : UEmb _ 𝕄) (sendPay_1_12 m c) := by unfold sendPay_1_12; infer_instance
instance storable_send_1_13 (c : Dev nD) : BI.Storable (upEmb : UEmb _ 𝕄) (sendPay_1_13 m c) := by unfold sendPay_1_13; infer_instance

instance storable_recv_0_0 (c : Dev nD) : BI.Storable (upEmb : UEmb _ 𝕄) (recvPay_0_0 m c) := by unfold recvPay_0_0; infer_instance
instance storable_recv_0_1 (c : Dev nD) : BI.Storable (upEmb : UEmb _ 𝕄) (recvPay_0_1 m c) := by unfold recvPay_0_1; infer_instance
instance storable_recv_0_2 (c : Dev nD) : BI.Storable (upEmb : UEmb _ 𝕄) (recvPay_0_2 m c) := by unfold recvPay_0_2; infer_instance
instance storable_recv_0_3 (c : Dev nD) : BI.Storable (upEmb : UEmb _ 𝕄) (recvPay_0_3 m c) := by unfold recvPay_0_3; infer_instance
instance storable_recv_0_4 (c : Dev nD) : BI.Storable (upEmb : UEmb _ 𝕄) (recvPay_0_4 m c) := by unfold recvPay_0_4; infer_instance
instance storable_recv_0_5 (c : Dev nD) : BI.Storable (upEmb : UEmb _ 𝕄) (recvPay_0_5 m c) := by unfold recvPay_0_5; infer_instance
instance storable_recv_0_6 (c : Dev nD) : BI.Storable (upEmb : UEmb _ 𝕄) (recvPay_0_6 m c) := by unfold recvPay_0_6; infer_instance
instance storable_recv_0_7 (c : Dev nD) : BI.Storable (upEmb : UEmb _ 𝕄) (recvPay_0_7 m c) := by unfold recvPay_0_7; infer_instance
instance storable_recv_0_8 (c : Dev nD) : BI.Storable (upEmb : UEmb _ 𝕄) (recvPay_0_8 m c) := by unfold recvPay_0_8; infer_instance
instance storable_recv_0_9 (c : Dev nD) : BI.Storable (upEmb : UEmb _ 𝕄) (recvPay_0_9 m c) := by unfold recvPay_0_9; infer_instance
instance storable_recv_0_10 (c : Dev nD) : BI.Storable (upEmb : UEmb _ 𝕄) (recvPay_0_10 m c) := by unfold recvPay_0_10; infer_instance
instance storable_recv_0_11 (c : Dev nD) : BI.Storable (upEmb : UEmb _ 𝕄) (recvPay_0_11 m c) := by unfold recvPay_0_11; infer_instance
instance storable_recv_0_12 (c : Dev nD) : BI.Storable (upEmb : UEmb _ 𝕄) (recvPay_0_12 m c) := by unfold recvPay_0_12; infer_instance
instance storable_recv_0_13 (c : Dev nD) : BI.Storable (upEmb : UEmb _ 𝕄) (recvPay_0_13 m c) := by unfold recvPay_0_13; infer_instance
instance storable_recv_1_0 (c : Dev nD) : BI.Storable (upEmb : UEmb _ 𝕄) (recvPay_1_0 m c) := by unfold recvPay_1_0; infer_instance
instance storable_recv_1_1 (c : Dev nD) : BI.Storable (upEmb : UEmb _ 𝕄) (recvPay_1_1 m c) := by unfold recvPay_1_1; infer_instance
instance storable_recv_1_2 (c : Dev nD) : BI.Storable (upEmb : UEmb _ 𝕄) (recvPay_1_2 m c) := by unfold recvPay_1_2; infer_instance
instance storable_recv_1_3 (c : Dev nD) : BI.Storable (upEmb : UEmb _ 𝕄) (recvPay_1_3 m c) := by unfold recvPay_1_3; infer_instance
instance storable_recv_1_4 (c : Dev nD) : BI.Storable (upEmb : UEmb _ 𝕄) (recvPay_1_4 m c) := by unfold recvPay_1_4; infer_instance
instance storable_recv_1_5 (c : Dev nD) : BI.Storable (upEmb : UEmb _ 𝕄) (recvPay_1_5 m c) := by unfold recvPay_1_5; infer_instance
instance storable_recv_1_6 (c : Dev nD) : BI.Storable (upEmb : UEmb _ 𝕄) (recvPay_1_6 m c) := by unfold recvPay_1_6; infer_instance
instance storable_recv_1_7 (c : Dev nD) : BI.Storable (upEmb : UEmb _ 𝕄) (recvPay_1_7 m c) := by unfold recvPay_1_7; infer_instance
instance storable_recv_1_8 (c : Dev nD) : BI.Storable (upEmb : UEmb _ 𝕄) (recvPay_1_8 m c) := by unfold recvPay_1_8; infer_instance
instance storable_recv_1_9 (c : Dev nD) : BI.Storable (upEmb : UEmb _ 𝕄) (recvPay_1_9 m c) := by unfold recvPay_1_9; infer_instance
instance storable_recv_1_10 (c : Dev nD) : BI.Storable (upEmb : UEmb _ 𝕄) (recvPay_1_10 m c) := by unfold recvPay_1_10; infer_instance
instance storable_recv_1_11 (c : Dev nD) : BI.Storable (upEmb : UEmb _ 𝕄) (recvPay_1_11 m c) := by unfold recvPay_1_11; infer_instance
instance storable_recv_1_12 (c : Dev nD) : BI.Storable (upEmb : UEmb _ 𝕄) (recvPay_1_12 m c) := by unfold recvPay_1_12; infer_instance
instance storable_recv_1_13 (c : Dev nD) : BI.Storable (upEmb : UEmb _ 𝕄) (recvPay_1_13 m c) := by unfold recvPay_1_13; infer_instance

instance storable_zsend_0_0 (c : Dev nD) : BI.Storable (upEmb : UEmb _ 𝕄) (zsendPay_0_0 m c) := by unfold zsendPay_0_0; infer_instance
instance storable_zsend_0_1 (c : Dev nD) : BI.Storable (upEmb : UEmb _ 𝕄) (zsendPay_0_1 m c) := by unfold zsendPay_0_1; infer_instance
instance storable_zsend_0_2 (c : Dev nD) : BI.Storable (upEmb : UEmb _ 𝕄) (zsendPay_0_2 m c) := by unfold zsendPay_0_2; infer_instance
instance storable_zsend_0_3 (c : Dev nD) : BI.Storable (upEmb : UEmb _ 𝕄) (zsendPay_0_3 m c) := by unfold zsendPay_0_3; infer_instance
instance storable_zsend_0_4 (c : Dev nD) : BI.Storable (upEmb : UEmb _ 𝕄) (zsendPay_0_4 m c) := by unfold zsendPay_0_4; infer_instance
instance storable_zsend_0_5 (c : Dev nD) : BI.Storable (upEmb : UEmb _ 𝕄) (zsendPay_0_5 m c) := by unfold zsendPay_0_5; infer_instance
instance storable_zsend_0_6 (c : Dev nD) : BI.Storable (upEmb : UEmb _ 𝕄) (zsendPay_0_6 m c) := by unfold zsendPay_0_6; infer_instance
instance storable_zsend_0_7 (c : Dev nD) : BI.Storable (upEmb : UEmb _ 𝕄) (zsendPay_0_7 m c) := by unfold zsendPay_0_7; infer_instance
instance storable_zsend_1_0 (c : Dev nD) : BI.Storable (upEmb : UEmb _ 𝕄) (zsendPay_1_0 m c) := by unfold zsendPay_1_0; infer_instance
instance storable_zsend_1_1 (c : Dev nD) : BI.Storable (upEmb : UEmb _ 𝕄) (zsendPay_1_1 m c) := by unfold zsendPay_1_1; infer_instance
instance storable_zsend_1_2 (c : Dev nD) : BI.Storable (upEmb : UEmb _ 𝕄) (zsendPay_1_2 m c) := by unfold zsendPay_1_2; infer_instance
instance storable_zsend_1_3 (c : Dev nD) : BI.Storable (upEmb : UEmb _ 𝕄) (zsendPay_1_3 m c) := by unfold zsendPay_1_3; infer_instance
instance storable_zsend_1_4 (c : Dev nD) : BI.Storable (upEmb : UEmb _ 𝕄) (zsendPay_1_4 m c) := by unfold zsendPay_1_4; infer_instance
instance storable_zsend_1_5 (c : Dev nD) : BI.Storable (upEmb : UEmb _ 𝕄) (zsendPay_1_5 m c) := by unfold zsendPay_1_5; infer_instance
instance storable_zsend_1_6 (c : Dev nD) : BI.Storable (upEmb : UEmb _ 𝕄) (zsendPay_1_6 m c) := by unfold zsendPay_1_6; infer_instance
instance storable_zsend_1_7 (c : Dev nD) : BI.Storable (upEmb : UEmb _ 𝕄) (zsendPay_1_7 m c) := by unfold zsendPay_1_7; infer_instance

instance storable_zrecv_0_0 (c : Dev nD) : BI.Storable (upEmb : UEmb _ 𝕄) (zrecvPay_0_0 m c) := by unfold zrecvPay_0_0; infer_instance
instance storable_zrecv_0_1 (c : Dev nD) : BI.Storable (upEmb : UEmb _ 𝕄) (zrecvPay_0_1 m c) := by unfold zrecvPay_0_1; infer_instance
instance storable_zrecv_0_2 (c : Dev nD) : BI.Storable (upEmb : UEmb _ 𝕄) (zrecvPay_0_2 m c) := by unfold zrecvPay_0_2; infer_instance
instance storable_zrecv_0_3 (c : Dev nD) : BI.Storable (upEmb : UEmb _ 𝕄) (zrecvPay_0_3 m c) := by unfold zrecvPay_0_3; infer_instance
instance storable_zrecv_0_4 (c : Dev nD) : BI.Storable (upEmb : UEmb _ 𝕄) (zrecvPay_0_4 m c) := by unfold zrecvPay_0_4; infer_instance
instance storable_zrecv_0_5 (c : Dev nD) : BI.Storable (upEmb : UEmb _ 𝕄) (zrecvPay_0_5 m c) := by unfold zrecvPay_0_5; infer_instance
instance storable_zrecv_0_6 (c : Dev nD) : BI.Storable (upEmb : UEmb _ 𝕄) (zrecvPay_0_6 m c) := by unfold zrecvPay_0_6; infer_instance
instance storable_zrecv_0_7 (c : Dev nD) : BI.Storable (upEmb : UEmb _ 𝕄) (zrecvPay_0_7 m c) := by unfold zrecvPay_0_7; infer_instance
instance storable_zrecv_1_0 (c : Dev nD) : BI.Storable (upEmb : UEmb _ 𝕄) (zrecvPay_1_0 m c) := by unfold zrecvPay_1_0; infer_instance
instance storable_zrecv_1_1 (c : Dev nD) : BI.Storable (upEmb : UEmb _ 𝕄) (zrecvPay_1_1 m c) := by unfold zrecvPay_1_1; infer_instance
instance storable_zrecv_1_2 (c : Dev nD) : BI.Storable (upEmb : UEmb _ 𝕄) (zrecvPay_1_2 m c) := by unfold zrecvPay_1_2; infer_instance
instance storable_zrecv_1_3 (c : Dev nD) : BI.Storable (upEmb : UEmb _ 𝕄) (zrecvPay_1_3 m c) := by unfold zrecvPay_1_3; infer_instance
instance storable_zrecv_1_4 (c : Dev nD) : BI.Storable (upEmb : UEmb _ 𝕄) (zrecvPay_1_4 m c) := by unfold zrecvPay_1_4; infer_instance
instance storable_zrecv_1_5 (c : Dev nD) : BI.Storable (upEmb : UEmb _ 𝕄) (zrecvPay_1_5 m c) := by unfold zrecvPay_1_5; infer_instance
instance storable_zrecv_1_6 (c : Dev nD) : BI.Storable (upEmb : UEmb _ 𝕄) (zrecvPay_1_6 m c) := by unfold zrecvPay_1_6; infer_instance
instance storable_zrecv_1_7 (c : Dev nD) : BI.Storable (upEmb : UEmb _ 𝕄) (zrecvPay_1_7 m c) := by unfold zrecvPay_1_7; infer_instance

instance storable_local_0 (c : Dev nD) (r : ℕ) : BI.Storable (upEmb : UEmb _ 𝕄) (localPay_0 m c r) := by unfold localPay_0; split <;> infer_instance
instance storable_local_1 (c : Dev nD) (r : ℕ) : BI.Storable (upEmb : UEmb _ 𝕄) (localPay_1 m c r) := by unfold localPay_1; split <;> infer_instance

/-- info: 'Cert.Kernel.Sched.payload_local_1_7' depends on axioms: [propext, Classical.choice, Quot.sound] -/
#guard_msgs in #print axioms payload_local_1_7

/-- info: 'Cert.Kernel.Sched.storable_local_1' depends on axioms: [propext, Classical.choice, Quot.sound] -/
#guard_msgs in #print axioms storable_local_1

end Cert.Kernel.Sched

end
-- ==== Proof.Bits.CanonSems.lean ====
/-
  The ninety DMA semaphores of a device by their index. The program names a semaphore by cutting a one-element
  window at position (d, k) out of one of its five semaphore arrays and dropping the unit axes. The arrays lie one
  after the other, row-major: the departure semaphores of the ring copies at 14·d + k, their arrival semaphores at
  28 + 14·d + k, the departure and arrival semaphores of the copies to the pair partner at 56 + 8·d + k and
  72 + 8·d + k, the two semaphores of the local copies at 88 + d. Each equation below is one entry of that table and
  holds by evaluating the window's index.
-/
import proofs.«900727_g7700000000000728_dist_ar_v7x_xyz2x4x4_y_m16384_n1024_f32_1_alg».proof.Proof.Bits.Cells

namespace Cert.Kernel.Cells

open Cert.Kernel Idealize.ShloMosaic

@[sl_canon] theorem sem_send_0_0 : ((cc0_scratch2.slice (Rect.unit (s := S2x14) ![0, 0] S1x1.size Facts₀.inb_S2x14_S1x1_0_0)).squeeze S_ Facts₀.squeezes_S1x1_S_).sem = dsem 0 := rfl
@[sl_canon] theorem sem_send_0_1 : ((cc0_scratch2.slice (Rect.unit (s := S2x14) ![0, 1] S1x1.size Facts₀.inb_S2x14_S1x1_0_1)).squeeze S_ Facts₀.squeezes_S1x1_S_).sem = dsem 1 := rfl
@[sl_canon] theorem sem_send_0_2 : ((cc0_scratch2.slice (Rect.unit (s := S2x14) ![0, 2] S1x1.size Facts₀.inb_S2x14_S1x1_0_2)).squeeze S_ Facts₀.squeezes_S1x1_S_).sem = dsem 2 := rfl
@[sl_canon] theorem sem_send_0_3 : ((cc0_scratch2.slice (Rect.unit (s := S2x14) ![0, 3] S1x1.size Facts₀.inb_S2x14_S1x1_0_3)).squeeze S_ Facts₀.squeezes_S1x1_S_).sem = dsem 3 := rfl
@[sl_canon] theorem sem_send_0_4 : ((cc0_scratch2.slice (Rect.unit (s := S2x14) ![0, 4] S1x1.size Facts₀.inb_S2x14_S1x1_0_4)).squeeze S_ Facts₀.squeezes_S1x1_S_).sem = dsem 4 := rfl
@[sl_canon] theorem sem_send_0_5 : ((cc0_scratch2.slice (Rect.unit (s := S2x14) ![0, 5] S1x1.size Facts₀.inb_S2x14_S1x1_0_5)).squeeze S_ Facts₀.squeezes_S1x1_S_).sem = dsem 5 := rfl
@[sl_canon] theorem sem_send_0_6 : ((cc0_scratch2.slice (Rect.unit (s := S2x14) ![0, 6] S1x1.size Facts₀.inb_S2x14_S1x1_0_6)).squeeze S_ Facts₀.squeezes_S1x1_S_).sem = dsem 6 := rfl
@[sl_canon] theorem sem_send_0_7 : ((cc0_scratch2.slice (Rect.unit (s := S2x14) ![0, 7] S1x1.size Facts₀.inb_S2x14_S1x1_0_7)).squeeze S_ Facts₀.squeezes_S1x1_S_).sem = dsem 7 := rfl
@[sl_canon] theorem sem_send_0_8 : ((cc0_scratch2.slice (Rect.unit (s := S2x14) ![0, 8] S1x1.size Facts₀.inb_S2x14_S1x1_0_8)).squeeze S_ Facts₀.squeezes_S1x1_S_).sem = dsem 8 := rfl
@[sl_canon] theorem sem_send_0_9 : ((cc0_scratch2.slice (Rect.unit (s := S2x14) ![0, 9] S1x1.size Facts₀.inb_S2x14_S1x1_0_9)).squeeze S_ Facts₀.squeezes_S1x1_S_).sem = dsem 9 := rfl
@[sl_canon] theorem sem_send_0_10 : ((cc0_scratch2.slice (Rect.unit (s := S2x14) ![0, 10] S1x1.size Facts₀.inb_S2x14_S1x1_0_10)).squeeze S_ Facts₀.squeezes_S1x1_S_).sem = dsem 10 := rfl
@[sl_canon] theorem sem_send_0_11 : ((cc0_scratch2.slice (Rect.unit (s := S2x14) ![0, 11] S1x1.size Facts₀.inb_S2x14_S1x1_0_11)).squeeze S_ Facts₀.squeezes_S1x1_S_).sem = dsem 11 := rfl
@[sl_canon] theorem sem_send_0_12 : ((cc0_scratch2.slice (Rect.unit (s := S2x14) ![0, 12] S1x1.size Facts₀.inb_S2x14_S1x1_0_12)).squeeze S_ Facts₀.squeezes_S1x1_S_).sem = dsem 12 := rfl
@[sl_canon] theorem sem_send_0_13 : ((cc0_scratch2.slice (Rect.unit (s := S2x14) ![0, 13] S1x1.size Facts₀.inb_S2x14_S1x1_0_13)).squeeze S_ Facts₀.squeezes_S1x1_S_).sem = dsem 13 := rfl
@[sl_canon] theorem sem_send_1_0 : ((cc0_scratch2.slice (Rect.unit (s := S2x14) ![1, 0] S1x1.size Facts₀.inb_S2x14_S1x1_1_0)).squeeze S_ Facts₀.squeezes_S1x1_S_).sem = dsem 14 := rfl
@[sl_canon] theorem sem_send_1_1 : ((cc0_scratch2.slice (Rect.unit (s := S2x14) ![1, 1] S1x1.size Facts₀.inb_S2x14_S1x1_1_1)).squeeze S_ Facts₀.squeezes_S1x1_S_).sem = dsem 15 := rfl
@[sl_canon] theorem sem_send_1_2 : ((cc0_scratch2.slice (Rect.unit (s := S2x14) ![1, 2] S1x1.size Facts₀.inb_S2x14_S1x1_1_2)).squeeze S_ Facts₀.squeezes_S1x1_S_).sem = dsem 16 := rfl
@[sl_canon] theorem sem_send_1_3 : ((cc0_scratch2.slice (Rect.unit (s := S2x14) ![1, 3] S1x1.size Facts₀.inb_S2x14_S1x1_1_3)).squeeze S_ Facts₀.squeezes_S1x1_S_).sem = dsem 17 := rfl
@[sl_canon] theorem sem_send_1_4 : ((cc0_scratch2.slice (Rect.unit (s := S2x14) ![1, 4] S1x1.size Facts₀.inb_S2x14_S1x1_1_4)).squeeze S_ Facts₀.squeezes_S1x1_S_).sem = dsem 18 := rfl
@[sl_canon] theorem sem_send_1_5 : ((cc0_scratch2.slice (Rect.unit (s := S2x14) ![1, 5] S1x1.size Facts₀.inb_S2x14_S1x1_1_5)).squeeze S_ Facts₀.squeezes_S1x1_S_).sem = dsem 19 := rfl
@[sl_canon] theorem sem_send_1_6 : ((cc0_scratch2.slice (Rect.unit (s := S2x14) ![1, 6] S1x1.size Facts₀.inb_S2x14_S1x1_1_6)).squeeze S_ Facts₀.squeezes_S1x1_S_).sem = dsem 20 := rfl
@[sl_canon] theorem sem_send_1_7 : ((cc0_scratch2.slice (Rect.unit (s := S2x14) ![1, 7] S1x1.size Facts₀.inb_S2x14_S1x1_1_7)).squeeze S_ Facts₀.squeezes_S1x1_S_).sem = dsem 21 := rfl
@[sl_canon] theorem sem_send_1_8 : ((cc0_scratch2.slice (Rect.unit (s := S2x14) ![1, 8] S1x1.size Facts₀.inb_S2x14_S1x1_1_8)).squeeze S_ Facts₀.squeezes_S1x1_S_).sem = dsem 22 := rfl
@[sl_canon] theorem sem_send_1_9 : ((cc0_scratch2.slice (Rect.unit (s := S2x14) ![1, 9] S1x1.size Facts₀.inb_S2x14_S1x1_1_9)).squeeze S_ Facts₀.squeezes_S1x1_S_).sem = dsem 23 := rfl
@[sl_canon] theorem sem_send_1_10 : ((cc0_scratch2.slice (Rect.unit (s := S2x14) ![1, 10] S1x1.size Facts₀.inb_S2x14_S1x1_1_10)).squeeze S_ Facts₀.squeezes_S1x1_S_).sem = dsem 24 := rfl
@[sl_canon] theorem sem_send_1_11 : ((cc0_scratch2.slice (Rect.unit (s := S2x14) ![1, 11] S1x1.size Facts₀.inb_S2x14_S1x1_1_11)).squeeze S_ Facts₀.squeezes_S1x1_S_).sem = dsem 25 := rfl
@[sl_canon] theorem sem_send_1_12 : ((cc0_scratch2.slice (Rect.unit (s := S2x14) ![1, 12] S1x1.size Facts₀.inb_S2x14_S1x1_1_12)).squeeze S_ Facts₀.squeezes_S1x1_S_).sem = dsem 26 := rfl
@[sl_canon] theorem sem_send_1_13 : ((cc0_scratch2.slice (Rect.unit (s := S2x14) ![1, 13] S1x1.size Facts₀.inb_S2x14_S1x1_1_13)).squeeze S_ Facts₀.squeezes_S1x1_S_).sem = dsem 27 := rfl

@[sl_canon] theorem sem_recv_0_0 : ((cc0_scratch3.slice (Rect.unit (s := S2x14) ![0, 0] S1x1.size Facts₀.inb_S2x14_S1x1_0_0)).squeeze S_ Facts₀.squeezes_S1x1_S_).sem = dsem 28 := rfl
@[sl_canon] theorem sem_recv_0_1 : ((cc0_scratch3.slice (Rect.unit (s := S2x14) ![0, 1] S1x1.size Facts₀.inb_S2x14_S1x1_0_1)).squeeze S_ Facts₀.squeezes_S1x1_S_).sem = dsem 29 := rfl
@[sl_canon] theorem sem_recv_0_2 : ((cc0_scratch3.slice (Rect.unit (s := S2x14) ![0, 2] S1x1.size Facts₀.inb_S2x14_S1x1_0_2)).squeeze S_ Facts₀.squeezes_S1x1_S_).sem = dsem 30 := rfl
@[sl_canon] theorem sem_recv_0_3 : ((cc0_scratch3.slice (Rect.unit (s := S2x14) ![0, 3] S1x1.size Facts₀.inb_S2x14_S1x1_0_3)).squeeze S_ Facts₀.squeezes_S1x1_S_).sem = dsem 31 := rfl
@[sl_canon] theorem sem_recv_0_4 : ((cc0_scratch3.slice (Rect.unit (s := S2x14) ![0, 4] S1x1.size Facts₀.inb_S2x14_S1x1_0_4)).squeeze S_ Facts₀.squeezes_S1x1_S_).sem = dsem 32 := rfl
@[sl_canon] theorem sem_recv_0_5 : ((cc0_scratch3.slice (Rect.unit (s := S2x14) ![0, 5] S1x1.size Facts₀.inb_S2x14_S1x1_0_5)).squeeze S_ Facts₀.squeezes_S1x1_S_).sem = dsem 33 := rfl
@[sl_canon] theorem sem_recv_0_6 : ((cc0_scratch3.slice (Rect.unit (s := S2x14) ![0, 6] S1x1.size Facts₀.inb_S2x14_S1x1_0_6)).squeeze S_ Facts₀.squeezes_S1x1_S_).sem = dsem 34 := rfl
@[sl_canon] theorem sem_recv_0_7 : ((cc0_scratch3.slice (Rect.unit (s := S2x14) ![0, 7] S1x1.size Facts₀.inb_S2x14_S1x1_0_7)).squeeze S_ Facts₀.squeezes_S1x1_S_).sem = dsem 35 := rfl
@[sl_canon] theorem sem_recv_0_8 : ((cc0_scratch3.slice (Rect.unit (s := S2x14) ![0, 8] S1x1.size Facts₀.inb_S2x14_S1x1_0_8)).squeeze S_ Facts₀.squeezes_S1x1_S_).sem = dsem 36 := rfl
@[sl_canon] theorem sem_recv_0_9 : ((cc0_scratch3.slice (Rect.unit (s := S2x14) ![0, 9] S1x1.size Facts₀.inb_S2x14_S1x1_0_9)).squeeze S_ Facts₀.squeezes_S1x1_S_).sem = dsem 37 := rfl
@[sl_canon] theorem sem_recv_0_10 : ((cc0_scratch3.slice (Rect.unit (s := S2x14) ![0, 10] S1x1.size Facts₀.inb_S2x14_S1x1_0_10)).squeeze S_ Facts₀.squeezes_S1x1_S_).sem = dsem 38 := rfl
@[sl_canon] theorem sem_recv_0_11 : ((cc0_scratch3.slice (Rect.unit (s := S2x14) ![0, 11] S1x1.size Facts₀.inb_S2x14_S1x1_0_11)).squeeze S_ Facts₀.squeezes_S1x1_S_).sem = dsem 39 := rfl
@[sl_canon] theorem sem_recv_0_12 : ((cc0_scratch3.slice (Rect.unit (s := S2x14) ![0, 12] S1x1.size Facts₀.inb_S2x14_S1x1_0_12)).squeeze S_ Facts₀.squeezes_S1x1_S_).sem = dsem 40 := rfl
@[sl_canon] theorem sem_recv_0_13 : ((cc0_scratch3.slice (Rect.unit (s := S2x14) ![0, 13] S1x1.size Facts₀.inb_S2x14_S1x1_0_13)).squeeze S_ Facts₀.squeezes_S1x1_S_).sem = dsem 41 := rfl
@[sl_canon] theorem sem_recv_1_0 : ((cc0_scratch3.slice (Rect.unit (s := S2x14) ![1, 0] S1x1.size Facts₀.inb_S2x14_S1x1_1_0)).squeeze S_ Facts₀.squeezes_S1x1_S_).sem = dsem 42 := rfl
@[sl_canon] theorem sem_recv_1_1 : ((cc0_scratch3.slice (Rect.unit (s := S2x14) ![1, 1] S1x1.size Facts₀.inb_S2x14_S1x1_1_1)).squeeze S_ Facts₀.squeezes_S1x1_S_).sem = dsem 43 := rfl
@[sl_canon] theorem sem_recv_1_2 : ((cc0_scratch3.slice (Rect.unit (s := S2x14) ![1, 2] S1x1.size Facts₀.inb_S2x14_S1x1_1_2)).squeeze S_ Facts₀.squeezes_S1x1_S_).sem = dsem 44 := rfl
@[sl_canon] theorem sem_recv_1_3 : ((cc0_scratch3.slice (Rect.unit (s := S2x14) ![1, 3] S1x1.size Facts₀.inb_S2x14_S1x1_1_3)).squeeze S_ Facts₀.squeezes_S1x1_S_).sem = dsem 45 := rfl
@[sl_canon] theorem sem_recv_1_4 : ((cc0_scratch3.slice (Rect.unit (s := S2x14) ![1, 4] S1x1.size Facts₀.inb_S2x14_S1x1_1_4)).squeeze S_ Facts₀.squeezes_S1x1_S_).sem = dsem 46 := rfl
@[sl_canon] theorem sem_recv_1_5 : ((cc0_scratch3.slice (Rect.unit (s := S2x14) ![1, 5] S1x1.size Facts₀.inb_S2x14_S1x1_1_5)).squeeze S_ Facts₀.squeezes_S1x1_S_).sem = dsem 47 := rfl
@[sl_canon] theorem sem_recv_1_6 : ((cc0_scratch3.slice (Rect.unit (s := S2x14) ![1, 6] S1x1.size Facts₀.inb_S2x14_S1x1_1_6)).squeeze S_ Facts₀.squeezes_S1x1_S_).sem = dsem 48 := rfl
@[sl_canon] theorem sem_recv_1_7 : ((cc0_scratch3.slice (Rect.unit (s := S2x14) ![1, 7] S1x1.size Facts₀.inb_S2x14_S1x1_1_7)).squeeze S_ Facts₀.squeezes_S1x1_S_).sem = dsem 49 := rfl
@[sl_canon] theorem sem_recv_1_8 : ((cc0_scratch3.slice (Rect.unit (s := S2x14) ![1, 8] S1x1.size Facts₀.inb_S2x14_S1x1_1_8)).squeeze S_ Facts₀.squeezes_S1x1_S_).sem = dsem 50 := rfl
@[sl_canon] theorem sem_recv_1_9 : ((cc0_scratch3.slice (Rect.unit (s := S2x14) ![1, 9] S1x1.size Facts₀.inb_S2x14_S1x1_1_9)).squeeze S_ Facts₀.squeezes_S1x1_S_).sem = dsem 51 := rfl
@[sl_canon] theorem sem_recv_1_10 : ((cc0_scratch3.slice (Rect.unit (s := S2x14) ![1, 10] S1x1.size Facts₀.inb_S2x14_S1x1_1_10)).squeeze S_ Facts₀.squeezes_S1x1_S_).sem = dsem 52 := rfl
@[sl_canon] theorem sem_recv_1_11 : ((cc0_scratch3.slice (Rect.unit (s := S2x14) ![1, 11] S1x1.size Facts₀.inb_S2x14_S1x1_1_11)).squeeze S_ Facts₀.squeezes_S1x1_S_).sem = dsem 53 := rfl
@[sl_canon] theorem sem_recv_1_12 : ((cc0_scratch3.slice (Rect.unit (s := S2x14) ![1, 12] S1x1.size Facts₀.inb_S2x14_S1x1_1_12)).squeeze S_ Facts₀.squeezes_S1x1_S_).sem = dsem 54 := rfl
@[sl_canon] theorem sem_recv_1_13 : ((cc0_scratch3.slice (Rect.unit (s := S2x14) ![1, 13] S1x1.size Facts₀.inb_S2x14_S1x1_1_13)).squeeze S_ Facts₀.squeezes_S1x1_S_).sem = dsem 55 := rfl

@[sl_canon] theorem sem_zsend_0_0 : ((cc0_scratch4.slice (Rect.unit (s := S2x8) ![0, 0] S1x1.size Facts₀.inb_S2x8_S1x1_0_0)).squeeze S_ Facts₀.squeezes_S1x1_S_).sem = dsem 56 := rfl
@[sl_canon] theorem sem_zsend_0_1 : ((cc0_scratch4.slice (Rect.unit (s := S2x8) ![0, 1] S1x1.size Facts₀.inb_S2x8_S1x1_0_1)).squeeze S_ Facts₀.squeezes_S1x1_S_).sem = dsem 57 := rfl
@[sl_canon] theorem sem_zsend_0_2 : ((cc0_scratch4.slice (Rect.unit (s := S2x8) ![0, 2] S1x1.size Facts₀.inb_S2x8_S1x1_0_2)).squeeze S_ Facts₀.squeezes_S1x1_S_).sem = dsem 58 := rfl
@[sl_canon] theorem sem_zsend_0_3 : ((cc0_scratch4.slice (Rect.unit (s := S2x8) ![0, 3] S1x1.size Facts₀.inb_S2x8_S1x1_0_3)).squeeze S_ Facts₀.squeezes_S1x1_S_).sem = dsem 59 := rfl
@[sl_canon] theorem sem_zsend_0_4 : ((cc0_scratch4.slice (Rect.unit (s := S2x8) ![0, 4] S1x1.size Facts₀.inb_S2x8_S1x1_0_4)).squeeze S_ Facts₀.squeezes_S1x1_S_).sem = dsem 60 := rfl
@[sl_canon] theorem sem_zsend_0_5 : ((cc0_scratch4.slice (Rect.unit (s := S2x8) ![0, 5] S1x1.size Facts₀.inb_S2x8_S1x1_0_5)).squeeze S_ Facts₀.squeezes_S1x1_S_).sem = dsem 61 := rfl
@[sl_canon] theorem sem_zsend_0_6 : ((cc0_scratch4.slice (Rect.unit (s := S2x8) ![0, 6] S1x1.size Facts₀.inb_S2x8_S1x1_0_6)).squeeze S_ Facts₀.squeezes_S1x1_S_).sem = dsem 62 := rfl
@[sl_canon] theorem sem_zsend_0_7 : ((cc0_scratch4.slice (Rect.unit (s := S2x8) ![0, 7] S1x1.size Facts₀.inb_S2x8_S1x1_0_7)).squeeze S_ Facts₀.squeezes_S1x1_S_).sem = dsem 63 := rfl
@[sl_canon] theorem sem_zsend_1_0 : ((cc0_scratch4.slice (Rect.unit (s := S2x8) ![1, 0] S1x1.size Facts₀.inb_S2x8_S1x1_1_0)).squeeze S_ Facts₀.squeezes_S1x1_S_).sem = dsem 64 := rfl
@[sl_canon] theorem sem_zsend_1_1 : ((cc0_scratch4.slice (Rect.unit (s := S2x8) ![1, 1] S1x1.size Facts₀.inb_S2x8_S1x1_1_1)).squeeze S_ Facts₀.squeezes_S1x1_S_).sem = dsem 65 := rfl
@[sl_canon] theorem sem_zsend_1_2 : ((cc0_scratch4.slice (Rect.unit (s := S2x8) ![1, 2] S1x1.size Facts₀.inb_S2x8_S1x1_1_2)).squeeze S_ Facts₀.squeezes_S1x1_S_).sem = dsem 66 := rfl
@[sl_canon] theorem sem_zsend_1_3 : ((cc0_scratch4.slice (Rect.unit (s := S2x8) ![1, 3] S1x1.size Facts₀.inb_S2x8_S1x1_1_3)).squeeze S_ Facts₀.squeezes_S1x1_S_).sem = dsem 67 := rfl
@[sl_canon] theorem sem_zsend_1_4 : ((cc0_scratch4.slice (Rect.unit (s := S2x8) ![1, 4] S1x1.size Facts₀.inb_S2x8_S1x1_1_4)).squeeze S_ Facts₀.squeezes_S1x1_S_).sem = dsem 68 := rfl
@[sl_canon] theorem sem_zsend_1_5 : ((cc0_scratch4.slice (Rect.unit (s := S2x8) ![1, 5] S1x1.size Facts₀.inb_S2x8_S1x1_1_5)).squeeze S_ Facts₀.squeezes_S1x1_S_).sem = dsem 69 := rfl
@[sl_canon] theorem sem_zsend_1_6 : ((cc0_scratch4.slice (Rect.unit (s := S2x8) ![1, 6] S1x1.size Facts₀.inb_S2x8_S1x1_1_6)).squeeze S_ Facts₀.squeezes_S1x1_S_).sem = dsem 70 := rfl
@[sl_canon] theorem sem_zsend_1_7 : ((cc0_scratch4.slice (Rect.unit (s := S2x8) ![1, 7] S1x1.size Facts₀.inb_S2x8_S1x1_1_7)).squeeze S_ Facts₀.squeezes_S1x1_S_).sem = dsem 71 := rfl

@[sl_canon] theorem sem_zrecv_0_0 : ((cc0_scratch5.slice (Rect.unit (s := S2x8) ![0, 0] S1x1.size Facts₀.inb_S2x8_S1x1_0_0)).squeeze S_ Facts₀.squeezes_S1x1_S_).sem = dsem 72 := rfl
@[sl_canon] theorem sem_zrecv_0_1 : ((cc0_scratch5.slice (Rect.unit (s := S2x8) ![0, 1] S1x1.size Facts₀.inb_S2x8_S1x1_0_1)).squeeze S_ Facts₀.squeezes_S1x1_S_).sem = dsem 73 := rfl
@[sl_canon] theorem sem_zrecv_0_2 : ((cc0_scratch5.slice (Rect.unit (s := S2x8) ![0, 2] S1x1.size Facts₀.inb_S2x8_S1x1_0_2)).squeeze S_ Facts₀.squeezes_S1x1_S_).sem = dsem 74 := rfl
@[sl_canon] theorem sem_zrecv_0_3 : ((cc0_scratch5.slice (Rect.unit (s := S2x8) ![0, 3] S1x1.size Facts₀.inb_S2x8_S1x1_0_3)).squeeze S_ Facts₀.squeezes_S1x1_S_).sem = dsem 75 := rfl
@[sl_canon] theorem sem_zrecv_0_4 : ((cc0_scratch5.slice (Rect.unit (s := S2x8) ![0, 4] S1x1.size Facts₀.inb_S2x8_S1x1_0_4)).squeeze S_ Facts₀.squeezes_S1x1_S_).sem = dsem 76 := rfl
@[sl_canon] theorem sem_zrecv_0_5 : ((cc0_scratch5.slice (Rect.unit (s := S2x8) ![0, 5] S1x1.size Facts₀.inb_S2x8_S1x1_0_5)).squeeze S_ Facts₀.squeezes_S1x1_S_).sem = dsem 77 := rfl
@[sl_canon] theorem sem_zrecv_0_6 : ((cc0_scratch5.slice (Rect.unit (s := S2x8) ![0, 6] S1x1.size Facts₀.inb_S2x8_S1x1_0_6)).squeeze S_ Facts₀.squeezes_S1x1_S_).sem = dsem 78 := rfl
@[sl_canon] theorem sem_zrecv_0_7 : ((cc0_scratch5.slice (Rect.unit (s := S2x8) ![0, 7] S1x1.size Facts₀.inb_S2x8_S1x1_0_7)).squeeze S_ Facts₀.squeezes_S1x1_S_).sem = dsem 79 := rfl
@[sl_canon] theorem sem_zrecv_1_0 : ((cc0_scratch5.slice (Rect.unit (s := S2x8) ![1, 0] S1x1.size Facts₀.inb_S2x8_S1x1_1_0)).squeeze S_ Facts₀.squeezes_S1x1_S_).sem = dsem 80 := rfl
@[sl_canon] theorem sem_zrecv_1_1 : ((cc0_scratch5.slice (Rect.unit (s := S2x8) ![1, 1] S1x1.size Facts₀.inb_S2x8_S1x1_1_1)).squeeze S_ Facts₀.squeezes_S1x1_S_).sem = dsem 81 := rfl
@[sl_canon] theorem sem_zrecv_1_2 : ((cc0_scratch5.slice (Rect.unit (s := S2x8) ![1, 2] S1x1.size Facts₀.inb_S2x8_S1x1_1_2)).squeeze S_ Facts₀.squeezes_S1x1_S_).sem = dsem 82 := rfl
@[sl_canon] theorem sem_zrecv_1_3 : ((cc0_scratch5.slice (Rect.unit (s := S2x8) ![1, 3] S1x1.size Facts₀.inb_S2x8_S1x1_1_3)).squeeze S_ Facts₀.squeezes_S1x1_S_).sem = dsem 83 := rfl
@[sl_canon] theorem sem_zrecv_1_4 : ((cc0_scratch5.slice (Rect.unit (s := S2x8) ![1, 4] S1x1.size Facts₀.inb_S2x8_S1x1_1_4)).squeeze S_ Facts₀.squeezes_S1x1_S_).sem = dsem 84 := rfl
@[sl_canon] theorem sem_zrecv_1_5 : ((cc0_scratch5.slice (Rect.unit (s := S2x8) ![1, 5] S1x1.size Facts₀.inb_S2x8_S1x1_1_5)).squeeze S_ Facts₀.squeezes_S1x1_S_).sem = dsem 85 := rfl
@[sl_canon] theorem sem_zrecv_1_6 : ((cc0_scratch5.slice (Rect.unit (s := S2x8) ![1, 6] S1x1.size Facts₀.inb_S2x8_S1x1_1_6)).squeeze S_ Facts₀.squeezes_S1x1_S_).sem = dsem 86 := rfl
@[sl_canon] theorem sem_zrecv_1_7 : ((cc0_scratch5.slice (Rect.unit (s := S2x8) ![1, 7] S1x1.size Facts₀.inb_S2x8_S1x1_1_7)).squeeze S_ Facts₀.squeezes_S1x1_S_).sem = dsem 87 := rfl

@[sl_canon] theorem sem_local_0 : ((cc0_scratch6.slice (Rect.unit (s := S2) ![0] S1.size Facts₀.inb_S2_S1_0)).squeeze S_ Facts₀.squeezes_S1_S_).sem = dsem 88 := rfl
@[sl_canon] theorem sem_local_1 : ((cc0_scratch6.slice (Rect.unit (s := S2) ![1] S1.size Facts₀.inb_S2_S1_1)).squeeze S_ Facts₀.squeezes_S1_S_).sem = dsem 89 := rfl

/-- info: 'Cert.Kernel.Cells.sem_local_1' depends on axioms: [propext, Classical.choice, Quot.sound] -/
#guard_msgs in #print axioms sem_local_1

end Cert.Kernel.Cells
-- ==== Proof.Bits.Canon.lean ====
/-
  Two books of names for the proof of the ring program. First, a DMA semaphore is told from the barrier semaphore,
  and two DMA semaphores are the same exactly when their indices are (the table that turns each semaphore the
  program spells into its index is the imported module's). Second, the arithmetic of the first row of a chunk:
  where it lies, how it moves along the ring and to the pair partner, and how the half, the direction and the ring
  position are read back from it.
-/
import proofs.«900727_g7700000000000728_dist_ar_v7x_xyz2x4x4_y_m16384_n1024_f32_1_alg».proof.Proof.Bits.CanonSems
import proofs.«900727_g7700000000000728_dist_ar_v7x_xyz2x4x4_y_m16384_n1024_f32_1_alg».proof.Proof.Bits.RingFacts
import Mathlib.Tactic.FinCases

namespace Cert.Kernel.Cells

open Cert.Kernel Cert.Kernel.Ring Idealize.ShloMosaic

/-! ## Semaphores -/

/-- A DMA semaphore is not the barrier semaphore: the two are of different kinds. -/
theorem dsem_ne_bar (i : ℕ) (hi : i < 90) : (SemLoc.dma (dsem i hi) : SemLoc sig) ≠ .reg barS := by
  intro h; cases h

/-- DMA semaphores are told apart by their indices. -/
theorem dsem_inj (i j : ℕ) (hi : i < 90) (hj : j < 90) : dsem i hi = dsem j hj ↔ i = j := by
  constructor
  · intro h; exact congrArg Fin.val h
  · intro h; subst h; rfl

/-! ## Rows

  The first row of a chunk, `rowAt c d j = zpD c * 8192 + d * 4096 + ((posD c + j) % 8) * 512`, read as a number in
  the mixed radix (2, 2, 8, 512): the half, the direction, the ring position, and no remainder. A chunk of 512
  rows starting there lies inside the 16384 rows. Moving to the ring successor or predecessor shifts the position
  by one; moving to the pair partner exchanges the halves and keeps the position. -/

theorem rowAt_inb (c : Dev nD) (d j : ℕ) (hd : d < 2) :
    ∀ a, (![rowAt c d j, 0] : Fin 2 → Nat) a + S512x1024.size a ≤ S16384x1024.size a := by
  have hz := zp_lt c
  have hp : (posD c + j) % 8 < 8 := Nat.mod_lt _ (by decide)
  intro a
  fin_cases a
  · show rowAt c d j + 512 ≤ 16384
    unfold rowAt; omega
  · show 0 + 1024 ≤ 1024
    omega

theorem rowAt_succ (c : Dev nD) (d j : ℕ) : rowAt (succD c) d j = rowAt c d (j + 1) := by
  unfold rowAt; rw [zp_succ, pos_succ]; omega

theorem rowAt_pred (c : Dev nD) (d j : ℕ) : rowAt (predD c) d j = rowAt c d (j + 7) := by
  unfold rowAt; rw [zp_pred, pos_pred]; omega

theorem rowAt_mod (c : Dev nD) (d j : ℕ) : rowAt c d (j + 8) = rowAt c d j := by
  unfold rowAt; omega

theorem rowAt_mod' (c : Dev nD) (d j : ℕ) : rowAt c d (j % 8) = rowAt c d j := by
  unfold rowAt; omega

theorem rowAt_part (c : Dev nD) (d j : ℕ) :
    rowAt (partD c) d j + 8192 * zpD c = rowAt c d j + 8192 * (1 - zpD c) := by
  have hz := zp_lt c
  unfold rowAt; rw [zp_part, pos_part]; omega

theorem rowAt_part_of_zp0 (c : Dev nD) (d j : ℕ) (h : zpD c = 0) : rowAt (partD c) d j = rowAt c d j + 8192 := by
  have := rowAt_part c d j; rw [h] at this; omega

theorem rowAt_part_of_zp1 (c : Dev nD) (d j : ℕ) (h : zpD c = 1) : rowAt (partD c) d j + 8192 = rowAt c d j := by
  have := rowAt_part c d j; rw [h] at this; omega

theorem rowAt_div_8192 (c : Dev nD) (d j : ℕ) (hd : d < 2) : rowAt c d j / 8192 = zpD c := by
  have hp : (posD c + j) % 8 < 8 := Nat.mod_lt _ (by decide)
  unfold rowAt; omega

theorem rowAt_mod_8192_div_4096 (c : Dev nD) (d j : ℕ) (hd : d < 2) : (rowAt c d j % 8192) / 4096 = d := by
  have hp : (posD c + j) % 8 < 8 := Nat.mod_lt _ (by decide)
  unfold rowAt; omega

theorem rowAt_mod_4096_div_512 (c : Dev nD) (d j : ℕ) : (rowAt c d j % 4096) / 512 = (posD c + j) % 8 := by
  have hp : (posD c + j) % 8 < 8 := Nat.mod_lt _ (by decide)
  unfold rowAt; omega

theorem rowAt_mod_512 (c : Dev nD) (d j : ℕ) : rowAt c d j % 512 = 0 := by
  unfold rowAt; omega

theorem rowAt_lt (c : Dev nD) (d j : ℕ) (hd : d < 2) : rowAt c d j + 512 ≤ 16384 := by
  have hz := zp_lt c
  have hp : (posD c + j) % 8 < 8 := Nat.mod_lt _ (by decide)
  unfold rowAt; omega

/-- info: 'Cert.Kernel.Cells.rowAt_part' depends on axioms: [propext, Quot.sound] -/
#guard_msgs in #print axioms rowAt_part

end Cert.Kernel.Cells
-- ==== Proof.Bits.Tables.lean ====
/-
  The schedule's tables, entry by entry: which duties a cell has in which round, how many units each duty is, how
  many units a round expects, and what each duty hands the cell's owner. A barrier cell has its three duties of one
  unit in round 0 and none later; a DMA cell other than the two of the local copies its one duty of a chunk's credit
  in round 0 and none later; the two cells of the local copies one such duty in each of rounds 0 to 7. The payloads
  of a barrier cell are stated twice: as its owner reads them (from the predecessor, the successor, the partner) and
  as the payer reads them (to its successor, its predecessor, its partner); the two agree because the three maps are
  permutations. What a wait for a whole round returns is the separating conjunction of the round's payloads.
-/
import proofs.«900727_g7700000000000728_dist_ar_v7x_xyz2x4x4_y_m16384_n1024_f32_1_alg».proof.Proof.Bits.TablesPay
import proofs.«900727_g7700000000000728_dist_ar_v7x_xyz2x4x4_y_m16384_n1024_f32_1_alg».proof.Proof.Bits.Canon
import Mathlib.Algebra.BigOperators.Group.Finset.Basic
import Mathlib.Data.Fintype.Card

set_option maxRecDepth 16384

noncomputable section

namespace Cert.Kernel.Sched

open Cert.Kernel Cert.Kernel.Gen Cert.Kernel.Ring Cert.Kernel.Cells Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Duties -/

theorem duties_bar (c : Dev nD) : (sched m).duties (barCell c) 0 = Finset.univ := by
  dsimp only [sched]; rw [if_pos rfl, if_pos rfl]

theorem duties_dma (c : Dev nD) (i : ℕ) (hi : i < 88) : (sched m).duties (dcell c i (by omega)) 0 = {0} := by
  dsimp only [sched]; rw [if_pos rfl, if_pos hi, if_pos rfl]

theorem duties_local (c : Dev nD) (d : ℕ) (hd : d < 2) (r : ℕ) (hr : r < 8) :
    (sched m).duties (dcell c (88 + d) (by omega)) r = {0} := by
  dsimp only [sched]; rw [if_pos rfl, if_neg (by omega), if_pos hr]

theorem duties_later_bar (c : Dev nD) : ∀ r, 1 ≤ r → (sched m).duties (barCell c) r = ∅ := fun r hr => by
  dsimp only [sched]; rw [if_pos rfl, if_neg (by omega)]

theorem duties_later_dma (c : Dev nD) (i : ℕ) (hi : i < 88) :
    ∀ r, 1 ≤ r → (sched m).duties (dcell c i (by omega)) r = ∅ := fun r hr => by
  dsimp only [sched]; rw [if_pos rfl, if_pos hi, if_neg (by omega)]

theorem duties_later_local (c : Dev nD) (d : ℕ) (hd : d < 2) :
    ∀ r, 8 ≤ r → (sched m).duties (dcell c (88 + d) (by omega)) r = ∅ := fun r hr => by
  dsimp only [sched]; rw [if_pos rfl, if_neg (by omega), if_neg (by omega)]

/-! ## Amounts and what a round expects -/

theorem amount_bar (c : Dev nD) (r : ℕ) (d : Fin 3) : (sched m).amount (barCell c) r d = 1 := rfl

theorem amount_dma (c : Dev nD) (i : ℕ) (hi : i < 90) (r : ℕ) (d : Fin 3) : (sched m).amount (dcell c i hi) r d = N := rfl

theorem expect_bar (c : Dev nD) : (sched m).expect (barCell c) 0 = 3 := by
  unfold Schedule.expect Schedule.amountOf
  rw [duties_bar, Finset.sum_congr rfl fun d _ => amount_bar m c 0 d, Finset.sum_const, Finset.card_univ, Fintype.card_fin,
    smul_eq_mul]

theorem expect_dma (c : Dev nD) (i : ℕ) (hi : i < 88) : (sched m).expect (dcell c i (by omega)) 0 = N := by
  unfold Schedule.expect Schedule.amountOf
  rw [duties_dma m c i hi, Finset.sum_singleton, amount_dma]

theorem expect_local (c : Dev nD) (d : ℕ) (hd : d < 2) (r : ℕ) (hr : r < 8) :
    (sched m).expect (dcell c (88 + d) (by omega)) r = N := by
  unfold Schedule.expect Schedule.amountOf
  rw [duties_local m c d hd r hr, Finset.sum_singleton, amount_dma]

/-! ## The payloads of a barrier cell -/

theorem payload_bar0 (c : Dev nD) : (sched m).payload (barCell c) 0 0 = give1 (F := F) (predD c) := rfl
theorem payload_bar1 (c : Dev nD) : (sched m).payload (barCell c) 0 1 = give0 (F := F) (succD c) := rfl
theorem payload_bar2 (c : Dev nD) : (sched m).payload (barCell c) 0 2 = giveZ (F := F) (partD c) c := rfl

/-- As the payer reads them: what c gives the barrier cell of its successor, of its predecessor, of its partner. -/
theorem payload_bar0_succ (c : Dev nD) : (sched m).payload (barCell (succD c)) 0 0 = give1 (F := F) c := by
  rw [payload_bar0, pred_succ]
theorem payload_bar1_pred (c : Dev nD) : (sched m).payload (barCell (predD c)) 0 1 = give0 (F := F) c := by
  rw [payload_bar1, succ_pred]
theorem payload_bar2_part (c : Dev nD) : (sched m).payload (barCell (partD c)) 0 2 = giveZ (F := F) c (partD c) := by
  rw [payload_bar2, part_part]

/-! ## What a wait for a whole round returns -/

theorem rest_bar (c : Dev nD) :
    bigSep ((sched m).duties (barCell c) 0 \ ∅) (fun d => (sched m).payload (barCell c) 0 d)
      = iprop(give1 (F := F) (predD c) ∗ give0 (F := F) (succD c) ∗ giveZ (F := F) (partD c) c) := by
  rw [Finset.sdiff_empty, duties_bar, bigSep_univ_eq_bigSepL [0, 1, 2] (by decide) (by decide), bigSepL_cons_cons,
    bigSepL_cons_cons, bigSepL_singleton, payload_bar0, payload_bar1, payload_bar2]
  rfl

/-- The same over all three duties, as a wait for the whole round returns it. -/
theorem rest_bar' (c : Dev nD) :
    bigSep Finset.univ (fun d : Fin 3 => (sched m).payload (barCell c) 0 d)
      = iprop(give1 (F := F) (predD c) ∗ give0 (F := F) (succD c) ∗ giveZ (F := F) (partD c) c) := by
  rw [bigSep_univ_eq_bigSepL [0, 1, 2] (by decide) (by decide), bigSepL_cons_cons, bigSepL_cons_cons, bigSepL_singleton,
    payload_bar0, payload_bar1, payload_bar2]
  rfl

theorem rest_dma (c : Dev nD) (i : ℕ) (hi : i < 88) :
    bigSep ((sched m).duties (dcell c i (by omega)) 0 \ ∅) (fun d => (sched m).payload (dcell c i (by omega)) 0 d)
      = dmaPay m c i 0 := by
  rw [Finset.sdiff_empty, duties_dma m c i hi, bigSep_singleton]; rfl

theorem rest_local (c : Dev nD) (d : ℕ) (hd : d < 2) (r : ℕ) (hr : r < 8) :
    bigSep ((sched m).duties (dcell c (88 + d) (by omega)) r \ ∅)
        (fun e => (sched m).payload (dcell c (88 + d) (by omega)) r e)
      = dmaPay m c (88 + d) r := by
  rw [Finset.sdiff_empty, duties_local m c d hd r hr, bigSep_singleton]; rfl

/-! ## The destination's offset as the sender computes it

  A device that sends in direction 0 writes into its successor's array at the row the successor, counting from its
  own position, reads from; in direction 1 the same with the predecessor. -/

theorem off4_to_succ_0 (c : Dev nD) : k0_off4 c 0#32 1#32 0#32 = k0_off2 (succD c) 0#32 0#32 := by
  have h := off4_pred_0 (succD c); rwa [pred_succ] at h
theorem off4_to_succ_1 (c : Dev nD) : k0_off4 c 0#32 1#32 1#32 = k0_off2 (succD c) 0#32 1#32 := by
  have h := off4_pred_1 (succD c); rwa [pred_succ] at h
theorem off4_to_succ_2 (c : Dev nD) : k0_off4 c 0#32 1#32 2#32 = k0_off2 (succD c) 0#32 2#32 := by
  have h := off4_pred_2 (succD c); rwa [pred_succ] at h
theorem off4_to_succ_3 (c : Dev nD) : k0_off4 c 0#32 1#32 3#32 = k0_off2 (succD c) 0#32 3#32 := by
  have h := off4_pred_3 (succD c); rwa [pred_succ] at h
theorem off4_to_succ_4 (c : Dev nD) : k0_off4 c 0#32 1#32 4#32 = k0_off2 (succD c) 0#32 4#32 := by
  have h := off4_pred_4 (succD c); rwa [pred_succ] at h
theorem off4_to_succ_5 (c : Dev nD) : k0_off4 c 0#32 1#32 5#32 = k0_off2 (succD c) 0#32 5#32 := by
  have h := off4_pred_5 (succD c); rwa [pred_succ] at h
theorem off4_to_succ_6 (c : Dev nD) : k0_off4 c 0#32 1#32 6#32 = k0_off2 (succD c) 0#32 6#32 := by
  have h := off4_pred_6 (succD c); rwa [pred_succ] at h
theorem off4_to_pred_0 (c : Dev nD) : k0_off4 c 4096#32 4294967295#32 0#32 = k0_off2 (predD c) 4096#32 0#32 := by
  have h := off4_succ_0 (predD c); rwa [succ_pred] at h
theorem off4_to_pred_1 (c : Dev nD) : k0_off4 c 4096#32 4294967295#32 4294967295#32 = k0_off2 (predD c) 4096#32 4294967295#32 := by
  have h := off4_succ_1 (predD c); rwa [succ_pred] at h
theorem off4_to_pred_2 (c : Dev nD) : k0_off4 c 4096#32 4294967295#32 4294967294#32 = k0_off2 (predD c) 4096#32 4294967294#32 := by
  have h := off4_succ_2 (predD c); rwa [succ_pred] at h
theorem off4_to_pred_3 (c : Dev nD) : k0_off4 c 4096#32 4294967295#32 4294967293#32 = k0_off2 (predD c) 4096#32 4294967293#32 := by
  have h := off4_succ_3 (predD c); rwa [succ_pred] at h
theorem off4_to_pred_4 (c : Dev nD) : k0_off4 c 4096#32 4294967295#32 4294967292#32 = k0_off2 (predD c) 4096#32 4294967292#32 := by
  have h := off4_succ_4 (predD c); rwa [succ_pred] at h
theorem off4_to_pred_5 (c : Dev nD) : k0_off4 c 4096#32 4294967295#32 4294967291#32 = k0_off2 (predD c) 4096#32 4294967291#32 := by
  have h := off4_succ_5 (predD c); rwa [succ_pred] at h
theorem off4_to_pred_6 (c : Dev nD) : k0_off4 c 4096#32 4294967295#32 4294967290#32 = k0_off2 (predD c) 4096#32 4294967290#32 := by
  have h := off4_succ_6 (predD c); rwa [succ_pred] at h

/-! ## Every payload can be stored in a cell

  What a device gives a neighbour is a separating conjunction of some thirty regions and facts; finding that each
  can be stored takes a search through all of them, for which the default budgets of size and time are too small. -/

set_option synthInstance.maxSize 4096 in
set_option synthInstance.maxHeartbeats 400000 in
instance give1_storable (g : Dev nD) : BI.Storable (upEmb : UEmb _ 𝕄) (give1 (F := F) g) := by
  unfold give1; infer_instance
set_option synthInstance.maxSize 4096 in
set_option synthInstance.maxHeartbeats 400000 in
instance give0_storable (g : Dev nD) : BI.Storable (upEmb : UEmb _ 𝕄) (give0 (F := F) g) := by
  unfold give0; infer_instance
set_option synthInstance.maxSize 4096 in
set_option synthInstance.maxHeartbeats 400000 in
instance giveZ_storable (g o : Dev nD) : BI.Storable (upEmb : UEmb _ 𝕄) (giveZ (F := F) g o) := by
  unfold giveZ; infer_instance

instance barPay_storable (c : Dev nD) (d : Fin 3) : BI.Storable (upEmb : UEmb _ 𝕄) (barPay (F := F) c d) := by
  unfold barPay
  split
  · unfold barPay0; infer_instance
  · unfold barPay1; infer_instance
  · unfold barPay2; infer_instance

instance dmaPay_storable (c : Dev nD) (i r : ℕ) : BI.Storable (upEmb : UEmb _ 𝕄) (dmaPay m c i r) := by
  unfold dmaPay; split <;> infer_instance

instance payload_storable (g : GSem nD τ sig) (r : ℕ) (d : Fin 3) :
    BI.Storable (upEmb : UEmb _ 𝕄) ((sched m).payload g r d) := by
  show BI.Storable upEmb (match g.2 with | .reg _ => barPay g.1.1 d | .dma i => dmaPay m g.1.1 i.val r)
  split <;> infer_instance

/-- info: 'Cert.Kernel.Sched.payload_storable' depends on axioms: [propext, Classical.choice, Quot.sound] -/
#guard_msgs in #print axioms payload_storable

end Cert.Kernel.Sched

end
-- ==== Proof.Bits.Launch.lean ====
/-
  The launch of the collective. From the memory in which every semaphore counter is zero, the 32 devices' ghost
  state is minted at once: each cell of each device (its barrier semaphore and its ninety DMA semaphores) gets its
  invariant at the first round, each device its position at the start of each of its own cells, and the duty tokens
  of a device's cells are dealt to the devices that pay them: its ring predecessor, its ring successor and its pair
  partner for the barrier and the arrival cells, itself for the departure cells and the cells of the local copies.
  What the three peers owe into a device's cells at launch comes to it as credit. With each device's body shown
  separately to take this start state to the result, every weakly fair run of the program ends with each device's
  result array at the reduced contents and its argument array unchanged.
-/
import proofs.«900727_g7700000000000728_dist_ar_v7x_xyz2x4x4_y_m16384_n1024_f32_1_alg».proof.Proof.Bits.State
import proofs.«900727_g7700000000000728_dist_ar_v7x_xyz2x4x4_y_m16384_n1024_f32_1_alg».proof.Proof.Bits.RingFacts
import proofs.«900727_g7700000000000728_dist_ar_v7x_xyz2x4x4_y_m16384_n1024_f32_1_alg».proof.Proof.Bits.Tables
import proofs.«900727_g7700000000000728_dist_ar_v7x_xyz2x4x4_y_m16384_n1024_f32_1_alg».proof.Proof.Gen.Kernel.Frame
import Idealize.ShloMosaic.Lib.Pipeline.Launch
import Idealize.ShloMosaic.Lib.Pipeline.Kit
import Idealize.ShloMosaic.Lib.Tactic

set_option maxRecDepth 16384

noncomputable section

namespace Cert.Kernel.Launch

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from and ends with -/

/-- Device c's four buffers, each whole: the argument array at what it held at launch, the result array, the
    exchange buffer and the staging buffer at the given contents. -/
def bufs0 (c : Dev nD) (fo : Buf (Elt F) ((c : Thread nD τ).loc main_v1)) (fc : Buf (Elt F) ((c : Thread nD τ).loc cc0_scratch0))
    (fs : Buf (Elt F) ((c : Thread nD τ).loc cc0_scratch1)) : sProp 𝕄 :=
  iprop((((c : Thread nD τ).loc main_arg0) ↦{fullShare} X m c) ∗ (((c : Thread nD τ).loc main_v1) ↦{fullShare} fo)
    ∗ (((c : Thread nD τ).loc cc0_scratch0) ↦{fullShare} fc) ∗ (((c : Thread nD τ).loc cc0_scratch1) ↦{fullShare} fs))

/-- What the launch hands device c: the ghost state at some names, the credit of what its peers pay into its cells,
    the level facts, its argument array at what it held and its result array at some contents. -/
def start (c : Dev nD) : sProp 𝕄 :=
  iprop((∃ K, State.ghost m K c) ∗ State.creds (F := F) c ∗ levAts State.L State.lv
    ∗ (((c : Thread nD τ).loc main_arg0) ↦{fullShare} X m c) ∗ (∃ fo, ((c : Thread nD τ).loc main_v1) ↦{fullShare} fo))

/-- Before the body: that, and the two scratch buffers at some contents. -/
def Φ₀ (c : Dev nD) : sProp 𝕄 :=
  iprop(start m c ∗ (∃ fc, ((c : Thread nD τ).loc cc0_scratch0) ↦{fullShare} fc) ∗ (∃ fs, ((c : Thread nD τ).loc cc0_scratch1) ↦{fullShare} fs))

/-- After the body: the argument array unchanged, the result array at the reduced contents, the scratch buffers at
    some contents, and the ninety DMA semaphores back at zero. -/
def Φ₁ (c : Dev nD) : sProp 𝕄 :=
  iprop((((c : Thread nD τ).loc main_arg0) ↦{fullShare} X m c) ∗ (((c : Thread nD τ).loc main_v1) ↦{fullShare} Res m c)
    ∗ (∃ fc, ((c : Thread nD τ).loc cc0_scratch0) ↦{fullShare} fc) ∗ (∃ fs, ((c : Thread nD τ).loc cc0_scratch1) ↦{fullShare} fs)
    ∗ bigSep Finset.univ (fun i : Fin 90 => semVal (dcell c i.val i.isLt) 0))

/-- The proof data of the one region: no staged window, one point, Φ₀ before it and Φ₁ after it; the device owes
    O₀ before the point and nothing after it. -/
def dats (m : (ℓ : Loc nD τ sig) → Buf (Elt F) ℓ) (ρ : Dev nD → PrngReg) (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => State.O₀ c
    | ⟨_ + 1, _⟩ => 0

/-! ## The cells and the tokens minted at launch -/

/-- The kernel's own scoped semaphores: the ninety DMA semaphores. -/
abbrev osem : Fin 90 → SemLoc sig := fun i => .dma i

theorem ownSemFacts : Pipeline.OwnSemFacts cfg0.spec osem := by decide

theorem L_of_ne (g : GSem nD τ sig) (h : g.1.2 ≠ .tc) : State.L g = ∅ := if_neg h

/-- The cell numbered k + 1 of a device is its DMA semaphore k. -/
theorem csem_succ (i : ℕ) (hi : i < 90) : State.csem ⟨i + 1, by omega⟩ = .dma (dsem i hi) := by
  show (if h : i + 1 = 0 then _ else _) = _
  rw [dif_neg (Nat.succ_ne_zero i)]
  rfl

theorem csem_inj {k k' : Fin 91} (h : State.csem k = State.csem k') : k = k' := by
  obtain ⟨k, hk⟩ := k
  obtain ⟨k', hk'⟩ := k'
  rcases k with _ | k <;> rcases k' with _ | k'
  · rfl
  · rw [csem_succ k' (by omega)] at h; cases h
  · rw [csem_succ k (by omega)] at h; cases h
  · rw [csem_succ k (by omega), csem_succ k' (by omega)] at h
    have := congrArg Fin.val (SemLoc.dma.inj h)
    exact Fin.ext (congrArg (· + 1) this)

theorem kcell_injective : Function.Injective (State.kcell : Dev nD × Fin 91 → GSem nD τ sig) := by
  rintro ⟨c, k⟩ ⟨c', k'⟩ h
  have h1 : c = c' := congrArg (fun g : GSem nD τ sig => g.1.1) h
  subst h1
  have h2 : State.csem k = State.csem k' := congrArg Prod.snd h
  rw [csem_inj h2]
def allCells : Finset (GSem nD τ sig) := Finset.univ.map ⟨State.kcell, kcell_injective⟩

/-- The duties of one device's cells at launch: the three of its barrier cell; the one of the first round of each of
    the 88 cells of the remote copies; the one of each of the eight rounds of the two cells of the local copies. -/
abbrev TokIx : Type := Fin 3 ⊕ Fin 14 ⊕ Fin 14 ⊕ Fin 16 ⊕ Fin 28 ⊕ Fin 16 ⊕ (Fin 2 × Fin 8)

/-- The token of a duty: the three barrier duties; the arrival cells 28 + k and 42 + k of the two ring directions
    and 72 + j of the pair; the departure cells i and 56 + i; round r of the local cell 88 + j. -/
abbrev tokOf (cj : Dev nD × TokIx) : GSem nD τ sig × ℕ × Fin 3 := match cj.2 with
  | .inl d => (barCell cj.1, 0, d)
  | .inr (.inl k) => (dcell cj.1 (28 + k.val) (by have := k.isLt; omega), 0, 0)
  | .inr (.inr (.inl k)) => (dcell cj.1 (42 + k.val) (by have := k.isLt; omega), 0, 0)
  | .inr (.inr (.inr (.inl j))) => (dcell cj.1 (72 + j.val) (by have := j.isLt; omega), 0, 0)
  | .inr (.inr (.inr (.inr (.inl i)))) => (dcell cj.1 i.val (by have := i.isLt; omega), 0, 0)
  | .inr (.inr (.inr (.inr (.inr (.inl i))))) => (dcell cj.1 (56 + i.val) (by have := i.isLt; omega), 0, 0)
  | .inr (.inr (.inr (.inr (.inr (.inr jr))))) => (dcell cj.1 (88 + jr.1.val) (by have := jr.1.isLt; omega), jr.2.val, 0)

theorem dma_idx {i j : ℕ} {hi : i < 90} {hj : j < 90} (h : (SemLoc.dma (dsem i hi) : SemLoc sig) = .dma (dsem j hj)) : i = j :=
  congrArg Fin.val (SemLoc.dma.inj h)

theorem tokOf_injective : Function.Injective (tokOf : Dev nD × TokIx → GSem nD τ sig × ℕ × Fin 3) := by
  rintro ⟨c, a⟩ ⟨c', b⟩ h
  have hc : c = c' := by
    have := congrArg (fun x : GSem nD τ sig × ℕ × Fin 3 => x.1.1.1) h
    rcases a with a | a | a | a | a | a | a <;> rcases b with b | b | b | b | b | b | b <;> exact this
  subst hc
  have h1 := congrArg (fun x : GSem nD τ sig × ℕ × Fin 3 => x.1.2) h
  have h2 := congrArg (fun x : GSem nD τ sig × ℕ × Fin 3 => x.2.1) h
  have h3 := congrArg (fun x : GSem nD τ sig × ℕ × Fin 3 => x.2.2) h
  rcases a with a | a | a | a | a | a | a <;> rcases b with b | b | b | b | b | b | b <;>
    first
    | (have e : a = b := h3; rw [e])
    | (exact absurd h1 (fun h' => by cases h'))
    | (have e := dma_idx h1; have ha := a.isLt; have hb := b.isLt
       first
       | (exfalso; omega)
       | (have e' : a = b := Fin.ext (by omega); rw [e']))
    | (have e := dma_idx h1; have ha := a.1.isLt; have hb := b.isLt; exfalso; omega)
    | (have e := dma_idx h1; have ha := a.isLt; have hb := b.1.isLt; exfalso; omega)
    | (have e := dma_idx h1; have e2 : a.2.val = b.2.val := h2
       have e' : a = b := Prod.ext (Fin.ext (by omega)) (Fin.ext e2); rw [e'])
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device c's own cells, as minted. -/
def mint (c : Dev nD) : sProp 𝕄 :=
  bigSep Finset.univ fun j : TokIx => dutyTok (ER (F := F)) (tokOf (c, j)).1 (tokOf (c, j)).2.1 (tokOf (c, j)).2.2

/-- What the launch element deals device c. -/
def G (c : Dev nD) : sProp 𝕄 :=
  iprop((bigSep Finset.univ fun k : Fin 91 => roundState (ER (F := F)) (sched m) (State.kcell (c, k)) 0)
    ∗ (bigSep Finset.univ fun k : Fin 91 => atPos (ER (F := F)) (State.kcell (c, k)) 0 ∅ 0)
    ∗ (bigSep Finset.univ fun k : Fin 91 => reached (ER (F := F)) (State.kcell (c, k)) 0) ∗ mint (F := F) c)

/-- What the global step makes of it. -/
def G' (c : Dev nD) : sProp 𝕄 := iprop(∃ K, State.ghost m K c)

/-! ## Funding -/

theorem fund_all : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 91 => Φ (State.kcell (c, k)) := by
    unfold allCells; rw [bigSep_map, bigSep_univ_prod]; rfl
  have hT : bigSep allToks (fun x => (dutyTok (ER (F := F)) x.1 x.2.1 x.2.2 : sProp 𝕄)) = bigSep Finset.univ fun c : Dev nD => mint (F := F) c := by
    unfold allToks; rw [bigSep_map, bigSep_univ_prod]; rfl
  iintro HX
  imod (Rounds.fund (ER (F := F)) (sched m) allCells allToks) $$ HX with ⟨Hst, Hr, Hat, Htok⟩
  imodintro
  ihave Hst' := (Entails.of_eq (hX fun g => roundState (ER (F := F)) (sched m) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The cells' invariants allocated -/

theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]
  rfl

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 91 => semVal (State.kcell (c, k)) 0 : sProp 𝕄) := by
  have e : (bigSep Finset.univ fun i : Fin 90 => (semVal (State.kcell (c, i.succ)) 0 : sProp 𝕄))
      = bigSep Finset.univ fun i : Fin 90 => semVal ((c : Thread nD τ), osem i) 0 :=
    bigSep_congr fun i _ => by
      show semVal ((c : Thread nD τ), State.csem ⟨i.val + 1, _⟩) 0 = _
      rw [csem_succ i.val i.isLt]
  rw [unscopedSems0_eq, bigSep_fin_succ, e]
  unfold Pipeline.ownSems0
  iintro ⟨HS, HB⟩
  isplitl [HB]; · iexact HB
  iexact HS

/-- Device c's share after its cells' invariants are allocated. -/
def Ga (c : Dev nD) : sProp 𝕄 :=
  iprop((bigSep Finset.univ fun k : Fin 91 => iprop(∃ κ : ℕ, cellInv (ER (F := F)) (sched m) κ (State.kcell (c, k))))
    ∗ (bigSep Finset.univ fun k : Fin 91 => atPos (ER (F := F)) (State.kcell (c, k)) 0 ∅ 0)
    ∗ (bigSep Finset.univ fun k : Fin 91 => reached (ER (F := F)) (State.kcell (c, k)) 0) ∗ mint (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Ga m c := by
  unfold G Ga
  iintro ⟨Hos, Hus, Hst, Hat, Hr, Htok⟩
  ihave Hv := (sems0_eq (F := F) c) $$ [Hos Hus]
  · isplitl [Hos] <;> iassumption
  imod (show iprop((bigSep Finset.univ fun k : Fin 91 => semVal (State.kcell (c, k)) 0) ∗ bigSep Finset.univ fun k : Fin 91 => roundState (ER (F := F)) (sched m) (State.kcell (c, k)) 0)
      ⊢ (|={Set.univ}=> bigSep Finset.univ fun k : Fin 91 => iprop(∃ κ : ℕ, cellInv (ER (F := F)) (sched m) κ (State.kcell (c, k))) : sProp 𝕄) from by
        rw [← bigSep_sep']
        exact (bigSep_mono fun k _ => (Rounds.body_intro (ER (F := F)) (sched m) (State.kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The regrouping -/

/-- The invariants of all cells at the names K, and that the first round of every cell is reached. -/
def records (K : Dev nD × Fin 91 → ℕ) : sProp 𝕄 :=
  iprop((bigSep Finset.univ fun ck : Dev nD × Fin 91 => cellInv (ER (F := F)) (sched m) (K ck) (State.kcell ck))
    ∗ bigSep Finset.univ fun ck : Dev nD × Fin 91 => reached (ER (F := F)) (State.kcell ck) 0)

instance records_persistent (K : Dev nD × Fin 91 → ℕ) : BI.Persistent (records m K) := by unfold records; infer_instance

theorem inv_at0 (K : Dev nD × Fin 91 → ℕ) (ck : Dev nD × Fin 91) :
    (bigSep Finset.univ fun ck : Dev nD × Fin 91 => (cellInv (ER (F := F)) (sched m) (K ck) (State.kcell ck) : sProp 𝕄)) ⊢ cellInv (ER (F := F)) (sched m) (K ck) (State.kcell ck) :=
  bigSep_elim (Finset.mem_univ ck)
omit [FloatOps F] in
theorem reached_at0 (ck : Dev nD × Fin 91) :
    (bigSep Finset.univ fun ck : Dev nD × Fin 91 => (reached (ER (F := F)) (State.kcell ck) 0 : sProp 𝕄)) ⊢ reached (ER (F := F)) (State.kcell ck) 0 :=
  bigSep_elim (Finset.mem_univ ck)

theorem inv_at (K : Dev nD × Fin 91 → ℕ) (d : Dev nD) (j : Fin 91) :
    records m K ⊢ cellInv (ER (F := F)) (sched m) (K (d, j)) (State.kcell (d, j)) := by
  unfold records
  iintro ⟨HI, -⟩
  iapply (inv_at0 m K (d, j))
  iexact HI

theorem reached_at (K : Dev nD × Fin 91 → ℕ) (d : Dev nD) (j : Fin 91) :
    records m K ⊢ reached (ER (F := F)) (State.kcell (d, j)) 0 := by
  unfold records
  iintro ⟨-, HR⟩
  iapply (reached_at0 (F := F) (d, j))
  iexact HR

theorem reached_d (K : Dev nD × Fin 91 → ℕ) (d : Dev nD) (i : ℕ) (hi : i < 90) :
    records m K ⊢ reached (ER (F := F)) (dcell d i hi) 0 := by
  have h := reached_at m K d ⟨i + 1, by omega⟩
  rw [show State.kcell (d, (⟨i + 1, by omega⟩ : Fin 91)) = dcell d i hi from by
    show ((d : Thread nD τ), State.csem ⟨i + 1, _⟩) = _
    rw [csem_succ i hi]] at h
  exact h

theorem pers_sep {R A B : sProp 𝕄} [BI.Persistent R] (h1 : R ⊢ A) (h2 : R ⊢ B) : R ⊢ iprop(A ∗ B) := by
  iintro #H
  isplitr
  · iapply h1; iexact H
  · iapply h2; iexact H

theorem invs_of (K : Dev nD × Fin 91 → ℕ) (c : Dev nD) : records m K ⊢ State.invs m K c := by
  unfold State.invs
  iterate 137 (refine pers_sep (inv_at m K _ _) ?_)
  exact inv_at m K _ _

theorem reach_of (K : Dev nD × Fin 91 → ℕ) (c : Dev nD) : records m K ⊢ State.reach (F := F) c := by
  unfold State.reach
  refine pers_sep (reached_at m K (succD c) 0) ?_
  refine pers_sep (reached_at m K (predD c) 0) ?_
  refine pers_sep (reached_at m K (partD c) 0) ?_
  iterate 89 (refine pers_sep (reached_d m K c _ _) ?_)
  exact reached_d m K c _ _

/-! ## The tokens dealt to the devices that pay them -/

omit [FloatOps F] in
theorem bigSep_finRange {n : ℕ} (Φ : Fin n → sProp 𝕄) : bigSep Finset.univ Φ = bigSepL (List.finRange n) Φ :=
  bigSep_univ_eq_bigSepL (List.finRange n) (List.toFinset_finRange n).symm (List.nodup_finRange n) Φ

omit [FloatOps F] in
theorem chain2 (Φ : Fin 2 → sProp 𝕄) : bigSep Finset.univ Φ = iprop(Φ 0 ∗ Φ 1) := (bigSep_finRange Φ).trans rfl
omit [FloatOps F] in
theorem chain3 (Φ : Fin 3 → sProp 𝕄) : bigSep Finset.univ Φ = iprop(Φ 0 ∗ Φ 1 ∗ Φ 2) := (bigSep_finRange Φ).trans rfl
omit [FloatOps F] in
theorem chain8 (Φ : Fin 8 → sProp 𝕄) : bigSep Finset.univ Φ = iprop(Φ 0 ∗ Φ 1 ∗ Φ 2 ∗ Φ 3 ∗ Φ 4 ∗ Φ 5 ∗ Φ 6 ∗ Φ 7) := (bigSep_finRange Φ).trans rfl
omit [FloatOps F] in
theorem chain14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := (bigSep_finRange Φ).trans rfl
omit [FloatOps F] in
theorem chain16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := (bigSep_finRange Φ).trans rfl
omit [FloatOps F] in
theorem chain28 (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := (bigSep_finRange Φ).trans rfl

omit [FloatOps F] in
theorem sepA (P Q R : sProp 𝕄) : iprop((P ∗ Q) ∗ R) = iprop(P ∗ Q ∗ R) :=
  BI.Entails.antisymm Idealize.SL.BI.sep_assoc Idealize.SL.BI.sep_assoc'

/-- The tokens of device c's cells by group: the arrival cells of the two ring directions and of the pair, the
    departure cells of the ring and of the pair, the rounds of the two local cells. -/
abbrev tA (c : Dev nD) (k : Fin 14) : sProp 𝕄 := dutyTok (ER (F := F)) (dcell c (28 + k.val) (by have := k.isLt; omega)) 0 0
abbrev tB (c : Dev nD) (k : Fin 14) : sProp 𝕄 := dutyTok (ER (F := F)) (dcell c (42 + k.val) (by have := k.isLt; omega)) 0 0
abbrev tZ (c : Dev nD) (j : Fin 16) : sProp 𝕄 := dutyTok (ER (F := F)) (dcell c (72 + j.val) (by have := j.isLt; omega)) 0 0
abbrev tO (c : Dev nD) (i : Fin 28) : sProp 𝕄 := dutyTok (ER (F := F)) (dcell c i.val (by have := i.isLt; omega)) 0 0
abbrev tP (c : Dev nD) (i : Fin 16) : sProp 𝕄 := dutyTok (ER (F := F)) (dcell c (56 + i.val) (by have := i.isLt; omega)) 0 0
abbrev tL (c : Dev nD) (jr : Fin 2 × Fin 8) : sProp 𝕄 := dutyTok (ER (F := F)) (dcell c (88 + jr.1.val) (by have := jr.1.isLt; omega)) jr.2.val 0

omit [FloatOps F] in
theorem mint_eq (c : Dev nD) : mint (F := F) c = iprop(
    (dutyTok (ER (F := F)) (barCell c) 0 0 ∗ dutyTok (ER (F := F)) (barCell c) 0 1 ∗ dutyTok (ER (F := F)) (barCell c) 0 2)
    ∗ bigSep Finset.univ (tA (F := F) c) ∗ bigSep Finset.univ (tB (F := F) c) ∗ bigSep Finset.univ (tZ (F := F) c)
    ∗ bigSep Finset.univ (tO (F := F) c) ∗ bigSep Finset.univ (tP (F := F) c) ∗ bigSep Finset.univ (tL (F := F) c)) := by
  unfold mint
  rw [bigSep_univ_sum, bigSep_univ_sum, bigSep_univ_sum, bigSep_univ_sum, bigSep_univ_sum, bigSep_univ_sum, chain3]
  rfl

/-- What device c holds after the dealing: the barrier tokens of its three peers that it pays, the tokens of the
    arrival cells of its peers that it copies into, and the tokens of its own departure and local cells. -/
def dealt (c : Dev nD) : sProp 𝕄 :=
  iprop(dutyTok (ER (F := F)) (barCell (succD c)) 0 0 ∗ dutyTok (ER (F := F)) (barCell (predD c)) 0 1 ∗ dutyTok (ER (F := F)) (barCell (partD c)) 0 2
    ∗ bigSep Finset.univ (tA (F := F) (succD c)) ∗ bigSep Finset.univ (tB (F := F) (predD c)) ∗ bigSep Finset.univ (tZ (F := F) (partD c))
    ∗ bigSep Finset.univ (tO (F := F) c) ∗ bigSep Finset.univ (tP (F := F) c) ∗ bigSep Finset.univ (tL (F := F) c))

/-- The ring successor, the ring predecessor and the pair partner as permutations of the devices. -/
def eSucc : Dev nD ≃ Dev nD := ⟨succD, predD, pred_succ, succ_pred⟩
def ePred : Dev nD ≃ Dev nD := ⟨predD, succD, succ_pred, pred_succ⟩
def ePart : Dev nD ≃ Dev nD := ⟨partD, partD, part_part, part_part⟩

omit [FloatOps F] in
theorem mint_around : (bigSep Finset.univ fun c : Dev nD => (mint (F := F) c : sProp 𝕄)) ⊢ bigSep Finset.univ fun c : Dev nD => dealt (F := F) c := by
  have e0 : (bigSep Finset.univ fun c : Dev nD => (dutyTok (ER (F := F)) (barCell c) 0 0 : sProp 𝕄))
      = bigSep Finset.univ fun c : Dev nD => dutyTok (ER (F := F)) (barCell (succD c)) 0 0 := bigSep_univ_equiv eSucc _
  have e1 : (bigSep Finset.univ fun c : Dev nD => (dutyTok (ER (F := F)) (barCell c) 0 1 : sProp 𝕄))
      = bigSep Finset.univ fun c : Dev nD => dutyTok (ER (F := F)) (barCell (predD c)) 0 1 := bigSep_univ_equiv ePred _
  have e2 : (bigSep Finset.univ fun c : Dev nD => (dutyTok (ER (F := F)) (barCell c) 0 2 : sProp 𝕄))
      = bigSep Finset.univ fun c : Dev nD => dutyTok (ER (F := F)) (barCell (partD c)) 0 2 := bigSep_univ_equiv ePart _
  have eA : (bigSep Finset.univ fun c : Dev nD => (bigSep Finset.univ (tA (F := F) c) : sProp 𝕄))
      = bigSep Finset.univ fun c : Dev nD => bigSep Finset.univ (tA (F := F) (succD c)) := bigSep_univ_equiv eSucc _
  have eB : (bigSep Finset.univ fun c : Dev nD => (bigSep Finset.univ (tB (F := F) c) : sProp 𝕄))
      = bigSep Finset.univ fun c : Dev nD => bigSep Finset.univ (tB (F := F) (predD c)) := bigSep_univ_equiv ePred _
  have eZ : (bigSep Finset.univ fun c : Dev nD => (bigSep Finset.univ (tZ (F := F) c) : sProp 𝕄))
      = bigSep Finset.univ fun c : Dev nD => bigSep Finset.univ (tZ (F := F) (partD c)) := bigSep_univ_equiv ePart _
  rw [bigSep_congr (s := Finset.univ) (fun (c : Dev nD) _ => mint_eq (F := F) c)]
  unfold dealt
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep']
  iintro ⟨⟨H0, H1, H2⟩, HA, HB, HZ, HO, HP, HL⟩
  isplitl [H0]; · iapply (Entails.of_eq e0); iexact H0
  isplitl [H1]; · iapply (Entails.of_eq e1); iexact H1
  isplitl [H2]; · iapply (Entails.of_eq e2); iexact H2
  isplitl [HA]; · iapply (Entails.of_eq eA); iexact HA
  isplitl [HB]; · iapply (Entails.of_eq eB); iexact HB
  isplitl [HZ]; · iapply (Entails.of_eq eZ); iexact HZ
  isplitl [HO]; · iexact HO
  isplitl [HP]; · iexact HP
  iexact HL

omit [FloatOps F] in
set_option maxHeartbeats 1000000 in
theorem dealt_eq (c : Dev nD) : dealt (F := F) c = State.toks (F := F) c := by
  unfold dealt State.toks
  simp only [chain14, chain16, chain28, bigSep_univ_prod, chain2, chain8, sepA]
  rfl

omit [FloatOps F] in
set_option maxHeartbeats 4000000 in
theorem chain91 (Φ : Fin 91 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90) := (bigSep_finRange Φ).trans rfl

omit [FloatOps F] in
set_option maxHeartbeats 4000000 in
theorem poss_of (c : Dev nD) : (bigSep Finset.univ fun k : Fin 91 => (atPos (ER (F := F)) (State.kcell (c, k)) 0 ∅ 0 : sProp 𝕄)) = State.poss (F := F) c :=
  (chain91 _).trans rfl

/-- What stays with device c: its positions and the tokens dealt to it. -/
def linear (c : Dev nD) : sProp 𝕄 :=
  iprop((bigSep Finset.univ fun k : Fin 91 => atPos (ER (F := F)) (State.kcell (c, k)) 0 ∅ 0) ∗ dealt (F := F) c)

theorem ghost_intro (K : Dev nD × Fin 91 → ℕ) (c : Dev nD) : iprop(records m K ∗ linear (F := F) c) ⊢ G' m c := by
  unfold linear G' State.ghost
  iintro ⟨#HR, Hat, Htok⟩
  iexists K
  isplitr; · iapply (invs_of m K c); iexact HR
  isplitl [Hat]; · iapply (Entails.of_eq (poss_of (F := F) c)); iexact Hat
  isplitr; · iapply (reach_of m K c); iexact HR
  iapply (Entails.of_eq (dealt_eq (F := F) c)); iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => Ga m c) ⊢ bigSep Finset.univ (G' m) := by
  unfold Ga
  rw [bigSep_sep', bigSep_sep', bigSep_sep',
    ← bigSep_univ_prod (fun ck : Dev nD × Fin 91 => iprop(∃ κ : ℕ, cellInv (ER (F := F)) (sched m) κ (State.kcell ck))),
    ← bigSep_univ_prod (fun ck : Dev nD × Fin 91 => (reached (ER (F := F)) (State.kcell ck) 0 : sProp 𝕄))]
  iintro ⟨HI, Hat, #HR, Htok⟩
  ihave HK := (BI.bigSep_exists_pi Finset.univ (fun (ck : Dev nD × Fin 91) (κ : ℕ) => (cellInv (ER (F := F)) (sched m) κ (State.kcell ck) : sProp 𝕄))) $$ HI
  icases HK with ⟨%K, #HI⟩
  ihave Htk := (mint_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 91 => (atPos (ER (F := F)) (State.kcell (c, k)) 0 ∅ 0 : sProp 𝕄)) (dealt (F := F))).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- One summand of what the devices owe peeled off: every device d owing n units on semaphore sm of device f d,
    f a permutation of the devices, device c is dealt n units of credit on its own sm. -/
theorem cred_step (O : Dev nD → CellTallies nD τ sig Unit) (sm : SemLoc sig) (f finv : Dev nD → Dev nD)
    (h1 : ∀ c, f (finv c) = c) (h2 : ∀ d, finv (f d) = d) (n : ℕ) (c : Dev nD) :
    (Pipeline.launchCred (fun d => O d + tallyAt (((f d : Dev nD) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f finv h1 h2 () n c)

theorem lt90 {i : ℕ} (h : Nat.ble (i + 1) 90 = true) : i < 90 := Nat.le_of_ble_eq_true h

omit [FloatOps F] in
/-- The same for the DMA semaphore i and one chunk's credit. -/
theorem cred_dma (O : Dev nD → CellTallies nD τ sig Unit) (i : ℕ) (hi : i < 90) (f finv : Dev nD → Dev nD)
    (h1 : ∀ c, f (finv c) = c) (h2 : ∀ d, finv (f d) = d) (c : Dev nD) :
    (Pipeline.launchCred (fun d => O d + tallyAt (dcell (f d) i hi) () N) c : sProp 𝕄)
      ⊢ iprop(Pipeline.launchCred O c ∗ cred (tallyAt (dcell c i hi) () N)) :=
  cred_step O (.dma (dsem i hi)) f finv h1 h2 N c

omit [FloatOps F] in
theorem creds_intro (c : Dev nD) : (Pipeline.launchCred State.O₀ c : sProp 𝕄) ⊢ State.creds (F := F) c := by
  have hb : iprop(cred (tallyAt (barCell c) () 1) ∗ cred (tallyAt (barCell c) () 1) ∗ cred (tallyAt (barCell c) () 1))
      ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  iintro H
  ihave H := (cred_step (State.owed_1) (.reg barS) succD predD succ_pred pred_succ 1 c) $$ H
  icases H with ⟨H, B0⟩
  ihave H := (cred_step (State.owed_2) (.reg barS) predD succD pred_succ succ_pred 1 c) $$ H
  icases H with ⟨H, B1⟩
  ihave H := (cred_step (State.owed_3) (.reg barS) partD partD part_part part_part 1 c) $$ H
  icases H with ⟨H, B2⟩
  ihave H := (cred_dma (State.owed_4) 28 (lt90 rfl) succD predD succ_pred pred_succ c) $$ H
  icases H with ⟨H, C28⟩
  ihave H := (cred_dma (State.owed_5) 42 (lt90 rfl) predD succD pred_succ succ_pred c) $$ H
  icases H with ⟨H, C42⟩
  ihave H := (cred_dma (State.owed_6) 29 (lt90 rfl) succD predD succ_pred pred_succ c) $$ H
  icases H with ⟨H, C29⟩
  ihave H := (cred_dma (State.owed_7) 43 (lt90 rfl) predD succD pred_succ succ_pred c) $$ H
  icases H with ⟨H, C43⟩
  ihave H := (cred_dma (State.owed_8) 30 (lt90 rfl) succD predD succ_pred pred_succ c) $$ H
  icases H with ⟨H, C30⟩
  ihave H := (cred_dma (State.owed_9) 44 (lt90 rfl) predD succD pred_succ succ_pred c) $$ H
  icases H with ⟨H, C44⟩
  ihave H := (cred_dma (State.owed_10) 31 (lt90 rfl) succD predD succ_pred pred_succ c) $$ H
  icases H with ⟨H, C31⟩
  ihave H := (cred_dma (State.owed_11) 45 (lt90 rfl) predD succD pred_succ succ_pred c) $$ H
  icases H with ⟨H, C45⟩
  ihave H := (cred_dma (State.owed_12) 32 (lt90 rfl) succD predD succ_pred pred_succ c) $$ H
  icases H with ⟨H, C32⟩
  ihave H := (cred_dma (State.owed_13) 46 (lt90 rfl) predD succD pred_succ succ_pred c) $$ H
  icases H with ⟨H, C46⟩
  ihave H := (cred_dma (State.owed_14) 33 (lt90 rfl) succD predD succ_pred pred_succ c) $$ H
  icases H with ⟨H, C33⟩
  ihave H := (cred_dma (State.owed_15) 47 (lt90 rfl) predD succD pred_succ succ_pred c) $$ H
  icases H with ⟨H, C47⟩
  ihave H := (cred_dma (State.owed_16) 34 (lt90 rfl) succD predD succ_pred pred_succ c) $$ H
  icases H with ⟨H, C34⟩
  ihave H := (cred_dma (State.owed_17) 48 (lt90 rfl) predD succD pred_succ succ_pred c) $$ H
  icases H with ⟨H, C48⟩
  ihave H := (cred_dma (State.owed_18) 72 (lt90 rfl) partD partD part_part part_part c) $$ H
  icases H with ⟨H, C72⟩
  ihave H := (cred_dma (State.owed_19) 80 (lt90 rfl) partD partD part_part part_part c) $$ H
  icases H with ⟨H, C80⟩
  ihave H := (cred_dma (State.owed_20) 35 (lt90 rfl) succD predD succ_pred pred_succ c) $$ H
  icases H with ⟨H, C35⟩
  ihave H := (cred_dma (State.owed_21) 49 (lt90 rfl) predD succD pred_succ succ_pred c) $$ H
  icases H with ⟨H, C49⟩
  ihave H := (cred_dma (State.owed_22) 73 (lt90 rfl) partD partD part_part part_part c) $$ H
  icases H with ⟨H, C73⟩
  ihave H := (cred_dma (State.owed_23) 81 (lt90 rfl) partD partD part_part part_part c) $$ H
  icases H with ⟨H, C81⟩
  ihave H := (cred_dma (State.owed_24) 36 (lt90 rfl) succD predD succ_pred pred_succ c) $$ H
  icases H with ⟨H, C36⟩
  ihave H := (cred_dma (State.owed_25) 50 (lt90 rfl) predD succD pred_succ succ_pred c) $$ H
  icases H with ⟨H, C50⟩
  ihave H := (cred_dma (State.owed_26) 74 (lt90 rfl) partD partD part_part part_part c) $$ H
  icases H with ⟨H, C74⟩
  ihave H := (cred_dma (State.owed_27) 82 (lt90 rfl) partD partD part_part part_part c) $$ H
  icases H with ⟨H, C82⟩
  ihave H := (cred_dma (State.owed_28) 37 (lt90 rfl) succD predD succ_pred pred_succ c) $$ H
  icases H with ⟨H, C37⟩
  ihave H := (cred_dma (State.owed_29) 51 (lt90 rfl) predD succD pred_succ succ_pred c) $$ H
  icases H with ⟨H, C51⟩
  ihave H := (cred_dma (State.owed_30) 75 (lt90 rfl) partD partD part_part part_part c) $$ H
  icases H with ⟨H, C75⟩
  ihave H := (cred_dma (State.owed_31) 83 (lt90 rfl) partD partD part_part part_part c) $$ H
  icases H with ⟨H, C83⟩
  ihave H := (cred_dma (State.owed_32) 38 (lt90 rfl) succD predD succ_pred pred_succ c) $$ H
  icases H with ⟨H, C38⟩
  ihave H := (cred_dma (State.owed_33) 52 (lt90 rfl) predD succD pred_succ succ_pred c) $$ H
  icases H with ⟨H, C52⟩
  ihave H := (cred_dma (State.owed_34) 76 (lt90 rfl) partD partD part_part part_part c) $$ H
  icases H with ⟨H, C76⟩
  ihave H := (cred_dma (State.owed_35) 84 (lt90 rfl) partD partD part_part part_part c) $$ H
  icases H with ⟨H, C84⟩
  ihave H := (cred_dma (State.owed_36) 39 (lt90 rfl) succD predD succ_pred pred_succ c) $$ H
  icases H with ⟨H, C39⟩
  ihave H := (cred_dma (State.owed_37) 53 (lt90 rfl) predD succD pred_succ succ_pred c) $$ H
  icases H with ⟨H, C53⟩
  ihave H := (cred_dma (State.owed_38) 77 (lt90 rfl) partD partD part_part part_part c) $$ H
  icases H with ⟨H, C77⟩
  ihave H := (cred_dma (State.owed_39) 85 (lt90 rfl) partD partD part_part part_part c) $$ H
  icases H with ⟨H, C85⟩
  ihave H := (cred_dma (State.owed_40) 40 (lt90 rfl) succD predD succ_pred pred_succ c) $$ H
  icases H with ⟨H, C40⟩
  ihave H := (cred_dma (State.owed_41) 54 (lt90 rfl) predD succD pred_succ succ_pred c) $$ H
  icases H with ⟨H, C54⟩
  ihave H := (cred_dma (State.owed_42) 78 (lt90 rfl) partD partD part_part part_part c) $$ H
  icases H with ⟨H, C78⟩
  ihave H := (cred_dma (State.owed_43) 86 (lt90 rfl) partD partD part_part part_part c) $$ H
  icases H with ⟨H, C86⟩
  ihave H := (cred_dma (State.owed_44) 41 (lt90 rfl) succD predD succ_pred pred_succ c) $$ H
  icases H with ⟨H, C41⟩
  ihave H := (cred_dma (State.owed_45) 55 (lt90 rfl) predD succD pred_succ succ_pred c) $$ H
  icases H with ⟨H, C55⟩
  ihave H := (cred_dma (State.owed_46) 79 (lt90 rfl) partD partD part_part part_part c) $$ H
  icases H with ⟨H, C79⟩
  ihave H := (cred_dma (State.owed_47) 87 (lt90 rfl) partD partD part_part part_part c) $$ H
  icases H with ⟨H, C87⟩
  unfold State.creds
  isplitl [B0 B1 B2]
  · iapply hb
    isplitl [B0]; · iexact B0
    isplitl [B1]; · iexact B1
    iexact B2
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  isplitl [C72]; · iexact C72
  isplitl [C73]; · iexact C73
  isplitl [C74]; · iexact C74
  isplitl [C75]; · iexact C75
  isplitl [C76]; · iexact C76
  isplitl [C77]; · iexact C77
  isplitl [C78]; · iexact C78
  isplitl [C79]; · iexact C79
  isplitl [C80]; · iexact C80
  isplitl [C81]; · iexact C81
  isplitl [C82]; · iexact C82
  isplitl [C83]; · iexact C83
  isplitl [C84]; · iexact C84
  isplitl [C85]; · iexact C85
  isplitl [C86]; · iexact C86
  iexact C87

/-! ## The theorem's side conditions -/

theorem start_intro (c : Dev nD) :
    iprop(Pipeline.unscopedRestP Pipeline.Prefetch.none cfg0.spec c (fun b => m ((c : Thread nD τ).loc b)) ∗ levAts State.L State.lv
        ∗ Pipeline.launchCred State.O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%fc, Hc⟩, ⟨%fs, Hg⟩⟩
  isplitl [Hs]; · iexact Hs
  isplitl [Hc]; · iexists fc; iexact Hc
  iexists fs; iexact Hg

theorem phi1_exit (c : Dev nD) :
    (dats m ρ 0 c).Φ (Fin.last cfg0.N) ⊢ iprop(iprop((((c : Thread nD τ).loc main_arg0) ↦{fullShare} X m c) ∗ (((c : Thread nD τ).loc main_v1) ↦{fullShare} Res m c))
      ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hx, Ho, Hc, Hg, Hz⟩
  isplitl [Hx Ho]
  · isplitl [Hx]; · iexact Hx
    iexact Ho
  isplitl [Hz]; · iexact Hz
  isplitl [Hc]; · iexact Hc
  iexact Hg

theorem waits (c : Dev nD) : (levAts State.L State.lv : sProp 𝕄) ⊢ Pipeline.cellsWaits cfgs (dats m ρ) () 0 c :=
  Pipeline.cellsWaits_intro cfgs (dats m ρ) () 0 c fun w s t => w.elim0

theorem read_out (c : Dev nD) (s' : Phys nD τ sig (Elt F)) :
    iprop(iprop((((c : Thread nD τ).loc main_arg0) ↦{fullShare} X m c) ∗ (((c : Thread nD τ).loc main_v1) ↦{fullShare} Res m c)) ∗ emp ∗ SI s')
      ⊢ (|={Set.univ}=> iprop(⌜s'.mem.mem ((c : Thread nD τ).loc main_v1) = Res m c ∧ s'.mem.mem ((c : Thread nD τ).loc main_arg0) = m ((c : Thread nD τ).loc main_arg0)⌝ ∗ SI s') : sProp 𝕄) := by
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 16384 in
/-- At the compiled mesh of 32 devices, for any float values, from any memory with zero counters: if each device's
    body takes its start state to its end state, every weakly fair execution of @main terminates, and every final
    state has each device's result array at the reduced contents and its argument array unchanged. -/
theorem run_main (hbody : ∀ c, BodyObligation (dats (F := F) m ρ 0 c) (defs₀ (F := F)) Variants.none () Set.univ) :
    θ_run defs (onTc (τ := τ) (main (F := F))) (s₀ m ρ) (fun r => ∀ c : Dev nD,
      r.2.mem ((c.tc : Thread nD τ).loc main_v1) = Res m c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := hbody) (hne := fun w => w.elim0) (harr := arr_whole0) (hstage := stage_whole0) (hshare := fun _ w => w.elim0)
    (hdistinct := winFacts0.arr_inj)
    (O₀ := State.O₀) (howed₀ := fun _ => rfl) (howedN := fun _ => rfl)
    (L := State.L) (lv := State.lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop((((c : Thread nD τ).loc main_arg0) ↦{fullShare} X m c) ∗ (((c : Thread nD τ).loc main_v1) ↦{fullShare} Res m c)))
    (Z := fun _ => iprop(emp))
    (hX := start_intro m ρ) (hin := phi0_intro m ρ) (hout := phi1_exit m ρ)
    (QY := fun c s => s.mem ((c : Thread nD τ).loc main_v1) = Res m c ∧ s.mem ((c : Thread nD τ).loc main_arg0) = m ((c : Thread nD τ).loc main_arg0))
    (hY := read_out m)
    (hQ := fun s h c => (h c).2.2)

/-- info: 'Cert.Kernel.Launch.run_main' depends on axioms: [propext, Classical.choice, Quot.sound] -/
#guard_msgs in #print axioms run_main

end Cert.Kernel.Launch

end
-- ==== Proof.Bits.Levels.lean ====
/-
  Why a device may wait where it waits. Every cell has a level: a barrier cell 1, the arrival cell of ring step k
  the level 2 + k, an arrival cell of the pair 50, every other cell 0. A device may wait on one of its own cells
  while everything it still owes is owed to cells of strictly higher level. What a device owes before its j-th
  payment is a sum of amounts at single cells; such a sum is positive only at one of its summands' cells, so the
  least level among the summands' cells bounds from below the level of every cell something is owed to. The
  bounds are computed downward from the empty sum; each wait then compares the level of the cell waited on with
  the bound of what is owed at that point of the program.
-/
import proofs.«900727_g7700000000000728_dist_ar_v7x_xyz2x4x4_y_m16384_n1024_f32_1_alg».proof.Proof.Bits.State
import proofs.«900727_g7700000000000728_dist_ar_v7x_xyz2x4x4_y_m16384_n1024_f32_1_alg».proof.Proof.Bits.Canon

set_option maxRecDepth 16384

noncomputable section

namespace Cert.Kernel.State

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums of amounts at single cells -/

/-- Level facts are kept for every cell of a TensorCore thread. -/
theorem L_tc (c : Dev nD) (sm : SemLoc sig) : L ((c : Thread nD τ), sm) = {()} := if_pos rfl

/-- Nothing owed: no cell to bound. -/
theorem pos_zero (b : ℕ) (g : GSem nD τ sig) (u : Unit) (h : 0 < (0 : CellTallies nD τ sig Unit) g u) :
    g.1.2 = .tc ∧ b ≤ lv g u :=
  absurd h (Nat.lt_irrefl 0)

/-- One more amount, at a TensorCore cell of level l: if the sum so far is positive only at TensorCore cells of
    level at least b', the longer sum is positive only at TensorCore cells of level at least b, for b ≤ l, b'. -/
theorem pos_step {O : CellTallies nD τ sig Unit} {cell : GSem nD τ sig} {k : ℕ} (b b' l : ℕ)
    (hO : ∀ (g : GSem nD τ sig) (u : Unit), 0 < O g u → g.1.2 = .tc ∧ b' ≤ lv g u)
    (hc : cell.1.2 = .tc) (hl : lv cell () = l) (hbl : b ≤ l) (hb : b ≤ b')
    (g : GSem nD τ sig) (u : Unit) (h : 0 < (O + tallyAt cell () k) g u) : g.1.2 = .tc ∧ b ≤ lv g u := by
  rw [Pi.add_apply, Finsupp.add_apply, tallyAt_apply] at h
  by_cases hg : g = cell ∧ u = ()
  · obtain ⟨hg1, hg2⟩ := hg
    subst hg1
    exact ⟨hc, by rw [hl]; exact hbl⟩
  · rw [if_neg hg, Nat.add_zero] at h
    exact ⟨(hO g u h).1, le_trans hb (hO g u h).2⟩

omit [FloatOps F] in
/-- A device may wait on its cell of level l while what it owes is positive only at TensorCore cells of level at
    least b, for l < b. -/
theorem mayWait_of (c : Dev nD) (sm : SemLoc sig) (O : CellTallies nD τ sig Unit) (l b : ℕ)
    (hl : lv ((c : Thread nD τ), sm) () = l) (hlb : l < b)
    (hO : ∀ (g : GSem nD τ sig) (u : Unit), 0 < O g u → g.1.2 = .tc ∧ b ≤ lv g u) :
    (levAts L lv : sProp 𝕄) ⊢ MayWait (c : Thread nD τ) sm () O :=
  MayOwe.of_cut (L := L) (lev := lv) l
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact le_of_eq hl)
    (fun g u hg => lt_of_lt_of_le hlb (hO g u hg).2)

/-! ## The bound of each partial sum -/

theorem owed_pos_47 (c : Dev nD) (g : GSem nD τ sig) (u : Unit) (h : 0 < owed_47 c g u) : g.1.2 = .tc ∧ 50 ≤ lv g u :=
  pos_zero 50 g u h
theorem owed_pos_46 (c : Dev nD) (g : GSem nD τ sig) (u : Unit) (h : 0 < owed_46 c g u) : g.1.2 = .tc ∧ 50 ≤ lv g u :=
  pos_step (O := owed_47 c) (cell := dcell (partD c) 87) (k := N) 50 50 50 (owed_pos_47 c) rfl rfl (by decide) (by decide) g u h
theorem owed_pos_45 (c : Dev nD) (g : GSem nD τ sig) (u : Unit) (h : 0 < owed_45 c g u) : g.1.2 = .tc ∧ 50 ≤ lv g u :=
  pos_step (O := owed_46 c) (cell := dcell (partD c) 79) (k := N) 50 50 50 (owed_pos_46 c) rfl rfl (by decide) (by decide) g u h
theorem owed_pos_44 (c : Dev nD) (g : GSem nD τ sig) (u : Unit) (h : 0 < owed_44 c g u) : g.1.2 = .tc ∧ 15 ≤ lv g u :=
  pos_step (O := owed_45 c) (cell := dcell (predD c) 55) (k := N) 15 50 15 (owed_pos_45 c) rfl rfl (by decide) (by decide) g u h
theorem owed_pos_43 (c : Dev nD) (g : GSem nD τ sig) (u : Unit) (h : 0 < owed_43 c g u) : g.1.2 = .tc ∧ 15 ≤ lv g u :=
  pos_step (O := owed_44 c) (cell := dcell (succD c) 41) (k := N) 15 15 15 (owed_pos_44 c) rfl rfl (by decide) (by decide) g u h
theorem owed_pos_42 (c : Dev nD) (g : GSem nD τ sig) (u : Unit) (h : 0 < owed_42 c g u) : g.1.2 = .tc ∧ 15 ≤ lv g u :=
  pos_step (O := owed_43 c) (cell := dcell (partD c) 86) (k := N) 15 15 50 (owed_pos_43 c) rfl rfl (by decide) (by decide) g u h
theorem owed_pos_41 (c : Dev nD) (g : GSem nD τ sig) (u : Unit) (h : 0 < owed_41 c g u) : g.1.2 = .tc ∧ 15 ≤ lv g u :=
  pos_step (O := owed_42 c) (cell := dcell (partD c) 78) (k := N) 15 15 50 (owed_pos_42 c) rfl rfl (by decide) (by decide) g u h
theorem owed_pos_40 (c : Dev nD) (g : GSem nD τ sig) (u : Unit) (h : 0 < owed_40 c g u) : g.1.2 = .tc ∧ 14 ≤ lv g u :=
  pos_step (O := owed_41 c) (cell := dcell (predD c) 54) (k := N) 14 15 14 (owed_pos_41 c) rfl rfl (by decide) (by decide) g u h
theorem owed_pos_39 (c : Dev nD) (g : GSem nD τ sig) (u : Unit) (h : 0 < owed_39 c g u) : g.1.2 = .tc ∧ 14 ≤ lv g u :=
  pos_step (O := owed_40 c) (cell := dcell (succD c) 40) (k := N) 14 14 14 (owed_pos_40 c) rfl rfl (by decide) (by decide) g u h
theorem owed_pos_38 (c : Dev nD) (g : GSem nD τ sig) (u : Unit) (h : 0 < owed_38 c g u) : g.1.2 = .tc ∧ 14 ≤ lv g u :=
  pos_step (O := owed_39 c) (cell := dcell (partD c) 85) (k := N) 14 14 50 (owed_pos_39 c) rfl rfl (by decide) (by decide) g u h
theorem owed_pos_37 (c : Dev nD) (g : GSem nD τ sig) (u : Unit) (h : 0 < owed_37 c g u) : g.1.2 = .tc ∧ 14 ≤ lv g u :=
  pos_step (O := owed_38 c) (cell := dcell (partD c) 77) (k := N) 14 14 50 (owed_pos_38 c) rfl rfl (by decide) (by decide) g u h
theorem owed_pos_36 (c : Dev nD) (g : GSem nD τ sig) (u : Unit) (h : 0 < owed_36 c g u) : g.1.2 = .tc ∧ 13 ≤ lv g u :=
  pos_step (O := owed_37 c) (cell := dcell (predD c) 53) (k := N) 13 14 13 (owed_pos_37 c) rfl rfl (by decide) (by decide) g u h
theorem owed_pos_35 (c : Dev nD) (g : GSem nD τ sig) (u : Unit) (h : 0 < owed_35 c g u) : g.1.2 = .tc ∧ 13 ≤ lv g u :=
  pos_step (O := owed_36 c) (cell := dcell (succD c) 39) (k := N) 13 13 13 (owed_pos_36 c) rfl rfl (by decide) (by decide) g u h
theorem owed_pos_34 (c : Dev nD) (g : GSem nD τ sig) (u : Unit) (h : 0 < owed_34 c g u) : g.1.2 = .tc ∧ 13 ≤ lv g u :=
  pos_step (O := owed_35 c) (cell := dcell (partD c) 84) (k := N) 13 13 50 (owed_pos_35 c) rfl rfl (by decide) (by decide) g u h
theorem owed_pos_33 (c : Dev nD) (g : GSem nD τ sig) (u : Unit) (h : 0 < owed_33 c g u) : g.1.2 = .tc ∧ 13 ≤ lv g u :=
  pos_step (O := owed_34 c) (cell := dcell (partD c) 76) (k := N) 13 13 50 (owed_pos_34 c) rfl rfl (by decide) (by decide) g u h
theorem owed_pos_32 (c : Dev nD) (g : GSem nD τ sig) (u : Unit) (h : 0 < owed_32 c g u) : g.1.2 = .tc ∧ 12 ≤ lv g u :=
  pos_step (O := owed_33 c) (cell := dcell (predD c) 52) (k := N) 12 13 12 (owed_pos_33 c) rfl rfl (by decide) (by decide) g u h
theorem owed_pos_31 (c : Dev nD) (g : GSem nD τ sig) (u : Unit) (h : 0 < owed_31 c g u) : g.1.2 = .tc ∧ 12 ≤ lv g u :=
  pos_step (O := owed_32 c) (cell := dcell (succD c) 38) (k := N) 12 12 12 (owed_pos_32 c) rfl rfl (by decide) (by decide) g u h
theorem owed_pos_30 (c : Dev nD) (g : GSem nD τ sig) (u : Unit) (h : 0 < owed_30 c g u) : g.1.2 = .tc ∧ 12 ≤ lv g u :=
  pos_step (O := owed_31 c) (cell := dcell (partD c) 83) (k := N) 12 12 50 (owed_pos_31 c) rfl rfl (by decide) (by decide) g u h
theorem owed_pos_29 (c : Dev nD) (g : GSem nD τ sig) (u : Unit) (h : 0 < owed_29 c g u) : g.1.2 = .tc ∧ 12 ≤ lv g u :=
  pos_step (O := owed_30 c) (cell := dcell (partD c) 75) (k := N) 12 12 50 (owed_pos_30 c) rfl rfl (by decide) (by decide) g u h
theorem owed_pos_28 (c : Dev nD) (g : GSem nD τ sig) (u : Unit) (h : 0 < owed_28 c g u) : g.1.2 = .tc ∧ 11 ≤ lv g u :=
  pos_step (O := owed_29 c) (cell := dcell (predD c) 51) (k := N) 11 12 11 (owed_pos_29 c) rfl rfl (by decide) (by decide) g u h
theorem owed_pos_27 (c : Dev nD) (g : GSem nD τ sig) (u : Unit) (h : 0 < owed_27 c g u) : g.1.2 = .tc ∧ 11 ≤ lv g u :=
  pos_step (O := owed_28 c) (cell := dcell (succD c) 37) (k := N) 11 11 11 (owed_pos_28 c) rfl rfl (by decide) (by decide) g u h
theorem owed_pos_26 (c : Dev nD) (g : GSem nD τ sig) (u : Unit) (h : 0 < owed_26 c g u) : g.1.2 = .tc ∧ 11 ≤ lv g u :=
  pos_step (O := owed_27 c) (cell := dcell (partD c) 82) (k := N) 11 11 50 (owed_pos_27 c) rfl rfl (by decide) (by decide) g u h
theorem owed_pos_25 (c : Dev nD) (g : GSem nD τ sig) (u : Unit) (h : 0 < owed_25 c g u) : g.1.2 = .tc ∧ 11 ≤ lv g u :=
  pos_step (O := owed_26 c) (cell := dcell (partD c) 74) (k := N) 11 11 50 (owed_pos_26 c) rfl rfl (by decide) (by decide) g u h
theorem owed_pos_24 (c : Dev nD) (g : GSem nD τ sig) (u : Unit) (h : 0 < owed_24 c g u) : g.1.2 = .tc ∧ 10 ≤ lv g u :=
  pos_step (O := owed_25 c) (cell := dcell (predD c) 50) (k := N) 10 11 10 (owed_pos_25 c) rfl rfl (by decide) (by decide) g u h
theorem owed_pos_23 (c : Dev nD) (g : GSem nD τ sig) (u : Unit) (h : 0 < owed_23 c g u) : g.1.2 = .tc ∧ 10 ≤ lv g u :=
  pos_step (O := owed_24 c) (cell := dcell (succD c) 36) (k := N) 10 10 10 (owed_pos_24 c) rfl rfl (by decide) (by decide) g u h
theorem owed_pos_22 (c : Dev nD) (g : GSem nD τ sig) (u : Unit) (h : 0 < owed_22 c g u) : g.1.2 = .tc ∧ 10 ≤ lv g u :=
  pos_step (O := owed_23 c) (cell := dcell (partD c) 81) (k := N) 10 10 50 (owed_pos_23 c) rfl rfl (by decide) (by decide) g u h
theorem owed_pos_21 (c : Dev nD) (g : GSem nD τ sig) (u : Unit) (h : 0 < owed_21 c g u) : g.1.2 = .tc ∧ 10 ≤ lv g u :=
  pos_step (O := owed_22 c) (cell := dcell (partD c) 73) (k := N) 10 10 50 (owed_pos_22 c) rfl rfl (by decide) (by decide) g u h
theorem owed_pos_20 (c : Dev nD) (g : GSem nD τ sig) (u : Unit) (h : 0 < owed_20 c g u) : g.1.2 = .tc ∧ 9 ≤ lv g u :=
  pos_step (O := owed_21 c) (cell := dcell (predD c) 49) (k := N) 9 10 9 (owed_pos_21 c) rfl rfl (by decide) (by decide) g u h
theorem owed_pos_19 (c : Dev nD) (g : GSem nD τ sig) (u : Unit) (h : 0 < owed_19 c g u) : g.1.2 = .tc ∧ 9 ≤ lv g u :=
  pos_step (O := owed_20 c) (cell := dcell (succD c) 35) (k := N) 9 9 9 (owed_pos_20 c) rfl rfl (by decide) (by decide) g u h
theorem owed_pos_18 (c : Dev nD) (g : GSem nD τ sig) (u : Unit) (h : 0 < owed_18 c g u) : g.1.2 = .tc ∧ 9 ≤ lv g u :=
  pos_step (O := owed_19 c) (cell := dcell (partD c) 80) (k := N) 9 9 50 (owed_pos_19 c) rfl rfl (by decide) (by decide) g u h
theorem owed_pos_17 (c : Dev nD) (g : GSem nD τ sig) (u : Unit) (h : 0 < owed_17 c g u) : g.1.2 = .tc ∧ 9 ≤ lv g u :=
  pos_step (O := owed_18 c) (cell := dcell (partD c) 72) (k := N) 9 9 50 (owed_pos_18 c) rfl rfl (by decide) (by decide) g u h
theorem owed_pos_16 (c : Dev nD) (g : GSem nD τ sig) (u : Unit) (h : 0 < owed_16 c g u) : g.1.2 = .tc ∧ 8 ≤ lv g u :=
  pos_step (O := owed_17 c) (cell := dcell (predD c) 48) (k := N) 8 9 8 (owed_pos_17 c) rfl rfl (by decide) (by decide) g u h
theorem owed_pos_15 (c : Dev nD) (g : GSem nD τ sig) (u : Unit) (h : 0 < owed_15 c g u) : g.1.2 = .tc ∧ 8 ≤ lv g u :=
  pos_step (O := owed_16 c) (cell := dcell (succD c) 34) (k := N) 8 8 8 (owed_pos_16 c) rfl rfl (by decide) (by decide) g u h
theorem owed_pos_14 (c : Dev nD) (g : GSem nD τ sig) (u : Unit) (h : 0 < owed_14 c g u) : g.1.2 = .tc ∧ 7 ≤ lv g u :=
  pos_step (O := owed_15 c) (cell := dcell (predD c) 47) (k := N) 7 8 7 (owed_pos_15 c) rfl rfl (by decide) (by decide) g u h
theorem owed_pos_13 (c : Dev nD) (g : GSem nD τ sig) (u : Unit) (h : 0 < owed_13 c g u) : g.1.2 = .tc ∧ 7 ≤ lv g u :=
  pos_step (O := owed_14 c) (cell := dcell (succD c) 33) (k := N) 7 7 7 (owed_pos_14 c) rfl rfl (by decide) (by decide) g u h
theorem owed_pos_12 (c : Dev nD) (g : GSem nD τ sig) (u : Unit) (h : 0 < owed_12 c g u) : g.1.2 = .tc ∧ 6 ≤ lv g u :=
  pos_step (O := owed_13 c) (cell := dcell (predD c) 46) (k := N) 6 7 6 (owed_pos_13 c) rfl rfl (by decide) (by decide) g u h
theorem owed_pos_11 (c : Dev nD) (g : GSem nD τ sig) (u : Unit) (h : 0 < owed_11 c g u) : g.1.2 = .tc ∧ 6 ≤ lv g u :=
  pos_step (O := owed_12 c) (cell := dcell (succD c) 32) (k := N) 6 6 6 (owed_pos_12 c) rfl rfl (by decide) (by decide) g u h
theorem owed_pos_10 (c : Dev nD) (g : GSem nD τ sig) (u : Unit) (h : 0 < owed_10 c g u) : g.1.2 = .tc ∧ 5 ≤ lv g u :=
  pos_step (O := owed_11 c) (cell := dcell (predD c) 45) (k := N) 5 6 5 (owed_pos_11 c) rfl rfl (by decide) (by decide) g u h
theorem owed_pos_9 (c : Dev nD) (g : GSem nD τ sig) (u : Unit) (h : 0 < owed_9 c g u) : g.1.2 = .tc ∧ 5 ≤ lv g u :=
  pos_step (O := owed_10 c) (cell := dcell (succD c) 31) (k := N) 5 5 5 (owed_pos_10 c) rfl rfl (by decide) (by decide) g u h
theorem owed_pos_8 (c : Dev nD) (g : GSem nD τ sig) (u : Unit) (h : 0 < owed_8 c g u) : g.1.2 = .tc ∧ 4 ≤ lv g u :=
  pos_step (O := owed_9 c) (cell := dcell (predD c) 44) (k := N) 4 5 4 (owed_pos_9 c) rfl rfl (by decide) (by decide) g u h
theorem owed_pos_7 (c : Dev nD) (g : GSem nD τ sig) (u : Unit) (h : 0 < owed_7 c g u) : g.1.2 = .tc ∧ 4 ≤ lv g u :=
  pos_step (O := owed_8 c) (cell := dcell (succD c) 30) (k := N) 4 4 4 (owed_pos_8 c) rfl rfl (by decide) (by decide) g u h
theorem owed_pos_6 (c : Dev nD) (g : GSem nD τ sig) (u : Unit) (h : 0 < owed_6 c g u) : g.1.2 = .tc ∧ 3 ≤ lv g u :=
  pos_step (O := owed_7 c) (cell := dcell (predD c) 43) (k := N) 3 4 3 (owed_pos_7 c) rfl rfl (by decide) (by decide) g u h
theorem owed_pos_5 (c : Dev nD) (g : GSem nD τ sig) (u : Unit) (h : 0 < owed_5 c g u) : g.1.2 = .tc ∧ 3 ≤ lv g u :=
  pos_step (O := owed_6 c) (cell := dcell (succD c) 29) (k := N) 3 3 3 (owed_pos_6 c) rfl rfl (by decide) (by decide) g u h
theorem owed_pos_4 (c : Dev nD) (g : GSem nD τ sig) (u : Unit) (h : 0 < owed_4 c g u) : g.1.2 = .tc ∧ 2 ≤ lv g u :=
  pos_step (O := owed_5 c) (cell := dcell (predD c) 42) (k := N) 2 3 2 (owed_pos_5 c) rfl rfl (by decide) (by decide) g u h
theorem owed_pos_3 (c : Dev nD) (g : GSem nD τ sig) (u : Unit) (h : 0 < owed_3 c g u) : g.1.2 = .tc ∧ 2 ≤ lv g u :=
  pos_step (O := owed_4 c) (cell := dcell (succD c) 28) (k := N) 2 2 2 (owed_pos_4 c) rfl rfl (by decide) (by decide) g u h
theorem owed_pos_2 (c : Dev nD) (g : GSem nD τ sig) (u : Unit) (h : 0 < owed_2 c g u) : g.1.2 = .tc ∧ 1 ≤ lv g u :=
  pos_step (O := owed_3 c) (cell := barCell (partD c)) (k := 1) 1 2 1 (owed_pos_3 c) rfl rfl (by decide) (by decide) g u h
theorem owed_pos_1 (c : Dev nD) (g : GSem nD τ sig) (u : Unit) (h : 0 < owed_1 c g u) : g.1.2 = .tc ∧ 1 ≤ lv g u :=
  pos_step (O := owed_2 c) (cell := barCell (predD c)) (k := 1) 1 1 1 (owed_pos_2 c) rfl rfl (by decide) (by decide) g u h
theorem owed_pos_0 (c : Dev nD) (g : GSem nD τ sig) (u : Unit) (h : 0 < owed_0 c g u) : g.1.2 = .tc ∧ 1 ≤ lv g u :=
  pos_step (O := owed_1 c) (cell := barCell (succD c)) (k := 1) 1 1 1 (owed_pos_1 c) rfl rfl (by decide) (by decide) g u h

/-! ## The waits -/

omit [FloatOps F] in
theorem mayWait_bar (c : Dev nD) :
    (levAts L lv : sProp 𝕄) ⊢ MayWait (c : Thread nD τ) (.reg barS) () (owed_3 c) :=
  mayWait_of c (.reg barS) (owed_3 c) 1 2 rfl (by decide) (owed_pos_3 c)
omit [FloatOps F] in
theorem mayWait_rs0_0 (c : Dev nD) :
    (levAts L lv : sProp 𝕄) ⊢ MayWait (c : Thread nD τ) (.dma (dsem 28)) () (owed_5 c) :=
  mayWait_of c (.dma (dsem 28)) (owed_5 c) 2 3 rfl (by decide) (owed_pos_5 c)
omit [FloatOps F] in
theorem mayWait_rs1_0 (c : Dev nD) :
    (levAts L lv : sProp 𝕄) ⊢ MayWait (c : Thread nD τ) (.dma (dsem 42)) () (owed_5 c) :=
  mayWait_of c (.dma (dsem 42)) (owed_5 c) 2 3 rfl (by decide) (owed_pos_5 c)
omit [FloatOps F] in
theorem mayWait_loc0_0 (c : Dev nD) :
    (levAts L lv : sProp 𝕄) ⊢ MayWait (c : Thread nD τ) (.dma (dsem 88)) () (owed_5 c) :=
  mayWait_of c (.dma (dsem 88)) (owed_5 c) 0 3 rfl (by decide) (owed_pos_5 c)
omit [FloatOps F] in
theorem mayWait_loc1_0 (c : Dev nD) :
    (levAts L lv : sProp 𝕄) ⊢ MayWait (c : Thread nD τ) (.dma (dsem 89)) () (owed_5 c) :=
  mayWait_of c (.dma (dsem 89)) (owed_5 c) 0 3 rfl (by decide) (owed_pos_5 c)
omit [FloatOps F] in
theorem mayWait_rs0_1 (c : Dev nD) :
    (levAts L lv : sProp 𝕄) ⊢ MayWait (c : Thread nD τ) (.dma (dsem 29)) () (owed_7 c) :=
  mayWait_of c (.dma (dsem 29)) (owed_7 c) 3 4 rfl (by decide) (owed_pos_7 c)
omit [FloatOps F] in
theorem mayWait_rs1_1 (c : Dev nD) :
    (levAts L lv : sProp 𝕄) ⊢ MayWait (c : Thread nD τ) (.dma (dsem 43)) () (owed_7 c) :=
  mayWait_of c (.dma (dsem 43)) (owed_7 c) 3 4 rfl (by decide) (owed_pos_7 c)
omit [FloatOps F] in
theorem mayWait_loc0_1 (c : Dev nD) :
    (levAts L lv : sProp 𝕄) ⊢ MayWait (c : Thread nD τ) (.dma (dsem 88)) () (owed_7 c) :=
  mayWait_of c (.dma (dsem 88)) (owed_7 c) 0 4 rfl (by decide) (owed_pos_7 c)
omit [FloatOps F] in
theorem mayWait_loc1_1 (c : Dev nD) :
    (levAts L lv : sProp 𝕄) ⊢ MayWait (c : Thread nD τ) (.dma (dsem 89)) () (owed_7 c) :=
  mayWait_of c (.dma (dsem 89)) (owed_7 c) 0 4 rfl (by decide) (owed_pos_7 c)
omit [FloatOps F] in
theorem mayWait_rs0_2 (c : Dev nD) :
    (levAts L lv : sProp 𝕄) ⊢ MayWait (c : Thread nD τ) (.dma (dsem 30)) () (owed_9 c) :=
  mayWait_of c (.dma (dsem 30)) (owed_9 c) 4 5 rfl (by decide) (owed_pos_9 c)
omit [FloatOps F] in
theorem mayWait_rs1_2 (c : Dev nD) :
    (levAts L lv : sProp 𝕄) ⊢ MayWait (c : Thread nD τ) (.dma (dsem 44)) () (owed_9 c) :=
  mayWait_of c (.dma (dsem 44)) (owed_9 c) 4 5 rfl (by decide) (owed_pos_9 c)
omit [FloatOps F] in
theorem mayWait_loc0_2 (c : Dev nD) :
    (levAts L lv : sProp 𝕄) ⊢ MayWait (c : Thread nD τ) (.dma (dsem 88)) () (owed_9 c) :=
  mayWait_of c (.dma (dsem 88)) (owed_9 c) 0 5 rfl (by decide) (owed_pos_9 c)
omit [FloatOps F] in
theorem mayWait_loc1_2 (c : Dev nD) :
    (levAts L lv : sProp 𝕄) ⊢ MayWait (c : Thread nD τ) (.dma (dsem 89)) () (owed_9 c) :=
  mayWait_of c (.dma (dsem 89)) (owed_9 c) 0 5 rfl (by decide) (owed_pos_9 c)
omit [FloatOps F] in
theorem mayWait_rs0_3 (c : Dev nD) :
    (levAts L lv : sProp 𝕄) ⊢ MayWait (c : Thread nD τ) (.dma (dsem 31)) () (owed_11 c) :=
  mayWait_of c (.dma (dsem 31)) (owed_11 c) 5 6 rfl (by decide) (owed_pos_11 c)
omit [FloatOps F] in
theorem mayWait_rs1_3 (c : Dev nD) :
    (levAts L lv : sProp 𝕄) ⊢ MayWait (c : Thread nD τ) (.dma (dsem 45)) () (owed_11 c) :=
  mayWait_of c (.dma (dsem 45)) (owed_11 c) 5 6 rfl (by decide) (owed_pos_11 c)
omit [FloatOps F] in
theorem mayWait_loc0_3 (c : Dev nD) :
    (levAts L lv : sProp 𝕄) ⊢ MayWait (c : Thread nD τ) (.dma (dsem 88)) () (owed_11 c) :=
  mayWait_of c (.dma (dsem 88)) (owed_11 c) 0 6 rfl (by decide) (owed_pos_11 c)
omit [FloatOps F] in
theorem mayWait_loc1_3 (c : Dev nD) :
    (levAts L lv : sProp 𝕄) ⊢ MayWait (c : Thread nD τ) (.dma (dsem 89)) () (owed_11 c) :=
  mayWait_of c (.dma (dsem 89)) (owed_11 c) 0 6 rfl (by decide) (owed_pos_11 c)
omit [FloatOps F] in
theorem mayWait_rs0_4 (c : Dev nD) :
    (levAts L lv : sProp 𝕄) ⊢ MayWait (c : Thread nD τ) (.dma (dsem 32)) () (owed_13 c) :=
  mayWait_of c (.dma (dsem 32)) (owed_13 c) 6 7 rfl (by decide) (owed_pos_13 c)
omit [FloatOps F] in
theorem mayWait_rs1_4 (c : Dev nD) :
    (levAts L lv : sProp 𝕄) ⊢ MayWait (c : Thread nD τ) (.dma (dsem 46)) () (owed_13 c) :=
  mayWait_of c (.dma (dsem 46)) (owed_13 c) 6 7 rfl (by decide) (owed_pos_13 c)
omit [FloatOps F] in
theorem mayWait_loc0_4 (c : Dev nD) :
    (levAts L lv : sProp 𝕄) ⊢ MayWait (c : Thread nD τ) (.dma (dsem 88)) () (owed_13 c) :=
  mayWait_of c (.dma (dsem 88)) (owed_13 c) 0 7 rfl (by decide) (owed_pos_13 c)
omit [FloatOps F] in
theorem mayWait_loc1_4 (c : Dev nD) :
    (levAts L lv : sProp 𝕄) ⊢ MayWait (c : Thread nD τ) (.dma (dsem 89)) () (owed_13 c) :=
  mayWait_of c (.dma (dsem 89)) (owed_13 c) 0 7 rfl (by decide) (owed_pos_13 c)
omit [FloatOps F] in
theorem mayWait_rs0_5 (c : Dev nD) :
    (levAts L lv : sProp 𝕄) ⊢ MayWait (c : Thread nD τ) (.dma (dsem 33)) () (owed_15 c) :=
  mayWait_of c (.dma (dsem 33)) (owed_15 c) 7 8 rfl (by decide) (owed_pos_15 c)
omit [FloatOps F] in
theorem mayWait_rs1_5 (c : Dev nD) :
    (levAts L lv : sProp 𝕄) ⊢ MayWait (c : Thread nD τ) (.dma (dsem 47)) () (owed_15 c) :=
  mayWait_of c (.dma (dsem 47)) (owed_15 c) 7 8 rfl (by decide) (owed_pos_15 c)
omit [FloatOps F] in
theorem mayWait_loc0_5 (c : Dev nD) :
    (levAts L lv : sProp 𝕄) ⊢ MayWait (c : Thread nD τ) (.dma (dsem 88)) () (owed_15 c) :=
  mayWait_of c (.dma (dsem 88)) (owed_15 c) 0 8 rfl (by decide) (owed_pos_15 c)
omit [FloatOps F] in
theorem mayWait_loc1_5 (c : Dev nD) :
    (levAts L lv : sProp 𝕄) ⊢ MayWait (c : Thread nD τ) (.dma (dsem 89)) () (owed_15 c) :=
  mayWait_of c (.dma (dsem 89)) (owed_15 c) 0 8 rfl (by decide) (owed_pos_15 c)
omit [FloatOps F] in
theorem mayWait_rs0_6 (c : Dev nD) :
    (levAts L lv : sProp 𝕄) ⊢ MayWait (c : Thread nD τ) (.dma (dsem 34)) () (owed_17 c) :=
  mayWait_of c (.dma (dsem 34)) (owed_17 c) 8 9 rfl (by decide) (owed_pos_17 c)
omit [FloatOps F] in
theorem mayWait_rs1_6 (c : Dev nD) :
    (levAts L lv : sProp 𝕄) ⊢ MayWait (c : Thread nD τ) (.dma (dsem 48)) () (owed_17 c) :=
  mayWait_of c (.dma (dsem 48)) (owed_17 c) 8 9 rfl (by decide) (owed_pos_17 c)
omit [FloatOps F] in
theorem mayWait_loc0_6 (c : Dev nD) :
    (levAts L lv : sProp 𝕄) ⊢ MayWait (c : Thread nD τ) (.dma (dsem 88)) () (owed_17 c) :=
  mayWait_of c (.dma (dsem 88)) (owed_17 c) 0 9 rfl (by decide) (owed_pos_17 c)
omit [FloatOps F] in
theorem mayWait_loc1_6 (c : Dev nD) :
    (levAts L lv : sProp 𝕄) ⊢ MayWait (c : Thread nD τ) (.dma (dsem 89)) () (owed_17 c) :=
  mayWait_of c (.dma (dsem 89)) (owed_17 c) 0 9 rfl (by decide) (owed_pos_17 c)
omit [FloatOps F] in
theorem mayWait_loc0_7 (c : Dev nD) :
    (levAts L lv : sProp 𝕄) ⊢ MayWait (c : Thread nD τ) (.dma (dsem 88)) () (owed_17 c) :=
  mayWait_of c (.dma (dsem 88)) (owed_17 c) 0 9 rfl (by decide) (owed_pos_17 c)
omit [FloatOps F] in
theorem mayWait_loc1_7 (c : Dev nD) :
    (levAts L lv : sProp 𝕄) ⊢ MayWait (c : Thread nD τ) (.dma (dsem 89)) () (owed_18 c) :=
  mayWait_of c (.dma (dsem 89)) (owed_18 c) 0 9 rfl (by decide) (owed_pos_18 c)
omit [FloatOps F] in
theorem mayWait_ag0_0 (c : Dev nD) :
    (levAts L lv : sProp 𝕄) ⊢ MayWait (c : Thread nD τ) (.dma (dsem 35)) () (owed_21 c) :=
  mayWait_of c (.dma (dsem 35)) (owed_21 c) 9 10 rfl (by decide) (owed_pos_21 c)
omit [FloatOps F] in
theorem mayWait_ag1_0 (c : Dev nD) :
    (levAts L lv : sProp 𝕄) ⊢ MayWait (c : Thread nD τ) (.dma (dsem 49)) () (owed_22 c) :=
  mayWait_of c (.dma (dsem 49)) (owed_22 c) 9 10 rfl (by decide) (owed_pos_22 c)
omit [FloatOps F] in
theorem mayWait_ag0_1 (c : Dev nD) :
    (levAts L lv : sProp 𝕄) ⊢ MayWait (c : Thread nD τ) (.dma (dsem 36)) () (owed_25 c) :=
  mayWait_of c (.dma (dsem 36)) (owed_25 c) 10 11 rfl (by decide) (owed_pos_25 c)
omit [FloatOps F] in
theorem mayWait_ag1_1 (c : Dev nD) :
    (levAts L lv : sProp 𝕄) ⊢ MayWait (c : Thread nD τ) (.dma (dsem 50)) () (owed_26 c) :=
  mayWait_of c (.dma (dsem 50)) (owed_26 c) 10 11 rfl (by decide) (owed_pos_26 c)
omit [FloatOps F] in
theorem mayWait_ag0_2 (c : Dev nD) :
    (levAts L lv : sProp 𝕄) ⊢ MayWait (c : Thread nD τ) (.dma (dsem 37)) () (owed_29 c) :=
  mayWait_of c (.dma (dsem 37)) (owed_29 c) 11 12 rfl (by decide) (owed_pos_29 c)
omit [FloatOps F] in
theorem mayWait_ag1_2 (c : Dev nD) :
    (levAts L lv : sProp 𝕄) ⊢ MayWait (c : Thread nD τ) (.dma (dsem 51)) () (owed_30 c) :=
  mayWait_of c (.dma (dsem 51)) (owed_30 c) 11 12 rfl (by decide) (owed_pos_30 c)
omit [FloatOps F] in
theorem mayWait_ag0_3 (c : Dev nD) :
    (levAts L lv : sProp 𝕄) ⊢ MayWait (c : Thread nD τ) (.dma (dsem 38)) () (owed_33 c) :=
  mayWait_of c (.dma (dsem 38)) (owed_33 c) 12 13 rfl (by decide) (owed_pos_33 c)
omit [FloatOps F] in
theorem mayWait_ag1_3 (c : Dev nD) :
    (levAts L lv : sProp 𝕄) ⊢ MayWait (c : Thread nD τ) (.dma (dsem 52)) () (owed_34 c) :=
  mayWait_of c (.dma (dsem 52)) (owed_34 c) 12 13 rfl (by decide) (owed_pos_34 c)
omit [FloatOps F] in
theorem mayWait_ag0_4 (c : Dev nD) :
    (levAts L lv : sProp 𝕄) ⊢ MayWait (c : Thread nD τ) (.dma (dsem 39)) () (owed_37 c) :=
  mayWait_of c (.dma (dsem 39)) (owed_37 c) 13 14 rfl (by decide) (owed_pos_37 c)
omit [FloatOps F] in
theorem mayWait_ag1_4 (c : Dev nD) :
    (levAts L lv : sProp 𝕄) ⊢ MayWait (c : Thread nD τ) (.dma (dsem 53)) () (owed_38 c) :=
  mayWait_of c (.dma (dsem 53)) (owed_38 c) 13 14 rfl (by decide) (owed_pos_38 c)
omit [FloatOps F] in
theorem mayWait_ag0_5 (c : Dev nD) :
    (levAts L lv : sProp 𝕄) ⊢ MayWait (c : Thread nD τ) (.dma (dsem 40)) () (owed_41 c) :=
  mayWait_of c (.dma (dsem 40)) (owed_41 c) 14 15 rfl (by decide) (owed_pos_41 c)
omit [FloatOps F] in
theorem mayWait_ag1_5 (c : Dev nD) :
    (levAts L lv : sProp 𝕄) ⊢ MayWait (c : Thread nD τ) (.dma (dsem 54)) () (owed_42 c) :=
  mayWait_of c (.dma (dsem 54)) (owed_42 c) 14 15 rfl (by decide) (owed_pos_42 c)
omit [FloatOps F] in
theorem mayWait_ag0_6 (c : Dev nD) :
    (levAts L lv : sProp 𝕄) ⊢ MayWait (c : Thread nD τ) (.dma (dsem 41)) () (owed_45 c) :=
  mayWait_of c (.dma (dsem 41)) (owed_45 c) 15 50 rfl (by decide) (owed_pos_45 c)
omit [FloatOps F] in
theorem mayWait_ag1_6 (c : Dev nD) :
    (levAts L lv : sProp 𝕄) ⊢ MayWait (c : Thread nD τ) (.dma (dsem 55)) () (owed_46 c) :=
  mayWait_of c (.dma (dsem 55)) (owed_46 c) 15 50 rfl (by decide) (owed_pos_46 c)

/-- info: 'Cert.Kernel.State.owed_pos_0' depends on axioms: [propext, Classical.choice, Quot.sound] -/
#guard_msgs in #print axioms owed_pos_0

/-- info: 'Cert.Kernel.State.mayWait_bar' depends on axioms: [propext, Classical.choice, Quot.sound] -/
#guard_msgs in #print axioms mayWait_bar

/-- info: 'Cert.Kernel.State.mayWait_ag1_6' depends on axioms: [propext, Classical.choice, Quot.sound] -/
#guard_msgs in #print axioms mayWait_ag1_6

end Cert.Kernel.State

end
-- ==== Proof.Bits.Parts.lean ====
/-
  The buffers cut into the pieces the copies move. The argument and result arrays of 16384 rows are each the
  disjoint union of 32 chunks of 512 rows; the exchange buffer is the disjoint union of its 14 slots (direction,
  step) and the staging buffer of its 2 slots (direction). Ownership of a whole buffer is therefore the separating
  conjunction of the ownerships of its pieces, and a piece's view covers exactly its index set.
-/
import proofs.«900727_g7700000000000728_dist_ar_v7x_xyz2x4x4_y_m16384_n1024_f32_1_alg».proof.Proof.Bits.Vals
import Idealize.ShloMosaic.Lib.Pipeline.Value

noncomputable section

namespace Cert.Kernel.Parts

open Cert.Kernel Cert.Kernel.Gen Cert.Kernel.Ring Cert.Kernel.Cells Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The 32 chunks of 512 rows of an array of 16384 rows -/

/-- Chunk `n` lies inside the array. -/
theorem chunk_inb (n : Fin 32) :
    ∀ a, (![512 * n.val, 0] : Fin 2 → ℕ) a + S512x1024.size a ≤ S16384x1024.size a := by
  have hn := n.isLt
  refine Fin.forall_fin_two.mpr ⟨?_, ?_⟩
  · show 512 * n.val + 512 ≤ 16384; omega
  · show 0 + 1024 ≤ 1024; omega

/-- The indices of rows `[512 n, 512 n + 512)`. -/
def chunkSet (n : Fin 32) : Finset S16384x1024.Idx :=
  (Rect.unit (s := S16384x1024) ![512 * n.val, 0] S512x1024.size (chunk_inb n)).set

theorem mem_chunkSet (n : Fin 32) (i : S16384x1024.Idx) : i ∈ chunkSet n ↔ (i 0).val / 512 = n.val := by
  unfold chunkSet
  rw [Rect.mem_set_unit, Fin.forall_fin_two]
  have h1 : (i 1).val < 1024 := (i 1).isLt
  show (512 * n.val ≤ (i 0).val ∧ (i 0).val < 512 * n.val + 512) ∧ (0 ≤ (i 1).val ∧ (i 1).val < 0 + 1024) ↔ _
  omega

theorem chunk_disjoint (a b : Fin 32) (h : a ≠ b) : Disjoint (chunkSet a) (chunkSet b) :=
  Finset.disjoint_left.mpr fun i ha hb =>
    h (Fin.ext (((mem_chunkSet a i).mp ha).symm.trans ((mem_chunkSet b i).mp hb)))

theorem chunk_cover : (Finset.univ : Finset S16384x1024.Idx) = Finset.univ.biUnion chunkSet := by
  ext i
  simp only [Finset.mem_univ, Finset.mem_biUnion, true_and, true_iff]
  have h0 : (i 0).val < 16384 := (i 0).isLt
  exact ⟨⟨(i 0).val / 512, by omega⟩, (mem_chunkSet _ i).mpr rfl⟩

/-! ## The result and argument arrays cut into their chunks -/

/-- The result array whole is its 32 chunks. -/
theorem out_eq (c : Dev nD) (q : PosShare TreeShare) (f : Buf (Elt F) ((c : Thread nD τ).loc main_v1)) :
    (((c : Thread nD τ).loc main_v1) ↦{q} f : sProp 𝕄)
      = bigSep Finset.univ fun n : Fin 32 => (((c : Thread nD τ).loc main_v1) ↦[chunkSet n]{q} f : sProp 𝕄) := by
  have h := pointsTo_biUnion (Ix := Unit) (Name := ℕ) (U := UU) (Lvl := ℕ) (ℓ := (c : Thread nD τ).loc main_v1) (q := q) (f := f)
    Finset.univ chunkSet (fun a _ b _ hab => chunk_disjoint a b hab)
  have hc : (Finset.univ : Finset (Idx ((c : Thread nD τ).loc main_v1))) = Finset.univ.biUnion chunkSet := chunk_cover
  rw [← h, ← hc]

theorem split_out (c : Dev nD) (q : PosShare TreeShare) (f : Buf (Elt F) ((c : Thread nD τ).loc main_v1)) :
    (((c : Thread nD τ).loc main_v1) ↦{q} f : sProp 𝕄)
      ⊢ bigSep Finset.univ fun n : Fin 32 => (((c : Thread nD τ).loc main_v1) ↦[chunkSet n]{q} f : sProp 𝕄) :=
  Entails.of_eq (out_eq c q f)

theorem join_out (c : Dev nD) (q : PosShare TreeShare) (f : Buf (Elt F) ((c : Thread nD τ).loc main_v1)) :
    (bigSep Finset.univ fun n : Fin 32 => (((c : Thread nD τ).loc main_v1) ↦[chunkSet n]{q} f : sProp 𝕄))
      ⊢ (((c : Thread nD τ).loc main_v1) ↦{q} f : sProp 𝕄) :=
  Entails.of_eq (out_eq c q f).symm

/-- The argument array whole is its 32 chunks. -/
theorem x_eq (c : Dev nD) (q : PosShare TreeShare) (f : Buf (Elt F) ((c : Thread nD τ).loc main_arg0)) :
    (((c : Thread nD τ).loc main_arg0) ↦{q} f : sProp 𝕄)
      = bigSep Finset.univ fun n : Fin 32 => (((c : Thread nD τ).loc main_arg0) ↦[chunkSet n]{q} f : sProp 𝕄) := by
  have h := pointsTo_biUnion (Ix := Unit) (Name := ℕ) (U := UU) (Lvl := ℕ) (ℓ := (c : Thread nD τ).loc main_arg0) (q := q) (f := f)
    Finset.univ chunkSet (fun a _ b _ hab => chunk_disjoint a b hab)
  have hc : (Finset.univ : Finset (Idx ((c : Thread nD τ).loc main_arg0))) = Finset.univ.biUnion chunkSet := chunk_cover
  rw [← h, ← hc]

theorem split_x (c : Dev nD) (q : PosShare TreeShare) (f : Buf (Elt F) ((c : Thread nD τ).loc main_arg0)) :
    (((c : Thread nD τ).loc main_arg0) ↦{q} f : sProp 𝕄)
      ⊢ bigSep Finset.univ fun n : Fin 32 => (((c : Thread nD τ).loc main_arg0) ↦[chunkSet n]{q} f : sProp 𝕄) :=
  Entails.of_eq (x_eq c q f)

theorem join_x (c : Dev nD) (q : PosShare TreeShare) (f : Buf (Elt F) ((c : Thread nD τ).loc main_arg0)) :
    (bigSep Finset.univ fun n : Fin 32 => (((c : Thread nD τ).loc main_arg0) ↦[chunkSet n]{q} f : sProp 𝕄))
      ⊢ (((c : Thread nD τ).loc main_arg0) ↦{q} f : sProp 𝕄) :=
  Entails.of_eq (x_eq c q f).symm

/-! ## A chunk's view covers the chunk -/

/-- The view of the result array's chunk at offset `(512 n, 0)` covers exactly chunk `n`. -/
theorem oCh_set (off : Fin 2 → ℕ) (h : ∀ a, off a + S512x1024.size a ≤ S16384x1024.size a) (n : Fin 32)
    (e : off = ![512 * n.val, 0]) : (oCh off h).view.set = chunkSet n := by
  subst e
  exact View.set_slice_whole main_v1 _

/-- The same for the argument array. -/
theorem xCh_set (off : Fin 2 → ℕ) (h : ∀ a, off a + S512x1024.size a ≤ S16384x1024.size a) (n : Fin 32)
    (e : off = ![512 * n.val, 0]) : (xCh off h).view.set = chunkSet n := by
  subst e
  exact View.set_slice_whole main_arg0 _

/-! ## The exchange buffer's 14 slots and the staging buffer's 2 -/

/-- Slot `(d, s)` lies inside the exchange buffer. -/
theorem slot_inb (d : Fin 2) (s : Fin 7) :
    ∀ a, (![d.val, s.val, 0, 0] : Fin 4 → ℕ) a + S1x1x512x1024.size a ≤ S2x7x512x1024.size a := by
  have hd := d.isLt
  have hs := s.isLt
  intro a
  match a with
  | ⟨0, _⟩ => show d.val + 1 ≤ 2; omega
  | ⟨1, _⟩ => show s.val + 1 ≤ 7; omega
  | ⟨2, _⟩ => show 0 + 512 ≤ 512; omega
  | ⟨3, _⟩ => show 0 + 1024 ≤ 1024; omega

/-- The indices of slot `(d, s)` of the exchange buffer. -/
def slotSet (d : Fin 2) (s : Fin 7) : Finset S2x7x512x1024.Idx :=
  (Rect.unit (s := S2x7x512x1024) ![d.val, s.val, 0, 0] S1x1x512x1024.size (slot_inb d s)).set

theorem mem_slotSet (d : Fin 2) (s : Fin 7) (i : S2x7x512x1024.Idx) :
    i ∈ slotSet d s ↔ (i 0).val = d.val ∧ (i 1).val = s.val := by
  unfold slotSet
  rw [Rect.mem_set_unit]
  constructor
  · intro h
    have h0 : d.val ≤ (i 0).val ∧ (i 0).val < d.val + 1 := h 0
    have h1 : s.val ≤ (i 1).val ∧ (i 1).val < s.val + 1 := h 1
    omega
  · rintro ⟨h0, h1⟩ a
    have h2 : (i 2).val < 512 := (i 2).isLt
    have h3 : (i 3).val < 1024 := (i 3).isLt
    match a with
    | ⟨0, _⟩ => show d.val ≤ (i 0).val ∧ (i 0).val < d.val + 1; omega
    | ⟨1, _⟩ => show s.val ≤ (i 1).val ∧ (i 1).val < s.val + 1; omega
    | ⟨2, _⟩ => show 0 ≤ (i 2).val ∧ (i 2).val < 0 + 512; omega
    | ⟨3, _⟩ => show 0 ≤ (i 3).val ∧ (i 3).val < 0 + 1024; omega

theorem slot_disjoint (a b : Fin 2 × Fin 7) (h : a ≠ b) : Disjoint (slotSet a.1 a.2) (slotSet b.1 b.2) :=
  Finset.disjoint_left.mpr fun i ha hb => by
    obtain ⟨a0, a1⟩ := (mem_slotSet _ _ i).mp ha
    obtain ⟨b0, b1⟩ := (mem_slotSet _ _ i).mp hb
    exact h (Prod.ext (Fin.ext (a0.symm.trans b0)) (Fin.ext (a1.symm.trans b1)))

theorem slot_cover :
    (Finset.univ : Finset S2x7x512x1024.Idx) = Finset.univ.biUnion fun p : Fin 2 × Fin 7 => slotSet p.1 p.2 := by
  ext i
  simp only [Finset.mem_univ, Finset.mem_biUnion, true_and, true_iff]
  have h0 : (i 0).val < 2 := (i 0).isLt
  have h1 : (i 1).val < 7 := (i 1).isLt
  exact ⟨(⟨(i 0).val, h0⟩, ⟨(i 1).val, h1⟩), (mem_slotSet _ _ i).mpr ⟨rfl, rfl⟩⟩

/-- The view of slot `(d, s)` covers exactly that slot. -/
theorem cSl_set (d s : ℕ) (h : ∀ a, (![d, s, 0, 0] : Fin 4 → ℕ) a + S1x1x512x1024.size a ≤ S2x7x512x1024.size a)
    (d' : Fin 2) (s' : Fin 7) (hd : d = d'.val) (hs : s = s'.val) : (cSl d s h).view.set = slotSet d' s' := by
  subst hd hs
  exact (View.set_reshape _ _).trans (View.set_slice_whole cc0_scratch0 _)

/-- The exchange buffer whole is its 14 slots. -/
theorem comm_eq (c : Dev nD) (q : PosShare TreeShare) (f : Buf (Elt F) ((c : Thread nD τ).loc cc0_scratch0)) :
    (((c : Thread nD τ).loc cc0_scratch0) ↦{q} f : sProp 𝕄)
      = bigSep Finset.univ fun p : Fin 2 × Fin 7 => (((c : Thread nD τ).loc cc0_scratch0) ↦[slotSet p.1 p.2]{q} f : sProp 𝕄) := by
  have h := pointsTo_biUnion (Ix := Unit) (Name := ℕ) (U := UU) (Lvl := ℕ) (ℓ := (c : Thread nD τ).loc cc0_scratch0) (q := q) (f := f)
    Finset.univ (fun p : Fin 2 × Fin 7 => slotSet p.1 p.2) (fun a _ b _ hab => slot_disjoint a b hab)
  have hc : (Finset.univ : Finset (Idx ((c : Thread nD τ).loc cc0_scratch0)))
      = Finset.univ.biUnion fun p : Fin 2 × Fin 7 => slotSet p.1 p.2 := slot_cover
  rw [← h, ← hc]

theorem split_comm (c : Dev nD) (q : PosShare TreeShare) (f : Buf (Elt F) ((c : Thread nD τ).loc cc0_scratch0)) :
    (((c : Thread nD τ).loc cc0_scratch0) ↦{q} f : sProp 𝕄)
      ⊢ bigSep Finset.univ fun p : Fin 2 × Fin 7 => (((c : Thread nD τ).loc cc0_scratch0) ↦[slotSet p.1 p.2]{q} f : sProp 𝕄) :=
  Entails.of_eq (comm_eq c q f)

theorem join_comm (c : Dev nD) (q : PosShare TreeShare) (f : Buf (Elt F) ((c : Thread nD τ).loc cc0_scratch0)) :
    (bigSep Finset.univ fun p : Fin 2 × Fin 7 => (((c : Thread nD τ).loc cc0_scratch0) ↦[slotSet p.1 p.2]{q} f : sProp 𝕄))
      ⊢ (((c : Thread nD τ).loc cc0_scratch0) ↦{q} f : sProp 𝕄) :=
  Entails.of_eq (comm_eq c q f).symm

/-- Slot `d` lies inside the staging buffer. -/
theorem stage_inb (d : Fin 2) :
    ∀ a, (![d.val, 0, 0] : Fin 3 → ℕ) a + S1x512x1024.size a ≤ S2x512x1024.size a := by
  have hd := d.isLt
  intro a
  match a with
  | ⟨0, _⟩ => show d.val + 1 ≤ 2; omega
  | ⟨1, _⟩ => show 0 + 512 ≤ 512; omega
  | ⟨2, _⟩ => show 0 + 1024 ≤ 1024; omega

/-- The indices of slot `d` of the staging buffer. -/
def stageSet (d : Fin 2) : Finset S2x512x1024.Idx :=
  (Rect.unit (s := S2x512x1024) ![d.val, 0, 0] S1x512x1024.size (stage_inb d)).set

theorem mem_stageSet (d : Fin 2) (i : S2x512x1024.Idx) : i ∈ stageSet d ↔ (i 0).val = d.val := by
  unfold stageSet
  rw [Rect.mem_set_unit]
  constructor
  · intro h
    have h0 : d.val ≤ (i 0).val ∧ (i 0).val < d.val + 1 := h 0
    omega
  · intro h0 a
    have h1 : (i 1).val < 512 := (i 1).isLt
    have h2 : (i 2).val < 1024 := (i 2).isLt
    match a with
    | ⟨0, _⟩ => show d.val ≤ (i 0).val ∧ (i 0).val < d.val + 1; omega
    | ⟨1, _⟩ => show 0 ≤ (i 1).val ∧ (i 1).val < 0 + 512; omega
    | ⟨2, _⟩ => show 0 ≤ (i 2).val ∧ (i 2).val < 0 + 1024; omega

theorem stage_disjoint (a b : Fin 2) (h : a ≠ b) : Disjoint (stageSet a) (stageSet b) :=
  Finset.disjoint_left.mpr fun i ha hb =>
    h (Fin.ext (((mem_stageSet a i).mp ha).symm.trans ((mem_stageSet b i).mp hb)))

theorem stage_cover : (Finset.univ : Finset S2x512x1024.Idx) = Finset.univ.biUnion stageSet := by
  ext i
  simp only [Finset.mem_univ, Finset.mem_biUnion, true_and, true_iff]
  have h0 : (i 0).val < 2 := (i 0).isLt
  exact ⟨⟨(i 0).val, h0⟩, (mem_stageSet _ i).mpr rfl⟩

/-- The view of slot `d` of the staging buffer covers exactly that slot. -/
theorem sSl_set (d : ℕ) (h : ∀ a, (![d, 0, 0] : Fin 3 → ℕ) a + S1x512x1024.size a ≤ S2x512x1024.size a)
    (d' : Fin 2) (hd : d = d'.val) : (sSl d h).view.set = stageSet d' := by
  subst hd
  exact (View.set_reshape _ _).trans (View.set_slice_whole cc0_scratch1 _)

/-- The staging buffer whole is its 2 slots. -/
theorem stage_eq (c : Dev nD) (q : PosShare TreeShare) (f : Buf (Elt F) ((c : Thread nD τ).loc cc0_scratch1)) :
    (((c : Thread nD τ).loc cc0_scratch1) ↦{q} f : sProp 𝕄)
      = bigSep Finset.univ fun d : Fin 2 => (((c : Thread nD τ).loc cc0_scratch1) ↦[stageSet d]{q} f : sProp 𝕄) := by
  have h := pointsTo_biUnion (Ix := Unit) (Name := ℕ) (U := UU) (Lvl := ℕ) (ℓ := (c : Thread nD τ).loc cc0_scratch1) (q := q) (f := f)
    Finset.univ stageSet (fun a _ b _ hab => stage_disjoint a b hab)
  have hc : (Finset.univ : Finset (Idx ((c : Thread nD τ).loc cc0_scratch1))) = Finset.univ.biUnion stageSet := stage_cover
  rw [← h, ← hc]

theorem split_stage (c : Dev nD) (q : PosShare TreeShare) (f : Buf (Elt F) ((c : Thread nD τ).loc cc0_scratch1)) :
    (((c : Thread nD τ).loc cc0_scratch1) ↦{q} f : sProp 𝕄)
      ⊢ bigSep Finset.univ fun d : Fin 2 => (((c : Thread nD τ).loc cc0_scratch1) ↦[stageSet d]{q} f : sProp 𝕄) :=
  Entails.of_eq (stage_eq c q f)

theorem join_stage (c : Dev nD) (q : PosShare TreeShare) (f : Buf (Elt F) ((c : Thread nD τ).loc cc0_scratch1)) :
    (bigSep Finset.univ fun d : Fin 2 => (((c : Thread nD τ).loc cc0_scratch1) ↦[stageSet d]{q} f : sProp 𝕄))
      ⊢ (((c : Thread nD τ).loc cc0_scratch1) ↦{q} f : sProp 𝕄) :=
  Entails.of_eq (stage_eq c q f).symm

/-! ## The same written out as chains, in index order -/

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

omit [FloatOps F] in
theorem bigSep_fin2x7 (Φ : Fin 2 × Fin 7 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)] (by decide) (by decide) Φ

omit [FloatOps F] in
theorem bigSep_fin2 (Φ : Fin 2 → sProp 𝕄) : bigSep Finset.univ Φ = iprop(Φ 0 ∗ Φ 1) :=
  bigSep_univ_eq_bigSepL [0, 1] (by decide) (by decide) Φ

/-- The result array whole as the chain of its 32 chunks. -/
theorem chain32_out (c : Dev nD) (q : PosShare TreeShare) (f : Buf (Elt F) ((c : Thread nD τ).loc main_v1)) :
    (((c : Thread nD τ).loc main_v1) ↦{q} f : sProp 𝕄)
      = bigSepL [0, 1, 2, 3, 4, 5, 6, 7, 8, 9, 10, 11, 12, 13, 14, 15, 16, 17, 18, 19, 20, 21, 22, 23, 24, 25, 26, 27, 28, 29, 30, 31] fun n : Fin 32 => (((c : Thread nD τ).loc main_v1) ↦[chunkSet n]{q} f : sProp 𝕄) :=
  (out_eq c q f).trans (bigSep_fin32 _)

/-- The argument array whole as the chain of its 32 chunks. -/
theorem chain32_x (c : Dev nD) (q : PosShare TreeShare) (f : Buf (Elt F) ((c : Thread nD τ).loc main_arg0)) :
    (((c : Thread nD τ).loc main_arg0) ↦{q} f : sProp 𝕄)
      = bigSepL [0, 1, 2, 3, 4, 5, 6, 7, 8, 9, 10, 11, 12, 13, 14, 15, 16, 17, 18, 19, 20, 21, 22, 23, 24, 25, 26, 27, 28, 29, 30, 31] fun n : Fin 32 => (((c : Thread nD τ).loc main_arg0) ↦[chunkSet n]{q} f : sProp 𝕄) :=
  (x_eq c q f).trans (bigSep_fin32 _)

/-- The exchange buffer whole as the chain of its 14 slots. -/
theorem chain14 (c : Dev nD) (q : PosShare TreeShare) (f : Buf (Elt F) ((c : Thread nD τ).loc cc0_scratch0)) :
    (((c : Thread nD τ).loc cc0_scratch0) ↦{q} f : sProp 𝕄)
      = bigSepL [(0, 0), (0, 1), (0, 2), (0, 3), (0, 4), (0, 5), (0, 6), (1, 0), (1, 1), (1, 2), (1, 3), (1, 4), (1, 5), (1, 6)] fun p : Fin 2 × Fin 7 => (((c : Thread nD τ).loc cc0_scratch0) ↦[slotSet p.1 p.2]{q} f : sProp 𝕄) :=
  (comm_eq c q f).trans (bigSep_fin2x7 _)

/-- The staging buffer whole as the chain of its 2 slots. -/
theorem chain2 (c : Dev nD) (q : PosShare TreeShare) (f : Buf (Elt F) ((c : Thread nD τ).loc cc0_scratch1)) :
    (((c : Thread nD τ).loc cc0_scratch1) ↦{q} f : sProp 𝕄)
      = iprop((((c : Thread nD τ).loc cc0_scratch1) ↦[stageSet 0]{q} f) ∗ (((c : Thread nD τ).loc cc0_scratch1) ↦[stageSet 1]{q} f)) :=
  (stage_eq c q f).trans (bigSep_fin2 _)

/-- info: 'Cert.Kernel.Parts.chain32_out' depends on axioms: [propext, Classical.choice, Quot.sound] -/
#guard_msgs in #print axioms chain32_out

/-- info: 'Cert.Kernel.Parts.chain14' depends on axioms: [propext, Classical.choice, Quot.sound] -/
#guard_msgs in #print axioms chain14

/-- info: 'Cert.Kernel.Parts.chain2' depends on axioms: [propext, Classical.choice, Quot.sound] -/
#guard_msgs in #print axioms chain2

end Cert.Kernel.Parts

end
-- ==== Proof.Bits.Spell.lean ====
/-
  The buffers' pieces under the names the program gives them. A device's result and argument arrays are cut into
  32 chunks of 512 rows; the program reaches the 16 chunks of the device's own half of the rows through its offset
  chains evaluated at the device's own number, and the 16 chunks of the other half through the same chains
  evaluated at the pair partner's number. Ownership of a whole array is therefore the separating conjunction of
  the ownerships of the 32 chunks so named, and likewise the exchange buffer is its 14 slots and the staging
  buffer its 2 slots. Each statement is an equation of propositions, to be read in either direction.
-/
import proofs.«900727_g7700000000000728_dist_ar_v7x_xyz2x4x4_y_m16384_n1024_f32_1_alg».proof.Proof.Bits.Sched
import proofs.«900727_g7700000000000728_dist_ar_v7x_xyz2x4x4_y_m16384_n1024_f32_1_alg».proof.Proof.Bits.Parts
import proofs.«900727_g7700000000000728_dist_ar_v7x_xyz2x4x4_y_m16384_n1024_f32_1_alg».proof.Proof.Bits.Canon
import proofs.«900727_g7700000000000728_dist_ar_v7x_xyz2x4x4_y_m16384_n1024_f32_1_alg».proof.Proof.Bits.RingFacts

set_option maxRecDepth 16384

noncomputable section

namespace Cert.Kernel.Spell

open Cert.Kernel Cert.Kernel.Gen Cert.Kernel.Ring Cert.Kernel.Cells Cert.Kernel.Vals
open Cert.Kernel.Sched Cert.Kernel.Parts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunk each position of the chain names

  The chain lists, for the device itself and then for its pair partner, direction 0 and then direction 1; within
  a direction first the chunk one step ahead in the direction of travel, then the device's own chunk and the
  chunks one, two, … six steps behind it. Position i of the chain is therefore the chunk whose first row is
  `rowAt` of the device or its partner, at direction `dirOf i` and step `stepOf i`. -/

/-- Direction of the chain's position i. -/
def dirOf (i : Fin 32) : ℕ := (i.val / 8) % 2
/-- Ring position, counted from the device's own, of the chain's position i. -/
def stepOf (i : Fin 32) : ℕ := if i.val % 16 < 8 then (9 - i.val % 16) % 8 else (i.val % 16 - 1) % 8
/-- The device at whose number the offset chains are evaluated at position i: the device itself for the first
    sixteen positions, its pair partner for the others. -/
def whoOf (c : Dev nD) (i : Fin 32) : Dev nD := if i.val < 16 then c else partD c

theorem no_lt (c : Dev nD) (i : Fin 32) : rowAt (whoOf c i) (dirOf i) (stepOf i) / 512 < 32 := by
  have h := rowAt_lt (whoOf c i) (dirOf i) (stepOf i) (Nat.mod_lt _ (by decide))
  omega

/-- The number of the chunk at position i of device c's chain. -/
def no (c : Dev nD) (i : Fin 32) : Fin 32 := ⟨rowAt (whoOf c i) (dirOf i) (stepOf i) / 512, no_lt c i⟩

/-- Every chunk is named exactly once. -/
theorem no_bij : ∀ c : Dev nD, Function.Bijective (no c) := by decide +kernel

/-- The chain's positions as a renumbering of the chunks. -/
def noE (c : Dev nD) : Fin 32 ≃ Fin 32 := Equiv.ofBijective (no c) (no_bij c)

/-- A view of 512 rows of the result array from the first row of the chunk of direction d and step j of device
    c' covers the chunk of that number. -/
theorem oCh_row (c' : Dev nD) (d j : ℕ) (off : Fin 2 → ℕ) (h : ∀ a, off a + S512x1024.size a ≤ S16384x1024.size a)
    (n : Fin 32) (e : off = ![rowAt c' d j, 0]) (hn : n.val = rowAt c' d j / 512) : (oCh off h).view.set = chunkSet n := by
  refine oCh_set off h n ?_
  have h5 : rowAt c' d j = 512 * (rowAt c' d j / 512) := by have := rowAt_mod_512 c' d j; omega
  rw [e, hn]
  exact congrArg (fun r : ℕ => (![r, 0] : Fin 2 → ℕ)) h5

/-- The same for the argument array. -/
theorem xCh_row (c' : Dev nD) (d j : ℕ) (off : Fin 2 → ℕ) (h : ∀ a, off a + S512x1024.size a ≤ S16384x1024.size a)
    (n : Fin 32) (e : off = ![rowAt c' d j, 0]) (hn : n.val = rowAt c' d j / 512) : (xCh off h).view.set = chunkSet n := by
  refine xCh_set off h n ?_
  have h5 : rowAt c' d j = 512 * (rowAt c' d j / 512) := by have := rowAt_mod_512 c' d j; omega
  rw [e, hn]
  exact congrArg (fun r : ℕ => (![r, 0] : Fin 2 → ℕ)) h5

omit [FloatOps F] in
/-- Equal conjuncts give equal conjunctions. -/
theorem sep_eq {P P' Q Q' : sProp 𝕄} (hP : P = P') (hQ : Q = Q') : iprop(P ∗ Q) = iprop(P' ∗ Q') := by
  rw [hP, hQ]

/-- Chunk n of device c's result array is the region the program names by an offset that is the chunk's first row. -/
theorem out_piece (c c' : Dev nD) (d j : ℕ) (off : Fin 2 → ℕ) (h : ∀ a, off a + S512x1024.size a ≤ S16384x1024.size a)
    (n : Fin 32) (e : off = ![rowAt c' d j, 0]) (hn : n.val = rowAt c' d j / 512) (q : PosShare TreeShare)
    (f : Buf (Elt F) ((c : Thread nD τ).loc main_v1)) :
    (((c : Thread nD τ).loc main_v1) ↦[chunkSet n]{q} f : sProp 𝕄) = rpts c (oCh off h) q f := by
  unfold rpts
  rw [oCh_row c' d j off h n e hn]

/-- The same for the argument array. -/
theorem x_piece (c c' : Dev nD) (d j : ℕ) (off : Fin 2 → ℕ) (h : ∀ a, off a + S512x1024.size a ≤ S16384x1024.size a)
    (n : Fin 32) (e : off = ![rowAt c' d j, 0]) (hn : n.val = rowAt c' d j / 512) (q : PosShare TreeShare)
    (f : Buf (Elt F) ((c : Thread nD τ).loc main_arg0)) :
    (((c : Thread nD τ).loc main_arg0) ↦[chunkSet n]{q} f : sProp 𝕄) = rpts c (xCh off h) q f := by
  unfold rpts
  rw [xCh_row c' d j off h n e hn]

/-! ## The result array -/

/-- The result array whole is its 32 chunks under the program's names: the device's own half, then the partner's. -/
theorem out_spelled (c : Dev nD) (q : PosShare TreeShare) (f : Buf (Elt F) ((c : Thread nD τ).loc main_v1)) :
    (((c : Thread nD τ).loc main_v1) ↦{q} f : sProp 𝕄)
      = iprop(rpts c (oCh (k0_off3 c 0#32 1#32) (k0_off3_inb c 0)) q f
          ∗ rpts c (oCh (k0_off2 c 0#32 0#32) (k0_off2_inb c 14)) q f
          ∗ rpts c (oCh (k0_off2 c 0#32 1#32) (k0_off2_inb c 0)) q f
          ∗ rpts c (oCh (k0_off2 c 0#32 2#32) (k0_off2_inb c 2)) q f
          ∗ rpts c (oCh (k0_off2 c 0#32 3#32) (k0_off2_inb c 4)) q f
          ∗ rpts c (oCh (k0_off2 c 0#32 4#32) (k0_off2_inb c 6)) q f
          ∗ rpts c (oCh (k0_off2 c 0#32 5#32) (k0_off2_inb c 8)) q f
          ∗ rpts c (oCh (k0_off2 c 0#32 6#32) (k0_off2_inb c 10)) q f
          ∗ rpts c (oCh (k0_off3 c 4096#32 4294967295#32) (k0_off3_inb c 1)) q f
          ∗ rpts c (oCh (k0_off2 c 4096#32 0#32) (k0_off2_inb c 15)) q f
          ∗ rpts c (oCh (k0_off2 c 4096#32 4294967295#32) (k0_off2_inb c 1)) q f
          ∗ rpts c (oCh (k0_off2 c 4096#32 4294967294#32) (k0_off2_inb c 3)) q f
          ∗ rpts c (oCh (k0_off2 c 4096#32 4294967293#32) (k0_off2_inb c 5)) q f
          ∗ rpts c (oCh (k0_off2 c 4096#32 4294967292#32) (k0_off2_inb c 7)) q f
          ∗ rpts c (oCh (k0_off2 c 4096#32 4294967291#32) (k0_off2_inb c 9)) q f
          ∗ rpts c (oCh (k0_off2 c 4096#32 4294967290#32) (k0_off2_inb c 11)) q f
          ∗ rpts c (oCh (k0_off3 (partD c) 0#32 1#32) (k0_off3_inb (partD c) 0)) q f
          ∗ rpts c (oCh (k0_off2 (partD c) 0#32 0#32) (k0_off2_inb (partD c) 14)) q f
          ∗ rpts c (oCh (k0_off2 (partD c) 0#32 1#32) (k0_off2_inb (partD c) 0)) q f
          ∗ rpts c (oCh (k0_off2 (partD c) 0#32 2#32) (k0_off2_inb (partD c) 2)) q f
          ∗ rpts c (oCh (k0_off2 (partD c) 0#32 3#32) (k0_off2_inb (partD c) 4)) q f
          ∗ rpts c (oCh (k0_off2 (partD c) 0#32 4#32) (k0_off2_inb (partD c) 6)) q f
          ∗ rpts c (oCh (k0_off2 (partD c) 0#32 5#32) (k0_off2_inb (partD c) 8)) q f
          ∗ rpts c (oCh (k0_off2 (partD c) 0#32 6#32) (k0_off2_inb (partD c) 10)) q f
          ∗ rpts c (oCh (k0_off3 (partD c) 4096#32 4294967295#32) (k0_off3_inb (partD c) 1)) q f
          ∗ rpts c (oCh (k0_off2 (partD c) 4096#32 0#32) (k0_off2_inb (partD c) 15)) q f
          ∗ rpts c (oCh (k0_off2 (partD c) 4096#32 4294967295#32) (k0_off2_inb (partD c) 1)) q f
          ∗ rpts c (oCh (k0_off2 (partD c) 4096#32 4294967294#32) (k0_off2_inb (partD c) 3)) q f
          ∗ rpts c (oCh (k0_off2 (partD c) 4096#32 4294967293#32) (k0_off2_inb (partD c) 5)) q f
          ∗ rpts c (oCh (k0_off2 (partD c) 4096#32 4294967292#32) (k0_off2_inb (partD c) 7)) q f
          ∗ rpts c (oCh (k0_off2 (partD c) 4096#32 4294967291#32) (k0_off2_inb (partD c) 9)) q f
          ∗ rpts c (oCh (k0_off2 (partD c) 4096#32 4294967290#32) (k0_off2_inb (partD c) 11)) q f) := by
  refine (out_eq c q f).trans ((bigSep_univ_equiv (noE c) _).trans ((bigSep_fin32 _).trans ?_))
  exact (sep_eq (out_piece c c 0 1 _ _ (no c 0) (off3_0 c) rfl q f)
    (sep_eq (out_piece c c 0 0 _ _ (no c 1) (off2_0_0 c) rfl q f)
    (sep_eq (out_piece c c 0 7 _ _ (no c 2) (off2_0_1 c) rfl q f)
    (sep_eq (out_piece c c 0 6 _ _ (no c 3) (off2_0_2 c) rfl q f)
    (sep_eq (out_piece c c 0 5 _ _ (no c 4) (off2_0_3 c) rfl q f)
    (sep_eq (out_piece c c 0 4 _ _ (no c 5) (off2_0_4 c) rfl q f)
    (sep_eq (out_piece c c 0 3 _ _ (no c 6) (off2_0_5 c) rfl q f)
    (sep_eq (out_piece c c 0 2 _ _ (no c 7) (off2_0_6 c) rfl q f)
    (sep_eq (out_piece c c 1 7 _ _ (no c 8) (off3_1 c) rfl q f)
    (sep_eq (out_piece c c 1 0 _ _ (no c 9) (off2_1_0 c) rfl q f)
    (sep_eq (out_piece c c 1 1 _ _ (no c 10) (off2_1_1 c) rfl q f)
    (sep_eq (out_piece c c 1 2 _ _ (no c 11) (off2_1_2 c) rfl q f)
    (sep_eq (out_piece c c 1 3 _ _ (no c 12) (off2_1_3 c) rfl q f)
    (sep_eq (out_piece c c 1 4 _ _ (no c 13) (off2_1_4 c) rfl q f)
    (sep_eq (out_piece c c 1 5 _ _ (no c 14) (off2_1_5 c) rfl q f)
    (sep_eq (out_piece c c 1 6 _ _ (no c 15) (off2_1_6 c) rfl q f)
    (sep_eq (out_piece c (partD c) 0 1 _ _ (no c 16) (off3_0 (partD c)) rfl q f)
    (sep_eq (out_piece c (partD c) 0 0 _ _ (no c 17) (off2_0_0 (partD c)) rfl q f)
    (sep_eq (out_piece c (partD c) 0 7 _ _ (no c 18) (off2_0_1 (partD c)) rfl q f)
    (sep_eq (out_piece c (partD c) 0 6 _ _ (no c 19) (off2_0_2 (partD c)) rfl q f)
    (sep_eq (out_piece c (partD c) 0 5 _ _ (no c 20) (off2_0_3 (partD c)) rfl q f)
    (sep_eq (out_piece c (partD c) 0 4 _ _ (no c 21) (off2_0_4 (partD c)) rfl q f)
    (sep_eq (out_piece c (partD c) 0 3 _ _ (no c 22) (off2_0_5 (partD c)) rfl q f)
    (sep_eq (out_piece c (partD c) 0 2 _ _ (no c 23) (off2_0_6 (partD c)) rfl q f)
    (sep_eq (out_piece c (partD c) 1 7 _ _ (no c 24) (off3_1 (partD c)) rfl q f)
    (sep_eq (out_piece c (partD c) 1 0 _ _ (no c 25) (off2_1_0 (partD c)) rfl q f)
    (sep_eq (out_piece c (partD c) 1 1 _ _ (no c 26) (off2_1_1 (partD c)) rfl q f)
    (sep_eq (out_piece c (partD c) 1 2 _ _ (no c 27) (off2_1_2 (partD c)) rfl q f)
    (sep_eq (out_piece c (partD c) 1 3 _ _ (no c 28) (off2_1_3 (partD c)) rfl q f)
    (sep_eq (out_piece c (partD c) 1 4 _ _ (no c 29) (off2_1_4 (partD c)) rfl q f)
    (sep_eq (out_piece c (partD c) 1 5 _ _ (no c 30) (off2_1_5 (partD c)) rfl q f)
    (out_piece c (partD c) 1 6 _ _ (no c 31) (off2_1_6 (partD c)) rfl q f))))))))))))))))))))))))))))))))

/-! ## The argument array -/

/-- The argument array whole is its 32 chunks under the program's names: the device's own half, then the partner's. -/
theorem x_spelled (c : Dev nD) (q : PosShare TreeShare) (f : Buf (Elt F) ((c : Thread nD τ).loc main_arg0)) :
    (((c : Thread nD τ).loc main_arg0) ↦{q} f : sProp 𝕄)
      = iprop(rpts c (xCh (k0_off3 c 0#32 1#32) (k0_off3_inb c 0)) q f
          ∗ rpts c (xCh (k0_off2 c 0#32 0#32) (k0_off2_inb c 14)) q f
          ∗ rpts c (xCh (k0_off2 c 0#32 1#32) (k0_off2_inb c 0)) q f
          ∗ rpts c (xCh (k0_off2 c 0#32 2#32) (k0_off2_inb c 2)) q f
          ∗ rpts c (xCh (k0_off2 c 0#32 3#32) (k0_off2_inb c 4)) q f
          ∗ rpts c (xCh (k0_off2 c 0#32 4#32) (k0_off2_inb c 6)) q f
          ∗ rpts c (xCh (k0_off2 c 0#32 5#32) (k0_off2_inb c 8)) q f
          ∗ rpts c (xCh (k0_off2 c 0#32 6#32) (k0_off2_inb c 10)) q f
          ∗ rpts c (xCh (k0_off3 c 4096#32 4294967295#32) (k0_off3_inb c 1)) q f
          ∗ rpts c (xCh (k0_off2 c 4096#32 0#32) (k0_off2_inb c 15)) q f
          ∗ rpts c (xCh (k0_off2 c 4096#32 4294967295#32) (k0_off2_inb c 1)) q f
          ∗ rpts c (xCh (k0_off2 c 4096#32 4294967294#32) (k0_off2_inb c 3)) q f
          ∗ rpts c (xCh (k0_off2 c 4096#32 4294967293#32) (k0_off2_inb c 5)) q f
          ∗ rpts c (xCh (k0_off2 c 4096#32 4294967292#32) (k0_off2_inb c 7)) q f
          ∗ rpts c (xCh (k0_off2 c 4096#32 4294967291#32) (k0_off2_inb c 9)) q f
          ∗ rpts c (xCh (k0_off2 c 4096#32 4294967290#32) (k0_off2_inb c 11)) q f
          ∗ rpts c (xCh (k0_off3 (partD c) 0#32 1#32) (k0_off3_inb (partD c) 0)) q f
          ∗ rpts c (xCh (k0_off2 (partD c) 0#32 0#32) (k0_off2_inb (partD c) 14)) q f
          ∗ rpts c (xCh (k0_off2 (partD c) 0#32 1#32) (k0_off2_inb (partD c) 0)) q f
          ∗ rpts c (xCh (k0_off2 (partD c) 0#32 2#32) (k0_off2_inb (partD c) 2)) q f
          ∗ rpts c (xCh (k0_off2 (partD c) 0#32 3#32) (k0_off2_inb (partD c) 4)) q f
          ∗ rpts c (xCh (k0_off2 (partD c) 0#32 4#32) (k0_off2_inb (partD c) 6)) q f
          ∗ rpts c (xCh (k0_off2 (partD c) 0#32 5#32) (k0_off2_inb (partD c) 8)) q f
          ∗ rpts c (xCh (k0_off2 (partD c) 0#32 6#32) (k0_off2_inb (partD c) 10)) q f
          ∗ rpts c (xCh (k0_off3 (partD c) 4096#32 4294967295#32) (k0_off3_inb (partD c) 1)) q f
          ∗ rpts c (xCh (k0_off2 (partD c) 4096#32 0#32) (k0_off2_inb (partD c) 15)) q f
          ∗ rpts c (xCh (k0_off2 (partD c) 4096#32 4294967295#32) (k0_off2_inb (partD c) 1)) q f
          ∗ rpts c (xCh (k0_off2 (partD c) 4096#32 4294967294#32) (k0_off2_inb (partD c) 3)) q f
          ∗ rpts c (xCh (k0_off2 (partD c) 4096#32 4294967293#32) (k0_off2_inb (partD c) 5)) q f
          ∗ rpts c (xCh (k0_off2 (partD c) 4096#32 4294967292#32) (k0_off2_inb (partD c) 7)) q f
          ∗ rpts c (xCh (k0_off2 (partD c) 4096#32 4294967291#32) (k0_off2_inb (partD c) 9)) q f
          ∗ rpts c (xCh (k0_off2 (partD c) 4096#32 4294967290#32) (k0_off2_inb (partD c) 11)) q f) := by
  refine (x_eq c q f).trans ((bigSep_univ_equiv (noE c) _).trans ((bigSep_fin32 _).trans ?_))
  exact (sep_eq (x_piece c c 0 1 _ _ (no c 0) (off3_0 c) rfl q f)
    (sep_eq (x_piece c c 0 0 _ _ (no c 1) (off2_0_0 c) rfl q f)
    (sep_eq (x_piece c c 0 7 _ _ (no c 2) (off2_0_1 c) rfl q f)
    (sep_eq (x_piece c c 0 6 _ _ (no c 3) (off2_0_2 c) rfl q f)
    (sep_eq (x_piece c c 0 5 _ _ (no c 4) (off2_0_3 c) rfl q f)
    (sep_eq (x_piece c c 0 4 _ _ (no c 5) (off2_0_4 c) rfl q f)
    (sep_eq (x_piece c c 0 3 _ _ (no c 6) (off2_0_5 c) rfl q f)
    (sep_eq (x_piece c c 0 2 _ _ (no c 7) (off2_0_6 c) rfl q f)
    (sep_eq (x_piece c c 1 7 _ _ (no c 8) (off3_1 c) rfl q f)
    (sep_eq (x_piece c c 1 0 _ _ (no c 9) (off2_1_0 c) rfl q f)
    (sep_eq (x_piece c c 1 1 _ _ (no c 10) (off2_1_1 c) rfl q f)
    (sep_eq (x_piece c c 1 2 _ _ (no c 11) (off2_1_2 c) rfl q f)
    (sep_eq (x_piece c c 1 3 _ _ (no c 12) (off2_1_3 c) rfl q f)
    (sep_eq (x_piece c c 1 4 _ _ (no c 13) (off2_1_4 c) rfl q f)
    (sep_eq (x_piece c c 1 5 _ _ (no c 14) (off2_1_5 c) rfl q f)
    (sep_eq (x_piece c c 1 6 _ _ (no c 15) (off2_1_6 c) rfl q f)
    (sep_eq (x_piece c (partD c) 0 1 _ _ (no c 16) (off3_0 (partD c)) rfl q f)
    (sep_eq (x_piece c (partD c) 0 0 _ _ (no c 17) (off2_0_0 (partD c)) rfl q f)
    (sep_eq (x_piece c (partD c) 0 7 _ _ (no c 18) (off2_0_1 (partD c)) rfl q f)
    (sep_eq (x_piece c (partD c) 0 6 _ _ (no c 19) (off2_0_2 (partD c)) rfl q f)
    (sep_eq (x_piece c (partD c) 0 5 _ _ (no c 20) (off2_0_3 (partD c)) rfl q f)
    (sep_eq (x_piece c (partD c) 0 4 _ _ (no c 21) (off2_0_4 (partD c)) rfl q f)
    (sep_eq (x_piece c (partD c) 0 3 _ _ (no c 22) (off2_0_5 (partD c)) rfl q f)
    (sep_eq (x_piece c (partD c) 0 2 _ _ (no c 23) (off2_0_6 (partD c)) rfl q f)
    (sep_eq (x_piece c (partD c) 1 7 _ _ (no c 24) (off3_1 (partD c)) rfl q f)
    (sep_eq (x_piece c (partD c) 1 0 _ _ (no c 25) (off2_1_0 (partD c)) rfl q f)
    (sep_eq (x_piece c (partD c) 1 1 _ _ (no c 26) (off2_1_1 (partD c)) rfl q f)
    (sep_eq (x_piece c (partD c) 1 2 _ _ (no c 27) (off2_1_2 (partD c)) rfl q f)
    (sep_eq (x_piece c (partD c) 1 3 _ _ (no c 28) (off2_1_3 (partD c)) rfl q f)
    (sep_eq (x_piece c (partD c) 1 4 _ _ (no c 29) (off2_1_4 (partD c)) rfl q f)
    (sep_eq (x_piece c (partD c) 1 5 _ _ (no c 30) (off2_1_5 (partD c)) rfl q f)
    (x_piece c (partD c) 1 6 _ _ (no c 31) (off2_1_6 (partD c)) rfl q f))))))))))))))))))))))))))))))))

/-- The device's own chunk of direction 0 is reached by two of the program's chains; they name the same rows. -/
theorem xCh_off1_eq_0 (c : Dev nD) :
    (xCh (k0_off1 c 0#32) (k0_off1_inb c 0)).view.set = (xCh (k0_off2 c 0#32 0#32) (k0_off2_inb c 14)).view.set :=
  (xCh_row c 0 0 _ _ (no c 1) (off1_0 c) rfl).trans (xCh_row c 0 0 _ _ (no c 1) (off2_0_0 c) rfl).symm

/-- The same for direction 1. -/
theorem xCh_off1_eq_1 (c : Dev nD) :
    (xCh (k0_off1 c 4096#32) (k0_off1_inb c 1)).view.set = (xCh (k0_off2 c 4096#32 0#32) (k0_off2_inb c 15)).view.set :=
  (xCh_row c 1 0 _ _ (no c 9) (off1_1 c) rfl).trans (xCh_row c 1 0 _ _ (no c 9) (off2_1_0 c) rfl).symm

/-! ## The exchange buffer and the staging buffer -/

/-- The exchange buffer whole is its 14 slots, direction by direction and step by step. -/
theorem comm_spelled (c : Dev nD) (q : PosShare TreeShare) (f : Buf (Elt F) ((c : Thread nD τ).loc cc0_scratch0)) :
    (((c : Thread nD τ).loc cc0_scratch0) ↦{q} f : sProp 𝕄)
      = iprop(rpts c (cSl 0 0 inb_S2x7x512x1024_S1x1x512x1024_0_0_0_0) q f
          ∗ rpts c (cSl 0 1 inb_S2x7x512x1024_S1x1x512x1024_0_1_0_0) q f
          ∗ rpts c (cSl 0 2 inb_S2x7x512x1024_S1x1x512x1024_0_2_0_0) q f
          ∗ rpts c (cSl 0 3 inb_S2x7x512x1024_S1x1x512x1024_0_3_0_0) q f
          ∗ rpts c (cSl 0 4 inb_S2x7x512x1024_S1x1x512x1024_0_4_0_0) q f
          ∗ rpts c (cSl 0 5 inb_S2x7x512x1024_S1x1x512x1024_0_5_0_0) q f
          ∗ rpts c (cSl 0 6 inb_S2x7x512x1024_S1x1x512x1024_0_6_0_0) q f
          ∗ rpts c (cSl 1 0 inb_S2x7x512x1024_S1x1x512x1024_1_0_0_0) q f
          ∗ rpts c (cSl 1 1 inb_S2x7x512x1024_S1x1x512x1024_1_1_0_0) q f
          ∗ rpts c (cSl 1 2 inb_S2x7x512x1024_S1x1x512x1024_1_2_0_0) q f
          ∗ rpts c (cSl 1 3 inb_S2x7x512x1024_S1x1x512x1024_1_3_0_0) q f
          ∗ rpts c (cSl 1 4 inb_S2x7x512x1024_S1x1x512x1024_1_4_0_0) q f
          ∗ rpts c (cSl 1 5 inb_S2x7x512x1024_S1x1x512x1024_1_5_0_0) q f
          ∗ rpts c (cSl 1 6 inb_S2x7x512x1024_S1x1x512x1024_1_6_0_0) q f) := by
  unfold rpts
  rw [cSl_set 0 0 inb_S2x7x512x1024_S1x1x512x1024_0_0_0_0 0 0 rfl rfl,
    cSl_set 0 1 inb_S2x7x512x1024_S1x1x512x1024_0_1_0_0 0 1 rfl rfl,
    cSl_set 0 2 inb_S2x7x512x1024_S1x1x512x1024_0_2_0_0 0 2 rfl rfl,
    cSl_set 0 3 inb_S2x7x512x1024_S1x1x512x1024_0_3_0_0 0 3 rfl rfl,
    cSl_set 0 4 inb_S2x7x512x1024_S1x1x512x1024_0_4_0_0 0 4 rfl rfl,
    cSl_set 0 5 inb_S2x7x512x1024_S1x1x512x1024_0_5_0_0 0 5 rfl rfl,
    cSl_set 0 6 inb_S2x7x512x1024_S1x1x512x1024_0_6_0_0 0 6 rfl rfl,
    cSl_set 1 0 inb_S2x7x512x1024_S1x1x512x1024_1_0_0_0 1 0 rfl rfl,
    cSl_set 1 1 inb_S2x7x512x1024_S1x1x512x1024_1_1_0_0 1 1 rfl rfl,
    cSl_set 1 2 inb_S2x7x512x1024_S1x1x512x1024_1_2_0_0 1 2 rfl rfl,
    cSl_set 1 3 inb_S2x7x512x1024_S1x1x512x1024_1_3_0_0 1 3 rfl rfl,
    cSl_set 1 4 inb_S2x7x512x1024_S1x1x512x1024_1_4_0_0 1 4 rfl rfl,
    cSl_set 1 5 inb_S2x7x512x1024_S1x1x512x1024_1_5_0_0 1 5 rfl rfl,
    cSl_set 1 6 inb_S2x7x512x1024_S1x1x512x1024_1_6_0_0 1 6 rfl rfl]
  exact chain14 c q f

/-- The staging buffer whole is its 2 slots. -/
theorem stage_spelled (c : Dev nD) (q : PosShare TreeShare) (f : Buf (Elt F) ((c : Thread nD τ).loc cc0_scratch1)) :
    (((c : Thread nD τ).loc cc0_scratch1) ↦{q} f : sProp 𝕄)
      = iprop(rpts c (sSl 0 inb_S2x512x1024_S1x512x1024_0_0_0) q f ∗ rpts c (sSl 1 inb_S2x512x1024_S1x512x1024_1_0_0) q f) := by
  unfold rpts
  rw [sSl_set 0 inb_S2x512x1024_S1x512x1024_0_0_0 0 rfl, sSl_set 1 inb_S2x512x1024_S1x512x1024_1_0_0 1 rfl]
  exact chain2 c q f

/-- info: 'Cert.Kernel.Spell.comm_spelled' depends on axioms: [propext, Classical.choice, Quot.sound] -/
#guard_msgs in #print axioms comm_spelled

/-- info: 'Cert.Kernel.Spell.stage_spelled' depends on axioms: [propext, Classical.choice, Quot.sound] -/
#guard_msgs in #print axioms stage_spelled

/-- info: 'Cert.Kernel.Spell.out_spelled' depends on axioms: [propext, Classical.choice, Quot.sound] -/
#guard_msgs in #print axioms out_spelled

/-- info: 'Cert.Kernel.Spell.x_spelled' depends on axioms: [propext, Classical.choice, Quot.sound] -/
#guard_msgs in #print axioms x_spelled

/-- info: 'Cert.Kernel.Spell.xCh_off1_eq_0' depends on axioms: [propext, Classical.choice, Quot.sound] -/
#guard_msgs in #print axioms xCh_off1_eq_0

/-- info: 'Cert.Kernel.Spell.xCh_off1_eq_1' depends on axioms: [propext, Classical.choice, Quot.sound] -/
#guard_msgs in #print axioms xCh_off1_eq_1

end Cert.Kernel.Spell

end
-- ==== Proof.Bits.ValLemmas.lean ====
/-
  Where the copies land. A copy writes what its source view reads into the destination view; on the destination's
  region the result is the named contents of the destination: a slot of the exchange buffer receives what ARRIVES
  in it, a chunk of the result array receives the reduced chunk, a slot of the staging buffer receives the device's
  own chunk. Each statement is an equation between buffer contents at every index of the destination's region,
  with the entailment between the two points-to assertions beside it.
-/
import proofs.«900727_g7700000000000728_dist_ar_v7x_xyz2x4x4_y_m16384_n1024_f32_1_alg».proof.Proof.Bits.Sched
import proofs.«900727_g7700000000000728_dist_ar_v7x_xyz2x4x4_y_m16384_n1024_f32_1_alg».proof.Proof.Bits.Canon
import proofs.«900727_g7700000000000728_dist_ar_v7x_xyz2x4x4_y_m16384_n1024_f32_1_alg».proof.Proof.Bits.RingFacts
import Idealize.ShloMosaic.Lib.Pipeline.Value
import Idealize.ShloMosaic.Lib.ValueLayout

noncomputable section

namespace Cert.Kernel.Vals

open Cert.Kernel Cert.Kernel.Gen Cert.Kernel.Ring Cert.Kernel.Cells Cert.Kernel.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Where a view puts its indices -/

/-- A chunk's view of the result array puts (r, q) at row `off 0 + r`, column `q`. -/
theorem oCh_emb (off : Fin 2 → ℕ) (h : ∀ a, off a + S512x1024.size a ≤ S16384x1024.size a) (r : Fin 512) (q : Fin 1024)
    (R : Fin 16384) (hR : R.val = off 0 + r.val) (h1 : off 1 = 0) :
    (oCh off h).view.emb (ix2 r q) = ix2 R q := by
  funext a
  refine Fin.ext ?_
  match a with
  | ⟨0, _⟩ => show off 0 + 1 * r.val = R.val; omega
  | ⟨1, _⟩ => show off 1 + 1 * q.val = q.val; omega

/-- The same for the argument array. -/
theorem xCh_emb (off : Fin 2 → ℕ) (h : ∀ a, off a + S512x1024.size a ≤ S16384x1024.size a) (r : Fin 512) (q : Fin 1024)
    (R : Fin 16384) (hR : R.val = off 0 + r.val) (h1 : off 1 = 0) :
    (xCh off h).view.emb (ix2 r q) = ix2 R q := by
  funext a
  refine Fin.ext ?_
  match a with
  | ⟨0, _⟩ => show off 0 + 1 * r.val = R.val; omega
  | ⟨1, _⟩ => show off 1 + 1 * q.val = q.val; omega

/-- Slot (d, s) of the exchange buffer puts (r, q) at (d, s, r, q). -/
theorem cSl_emb (d s : ℕ) (h : ∀ a, (![d, s, 0, 0] : Fin 4 → ℕ) a + S1x1x512x1024.size a ≤ S2x7x512x1024.size a)
    (r : Fin 512) (q : Fin 1024) (D : Fin 2) (Sx : Fin 7) (hD : D.val = d) (hS : Sx.val = s) :
    (cSl d s h).view.emb (ix2 r q) = ix4 D Sx r q := by
  show (Rect.unit (s := S2x7x512x1024) ![d, s, 0, 0] S1x1x512x1024.size h).emb
      (Shape.reshapeEquiv _ (ix2 r q)) = _
  rw [reshapeEquiv_ix2_11ab]
  funext a
  refine Fin.ext ?_
  match a with
  | ⟨0, _⟩ => show d + 1 * 0 = D.val; omega
  | ⟨1, _⟩ => show s + 1 * 0 = Sx.val; omega
  | ⟨2, _⟩ => show 0 + 1 * r.val = r.val; omega
  | ⟨3, _⟩ => show 0 + 1 * q.val = q.val; omega

/-- Slot d of the staging buffer puts (r, q) at (d, r, q). -/
theorem sSl_emb (d : ℕ) (h : ∀ a, (![d, 0, 0] : Fin 3 → ℕ) a + S1x512x1024.size a ≤ S2x512x1024.size a)
    (r : Fin 512) (q : Fin 1024) (D : Fin 2) (hD : D.val = d) :
    (sSl d h).view.emb (ix2 r q) = ix3 D r q := by
  show (Rect.unit (s := S2x512x1024) ![d, 0, 0] S1x512x1024.size h).emb
      (Shape.reshapeEquiv _ (ix2 r q)) = _
  rw [reshapeEquiv_ix2_1ab]
  funext a
  refine Fin.ext ?_
  match a with
  | ⟨0, _⟩ => show d + 1 * 0 = D.val; omega
  | ⟨1, _⟩ => show 0 + 1 * r.val = r.val; omega
  | ⟨2, _⟩ => show 0 + 1 * q.val = q.val; omega

variable (m : (ℓ : Loc nD τ sig) → Buf (Elt F) ℓ)

/-! ## Redistribution, later steps: a finished chunk is copied to a device of the same pair of planes -/

theorem land_res (c c' : Dev nD) (off : Fin 2 → ℕ)
    (h h' : ∀ a, off a + S512x1024.size a ≤ S16384x1024.size a) (hz : zD c' / 2 = zD c / 2)
    (fd : Buf (Elt F) ((oCh off h').view.loc (c' : Thread nD τ))) :
    ∀ i ∈ (oCh off h').view.set,
      (oCh off h').view.write (Elt F) fd ((oCh off h).view.read (Elt F) (Res m c)) Finset.univ i = Res m c' i := by
  intro i hi
  obtain ⟨y, rfl⟩ := View.exists_emb_of_mem_set _ hi
  rw [View.write_emb_of_mem _ _ (Finset.mem_univ y)]
  show Res m c ((oCh off h).view.emb y) = Res m c' ((oCh off h').view.emb y)
  unfold Res
  rw [hz]

theorem land_res_ent (c c' : Dev nD) (off : Fin 2 → ℕ)
    (h h' : ∀ a, off a + S512x1024.size a ≤ S16384x1024.size a) (hz : zD c' / 2 = zD c / 2)
    (fd : Buf (Elt F) ((oCh off h').view.loc (c' : Thread nD τ))) :
    (rpts c' (oCh off h') fullShare
        ((oCh off h').view.write (Elt F) fd ((oCh off h).view.read (Elt F) (Res m c)) Finset.univ) : sProp 𝕄)
      ⊢ rpts c' (oCh off h') fullShare (Res m c') :=
  Entails.of_eq (BI.Region.is_congr (land_res m c c' off h h' hz fd))

/-! ## The ring, later steps: an updated slot is copied to the next device's next slot -/

theorem land_ring (c : Dev nD) (d s : ℕ) (hd : d < 2) (hs : s + 1 < 7)
    (h : ∀ a, (![d, s, 0, 0] : Fin 4 → ℕ) a + S1x1x512x1024.size a ≤ S2x7x512x1024.size a)
    (h' : ∀ a, (![d, s + 1, 0, 0] : Fin 4 → ℕ) a + S1x1x512x1024.size a ≤ S2x7x512x1024.size a)
    (fd : Buf (Elt F) ((cSl d (s + 1) h').view.loc ((toD ⟨d, hd⟩ c : Dev nD) : Thread nD τ))) :
    ∀ i ∈ (cSl d (s + 1) h').view.set,
      (cSl d (s + 1) h').view.write (Elt F) fd ((cSl d s h).view.read (Elt F) (CommAcc m c)) Finset.univ i
        = CommIn m (toD ⟨d, hd⟩ c) i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show CommAcc m c ((cSl d s h).view.emb (ix2 r q)) = CommIn m (toD ⟨d, hd⟩ c) ((cSl d (s + 1) h').view.emb (ix2 r q))
  rw [cSl_emb d s h r q ⟨d, hd⟩ ⟨s, by omega⟩ rfl rfl, cSl_emb d (s + 1) h' r q ⟨d, hd⟩ ⟨s + 1, hs⟩ rfl rfl]
  show acc m d s c (ix2 r q) = arr m d (s + 1) (toD ⟨d, hd⟩ c) (ix2 r q)
  have e : (⟨d % 2, Nat.mod_lt _ (by decide)⟩ : Fin 2) = ⟨d, hd⟩ := Fin.ext (Nat.mod_eq_of_lt hd)
  show _ = acc m d s (fromD ⟨d % 2, Nat.mod_lt _ (by decide)⟩ (toD ⟨d, hd⟩ c)) (ix2 r q)
  rw [e, from_to]

theorem land_ring_ent (c : Dev nD) (d s : ℕ) (hd : d < 2) (hs : s + 1 < 7)
    (h : ∀ a, (![d, s, 0, 0] : Fin 4 → ℕ) a + S1x1x512x1024.size a ≤ S2x7x512x1024.size a)
    (h' : ∀ a, (![d, s + 1, 0, 0] : Fin 4 → ℕ) a + S1x1x512x1024.size a ≤ S2x7x512x1024.size a)
    (fd : Buf (Elt F) ((cSl d (s + 1) h').view.loc ((toD ⟨d, hd⟩ c : Dev nD) : Thread nD τ))) :
    (rpts (toD ⟨d, hd⟩ c) (cSl d (s + 1) h') fullShare
        ((cSl d (s + 1) h').view.write (Elt F) fd ((cSl d s h).view.read (Elt F) (CommAcc m c)) Finset.univ) : sProp 𝕄)
      ⊢ rpts (toD ⟨d, hd⟩ c) (cSl d (s + 1) h') fullShare (CommIn m (toD ⟨d, hd⟩ c)) :=
  Entails.of_eq (BI.Region.is_congr (land_ring m c d s hd hs h h' fd))

/-! ## The ring, first step: the device's own chunk is copied to the next device's first slot -/

/-- A chunk of the argument array read where a chunk's view puts (r, q). -/
theorem X_at_chunk (c : Dev nD) (off : Fin 2 → ℕ) (h : ∀ a, off a + S512x1024.size a ≤ S16384x1024.size a)
    (d j : ℕ) (hd : d < 2) (hoff : off = ![rowAt c d j, 0]) (r : Fin 512) (q : Fin 1024) :
    X m c ((xCh off h).view.emb (ix2 r q)) = xc m c d j (ix2 r q) := by
  subst hoff
  have hlt := rowAt_lt c d j hd
  have hr := r.isLt
  rw [xCh_emb _ h r q ⟨(rowAt c d j + r.val) % 16384, Nat.mod_lt _ (by decide)⟩
    (by show (rowAt c d j + r.val) % 16384 = rowAt c d j + r.val; exact Nat.mod_eq_of_lt (by omega)) rfl]
  rfl

theorem land_first (c : Dev nD) (d : ℕ) (hd : d < 2) (off : Fin 2 → ℕ)
    (h : ∀ a, off a + S512x1024.size a ≤ S16384x1024.size a) (hoff : off = ![rowAt c d 0, 0])
    (h' : ∀ a, (![d, 0, 0, 0] : Fin 4 → ℕ) a + S1x1x512x1024.size a ≤ S2x7x512x1024.size a)
    (fd : Buf (Elt F) ((cSl d 0 h').view.loc ((toD ⟨d, hd⟩ c : Dev nD) : Thread nD τ))) :
    ∀ i ∈ (cSl d 0 h').view.set,
      (cSl d 0 h').view.write (Elt F) fd ((xCh off h).view.read (Elt F) (X m c)) Finset.univ i
        = CommIn m (toD ⟨d, hd⟩ c) i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show X m c ((xCh off h).view.emb (ix2 r q)) = CommIn m (toD ⟨d, hd⟩ c) ((cSl d 0 h').view.emb (ix2 r q))
  rw [X_at_chunk m c off h d 0 hd hoff r q, cSl_emb d 0 h' r q ⟨d, hd⟩ ⟨0, by decide⟩ rfl rfl]
  have e : (⟨d % 2, Nat.mod_lt _ (by decide)⟩ : Fin 2) = ⟨d, hd⟩ := Fin.ext (Nat.mod_eq_of_lt hd)
  show _ = xc m (fromD ⟨d % 2, Nat.mod_lt _ (by decide)⟩ (toD ⟨d, hd⟩ c)) d 0 (ix2 r q)
  rw [e, from_to]

theorem land_first_ent (c : Dev nD) (d : ℕ) (hd : d < 2) (off : Fin 2 → ℕ)
    (h : ∀ a, off a + S512x1024.size a ≤ S16384x1024.size a) (hoff : off = ![rowAt c d 0, 0])
    (h' : ∀ a, (![d, 0, 0, 0] : Fin 4 → ℕ) a + S1x1x512x1024.size a ≤ S2x7x512x1024.size a)
    (fd : Buf (Elt F) ((cSl d 0 h').view.loc ((toD ⟨d, hd⟩ c : Dev nD) : Thread nD τ))) :
    (rpts (toD ⟨d, hd⟩ c) (cSl d 0 h') fullShare
        ((cSl d 0 h').view.write (Elt F) fd ((xCh off h).view.read (Elt F) (X m c)) Finset.univ) : sProp 𝕄)
      ⊢ rpts (toD ⟨d, hd⟩ c) (cSl d 0 h') fullShare (CommIn m (toD ⟨d, hd⟩ c)) :=
  Entails.of_eq (BI.Region.is_congr (land_first m c d hd off h hoff h' fd))

/-! ## Redistribution, first step: the finished chunk leaves the exchange buffer for the result array -/

/-- The pair partner lies in the same pair of planes. -/
theorem z_part (c : Dev nD) : zD (partD c) / 2 = zD c / 2 := by revert c; decide

/-- The device that finishes a chunk is its owner: in direction 0 the chunk one ring position ahead of the device,
    in direction 1 the chunk one position behind. -/
theorem owner_eq (c : Dev nD) (d : ℕ) (hd : d < 2) :
    owner (zD c / 2) (zpD c) d ((posD c + (if d = 0 then 1 else 7)) % 8) = c := by
  interval_cases d
  · revert c; decide
  · revert c; decide

/-- The result array read at a row given by its half, direction, ring position and row inside the chunk. -/
theorem ResZ_at (zz : ℕ) (R : Fin 16384) (q : Fin 1024) (zp d p : ℕ) (r : Fin 512)
    (hA : R.val / 8192 = zp) (hB : R.val % 8192 / 4096 = d) (hC : R.val % 4096 / 512 = p) (hD : R.val % 512 = r.val) :
    ResZ m zz (ix2 R q) = acc m d 6 (owner zz zp d p) (ix2 r q) := by
  subst hA hB hC
  have e : (⟨R.val % 512, Nat.mod_lt _ (by decide)⟩ : Fin 512) = r := Fin.ext hD
  unfold ResZ
  show acc m _ 6 _ (ix2 (⟨R.val % 512, Nat.mod_lt _ (by decide)⟩ : Fin 512) q) = _
  rw [e]

/-- The result array of a device of the same pair of planes, read where the view of the chunk that device `c` has
    just finished puts (r, q): the last slot of `c`'s exchange buffer, updated. -/
theorem Res_at_done (c c' : Dev nD) (d : ℕ) (hd : d < 2) (hz : zD c' / 2 = zD c / 2) (off : Fin 2 → ℕ)
    (h : ∀ a, off a + S512x1024.size a ≤ S16384x1024.size a)
    (hoff : off = ![rowAt c d (if d = 0 then 1 else 7), 0]) (r : Fin 512) (q : Fin 1024) :
    Res m c' ((oCh off h).view.emb (ix2 r q)) = acc m d 6 c (ix2 r q) := by
  subst hoff
  have hlt := rowAt_lt c d (if d = 0 then 1 else 7) hd
  have hr := r.isLt
  have hzp := zp_lt c
  have hp : (posD c + (if d = 0 then 1 else 7)) % 8 < 8 := Nat.mod_lt _ (by decide)
  rw [oCh_emb _ h r q ⟨rowAt c d (if d = 0 then 1 else 7) + r.val, by omega⟩ rfl rfl]
  unfold Res
  rw [hz, ResZ_at m (zD c / 2) _ q (zpD c) d ((posD c + (if d = 0 then 1 else 7)) % 8) r
    (by show (rowAt c d (if d = 0 then 1 else 7) + r.val) / 8192 = zpD c; unfold rowAt; omega)
    (by show (rowAt c d (if d = 0 then 1 else 7) + r.val) % 8192 / 4096 = d; unfold rowAt; omega)
    (by show (rowAt c d (if d = 0 then 1 else 7) + r.val) % 4096 / 512 = _; unfold rowAt; omega)
    (by show (rowAt c d (if d = 0 then 1 else 7) + r.val) % 512 = r.val; unfold rowAt; omega),
    owner_eq c d hd]

theorem land_done (c c' : Dev nD) (d : ℕ) (hd : d < 2) (hz : zD c' / 2 = zD c / 2) (off : Fin 2 → ℕ)
    (h : ∀ a, (![d, 6, 0, 0] : Fin 4 → ℕ) a + S1x1x512x1024.size a ≤ S2x7x512x1024.size a)
    (h' : ∀ a, off a + S512x1024.size a ≤ S16384x1024.size a)
    (hoff : off = ![rowAt c d (if d = 0 then 1 else 7), 0])
    (fd : Buf (Elt F) ((oCh off h').view.loc (c' : Thread nD τ))) :
    ∀ i ∈ (oCh off h').view.set,
      (oCh off h').view.write (Elt F) fd ((cSl d 6 h).view.read (Elt F) (CommAcc m c)) Finset.univ i = Res m c' i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show CommAcc m c ((cSl d 6 h).view.emb (ix2 r q)) = Res m c' ((oCh off h').view.emb (ix2 r q))
  rw [Res_at_done m c c' d hd hz off h' hoff r q, cSl_emb d 6 h r q ⟨d, hd⟩ ⟨6, by decide⟩ rfl rfl]
  rfl

theorem land_done_ent (c c' : Dev nD) (d : ℕ) (hd : d < 2) (hz : zD c' / 2 = zD c / 2) (off : Fin 2 → ℕ)
    (h : ∀ a, (![d, 6, 0, 0] : Fin 4 → ℕ) a + S1x1x512x1024.size a ≤ S2x7x512x1024.size a)
    (h' : ∀ a, off a + S512x1024.size a ≤ S16384x1024.size a)
    (hoff : off = ![rowAt c d (if d = 0 then 1 else 7), 0])
    (fd : Buf (Elt F) ((oCh off h').view.loc (c' : Thread nD τ))) :
    (rpts c' (oCh off h') fullShare
        ((oCh off h').view.write (Elt F) fd ((cSl d 6 h).view.read (Elt F) (CommAcc m c)) Finset.univ) : sProp 𝕄)
      ⊢ rpts c' (oCh off h') fullShare (Res m c') :=
  Entails.of_eq (BI.Region.is_congr (land_done m c c' d hd hz off h h' hoff fd))

/-! ## The local copies: the device's own chunk into the staging buffer -/

theorem land_stage (c : Dev nD) (d t : ℕ) (hd : d < 2) (off : Fin 2 → ℕ)
    (h : ∀ a, off a + S512x1024.size a ≤ S16384x1024.size a) (hoff : off = ![rowAt c d (back d (t + 1)), 0])
    (h' : ∀ a, (![d, 0, 0] : Fin 3 → ℕ) a + S1x512x1024.size a ≤ S2x512x1024.size a)
    (fd : Buf (Elt F) ((sSl d h').view.loc (c : Thread nD τ))) :
    ∀ i ∈ (sSl d h').view.set,
      (sSl d h').view.write (Elt F) fd ((xCh off h).view.read (Elt F) (X m c)) Finset.univ i = StageAt m c t i := by
  intro i hi
  obtain ⟨y, rfl⟩ := View.exists_emb_of_mem_set _ hi
  rw [View.write_emb_of_mem _ _ (Finset.mem_univ y)]
  obtain ⟨r, q, rfl⟩ : ∃ (r : Fin 512) (q : Fin 1024), y = ix2 r q := ⟨y 0, y 1, eq_ix2 y⟩
  show X m c ((xCh off h).view.emb (ix2 r q)) = StageAt m c t ((sSl d h').view.emb (ix2 r q))
  rw [X_at_chunk m c off h d (back d (t + 1)) hd hoff r q, sSl_emb d h' r q ⟨d, hd⟩ rfl]
  rfl

theorem land_stage_ent (c : Dev nD) (d t : ℕ) (hd : d < 2) (off : Fin 2 → ℕ)
    (h : ∀ a, off a + S512x1024.size a ≤ S16384x1024.size a) (hoff : off = ![rowAt c d (back d (t + 1)), 0])
    (h' : ∀ a, (![d, 0, 0] : Fin 3 → ℕ) a + S1x512x1024.size a ≤ S2x512x1024.size a)
    (fd : Buf (Elt F) ((sSl d h').view.loc (c : Thread nD τ))) :
    (rpts c (sSl d h') fullShare
        ((sSl d h').view.write (Elt F) fd ((xCh off h).view.read (Elt F) (X m c)) Finset.univ) : sProp 𝕄)
      ⊢ rpts c (sSl d h') fullShare (StageAt m c t) :=
  Entails.of_eq (BI.Region.is_congr (land_stage m c d t hd off h hoff h' fd))

/-! ## The update of a slot

  The program loads the slot and the staging slot as arrays of shape 1×1×512×1024 and 1×512×1024, drops the unit
  axes, adds (halving as the step says), puts the unit axes back and stores. Under the re-indexing that drops the
  unit axes every payload of the program is one of the two step functions. -/

omit m in
/-- A chunk re-indexed as a 1×1×512×1024 array. -/
def up4 (a : FVec F S512x1024 .f32) : Vec F S1x1x512x1024 .f32 := fun i => a (ix2 (i 2) (i 3))
omit m in
/-- A chunk re-indexed as a 1×512×1024 array. -/
def up3 (b : FVec F S512x1024 .f32) : Vec F S1x512x1024 .f32 := fun i => b (ix2 (i 1) (i 2))

omit m in
theorem cast_up4 (a : FVec F S512x1024 .f32) (h : S1x1x512x1024.ShapeCasts S512x1024) :
    shapeCast S512x1024 (up4 a) h = a := by
  funext j
  obtain ⟨x, y, rfl⟩ : ∃ (x : Fin 512) (y : Fin 1024), j = ix2 x y := ⟨j 0, j 1, eq_ix2 j⟩
  exact shapeCast_apply (up4 a) h _ (ix4 (⟨0, Nat.one_pos⟩ : Fin 1) (⟨0, Nat.one_pos⟩ : Fin 1) x y) (by
    rw [Shape.rowMajor_val_four, Shape.rowMajor_val_two]
    show ((0 * 1 + 0) * 512 + x.val) * 1024 + y.val = x.val * 1024 + y.val
    omega)

omit m in
theorem cast_up3 (b : FVec F S512x1024 .f32) (h : S1x512x1024.ShapeCasts S512x1024) :
    shapeCast S512x1024 (up3 b) h = b := by
  funext j
  obtain ⟨x, y, rfl⟩ : ∃ (x : Fin 512) (y : Fin 1024), j = ix2 x y := ⟨j 0, j 1, eq_ix2 j⟩
  exact shapeCast_apply (up3 b) h _ (ix3 (⟨0, Nat.one_pos⟩ : Fin 1) x y) (by
    rw [Shape.rowMajor_val_three, Shape.rowMajor_val_two]
    show (0 * 512 + x.val) * 1024 + y.val = x.val * 1024 + y.val
    omega)

omit m in
theorem cast_to4 (v : FVec F S512x1024 .f32) (h : S512x1024.ShapeCasts S1x1x512x1024) :
    shapeCast S1x1x512x1024 v h = up4 v := by
  funext i
  have h0 : (i 0).val < 1 := (i 0).isLt
  have h1 : (i 1).val < 1 := (i 1).isLt
  exact shapeCast_apply v h i (ix2 (i 2) (i 3)) (by
    rw [Shape.rowMajor_val_four, Shape.rowMajor_val_two]
    show (i 2).val * 1024 + (i 3).val = (((i 0).val * 1 + (i 1).val) * 512 + (i 2).val) * 1024 + (i 3).val
    omega)

section Payloads
omit m

theorem pay1_eq (a b : FVec F S512x1024 .f32) : k0_pay1 (up4 a) (up3 b) = up4 (stepA a b) := by
  show shapeCast S1x1x512x1024 (mulf (addf (shapeCast S512x1024 (up4 a) _) (shapeCast S512x1024 (up3 b) _))
    (broadcast S512x1024 (Scalar.ofBits .f32 0x3F000000#32))) _ = _
  rw [cast_up4, cast_up3, cast_to4]
  rfl

theorem pay2_eq (a b : FVec F S512x1024 .f32) : k0_pay2 (up4 a) (up3 b) = up4 (stepA a b) := by
  show shapeCast S1x1x512x1024 (mulf (addf (shapeCast S512x1024 (up4 a) _) (shapeCast S512x1024 (up3 b) _))
    (broadcast S512x1024 (Scalar.ofBits .f32 0x3F000000#32))) _ = _
  rw [cast_up4, cast_up3, cast_to4]
  rfl
theorem pay3_eq (a b : FVec F S512x1024 .f32) : k0_pay3 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay4_eq (a b : FVec F S512x1024 .f32) : k0_pay4 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay5_eq (a b : FVec F S512x1024 .f32) : k0_pay5 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay6_eq (a b : FVec F S512x1024 .f32) : k0_pay6 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay7_eq (a b : FVec F S512x1024 .f32) : k0_pay7 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay8_eq (a b : FVec F S512x1024 .f32) : k0_pay8 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay9_eq (a b : FVec F S512x1024 .f32) : k0_pay9 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay10_eq (a b : FVec F S512x1024 .f32) : k0_pay10 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay13_eq (a b : FVec F S512x1024 .f32) : k0_pay13 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl

theorem pay16_eq (a b : FVec F S512x1024 .f32) : k0_pay16 (up4 a) (up3 b) = up4 (stepB a b) := by
  show shapeCast S1x1x512x1024 (addf (shapeCast S512x1024 (up4 a) _) (mulf (shapeCast S512x1024 (up3 b) _)
    (broadcast S512x1024 (Scalar.ofBits .f32 0x3F000000#32)))) _ = _
  rw [cast_up4, cast_up3, cast_to4]
  rfl
theorem pay11_eq (a : FVec F S512x1024 .f32) : k0_pay11 (up4 a) = a := cast_up4 a _

theorem pay12_eq (a b : FVec F S512x1024 .f32) : k0_pay12 a (up3 b) = up4 (stepB a b) := by
  show shapeCast S1x1x512x1024 (addf a (mulf (shapeCast S512x1024 (up3 b) _)
    (broadcast S512x1024 (Scalar.ofBits .f32 0x3F000000#32)))) _ = _
  rw [cast_up3, cast_to4]
  rfl

theorem pay14_eq (a : FVec F S512x1024 .f32) : k0_pay14 (up4 a) = a := cast_up4 a _

theorem pay15_eq (a b : FVec F S512x1024 .f32) : k0_pay15 a (up3 b) = up4 (stepB a b) := by
  show shapeCast S1x1x512x1024 (addf a (mulf (shapeCast S512x1024 (up3 b) _)
    (broadcast S512x1024 (Scalar.ofBits .f32 0x3F000000#32)))) _ = _
  rw [cast_up3, cast_to4]
  rfl

end Payloads

/-! ### The loads -/

omit m in
/-- The load rectangle of slot (d, s) puts (u, v, r, q) at (d, s, r, q). -/
theorem cAcc_emb (d s : ℕ) (h : ∀ a, (![d, s, 0, 0] : Fin 4 → ℕ) a + S1x1x512x1024.size a ≤ S2x7x512x1024.size a)
    (u v : Fin 1) (r : Fin 512) (q : Fin 1024) (D : Fin 2) (Sx : Fin 7) (hD : D.val = d) (hS : Sx.val = s) :
    (cM.access (Rect.unit (s := S2x7x512x1024) ![d, s, 0, 0] S1x1x512x1024.size h)).emb (ix4 u v r q) = ix4 D Sx r q := by
  have hu := u.isLt
  have hv := v.isLt
  funext a
  refine Fin.ext ?_
  match a with
  | ⟨0, _⟩ => show d + 1 * u.val = D.val; omega
  | ⟨1, _⟩ => show s + 1 * v.val = Sx.val; omega
  | ⟨2, _⟩ => show 0 + 1 * r.val = r.val; omega
  | ⟨3, _⟩ => show 0 + 1 * q.val = q.val; omega

omit m in
/-- The load rectangle of staging slot d puts (u, r, q) at (d, r, q). -/
theorem sAcc_emb (d : ℕ) (h : ∀ a, (![d, 0, 0] : Fin 3 → ℕ) a + S1x512x1024.size a ≤ S2x512x1024.size a)
    (u : Fin 1) (r : Fin 512) (q : Fin 1024) (D : Fin 2) (hD : D.val = d) :
    (sM.access (Rect.unit (s := S2x512x1024) ![d, 0, 0] S1x512x1024.size h)).emb (ix3 u r q) = ix3 D r q := by
  have hu := u.isLt
  funext a
  refine Fin.ext ?_
  match a with
  | ⟨0, _⟩ => show d + 1 * u.val = D.val; omega
  | ⟨1, _⟩ => show 0 + 1 * r.val = r.val; omega
  | ⟨2, _⟩ => show 0 + 1 * q.val = q.val; omega

/-- The load of slot (d, s) from contents that hold what arrived there. -/
theorem load_slot (c : Dev nD) (d s : ℕ) (hd : d < 2) (hs : s < 7)
    (h : ∀ a, (![d, s, 0, 0] : Fin 4 → ℕ) a + S1x1x512x1024.size a ≤ S2x7x512x1024.size a)
    (fC : Buf (Elt F) ((c : Thread nD τ).loc cc0_scratch0))
    (hC : ∀ i ∈ (cM.access (Rect.unit (s := S2x7x512x1024) ![d, s, 0, 0] S1x1x512x1024.size h)).set, fC i = CommIn m c i) :
    (cM.access (Rect.unit (s := S2x7x512x1024) ![d, s, 0, 0] S1x1x512x1024.size h)).read (Elt F) fC = up4 (arr m d s c) := by
  funext i
  obtain ⟨u, v, r, q, rfl⟩ : ∃ (u v : Fin 1) (r : Fin 512) (q : Fin 1024), i = ix4 u v r q := ⟨i 0, i 1, i 2, i 3, eq_ix4 i⟩
  show fC ((cM.access (Rect.unit (s := S2x7x512x1024) ![d, s, 0, 0] S1x1x512x1024.size h)).emb (ix4 u v r q)) = _
  rw [hC _ (View.emb_mem_set _ _), cAcc_emb d s h u v r q ⟨d, hd⟩ ⟨s, hs⟩ rfl rfl]
  rfl

/-- The load of staging slot d from contents that hold the device's own chunk of step t. -/
theorem load_stage (c : Dev nD) (d t : ℕ) (hd : d < 2)
    (h : ∀ a, (![d, 0, 0] : Fin 3 → ℕ) a + S1x512x1024.size a ≤ S2x512x1024.size a)
    (fS : Buf (Elt F) ((c : Thread nD τ).loc cc0_scratch1))
    (hS : ∀ i ∈ (sM.access (Rect.unit (s := S2x512x1024) ![d, 0, 0] S1x512x1024.size h)).set, fS i = StageAt m c t i) :
    (sM.access (Rect.unit (s := S2x512x1024) ![d, 0, 0] S1x512x1024.size h)).read (Elt F) fS
      = up3 (xc m c d (back d (t + 1))) := by
  funext i
  obtain ⟨u, r, q, rfl⟩ : ∃ (u : Fin 1) (r : Fin 512) (q : Fin 1024), i = ix3 u r q := ⟨i 0, i 1, i 2, eq_ix3 i⟩
  show fS ((sM.access (Rect.unit (s := S2x512x1024) ![d, 0, 0] S1x512x1024.size h)).emb (ix3 u r q)) = _
  rw [hS _ (View.emb_mem_set _ _), sAcc_emb d h u r q ⟨d, hd⟩ rfl]
  rfl

/-! ### The store -/

/-- First step: the slot (d, 0), holding what arrived, updated by a payload that is the first step function. -/
theorem upd_first (c : Dev nD) (d : ℕ) (hd : d < 2)
    (h : ∀ a, (![d, 0, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepA a b))
    (fC : Buf (Elt F) ((c : Thread nD τ).loc cc0_scratch0)) (fS : Buf (Elt F) ((c : Thread nD τ).loc cc0_scratch1))
    (hC : ∀ i ∈ (cM.access (Rect.unit (s := S2x7x512x1024) ![d, 0, 0, 0] S1x1x512x1024.size h)).set, fC i = CommIn m c i)
    (hS : ∀ i ∈ (sM.access (Rect.unit (s := S2x512x1024) ![d, 0, 0] S1x512x1024.size h3)).set, fS i = StageAt m c 0 i) :
    ∀ i ∈ (cM.access (Rect.unit (s := S2x7x512x1024) ![d, 0, 0, 0] S1x1x512x1024.size h)).set,
      (cM.access (Rect.unit (s := S2x7x512x1024) ![d, 0, 0, 0] S1x1x512x1024.size h)).write (Elt F) fC
        (P ((cM.access (Rect.unit (s := S2x7x512x1024) ![d, 0, 0, 0] S1x1x512x1024.size h)).read (Elt F) fC)
           ((sM.access (Rect.unit (s := S2x512x1024) ![d, 0, 0] S1x512x1024.size h3)).read (Elt F) fS)) Finset.univ i
        = CommAcc m c i := by
  intro i hi
  obtain ⟨y, rfl⟩ := View.exists_emb_of_mem_set _ hi
  rw [View.write_emb_of_mem _ _ (Finset.mem_univ y), load_slot m c d 0 hd (by decide) h fC hC,
    load_stage m c d 0 hd h3 fS hS, hP]
  obtain ⟨u, v, r, q, rfl⟩ : ∃ (u v : Fin 1) (r : Fin 512) (q : Fin 1024), y = ix4 u v r q := ⟨y 0, y 1, y 2, y 3, eq_ix4 y⟩
  rw [cAcc_emb d 0 h u v r q ⟨d, hd⟩ ⟨0, by decide⟩ rfl rfl]
  rfl

/-- Later steps: the slot (d, s + 1), holding what arrived, updated by a payload that is the later step function. -/
theorem upd_later (c : Dev nD) (d s : ℕ) (hd : d < 2) (hs : s + 1 < 7)
    (h : ∀ a, (![d, s + 1, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepB a b))
    (fC : Buf (Elt F) ((c : Thread nD τ).loc cc0_scratch0)) (fS : Buf (Elt F) ((c : Thread nD τ).loc cc0_scratch1))
    (hC : ∀ i ∈ (cM.access (Rect.unit (s := S2x7x512x1024) ![d, s + 1, 0, 0] S1x1x512x1024.size h)).set, fC i = CommIn m c i)
    (hS : ∀ i ∈ (sM.access (Rect.unit (s := S2x512x1024) ![d, 0, 0] S1x512x1024.size h3)).set, fS i = StageAt m c (s + 1) i) :
    ∀ i ∈ (cM.access (Rect.unit (s := S2x7x512x1024) ![d, s + 1, 0, 0] S1x1x512x1024.size h)).set,
      (cM.access (Rect.unit (s := S2x7x512x1024) ![d, s + 1, 0, 0] S1x1x512x1024.size h)).write (Elt F) fC
        (P ((cM.access (Rect.unit (s := S2x7x512x1024) ![d, s + 1, 0, 0] S1x1x512x1024.size h)).read (Elt F) fC)
           ((sM.access (Rect.unit (s := S2x512x1024) ![d, 0, 0] S1x512x1024.size h3)).read (Elt F) fS)) Finset.univ i
        = CommAcc m c i := by
  intro i hi
  obtain ⟨y, rfl⟩ := View.exists_emb_of_mem_set _ hi
  rw [View.write_emb_of_mem _ _ (Finset.mem_univ y), load_slot m c d (s + 1) hd hs h fC hC,
    load_stage m c d (s + 1) hd h3 fS hS, hP]
  obtain ⟨u, v, r, q, rfl⟩ : ∃ (u v : Fin 1) (r : Fin 512) (q : Fin 1024), y = ix4 u v r q := ⟨y 0, y 1, y 2, y 3, eq_ix4 y⟩
  rw [cAcc_emb d (s + 1) h u v r q ⟨d, hd⟩ ⟨s + 1, hs⟩ rfl rfl]
  rfl

/-- `upd_first` at the named contents, as an entailment between the two points-to assertions of the slot's region. -/
theorem upd_first_ent (c : Dev nD) (d : ℕ) (hd : d < 2)
    (h : ∀ a, (![d, 0, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepA a b)) :
    (((cM.access (Rect.unit (s := S2x7x512x1024) ![d, 0, 0, 0] S1x1x512x1024.size h)).loc (c : Thread nD τ)) ↦[(cM.access (Rect.unit (s := S2x7x512x1024) ![d, 0, 0, 0] S1x1x512x1024.size h)).set]{fullShare}
        ((cM.access (Rect.unit (s := S2x7x512x1024) ![d, 0, 0, 0] S1x1x512x1024.size h)).write (Elt F) (CommIn m c)
          (P ((cM.access (Rect.unit (s := S2x7x512x1024) ![d, 0, 0, 0] S1x1x512x1024.size h)).read (Elt F) (CommIn m c)) ((sM.access (Rect.unit (s := S2x512x1024) ![d, 0, 0] S1x512x1024.size h3)).read (Elt F) (StageAt m c 0))) Finset.univ) : sProp 𝕄)
      ⊢ ((cM.access (Rect.unit (s := S2x7x512x1024) ![d, 0, 0, 0] S1x1x512x1024.size h)).loc (c : Thread nD τ)) ↦[(cM.access (Rect.unit (s := S2x7x512x1024) ![d, 0, 0, 0] S1x1x512x1024.size h)).set]{fullShare} (CommAcc m c) :=
  Entails.of_eq (BI.Region.is_congr (upd_first m c d hd h h3 P hP (CommIn m c) (StageAt m c 0)
    (fun _ _ => rfl) (fun _ _ => rfl)))

/-- `upd_later` at the named contents, as an entailment between the two points-to assertions of the slot's region. -/
theorem upd_later_ent (c : Dev nD) (d s : ℕ) (hd : d < 2) (hs : s + 1 < 7)
    (h : ∀ a, (![d, s + 1, 0, 0] : Fin 4 → ℕ) a + S1x1x512x1024.size a ≤ S2x7x512x1024.size a)
    (h3 : ∀ a, (![d, 0, 0] : Fin 3 → ℕ) a + S1x512x1024.size a ≤ S2x512x1024.size a)
    (P : Vec F S1x1x512x1024 .f32 → Vec F S1x512x1024 .f32 → FVec F S1x1x512x1024 .f32)
    (hP : ∀ a b : FVec F S512x1024 .f32, P (up4 a) (up3 b) = up4 (stepB a b)) :
    (((cM.access (Rect.unit (s := S2x7x512x1024) ![d, s + 1, 0, 0] S1x1x512x1024.size h)).loc (c : Thread nD τ)) ↦[(cM.access (Rect.unit (s := S2x7x512x1024) ![d, s + 1, 0, 0] S1x1x512x1024.size h)).set]{fullShare}
        ((cM.access (Rect.unit (s := S2x7x512x1024) ![d, s + 1, 0, 0] S1x1x512x1024.size h)).write (Elt F) (CommIn m c)
          (P ((cM.access (Rect.unit (s := S2x7x512x1024) ![d, s + 1, 0, 0] S1x1x512x1024.size h)).read (Elt F) (CommIn m c)) ((sM.access (Rect.unit (s := S2x512x1024) ![d, 0, 0] S1x512x1024.size h3)).read (Elt F) (StageAt m c (s + 1)))) Finset.univ) : sProp 𝕄)
      ⊢ ((cM.access (Rect.unit (s := S2x7x512x1024) ![d, s + 1, 0, 0] S1x1x512x1024.size h)).loc (c : Thread nD τ)) ↦[(cM.access (Rect.unit (s := S2x7x512x1024) ![d, s + 1, 0, 0] S1x1x512x1024.size h)).set]{fullShare} (CommAcc m c) :=
  Entails.of_eq (BI.Region.is_congr (upd_later m c d s hd hs h h3 P hP (CommIn m c) (StageAt m c (s + 1))
    (fun _ _ => rfl) (fun _ _ => rfl)))

/-- info: 'Cert.Kernel.Vals.land_done' depends on axioms: [propext, Classical.choice, Quot.sound] -/
#guard_msgs in #print axioms land_done

/-- info: 'Cert.Kernel.Vals.upd_later' depends on axioms: [propext, Classical.choice, Quot.sound] -/
#guard_msgs in #print axioms upd_later

end Cert.Kernel.Vals

end
-- ==== Proof.Bits.UpdLemmas.lean ====
/-
  The update of a slot, in the shape in which the run leaves it: the slot's region, held through the slot's view,
  after the store of the step function of the two loads holds the slot's updated contents.
-/
import proofs.«900727_g7700000000000728_dist_ar_v7x_xyz2x4x4_y_m16384_n1024_f32_1_alg».proof.Proof.Bits.ValLemmas

noncomputable section

namespace Cert.Kernel.Vals

open Cert.Kernel Cert.Kernel.Gen Cert.Kernel.Ring Cert.Kernel.Cells Cert.Kernel.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- `upd_first` in the shape in which the run leaves the slot: the region held through the slot's view, the store
    through the printed rectangle, the two loads as loads through the whole buffers at the printed rectangles. -/
theorem upd_first_run (c : Dev nD) (d : ℕ) (hd : d < 2)
    {h : ∀ a, (![d, 0, 0, 0] : Fin 4 → ℕ) a + S1x1x512x1024.size a ≤ S2x7x512x1024.size a}
    {h3 : ∀ a, (![d, 0, 0] : Fin 3 → ℕ) a + S1x512x1024.size a ≤ S2x512x1024.size a}
    (P : Vec F S1x1x512x1024 .f32 → Vec F S1x512x1024 .f32 → FVec F S1x1x512x1024 .f32)
    (hP : ∀ a b : FVec F S512x1024 .f32, P (up4 a) (up3 b) = up4 (stepA a b)) :
    (rpts c (cSl d 0 h) fullShare
        ((cM.access (Rect.unit (s := S2x7x512x1024) ![d, 0, 0, 0] S1x1x512x1024.size h)).write (Elt F) (CommIn m c)
          (P (cM.view.readAt (Elt F) (Rect.unit (s := S2x7x512x1024) ![d, 0, 0, 0] S1x1x512x1024.size h).toLoadRect (CommIn m c))
             (sM.view.readAt (Elt F) (Rect.unit (s := S2x512x1024) ![d, 0, 0] S1x512x1024.size h3).toLoadRect (StageAt m c 0))) Finset.univ) : sProp 𝕄)
      ⊢ rpts c (cSl d 0 h) fullShare (CommAcc m c) :=
  Entails.of_eq (BI.Region.is_congr fun i hi =>
    upd_first m c d hd h h3 P hP (CommIn m c) (StageAt m c 0) (fun _ _ => rfl) (fun _ _ => rfl) i (by
      have e : (cSl d 0 h).view.set = (cM.access (Rect.unit (s := S2x7x512x1024) ![d, 0, 0, 0] S1x1x512x1024.size h)).set := View.set_reshape _ _
      rw [← e]; exact hi))

/-- `upd_later` in the shape in which the run leaves the slot: the region held through the slot's view, the store
    through the printed rectangle, the two loads as loads through the whole buffers at the printed rectangles. -/
theorem upd_later_run (c : Dev nD) (d s : ℕ) (hd : d < 2) (hs : s + 1 < 7)
    {h : ∀ a, (![d, (s + 1), 0, 0] : Fin 4 → ℕ) a + S1x1x512x1024.size a ≤ S2x7x512x1024.size a}
    {h3 : ∀ a, (![d, 0, 0] : Fin 3 → ℕ) a + S1x512x1024.size a ≤ S2x512x1024.size a}
    (P : Vec F S1x1x512x1024 .f32 → Vec F S1x512x1024 .f32 → FVec F S1x1x512x1024 .f32)
    (hP : ∀ a b : FVec F S512x1024 .f32, P (up4 a) (up3 b) = up4 (stepB a b)) :
    (rpts c (cSl d (s + 1) h) fullShare
        ((cM.access (Rect.unit (s := S2x7x512x1024) ![d, (s + 1), 0, 0] S1x1x512x1024.size h)).write (Elt F) (CommIn m c)
          (P (cM.view.readAt (Elt F) (Rect.unit (s := S2x7x512x1024) ![d, (s + 1), 0, 0] S1x1x512x1024.size h).toLoadRect (CommIn m c))
             (sM.view.readAt (Elt F) (Rect.unit (s := S2x512x1024) ![d, 0, 0] S1x512x1024.size h3).toLoadRect (StageAt m c (s + 1)))) Finset.univ) : sProp 𝕄)
      ⊢ rpts c (cSl d (s + 1) h) fullShare (CommAcc m c) :=
  Entails.of_eq (BI.Region.is_congr fun i hi =>
    upd_later m c d s hd hs h h3 P hP (CommIn m c) (StageAt m c (s + 1)) (fun _ _ => rfl) (fun _ _ => rfl) i (by
      have e : (cSl d (s + 1) h).view.set = (cM.access (Rect.unit (s := S2x7x512x1024) ![d, (s + 1), 0, 0] S1x1x512x1024.size h)).set := View.set_reshape _ _
      rw [← e]; exact hi))

/-- info: 'Cert.Kernel.Vals.upd_later_run' depends on axioms: [propext, Classical.choice, Quot.sound] -/
#guard_msgs in #print axioms upd_later_run

end Cert.Kernel.Vals

end
-- ==== Proof.Bits.RulesRing.lean ====
/-
  The ring copies, as the program issues them. Each lemma is the library's rule for an addressed copy whose
  destination the issuer holds, at the certificate's schedule: the departure cell hands back the share of the source
  lent to the copy, the arrival cell hands its owner the destination's region at its named contents.
-/
import proofs.«900727_g7700000000000728_dist_ar_v7x_xyz2x4x4_y_m16384_n1024_f32_1_alg».proof.Proof.Bits.Tables
import proofs.«900727_g7700000000000728_dist_ar_v7x_xyz2x4x4_y_m16384_n1024_f32_1_alg».proof.Proof.Bits.ValLemmas

set_option maxRecDepth 16384

noncomputable section

namespace Cert.Kernel.Rules

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The first ring copy of direction 0: the device's own chunk to the first slot of the successor. -/
theorem send_first_0 (K : Dev nD × Fin 91 → ℕ) (c n : Dev nD) (hn : n = succD c)
    {hsc : ((cSl 0 0 inb_S2x7x512x1024_S1x1x512x1024_0_0_0_0) : Memref sig (Dev.tc n : Thread nD τ).2.kind .vmem S512x1024 .f32).view.ref.isScScratch = false}
    {hsrc : (xCh (k0_off1 c 0#32) (k0_off1_inb c 0)).view.WordExact} {hdst : (cSl 0 0 inb_S2x7x512x1024_S1x1x512x1024_0_0_0_0).view.WordExact}
    {hsem : DmaTarget.Typed .hbm (.dma (dsem 28)) (.remote (Dev.tc n : Thread nD τ) (cSl 0 0 inb_S2x7x512x1024_S1x1x512x1024_0_0_0_0) (.dma (dsem 0)) hsc)}
    {α : Type} {Q : α → sProp 𝕄} {k : PUnit → Prog (TpuEff nD τ sig (Elt F) Λ₀ .tc) α}
    (fd : Buf (Elt F) ((cSl 0 0 inb_S2x7x512x1024_S1x1x512x1024_0_0_0_0).view.loc (succD c : Thread nD τ))) (O : CellTallies nD τ sig Unit) (W : Waits sig Unit) :
    iprop(cellInv ER (sched m) (K (c, 1)) (dcell c 0) ∗ cellInv ER (sched m) (K (succD c, 29)) (dcell (succD c) 28)
        ∗ rpts c (xCh (k0_off1 c 0#32) (k0_off1_inb c 0)) fullShare (X m c) ∗ rpts (succD c) (cSl 0 0 inb_S2x7x512x1024_S1x1x512x1024_0_0_0_0) fullShare fd
        ∗ owes (c : Thread nD τ) (O + tallyAt (dcell (succD c) 28) () N) W
        ∗ dutyTok ER (dcell c 0) 0 0 ∗ reached ER (dcell c 0) 0
        ∗ dutyTok ER (dcell (succD c) 28) 0 0 ∗ reached ER (dcell (succD c) 28) 0)
      ⊢ iprop(((cred (tallyAt (dcell c 0) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off1 c 0#32) (k0_off1_inb c 0)) (.remote (Dev.tc n : Thread nD τ) (cSl 0 0 inb_S2x7x512x1024_S1x1x512x1024_0_0_0_0) (.dma (dsem 0)) hsc) (.dma (dsem 28)) hsrc hdst hsem) k) Q) := by
  subst hn
  exact Rounds.wp_send_pointsTo Variants.none ER (sched m) (c : Thread nD τ) none
    (c' := (succD c : Thread nD τ)) (src := (xCh (k0_off1 c 0#32) (k0_off1_inb c 0))) (dst := (cSl 0 0 inb_S2x7x512x1024_S1x1x512x1024_0_0_0_0)) (q := fullShare) (fs := X m c) (fd := fd)
    (κ₁ := K (c, 1)) (κ₂ := K (succD c, 29)) (r₁ := 0) (r₂ := 0) (d₁ := 0) (d₂ := 0)
    (by rw [duties_dma m c 0 (by decide)]; exact Finset.mem_singleton_self _)
    (by rw [duties_dma m (succD c) 28 (by decide)]; exact Finset.mem_singleton_self _)
    () () N rfl (amount_dma m c 0 (by decide) 0 0) (amount_dma m (succD c) 28 (by decide) 0 0) O rfl (W := W)
    (by rw [payload_send_0_0]; exact BI.Entails.refl _)
    (by rw [payload_recv_0_0]; exact land_first_ent m c 0 (by decide) _ _ (off1_0 c) _ fd)

/-- The first ring copy of direction 1: the device's own chunk to the first slot of the predecessor. -/
theorem send_first_1 (K : Dev nD × Fin 91 → ℕ) (c n : Dev nD) (hn : n = predD c)
    {hsc : ((cSl 1 0 inb_S2x7x512x1024_S1x1x512x1024_1_0_0_0) : Memref sig (Dev.tc n : Thread nD τ).2.kind .vmem S512x1024 .f32).view.ref.isScScratch = false}
    {hsrc : (xCh (k0_off1 c 4096#32) (k0_off1_inb c 1)).view.WordExact} {hdst : (cSl 1 0 inb_S2x7x512x1024_S1x1x512x1024_1_0_0_0).view.WordExact}
    {hsem : DmaTarget.Typed .hbm (.dma (dsem 42)) (.remote (Dev.tc n : Thread nD τ) (cSl 1 0 inb_S2x7x512x1024_S1x1x512x1024_1_0_0_0) (.dma (dsem 14)) hsc)}
    {α : Type} {Q : α → sProp 𝕄} {k : PUnit → Prog (TpuEff nD τ sig (Elt F) Λ₀ .tc) α}
    (fd : Buf (Elt F) ((cSl 1 0 inb_S2x7x512x1024_S1x1x512x1024_1_0_0_0).view.loc (predD c : Thread nD τ))) (O : CellTallies nD τ sig Unit) (W : Waits sig Unit) :
    iprop(cellInv ER (sched m) (K (c, 15)) (dcell c 14) ∗ cellInv ER (sched m) (K (predD c, 43)) (dcell (predD c) 42)
        ∗ rpts c (xCh (k0_off1 c 4096#32) (k0_off1_inb c 1)) fullShare (X m c) ∗ rpts (predD c) (cSl 1 0 inb_S2x7x512x1024_S1x1x512x1024_1_0_0_0) fullShare fd
        ∗ owes (c : Thread nD τ) (O + tallyAt (dcell (predD c) 42) () N) W
        ∗ dutyTok ER (dcell c 14) 0 0 ∗ reached ER (dcell c 14) 0
        ∗ dutyTok ER (dcell (predD c) 42) 0 0 ∗ reached ER (dcell (predD c) 42) 0)
      ⊢ iprop(((cred (tallyAt (dcell c 14) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off1 c 4096#32) (k0_off1_inb c 1)) (.remote (Dev.tc n : Thread nD τ) (cSl 1 0 inb_S2x7x512x1024_S1x1x512x1024_1_0_0_0) (.dma (dsem 14)) hsc) (.dma (dsem 42)) hsrc hdst hsem) k) Q) := by
  subst hn
  exact Rounds.wp_send_pointsTo Variants.none ER (sched m) (c : Thread nD τ) none
    (c' := (predD c : Thread nD τ)) (src := (xCh (k0_off1 c 4096#32) (k0_off1_inb c 1))) (dst := (cSl 1 0 inb_S2x7x512x1024_S1x1x512x1024_1_0_0_0)) (q := fullShare) (fs := X m c) (fd := fd)
    (κ₁ := K (c, 15)) (κ₂ := K (predD c, 43)) (r₁ := 0) (r₂ := 0) (d₁ := 0) (d₂ := 0)
    (by rw [duties_dma m c 14 (by decide)]; exact Finset.mem_singleton_self _)
    (by rw [duties_dma m (predD c) 42 (by decide)]; exact Finset.mem_singleton_self _)
    () () N rfl (amount_dma m c 14 (by decide) 0 0) (amount_dma m (predD c) 42 (by decide) 0 0) O rfl (W := W)
    (by rw [payload_send_1_0]; exact BI.Entails.refl _)
    (by rw [payload_recv_1_0]; exact land_first_ent m c 1 (by decide) _ _ (off1_1 c) _ fd)

/-- A later ring copy of direction 0: the slot updated at step s to the next slot of the successor. -/
theorem send_ring_0 (K : Dev nD × Fin 91 → ℕ) (c n : Dev nD) (hn : n = succD c) (s : ℕ) (hs : s + 1 < 7)
    {h : ∀ a, (![0, s, 0, 0] : Fin 4 → ℕ) a + S1x1x512x1024.size a ≤ S2x7x512x1024.size a}
    {h' : ∀ a, (![0, s + 1, 0, 0] : Fin 4 → ℕ) a + S1x1x512x1024.size a ≤ S2x7x512x1024.size a}
    {hsc : ((cSl 0 (s + 1) h') : Memref sig (Dev.tc n : Thread nD τ).2.kind .vmem S512x1024 .f32).view.ref.isScScratch = false}
    {hsrc : (cSl 0 s h).view.WordExact} {hdst : (cSl 0 (s + 1) h').view.WordExact}
    {hsem : DmaTarget.Typed .vmem (.dma (dsem (28 + (s + 1)) (by omega))) (.remote (Dev.tc n : Thread nD τ) (cSl 0 (s + 1) h') (.dma (dsem (0 + (s + 1)) (by omega))) hsc)}
    {α : Type} {Q : α → sProp 𝕄} {k : PUnit → Prog (TpuEff nD τ sig (Elt F) Λ₀ .tc) α}
    (fd : Buf (Elt F) ((cSl 0 (s + 1) h').view.loc (succD c : Thread nD τ))) (O : CellTallies nD τ sig Unit) (W : Waits sig Unit) :
    iprop(cellInv ER (sched m) (K (c, ⟨0 + (s + 1) + 1, by omega⟩)) (dcell c (0 + (s + 1)) (by omega))
        ∗ cellInv ER (sched m) (K (succD c, ⟨28 + (s + 1) + 1, by omega⟩)) (dcell (succD c) (28 + (s + 1)) (by omega))
        ∗ rpts c (cSl 0 s h) fullShare (CommAcc m c) ∗ rpts (succD c) (cSl 0 (s + 1) h') fullShare fd
        ∗ owes (c : Thread nD τ) (O + tallyAt (dcell (succD c) (28 + (s + 1)) (by omega)) () N) W
        ∗ dutyTok ER (dcell c (0 + (s + 1)) (by omega)) 0 0 ∗ reached ER (dcell c (0 + (s + 1)) (by omega)) 0
        ∗ dutyTok ER (dcell (succD c) (28 + (s + 1)) (by omega)) 0 0 ∗ reached ER (dcell (succD c) (28 + (s + 1)) (by omega)) 0)
      ⊢ iprop(((cred (tallyAt (dcell c (0 + (s + 1)) (by omega)) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 s h) (.remote (Dev.tc n : Thread nD τ) (cSl 0 (s + 1) h') (.dma (dsem (0 + (s + 1)) (by omega))) hsc) (.dma (dsem (28 + (s + 1)) (by omega))) hsrc hdst hsem) k) Q) := by
  subst hn
  have hs' : s < 6 := by omega
  have hp₁ : (sched m).payload (dcell c (0 + (s + 1)) (by omega)) 0 0 = rpts c (cSl 0 s h) fullShare (CommAcc m c) := by
    interval_cases s <;> rfl
  have hp₂ : (sched m).payload (dcell (succD c) (28 + (s + 1)) (by omega)) 0 0
      = rpts (succD c) (cSl 0 (s + 1) h') fullShare (CommIn m (succD c)) := by
    interval_cases s <;> rfl
  exact Rounds.wp_send_pointsTo Variants.none ER (sched m) (c : Thread nD τ) none
    (c' := (succD c : Thread nD τ)) (src := (cSl 0 s h)) (dst := (cSl 0 (s + 1) h')) (q := fullShare) (fs := CommAcc m c) (fd := fd)
    (κ₁ := K (c, ⟨0 + (s + 1) + 1, by omega⟩)) (κ₂ := K (succD c, ⟨28 + (s + 1) + 1, by omega⟩)) (r₁ := 0) (r₂ := 0) (d₁ := 0) (d₂ := 0)
    (by rw [duties_dma m c (0 + (s + 1)) (by omega)]; exact Finset.mem_singleton_self _)
    (by rw [duties_dma m (succD c) (28 + (s + 1)) (by omega)]; exact Finset.mem_singleton_self _)
    () () N rfl (amount_dma m c (0 + (s + 1)) (by omega) 0 0) (amount_dma m (succD c) (28 + (s + 1)) (by omega) 0 0) O rfl (W := W)
    (Entails.of_eq hp₁.symm)
    (by rw [hp₂]; exact land_ring_ent m c 0 s (by decide) hs h h' fd)

/-- A later ring copy of direction 1: the slot updated at step s to the next slot of the predecessor. -/
theorem send_ring_1 (K : Dev nD × Fin 91 → ℕ) (c n : Dev nD) (hn : n = predD c) (s : ℕ) (hs : s + 1 < 7)
    {h : ∀ a, (![1, s, 0, 0] : Fin 4 → ℕ) a + S1x1x512x1024.size a ≤ S2x7x512x1024.size a}
    {h' : ∀ a, (![1, s + 1, 0, 0] : Fin 4 → ℕ) a + S1x1x512x1024.size a ≤ S2x7x512x1024.size a}
    {hsc : ((cSl 1 (s + 1) h') : Memref sig (Dev.tc n : Thread nD τ).2.kind .vmem S512x1024 .f32).view.ref.isScScratch = false}
    {hsrc : (cSl 1 s h).view.WordExact} {hdst : (cSl 1 (s + 1) h').view.WordExact}
    {hsem : DmaTarget.Typed .vmem (.dma (dsem (42 + (s + 1)) (by omega))) (.remote (Dev.tc n : Thread nD τ) (cSl 1 (s + 1) h') (.dma (dsem (14 + (s + 1)) (by omega))) hsc)}
    {α : Type} {Q : α → sProp 𝕄} {k : PUnit → Prog (TpuEff nD τ sig (Elt F) Λ₀ .tc) α}
    (fd : Buf (Elt F) ((cSl 1 (s + 1) h').view.loc (predD c : Thread nD τ))) (O : CellTallies nD τ sig Unit) (W : Waits sig Unit) :
    iprop(cellInv ER (sched m) (K (c, ⟨14 + (s + 1) + 1, by omega⟩)) (dcell c (14 + (s + 1)) (by omega))
        ∗ cellInv ER (sched m) (K (predD c, ⟨42 + (s + 1) + 1, by omega⟩)) (dcell (predD c) (42 + (s + 1)) (by omega))
        ∗ rpts c (cSl 1 s h) fullShare (CommAcc m c) ∗ rpts (predD c) (cSl 1 (s + 1) h') fullShare fd
        ∗ owes (c : Thread nD τ) (O + tallyAt (dcell (predD c) (42 + (s + 1)) (by omega)) () N) W
        ∗ dutyTok ER (dcell c (14 + (s + 1)) (by omega)) 0 0 ∗ reached ER (dcell c (14 + (s + 1)) (by omega)) 0
        ∗ dutyTok ER (dcell (predD c) (42 + (s + 1)) (by omega)) 0 0 ∗ reached ER (dcell (predD c) (42 + (s + 1)) (by omega)) 0)
      ⊢ iprop(((cred (tallyAt (dcell c (14 + (s + 1)) (by omega)) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 s h) (.remote (Dev.tc n : Thread nD τ) (cSl 1 (s + 1) h') (.dma (dsem (14 + (s + 1)) (by omega))) hsc) (.dma (dsem (42 + (s + 1)) (by omega))) hsrc hdst hsem) k) Q) := by
  subst hn
  have hs' : s < 6 := by omega
  have hp₁ : (sched m).payload (dcell c (14 + (s + 1)) (by omega)) 0 0 = rpts c (cSl 1 s h) fullShare (CommAcc m c) := by
    interval_cases s <;> rfl
  have hp₂ : (sched m).payload (dcell (predD c) (42 + (s + 1)) (by omega)) 0 0
      = rpts (predD c) (cSl 1 (s + 1) h') fullShare (CommIn m (predD c)) := by
    interval_cases s <;> rfl
  exact Rounds.wp_send_pointsTo Variants.none ER (sched m) (c : Thread nD τ) none
    (c' := (predD c : Thread nD τ)) (src := (cSl 1 s h)) (dst := (cSl 1 (s + 1) h')) (q := fullShare) (fs := CommAcc m c) (fd := fd)
    (κ₁ := K (c, ⟨14 + (s + 1) + 1, by omega⟩)) (κ₂ := K (predD c, ⟨42 + (s + 1) + 1, by omega⟩)) (r₁ := 0) (r₂ := 0) (d₁ := 0) (d₂ := 0)
    (by rw [duties_dma m c (14 + (s + 1)) (by omega)]; exact Finset.mem_singleton_self _)
    (by rw [duties_dma m (predD c) (42 + (s + 1)) (by omega)]; exact Finset.mem_singleton_self _)
    () () N rfl (amount_dma m c (14 + (s + 1)) (by omega) 0 0) (amount_dma m (predD c) (42 + (s + 1)) (by omega) 0 0) O rfl (W := W)
    (Entails.of_eq hp₁.symm)
    (by rw [hp₂]; exact land_ring_ent m c 1 s (by decide) hs h h' fd)

omit m in
/-- Two chunk views of the result array at equal offsets cover the same region. -/
theorem rpts_oCh_congr (c' : Dev nD) (off off' : Fin 2 → ℕ)
    (h : ∀ a, off a + S512x1024.size a ≤ S16384x1024.size a) (h' : ∀ a, off' a + S512x1024.size a ≤ S16384x1024.size a)
    (e : off = off') (q : PosShare TreeShare) (f : Buf (Elt F) ((c' : Thread nD τ).loc main_v1)) :
    (rpts c' (oCh off h) q f : sProp 𝕄) = rpts c' (oCh off' h') q f := by
  subst e; rfl

/-- The eighth ring copy of direction 0: the finished chunk from the last slot to the result array of the successor. -/
theorem send_done_0 (K : Dev nD × Fin 91 → ℕ) (c n : Dev nD) (hn : n = succD c)
    {hsc : ((oCh (k0_off4 c 0#32 1#32 0#32) (k0_off4_inb c 0)) : Memref sig (Dev.tc n : Thread nD τ).2.kind .hbm S512x1024 .f32).view.ref.isScScratch = false}
    {hsrc : (cSl 0 6 inb_S2x7x512x1024_S1x1x512x1024_0_6_0_0).view.WordExact} {hdst : (oCh (k0_off4 c 0#32 1#32 0#32) (k0_off4_inb c 0)).view.WordExact}
    {hsem : DmaTarget.Typed .vmem (.dma (dsem 35)) (.remote (Dev.tc n : Thread nD τ) (oCh (k0_off4 c 0#32 1#32 0#32) (k0_off4_inb c 0)) (.dma (dsem 7)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 8)) (dcell c 7) ∗ cellInv ER (sched m) (K (succD c, 36)) (dcell (succD c) 35)
        ∗ rpts c (cSl 0 6 inb_S2x7x512x1024_S1x1x512x1024_0_6_0_0) fullShare.right (CommAcc m c) ∗ rpts (succD c) (oCh (k0_off2 (succD c) 0#32 0#32) (k0_off2_inb (succD c) 14)) fullShare fd
        ∗ owes (c : Thread nD τ) (O + tallyAt (dcell (succD c) 35) () N) W
        ∗ dutyTok ER (dcell c 7) 0 0 ∗ reached ER (dcell c 7) 0
        ∗ dutyTok ER (dcell (succD c) 35) 0 0 ∗ reached ER (dcell (succD c) 35) 0)
      ⊢ iprop(((cred (tallyAt (dcell c 7) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 6 inb_S2x7x512x1024_S1x1x512x1024_0_6_0_0) (.remote (Dev.tc n : Thread nD τ) (oCh (k0_off4 c 0#32 1#32 0#32) (k0_off4_inb c 0)) (.dma (dsem 7)) hsc) (.dma (dsem 35)) hsrc hdst hsem) k) Q) := by
  subst hn
  rw [rpts_oCh_congr (succD c) (k0_off2 (succD c) 0#32 0#32) (k0_off4 c 0#32 1#32 0#32) (k0_off2_inb (succD c) 14) (k0_off4_inb c 0) (off4_to_succ_0 c).symm fullShare fd]
  exact Rounds.wp_send_pointsTo Variants.none ER (sched m) (c : Thread nD τ) none
    (c' := (succD c : Thread nD τ)) (src := (cSl 0 6 inb_S2x7x512x1024_S1x1x512x1024_0_6_0_0)) (dst := (oCh (k0_off4 c 0#32 1#32 0#32) (k0_off4_inb c 0))) (q := fullShare.right) (fs := CommAcc m c) (fd := fd)
    (κ₁ := K (c, 8)) (κ₂ := K (succD c, 36)) (r₁ := 0) (r₂ := 0) (d₁ := 0) (d₂ := 0)
    (by rw [duties_dma m c 7 (by decide)]; exact Finset.mem_singleton_self _)
    (by rw [duties_dma m (succD c) 35 (by decide)]; exact Finset.mem_singleton_self _)
    () () N rfl (amount_dma m c 7 (by decide) 0 0) (amount_dma m (succD c) 35 (by decide) 0 0) O rfl (W := W)
    (by rw [payload_send_0_7]; exact BI.Entails.refl _)
    (by rw [payload_recv_0_7]
        exact (land_done_ent m c (succD c) 0 (by decide) (congrArg (· / 2) (z_succ c)) (k0_off4 c 0#32 1#32 0#32) inb_S2x7x512x1024_S1x1x512x1024_0_6_0_0 (k0_off4_inb c 0) (off4_0_0 c) fd).trans
          (Entails.of_eq (rpts_oCh_congr (succD c) (k0_off4 c 0#32 1#32 0#32) (k0_off2 (succD c) 0#32 0#32) (k0_off4_inb c 0) (k0_off2_inb (succD c) 14) (off4_to_succ_0 c) fullShare (Res m (succD c)))))

/-- The eighth ring copy of direction 1: the finished chunk from the last slot to the result array of the predecessor. -/
theorem send_done_1 (K : Dev nD × Fin 91 → ℕ) (c n : Dev nD) (hn : n = predD c)
    {hsc : ((oCh (k0_off4 c 4096#32 4294967295#32 0#32) (k0_off4_inb c 1)) : Memref sig (Dev.tc n : Thread nD τ).2.kind .hbm S512x1024 .f32).view.ref.isScScratch = false}
    {hsrc : (cSl 1 6 inb_S2x7x512x1024_S1x1x512x1024_1_6_0_0).view.WordExact} {hdst : (oCh (k0_off4 c 4096#32 4294967295#32 0#32) (k0_off4_inb c 1)).view.WordExact}
    {hsem : DmaTarget.Typed .vmem (.dma (dsem 49)) (.remote (Dev.tc n : Thread nD τ) (oCh (k0_off4 c 4096#32 4294967295#32 0#32) (k0_off4_inb c 1)) (.dma (dsem 21)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 22)) (dcell c 21) ∗ cellInv ER (sched m) (K (predD c, 50)) (dcell (predD c) 49)
        ∗ rpts c (cSl 1 6 inb_S2x7x512x1024_S1x1x512x1024_1_6_0_0) fullShare.right (CommAcc m c) ∗ rpts (predD c) (oCh (k0_off2 (predD c) 4096#32 0#32) (k0_off2_inb (predD c) 15)) fullShare fd
        ∗ owes (c : Thread nD τ) (O + tallyAt (dcell (predD c) 49) () N) W
        ∗ dutyTok ER (dcell c 21) 0 0 ∗ reached ER (dcell c 21) 0
        ∗ dutyTok ER (dcell (predD c) 49) 0 0 ∗ reached ER (dcell (predD c) 49) 0)
      ⊢ iprop(((cred (tallyAt (dcell c 21) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 6 inb_S2x7x512x1024_S1x1x512x1024_1_6_0_0) (.remote (Dev.tc n : Thread nD τ) (oCh (k0_off4 c 4096#32 4294967295#32 0#32) (k0_off4_inb c 1)) (.dma (dsem 21)) hsc) (.dma (dsem 49)) hsrc hdst hsem) k) Q) := by
  subst hn
  rw [rpts_oCh_congr (predD c) (k0_off2 (predD c) 4096#32 0#32) (k0_off4 c 4096#32 4294967295#32 0#32) (k0_off2_inb (predD c) 15) (k0_off4_inb c 1) (off4_to_pred_0 c).symm fullShare fd]
  exact Rounds.wp_send_pointsTo Variants.none ER (sched m) (c : Thread nD τ) none
    (c' := (predD c : Thread nD τ)) (src := (cSl 1 6 inb_S2x7x512x1024_S1x1x512x1024_1_6_0_0)) (dst := (oCh (k0_off4 c 4096#32 4294967295#32 0#32) (k0_off4_inb c 1))) (q := fullShare.right) (fs := CommAcc m c) (fd := fd)
    (κ₁ := K (c, 22)) (κ₂ := K (predD c, 50)) (r₁ := 0) (r₂ := 0) (d₁ := 0) (d₂ := 0)
    (by rw [duties_dma m c 21 (by decide)]; exact Finset.mem_singleton_self _)
    (by rw [duties_dma m (predD c) 49 (by decide)]; exact Finset.mem_singleton_self _)
    () () N rfl (amount_dma m c 21 (by decide) 0 0) (amount_dma m (predD c) 49 (by decide) 0 0) O rfl (W := W)
    (by rw [payload_send_1_7]; exact BI.Entails.refl _)
    (by rw [payload_recv_1_7]
        exact (land_done_ent m c (predD c) 1 (by decide) (congrArg (· / 2) (z_pred c)) (k0_off4 c 4096#32 4294967295#32 0#32) inb_S2x7x512x1024_S1x1x512x1024_1_6_0_0 (k0_off4_inb c 1) (off4_1_0 c) fd).trans
          (Entails.of_eq (rpts_oCh_congr (predD c) (k0_off4 c 4096#32 4294967295#32 0#32) (k0_off2 (predD c) 4096#32 0#32) (k0_off4_inb c 1) (k0_off2_inb (predD c) 15) (off4_to_pred_0 c) fullShare (Res m (predD c)))))

/-- Redistribution step 1 of direction 0: a finished chunk from the result array to the result array of the successor. -/
theorem send_gather_0_1 (K : Dev nD × Fin 91 → ℕ) (c n : Dev nD) (hn : n = succD c)
    {hsc : ((oCh (k0_off4 c 0#32 1#32 1#32) (k0_off4_inb c 2)) : Memref sig (Dev.tc n : Thread nD τ).2.kind .hbm S512x1024 .f32).view.ref.isScScratch = false}
    {hsrc : (oCh (k0_off4 c 0#32 1#32 1#32) (k0_off4_inb c 2)).view.WordExact} {hdst : (oCh (k0_off4 c 0#32 1#32 1#32) (k0_off4_inb c 2)).view.WordExact}
    {hsem : DmaTarget.Typed .hbm (.dma (dsem 36)) (.remote (Dev.tc n : Thread nD τ) (oCh (k0_off4 c 0#32 1#32 1#32) (k0_off4_inb c 2)) (.dma (dsem 8)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 9)) (dcell c 8) ∗ cellInv ER (sched m) (K (succD c, 37)) (dcell (succD c) 36)
        ∗ rpts c (oCh (k0_off4 c 0#32 1#32 1#32) (k0_off4_inb c 2)) fullShare.right (Res m c) ∗ rpts (succD c) (oCh (k0_off2 (succD c) 0#32 1#32) (k0_off2_inb (succD c) 0)) fullShare fd
        ∗ owes (c : Thread nD τ) (O + tallyAt (dcell (succD c) 36) () N) W
        ∗ dutyTok ER (dcell c 8) 0 0 ∗ reached ER (dcell c 8) 0
        ∗ dutyTok ER (dcell (succD c) 36) 0 0 ∗ reached ER (dcell (succD c) 36) 0)
      ⊢ iprop(((cred (tallyAt (dcell c 8) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 1#32) (k0_off4_inb c 2)) (.remote (Dev.tc n : Thread nD τ) (oCh (k0_off4 c 0#32 1#32 1#32) (k0_off4_inb c 2)) (.dma (dsem 8)) hsc) (.dma (dsem 36)) hsrc hdst hsem) k) Q) := by
  subst hn
  rw [rpts_oCh_congr (succD c) (k0_off2 (succD c) 0#32 1#32) (k0_off4 c 0#32 1#32 1#32) (k0_off2_inb (succD c) 0) (k0_off4_inb c 2) (off4_to_succ_1 c).symm fullShare fd]
  exact Rounds.wp_send_pointsTo Variants.none ER (sched m) (c : Thread nD τ) none
    (c' := (succD c : Thread nD τ)) (src := (oCh (k0_off4 c 0#32 1#32 1#32) (k0_off4_inb c 2))) (dst := (oCh (k0_off4 c 0#32 1#32 1#32) (k0_off4_inb c 2))) (q := fullShare.right) (fs := Res m c) (fd := fd)
    (κ₁ := K (c, 9)) (κ₂ := K (succD c, 37)) (r₁ := 0) (r₂ := 0) (d₁ := 0) (d₂ := 0)
    (by rw [duties_dma m c 8 (by decide)]; exact Finset.mem_singleton_self _)
    (by rw [duties_dma m (succD c) 36 (by decide)]; exact Finset.mem_singleton_self _)
    () () N rfl (amount_dma m c 8 (by decide) 0 0) (amount_dma m (succD c) 36 (by decide) 0 0) O rfl (W := W)
    (by rw [payload_send_0_8]; exact BI.Entails.refl _)
    (by rw [payload_recv_0_8]
        exact (land_res_ent m c (succD c) (k0_off4 c 0#32 1#32 1#32) (k0_off4_inb c 2) (k0_off4_inb c 2) (congrArg (· / 2) (z_succ c)) fd).trans
          (Entails.of_eq (rpts_oCh_congr (succD c) (k0_off4 c 0#32 1#32 1#32) (k0_off2 (succD c) 0#32 1#32) (k0_off4_inb c 2) (k0_off2_inb (succD c) 0) (off4_to_succ_1 c) fullShare (Res m (succD c)))))

/-- Redistribution step 1 of direction 1: a finished chunk from the result array to the result array of the predecessor. -/
theorem send_gather_1_1 (K : Dev nD × Fin 91 → ℕ) (c n : Dev nD) (hn : n = predD c)
    {hsc : ((oCh (k0_off4 c 4096#32 4294967295#32 4294967295#32) (k0_off4_inb c 3)) : Memref sig (Dev.tc n : Thread nD τ).2.kind .hbm S512x1024 .f32).view.ref.isScScratch = false}
    {hsrc : (oCh (k0_off4 c 4096#32 4294967295#32 4294967295#32) (k0_off4_inb c 3)).view.WordExact} {hdst : (oCh (k0_off4 c 4096#32 4294967295#32 4294967295#32) (k0_off4_inb c 3)).view.WordExact}
    {hsem : DmaTarget.Typed .hbm (.dma (dsem 50)) (.remote (Dev.tc n : Thread nD τ) (oCh (k0_off4 c 4096#32 4294967295#32 4294967295#32) (k0_off4_inb c 3)) (.dma (dsem 22)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 23)) (dcell c 22) ∗ cellInv ER (sched m) (K (predD c, 51)) (dcell (predD c) 50)
        ∗ rpts c (oCh (k0_off4 c 4096#32 4294967295#32 4294967295#32) (k0_off4_inb c 3)) fullShare.right (Res m c) ∗ rpts (predD c) (oCh (k0_off2 (predD c) 4096#32 4294967295#32) (k0_off2_inb (predD c) 1)) fullShare fd
        ∗ owes (c : Thread nD τ) (O + tallyAt (dcell (predD c) 50) () N) W
        ∗ dutyTok ER (dcell c 22) 0 0 ∗ reached ER (dcell c 22) 0
        ∗ dutyTok ER (dcell (predD c) 50) 0 0 ∗ reached ER (dcell (predD c) 50) 0)
      ⊢ iprop(((cred (tallyAt (dcell c 22) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967295#32) (k0_off4_inb c 3)) (.remote (Dev.tc n : Thread nD τ) (oCh (k0_off4 c 4096#32 4294967295#32 4294967295#32) (k0_off4_inb c 3)) (.dma (dsem 22)) hsc) (.dma (dsem 50)) hsrc hdst hsem) k) Q) := by
  subst hn
  rw [rpts_oCh_congr (predD c) (k0_off2 (predD c) 4096#32 4294967295#32) (k0_off4 c 4096#32 4294967295#32 4294967295#32) (k0_off2_inb (predD c) 1) (k0_off4_inb c 3) (off4_to_pred_1 c).symm fullShare fd]
  exact Rounds.wp_send_pointsTo Variants.none ER (sched m) (c : Thread nD τ) none
    (c' := (predD c : Thread nD τ)) (src := (oCh (k0_off4 c 4096#32 4294967295#32 4294967295#32) (k0_off4_inb c 3))) (dst := (oCh (k0_off4 c 4096#32 4294967295#32 4294967295#32) (k0_off4_inb c 3))) (q := fullShare.right) (fs := Res m c) (fd := fd)
    (κ₁ := K (c, 23)) (κ₂ := K (predD c, 51)) (r₁ := 0) (r₂ := 0) (d₁ := 0) (d₂ := 0)
    (by rw [duties_dma m c 22 (by decide)]; exact Finset.mem_singleton_self _)
    (by rw [duties_dma m (predD c) 50 (by decide)]; exact Finset.mem_singleton_self _)
    () () N rfl (amount_dma m c 22 (by decide) 0 0) (amount_dma m (predD c) 50 (by decide) 0 0) O rfl (W := W)
    (by rw [payload_send_1_8]; exact BI.Entails.refl _)
    (by rw [payload_recv_1_8]
        exact (land_res_ent m c (predD c) (k0_off4 c 4096#32 4294967295#32 4294967295#32) (k0_off4_inb c 3) (k0_off4_inb c 3) (congrArg (· / 2) (z_pred c)) fd).trans
          (Entails.of_eq (rpts_oCh_congr (predD c) (k0_off4 c 4096#32 4294967295#32 4294967295#32) (k0_off2 (predD c) 4096#32 4294967295#32) (k0_off4_inb c 3) (k0_off2_inb (predD c) 1) (off4_to_pred_1 c) fullShare (Res m (predD c)))))

/-- Redistribution step 2 of direction 0: a finished chunk from the result array to the result array of the successor. -/
theorem send_gather_0_2 (K : Dev nD × Fin 91 → ℕ) (c n : Dev nD) (hn : n = succD c)
    {hsc : ((oCh (k0_off4 c 0#32 1#32 2#32) (k0_off4_inb c 4)) : Memref sig (Dev.tc n : Thread nD τ).2.kind .hbm S512x1024 .f32).view.ref.isScScratch = false}
    {hsrc : (oCh (k0_off4 c 0#32 1#32 2#32) (k0_off4_inb c 4)).view.WordExact} {hdst : (oCh (k0_off4 c 0#32 1#32 2#32) (k0_off4_inb c 4)).view.WordExact}
    {hsem : DmaTarget.Typed .hbm (.dma (dsem 37)) (.remote (Dev.tc n : Thread nD τ) (oCh (k0_off4 c 0#32 1#32 2#32) (k0_off4_inb c 4)) (.dma (dsem 9)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 10)) (dcell c 9) ∗ cellInv ER (sched m) (K (succD c, 38)) (dcell (succD c) 37)
        ∗ rpts c (oCh (k0_off4 c 0#32 1#32 2#32) (k0_off4_inb c 4)) fullShare.right (Res m c) ∗ rpts (succD c) (oCh (k0_off2 (succD c) 0#32 2#32) (k0_off2_inb (succD c) 2)) fullShare fd
        ∗ owes (c : Thread nD τ) (O + tallyAt (dcell (succD c) 37) () N) W
        ∗ dutyTok ER (dcell c 9) 0 0 ∗ reached ER (dcell c 9) 0
        ∗ dutyTok ER (dcell (succD c) 37) 0 0 ∗ reached ER (dcell (succD c) 37) 0)
      ⊢ iprop(((cred (tallyAt (dcell c 9) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 2#32) (k0_off4_inb c 4)) (.remote (Dev.tc n : Thread nD τ) (oCh (k0_off4 c 0#32 1#32 2#32) (k0_off4_inb c 4)) (.dma (dsem 9)) hsc) (.dma (dsem 37)) hsrc hdst hsem) k) Q) := by
  subst hn
  rw [rpts_oCh_congr (succD c) (k0_off2 (succD c) 0#32 2#32) (k0_off4 c 0#32 1#32 2#32) (k0_off2_inb (succD c) 2) (k0_off4_inb c 4) (off4_to_succ_2 c).symm fullShare fd]
  exact Rounds.wp_send_pointsTo Variants.none ER (sched m) (c : Thread nD τ) none
    (c' := (succD c : Thread nD τ)) (src := (oCh (k0_off4 c 0#32 1#32 2#32) (k0_off4_inb c 4))) (dst := (oCh (k0_off4 c 0#32 1#32 2#32) (k0_off4_inb c 4))) (q := fullShare.right) (fs := Res m c) (fd := fd)
    (κ₁ := K (c, 10)) (κ₂ := K (succD c, 38)) (r₁ := 0) (r₂ := 0) (d₁ := 0) (d₂ := 0)
    (by rw [duties_dma m c 9 (by decide)]; exact Finset.mem_singleton_self _)
    (by rw [duties_dma m (succD c) 37 (by decide)]; exact Finset.mem_singleton_self _)
    () () N rfl (amount_dma m c 9 (by decide) 0 0) (amount_dma m (succD c) 37 (by decide) 0 0) O rfl (W := W)
    (by rw [payload_send_0_9]; exact BI.Entails.refl _)
    (by rw [payload_recv_0_9]
        exact (land_res_ent m c (succD c) (k0_off4 c 0#32 1#32 2#32) (k0_off4_inb c 4) (k0_off4_inb c 4) (congrArg (· / 2) (z_succ c)) fd).trans
          (Entails.of_eq (rpts_oCh_congr (succD c) (k0_off4 c 0#32 1#32 2#32) (k0_off2 (succD c) 0#32 2#32) (k0_off4_inb c 4) (k0_off2_inb (succD c) 2) (off4_to_succ_2 c) fullShare (Res m (succD c)))))

/-- Redistribution step 2 of direction 1: a finished chunk from the result array to the result array of the predecessor. -/
theorem send_gather_1_2 (K : Dev nD × Fin 91 → ℕ) (c n : Dev nD) (hn : n = predD c)
    {hsc : ((oCh (k0_off4 c 4096#32 4294967295#32 4294967294#32) (k0_off4_inb c 5)) : Memref sig (Dev.tc n : Thread nD τ).2.kind .hbm S512x1024 .f32).view.ref.isScScratch = false}
    {hsrc : (oCh (k0_off4 c 4096#32 4294967295#32 4294967294#32) (k0_off4_inb c 5)).view.WordExact} {hdst : (oCh (k0_off4 c 4096#32 4294967295#32 4294967294#32) (k0_off4_inb c 5)).view.WordExact}
    {hsem : DmaTarget.Typed .hbm (.dma (dsem 51)) (.remote (Dev.tc n : Thread nD τ) (oCh (k0_off4 c 4096#32 4294967295#32 4294967294#32) (k0_off4_inb c 5)) (.dma (dsem 23)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 24)) (dcell c 23) ∗ cellInv ER (sched m) (K (predD c, 52)) (dcell (predD c) 51)
        ∗ rpts c (oCh (k0_off4 c 4096#32 4294967295#32 4294967294#32) (k0_off4_inb c 5)) fullShare.right (Res m c) ∗ rpts (predD c) (oCh (k0_off2 (predD c) 4096#32 4294967294#32) (k0_off2_inb (predD c) 3)) fullShare fd
        ∗ owes (c : Thread nD τ) (O + tallyAt (dcell (predD c) 51) () N) W
        ∗ dutyTok ER (dcell c 23) 0 0 ∗ reached ER (dcell c 23) 0
        ∗ dutyTok ER (dcell (predD c) 51) 0 0 ∗ reached ER (dcell (predD c) 51) 0)
      ⊢ iprop(((cred (tallyAt (dcell c 23) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967294#32) (k0_off4_inb c 5)) (.remote (Dev.tc n : Thread nD τ) (oCh (k0_off4 c 4096#32 4294967295#32 4294967294#32) (k0_off4_inb c 5)) (.dma (dsem 23)) hsc) (.dma (dsem 51)) hsrc hdst hsem) k) Q) := by
  subst hn
  rw [rpts_oCh_congr (predD c) (k0_off2 (predD c) 4096#32 4294967294#32) (k0_off4 c 4096#32 4294967295#32 4294967294#32) (k0_off2_inb (predD c) 3) (k0_off4_inb c 5) (off4_to_pred_2 c).symm fullShare fd]
  exact Rounds.wp_send_pointsTo Variants.none ER (sched m) (c : Thread nD τ) none
    (c' := (predD c : Thread nD τ)) (src := (oCh (k0_off4 c 4096#32 4294967295#32 4294967294#32) (k0_off4_inb c 5))) (dst := (oCh (k0_off4 c 4096#32 4294967295#32 4294967294#32) (k0_off4_inb c 5))) (q := fullShare.right) (fs := Res m c) (fd := fd)
    (κ₁ := K (c, 24)) (κ₂ := K (predD c, 52)) (r₁ := 0) (r₂ := 0) (d₁ := 0) (d₂ := 0)
    (by rw [duties_dma m c 23 (by decide)]; exact Finset.mem_singleton_self _)
    (by rw [duties_dma m (predD c) 51 (by decide)]; exact Finset.mem_singleton_self _)
    () () N rfl (amount_dma m c 23 (by decide) 0 0) (amount_dma m (predD c) 51 (by decide) 0 0) O rfl (W := W)
    (by rw [payload_send_1_9]; exact BI.Entails.refl _)
    (by rw [payload_recv_1_9]
        exact (land_res_ent m c (predD c) (k0_off4 c 4096#32 4294967295#32 4294967294#32) (k0_off4_inb c 5) (k0_off4_inb c 5) (congrArg (· / 2) (z_pred c)) fd).trans
          (Entails.of_eq (rpts_oCh_congr (predD c) (k0_off4 c 4096#32 4294967295#32 4294967294#32) (k0_off2 (predD c) 4096#32 4294967294#32) (k0_off4_inb c 5) (k0_off2_inb (predD c) 3) (off4_to_pred_2 c) fullShare (Res m (predD c)))))

/-- Redistribution step 3 of direction 0: a finished chunk from the result array to the result array of the successor. -/
theorem send_gather_0_3 (K : Dev nD × Fin 91 → ℕ) (c n : Dev nD) (hn : n = succD c)
    {hsc : ((oCh (k0_off4 c 0#32 1#32 3#32) (k0_off4_inb c 6)) : Memref sig (Dev.tc n : Thread nD τ).2.kind .hbm S512x1024 .f32).view.ref.isScScratch = false}
    {hsrc : (oCh (k0_off4 c 0#32 1#32 3#32) (k0_off4_inb c 6)).view.WordExact} {hdst : (oCh (k0_off4 c 0#32 1#32 3#32) (k0_off4_inb c 6)).view.WordExact}
    {hsem : DmaTarget.Typed .hbm (.dma (dsem 38)) (.remote (Dev.tc n : Thread nD τ) (oCh (k0_off4 c 0#32 1#32 3#32) (k0_off4_inb c 6)) (.dma (dsem 10)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 11)) (dcell c 10) ∗ cellInv ER (sched m) (K (succD c, 39)) (dcell (succD c) 38)
        ∗ rpts c (oCh (k0_off4 c 0#32 1#32 3#32) (k0_off4_inb c 6)) fullShare.right (Res m c) ∗ rpts (succD c) (oCh (k0_off2 (succD c) 0#32 3#32) (k0_off2_inb (succD c) 4)) fullShare fd
        ∗ owes (c : Thread nD τ) (O + tallyAt (dcell (succD c) 38) () N) W
        ∗ dutyTok ER (dcell c 10) 0 0 ∗ reached ER (dcell c 10) 0
        ∗ dutyTok ER (dcell (succD c) 38) 0 0 ∗ reached ER (dcell (succD c) 38) 0)
      ⊢ iprop(((cred (tallyAt (dcell c 10) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 3#32) (k0_off4_inb c 6)) (.remote (Dev.tc n : Thread nD τ) (oCh (k0_off4 c 0#32 1#32 3#32) (k0_off4_inb c 6)) (.dma (dsem 10)) hsc) (.dma (dsem 38)) hsrc hdst hsem) k) Q) := by
  subst hn
  rw [rpts_oCh_congr (succD c) (k0_off2 (succD c) 0#32 3#32) (k0_off4 c 0#32 1#32 3#32) (k0_off2_inb (succD c) 4) (k0_off4_inb c 6) (off4_to_succ_3 c).symm fullShare fd]
  exact Rounds.wp_send_pointsTo Variants.none ER (sched m) (c : Thread nD τ) none
    (c' := (succD c : Thread nD τ)) (src := (oCh (k0_off4 c 0#32 1#32 3#32) (k0_off4_inb c 6))) (dst := (oCh (k0_off4 c 0#32 1#32 3#32) (k0_off4_inb c 6))) (q := fullShare.right) (fs := Res m c) (fd := fd)
    (κ₁ := K (c, 11)) (κ₂ := K (succD c, 39)) (r₁ := 0) (r₂ := 0) (d₁ := 0) (d₂ := 0)
    (by rw [duties_dma m c 10 (by decide)]; exact Finset.mem_singleton_self _)
    (by rw [duties_dma m (succD c) 38 (by decide)]; exact Finset.mem_singleton_self _)
    () () N rfl (amount_dma m c 10 (by decide) 0 0) (amount_dma m (succD c) 38 (by decide) 0 0) O rfl (W := W)
    (by rw [payload_send_0_10]; exact BI.Entails.refl _)
    (by rw [payload_recv_0_10]
        exact (land_res_ent m c (succD c) (k0_off4 c 0#32 1#32 3#32) (k0_off4_inb c 6) (k0_off4_inb c 6) (congrArg (· / 2) (z_succ c)) fd).trans
          (Entails.of_eq (rpts_oCh_congr (succD c) (k0_off4 c 0#32 1#32 3#32) (k0_off2 (succD c) 0#32 3#32) (k0_off4_inb c 6) (k0_off2_inb (succD c) 4) (off4_to_succ_3 c) fullShare (Res m (succD c)))))

/-- Redistribution step 3 of direction 1: a finished chunk from the result array to the result array of the predecessor. -/
theorem send_gather_1_3 (K : Dev nD × Fin 91 → ℕ) (c n : Dev nD) (hn : n = predD c)
    {hsc : ((oCh (k0_off4 c 4096#32 4294967295#32 4294967293#32) (k0_off4_inb c 7)) : Memref sig (Dev.tc n : Thread nD τ).2.kind .hbm S512x1024 .f32).view.ref.isScScratch = false}
    {hsrc : (oCh (k0_off4 c 4096#32 4294967295#32 4294967293#32) (k0_off4_inb c 7)).view.WordExact} {hdst : (oCh (k0_off4 c 4096#32 4294967295#32 4294967293#32) (k0_off4_inb c 7)).view.WordExact}
    {hsem : DmaTarget.Typed .hbm (.dma (dsem 52)) (.remote (Dev.tc n : Thread nD τ) (oCh (k0_off4 c 4096#32 4294967295#32 4294967293#32) (k0_off4_inb c 7)) (.dma (dsem 24)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 25)) (dcell c 24) ∗ cellInv ER (sched m) (K (predD c, 53)) (dcell (predD c) 52)
        ∗ rpts c (oCh (k0_off4 c 4096#32 4294967295#32 4294967293#32) (k0_off4_inb c 7)) fullShare.right (Res m c) ∗ rpts (predD c) (oCh (k0_off2 (predD c) 4096#32 4294967293#32) (k0_off2_inb (predD c) 5)) fullShare fd
        ∗ owes (c : Thread nD τ) (O + tallyAt (dcell (predD c) 52) () N) W
        ∗ dutyTok ER (dcell c 24) 0 0 ∗ reached ER (dcell c 24) 0
        ∗ dutyTok ER (dcell (predD c) 52) 0 0 ∗ reached ER (dcell (predD c) 52) 0)
      ⊢ iprop(((cred (tallyAt (dcell c 24) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967293#32) (k0_off4_inb c 7)) (.remote (Dev.tc n : Thread nD τ) (oCh (k0_off4 c 4096#32 4294967295#32 4294967293#32) (k0_off4_inb c 7)) (.dma (dsem 24)) hsc) (.dma (dsem 52)) hsrc hdst hsem) k) Q) := by
  subst hn
  rw [rpts_oCh_congr (predD c) (k0_off2 (predD c) 4096#32 4294967293#32) (k0_off4 c 4096#32 4294967295#32 4294967293#32) (k0_off2_inb (predD c) 5) (k0_off4_inb c 7) (off4_to_pred_3 c).symm fullShare fd]
  exact Rounds.wp_send_pointsTo Variants.none ER (sched m) (c : Thread nD τ) none
    (c' := (predD c : Thread nD τ)) (src := (oCh (k0_off4 c 4096#32 4294967295#32 4294967293#32) (k0_off4_inb c 7))) (dst := (oCh (k0_off4 c 4096#32 4294967295#32 4294967293#32) (k0_off4_inb c 7))) (q := fullShare.right) (fs := Res m c) (fd := fd)
    (κ₁ := K (c, 25)) (κ₂ := K (predD c, 53)) (r₁ := 0) (r₂ := 0) (d₁ := 0) (d₂ := 0)
    (by rw [duties_dma m c 24 (by decide)]; exact Finset.mem_singleton_self _)
    (by rw [duties_dma m (predD c) 52 (by decide)]; exact Finset.mem_singleton_self _)
    () () N rfl (amount_dma m c 24 (by decide) 0 0) (amount_dma m (predD c) 52 (by decide) 0 0) O rfl (W := W)
    (by rw [payload_send_1_10]; exact BI.Entails.refl _)
    (by rw [payload_recv_1_10]
        exact (land_res_ent m c (predD c) (k0_off4 c 4096#32 4294967295#32 4294967293#32) (k0_off4_inb c 7) (k0_off4_inb c 7) (congrArg (· / 2) (z_pred c)) fd).trans
          (Entails.of_eq (rpts_oCh_congr (predD c) (k0_off4 c 4096#32 4294967295#32 4294967293#32) (k0_off2 (predD c) 4096#32 4294967293#32) (k0_off4_inb c 7) (k0_off2_inb (predD c) 5) (off4_to_pred_3 c) fullShare (Res m (predD c)))))

/-- Redistribution step 4 of direction 0: a finished chunk from the result array to the result array of the successor. -/
theorem send_gather_0_4 (K : Dev nD × Fin 91 → ℕ) (c n : Dev nD) (hn : n = succD c)
    {hsc : ((oCh (k0_off4 c 0#32 1#32 4#32) (k0_off4_inb c 8)) : Memref sig (Dev.tc n : Thread nD τ).2.kind .hbm S512x1024 .f32).view.ref.isScScratch = false}
    {hsrc : (oCh (k0_off4 c 0#32 1#32 4#32) (k0_off4_inb c 8)).view.WordExact} {hdst : (oCh (k0_off4 c 0#32 1#32 4#32) (k0_off4_inb c 8)).view.WordExact}
    {hsem : DmaTarget.Typed .hbm (.dma (dsem 39)) (.remote (Dev.tc n : Thread nD τ) (oCh (k0_off4 c 0#32 1#32 4#32) (k0_off4_inb c 8)) (.dma (dsem 11)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 12)) (dcell c 11) ∗ cellInv ER (sched m) (K (succD c, 40)) (dcell (succD c) 39)
        ∗ rpts c (oCh (k0_off4 c 0#32 1#32 4#32) (k0_off4_inb c 8)) fullShare.right (Res m c) ∗ rpts (succD c) (oCh (k0_off2 (succD c) 0#32 4#32) (k0_off2_inb (succD c) 6)) fullShare fd
        ∗ owes (c : Thread nD τ) (O + tallyAt (dcell (succD c) 39) () N) W
        ∗ dutyTok ER (dcell c 11) 0 0 ∗ reached ER (dcell c 11) 0
        ∗ dutyTok ER (dcell (succD c) 39) 0 0 ∗ reached ER (dcell (succD c) 39) 0)
      ⊢ iprop(((cred (tallyAt (dcell c 11) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 4#32) (k0_off4_inb c 8)) (.remote (Dev.tc n : Thread nD τ) (oCh (k0_off4 c 0#32 1#32 4#32) (k0_off4_inb c 8)) (.dma (dsem 11)) hsc) (.dma (dsem 39)) hsrc hdst hsem) k) Q) := by
  subst hn
  rw [rpts_oCh_congr (succD c) (k0_off2 (succD c) 0#32 4#32) (k0_off4 c 0#32 1#32 4#32) (k0_off2_inb (succD c) 6) (k0_off4_inb c 8) (off4_to_succ_4 c).symm fullShare fd]
  exact Rounds.wp_send_pointsTo Variants.none ER (sched m) (c : Thread nD τ) none
    (c' := (succD c : Thread nD τ)) (src := (oCh (k0_off4 c 0#32 1#32 4#32) (k0_off4_inb c 8))) (dst := (oCh (k0_off4 c 0#32 1#32 4#32) (k0_off4_inb c 8))) (q := fullShare.right) (fs := Res m c) (fd := fd)
    (κ₁ := K (c, 12)) (κ₂ := K (succD c, 40)) (r₁ := 0) (r₂ := 0) (d₁ := 0) (d₂ := 0)
    (by rw [duties_dma m c 11 (by decide)]; exact Finset.mem_singleton_self _)
    (by rw [duties_dma m (succD c) 39 (by decide)]; exact Finset.mem_singleton_self _)
    () () N rfl (amount_dma m c 11 (by decide) 0 0) (amount_dma m (succD c) 39 (by decide) 0 0) O rfl (W := W)
    (by rw [payload_send_0_11]; exact BI.Entails.refl _)
    (by rw [payload_recv_0_11]
        exact (land_res_ent m c (succD c) (k0_off4 c 0#32 1#32 4#32) (k0_off4_inb c 8) (k0_off4_inb c 8) (congrArg (· / 2) (z_succ c)) fd).trans
          (Entails.of_eq (rpts_oCh_congr (succD c) (k0_off4 c 0#32 1#32 4#32) (k0_off2 (succD c) 0#32 4#32) (k0_off4_inb c 8) (k0_off2_inb (succD c) 6) (off4_to_succ_4 c) fullShare (Res m (succD c)))))

/-- Redistribution step 4 of direction 1: a finished chunk from the result array to the result array of the predecessor. -/
theorem send_gather_1_4 (K : Dev nD × Fin 91 → ℕ) (c n : Dev nD) (hn : n = predD c)
    {hsc : ((oCh (k0_off4 c 4096#32 4294967295#32 4294967292#32) (k0_off4_inb c 9)) : Memref sig (Dev.tc n : Thread nD τ).2.kind .hbm S512x1024 .f32).view.ref.isScScratch = false}
    {hsrc : (oCh (k0_off4 c 4096#32 4294967295#32 4294967292#32) (k0_off4_inb c 9)).view.WordExact} {hdst : (oCh (k0_off4 c 4096#32 4294967295#32 4294967292#32) (k0_off4_inb c 9)).view.WordExact}
    {hsem : DmaTarget.Typed .hbm (.dma (dsem 53)) (.remote (Dev.tc n : Thread nD τ) (oCh (k0_off4 c 4096#32 4294967295#32 4294967292#32) (k0_off4_inb c 9)) (.dma (dsem 25)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 26)) (dcell c 25) ∗ cellInv ER (sched m) (K (predD c, 54)) (dcell (predD c) 53)
        ∗ rpts c (oCh (k0_off4 c 4096#32 4294967295#32 4294967292#32) (k0_off4_inb c 9)) fullShare.right (Res m c) ∗ rpts (predD c) (oCh (k0_off2 (predD c) 4096#32 4294967292#32) (k0_off2_inb (predD c) 7)) fullShare fd
        ∗ owes (c : Thread nD τ) (O + tallyAt (dcell (predD c) 53) () N) W
        ∗ dutyTok ER (dcell c 25) 0 0 ∗ reached ER (dcell c 25) 0
        ∗ dutyTok ER (dcell (predD c) 53) 0 0 ∗ reached ER (dcell (predD c) 53) 0)
      ⊢ iprop(((cred (tallyAt (dcell c 25) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967292#32) (k0_off4_inb c 9)) (.remote (Dev.tc n : Thread nD τ) (oCh (k0_off4 c 4096#32 4294967295#32 4294967292#32) (k0_off4_inb c 9)) (.dma (dsem 25)) hsc) (.dma (dsem 53)) hsrc hdst hsem) k) Q) := by
  subst hn
  rw [rpts_oCh_congr (predD c) (k0_off2 (predD c) 4096#32 4294967292#32) (k0_off4 c 4096#32 4294967295#32 4294967292#32) (k0_off2_inb (predD c) 7) (k0_off4_inb c 9) (off4_to_pred_4 c).symm fullShare fd]
  exact Rounds.wp_send_pointsTo Variants.none ER (sched m) (c : Thread nD τ) none
    (c' := (predD c : Thread nD τ)) (src := (oCh (k0_off4 c 4096#32 4294967295#32 4294967292#32) (k0_off4_inb c 9))) (dst := (oCh (k0_off4 c 4096#32 4294967295#32 4294967292#32) (k0_off4_inb c 9))) (q := fullShare.right) (fs := Res m c) (fd := fd)
    (κ₁ := K (c, 26)) (κ₂ := K (predD c, 54)) (r₁ := 0) (r₂ := 0) (d₁ := 0) (d₂ := 0)
    (by rw [duties_dma m c 25 (by decide)]; exact Finset.mem_singleton_self _)
    (by rw [duties_dma m (predD c) 53 (by decide)]; exact Finset.mem_singleton_self _)
    () () N rfl (amount_dma m c 25 (by decide) 0 0) (amount_dma m (predD c) 53 (by decide) 0 0) O rfl (W := W)
    (by rw [payload_send_1_11]; exact BI.Entails.refl _)
    (by rw [payload_recv_1_11]
        exact (land_res_ent m c (predD c) (k0_off4 c 4096#32 4294967295#32 4294967292#32) (k0_off4_inb c 9) (k0_off4_inb c 9) (congrArg (· / 2) (z_pred c)) fd).trans
          (Entails.of_eq (rpts_oCh_congr (predD c) (k0_off4 c 4096#32 4294967295#32 4294967292#32) (k0_off2 (predD c) 4096#32 4294967292#32) (k0_off4_inb c 9) (k0_off2_inb (predD c) 7) (off4_to_pred_4 c) fullShare (Res m (predD c)))))

/-- Redistribution step 5 of direction 0: a finished chunk from the result array to the result array of the successor. -/
theorem send_gather_0_5 (K : Dev nD × Fin 91 → ℕ) (c n : Dev nD) (hn : n = succD c)
    {hsc : ((oCh (k0_off4 c 0#32 1#32 5#32) (k0_off4_inb c 10)) : Memref sig (Dev.tc n : Thread nD τ).2.kind .hbm S512x1024 .f32).view.ref.isScScratch = false}
    {hsrc : (oCh (k0_off4 c 0#32 1#32 5#32) (k0_off4_inb c 10)).view.WordExact} {hdst : (oCh (k0_off4 c 0#32 1#32 5#32) (k0_off4_inb c 10)).view.WordExact}
    {hsem : DmaTarget.Typed .hbm (.dma (dsem 40)) (.remote (Dev.tc n : Thread nD τ) (oCh (k0_off4 c 0#32 1#32 5#32) (k0_off4_inb c 10)) (.dma (dsem 12)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 13)) (dcell c 12) ∗ cellInv ER (sched m) (K (succD c, 41)) (dcell (succD c) 40)
        ∗ rpts c (oCh (k0_off4 c 0#32 1#32 5#32) (k0_off4_inb c 10)) fullShare.right (Res m c) ∗ rpts (succD c) (oCh (k0_off2 (succD c) 0#32 5#32) (k0_off2_inb (succD c) 8)) fullShare fd
        ∗ owes (c : Thread nD τ) (O + tallyAt (dcell (succD c) 40) () N) W
        ∗ dutyTok ER (dcell c 12) 0 0 ∗ reached ER (dcell c 12) 0
        ∗ dutyTok ER (dcell (succD c) 40) 0 0 ∗ reached ER (dcell (succD c) 40) 0)
      ⊢ iprop(((cred (tallyAt (dcell c 12) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 5#32) (k0_off4_inb c 10)) (.remote (Dev.tc n : Thread nD τ) (oCh (k0_off4 c 0#32 1#32 5#32) (k0_off4_inb c 10)) (.dma (dsem 12)) hsc) (.dma (dsem 40)) hsrc hdst hsem) k) Q) := by
  subst hn
  rw [rpts_oCh_congr (succD c) (k0_off2 (succD c) 0#32 5#32) (k0_off4 c 0#32 1#32 5#32) (k0_off2_inb (succD c) 8) (k0_off4_inb c 10) (off4_to_succ_5 c).symm fullShare fd]
  exact Rounds.wp_send_pointsTo Variants.none ER (sched m) (c : Thread nD τ) none
    (c' := (succD c : Thread nD τ)) (src := (oCh (k0_off4 c 0#32 1#32 5#32) (k0_off4_inb c 10))) (dst := (oCh (k0_off4 c 0#32 1#32 5#32) (k0_off4_inb c 10))) (q := fullShare.right) (fs := Res m c) (fd := fd)
    (κ₁ := K (c, 13)) (κ₂ := K (succD c, 41)) (r₁ := 0) (r₂ := 0) (d₁ := 0) (d₂ := 0)
    (by rw [duties_dma m c 12 (by decide)]; exact Finset.mem_singleton_self _)
    (by rw [duties_dma m (succD c) 40 (by decide)]; exact Finset.mem_singleton_self _)
    () () N rfl (amount_dma m c 12 (by decide) 0 0) (amount_dma m (succD c) 40 (by decide) 0 0) O rfl (W := W)
    (by rw [payload_send_0_12]; exact BI.Entails.refl _)
    (by rw [payload_recv_0_12]
        exact (land_res_ent m c (succD c) (k0_off4 c 0#32 1#32 5#32) (k0_off4_inb c 10) (k0_off4_inb c 10) (congrArg (· / 2) (z_succ c)) fd).trans
          (Entails.of_eq (rpts_oCh_congr (succD c) (k0_off4 c 0#32 1#32 5#32) (k0_off2 (succD c) 0#32 5#32) (k0_off4_inb c 10) (k0_off2_inb (succD c) 8) (off4_to_succ_5 c) fullShare (Res m (succD c)))))

/-- Redistribution step 5 of direction 1: a finished chunk from the result array to the result array of the predecessor. -/
theorem send_gather_1_5 (K : Dev nD × Fin 91 → ℕ) (c n : Dev nD) (hn : n = predD c)
    {hsc : ((oCh (k0_off4 c 4096#32 4294967295#32 4294967291#32) (k0_off4_inb c 11)) : Memref sig (Dev.tc n : Thread nD τ).2.kind .hbm S512x1024 .f32).view.ref.isScScratch = false}
    {hsrc : (oCh (k0_off4 c 4096#32 4294967295#32 4294967291#32) (k0_off4_inb c 11)).view.WordExact} {hdst : (oCh (k0_off4 c 4096#32 4294967295#32 4294967291#32) (k0_off4_inb c 11)).view.WordExact}
    {hsem : DmaTarget.Typed .hbm (.dma (dsem 54)) (.remote (Dev.tc n : Thread nD τ) (oCh (k0_off4 c 4096#32 4294967295#32 4294967291#32) (k0_off4_inb c 11)) (.dma (dsem 26)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 27)) (dcell c 26) ∗ cellInv ER (sched m) (K (predD c, 55)) (dcell (predD c) 54)
        ∗ rpts c (oCh (k0_off4 c 4096#32 4294967295#32 4294967291#32) (k0_off4_inb c 11)) fullShare.right (Res m c) ∗ rpts (predD c) (oCh (k0_off2 (predD c) 4096#32 4294967291#32) (k0_off2_inb (predD c) 9)) fullShare fd
        ∗ owes (c : Thread nD τ) (O + tallyAt (dcell (predD c) 54) () N) W
        ∗ dutyTok ER (dcell c 26) 0 0 ∗ reached ER (dcell c 26) 0
        ∗ dutyTok ER (dcell (predD c) 54) 0 0 ∗ reached ER (dcell (predD c) 54) 0)
      ⊢ iprop(((cred (tallyAt (dcell c 26) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967291#32) (k0_off4_inb c 11)) (.remote (Dev.tc n : Thread nD τ) (oCh (k0_off4 c 4096#32 4294967295#32 4294967291#32) (k0_off4_inb c 11)) (.dma (dsem 26)) hsc) (.dma (dsem 54)) hsrc hdst hsem) k) Q) := by
  subst hn
  rw [rpts_oCh_congr (predD c) (k0_off2 (predD c) 4096#32 4294967291#32) (k0_off4 c 4096#32 4294967295#32 4294967291#32) (k0_off2_inb (predD c) 9) (k0_off4_inb c 11) (off4_to_pred_5 c).symm fullShare fd]
  exact Rounds.wp_send_pointsTo Variants.none ER (sched m) (c : Thread nD τ) none
    (c' := (predD c : Thread nD τ)) (src := (oCh (k0_off4 c 4096#32 4294967295#32 4294967291#32) (k0_off4_inb c 11))) (dst := (oCh (k0_off4 c 4096#32 4294967295#32 4294967291#32) (k0_off4_inb c 11))) (q := fullShare.right) (fs := Res m c) (fd := fd)
    (κ₁ := K (c, 27)) (κ₂ := K (predD c, 55)) (r₁ := 0) (r₂ := 0) (d₁ := 0) (d₂ := 0)
    (by rw [duties_dma m c 26 (by decide)]; exact Finset.mem_singleton_self _)
    (by rw [duties_dma m (predD c) 54 (by decide)]; exact Finset.mem_singleton_self _)
    () () N rfl (amount_dma m c 26 (by decide) 0 0) (amount_dma m (predD c) 54 (by decide) 0 0) O rfl (W := W)
    (by rw [payload_send_1_12]; exact BI.Entails.refl _)
    (by rw [payload_recv_1_12]
        exact (land_res_ent m c (predD c) (k0_off4 c 4096#32 4294967295#32 4294967291#32) (k0_off4_inb c 11) (k0_off4_inb c 11) (congrArg (· / 2) (z_pred c)) fd).trans
          (Entails.of_eq (rpts_oCh_congr (predD c) (k0_off4 c 4096#32 4294967295#32 4294967291#32) (k0_off2 (predD c) 4096#32 4294967291#32) (k0_off4_inb c 11) (k0_off2_inb (predD c) 9) (off4_to_pred_5 c) fullShare (Res m (predD c)))))

/-- Redistribution step 6 of direction 0: a finished chunk from the result array to the result array of the successor. -/
theorem send_gather_0_6 (K : Dev nD × Fin 91 → ℕ) (c n : Dev nD) (hn : n = succD c)
    {hsc : ((oCh (k0_off4 c 0#32 1#32 6#32) (k0_off4_inb c 12)) : Memref sig (Dev.tc n : Thread nD τ).2.kind .hbm S512x1024 .f32).view.ref.isScScratch = false}
    {hsrc : (oCh (k0_off4 c 0#32 1#32 6#32) (k0_off4_inb c 12)).view.WordExact} {hdst : (oCh (k0_off4 c 0#32 1#32 6#32) (k0_off4_inb c 12)).view.WordExact}
    {hsem : DmaTarget.Typed .hbm (.dma (dsem 41)) (.remote (Dev.tc n : Thread nD τ) (oCh (k0_off4 c 0#32 1#32 6#32) (k0_off4_inb c 12)) (.dma (dsem 13)) hsc)}
    {α : Type} {Q : α → sProp 𝕄} {k : PUnit → Prog (TpuEff nD τ sig (Elt F) Λ₀ .tc) α}
    (fd : Buf (Elt F) ((succD c : Thread nD τ).loc main_v1)) (O : CellTallies nD τ sig Unit) (W : Waits sig Unit) :
    iprop(cellInv ER (sched m) (K (c, 14)) (dcell c 13) ∗ cellInv ER (sched m) (K (succD c, 42)) (dcell (succD c) 41)
        ∗ rpts c (oCh (k0_off4 c 0#32 1#32 6#32) (k0_off4_inb c 12)) fullShare.right (Res m c) ∗ rpts (succD c) (oCh (k0_off2 (succD c) 0#32 6#32) (k0_off2_inb (succD c) 10)) fullShare fd
        ∗ owes (c : Thread nD τ) (O + tallyAt (dcell (succD c) 41) () N) W
        ∗ dutyTok ER (dcell c 13) 0 0 ∗ reached ER (dcell c 13) 0
        ∗ dutyTok ER (dcell (succD c) 41) 0 0 ∗ reached ER (dcell (succD c) 41) 0)
      ⊢ iprop(((cred (tallyAt (dcell c 13) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 0#32 1#32 6#32) (k0_off4_inb c 12)) (.remote (Dev.tc n : Thread nD τ) (oCh (k0_off4 c 0#32 1#32 6#32) (k0_off4_inb c 12)) (.dma (dsem 13)) hsc) (.dma (dsem 41)) hsrc hdst hsem) k) Q) := by
  subst hn
  rw [rpts_oCh_congr (succD c) (k0_off2 (succD c) 0#32 6#32) (k0_off4 c 0#32 1#32 6#32) (k0_off2_inb (succD c) 10) (k0_off4_inb c 12) (off4_to_succ_6 c).symm fullShare fd]
  exact Rounds.wp_send_pointsTo Variants.none ER (sched m) (c : Thread nD τ) none
    (c' := (succD c : Thread nD τ)) (src := (oCh (k0_off4 c 0#32 1#32 6#32) (k0_off4_inb c 12))) (dst := (oCh (k0_off4 c 0#32 1#32 6#32) (k0_off4_inb c 12))) (q := fullShare.right) (fs := Res m c) (fd := fd)
    (κ₁ := K (c, 14)) (κ₂ := K (succD c, 42)) (r₁ := 0) (r₂ := 0) (d₁ := 0) (d₂ := 0)
    (by rw [duties_dma m c 13 (by decide)]; exact Finset.mem_singleton_self _)
    (by rw [duties_dma m (succD c) 41 (by decide)]; exact Finset.mem_singleton_self _)
    () () N rfl (amount_dma m c 13 (by decide) 0 0) (amount_dma m (succD c) 41 (by decide) 0 0) O rfl (W := W)
    (by rw [payload_send_0_13]; exact BI.Entails.refl _)
    (by rw [payload_recv_0_13]
        exact (land_res_ent m c (succD c) (k0_off4 c 0#32 1#32 6#32) (k0_off4_inb c 12) (k0_off4_inb c 12) (congrArg (· / 2) (z_succ c)) fd).trans
          (Entails.of_eq (rpts_oCh_congr (succD c) (k0_off4 c 0#32 1#32 6#32) (k0_off2 (succD c) 0#32 6#32) (k0_off4_inb c 12) (k0_off2_inb (succD c) 10) (off4_to_succ_6 c) fullShare (Res m (succD c)))))

/-- Redistribution step 6 of direction 1: a finished chunk from the result array to the result array of the predecessor. -/
theorem send_gather_1_6 (K : Dev nD × Fin 91 → ℕ) (c n : Dev nD) (hn : n = predD c)
    {hsc : ((oCh (k0_off4 c 4096#32 4294967295#32 4294967290#32) (k0_off4_inb c 13)) : Memref sig (Dev.tc n : Thread nD τ).2.kind .hbm S512x1024 .f32).view.ref.isScScratch = false}
    {hsrc : (oCh (k0_off4 c 4096#32 4294967295#32 4294967290#32) (k0_off4_inb c 13)).view.WordExact} {hdst : (oCh (k0_off4 c 4096#32 4294967295#32 4294967290#32) (k0_off4_inb c 13)).view.WordExact}
    {hsem : DmaTarget.Typed .hbm (.dma (dsem 55)) (.remote (Dev.tc n : Thread nD τ) (oCh (k0_off4 c 4096#32 4294967295#32 4294967290#32) (k0_off4_inb c 13)) (.dma (dsem 27)) hsc)}
    {α : Type} {Q : α → sProp 𝕄} {k : PUnit → Prog (TpuEff nD τ sig (Elt F) Λ₀ .tc) α}
    (fd : Buf (Elt F) ((predD c : Thread nD τ).loc main_v1)) (O : CellTallies nD τ sig Unit) (W : Waits sig Unit) :
    iprop(cellInv ER (sched m) (K (c, 28)) (dcell c 27) ∗ cellInv ER (sched m) (K (predD c, 56)) (dcell (predD c) 55)
        ∗ rpts c (oCh (k0_off4 c 4096#32 4294967295#32 4294967290#32) (k0_off4_inb c 13)) fullShare.right (Res m c) ∗ rpts (predD c) (oCh (k0_off2 (predD c) 4096#32 4294967290#32) (k0_off2_inb (predD c) 11)) fullShare fd
        ∗ owes (c : Thread nD τ) (O + tallyAt (dcell (predD c) 55) () N) W
        ∗ dutyTok ER (dcell c 27) 0 0 ∗ reached ER (dcell c 27) 0
        ∗ dutyTok ER (dcell (predD c) 55) 0 0 ∗ reached ER (dcell (predD c) 55) 0)
      ⊢ iprop(((cred (tallyAt (dcell c 27) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off4 c 4096#32 4294967295#32 4294967290#32) (k0_off4_inb c 13)) (.remote (Dev.tc n : Thread nD τ) (oCh (k0_off4 c 4096#32 4294967295#32 4294967290#32) (k0_off4_inb c 13)) (.dma (dsem 27)) hsc) (.dma (dsem 55)) hsrc hdst hsem) k) Q) := by
  subst hn
  rw [rpts_oCh_congr (predD c) (k0_off2 (predD c) 4096#32 4294967290#32) (k0_off4 c 4096#32 4294967295#32 4294967290#32) (k0_off2_inb (predD c) 11) (k0_off4_inb c 13) (off4_to_pred_6 c).symm fullShare fd]
  exact Rounds.wp_send_pointsTo Variants.none ER (sched m) (c : Thread nD τ) none
    (c' := (predD c : Thread nD τ)) (src := (oCh (k0_off4 c 4096#32 4294967295#32 4294967290#32) (k0_off4_inb c 13))) (dst := (oCh (k0_off4 c 4096#32 4294967295#32 4294967290#32) (k0_off4_inb c 13))) (q := fullShare.right) (fs := Res m c) (fd := fd)
    (κ₁ := K (c, 28)) (κ₂ := K (predD c, 56)) (r₁ := 0) (r₂ := 0) (d₁ := 0) (d₂ := 0)
    (by rw [duties_dma m c 27 (by decide)]; exact Finset.mem_singleton_self _)
    (by rw [duties_dma m (predD c) 55 (by decide)]; exact Finset.mem_singleton_self _)
    () () N rfl (amount_dma m c 27 (by decide) 0 0) (amount_dma m (predD c) 55 (by decide) 0 0) O rfl (W := W)
    (by rw [payload_send_1_13]; exact BI.Entails.refl _)
    (by rw [payload_recv_1_13]
        exact (land_res_ent m c (predD c) (k0_off4 c 4096#32 4294967295#32 4294967290#32) (k0_off4_inb c 13) (k0_off4_inb c 13) (congrArg (· / 2) (z_pred c)) fd).trans
          (Entails.of_eq (rpts_oCh_congr (predD c) (k0_off4 c 4096#32 4294967295#32 4294967290#32) (k0_off2 (predD c) 4096#32 4294967290#32) (k0_off4_inb c 13) (k0_off2_inb (predD c) 11) (off4_to_pred_6 c) fullShare (Res m (predD c)))))

/-- info: 'Cert.Kernel.Rules.send_ring_0' depends on axioms: [propext, Classical.choice, Quot.sound] -/
#guard_msgs in #print axioms send_ring_0

/-- info: 'Cert.Kernel.Rules.send_gather_1_6' depends on axioms: [propext, Classical.choice, Quot.sound] -/
#guard_msgs in #print axioms send_gather_1_6

end Cert.Kernel.Rules

end
-- ==== Proof.Bits.RulesPair.lean ====
/-
  The copies a device sends to its pair partner, each as one application of the library's rule for an addressed
  transfer whose destination the sender owns. A device sends its finished chunk of each direction from the last
  slot of its exchange buffer, and then each of the seven finished chunks it receives along the ring from its
  result array, into the partner's result array at the same rows. The departure cell's duty hands back the share
  of the source the copy reads; the arrival cell's duty hands the partner the written rows at the result they
  are to hold. The partner's table names those rows by its own partner's offsets, which are the sender's.
-/
import proofs.«900727_g7700000000000728_dist_ar_v7x_xyz2x4x4_y_m16384_n1024_f32_1_alg».proof.Proof.Bits.Tables
import proofs.«900727_g7700000000000728_dist_ar_v7x_xyz2x4x4_y_m16384_n1024_f32_1_alg».proof.Proof.Bits.ValLemmas
import proofs.«900727_g7700000000000728_dist_ar_v7x_xyz2x4x4_y_m16384_n1024_f32_1_alg».proof.Proof.Bits.Canon

set_option maxRecDepth 16384

noncomputable section

namespace Cert.Kernel.Rules

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The partner's names for the sender's rows -/

omit [FloatOps F] in
/-- A chunk named by the first offset chain at equal devices is the same region. -/
theorem off3_dev_eq (x y : Dev nD) (hxy : x = y) (dev : Dev nD) (r : Fin 2) (q : PosShare TreeShare)
    (f : Buf (Elt F) ((dev : Thread nD τ).loc main_v1)) :
    (rpts dev (oCh (k0_off3 x (k0_off3_at r).1 (k0_off3_at r).2) (k0_off3_inb x r)) q f : sProp 𝕄)
      = rpts dev (oCh (k0_off3 y (k0_off3_at r).1 (k0_off3_at r).2) (k0_off3_inb y r)) q f := by
  subst hxy; rfl

omit [FloatOps F] in
/-- The same for the second offset chain. -/
theorem off2_dev_eq (x y : Dev nD) (hxy : x = y) (dev : Dev nD) (r : Fin 16) (q : PosShare TreeShare)
    (f : Buf (Elt F) ((dev : Thread nD τ).loc main_v1)) :
    (rpts dev (oCh (k0_off2 x (k0_off2_at r).1 (k0_off2_at r).2) (k0_off2_inb x r)) q f : sProp 𝕄)
      = rpts dev (oCh (k0_off2 y (k0_off2_at r).1 (k0_off2_at r).2) (k0_off2_inb y r)) q f := by
  subst hxy; rfl

/-- The finished chunk of direction 0, from the last slot of the exchange buffer to the partner's result array. -/
theorem zsend_done_0 (K : Dev nD × Fin 91 → ℕ) (c n : Dev nD) (hn : n = partD c)
    {hsc : ((oCh (k0_off3 c 0#32 1#32) (k0_off3_inb c 0)) : Memref sig (Dev.tc n : Thread nD τ).2.kind .hbm S512x1024 .f32).view.ref.isScScratch = false}
    {hsrc : (cSl 0 6 inb_S2x7x512x1024_S1x1x512x1024_0_6_0_0).view.WordExact} {hdst : (oCh (k0_off3 c 0#32 1#32) (k0_off3_inb c 0)).view.WordExact}
    {hsem : DmaTarget.Typed .vmem (.dma (dsem 72)) (.remote (Dev.tc n : Thread nD τ) (oCh (k0_off3 c 0#32 1#32) (k0_off3_inb c 0)) (.dma (dsem 56)) hsc)}
    {α : Type} {Q : α → sProp 𝕄} {k : PUnit → Prog (TpuEff nD τ sig (Elt F) Λ₀ .tc) α}
    (fd : Buf (Elt F) ((oCh (k0_off3 c 0#32 1#32) (k0_off3_inb c 0)).view.loc (partD c : Thread nD τ)))
    (O : CellTallies nD τ sig Unit) (W : Waits sig Unit) :
    iprop(cellInv ER (sched m) (K (c, 57)) (dcell c 56) ∗ cellInv ER (sched m) (K (partD c, 73)) (dcell (partD c) 72)
        ∗ rpts c (cSl 0 6 inb_S2x7x512x1024_S1x1x512x1024_0_6_0_0) fullShare.left (CommAcc m c)
        ∗ rpts (partD c) (oCh (k0_off3 c 0#32 1#32) (k0_off3_inb c 0)) fullShare fd
        ∗ owes (c : Thread nD τ) (O + tallyAt (dcell (partD c) 72) () N) W
        ∗ dutyTok ER (dcell c 56) 0 0 ∗ reached ER (dcell c 56) 0
        ∗ dutyTok ER (dcell (partD c) 72) 0 0 ∗ reached ER (dcell (partD c) 72) 0)
      ⊢ iprop(((cred (tallyAt (dcell c 56) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 6 inb_S2x7x512x1024_S1x1x512x1024_0_6_0_0) (.remote (Dev.tc n : Thread nD τ) (oCh (k0_off3 c 0#32 1#32) (k0_off3_inb c 0)) (.dma (dsem 56)) hsc) (.dma (dsem 72)) hsrc hdst hsem) k) Q) := by
  subst hn
  unfold rpts
  exact Rounds.wp_send_pointsTo Variants.none ER (sched m) (c : Thread nD τ) none (c' := (partD c : Thread nD τ))
    (src := (cSl 0 6 inb_S2x7x512x1024_S1x1x512x1024_0_6_0_0)) (dst := (oCh (k0_off3 c 0#32 1#32) (k0_off3_inb c 0))) (q := fullShare.left) (fs := CommAcc m c) (fd := fd)
    (κ₁ := K (c, 57)) (κ₂ := K (partD c, 73)) (r₁ := 0) (r₂ := 0) (d₁ := 0) (d₂ := 0)
    (by rw [duties_dma m c 56 (by decide)]; exact Finset.mem_singleton_self _)
    (by rw [duties_dma m (partD c) 72 (by decide)]; exact Finset.mem_singleton_self _)
    () () N rfl (amount_dma m c 56 (by decide) 0 0) (amount_dma m (partD c) 72 (by decide) 0 0) O rfl (W := W)
    (by rw [payload_zsend_0_0]; exact BI.Entails.refl _)
    (by
      rw [payload_zrecv_0_0]
      exact (land_done_ent m c (partD c) 0 (by decide) (z_part c) _ _ _ (off3_0 c) fd).trans
        (Entails.of_eq (off3_dev_eq c (partD (partD c)) (part_part c).symm (partD c) 0 fullShare (Res m (partD c)))))

/-- The finished chunk of direction 1, from the last slot of the exchange buffer to the partner's result array. -/
theorem zsend_done_1 (K : Dev nD × Fin 91 → ℕ) (c n : Dev nD) (hn : n = partD c)
    {hsc : ((oCh (k0_off3 c 4096#32 4294967295#32) (k0_off3_inb c 1)) : Memref sig (Dev.tc n : Thread nD τ).2.kind .hbm S512x1024 .f32).view.ref.isScScratch = false}
    {hsrc : (cSl 1 6 inb_S2x7x512x1024_S1x1x512x1024_1_6_0_0).view.WordExact} {hdst : (oCh (k0_off3 c 4096#32 4294967295#32) (k0_off3_inb c 1)).view.WordExact}
    {hsem : DmaTarget.Typed .vmem (.dma (dsem 80)) (.remote (Dev.tc n : Thread nD τ) (oCh (k0_off3 c 4096#32 4294967295#32) (k0_off3_inb c 1)) (.dma (dsem 64)) hsc)}
    {α : Type} {Q : α → sProp 𝕄} {k : PUnit → Prog (TpuEff nD τ sig (Elt F) Λ₀ .tc) α}
    (fd : Buf (Elt F) ((oCh (k0_off3 c 4096#32 4294967295#32) (k0_off3_inb c 1)).view.loc (partD c : Thread nD τ)))
    (O : CellTallies nD τ sig Unit) (W : Waits sig Unit) :
    iprop(cellInv ER (sched m) (K (c, 65)) (dcell c 64) ∗ cellInv ER (sched m) (K (partD c, 81)) (dcell (partD c) 80)
        ∗ rpts c (cSl 1 6 inb_S2x7x512x1024_S1x1x512x1024_1_6_0_0) fullShare.left (CommAcc m c)
        ∗ rpts (partD c) (oCh (k0_off3 c 4096#32 4294967295#32) (k0_off3_inb c 1)) fullShare fd
        ∗ owes (c : Thread nD τ) (O + tallyAt (dcell (partD c) 80) () N) W
        ∗ dutyTok ER (dcell c 64) 0 0 ∗ reached ER (dcell c 64) 0
        ∗ dutyTok ER (dcell (partD c) 80) 0 0 ∗ reached ER (dcell (partD c) 80) 0)
      ⊢ iprop(((cred (tallyAt (dcell c 64) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 6 inb_S2x7x512x1024_S1x1x512x1024_1_6_0_0) (.remote (Dev.tc n : Thread nD τ) (oCh (k0_off3 c 4096#32 4294967295#32) (k0_off3_inb c 1)) (.dma (dsem 64)) hsc) (.dma (dsem 80)) hsrc hdst hsem) k) Q) := by
  subst hn
  unfold rpts
  exact Rounds.wp_send_pointsTo Variants.none ER (sched m) (c : Thread nD τ) none (c' := (partD c : Thread nD τ))
    (src := (cSl 1 6 inb_S2x7x512x1024_S1x1x512x1024_1_6_0_0)) (dst := (oCh (k0_off3 c 4096#32 4294967295#32) (k0_off3_inb c 1))) (q := fullShare.left) (fs := CommAcc m c) (fd := fd)
    (κ₁ := K (c, 65)) (κ₂ := K (partD c, 81)) (r₁ := 0) (r₂ := 0) (d₁ := 0) (d₂ := 0)
    (by rw [duties_dma m c 64 (by decide)]; exact Finset.mem_singleton_self _)
    (by rw [duties_dma m (partD c) 80 (by decide)]; exact Finset.mem_singleton_self _)
    () () N rfl (amount_dma m c 64 (by decide) 0 0) (amount_dma m (partD c) 80 (by decide) 0 0) O rfl (W := W)
    (by rw [payload_zsend_1_0]; exact BI.Entails.refl _)
    (by
      rw [payload_zrecv_1_0]
      exact (land_done_ent m c (partD c) 1 (by decide) (z_part c) _ _ _ (off3_1 c) fd).trans
        (Entails.of_eq (off3_dev_eq c (partD (partD c)) (part_part c).symm (partD c) 1 fullShare (Res m (partD c)))))

/-- The finished chunk of direction 0 received at step 0 of the redistribution, from the device's result array to the partner's. -/
theorem zsend_gather_0_0 (K : Dev nD × Fin 91 → ℕ) (c n : Dev nD) (hn : n = partD c)
    {hsc : ((oCh (k0_off2 c 0#32 0#32) (k0_off2_inb c 14)) : Memref sig (Dev.tc n : Thread nD τ).2.kind .hbm S512x1024 .f32).view.ref.isScScratch = false}
    {hsrc : (oCh (k0_off2 c 0#32 0#32) (k0_off2_inb c 14)).view.WordExact} {hdst : (oCh (k0_off2 c 0#32 0#32) (k0_off2_inb c 14)).view.WordExact}
    {hsem : DmaTarget.Typed .hbm (.dma (dsem 73)) (.remote (Dev.tc n : Thread nD τ) (oCh (k0_off2 c 0#32 0#32) (k0_off2_inb c 14)) (.dma (dsem 57)) hsc)}
    {α : Type} {Q : α → sProp 𝕄} {k : PUnit → Prog (TpuEff nD τ sig (Elt F) Λ₀ .tc) α}
    (fd : Buf (Elt F) ((oCh (k0_off2 c 0#32 0#32) (k0_off2_inb c 14)).view.loc (partD c : Thread nD τ)))
    (O : CellTallies nD τ sig Unit) (W : Waits sig Unit) :
    iprop(cellInv ER (sched m) (K (c, 58)) (dcell c 57) ∗ cellInv ER (sched m) (K (partD c, 74)) (dcell (partD c) 73)
        ∗ rpts c (oCh (k0_off2 c 0#32 0#32) (k0_off2_inb c 14)) fullShare.left (Res m c)
        ∗ rpts (partD c) (oCh (k0_off2 c 0#32 0#32) (k0_off2_inb c 14)) fullShare fd
        ∗ owes (c : Thread nD τ) (O + tallyAt (dcell (partD c) 73) () N) W
        ∗ dutyTok ER (dcell c 57) 0 0 ∗ reached ER (dcell c 57) 0
        ∗ dutyTok ER (dcell (partD c) 73) 0 0 ∗ reached ER (dcell (partD c) 73) 0)
      ⊢ iprop(((cred (tallyAt (dcell c 57) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 0#32) (k0_off2_inb c 14)) (.remote (Dev.tc n : Thread nD τ) (oCh (k0_off2 c 0#32 0#32) (k0_off2_inb c 14)) (.dma (dsem 57)) hsc) (.dma (dsem 73)) hsrc hdst hsem) k) Q) := by
  subst hn
  unfold rpts
  exact Rounds.wp_send_pointsTo Variants.none ER (sched m) (c : Thread nD τ) none (c' := (partD c : Thread nD τ))
    (src := (oCh (k0_off2 c 0#32 0#32) (k0_off2_inb c 14))) (dst := (oCh (k0_off2 c 0#32 0#32) (k0_off2_inb c 14))) (q := fullShare.left) (fs := Res m c) (fd := fd)
    (κ₁ := K (c, 58)) (κ₂ := K (partD c, 74)) (r₁ := 0) (r₂ := 0) (d₁ := 0) (d₂ := 0)
    (by rw [duties_dma m c 57 (by decide)]; exact Finset.mem_singleton_self _)
    (by rw [duties_dma m (partD c) 73 (by decide)]; exact Finset.mem_singleton_self _)
    () () N rfl (amount_dma m c 57 (by decide) 0 0) (amount_dma m (partD c) 73 (by decide) 0 0) O rfl (W := W)
    (by rw [payload_zsend_0_1]; exact BI.Entails.refl _)
    (by
      rw [payload_zrecv_0_1]
      exact (land_res_ent m c (partD c) _ _ _ (z_part c) fd).trans
        (Entails.of_eq (off2_dev_eq c (partD (partD c)) (part_part c).symm (partD c) 14 fullShare (Res m (partD c)))))

/-- The finished chunk of direction 0 received at step 1 of the redistribution, from the device's result array to the partner's. -/
theorem zsend_gather_0_1 (K : Dev nD × Fin 91 → ℕ) (c n : Dev nD) (hn : n = partD c)
    {hsc : ((oCh (k0_off2 c 0#32 1#32) (k0_off2_inb c 0)) : Memref sig (Dev.tc n : Thread nD τ).2.kind .hbm S512x1024 .f32).view.ref.isScScratch = false}
    {hsrc : (oCh (k0_off2 c 0#32 1#32) (k0_off2_inb c 0)).view.WordExact} {hdst : (oCh (k0_off2 c 0#32 1#32) (k0_off2_inb c 0)).view.WordExact}
    {hsem : DmaTarget.Typed .hbm (.dma (dsem 74)) (.remote (Dev.tc n : Thread nD τ) (oCh (k0_off2 c 0#32 1#32) (k0_off2_inb c 0)) (.dma (dsem 58)) hsc)}
    {α : Type} {Q : α → sProp 𝕄} {k : PUnit → Prog (TpuEff nD τ sig (Elt F) Λ₀ .tc) α}
    (fd : Buf (Elt F) ((oCh (k0_off2 c 0#32 1#32) (k0_off2_inb c 0)).view.loc (partD c : Thread nD τ)))
    (O : CellTallies nD τ sig Unit) (W : Waits sig Unit) :
    iprop(cellInv ER (sched m) (K (c, 59)) (dcell c 58) ∗ cellInv ER (sched m) (K (partD c, 75)) (dcell (partD c) 74)
        ∗ rpts c (oCh (k0_off2 c 0#32 1#32) (k0_off2_inb c 0)) fullShare.left (Res m c)
        ∗ rpts (partD c) (oCh (k0_off2 c 0#32 1#32) (k0_off2_inb c 0)) fullShare fd
        ∗ owes (c : Thread nD τ) (O + tallyAt (dcell (partD c) 74) () N) W
        ∗ dutyTok ER (dcell c 58) 0 0 ∗ reached ER (dcell c 58) 0
        ∗ dutyTok ER (dcell (partD c) 74) 0 0 ∗ reached ER (dcell (partD c) 74) 0)
      ⊢ iprop(((cred (tallyAt (dcell c 58) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 1#32) (k0_off2_inb c 0)) (.remote (Dev.tc n : Thread nD τ) (oCh (k0_off2 c 0#32 1#32) (k0_off2_inb c 0)) (.dma (dsem 58)) hsc) (.dma (dsem 74)) hsrc hdst hsem) k) Q) := by
  subst hn
  unfold rpts
  exact Rounds.wp_send_pointsTo Variants.none ER (sched m) (c : Thread nD τ) none (c' := (partD c : Thread nD τ))
    (src := (oCh (k0_off2 c 0#32 1#32) (k0_off2_inb c 0))) (dst := (oCh (k0_off2 c 0#32 1#32) (k0_off2_inb c 0))) (q := fullShare.left) (fs := Res m c) (fd := fd)
    (κ₁ := K (c, 59)) (κ₂ := K (partD c, 75)) (r₁ := 0) (r₂ := 0) (d₁ := 0) (d₂ := 0)
    (by rw [duties_dma m c 58 (by decide)]; exact Finset.mem_singleton_self _)
    (by rw [duties_dma m (partD c) 74 (by decide)]; exact Finset.mem_singleton_self _)
    () () N rfl (amount_dma m c 58 (by decide) 0 0) (amount_dma m (partD c) 74 (by decide) 0 0) O rfl (W := W)
    (by rw [payload_zsend_0_2]; exact BI.Entails.refl _)
    (by
      rw [payload_zrecv_0_2]
      exact (land_res_ent m c (partD c) _ _ _ (z_part c) fd).trans
        (Entails.of_eq (off2_dev_eq c (partD (partD c)) (part_part c).symm (partD c) 0 fullShare (Res m (partD c)))))

/-- The finished chunk of direction 0 received at step 2 of the redistribution, from the device's result array to the partner's. -/
theorem zsend_gather_0_2 (K : Dev nD × Fin 91 → ℕ) (c n : Dev nD) (hn : n = partD c)
    {hsc : ((oCh (k0_off2 c 0#32 2#32) (k0_off2_inb c 2)) : Memref sig (Dev.tc n : Thread nD τ).2.kind .hbm S512x1024 .f32).view.ref.isScScratch = false}
    {hsrc : (oCh (k0_off2 c 0#32 2#32) (k0_off2_inb c 2)).view.WordExact} {hdst : (oCh (k0_off2 c 0#32 2#32) (k0_off2_inb c 2)).view.WordExact}
    {hsem : DmaTarget.Typed .hbm (.dma (dsem 75)) (.remote (Dev.tc n : Thread nD τ) (oCh (k0_off2 c 0#32 2#32) (k0_off2_inb c 2)) (.dma (dsem 59)) hsc)}
    {α : Type} {Q : α → sProp 𝕄} {k : PUnit → Prog (TpuEff nD τ sig (Elt F) Λ₀ .tc) α}
    (fd : Buf (Elt F) ((oCh (k0_off2 c 0#32 2#32) (k0_off2_inb c 2)).view.loc (partD c : Thread nD τ)))
    (O : CellTallies nD τ sig Unit) (W : Waits sig Unit) :
    iprop(cellInv ER (sched m) (K (c, 60)) (dcell c 59) ∗ cellInv ER (sched m) (K (partD c, 76)) (dcell (partD c) 75)
        ∗ rpts c (oCh (k0_off2 c 0#32 2#32) (k0_off2_inb c 2)) fullShare.left (Res m c)
        ∗ rpts (partD c) (oCh (k0_off2 c 0#32 2#32) (k0_off2_inb c 2)) fullShare fd
        ∗ owes (c : Thread nD τ) (O + tallyAt (dcell (partD c) 75) () N) W
        ∗ dutyTok ER (dcell c 59) 0 0 ∗ reached ER (dcell c 59) 0
        ∗ dutyTok ER (dcell (partD c) 75) 0 0 ∗ reached ER (dcell (partD c) 75) 0)
      ⊢ iprop(((cred (tallyAt (dcell c 59) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 2#32) (k0_off2_inb c 2)) (.remote (Dev.tc n : Thread nD τ) (oCh (k0_off2 c 0#32 2#32) (k0_off2_inb c 2)) (.dma (dsem 59)) hsc) (.dma (dsem 75)) hsrc hdst hsem) k) Q) := by
  subst hn
  unfold rpts
  exact Rounds.wp_send_pointsTo Variants.none ER (sched m) (c : Thread nD τ) none (c' := (partD c : Thread nD τ))
    (src := (oCh (k0_off2 c 0#32 2#32) (k0_off2_inb c 2))) (dst := (oCh (k0_off2 c 0#32 2#32) (k0_off2_inb c 2))) (q := fullShare.left) (fs := Res m c) (fd := fd)
    (κ₁ := K (c, 60)) (κ₂ := K (partD c, 76)) (r₁ := 0) (r₂ := 0) (d₁ := 0) (d₂ := 0)
    (by rw [duties_dma m c 59 (by decide)]; exact Finset.mem_singleton_self _)
    (by rw [duties_dma m (partD c) 75 (by decide)]; exact Finset.mem_singleton_self _)
    () () N rfl (amount_dma m c 59 (by decide) 0 0) (amount_dma m (partD c) 75 (by decide) 0 0) O rfl (W := W)
    (by rw [payload_zsend_0_3]; exact BI.Entails.refl _)
    (by
      rw [payload_zrecv_0_3]
      exact (land_res_ent m c (partD c) _ _ _ (z_part c) fd).trans
        (Entails.of_eq (off2_dev_eq c (partD (partD c)) (part_part c).symm (partD c) 2 fullShare (Res m (partD c)))))

/-- The finished chunk of direction 0 received at step 3 of the redistribution, from the device's result array to the partner's. -/
theorem zsend_gather_0_3 (K : Dev nD × Fin 91 → ℕ) (c n : Dev nD) (hn : n = partD c)
    {hsc : ((oCh (k0_off2 c 0#32 3#32) (k0_off2_inb c 4)) : Memref sig (Dev.tc n : Thread nD τ).2.kind .hbm S512x1024 .f32).view.ref.isScScratch = false}
    {hsrc : (oCh (k0_off2 c 0#32 3#32) (k0_off2_inb c 4)).view.WordExact} {hdst : (oCh (k0_off2 c 0#32 3#32) (k0_off2_inb c 4)).view.WordExact}
    {hsem : DmaTarget.Typed .hbm (.dma (dsem 76)) (.remote (Dev.tc n : Thread nD τ) (oCh (k0_off2 c 0#32 3#32) (k0_off2_inb c 4)) (.dma (dsem 60)) hsc)}
    {α : Type} {Q : α → sProp 𝕄} {k : PUnit → Prog (TpuEff nD τ sig (Elt F) Λ₀ .tc) α}
    (fd : Buf (Elt F) ((oCh (k0_off2 c 0#32 3#32) (k0_off2_inb c 4)).view.loc (partD c : Thread nD τ)))
    (O : CellTallies nD τ sig Unit) (W : Waits sig Unit) :
    iprop(cellInv ER (sched m) (K (c, 61)) (dcell c 60) ∗ cellInv ER (sched m) (K (partD c, 77)) (dcell (partD c) 76)
        ∗ rpts c (oCh (k0_off2 c 0#32 3#32) (k0_off2_inb c 4)) fullShare.left (Res m c)
        ∗ rpts (partD c) (oCh (k0_off2 c 0#32 3#32) (k0_off2_inb c 4)) fullShare fd
        ∗ owes (c : Thread nD τ) (O + tallyAt (dcell (partD c) 76) () N) W
        ∗ dutyTok ER (dcell c 60) 0 0 ∗ reached ER (dcell c 60) 0
        ∗ dutyTok ER (dcell (partD c) 76) 0 0 ∗ reached ER (dcell (partD c) 76) 0)
      ⊢ iprop(((cred (tallyAt (dcell c 60) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 3#32) (k0_off2_inb c 4)) (.remote (Dev.tc n : Thread nD τ) (oCh (k0_off2 c 0#32 3#32) (k0_off2_inb c 4)) (.dma (dsem 60)) hsc) (.dma (dsem 76)) hsrc hdst hsem) k) Q) := by
  subst hn
  unfold rpts
  exact Rounds.wp_send_pointsTo Variants.none ER (sched m) (c : Thread nD τ) none (c' := (partD c : Thread nD τ))
    (src := (oCh (k0_off2 c 0#32 3#32) (k0_off2_inb c 4))) (dst := (oCh (k0_off2 c 0#32 3#32) (k0_off2_inb c 4))) (q := fullShare.left) (fs := Res m c) (fd := fd)
    (κ₁ := K (c, 61)) (κ₂ := K (partD c, 77)) (r₁ := 0) (r₂ := 0) (d₁ := 0) (d₂ := 0)
    (by rw [duties_dma m c 60 (by decide)]; exact Finset.mem_singleton_self _)
    (by rw [duties_dma m (partD c) 76 (by decide)]; exact Finset.mem_singleton_self _)
    () () N rfl (amount_dma m c 60 (by decide) 0 0) (amount_dma m (partD c) 76 (by decide) 0 0) O rfl (W := W)
    (by rw [payload_zsend_0_4]; exact BI.Entails.refl _)
    (by
      rw [payload_zrecv_0_4]
      exact (land_res_ent m c (partD c) _ _ _ (z_part c) fd).trans
        (Entails.of_eq (off2_dev_eq c (partD (partD c)) (part_part c).symm (partD c) 4 fullShare (Res m (partD c)))))

/-- The finished chunk of direction 0 received at step 4 of the redistribution, from the device's result array to the partner's. -/
theorem zsend_gather_0_4 (K : Dev nD × Fin 91 → ℕ) (c n : Dev nD) (hn : n = partD c)
    {hsc : ((oCh (k0_off2 c 0#32 4#32) (k0_off2_inb c 6)) : Memref sig (Dev.tc n : Thread nD τ).2.kind .hbm S512x1024 .f32).view.ref.isScScratch = false}
    {hsrc : (oCh (k0_off2 c 0#32 4#32) (k0_off2_inb c 6)).view.WordExact} {hdst : (oCh (k0_off2 c 0#32 4#32) (k0_off2_inb c 6)).view.WordExact}
    {hsem : DmaTarget.Typed .hbm (.dma (dsem 77)) (.remote (Dev.tc n : Thread nD τ) (oCh (k0_off2 c 0#32 4#32) (k0_off2_inb c 6)) (.dma (dsem 61)) hsc)}
    {α : Type} {Q : α → sProp 𝕄} {k : PUnit → Prog (TpuEff nD τ sig (Elt F) Λ₀ .tc) α}
    (fd : Buf (Elt F) ((oCh (k0_off2 c 0#32 4#32) (k0_off2_inb c 6)).view.loc (partD c : Thread nD τ)))
    (O : CellTallies nD τ sig Unit) (W : Waits sig Unit) :
    iprop(cellInv ER (sched m) (K (c, 62)) (dcell c 61) ∗ cellInv ER (sched m) (K (partD c, 78)) (dcell (partD c) 77)
        ∗ rpts c (oCh (k0_off2 c 0#32 4#32) (k0_off2_inb c 6)) fullShare.left (Res m c)
        ∗ rpts (partD c) (oCh (k0_off2 c 0#32 4#32) (k0_off2_inb c 6)) fullShare fd
        ∗ owes (c : Thread nD τ) (O + tallyAt (dcell (partD c) 77) () N) W
        ∗ dutyTok ER (dcell c 61) 0 0 ∗ reached ER (dcell c 61) 0
        ∗ dutyTok ER (dcell (partD c) 77) 0 0 ∗ reached ER (dcell (partD c) 77) 0)
      ⊢ iprop(((cred (tallyAt (dcell c 61) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 4#32) (k0_off2_inb c 6)) (.remote (Dev.tc n : Thread nD τ) (oCh (k0_off2 c 0#32 4#32) (k0_off2_inb c 6)) (.dma (dsem 61)) hsc) (.dma (dsem 77)) hsrc hdst hsem) k) Q) := by
  subst hn
  unfold rpts
  exact Rounds.wp_send_pointsTo Variants.none ER (sched m) (c : Thread nD τ) none (c' := (partD c : Thread nD τ))
    (src := (oCh (k0_off2 c 0#32 4#32) (k0_off2_inb c 6))) (dst := (oCh (k0_off2 c 0#32 4#32) (k0_off2_inb c 6))) (q := fullShare.left) (fs := Res m c) (fd := fd)
    (κ₁ := K (c, 62)) (κ₂ := K (partD c, 78)) (r₁ := 0) (r₂ := 0) (d₁ := 0) (d₂ := 0)
    (by rw [duties_dma m c 61 (by decide)]; exact Finset.mem_singleton_self _)
    (by rw [duties_dma m (partD c) 77 (by decide)]; exact Finset.mem_singleton_self _)
    () () N rfl (amount_dma m c 61 (by decide) 0 0) (amount_dma m (partD c) 77 (by decide) 0 0) O rfl (W := W)
    (by rw [payload_zsend_0_5]; exact BI.Entails.refl _)
    (by
      rw [payload_zrecv_0_5]
      exact (land_res_ent m c (partD c) _ _ _ (z_part c) fd).trans
        (Entails.of_eq (off2_dev_eq c (partD (partD c)) (part_part c).symm (partD c) 6 fullShare (Res m (partD c)))))

/-- The finished chunk of direction 0 received at step 5 of the redistribution, from the device's result array to the partner's. -/
theorem zsend_gather_0_5 (K : Dev nD × Fin 91 → ℕ) (c n : Dev nD) (hn : n = partD c)
    {hsc : ((oCh (k0_off2 c 0#32 5#32) (k0_off2_inb c 8)) : Memref sig (Dev.tc n : Thread nD τ).2.kind .hbm S512x1024 .f32).view.ref.isScScratch = false}
    {hsrc : (oCh (k0_off2 c 0#32 5#32) (k0_off2_inb c 8)).view.WordExact} {hdst : (oCh (k0_off2 c 0#32 5#32) (k0_off2_inb c 8)).view.WordExact}
    {hsem : DmaTarget.Typed .hbm (.dma (dsem 78)) (.remote (Dev.tc n : Thread nD τ) (oCh (k0_off2 c 0#32 5#32) (k0_off2_inb c 8)) (.dma (dsem 62)) hsc)}
    {α : Type} {Q : α → sProp 𝕄} {k : PUnit → Prog (TpuEff nD τ sig (Elt F) Λ₀ .tc) α}
    (fd : Buf (Elt F) ((oCh (k0_off2 c 0#32 5#32) (k0_off2_inb c 8)).view.loc (partD c : Thread nD τ)))
    (O : CellTallies nD τ sig Unit) (W : Waits sig Unit) :
    iprop(cellInv ER (sched m) (K (c, 63)) (dcell c 62) ∗ cellInv ER (sched m) (K (partD c, 79)) (dcell (partD c) 78)
        ∗ rpts c (oCh (k0_off2 c 0#32 5#32) (k0_off2_inb c 8)) fullShare.left (Res m c)
        ∗ rpts (partD c) (oCh (k0_off2 c 0#32 5#32) (k0_off2_inb c 8)) fullShare fd
        ∗ owes (c : Thread nD τ) (O + tallyAt (dcell (partD c) 78) () N) W
        ∗ dutyTok ER (dcell c 62) 0 0 ∗ reached ER (dcell c 62) 0
        ∗ dutyTok ER (dcell (partD c) 78) 0 0 ∗ reached ER (dcell (partD c) 78) 0)
      ⊢ iprop(((cred (tallyAt (dcell c 62) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 5#32) (k0_off2_inb c 8)) (.remote (Dev.tc n : Thread nD τ) (oCh (k0_off2 c 0#32 5#32) (k0_off2_inb c 8)) (.dma (dsem 62)) hsc) (.dma (dsem 78)) hsrc hdst hsem) k) Q) := by
  subst hn
  unfold rpts
  exact Rounds.wp_send_pointsTo Variants.none ER (sched m) (c : Thread nD τ) none (c' := (partD c : Thread nD τ))
    (src := (oCh (k0_off2 c 0#32 5#32) (k0_off2_inb c 8))) (dst := (oCh (k0_off2 c 0#32 5#32) (k0_off2_inb c 8))) (q := fullShare.left) (fs := Res m c) (fd := fd)
    (κ₁ := K (c, 63)) (κ₂ := K (partD c, 79)) (r₁ := 0) (r₂ := 0) (d₁ := 0) (d₂ := 0)
    (by rw [duties_dma m c 62 (by decide)]; exact Finset.mem_singleton_self _)
    (by rw [duties_dma m (partD c) 78 (by decide)]; exact Finset.mem_singleton_self _)
    () () N rfl (amount_dma m c 62 (by decide) 0 0) (amount_dma m (partD c) 78 (by decide) 0 0) O rfl (W := W)
    (by rw [payload_zsend_0_6]; exact BI.Entails.refl _)
    (by
      rw [payload_zrecv_0_6]
      exact (land_res_ent m c (partD c) _ _ _ (z_part c) fd).trans
        (Entails.of_eq (off2_dev_eq c (partD (partD c)) (part_part c).symm (partD c) 8 fullShare (Res m (partD c)))))

/-- The finished chunk of direction 0 received at step 6 of the redistribution, from the device's result array to the partner's. -/
theorem zsend_gather_0_6 (K : Dev nD × Fin 91 → ℕ) (c n : Dev nD) (hn : n = partD c)
    {hsc : ((oCh (k0_off2 c 0#32 6#32) (k0_off2_inb c 10)) : Memref sig (Dev.tc n : Thread nD τ).2.kind .hbm S512x1024 .f32).view.ref.isScScratch = false}
    {hsrc : (oCh (k0_off2 c 0#32 6#32) (k0_off2_inb c 10)).view.WordExact} {hdst : (oCh (k0_off2 c 0#32 6#32) (k0_off2_inb c 10)).view.WordExact}
    {hsem : DmaTarget.Typed .hbm (.dma (dsem 79)) (.remote (Dev.tc n : Thread nD τ) (oCh (k0_off2 c 0#32 6#32) (k0_off2_inb c 10)) (.dma (dsem 63)) hsc)}
    {α : Type} {Q : α → sProp 𝕄} {k : PUnit → Prog (TpuEff nD τ sig (Elt F) Λ₀ .tc) α}
    (fd : Buf (Elt F) ((oCh (k0_off2 c 0#32 6#32) (k0_off2_inb c 10)).view.loc (partD c : Thread nD τ)))
    (O : CellTallies nD τ sig Unit) (W : Waits sig Unit) :
    iprop(cellInv ER (sched m) (K (c, 64)) (dcell c 63) ∗ cellInv ER (sched m) (K (partD c, 80)) (dcell (partD c) 79)
        ∗ rpts c (oCh (k0_off2 c 0#32 6#32) (k0_off2_inb c 10)) fullShare.left (Res m c)
        ∗ rpts (partD c) (oCh (k0_off2 c 0#32 6#32) (k0_off2_inb c 10)) fullShare fd
        ∗ owes (c : Thread nD τ) (O + tallyAt (dcell (partD c) 79) () N) W
        ∗ dutyTok ER (dcell c 63) 0 0 ∗ reached ER (dcell c 63) 0
        ∗ dutyTok ER (dcell (partD c) 79) 0 0 ∗ reached ER (dcell (partD c) 79) 0)
      ⊢ iprop(((cred (tallyAt (dcell c 63) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 0#32 6#32) (k0_off2_inb c 10)) (.remote (Dev.tc n : Thread nD τ) (oCh (k0_off2 c 0#32 6#32) (k0_off2_inb c 10)) (.dma (dsem 63)) hsc) (.dma (dsem 79)) hsrc hdst hsem) k) Q) := by
  subst hn
  unfold rpts
  exact Rounds.wp_send_pointsTo Variants.none ER (sched m) (c : Thread nD τ) none (c' := (partD c : Thread nD τ))
    (src := (oCh (k0_off2 c 0#32 6#32) (k0_off2_inb c 10))) (dst := (oCh (k0_off2 c 0#32 6#32) (k0_off2_inb c 10))) (q := fullShare.left) (fs := Res m c) (fd := fd)
    (κ₁ := K (c, 64)) (κ₂ := K (partD c, 80)) (r₁ := 0) (r₂ := 0) (d₁ := 0) (d₂ := 0)
    (by rw [duties_dma m c 63 (by decide)]; exact Finset.mem_singleton_self _)
    (by rw [duties_dma m (partD c) 79 (by decide)]; exact Finset.mem_singleton_self _)
    () () N rfl (amount_dma m c 63 (by decide) 0 0) (amount_dma m (partD c) 79 (by decide) 0 0) O rfl (W := W)
    (by rw [payload_zsend_0_7]; exact BI.Entails.refl _)
    (by
      rw [payload_zrecv_0_7]
      exact (land_res_ent m c (partD c) _ _ _ (z_part c) fd).trans
        (Entails.of_eq (off2_dev_eq c (partD (partD c)) (part_part c).symm (partD c) 10 fullShare (Res m (partD c)))))

/-- The finished chunk of direction 1 received at step 0 of the redistribution, from the device's result array to the partner's. -/
theorem zsend_gather_1_0 (K : Dev nD × Fin 91 → ℕ) (c n : Dev nD) (hn : n = partD c)
    {hsc : ((oCh (k0_off2 c 4096#32 0#32) (k0_off2_inb c 15)) : Memref sig (Dev.tc n : Thread nD τ).2.kind .hbm S512x1024 .f32).view.ref.isScScratch = false}
    {hsrc : (oCh (k0_off2 c 4096#32 0#32) (k0_off2_inb c 15)).view.WordExact} {hdst : (oCh (k0_off2 c 4096#32 0#32) (k0_off2_inb c 15)).view.WordExact}
    {hsem : DmaTarget.Typed .hbm (.dma (dsem 81)) (.remote (Dev.tc n : Thread nD τ) (oCh (k0_off2 c 4096#32 0#32) (k0_off2_inb c 15)) (.dma (dsem 65)) hsc)}
    {α : Type} {Q : α → sProp 𝕄} {k : PUnit → Prog (TpuEff nD τ sig (Elt F) Λ₀ .tc) α}
    (fd : Buf (Elt F) ((oCh (k0_off2 c 4096#32 0#32) (k0_off2_inb c 15)).view.loc (partD c : Thread nD τ)))
    (O : CellTallies nD τ sig Unit) (W : Waits sig Unit) :
    iprop(cellInv ER (sched m) (K (c, 66)) (dcell c 65) ∗ cellInv ER (sched m) (K (partD c, 82)) (dcell (partD c) 81)
        ∗ rpts c (oCh (k0_off2 c 4096#32 0#32) (k0_off2_inb c 15)) fullShare.left (Res m c)
        ∗ rpts (partD c) (oCh (k0_off2 c 4096#32 0#32) (k0_off2_inb c 15)) fullShare fd
        ∗ owes (c : Thread nD τ) (O + tallyAt (dcell (partD c) 81) () N) W
        ∗ dutyTok ER (dcell c 65) 0 0 ∗ reached ER (dcell c 65) 0
        ∗ dutyTok ER (dcell (partD c) 81) 0 0 ∗ reached ER (dcell (partD c) 81) 0)
      ⊢ iprop(((cred (tallyAt (dcell c 65) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 0#32) (k0_off2_inb c 15)) (.remote (Dev.tc n : Thread nD τ) (oCh (k0_off2 c 4096#32 0#32) (k0_off2_inb c 15)) (.dma (dsem 65)) hsc) (.dma (dsem 81)) hsrc hdst hsem) k) Q) := by
  subst hn
  unfold rpts
  exact Rounds.wp_send_pointsTo Variants.none ER (sched m) (c : Thread nD τ) none (c' := (partD c : Thread nD τ))
    (src := (oCh (k0_off2 c 4096#32 0#32) (k0_off2_inb c 15))) (dst := (oCh (k0_off2 c 4096#32 0#32) (k0_off2_inb c 15))) (q := fullShare.left) (fs := Res m c) (fd := fd)
    (κ₁ := K (c, 66)) (κ₂ := K (partD c, 82)) (r₁ := 0) (r₂ := 0) (d₁ := 0) (d₂ := 0)
    (by rw [duties_dma m c 65 (by decide)]; exact Finset.mem_singleton_self _)
    (by rw [duties_dma m (partD c) 81 (by decide)]; exact Finset.mem_singleton_self _)
    () () N rfl (amount_dma m c 65 (by decide) 0 0) (amount_dma m (partD c) 81 (by decide) 0 0) O rfl (W := W)
    (by rw [payload_zsend_1_1]; exact BI.Entails.refl _)
    (by
      rw [payload_zrecv_1_1]
      exact (land_res_ent m c (partD c) _ _ _ (z_part c) fd).trans
        (Entails.of_eq (off2_dev_eq c (partD (partD c)) (part_part c).symm (partD c) 15 fullShare (Res m (partD c)))))

/-- The finished chunk of direction 1 received at step 1 of the redistribution, from the device's result array to the partner's. -/
theorem zsend_gather_1_1 (K : Dev nD × Fin 91 → ℕ) (c n : Dev nD) (hn : n = partD c)
    {hsc : ((oCh (k0_off2 c 4096#32 4294967295#32) (k0_off2_inb c 1)) : Memref sig (Dev.tc n : Thread nD τ).2.kind .hbm S512x1024 .f32).view.ref.isScScratch = false}
    {hsrc : (oCh (k0_off2 c 4096#32 4294967295#32) (k0_off2_inb c 1)).view.WordExact} {hdst : (oCh (k0_off2 c 4096#32 4294967295#32) (k0_off2_inb c 1)).view.WordExact}
    {hsem : DmaTarget.Typed .hbm (.dma (dsem 82)) (.remote (Dev.tc n : Thread nD τ) (oCh (k0_off2 c 4096#32 4294967295#32) (k0_off2_inb c 1)) (.dma (dsem 66)) hsc)}
    {α : Type} {Q : α → sProp 𝕄} {k : PUnit → Prog (TpuEff nD τ sig (Elt F) Λ₀ .tc) α}
    (fd : Buf (Elt F) ((oCh (k0_off2 c 4096#32 4294967295#32) (k0_off2_inb c 1)).view.loc (partD c : Thread nD τ)))
    (O : CellTallies nD τ sig Unit) (W : Waits sig Unit) :
    iprop(cellInv ER (sched m) (K (c, 67)) (dcell c 66) ∗ cellInv ER (sched m) (K (partD c, 83)) (dcell (partD c) 82)
        ∗ rpts c (oCh (k0_off2 c 4096#32 4294967295#32) (k0_off2_inb c 1)) fullShare.left (Res m c)
        ∗ rpts (partD c) (oCh (k0_off2 c 4096#32 4294967295#32) (k0_off2_inb c 1)) fullShare fd
        ∗ owes (c : Thread nD τ) (O + tallyAt (dcell (partD c) 82) () N) W
        ∗ dutyTok ER (dcell c 66) 0 0 ∗ reached ER (dcell c 66) 0
        ∗ dutyTok ER (dcell (partD c) 82) 0 0 ∗ reached ER (dcell (partD c) 82) 0)
      ⊢ iprop(((cred (tallyAt (dcell c 66) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967295#32) (k0_off2_inb c 1)) (.remote (Dev.tc n : Thread nD τ) (oCh (k0_off2 c 4096#32 4294967295#32) (k0_off2_inb c 1)) (.dma (dsem 66)) hsc) (.dma (dsem 82)) hsrc hdst hsem) k) Q) := by
  subst hn
  unfold rpts
  exact Rounds.wp_send_pointsTo Variants.none ER (sched m) (c : Thread nD τ) none (c' := (partD c : Thread nD τ))
    (src := (oCh (k0_off2 c 4096#32 4294967295#32) (k0_off2_inb c 1))) (dst := (oCh (k0_off2 c 4096#32 4294967295#32) (k0_off2_inb c 1))) (q := fullShare.left) (fs := Res m c) (fd := fd)
    (κ₁ := K (c, 67)) (κ₂ := K (partD c, 83)) (r₁ := 0) (r₂ := 0) (d₁ := 0) (d₂ := 0)
    (by rw [duties_dma m c 66 (by decide)]; exact Finset.mem_singleton_self _)
    (by rw [duties_dma m (partD c) 82 (by decide)]; exact Finset.mem_singleton_self _)
    () () N rfl (amount_dma m c 66 (by decide) 0 0) (amount_dma m (partD c) 82 (by decide) 0 0) O rfl (W := W)
    (by rw [payload_zsend_1_2]; exact BI.Entails.refl _)
    (by
      rw [payload_zrecv_1_2]
      exact (land_res_ent m c (partD c) _ _ _ (z_part c) fd).trans
        (Entails.of_eq (off2_dev_eq c (partD (partD c)) (part_part c).symm (partD c) 1 fullShare (Res m (partD c)))))

/-- The finished chunk of direction 1 received at step 2 of the redistribution, from the device's result array to the partner's. -/
theorem zsend_gather_1_2 (K : Dev nD × Fin 91 → ℕ) (c n : Dev nD) (hn : n = partD c)
    {hsc : ((oCh (k0_off2 c 4096#32 4294967294#32) (k0_off2_inb c 3)) : Memref sig (Dev.tc n : Thread nD τ).2.kind .hbm S512x1024 .f32).view.ref.isScScratch = false}
    {hsrc : (oCh (k0_off2 c 4096#32 4294967294#32) (k0_off2_inb c 3)).view.WordExact} {hdst : (oCh (k0_off2 c 4096#32 4294967294#32) (k0_off2_inb c 3)).view.WordExact}
    {hsem : DmaTarget.Typed .hbm (.dma (dsem 83)) (.remote (Dev.tc n : Thread nD τ) (oCh (k0_off2 c 4096#32 4294967294#32) (k0_off2_inb c 3)) (.dma (dsem 67)) hsc)}
    {α : Type} {Q : α → sProp 𝕄} {k : PUnit → Prog (TpuEff nD τ sig (Elt F) Λ₀ .tc) α}
    (fd : Buf (Elt F) ((oCh (k0_off2 c 4096#32 4294967294#32) (k0_off2_inb c 3)).view.loc (partD c : Thread nD τ)))
    (O : CellTallies nD τ sig Unit) (W : Waits sig Unit) :
    iprop(cellInv ER (sched m) (K (c, 68)) (dcell c 67) ∗ cellInv ER (sched m) (K (partD c, 84)) (dcell (partD c) 83)
        ∗ rpts c (oCh (k0_off2 c 4096#32 4294967294#32) (k0_off2_inb c 3)) fullShare.left (Res m c)
        ∗ rpts (partD c) (oCh (k0_off2 c 4096#32 4294967294#32) (k0_off2_inb c 3)) fullShare fd
        ∗ owes (c : Thread nD τ) (O + tallyAt (dcell (partD c) 83) () N) W
        ∗ dutyTok ER (dcell c 67) 0 0 ∗ reached ER (dcell c 67) 0
        ∗ dutyTok ER (dcell (partD c) 83) 0 0 ∗ reached ER (dcell (partD c) 83) 0)
      ⊢ iprop(((cred (tallyAt (dcell c 67) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967294#32) (k0_off2_inb c 3)) (.remote (Dev.tc n : Thread nD τ) (oCh (k0_off2 c 4096#32 4294967294#32) (k0_off2_inb c 3)) (.dma (dsem 67)) hsc) (.dma (dsem 83)) hsrc hdst hsem) k) Q) := by
  subst hn
  unfold rpts
  exact Rounds.wp_send_pointsTo Variants.none ER (sched m) (c : Thread nD τ) none (c' := (partD c : Thread nD τ))
    (src := (oCh (k0_off2 c 4096#32 4294967294#32) (k0_off2_inb c 3))) (dst := (oCh (k0_off2 c 4096#32 4294967294#32) (k0_off2_inb c 3))) (q := fullShare.left) (fs := Res m c) (fd := fd)
    (κ₁ := K (c, 68)) (κ₂ := K (partD c, 84)) (r₁ := 0) (r₂ := 0) (d₁ := 0) (d₂ := 0)
    (by rw [duties_dma m c 67 (by decide)]; exact Finset.mem_singleton_self _)
    (by rw [duties_dma m (partD c) 83 (by decide)]; exact Finset.mem_singleton_self _)
    () () N rfl (amount_dma m c 67 (by decide) 0 0) (amount_dma m (partD c) 83 (by decide) 0 0) O rfl (W := W)
    (by rw [payload_zsend_1_3]; exact BI.Entails.refl _)
    (by
      rw [payload_zrecv_1_3]
      exact (land_res_ent m c (partD c) _ _ _ (z_part c) fd).trans
        (Entails.of_eq (off2_dev_eq c (partD (partD c)) (part_part c).symm (partD c) 3 fullShare (Res m (partD c)))))

/-- The finished chunk of direction 1 received at step 3 of the redistribution, from the device's result array to the partner's. -/
theorem zsend_gather_1_3 (K : Dev nD × Fin 91 → ℕ) (c n : Dev nD) (hn : n = partD c)
    {hsc : ((oCh (k0_off2 c 4096#32 4294967293#32) (k0_off2_inb c 5)) : Memref sig (Dev.tc n : Thread nD τ).2.kind .hbm S512x1024 .f32).view.ref.isScScratch = false}
    {hsrc : (oCh (k0_off2 c 4096#32 4294967293#32) (k0_off2_inb c 5)).view.WordExact} {hdst : (oCh (k0_off2 c 4096#32 4294967293#32) (k0_off2_inb c 5)).view.WordExact}
    {hsem : DmaTarget.Typed .hbm (.dma (dsem 84)) (.remote (Dev.tc n : Thread nD τ) (oCh (k0_off2 c 4096#32 4294967293#32) (k0_off2_inb c 5)) (.dma (dsem 68)) hsc)}
    {α : Type} {Q : α → sProp 𝕄} {k : PUnit → Prog (TpuEff nD τ sig (Elt F) Λ₀ .tc) α}
    (fd : Buf (Elt F) ((oCh (k0_off2 c 4096#32 4294967293#32) (k0_off2_inb c 5)).view.loc (partD c : Thread nD τ)))
    (O : CellTallies nD τ sig Unit) (W : Waits sig Unit) :
    iprop(cellInv ER (sched m) (K (c, 69)) (dcell c 68) ∗ cellInv ER (sched m) (K (partD c, 85)) (dcell (partD c) 84)
        ∗ rpts c (oCh (k0_off2 c 4096#32 4294967293#32) (k0_off2_inb c 5)) fullShare.left (Res m c)
        ∗ rpts (partD c) (oCh (k0_off2 c 4096#32 4294967293#32) (k0_off2_inb c 5)) fullShare fd
        ∗ owes (c : Thread nD τ) (O + tallyAt (dcell (partD c) 84) () N) W
        ∗ dutyTok ER (dcell c 68) 0 0 ∗ reached ER (dcell c 68) 0
        ∗ dutyTok ER (dcell (partD c) 84) 0 0 ∗ reached ER (dcell (partD c) 84) 0)
      ⊢ iprop(((cred (tallyAt (dcell c 68) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967293#32) (k0_off2_inb c 5)) (.remote (Dev.tc n : Thread nD τ) (oCh (k0_off2 c 4096#32 4294967293#32) (k0_off2_inb c 5)) (.dma (dsem 68)) hsc) (.dma (dsem 84)) hsrc hdst hsem) k) Q) := by
  subst hn
  unfold rpts
  exact Rounds.wp_send_pointsTo Variants.none ER (sched m) (c : Thread nD τ) none (c' := (partD c : Thread nD τ))
    (src := (oCh (k0_off2 c 4096#32 4294967293#32) (k0_off2_inb c 5))) (dst := (oCh (k0_off2 c 4096#32 4294967293#32) (k0_off2_inb c 5))) (q := fullShare.left) (fs := Res m c) (fd := fd)
    (κ₁ := K (c, 69)) (κ₂ := K (partD c, 85)) (r₁ := 0) (r₂ := 0) (d₁ := 0) (d₂ := 0)
    (by rw [duties_dma m c 68 (by decide)]; exact Finset.mem_singleton_self _)
    (by rw [duties_dma m (partD c) 84 (by decide)]; exact Finset.mem_singleton_self _)
    () () N rfl (amount_dma m c 68 (by decide) 0 0) (amount_dma m (partD c) 84 (by decide) 0 0) O rfl (W := W)
    (by rw [payload_zsend_1_4]; exact BI.Entails.refl _)
    (by
      rw [payload_zrecv_1_4]
      exact (land_res_ent m c (partD c) _ _ _ (z_part c) fd).trans
        (Entails.of_eq (off2_dev_eq c (partD (partD c)) (part_part c).symm (partD c) 5 fullShare (Res m (partD c)))))

/-- The finished chunk of direction 1 received at step 4 of the redistribution, from the device's result array to the partner's. -/
theorem zsend_gather_1_4 (K : Dev nD × Fin 91 → ℕ) (c n : Dev nD) (hn : n = partD c)
    {hsc : ((oCh (k0_off2 c 4096#32 4294967292#32) (k0_off2_inb c 7)) : Memref sig (Dev.tc n : Thread nD τ).2.kind .hbm S512x1024 .f32).view.ref.isScScratch = false}
    {hsrc : (oCh (k0_off2 c 4096#32 4294967292#32) (k0_off2_inb c 7)).view.WordExact} {hdst : (oCh (k0_off2 c 4096#32 4294967292#32) (k0_off2_inb c 7)).view.WordExact}
    {hsem : DmaTarget.Typed .hbm (.dma (dsem 85)) (.remote (Dev.tc n : Thread nD τ) (oCh (k0_off2 c 4096#32 4294967292#32) (k0_off2_inb c 7)) (.dma (dsem 69)) hsc)}
    {α : Type} {Q : α → sProp 𝕄} {k : PUnit → Prog (TpuEff nD τ sig (Elt F) Λ₀ .tc) α}
    (fd : Buf (Elt F) ((oCh (k0_off2 c 4096#32 4294967292#32) (k0_off2_inb c 7)).view.loc (partD c : Thread nD τ)))
    (O : CellTallies nD τ sig Unit) (W : Waits sig Unit) :
    iprop(cellInv ER (sched m) (K (c, 70)) (dcell c 69) ∗ cellInv ER (sched m) (K (partD c, 86)) (dcell (partD c) 85)
        ∗ rpts c (oCh (k0_off2 c 4096#32 4294967292#32) (k0_off2_inb c 7)) fullShare.left (Res m c)
        ∗ rpts (partD c) (oCh (k0_off2 c 4096#32 4294967292#32) (k0_off2_inb c 7)) fullShare fd
        ∗ owes (c : Thread nD τ) (O + tallyAt (dcell (partD c) 85) () N) W
        ∗ dutyTok ER (dcell c 69) 0 0 ∗ reached ER (dcell c 69) 0
        ∗ dutyTok ER (dcell (partD c) 85) 0 0 ∗ reached ER (dcell (partD c) 85) 0)
      ⊢ iprop(((cred (tallyAt (dcell c 69) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967292#32) (k0_off2_inb c 7)) (.remote (Dev.tc n : Thread nD τ) (oCh (k0_off2 c 4096#32 4294967292#32) (k0_off2_inb c 7)) (.dma (dsem 69)) hsc) (.dma (dsem 85)) hsrc hdst hsem) k) Q) := by
  subst hn
  unfold rpts
  exact Rounds.wp_send_pointsTo Variants.none ER (sched m) (c : Thread nD τ) none (c' := (partD c : Thread nD τ))
    (src := (oCh (k0_off2 c 4096#32 4294967292#32) (k0_off2_inb c 7))) (dst := (oCh (k0_off2 c 4096#32 4294967292#32) (k0_off2_inb c 7))) (q := fullShare.left) (fs := Res m c) (fd := fd)
    (κ₁ := K (c, 70)) (κ₂ := K (partD c, 86)) (r₁ := 0) (r₂ := 0) (d₁ := 0) (d₂ := 0)
    (by rw [duties_dma m c 69 (by decide)]; exact Finset.mem_singleton_self _)
    (by rw [duties_dma m (partD c) 85 (by decide)]; exact Finset.mem_singleton_self _)
    () () N rfl (amount_dma m c 69 (by decide) 0 0) (amount_dma m (partD c) 85 (by decide) 0 0) O rfl (W := W)
    (by rw [payload_zsend_1_5]; exact BI.Entails.refl _)
    (by
      rw [payload_zrecv_1_5]
      exact (land_res_ent m c (partD c) _ _ _ (z_part c) fd).trans
        (Entails.of_eq (off2_dev_eq c (partD (partD c)) (part_part c).symm (partD c) 7 fullShare (Res m (partD c)))))

/-- The finished chunk of direction 1 received at step 5 of the redistribution, from the device's result array to the partner's. -/
theorem zsend_gather_1_5 (K : Dev nD × Fin 91 → ℕ) (c n : Dev nD) (hn : n = partD c)
    {hsc : ((oCh (k0_off2 c 4096#32 4294967291#32) (k0_off2_inb c 9)) : Memref sig (Dev.tc n : Thread nD τ).2.kind .hbm S512x1024 .f32).view.ref.isScScratch = false}
    {hsrc : (oCh (k0_off2 c 4096#32 4294967291#32) (k0_off2_inb c 9)).view.WordExact} {hdst : (oCh (k0_off2 c 4096#32 4294967291#32) (k0_off2_inb c 9)).view.WordExact}
    {hsem : DmaTarget.Typed .hbm (.dma (dsem 86)) (.remote (Dev.tc n : Thread nD τ) (oCh (k0_off2 c 4096#32 4294967291#32) (k0_off2_inb c 9)) (.dma (dsem 70)) hsc)}
    {α : Type} {Q : α → sProp 𝕄} {k : PUnit → Prog (TpuEff nD τ sig (Elt F) Λ₀ .tc) α}
    (fd : Buf (Elt F) ((oCh (k0_off2 c 4096#32 4294967291#32) (k0_off2_inb c 9)).view.loc (partD c : Thread nD τ)))
    (O : CellTallies nD τ sig Unit) (W : Waits sig Unit) :
    iprop(cellInv ER (sched m) (K (c, 71)) (dcell c 70) ∗ cellInv ER (sched m) (K (partD c, 87)) (dcell (partD c) 86)
        ∗ rpts c (oCh (k0_off2 c 4096#32 4294967291#32) (k0_off2_inb c 9)) fullShare.left (Res m c)
        ∗ rpts (partD c) (oCh (k0_off2 c 4096#32 4294967291#32) (k0_off2_inb c 9)) fullShare fd
        ∗ owes (c : Thread nD τ) (O + tallyAt (dcell (partD c) 86) () N) W
        ∗ dutyTok ER (dcell c 70) 0 0 ∗ reached ER (dcell c 70) 0
        ∗ dutyTok ER (dcell (partD c) 86) 0 0 ∗ reached ER (dcell (partD c) 86) 0)
      ⊢ iprop(((cred (tallyAt (dcell c 70) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967291#32) (k0_off2_inb c 9)) (.remote (Dev.tc n : Thread nD τ) (oCh (k0_off2 c 4096#32 4294967291#32) (k0_off2_inb c 9)) (.dma (dsem 70)) hsc) (.dma (dsem 86)) hsrc hdst hsem) k) Q) := by
  subst hn
  unfold rpts
  exact Rounds.wp_send_pointsTo Variants.none ER (sched m) (c : Thread nD τ) none (c' := (partD c : Thread nD τ))
    (src := (oCh (k0_off2 c 4096#32 4294967291#32) (k0_off2_inb c 9))) (dst := (oCh (k0_off2 c 4096#32 4294967291#32) (k0_off2_inb c 9))) (q := fullShare.left) (fs := Res m c) (fd := fd)
    (κ₁ := K (c, 71)) (κ₂ := K (partD c, 87)) (r₁ := 0) (r₂ := 0) (d₁ := 0) (d₂ := 0)
    (by rw [duties_dma m c 70 (by decide)]; exact Finset.mem_singleton_self _)
    (by rw [duties_dma m (partD c) 86 (by decide)]; exact Finset.mem_singleton_self _)
    () () N rfl (amount_dma m c 70 (by decide) 0 0) (amount_dma m (partD c) 86 (by decide) 0 0) O rfl (W := W)
    (by rw [payload_zsend_1_6]; exact BI.Entails.refl _)
    (by
      rw [payload_zrecv_1_6]
      exact (land_res_ent m c (partD c) _ _ _ (z_part c) fd).trans
        (Entails.of_eq (off2_dev_eq c (partD (partD c)) (part_part c).symm (partD c) 9 fullShare (Res m (partD c)))))

/-- The finished chunk of direction 1 received at step 6 of the redistribution, from the device's result array to the partner's. -/
theorem zsend_gather_1_6 (K : Dev nD × Fin 91 → ℕ) (c n : Dev nD) (hn : n = partD c)
    {hsc : ((oCh (k0_off2 c 4096#32 4294967290#32) (k0_off2_inb c 11)) : Memref sig (Dev.tc n : Thread nD τ).2.kind .hbm S512x1024 .f32).view.ref.isScScratch = false}
    {hsrc : (oCh (k0_off2 c 4096#32 4294967290#32) (k0_off2_inb c 11)).view.WordExact} {hdst : (oCh (k0_off2 c 4096#32 4294967290#32) (k0_off2_inb c 11)).view.WordExact}
    {hsem : DmaTarget.Typed .hbm (.dma (dsem 87)) (.remote (Dev.tc n : Thread nD τ) (oCh (k0_off2 c 4096#32 4294967290#32) (k0_off2_inb c 11)) (.dma (dsem 71)) hsc)}
    {α : Type} {Q : α → sProp 𝕄} {k : PUnit → Prog (TpuEff nD τ sig (Elt F) Λ₀ .tc) α}
    (fd : Buf (Elt F) ((oCh (k0_off2 c 4096#32 4294967290#32) (k0_off2_inb c 11)).view.loc (partD c : Thread nD τ)))
    (O : CellTallies nD τ sig Unit) (W : Waits sig Unit) :
    iprop(cellInv ER (sched m) (K (c, 72)) (dcell c 71) ∗ cellInv ER (sched m) (K (partD c, 88)) (dcell (partD c) 87)
        ∗ rpts c (oCh (k0_off2 c 4096#32 4294967290#32) (k0_off2_inb c 11)) fullShare.left (Res m c)
        ∗ rpts (partD c) (oCh (k0_off2 c 4096#32 4294967290#32) (k0_off2_inb c 11)) fullShare fd
        ∗ owes (c : Thread nD τ) (O + tallyAt (dcell (partD c) 87) () N) W
        ∗ dutyTok ER (dcell c 71) 0 0 ∗ reached ER (dcell c 71) 0
        ∗ dutyTok ER (dcell (partD c) 87) 0 0 ∗ reached ER (dcell (partD c) 87) 0)
      ⊢ iprop(((cred (tallyAt (dcell c 71) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (oCh (k0_off2 c 4096#32 4294967290#32) (k0_off2_inb c 11)) (.remote (Dev.tc n : Thread nD τ) (oCh (k0_off2 c 4096#32 4294967290#32) (k0_off2_inb c 11)) (.dma (dsem 71)) hsc) (.dma (dsem 87)) hsrc hdst hsem) k) Q) := by
  subst hn
  unfold rpts
  exact Rounds.wp_send_pointsTo Variants.none ER (sched m) (c : Thread nD τ) none (c' := (partD c : Thread nD τ))
    (src := (oCh (k0_off2 c 4096#32 4294967290#32) (k0_off2_inb c 11))) (dst := (oCh (k0_off2 c 4096#32 4294967290#32) (k0_off2_inb c 11))) (q := fullShare.left) (fs := Res m c) (fd := fd)
    (κ₁ := K (c, 72)) (κ₂ := K (partD c, 88)) (r₁ := 0) (r₂ := 0) (d₁ := 0) (d₂ := 0)
    (by rw [duties_dma m c 71 (by decide)]; exact Finset.mem_singleton_self _)
    (by rw [duties_dma m (partD c) 87 (by decide)]; exact Finset.mem_singleton_self _)
    () () N rfl (amount_dma m c 71 (by decide) 0 0) (amount_dma m (partD c) 87 (by decide) 0 0) O rfl (W := W)
    (by rw [payload_zsend_1_7]; exact BI.Entails.refl _)
    (by
      rw [payload_zrecv_1_7]
      exact (land_res_ent m c (partD c) _ _ _ (z_part c) fd).trans
        (Entails.of_eq (off2_dev_eq c (partD (partD c)) (part_part c).symm (partD c) 11 fullShare (Res m (partD c)))))

/-- info: 'Cert.Kernel.Rules.zsend_done_0' depends on axioms: [propext, Classical.choice, Quot.sound] -/
#guard_msgs in #print axioms zsend_done_0

/-- info: 'Cert.Kernel.Rules.zsend_done_1' depends on axioms: [propext, Classical.choice, Quot.sound] -/
#guard_msgs in #print axioms zsend_done_1

/-- info: 'Cert.Kernel.Rules.zsend_gather_0_0' depends on axioms: [propext, Classical.choice, Quot.sound] -/
#guard_msgs in #print axioms zsend_gather_0_0

/-- info: 'Cert.Kernel.Rules.zsend_gather_1_6' depends on axioms: [propext, Classical.choice, Quot.sound] -/
#guard_msgs in #print axioms zsend_gather_1_6

end Cert.Kernel.Rules

end
-- ==== Proof.Bits.RulesLocal.lean ====
/-
  The local copies of a device, as steps of its program. A local copy pays the one duty of its round on the cell of
  the local copies of its direction: the copy of the device's own chunk into the staging buffer in each of the rounds
  0 to 6, and in round 7 the copy of the last exchange slot into the device's own chunk of the result. Each statement
  below is the library's rule for a local copy at that cell and round; what is left to show is that the destination,
  once written, together with the source handed back, is the payload the schedule names for the round. Loads and
  stores on a slot held as a region are the library's rules for a load and a store, the region's elements being the
  elements the access touches.
-/
import proofs.«900727_g7700000000000728_dist_ar_v7x_xyz2x4x4_y_m16384_n1024_f32_1_alg».proof.Proof.Bits.Tables
import proofs.«900727_g7700000000000728_dist_ar_v7x_xyz2x4x4_y_m16384_n1024_f32_1_alg».proof.Proof.Bits.ValLemmas
import Mathlib.Tactic.IntervalCases

set_option maxRecDepth 16384

noncomputable section

namespace Cert.Kernel.Rules

open Cert.Kernel Cert.Kernel.Gen Cert.Kernel.Ring Cert.Kernel.Cells Cert.Kernel.Vals
  Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The copies into the staging buffer -/

/-- The destination written with the device's own chunk is the staging slot of the step; the source comes back. -/
theorem stage_pay (c : Dev nD) (d t : ℕ) (hd : d < 2) (w0 w : BitVec 32)
    (h : ∀ a, (k0_off2 c w0 w) a + S512x1024.size a ≤ S16384x1024.size a)
    (h' : ∀ a, (![d, 0, 0] : Fin 3 → ℕ) a + S1x512x1024.size a ≤ S2x512x1024.size a)
    (fd : Buf (Elt F) ((sSl d h').view.loc (c : Thread nD τ)))
    (hoff : k0_off2 c w0 w = ![rowAt c d (back d (t + 1)), 0]) :
    (iprop(rpts c (sSl d h') fullShare
          ((sSl d h').view.write (Elt F) fd ((xCh (k0_off2 c w0 w) h).view.read (Elt F) (X m c)) Finset.univ)
        ∗ rpts c (xCh (k0_off2 c w0 w) h) fullShare (X m c)) : sProp 𝕄)
      ⊢ iprop(rpts c (sSl d h') fullShare (StageAt m c t) ∗ rpts c (xCh (k0_off2 c w0 w) h) fullShare (X m c)) :=
  sep_mono_left (land_stage_ent m c d t hd _ h hoff h' fd)

/-- The copy of the device's own chunk of direction 0 into the staging slot 0, in round r < 7. -/
theorem copy_stage_0 (K : Dev nD × Fin 91 → ℕ) (c : Dev nD) (r : ℕ) (hr : r < 7)
    {h : ∀ a, (k0_off2 c 0#32 (BitVec.ofNat 32 (r + 1))) a + S512x1024.size a ≤ S16384x1024.size a}
    {h' : ∀ a, (![0, 0, 0] : Fin 3 → ℕ) a + S1x512x1024.size a ≤ S2x512x1024.size a}
    {hsrc : (xCh (k0_off2 c 0#32 (BitVec.ofNat 32 (r + 1))) h).view.WordExact} {hdst : (sSl 0 h').view.WordExact}
    {hsem : DmaTarget.Typed (nD := nD) .hbm (.dma (dsem 88)) (DmaTarget.here (p := (c : Thread nD τ).2) (sSl 0 h'))}
    {α : Type} {Q : α → sProp 𝕄} {k : PUnit → Prog (TpuEff nD τ sig (Elt F) Λ₀ .tc) α}
    (fd : Buf (Elt F) ((sSl 0 h').view.loc (c : Thread nD τ))) :
    iprop(cellInv (ER (F := F)) (sched m) (K (c, 89)) (dcell c 88)
        ∗ rpts c (xCh (k0_off2 c 0#32 (BitVec.ofNat 32 (r + 1))) h) fullShare (X m c)
        ∗ rpts c (sSl 0 h') fullShare fd
        ∗ dutyTok (ER (F := F)) (dcell c 88) r 0 ∗ reached (ER (F := F)) (dcell c 88) r)
      ⊢ iprop((cred (tallyAt (dcell c 88) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off2 c 0#32 (BitVec.ofNat 32 (r + 1))) h) (.here (sSl 0 h')) (.dma (dsem 88)) hsrc hdst hsem) k) Q) := by
  refine Rounds.wp_copy_pointsTo Variants.none (ER (F := F)) (sched m) (c : Thread nD τ) none
    (src := xCh (k0_off2 c 0#32 (BitVec.ofNat 32 (r + 1))) h) (dst := sSl 0 h') (q := fullShare) (fs := X m c) (fd := fd)
    (κ := K (c, 89)) (r := r) (d := 0)
    (by rw [duties_local m c 0 (by decide) r (by omega)]; exact Finset.mem_singleton_self _)
    () N rfl (amount_dma m c 88 (by decide) r 0) ?_
  interval_cases r
  · rw [payload_local_0_0]; exact stage_pay m c 0 0 (by decide) _ _ _ _ fd (off2_0_1 c)
  · rw [payload_local_0_1]; exact stage_pay m c 0 1 (by decide) _ _ _ _ fd (off2_0_2 c)
  · rw [payload_local_0_2]; exact stage_pay m c 0 2 (by decide) _ _ _ _ fd (off2_0_3 c)
  · rw [payload_local_0_3]; exact stage_pay m c 0 3 (by decide) _ _ _ _ fd (off2_0_4 c)
  · rw [payload_local_0_4]; exact stage_pay m c 0 4 (by decide) _ _ _ _ fd (off2_0_5 c)
  · rw [payload_local_0_5]; exact stage_pay m c 0 5 (by decide) _ _ _ _ fd (off2_0_6 c)
  · rw [payload_local_0_6]; exact stage_pay m c 0 6 (by decide) _ _ _ _ fd (off2_0_7 c)

/-- The copy of the device's own chunk of direction 1 into the staging slot 1, in round r < 7. -/
theorem copy_stage_1 (K : Dev nD × Fin 91 → ℕ) (c : Dev nD) (r : ℕ) (hr : r < 7)
    {h : ∀ a, (k0_off2 c 4096#32 (BitVec.ofNat 32 (4294967296 - (r + 1)))) a + S512x1024.size a ≤ S16384x1024.size a}
    {h' : ∀ a, (![1, 0, 0] : Fin 3 → ℕ) a + S1x512x1024.size a ≤ S2x512x1024.size a}
    {hsrc : (xCh (k0_off2 c 4096#32 (BitVec.ofNat 32 (4294967296 - (r + 1)))) h).view.WordExact} {hdst : (sSl 1 h').view.WordExact}
    {hsem : DmaTarget.Typed (nD := nD) .hbm (.dma (dsem 89)) (DmaTarget.here (p := (c : Thread nD τ).2) (sSl 1 h'))}
    {α : Type} {Q : α → sProp 𝕄} {k : PUnit → Prog (TpuEff nD τ sig (Elt F) Λ₀ .tc) α}
    (fd : Buf (Elt F) ((sSl 1 h').view.loc (c : Thread nD τ))) :
    iprop(cellInv (ER (F := F)) (sched m) (K (c, 90)) (dcell c 89)
        ∗ rpts c (xCh (k0_off2 c 4096#32 (BitVec.ofNat 32 (4294967296 - (r + 1)))) h) fullShare (X m c)
        ∗ rpts c (sSl 1 h') fullShare fd
        ∗ dutyTok (ER (F := F)) (dcell c 89) r 0 ∗ reached (ER (F := F)) (dcell c 89) r)
      ⊢ iprop((cred (tallyAt (dcell c 89) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (xCh (k0_off2 c 4096#32 (BitVec.ofNat 32 (4294967296 - (r + 1)))) h) (.here (sSl 1 h')) (.dma (dsem 89)) hsrc hdst hsem) k) Q) := by
  refine Rounds.wp_copy_pointsTo Variants.none (ER (F := F)) (sched m) (c : Thread nD τ) none
    (src := xCh (k0_off2 c 4096#32 (BitVec.ofNat 32 (4294967296 - (r + 1)))) h) (dst := sSl 1 h') (q := fullShare) (fs := X m c) (fd := fd)
    (κ := K (c, 90)) (r := r) (d := 0)
    (by rw [duties_local m c 1 (by decide) r (by omega)]; exact Finset.mem_singleton_self _)
    () N rfl (amount_dma m c 89 (by decide) r 0) ?_
  interval_cases r
  · rw [payload_local_1_0]; exact stage_pay m c 1 0 (by decide) _ _ _ _ fd (off2_1_1 c)
  · rw [payload_local_1_1]; exact stage_pay m c 1 1 (by decide) _ _ _ _ fd (off2_1_2 c)
  · rw [payload_local_1_2]; exact stage_pay m c 1 2 (by decide) _ _ _ _ fd (off2_1_3 c)
  · rw [payload_local_1_3]; exact stage_pay m c 1 3 (by decide) _ _ _ _ fd (off2_1_4 c)
  · rw [payload_local_1_4]; exact stage_pay m c 1 4 (by decide) _ _ _ _ fd (off2_1_5 c)
  · rw [payload_local_1_5]; exact stage_pay m c 1 5 (by decide) _ _ _ _ fd (off2_1_6 c)
  · rw [payload_local_1_6]; exact stage_pay m c 1 6 (by decide) _ _ _ _ fd (off2_1_7 c)

/-! ## The copies of the finished chunk into the result -/

/-- The copy of the last exchange slot of direction 0 into the device's own chunk of the result, in round 7. -/
theorem copy_done_0 (K : Dev nD × Fin 91 → ℕ) (c : Dev nD)
    {h : ∀ a, (![0, 6, 0, 0] : Fin 4 → ℕ) a + S1x1x512x1024.size a ≤ S2x7x512x1024.size a}
    {h' : ∀ a, (k0_off3 c 0#32 1#32) a + S512x1024.size a ≤ S16384x1024.size a}
    {hsrc : (cSl 0 6 h).view.WordExact} {hdst : (oCh (k0_off3 c 0#32 1#32) h').view.WordExact}
    {hsem : DmaTarget.Typed (nD := nD) .vmem (.dma (dsem 88)) (DmaTarget.here (p := (c : Thread nD τ).2) (oCh (k0_off3 c 0#32 1#32) h'))}
    {α : Type} {Q : α → sProp 𝕄} {k : PUnit → Prog (TpuEff nD τ sig (Elt F) Λ₀ .tc) α}
    (fd : Buf (Elt F) ((oCh (k0_off3 c 0#32 1#32) h').view.loc (c : Thread nD τ))) :
    iprop(cellInv (ER (F := F)) (sched m) (K (c, 89)) (dcell c 88)
        ∗ rpts c (cSl 0 6 h) fullShare (CommAcc m c)
        ∗ rpts c (oCh (k0_off3 c 0#32 1#32) h') fullShare fd
        ∗ dutyTok (ER (F := F)) (dcell c 88) 7 0 ∗ reached (ER (F := F)) (dcell c 88) 7)
      ⊢ iprop((cred (tallyAt (dcell c 88) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 0 6 h) (.here (oCh (k0_off3 c 0#32 1#32) h')) (.dma (dsem 88)) hsrc hdst hsem) k) Q) := by
  refine Rounds.wp_copy_pointsTo Variants.none (ER (F := F)) (sched m) (c : Thread nD τ) none
    (src := cSl 0 6 h) (dst := oCh (k0_off3 c 0#32 1#32) h') (q := fullShare) (fs := CommAcc m c) (fd := fd)
    (κ := K (c, 89)) (r := 7) (d := 0)
    (by rw [duties_local m c 0 (by decide) 7 (by decide)]; exact Finset.mem_singleton_self _)
    () N rfl (amount_dma m c 88 (by decide) 7 0) ?_
  rw [payload_local_0_7]
  exact sep_mono_left (land_done_ent m c c 0 (by decide) rfl _ h h' (off3_0 c) fd)

/-- The copy of the last exchange slot of direction 1 into the device's own chunk of the result, in round 7. -/
theorem copy_done_1 (K : Dev nD × Fin 91 → ℕ) (c : Dev nD)
    {h : ∀ a, (![1, 6, 0, 0] : Fin 4 → ℕ) a + S1x1x512x1024.size a ≤ S2x7x512x1024.size a}
    {h' : ∀ a, (k0_off3 c 4096#32 4294967295#32) a + S512x1024.size a ≤ S16384x1024.size a}
    {hsrc : (cSl 1 6 h).view.WordExact} {hdst : (oCh (k0_off3 c 4096#32 4294967295#32) h').view.WordExact}
    {hsem : DmaTarget.Typed (nD := nD) .vmem (.dma (dsem 89)) (DmaTarget.here (p := (c : Thread nD τ).2) (oCh (k0_off3 c 4096#32 4294967295#32) h'))}
    {α : Type} {Q : α → sProp 𝕄} {k : PUnit → Prog (TpuEff nD τ sig (Elt F) Λ₀ .tc) α}
    (fd : Buf (Elt F) ((oCh (k0_off3 c 4096#32 4294967295#32) h').view.loc (c : Thread nD τ))) :
    iprop(cellInv (ER (F := F)) (sched m) (K (c, 90)) (dcell c 89)
        ∗ rpts c (cSl 1 6 h) fullShare (CommAcc m c)
        ∗ rpts c (oCh (k0_off3 c 4096#32 4294967295#32) h') fullShare fd
        ∗ dutyTok (ER (F := F)) (dcell c 89) 7 0 ∗ reached (ER (F := F)) (dcell c 89) 7)
      ⊢ iprop((cred (tallyAt (dcell c 89) () N)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (cSl 1 6 h) (.here (oCh (k0_off3 c 4096#32 4294967295#32) h')) (.dma (dsem 89)) hsrc hdst hsem) k) Q) := by
  refine Rounds.wp_copy_pointsTo Variants.none (ER (F := F)) (sched m) (c : Thread nD τ) none
    (src := cSl 1 6 h) (dst := oCh (k0_off3 c 4096#32 4294967295#32) h') (q := fullShare) (fs := CommAcc m c) (fd := fd)
    (κ := K (c, 90)) (r := 7) (d := 0)
    (by rw [duties_local m c 1 (by decide) 7 (by decide)]; exact Finset.mem_singleton_self _)
    () N rfl (amount_dma m c 89 (by decide) 7 0) ?_
  rw [payload_local_1_7]
  exact sep_mono_left (land_done_ent m c c 1 (by decide) rfl _ h h' (off3_1 c) fd)

/-! ## Loads and stores on a slot held as a region

  A slot of the exchange buffer or of the staging buffer is held as the region under the slot's view; a load or a
  store addresses the same elements through the whole buffer's rectangle at the slot, before the unit axes are
  dropped. The two views have the same elements, so the region is what the access needs. -/

/-- The elements of slot (d, s) of the exchange buffer are those of the access rectangle at the slot. -/
theorem cSl_set (d s : ℕ) (h : ∀ a, (![d, s, 0, 0] : Fin 4 → ℕ) a + S1x1x512x1024.size a ≤ S2x7x512x1024.size a) :
    (cSl d s h).view.set = (cM.access (Rect.unit (s := S2x7x512x1024) ![d, s, 0, 0] S1x1x512x1024.size h)).set :=
  View.set_reshape _ _

/-- The elements of slot d of the staging buffer are those of the access rectangle at the slot. -/
theorem sSl_set (d : ℕ) (h : ∀ a, (![d, 0, 0] : Fin 3 → ℕ) a + S1x512x1024.size a ≤ S2x512x1024.size a) :
    (sSl d h).view.set = (sM.access (Rect.unit (s := S2x512x1024) ![d, 0, 0] S1x512x1024.size h)).set :=
  View.set_reshape _ _

/-- A load of slot (d, s) of the exchange buffer from the region of the slot: the region is kept. -/
theorem load_comm (c : Dev nD) (d s : ℕ)
    {h : ∀ a, (![d, s, 0, 0] : Fin 4 → ℕ) a + S1x1x512x1024.size a ≤ S2x7x512x1024.size a}
    {hl : (cM : Memref sig .tc .vmem S2x7x512x1024 .f32).view.LoadsAt
      (Rect.unit (s := S2x7x512x1024) ![d, s, 0, 0] S1x1x512x1024.size h).toLoadRect}
    {α : Type} {Q : α → sProp 𝕄}
    {k : ((Rect.unit (s := S2x7x512x1024) ![d, s, 0, 0] S1x1x512x1024.size h).shape.Idx → Elt F .f32)
      → Prog (TpuEff nD τ sig (Elt F) Λ₀ .tc) α}
    (f : Buf (Elt F) ((c : Thread nD τ).loc cc0_scratch0)) :
    (rpts c (cSl d s h) fullShare f : sProp 𝕄)
      ⊢ iprop((rpts c (cSl d s h) fullShare f
              -∗ wp frame (wpE (defs₀ (F := F)) Variants.none (c : Thread nD τ) none) Set.univ
                  (k ((cM.access (Rect.unit (s := S2x7x512x1024) ![d, s, 0, 0] S1x1x512x1024.size h)).read (Elt F) f)) Q)
          -∗ wp frame (wpE (defs₀ (F := F)) Variants.none (c : Thread nD τ) none) Set.univ
              (.op (.load cM (Rect.unit (s := S2x7x512x1024) ![d, s, 0, 0] S1x1x512x1024.size h).toLoadRect hl) k) Q) :=
  wp_load_rect Variants.none (c : Thread nD τ) none Set.univ (m := cM)
    (r := Rect.unit (s := S2x7x512x1024) ![d, s, 0, 0] S1x1x512x1024.size h) (cSl_set d s h).ge

/-- A load of slot d of the staging buffer from the region of the slot: the region is kept. -/
theorem load_stage (c : Dev nD) (d : ℕ)
    {h : ∀ a, (![d, 0, 0] : Fin 3 → ℕ) a + S1x512x1024.size a ≤ S2x512x1024.size a}
    {hl : (sM : Memref sig .tc .vmem S2x512x1024 .f32).view.LoadsAt
      (Rect.unit (s := S2x512x1024) ![d, 0, 0] S1x512x1024.size h).toLoadRect}
    {α : Type} {Q : α → sProp 𝕄}
    {k : ((Rect.unit (s := S2x512x1024) ![d, 0, 0] S1x512x1024.size h).shape.Idx → Elt F .f32)
      → Prog (TpuEff nD τ sig (Elt F) Λ₀ .tc) α}
    (g : Buf (Elt F) ((c : Thread nD τ).loc cc0_scratch1)) :
    (rpts c (sSl d h) fullShare g : sProp 𝕄)
      ⊢ iprop((rpts c (sSl d h) fullShare g
              -∗ wp frame (wpE (defs₀ (F := F)) Variants.none (c : Thread nD τ) none) Set.univ
                  (k ((sM.access (Rect.unit (s := S2x512x1024) ![d, 0, 0] S1x512x1024.size h)).read (Elt F) g)) Q)
          -∗ wp frame (wpE (defs₀ (F := F)) Variants.none (c : Thread nD τ) none) Set.univ
              (.op (.load sM (Rect.unit (s := S2x512x1024) ![d, 0, 0] S1x512x1024.size h).toLoadRect hl) k) Q) :=
  wp_load_rect Variants.none (c : Thread nD τ) none Set.univ (m := sM)
    (r := Rect.unit (s := S2x512x1024) ![d, 0, 0] S1x512x1024.size h) (sSl_set d h).ge

/-- A store of a whole slot (d, s) of the exchange buffer into the region of the slot: the region afterwards holds
    the slot rewritten. -/
theorem store_comm (c : Dev nD) (d s : ℕ)
    {h : ∀ a, (![d, s, 0, 0] : Fin 4 → ℕ) a + S1x1x512x1024.size a ≤ S2x7x512x1024.size a}
    {w : (Rect.unit (s := S2x7x512x1024) ![d, s, 0, 0] S1x1x512x1024.size h).shape.Idx → Elt F .f32}
    {hx : (cM.access (Rect.unit (s := S2x7x512x1024) ![d, s, 0, 0] S1x1x512x1024.size h)).Stores Finset.univ}
    {hm : (Finset.univ : Finset (Rect.unit (s := S2x7x512x1024) ![d, s, 0, 0] S1x1x512x1024.size h).shape.Idx) = Finset.univ
      ∨ ∀ a, (Rect.unit (s := S2x7x512x1024) ![d, s, 0, 0] S1x1x512x1024.size h).stride a = 1}
    {α : Type} {Q : α → sProp 𝕄} {k : PUnit → Prog (TpuEff nD τ sig (Elt F) Λ₀ .tc) α}
    (f : Buf (Elt F) ((c : Thread nD τ).loc cc0_scratch0)) :
    (rpts c (cSl d s h) fullShare f : sProp 𝕄)
      ⊢ iprop((rpts c (cSl d s h) fullShare
                ((cM.access (Rect.unit (s := S2x7x512x1024) ![d, s, 0, 0] S1x1x512x1024.size h)).write (Elt F) f w Finset.univ)
              -∗ wp frame (wpE (defs₀ (F := F)) Variants.none (c : Thread nD τ) none) Set.univ (k ⟨⟩) Q)
          -∗ wp frame (wpE (defs₀ (F := F)) Variants.none (c : Thread nD τ) none) Set.univ
              (.op (.store cM (Rect.unit (s := S2x7x512x1024) ![d, s, 0, 0] S1x1x512x1024.size h) w Finset.univ hx hm) k) Q) :=
  wp_store Variants.none (c : Thread nD τ) none Set.univ (m := cM)
    (r := Rect.unit (s := S2x7x512x1024) ![d, s, 0, 0] S1x1x512x1024.size h) (Mk := Finset.univ) (cSl_set d s h).ge

/-- info: 'Cert.Kernel.Rules.copy_stage_1' depends on axioms: [propext, Classical.choice, Quot.sound] -/
#guard_msgs in #print axioms copy_stage_1

/-- info: 'Cert.Kernel.Rules.copy_done_1' depends on axioms: [propext, Classical.choice, Quot.sound] -/
#guard_msgs in #print axioms copy_done_1

/-- info: 'Cert.Kernel.Rules.store_comm' depends on axioms: [propext, Classical.choice, Quot.sound] -/
#guard_msgs in #print axioms store_comm

end Cert.Kernel.Rules

end
-- ==== Proof.Bits.RulesSync.lean ====
/-
  The signals and the waits, as the program issues them. Each lemma is the library's rule at the certificate's
  schedule: a signal pays one duty of the peer's barrier cell and hands over that duty's payload; a wait for a whole
  round spends the round's credit and returns the round's payloads, the cell one round further.
-/
import proofs.«900727_g7700000000000728_dist_ar_v7x_xyz2x4x4_y_m16384_n1024_f32_1_alg».proof.Proof.Bits.Tables
import proofs.«900727_g7700000000000728_dist_ar_v7x_xyz2x4x4_y_m16384_n1024_f32_1_alg».proof.Proof.Bits.Levels

set_option maxRecDepth 16384

noncomputable section

namespace Cert.Kernel.Rules

open Cert.Kernel Cert.Kernel.Gen Cert.Kernel.Ring Cert.Kernel.Cells Cert.Kernel.Vals Cert.Kernel.Sched
open Cert.Kernel.State

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The signal to the barrier cell of the successor: duty 0 of that cell. -/
theorem signal_succ (K : Dev nD × Fin 91 → ℕ) (c n : Dev nD) (hn : n = succD c)
    {α : Type} {Q : α → sProp 𝕄} {k : PUnit → Prog (TpuEff nD τ sig (Elt F) Λ₀ .tc) α}
    (O : CellTallies nD τ sig Unit) (W : Waits sig Unit) :
    iprop(cellInv ER (sched m) (K (succD c, 0)) (barCell (succD c))
        ∗ owes (c : Thread nD τ) (O + tallyAt (barCell (succD c)) () 1) W
        ∗ dutyTok ER (barCell (succD c)) 0 0 ∗ give1 (F := F) c ∗ reached ER (barCell (succD c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← payload_bar0_succ m c]
  exact Rounds.wp_signal Variants.none ER (sched m) (c : Thread nD τ) none (dst := (succD c : Thread nD τ)) (sem := barS)
    (κ := K (succD c, 0)) (r := 0) (d := 0) (by rw [duties_bar]; exact Finset.mem_univ _)
    (amount_bar m (succD c) 0 0) () O rfl

/-- The signal to the barrier cell of the predecessor: duty 1 of that cell. -/
theorem signal_pred (K : Dev nD × Fin 91 → ℕ) (c n : Dev nD) (hn : n = predD c)
    {α : Type} {Q : α → sProp 𝕄} {k : PUnit → Prog (TpuEff nD τ sig (Elt F) Λ₀ .tc) α}
    (O : CellTallies nD τ sig Unit) (W : Waits sig Unit) :
    iprop(cellInv ER (sched m) (K (predD c, 0)) (barCell (predD c))
        ∗ owes (c : Thread nD τ) (O + tallyAt (barCell (predD c)) () 1) W
        ∗ dutyTok ER (barCell (predD c)) 0 1 ∗ give0 (F := F) c ∗ reached ER (barCell (predD c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← payload_bar1_pred m c]
  exact Rounds.wp_signal Variants.none ER (sched m) (c : Thread nD τ) none (dst := (predD c : Thread nD τ)) (sem := barS)
    (κ := K (predD c, 0)) (r := 0) (d := 1) (by rw [duties_bar]; exact Finset.mem_univ _)
    (amount_bar m (predD c) 0 1) () O rfl

/-- The signal to the barrier cell of the pair partner: duty 2 of that cell. -/
theorem signal_part (K : Dev nD × Fin 91 → ℕ) (c n : Dev nD) (hn : n = partD c)
    {α : Type} {Q : α → sProp 𝕄} {k : PUnit → Prog (TpuEff nD τ sig (Elt F) Λ₀ .tc) α}
    (O : CellTallies nD τ sig Unit) (W : Waits sig Unit) :
    iprop(cellInv ER (sched m) (K (partD c, 0)) (barCell (partD c))
        ∗ owes (c : Thread nD τ) (O + tallyAt (barCell (partD c)) () 1) W
        ∗ dutyTok ER (barCell (partD c)) 0 2 ∗ giveZ (F := F) c (partD c) ∗ reached ER (barCell (partD c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← payload_bar2_part m c]
  exact Rounds.wp_signal Variants.none ER (sched m) (c : Thread nD τ) none (dst := (partD c : Thread nD τ)) (sem := barS)
    (κ := K (partD c, 0)) (r := 0) (d := 2) (by rw [duties_bar]; exact Finset.mem_univ _)
    (amount_bar m (partD c) 0 2) () O rfl

/-- The wait for the three signals on the device's own barrier cell: the three payers' buffers come with it. -/
theorem wait_bar (K : Dev nD × Fin 91 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (sched m) (K (c, 0)) (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (.reg barS, ()) W) ∗ atPos ER (barCell c) 1 ∅ 0 ∗ reached ER (barCell c) 1
            ∗ (give1 (F := F) (predD c) ∗ give0 (F := F) (succD c) ∗ giveZ (F := F) (partD c) c))
          -∗ wp frame (wpE (defs₀ (F := F)) Variants.none (c : Thread nD τ) none) Set.univ (k ⟨⟩) Q)
          -∗ wp frame (wpE (defs₀ (F := F)) Variants.none (c : Thread nD τ) none) Set.univ (.op (.semWait barS 3) k) Q) := by
  rw [← rest_bar m c]
  exact Rounds.wp_wait_rest_token Variants.none ER (sched m) (c : Thread nD τ) none (κ := K (c, 0))
    (wpE_semWait_eq Variants.none (c : Thread nD τ) none Set.univ) (Set.mem_univ _) () (O := O) (W := W) (R := 0) (m := 0) (T := ∅)
    (by rw [expect_bar])

/-- A wait on a DMA cell with one round: the round's credit for the round's payload. -/
theorem wait_dma (K : Dev nD × Fin 91 → ℕ) (c : Dev nD) (i : ℕ) (hi : i < 88)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) :
    iprop(cellInv ER (sched m) (K (c, ⟨i + 1, by omega⟩)) (dcell c i (by omega)) ∗ cred (tallyAt (dcell c i (by omega)) () N)
        ∗ owes (c : Thread nD τ) O W ∗ MayWait (c : Thread nD τ) (.dma (dsem i (by omega))) () O
        ∗ atPos ER (dcell c i (by omega)) 0 ∅ 0)
      ⊢ iprop(((owes (c : Thread nD τ) O (insert (.dma (dsem i (by omega)), ()) W) ∗ atPos ER (dcell c i (by omega)) 1 ∅ 0
            ∗ reached ER (dcell c i (by omega)) 1 ∗ dmaPay m c i 0)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem i (by omega)) src dst hsrc hdst) k) Q) := by
  have hN : dst.view.dmaCredit = N := rfl
  rw [← rest_dma m c i hi, ← hN]
  exact Rounds.wp_wait_rest_token Variants.none ER (sched m) (c : Thread nD τ) none (κ := K (c, ⟨i + 1, by omega⟩))
    (sm := .dma (dsem i (by omega))) (k' := dst.view.dmaCredit)
    (wpE_waitDma2_eq Variants.none (c : Thread nD τ) none Set.univ) (Set.mem_univ _) () (O := O) (W := W) (R := 0) (m := 0) (T := ∅)
    (by rw [expect_dma m c i hi, Nat.zero_add]; exact hN)

/-- The same when nothing is owed. -/
theorem wait_dma0 (K : Dev nD × Fin 91 → ℕ) (c : Dev nD) (i : ℕ) (hi : i < 88)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α} (W : Waits sig Unit) :
    iprop(cellInv ER (sched m) (K (c, ⟨i + 1, by omega⟩)) (dcell c i (by omega)) ∗ cred (tallyAt (dcell c i (by omega)) () N)
        ∗ owes (c : Thread nD τ) 0 W ∗ atPos ER (dcell c i (by omega)) 0 ∅ 0)
      ⊢ iprop(((owes (c : Thread nD τ) 0 (insert (.dma (dsem i (by omega)), ()) W) ∗ atPos ER (dcell c i (by omega)) 1 ∅ 0
            ∗ reached ER (dcell c i (by omega)) 1 ∗ dmaPay m c i 0)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem i (by omega)) src dst hsrc hdst) k) Q) := by
  have h := wait_dma m K c i hi (src := src) (dst := dst) (hsrc := hsrc) (hdst := hdst) (Q := Q) (k := k) 0 W
  rw [MayWait_zero] at h
  iintro ⟨HI, Hc, HO, Hat⟩
  iapply h
  isplitl [HI]; · iexact HI
  isplitl [Hc]; · iexact Hc
  isplitl [HO]; · iexact HO
  isplitr; · iempintro
  iexact Hat

/-- A wait on the cell of the local copies of direction d, at round r. -/
theorem wait_local (K : Dev nD × Fin 91 → ℕ) (c : Dev nD) (d : ℕ) (hd : d < 2) (r : ℕ) (hr : r < 8)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) :
    iprop(cellInv ER (sched m) (K (c, ⟨88 + d + 1, by omega⟩)) (dcell c (88 + d) (by omega))
        ∗ cred (tallyAt (dcell c (88 + d) (by omega)) () N)
        ∗ owes (c : Thread nD τ) O W ∗ MayWait (c : Thread nD τ) (.dma (dsem (88 + d) (by omega))) () O
        ∗ atPos ER (dcell c (88 + d) (by omega)) r ∅ 0)
      ⊢ iprop(((owes (c : Thread nD τ) O (insert (.dma (dsem (88 + d) (by omega)), ()) W)
            ∗ atPos ER (dcell c (88 + d) (by omega)) (r + 1) ∅ 0
            ∗ reached ER (dcell c (88 + d) (by omega)) (r + 1) ∗ dmaPay m c (88 + d) r)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem (88 + d) (by omega)) src dst hsrc hdst) k) Q) := by
  have hN : dst.view.dmaCredit = N := rfl
  rw [← rest_local m c d hd r hr, ← hN]
  exact Rounds.wp_wait_rest_token Variants.none ER (sched m) (c : Thread nD τ) none (κ := K (c, ⟨88 + d + 1, by omega⟩))
    (sm := .dma (dsem (88 + d) (by omega))) (k' := dst.view.dmaCredit)
    (wpE_waitDma2_eq Variants.none (c : Thread nD τ) none Set.univ) (Set.mem_univ _) () (O := O) (W := W) (R := r) (m := 0) (T := ∅)
    (by rw [expect_local m c d hd r hr, Nat.zero_add]; exact hN)

/-- The same when nothing is owed. -/
theorem wait_local0 (K : Dev nD × Fin 91 → ℕ) (c : Dev nD) (d : ℕ) (hd : d < 2) (r : ℕ) (hr : r < 8)
    {sp sp' : Space} {s' : Shape} {e' : EltTy} {src : Memref sig .tc sp' s' e'} {dst : Memref sig .tc sp S512x1024 .f32}
    {hsrc : src.view.WordExact} {hdst : dst.view.WordExact}
    {α : Type} {Q : α → sProp 𝕄} {k : PUnit → Prog (TpuEff nD τ sig (Elt F) Λ₀ .tc) α} (W : Waits sig Unit) :
    iprop(cellInv ER (sched m) (K (c, ⟨88 + d + 1, by omega⟩)) (dcell c (88 + d) (by omega))
        ∗ cred (tallyAt (dcell c (88 + d) (by omega)) () N)
        ∗ owes (c : Thread nD τ) 0 W ∗ atPos ER (dcell c (88 + d) (by omega)) r ∅ 0)
      ⊢ iprop(((owes (c : Thread nD τ) 0 (insert (.dma (dsem (88 + d) (by omega)), ()) W)
            ∗ atPos ER (dcell c (88 + d) (by omega)) (r + 1) ∅ 0
            ∗ reached ER (dcell c (88 + d) (by omega)) (r + 1) ∗ dmaPay m c (88 + d) r)
          -∗ wp frame (wpE (defs₀ (F := F)) Variants.none (c : Thread nD τ) none) Set.univ (k ⟨⟩) Q)
          -∗ wp frame (wpE (defs₀ (F := F)) Variants.none (c : Thread nD τ) none) Set.univ (.op (.waitDma2 (dsem (88 + d) (by omega)) src dst hsrc hdst) k) Q) := by
  have h := wait_local m K c d hd r hr (src := src) (dst := dst) (hsrc := hsrc) (hdst := hdst) (Q := Q) (k := k) 0 W
  rw [MayWait_zero] at h
  iintro ⟨HI, Hc, HO, Hat⟩
  iapply h
  isplitl [HI]; · iexact HI
  isplitl [Hc]; · iexact Hc
  isplitl [HO]; · iexact HO
  isplitr; · iempintro
  iexact Hat

/-- The wait on the barrier cell when nothing is owed. -/
theorem wait_bar0 (K : Dev nD × Fin 91 → ℕ) (c : Dev nD)
    {α : Type} {Q : α → sProp 𝕄} {k : PUnit → Prog (TpuEff nD τ sig (Elt F) Λ₀ .tc) α} (W : Waits sig Unit) :
    iprop(cellInv ER (sched m) (K (c, 0)) (barCell c) ∗ cred (tallyAt (barCell c) () 3) ∗ owes (c : Thread nD τ) 0 W
        ∗ atPos ER (barCell c) 0 ∅ 0)
      ⊢ iprop(((owes (c : Thread nD τ) 0 (insert (.reg barS, ()) W) ∗ atPos ER (barCell c) 1 ∅ 0 ∗ reached ER (barCell c) 1
            ∗ (give1 (F := F) (predD c) ∗ give0 (F := F) (succD c) ∗ giveZ (F := F) (partD c) c))
          -∗ wp frame (wpE (defs₀ (F := F)) Variants.none (c : Thread nD τ) none) Set.univ (k ⟨⟩) Q)
          -∗ wp frame (wpE (defs₀ (F := F)) Variants.none (c : Thread nD τ) none) Set.univ (.op (.semWait barS 3) k) Q) := by
  have h := wait_bar m K c (Q := Q) (k := k) 0 W
  rw [MayWait_zero] at h
  iintro ⟨HI, Hc, HO, Hat⟩
  iapply h
  isplitl [HI]; · iexact HI
  isplitl [Hc]; · iexact Hc
  isplitl [HO]; · iexact HO
  isplitr; · iempintro
  iexact Hat

/-- info: 'Cert.Kernel.Rules.wait_local0' depends on axioms: [propext, Classical.choice, Quot.sound] -/
#guard_msgs in #print axioms wait_local0

/-- info: 'Cert.Kernel.Rules.signal_part' depends on axioms: [propext, Classical.choice, Quot.sound] -/
#guard_msgs in #print axioms signal_part

end Cert.Kernel.Rules

end
-- ==== Proof.Bits.Epilogue.lean ====
/-
  The end of a device's body. A region held whole is the same as its two half shares held together. A cell whose
  owner stands at a round from which no round has a duty, having consumed nothing of it, is closed by its owner,
  who keeps the counter at zero: a DMA cell other than the two of the local copies after its one round, those two
  after their eight. Closing the ninety DMA cells one after another, each under an update from the whole mask,
  leaves the ninety counters at zero, written as the separating conjunction over all indices.
-/
import proofs.«900727_g7700000000000728_dist_ar_v7x_xyz2x4x4_y_m16384_n1024_f32_1_alg».proof.Proof.Bits.Tables

set_option maxRecDepth 16384

noncomputable section

namespace Cert.Kernel.Rules

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The two halves of a region -/

omit [FloatOps F] in
/-- A region held whole is held at its left and at its right half share. -/
theorem share_split (dev : Dev nD) {sp : Space} {s : Shape} (v : Memref sig .tc sp s .f32)
    (f : Buf (Elt F) (v.view.loc (dev : Thread nD τ))) :
    (rpts dev v fullShare f : sProp 𝕄) ⊢ iprop(rpts dev v fullShare.left f ∗ rpts dev v fullShare.right f) :=
  (pointsTo_share (PosShare.mem_left_op_right fullShare)).1

omit [FloatOps F] in
/-- The two half shares of a region make the region whole. -/
theorem share_join (dev : Dev nD) {sp : Space} {s : Shape} (v : Memref sig .tc sp s .f32)
    (f : Buf (Elt F) (v.view.loc (dev : Thread nD τ))) :
    iprop(rpts dev v fullShare.left f ∗ rpts dev v fullShare.right f) ⊢ (rpts dev v fullShare f : sProp 𝕄) :=
  (pointsTo_share (PosShare.mem_left_op_right fullShare)).2

/-! ## Closing a cell -/

/-- A DMA cell other than the two of the local copies, its owner past its one round. -/
theorem close_dma (κ : ℕ) (c : Dev nD) (i : ℕ) (hi : i < 88) :
    iprop(cellInv (ER (F := F)) (sched m) κ (dcell c i (by omega)) ∗ atPos (ER (F := F)) (dcell c i (by omega)) 1 ∅ 0)
      ⊢ iprop(|={Set.univ}=> semVal (dcell c i (by omega)) 0) :=
  Rounds.cell_close ER (sched m) (Set.mem_univ κ) (fun h => h) (duties_later_dma m c i hi)

/-- A cell of the local copies, its owner past its eight rounds. -/
theorem close_local (κ : ℕ) (c : Dev nD) (d : ℕ) (hd : d < 2) :
    iprop(cellInv (ER (F := F)) (sched m) κ (dcell c (88 + d) (by omega)) ∗ atPos (ER (F := F)) (dcell c (88 + d) (by omega)) 8 ∅ 0)
      ⊢ iprop(|={Set.univ}=> semVal (dcell c (88 + d) (by omega)) 0) :=
  Rounds.cell_close ER (sched m) (Set.mem_univ κ) (fun h => h) (duties_later_local m c d hd)

omit [FloatOps F] in
/-- Two closings side by side: the invariants on one side, the positions on the other. -/
theorem close_step {I P S Ir Pr Sr : sProp 𝕄} (h : iprop(I ∗ P) ⊢ iprop(|={Set.univ}=> S))
    (hr : iprop(Ir ∗ Pr) ⊢ iprop(|={Set.univ}=> Sr)) :
    iprop((I ∗ Ir) ∗ (P ∗ Pr)) ⊢ iprop(|={Set.univ}=> (S ∗ Sr)) :=
  (sep_sep_sep_comm.1.trans (sep_mono h hr)).trans fupd_sep

/-! ## The ninety counters -/

omit [FloatOps F] in
/-- The counters of a device's ninety DMA cells at zero, index by index. -/
theorem sems_chain (c : Dev nD) :
    bigSep Finset.univ (fun i : Fin 90 => (semVal (dcell c i.val i.isLt) 0 : sProp 𝕄))
      = iprop(semVal (dcell c 0) 0
          ∗ semVal (dcell c 1) 0
          ∗ semVal (dcell c 2) 0
          ∗ semVal (dcell c 3) 0
          ∗ semVal (dcell c 4) 0
          ∗ semVal (dcell c 5) 0
          ∗ semVal (dcell c 6) 0
          ∗ semVal (dcell c 7) 0
          ∗ semVal (dcell c 8) 0
          ∗ semVal (dcell c 9) 0
          ∗ semVal (dcell c 10) 0
          ∗ semVal (dcell c 11) 0
          ∗ semVal (dcell c 12) 0
          ∗ semVal (dcell c 13) 0
          ∗ semVal (dcell c 14) 0
          ∗ semVal (dcell c 15) 0
          ∗ semVal (dcell c 16) 0
          ∗ semVal (dcell c 17) 0
          ∗ semVal (dcell c 18) 0
          ∗ semVal (dcell c 19) 0
          ∗ semVal (dcell c 20) 0
          ∗ semVal (dcell c 21) 0
          ∗ semVal (dcell c 22) 0
          ∗ semVal (dcell c 23) 0
          ∗ semVal (dcell c 24) 0
          ∗ semVal (dcell c 25) 0
          ∗ semVal (dcell c 26) 0
          ∗ semVal (dcell c 27) 0
          ∗ semVal (dcell c 28) 0
          ∗ semVal (dcell c 29) 0
          ∗ semVal (dcell c 30) 0
          ∗ semVal (dcell c 31) 0
          ∗ semVal (dcell c 32) 0
          ∗ semVal (dcell c 33) 0
          ∗ semVal (dcell c 34) 0
          ∗ semVal (dcell c 35) 0
          ∗ semVal (dcell c 36) 0
          ∗ semVal (dcell c 37) 0
          ∗ semVal (dcell c 38) 0
          ∗ semVal (dcell c 39) 0
          ∗ semVal (dcell c 40) 0
          ∗ semVal (dcell c 41) 0
          ∗ semVal (dcell c 42) 0
          ∗ semVal (dcell c 43) 0
          ∗ semVal (dcell c 44) 0
          ∗ semVal (dcell c 45) 0
          ∗ semVal (dcell c 46) 0
          ∗ semVal (dcell c 47) 0
          ∗ semVal (dcell c 48) 0
          ∗ semVal (dcell c 49) 0
          ∗ semVal (dcell c 50) 0
          ∗ semVal (dcell c 51) 0
          ∗ semVal (dcell c 52) 0
          ∗ semVal (dcell c 53) 0
          ∗ semVal (dcell c 54) 0
          ∗ semVal (dcell c 55) 0
          ∗ semVal (dcell c 56) 0
          ∗ semVal (dcell c 57) 0
          ∗ semVal (dcell c 58) 0
          ∗ semVal (dcell c 59) 0
          ∗ semVal (dcell c 60) 0
          ∗ semVal (dcell c 61) 0
          ∗ semVal (dcell c 62) 0
          ∗ semVal (dcell c 63) 0
          ∗ semVal (dcell c 64) 0
          ∗ semVal (dcell c 65) 0
          ∗ semVal (dcell c 66) 0
          ∗ semVal (dcell c 67) 0
          ∗ semVal (dcell c 68) 0
          ∗ semVal (dcell c 69) 0
          ∗ semVal (dcell c 70) 0
          ∗ semVal (dcell c 71) 0
          ∗ semVal (dcell c 72) 0
          ∗ semVal (dcell c 73) 0
          ∗ semVal (dcell c 74) 0
          ∗ semVal (dcell c 75) 0
          ∗ semVal (dcell c 76) 0
          ∗ semVal (dcell c 77) 0
          ∗ semVal (dcell c 78) 0
          ∗ semVal (dcell c 79) 0
          ∗ semVal (dcell c 80) 0
          ∗ semVal (dcell c 81) 0
          ∗ semVal (dcell c 82) 0
          ∗ semVal (dcell c 83) 0
          ∗ semVal (dcell c 84) 0
          ∗ semVal (dcell c 85) 0
          ∗ semVal (dcell c 86) 0
          ∗ semVal (dcell c 87) 0
          ∗ semVal (dcell c 88) 0
          ∗ semVal (dcell c 89) 0) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89] (by decide) (by decide) _

/-- Every DMA cell of a device closed, its owner past the cell's last round: the ninety counters at zero. -/
theorem close_all (K : Dev nD × Fin 91 → ℕ) (c : Dev nD) :
    iprop((cellInv (ER (F := F)) (sched m) (K (c, 1)) (dcell c 0)
          ∗ cellInv (ER (F := F)) (sched m) (K (c, 2)) (dcell c 1)
          ∗ cellInv (ER (F := F)) (sched m) (K (c, 3)) (dcell c 2)
          ∗ cellInv (ER (F := F)) (sched m) (K (c, 4)) (dcell c 3)
          ∗ cellInv (ER (F := F)) (sched m) (K (c, 5)) (dcell c 4)
          ∗ cellInv (ER (F := F)) (sched m) (K (c, 6)) (dcell c 5)
          ∗ cellInv (ER (F := F)) (sched m) (K (c, 7)) (dcell c 6)
          ∗ cellInv (ER (F := F)) (sched m) (K (c, 8)) (dcell c 7)
          ∗ cellInv (ER (F := F)) (sched m) (K (c, 9)) (dcell c 8)
          ∗ cellInv (ER (F := F)) (sched m) (K (c, 10)) (dcell c 9)
          ∗ cellInv (ER (F := F)) (sched m) (K (c, 11)) (dcell c 10)
          ∗ cellInv (ER (F := F)) (sched m) (K (c, 12)) (dcell c 11)
          ∗ cellInv (ER (F := F)) (sched m) (K (c, 13)) (dcell c 12)
          ∗ cellInv (ER (F := F)) (sched m) (K (c, 14)) (dcell c 13)
          ∗ cellInv (ER (F := F)) (sched m) (K (c, 15)) (dcell c 14)
          ∗ cellInv (ER (F := F)) (sched m) (K (c, 16)) (dcell c 15)
          ∗ cellInv (ER (F := F)) (sched m) (K (c, 17)) (dcell c 16)
          ∗ cellInv (ER (F := F)) (sched m) (K (c, 18)) (dcell c 17)
          ∗ cellInv (ER (F := F)) (sched m) (K (c, 19)) (dcell c 18)
          ∗ cellInv (ER (F := F)) (sched m) (K (c, 20)) (dcell c 19)
          ∗ cellInv (ER (F := F)) (sched m) (K (c, 21)) (dcell c 20)
          ∗ cellInv (ER (F := F)) (sched m) (K (c, 22)) (dcell c 21)
          ∗ cellInv (ER (F := F)) (sched m) (K (c, 23)) (dcell c 22)
          ∗ cellInv (ER (F := F)) (sched m) (K (c, 24)) (dcell c 23)
          ∗ cellInv (ER (F := F)) (sched m) (K (c, 25)) (dcell c 24)
          ∗ cellInv (ER (F := F)) (sched m) (K (c, 26)) (dcell c 25)
          ∗ cellInv (ER (F := F)) (sched m) (K (c, 27)) (dcell c 26)
          ∗ cellInv (ER (F := F)) (sched m) (K (c, 28)) (dcell c 27)
          ∗ cellInv (ER (F := F)) (sched m) (K (c, 29)) (dcell c 28)
          ∗ cellInv (ER (F := F)) (sched m) (K (c, 30)) (dcell c 29)
          ∗ cellInv (ER (F := F)) (sched m) (K (c, 31)) (dcell c 30)
          ∗ cellInv (ER (F := F)) (sched m) (K (c, 32)) (dcell c 31)
          ∗ cellInv (ER (F := F)) (sched m) (K (c, 33)) (dcell c 32)
          ∗ cellInv (ER (F := F)) (sched m) (K (c, 34)) (dcell c 33)
          ∗ cellInv (ER (F := F)) (sched m) (K (c, 35)) (dcell c 34)
          ∗ cellInv (ER (F := F)) (sched m) (K (c, 36)) (dcell c 35)
          ∗ cellInv (ER (F := F)) (sched m) (K (c, 37)) (dcell c 36)
          ∗ cellInv (ER (F := F)) (sched m) (K (c, 38)) (dcell c 37)
          ∗ cellInv (ER (F := F)) (sched m) (K (c, 39)) (dcell c 38)
          ∗ cellInv (ER (F := F)) (sched m) (K (c, 40)) (dcell c 39)
          ∗ cellInv (ER (F := F)) (sched m) (K (c, 41)) (dcell c 40)
          ∗ cellInv (ER (F := F)) (sched m) (K (c, 42)) (dcell c 41)
          ∗ cellInv (ER (F := F)) (sched m) (K (c, 43)) (dcell c 42)
          ∗ cellInv (ER (F := F)) (sched m) (K (c, 44)) (dcell c 43)
          ∗ cellInv (ER (F := F)) (sched m) (K (c, 45)) (dcell c 44)
          ∗ cellInv (ER (F := F)) (sched m) (K (c, 46)) (dcell c 45)
          ∗ cellInv (ER (F := F)) (sched m) (K (c, 47)) (dcell c 46)
          ∗ cellInv (ER (F := F)) (sched m) (K (c, 48)) (dcell c 47)
          ∗ cellInv (ER (F := F)) (sched m) (K (c, 49)) (dcell c 48)
          ∗ cellInv (ER (F := F)) (sched m) (K (c, 50)) (dcell c 49)
          ∗ cellInv (ER (F := F)) (sched m) (K (c, 51)) (dcell c 50)
          ∗ cellInv (ER (F := F)) (sched m) (K (c, 52)) (dcell c 51)
          ∗ cellInv (ER (F := F)) (sched m) (K (c, 53)) (dcell c 52)
          ∗ cellInv (ER (F := F)) (sched m) (K (c, 54)) (dcell c 53)
          ∗ cellInv (ER (F := F)) (sched m) (K (c, 55)) (dcell c 54)
          ∗ cellInv (ER (F := F)) (sched m) (K (c, 56)) (dcell c 55)
          ∗ cellInv (ER (F := F)) (sched m) (K (c, 57)) (dcell c 56)
          ∗ cellInv (ER (F := F)) (sched m) (K (c, 58)) (dcell c 57)
          ∗ cellInv (ER (F := F)) (sched m) (K (c, 59)) (dcell c 58)
          ∗ cellInv (ER (F := F)) (sched m) (K (c, 60)) (dcell c 59)
          ∗ cellInv (ER (F := F)) (sched m) (K (c, 61)) (dcell c 60)
          ∗ cellInv (ER (F := F)) (sched m) (K (c, 62)) (dcell c 61)
          ∗ cellInv (ER (F := F)) (sched m) (K (c, 63)) (dcell c 62)
          ∗ cellInv (ER (F := F)) (sched m) (K (c, 64)) (dcell c 63)
          ∗ cellInv (ER (F := F)) (sched m) (K (c, 65)) (dcell c 64)
          ∗ cellInv (ER (F := F)) (sched m) (K (c, 66)) (dcell c 65)
          ∗ cellInv (ER (F := F)) (sched m) (K (c, 67)) (dcell c 66)
          ∗ cellInv (ER (F := F)) (sched m) (K (c, 68)) (dcell c 67)
          ∗ cellInv (ER (F := F)) (sched m) (K (c, 69)) (dcell c 68)
          ∗ cellInv (ER (F := F)) (sched m) (K (c, 70)) (dcell c 69)
          ∗ cellInv (ER (F := F)) (sched m) (K (c, 71)) (dcell c 70)
          ∗ cellInv (ER (F := F)) (sched m) (K (c, 72)) (dcell c 71)
          ∗ cellInv (ER (F := F)) (sched m) (K (c, 73)) (dcell c 72)
          ∗ cellInv (ER (F := F)) (sched m) (K (c, 74)) (dcell c 73)
          ∗ cellInv (ER (F := F)) (sched m) (K (c, 75)) (dcell c 74)
          ∗ cellInv (ER (F := F)) (sched m) (K (c, 76)) (dcell c 75)
          ∗ cellInv (ER (F := F)) (sched m) (K (c, 77)) (dcell c 76)
          ∗ cellInv (ER (F := F)) (sched m) (K (c, 78)) (dcell c 77)
          ∗ cellInv (ER (F := F)) (sched m) (K (c, 79)) (dcell c 78)
          ∗ cellInv (ER (F := F)) (sched m) (K (c, 80)) (dcell c 79)
          ∗ cellInv (ER (F := F)) (sched m) (K (c, 81)) (dcell c 80)
          ∗ cellInv (ER (F := F)) (sched m) (K (c, 82)) (dcell c 81)
          ∗ cellInv (ER (F := F)) (sched m) (K (c, 83)) (dcell c 82)
          ∗ cellInv (ER (F := F)) (sched m) (K (c, 84)) (dcell c 83)
          ∗ cellInv (ER (F := F)) (sched m) (K (c, 85)) (dcell c 84)
          ∗ cellInv (ER (F := F)) (sched m) (K (c, 86)) (dcell c 85)
          ∗ cellInv (ER (F := F)) (sched m) (K (c, 87)) (dcell c 86)
          ∗ cellInv (ER (F := F)) (sched m) (K (c, 88)) (dcell c 87)
          ∗ cellInv (ER (F := F)) (sched m) (K (c, 89)) (dcell c 88)
          ∗ cellInv (ER (F := F)) (sched m) (K (c, 90)) (dcell c 89))
        ∗ (atPos (ER (F := F)) (dcell c 0) 1 ∅ 0
          ∗ atPos (ER (F := F)) (dcell c 1) 1 ∅ 0
          ∗ atPos (ER (F := F)) (dcell c 2) 1 ∅ 0
          ∗ atPos (ER (F := F)) (dcell c 3) 1 ∅ 0
          ∗ atPos (ER (F := F)) (dcell c 4) 1 ∅ 0
          ∗ atPos (ER (F := F)) (dcell c 5) 1 ∅ 0
          ∗ atPos (ER (F := F)) (dcell c 6) 1 ∅ 0
          ∗ atPos (ER (F := F)) (dcell c 7) 1 ∅ 0
          ∗ atPos (ER (F := F)) (dcell c 8) 1 ∅ 0
          ∗ atPos (ER (F := F)) (dcell c 9) 1 ∅ 0
          ∗ atPos (ER (F := F)) (dcell c 10) 1 ∅ 0
          ∗ atPos (ER (F := F)) (dcell c 11) 1 ∅ 0
          ∗ atPos (ER (F := F)) (dcell c 12) 1 ∅ 0
          ∗ atPos (ER (F := F)) (dcell c 13) 1 ∅ 0
          ∗ atPos (ER (F := F)) (dcell c 14) 1 ∅ 0
          ∗ atPos (ER (F := F)) (dcell c 15) 1 ∅ 0
          ∗ atPos (ER (F := F)) (dcell c 16) 1 ∅ 0
          ∗ atPos (ER (F := F)) (dcell c 17) 1 ∅ 0
          ∗ atPos (ER (F := F)) (dcell c 18) 1 ∅ 0
          ∗ atPos (ER (F := F)) (dcell c 19) 1 ∅ 0
          ∗ atPos (ER (F := F)) (dcell c 20) 1 ∅ 0
          ∗ atPos (ER (F := F)) (dcell c 21) 1 ∅ 0
          ∗ atPos (ER (F := F)) (dcell c 22) 1 ∅ 0
          ∗ atPos (ER (F := F)) (dcell c 23) 1 ∅ 0
          ∗ atPos (ER (F := F)) (dcell c 24) 1 ∅ 0
          ∗ atPos (ER (F := F)) (dcell c 25) 1 ∅ 0
          ∗ atPos (ER (F := F)) (dcell c 26) 1 ∅ 0
          ∗ atPos (ER (F := F)) (dcell c 27) 1 ∅ 0
          ∗ atPos (ER (F := F)) (dcell c 28) 1 ∅ 0
          ∗ atPos (ER (F := F)) (dcell c 29) 1 ∅ 0
          ∗ atPos (ER (F := F)) (dcell c 30) 1 ∅ 0
          ∗ atPos (ER (F := F)) (dcell c 31) 1 ∅ 0
          ∗ atPos (ER (F := F)) (dcell c 32) 1 ∅ 0
          ∗ atPos (ER (F := F)) (dcell c 33) 1 ∅ 0
          ∗ atPos (ER (F := F)) (dcell c 34) 1 ∅ 0
          ∗ atPos (ER (F := F)) (dcell c 35) 1 ∅ 0
          ∗ atPos (ER (F := F)) (dcell c 36) 1 ∅ 0
          ∗ atPos (ER (F := F)) (dcell c 37) 1 ∅ 0
          ∗ atPos (ER (F := F)) (dcell c 38) 1 ∅ 0
          ∗ atPos (ER (F := F)) (dcell c 39) 1 ∅ 0
          ∗ atPos (ER (F := F)) (dcell c 40) 1 ∅ 0
          ∗ atPos (ER (F := F)) (dcell c 41) 1 ∅ 0
          ∗ atPos (ER (F := F)) (dcell c 42) 1 ∅ 0
          ∗ atPos (ER (F := F)) (dcell c 43) 1 ∅ 0
          ∗ atPos (ER (F := F)) (dcell c 44) 1 ∅ 0
          ∗ atPos (ER (F := F)) (dcell c 45) 1 ∅ 0
          ∗ atPos (ER (F := F)) (dcell c 46) 1 ∅ 0
          ∗ atPos (ER (F := F)) (dcell c 47) 1 ∅ 0
          ∗ atPos (ER (F := F)) (dcell c 48) 1 ∅ 0
          ∗ atPos (ER (F := F)) (dcell c 49) 1 ∅ 0
          ∗ atPos (ER (F := F)) (dcell c 50) 1 ∅ 0
          ∗ atPos (ER (F := F)) (dcell c 51) 1 ∅ 0
          ∗ atPos (ER (F := F)) (dcell c 52) 1 ∅ 0
          ∗ atPos (ER (F := F)) (dcell c 53) 1 ∅ 0
          ∗ atPos (ER (F := F)) (dcell c 54) 1 ∅ 0
          ∗ atPos (ER (F := F)) (dcell c 55) 1 ∅ 0
          ∗ atPos (ER (F := F)) (dcell c 56) 1 ∅ 0
          ∗ atPos (ER (F := F)) (dcell c 57) 1 ∅ 0
          ∗ atPos (ER (F := F)) (dcell c 58) 1 ∅ 0
          ∗ atPos (ER (F := F)) (dcell c 59) 1 ∅ 0
          ∗ atPos (ER (F := F)) (dcell c 60) 1 ∅ 0
          ∗ atPos (ER (F := F)) (dcell c 61) 1 ∅ 0
          ∗ atPos (ER (F := F)) (dcell c 62) 1 ∅ 0
          ∗ atPos (ER (F := F)) (dcell c 63) 1 ∅ 0
          ∗ atPos (ER (F := F)) (dcell c 64) 1 ∅ 0
          ∗ atPos (ER (F := F)) (dcell c 65) 1 ∅ 0
          ∗ atPos (ER (F := F)) (dcell c 66) 1 ∅ 0
          ∗ atPos (ER (F := F)) (dcell c 67) 1 ∅ 0
          ∗ atPos (ER (F := F)) (dcell c 68) 1 ∅ 0
          ∗ atPos (ER (F := F)) (dcell c 69) 1 ∅ 0
          ∗ atPos (ER (F := F)) (dcell c 70) 1 ∅ 0
          ∗ atPos (ER (F := F)) (dcell c 71) 1 ∅ 0
          ∗ atPos (ER (F := F)) (dcell c 72) 1 ∅ 0
          ∗ atPos (ER (F := F)) (dcell c 73) 1 ∅ 0
          ∗ atPos (ER (F := F)) (dcell c 74) 1 ∅ 0
          ∗ atPos (ER (F := F)) (dcell c 75) 1 ∅ 0
          ∗ atPos (ER (F := F)) (dcell c 76) 1 ∅ 0
          ∗ atPos (ER (F := F)) (dcell c 77) 1 ∅ 0
          ∗ atPos (ER (F := F)) (dcell c 78) 1 ∅ 0
          ∗ atPos (ER (F := F)) (dcell c 79) 1 ∅ 0
          ∗ atPos (ER (F := F)) (dcell c 80) 1 ∅ 0
          ∗ atPos (ER (F := F)) (dcell c 81) 1 ∅ 0
          ∗ atPos (ER (F := F)) (dcell c 82) 1 ∅ 0
          ∗ atPos (ER (F := F)) (dcell c 83) 1 ∅ 0
          ∗ atPos (ER (F := F)) (dcell c 84) 1 ∅ 0
          ∗ atPos (ER (F := F)) (dcell c 85) 1 ∅ 0
          ∗ atPos (ER (F := F)) (dcell c 86) 1 ∅ 0
          ∗ atPos (ER (F := F)) (dcell c 87) 1 ∅ 0
          ∗ atPos (ER (F := F)) (dcell c 88) 8 ∅ 0
          ∗ atPos (ER (F := F)) (dcell c 89) 8 ∅ 0))
      ⊢ iprop(|={Set.univ}=> bigSep Finset.univ (fun i : Fin 90 => (semVal (dcell c i.val i.isLt) 0 : sProp 𝕄))) := by
  rw [sems_chain c]
  exact (close_step (close_dma m (K (c, 1)) c 0 (by decide))
    (close_step (close_dma m (K (c, 2)) c 1 (by decide))
    (close_step (close_dma m (K (c, 3)) c 2 (by decide))
    (close_step (close_dma m (K (c, 4)) c 3 (by decide))
    (close_step (close_dma m (K (c, 5)) c 4 (by decide))
    (close_step (close_dma m (K (c, 6)) c 5 (by decide))
    (close_step (close_dma m (K (c, 7)) c 6 (by decide))
    (close_step (close_dma m (K (c, 8)) c 7 (by decide))
    (close_step (close_dma m (K (c, 9)) c 8 (by decide))
    (close_step (close_dma m (K (c, 10)) c 9 (by decide))
    (close_step (close_dma m (K (c, 11)) c 10 (by decide))
    (close_step (close_dma m (K (c, 12)) c 11 (by decide))
    (close_step (close_dma m (K (c, 13)) c 12 (by decide))
    (close_step (close_dma m (K (c, 14)) c 13 (by decide))
    (close_step (close_dma m (K (c, 15)) c 14 (by decide))
    (close_step (close_dma m (K (c, 16)) c 15 (by decide))
    (close_step (close_dma m (K (c, 17)) c 16 (by decide))
    (close_step (close_dma m (K (c, 18)) c 17 (by decide))
    (close_step (close_dma m (K (c, 19)) c 18 (by decide))
    (close_step (close_dma m (K (c, 20)) c 19 (by decide))
    (close_step (close_dma m (K (c, 21)) c 20 (by decide))
    (close_step (close_dma m (K (c, 22)) c 21 (by decide))
    (close_step (close_dma m (K (c, 23)) c 22 (by decide))
    (close_step (close_dma m (K (c, 24)) c 23 (by decide))
    (close_step (close_dma m (K (c, 25)) c 24 (by decide))
    (close_step (close_dma m (K (c, 26)) c 25 (by decide))
    (close_step (close_dma m (K (c, 27)) c 26 (by decide))
    (close_step (close_dma m (K (c, 28)) c 27 (by decide))
    (close_step (close_dma m (K (c, 29)) c 28 (by decide))
    (close_step (close_dma m (K (c, 30)) c 29 (by decide))
    (close_step (close_dma m (K (c, 31)) c 30 (by decide))
    (close_step (close_dma m (K (c, 32)) c 31 (by decide))
    (close_step (close_dma m (K (c, 33)) c 32 (by decide))
    (close_step (close_dma m (K (c, 34)) c 33 (by decide))
    (close_step (close_dma m (K (c, 35)) c 34 (by decide))
    (close_step (close_dma m (K (c, 36)) c 35 (by decide))
    (close_step (close_dma m (K (c, 37)) c 36 (by decide))
    (close_step (close_dma m (K (c, 38)) c 37 (by decide))
    (close_step (close_dma m (K (c, 39)) c 38 (by decide))
    (close_step (close_dma m (K (c, 40)) c 39 (by decide))
    (close_step (close_dma m (K (c, 41)) c 40 (by decide))
    (close_step (close_dma m (K (c, 42)) c 41 (by decide))
    (close_step (close_dma m (K (c, 43)) c 42 (by decide))
    (close_step (close_dma m (K (c, 44)) c 43 (by decide))
    (close_step (close_dma m (K (c, 45)) c 44 (by decide))
    (close_step (close_dma m (K (c, 46)) c 45 (by decide))
    (close_step (close_dma m (K (c, 47)) c 46 (by decide))
    (close_step (close_dma m (K (c, 48)) c 47 (by decide))
    (close_step (close_dma m (K (c, 49)) c 48 (by decide))
    (close_step (close_dma m (K (c, 50)) c 49 (by decide))
    (close_step (close_dma m (K (c, 51)) c 50 (by decide))
    (close_step (close_dma m (K (c, 52)) c 51 (by decide))
    (close_step (close_dma m (K (c, 53)) c 52 (by decide))
    (close_step (close_dma m (K (c, 54)) c 53 (by decide))
    (close_step (close_dma m (K (c, 55)) c 54 (by decide))
    (close_step (close_dma m (K (c, 56)) c 55 (by decide))
    (close_step (close_dma m (K (c, 57)) c 56 (by decide))
    (close_step (close_dma m (K (c, 58)) c 57 (by decide))
    (close_step (close_dma m (K (c, 59)) c 58 (by decide))
    (close_step (close_dma m (K (c, 60)) c 59 (by decide))
    (close_step (close_dma m (K (c, 61)) c 60 (by decide))
    (close_step (close_dma m (K (c, 62)) c 61 (by decide))
    (close_step (close_dma m (K (c, 63)) c 62 (by decide))
    (close_step (close_dma m (K (c, 64)) c 63 (by decide))
    (close_step (close_dma m (K (c, 65)) c 64 (by decide))
    (close_step (close_dma m (K (c, 66)) c 65 (by decide))
    (close_step (close_dma m (K (c, 67)) c 66 (by decide))
    (close_step (close_dma m (K (c, 68)) c 67 (by decide))
    (close_step (close_dma m (K (c, 69)) c 68 (by decide))
    (close_step (close_dma m (K (c, 70)) c 69 (by decide))
    (close_step (close_dma m (K (c, 71)) c 70 (by decide))
    (close_step (close_dma m (K (c, 72)) c 71 (by decide))
    (close_step (close_dma m (K (c, 73)) c 72 (by decide))
    (close_step (close_dma m (K (c, 74)) c 73 (by decide))
    (close_step (close_dma m (K (c, 75)) c 74 (by decide))
    (close_step (close_dma m (K (c, 76)) c 75 (by decide))
    (close_step (close_dma m (K (c, 77)) c 76 (by decide))
    (close_step (close_dma m (K (c, 78)) c 77 (by decide))
    (close_step (close_dma m (K (c, 79)) c 78 (by decide))
    (close_step (close_dma m (K (c, 80)) c 79 (by decide))
    (close_step (close_dma m (K (c, 81)) c 80 (by decide))
    (close_step (close_dma m (K (c, 82)) c 81 (by decide))
    (close_step (close_dma m (K (c, 83)) c 82 (by decide))
    (close_step (close_dma m (K (c, 84)) c 83 (by decide))
    (close_step (close_dma m (K (c, 85)) c 84 (by decide))
    (close_step (close_dma m (K (c, 86)) c 85 (by decide))
    (close_step (close_dma m (K (c, 87)) c 86 (by decide))
    (close_step (close_dma m (K (c, 88)) c 87 (by decide))
    (close_step (close_local m (K (c, 89)) c 0 (by decide))
    (close_local m (K (c, 90)) c 1 (by decide)))))))))))))))))))))))))))))))))))))))))))))))))))))))))))))))))))))))))))))))))))))))))))

/-- info: 'Cert.Kernel.Rules.share_join' depends on axioms: [propext, Classical.choice, Quot.sound] -/
#guard_msgs in #print axioms share_join

/-- info: 'Cert.Kernel.Rules.close_all' depends on axioms: [propext, Classical.choice, Quot.sound] -/
#guard_msgs in #print axioms close_all

end Cert.Kernel.Rules

end
-- ==== Proof.Bits.Proj.lean ====
/-
  The invariants a device's body holds are one separating conjunction of 138 persistent assertions: the device's
  own barrier cell and 90 DMA cells, the barrier cells of its three peers, and the 14 + 14 + 16 arrival cells of
  its peers that it copies into. The conjunction is persistent, and each conjunct follows from it: the conjunct at
  position k is reached by dropping the k conjuncts before it and everything after it.
-/
import proofs.«900727_g7700000000000728_dist_ar_v7x_xyz2x4x4_y_m16384_n1024_f32_1_alg».proof.Proof.Bits.State

set_option maxRecDepth 16384

noncomputable section

namespace Cert.Kernel.State

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option synthInstance.maxSize 8192 in
set_option synthInstance.maxHeartbeats 400000 in
instance invs_persistent (K : Dev nD × Fin 91 → ℕ) (c : Dev nD) : BI.Persistent (State.invs m K c) := by
  unfold State.invs; infer_instance

omit [FloatOps F] in
/-- The left and the right conjunct of a separating conjunction. -/
theorem sepL {P Q : sProp 𝕄} : iprop(P ∗ Q) ⊢ P := Idealize.SL.BI.sep_and.trans Idealize.SL.BI.and_elimL
omit [FloatOps F] in
theorem sepR {P Q : sProp 𝕄} : iprop(P ∗ Q) ⊢ Q := Idealize.SL.BI.sep_and.trans Idealize.SL.BI.and_elimR

theorem inv_bar (K : Dev nD × Fin 91 → ℕ) (c : Dev nD) :
    State.invs m K c ⊢ cellInv (ER (F := F)) (sched m) (K (c, 0)) (barCell c) := by
  unfold State.invs
  exact sepL
theorem inv_own_0 (K : Dev nD × Fin 91 → ℕ) (c : Dev nD) :
    State.invs m K c ⊢ cellInv (ER (F := F)) (sched m) (K (c, 1)) (dcell c 0) := by
  unfold State.invs
  iterate 1 (refine BI.Entails.trans sepR ?_)
  exact sepL
theorem inv_own_1 (K : Dev nD × Fin 91 → ℕ) (c : Dev nD) :
    State.invs m K c ⊢ cellInv (ER (F := F)) (sched m) (K (c, 2)) (dcell c 1) := by
  unfold State.invs
  iterate 2 (refine BI.Entails.trans sepR ?_)
  exact sepL
theorem inv_own_2 (K : Dev nD × Fin 91 → ℕ) (c : Dev nD) :
    State.invs m K c ⊢ cellInv (ER (F := F)) (sched m) (K (c, 3)) (dcell c 2) := by
  unfold State.invs
  iterate 3 (refine BI.Entails.trans sepR ?_)
  exact sepL
theorem inv_own_3 (K : Dev nD × Fin 91 → ℕ) (c : Dev nD) :
    State.invs m K c ⊢ cellInv (ER (F := F)) (sched m) (K (c, 4)) (dcell c 3) := by
  unfold State.invs
  iterate 4 (refine BI.Entails.trans sepR ?_)
  exact sepL
theorem inv_own_4 (K : Dev nD × Fin 91 → ℕ) (c : Dev nD) :
    State.invs m K c ⊢ cellInv (ER (F := F)) (sched m) (K (c, 5)) (dcell c 4) := by
  unfold State.invs
  iterate 5 (refine BI.Entails.trans sepR ?_)
  exact sepL
theorem inv_own_5 (K : Dev nD × Fin 91 → ℕ) (c : Dev nD) :
    State.invs m K c ⊢ cellInv (ER (F := F)) (sched m) (K (c, 6)) (dcell c 5) := by
  unfold State.invs
  iterate 6 (refine BI.Entails.trans sepR ?_)
  exact sepL
theorem inv_own_6 (K : Dev nD × Fin 91 → ℕ) (c : Dev nD) :
    State.invs m K c ⊢ cellInv (ER (F := F)) (sched m) (K (c, 7)) (dcell c 6) := by
  unfold State.invs
  iterate 7 (refine BI.Entails.trans sepR ?_)
  exact sepL
theorem inv_own_7 (K : Dev nD × Fin 91 → ℕ) (c : Dev nD) :
    State.invs m K c ⊢ cellInv (ER (F := F)) (sched m) (K (c, 8)) (dcell c 7) := by
  unfold State.invs
  iterate 8 (refine BI.Entails.trans sepR ?_)
  exact sepL
theorem inv_own_8 (K : Dev nD × Fin 91 → ℕ) (c : Dev nD) :
    State.invs m K c ⊢ cellInv (ER (F := F)) (sched m) (K (c, 9)) (dcell c 8) := by
  unfold State.invs
  iterate 9 (refine BI.Entails.trans sepR ?_)
  exact sepL
theorem inv_own_9 (K : Dev nD × Fin 91 → ℕ) (c : Dev nD) :
    State.invs m K c ⊢ cellInv (ER (F := F)) (sched m) (K (c, 10)) (dcell c 9) := by
  unfold State.invs
  iterate 10 (refine BI.Entails.trans sepR ?_)
  exact sepL
theorem inv_own_10 (K : Dev nD × Fin 91 → ℕ) (c : Dev nD) :
    State.invs m K c ⊢ cellInv (ER (F := F)) (sched m) (K (c, 11)) (dcell c 10) := by
  unfold State.invs
  iterate 11 (refine BI.Entails.trans sepR ?_)
  exact sepL
theorem inv_own_11 (K : Dev nD × Fin 91 → ℕ) (c : Dev nD) :
    State.invs m K c ⊢ cellInv (ER (F := F)) (sched m) (K (c, 12)) (dcell c 11) := by
  unfold State.invs
  iterate 12 (refine BI.Entails.trans sepR ?_)
  exact sepL
theorem inv_own_12 (K : Dev nD × Fin 91 → ℕ) (c : Dev nD) :
    State.invs m K c ⊢ cellInv (ER (F := F)) (sched m) (K (c, 13)) (dcell c 12) := by
  unfold State.invs
  iterate 13 (refine BI.Entails.trans sepR ?_)
  exact sepL
theorem inv_own_13 (K : Dev nD × Fin 91 → ℕ) (c : Dev nD) :
    State.invs m K c ⊢ cellInv (ER (F := F)) (sched m) (K (c, 14)) (dcell c 13) := by
  unfold State.invs
  iterate 14 (refine BI.Entails.trans sepR ?_)
  exact sepL
theorem inv_own_14 (K : Dev nD × Fin 91 → ℕ) (c : Dev nD) :
    State.invs m K c ⊢ cellInv (ER (F := F)) (sched m) (K (c, 15)) (dcell c 14) := by
  unfold State.invs
  iterate 15 (refine BI.Entails.trans sepR ?_)
  exact sepL
theorem inv_own_15 (K : Dev nD × Fin 91 → ℕ) (c : Dev nD) :
    State.invs m K c ⊢ cellInv (ER (F := F)) (sched m) (K (c, 16)) (dcell c 15) := by
  unfold State.invs
  iterate 16 (refine BI.Entails.trans sepR ?_)
  exact sepL
theorem inv_own_16 (K : Dev nD × Fin 91 → ℕ) (c : Dev nD) :
    State.invs m K c ⊢ cellInv (ER (F := F)) (sched m) (K (c, 17)) (dcell c 16) := by
  unfold State.invs
  iterate 17 (refine BI.Entails.trans sepR ?_)
  exact sepL
theorem inv_own_17 (K : Dev nD × Fin 91 → ℕ) (c : Dev nD) :
    State.invs m K c ⊢ cellInv (ER (F := F)) (sched m) (K (c, 18)) (dcell c 17) := by
  unfold State.invs
  iterate 18 (refine BI.Entails.trans sepR ?_)
  exact sepL
theorem inv_own_18 (K : Dev nD × Fin 91 → ℕ) (c : Dev nD) :
    State.invs m K c ⊢ cellInv (ER (F := F)) (sched m) (K (c, 19)) (dcell c 18) := by
  unfold State.invs
  iterate 19 (refine BI.Entails.trans sepR ?_)
  exact sepL
theorem inv_own_19 (K : Dev nD × Fin 91 → ℕ) (c : Dev nD) :
    State.invs m K c ⊢ cellInv (ER (F := F)) (sched m) (K (c, 20)) (dcell c 19) := by
  unfold State.invs
  iterate 20 (refine BI.Entails.trans sepR ?_)
  exact sepL
theorem inv_own_20 (K : Dev nD × Fin 91 → ℕ) (c : Dev nD) :
    State.invs m K c ⊢ cellInv (ER (F := F)) (sched m) (K (c, 21)) (dcell c 20) := by
  unfold State.invs
  iterate 21 (refine BI.Entails.trans sepR ?_)
  exact sepL
theorem inv_own_21 (K : Dev nD × Fin 91 → ℕ) (c : Dev nD) :
    State.invs m K c ⊢ cellInv (ER (F := F)) (sched m) (K (c, 22)) (dcell c 21) := by
  unfold State.invs
  iterate 22 (refine BI.Entails.trans sepR ?_)
  exact sepL
theorem inv_own_22 (K : Dev nD × Fin 91 → ℕ) (c : Dev nD) :
    State.invs m K c ⊢ cellInv (ER (F := F)) (sched m) (K (c, 23)) (dcell c 22) := by
  unfold State.invs
  iterate 23 (refine BI.Entails.trans sepR ?_)
  exact sepL
theorem inv_own_23 (K : Dev nD × Fin 91 → ℕ) (c : Dev nD) :
    State.invs m K c ⊢ cellInv (ER (F := F)) (sched m) (K (c, 24)) (dcell c 23) := by
  unfold State.invs
  iterate 24 (refine BI.Entails.trans sepR ?_)
  exact sepL
theorem inv_own_24 (K : Dev nD × Fin 91 → ℕ) (c : Dev nD) :
    State.invs m K c ⊢ cellInv (ER (F := F)) (sched m) (K (c, 25)) (dcell c 24) := by
  unfold State.invs
  iterate 25 (refine BI.Entails.trans sepR ?_)
  exact sepL
theorem inv_own_25 (K : Dev nD × Fin 91 → ℕ) (c : Dev nD) :
    State.invs m K c ⊢ cellInv (ER (F := F)) (sched m) (K (c, 26)) (dcell c 25) := by
  unfold State.invs
  iterate 26 (refine BI.Entails.trans sepR ?_)
  exact sepL
theorem inv_own_26 (K : Dev nD × Fin 91 → ℕ) (c : Dev nD) :
    State.invs m K c ⊢ cellInv (ER (F := F)) (sched m) (K (c, 27)) (dcell c 26) := by
  unfold State.invs
  iterate 27 (refine BI.Entails.trans sepR ?_)
  exact sepL
theorem inv_own_27 (K : Dev nD × Fin 91 → ℕ) (c : Dev nD) :
    State.invs m K c ⊢ cellInv (ER (F := F)) (sched m) (K (c, 28)) (dcell c 27) := by
  unfold State.invs
  iterate 28 (refine BI.Entails.trans sepR ?_)
  exact sepL
theorem inv_own_28 (K : Dev nD × Fin 91 → ℕ) (c : Dev nD) :
    State.invs m K c ⊢ cellInv (ER (F := F)) (sched m) (K (c, 29)) (dcell c 28) := by
  unfold State.invs
  iterate 29 (refine BI.Entails.trans sepR ?_)
  exact sepL
theorem inv_own_29 (K : Dev nD × Fin 91 → ℕ) (c : Dev nD) :
    State.invs m K c ⊢ cellInv (ER (F := F)) (sched m) (K (c, 30)) (dcell c 29) := by
  unfold State.invs
  iterate 30 (refine BI.Entails.trans sepR ?_)
  exact sepL
theorem inv_own_30 (K : Dev nD × Fin 91 → ℕ) (c : Dev nD) :
    State.invs m K c ⊢ cellInv (ER (F := F)) (sched m) (K (c, 31)) (dcell c 30) := by
  unfold State.invs
  iterate 31 (refine BI.Entails.trans sepR ?_)
  exact sepL
theorem inv_own_31 (K : Dev nD × Fin 91 → ℕ) (c : Dev nD) :
    State.invs m K c ⊢ cellInv (ER (F := F)) (sched m) (K (c, 32)) (dcell c 31) := by
  unfold State.invs
  iterate 32 (refine BI.Entails.trans sepR ?_)
  exact sepL
theorem inv_own_32 (K : Dev nD × Fin 91 → ℕ) (c : Dev nD) :
    State.invs m K c ⊢ cellInv (ER (F := F)) (sched m) (K (c, 33)) (dcell c 32) := by
  unfold State.invs
  iterate 33 (refine BI.Entails.trans sepR ?_)
  exact sepL
theorem inv_own_33 (K : Dev nD × Fin 91 → ℕ) (c : Dev nD) :
    State.invs m K c ⊢ cellInv (ER (F := F)) (sched m) (K (c, 34)) (dcell c 33) := by
  unfold State.invs
  iterate 34 (refine BI.Entails.trans sepR ?_)
  exact sepL
theorem inv_own_34 (K : Dev nD × Fin 91 → ℕ) (c : Dev nD) :
    State.invs m K c ⊢ cellInv (ER (F := F)) (sched m) (K (c, 35)) (dcell c 34) := by
  unfold State.invs
  iterate 35 (refine BI.Entails.trans sepR ?_)
  exact sepL
theorem inv_own_35 (K : Dev nD × Fin 91 → ℕ) (c : Dev nD) :
    State.invs m K c ⊢ cellInv (ER (F := F)) (sched m) (K (c, 36)) (dcell c 35) := by
  unfold State.invs
  iterate 36 (refine BI.Entails.trans sepR ?_)
  exact sepL
theorem inv_own_36 (K : Dev nD × Fin 91 → ℕ) (c : Dev nD) :
    State.invs m K c ⊢ cellInv (ER (F := F)) (sched m) (K (c, 37)) (dcell c 36) := by
  unfold State.invs
  iterate 37 (refine BI.Entails.trans sepR ?_)
  exact sepL
theorem inv_own_37 (K : Dev nD × Fin 91 → ℕ) (c : Dev nD) :
    State.invs m K c ⊢ cellInv (ER (F := F)) (sched m) (K (c, 38)) (dcell c 37) := by
  unfold State.invs
  iterate 38 (refine BI.Entails.trans sepR ?_)
  exact sepL
theorem inv_own_38 (K : Dev nD × Fin 91 → ℕ) (c : Dev nD) :
    State.invs m K c ⊢ cellInv (ER (F := F)) (sched m) (K (c, 39)) (dcell c 38) := by
  unfold State.invs
  iterate 39 (refine BI.Entails.trans sepR ?_)
  exact sepL
theorem inv_own_39 (K : Dev nD × Fin 91 → ℕ) (c : Dev nD) :
    State.invs m K c ⊢ cellInv (ER (F := F)) (sched m) (K (c, 40)) (dcell c 39) := by
  unfold State.invs
  iterate 40 (refine BI.Entails.trans sepR ?_)
  exact sepL
theorem inv_own_40 (K : Dev nD × Fin 91 → ℕ) (c : Dev nD) :
    State.invs m K c ⊢ cellInv (ER (F := F)) (sched m) (K (c, 41)) (dcell c 40) := by
  unfold State.invs
  iterate 41 (refine BI.Entails.trans sepR ?_)
  exact sepL
theorem inv_own_41 (K : Dev nD × Fin 91 → ℕ) (c : Dev nD) :
    State.invs m K c ⊢ cellInv (ER (F := F)) (sched m) (K (c, 42)) (dcell c 41) := by
  unfold State.invs
  iterate 42 (refine BI.Entails.trans sepR ?_)
  exact sepL
theorem inv_own_42 (K : Dev nD × Fin 91 → ℕ) (c : Dev nD) :
    State.invs m K c ⊢ cellInv (ER (F := F)) (sched m) (K (c, 43)) (dcell c 42) := by
  unfold State.invs
  iterate 43 (refine BI.Entails.trans sepR ?_)
  exact sepL
theorem inv_own_43 (K : Dev nD × Fin 91 → ℕ) (c : Dev nD) :
    State.invs m K c ⊢ cellInv (ER (F := F)) (sched m) (K (c, 44)) (dcell c 43) := by
  unfold State.invs
  iterate 44 (refine BI.Entails.trans sepR ?_)
  exact sepL
theorem inv_own_44 (K : Dev nD × Fin 91 → ℕ) (c : Dev nD) :
    State.invs m K c ⊢ cellInv (ER (F := F)) (sched m) (K (c, 45)) (dcell c 44) := by
  unfold State.invs
  iterate 45 (refine BI.Entails.trans sepR ?_)
  exact sepL
theorem inv_own_45 (K : Dev nD × Fin 91 → ℕ) (c : Dev nD) :
    State.invs m K c ⊢ cellInv (ER (F := F)) (sched m) (K (c, 46)) (dcell c 45) := by
  unfold State.invs
  iterate 46 (refine BI.Entails.trans sepR ?_)
  exact sepL
theorem inv_own_46 (K : Dev nD × Fin 91 → ℕ) (c : Dev nD) :
    State.invs m K c ⊢ cellInv (ER (F := F)) (sched m) (K (c, 47)) (dcell c 46) := by
  unfold State.invs
  iterate 47 (refine BI.Entails.trans sepR ?_)
  exact sepL
theorem inv_own_47 (K : Dev nD × Fin 91 → ℕ) (c : Dev nD) :
    State.invs m K c ⊢ cellInv (ER (F := F)) (sched m) (K (c, 48)) (dcell c 47) := by
  unfold State.invs
  iterate 48 (refine BI.Entails.trans sepR ?_)
  exact sepL
theorem inv_own_48 (K : Dev nD × Fin 91 → ℕ) (c : Dev nD) :
    State.invs m K c ⊢ cellInv (ER (F := F)) (sched m) (K (c, 49)) (dcell c 48) := by
  unfold State.invs
  iterate 49 (refine BI.Entails.trans sepR ?_)
  exact sepL
theorem inv_own_49 (K : Dev nD × Fin 91 → ℕ) (c : Dev nD) :
    State.invs m K c ⊢ cellInv (ER (F := F)) (sched m) (K (c, 50)) (dcell c 49) := by
  unfold State.invs
  iterate 50 (refine BI.Entails.trans sepR ?_)
  exact sepL
theorem inv_own_50 (K : Dev nD × Fin 91 → ℕ) (c : Dev nD) :
    State.invs m K c ⊢ cellInv (ER (F := F)) (sched m) (K (c, 51)) (dcell c 50) := by
  unfold State.invs
  iterate 51 (refine BI.Entails.trans sepR ?_)
  exact sepL
theorem inv_own_51 (K : Dev nD × Fin 91 → ℕ) (c : Dev nD) :
    State.invs m K c ⊢ cellInv (ER (F := F)) (sched m) (K (c, 52)) (dcell c 51) := by
  unfold State.invs
  iterate 52 (refine BI.Entails.trans sepR ?_)
  exact sepL
theorem inv_own_52 (K : Dev nD × Fin 91 → ℕ) (c : Dev nD) :
    State.invs m K c ⊢ cellInv (ER (F := F)) (sched m) (K (c, 53)) (dcell c 52) := by
  unfold State.invs
  iterate 53 (refine BI.Entails.trans sepR ?_)
  exact sepL
theorem inv_own_53 (K : Dev nD × Fin 91 → ℕ) (c : Dev nD) :
    State.invs m K c ⊢ cellInv (ER (F := F)) (sched m) (K (c, 54)) (dcell c 53) := by
  unfold State.invs
  iterate 54 (refine BI.Entails.trans sepR ?_)
  exact sepL
theorem inv_own_54 (K : Dev nD × Fin 91 → ℕ) (c : Dev nD) :
    State.invs m K c ⊢ cellInv (ER (F := F)) (sched m) (K (c, 55)) (dcell c 54) := by
  unfold State.invs
  iterate 55 (refine BI.Entails.trans sepR ?_)
  exact sepL
theorem inv_own_55 (K : Dev nD × Fin 91 → ℕ) (c : Dev nD) :
    State.invs m K c ⊢ cellInv (ER (F := F)) (sched m) (K (c, 56)) (dcell c 55) := by
  unfold State.invs
  iterate 56 (refine BI.Entails.trans sepR ?_)
  exact sepL
theorem inv_own_56 (K : Dev nD × Fin 91 → ℕ) (c : Dev nD) :
    State.invs m K c ⊢ cellInv (ER (F := F)) (sched m) (K (c, 57)) (dcell c 56) := by
  unfold State.invs
  iterate 57 (refine BI.Entails.trans sepR ?_)
  exact sepL
theorem inv_own_57 (K : Dev nD × Fin 91 → ℕ) (c : Dev nD) :
    State.invs m K c ⊢ cellInv (ER (F := F)) (sched m) (K (c, 58)) (dcell c 57) := by
  unfold State.invs
  iterate 58 (refine BI.Entails.trans sepR ?_)
  exact sepL
theorem inv_own_58 (K : Dev nD × Fin 91 → ℕ) (c : Dev nD) :
    State.invs m K c ⊢ cellInv (ER (F := F)) (sched m) (K (c, 59)) (dcell c 58) := by
  unfold State.invs
  iterate 59 (refine BI.Entails.trans sepR ?_)
  exact sepL
theorem inv_own_59 (K : Dev nD × Fin 91 → ℕ) (c : Dev nD) :
    State.invs m K c ⊢ cellInv (ER (F := F)) (sched m) (K (c, 60)) (dcell c 59) := by
  unfold State.invs
  iterate 60 (refine BI.Entails.trans sepR ?_)
  exact sepL
theorem inv_own_60 (K : Dev nD × Fin 91 → ℕ) (c : Dev nD) :
    State.invs m K c ⊢ cellInv (ER (F := F)) (sched m) (K (c, 61)) (dcell c 60) := by
  unfold State.invs
  iterate 61 (refine BI.Entails.trans sepR ?_)
  exact sepL
theorem inv_own_61 (K : Dev nD × Fin 91 → ℕ) (c : Dev nD) :
    State.invs m K c ⊢ cellInv (ER (F := F)) (sched m) (K (c, 62)) (dcell c 61) := by
  unfold State.invs
  iterate 62 (refine BI.Entails.trans sepR ?_)
  exact sepL
theorem inv_own_62 (K : Dev nD × Fin 91 → ℕ) (c : Dev nD) :
    State.invs m K c ⊢ cellInv (ER (F := F)) (sched m) (K (c, 63)) (dcell c 62) := by
  unfold State.invs
  iterate 63 (refine BI.Entails.trans sepR ?_)
  exact sepL
theorem inv_own_63 (K : Dev nD × Fin 91 → ℕ) (c : Dev nD) :
    State.invs m K c ⊢ cellInv (ER (F := F)) (sched m) (K (c, 64)) (dcell c 63) := by
  unfold State.invs
  iterate 64 (refine BI.Entails.trans sepR ?_)
  exact sepL
theorem inv_own_64 (K : Dev nD × Fin 91 → ℕ) (c : Dev nD) :
    State.invs m K c ⊢ cellInv (ER (F := F)) (sched m) (K (c, 65)) (dcell c 64) := by
  unfold State.invs
  iterate 65 (refine BI.Entails.trans sepR ?_)
  exact sepL
theorem inv_own_65 (K : Dev nD × Fin 91 → ℕ) (c : Dev nD) :
    State.invs m K c ⊢ cellInv (ER (F := F)) (sched m) (K (c, 66)) (dcell c 65) := by
  unfold State.invs
  iterate 66 (refine BI.Entails.trans sepR ?_)
  exact sepL
theorem inv_own_66 (K : Dev nD × Fin 91 → ℕ) (c : Dev nD) :
    State.invs m K c ⊢ cellInv (ER (F := F)) (sched m) (K (c, 67)) (dcell c 66) := by
  unfold State.invs
  iterate 67 (refine BI.Entails.trans sepR ?_)
  exact sepL
theorem inv_own_67 (K : Dev nD × Fin 91 → ℕ) (c : Dev nD) :
    State.invs m K c ⊢ cellInv (ER (F := F)) (sched m) (K (c, 68)) (dcell c 67) := by
  unfold State.invs
  iterate 68 (refine BI.Entails.trans sepR ?_)
  exact sepL
theorem inv_own_68 (K : Dev nD × Fin 91 → ℕ) (c : Dev nD) :
    State.invs m K c ⊢ cellInv (ER (F := F)) (sched m) (K (c, 69)) (dcell c 68) := by
  unfold State.invs
  iterate 69 (refine BI.Entails.trans sepR ?_)
  exact sepL
theorem inv_own_69 (K : Dev nD × Fin 91 → ℕ) (c : Dev nD) :
    State.invs m K c ⊢ cellInv (ER (F := F)) (sched m) (K (c, 70)) (dcell c 69) := by
  unfold State.invs
  iterate 70 (refine BI.Entails.trans sepR ?_)
  exact sepL
theorem inv_own_70 (K : Dev nD × Fin 91 → ℕ) (c : Dev nD) :
    State.invs m K c ⊢ cellInv (ER (F := F)) (sched m) (K (c, 71)) (dcell c 70) := by
  unfold State.invs
  iterate 71 (refine BI.Entails.trans sepR ?_)
  exact sepL
theorem inv_own_71 (K : Dev nD × Fin 91 → ℕ) (c : Dev nD) :
    State.invs m K c ⊢ cellInv (ER (F := F)) (sched m) (K (c, 72)) (dcell c 71) := by
  unfold State.invs
  iterate 72 (refine BI.Entails.trans sepR ?_)
  exact sepL
theorem inv_own_72 (K : Dev nD × Fin 91 → ℕ) (c : Dev nD) :
    State.invs m K c ⊢ cellInv (ER (F := F)) (sched m) (K (c, 73)) (dcell c 72) := by
  unfold State.invs
  iterate 73 (refine BI.Entails.trans sepR ?_)
  exact sepL
theorem inv_own_73 (K : Dev nD × Fin 91 → ℕ) (c : Dev nD) :
    State.invs m K c ⊢ cellInv (ER (F := F)) (sched m) (K (c, 74)) (dcell c 73) := by
  unfold State.invs
  iterate 74 (refine BI.Entails.trans sepR ?_)
  exact sepL
theorem inv_own_74 (K : Dev nD × Fin 91 → ℕ) (c : Dev nD) :
    State.invs m K c ⊢ cellInv (ER (F := F)) (sched m) (K (c, 75)) (dcell c 74) := by
  unfold State.invs
  iterate 75 (refine BI.Entails.trans sepR ?_)
  exact sepL
theorem inv_own_75 (K : Dev nD × Fin 91 → ℕ) (c : Dev nD) :
    State.invs m K c ⊢ cellInv (ER (F := F)) (sched m) (K (c, 76)) (dcell c 75) := by
  unfold State.invs
  iterate 76 (refine BI.Entails.trans sepR ?_)
  exact sepL
theorem inv_own_76 (K : Dev nD × Fin 91 → ℕ) (c : Dev nD) :
    State.invs m K c ⊢ cellInv (ER (F := F)) (sched m) (K (c, 77)) (dcell c 76) := by
  unfold State.invs
  iterate 77 (refine BI.Entails.trans sepR ?_)
  exact sepL
theorem inv_own_77 (K : Dev nD × Fin 91 → ℕ) (c : Dev nD) :
    State.invs m K c ⊢ cellInv (ER (F := F)) (sched m) (K (c, 78)) (dcell c 77) := by
  unfold State.invs
  iterate 78 (refine BI.Entails.trans sepR ?_)
  exact sepL
theorem inv_own_78 (K : Dev nD × Fin 91 → ℕ) (c : Dev nD) :
    State.invs m K c ⊢ cellInv (ER (F := F)) (sched m) (K (c, 79)) (dcell c 78) := by
  unfold State.invs
  iterate 79 (refine BI.Entails.trans sepR ?_)
  exact sepL
theorem inv_own_79 (K : Dev nD × Fin 91 → ℕ) (c : Dev nD) :
    State.invs m K c ⊢ cellInv (ER (F := F)) (sched m) (K (c, 80)) (dcell c 79) := by
  unfold State.invs
  iterate 80 (refine BI.Entails.trans sepR ?_)
  exact sepL
theorem inv_own_80 (K : Dev nD × Fin 91 → ℕ) (c : Dev nD) :
    State.invs m K c ⊢ cellInv (ER (F := F)) (sched m) (K (c, 81)) (dcell c 80) := by
  unfold State.invs
  iterate 81 (refine BI.Entails.trans sepR ?_)
  exact sepL
theorem inv_own_81 (K : Dev nD × Fin 91 → ℕ) (c : Dev nD) :
    State.invs m K c ⊢ cellInv (ER (F := F)) (sched m) (K (c, 82)) (dcell c 81) := by
  unfold State.invs
  iterate 82 (refine BI.Entails.trans sepR ?_)
  exact sepL
theorem inv_own_82 (K : Dev nD × Fin 91 → ℕ) (c : Dev nD) :
    State.invs m K c ⊢ cellInv (ER (F := F)) (sched m) (K (c, 83)) (dcell c 82) := by
  unfold State.invs
  iterate 83 (refine BI.Entails.trans sepR ?_)
  exact sepL
theorem inv_own_83 (K : Dev nD × Fin 91 → ℕ) (c : Dev nD) :
    State.invs m K c ⊢ cellInv (ER (F := F)) (sched m) (K (c, 84)) (dcell c 83) := by
  unfold State.invs
  iterate 84 (refine BI.Entails.trans sepR ?_)
  exact sepL
theorem inv_own_84 (K : Dev nD × Fin 91 → ℕ) (c : Dev nD) :
    State.invs m K c ⊢ cellInv (ER (F := F)) (sched m) (K (c, 85)) (dcell c 84) := by
  unfold State.invs
  iterate 85 (refine BI.Entails.trans sepR ?_)
  exact sepL
theorem inv_own_85 (K : Dev nD × Fin 91 → ℕ) (c : Dev nD) :
    State.invs m K c ⊢ cellInv (ER (F := F)) (sched m) (K (c, 86)) (dcell c 85) := by
  unfold State.invs
  iterate 86 (refine BI.Entails.trans sepR ?_)
  exact sepL
theorem inv_own_86 (K : Dev nD × Fin 91 → ℕ) (c : Dev nD) :
    State.invs m K c ⊢ cellInv (ER (F := F)) (sched m) (K (c, 87)) (dcell c 86) := by
  unfold State.invs
  iterate 87 (refine BI.Entails.trans sepR ?_)
  exact sepL
theorem inv_own_87 (K : Dev nD × Fin 91 → ℕ) (c : Dev nD) :
    State.invs m K c ⊢ cellInv (ER (F := F)) (sched m) (K (c, 88)) (dcell c 87) := by
  unfold State.invs
  iterate 88 (refine BI.Entails.trans sepR ?_)
  exact sepL
theorem inv_own_88 (K : Dev nD × Fin 91 → ℕ) (c : Dev nD) :
    State.invs m K c ⊢ cellInv (ER (F := F)) (sched m) (K (c, 89)) (dcell c 88) := by
  unfold State.invs
  iterate 89 (refine BI.Entails.trans sepR ?_)
  exact sepL
theorem inv_own_89 (K : Dev nD × Fin 91 → ℕ) (c : Dev nD) :
    State.invs m K c ⊢ cellInv (ER (F := F)) (sched m) (K (c, 90)) (dcell c 89) := by
  unfold State.invs
  iterate 90 (refine BI.Entails.trans sepR ?_)
  exact sepL
theorem inv_bar_succ (K : Dev nD × Fin 91 → ℕ) (c : Dev nD) :
    State.invs m K c ⊢ cellInv (ER (F := F)) (sched m) (K ((succD c), 0)) (barCell (succD c)) := by
  unfold State.invs
  iterate 91 (refine BI.Entails.trans sepR ?_)
  exact sepL
theorem inv_bar_pred (K : Dev nD × Fin 91 → ℕ) (c : Dev nD) :
    State.invs m K c ⊢ cellInv (ER (F := F)) (sched m) (K ((predD c), 0)) (barCell (predD c)) := by
  unfold State.invs
  iterate 92 (refine BI.Entails.trans sepR ?_)
  exact sepL
theorem inv_bar_part (K : Dev nD × Fin 91 → ℕ) (c : Dev nD) :
    State.invs m K c ⊢ cellInv (ER (F := F)) (sched m) (K ((partD c), 0)) (barCell (partD c)) := by
  unfold State.invs
  iterate 93 (refine BI.Entails.trans sepR ?_)
  exact sepL
theorem inv_succ_0 (K : Dev nD × Fin 91 → ℕ) (c : Dev nD) :
    State.invs m K c ⊢ cellInv (ER (F := F)) (sched m) (K ((succD c), 29)) (dcell (succD c) 28) := by
  unfold State.invs
  iterate 94 (refine BI.Entails.trans sepR ?_)
  exact sepL
theorem inv_succ_1 (K : Dev nD × Fin 91 → ℕ) (c : Dev nD) :
    State.invs m K c ⊢ cellInv (ER (F := F)) (sched m) (K ((succD c), 30)) (dcell (succD c) 29) := by
  unfold State.invs
  iterate 95 (refine BI.Entails.trans sepR ?_)
  exact sepL
theorem inv_succ_2 (K : Dev nD × Fin 91 → ℕ) (c : Dev nD) :
    State.invs m K c ⊢ cellInv (ER (F := F)) (sched m) (K ((succD c), 31)) (dcell (succD c) 30) := by
  unfold State.invs
  iterate 96 (refine BI.Entails.trans sepR ?_)
  exact sepL
theorem inv_succ_3 (K : Dev nD × Fin 91 → ℕ) (c : Dev nD) :
    State.invs m K c ⊢ cellInv (ER (F := F)) (sched m) (K ((succD c), 32)) (dcell (succD c) 31) := by
  unfold State.invs
  iterate 97 (refine BI.Entails.trans sepR ?_)
  exact sepL
theorem inv_succ_4 (K : Dev nD × Fin 91 → ℕ) (c : Dev nD) :
    State.invs m K c ⊢ cellInv (ER (F := F)) (sched m) (K ((succD c), 33)) (dcell (succD c) 32) := by
  unfold State.invs
  iterate 98 (refine BI.Entails.trans sepR ?_)
  exact sepL
theorem inv_succ_5 (K : Dev nD × Fin 91 → ℕ) (c : Dev nD) :
    State.invs m K c ⊢ cellInv (ER (F := F)) (sched m) (K ((succD c), 34)) (dcell (succD c) 33) := by
  unfold State.invs
  iterate 99 (refine BI.Entails.trans sepR ?_)
  exact sepL
theorem inv_succ_6 (K : Dev nD × Fin 91 → ℕ) (c : Dev nD) :
    State.invs m K c ⊢ cellInv (ER (F := F)) (sched m) (K ((succD c), 35)) (dcell (succD c) 34) := by
  unfold State.invs
  iterate 100 (refine BI.Entails.trans sepR ?_)
  exact sepL
theorem inv_succ_7 (K : Dev nD × Fin 91 → ℕ) (c : Dev nD) :
    State.invs m K c ⊢ cellInv (ER (F := F)) (sched m) (K ((succD c), 36)) (dcell (succD c) 35) := by
  unfold State.invs
  iterate 101 (refine BI.Entails.trans sepR ?_)
  exact sepL
theorem inv_succ_8 (K : Dev nD × Fin 91 → ℕ) (c : Dev nD) :
    State.invs m K c ⊢ cellInv (ER (F := F)) (sched m) (K ((succD c), 37)) (dcell (succD c) 36) := by
  unfold State.invs
  iterate 102 (refine BI.Entails.trans sepR ?_)
  exact sepL
theorem inv_succ_9 (K : Dev nD × Fin 91 → ℕ) (c : Dev nD) :
    State.invs m K c ⊢ cellInv (ER (F := F)) (sched m) (K ((succD c), 38)) (dcell (succD c) 37) := by
  unfold State.invs
  iterate 103 (refine BI.Entails.trans sepR ?_)
  exact sepL
theorem inv_succ_10 (K : Dev nD × Fin 91 → ℕ) (c : Dev nD) :
    State.invs m K c ⊢ cellInv (ER (F := F)) (sched m) (K ((succD c), 39)) (dcell (succD c) 38) := by
  unfold State.invs
  iterate 104 (refine BI.Entails.trans sepR ?_)
  exact sepL
theorem inv_succ_11 (K : Dev nD × Fin 91 → ℕ) (c : Dev nD) :
    State.invs m K c ⊢ cellInv (ER (F := F)) (sched m) (K ((succD c), 40)) (dcell (succD c) 39) := by
  unfold State.invs
  iterate 105 (refine BI.Entails.trans sepR ?_)
  exact sepL
theorem inv_succ_12 (K : Dev nD × Fin 91 → ℕ) (c : Dev nD) :
    State.invs m K c ⊢ cellInv (ER (F := F)) (sched m) (K ((succD c), 41)) (dcell (succD c) 40) := by
  unfold State.invs
  iterate 106 (refine BI.Entails.trans sepR ?_)
  exact sepL
theorem inv_succ_13 (K : Dev nD × Fin 91 → ℕ) (c : Dev nD) :
    State.invs m K c ⊢ cellInv (ER (F := F)) (sched m) (K ((succD c), 42)) (dcell (succD c) 41) := by
  unfold State.invs
  iterate 107 (refine BI.Entails.trans sepR ?_)
  exact sepL
theorem inv_pred_0 (K : Dev nD × Fin 91 → ℕ) (c : Dev nD) :
    State.invs m K c ⊢ cellInv (ER (F := F)) (sched m) (K ((predD c), 43)) (dcell (predD c) 42) := by
  unfold State.invs
  iterate 108 (refine BI.Entails.trans sepR ?_)
  exact sepL
theorem inv_pred_1 (K : Dev nD × Fin 91 → ℕ) (c : Dev nD) :
    State.invs m K c ⊢ cellInv (ER (F := F)) (sched m) (K ((predD c), 44)) (dcell (predD c) 43) := by
  unfold State.invs
  iterate 109 (refine BI.Entails.trans sepR ?_)
  exact sepL
theorem inv_pred_2 (K : Dev nD × Fin 91 → ℕ) (c : Dev nD) :
    State.invs m K c ⊢ cellInv (ER (F := F)) (sched m) (K ((predD c), 45)) (dcell (predD c) 44) := by
  unfold State.invs
  iterate 110 (refine BI.Entails.trans sepR ?_)
  exact sepL
theorem inv_pred_3 (K : Dev nD × Fin 91 → ℕ) (c : Dev nD) :
    State.invs m K c ⊢ cellInv (ER (F := F)) (sched m) (K ((predD c), 46)) (dcell (predD c) 45) := by
  unfold State.invs
  iterate 111 (refine BI.Entails.trans sepR ?_)
  exact sepL
theorem inv_pred_4 (K : Dev nD × Fin 91 → ℕ) (c : Dev nD) :
    State.invs m K c ⊢ cellInv (ER (F := F)) (sched m) (K ((predD c), 47)) (dcell (predD c) 46) := by
  unfold State.invs
  iterate 112 (refine BI.Entails.trans sepR ?_)
  exact sepL
theorem inv_pred_5 (K : Dev nD × Fin 91 → ℕ) (c : Dev nD) :
    State.invs m K c ⊢ cellInv (ER (F := F)) (sched m) (K ((predD c), 48)) (dcell (predD c) 47) := by
  unfold State.invs
  iterate 113 (refine BI.Entails.trans sepR ?_)
  exact sepL
theorem inv_pred_6 (K : Dev nD × Fin 91 → ℕ) (c : Dev nD) :
    State.invs m K c ⊢ cellInv (ER (F := F)) (sched m) (K ((predD c), 49)) (dcell (predD c) 48) := by
  unfold State.invs
  iterate 114 (refine BI.Entails.trans sepR ?_)
  exact sepL
theorem inv_pred_7 (K : Dev nD × Fin 91 → ℕ) (c : Dev nD) :
    State.invs m K c ⊢ cellInv (ER (F := F)) (sched m) (K ((predD c), 50)) (dcell (predD c) 49) := by
  unfold State.invs
  iterate 115 (refine BI.Entails.trans sepR ?_)
  exact sepL
theorem inv_pred_8 (K : Dev nD × Fin 91 → ℕ) (c : Dev nD) :
    State.invs m K c ⊢ cellInv (ER (F := F)) (sched m) (K ((predD c), 51)) (dcell (predD c) 50) := by
  unfold State.invs
  iterate 116 (refine BI.Entails.trans sepR ?_)
  exact sepL
theorem inv_pred_9 (K : Dev nD × Fin 91 → ℕ) (c : Dev nD) :
    State.invs m K c ⊢ cellInv (ER (F := F)) (sched m) (K ((predD c), 52)) (dcell (predD c) 51) := by
  unfold State.invs
  iterate 117 (refine BI.Entails.trans sepR ?_)
  exact sepL
theorem inv_pred_10 (K : Dev nD × Fin 91 → ℕ) (c : Dev nD) :
    State.invs m K c ⊢ cellInv (ER (F := F)) (sched m) (K ((predD c), 53)) (dcell (predD c) 52) := by
  unfold State.invs
  iterate 118 (refine BI.Entails.trans sepR ?_)
  exact sepL
theorem inv_pred_11 (K : Dev nD × Fin 91 → ℕ) (c : Dev nD) :
    State.invs m K c ⊢ cellInv (ER (F := F)) (sched m) (K ((predD c), 54)) (dcell (predD c) 53) := by
  unfold State.invs
  iterate 119 (refine BI.Entails.trans sepR ?_)
  exact sepL
theorem inv_pred_12 (K : Dev nD × Fin 91 → ℕ) (c : Dev nD) :
    State.invs m K c ⊢ cellInv (ER (F := F)) (sched m) (K ((predD c), 55)) (dcell (predD c) 54) := by
  unfold State.invs
  iterate 120 (refine BI.Entails.trans sepR ?_)
  exact sepL
theorem inv_pred_13 (K : Dev nD × Fin 91 → ℕ) (c : Dev nD) :
    State.invs m K c ⊢ cellInv (ER (F := F)) (sched m) (K ((predD c), 56)) (dcell (predD c) 55) := by
  unfold State.invs
  iterate 121 (refine BI.Entails.trans sepR ?_)
  exact sepL
theorem inv_part_0 (K : Dev nD × Fin 91 → ℕ) (c : Dev nD) :
    State.invs m K c ⊢ cellInv (ER (F := F)) (sched m) (K ((partD c), 73)) (dcell (partD c) 72) := by
  unfold State.invs
  iterate 122 (refine BI.Entails.trans sepR ?_)
  exact sepL
theorem inv_part_1 (K : Dev nD × Fin 91 → ℕ) (c : Dev nD) :
    State.invs m K c ⊢ cellInv (ER (F := F)) (sched m) (K ((partD c), 74)) (dcell (partD c) 73) := by
  unfold State.invs
  iterate 123 (refine BI.Entails.trans sepR ?_)
  exact sepL
theorem inv_part_2 (K : Dev nD × Fin 91 → ℕ) (c : Dev nD) :
    State.invs m K c ⊢ cellInv (ER (F := F)) (sched m) (K ((partD c), 75)) (dcell (partD c) 74) := by
  unfold State.invs
  iterate 124 (refine BI.Entails.trans sepR ?_)
  exact sepL
theorem inv_part_3 (K : Dev nD × Fin 91 → ℕ) (c : Dev nD) :
    State.invs m K c ⊢ cellInv (ER (F := F)) (sched m) (K ((partD c), 76)) (dcell (partD c) 75) := by
  unfold State.invs
  iterate 125 (refine BI.Entails.trans sepR ?_)
  exact sepL
theorem inv_part_4 (K : Dev nD × Fin 91 → ℕ) (c : Dev nD) :
    State.invs m K c ⊢ cellInv (ER (F := F)) (sched m) (K ((partD c), 77)) (dcell (partD c) 76) := by
  unfold State.invs
  iterate 126 (refine BI.Entails.trans sepR ?_)
  exact sepL
theorem inv_part_5 (K : Dev nD × Fin 91 → ℕ) (c : Dev nD) :
    State.invs m K c ⊢ cellInv (ER (F := F)) (sched m) (K ((partD c), 78)) (dcell (partD c) 77) := by
  unfold State.invs
  iterate 127 (refine BI.Entails.trans sepR ?_)
  exact sepL
theorem inv_part_6 (K : Dev nD × Fin 91 → ℕ) (c : Dev nD) :
    State.invs m K c ⊢ cellInv (ER (F := F)) (sched m) (K ((partD c), 79)) (dcell (partD c) 78) := by
  unfold State.invs
  iterate 128 (refine BI.Entails.trans sepR ?_)
  exact sepL
theorem inv_part_7 (K : Dev nD × Fin 91 → ℕ) (c : Dev nD) :
    State.invs m K c ⊢ cellInv (ER (F := F)) (sched m) (K ((partD c), 80)) (dcell (partD c) 79) := by
  unfold State.invs
  iterate 129 (refine BI.Entails.trans sepR ?_)
  exact sepL
theorem inv_part_8 (K : Dev nD × Fin 91 → ℕ) (c : Dev nD) :
    State.invs m K c ⊢ cellInv (ER (F := F)) (sched m) (K ((partD c), 81)) (dcell (partD c) 80) := by
  unfold State.invs
  iterate 130 (refine BI.Entails.trans sepR ?_)
  exact sepL
theorem inv_part_9 (K : Dev nD × Fin 91 → ℕ) (c : Dev nD) :
    State.invs m K c ⊢ cellInv (ER (F := F)) (sched m) (K ((partD c), 82)) (dcell (partD c) 81) := by
  unfold State.invs
  iterate 131 (refine BI.Entails.trans sepR ?_)
  exact sepL
theorem inv_part_10 (K : Dev nD × Fin 91 → ℕ) (c : Dev nD) :
    State.invs m K c ⊢ cellInv (ER (F := F)) (sched m) (K ((partD c), 83)) (dcell (partD c) 82) := by
  unfold State.invs
  iterate 132 (refine BI.Entails.trans sepR ?_)
  exact sepL
theorem inv_part_11 (K : Dev nD × Fin 91 → ℕ) (c : Dev nD) :
    State.invs m K c ⊢ cellInv (ER (F := F)) (sched m) (K ((partD c), 84)) (dcell (partD c) 83) := by
  unfold State.invs
  iterate 133 (refine BI.Entails.trans sepR ?_)
  exact sepL
theorem inv_part_12 (K : Dev nD × Fin 91 → ℕ) (c : Dev nD) :
    State.invs m K c ⊢ cellInv (ER (F := F)) (sched m) (K ((partD c), 85)) (dcell (partD c) 84) := by
  unfold State.invs
  iterate 134 (refine BI.Entails.trans sepR ?_)
  exact sepL
theorem inv_part_13 (K : Dev nD × Fin 91 → ℕ) (c : Dev nD) :
    State.invs m K c ⊢ cellInv (ER (F := F)) (sched m) (K ((partD c), 86)) (dcell (partD c) 85) := by
  unfold State.invs
  iterate 135 (refine BI.Entails.trans sepR ?_)
  exact sepL
theorem inv_part_14 (K : Dev nD × Fin 91 → ℕ) (c : Dev nD) :
    State.invs m K c ⊢ cellInv (ER (F := F)) (sched m) (K ((partD c), 87)) (dcell (partD c) 86) := by
  unfold State.invs
  iterate 136 (refine BI.Entails.trans sepR ?_)
  exact sepL
theorem inv_part_15 (K : Dev nD × Fin 91 → ℕ) (c : Dev nD) :
    State.invs m K c ⊢ cellInv (ER (F := F)) (sched m) (K ((partD c), 88)) (dcell (partD c) 87) := by
  unfold State.invs
  iterate 137 (refine BI.Entails.trans sepR ?_)
  exact BI.Entails.refl _

/-- info: 'Cert.Kernel.State.inv_part_15' depends on axioms: [propext, Classical.choice, Quot.sound] -/
#guard_msgs in #print axioms inv_part_15

end Cert.Kernel.State

end
-- ==== Proof.Bits.ProjOwn.lean ====
/-
  The invariants of a device's own ninety DMA cells, as one right-nested separating conjunction in index order, follow
  from the conjunction of all the invariants its body holds: that conjunction is the barrier cell's invariant, then
  exactly these ninety, then those of the peers' cells; drop the first conjunct, keep the next ninety, drop the rest.
-/
import proofs.«900727_g7700000000000728_dist_ar_v7x_xyz2x4x4_y_m16384_n1024_f32_1_alg».proof.Proof.Bits.Proj

set_option maxRecDepth 16384

noncomputable section

namespace Cert.Kernel.State

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- A conjunct kept while the rest is weakened. -/
theorem sepKeep {P Q Q' : sProp 𝕄} (h : Q ⊢ Q') : iprop(P ∗ Q) ⊢ iprop(P ∗ Q') := Idealize.SL.BI.sep_mono (BI.Entails.refl _) h

/-- The invariants of the device's own ninety DMA cells out of all the invariants its body holds. -/
theorem invs_own_chain (K : Dev nD × Fin 91 → ℕ) (c : Dev nD) :
    State.invs m K c ⊢ iprop(cellInv (ER (F := F)) (sched m) (K (c, 1)) (dcell c 0)
          ∗ cellInv (ER (F := F)) (sched m) (K (c, 2)) (dcell c 1)
          ∗ cellInv (ER (F := F)) (sched m) (K (c, 3)) (dcell c 2)
          ∗ cellInv (ER (F := F)) (sched m) (K (c, 4)) (dcell c 3)
          ∗ cellInv (ER (F := F)) (sched m) (K (c, 5)) (dcell c 4)
          ∗ cellInv (ER (F := F)) (sched m) (K (c, 6)) (dcell c 5)
          ∗ cellInv (ER (F := F)) (sched m) (K (c, 7)) (dcell c 6)
          ∗ cellInv (ER (F := F)) (sched m) (K (c, 8)) (dcell c 7)
          ∗ cellInv (ER (F := F)) (sched m) (K (c, 9)) (dcell c 8)
          ∗ cellInv (ER (F := F)) (sched m) (K (c, 10)) (dcell c 9)
          ∗ cellInv (ER (F := F)) (sched m) (K (c, 11)) (dcell c 10)
          ∗ cellInv (ER (F := F)) (sched m) (K (c, 12)) (dcell c 11)
          ∗ cellInv (ER (F := F)) (sched m) (K (c, 13)) (dcell c 12)
          ∗ cellInv (ER (F := F)) (sched m) (K (c, 14)) (dcell c 13)
          ∗ cellInv (ER (F := F)) (sched m) (K (c, 15)) (dcell c 14)
          ∗ cellInv (ER (F := F)) (sched m) (K (c, 16)) (dcell c 15)
          ∗ cellInv (ER (F := F)) (sched m) (K (c, 17)) (dcell c 16)
          ∗ cellInv (ER (F := F)) (sched m) (K (c, 18)) (dcell c 17)
          ∗ cellInv (ER (F := F)) (sched m) (K (c, 19)) (dcell c 18)
          ∗ cellInv (ER (F := F)) (sched m) (K (c, 20)) (dcell c 19)
          ∗ cellInv (ER (F := F)) (sched m) (K (c, 21)) (dcell c 20)
          ∗ cellInv (ER (F := F)) (sched m) (K (c, 22)) (dcell c 21)
          ∗ cellInv (ER (F := F)) (sched m) (K (c, 23)) (dcell c 22)
          ∗ cellInv (ER (F := F)) (sched m) (K (c, 24)) (dcell c 23)
          ∗ cellInv (ER (F := F)) (sched m) (K (c, 25)) (dcell c 24)
          ∗ cellInv (ER (F := F)) (sched m) (K (c, 26)) (dcell c 25)
          ∗ cellInv (ER (F := F)) (sched m) (K (c, 27)) (dcell c 26)
          ∗ cellInv (ER (F := F)) (sched m) (K (c, 28)) (dcell c 27)
          ∗ cellInv (ER (F := F)) (sched m) (K (c, 29)) (dcell c 28)
          ∗ cellInv (ER (F := F)) (sched m) (K (c, 30)) (dcell c 29)
          ∗ cellInv (ER (F := F)) (sched m) (K (c, 31)) (dcell c 30)
          ∗ cellInv (ER (F := F)) (sched m) (K (c, 32)) (dcell c 31)
          ∗ cellInv (ER (F := F)) (sched m) (K (c, 33)) (dcell c 32)
          ∗ cellInv (ER (F := F)) (sched m) (K (c, 34)) (dcell c 33)
          ∗ cellInv (ER (F := F)) (sched m) (K (c, 35)) (dcell c 34)
          ∗ cellInv (ER (F := F)) (sched m) (K (c, 36)) (dcell c 35)
          ∗ cellInv (ER (F := F)) (sched m) (K (c, 37)) (dcell c 36)
          ∗ cellInv (ER (F := F)) (sched m) (K (c, 38)) (dcell c 37)
          ∗ cellInv (ER (F := F)) (sched m) (K (c, 39)) (dcell c 38)
          ∗ cellInv (ER (F := F)) (sched m) (K (c, 40)) (dcell c 39)
          ∗ cellInv (ER (F := F)) (sched m) (K (c, 41)) (dcell c 40)
          ∗ cellInv (ER (F := F)) (sched m) (K (c, 42)) (dcell c 41)
          ∗ cellInv (ER (F := F)) (sched m) (K (c, 43)) (dcell c 42)
          ∗ cellInv (ER (F := F)) (sched m) (K (c, 44)) (dcell c 43)
          ∗ cellInv (ER (F := F)) (sched m) (K (c, 45)) (dcell c 44)
          ∗ cellInv (ER (F := F)) (sched m) (K (c, 46)) (dcell c 45)
          ∗ cellInv (ER (F := F)) (sched m) (K (c, 47)) (dcell c 46)
          ∗ cellInv (ER (F := F)) (sched m) (K (c, 48)) (dcell c 47)
          ∗ cellInv (ER (F := F)) (sched m) (K (c, 49)) (dcell c 48)
          ∗ cellInv (ER (F := F)) (sched m) (K (c, 50)) (dcell c 49)
          ∗ cellInv (ER (F := F)) (sched m) (K (c, 51)) (dcell c 50)
          ∗ cellInv (ER (F := F)) (sched m) (K (c, 52)) (dcell c 51)
          ∗ cellInv (ER (F := F)) (sched m) (K (c, 53)) (dcell c 52)
          ∗ cellInv (ER (F := F)) (sched m) (K (c, 54)) (dcell c 53)
          ∗ cellInv (ER (F := F)) (sched m) (K (c, 55)) (dcell c 54)
          ∗ cellInv (ER (F := F)) (sched m) (K (c, 56)) (dcell c 55)
          ∗ cellInv (ER (F := F)) (sched m) (K (c, 57)) (dcell c 56)
          ∗ cellInv (ER (F := F)) (sched m) (K (c, 58)) (dcell c 57)
          ∗ cellInv (ER (F := F)) (sched m) (K (c, 59)) (dcell c 58)
          ∗ cellInv (ER (F := F)) (sched m) (K (c, 60)) (dcell c 59)
          ∗ cellInv (ER (F := F)) (sched m) (K (c, 61)) (dcell c 60)
          ∗ cellInv (ER (F := F)) (sched m) (K (c, 62)) (dcell c 61)
          ∗ cellInv (ER (F := F)) (sched m) (K (c, 63)) (dcell c 62)
          ∗ cellInv (ER (F := F)) (sched m) (K (c, 64)) (dcell c 63)
          ∗ cellInv (ER (F := F)) (sched m) (K (c, 65)) (dcell c 64)
          ∗ cellInv (ER (F := F)) (sched m) (K (c, 66)) (dcell c 65)
          ∗ cellInv (ER (F := F)) (sched m) (K (c, 67)) (dcell c 66)
          ∗ cellInv (ER (F := F)) (sched m) (K (c, 68)) (dcell c 67)
          ∗ cellInv (ER (F := F)) (sched m) (K (c, 69)) (dcell c 68)
          ∗ cellInv (ER (F := F)) (sched m) (K (c, 70)) (dcell c 69)
          ∗ cellInv (ER (F := F)) (sched m) (K (c, 71)) (dcell c 70)
          ∗ cellInv (ER (F := F)) (sched m) (K (c, 72)) (dcell c 71)
          ∗ cellInv (ER (F := F)) (sched m) (K (c, 73)) (dcell c 72)
          ∗ cellInv (ER (F := F)) (sched m) (K (c, 74)) (dcell c 73)
          ∗ cellInv (ER (F := F)) (sched m) (K (c, 75)) (dcell c 74)
          ∗ cellInv (ER (F := F)) (sched m) (K (c, 76)) (dcell c 75)
          ∗ cellInv (ER (F := F)) (sched m) (K (c, 77)) (dcell c 76)
          ∗ cellInv (ER (F := F)) (sched m) (K (c, 78)) (dcell c 77)
          ∗ cellInv (ER (F := F)) (sched m) (K (c, 79)) (dcell c 78)
          ∗ cellInv (ER (F := F)) (sched m) (K (c, 80)) (dcell c 79)
          ∗ cellInv (ER (F := F)) (sched m) (K (c, 81)) (dcell c 80)
          ∗ cellInv (ER (F := F)) (sched m) (K (c, 82)) (dcell c 81)
          ∗ cellInv (ER (F := F)) (sched m) (K (c, 83)) (dcell c 82)
          ∗ cellInv (ER (F := F)) (sched m) (K (c, 84)) (dcell c 83)
          ∗ cellInv (ER (F := F)) (sched m) (K (c, 85)) (dcell c 84)
          ∗ cellInv (ER (F := F)) (sched m) (K (c, 86)) (dcell c 85)
          ∗ cellInv (ER (F := F)) (sched m) (K (c, 87)) (dcell c 86)
          ∗ cellInv (ER (F := F)) (sched m) (K (c, 88)) (dcell c 87)
          ∗ cellInv (ER (F := F)) (sched m) (K (c, 89)) (dcell c 88)
          ∗ cellInv (ER (F := F)) (sched m) (K (c, 90)) (dcell c 89)) := by
  unfold State.invs
  refine BI.Entails.trans sepR ?_
  iterate 89 (refine sepKeep ?_)
  exact sepL

/-- info: 'Cert.Kernel.State.invs_own_chain' depends on axioms: [propext, Classical.choice, Quot.sound] -/
#guard_msgs in #print axioms invs_own_chain

end Cert.Kernel.State

end
-- ==== Proof.Bits.BodyWrap.lean ====
/-
  The body of the one region in the form the pipeline's loop asks for it. A device's body, shown to run from the
  ghost state, the credit, the level facts, what the device owes and its four buffers to the end state and no debt,
  is the loop's obligation at its single point: the start state is opened into these parts, and the end state is
  handed back with what the device still owes, which is nothing.
-/
import proofs.«900727_g7700000000000728_dist_ar_v7x_xyz2x4x4_y_m16384_n1024_f32_1_alg».proof.Proof.Bits.Launch

set_option maxRecDepth 16384

noncomputable section

namespace Cert.Kernel.Launch

open Cert.Kernel Cert.Kernel.Gen Cert.Kernel.Ring Cert.Kernel.Cells Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The loop's obligation on every device from the body's triple: before the point the loop holds Φ₀ and what the
    device owes at launch; after it Φ₁ and no debt. There is no staged window, so nothing else changes hands. -/
theorem body_obligation_of (m : (ℓ : Loc nD τ sig) → Buf (Elt F) ℓ) (ρ : Dev nD → PrngReg)
    (hb : ∀ (K : Dev nD × Fin 91 → ℕ) (c : Dev nD) (W : Waits sig Unit) (fo : Buf (Elt F) ((c : Thread nD τ).loc main_v1))
        (fc : Buf (Elt F) ((c : Thread nD τ).loc cc0_scratch0)) (fs : Buf (Elt F) ((c : Thread nD τ).loc cc0_scratch1)) (Kt : PUnit → sProp 𝕄),
      iprop(State.ghost m K c ∗ State.creds (F := F) c ∗ levAts State.L State.lv ∗ owes (c : Thread nD τ) (State.O₀ c) W ∗ bufs0 m c fo fc fs
          ∗ ((Φ₁ m c ∗ (∃ W', owes (c : Thread nD τ) 0 W')) -∗ Kt ⟨⟩))
        ⊢ wp frame (wpE (defs₀ (F := F)) Variants.none c none) Set.univ (bodyAt0 (F := F) t0_0) Kt) :
    ∀ c : Dev nD, BodyObligation (dats (F := F) m ρ 0 c) (defs₀ (F := F)) Variants.none () Set.univ := fun c t => by
  rw [fin_N0 t]
  show iprop(Φ₀ m c ∗ (dats m ρ 0 c).owesAt () t0_0.castSucc ∗ bigSep (Finset.univ : Finset (Fin 0)) _)
    ⊢ wp frame (wpE (defs₀ (F := F)) Variants.none c none) Set.univ (bodyAt0 (F := F) t0_0)
        (fun _ => iprop(Φ₁ m c ∗ (dats m ρ 0 c).owesAt () t0_0.succ ∗ bigSep (Finset.univ : Finset (Fin 0)) _))
  unfold Φ₀ start
  iintro ⟨⟨⟨⟨%K, Hg⟩, Hcr, Hlev, Hx, ⟨%fo, Ho⟩⟩, ⟨%fc, Hc⟩, ⟨%fs, Hs⟩⟩, ⟨%W, %hW, HO⟩, -⟩
  iapply (hb K c W fo fc fs _)
  isplitl [Hg]; · iexact Hg
  isplitl [Hcr]; · iexact Hcr
  isplitl [Hlev]; · iexact Hlev
  isplitl [HO]; · iexact HO
  isplitl [Hx Ho Hc Hs]
  · unfold bufs0
    isplitl [Hx]; · iexact Hx
    isplitl [Ho]; · iexact Ho
    isplitl [Hc]; · iexact Hc
    iexact Hs
  iintro ⟨H1, ⟨%W', HO'⟩⟩
  isplitl [H1]; · iexact H1
  isplitl [HO']
  · iexists W'
    isplitr; · ipureintro; exact fun _ _ => Or.inl trivial
    iexact HO'
  rw [Finset.univ_eq_empty, bigSep_empty]
  iempintro

/-- info: 'Cert.Kernel.Launch.body_obligation_of' depends on axioms: [propext, Classical.choice, Quot.sound] -/
#guard_msgs in #print axioms body_obligation_of

end Cert.Kernel.Launch

end
-- ==== Proof.Bits.Body.lean ====
/-
  One device's body, run from the device's own invariant.
  The device first tells its three peers (ring successor, ring predecessor, pair partner) that it has entered, handing each the
  regions of its exchange buffer and of its result array that the peer will write into, and waits for the same from them.
  Then, in each of the two directions of the ring, seven times: it sends on what it holds of the travelling chunk (its own chunk
  the first time), copies its own share of the next chunk into the staging buffer, waits for both, and adds: the first time the
  sum is halved, afterwards the own share is halved before it is added. After seven steps it holds, in each direction, half the
  sum of one chunk over the eight devices of the ring, which is the sum of that chunk over the four blocks. It writes the two
  finished chunks into its result array, sends them to its partner, and then seven times passes round the ring the chunk it has
  just received, forwarding each to the partner as it arrives. Last it waits for every departure and every arrival of the pair.
  Every region of the result array is written exactly once, by a copy whose arrival the device waits for before it reads it, and
  every region ends at the reduced contents; the argument array is only read.
-/
import proofs.«900727_g7700000000000728_dist_ar_v7x_xyz2x4x4_y_m16384_n1024_f32_1_alg».proof.Proof.Bits.State
import proofs.«900727_g7700000000000728_dist_ar_v7x_xyz2x4x4_y_m16384_n1024_f32_1_alg».proof.Proof.Bits.Canon
import proofs.«900727_g7700000000000728_dist_ar_v7x_xyz2x4x4_y_m16384_n1024_f32_1_alg».proof.Proof.Bits.RingFacts
import proofs.«900727_g7700000000000728_dist_ar_v7x_xyz2x4x4_y_m16384_n1024_f32_1_alg».proof.Proof.Bits.Tables
import proofs.«900727_g7700000000000728_dist_ar_v7x_xyz2x4x4_y_m16384_n1024_f32_1_alg».proof.Proof.Bits.Levels
import proofs.«900727_g7700000000000728_dist_ar_v7x_xyz2x4x4_y_m16384_n1024_f32_1_alg».proof.Proof.Bits.Spell
import proofs.«900727_g7700000000000728_dist_ar_v7x_xyz2x4x4_y_m16384_n1024_f32_1_alg».proof.Proof.Bits.ValLemmas
import proofs.«900727_g7700000000000728_dist_ar_v7x_xyz2x4x4_y_m16384_n1024_f32_1_alg».proof.Proof.Bits.UpdLemmas
import proofs.«900727_g7700000000000728_dist_ar_v7x_xyz2x4x4_y_m16384_n1024_f32_1_alg».proof.Proof.Bits.RulesRing
import proofs.«900727_g7700000000000728_dist_ar_v7x_xyz2x4x4_y_m16384_n1024_f32_1_alg».proof.Proof.Bits.RulesPair
import proofs.«900727_g7700000000000728_dist_ar_v7x_xyz2x4x4_y_m16384_n1024_f32_1_alg».proof.Proof.Bits.RulesLocal
import proofs.«900727_g7700000000000728_dist_ar_v7x_xyz2x4x4_y_m16384_n1024_f32_1_alg».proof.Proof.Bits.RulesSync
import proofs.«900727_g7700000000000728_dist_ar_v7x_xyz2x4x4_y_m16384_n1024_f32_1_alg».proof.Proof.Bits.Epilogue
import proofs.«900727_g7700000000000728_dist_ar_v7x_xyz2x4x4_y_m16384_n1024_f32_1_alg».proof.Proof.Bits.Proj
import proofs.«900727_g7700000000000728_dist_ar_v7x_xyz2x4x4_y_m16384_n1024_f32_1_alg».proof.Proof.Bits.ProjOwn
import proofs.«900727_g7700000000000728_dist_ar_v7x_xyz2x4x4_y_m16384_n1024_f32_1_alg».proof.Proof.Bits.Launch
import proofs.«900727_g7700000000000728_dist_ar_v7x_xyz2x4x4_y_m16384_n1024_f32_1_alg».proof.Proof.Bits.BodyWrap

set_option maxRecDepth 16384

noncomputable section
namespace Cert.Kernel.Body
open Cert.Kernel Cert.Kernel.Gen Cert.Kernel.Ring Cert.Kernel.Cells Cert.Kernel.Vals Cert.Kernel.Sched Cert.Kernel.State Cert.Kernel.Spell Cert.Kernel.Rules Cert.Kernel.Launch
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Two views of the argument array at equal offsets are one region. -/
theorem rpts_xCh_congr (c' : Dev nD) (off off' : Fin 2 → ℕ) (h : ∀ a, off a + S512x1024.size a ≤ S16384x1024.size a) (h' : ∀ a, off' a + S512x1024.size a ≤ S16384x1024.size a)
    (e : off = off') (q : PosShare TreeShare) (f : Buf (Elt F) ((c' : Thread nD τ).loc main_arg0)) :
    (rpts c' (xCh off h) q f : sProp 𝕄) = rpts c' (xCh off' h') q f := by subst e; rfl

set_option maxHeartbeats 0 in
/-- The body of device c from its ghost state, its credit, what it owes and its four buffers whole: it ends with the argument
    array as it was, the result array at the reduced contents, the two scratch buffers whole, its ninety DMA semaphores back at
    zero and nothing owed. -/
theorem sound_body (K : Dev nD × Fin 91 → ℕ) (c : Dev nD) (W : Waits sig Unit)
    (fo : Buf (Elt F) ((c : Thread nD τ).loc main_v1)) (fc : Buf (Elt F) ((c : Thread nD τ).loc cc0_scratch0)) (fs : Buf (Elt F) ((c : Thread nD τ).loc cc0_scratch1))
    (Kt : PUnit → sProp 𝕄) :
    iprop(State.ghost m K c ∗ State.creds (F := F) c ∗ levAts State.L State.lv ∗ owes (c : Thread nD τ) (State.O₀ c) W ∗ bufs0 m c fo fc fs
        ∗ ((Φ₁ m c ∗ (∃ W', owes (c : Thread nD τ) 0 W')) -∗ Kt ⟨⟩))
      ⊢ wp frame (wpE (defs₀ (F := F)) Variants.none c none) Set.univ (bodyAt0 (F := F) t0_0) Kt := by
  unfold State.ghost poss reach toks creds bufs0
  iintro ⟨⟨#HI, ⟨P0, P1, P2, P3, P4, P5, P6, P7, P8, P9, P10, P11, P12, P13, P14, P15, P16, P17, P18, P19, P20, P21, P22, P23, P24, P25, P26, P27, P28, P29, P30, P31, P32, P33, P34, P35, P36, P37, P38, P39, P40, P41, P42, P43, P44, P45, P46, P47, P48, P49, P50, P51, P52, P53, P54, P55, P56, P57, P58, P59, P60, P61, P62, P63, P64, P65, P66, P67, P68, P69, P70, P71, P72, P73, P74, P75, P76, P77, P78, P79, P80, P81, P82, P83, P84, P85, P86, P87, P88, P89, P90⟩, ⟨#R0, #R1, #R2, #R3, #R4, #R5, #R6, #R7, #R8, #R9, #R10, #R11, #R12, #R13, #R14, #R15, #R16, #R17, #R18, #R19, #R20, #R21, #R22, #R23, #R24, #R25, #R26, #R27, #R28, #R29, #R30, #R31, #R32, #R33, #R34, #R35, #R36, #R37, #R38, #R39, #R40, #R41, #R42, #R43, #R44, #R45, #R46, #R47, #R48, #R49, #R50, #R51, #R52, #R53, #R54, #R55, #R56, #R57, #R58, #R59, #R60, #R61, #R62, #R63, #R64, #R65, #R66, #R67, #R68, #R69, #R70, #R71, #R72, #R73, #R74, #R75, #R76, #R77, #R78, #R79, #R80, #R81, #R82, #R83, #R84, #R85, #R86, #R87, #R88, #R89, #R90, #R91, #R92⟩, ⟨T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59, T60, T61, T62, T63, T64, T65, T66, T67, T68, T69, T70, T71, T72, T73, T74, T75, T76, T77, T78, T79, T80, T81, T82, T83, T84, T85, T86, T87, T88, T89, T90, T91, T92, T93, T94, T95, T96, T97, T98, T99, T100, T101, T102, T103, T104, T105, T106⟩⟩, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44⟩, #Hlev, HO, ⟨Hx, Hout, Hcomm, Hstage⟩, HK⟩
  ihave Hx' := (Entails.of_eq (x_spelled (F := F) c fullShare (X m c))) $$ Hx
  icases Hx' with ⟨X0, X1, X2, X3, X4, X5, X6, X7, X8, X9, X10, X11, X12, X13, X14, X15, X16, X17, X18, X19, X20, X21, X22, X23, X24, X25, X26, X27, X28, X29, X30, X31⟩
  ihave Hout' := (Entails.of_eq (out_spelled (F := F) c fullShare fo)) $$ Hout
  icases Hout' with ⟨O0, O1, O2, O3, O4, O5, O6, O7, O8, O9, O10, O11, O12, O13, O14, O15, O16, O17, O18, O19, O20, O21, O22, O23, O24, O25, O26, O27, O28, O29, O30, O31⟩
  ihave Hcomm' := (Entails.of_eq (comm_spelled (F := F) c fullShare fc)) $$ Hcomm
  icases Hcomm' with ⟨M0, M1, M2, M3, M4, M5, M6, M7, M8, M9, M10, M11, M12, M13⟩
  ihave Hstage' := (Entails.of_eq (stage_spelled (F := F) c fullShare fs)) $$ Hstage
  icases Hstage' with ⟨S0, S1⟩
  have h_mayWait_bar := mayWait_bar (F := F) c
  have h_mayWait_rs0_0 := mayWait_rs0_0 (F := F) c
  have h_mayWait_rs1_0 := mayWait_rs1_0 (F := F) c
  have h_mayWait_loc0_0 := mayWait_loc0_0 (F := F) c
  have h_mayWait_loc1_0 := mayWait_loc1_0 (F := F) c
  have h_mayWait_rs0_1 := mayWait_rs0_1 (F := F) c
  have h_mayWait_rs1_1 := mayWait_rs1_1 (F := F) c
  have h_mayWait_loc0_1 := mayWait_loc0_1 (F := F) c
  have h_mayWait_loc1_1 := mayWait_loc1_1 (F := F) c
  have h_mayWait_rs0_2 := mayWait_rs0_2 (F := F) c
  have h_mayWait_rs1_2 := mayWait_rs1_2 (F := F) c
  have h_mayWait_loc0_2 := mayWait_loc0_2 (F := F) c
  have h_mayWait_loc1_2 := mayWait_loc1_2 (F := F) c
  have h_mayWait_rs0_3 := mayWait_rs0_3 (F := F) c
  have h_mayWait_rs1_3 := mayWait_rs1_3 (F := F) c
  have h_mayWait_loc0_3 := mayWait_loc0_3 (F := F) c
  have h_mayWait_loc1_3 := mayWait_loc1_3 (F := F) c
  have h_mayWait_rs0_4 := mayWait_rs0_4 (F := F) c
  have h_mayWait_rs1_4 := mayWait_rs1_4 (F := F) c
  have h_mayWait_loc0_4 := mayWait_loc0_4 (F := F) c
  have h_mayWait_loc1_4 := mayWait_loc1_4 (F := F) c
  have h_mayWait_rs0_5 := mayWait_rs0_5 (F := F) c
  have h_mayWait_rs1_5 := mayWait_rs1_5 (F := F) c
  have h_mayWait_loc0_5 := mayWait_loc0_5 (F := F) c
  have h_mayWait_loc1_5 := mayWait_loc1_5 (F := F) c
  have h_mayWait_rs0_6 := mayWait_rs0_6 (F := F) c
  have h_mayWait_rs1_6 := mayWait_rs1_6 (F := F) c
  have h_mayWait_loc0_6 := mayWait_loc0_6 (F := F) c
  have h_mayWait_loc1_6 := mayWait_loc1_6 (F := F) c
  have h_mayWait_loc0_7 := mayWait_loc0_7 (F := F) c
  have h_mayWait_loc1_7 := mayWait_loc1_7 (F := F) c
  have h_mayWait_ag0_0 := mayWait_ag0_0 (F := F) c
  have h_mayWait_ag1_0 := mayWait_ag1_0 (F := F) c
  have h_mayWait_ag0_1 := mayWait_ag0_1 (F := F) c
  have h_mayWait_ag1_1 := mayWait_ag1_1 (F := F) c
  have h_mayWait_ag0_2 := mayWait_ag0_2 (F := F) c
  have h_mayWait_ag1_2 := mayWait_ag1_2 (F := F) c
  have h_mayWait_ag0_3 := mayWait_ag0_3 (F := F) c
  have h_mayWait_ag1_3 := mayWait_ag1_3 (F := F) c
  have h_mayWait_ag0_4 := mayWait_ag0_4 (F := F) c
  have h_mayWait_ag1_4 := mayWait_ag1_4 (F := F) c
  have h_mayWait_ag0_5 := mayWait_ag0_5 (F := F) c
  have h_mayWait_ag1_5 := mayWait_ag1_5 (F := F) c
  have h_mayWait_ag0_6 := mayWait_ag0_6 (F := F) c
  have h_mayWait_ag1_6 := mayWait_ag1_6 (F := F) c
  unfold bodyAt0
  unfold rpts
  sl_exec_parts
  iapply (signal_succ m K c (succD c) rfl (owed_1 c) W) $$ [HO T0 M7 M8 M9 M10 M11 M12 M13 O9 O10 O11 O12 O13 O14 O15]
  · isplitr; · iapply (State.inv_bar_succ m K c); iexact HI
    isplitl [HO]; · iexact HO
    isplitl [T0]; · iexact T0
    isplitl [M7 M8 M9 M10 M11 M12 M13 O9 O10 O11 O12 O13 O14 O15]
    · unfold give1 rsome
      isplitl [M7]; · iexists _; iexact M7
      isplitl [M8]; · iexists _; iexact M8
      isplitl [M9]; · iexists _; iexact M9
      isplitl [M10]; · iexists _; iexact M10
      isplitl [M11]; · iexists _; iexact M11
      isplitl [M12]; · iexists _; iexact M12
      isplitl [M13]; · iexists _; iexact M13
      isplitl [O9]; · iexists _; iexact O9
      isplitl [O10]; · iexists _; iexact O10
      isplitl [O11]; · iexists _; iexact O11
      isplitl [O12]; · iexists _; iexact O12
      isplitl [O13]; · iexists _; iexact O13
      isplitl [O14]; · iexists _; iexact O14
      isplitl [O15]; · iexists _; iexact O15
      isplitr; · iexact R45
      isplitr; · iexact R46
      isplitr; · iexact R47
      isplitr; · iexact R48
      isplitr; · iexact R49
      isplitr; · iexact R50
      isplitr; · iexact R51
      isplitr; · iexact R52
      isplitr; · iexact R53
      isplitr; · iexact R54
      isplitr; · iexact R55
      isplitr; · iexact R56
      isplitr; · iexact R57
      iexact R58
    iexact R0
  iintro HO
  sl_exec_parts
  iapply (signal_pred m K c (predD c) rfl (owed_2 c) W) $$ [HO T1 M0 M1 M2 M3 M4 M5 M6 O1 O2 O3 O4 O5 O6 O7]
  · isplitr; · iapply (State.inv_bar_pred m K c); iexact HI
    isplitl [HO]; · iexact HO
    isplitl [T1]; · iexact T1
    isplitl [M0 M1 M2 M3 M4 M5 M6 O1 O2 O3 O4 O5 O6 O7]
    · unfold give0 rsome
      isplitl [M0]; · iexists _; iexact M0
      isplitl [M1]; · iexists _; iexact M1
      isplitl [M2]; · iexists _; iexact M2
      isplitl [M3]; · iexists _; iexact M3
      isplitl [M4]; · iexists _; iexact M4
      isplitl [M5]; · iexists _; iexact M5
      isplitl [M6]; · iexists _; iexact M6
      isplitl [O1]; · iexists _; iexact O1
      isplitl [O2]; · iexists _; iexact O2
      isplitl [O3]; · iexists _; iexact O3
      isplitl [O4]; · iexists _; iexact O4
      isplitl [O5]; · iexists _; iexact O5
      isplitl [O6]; · iexists _; iexact O6
      isplitl [O7]; · iexists _; iexact O7
      isplitr; · iexact R31
      isplitr; · iexact R32
      isplitr; · iexact R33
      isplitr; · iexact R34
      isplitr; · iexact R35
      isplitr; · iexact R36
      isplitr; · iexact R37
      isplitr; · iexact R38
      isplitr; · iexact R39
      isplitr; · iexact R40
      isplitr; · iexact R41
      isplitr; · iexact R42
      isplitr; · iexact R43
      iexact R44
    iexact R1
  iintro HO
  sl_exec_parts
  iapply (signal_part m K c (partD c) rfl (owed_3 c) W) $$ [HO T2 O16 O17 O18 O19 O20 O21 O22 O23 O24 O25 O26 O27 O28 O29 O30 O31]
  · isplitr; · iapply (State.inv_bar_part m K c); iexact HI
    isplitl [HO]; · iexact HO
    isplitl [T2]; · iexact T2
    isplitl [O16 O17 O18 O19 O20 O21 O22 O23 O24 O25 O26 O27 O28 O29 O30 O31]
    · unfold giveZ rsome
      isplitl [O16]; · iexists _; iexact O16
      isplitl [O17]; · iexists _; iexact O17
      isplitl [O18]; · iexists _; iexact O18
      isplitl [O19]; · iexists _; iexact O19
      isplitl [O20]; · iexists _; iexact O20
      isplitl [O21]; · iexists _; iexact O21
      isplitl [O22]; · iexists _; iexact O22
      isplitl [O23]; · iexists _; iexact O23
      isplitl [O24]; · iexists _; iexact O24
      isplitl [O25]; · iexists _; iexact O25
      isplitl [O26]; · iexists _; iexact O26
      isplitl [O27]; · iexists _; iexact O27
      isplitl [O28]; · iexists _; iexact O28
      isplitl [O29]; · iexists _; iexact O29
      isplitl [O30]; · iexists _; iexact O30
      isplitl [O31]; · iexists _; iexact O31
      isplitr; · iexact R75
      isplitr; · iexact R76
      isplitr; · iexact R77
      isplitr; · iexact R78
      isplitr; · iexact R79
      isplitr; · iexact R80
      isplitr; · iexact R81
      isplitr; · iexact R82
      isplitr; · iexact R83
      isplitr; · iexact R84
      isplitr; · iexact R85
      isplitr; · iexact R86
      isplitr; · iexact R87
      isplitr; · iexact R88
      isplitr; · iexact R89
      iexact R90
    iexact R2
  iintro HO
  sl_exec_parts
  iapply (wait_bar m K c (owed_3 c) W) $$ [C0 HO P0]
  · isplitr; · iapply (State.inv_bar m K c); iexact HI
    isplitl [C0]; · iexact C0
    isplitl [HO]; · iexact HO
    isplitr; · iapply h_mayWait_bar; iexact Hlev
    iexact P0
  iintro ⟨HO, P0, #Rb1, Hg1, Hg0, HgZ⟩
  unfold give1 give0 giveZ rsome
  icases Hg1 with ⟨⟨%fp0, AP0⟩, ⟨%fp1, AP1⟩, ⟨%fp2, AP2⟩, ⟨%fp3, AP3⟩, ⟨%fp4, AP4⟩, ⟨%fp5, AP5⟩, ⟨%fp6, AP6⟩, ⟨%fp7, AP7⟩, ⟨%fp8, AP8⟩, ⟨%fp9, AP9⟩, ⟨%fp10, AP10⟩, ⟨%fp11, AP11⟩, ⟨%fp12, AP12⟩, ⟨%fp13, AP13⟩, #rp0, #rp1, #rp2, #rp3, #rp4, #rp5, #rp6, #rp7, #rp8, #rp9, #rp10, #rp11, #rp12, #rp13⟩
  icases Hg0 with ⟨⟨%fs0, AS0⟩, ⟨%fs1, AS1⟩, ⟨%fs2, AS2⟩, ⟨%fs3, AS3⟩, ⟨%fs4, AS4⟩, ⟨%fs5, AS5⟩, ⟨%fs6, AS6⟩, ⟨%fs7, AS7⟩, ⟨%fs8, AS8⟩, ⟨%fs9, AS9⟩, ⟨%fs10, AS10⟩, ⟨%fs11, AS11⟩, ⟨%fs12, AS12⟩, ⟨%fs13, AS13⟩, #rs0, #rs1, #rs2, #rs3, #rs4, #rs5, #rs6, #rs7, #rs8, #rs9, #rs10, #rs11, #rs12, #rs13⟩
  icases HgZ with ⟨⟨%fz0, AZ0⟩, ⟨%fz1, AZ1⟩, ⟨%fz2, AZ2⟩, ⟨%fz3, AZ3⟩, ⟨%fz4, AZ4⟩, ⟨%fz5, AZ5⟩, ⟨%fz6, AZ6⟩, ⟨%fz7, AZ7⟩, ⟨%fz8, AZ8⟩, ⟨%fz9, AZ9⟩, ⟨%fz10, AZ10⟩, ⟨%fz11, AZ11⟩, ⟨%fz12, AZ12⟩, ⟨%fz13, AZ13⟩, ⟨%fz14, AZ14⟩, ⟨%fz15, AZ15⟩, #rz0, #rz1, #rz2, #rz3, #rz4, #rz5, #rz6, #rz7, #rz8, #rz9, #rz10, #rz11, #rz12, #rz13, #rz14, #rz15⟩
  ihave X1 := (Entails.of_eq (rpts_xCh_congr (F := F) c (k0_off2 c 0#32 0#32) (k0_off1 c 0#32) (k0_off2_inb c 14) (k0_off1_inb c 0) ((off2_0_0 c).trans (off1_0 c).symm) fullShare (X m c))) $$ X1
  ihave X9 := (Entails.of_eq (rpts_xCh_congr (F := F) c (k0_off2 c 4096#32 0#32) (k0_off1 c 4096#32) (k0_off2_inb c 15) (k0_off1_inb c 1) ((off2_1_0 c).trans (off1_1 c).symm) fullShare (X m c))) $$ X9
  ihave X0 := (Entails.of_eq (rpts_xCh_congr (F := F) c (k0_off3 c 0#32 1#32) (k0_off2 c 0#32 7#32) (k0_off3_inb c 0) (k0_off2_inb c 12) ((off3_0 c).trans (off2_0_7 c).symm) fullShare (X m c))) $$ X0
  ihave X8 := (Entails.of_eq (rpts_xCh_congr (F := F) c (k0_off3 c 4096#32 4294967295#32) (k0_off2 c 4096#32 4294967289#32) (k0_off3_inb c 1) (k0_off2_inb c 13) ((off3_1 c).trans (off2_1_7 c).symm) fullShare (X m c))) $$ X8
  sl_exec_parts
  iapply (send_first_0 m K c ⟨k0_dev4 c, k0_dev4_lt c⟩ (dev4_eq c) fs0 (owed_4 c) (insert (SemLoc.reg barS, ()) W)) $$ [X1 AS0 HO T47 T3]
  · isplitr; · iapply (State.inv_own_0 m K c); iexact HI
    isplitr; · iapply (State.inv_succ_0 m K c); iexact HI
    isplitl [X1]; · iexact X1
    isplitl [AS0]; · iexact AS0
    isplitl [HO]; · iexact HO
    isplitl [T47]; · iexact T47
    isplitr; · iexact R3
    isplitl [T3]; · iexact T3
    iexact rs0
  iintro ⟨Cs0, HO⟩
  sl_exec_parts
  iapply (copy_stage_0 m K c 0 (by decide) _) $$ [X2 S0 T91]
  · isplitr; · iapply (State.inv_own_88 m K c); iexact HI
    isplitl [X2]; · iexact X2
    isplitl [S0]; · iexact S0
    isplitl [T91]; · iexact T91
    iexact R91
  iintro CL0
  sl_exec_parts
  iapply (send_first_1 m K c ⟨k0_dev5 c, k0_dev5_lt c⟩ (dev5_eq c) fp0 (owed_5 c) (insert (SemLoc.reg barS, ()) W)) $$ [X9 AP0 HO T61 T17]
  · isplitr; · iapply (State.inv_own_14 m K c); iexact HI
    isplitr; · iapply (State.inv_pred_0 m K c); iexact HI
    isplitl [X9]; · iexact X9
    isplitl [AP0]; · iexact AP0
    isplitl [HO]; · iexact HO
    isplitl [T61]; · iexact T61
    isplitr; · iexact R17
    isplitl [T17]; · iexact T17
    iexact rp0
  iintro ⟨Cs14, HO⟩
  sl_exec_parts
  iapply (copy_stage_1 m K c 0 (by decide) _) $$ [X10 S1 T99]
  · isplitr; · iapply (State.inv_own_89 m K c); iexact HI
    isplitl [X10]; · iexact X10
    isplitl [S1]; · iexact S1
    isplitl [T99]; · iexact T99
    iexact R92
  iintro CL1
  sl_exec_parts
  iapply (wait_dma m K c 28 (by decide) (owed_5 c) (insert (SemLoc.reg barS, ()) W)) $$ [C1 HO P29]
  · isplitr; · iapply (State.inv_own_28 m K c); iexact HI
    isplitl [C1]; · iexact C1
    isplitl [HO]; · iexact HO
    isplitr; · iapply h_mayWait_rs0_0; iexact Hlev
    iexact P29
  iintro ⟨HO, P29, -, MI0_0⟩
  ihave MI0_0 := (Entails.of_eq (show (dmaPay m c 28 0 : sProp 𝕄) = rpts c (cSl 0 0 inb_S2x7x512x1024_S1x1x512x1024_0_0_0_0) fullShare (CommIn m c) from rfl)) $$ MI0_0
  sl_exec_parts
  iapply (wait_local m K c 0 (by decide) 0 (by decide) (owed_5 c) (insert (SemLoc.dma (dsem 28), ()) (insert (SemLoc.reg barS, ()) W))) $$ [CL0 HO P89]
  · isplitr; · iapply (State.inv_own_88 m K c); iexact HI
    isplitl [CL0]; · iexact CL0
    isplitl [HO]; · iexact HO
    isplitr; · iapply h_mayWait_loc0_0; iexact Hlev
    iexact P89
  iintro ⟨HO, P89, #RL0_1, Hp⟩
  ihave Hp := (Entails.of_eq (show (dmaPay m c (88 + 0) 0 : sProp 𝕄) = iprop(rpts c (sSl 0 inb_S2x512x1024_S1x512x1024_0_0_0) fullShare (StageAt m c 0) ∗ rpts c (xCh (k0_off2 c 0#32 1#32) (k0_off2_inb c 0)) fullShare (X m c)) from rfl)) $$ Hp
  icases Hp with ⟨S0, X2⟩
  sl_exec_parts
  unfold sound_body.sl.MI0_0_w1
  ihave MA0_0 := (upd_first_run m c 0 (by decide) k0_pay1 pay1_eq) $$ MI0_0
  iapply (wait_dma m K c 42 (by decide) (owed_5 c) (insert (SemLoc.dma (dsem 88), ()) (insert (SemLoc.dma (dsem 28), ()) (insert (SemLoc.reg barS, ()) W)))) $$ [C15 HO P43]
  · isplitr; · iapply (State.inv_own_42 m K c); iexact HI
    isplitl [C15]; · iexact C15
    isplitl [HO]; · iexact HO
    isplitr; · iapply h_mayWait_rs1_0; iexact Hlev
    iexact P43
  iintro ⟨HO, P43, -, MI1_0⟩
  ihave MI1_0 := (Entails.of_eq (show (dmaPay m c 42 0 : sProp 𝕄) = rpts c (cSl 1 0 inb_S2x7x512x1024_S1x1x512x1024_1_0_0_0) fullShare (CommIn m c) from rfl)) $$ MI1_0
  sl_exec_parts
  iapply (wait_local m K c 1 (by decide) 0 (by decide) (owed_5 c) (insert (SemLoc.dma (dsem 42), ()) (insert (SemLoc.dma (dsem 88), ()) (insert (SemLoc.dma (dsem 28), ()) (insert (SemLoc.reg barS, ()) W))))) $$ [CL1 HO P90]
  · isplitr; · iapply (State.inv_own_89 m K c); iexact HI
    isplitl [CL1]; · iexact CL1
    isplitl [HO]; · iexact HO
    isplitr; · iapply h_mayWait_loc1_0; iexact Hlev
    iexact P90
  iintro ⟨HO, P90, #RL1_1, Hp⟩
  ihave Hp := (Entails.of_eq (show (dmaPay m c (88 + 1) 0 : sProp 𝕄) = iprop(rpts c (sSl 1 inb_S2x512x1024_S1x512x1024_1_0_0) fullShare (StageAt m c 0) ∗ rpts c (xCh (k0_off2 c 4096#32 4294967295#32) (k0_off2_inb c 1)) fullShare (X m c)) from rfl)) $$ Hp
  icases Hp with ⟨S1, X10⟩
  sl_exec_parts
  unfold sound_body.sl.MI1_0_w1
  ihave MA1_0 := (upd_first_run m c 1 (by decide) k0_pay2 pay2_eq) $$ MI1_0
  iapply (send_ring_0 m K c ⟨k0_dev6 c, k0_dev6_lt c⟩ (dev6_eq c) 0 (by decide) fs1 (owed_6 c) (insert (SemLoc.dma (dsem 89), ()) (insert (SemLoc.dma (dsem 42), ()) (insert (SemLoc.dma (dsem 88), ()) (insert (SemLoc.dma (dsem 28), ()) (insert (SemLoc.reg barS, ()) W)))))) $$ [MA0_0 AS1 HO T48 T4]
  · isplitr; · iapply (State.inv_own_1 m K c); iexact HI
    isplitr; · iapply (State.inv_succ_1 m K c); iexact HI
    isplitl [MA0_0]; · iexact MA0_0
    isplitl [AS1]; · iexact AS1
    isplitl [HO]; · iexact HO
    isplitl [T48]; · iexact T48
    isplitr; · iexact R4
    isplitl [T4]; · iexact T4
    iexact rs1
  iintro ⟨Cs1, HO⟩
  sl_exec_parts
  iapply (copy_stage_0 m K c 1 (by decide) (StageAt m c 0)) $$ [X3 S0 T92]
  · isplitr; · iapply (State.inv_own_88 m K c); iexact HI
    isplitl [X3]; · iexact X3
    isplitl [S0]; · iexact S0
    isplitl [T92]; · iexact T92
    iexact RL0_1
  iintro CL0
  sl_exec_parts
  iapply (send_ring_1 m K c ⟨k0_dev7 c, k0_dev7_lt c⟩ (dev7_eq c) 0 (by decide) fp1 (owed_7 c) (insert (SemLoc.dma (dsem 89), ()) (insert (SemLoc.dma (dsem 42), ()) (insert (SemLoc.dma (dsem 88), ()) (insert (SemLoc.dma (dsem 28), ()) (insert (SemLoc.reg barS, ()) W)))))) $$ [MA1_0 AP1 HO T62 T18]
  · isplitr; · iapply (State.inv_own_15 m K c); iexact HI
    isplitr; · iapply (State.inv_pred_1 m K c); iexact HI
    isplitl [MA1_0]; · iexact MA1_0
    isplitl [AP1]; · iexact AP1
    isplitl [HO]; · iexact HO
    isplitl [T62]; · iexact T62
    isplitr; · iexact R18
    isplitl [T18]; · iexact T18
    iexact rp1
  iintro ⟨Cs15, HO⟩
  sl_exec_parts
  iapply (copy_stage_1 m K c 1 (by decide) (StageAt m c 0)) $$ [X11 S1 T100]
  · isplitr; · iapply (State.inv_own_89 m K c); iexact HI
    isplitl [X11]; · iexact X11
    isplitl [S1]; · iexact S1
    isplitl [T100]; · iexact T100
    iexact RL1_1
  iintro CL1
  sl_exec_parts
  iapply (wait_dma m K c 29 (by decide) (owed_7 c) (insert (SemLoc.dma (dsem 89), ()) (insert (SemLoc.dma (dsem 42), ()) (insert (SemLoc.dma (dsem 88), ()) (insert (SemLoc.dma (dsem 28), ()) (insert (SemLoc.reg barS, ()) W)))))) $$ [C2 HO P30]
  · isplitr; · iapply (State.inv_own_29 m K c); iexact HI
    isplitl [C2]; · iexact C2
    isplitl [HO]; · iexact HO
    isplitr; · iapply h_mayWait_rs0_1; iexact Hlev
    iexact P30
  iintro ⟨HO, P30, -, MI0_1⟩
  ihave MI0_1 := (Entails.of_eq (show (dmaPay m c 29 0 : sProp 𝕄) = rpts c (cSl 0 1 inb_S2x7x512x1024_S1x1x512x1024_0_1_0_0) fullShare (CommIn m c) from rfl)) $$ MI0_1
  sl_exec_parts
  iapply (wait_local m K c 0 (by decide) 1 (by decide) (owed_7 c) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))) $$ [CL0 HO P89]
  · isplitr; · iapply (State.inv_own_88 m K c); iexact HI
    isplitl [CL0]; · iexact CL0
    isplitl [HO]; · iexact HO
    isplitr; · iapply h_mayWait_loc0_1; iexact Hlev
    iexact P89
  iintro ⟨HO, P89, #RL0_2, Hp⟩
  ihave Hp := (Entails.of_eq (show (dmaPay m c (88 + 0) 1 : sProp 𝕄) = iprop(rpts c (sSl 0 inb_S2x512x1024_S1x512x1024_0_0_0) fullShare (StageAt m c 1) ∗ rpts c (xCh (k0_off2 c 0#32 2#32) (k0_off2_inb c 2)) fullShare (X m c)) from rfl)) $$ Hp
  icases Hp with ⟨S0, X3⟩
  sl_exec_parts
  unfold sound_body.sl.MI0_1_w1
  ihave MA0_1 := (upd_later_run m c 0 0 (by decide) (by decide) k0_pay3 pay3_eq) $$ MI0_1
  iapply (wait_dma m K c 43 (by decide) (owed_7 c) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))) $$ [C16 HO P44]
  · isplitr; · iapply (State.inv_own_43 m K c); iexact HI
    isplitl [C16]; · iexact C16
    isplitl [HO]; · iexact HO
    isplitr; · iapply h_mayWait_rs1_1; iexact Hlev
    iexact P44
  iintro ⟨HO, P44, -, MI1_1⟩
  ihave MI1_1 := (Entails.of_eq (show (dmaPay m c 43 0 : sProp 𝕄) = rpts c (cSl 1 1 inb_S2x7x512x1024_S1x1x512x1024_1_1_0_0) fullShare (CommIn m c) from rfl)) $$ MI1_1
  sl_exec_parts
  iapply (wait_local m K c 1 (by decide) 1 (by decide) (owed_7 c) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))) $$ [CL1 HO P90]
  · isplitr; · iapply (State.inv_own_89 m K c); iexact HI
    isplitl [CL1]; · iexact CL1
    isplitl [HO]; · iexact HO
    isplitr; · iapply h_mayWait_loc1_1; iexact Hlev
    iexact P90
  iintro ⟨HO, P90, #RL1_2, Hp⟩
  ihave Hp := (Entails.of_eq (show (dmaPay m c (88 + 1) 1 : sProp 𝕄) = iprop(rpts c (sSl 1 inb_S2x512x1024_S1x512x1024_1_0_0) fullShare (StageAt m c 1) ∗ rpts c (xCh (k0_off2 c 4096#32 4294967294#32) (k0_off2_inb c 3)) fullShare (X m c)) from rfl)) $$ Hp
  icases Hp with ⟨S1, X11⟩
  sl_exec_parts
  unfold sound_body.sl.MI1_1_w1
  ihave MA1_1 := (upd_later_run m c 1 0 (by decide) (by decide) k0_pay4 pay4_eq) $$ MI1_1
  iapply (send_ring_0 m K c ⟨k0_dev8 c, k0_dev8_lt c⟩ (dev8_eq c) 1 (by decide) fs2 (owed_8 c) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))) $$ [MA0_1 AS2 HO T49 T5]
  · isplitr; · iapply (State.inv_own_2 m K c); iexact HI
    isplitr; · iapply (State.inv_succ_2 m K c); iexact HI
    isplitl [MA0_1]; · iexact MA0_1
    isplitl [AS2]; · iexact AS2
    isplitl [HO]; · iexact HO
    isplitl [T49]; · iexact T49
    isplitr; · iexact R5
    isplitl [T5]; · iexact T5
    iexact rs2
  iintro ⟨Cs2, HO⟩
  sl_exec_parts
  iapply (copy_stage_0 m K c 2 (by decide) (StageAt m c 1)) $$ [X4 S0 T93]
  · isplitr; · iapply (State.inv_own_88 m K c); iexact HI
    isplitl [X4]; · iexact X4
    isplitl [S0]; · iexact S0
    isplitl [T93]; · iexact T93
    iexact RL0_2
  iintro CL0
  sl_exec_parts
  iapply (send_ring_1 m K c ⟨k0_dev9 c, k0_dev9_lt c⟩ (dev9_eq c) 1 (by decide) fp2 (owed_9 c) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))) $$ [MA1_1 AP2 HO T63 T19]
  · isplitr; · iapply (State.inv_own_16 m K c); iexact HI
    isplitr; · iapply (State.inv_pred_2 m K c); iexact HI
    isplitl [MA1_1]; · iexact MA1_1
    isplitl [AP2]; · iexact AP2
    isplitl [HO]; · iexact HO
    isplitl [T63]; · iexact T63
    isplitr; · iexact R19
    isplitl [T19]; · iexact T19
    iexact rp2
  iintro ⟨Cs16, HO⟩
  sl_exec_parts
  iapply (copy_stage_1 m K c 2 (by decide) (StageAt m c 1)) $$ [X12 S1 T101]
  · isplitr; · iapply (State.inv_own_89 m K c); iexact HI
    isplitl [X12]; · iexact X12
    isplitl [S1]; · iexact S1
    isplitl [T101]; · iexact T101
    iexact RL1_2
  iintro CL1
  sl_exec_parts
  iapply (wait_dma m K c 30 (by decide) (owed_9 c) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))) $$ [C3 HO P31]
  · isplitr; · iapply (State.inv_own_30 m K c); iexact HI
    isplitl [C3]; · iexact C3
    isplitl [HO]; · iexact HO
    isplitr; · iapply h_mayWait_rs0_2; iexact Hlev
    iexact P31
  iintro ⟨HO, P31, -, MI0_2⟩
  ihave MI0_2 := (Entails.of_eq (show (dmaPay m c 30 0 : sProp 𝕄) = rpts c (cSl 0 2 inb_S2x7x512x1024_S1x1x512x1024_0_2_0_0) fullShare (CommIn m c) from rfl)) $$ MI0_2
  sl_exec_parts
  iapply (wait_local m K c 0 (by decide) 2 (by decide) (owed_9 c) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))) $$ [CL0 HO P89]
  · isplitr; · iapply (State.inv_own_88 m K c); iexact HI
    isplitl [CL0]; · iexact CL0
    isplitl [HO]; · iexact HO
    isplitr; · iapply h_mayWait_loc0_2; iexact Hlev
    iexact P89
  iintro ⟨HO, P89, #RL0_3, Hp⟩
  ihave Hp := (Entails.of_eq (show (dmaPay m c (88 + 0) 2 : sProp 𝕄) = iprop(rpts c (sSl 0 inb_S2x512x1024_S1x512x1024_0_0_0) fullShare (StageAt m c 2) ∗ rpts c (xCh (k0_off2 c 0#32 3#32) (k0_off2_inb c 4)) fullShare (X m c)) from rfl)) $$ Hp
  icases Hp with ⟨S0, X4⟩
  sl_exec_parts
  unfold sound_body.sl.MI0_2_w1
  ihave MA0_2 := (upd_later_run m c 0 1 (by decide) (by decide) k0_pay5 pay5_eq) $$ MI0_2
  iapply (wait_dma m K c 44 (by decide) (owed_9 c) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))) $$ [C17 HO P45]
  · isplitr; · iapply (State.inv_own_44 m K c); iexact HI
    isplitl [C17]; · iexact C17
    isplitl [HO]; · iexact HO
    isplitr; · iapply h_mayWait_rs1_2; iexact Hlev
    iexact P45
  iintro ⟨HO, P45, -, MI1_2⟩
  ihave MI1_2 := (Entails.of_eq (show (dmaPay m c 44 0 : sProp 𝕄) = rpts c (cSl 1 2 inb_S2x7x512x1024_S1x1x512x1024_1_2_0_0) fullShare (CommIn m c) from rfl)) $$ MI1_2
  sl_exec_parts
  iapply (wait_local m K c 1 (by decide) 2 (by decide) (owed_9 c) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))) $$ [CL1 HO P90]
  · isplitr; · iapply (State.inv_own_89 m K c); iexact HI
    isplitl [CL1]; · iexact CL1
    isplitl [HO]; · iexact HO
    isplitr; · iapply h_mayWait_loc1_2; iexact Hlev
    iexact P90
  iintro ⟨HO, P90, #RL1_3, Hp⟩
  ihave Hp := (Entails.of_eq (show (dmaPay m c (88 + 1) 2 : sProp 𝕄) = iprop(rpts c (sSl 1 inb_S2x512x1024_S1x512x1024_1_0_0) fullShare (StageAt m c 2) ∗ rpts c (xCh (k0_off2 c 4096#32 4294967293#32) (k0_off2_inb c 5)) fullShare (X m c)) from rfl)) $$ Hp
  icases Hp with ⟨S1, X12⟩
  sl_exec_parts
  unfold sound_body.sl.MI1_2_w1
  ihave MA1_2 := (upd_later_run m c 1 1 (by decide) (by decide) k0_pay6 pay6_eq) $$ MI1_2
  iapply (send_ring_0 m K c ⟨k0_dev10 c, k0_dev10_lt c⟩ (dev10_eq c) 2 (by decide) fs3 (owed_10 c) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))) $$ [MA0_2 AS3 HO T50 T6]
  · isplitr; · iapply (State.inv_own_3 m K c); iexact HI
    isplitr; · iapply (State.inv_succ_3 m K c); iexact HI
    isplitl [MA0_2]; · iexact MA0_2
    isplitl [AS3]; · iexact AS3
    isplitl [HO]; · iexact HO
    isplitl [T50]; · iexact T50
    isplitr; · iexact R6
    isplitl [T6]; · iexact T6
    iexact rs3
  iintro ⟨Cs3, HO⟩
  sl_exec_parts
  iapply (copy_stage_0 m K c 3 (by decide) (StageAt m c 2)) $$ [X5 S0 T94]
  · isplitr; · iapply (State.inv_own_88 m K c); iexact HI
    isplitl [X5]; · iexact X5
    isplitl [S0]; · iexact S0
    isplitl [T94]; · iexact T94
    iexact RL0_3
  iintro CL0
  sl_exec_parts
  iapply (send_ring_1 m K c ⟨k0_dev11 c, k0_dev11_lt c⟩ (dev11_eq c) 2 (by decide) fp3 (owed_11 c) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))) $$ [MA1_2 AP3 HO T64 T20]
  · isplitr; · iapply (State.inv_own_17 m K c); iexact HI
    isplitr; · iapply (State.inv_pred_3 m K c); iexact HI
    isplitl [MA1_2]; · iexact MA1_2
    isplitl [AP3]; · iexact AP3
    isplitl [HO]; · iexact HO
    isplitl [T64]; · iexact T64
    isplitr; · iexact R20
    isplitl [T20]; · iexact T20
    iexact rp3
  iintro ⟨Cs17, HO⟩
  sl_exec_parts
  iapply (copy_stage_1 m K c 3 (by decide) (StageAt m c 2)) $$ [X13 S1 T102]
  · isplitr; · iapply (State.inv_own_89 m K c); iexact HI
    isplitl [X13]; · iexact X13
    isplitl [S1]; · iexact S1
    isplitl [T102]; · iexact T102
    iexact RL1_3
  iintro CL1
  sl_exec_parts
  iapply (wait_dma m K c 31 (by decide) (owed_11 c) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))) $$ [C4 HO P32]
  · isplitr; · iapply (State.inv_own_31 m K c); iexact HI
    isplitl [C4]; · iexact C4
    isplitl [HO]; · iexact HO
    isplitr; · iapply h_mayWait_rs0_3; iexact Hlev
    iexact P32
  iintro ⟨HO, P32, -, MI0_3⟩
  ihave MI0_3 := (Entails.of_eq (show (dmaPay m c 31 0 : sProp 𝕄) = rpts c (cSl 0 3 inb_S2x7x512x1024_S1x1x512x1024_0_3_0_0) fullShare (CommIn m c) from rfl)) $$ MI0_3
  sl_exec_parts
  iapply (wait_local m K c 0 (by decide) 3 (by decide) (owed_11 c) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))) $$ [CL0 HO P89]
  · isplitr; · iapply (State.inv_own_88 m K c); iexact HI
    isplitl [CL0]; · iexact CL0
    isplitl [HO]; · iexact HO
    isplitr; · iapply h_mayWait_loc0_3; iexact Hlev
    iexact P89
  iintro ⟨HO, P89, #RL0_4, Hp⟩
  ihave Hp := (Entails.of_eq (show (dmaPay m c (88 + 0) 3 : sProp 𝕄) = iprop(rpts c (sSl 0 inb_S2x512x1024_S1x512x1024_0_0_0) fullShare (StageAt m c 3) ∗ rpts c (xCh (k0_off2 c 0#32 4#32) (k0_off2_inb c 6)) fullShare (X m c)) from rfl)) $$ Hp
  icases Hp with ⟨S0, X5⟩
  sl_exec_parts
  unfold sound_body.sl.MI0_3_w1
  ihave MA0_3 := (upd_later_run m c 0 2 (by decide) (by decide) k0_pay7 pay7_eq) $$ MI0_3
  iapply (wait_dma m K c 45 (by decide) (owed_11 c) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))) $$ [C18 HO P46]
  · isplitr; · iapply (State.inv_own_45 m K c); iexact HI
    isplitl [C18]; · iexact C18
    isplitl [HO]; · iexact HO
    isplitr; · iapply h_mayWait_rs1_3; iexact Hlev
    iexact P46
  iintro ⟨HO, P46, -, MI1_3⟩
  ihave MI1_3 := (Entails.of_eq (show (dmaPay m c 45 0 : sProp 𝕄) = rpts c (cSl 1 3 inb_S2x7x512x1024_S1x1x512x1024_1_3_0_0) fullShare (CommIn m c) from rfl)) $$ MI1_3
  sl_exec_parts
  iapply (wait_local m K c 1 (by decide) 3 (by decide) (owed_11 c) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))) $$ [CL1 HO P90]
  · isplitr; · iapply (State.inv_own_89 m K c); iexact HI
    isplitl [CL1]; · iexact CL1
    isplitl [HO]; · iexact HO
    isplitr; · iapply h_mayWait_loc1_3; iexact Hlev
    iexact P90
  iintro ⟨HO, P90, #RL1_4, Hp⟩
  ihave Hp := (Entails.of_eq (show (dmaPay m c (88 + 1) 3 : sProp 𝕄) = iprop(rpts c (sSl 1 inb_S2x512x1024_S1x512x1024_1_0_0) fullShare (StageAt m c 3) ∗ rpts c (xCh (k0_off2 c 4096#32 4294967292#32) (k0_off2_inb c 7)) fullShare (X m c)) from rfl)) $$ Hp
  icases Hp with ⟨S1, X13⟩
  sl_exec_parts
  unfold sound_body.sl.MI1_3_w1
  ihave MA1_3 := (upd_later_run m c 1 2 (by decide) (by decide) k0_pay8 pay8_eq) $$ MI1_3
  iapply (send_ring_0 m K c ⟨k0_dev12 c, k0_dev12_lt c⟩ (dev12_eq c) 3 (by decide) fs4 (owed_12 c) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))) $$ [MA0_3 AS4 HO T51 T7]
  · isplitr; · iapply (State.inv_own_4 m K c); iexact HI
    isplitr; · iapply (State.inv_succ_4 m K c); iexact HI
    isplitl [MA0_3]; · iexact MA0_3
    isplitl [AS4]; · iexact AS4
    isplitl [HO]; · iexact HO
    isplitl [T51]; · iexact T51
    isplitr; · iexact R7
    isplitl [T7]; · iexact T7
    iexact rs4
  iintro ⟨Cs4, HO⟩
  sl_exec_parts
  iapply (copy_stage_0 m K c 4 (by decide) (StageAt m c 3)) $$ [X6 S0 T95]
  · isplitr; · iapply (State.inv_own_88 m K c); iexact HI
    isplitl [X6]; · iexact X6
    isplitl [S0]; · iexact S0
    isplitl [T95]; · iexact T95
    iexact RL0_4
  iintro CL0
  sl_exec_parts
  iapply (send_ring_1 m K c ⟨k0_dev13 c, k0_dev13_lt c⟩ (dev13_eq c) 3 (by decide) fp4 (owed_13 c) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))) $$ [MA1_3 AP4 HO T65 T21]
  · isplitr; · iapply (State.inv_own_18 m K c); iexact HI
    isplitr; · iapply (State.inv_pred_4 m K c); iexact HI
    isplitl [MA1_3]; · iexact MA1_3
    isplitl [AP4]; · iexact AP4
    isplitl [HO]; · iexact HO
    isplitl [T65]; · iexact T65
    isplitr; · iexact R21
    isplitl [T21]; · iexact T21
    iexact rp4
  iintro ⟨Cs18, HO⟩
  sl_exec_parts
  iapply (copy_stage_1 m K c 4 (by decide) (StageAt m c 3)) $$ [X14 S1 T103]
  · isplitr; · iapply (State.inv_own_89 m K c); iexact HI
    isplitl [X14]; · iexact X14
    isplitl [S1]; · iexact S1
    isplitl [T103]; · iexact T103
    iexact RL1_4
  iintro CL1
  sl_exec_parts
  iapply (wait_dma m K c 32 (by decide) (owed_13 c) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))) $$ [C5 HO P33]
  · isplitr; · iapply (State.inv_own_32 m K c); iexact HI
    isplitl [C5]; · iexact C5
    isplitl [HO]; · iexact HO
    isplitr; · iapply h_mayWait_rs0_4; iexact Hlev
    iexact P33
  iintro ⟨HO, P33, -, MI0_4⟩
  ihave MI0_4 := (Entails.of_eq (show (dmaPay m c 32 0 : sProp 𝕄) = rpts c (cSl 0 4 inb_S2x7x512x1024_S1x1x512x1024_0_4_0_0) fullShare (CommIn m c) from rfl)) $$ MI0_4
  sl_exec_parts
  iapply (wait_local m K c 0 (by decide) 4 (by decide) (owed_13 c) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))) $$ [CL0 HO P89]
  · isplitr; · iapply (State.inv_own_88 m K c); iexact HI
    isplitl [CL0]; · iexact CL0
    isplitl [HO]; · iexact HO
    isplitr; · iapply h_mayWait_loc0_4; iexact Hlev
    iexact P89
  iintro ⟨HO, P89, #RL0_5, Hp⟩
  ihave Hp := (Entails.of_eq (show (dmaPay m c (88 + 0) 4 : sProp 𝕄) = iprop(rpts c (sSl 0 inb_S2x512x1024_S1x512x1024_0_0_0) fullShare (StageAt m c 4) ∗ rpts c (xCh (k0_off2 c 0#32 5#32) (k0_off2_inb c 8)) fullShare (X m c)) from rfl)) $$ Hp
  icases Hp with ⟨S0, X6⟩
  sl_exec_parts
  unfold sound_body.sl.MI0_4_w1
  ihave MA0_4 := (upd_later_run m c 0 3 (by decide) (by decide) k0_pay9 pay9_eq) $$ MI0_4
  iapply (wait_dma m K c 46 (by decide) (owed_13 c) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))) $$ [C19 HO P47]
  · isplitr; · iapply (State.inv_own_46 m K c); iexact HI
    isplitl [C19]; · iexact C19
    isplitl [HO]; · iexact HO
    isplitr; · iapply h_mayWait_rs1_4; iexact Hlev
    iexact P47
  iintro ⟨HO, P47, -, MI1_4⟩
  ihave MI1_4 := (Entails.of_eq (show (dmaPay m c 46 0 : sProp 𝕄) = rpts c (cSl 1 4 inb_S2x7x512x1024_S1x1x512x1024_1_4_0_0) fullShare (CommIn m c) from rfl)) $$ MI1_4
  sl_exec_parts
  iapply (wait_local m K c 1 (by decide) 4 (by decide) (owed_13 c) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))) $$ [CL1 HO P90]
  · isplitr; · iapply (State.inv_own_89 m K c); iexact HI
    isplitl [CL1]; · iexact CL1
    isplitl [HO]; · iexact HO
    isplitr; · iapply h_mayWait_loc1_4; iexact Hlev
    iexact P90
  iintro ⟨HO, P90, #RL1_5, Hp⟩
  ihave Hp := (Entails.of_eq (show (dmaPay m c (88 + 1) 4 : sProp 𝕄) = iprop(rpts c (sSl 1 inb_S2x512x1024_S1x512x1024_1_0_0) fullShare (StageAt m c 4) ∗ rpts c (xCh (k0_off2 c 4096#32 4294967291#32) (k0_off2_inb c 9)) fullShare (X m c)) from rfl)) $$ Hp
  icases Hp with ⟨S1, X14⟩
  sl_exec_parts
  unfold sound_body.sl.MI1_4_w1
  ihave MA1_4 := (upd_later_run m c 1 3 (by decide) (by decide) k0_pay10 pay10_eq) $$ MI1_4
  iapply (send_ring_0 m K c ⟨k0_dev14 c, k0_dev14_lt c⟩ (dev14_eq c) 4 (by decide) fs5 (owed_14 c) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))) $$ [MA0_4 AS5 HO T52 T8]
  · isplitr; · iapply (State.inv_own_5 m K c); iexact HI
    isplitr; · iapply (State.inv_succ_5 m K c); iexact HI
    isplitl [MA0_4]; · iexact MA0_4
    isplitl [AS5]; · iexact AS5
    isplitl [HO]; · iexact HO
    isplitl [T52]; · iexact T52
    isplitr; · iexact R8
    isplitl [T8]; · iexact T8
    iexact rs5
  iintro ⟨Cs5, HO⟩
  sl_exec_parts
  iapply (copy_stage_0 m K c 5 (by decide) (StageAt m c 4)) $$ [X7 S0 T96]
  · isplitr; · iapply (State.inv_own_88 m K c); iexact HI
    isplitl [X7]; · iexact X7
    isplitl [S0]; · iexact S0
    isplitl [T96]; · iexact T96
    iexact RL0_5
  iintro CL0
  sl_exec_parts
  iapply (send_ring_1 m K c ⟨k0_dev15 c, k0_dev15_lt c⟩ (dev15_eq c) 4 (by decide) fp5 (owed_15 c) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))) $$ [MA1_4 AP5 HO T66 T22]
  · isplitr; · iapply (State.inv_own_19 m K c); iexact HI
    isplitr; · iapply (State.inv_pred_5 m K c); iexact HI
    isplitl [MA1_4]; · iexact MA1_4
    isplitl [AP5]; · iexact AP5
    isplitl [HO]; · iexact HO
    isplitl [T66]; · iexact T66
    isplitr; · iexact R22
    isplitl [T22]; · iexact T22
    iexact rp5
  iintro ⟨Cs19, HO⟩
  sl_exec_parts
  iapply (copy_stage_1 m K c 5 (by decide) (StageAt m c 4)) $$ [X15 S1 T104]
  · isplitr; · iapply (State.inv_own_89 m K c); iexact HI
    isplitl [X15]; · iexact X15
    isplitl [S1]; · iexact S1
    isplitl [T104]; · iexact T104
    iexact RL1_5
  iintro CL1
  sl_exec_parts
  iapply (wait_dma m K c 33 (by decide) (owed_15 c) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))) $$ [C6 HO P34]
  · isplitr; · iapply (State.inv_own_33 m K c); iexact HI
    isplitl [C6]; · iexact C6
    isplitl [HO]; · iexact HO
    isplitr; · iapply h_mayWait_rs0_5; iexact Hlev
    iexact P34
  iintro ⟨HO, P34, -, MI0_5⟩
  ihave MI0_5 := (Entails.of_eq (show (dmaPay m c 33 0 : sProp 𝕄) = rpts c (cSl 0 5 inb_S2x7x512x1024_S1x1x512x1024_0_5_0_0) fullShare (CommIn m c) from rfl)) $$ MI0_5
  sl_exec_parts
  iapply (wait_local m K c 0 (by decide) 5 (by decide) (owed_15 c) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))) $$ [CL0 HO P89]
  · isplitr; · iapply (State.inv_own_88 m K c); iexact HI
    isplitl [CL0]; · iexact CL0
    isplitl [HO]; · iexact HO
    isplitr; · iapply h_mayWait_loc0_5; iexact Hlev
    iexact P89
  iintro ⟨HO, P89, #RL0_6, Hp⟩
  ihave Hp := (Entails.of_eq (show (dmaPay m c (88 + 0) 5 : sProp 𝕄) = iprop(rpts c (sSl 0 inb_S2x512x1024_S1x512x1024_0_0_0) fullShare (StageAt m c 5) ∗ rpts c (xCh (k0_off2 c 0#32 6#32) (k0_off2_inb c 10)) fullShare (X m c)) from rfl)) $$ Hp
  icases Hp with ⟨S0, X7⟩
  sl_exec_parts
  unfold sound_body.sl.MI0_5_w1
  unfold sound_body.sl.v1213
  ihave MA0_5 := (upd_later_run m c 0 4 (by decide) (by decide) (fun x y => k0_pay12 (shapeCast S512x1024 x shapeCasts_S1x1x512x1024_S512x1024) y) (fun a b => by show k0_pay12 (k0_pay11 (up4 a)) (up3 b) = _; rw [pay11_eq, pay12_eq])) $$ MI0_5
  iapply (wait_dma m K c 47 (by decide) (owed_15 c) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))) $$ [C20 HO P48]
  · isplitr; · iapply (State.inv_own_47 m K c); iexact HI
    isplitl [C20]; · iexact C20
    isplitl [HO]; · iexact HO
    isplitr; · iapply h_mayWait_rs1_5; iexact Hlev
    iexact P48
  iintro ⟨HO, P48, -, MI1_5⟩
  ihave MI1_5 := (Entails.of_eq (show (dmaPay m c 47 0 : sProp 𝕄) = rpts c (cSl 1 5 inb_S2x7x512x1024_S1x1x512x1024_1_5_0_0) fullShare (CommIn m c) from rfl)) $$ MI1_5
  sl_exec_parts
  iapply (wait_local m K c 1 (by decide) 5 (by decide) (owed_15 c) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))) $$ [CL1 HO P90]
  · isplitr; · iapply (State.inv_own_89 m K c); iexact HI
    isplitl [CL1]; · iexact CL1
    isplitl [HO]; · iexact HO
    isplitr; · iapply h_mayWait_loc1_5; iexact Hlev
    iexact P90
  iintro ⟨HO, P90, #RL1_6, Hp⟩
  ihave Hp := (Entails.of_eq (show (dmaPay m c (88 + 1) 5 : sProp 𝕄) = iprop(rpts c (sSl 1 inb_S2x512x1024_S1x512x1024_1_0_0) fullShare (StageAt m c 5) ∗ rpts c (xCh (k0_off2 c 4096#32 4294967290#32) (k0_off2_inb c 11)) fullShare (X m c)) from rfl)) $$ Hp
  icases Hp with ⟨S1, X15⟩
  sl_exec_parts
  unfold sound_body.sl.MI1_5_w1
  ihave MA1_5 := (upd_later_run m c 1 4 (by decide) (by decide) k0_pay13 pay13_eq) $$ MI1_5
  iapply (send_ring_0 m K c ⟨k0_dev16 c, k0_dev16_lt c⟩ (dev16_eq c) 5 (by decide) fs6 (owed_16 c) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))) $$ [MA0_5 AS6 HO T53 T9]
  · isplitr; · iapply (State.inv_own_6 m K c); iexact HI
    isplitr; · iapply (State.inv_succ_6 m K c); iexact HI
    isplitl [MA0_5]; · iexact MA0_5
    isplitl [AS6]; · iexact AS6
    isplitl [HO]; · iexact HO
    isplitl [T53]; · iexact T53
    isplitr; · iexact R9
    isplitl [T9]; · iexact T9
    iexact rs6
  iintro ⟨Cs6, HO⟩
  sl_exec_parts
  iapply (copy_stage_0 m K c 6 (by decide) (StageAt m c 5)) $$ [X0 S0 T97]
  · isplitr; · iapply (State.inv_own_88 m K c); iexact HI
    isplitl [X0]; · iexact X0
    isplitl [S0]; · iexact S0
    isplitl [T97]; · iexact T97
    iexact RL0_6
  iintro CL0
  sl_exec_parts
  iapply (send_ring_1 m K c ⟨k0_dev17 c, k0_dev17_lt c⟩ (dev17_eq c) 5 (by decide) fp6 (owed_17 c) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))) $$ [MA1_5 AP6 HO T67 T23]
  · isplitr; · iapply (State.inv_own_20 m K c); iexact HI
    isplitr; · iapply (State.inv_pred_6 m K c); iexact HI
    isplitl [MA1_5]; · iexact MA1_5
    isplitl [AP6]; · iexact AP6
    isplitl [HO]; · iexact HO
    isplitl [T67]; · iexact T67
    isplitr; · iexact R23
    isplitl [T23]; · iexact T23
    iexact rp6
  iintro ⟨Cs20, HO⟩
  sl_exec_parts
  iapply (copy_stage_1 m K c 6 (by decide) (StageAt m c 5)) $$ [X8 S1 T105]
  · isplitr; · iapply (State.inv_own_89 m K c); iexact HI
    isplitl [X8]; · iexact X8
    isplitl [S1]; · iexact S1
    isplitl [T105]; · iexact T105
    iexact RL1_6
  iintro CL1
  sl_exec_parts
  iapply (wait_dma m K c 34 (by decide) (owed_17 c) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))) $$ [C7 HO P35]
  · isplitr; · iapply (State.inv_own_34 m K c); iexact HI
    isplitl [C7]; · iexact C7
    isplitl [HO]; · iexact HO
    isplitr; · iapply h_mayWait_rs0_6; iexact Hlev
    iexact P35
  iintro ⟨HO, P35, -, MI0_6⟩
  ihave MI0_6 := (Entails.of_eq (show (dmaPay m c 34 0 : sProp 𝕄) = rpts c (cSl 0 6 inb_S2x7x512x1024_S1x1x512x1024_0_6_0_0) fullShare (CommIn m c) from rfl)) $$ MI0_6
  sl_exec_parts
  iapply (wait_local m K c 0 (by decide) 6 (by decide) (owed_17 c) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))) $$ [CL0 HO P89]
  · isplitr; · iapply (State.inv_own_88 m K c); iexact HI
    isplitl [CL0]; · iexact CL0
    isplitl [HO]; · iexact HO
    isplitr; · iapply h_mayWait_loc0_6; iexact Hlev
    iexact P89
  iintro ⟨HO, P89, #RL0_7, Hp⟩
  ihave Hp := (Entails.of_eq (show (dmaPay m c (88 + 0) 6 : sProp 𝕄) = iprop(rpts c (sSl 0 inb_S2x512x1024_S1x512x1024_0_0_0) fullShare (StageAt m c 6) ∗ rpts c (xCh (k0_off2 c 0#32 7#32) (k0_off2_inb c 12)) fullShare (X m c)) from rfl)) $$ Hp
  icases Hp with ⟨S0, X0⟩
  sl_exec_parts
  unfold sound_body.sl.MI0_6_w1
  unfold sound_body.sl.v1399
  ihave MA0_6 := (upd_later_run m c 0 5 (by decide) (by decide) (fun x y => k0_pay15 (shapeCast S512x1024 x shapeCasts_S1x1x512x1024_S512x1024) y) (fun a b => by show k0_pay15 (k0_pay14 (up4 a)) (up3 b) = _; rw [pay14_eq, pay15_eq])) $$ MI0_6
  iapply (wait_dma m K c 48 (by decide) (owed_17 c) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))) $$ [C21 HO P49]
  · isplitr; · iapply (State.inv_own_48 m K c); iexact HI
    isplitl [C21]; · iexact C21
    isplitl [HO]; · iexact HO
    isplitr; · iapply h_mayWait_rs1_6; iexact Hlev
    iexact P49
  iintro ⟨HO, P49, -, MI1_6⟩
  ihave MI1_6 := (Entails.of_eq (show (dmaPay m c 48 0 : sProp 𝕄) = rpts c (cSl 1 6 inb_S2x7x512x1024_S1x1x512x1024_1_6_0_0) fullShare (CommIn m c) from rfl)) $$ MI1_6
  sl_exec_parts
  iapply (wait_local m K c 1 (by decide) 6 (by decide) (owed_17 c) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))) $$ [CL1 HO P90]
  · isplitr; · iapply (State.inv_own_89 m K c); iexact HI
    isplitl [CL1]; · iexact CL1
    isplitl [HO]; · iexact HO
    isplitr; · iapply h_mayWait_loc1_6; iexact Hlev
    iexact P90
  iintro ⟨HO, P90, #RL1_7, Hp⟩
  ihave Hp := (Entails.of_eq (show (dmaPay m c (88 + 1) 6 : sProp 𝕄) = iprop(rpts c (sSl 1 inb_S2x512x1024_S1x512x1024_1_0_0) fullShare (StageAt m c 6) ∗ rpts c (xCh (k0_off2 c 4096#32 4294967289#32) (k0_off2_inb c 13)) fullShare (X m c)) from rfl)) $$ Hp
  icases Hp with ⟨S1, X8⟩
  sl_exec_parts
  unfold sound_body.sl.MI1_6_w1
  unfold sound_body.sl.r
  ihave MA1_6 := (upd_later_run m c 1 5 (by decide) (by decide) k0_pay16 pay16_eq) $$ MI1_6
  iapply (copy_done_0 m K c _) $$ [MA0_6 O0 T98]
  · isplitr; · iapply (State.inv_own_88 m K c); iexact HI
    isplitl [MA0_6]; · iexact MA0_6
    isplitl [O0]; · iexact O0
    isplitl [T98]; · iexact T98
    iexact RL0_7
  iintro CL0
  sl_exec_parts
  iapply (wait_local m K c 0 (by decide) 7 (by decide) (owed_17 c) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))) $$ [CL0 HO P89]
  · isplitr; · iapply (State.inv_own_88 m K c); iexact HI
    isplitl [CL0]; · iexact CL0
    isplitl [HO]; · iexact HO
    isplitr; · iapply h_mayWait_loc0_7; iexact Hlev
    iexact P89
  iintro ⟨HO, P89, -, Hp⟩
  ihave Hp := (Entails.of_eq (show (dmaPay m c (88 + 0) 7 : sProp 𝕄) = iprop(rpts c (oCh (k0_off3 c 0#32 1#32) (k0_off3_inb c 0)) fullShare (Res m c) ∗ rpts c (cSl 0 6 inb_S2x7x512x1024_S1x1x512x1024_0_6_0_0) fullShare (CommAcc m c)) from rfl)) $$ Hp
  icases Hp with ⟨O0, MA0_6⟩
  ihave MAh0 := (share_split (F := F) c (cSl 0 6 inb_S2x7x512x1024_S1x1x512x1024_0_6_0_0) (CommAcc m c)) $$ MA0_6
  icases MAh0 with ⟨MAl0, MAr0⟩
  sl_exec_parts
  iapply (zsend_done_0 m K c ⟨k0_dev18 c, k0_dev18_lt c⟩ (dev18_eq c) fz0 (owed_18 c) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))) $$ [MAl0 AZ0 HO T75 T31]
  · isplitr; · iapply (State.inv_own_56 m K c); iexact HI
    isplitr; · iapply (State.inv_part_0 m K c); iexact HI
    isplitl [MAl0]; · iexact MAl0
    isplitl [AZ0]; · iexact AZ0
    isplitl [HO]; · iexact HO
    isplitl [T75]; · iexact T75
    isplitr; · iexact R59
    isplitl [T31]; · iexact T31
    iexact rz0
  iintro ⟨Cz0, HO⟩
  sl_exec_parts
  iapply (copy_done_1 m K c _) $$ [MA1_6 O8 T106]
  · isplitr; · iapply (State.inv_own_89 m K c); iexact HI
    isplitl [MA1_6]; · iexact MA1_6
    isplitl [O8]; · iexact O8
    isplitl [T106]; · iexact T106
    iexact RL1_7
  iintro CL1
  sl_exec_parts
  iapply (wait_local m K c 1 (by decide) 7 (by decide) (owed_18 c) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))) $$ [CL1 HO P90]
  · isplitr; · iapply (State.inv_own_89 m K c); iexact HI
    isplitl [CL1]; · iexact CL1
    isplitl [HO]; · iexact HO
    isplitr; · iapply h_mayWait_loc1_7; iexact Hlev
    iexact P90
  iintro ⟨HO, P90, -, Hp⟩
  ihave Hp := (Entails.of_eq (show (dmaPay m c (88 + 1) 7 : sProp 𝕄) = iprop(rpts c (oCh (k0_off3 c 4096#32 4294967295#32) (k0_off3_inb c 1)) fullShare (Res m c) ∗ rpts c (cSl 1 6 inb_S2x7x512x1024_S1x1x512x1024_1_6_0_0) fullShare (CommAcc m c)) from rfl)) $$ Hp
  icases Hp with ⟨O8, MA1_6⟩
  ihave MAh1 := (share_split (F := F) c (cSl 1 6 inb_S2x7x512x1024_S1x1x512x1024_1_6_0_0) (CommAcc m c)) $$ MA1_6
  icases MAh1 with ⟨MAl1, MAr1⟩
  sl_exec_parts
  iapply (zsend_done_1 m K c ⟨k0_dev19 c, k0_dev19_lt c⟩ (dev19_eq c) fz8 (owed_19 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [MAl1 AZ8 HO T83 T39]
  · isplitr; · iapply (State.inv_own_64 m K c); iexact HI
    isplitr; · iapply (State.inv_part_8 m K c); iexact HI
    isplitl [MAl1]; · iexact MAl1
    isplitl [AZ8]; · iexact AZ8
    isplitl [HO]; · iexact HO
    isplitl [T83]; · iexact T83
    isplitr; · iexact R67
    isplitl [T39]; · iexact T39
    iexact rz8
  iintro ⟨Cz8, HO⟩
  sl_exec_parts
  iapply (send_done_0 m K c ⟨k0_dev20 c, k0_dev20_lt c⟩ (dev20_eq c) fs7 (owed_20 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [MAr0 AS7 HO T54 T10]
  · isplitr; · iapply (State.inv_own_7 m K c); iexact HI
    isplitr; · iapply (State.inv_succ_7 m K c); iexact HI
    isplitl [MAr0]; · iexact MAr0
    isplitl [AS7]; · iexact AS7
    isplitl [HO]; · iexact HO
    isplitl [T54]; · iexact T54
    isplitr; · iexact R10
    isplitl [T10]; · iexact T10
    iexact rs7
  iintro ⟨Cs7, HO⟩
  sl_exec_parts
  iapply (send_done_1 m K c ⟨k0_dev21 c, k0_dev21_lt c⟩ (dev21_eq c) fp7 (owed_21 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [MAr1 AP7 HO T68 T24]
  · isplitr; · iapply (State.inv_own_21 m K c); iexact HI
    isplitr; · iapply (State.inv_pred_7 m K c); iexact HI
    isplitl [MAr1]; · iexact MAr1
    isplitl [AP7]; · iexact AP7
    isplitl [HO]; · iexact HO
    isplitl [T68]; · iexact T68
    isplitr; · iexact R24
    isplitl [T24]; · iexact T24
    iexact rp7
  iintro ⟨Cs21, HO⟩
  sl_exec_parts
  iapply (wait_dma m K c 35 (by decide) (owed_21 c) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))) $$ [C8 HO P36]
  · isplitr; · iapply (State.inv_own_35 m K c); iexact HI
    isplitl [C8]; · iexact C8
    isplitl [HO]; · iexact HO
    isplitr; · iapply h_mayWait_ag0_0; iexact Hlev
    iexact P36
  iintro ⟨HO, P36, -, OR0_0⟩
  ihave OR0_0 := (Entails.of_eq (show (dmaPay m c 35 0 : sProp 𝕄) = rpts c (oCh (k0_off2 c 0#32 0#32) (k0_off2_inb c 14)) fullShare (Res m c) from rfl)) $$ OR0_0
  ihave ORh0_0 := (share_split (F := F) c (oCh (k0_off2 c 0#32 0#32) (k0_off2_inb c 14)) (Res m c)) $$ OR0_0
  icases ORh0_0 with ⟨ORl0_0, ORr0_0⟩
  sl_exec_parts
  iapply (zsend_gather_0_0 m K c ⟨k0_dev22 c, k0_dev22_lt c⟩ (dev22_eq c) fz1 (owed_22 c) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))) $$ [ORl0_0 AZ1 HO T76 T32]
  · isplitr; · iapply (State.inv_own_57 m K c); iexact HI
    isplitr; · iapply (State.inv_part_1 m K c); iexact HI
    isplitl [ORl0_0]; · iexact ORl0_0
    isplitl [AZ1]; · iexact AZ1
    isplitl [HO]; · iexact HO
    isplitl [T76]; · iexact T76
    isplitr; · iexact R60
    isplitl [T32]; · iexact T32
    iexact rz1
  iintro ⟨Cz1, HO⟩
  sl_exec_parts
  iapply (wait_dma m K c 49 (by decide) (owed_22 c) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))) $$ [C22 HO P50]
  · isplitr; · iapply (State.inv_own_49 m K c); iexact HI
    isplitl [C22]; · iexact C22
    isplitl [HO]; · iexact HO
    isplitr; · iapply h_mayWait_ag1_0; iexact Hlev
    iexact P50
  iintro ⟨HO, P50, -, OR1_0⟩
  ihave OR1_0 := (Entails.of_eq (show (dmaPay m c 49 0 : sProp 𝕄) = rpts c (oCh (k0_off2 c 4096#32 0#32) (k0_off2_inb c 15)) fullShare (Res m c) from rfl)) $$ OR1_0
  ihave ORh1_0 := (share_split (F := F) c (oCh (k0_off2 c 4096#32 0#32) (k0_off2_inb c 15)) (Res m c)) $$ OR1_0
  icases ORh1_0 with ⟨ORl1_0, ORr1_0⟩
  sl_exec_parts
  iapply (zsend_gather_1_0 m K c ⟨k0_dev23 c, k0_dev23_lt c⟩ (dev23_eq c) fz9 (owed_23 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [ORl1_0 AZ9 HO T84 T40]
  · isplitr; · iapply (State.inv_own_65 m K c); iexact HI
    isplitr; · iapply (State.inv_part_9 m K c); iexact HI
    isplitl [ORl1_0]; · iexact ORl1_0
    isplitl [AZ9]; · iexact AZ9
    isplitl [HO]; · iexact HO
    isplitl [T84]; · iexact T84
    isplitr; · iexact R68
    isplitl [T40]; · iexact T40
    iexact rz9
  iintro ⟨Cz9, HO⟩
  sl_exec_parts
  ihave ORr0_0 := (Entails.of_eq (rpts_oCh_congr (F := F) c (k0_off2 c 0#32 0#32) (k0_off4 c 0#32 1#32 1#32) (k0_off2_inb c 14) (k0_off4_inb c 2) ((off2_0_0 c).trans (off4_0_1 c).symm) fullShare.right (Res m c))) $$ ORr0_0
  iapply (send_gather_0_1 m K c ⟨k0_dev24 c, k0_dev24_lt c⟩ (dev24_eq c) fs8 (owed_24 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [ORr0_0 AS8 HO T55 T11]
  · isplitr; · iapply (State.inv_own_8 m K c); iexact HI
    isplitr; · iapply (State.inv_succ_8 m K c); iexact HI
    isplitl [ORr0_0]; · iexact ORr0_0
    isplitl [AS8]; · iexact AS8
    isplitl [HO]; · iexact HO
    isplitl [T55]; · iexact T55
    isplitr; · iexact R11
    isplitl [T11]; · iexact T11
    iexact rs8
  iintro ⟨Cs8, HO⟩
  sl_exec_parts
  ihave ORr1_0 := (Entails.of_eq (rpts_oCh_congr (F := F) c (k0_off2 c 4096#32 0#32) (k0_off4 c 4096#32 4294967295#32 4294967295#32) (k0_off2_inb c 15) (k0_off4_inb c 3) ((off2_1_0 c).trans (off4_1_1 c).symm) fullShare.right (Res m c))) $$ ORr1_0
  iapply (send_gather_1_1 m K c ⟨k0_dev25 c, k0_dev25_lt c⟩ (dev25_eq c) fp8 (owed_25 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [ORr1_0 AP8 HO T69 T25]
  · isplitr; · iapply (State.inv_own_22 m K c); iexact HI
    isplitr; · iapply (State.inv_pred_8 m K c); iexact HI
    isplitl [ORr1_0]; · iexact ORr1_0
    isplitl [AP8]; · iexact AP8
    isplitl [HO]; · iexact HO
    isplitl [T69]; · iexact T69
    isplitr; · iexact R25
    isplitl [T25]; · iexact T25
    iexact rp8
  iintro ⟨Cs22, HO⟩
  sl_exec_parts
  iapply (wait_dma m K c 36 (by decide) (owed_25 c) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))) $$ [C9 HO P37]
  · isplitr; · iapply (State.inv_own_36 m K c); iexact HI
    isplitl [C9]; · iexact C9
    isplitl [HO]; · iexact HO
    isplitr; · iapply h_mayWait_ag0_1; iexact Hlev
    iexact P37
  iintro ⟨HO, P37, -, OR0_1⟩
  ihave OR0_1 := (Entails.of_eq (show (dmaPay m c 36 0 : sProp 𝕄) = rpts c (oCh (k0_off2 c 0#32 1#32) (k0_off2_inb c 0)) fullShare (Res m c) from rfl)) $$ OR0_1
  ihave ORh0_1 := (share_split (F := F) c (oCh (k0_off2 c 0#32 1#32) (k0_off2_inb c 0)) (Res m c)) $$ OR0_1
  icases ORh0_1 with ⟨ORl0_1, ORr0_1⟩
  sl_exec_parts
  iapply (zsend_gather_0_1 m K c ⟨k0_dev26 c, k0_dev26_lt c⟩ (dev26_eq c) fz2 (owed_26 c) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))) $$ [ORl0_1 AZ2 HO T77 T33]
  · isplitr; · iapply (State.inv_own_58 m K c); iexact HI
    isplitr; · iapply (State.inv_part_2 m K c); iexact HI
    isplitl [ORl0_1]; · iexact ORl0_1
    isplitl [AZ2]; · iexact AZ2
    isplitl [HO]; · iexact HO
    isplitl [T77]; · iexact T77
    isplitr; · iexact R61
    isplitl [T33]; · iexact T33
    iexact rz2
  iintro ⟨Cz2, HO⟩
  sl_exec_parts
  iapply (wait_dma m K c 50 (by decide) (owed_26 c) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))) $$ [C23 HO P51]
  · isplitr; · iapply (State.inv_own_50 m K c); iexact HI
    isplitl [C23]; · iexact C23
    isplitl [HO]; · iexact HO
    isplitr; · iapply h_mayWait_ag1_1; iexact Hlev
    iexact P51
  iintro ⟨HO, P51, -, OR1_1⟩
  ihave OR1_1 := (Entails.of_eq (show (dmaPay m c 50 0 : sProp 𝕄) = rpts c (oCh (k0_off2 c 4096#32 4294967295#32) (k0_off2_inb c 1)) fullShare (Res m c) from rfl)) $$ OR1_1
  ihave ORh1_1 := (share_split (F := F) c (oCh (k0_off2 c 4096#32 4294967295#32) (k0_off2_inb c 1)) (Res m c)) $$ OR1_1
  icases ORh1_1 with ⟨ORl1_1, ORr1_1⟩
  sl_exec_parts
  iapply (zsend_gather_1_1 m K c ⟨k0_dev27 c, k0_dev27_lt c⟩ (dev27_eq c) fz10 (owed_27 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [ORl1_1 AZ10 HO T85 T41]
  · isplitr; · iapply (State.inv_own_66 m K c); iexact HI
    isplitr; · iapply (State.inv_part_10 m K c); iexact HI
    isplitl [ORl1_1]; · iexact ORl1_1
    isplitl [AZ10]; · iexact AZ10
    isplitl [HO]; · iexact HO
    isplitl [T85]; · iexact T85
    isplitr; · iexact R69
    isplitl [T41]; · iexact T41
    iexact rz10
  iintro ⟨Cz10, HO⟩
  sl_exec_parts
  ihave ORr0_1 := (Entails.of_eq (rpts_oCh_congr (F := F) c (k0_off2 c 0#32 1#32) (k0_off4 c 0#32 1#32 2#32) (k0_off2_inb c 0) (k0_off4_inb c 4) ((off2_0_1 c).trans (off4_0_2 c).symm) fullShare.right (Res m c))) $$ ORr0_1
  iapply (send_gather_0_2 m K c ⟨k0_dev28 c, k0_dev28_lt c⟩ (dev28_eq c) fs9 (owed_28 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [ORr0_1 AS9 HO T56 T12]
  · isplitr; · iapply (State.inv_own_9 m K c); iexact HI
    isplitr; · iapply (State.inv_succ_9 m K c); iexact HI
    isplitl [ORr0_1]; · iexact ORr0_1
    isplitl [AS9]; · iexact AS9
    isplitl [HO]; · iexact HO
    isplitl [T56]; · iexact T56
    isplitr; · iexact R12
    isplitl [T12]; · iexact T12
    iexact rs9
  iintro ⟨Cs9, HO⟩
  sl_exec_parts
  ihave ORr1_1 := (Entails.of_eq (rpts_oCh_congr (F := F) c (k0_off2 c 4096#32 4294967295#32) (k0_off4 c 4096#32 4294967295#32 4294967294#32) (k0_off2_inb c 1) (k0_off4_inb c 5) ((off2_1_1 c).trans (off4_1_2 c).symm) fullShare.right (Res m c))) $$ ORr1_1
  iapply (send_gather_1_2 m K c ⟨k0_dev29 c, k0_dev29_lt c⟩ (dev29_eq c) fp9 (owed_29 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [ORr1_1 AP9 HO T70 T26]
  · isplitr; · iapply (State.inv_own_23 m K c); iexact HI
    isplitr; · iapply (State.inv_pred_9 m K c); iexact HI
    isplitl [ORr1_1]; · iexact ORr1_1
    isplitl [AP9]; · iexact AP9
    isplitl [HO]; · iexact HO
    isplitl [T70]; · iexact T70
    isplitr; · iexact R26
    isplitl [T26]; · iexact T26
    iexact rp9
  iintro ⟨Cs23, HO⟩
  sl_exec_parts
  iapply (wait_dma m K c 37 (by decide) (owed_29 c) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))) $$ [C10 HO P38]
  · isplitr; · iapply (State.inv_own_37 m K c); iexact HI
    isplitl [C10]; · iexact C10
    isplitl [HO]; · iexact HO
    isplitr; · iapply h_mayWait_ag0_2; iexact Hlev
    iexact P38
  iintro ⟨HO, P38, -, OR0_2⟩
  ihave OR0_2 := (Entails.of_eq (show (dmaPay m c 37 0 : sProp 𝕄) = rpts c (oCh (k0_off2 c 0#32 2#32) (k0_off2_inb c 2)) fullShare (Res m c) from rfl)) $$ OR0_2
  ihave ORh0_2 := (share_split (F := F) c (oCh (k0_off2 c 0#32 2#32) (k0_off2_inb c 2)) (Res m c)) $$ OR0_2
  icases ORh0_2 with ⟨ORl0_2, ORr0_2⟩
  sl_exec_parts
  iapply (zsend_gather_0_2 m K c ⟨k0_dev30 c, k0_dev30_lt c⟩ (dev30_eq c) fz3 (owed_30 c) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))) $$ [ORl0_2 AZ3 HO T78 T34]
  · isplitr; · iapply (State.inv_own_59 m K c); iexact HI
    isplitr; · iapply (State.inv_part_3 m K c); iexact HI
    isplitl [ORl0_2]; · iexact ORl0_2
    isplitl [AZ3]; · iexact AZ3
    isplitl [HO]; · iexact HO
    isplitl [T78]; · iexact T78
    isplitr; · iexact R62
    isplitl [T34]; · iexact T34
    iexact rz3
  iintro ⟨Cz3, HO⟩
  sl_exec_parts
  iapply (wait_dma m K c 51 (by decide) (owed_30 c) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))) $$ [C24 HO P52]
  · isplitr; · iapply (State.inv_own_51 m K c); iexact HI
    isplitl [C24]; · iexact C24
    isplitl [HO]; · iexact HO
    isplitr; · iapply h_mayWait_ag1_2; iexact Hlev
    iexact P52
  iintro ⟨HO, P52, -, OR1_2⟩
  ihave OR1_2 := (Entails.of_eq (show (dmaPay m c 51 0 : sProp 𝕄) = rpts c (oCh (k0_off2 c 4096#32 4294967294#32) (k0_off2_inb c 3)) fullShare (Res m c) from rfl)) $$ OR1_2
  ihave ORh1_2 := (share_split (F := F) c (oCh (k0_off2 c 4096#32 4294967294#32) (k0_off2_inb c 3)) (Res m c)) $$ OR1_2
  icases ORh1_2 with ⟨ORl1_2, ORr1_2⟩
  sl_exec_parts
  iapply (zsend_gather_1_2 m K c ⟨k0_dev31 c, k0_dev31_lt c⟩ (dev31_eq c) fz11 (owed_31 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [ORl1_2 AZ11 HO T86 T42]
  · isplitr; · iapply (State.inv_own_67 m K c); iexact HI
    isplitr; · iapply (State.inv_part_11 m K c); iexact HI
    isplitl [ORl1_2]; · iexact ORl1_2
    isplitl [AZ11]; · iexact AZ11
    isplitl [HO]; · iexact HO
    isplitl [T86]; · iexact T86
    isplitr; · iexact R70
    isplitl [T42]; · iexact T42
    iexact rz11
  iintro ⟨Cz11, HO⟩
  sl_exec_parts
  ihave ORr0_2 := (Entails.of_eq (rpts_oCh_congr (F := F) c (k0_off2 c 0#32 2#32) (k0_off4 c 0#32 1#32 3#32) (k0_off2_inb c 2) (k0_off4_inb c 6) ((off2_0_2 c).trans (off4_0_3 c).symm) fullShare.right (Res m c))) $$ ORr0_2
  iapply (send_gather_0_3 m K c ⟨k0_dev32 c, k0_dev32_lt c⟩ (dev32_eq c) fs10 (owed_32 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [ORr0_2 AS10 HO T57 T13]
  · isplitr; · iapply (State.inv_own_10 m K c); iexact HI
    isplitr; · iapply (State.inv_succ_10 m K c); iexact HI
    isplitl [ORr0_2]; · iexact ORr0_2
    isplitl [AS10]; · iexact AS10
    isplitl [HO]; · iexact HO
    isplitl [T57]; · iexact T57
    isplitr; · iexact R13
    isplitl [T13]; · iexact T13
    iexact rs10
  iintro ⟨Cs10, HO⟩
  sl_exec_parts
  ihave ORr1_2 := (Entails.of_eq (rpts_oCh_congr (F := F) c (k0_off2 c 4096#32 4294967294#32) (k0_off4 c 4096#32 4294967295#32 4294967293#32) (k0_off2_inb c 3) (k0_off4_inb c 7) ((off2_1_2 c).trans (off4_1_3 c).symm) fullShare.right (Res m c))) $$ ORr1_2
  iapply (send_gather_1_3 m K c ⟨k0_dev33 c, k0_dev33_lt c⟩ (dev33_eq c) fp10 (owed_33 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [ORr1_2 AP10 HO T71 T27]
  · isplitr; · iapply (State.inv_own_24 m K c); iexact HI
    isplitr; · iapply (State.inv_pred_10 m K c); iexact HI
    isplitl [ORr1_2]; · iexact ORr1_2
    isplitl [AP10]; · iexact AP10
    isplitl [HO]; · iexact HO
    isplitl [T71]; · iexact T71
    isplitr; · iexact R27
    isplitl [T27]; · iexact T27
    iexact rp10
  iintro ⟨Cs24, HO⟩
  sl_exec_parts
  iapply (wait_dma m K c 38 (by decide) (owed_33 c) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))) $$ [C11 HO P39]
  · isplitr; · iapply (State.inv_own_38 m K c); iexact HI
    isplitl [C11]; · iexact C11
    isplitl [HO]; · iexact HO
    isplitr; · iapply h_mayWait_ag0_3; iexact Hlev
    iexact P39
  iintro ⟨HO, P39, -, OR0_3⟩
  ihave OR0_3 := (Entails.of_eq (show (dmaPay m c 38 0 : sProp 𝕄) = rpts c (oCh (k0_off2 c 0#32 3#32) (k0_off2_inb c 4)) fullShare (Res m c) from rfl)) $$ OR0_3
  ihave ORh0_3 := (share_split (F := F) c (oCh (k0_off2 c 0#32 3#32) (k0_off2_inb c 4)) (Res m c)) $$ OR0_3
  icases ORh0_3 with ⟨ORl0_3, ORr0_3⟩
  sl_exec_parts
  iapply (zsend_gather_0_3 m K c ⟨k0_dev34 c, k0_dev34_lt c⟩ (dev34_eq c) fz4 (owed_34 c) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))) $$ [ORl0_3 AZ4 HO T79 T35]
  · isplitr; · iapply (State.inv_own_60 m K c); iexact HI
    isplitr; · iapply (State.inv_part_4 m K c); iexact HI
    isplitl [ORl0_3]; · iexact ORl0_3
    isplitl [AZ4]; · iexact AZ4
    isplitl [HO]; · iexact HO
    isplitl [T79]; · iexact T79
    isplitr; · iexact R63
    isplitl [T35]; · iexact T35
    iexact rz4
  iintro ⟨Cz4, HO⟩
  sl_exec_parts
  iapply (wait_dma m K c 52 (by decide) (owed_34 c) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))) $$ [C25 HO P53]
  · isplitr; · iapply (State.inv_own_52 m K c); iexact HI
    isplitl [C25]; · iexact C25
    isplitl [HO]; · iexact HO
    isplitr; · iapply h_mayWait_ag1_3; iexact Hlev
    iexact P53
  iintro ⟨HO, P53, -, OR1_3⟩
  ihave OR1_3 := (Entails.of_eq (show (dmaPay m c 52 0 : sProp 𝕄) = rpts c (oCh (k0_off2 c 4096#32 4294967293#32) (k0_off2_inb c 5)) fullShare (Res m c) from rfl)) $$ OR1_3
  ihave ORh1_3 := (share_split (F := F) c (oCh (k0_off2 c 4096#32 4294967293#32) (k0_off2_inb c 5)) (Res m c)) $$ OR1_3
  icases ORh1_3 with ⟨ORl1_3, ORr1_3⟩
  sl_exec_parts
  iapply (zsend_gather_1_3 m K c ⟨k0_dev35 c, k0_dev35_lt c⟩ (dev35_eq c) fz12 (owed_35 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [ORl1_3 AZ12 HO T87 T43]
  · isplitr; · iapply (State.inv_own_68 m K c); iexact HI
    isplitr; · iapply (State.inv_part_12 m K c); iexact HI
    isplitl [ORl1_3]; · iexact ORl1_3
    isplitl [AZ12]; · iexact AZ12
    isplitl [HO]; · iexact HO
    isplitl [T87]; · iexact T87
    isplitr; · iexact R71
    isplitl [T43]; · iexact T43
    iexact rz12
  iintro ⟨Cz12, HO⟩
  sl_exec_parts
  ihave ORr0_3 := (Entails.of_eq (rpts_oCh_congr (F := F) c (k0_off2 c 0#32 3#32) (k0_off4 c 0#32 1#32 4#32) (k0_off2_inb c 4) (k0_off4_inb c 8) ((off2_0_3 c).trans (off4_0_4 c).symm) fullShare.right (Res m c))) $$ ORr0_3
  iapply (send_gather_0_4 m K c ⟨k0_dev36 c, k0_dev36_lt c⟩ (dev36_eq c) fs11 (owed_36 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [ORr0_3 AS11 HO T58 T14]
  · isplitr; · iapply (State.inv_own_11 m K c); iexact HI
    isplitr; · iapply (State.inv_succ_11 m K c); iexact HI
    isplitl [ORr0_3]; · iexact ORr0_3
    isplitl [AS11]; · iexact AS11
    isplitl [HO]; · iexact HO
    isplitl [T58]; · iexact T58
    isplitr; · iexact R14
    isplitl [T14]; · iexact T14
    iexact rs11
  iintro ⟨Cs11, HO⟩
  sl_exec_parts
  ihave ORr1_3 := (Entails.of_eq (rpts_oCh_congr (F := F) c (k0_off2 c 4096#32 4294967293#32) (k0_off4 c 4096#32 4294967295#32 4294967292#32) (k0_off2_inb c 5) (k0_off4_inb c 9) ((off2_1_3 c).trans (off4_1_4 c).symm) fullShare.right (Res m c))) $$ ORr1_3
  iapply (send_gather_1_4 m K c ⟨k0_dev37 c, k0_dev37_lt c⟩ (dev37_eq c) fp11 (owed_37 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [ORr1_3 AP11 HO T72 T28]
  · isplitr; · iapply (State.inv_own_25 m K c); iexact HI
    isplitr; · iapply (State.inv_pred_11 m K c); iexact HI
    isplitl [ORr1_3]; · iexact ORr1_3
    isplitl [AP11]; · iexact AP11
    isplitl [HO]; · iexact HO
    isplitl [T72]; · iexact T72
    isplitr; · iexact R28
    isplitl [T28]; · iexact T28
    iexact rp11
  iintro ⟨Cs25, HO⟩
  sl_exec_parts
  iapply (wait_dma m K c 39 (by decide) (owed_37 c) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))) $$ [C12 HO P40]
  · isplitr; · iapply (State.inv_own_39 m K c); iexact HI
    isplitl [C12]; · iexact C12
    isplitl [HO]; · iexact HO
    isplitr; · iapply h_mayWait_ag0_4; iexact Hlev
    iexact P40
  iintro ⟨HO, P40, -, OR0_4⟩
  ihave OR0_4 := (Entails.of_eq (show (dmaPay m c 39 0 : sProp 𝕄) = rpts c (oCh (k0_off2 c 0#32 4#32) (k0_off2_inb c 6)) fullShare (Res m c) from rfl)) $$ OR0_4
  ihave ORh0_4 := (share_split (F := F) c (oCh (k0_off2 c 0#32 4#32) (k0_off2_inb c 6)) (Res m c)) $$ OR0_4
  icases ORh0_4 with ⟨ORl0_4, ORr0_4⟩
  sl_exec_parts
  iapply (zsend_gather_0_4 m K c ⟨k0_dev38 c, k0_dev38_lt c⟩ (dev38_eq c) fz5 (owed_38 c) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))) $$ [ORl0_4 AZ5 HO T80 T36]
  · isplitr; · iapply (State.inv_own_61 m K c); iexact HI
    isplitr; · iapply (State.inv_part_5 m K c); iexact HI
    isplitl [ORl0_4]; · iexact ORl0_4
    isplitl [AZ5]; · iexact AZ5
    isplitl [HO]; · iexact HO
    isplitl [T80]; · iexact T80
    isplitr; · iexact R64
    isplitl [T36]; · iexact T36
    iexact rz5
  iintro ⟨Cz5, HO⟩
  sl_exec_parts
  iapply (wait_dma m K c 53 (by decide) (owed_38 c) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))) $$ [C26 HO P54]
  · isplitr; · iapply (State.inv_own_53 m K c); iexact HI
    isplitl [C26]; · iexact C26
    isplitl [HO]; · iexact HO
    isplitr; · iapply h_mayWait_ag1_4; iexact Hlev
    iexact P54
  iintro ⟨HO, P54, -, OR1_4⟩
  ihave OR1_4 := (Entails.of_eq (show (dmaPay m c 53 0 : sProp 𝕄) = rpts c (oCh (k0_off2 c 4096#32 4294967292#32) (k0_off2_inb c 7)) fullShare (Res m c) from rfl)) $$ OR1_4
  ihave ORh1_4 := (share_split (F := F) c (oCh (k0_off2 c 4096#32 4294967292#32) (k0_off2_inb c 7)) (Res m c)) $$ OR1_4
  icases ORh1_4 with ⟨ORl1_4, ORr1_4⟩
  sl_exec_parts
  iapply (zsend_gather_1_4 m K c ⟨k0_dev39 c, k0_dev39_lt c⟩ (dev39_eq c) fz13 (owed_39 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [ORl1_4 AZ13 HO T88 T44]
  · isplitr; · iapply (State.inv_own_69 m K c); iexact HI
    isplitr; · iapply (State.inv_part_13 m K c); iexact HI
    isplitl [ORl1_4]; · iexact ORl1_4
    isplitl [AZ13]; · iexact AZ13
    isplitl [HO]; · iexact HO
    isplitl [T88]; · iexact T88
    isplitr; · iexact R72
    isplitl [T44]; · iexact T44
    iexact rz13
  iintro ⟨Cz13, HO⟩
  sl_exec_parts
  ihave ORr0_4 := (Entails.of_eq (rpts_oCh_congr (F := F) c (k0_off2 c 0#32 4#32) (k0_off4 c 0#32 1#32 5#32) (k0_off2_inb c 6) (k0_off4_inb c 10) ((off2_0_4 c).trans (off4_0_5 c).symm) fullShare.right (Res m c))) $$ ORr0_4
  iapply (send_gather_0_5 m K c ⟨k0_dev40 c, k0_dev40_lt c⟩ (dev40_eq c) fs12 (owed_40 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [ORr0_4 AS12 HO T59 T15]
  · isplitr; · iapply (State.inv_own_12 m K c); iexact HI
    isplitr; · iapply (State.inv_succ_12 m K c); iexact HI
    isplitl [ORr0_4]; · iexact ORr0_4
    isplitl [AS12]; · iexact AS12
    isplitl [HO]; · iexact HO
    isplitl [T59]; · iexact T59
    isplitr; · iexact R15
    isplitl [T15]; · iexact T15
    iexact rs12
  iintro ⟨Cs12, HO⟩
  sl_exec_parts
  ihave ORr1_4 := (Entails.of_eq (rpts_oCh_congr (F := F) c (k0_off2 c 4096#32 4294967292#32) (k0_off4 c 4096#32 4294967295#32 4294967291#32) (k0_off2_inb c 7) (k0_off4_inb c 11) ((off2_1_4 c).trans (off4_1_5 c).symm) fullShare.right (Res m c))) $$ ORr1_4
  iapply (send_gather_1_5 m K c ⟨k0_dev41 c, k0_dev41_lt c⟩ (dev41_eq c) fp12 (owed_41 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [ORr1_4 AP12 HO T73 T29]
  · isplitr; · iapply (State.inv_own_26 m K c); iexact HI
    isplitr; · iapply (State.inv_pred_12 m K c); iexact HI
    isplitl [ORr1_4]; · iexact ORr1_4
    isplitl [AP12]; · iexact AP12
    isplitl [HO]; · iexact HO
    isplitl [T73]; · iexact T73
    isplitr; · iexact R29
    isplitl [T29]; · iexact T29
    iexact rp12
  iintro ⟨Cs26, HO⟩
  sl_exec_parts
  iapply (wait_dma m K c 40 (by decide) (owed_41 c) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))) $$ [C13 HO P41]
  · isplitr; · iapply (State.inv_own_40 m K c); iexact HI
    isplitl [C13]; · iexact C13
    isplitl [HO]; · iexact HO
    isplitr; · iapply h_mayWait_ag0_5; iexact Hlev
    iexact P41
  iintro ⟨HO, P41, -, OR0_5⟩
  ihave OR0_5 := (Entails.of_eq (show (dmaPay m c 40 0 : sProp 𝕄) = rpts c (oCh (k0_off2 c 0#32 5#32) (k0_off2_inb c 8)) fullShare (Res m c) from rfl)) $$ OR0_5
  ihave ORh0_5 := (share_split (F := F) c (oCh (k0_off2 c 0#32 5#32) (k0_off2_inb c 8)) (Res m c)) $$ OR0_5
  icases ORh0_5 with ⟨ORl0_5, ORr0_5⟩
  sl_exec_parts
  iapply (zsend_gather_0_5 m K c ⟨k0_dev42 c, k0_dev42_lt c⟩ (dev42_eq c) fz6 (owed_42 c) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))) $$ [ORl0_5 AZ6 HO T81 T37]
  · isplitr; · iapply (State.inv_own_62 m K c); iexact HI
    isplitr; · iapply (State.inv_part_6 m K c); iexact HI
    isplitl [ORl0_5]; · iexact ORl0_5
    isplitl [AZ6]; · iexact AZ6
    isplitl [HO]; · iexact HO
    isplitl [T81]; · iexact T81
    isplitr; · iexact R65
    isplitl [T37]; · iexact T37
    iexact rz6
  iintro ⟨Cz6, HO⟩
  sl_exec_parts
  iapply (wait_dma m K c 54 (by decide) (owed_42 c) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))) $$ [C27 HO P55]
  · isplitr; · iapply (State.inv_own_54 m K c); iexact HI
    isplitl [C27]; · iexact C27
    isplitl [HO]; · iexact HO
    isplitr; · iapply h_mayWait_ag1_5; iexact Hlev
    iexact P55
  iintro ⟨HO, P55, -, OR1_5⟩
  ihave OR1_5 := (Entails.of_eq (show (dmaPay m c 54 0 : sProp 𝕄) = rpts c (oCh (k0_off2 c 4096#32 4294967291#32) (k0_off2_inb c 9)) fullShare (Res m c) from rfl)) $$ OR1_5
  ihave ORh1_5 := (share_split (F := F) c (oCh (k0_off2 c 4096#32 4294967291#32) (k0_off2_inb c 9)) (Res m c)) $$ OR1_5
  icases ORh1_5 with ⟨ORl1_5, ORr1_5⟩
  sl_exec_parts
  iapply (zsend_gather_1_5 m K c ⟨k0_dev43 c, k0_dev43_lt c⟩ (dev43_eq c) fz14 (owed_43 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [ORl1_5 AZ14 HO T89 T45]
  · isplitr; · iapply (State.inv_own_70 m K c); iexact HI
    isplitr; · iapply (State.inv_part_14 m K c); iexact HI
    isplitl [ORl1_5]; · iexact ORl1_5
    isplitl [AZ14]; · iexact AZ14
    isplitl [HO]; · iexact HO
    isplitl [T89]; · iexact T89
    isplitr; · iexact R73
    isplitl [T45]; · iexact T45
    iexact rz14
  iintro ⟨Cz14, HO⟩
  sl_exec_parts
  ihave ORr0_5 := (Entails.of_eq (rpts_oCh_congr (F := F) c (k0_off2 c 0#32 5#32) (k0_off4 c 0#32 1#32 6#32) (k0_off2_inb c 8) (k0_off4_inb c 12) ((off2_0_5 c).trans (off4_0_6 c).symm) fullShare.right (Res m c))) $$ ORr0_5
  iapply (send_gather_0_6 m K c ⟨k0_dev44 c, k0_dev44_lt c⟩ (dev44_eq c) fs13 (owed_44 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [ORr0_5 AS13 HO T60 T16]
  · isplitr; · iapply (State.inv_own_13 m K c); iexact HI
    isplitr; · iapply (State.inv_succ_13 m K c); iexact HI
    isplitl [ORr0_5]; · iexact ORr0_5
    isplitl [AS13]; · iexact AS13
    isplitl [HO]; · iexact HO
    isplitl [T60]; · iexact T60
    isplitr; · iexact R16
    isplitl [T16]; · iexact T16
    iexact rs13
  iintro ⟨Cs13, HO⟩
  sl_exec_parts
  ihave ORr1_5 := (Entails.of_eq (rpts_oCh_congr (F := F) c (k0_off2 c 4096#32 4294967291#32) (k0_off4 c 4096#32 4294967295#32 4294967290#32) (k0_off2_inb c 9) (k0_off4_inb c 13) ((off2_1_5 c).trans (off4_1_6 c).symm) fullShare.right (Res m c))) $$ ORr1_5
  iapply (send_gather_1_6 m K c ⟨k0_dev45 c, k0_dev45_lt c⟩ (dev45_eq c) fp13 (owed_45 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [ORr1_5 AP13 HO T74 T30]
  · isplitr; · iapply (State.inv_own_27 m K c); iexact HI
    isplitr; · iapply (State.inv_pred_13 m K c); iexact HI
    isplitl [ORr1_5]; · iexact ORr1_5
    isplitl [AP13]; · iexact AP13
    isplitl [HO]; · iexact HO
    isplitl [T74]; · iexact T74
    isplitr; · iexact R30
    isplitl [T30]; · iexact T30
    iexact rp13
  iintro ⟨Cs27, HO⟩
  sl_exec_parts
  iapply (wait_dma m K c 41 (by decide) (owed_45 c) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))) $$ [C14 HO P42]
  · isplitr; · iapply (State.inv_own_41 m K c); iexact HI
    isplitl [C14]; · iexact C14
    isplitl [HO]; · iexact HO
    isplitr; · iapply h_mayWait_ag0_6; iexact Hlev
    iexact P42
  iintro ⟨HO, P42, -, OR0_6⟩
  ihave OR0_6 := (Entails.of_eq (show (dmaPay m c 41 0 : sProp 𝕄) = rpts c (oCh (k0_off2 c 0#32 6#32) (k0_off2_inb c 10)) fullShare (Res m c) from rfl)) $$ OR0_6
  ihave ORh0_6 := (share_split (F := F) c (oCh (k0_off2 c 0#32 6#32) (k0_off2_inb c 10)) (Res m c)) $$ OR0_6
  icases ORh0_6 with ⟨ORl0_6, ORr0_6⟩
  sl_exec_parts
  iapply (zsend_gather_0_6 m K c ⟨k0_dev46 c, k0_dev46_lt c⟩ (dev46_eq c) fz7 (owed_46 c) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))) $$ [ORl0_6 AZ7 HO T82 T38]
  · isplitr; · iapply (State.inv_own_63 m K c); iexact HI
    isplitr; · iapply (State.inv_part_7 m K c); iexact HI
    isplitl [ORl0_6]; · iexact ORl0_6
    isplitl [AZ7]; · iexact AZ7
    isplitl [HO]; · iexact HO
    isplitl [T82]; · iexact T82
    isplitr; · iexact R66
    isplitl [T38]; · iexact T38
    iexact rz7
  iintro ⟨Cz7, HO⟩
  sl_exec_parts
  iapply (wait_dma m K c 55 (by decide) (owed_46 c) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))) $$ [C28 HO P56]
  · isplitr; · iapply (State.inv_own_55 m K c); iexact HI
    isplitl [C28]; · iexact C28
    isplitl [HO]; · iexact HO
    isplitr; · iapply h_mayWait_ag1_6; iexact Hlev
    iexact P56
  iintro ⟨HO, P56, -, OR1_6⟩
  ihave OR1_6 := (Entails.of_eq (show (dmaPay m c 55 0 : sProp 𝕄) = rpts c (oCh (k0_off2 c 4096#32 4294967290#32) (k0_off2_inb c 11)) fullShare (Res m c) from rfl)) $$ OR1_6
  ihave ORh1_6 := (share_split (F := F) c (oCh (k0_off2 c 4096#32 4294967290#32) (k0_off2_inb c 11)) (Res m c)) $$ OR1_6
  icases ORh1_6 with ⟨ORl1_6, ORr1_6⟩
  sl_exec_parts
  iapply (zsend_gather_1_6 m K c ⟨k0_dev47 c, k0_dev47_lt c⟩ (dev47_eq c) fz15 (owed_47 c) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))) $$ [ORl1_6 AZ15 HO T90 T46]
  · isplitr; · iapply (State.inv_own_71 m K c); iexact HI
    isplitr; · iapply (State.inv_part_15 m K c); iexact HI
    isplitl [ORl1_6]; · iexact ORl1_6
    isplitl [AZ15]; · iexact AZ15
    isplitl [HO]; · iexact HO
    isplitl [T90]; · iexact T90
    isplitr; · iexact R74
    isplitl [T46]; · iexact T46
    iexact rz15
  iintro ⟨Cz15, HO⟩
  sl_exec_parts
  iapply (wait_dma0 m K c 0 (by decide) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))) $$ [Cs0 HO P1]
  · isplitr; · iapply (State.inv_own_0 m K c); iexact HI
    isplitl [Cs0]; · iexact Cs0
    isplitl [HO]; · iexact HO
    iexact P1
  iintro ⟨HO, P1, -, SP0_0⟩
  ihave SP0_0 := (Entails.of_eq (show (dmaPay m c 0 0 : sProp 𝕄) = rpts c (xCh (k0_off1 c 0#32) (k0_off1_inb c 0)) fullShare (X m c) from rfl)) $$ SP0_0
  sl_exec_parts
  iapply (wait_dma0 m K c 14 (by decide) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))) $$ [Cs14 HO P15]
  · isplitr; · iapply (State.inv_own_14 m K c); iexact HI
    isplitl [Cs14]; · iexact Cs14
    isplitl [HO]; · iexact HO
    iexact P15
  iintro ⟨HO, P15, -, SP1_0⟩
  ihave SP1_0 := (Entails.of_eq (show (dmaPay m c 14 0 : sProp 𝕄) = rpts c (xCh (k0_off1 c 4096#32) (k0_off1_inb c 1)) fullShare (X m c) from rfl)) $$ SP1_0
  sl_exec_parts
  iapply (wait_dma0 m K c 1 (by decide) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))) $$ [Cs1 HO P2]
  · isplitr; · iapply (State.inv_own_1 m K c); iexact HI
    isplitl [Cs1]; · iexact Cs1
    isplitl [HO]; · iexact HO
    iexact P2
  iintro ⟨HO, P2, -, SP0_1⟩
  ihave SP0_1 := (Entails.of_eq (show (dmaPay m c 1 0 : sProp 𝕄) = rpts c (cSl 0 0 inb_S2x7x512x1024_S1x1x512x1024_0_0_0_0) fullShare (CommAcc m c) from rfl)) $$ SP0_1
  sl_exec_parts
  iapply (wait_dma0 m K c 15 (by decide) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))) $$ [Cs15 HO P16]
  · isplitr; · iapply (State.inv_own_15 m K c); iexact HI
    isplitl [Cs15]; · iexact Cs15
    isplitl [HO]; · iexact HO
    iexact P16
  iintro ⟨HO, P16, -, SP1_1⟩
  ihave SP1_1 := (Entails.of_eq (show (dmaPay m c 15 0 : sProp 𝕄) = rpts c (cSl 1 0 inb_S2x7x512x1024_S1x1x512x1024_1_0_0_0) fullShare (CommAcc m c) from rfl)) $$ SP1_1
  sl_exec_parts
  iapply (wait_dma0 m K c 2 (by decide) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))) $$ [Cs2 HO P3]
  · isplitr; · iapply (State.inv_own_2 m K c); iexact HI
    isplitl [Cs2]; · iexact Cs2
    isplitl [HO]; · iexact HO
    iexact P3
  iintro ⟨HO, P3, -, SP0_2⟩
  ihave SP0_2 := (Entails.of_eq (show (dmaPay m c 2 0 : sProp 𝕄) = rpts c (cSl 0 1 inb_S2x7x512x1024_S1x1x512x1024_0_1_0_0) fullShare (CommAcc m c) from rfl)) $$ SP0_2
  sl_exec_parts
  iapply (wait_dma0 m K c 16 (by decide) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))) $$ [Cs16 HO P17]
  · isplitr; · iapply (State.inv_own_16 m K c); iexact HI
    isplitl [Cs16]; · iexact Cs16
    isplitl [HO]; · iexact HO
    iexact P17
  iintro ⟨HO, P17, -, SP1_2⟩
  ihave SP1_2 := (Entails.of_eq (show (dmaPay m c 16 0 : sProp 𝕄) = rpts c (cSl 1 1 inb_S2x7x512x1024_S1x1x512x1024_1_1_0_0) fullShare (CommAcc m c) from rfl)) $$ SP1_2
  sl_exec_parts
  iapply (wait_dma0 m K c 3 (by decide) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))) $$ [Cs3 HO P4]
  · isplitr; · iapply (State.inv_own_3 m K c); iexact HI
    isplitl [Cs3]; · iexact Cs3
    isplitl [HO]; · iexact HO
    iexact P4
  iintro ⟨HO, P4, -, SP0_3⟩
  ihave SP0_3 := (Entails.of_eq (show (dmaPay m c 3 0 : sProp 𝕄) = rpts c (cSl 0 2 inb_S2x7x512x1024_S1x1x512x1024_0_2_0_0) fullShare (CommAcc m c) from rfl)) $$ SP0_3
  sl_exec_parts
  iapply (wait_dma0 m K c 17 (by decide) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))) $$ [Cs17 HO P18]
  · isplitr; · iapply (State.inv_own_17 m K c); iexact HI
    isplitl [Cs17]; · iexact Cs17
    isplitl [HO]; · iexact HO
    iexact P18
  iintro ⟨HO, P18, -, SP1_3⟩
  ihave SP1_3 := (Entails.of_eq (show (dmaPay m c 17 0 : sProp 𝕄) = rpts c (cSl 1 2 inb_S2x7x512x1024_S1x1x512x1024_1_2_0_0) fullShare (CommAcc m c) from rfl)) $$ SP1_3
  sl_exec_parts
  iapply (wait_dma0 m K c 4 (by decide) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))) $$ [Cs4 HO P5]
  · isplitr; · iapply (State.inv_own_4 m K c); iexact HI
    isplitl [Cs4]; · iexact Cs4
    isplitl [HO]; · iexact HO
    iexact P5
  iintro ⟨HO, P5, -, SP0_4⟩
  ihave SP0_4 := (Entails.of_eq (show (dmaPay m c 4 0 : sProp 𝕄) = rpts c (cSl 0 3 inb_S2x7x512x1024_S1x1x512x1024_0_3_0_0) fullShare (CommAcc m c) from rfl)) $$ SP0_4
  sl_exec_parts
  iapply (wait_dma0 m K c 18 (by decide) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))) $$ [Cs18 HO P19]
  · isplitr; · iapply (State.inv_own_18 m K c); iexact HI
    isplitl [Cs18]; · iexact Cs18
    isplitl [HO]; · iexact HO
    iexact P19
  iintro ⟨HO, P19, -, SP1_4⟩
  ihave SP1_4 := (Entails.of_eq (show (dmaPay m c 18 0 : sProp 𝕄) = rpts c (cSl 1 3 inb_S2x7x512x1024_S1x1x512x1024_1_3_0_0) fullShare (CommAcc m c) from rfl)) $$ SP1_4
  sl_exec_parts
  iapply (wait_dma0 m K c 5 (by decide) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))) $$ [Cs5 HO P6]
  · isplitr; · iapply (State.inv_own_5 m K c); iexact HI
    isplitl [Cs5]; · iexact Cs5
    isplitl [HO]; · iexact HO
    iexact P6
  iintro ⟨HO, P6, -, SP0_5⟩
  ihave SP0_5 := (Entails.of_eq (show (dmaPay m c 5 0 : sProp 𝕄) = rpts c (cSl 0 4 inb_S2x7x512x1024_S1x1x512x1024_0_4_0_0) fullShare (CommAcc m c) from rfl)) $$ SP0_5
  sl_exec_parts
  iapply (wait_dma0 m K c 19 (by decide) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))) $$ [Cs19 HO P20]
  · isplitr; · iapply (State.inv_own_19 m K c); iexact HI
    isplitl [Cs19]; · iexact Cs19
    isplitl [HO]; · iexact HO
    iexact P20
  iintro ⟨HO, P20, -, SP1_5⟩
  ihave SP1_5 := (Entails.of_eq (show (dmaPay m c 19 0 : sProp 𝕄) = rpts c (cSl 1 4 inb_S2x7x512x1024_S1x1x512x1024_1_4_0_0) fullShare (CommAcc m c) from rfl)) $$ SP1_5
  sl_exec_parts
  iapply (wait_dma0 m K c 6 (by decide) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))) $$ [Cs6 HO P7]
  · isplitr; · iapply (State.inv_own_6 m K c); iexact HI
    isplitl [Cs6]; · iexact Cs6
    isplitl [HO]; · iexact HO
    iexact P7
  iintro ⟨HO, P7, -, SP0_6⟩
  ihave SP0_6 := (Entails.of_eq (show (dmaPay m c 6 0 : sProp 𝕄) = rpts c (cSl 0 5 inb_S2x7x512x1024_S1x1x512x1024_0_5_0_0) fullShare (CommAcc m c) from rfl)) $$ SP0_6
  sl_exec_parts
  iapply (wait_dma0 m K c 20 (by decide) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))) $$ [Cs20 HO P21]
  · isplitr; · iapply (State.inv_own_20 m K c); iexact HI
    isplitl [Cs20]; · iexact Cs20
    isplitl [HO]; · iexact HO
    iexact P21
  iintro ⟨HO, P21, -, SP1_6⟩
  ihave SP1_6 := (Entails.of_eq (show (dmaPay m c 20 0 : sProp 𝕄) = rpts c (cSl 1 5 inb_S2x7x512x1024_S1x1x512x1024_1_5_0_0) fullShare (CommAcc m c) from rfl)) $$ SP1_6
  sl_exec_parts
  iapply (wait_dma0 m K c 7 (by decide) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))) $$ [Cs7 HO P8]
  · isplitr; · iapply (State.inv_own_7 m K c); iexact HI
    isplitl [Cs7]; · iexact Cs7
    isplitl [HO]; · iexact HO
    iexact P8
  iintro ⟨HO, P8, -, SP0_7⟩
  ihave SP0_7 := (Entails.of_eq (show (dmaPay m c 7 0 : sProp 𝕄) = rpts c (cSl 0 6 inb_S2x7x512x1024_S1x1x512x1024_0_6_0_0) fullShare.right (CommAcc m c) from rfl)) $$ SP0_7
  sl_exec_parts
  iapply (wait_dma0 m K c 21 (by decide) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))) $$ [Cs21 HO P22]
  · isplitr; · iapply (State.inv_own_21 m K c); iexact HI
    isplitl [Cs21]; · iexact Cs21
    isplitl [HO]; · iexact HO
    iexact P22
  iintro ⟨HO, P22, -, SP1_7⟩
  ihave SP1_7 := (Entails.of_eq (show (dmaPay m c 21 0 : sProp 𝕄) = rpts c (cSl 1 6 inb_S2x7x512x1024_S1x1x512x1024_1_6_0_0) fullShare.right (CommAcc m c) from rfl)) $$ SP1_7
  sl_exec_parts
  iapply (wait_dma0 m K c 8 (by decide) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))) $$ [Cs8 HO P9]
  · isplitr; · iapply (State.inv_own_8 m K c); iexact HI
    isplitl [Cs8]; · iexact Cs8
    isplitl [HO]; · iexact HO
    iexact P9
  iintro ⟨HO, P9, -, SP0_8⟩
  ihave SP0_8 := (Entails.of_eq (show (dmaPay m c 8 0 : sProp 𝕄) = rpts c (oCh (k0_off4 c 0#32 1#32 1#32) (k0_off4_inb c 2)) fullShare.right (Res m c) from rfl)) $$ SP0_8
  sl_exec_parts
  iapply (wait_dma0 m K c 22 (by decide) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))) $$ [Cs22 HO P23]
  · isplitr; · iapply (State.inv_own_22 m K c); iexact HI
    isplitl [Cs22]; · iexact Cs22
    isplitl [HO]; · iexact HO
    iexact P23
  iintro ⟨HO, P23, -, SP1_8⟩
  ihave SP1_8 := (Entails.of_eq (show (dmaPay m c 22 0 : sProp 𝕄) = rpts c (oCh (k0_off4 c 4096#32 4294967295#32 4294967295#32) (k0_off4_inb c 3)) fullShare.right (Res m c) from rfl)) $$ SP1_8
  sl_exec_parts
  iapply (wait_dma0 m K c 9 (by decide) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))) $$ [Cs9 HO P10]
  · isplitr; · iapply (State.inv_own_9 m K c); iexact HI
    isplitl [Cs9]; · iexact Cs9
    isplitl [HO]; · iexact HO
    iexact P10
  iintro ⟨HO, P10, -, SP0_9⟩
  ihave SP0_9 := (Entails.of_eq (show (dmaPay m c 9 0 : sProp 𝕄) = rpts c (oCh (k0_off4 c 0#32 1#32 2#32) (k0_off4_inb c 4)) fullShare.right (Res m c) from rfl)) $$ SP0_9
  sl_exec_parts
  iapply (wait_dma0 m K c 23 (by decide) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))) $$ [Cs23 HO P24]
  · isplitr; · iapply (State.inv_own_23 m K c); iexact HI
    isplitl [Cs23]; · iexact Cs23
    isplitl [HO]; · iexact HO
    iexact P24
  iintro ⟨HO, P24, -, SP1_9⟩
  ihave SP1_9 := (Entails.of_eq (show (dmaPay m c 23 0 : sProp 𝕄) = rpts c (oCh (k0_off4 c 4096#32 4294967295#32 4294967294#32) (k0_off4_inb c 5)) fullShare.right (Res m c) from rfl)) $$ SP1_9
  sl_exec_parts
  iapply (wait_dma0 m K c 10 (by decide) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))) $$ [Cs10 HO P11]
  · isplitr; · iapply (State.inv_own_10 m K c); iexact HI
    isplitl [Cs10]; · iexact Cs10
    isplitl [HO]; · iexact HO
    iexact P11
  iintro ⟨HO, P11, -, SP0_10⟩
  ihave SP0_10 := (Entails.of_eq (show (dmaPay m c 10 0 : sProp 𝕄) = rpts c (oCh (k0_off4 c 0#32 1#32 3#32) (k0_off4_inb c 6)) fullShare.right (Res m c) from rfl)) $$ SP0_10
  sl_exec_parts
  iapply (wait_dma0 m K c 24 (by decide) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))) $$ [Cs24 HO P25]
  · isplitr; · iapply (State.inv_own_24 m K c); iexact HI
    isplitl [Cs24]; · iexact Cs24
    isplitl [HO]; · iexact HO
    iexact P25
  iintro ⟨HO, P25, -, SP1_10⟩
  ihave SP1_10 := (Entails.of_eq (show (dmaPay m c 24 0 : sProp 𝕄) = rpts c (oCh (k0_off4 c 4096#32 4294967295#32 4294967293#32) (k0_off4_inb c 7)) fullShare.right (Res m c) from rfl)) $$ SP1_10
  sl_exec_parts
  iapply (wait_dma0 m K c 11 (by decide) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))) $$ [Cs11 HO P12]
  · isplitr; · iapply (State.inv_own_11 m K c); iexact HI
    isplitl [Cs11]; · iexact Cs11
    isplitl [HO]; · iexact HO
    iexact P12
  iintro ⟨HO, P12, -, SP0_11⟩
  ihave SP0_11 := (Entails.of_eq (show (dmaPay m c 11 0 : sProp 𝕄) = rpts c (oCh (k0_off4 c 0#32 1#32 4#32) (k0_off4_inb c 8)) fullShare.right (Res m c) from rfl)) $$ SP0_11
  sl_exec_parts
  iapply (wait_dma0 m K c 25 (by decide) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))) $$ [Cs25 HO P26]
  · isplitr; · iapply (State.inv_own_25 m K c); iexact HI
    isplitl [Cs25]; · iexact Cs25
    isplitl [HO]; · iexact HO
    iexact P26
  iintro ⟨HO, P26, -, SP1_11⟩
  ihave SP1_11 := (Entails.of_eq (show (dmaPay m c 25 0 : sProp 𝕄) = rpts c (oCh (k0_off4 c 4096#32 4294967295#32 4294967292#32) (k0_off4_inb c 9)) fullShare.right (Res m c) from rfl)) $$ SP1_11
  sl_exec_parts
  iapply (wait_dma0 m K c 12 (by decide) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))) $$ [Cs12 HO P13]
  · isplitr; · iapply (State.inv_own_12 m K c); iexact HI
    isplitl [Cs12]; · iexact Cs12
    isplitl [HO]; · iexact HO
    iexact P13
  iintro ⟨HO, P13, -, SP0_12⟩
  ihave SP0_12 := (Entails.of_eq (show (dmaPay m c 12 0 : sProp 𝕄) = rpts c (oCh (k0_off4 c 0#32 1#32 5#32) (k0_off4_inb c 10)) fullShare.right (Res m c) from rfl)) $$ SP0_12
  sl_exec_parts
  iapply (wait_dma0 m K c 26 (by decide) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))) $$ [Cs26 HO P27]
  · isplitr; · iapply (State.inv_own_26 m K c); iexact HI
    isplitl [Cs26]; · iexact Cs26
    isplitl [HO]; · iexact HO
    iexact P27
  iintro ⟨HO, P27, -, SP1_12⟩
  ihave SP1_12 := (Entails.of_eq (show (dmaPay m c 26 0 : sProp 𝕄) = rpts c (oCh (k0_off4 c 4096#32 4294967295#32 4294967291#32) (k0_off4_inb c 11)) fullShare.right (Res m c) from rfl)) $$ SP1_12
  sl_exec_parts
  iapply (wait_dma0 m K c 13 (by decide) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))) $$ [Cs13 HO P14]
  · isplitr; · iapply (State.inv_own_13 m K c); iexact HI
    isplitl [Cs13]; · iexact Cs13
    isplitl [HO]; · iexact HO
    iexact P14
  iintro ⟨HO, P14, -, SP0_13⟩
  ihave SP0_13 := (Entails.of_eq (show (dmaPay m c 13 0 : sProp 𝕄) = rpts c (oCh (k0_off4 c 0#32 1#32 6#32) (k0_off4_inb c 12)) fullShare.right (Res m c) from rfl)) $$ SP0_13
  sl_exec_parts
  iapply (wait_dma0 m K c 27 (by decide) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))) $$ [Cs27 HO P28]
  · isplitr; · iapply (State.inv_own_27 m K c); iexact HI
    isplitl [Cs27]; · iexact Cs27
    isplitl [HO]; · iexact HO
    iexact P28
  iintro ⟨HO, P28, -, SP1_13⟩
  ihave SP1_13 := (Entails.of_eq (show (dmaPay m c 27 0 : sProp 𝕄) = rpts c (oCh (k0_off4 c 4096#32 4294967295#32 4294967290#32) (k0_off4_inb c 13)) fullShare.right (Res m c) from rfl)) $$ SP1_13
  sl_exec_parts
  iapply (wait_dma0 m K c 56 (by decide) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))) $$ [Cz0 HO P57]
  · isplitr; · iapply (State.inv_own_56 m K c); iexact HI
    isplitl [Cz0]; · iexact Cz0
    isplitl [HO]; · iexact HO
    iexact P57
  iintro ⟨HO, P57, -, ZP0_0⟩
  ihave ZP0_0 := (Entails.of_eq (show (dmaPay m c 56 0 : sProp 𝕄) = rpts c (cSl 0 6 inb_S2x7x512x1024_S1x1x512x1024_0_6_0_0) fullShare.left (CommAcc m c) from rfl)) $$ ZP0_0
  sl_exec_parts
  iapply (wait_dma0 m K c 72 (by decide) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))) $$ [C29 HO P73]
  · isplitr; · iapply (State.inv_own_72 m K c); iexact HI
    isplitl [C29]; · iexact C29
    isplitl [HO]; · iexact HO
    iexact P73
  iintro ⟨HO, P73, -, ZR0_0⟩
  ihave ZR0_0 := (Entails.of_eq (show (dmaPay m c 72 0 : sProp 𝕄) = rpts c (oCh (k0_off3 (partD c) 0#32 1#32) (k0_off3_inb (partD c) 0)) fullShare (Res m c) from rfl)) $$ ZR0_0
  sl_exec_parts
  iapply (wait_dma0 m K c 64 (by decide) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))) $$ [Cz8 HO P65]
  · isplitr; · iapply (State.inv_own_64 m K c); iexact HI
    isplitl [Cz8]; · iexact Cz8
    isplitl [HO]; · iexact HO
    iexact P65
  iintro ⟨HO, P65, -, ZP1_0⟩
  ihave ZP1_0 := (Entails.of_eq (show (dmaPay m c 64 0 : sProp 𝕄) = rpts c (cSl 1 6 inb_S2x7x512x1024_S1x1x512x1024_1_6_0_0) fullShare.left (CommAcc m c) from rfl)) $$ ZP1_0
  sl_exec_parts
  iapply (wait_dma0 m K c 80 (by decide) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))) $$ [C37 HO P81]
  · isplitr; · iapply (State.inv_own_80 m K c); iexact HI
    isplitl [C37]; · iexact C37
    isplitl [HO]; · iexact HO
    iexact P81
  iintro ⟨HO, P81, -, ZR1_0⟩
  ihave ZR1_0 := (Entails.of_eq (show (dmaPay m c 80 0 : sProp 𝕄) = rpts c (oCh (k0_off3 (partD c) 4096#32 4294967295#32) (k0_off3_inb (partD c) 1)) fullShare (Res m c) from rfl)) $$ ZR1_0
  sl_exec_parts
  iapply (wait_dma0 m K c 57 (by decide) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))) $$ [Cz1 HO P58]
  · isplitr; · iapply (State.inv_own_57 m K c); iexact HI
    isplitl [Cz1]; · iexact Cz1
    isplitl [HO]; · iexact HO
    iexact P58
  iintro ⟨HO, P58, -, ZP0_1⟩
  ihave ZP0_1 := (Entails.of_eq (show (dmaPay m c 57 0 : sProp 𝕄) = rpts c (oCh (k0_off2 c 0#32 0#32) (k0_off2_inb c 14)) fullShare.left (Res m c) from rfl)) $$ ZP0_1
  sl_exec_parts
  iapply (wait_dma0 m K c 73 (by decide) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))) $$ [C30 HO P74]
  · isplitr; · iapply (State.inv_own_73 m K c); iexact HI
    isplitl [C30]; · iexact C30
    isplitl [HO]; · iexact HO
    iexact P74
  iintro ⟨HO, P74, -, ZR0_1⟩
  ihave ZR0_1 := (Entails.of_eq (show (dmaPay m c 73 0 : sProp 𝕄) = rpts c (oCh (k0_off2 (partD c) 0#32 0#32) (k0_off2_inb (partD c) 14)) fullShare (Res m c) from rfl)) $$ ZR0_1
  sl_exec_parts
  iapply (wait_dma0 m K c 65 (by decide) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))) $$ [Cz9 HO P66]
  · isplitr; · iapply (State.inv_own_65 m K c); iexact HI
    isplitl [Cz9]; · iexact Cz9
    isplitl [HO]; · iexact HO
    iexact P66
  iintro ⟨HO, P66, -, ZP1_1⟩
  ihave ZP1_1 := (Entails.of_eq (show (dmaPay m c 65 0 : sProp 𝕄) = rpts c (oCh (k0_off2 c 4096#32 0#32) (k0_off2_inb c 15)) fullShare.left (Res m c) from rfl)) $$ ZP1_1
  sl_exec_parts
  iapply (wait_dma0 m K c 81 (by decide) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))) $$ [C38 HO P82]
  · isplitr; · iapply (State.inv_own_81 m K c); iexact HI
    isplitl [C38]; · iexact C38
    isplitl [HO]; · iexact HO
    iexact P82
  iintro ⟨HO, P82, -, ZR1_1⟩
  ihave ZR1_1 := (Entails.of_eq (show (dmaPay m c 81 0 : sProp 𝕄) = rpts c (oCh (k0_off2 (partD c) 4096#32 0#32) (k0_off2_inb (partD c) 15)) fullShare (Res m c) from rfl)) $$ ZR1_1
  sl_exec_parts
  iapply (wait_dma0 m K c 58 (by decide) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))) $$ [Cz2 HO P59]
  · isplitr; · iapply (State.inv_own_58 m K c); iexact HI
    isplitl [Cz2]; · iexact Cz2
    isplitl [HO]; · iexact HO
    iexact P59
  iintro ⟨HO, P59, -, ZP0_2⟩
  ihave ZP0_2 := (Entails.of_eq (show (dmaPay m c 58 0 : sProp 𝕄) = rpts c (oCh (k0_off2 c 0#32 1#32) (k0_off2_inb c 0)) fullShare.left (Res m c) from rfl)) $$ ZP0_2
  sl_exec_parts
  iapply (wait_dma0 m K c 74 (by decide) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))) $$ [C31 HO P75]
  · isplitr; · iapply (State.inv_own_74 m K c); iexact HI
    isplitl [C31]; · iexact C31
    isplitl [HO]; · iexact HO
    iexact P75
  iintro ⟨HO, P75, -, ZR0_2⟩
  ihave ZR0_2 := (Entails.of_eq (show (dmaPay m c 74 0 : sProp 𝕄) = rpts c (oCh (k0_off2 (partD c) 0#32 1#32) (k0_off2_inb (partD c) 0)) fullShare (Res m c) from rfl)) $$ ZR0_2
  sl_exec_parts
  iapply (wait_dma0 m K c 66 (by decide) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))) $$ [Cz10 HO P67]
  · isplitr; · iapply (State.inv_own_66 m K c); iexact HI
    isplitl [Cz10]; · iexact Cz10
    isplitl [HO]; · iexact HO
    iexact P67
  iintro ⟨HO, P67, -, ZP1_2⟩
  ihave ZP1_2 := (Entails.of_eq (show (dmaPay m c 66 0 : sProp 𝕄) = rpts c (oCh (k0_off2 c 4096#32 4294967295#32) (k0_off2_inb c 1)) fullShare.left (Res m c) from rfl)) $$ ZP1_2
  sl_exec_parts
  iapply (wait_dma0 m K c 82 (by decide) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))) $$ [C39 HO P83]
  · isplitr; · iapply (State.inv_own_82 m K c); iexact HI
    isplitl [C39]; · iexact C39
    isplitl [HO]; · iexact HO
    iexact P83
  iintro ⟨HO, P83, -, ZR1_2⟩
  ihave ZR1_2 := (Entails.of_eq (show (dmaPay m c 82 0 : sProp 𝕄) = rpts c (oCh (k0_off2 (partD c) 4096#32 4294967295#32) (k0_off2_inb (partD c) 1)) fullShare (Res m c) from rfl)) $$ ZR1_2
  sl_exec_parts
  iapply (wait_dma0 m K c 59 (by decide) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))) $$ [Cz3 HO P60]
  · isplitr; · iapply (State.inv_own_59 m K c); iexact HI
    isplitl [Cz3]; · iexact Cz3
    isplitl [HO]; · iexact HO
    iexact P60
  iintro ⟨HO, P60, -, ZP0_3⟩
  ihave ZP0_3 := (Entails.of_eq (show (dmaPay m c 59 0 : sProp 𝕄) = rpts c (oCh (k0_off2 c 0#32 2#32) (k0_off2_inb c 2)) fullShare.left (Res m c) from rfl)) $$ ZP0_3
  sl_exec_parts
  iapply (wait_dma0 m K c 75 (by decide) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))) $$ [C32 HO P76]
  · isplitr; · iapply (State.inv_own_75 m K c); iexact HI
    isplitl [C32]; · iexact C32
    isplitl [HO]; · iexact HO
    iexact P76
  iintro ⟨HO, P76, -, ZR0_3⟩
  ihave ZR0_3 := (Entails.of_eq (show (dmaPay m c 75 0 : sProp 𝕄) = rpts c (oCh (k0_off2 (partD c) 0#32 2#32) (k0_off2_inb (partD c) 2)) fullShare (Res m c) from rfl)) $$ ZR0_3
  sl_exec_parts
  iapply (wait_dma0 m K c 67 (by decide) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))) $$ [Cz11 HO P68]
  · isplitr; · iapply (State.inv_own_67 m K c); iexact HI
    isplitl [Cz11]; · iexact Cz11
    isplitl [HO]; · iexact HO
    iexact P68
  iintro ⟨HO, P68, -, ZP1_3⟩
  ihave ZP1_3 := (Entails.of_eq (show (dmaPay m c 67 0 : sProp 𝕄) = rpts c (oCh (k0_off2 c 4096#32 4294967294#32) (k0_off2_inb c 3)) fullShare.left (Res m c) from rfl)) $$ ZP1_3
  sl_exec_parts
  iapply (wait_dma0 m K c 83 (by decide) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))) $$ [C40 HO P84]
  · isplitr; · iapply (State.inv_own_83 m K c); iexact HI
    isplitl [C40]; · iexact C40
    isplitl [HO]; · iexact HO
    iexact P84
  iintro ⟨HO, P84, -, ZR1_3⟩
  ihave ZR1_3 := (Entails.of_eq (show (dmaPay m c 83 0 : sProp 𝕄) = rpts c (oCh (k0_off2 (partD c) 4096#32 4294967294#32) (k0_off2_inb (partD c) 3)) fullShare (Res m c) from rfl)) $$ ZR1_3
  sl_exec_parts
  iapply (wait_dma0 m K c 60 (by decide) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))) $$ [Cz4 HO P61]
  · isplitr; · iapply (State.inv_own_60 m K c); iexact HI
    isplitl [Cz4]; · iexact Cz4
    isplitl [HO]; · iexact HO
    iexact P61
  iintro ⟨HO, P61, -, ZP0_4⟩
  ihave ZP0_4 := (Entails.of_eq (show (dmaPay m c 60 0 : sProp 𝕄) = rpts c (oCh (k0_off2 c 0#32 3#32) (k0_off2_inb c 4)) fullShare.left (Res m c) from rfl)) $$ ZP0_4
  sl_exec_parts
  iapply (wait_dma0 m K c 76 (by decide) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))) $$ [C33 HO P77]
  · isplitr; · iapply (State.inv_own_76 m K c); iexact HI
    isplitl [C33]; · iexact C33
    isplitl [HO]; · iexact HO
    iexact P77
  iintro ⟨HO, P77, -, ZR0_4⟩
  ihave ZR0_4 := (Entails.of_eq (show (dmaPay m c 76 0 : sProp 𝕄) = rpts c (oCh (k0_off2 (partD c) 0#32 3#32) (k0_off2_inb (partD c) 4)) fullShare (Res m c) from rfl)) $$ ZR0_4
  sl_exec_parts
  iapply (wait_dma0 m K c 68 (by decide) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))) $$ [Cz12 HO P69]
  · isplitr; · iapply (State.inv_own_68 m K c); iexact HI
    isplitl [Cz12]; · iexact Cz12
    isplitl [HO]; · iexact HO
    iexact P69
  iintro ⟨HO, P69, -, ZP1_4⟩
  ihave ZP1_4 := (Entails.of_eq (show (dmaPay m c 68 0 : sProp 𝕄) = rpts c (oCh (k0_off2 c 4096#32 4294967293#32) (k0_off2_inb c 5)) fullShare.left (Res m c) from rfl)) $$ ZP1_4
  sl_exec_parts
  iapply (wait_dma0 m K c 84 (by decide) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))) $$ [C41 HO P85]
  · isplitr; · iapply (State.inv_own_84 m K c); iexact HI
    isplitl [C41]; · iexact C41
    isplitl [HO]; · iexact HO
    iexact P85
  iintro ⟨HO, P85, -, ZR1_4⟩
  ihave ZR1_4 := (Entails.of_eq (show (dmaPay m c 84 0 : sProp 𝕄) = rpts c (oCh (k0_off2 (partD c) 4096#32 4294967293#32) (k0_off2_inb (partD c) 5)) fullShare (Res m c) from rfl)) $$ ZR1_4
  sl_exec_parts
  iapply (wait_dma0 m K c 61 (by decide) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))) $$ [Cz5 HO P62]
  · isplitr; · iapply (State.inv_own_61 m K c); iexact HI
    isplitl [Cz5]; · iexact Cz5
    isplitl [HO]; · iexact HO
    iexact P62
  iintro ⟨HO, P62, -, ZP0_5⟩
  ihave ZP0_5 := (Entails.of_eq (show (dmaPay m c 61 0 : sProp 𝕄) = rpts c (oCh (k0_off2 c 0#32 4#32) (k0_off2_inb c 6)) fullShare.left (Res m c) from rfl)) $$ ZP0_5
  sl_exec_parts
  iapply (wait_dma0 m K c 77 (by decide) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))) $$ [C34 HO P78]
  · isplitr; · iapply (State.inv_own_77 m K c); iexact HI
    isplitl [C34]; · iexact C34
    isplitl [HO]; · iexact HO
    iexact P78
  iintro ⟨HO, P78, -, ZR0_5⟩
  ihave ZR0_5 := (Entails.of_eq (show (dmaPay m c 77 0 : sProp 𝕄) = rpts c (oCh (k0_off2 (partD c) 0#32 4#32) (k0_off2_inb (partD c) 6)) fullShare (Res m c) from rfl)) $$ ZR0_5
  sl_exec_parts
  iapply (wait_dma0 m K c 69 (by decide) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))) $$ [Cz13 HO P70]
  · isplitr; · iapply (State.inv_own_69 m K c); iexact HI
    isplitl [Cz13]; · iexact Cz13
    isplitl [HO]; · iexact HO
    iexact P70
  iintro ⟨HO, P70, -, ZP1_5⟩
  ihave ZP1_5 := (Entails.of_eq (show (dmaPay m c 69 0 : sProp 𝕄) = rpts c (oCh (k0_off2 c 4096#32 4294967292#32) (k0_off2_inb c 7)) fullShare.left (Res m c) from rfl)) $$ ZP1_5
  sl_exec_parts
  iapply (wait_dma0 m K c 85 (by decide) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))) $$ [C42 HO P86]
  · isplitr; · iapply (State.inv_own_85 m K c); iexact HI
    isplitl [C42]; · iexact C42
    isplitl [HO]; · iexact HO
    iexact P86
  iintro ⟨HO, P86, -, ZR1_5⟩
  ihave ZR1_5 := (Entails.of_eq (show (dmaPay m c 85 0 : sProp 𝕄) = rpts c (oCh (k0_off2 (partD c) 4096#32 4294967292#32) (k0_off2_inb (partD c) 7)) fullShare (Res m c) from rfl)) $$ ZR1_5
  sl_exec_parts
  iapply (wait_dma0 m K c 62 (by decide) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))) $$ [Cz6 HO P63]
  · isplitr; · iapply (State.inv_own_62 m K c); iexact HI
    isplitl [Cz6]; · iexact Cz6
    isplitl [HO]; · iexact HO
    iexact P63
  iintro ⟨HO, P63, -, ZP0_6⟩
  ihave ZP0_6 := (Entails.of_eq (show (dmaPay m c 62 0 : sProp 𝕄) = rpts c (oCh (k0_off2 c 0#32 5#32) (k0_off2_inb c 8)) fullShare.left (Res m c) from rfl)) $$ ZP0_6
  sl_exec_parts
  iapply (wait_dma0 m K c 78 (by decide) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))) $$ [C35 HO P79]
  · isplitr; · iapply (State.inv_own_78 m K c); iexact HI
    isplitl [C35]; · iexact C35
    isplitl [HO]; · iexact HO
    iexact P79
  iintro ⟨HO, P79, -, ZR0_6⟩
  ihave ZR0_6 := (Entails.of_eq (show (dmaPay m c 78 0 : sProp 𝕄) = rpts c (oCh (k0_off2 (partD c) 0#32 5#32) (k0_off2_inb (partD c) 8)) fullShare (Res m c) from rfl)) $$ ZR0_6
  sl_exec_parts
  iapply (wait_dma0 m K c 70 (by decide) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))))) $$ [Cz14 HO P71]
  · isplitr; · iapply (State.inv_own_70 m K c); iexact HI
    isplitl [Cz14]; · iexact Cz14
    isplitl [HO]; · iexact HO
    iexact P71
  iintro ⟨HO, P71, -, ZP1_6⟩
  ihave ZP1_6 := (Entails.of_eq (show (dmaPay m c 70 0 : sProp 𝕄) = rpts c (oCh (k0_off2 c 4096#32 4294967291#32) (k0_off2_inb c 9)) fullShare.left (Res m c) from rfl)) $$ ZP1_6
  sl_exec_parts
  iapply (wait_dma0 m K c 86 (by decide) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))))) $$ [C43 HO P87]
  · isplitr; · iapply (State.inv_own_86 m K c); iexact HI
    isplitl [C43]; · iexact C43
    isplitl [HO]; · iexact HO
    iexact P87
  iintro ⟨HO, P87, -, ZR1_6⟩
  ihave ZR1_6 := (Entails.of_eq (show (dmaPay m c 86 0 : sProp 𝕄) = rpts c (oCh (k0_off2 (partD c) 4096#32 4294967291#32) (k0_off2_inb (partD c) 9)) fullShare (Res m c) from rfl)) $$ ZR1_6
  sl_exec_parts
  iapply (wait_dma0 m K c 63 (by decide) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))))))) $$ [Cz7 HO P64]
  · isplitr; · iapply (State.inv_own_63 m K c); iexact HI
    isplitl [Cz7]; · iexact Cz7
    isplitl [HO]; · iexact HO
    iexact P64
  iintro ⟨HO, P64, -, ZP0_7⟩
  ihave ZP0_7 := (Entails.of_eq (show (dmaPay m c 63 0 : sProp 𝕄) = rpts c (oCh (k0_off2 c 0#32 6#32) (k0_off2_inb c 10)) fullShare.left (Res m c) from rfl)) $$ ZP0_7
  sl_exec_parts
  iapply (wait_dma0 m K c 79 (by decide) (insert (SemLoc.dma (dsem 63), ()) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))))))) $$ [C36 HO P80]
  · isplitr; · iapply (State.inv_own_79 m K c); iexact HI
    isplitl [C36]; · iexact C36
    isplitl [HO]; · iexact HO
    iexact P80
  iintro ⟨HO, P80, -, ZR0_7⟩
  ihave ZR0_7 := (Entails.of_eq (show (dmaPay m c 79 0 : sProp 𝕄) = rpts c (oCh (k0_off2 (partD c) 0#32 6#32) (k0_off2_inb (partD c) 10)) fullShare (Res m c) from rfl)) $$ ZR0_7
  sl_exec_parts
  iapply (wait_dma0 m K c 71 (by decide) (insert (SemLoc.dma (dsem 79), ()) (insert (SemLoc.dma (dsem 63), ()) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W)))))))))))))))))))))))))))))))))))))))))))))))))))))))))))))))))))))))))))))))))))))))))))))))))))))))) $$ [Cz15 HO P72]
  · isplitr; · iapply (State.inv_own_71 m K c); iexact HI
    isplitl [Cz15]; · iexact Cz15
    isplitl [HO]; · iexact HO
    iexact P72
  iintro ⟨HO, P72, -, ZP1_7⟩
  ihave ZP1_7 := (Entails.of_eq (show (dmaPay m c 71 0 : sProp 𝕄) = rpts c (oCh (k0_off2 c 4096#32 4294967290#32) (k0_off2_inb c 11)) fullShare.left (Res m c) from rfl)) $$ ZP1_7
  sl_exec_parts
  iapply (wait_dma0 m K c 87 (by decide) (insert (SemLoc.dma (dsem 71), ()) (insert (SemLoc.dma (dsem 79), ()) (insert (SemLoc.dma (dsem 63), ()) (insert (SemLoc.dma (dsem 86), ()) (insert (SemLoc.dma (dsem 70), ()) (insert (SemLoc.dma (dsem 78), ()) (insert (SemLoc.dma (dsem 62), ()) (insert (SemLoc.dma (dsem 85), ()) (insert (SemLoc.dma (dsem 69), ()) (insert (SemLoc.dma (dsem 77), ()) (insert (SemLoc.dma (dsem 61), ()) (insert (SemLoc.dma (dsem 84), ()) (insert (SemLoc.dma (dsem 68), ()) (insert (SemLoc.dma (dsem 76), ()) (insert (SemLoc.dma (dsem 60), ()) (insert (SemLoc.dma (dsem 83), ()) (insert (SemLoc.dma (dsem 67), ()) (insert (SemLoc.dma (dsem 75), ()) (insert (SemLoc.dma (dsem 59), ()) (insert (SemLoc.dma (dsem 82), ()) (insert (SemLoc.dma (dsem 66), ()) (insert (SemLoc.dma (dsem 74), ()) (insert (SemLoc.dma (dsem 58), ()) (insert (SemLoc.dma (dsem 81), ()) (insert (SemLoc.dma (dsem 65), ()) (insert (SemLoc.dma (dsem 73), ()) (insert (SemLoc.dma (dsem 57), ()) (insert (SemLoc.dma (dsem 80), ()) (insert (SemLoc.dma (dsem 64), ()) (insert (SemLoc.dma (dsem 72), ()) (insert (SemLoc.dma (dsem 56), ()) (insert (SemLoc.dma (dsem 27), ()) (insert (SemLoc.dma (dsem 13), ()) (insert (SemLoc.dma (dsem 26), ()) (insert (SemLoc.dma (dsem 12), ()) (insert (SemLoc.dma (dsem 25), ()) (insert (SemLoc.dma (dsem 11), ()) (insert (SemLoc.dma (dsem 24), ()) (insert (SemLoc.dma (dsem 10), ()) (insert (SemLoc.dma (dsem 23), ()) (insert (SemLoc.dma (dsem 9), ()) (insert (SemLoc.dma (dsem 22), ()) (insert (SemLoc.dma (dsem 8), ()) (insert (SemLoc.dma (dsem 21), ()) (insert (SemLoc.dma (dsem 7), ()) (insert (SemLoc.dma (dsem 20), ()) (insert (SemLoc.dma (dsem 6), ()) (insert (SemLoc.dma (dsem 19), ()) (insert (SemLoc.dma (dsem 5), ()) (insert (SemLoc.dma (dsem 18), ()) (insert (SemLoc.dma (dsem 4), ()) (insert (SemLoc.dma (dsem 17), ()) (insert (SemLoc.dma (dsem 3), ()) (insert (SemLoc.dma (dsem 16), ()) (insert (SemLoc.dma (dsem 2), ()) (insert (SemLoc.dma (dsem 15), ()) (insert (SemLoc.dma (dsem 1), ()) (insert (SemLoc.dma (dsem 14), ()) (insert (SemLoc.dma (dsem 0), ()) (insert (SemLoc.dma (dsem 55), ()) (insert (SemLoc.dma (dsem 41), ()) (insert (SemLoc.dma (dsem 54), ()) (insert (SemLoc.dma (dsem 40), ()) (insert (SemLoc.dma (dsem 53), ()) (insert (SemLoc.dma (dsem 39), ()) (insert (SemLoc.dma (dsem 52), ()) (insert (SemLoc.dma (dsem 38), ()) (insert (SemLoc.dma (dsem 51), ()) (insert (SemLoc.dma (dsem 37), ()) (insert (SemLoc.dma (dsem 50), ()) (insert (SemLoc.dma (dsem 36), ()) (insert (SemLoc.dma (dsem 49), ()) (insert (SemLoc.dma (dsem 35), ()) (insert (SemLoc.dma (dsem 89), ()) (insert (SemLoc.dma (dsem 88), ()) (insert (SemLoc.dma (dsem 89), ()) (insert (SemLoc.dma (dsem 48), ()) (insert (SemLoc.dma (dsem 88), ()) (insert (SemLoc.dma (dsem 34), ()) (insert (SemLoc.dma (dsem 89), ()) (insert (SemLoc.dma (dsem 47), ()) (insert (SemLoc.dma (dsem 88), ()) (insert (SemLoc.dma (dsem 33), ()) (insert (SemLoc.dma (dsem 89), ()) (insert (SemLoc.dma (dsem 46), ()) (insert (SemLoc.dma (dsem 88), ()) (insert (SemLoc.dma (dsem 32), ()) (insert (SemLoc.dma (dsem 89), ()) (insert (SemLoc.dma (dsem 45), ()) (insert (SemLoc.dma (dsem 88), ()) (insert (SemLoc.dma (dsem 31), ()) (insert (SemLoc.dma (dsem 89), ()) (insert (SemLoc.dma (dsem 44), ()) (insert (SemLoc.dma (dsem 88), ()) (insert (SemLoc.dma (dsem 30), ()) (insert (SemLoc.dma (dsem 89), ()) (insert (SemLoc.dma (dsem 43), ()) (insert (SemLoc.dma (dsem 88), ()) (insert (SemLoc.dma (dsem 29), ()) (insert (SemLoc.dma (dsem 89), ()) (insert (SemLoc.dma (dsem 42), ()) (insert (SemLoc.dma (dsem 88), ()) (insert (SemLoc.dma (dsem 28), ()) (insert (SemLoc.reg barS, ()) W))))))))))))))))))))))))))))))))))))))))))))))))))))))))))))))))))))))))))))))))))))))))))))))))))))))))) $$ [C44 HO P88]
  · isplitr; · iapply (State.inv_own_87 m K c); iexact HI
    isplitl [C44]; · iexact C44
    isplitl [HO]; · iexact HO
    iexact P88
  iintro ⟨HO, P88, -, ZR1_7⟩
  ihave ZR1_7 := (Entails.of_eq (show (dmaPay m c 87 0 : sProp 𝕄) = rpts c (oCh (k0_off2 (partD c) 4096#32 4294967290#32) (k0_off2_inb (partD c) 11)) fullShare (Res m c) from rfl)) $$ ZR1_7
  ihave MA0_6 := (share_join (F := F) c (cSl 0 6 inb_S2x7x512x1024_S1x1x512x1024_0_6_0_0) (CommAcc m c)) $$ [ZP0_0 SP0_7]
  · isplitl [ZP0_0]; · iexact ZP0_0
    iexact SP0_7
  ihave SP0_8 := (Entails.of_eq (rpts_oCh_congr (F := F) c (k0_off4 c 0#32 1#32 1#32) (k0_off2 c 0#32 0#32) (k0_off4_inb c 2) (k0_off2_inb c 14) ((off4_0_1 c).trans (off2_0_0 c).symm) fullShare.right (Res m c))) $$ SP0_8
  ihave OJ0_0 := (share_join (F := F) c (oCh (k0_off2 c 0#32 0#32) (k0_off2_inb c 14)) (Res m c)) $$ [ZP0_1 SP0_8]
  · isplitl [ZP0_1]; · iexact ZP0_1
    iexact SP0_8
  ihave SP0_9 := (Entails.of_eq (rpts_oCh_congr (F := F) c (k0_off4 c 0#32 1#32 2#32) (k0_off2 c 0#32 1#32) (k0_off4_inb c 4) (k0_off2_inb c 0) ((off4_0_2 c).trans (off2_0_1 c).symm) fullShare.right (Res m c))) $$ SP0_9
  ihave OJ0_1 := (share_join (F := F) c (oCh (k0_off2 c 0#32 1#32) (k0_off2_inb c 0)) (Res m c)) $$ [ZP0_2 SP0_9]
  · isplitl [ZP0_2]; · iexact ZP0_2
    iexact SP0_9
  ihave SP0_10 := (Entails.of_eq (rpts_oCh_congr (F := F) c (k0_off4 c 0#32 1#32 3#32) (k0_off2 c 0#32 2#32) (k0_off4_inb c 6) (k0_off2_inb c 2) ((off4_0_3 c).trans (off2_0_2 c).symm) fullShare.right (Res m c))) $$ SP0_10
  ihave OJ0_2 := (share_join (F := F) c (oCh (k0_off2 c 0#32 2#32) (k0_off2_inb c 2)) (Res m c)) $$ [ZP0_3 SP0_10]
  · isplitl [ZP0_3]; · iexact ZP0_3
    iexact SP0_10
  ihave SP0_11 := (Entails.of_eq (rpts_oCh_congr (F := F) c (k0_off4 c 0#32 1#32 4#32) (k0_off2 c 0#32 3#32) (k0_off4_inb c 8) (k0_off2_inb c 4) ((off4_0_4 c).trans (off2_0_3 c).symm) fullShare.right (Res m c))) $$ SP0_11
  ihave OJ0_3 := (share_join (F := F) c (oCh (k0_off2 c 0#32 3#32) (k0_off2_inb c 4)) (Res m c)) $$ [ZP0_4 SP0_11]
  · isplitl [ZP0_4]; · iexact ZP0_4
    iexact SP0_11
  ihave SP0_12 := (Entails.of_eq (rpts_oCh_congr (F := F) c (k0_off4 c 0#32 1#32 5#32) (k0_off2 c 0#32 4#32) (k0_off4_inb c 10) (k0_off2_inb c 6) ((off4_0_5 c).trans (off2_0_4 c).symm) fullShare.right (Res m c))) $$ SP0_12
  ihave OJ0_4 := (share_join (F := F) c (oCh (k0_off2 c 0#32 4#32) (k0_off2_inb c 6)) (Res m c)) $$ [ZP0_5 SP0_12]
  · isplitl [ZP0_5]; · iexact ZP0_5
    iexact SP0_12
  ihave SP0_13 := (Entails.of_eq (rpts_oCh_congr (F := F) c (k0_off4 c 0#32 1#32 6#32) (k0_off2 c 0#32 5#32) (k0_off4_inb c 12) (k0_off2_inb c 8) ((off4_0_6 c).trans (off2_0_5 c).symm) fullShare.right (Res m c))) $$ SP0_13
  ihave OJ0_5 := (share_join (F := F) c (oCh (k0_off2 c 0#32 5#32) (k0_off2_inb c 8)) (Res m c)) $$ [ZP0_6 SP0_13]
  · isplitl [ZP0_6]; · iexact ZP0_6
    iexact SP0_13
  ihave OJ0_6 := (share_join (F := F) c (oCh (k0_off2 c 0#32 6#32) (k0_off2_inb c 10)) (Res m c)) $$ [ZP0_7 ORr0_6]
  · isplitl [ZP0_7]; · iexact ZP0_7
    iexact ORr0_6
  ihave MA1_6 := (share_join (F := F) c (cSl 1 6 inb_S2x7x512x1024_S1x1x512x1024_1_6_0_0) (CommAcc m c)) $$ [ZP1_0 SP1_7]
  · isplitl [ZP1_0]; · iexact ZP1_0
    iexact SP1_7
  ihave SP1_8 := (Entails.of_eq (rpts_oCh_congr (F := F) c (k0_off4 c 4096#32 4294967295#32 4294967295#32) (k0_off2 c 4096#32 0#32) (k0_off4_inb c 3) (k0_off2_inb c 15) ((off4_1_1 c).trans (off2_1_0 c).symm) fullShare.right (Res m c))) $$ SP1_8
  ihave OJ1_0 := (share_join (F := F) c (oCh (k0_off2 c 4096#32 0#32) (k0_off2_inb c 15)) (Res m c)) $$ [ZP1_1 SP1_8]
  · isplitl [ZP1_1]; · iexact ZP1_1
    iexact SP1_8
  ihave SP1_9 := (Entails.of_eq (rpts_oCh_congr (F := F) c (k0_off4 c 4096#32 4294967295#32 4294967294#32) (k0_off2 c 4096#32 4294967295#32) (k0_off4_inb c 5) (k0_off2_inb c 1) ((off4_1_2 c).trans (off2_1_1 c).symm) fullShare.right (Res m c))) $$ SP1_9
  ihave OJ1_1 := (share_join (F := F) c (oCh (k0_off2 c 4096#32 4294967295#32) (k0_off2_inb c 1)) (Res m c)) $$ [ZP1_2 SP1_9]
  · isplitl [ZP1_2]; · iexact ZP1_2
    iexact SP1_9
  ihave SP1_10 := (Entails.of_eq (rpts_oCh_congr (F := F) c (k0_off4 c 4096#32 4294967295#32 4294967293#32) (k0_off2 c 4096#32 4294967294#32) (k0_off4_inb c 7) (k0_off2_inb c 3) ((off4_1_3 c).trans (off2_1_2 c).symm) fullShare.right (Res m c))) $$ SP1_10
  ihave OJ1_2 := (share_join (F := F) c (oCh (k0_off2 c 4096#32 4294967294#32) (k0_off2_inb c 3)) (Res m c)) $$ [ZP1_3 SP1_10]
  · isplitl [ZP1_3]; · iexact ZP1_3
    iexact SP1_10
  ihave SP1_11 := (Entails.of_eq (rpts_oCh_congr (F := F) c (k0_off4 c 4096#32 4294967295#32 4294967292#32) (k0_off2 c 4096#32 4294967293#32) (k0_off4_inb c 9) (k0_off2_inb c 5) ((off4_1_4 c).trans (off2_1_3 c).symm) fullShare.right (Res m c))) $$ SP1_11
  ihave OJ1_3 := (share_join (F := F) c (oCh (k0_off2 c 4096#32 4294967293#32) (k0_off2_inb c 5)) (Res m c)) $$ [ZP1_4 SP1_11]
  · isplitl [ZP1_4]; · iexact ZP1_4
    iexact SP1_11
  ihave SP1_12 := (Entails.of_eq (rpts_oCh_congr (F := F) c (k0_off4 c 4096#32 4294967295#32 4294967291#32) (k0_off2 c 4096#32 4294967292#32) (k0_off4_inb c 11) (k0_off2_inb c 7) ((off4_1_5 c).trans (off2_1_4 c).symm) fullShare.right (Res m c))) $$ SP1_12
  ihave OJ1_4 := (share_join (F := F) c (oCh (k0_off2 c 4096#32 4294967292#32) (k0_off2_inb c 7)) (Res m c)) $$ [ZP1_5 SP1_12]
  · isplitl [ZP1_5]; · iexact ZP1_5
    iexact SP1_12
  ihave SP1_13 := (Entails.of_eq (rpts_oCh_congr (F := F) c (k0_off4 c 4096#32 4294967295#32 4294967290#32) (k0_off2 c 4096#32 4294967291#32) (k0_off4_inb c 13) (k0_off2_inb c 9) ((off4_1_6 c).trans (off2_1_5 c).symm) fullShare.right (Res m c))) $$ SP1_13
  ihave OJ1_5 := (share_join (F := F) c (oCh (k0_off2 c 4096#32 4294967291#32) (k0_off2_inb c 9)) (Res m c)) $$ [ZP1_6 SP1_13]
  · isplitl [ZP1_6]; · iexact ZP1_6
    iexact SP1_13
  ihave OJ1_6 := (share_join (F := F) c (oCh (k0_off2 c 4096#32 4294967290#32) (k0_off2_inb c 11)) (Res m c)) $$ [ZP1_7 ORr1_6]
  · isplitl [ZP1_7]; · iexact ZP1_7
    iexact ORr1_6
  ihave X1 := (Entails.of_eq (rpts_xCh_congr (F := F) c (k0_off1 c 0#32) (k0_off2 c 0#32 0#32) (k0_off1_inb c 0) (k0_off2_inb c 14) ((off1_0 c).trans (off2_0_0 c).symm) fullShare (X m c))) $$ SP0_0
  ihave X9 := (Entails.of_eq (rpts_xCh_congr (F := F) c (k0_off1 c 4096#32) (k0_off2 c 4096#32 0#32) (k0_off1_inb c 1) (k0_off2_inb c 15) ((off1_1 c).trans (off2_1_0 c).symm) fullShare (X m c))) $$ SP1_0
  ihave X0 := (Entails.of_eq (rpts_xCh_congr (F := F) c (k0_off2 c 0#32 7#32) (k0_off3 c 0#32 1#32) (k0_off2_inb c 12) (k0_off3_inb c 0) ((off2_0_7 c).trans (off3_0 c).symm) fullShare (X m c))) $$ X0
  ihave X8 := (Entails.of_eq (rpts_xCh_congr (F := F) c (k0_off2 c 4096#32 4294967289#32) (k0_off3 c 4096#32 4294967295#32) (k0_off2_inb c 13) (k0_off3_inb c 1) ((off2_1_7 c).trans (off3_1 c).symm) fullShare (X m c))) $$ X8
  ihave Hx := (Entails.of_eq (x_spelled (F := F) c fullShare (X m c)).symm) $$ [X0 X1 X2 X3 X4 X5 X6 X7 X8 X9 X10 X11 X12 X13 X14 X15 X16 X17 X18 X19 X20 X21 X22 X23 X24 X25 X26 X27 X28 X29 X30 X31]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [X15]; · iexact X15
    isplitl [X16]; · iexact X16
    isplitl [X17]; · iexact X17
    isplitl [X18]; · iexact X18
    isplitl [X19]; · iexact X19
    isplitl [X20]; · iexact X20
    isplitl [X21]; · iexact X21
    isplitl [X22]; · iexact X22
    isplitl [X23]; · iexact X23
    isplitl [X24]; · iexact X24
    isplitl [X25]; · iexact X25
    isplitl [X26]; · iexact X26
    isplitl [X27]; · iexact X27
    isplitl [X28]; · iexact X28
    isplitl [X29]; · iexact X29
    isplitl [X30]; · iexact X30
    iexact X31
  ihave Hout := (Entails.of_eq (out_spelled (F := F) c fullShare (Res m c)).symm) $$ [O0 OJ0_0 OJ0_1 OJ0_2 OJ0_3 OJ0_4 OJ0_5 OJ0_6 O8 OJ1_0 OJ1_1 OJ1_2 OJ1_3 OJ1_4 OJ1_5 OJ1_6 ZR0_0 ZR0_1 ZR0_2 ZR0_3 ZR0_4 ZR0_5 ZR0_6 ZR0_7 ZR1_0 ZR1_1 ZR1_2 ZR1_3 ZR1_4 ZR1_5 ZR1_6 ZR1_7]
  · isplitl [O0]; · iexact O0
    isplitl [OJ0_0]; · iexact OJ0_0
    isplitl [OJ0_1]; · iexact OJ0_1
    isplitl [OJ0_2]; · iexact OJ0_2
    isplitl [OJ0_3]; · iexact OJ0_3
    isplitl [OJ0_4]; · iexact OJ0_4
    isplitl [OJ0_5]; · iexact OJ0_5
    isplitl [OJ0_6]; · iexact OJ0_6
    isplitl [O8]; · iexact O8
    isplitl [OJ1_0]; · iexact OJ1_0
    isplitl [OJ1_1]; · iexact OJ1_1
    isplitl [OJ1_2]; · iexact OJ1_2
    isplitl [OJ1_3]; · iexact OJ1_3
    isplitl [OJ1_4]; · iexact OJ1_4
    isplitl [OJ1_5]; · iexact OJ1_5
    isplitl [OJ1_6]; · iexact OJ1_6
    isplitl [ZR0_0]; · iexact ZR0_0
    isplitl [ZR0_1]; · iexact ZR0_1
    isplitl [ZR0_2]; · iexact ZR0_2
    isplitl [ZR0_3]; · iexact ZR0_3
    isplitl [ZR0_4]; · iexact ZR0_4
    isplitl [ZR0_5]; · iexact ZR0_5
    isplitl [ZR0_6]; · iexact ZR0_6
    isplitl [ZR0_7]; · iexact ZR0_7
    isplitl [ZR1_0]; · iexact ZR1_0
    isplitl [ZR1_1]; · iexact ZR1_1
    isplitl [ZR1_2]; · iexact ZR1_2
    isplitl [ZR1_3]; · iexact ZR1_3
    isplitl [ZR1_4]; · iexact ZR1_4
    isplitl [ZR1_5]; · iexact ZR1_5
    isplitl [ZR1_6]; · iexact ZR1_6
    iexact ZR1_7
  ihave Hcomm := (Entails.of_eq (comm_spelled (F := F) c fullShare (CommAcc m c)).symm) $$ [SP0_1 SP0_2 SP0_3 SP0_4 SP0_5 SP0_6 MA0_6 SP1_1 SP1_2 SP1_3 SP1_4 SP1_5 SP1_6 MA1_6]
  · isplitl [SP0_1]; · iexact SP0_1
    isplitl [SP0_2]; · iexact SP0_2
    isplitl [SP0_3]; · iexact SP0_3
    isplitl [SP0_4]; · iexact SP0_4
    isplitl [SP0_5]; · iexact SP0_5
    isplitl [SP0_6]; · iexact SP0_6
    isplitl [MA0_6]; · iexact MA0_6
    isplitl [SP1_1]; · iexact SP1_1
    isplitl [SP1_2]; · iexact SP1_2
    isplitl [SP1_3]; · iexact SP1_3
    isplitl [SP1_4]; · iexact SP1_4
    isplitl [SP1_5]; · iexact SP1_5
    isplitl [SP1_6]; · iexact SP1_6
    iexact MA1_6
  ihave Hstage := (Entails.of_eq (stage_spelled (F := F) c fullShare (StageAt m c 6)).symm) $$ [S0 S1]
  · isplitl [S0]; · iexact S0
    iexact S1
  imod (close_all m K c) $$ [P1 P2 P3 P4 P5 P6 P7 P8 P9 P10 P11 P12 P13 P14 P15 P16 P17 P18 P19 P20 P21 P22 P23 P24 P25 P26 P27 P28 P29 P30 P31 P32 P33 P34 P35 P36 P37 P38 P39 P40 P41 P42 P43 P44 P45 P46 P47 P48 P49 P50 P51 P52 P53 P54 P55 P56 P57 P58 P59 P60 P61 P62 P63 P64 P65 P66 P67 P68 P69 P70 P71 P72 P73 P74 P75 P76 P77 P78 P79 P80 P81 P82 P83 P84 P85 P86 P87 P88 P89 P90] with Hsems
  · isplitr; · iapply (State.invs_own_chain m K c); iexact HI
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [P21]; · iexact P21
    isplitl [P22]; · iexact P22
    isplitl [P23]; · iexact P23
    isplitl [P24]; · iexact P24
    isplitl [P25]; · iexact P25
    isplitl [P26]; · iexact P26
    isplitl [P27]; · iexact P27
    isplitl [P28]; · iexact P28
    isplitl [P29]; · iexact P29
    isplitl [P30]; · iexact P30
    isplitl [P31]; · iexact P31
    isplitl [P32]; · iexact P32
    isplitl [P33]; · iexact P33
    isplitl [P34]; · iexact P34
    isplitl [P35]; · iexact P35
    isplitl [P36]; · iexact P36
    isplitl [P37]; · iexact P37
    isplitl [P38]; · iexact P38
    isplitl [P39]; · iexact P39
    isplitl [P40]; · iexact P40
    isplitl [P41]; · iexact P41
    isplitl [P42]; · iexact P42
    isplitl [P43]; · iexact P43
    isplitl [P44]; · iexact P44
    isplitl [P45]; · iexact P45
    isplitl [P46]; · iexact P46
    isplitl [P47]; · iexact P47
    isplitl [P48]; · iexact P48
    isplitl [P49]; · iexact P49
    isplitl [P50]; · iexact P50
    isplitl [P51]; · iexact P51
    isplitl [P52]; · iexact P52
    isplitl [P53]; · iexact P53
    isplitl [P54]; · iexact P54
    isplitl [P55]; · iexact P55
    isplitl [P56]; · iexact P56
    isplitl [P57]; · iexact P57
    isplitl [P58]; · iexact P58
    isplitl [P59]; · iexact P59
    isplitl [P60]; · iexact P60
    isplitl [P61]; · iexact P61
    isplitl [P62]; · iexact P62
    isplitl [P63]; · iexact P63
    isplitl [P64]; · iexact P64
    isplitl [P65]; · iexact P65
    isplitl [P66]; · iexact P66
    isplitl [P67]; · iexact P67
    isplitl [P68]; · iexact P68
    isplitl [P69]; · iexact P69
    isplitl [P70]; · iexact P70
    isplitl [P71]; · iexact P71
    isplitl [P72]; · iexact P72
    isplitl [P73]; · iexact P73
    isplitl [P74]; · iexact P74
    isplitl [P75]; · iexact P75
    isplitl [P76]; · iexact P76
    isplitl [P77]; · iexact P77
    isplitl [P78]; · iexact P78
    isplitl [P79]; · iexact P79
    isplitl [P80]; · iexact P80
    isplitl [P81]; · iexact P81
    isplitl [P82]; · iexact P82
    isplitl [P83]; · iexact P83
    isplitl [P84]; · iexact P84
    isplitl [P85]; · iexact P85
    isplitl [P86]; · iexact P86
    isplitl [P87]; · iexact P87
    isplitl [P88]; · iexact P88
    isplitl [P89]; · iexact P89
    iexact P90
  sl_exec_parts
  sl_step
  iapply HK
  unfold Φ₁
  isplitl [Hx Hout Hcomm Hstage Hsems]
  · isplitl [Hx]; · iexact Hx
    isplitl [Hout]; · iexact Hout
    isplitl [Hcomm]; · iexists _; iexact Hcomm
    isplitl [Hstage]; · iexists _; iexact Hstage
    iexact Hsems
  iexists _; iexact HO

/-- The library's body obligation on device c. -/
theorem body_obligation (ρ : Dev nD → PrngReg) (c : Dev nD) :
    BodyObligation (dats (F := F) m ρ 0 c) (defs₀ (F := F)) Variants.none () Set.univ :=
  body_obligation_of m ρ (fun K c W fo fc fs Kt => sound_body m K c W fo fc fs Kt) c

/-- info: 'Cert.Kernel.Body.body_obligation' depends on axioms: [propext, Classical.choice, Quot.sound] -/
#guard_msgs in #print axioms body_obligation

end Cert.Kernel.Body
end
-- ==== Proof.lean ====
/-
  The five statements of this certificate, assembled.

  The kernel is an all-reduce over the second axis of a mesh of 2 × 4 × 4 devices: each device holds one block of
  16384 rows of a whole array of 65536 rows, cut in four along that axis, and every device ends holding the sum of
  the four blocks. The reference, on one device, adds the four blocks of the whole array.

  * The kernel runs, as printed over machine words and as read over the extended reals, and leaves its argument
    unchanged. Both follow from one run of the launch: every weakly fair execution of the 32 bodies terminates
    without fault, each device's result array ends at the named result and its argument array as it began. The run
    is the library's launch theorem applied to the per-device obligation, which the body's proof discharges; the
    frame statement forgets the result.
  * The reference runs and leaves its argument unchanged: the run of its one device, the result forgotten.
  * The idealization rewrote no operation, so there is nothing to preserve beyond the program's own text.
  * Over the extended reals, from memories in which device c holds block (c / 4) mod 4 of the reference's whole
    array and every entry is finite, both programs run; the reference's result is zero plus the sum over the four
    blocks, entry by entry, and every device's result is that same array: the named result of the kernel is half
    the sum, over the eight devices of a ring, of a chunk each block of which sits on two of them, which is the
    sum over the four blocks. The arguments of both end unchanged.
-/
import proofs.«900727_g7700000000000728_dist_ar_v7x_xyz2x4x4_y_m16384_n1024_f32_1_alg».proof.Defs
import proofs.«900727_g7700000000000728_dist_ar_v7x_xyz2x4x4_y_m16384_n1024_f32_1_alg».proof.Proof.Gen.Kernel
import proofs.«900727_g7700000000000728_dist_ar_v7x_xyz2x4x4_y_m16384_n1024_f32_1_alg».proof.Proof.Gen.Kernel.Skeleton
import proofs.«900727_g7700000000000728_dist_ar_v7x_xyz2x4x4_y_m16384_n1024_f32_1_alg».proof.Proof.Gen.Kernel.Launch
import proofs.«900727_g7700000000000728_dist_ar_v7x_xyz2x4x4_y_m16384_n1024_f32_1_alg».proof.Proof.Gen.Kernel.Points
import proofs.«900727_g7700000000000728_dist_ar_v7x_xyz2x4x4_y_m16384_n1024_f32_1_alg».proof.Proof.Gen.Kernel.Frame
import proofs.«900727_g7700000000000728_dist_ar_v7x_xyz2x4x4_y_m16384_n1024_f32_1_alg».proof.Proof.Gen.KernelIdeal
import proofs.«900727_g7700000000000728_dist_ar_v7x_xyz2x4x4_y_m16384_n1024_f32_1_alg».proof.Proof.Gen.KernelIdeal.Skeleton
import proofs.«900727_g7700000000000728_dist_ar_v7x_xyz2x4x4_y_m16384_n1024_f32_1_alg».proof.Proof.Gen.KernelIdeal.Launch
import proofs.«900727_g7700000000000728_dist_ar_v7x_xyz2x4x4_y_m16384_n1024_f32_1_alg».proof.Proof.Gen.KernelIdeal.Points
import proofs.«900727_g7700000000000728_dist_ar_v7x_xyz2x4x4_y_m16384_n1024_f32_1_alg».proof.Proof.Gen.KernelIdeal.Frame
import proofs.«900727_g7700000000000728_dist_ar_v7x_xyz2x4x4_y_m16384_n1024_f32_1_alg».proof.Proof.Gen.ReferenceIdeal
import proofs.«900727_g7700000000000728_dist_ar_v7x_xyz2x4x4_y_m16384_n1024_f32_1_alg».proof.Proof.Gen.Pre_finite_inputs_Kernel
import proofs.«900727_g7700000000000728_dist_ar_v7x_xyz2x4x4_y_m16384_n1024_f32_1_alg».proof.Proof.Gen.Pre_finite_inputs_ReferenceIdeal
import proofs.«900727_g7700000000000728_dist_ar_v7x_xyz2x4x4_y_m16384_n1024_f32_1_alg».proof.Proof.RefSide
import proofs.«900727_g7700000000000728_dist_ar_v7x_xyz2x4x4_y_m16384_n1024_f32_1_alg».proof.Proof.Final
import proofs.«900727_g7700000000000728_dist_ar_v7x_xyz2x4x4_y_m16384_n1024_f32_1_alg».proof.Proof.Launch
import proofs.«900727_g7700000000000728_dist_ar_v7x_xyz2x4x4_y_m16384_n1024_f32_1_alg».proof.Proof.Body
import proofs.«900727_g7700000000000728_dist_ar_v7x_xyz2x4x4_y_m16384_n1024_f32_1_alg».proof.Proof.Bits.Launch
import proofs.«900727_g7700000000000728_dist_ar_v7x_xyz2x4x4_y_m16384_n1024_f32_1_alg».proof.Proof.Bits.Body
import Idealize.ShloMosaic.Adequacy
import Idealize.ShloMosaic.Init

noncomputable section

namespace Cert.Proof

open Idealize.ShloMosaic Idealize.SL.Sem Cert.Kernel

/-- The kernel over machine words runs and leaves its argument unchanged: its run, the result forgotten. -/
theorem frame_k : Cert.frame_Kernel :=
  fun m g _ => (θ_run Cert.Kernel.defs _ _).mono (fun _ h c => (h c).2) (Cert.Kernel.Launch.run_main (F := Bits) m g (Cert.Kernel.Body.body_obligation m g))

/-- The kernel over the extended reals runs and leaves its argument unchanged. -/
theorem frame_ki : Cert.frame_KernelIdeal :=
  fun m g _ => (θ_run Cert.KernelIdeal.defs _ _).mono (fun _ h c => (h c).2) (Cert.KernelIdeal.Launch.run_main (F := Ideal) m g (Cert.KernelIdeal.Body.body_obligation m g))

/-- Both programs run; every device's result is the reference's, the sum of the four blocks; the arguments of both
    end unchanged. -/
theorem algebraic_ki_ri : Cert.algebraic_KernelIdeal_ReferenceIdeal :=
  fun m g m' g' hpre hagree =>
    ⟨Cert.RefSide.refVal (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨(h c).1.trans (Cert.KernelIdeal.Final.res_eq_ref m _ hpre hagree c), (h c).2⟩)
        (Cert.KernelIdeal.Launch.run_main (F := Ideal) m g (Cert.KernelIdeal.Body.body_obligation m g)),
      Cert.RefSide.ref_run m' g'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, trivial, algebraic_ki_ri⟩

/-- info: 'Cert.Proof.claim' depends on axioms: [propext, Classical.choice, Quot.sound] -/
#guard_msgs in #print axioms claim

end Cert.Proof

end
